-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x6x256x64x176 : Shape := ⟨5, ![1, 6, 256, 64, 176]⟩
abbrev S1x1024x4 : Shape := ⟨3, ![1, 1024, 4]⟩
abbrev S1x6x3x256x704 : Shape := ⟨5, ![1, 6, 3, 256, 704]⟩
abbrev S1x6x4x4 : Shape := ⟨4, ![1, 6, 4, 4]⟩
abbrev S1x4x4 : Shape := ⟨3, ![1, 4, 4]⟩
abbrev S1 : Shape := ⟨1, ![1]⟩
abbrev S80x256 : Shape := ⟨2, ![80, 256]⟩
abbrev S80 : Shape := ⟨1, ![80]⟩
abbrev S_ : Shape := ⟨0, ![]⟩

class Facts : Prop where
  bcast_S_S1x6x256x64x176 : S_.BroadcastsInDim S1x6x256x64x176 (![] : Fin 0 → Fin S1x6x256x64x176.rank)
  reducesTo_S1x6x256x64x176_S_d0_1_2_3_4 : S1x6x256x64x176.ReducesTo [0, 1, 2, 3, 4] S_
  h_S_ : 0 < S_.numel
  bcast_S_S1x1024x4 : S_.BroadcastsInDim S1x1024x4 (![] : Fin 0 → Fin S1x1024x4.rank)
  reducesTo_S1x1024x4_S_d0_1_2 : S1x1024x4.ReducesTo [0, 1, 2] S_
  bcast_S_S1x6x3x256x704 : S_.BroadcastsInDim S1x6x3x256x704 (![] : Fin 0 → Fin S1x6x3x256x704.rank)
  reducesTo_S1x6x3x256x704_S_d0_1_2_3_4 : S1x6x3x256x704.ReducesTo [0, 1, 2, 3, 4] S_
  bcast_S_S1x6x4x4 : S_.BroadcastsInDim S1x6x4x4 (![] : Fin 0 → Fin S1x6x4x4.rank)
  reducesTo_S1x6x4x4_S_d0_1_2_3 : S1x6x4x4.ReducesTo [0, 1, 2, 3] S_
  bcast_S_S1x4x4 : S_.BroadcastsInDim S1x4x4 (![] : Fin 0 → Fin S1x4x4.rank)
  reducesTo_S1x4x4_S_d0_1_2 : S1x4x4.ReducesTo [0, 1, 2] S_
  bcast_S_S1 : S_.BroadcastsInDim S1 (![] : Fin 0 → Fin S1.rank)
  reducesTo_S1_S_d0 : S1.ReducesTo [0] S_
  bcast_S_S80x256 : S_.BroadcastsInDim S80x256 (![] : Fin 0 → Fin S80x256.rank)
  reducesTo_S80x256_S_d0_1 : S80x256.ReducesTo [0, 1] S_
  bcast_S_S80 : S_.BroadcastsInDim S80 (![] : Fin 0 → Fin S80.rank)
  reducesTo_S80_S_d0 : S80.ReducesTo [0] S_

variable [Facts]

def fn_part3 {F : FTy → Type} [FloatOps F] (main_v48 : IVec S_ 1) (main_v49 : FVec F S80 .f32) (main_v50 : FVec F S80 .f32) : IVec S_ 1 :=
  let main_v51 : IVec S80 1 := cmpf .olt main_v49 main_v50
  let main_c_19 : IVec S_ 1 := constantI S_ 1 1#1
  let main_v52 : IVec S_ 1 := (fun x v => Host.reduce IntOp.andi x v reducesTo_S80_S_d0 h_S_) main_v51 main_c_19
  let main_v53 : IVec S_ 1 := andi main_v48 main_v52
  main_v53

def fn_part2 {F : FTy → Type} [FloatOps F] (main_arg7 : FVec F S80x256 .f32) (main_arg8 : FVec F S80 .f32) (main_arg9 : FVec F S80 .f32) (main_arg10 : FVec F S80 .f32) (main_v33 : IVec S_ 1) : IVec S_ 1 :=
  let main_v34 : FVec F S80x256 .f32 := Host.absf main_arg7
  let main_cst_12 : FVec F S_ .f32 := constant S_ .f32 0x7F800000#32
  let main_v35 : FVec F S80x256 .f32 := broadcastInDim S80x256 ![] bcast_S_S80x256 main_cst_12
  let main_v36 : IVec S80x256 1 := cmpf .olt main_v34 main_v35
  let main_c_13 : IVec S_ 1 := constantI S_ 1 1#1
  let main_v37 : IVec S_ 1 := (fun x v => Host.reduce IntOp.andi x v reducesTo_S80x256_S_d0_1 h_S_) main_v36 main_c_13
  let main_v38 : IVec S_ 1 := andi main_v33 main_v37
  let main_v39 : FVec F S80 .f32 := Host.absf main_arg8
  let main_cst_14 : FVec F S_ .f32 := constant S_ .f32 0x7F800000#32
  let main_v40 : FVec F S80 .f32 := broadcastInDim S80 ![] bcast_S_S80 main_cst_14
  let main_v41 : IVec S80 1 := cmpf .olt main_v39 main_v40
  let main_c_15 : IVec S_ 1 := constantI S_ 1 1#1
  let main_v42 : IVec S_ 1 := (fun x v => Host.reduce IntOp.andi x v reducesTo_S80_S_d0 h_S_) main_v41 main_c_15
  let main_v43 : IVec S_ 1 := andi main_v38 main_v42
  let main_v44 : FVec F S80 .f32 := Host.absf main_arg9
  let main_cst_16 : FVec F S_ .f32 := constant S_ .f32 0x7F800000#32
  let main_v45 : FVec F S80 .f32 := broadcastInDim S80 ![] bcast_S_S80 main_cst_16
  let main_v46 : IVec S80 1 := cmpf .olt main_v44 main_v45
  let main_c_17 : IVec S_ 1 := constantI S_ 1 1#1
  let main_v47 : IVec S_ 1 := (fun x v => Host.reduce IntOp.andi x v reducesTo_S80_S_d0 h_S_) main_v46 main_c_17
  let main_v48 : IVec S_ 1 := andi main_v43 main_v47
  let main_v49 : FVec F S80 .f32 := Host.absf main_arg10
  let main_cst_18 : FVec F S_ .f32 := constant S_ .f32 0x7F800000#32
  let main_v50 : FVec F S80 .f32 := broadcastInDim S80 ![] bcast_S_S80 main_cst_18
  fn_part3 (F := F) main_v48 main_v49 main_v50

def fn_part1 {F : FTy → Type} [FloatOps F] (main_arg4 : FVec F S1x6x4x4 .f32) (main_arg5 : FVec F S1x4x4 .f32) (main_arg6 : FVec F S1 .f32) (main_arg7 : FVec F S80x256 .f32) (main_arg8 : FVec F S80 .f32) (main_arg9 : FVec F S80 .f32) (main_arg10 : FVec F S80 .f32) (main_v13 : IVec S_ 1) (main_v16 : IVec S1x6x4x4 1) : IVec S_ 1 :=
  let main_c_5 : IVec S_ 1 := constantI S_ 1 1#1
  let main_v17 : IVec S_ 1 := (fun x v => Host.reduce IntOp.andi x v reducesTo_S1x6x4x4_S_d0_1_2_3 h_S_) main_v16 main_c_5
  let main_v18 : IVec S_ 1 := andi main_v13 main_v17
  let main_v19 : FVec F S1x6x4x4 .f32 := Host.absf main_arg4
  let main_cst_6 : FVec F S_ .f32 := constant S_ .f32 0x7F800000#32
  let main_v20 : FVec F S1x6x4x4 .f32 := broadcastInDim S1x6x4x4 ![] bcast_S_S1x6x4x4 main_cst_6
  let main_v21 : IVec S1x6x4x4 1 := cmpf .olt main_v19 main_v20
  let main_c_7 : IVec S_ 1 := constantI S_ 1 1#1
  let main_v22 : IVec S_ 1 := (fun x v => Host.reduce IntOp.andi x v reducesTo_S1x6x4x4_S_d0_1_2_3 h_S_) main_v21 main_c_7
  let main_v23 : IVec S_ 1 := andi main_v18 main_v22
  let main_v24 : FVec F S1x4x4 .f32 := Host.absf main_arg5
  let main_cst_8 : FVec F S_ .f32 := constant S_ .f32 0x7F800000#32
  let main_v25 : FVec F S1x4x4 .f32 := broadcastInDim S1x4x4 ![] bcast_S_S1x4x4 main_cst_8
  let main_v26 : IVec S1x4x4 1 := cmpf .olt main_v24 main_v25
  let main_c_9 : IVec S_ 1 := constantI S_ 1 1#1
  let main_v27 : IVec S_ 1 := (fun x v => Host.reduce IntOp.andi x v reducesTo_S1x4x4_S_d0_1_2 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x6x256x64x176 .f32) (main_arg1 : FVec F S1x1024x4 .f32) (main_arg2 : FVec F S1x6x3x256x704 .f32) (main_arg3 : FVec F S1x6x4x4 .f32) (main_arg4 : FVec F S1x6x4x4 .f32) (main_arg5 : FVec F S1x4x4 .f32) (main_arg6 : FVec F S1 .f32) (main_arg7 : FVec F S80x256 .f32) (main_arg8 : FVec F S80 .f32) (main_arg9 : FVec F S80 .f32) (main_arg10 : FVec F S80 .f32) : IVec S_ 1 :=
  let main_v0 : FVec F S1x6x256x64x176 .f32 := Host.absf main_arg0
  let main_cst : FVec F S_ .f32 := constant S_ .f32 0x7F800000#32
  let main_v1 : FVec F S1x6x256x64x176 .f32 := broadcastInDim S1x6x256x64x176 ![] bcast_S_S1x6x256x64x176 main_cst
  let main_v2 : IVec S1x6x256x64x176 1 := cmpf .olt main_v0 main_v1
  let main_c : IVec S_ 1 := constantI S_ 1 1#1
  let main_v3 : IVec S_ 1 := (fun x v => Host.reduce IntOp.andi x v reducesTo_S1x6x256x64x176_S_d0_1_2_3_4 h_S_) main_v2 main_c
  let main_v4 : FVec F S1x1024x4 .f32 := Host.absf main_arg1
  let main_cst_0 : FVec F S_ .f32 := constant S_ .f32 0x7F800000#32
  let main_v5 : FVec F S1x1024x4 .f32 := broadcastInDim S1x1024x4 ![] bcast_S_S1x1024x4 main_cst_0
  let main_v6 : IVec S1x1024x4 1 := cmpf .olt main_v4 main_v5
  let main_c_1 : IVec S_ 1 := constantI S_ 1 1#1
  let main_v7 : IVec S_ 1 := (fun x v => Host.reduce IntOp.andi x v reducesTo_S1x1024x4_S_d0_1_2 h_S_) main_v6 main_c_1
  let main_v8 : IVec S_ 1 := andi main_v3 main_v7
  let main_v9 : FVec F S1x6x3x256x704 .f32 := Host.absf main_arg2
  let main_cst_2 : FVec F S_ .f32 := constant S_ .f32 0x7F800000#32
  let main_v10 : FVec F S1x6x3x256x704 .f32 := broadcastInDim S1x6x3x256x704 ![] bcast_S_S1x6x3x256x704 main_cst_2
  let main_v11 : IVec S1x6x3x256x704 1 := cmpf .olt main_v9 main_v10
  let main_c_3 : IVec S_ 1 := constantI S_ 1 1#1
  let main_v12 : IVec S_ 1 := (fun x v => Host.reduce IntOp.andi x v reducesTo_S1x6x3x256x704_S_d0_1_2_3_4 h_S_) main_v11 main_c_3
  let main_v13 : IVec S_ 1 := andi main_v8 main_v12
  let main_v14 : FVec F S1x6x4x4 .f32 := Host.absf main_arg3
  let main_cst_4 : FVec F S_ .f32 := constant S_ .f32 0x7F800000#32
  let main_v15 : FVec F S1x6x4x4 .f32 := broadcastInDim S1x6x4x4 ![] bcast_S_S1x6x4x4 main_cst_4
  let main_v16 : IVec S1x6x4x4 1 := cmpf .olt main_v14 main_v15
  fn_part1 (F := F) main_arg4 main_arg5 main_arg6 main_arg7 main_arg8 main_arg9 main_arg10 main_v13 main_v16
-- ==== Kernel.lean ====
abbrev S1x6x256x64x176 : Shape := ⟨5, ![1, 6, 256, 64, 176]⟩
abbrev S1x1024x4 : Shape := ⟨3, ![1, 1024, 4]⟩
abbrev S1x6x3x256x704 : Shape := ⟨5, ![1, 6, 3, 256, 704]⟩
abbrev S1x6x4x4 : Shape := ⟨4, ![1, 6, 4, 4]⟩
abbrev S1x4x4 : Shape := ⟨3, ![1, 4, 4]⟩
abbrev S1 : Shape := ⟨1, ![1]⟩
abbrev S80x256 : Shape := ⟨2, ![80, 256]⟩
abbrev S80 : Shape := ⟨1, ![80]⟩
abbrev S6x256x64x176 : Shape := ⟨4, ![6, 256, 64, 176]⟩
abbrev S6x256x11264 : Shape := ⟨3, ![6, 256, 11264]⟩
abbrev S7x11264x128 : Shape := ⟨3, ![7, 11264, 128]⟩
abbrev S1x256x5632 : Shape := ⟨3, ![1, 256, 5632]⟩
abbrev S1x5632x128 : Shape := ⟨3, ![1, 5632, 128]⟩
abbrev S256x5632 : Shape := ⟨2, ![256, 5632]⟩
abbrev S5632x80 : Shape := ⟨2, ![5632, 80]⟩
abbrev S1x5632x80 : Shape := ⟨3, ![1, 5632, 80]⟩
abbrev S5632x48 : Shape := ⟨2, ![5632, 48]⟩
abbrev S1x5632x48 : Shape := ⟨3, ![1, 5632, 48]⟩
abbrev S78848x128 : Shape := ⟨2, ![78848, 128]⟩
abbrev S4x4 : Shape := ⟨2, ![4, 4]⟩
abbrev S3x1 : Shape := ⟨2, ![3, 1]⟩
abbrev S3 : Shape := ⟨1, ![3]⟩
abbrev S3x3 : Shape := ⟨2, ![3, 3]⟩
abbrev S6x4x4 : Shape := ⟨3, ![6, 4, 4]⟩
abbrev S6x4x1 : Shape := ⟨3, ![6, 4, 1]⟩
abbrev S6x4 : Shape := ⟨2, ![6, 4]⟩
abbrev S_ : Shape := ⟨0, ![]⟩
abbrev S2 : Shape := ⟨1, ![2]⟩
abbrev S6x3 : Shape := ⟨2, ![6, 3]⟩
abbrev S6x3x4 : Shape := ⟨3, ![6, 3, 4]⟩
abbrev S6x2 : Shape := ⟨2, ![6, 2]⟩
abbrev S12 : Shape := ⟨1, ![12]⟩
abbrev S15 : Shape := ⟨1, ![15]⟩
abbrev S8x1x20000 : Shape := ⟨3, ![8, 1, 20000]⟩
abbrev S1x1x20000 : Shape := ⟨3, ![1, 1, 20000]⟩
abbrev S1x20000 : Shape := ⟨2, ![1, 20000]⟩
abbrev S3x20000 : Shape := ⟨2, ![3, 20000]⟩
abbrev S4x20000 : Shape := ⟨2, ![4, 20000]⟩
abbrev S1x3x4 : Shape := ⟨3, ![1, 3, 4]⟩
abbrev S3x4 : Shape := ⟨2, ![3, 4]⟩
abbrev S32x250x20 : Shape := ⟨3, ![32, 250, 20]⟩
abbrev S32x5x250x80 : Shape := ⟨4, ![32, 5, 250, 80]⟩
abbrev S250x20 : Shape := ⟨2, ![250, 20]⟩
abbrev S10x20x128 : Shape := ⟨3, ![10, 20, 128]⟩
abbrev S250x80 : Shape := ⟨2, ![250, 80]⟩
abbrev S1x250x20 : Shape := ⟨3, ![1, 250, 20]⟩
abbrev S1x20x128 : Shape := ⟨3, ![1, 20, 128]⟩
abbrev S20x128 : Shape := ⟨2, ![20, 128]⟩
abbrev S1x20 : Shape := ⟨2, ![1, 20]⟩
abbrev S20 : Shape := ⟨1, ![20]⟩
abbrev S1x1x16 : Shape := ⟨3, ![1, 1, 16]⟩
abbrev S16 : Shape := ⟨1, ![16]⟩
abbrev S1x16 : Shape := ⟨2, ![1, 16]⟩
abbrev S1x1x250x80 : Shape := ⟨4, ![1, 1, 250, 80]⟩
abbrev S40000x80 : Shape := ⟨2, ![40000, 80]⟩
abbrev S2x80 : Shape := ⟨2, ![2, 80]⟩
abbrev S5000x80 : Shape := ⟨2, ![5000, 80]⟩
abbrev S1x80 : Shape := ⟨2, ![1, 80]⟩
abbrev S960x80 : Shape := ⟨2, ![960, 80]⟩
abbrev S40960x80 : Shape := ⟨2, ![40960, 80]⟩
abbrev S80x40960 : Shape := ⟨2, ![80, 40960]⟩
abbrev S5120x80 : Shape := ⟨2, ![5120, 80]⟩
abbrev S80x80 : Shape := ⟨2, ![80, 80]⟩
abbrev S80x5120 : Shape := ⟨2, ![80, 5120]⟩
abbrev S80x40000 : Shape := ⟨2, ![80, 40000]⟩
abbrev S1x80x200x200 : Shape := ⟨4, ![1, 80, 200, 200]⟩

abbrev nBuf : Table → Nat
  | .hbm => 49
  | .local .tc .vmem => 18
  | .local .tc .smem => 1
  | .local .scVector .vmem => 3
  | _ => 0

abbrev bufTy : (tb : Table) → Fin (nBuf tb) → BufTy
  | .hbm, ⟨0, _⟩ => ⟨S1x6x256x64x176, .f32⟩
  | .hbm, ⟨1, _⟩ => ⟨S1x1024x4, .f32⟩
  | .hbm, ⟨2, _⟩ => ⟨S1x6x3x256x704, .f32⟩
  | .hbm, ⟨3, _⟩ => ⟨S1x6x4x4, .f32⟩
  | .hbm, ⟨4, _⟩ => ⟨S1x6x4x4, .f32⟩
  | .hbm, ⟨5, _⟩ => ⟨S1x4x4, .f32⟩
  | .hbm, ⟨6, _⟩ => ⟨S1, .f32⟩
  | .hbm, ⟨7, _⟩ => ⟨S80x256, .f32⟩
  | .hbm, ⟨8, _⟩ => ⟨S80, .f32⟩
  | .hbm, ⟨9, _⟩ => ⟨S80, .f32⟩
  | .hbm, ⟨10, _⟩ => ⟨S80, .f32⟩
  | .hbm, ⟨11, _⟩ => ⟨S6x256x64x176, .f32⟩
  | .hbm, ⟨12, _⟩ => ⟨S6x256x11264, .f32⟩
  | .hbm, ⟨13, _⟩ => ⟨S7x11264x128, .f32⟩
  | .hbm, ⟨14, _⟩ => ⟨S78848x128, .f32⟩
  | .hbm, ⟨15, _⟩ => ⟨S4x4, .f32⟩
  | .hbm, ⟨16, _⟩ => ⟨S3x1, .f32⟩
  | .hbm, ⟨17, _⟩ => ⟨S3, .f32⟩
  | .hbm, ⟨18, _⟩ => ⟨S3x3, .f32⟩
  | .hbm, ⟨19, _⟩ => ⟨S6x4x4, .f32⟩
  | .hbm, ⟨20, _⟩ => ⟨S6x4x1, .f32⟩
  | .hbm, ⟨21, _⟩ => ⟨S6x4, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S_, .f32⟩
  | .hbm, ⟨28, _⟩ => ⟨S6x3, .f32⟩
  | .hbm, ⟨29, _⟩ => ⟨S6x4x4, .f32⟩
  | .hbm, ⟨30, _⟩ => ⟨S6x4x4, .f32⟩
  | .hbm, ⟨31, _⟩ => ⟨S6x4x4, .f32⟩
  | .hbm, ⟨32, _⟩ => ⟨S6x3x4, .f32⟩
  | .hbm, ⟨33, _⟩ => ⟨S6x2, .f32⟩
  | .hbm, ⟨34, _⟩ => ⟨S12, .f32⟩
  | .hbm, ⟨35, _⟩ => ⟨S15, .f32⟩
  | .hbm, ⟨36, _⟩ => ⟨S8x1x20000, .i32⟩
  | .hbm, ⟨37, _⟩ => ⟨S32x250x20, .i32⟩
  | .hbm, ⟨38, _⟩ => ⟨S32x5x250x80, .f32⟩
  | .hbm, ⟨39, _⟩ => ⟨S40000x80, .f32⟩
  | .hbm, ⟨40, _⟩ => ⟨S2x80, .f32⟩
  | .hbm, ⟨41, _⟩ => ⟨S_, .f32⟩
  | .hbm, ⟨42, _⟩ => ⟨S960x80, .f32⟩
  | .hbm, ⟨43, _⟩ => ⟨S40960x80, .f32⟩
  | .hbm, ⟨44, _⟩ => ⟨S1x80, .f32⟩
  | .hbm, ⟨45, _⟩ => ⟨S1x80, .f32⟩
  | .hbm, ⟨46, _⟩ => ⟨S80x40960, .f32⟩
  | .hbm, ⟨47, _⟩ => ⟨S80x40000, .f32⟩
  | .hbm, ⟨48, _⟩ => ⟨S1x80x200x200, .f32⟩
  | .local .tc .vmem, ⟨0, _⟩ => ⟨S1x256x5632, .f32⟩
  | .local .tc .vmem, ⟨1, _⟩ => ⟨S1x256x5632, .f32⟩
  | .local .tc .vmem, ⟨2, _⟩ => ⟨S80x256, .f32⟩
  | .local .tc .vmem, ⟨3, _⟩ => ⟨S1x5632x128, .f32⟩
  | .local .tc .vmem, ⟨4, _⟩ => ⟨S1x5632x128, .f32⟩
  | .local .tc .vmem, ⟨5, _⟩ => ⟨S3x3, .f32⟩
  | .local .tc .vmem, ⟨6, _⟩ => ⟨S6x3x4, .f32⟩
  | .local .tc .vmem, ⟨7, _⟩ => ⟨S1x1x20000, .i32⟩
  | .local .tc .vmem, ⟨8, _⟩ => ⟨S1x1x20000, .i32⟩
  | .local .tc .vmem, ⟨9, _⟩ => ⟨S5000x80, .f32⟩
  | .local .tc .vmem, ⟨10, _⟩ => ⟨S5000x80, .f32⟩
  | .local .tc .vmem, ⟨11, _⟩ => ⟨S2x80, .f32⟩
  | .local .tc .vmem, ⟨12, _⟩ => ⟨S5120x80, .f32⟩
  | .local .tc .vmem, ⟨13, _⟩ => ⟨S5120x80, .f32⟩
  | .local .tc .vmem, ⟨14, _⟩ => ⟨S2x80, .f32⟩
  | .local .tc .vmem, ⟨15, _⟩ => ⟨S1x80, .f32⟩
  | .local .tc .vmem, ⟨16, _⟩ => ⟨S1x80, .f32⟩
  | .local .tc .vmem, ⟨17, _⟩ => ⟨S80x40960, .f32⟩
  | .local .tc .smem, ⟨0, _⟩ => ⟨S15, .f32⟩
  | .local .scVector .vmem, ⟨0, _⟩ => ⟨S250x20, .i32⟩
  | .local .scVector .vmem, ⟨1, _⟩ => ⟨S10x20x128, .f32⟩
  | .local .scVector .vmem, ⟨2, _⟩ => ⟨S250x80, .f32⟩
  | _, _ => ⟨S1x6x256x64x176, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v3_scv : Ref sig .scVector := ⟨.hbm, 14, rfl⟩
abbrev main_v23_scv : Ref sig .scVector := ⟨.hbm, 37, rfl⟩
abbrev main_v24_scv : Ref sig .scVector := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg3_0 : Ref sig .tc := ⟨.vmem, 7, rfl⟩
abbrev cc1_stg3_1 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc4_stg0_0 : Ref sig .tc := ⟨.vmem, 12, rfl⟩
abbrev cc4_stg0_1 : Ref sig .tc := ⟨.vmem, 13, rfl⟩
abbrev cc4_stg1_0 : Ref sig .tc := ⟨.vmem, 14, rfl⟩
abbrev cc4_stg2_0 : Ref sig .tc := ⟨.vmem, 15, rfl⟩
abbrev cc4_stg3_0 : Ref sig .tc := ⟨.vmem, 16, rfl⟩
abbrev cc4_stg4_0 : Ref sig .tc := ⟨.vmem, 17, rfl⟩
abbrev cc1_stg2_0 : Ref sig .tc := ⟨.smem, 0, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev cc3_sem0_0 : DmaSem sig := 31
abbrev cc3_sem0_1 : DmaSem sig := 32
abbrev cc3_sem1_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![7, 2], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c0_i32 : BitVec 32 := 0#32
  let c0_i32_0 : BitVec 32 := 0#32
  ![v0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S80x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x5632x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S3x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S6x3x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S15 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x20000 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65_r0 : BitVec 32 := 0#32
  let c0_i32_66_r0 : BitVec 32 := 0#32
  ![v1.toNat, 0, 0]
@[reducible] def k2_t1_loop : Scf.Loop 32 :=
  let c0_i32_62 : BitVec 32 := 0#32
  let c25_i32 : BitVec 32 := 25#32
  let v52 : BitVec 32 := Scalar.addi c0_i32_62 c25_i32
  let c1_i32_63 : BitVec 32 := 1#32
  ⟨c0_i32_62, v52, c1_i32_63⟩
def k2_off2 (k2_t1 : Fin k2_t1_loop.trips) (c0_i32_65 : BitVec 32) : Fin 2 → Nat :=
  let c0_i32_62 : BitVec 32 := 0#32
  let c1_i32_63 : BitVec 32 := 1#32
  let arg18 : BitVec 32 := Scf.iv c0_i32_62 c1_i32_63 k2_t1
  let c10_i32 : BitVec 32 := 10#32
  let v54 : BitVec 32 := Scalar.muli arg18 c10_i32
  let v55 : BitVec 32 := Scalar.addi v54 c0_i32_65
  let c0_i32_69 : BitVec 32 := 0#32
  ![v55.toNat, 0]
@[reducible] def k2_t2_loop : Scf.Loop 32 :=
  let c0_i32_81 : BitVec 32 := 0#32
  let c5_i32_82 : BitVec 32 := 5#32
  let v81 : BitVec 32 := Scalar.addi c0_i32_81 c5_i32_82
  let c1_i32_83 : BitVec 32 := 1#32
  ⟨c0_i32_81, v81, c1_i32_83⟩
def k2_off3 (k2_t2 : Fin k2_t2_loop.trips) : Fin 3 → Nat :=
  let c0_i32_333 : BitVec 32 := 0#32
  let v415 : Index := Scalar.indexCast c0_i32_333
  let c4_i32_332 : BitVec 32 := 4#32
  let c0_i32_81 : BitVec 32 := 0#32
  let c1_i32_83 : BitVec 32 := 1#32
  let arg20 : BitVec 32 := Scf.iv c0_i32_81 c1_i32_83 k2_t2
  let v414 : BitVec 32 := Scalar.muli c4_i32_332 arg20
  let v416 : Index := Scalar.indexCast v414
  let c0 : Index := 0#32
  ![0, v416.toNat, 0]
def k2_off4 (k2_t2 : Fin k2_t2_loop.trips) (c1_i32_334 : BitVec 32) : Fin 3 → Nat :=
  let c0_i32_335 : BitVec 32 := 0#32
  let v420 : Index := Scalar.indexCast c0_i32_335
  let c4_i32_332 : BitVec 32 := 4#32
  let c0_i32_81 : BitVec 32 := 0#32
  let c1_i32_83 : BitVec 32 := 1#32
  let arg20 : BitVec 32 := Scf.iv c0_i32_81 c1_i32_83 k2_t2
  let v414 : BitVec 32 := Scalar.muli c4_i32_332 arg20
  let v419 : BitVec 32 := Scalar.addi v414 c1_i32_334
  let v421 : Index := Scalar.indexCast v419
  let c0_336 : Index := 0#32
  ![0, v421.toNat, 0]
def k2_off5 (k2_t1 : Fin k2_t1_loop.trips) (k2_t2 : Fin k2_t2_loop.trips) : Fin 2 → Nat :=
  let c0_i32_62 : BitVec 32 := 0#32
  let c1_i32_63 : BitVec 32 := 1#32
  let arg18 : BitVec 32 := Scf.iv c0_i32_62 c1_i32_63 k2_t1
  let c10_i32 : BitVec 32 := 10#32
  let v54 : BitVec 32 := Scalar.muli arg18 c10_i32
  let c0_i32_65 : BitVec 32 := 0#32
  let v55 : BitVec 32 := Scalar.addi v54 c0_i32_65
  let c0_i32_72 : BitVec 32 := 0#32
  let v62 : BitVec 1 := Scalar.cmpi .sgt v55 c0_i32_72
  let v63 : BitVec 32 := Scalar.extui v62
  let c0_i32_73 : BitVec 32 := 0#32
  let v64 : BitVec 1 := Scalar.cmpi .slt v55 c0_i32_73
  let v65 : BitVec 32 := Scalar.extui v64
  let v66 : BitVec 32 := Scalar.subi v63 v65
  let c50_i32 : BitVec 32 := 50#32
  let c0_i32_74 : BitVec 32 := 0#32
  let v67 : BitVec 1 := Scalar.cmpi .sgt c50_i32 c0_i32_74
  let v68 : BitVec 32 := Scalar.extui v67
  let c0_i32_75 : BitVec 32 := 0#32
  let v69 : BitVec 1 := Scalar.cmpi .slt c50_i32 c0_i32_75
  let v70 : BitVec 32 := Scalar.extui v69
  let v71 : BitVec 32 := Scalar.subi v68 v70
  let v72 : BitVec 1 := Scalar.cmpi .ne v66 v71
  let v73 : BitVec 32 := Scalar.remsi v55 c50_i32
  let c0_i32_76 : BitVec 32 := 0#32
  let v74 : BitVec 1 := Scalar.cmpi .ne v73 c0_i32_76
  let v75 : BitVec 1 := Scalar.andi v72 v74
  let v61 : BitVec 32 := Scalar.divsi v55 c50_i32
  let c1_i32_77 : BitVec 32 := 1#32
  let v76 : BitVec 32 := Scalar.subi v61 c1_i32_77
  let v77 : BitVec 32 := Scalar.select v75 v76 v61
  let c50_i32_78 : BitVec 32 := 50#32
  let v78 : BitVec 32 := Scalar.muli v77 c50_i32_78
  let v79 : BitVec 32 := Scalar.subi v55 v78
  let c5_i32_79 : BitVec 32 := 5#32
  let v80 : BitVec 32 := Scalar.muli v79 c5_i32_79
  let c0_i32_81 : BitVec 32 := 0#32
  let c1_i32_83 : BitVec 32 := 1#32
  let arg20 : BitVec 32 := Scf.iv c0_i32_81 c1_i32_83 k2_t2
  let v437 : BitVec 32 := Scalar.addi v80 arg20
  let v438 : Index := Scalar.indexCast v437
  let c0_343 : Index := 0#32
  ![v438.toNat, 0]
def k2_off6 (k2_t2 : Fin k2_t2_loop.trips) : Fin 3 → Nat :=
  let c0_i32_344 : BitVec 32 := 0#32
  let v442 : Index := Scalar.indexCast c0_i32_344
  let c4_i32_332 : BitVec 32 := 4#32
  let c0_i32_81 : BitVec 32 := 0#32
  let c1_i32_83 : BitVec 32 := 1#32
  let arg20 : BitVec 32 := Scf.iv c0_i32_81 c1_i32_83 k2_t2
  let v414 : BitVec 32 := Scalar.muli c4_i32_332 arg20
  let v443 : Index := Scalar.indexCast v414
  let c16 : Index := 16#32
  ![0, v443.toNat, 16]
def k2_off7 (k2_t2 : Fin k2_t2_loop.trips) (c1_i32_345 : BitVec 32) : Fin 3 → Nat :=
  let c0_i32_346 : BitVec 32 := 0#32
  let v447 : Index := Scalar.indexCast c0_i32_346
  let c4_i32_332 : BitVec 32 := 4#32
  let c0_i32_81 : BitVec 32 := 0#32
  let c1_i32_83 : BitVec 32 := 1#32
  let arg20 : BitVec 32 := Scf.iv c0_i32_81 c1_i32_83 k2_t2
  let v414 : BitVec 32 := Scalar.muli c4_i32_332 arg20
  let v446 : BitVec 32 := Scalar.addi v414 c1_i32_345
  let v448 : Index := Scalar.indexCast v446
  let c16_347 : Index := 16#32
  ![0, v448.toNat, 16]
def k2_off8 (k2_t1 : Fin k2_t1_loop.trips) (k2_t2 : Fin k2_t2_loop.trips) : Fin 2 → Nat :=
  let c0_i32_62 : BitVec 32 := 0#32
  let c1_i32_63 : BitVec 32 := 1#32
  let arg18 : BitVec 32 := Scf.iv c0_i32_62 c1_i32_63 k2_t1
  let c10_i32 : BitVec 32 := 10#32
  let v54 : BitVec 32 := Scalar.muli arg18 c10_i32
  let c0_i32_65 : BitVec 32 := 0#32
  let v55 : BitVec 32 := Scalar.addi v54 c0_i32_65
  let c0_i32_72 : BitVec 32 := 0#32
  let v62 : BitVec 1 := Scalar.cmpi .sgt v55 c0_i32_72
  let v63 : BitVec 32 := Scalar.extui v62
  let c0_i32_73 : BitVec 32 := 0#32
  let v64 : BitVec 1 := Scalar.cmpi .slt v55 c0_i32_73
  let v65 : BitVec 32 := Scalar.extui v64
  let v66 : BitVec 32 := Scalar.subi v63 v65
  let c50_i32 : BitVec 32 := 50#32
  let c0_i32_74 : BitVec 32 := 0#32
  let v67 : BitVec 1 := Scalar.cmpi .sgt c50_i32 c0_i32_74
  let v68 : BitVec 32 := Scalar.extui v67
  let c0_i32_75 : BitVec 32 := 0#32
  let v69 : BitVec 1 := Scalar.cmpi .slt c50_i32 c0_i32_75
  let v70 : BitVec 32 := Scalar.extui v69
  let v71 : BitVec 32 := Scalar.subi v68 v70
  let v72 : BitVec 1 := Scalar.cmpi .ne v66 v71
  let v73 : BitVec 32 := Scalar.remsi v55 c50_i32
  let c0_i32_76 : BitVec 32 := 0#32
  let v74 : BitVec 1 := Scalar.cmpi .ne v73 c0_i32_76
  let v75 : BitVec 1 := Scalar.andi v72 v74
  let v61 : BitVec 32 := Scalar.divsi v55 c50_i32
  let c1_i32_77 : BitVec 32 := 1#32
  let v76 : BitVec 32 := Scalar.subi v61 c1_i32_77
  let v77 : BitVec 32 := Scalar.select v75 v76 v61
  let c50_i32_78 : BitVec 32 := 50#32
  let v78 : BitVec 32 := Scalar.muli v77 c50_i32_78
  let v79 : BitVec 32 := Scalar.subi v55 v78
  let c5_i32_79 : BitVec 32 := 5#32
  let v80 : BitVec 32 := Scalar.muli v79 c5_i32_79
  let c0_i32_81 : BitVec 32 := 0#32
  let c1_i32_83 : BitVec 32 := 1#32
  let arg20 : BitVec 32 := Scf.iv c0_i32_81 c1_i32_83 k2_t2
  let v464 : BitVec 32 := Scalar.addi v80 arg20
  let v465 : Index := Scalar.indexCast v464
  let c16_354 : Index := 16#32
  ![v465.toNat, 16]
def k2_off9 (k2_t2 : Fin k2_t2_loop.trips) : Fin 3 → Nat :=
  let c0_i32_355 : BitVec 32 := 0#32
  let v469 : Index := Scalar.indexCast c0_i32_355
  let c4_i32_332 : BitVec 32 := 4#32
  let c0_i32_81 : BitVec 32 := 0#32
  let c1_i32_83 : BitVec 32 := 1#32
  let arg20 : BitVec 32 := Scf.iv c0_i32_81 c1_i32_83 k2_t2
  let v414 : BitVec 32 := Scalar.muli c4_i32_332 arg20
  let v470 : Index := Scalar.indexCast v414
  let c32 : Index := 32#32
  ![0, v470.toNat, 32]
def k2_off10 (k2_t2 : Fin k2_t2_loop.trips) (c1_i32_356 : BitVec 32) : Fin 3 → Nat :=
  let c0_i32_357 : BitVec 32 := 0#32
  let v474 : Index := Scalar.indexCast c0_i32_357
  let c4_i32_332 : BitVec 32 := 4#32
  let c0_i32_81 : BitVec 32 := 0#32
  let c1_i32_83 : BitVec 32 := 1#32
  let arg20 : BitVec 32 := Scf.iv c0_i32_81 c1_i32_83 k2_t2
  let v414 : BitVec 32 := Scalar.muli c4_i32_332 arg20
  let v473 : BitVec 32 := Scalar.addi v414 c1_i32_356
  let v475 : Index := Scalar.indexCast v473
  let c32_358 : Index := 32#32
  ![0, v475.toNat, 32]
def k2_off11 (k2_t1 : Fin k2_t1_loop.trips) (k2_t2 : Fin k2_t2_loop.trips) : Fin 2 → Nat :=
  let c0_i32_62 : BitVec 32 := 0#32
  let c1_i32_63 : BitVec 32 := 1#32
  let arg18 : BitVec 32 := Scf.iv c0_i32_62 c1_i32_63 k2_t1
  let c10_i32 : BitVec 32 := 10#32
  let v54 : BitVec 32 := Scalar.muli arg18 c10_i32
  let c0_i32_65 : BitVec 32 := 0#32
  let v55 : BitVec 32 := Scalar.addi v54 c0_i32_65
  let c0_i32_72 : BitVec 32 := 0#32
  let v62 : BitVec 1 := Scalar.cmpi .sgt v55 c0_i32_72
  let v63 : BitVec 32 := Scalar.extui v62
  let c0_i32_73 : BitVec 32 := 0#32
  let v64 : BitVec 1 := Scalar.cmpi .slt v55 c0_i32_73
  let v65 : BitVec 32 := Scalar.extui v64
  let v66 : BitVec 32 := Scalar.subi v63 v65
  let c50_i32 : BitVec 32 := 50#32
  let c0_i32_74 : BitVec 32 := 0#32
  let v67 : BitVec 1 := Scalar.cmpi .sgt c50_i32 c0_i32_74
  let v68 : BitVec 32 := Scalar.extui v67
  let c0_i32_75 : BitVec 32 := 0#32
  let v69 : BitVec 1 := Scalar.cmpi .slt c50_i32 c0_i32_75
  let v70 : BitVec 32 := Scalar.extui v69
  let v71 : BitVec 32 := Scalar.subi v68 v70
  let v72 : BitVec 1 := Scalar.cmpi .ne v66 v71
  let v73 : BitVec 32 := Scalar.remsi v55 c50_i32
  let c0_i32_76 : BitVec 32 := 0#32
  let v74 : BitVec 1 := Scalar.cmpi .ne v73 c0_i32_76
  let v75 : BitVec 1 := Scalar.andi v72 v74
  let v61 : BitVec 32 := Scalar.divsi v55 c50_i32
  let c1_i32_77 : BitVec 32 := 1#32
  let v76 : BitVec 32 := Scalar.subi v61 c1_i32_77
  let v77 : BitVec 32 := Scalar.select v75 v76 v61
  let c50_i32_78 : BitVec 32 := 50#32
  let v78 : BitVec 32 := Scalar.muli v77 c50_i32_78
  let v79 : BitVec 32 := Scalar.subi v55 v78
  let c5_i32_79 : BitVec 32 := 5#32
  let v80 : BitVec 32 := Scalar.muli v79 c5_i32_79
  let c0_i32_81 : BitVec 32 := 0#32
  let c1_i32_83 : BitVec 32 := 1#32
  let arg20 : BitVec 32 := Scf.iv c0_i32_81 c1_i32_83 k2_t2
  let v491 : BitVec 32 := Scalar.addi v80 arg20
  let v492 : Index := Scalar.indexCast v491
  let c32_365 : Index := 32#32
  ![v492.toNat, 32]
def k2_off12 (k2_t2 : Fin k2_t2_loop.trips) : Fin 3 → Nat :=
  let c0_i32_366 : BitVec 32 := 0#32
  let v496 : Index := Scalar.indexCast c0_i32_366
  let c4_i32_332 : BitVec 32 := 4#32
  let c0_i32_81 : BitVec 32 := 0#32
  let c1_i32_83 : BitVec 32 := 1#32
  let arg20 : BitVec 32 := Scf.iv c0_i32_81 c1_i32_83 k2_t2
  let v414 : BitVec 32 := Scalar.muli c4_i32_332 arg20
  let v497 : Index := Scalar.indexCast v414
  let c48 : Index := 48#32
  ![0, v497.toNat, 48]
def k2_off13 (k2_t2 : Fin k2_t2_loop.trips) (c1_i32_367 : BitVec 32) : Fin 3 → Nat :=
  let c0_i32_368 : BitVec 32 := 0#32
  let v501 : Index := Scalar.indexCast c0_i32_368
  let c4_i32_332 : BitVec 32 := 4#32
  let c0_i32_81 : BitVec 32 := 0#32
  let c1_i32_83 : BitVec 32 := 1#32
  let arg20 : BitVec 32 := Scf.iv c0_i32_81 c1_i32_83 k2_t2
  let v414 : BitVec 32 := Scalar.muli c4_i32_332 arg20
  let v500 : BitVec 32 := Scalar.addi v414 c1_i32_367
  let v502 : Index := Scalar.indexCast v500
  let c48_369 : Index := 48#32
  ![0, v502.toNat, 48]
def k2_off14 (k2_t1 : Fin k2_t1_loop.trips) (k2_t2 : Fin k2_t2_loop.trips) : Fin 2 → Nat :=
  let c0_i32_62 : BitVec 32 := 0#32
  let c1_i32_63 : BitVec 32 := 1#32
  let arg18 : BitVec 32 := Scf.iv c0_i32_62 c1_i32_63 k2_t1
  let c10_i32 : BitVec 32 := 10#32
  let v54 : BitVec 32 := Scalar.muli arg18 c10_i32
  let c0_i32_65 : BitVec 32 := 0#32
  let v55 : BitVec 32 := Scalar.addi v54 c0_i32_65
  let c0_i32_72 : BitVec 32 := 0#32
  let v62 : BitVec 1 := Scalar.cmpi .sgt v55 c0_i32_72
  let v63 : BitVec 32 := Scalar.extui v62
  let c0_i32_73 : BitVec 32 := 0#32
  let v64 : BitVec 1 := Scalar.cmpi .slt v55 c0_i32_73
  let v65 : BitVec 32 := Scalar.extui v64
  let v66 : BitVec 32 := Scalar.subi v63 v65
  let c50_i32 : BitVec 32 := 50#32
  let c0_i32_74 : BitVec 32 := 0#32
  let v67 : BitVec 1 := Scalar.cmpi .sgt c50_i32 c0_i32_74
  let v68 : BitVec 32 := Scalar.extui v67
  let c0_i32_75 : BitVec 32 := 0#32
  let v69 : BitVec 1 := Scalar.cmpi .slt c50_i32 c0_i32_75
  let v70 : BitVec 32 := Scalar.extui v69
  let v71 : BitVec 32 := Scalar.subi v68 v70
  let v72 : BitVec 1 := Scalar.cmpi .ne v66 v71
  let v73 : BitVec 32 := Scalar.remsi v55 c50_i32
  let c0_i32_76 : BitVec 32 := 0#32
  let v74 : BitVec 1 := Scalar.cmpi .ne v73 c0_i32_76
  let v75 : BitVec 1 := Scalar.andi v72 v74
  let v61 : BitVec 32 := Scalar.divsi v55 c50_i32
  let c1_i32_77 : BitVec 32 := 1#32
  let v76 : BitVec 32 := Scalar.subi v61 c1_i32_77
  let v77 : BitVec 32 := Scalar.select v75 v76 v61
  let c50_i32_78 : BitVec 32 := 50#32
  let v78 : BitVec 32 := Scalar.muli v77 c50_i32_78
  let v79 : BitVec 32 := Scalar.subi v55 v78
  let c5_i32_79 : BitVec 32 := 5#32
  let v80 : BitVec 32 := Scalar.muli v79 c5_i32_79
  let c0_i32_81 : BitVec 32 := 0#32
  let c1_i32_83 : BitVec 32 := 1#32
  let arg20 : BitVec 32 := Scf.iv c0_i32_81 c1_i32_83 k2_t2
  let v518 : BitVec 32 := Scalar.addi v80 arg20
  let v519 : Index := Scalar.indexCast v518
  let c48_376 : Index := 48#32
  ![v519.toNat, 48]
def k2_off15 (k2_t2 : Fin k2_t2_loop.trips) : Fin 3 → Nat :=
  let c0_i32_377 : BitVec 32 := 0#32
  let v523 : Index := Scalar.indexCast c0_i32_377
  let c4_i32_332 : BitVec 32 := 4#32
  let c0_i32_81 : BitVec 32 := 0#32
  let c1_i32_83 : BitVec 32 := 1#32
  let arg20 : BitVec 32 := Scf.iv c0_i32_81 c1_i32_83 k2_t2
  let v414 : BitVec 32 := Scalar.muli c4_i32_332 arg20
  let v524 : Index := Scalar.indexCast v414
  let c64 : Index := 64#32
  ![0, v524.toNat, 64]
def k2_off16 (k2_t2 : Fin k2_t2_loop.trips) (c1_i32_378 : BitVec 32) : Fin 3 → Nat :=
  let c0_i32_379 : BitVec 32 := 0#32
  let v528 : Index := Scalar.indexCast c0_i32_379
  let c4_i32_332 : BitVec 32 := 4#32
  let c0_i32_81 : BitVec 32 := 0#32
  let c1_i32_83 : BitVec 32 := 1#32
  let arg20 : BitVec 32 := Scf.iv c0_i32_81 c1_i32_83 k2_t2
  let v414 : BitVec 32 := Scalar.muli c4_i32_332 arg20
  let v527 : BitVec 32 := Scalar.addi v414 c1_i32_378
  let v529 : Index := Scalar.indexCast v527
  let c64_380 : Index := 64#32
  ![0, v529.toNat, 64]
def k2_off17 (k2_t1 : Fin k2_t1_loop.trips) (k2_t2 : Fin k2_t2_loop.trips) : Fin 2 → Nat :=
  let c0_i32_62 : BitVec 32 := 0#32
  let c1_i32_63 : BitVec 32 := 1#32
  let arg18 : BitVec 32 := Scf.iv c0_i32_62 c1_i32_63 k2_t1
  let c10_i32 : BitVec 32 := 10#32
  let v54 : BitVec 32 := Scalar.muli arg18 c10_i32
  let c0_i32_65 : BitVec 32 := 0#32
  let v55 : BitVec 32 := Scalar.addi v54 c0_i32_65
  let c0_i32_72 : BitVec 32 := 0#32
  let v62 : BitVec 1 := Scalar.cmpi .sgt v55 c0_i32_72
  let v63 : BitVec 32 := Scalar.extui v62
  let c0_i32_73 : BitVec 32 := 0#32
  let v64 : BitVec 1 := Scalar.cmpi .slt v55 c0_i32_73
  let v65 : BitVec 32 := Scalar.extui v64
  let v66 : BitVec 32 := Scalar.subi v63 v65
  let c50_i32 : BitVec 32 := 50#32
  let c0_i32_74 : BitVec 32 := 0#32
  let v67 : BitVec 1 := Scalar.cmpi .sgt c50_i32 c0_i32_74
  let v68 : BitVec 32 := Scalar.extui v67
  let c0_i32_75 : BitVec 32 := 0#32
  let v69 : BitVec 1 := Scalar.cmpi .slt c50_i32 c0_i32_75
  let v70 : BitVec 32 := Scalar.extui v69
  let v71 : BitVec 32 := Scalar.subi v68 v70
  let v72 : BitVec 1 := Scalar.cmpi .ne v66 v71
  let v73 : BitVec 32 := Scalar.remsi v55 c50_i32
  let c0_i32_76 : BitVec 32 := 0#32
  let v74 : BitVec 1 := Scalar.cmpi .ne v73 c0_i32_76
  let v75 : BitVec 1 := Scalar.andi v72 v74
  let v61 : BitVec 32 := Scalar.divsi v55 c50_i32
  let c1_i32_77 : BitVec 32 := 1#32
  let v76 : BitVec 32 := Scalar.subi v61 c1_i32_77
  let v77 : BitVec 32 := Scalar.select v75 v76 v61
  let c50_i32_78 : BitVec 32 := 50#32
  let v78 : BitVec 32 := Scalar.muli v77 c50_i32_78
  let v79 : BitVec 32 := Scalar.subi v55 v78
  let c5_i32_79 : BitVec 32 := 5#32
  let v80 : BitVec 32 := Scalar.muli v79 c5_i32_79
  let c0_i32_81 : BitVec 32 := 0#32
  let c1_i32_83 : BitVec 32 := 1#32
  let arg20 : BitVec 32 := Scf.iv c0_i32_81 c1_i32_83 k2_t2
  let v545 : BitVec 32 := Scalar.addi v80 arg20
  let v546 : Index := Scalar.indexCast v545
  let c64_387 : Index := 64#32
  ![v546.toNat, 64]
def k2_cond1 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32 : BitVec 32 := 10#32
  let v54 : BitVec 32 := Scalar.muli arg18 c10_i32
  let c0_i32_65 : BitVec 32 := 0#32
  let v55 : BitVec 32 := Scalar.addi v54 c0_i32_65
  let c0_i32_72 : BitVec 32 := 0#32
  let v62 : BitVec 1 := Scalar.cmpi .sgt v55 c0_i32_72
  let v63 : BitVec 32 := Scalar.extui v62
  let c0_i32_73 : BitVec 32 := 0#32
  let v64 : BitVec 1 := Scalar.cmpi .slt v55 c0_i32_73
  let v65 : BitVec 32 := Scalar.extui v64
  let v66 : BitVec 32 := Scalar.subi v63 v65
  let c50_i32 : BitVec 32 := 50#32
  let c0_i32_74 : BitVec 32 := 0#32
  let v67 : BitVec 1 := Scalar.cmpi .sgt c50_i32 c0_i32_74
  let v68 : BitVec 32 := Scalar.extui v67
  let c0_i32_75 : BitVec 32 := 0#32
  let v69 : BitVec 1 := Scalar.cmpi .slt c50_i32 c0_i32_75
  let v70 : BitVec 32 := Scalar.extui v69
  let v71 : BitVec 32 := Scalar.subi v68 v70
  let v72 : BitVec 1 := Scalar.cmpi .ne v66 v71
  let v73 : BitVec 32 := Scalar.remsi v55 c50_i32
  let c0_i32_76 : BitVec 32 := 0#32
  let v74 : BitVec 1 := Scalar.cmpi .ne v73 c0_i32_76
  let v75 : BitVec 1 := Scalar.andi v72 v74
  let v61 : BitVec 32 := Scalar.divsi v55 c50_i32
  let c1_i32_77 : BitVec 32 := 1#32
  let v76 : BitVec 32 := Scalar.subi v61 c1_i32_77
  let v77 : BitVec 32 := Scalar.select v75 v76 v61
  let c50_i32_78 : BitVec 32 := 50#32
  let v78 : BitVec 32 := Scalar.muli v77 c50_i32_78
  let v79 : BitVec 32 := Scalar.subi v55 v78
  let c49_i32 : BitVec 32 := 49#32
  let v83 : BitVec 1 := Scalar.cmpi .eq v79 c49_i32
  let v84 : BitVec 32 := Scalar.extui v83
  let c0_i32_85 : BitVec 32 := 0#32
  let v85 : BitVec 1 := Scalar.cmpi .ne v84 c0_i32_85
  v85

def k2_off18 (i : grid2.Coords) (k2_t1 : Fin k2_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62 : BitVec 32 := 0#32
  let c1_i32_63 : BitVec 32 := 1#32
  let arg18 : BitVec 32 := Scf.iv c0_i32_62 c1_i32_63 k2_t1
  let c10_i32 : BitVec 32 := 10#32
  let v54 : BitVec 32 := Scalar.muli arg18 c10_i32
  let c0_i32_65 : BitVec 32 := 0#32
  let v55 : BitVec 32 := Scalar.addi v54 c0_i32_65
  let c0_i32_72 : BitVec 32 := 0#32
  let v62 : BitVec 1 := Scalar.cmpi .sgt v55 c0_i32_72
  let v63 : BitVec 32 := Scalar.extui v62
  let c0_i32_73 : BitVec 32 := 0#32
  let v64 : BitVec 1 := Scalar.cmpi .slt v55 c0_i32_73
  let v65 : BitVec 32 := Scalar.extui v64
  let v66 : BitVec 32 := Scalar.subi v63 v65
  let c50_i32 : BitVec 32 := 50#32
  let c0_i32_74 : BitVec 32 := 0#32
  let v67 : BitVec 1 := Scalar.cmpi .sgt c50_i32 c0_i32_74
  let v68 : BitVec 32 := Scalar.extui v67
  let c0_i32_75 : BitVec 32 := 0#32
  let v69 : BitVec 1 := Scalar.cmpi .slt c50_i32 c0_i32_75
  let v70 : BitVec 32 := Scalar.extui v69
  let v71 : BitVec 32 := Scalar.subi v68 v70
  let v72 : BitVec 1 := Scalar.cmpi .ne v66 v71
  let v73 : BitVec 32 := Scalar.remsi v55 c50_i32
  let c0_i32_76 : BitVec 32 := 0#32
  let v74 : BitVec 1 := Scalar.cmpi .ne v73 c0_i32_76
  let v75 : BitVec 1 := Scalar.andi v72 v74
  let v61 : BitVec 32 := Scalar.divsi v55 c50_i32
  let c1_i32_77 : BitVec 32 := 1#32
  let v76 : BitVec 32 := Scalar.subi v61 c1_i32_77
  let v77 : BitVec 32 := Scalar.select v75 v76 v61
  let c0_i32_332_r1 : BitVec 32 := 0#32
  let c0_i32_333_r1 : BitVec 32 := 0#32
  ![v1.toNat, v77.toNat, 0, 0]
def k2_cond2 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32 : BitVec 32 := 10#32
  let v54 : BitVec 32 := Scalar.muli arg18 c10_i32
  let c0_i32_65 : BitVec 32 := 0#32
  let v55 : BitVec 32 := Scalar.addi v54 c0_i32_65
  let c10_i32_86 : BitVec 32 := 10#32
  let v86 : BitVec 32 := Scalar.addi v55 c10_i32_86
  let c250_i32 : BitVec 32 := 250#32
  let v87 : BitVec 1 := Scalar.cmpi .slt v86 c250_i32
  let v88 : BitVec 32 := Scalar.extui v87
  let c0_i32_87 : BitVec 32 := 0#32
  let v89 : BitVec 1 := Scalar.cmpi .ne v88 c0_i32_87
  v89

def k2_off19 (k2_t1 : Fin k2_t1_loop.trips) : Fin 2 → Nat :=
  let c0_i32_62 : BitVec 32 := 0#32
  let c1_i32_63 : BitVec 32 := 1#32
  let arg18 : BitVec 32 := Scf.iv c0_i32_62 c1_i32_63 k2_t1
  let c10_i32 : BitVec 32 := 10#32
  let v54 : BitVec 32 := Scalar.muli arg18 c10_i32
  let c0_i32_65 : BitVec 32 := 0#32
  let v55 : BitVec 32 := Scalar.addi v54 c0_i32_65
  let c10_i32_332 : BitVec 32 := 10#32
  let v414 : BitVec 32 := Scalar.addi v55 c10_i32_332
  let c0_i32_336 : BitVec 32 := 0#32
  ![v414.toNat, 0]
@[reducible] def k2_t3_loop : Scf.Loop 32 :=
  let c0_i32_106 : BitVec 32 := 0#32
  let c5_i32_107 : BitVec 32 := 5#32
  let v117 : BitVec 32 := Scalar.addi c0_i32_106 c5_i32_107
  let c1_i32_108 : BitVec 32 := 1#32
  ⟨c0_i32_106, v117, c1_i32_108⟩
def k2_off20 (k2_t3 : Fin k2_t3_loop.trips) : Fin 3 → Nat :=
  let c1_i32_333 : BitVec 32 := 1#32
  let v415 : Index := Scalar.indexCast c1_i32_333
  let c4_i32_332 : BitVec 32 := 4#32
  let c0_i32_106 : BitVec 32 := 0#32
  let c1_i32_108 : BitVec 32 := 1#32
  let arg20 : BitVec 32 := Scf.iv c0_i32_106 c1_i32_108 k2_t3
  let v414 : BitVec 32 := Scalar.muli c4_i32_332 arg20
  let v416 : Index := Scalar.indexCast v414
  let c0 : Index := 0#32
  ![1, v416.toNat, 0]
def k2_off21 (k2_t3 : Fin k2_t3_loop.trips) (c1_i32_334 : BitVec 32) : Fin 3 → Nat :=
  let c1_i32_335 : BitVec 32 := 1#32
  let v420 : Index := Scalar.indexCast c1_i32_335
  let c4_i32_332 : BitVec 32 := 4#32
  let c0_i32_106 : BitVec 32 := 0#32
  let c1_i32_108 : BitVec 32 := 1#32
  let arg20 : BitVec 32 := Scf.iv c0_i32_106 c1_i32_108 k2_t3
  let v414 : BitVec 32 := Scalar.muli c4_i32_332 arg20
  let v419 : BitVec 32 := Scalar.addi v414 c1_i32_334
  let v421 : Index := Scalar.indexCast v419
  let c0_336 : Index := 0#32
  ![1, v421.toNat, 0]
def k2_off22 (k2_t1 : Fin k2_t1_loop.trips) (k2_t3 : Fin k2_t3_loop.trips) : Fin 2 → Nat :=
  let c0_i32_62 : BitVec 32 := 0#32
  let c1_i32_63 : BitVec 32 := 1#32
  let arg18 : BitVec 32 := Scf.iv c0_i32_62 c1_i32_63 k2_t1
  let c10_i32_88 : BitVec 32 := 10#32
  let v90 : BitVec 32 := Scalar.muli arg18 c10_i32_88
  let c1_i32_89 : BitVec 32 := 1#32
  let v91 : BitVec 32 := Scalar.addi v90 c1_i32_89
  let c0_i32_97 : BitVec 32 := 0#32
  let v98 : BitVec 1 := Scalar.cmpi .sgt v91 c0_i32_97
  let v99 : BitVec 32 := Scalar.extui v98
  let c0_i32_98 : BitVec 32 := 0#32
  let v100 : BitVec 1 := Scalar.cmpi .slt v91 c0_i32_98
  let v101 : BitVec 32 := Scalar.extui v100
  let v102 : BitVec 32 := Scalar.subi v99 v101
  let c50_i32_96 : BitVec 32 := 50#32
  let c0_i32_99 : BitVec 32 := 0#32
  let v103 : BitVec 1 := Scalar.cmpi .sgt c50_i32_96 c0_i32_99
  let v104 : BitVec 32 := Scalar.extui v103
  let c0_i32_100 : BitVec 32 := 0#32
  let v105 : BitVec 1 := Scalar.cmpi .slt c50_i32_96 c0_i32_100
  let v106 : BitVec 32 := Scalar.extui v105
  let v107 : BitVec 32 := Scalar.subi v104 v106
  let v108 : BitVec 1 := Scalar.cmpi .ne v102 v107
  let v109 : BitVec 32 := Scalar.remsi v91 c50_i32_96
  let c0_i32_101 : BitVec 32 := 0#32
  let v110 : BitVec 1 := Scalar.cmpi .ne v109 c0_i32_101
  let v111 : BitVec 1 := Scalar.andi v108 v110
  let v97 : BitVec 32 := Scalar.divsi v91 c50_i32_96
  let c1_i32_102 : BitVec 32 := 1#32
  let v112 : BitVec 32 := Scalar.subi v97 c1_i32_102
  let v113 : BitVec 32 := Scalar.select v111 v112 v97
  let c50_i32_103 : BitVec 32 := 50#32
  let v114 : BitVec 32 := Scalar.muli v113 c50_i32_103
  let v115 : BitVec 32 := Scalar.subi v91 v114
  let c5_i32_104 : BitVec 32 := 5#32
  let v116 : BitVec 32 := Scalar.muli v115 c5_i32_104
  let c0_i32_106 : BitVec 32 := 0#32
  let c1_i32_108 : BitVec 32 := 1#32
  let arg20 : BitVec 32 := Scf.iv c0_i32_106 c1_i32_108 k2_t3
  let v437 : BitVec 32 := Scalar.addi v116 arg20
  let v438 : Index := Scalar.indexCast v437
  let c0_343 : Index := 0#32
  ![v438.toNat, 0]
def k2_off23 (k2_t3 : Fin k2_t3_loop.trips) : Fin 3 → Nat :=
  let c1_i32_344 : BitVec 32 := 1#32
  let v442 : Index := Scalar.indexCast c1_i32_344
  let c4_i32_332 : BitVec 32 := 4#32
  let c0_i32_106 : BitVec 32 := 0#32
  let c1_i32_108 : BitVec 32 := 1#32
  let arg20 : BitVec 32 := Scf.iv c0_i32_106 c1_i32_108 k2_t3
  let v414 : BitVec 32 := Scalar.muli c4_i32_332 arg20
  let v443 : Index := Scalar.indexCast v414
  let c16 : Index := 16#32
  ![1, v443.toNat, 16]
def k2_off24 (k2_t3 : Fin k2_t3_loop.trips) (c1_i32_345 : BitVec 32) : Fin 3 → Nat :=
  let c1_i32_346 : BitVec 32 := 1#32
  let v447 : Index := Scalar.indexCast c1_i32_346
  let c4_i32_332 : BitVec 32 := 4#32
  let c0_i32_106 : BitVec 32 := 0#32
  let c1_i32_108 : BitVec 32 := 1#32
  let arg20 : BitVec 32 := Scf.iv c0_i32_106 c1_i32_108 k2_t3
  let v414 : BitVec 32 := Scalar.muli c4_i32_332 arg20
  let v446 : BitVec 32 := Scalar.addi v414 c1_i32_345
  let v448 : Index := Scalar.indexCast v446
  let c16_347 : Index := 16#32
  ![1, v448.toNat, 16]
def k2_off25 (k2_t1 : Fin k2_t1_loop.trips) (k2_t3 : Fin k2_t3_loop.trips) : Fin 2 → Nat :=
  let c0_i32_62 : BitVec 32 := 0#32
  let c1_i32_63 : BitVec 32 := 1#32
  let arg18 : BitVec 32 := Scf.iv c0_i32_62 c1_i32_63 k2_t1
  let c10_i32_88 : BitVec 32 := 10#32
  let v90 : BitVec 32 := Scalar.muli arg18 c10_i32_88
  let c1_i32_89 : BitVec 32 := 1#32
  let v91 : BitVec 32 := Scalar.addi v90 c1_i32_89
  let c0_i32_97 : BitVec 32 := 0#32
  let v98 : BitVec 1 := Scalar.cmpi .sgt v91 c0_i32_97
  let v99 : BitVec 32 := Scalar.extui v98
  let c0_i32_98 : BitVec 32 := 0#32
  let v100 : BitVec 1 := Scalar.cmpi .slt v91 c0_i32_98
  let v101 : BitVec 32 := Scalar.extui v100
  let v102 : BitVec 32 := Scalar.subi v99 v101
  let c50_i32_96 : BitVec 32 := 50#32
  let c0_i32_99 : BitVec 32 := 0#32
  let v103 : BitVec 1 := Scalar.cmpi .sgt c50_i32_96 c0_i32_99
  let v104 : BitVec 32 := Scalar.extui v103
  let c0_i32_100 : BitVec 32 := 0#32
  let v105 : BitVec 1 := Scalar.cmpi .slt c50_i32_96 c0_i32_100
  let v106 : BitVec 32 := Scalar.extui v105
  let v107 : BitVec 32 := Scalar.subi v104 v106
  let v108 : BitVec 1 := Scalar.cmpi .ne v102 v107
  let v109 : BitVec 32 := Scalar.remsi v91 c50_i32_96
  let c0_i32_101 : BitVec 32 := 0#32
  let v110 : BitVec 1 := Scalar.cmpi .ne v109 c0_i32_101
  let v111 : BitVec 1 := Scalar.andi v108 v110
  let v97 : BitVec 32 := Scalar.divsi v91 c50_i32_96
  let c1_i32_102 : BitVec 32 := 1#32
  let v112 : BitVec 32 := Scalar.subi v97 c1_i32_102
  let v113 : BitVec 32 := Scalar.select v111 v112 v97
  let c50_i32_103 : BitVec 32 := 50#32
  let v114 : BitVec 32 := Scalar.muli v113 c50_i32_103
  let v115 : BitVec 32 := Scalar.subi v91 v114
  let c5_i32_104 : BitVec 32 := 5#32
  let v116 : BitVec 32 := Scalar.muli v115 c5_i32_104
  let c0_i32_106 : BitVec 32 := 0#32
  let c1_i32_108 : BitVec 32 := 1#32
  let arg20 : BitVec 32 := Scf.iv c0_i32_106 c1_i32_108 k2_t3
  let v464 : BitVec 32 := Scalar.addi v116 arg20
  let v465 : Index := Scalar.indexCast v464
  let c16_354 : Index := 16#32
  ![v465.toNat, 16]
def k2_off26 (k2_t3 : Fin k2_t3_loop.trips) : Fin 3 → Nat :=
  let c1_i32_355 : BitVec 32 := 1#32
  let v469 : Index := Scalar.indexCast c1_i32_355
  let c4_i32_332 : BitVec 32 := 4#32
  let c0_i32_106 : BitVec 32 := 0#32
  let c1_i32_108 : BitVec 32 := 1#32
  let arg20 : BitVec 32 := Scf.iv c0_i32_106 c1_i32_108 k2_t3
  let v414 : BitVec 32 := Scalar.muli c4_i32_332 arg20
  let v470 : Index := Scalar.indexCast v414
  let c32 : Index := 32#32
  ![1, v470.toNat, 32]
def k2_off27 (k2_t3 : Fin k2_t3_loop.trips) (c1_i32_356 : BitVec 32) : Fin 3 → Nat :=
  let c1_i32_357 : BitVec 32 := 1#32
  let v474 : Index := Scalar.indexCast c1_i32_357
  let c4_i32_332 : BitVec 32 := 4#32
  let c0_i32_106 : BitVec 32 := 0#32
  let c1_i32_108 : BitVec 32 := 1#32
  let arg20 : BitVec 32 := Scf.iv c0_i32_106 c1_i32_108 k2_t3
  let v414 : BitVec 32 := Scalar.muli c4_i32_332 arg20
  let v473 : BitVec 32 := Scalar.addi v414 c1_i32_356
  let v475 : Index := Scalar.indexCast v473
  let c32_358 : Index := 32#32
  ![1, v475.toNat, 32]
def k2_off28 (k2_t1 : Fin k2_t1_loop.trips) (k2_t3 : Fin k2_t3_loop.trips) : Fin 2 → Nat :=
  let c0_i32_62 : BitVec 32 := 0#32
  let c1_i32_63 : BitVec 32 := 1#32
  let arg18 : BitVec 32 := Scf.iv c0_i32_62 c1_i32_63 k2_t1
  let c10_i32_88 : BitVec 32 := 10#32
  let v90 : BitVec 32 := Scalar.muli arg18 c10_i32_88
  let c1_i32_89 : BitVec 32 := 1#32
  let v91 : BitVec 32 := Scalar.addi v90 c1_i32_89
  let c0_i32_97 : BitVec 32 := 0#32
  let v98 : BitVec 1 := Scalar.cmpi .sgt v91 c0_i32_97
  let v99 : BitVec 32 := Scalar.extui v98
  let c0_i32_98 : BitVec 32 := 0#32
  let v100 : BitVec 1 := Scalar.cmpi .slt v91 c0_i32_98
  let v101 : BitVec 32 := Scalar.extui v100
  let v102 : BitVec 32 := Scalar.subi v99 v101
  let c50_i32_96 : BitVec 32 := 50#32
  let c0_i32_99 : BitVec 32 := 0#32
  let v103 : BitVec 1 := Scalar.cmpi .sgt c50_i32_96 c0_i32_99
  let v104 : BitVec 32 := Scalar.extui v103
  let c0_i32_100 : BitVec 32 := 0#32
  let v105 : BitVec 1 := Scalar.cmpi .slt c50_i32_96 c0_i32_100
  let v106 : BitVec 32 := Scalar.extui v105
  let v107 : BitVec 32 := Scalar.subi v104 v106
  let v108 : BitVec 1 := Scalar.cmpi .ne v102 v107
  let v109 : BitVec 32 := Scalar.remsi v91 c50_i32_96
  let c0_i32_101 : BitVec 32 := 0#32
  let v110 : BitVec 1 := Scalar.cmpi .ne v109 c0_i32_101
  let v111 : BitVec 1 := Scalar.andi v108 v110
  let v97 : BitVec 32 := Scalar.divsi v91 c50_i32_96
  let c1_i32_102 : BitVec 32 := 1#32
  let v112 : BitVec 32 := Scalar.subi v97 c1_i32_102
  let v113 : BitVec 32 := Scalar.select v111 v112 v97
  let c50_i32_103 : BitVec 32 := 50#32
  let v114 : BitVec 32 := Scalar.muli v113 c50_i32_103
  let v115 : BitVec 32 := Scalar.subi v91 v114
  let c5_i32_104 : BitVec 32 := 5#32
  let v116 : BitVec 32 := Scalar.muli v115 c5_i32_104
  let c0_i32_106 : BitVec 32 := 0#32
  let c1_i32_108 : BitVec 32 := 1#32
  let arg20 : BitVec 32 := Scf.iv c0_i32_106 c1_i32_108 k2_t3
  let v491 : BitVec 32 := Scalar.addi v116 arg20
  let v492 : Index := Scalar.indexCast v491
  let c32_365 : Index := 32#32
  ![v492.toNat, 32]
def k2_off29 (k2_t3 : Fin k2_t3_loop.trips) : Fin 3 → Nat :=
  let c1_i32_366 : BitVec 32 := 1#32
  let v496 : Index := Scalar.indexCast c1_i32_366
  let c4_i32_332 : BitVec 32 := 4#32
  let c0_i32_106 : BitVec 32 := 0#32
  let c1_i32_108 : BitVec 32 := 1#32
  let arg20 : BitVec 32 := Scf.iv c0_i32_106 c1_i32_108 k2_t3
  let v414 : BitVec 32 := Scalar.muli c4_i32_332 arg20
  let v497 : Index := Scalar.indexCast v414
  let c48 : Index := 48#32
  ![1, v497.toNat, 48]
def k2_off30 (k2_t3 : Fin k2_t3_loop.trips) (c1_i32_367 : BitVec 32) : Fin 3 → Nat :=
  let c1_i32_368 : BitVec 32 := 1#32
  let v501 : Index := Scalar.indexCast c1_i32_368
  let c4_i32_332 : BitVec 32 := 4#32
  let c0_i32_106 : BitVec 32 := 0#32
  let c1_i32_108 : BitVec 32 := 1#32
  let arg20 : BitVec 32 := Scf.iv c0_i32_106 c1_i32_108 k2_t3
  let v414 : BitVec 32 := Scalar.muli c4_i32_332 arg20
  let v500 : BitVec 32 := Scalar.addi v414 c1_i32_367
  let v502 : Index := Scalar.indexCast v500
  let c48_369 : Index := 48#32
  ![1, v502.toNat, 48]
def k2_off31 (k2_t1 : Fin k2_t1_loop.trips) (k2_t3 : Fin k2_t3_loop.trips) : Fin 2 → Nat :=
  let c0_i32_62 : BitVec 32 := 0#32
  let c1_i32_63 : BitVec 32 := 1#32
  let arg18 : BitVec 32 := Scf.iv c0_i32_62 c1_i32_63 k2_t1
  let c10_i32_88 : BitVec 32 := 10#32
  let v90 : BitVec 32 := Scalar.muli arg18 c10_i32_88
  let c1_i32_89 : BitVec 32 := 1#32
  let v91 : BitVec 32 := Scalar.addi v90 c1_i32_89
  let c0_i32_97 : BitVec 32 := 0#32
  let v98 : BitVec 1 := Scalar.cmpi .sgt v91 c0_i32_97
  let v99 : BitVec 32 := Scalar.extui v98
  let c0_i32_98 : BitVec 32 := 0#32
  let v100 : BitVec 1 := Scalar.cmpi .slt v91 c0_i32_98
  let v101 : BitVec 32 := Scalar.extui v100
  let v102 : BitVec 32 := Scalar.subi v99 v101
  let c50_i32_96 : BitVec 32 := 50#32
  let c0_i32_99 : BitVec 32 := 0#32
  let v103 : BitVec 1 := Scalar.cmpi .sgt c50_i32_96 c0_i32_99
  let v104 : BitVec 32 := Scalar.extui v103
  let c0_i32_100 : BitVec 32 := 0#32
  let v105 : BitVec 1 := Scalar.cmpi .slt c50_i32_96 c0_i32_100
  let v106 : BitVec 32 := Scalar.extui v105
  let v107 : BitVec 32 := Scalar.subi v104 v106
  let v108 : BitVec 1 := Scalar.cmpi .ne v102 v107
  let v109 : BitVec 32 := Scalar.remsi v91 c50_i32_96
  let c0_i32_101 : BitVec 32 := 0#32
  let v110 : BitVec 1 := Scalar.cmpi .ne v109 c0_i32_101
  let v111 : BitVec 1 := Scalar.andi v108 v110
  let v97 : BitVec 32 := Scalar.divsi v91 c50_i32_96
  let c1_i32_102 : BitVec 32 := 1#32
  let v112 : BitVec 32 := Scalar.subi v97 c1_i32_102
  let v113 : BitVec 32 := Scalar.select v111 v112 v97
  let c50_i32_103 : BitVec 32 := 50#32
  let v114 : BitVec 32 := Scalar.muli v113 c50_i32_103
  let v115 : BitVec 32 := Scalar.subi v91 v114
  let c5_i32_104 : BitVec 32 := 5#32
  let v116 : BitVec 32 := Scalar.muli v115 c5_i32_104
  let c0_i32_106 : BitVec 32 := 0#32
  let c1_i32_108 : BitVec 32 := 1#32
  let arg20 : BitVec 32 := Scf.iv c0_i32_106 c1_i32_108 k2_t3
  let v518 : BitVec 32 := Scalar.addi v116 arg20
  let v519 : Index := Scalar.indexCast v518
  let c48_376 : Index := 48#32
  ![v519.toNat, 48]
def k2_off32 (k2_t3 : Fin k2_t3_loop.trips) : Fin 3 → Nat :=
  let c1_i32_377 : BitVec 32 := 1#32
  let v523 : Index := Scalar.indexCast c1_i32_377
  let c4_i32_332 : BitVec 32 := 4#32
  let c0_i32_106 : BitVec 32 := 0#32
  let c1_i32_108 : BitVec 32 := 1#32
  let arg20 : BitVec 32 := Scf.iv c0_i32_106 c1_i32_108 k2_t3
  let v414 : BitVec 32 := Scalar.muli c4_i32_332 arg20
  let v524 : Index := Scalar.indexCast v414
  let c64 : Index := 64#32
  ![1, v524.toNat, 64]
def k2_off33 (k2_t3 : Fin k2_t3_loop.trips) (c1_i32_378 : BitVec 32) : Fin 3 → Nat :=
  let c1_i32_379 : BitVec 32 := 1#32
  let v528 : Index := Scalar.indexCast c1_i32_379
  let c4_i32_332 : BitVec 32 := 4#32
  let c0_i32_106 : BitVec 32 := 0#32
  let c1_i32_108 : BitVec 32 := 1#32
  let arg20 : BitVec 32 := Scf.iv c0_i32_106 c1_i32_108 k2_t3
  let v414 : BitVec 32 := Scalar.muli c4_i32_332 arg20
  let v527 : BitVec 32 := Scalar.addi v414 c1_i32_378
  let v529 : Index := Scalar.indexCast v527
  let c64_380 : Index := 64#32
  ![1, v529.toNat, 64]
def k2_off34 (k2_t1 : Fin k2_t1_loop.trips) (k2_t3 : Fin k2_t3_loop.trips) : Fin 2 → Nat :=
  let c0_i32_62 : BitVec 32 := 0#32
  let c1_i32_63 : BitVec 32 := 1#32
  let arg18 : BitVec 32 := Scf.iv c0_i32_62 c1_i32_63 k2_t1
  let c10_i32_88 : BitVec 32 := 10#32
  let v90 : BitVec 32 := Scalar.muli arg18 c10_i32_88
  let c1_i32_89 : BitVec 32 := 1#32
  let v91 : BitVec 32 := Scalar.addi v90 c1_i32_89
  let c0_i32_97 : BitVec 32 := 0#32
  let v98 : BitVec 1 := Scalar.cmpi .sgt v91 c0_i32_97
  let v99 : BitVec 32 := Scalar.extui v98
  let c0_i32_98 : BitVec 32 := 0#32
  let v100 : BitVec 1 := Scalar.cmpi .slt v91 c0_i32_98
  let v101 : BitVec 32 := Scalar.extui v100
  let v102 : BitVec 32 := Scalar.subi v99 v101
  let c50_i32_96 : BitVec 32 := 50#32
  let c0_i32_99 : BitVec 32 := 0#32
  let v103 : BitVec 1 := Scalar.cmpi .sgt c50_i32_96 c0_i32_99
  let v104 : BitVec 32 := Scalar.extui v103
  let c0_i32_100 : BitVec 32 := 0#32
  let v105 : BitVec 1 := Scalar.cmpi .slt c50_i32_96 c0_i32_100
  let v106 : BitVec 32 := Scalar.extui v105
  let v107 : BitVec 32 := Scalar.subi v104 v106
  let v108 : BitVec 1 := Scalar.cmpi .ne v102 v107
  let v109 : BitVec 32 := Scalar.remsi v91 c50_i32_96
  let c0_i32_101 : BitVec 32 := 0#32
  let v110 : BitVec 1 := Scalar.cmpi .ne v109 c0_i32_101
  let v111 : BitVec 1 := Scalar.andi v108 v110
  let v97 : BitVec 32 := Scalar.divsi v91 c50_i32_96
  let c1_i32_102 : BitVec 32 := 1#32
  let v112 : BitVec 32 := Scalar.subi v97 c1_i32_102
  let v113 : BitVec 32 := Scalar.select v111 v112 v97
  let c50_i32_103 : BitVec 32 := 50#32
  let v114 : BitVec 32 := Scalar.muli v113 c50_i32_103
  let v115 : BitVec 32 := Scalar.subi v91 v114
  let c5_i32_104 : BitVec 32 := 5#32
  let v116 : BitVec 32 := Scalar.muli v115 c5_i32_104
  let c0_i32_106 : BitVec 32 := 0#32
  let c1_i32_108 : BitVec 32 := 1#32
  let arg20 : BitVec 32 := Scf.iv c0_i32_106 c1_i32_108 k2_t3
  let v545 : BitVec 32 := Scalar.addi v116 arg20
  let v546 : Index := Scalar.indexCast v545
  let c64_387 : Index := 64#32
  ![v546.toNat, 64]
def k2_cond3 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_88 : BitVec 32 := 10#32
  let v90 : BitVec 32 := Scalar.muli arg18 c10_i32_88
  let c1_i32_89 : BitVec 32 := 1#32
  let v91 : BitVec 32 := Scalar.addi v90 c1_i32_89
  let c0_i32_97 : BitVec 32 := 0#32
  let v98 : BitVec 1 := Scalar.cmpi .sgt v91 c0_i32_97
  let v99 : BitVec 32 := Scalar.extui v98
  let c0_i32_98 : BitVec 32 := 0#32
  let v100 : BitVec 1 := Scalar.cmpi .slt v91 c0_i32_98
  let v101 : BitVec 32 := Scalar.extui v100
  let v102 : BitVec 32 := Scalar.subi v99 v101
  let c50_i32_96 : BitVec 32 := 50#32
  let c0_i32_99 : BitVec 32 := 0#32
  let v103 : BitVec 1 := Scalar.cmpi .sgt c50_i32_96 c0_i32_99
  let v104 : BitVec 32 := Scalar.extui v103
  let c0_i32_100 : BitVec 32 := 0#32
  let v105 : BitVec 1 := Scalar.cmpi .slt c50_i32_96 c0_i32_100
  let v106 : BitVec 32 := Scalar.extui v105
  let v107 : BitVec 32 := Scalar.subi v104 v106
  let v108 : BitVec 1 := Scalar.cmpi .ne v102 v107
  let v109 : BitVec 32 := Scalar.remsi v91 c50_i32_96
  let c0_i32_101 : BitVec 32 := 0#32
  let v110 : BitVec 1 := Scalar.cmpi .ne v109 c0_i32_101
  let v111 : BitVec 1 := Scalar.andi v108 v110
  let v97 : BitVec 32 := Scalar.divsi v91 c50_i32_96
  let c1_i32_102 : BitVec 32 := 1#32
  let v112 : BitVec 32 := Scalar.subi v97 c1_i32_102
  let v113 : BitVec 32 := Scalar.select v111 v112 v97
  let c50_i32_103 : BitVec 32 := 50#32
  let v114 : BitVec 32 := Scalar.muli v113 c50_i32_103
  let v115 : BitVec 32 := Scalar.subi v91 v114
  let c49_i32_110 : BitVec 32 := 49#32
  let v119 : BitVec 1 := Scalar.cmpi .eq v115 c49_i32_110
  let v120 : BitVec 32 := Scalar.extui v119
  let c0_i32_111 : BitVec 32 := 0#32
  let v121 : BitVec 1 := Scalar.cmpi .ne v120 c0_i32_111
  v121

def k2_off35 (i : grid2.Coords) (k2_t1 : Fin k2_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62 : BitVec 32 := 0#32
  let c1_i32_63 : BitVec 32 := 1#32
  let arg18 : BitVec 32 := Scf.iv c0_i32_62 c1_i32_63 k2_t1
  let c10_i32_88 : BitVec 32 := 10#32
  let v90 : BitVec 32 := Scalar.muli arg18 c10_i32_88
  let c1_i32_89 : BitVec 32 := 1#32
  let v91 : BitVec 32 := Scalar.addi v90 c1_i32_89
  let c0_i32_97 : BitVec 32 := 0#32
  let v98 : BitVec 1 := Scalar.cmpi .sgt v91 c0_i32_97
  let v99 : BitVec 32 := Scalar.extui v98
  let c0_i32_98 : BitVec 32 := 0#32
  let v100 : BitVec 1 := Scalar.cmpi .slt v91 c0_i32_98
  let v101 : BitVec 32 := Scalar.extui v100
  let v102 : BitVec 32 := Scalar.subi v99 v101
  let c50_i32_96 : BitVec 32 := 50#32
  let c0_i32_99 : BitVec 32 := 0#32
  let v103 : BitVec 1 := Scalar.cmpi .sgt c50_i32_96 c0_i32_99
  let v104 : BitVec 32 := Scalar.extui v103
  let c0_i32_100 : BitVec 32 := 0#32
  let v105 : BitVec 1 := Scalar.cmpi .slt c50_i32_96 c0_i32_100
  let v106 : BitVec 32 := Scalar.extui v105
  let v107 : BitVec 32 := Scalar.subi v104 v106
  let v108 : BitVec 1 := Scalar.cmpi .ne v102 v107
  let v109 : BitVec 32 := Scalar.remsi v91 c50_i32_96
  let c0_i32_101 : BitVec 32 := 0#32
  let v110 : BitVec 1 := Scalar.cmpi .ne v109 c0_i32_101
  let v111 : BitVec 1 := Scalar.andi v108 v110
  let v97 : BitVec 32 := Scalar.divsi v91 c50_i32_96
  let c1_i32_102 : BitVec 32 := 1#32
  let v112 : BitVec 32 := Scalar.subi v97 c1_i32_102
  let v113 : BitVec 32 := Scalar.select v111 v112 v97
  let c0_i32_332_r2 : BitVec 32 := 0#32
  let c0_i32_333_r2 : BitVec 32 := 0#32
  ![v1.toNat, v113.toNat, 0, 0]
def k2_cond4 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_88 : BitVec 32 := 10#32
  let v90 : BitVec 32 := Scalar.muli arg18 c10_i32_88
  let c1_i32_89 : BitVec 32 := 1#32
  let v91 : BitVec 32 := Scalar.addi v90 c1_i32_89
  let c10_i32_112 : BitVec 32 := 10#32
  let v122 : BitVec 32 := Scalar.addi v91 c10_i32_112
  let c250_i32_113 : BitVec 32 := 250#32
  let v123 : BitVec 1 := Scalar.cmpi .slt v122 c250_i32_113
  let v124 : BitVec 32 := Scalar.extui v123
  let c0_i32_114 : BitVec 32 := 0#32
  let v125 : BitVec 1 := Scalar.cmpi .ne v124 c0_i32_114
  v125

def k2_off36 (k2_t1 : Fin k2_t1_loop.trips) : Fin 2 → Nat :=
  let c0_i32_62 : BitVec 32 := 0#32
  let c1_i32_63 : BitVec 32 := 1#32
  let arg18 : BitVec 32 := Scf.iv c0_i32_62 c1_i32_63 k2_t1
  let c10_i32_88 : BitVec 32 := 10#32
  let v90 : BitVec 32 := Scalar.muli arg18 c10_i32_88
  let c1_i32_89 : BitVec 32 := 1#32
  let v91 : BitVec 32 := Scalar.addi v90 c1_i32_89
  let c10_i32_332 : BitVec 32 := 10#32
  let v414 : BitVec 32 := Scalar.addi v91 c10_i32_332
  let c0_i32_336 : BitVec 32 := 0#32
  ![v414.toNat, 0]
@[reducible] def k2_t4_loop : Scf.Loop 32 :=
  let c0_i32_133 : BitVec 32 := 0#32
  let c5_i32_134 : BitVec 32 := 5#32
  let v153 : BitVec 32 := Scalar.addi c0_i32_133 c5_i32_134
  let c1_i32_135 : BitVec 32 := 1#32
  ⟨c0_i32_133, v153, c1_i32_135⟩
def k2_off37 (k2_t4 : Fin k2_t4_loop.trips) : Fin 3 → Nat :=
  let c2_i32_333 : BitVec 32 := 2#32
  let v415 : Index := Scalar.indexCast c2_i32_333
  let c4_i32_332 : BitVec 32 := 4#32
  let c0_i32_133 : BitVec 32 := 0#32
  let c1_i32_135 : BitVec 32 := 1#32
  let arg20 : BitVec 32 := Scf.iv c0_i32_133 c1_i32_135 k2_t4
  let v414 : BitVec 32 := Scalar.muli c4_i32_332 arg20
  let v416 : Index := Scalar.indexCast v414
  let c0 : Index := 0#32
  ![2, v416.toNat, 0]
def k2_off38 (k2_t4 : Fin k2_t4_loop.trips) (c1_i32_334 : BitVec 32) : Fin 3 → Nat :=
  let c2_i32_335 : BitVec 32 := 2#32
  let v420 : Index := Scalar.indexCast c2_i32_335
  let c4_i32_332 : BitVec 32 := 4#32
  let c0_i32_133 : BitVec 32 := 0#32
  let c1_i32_135 : BitVec 32 := 1#32
  let arg20 : BitVec 32 := Scf.iv c0_i32_133 c1_i32_135 k2_t4
  let v414 : BitVec 32 := Scalar.muli c4_i32_332 arg20
  let v419 : BitVec 32 := Scalar.addi v414 c1_i32_334
  let v421 : Index := Scalar.indexCast v419
  let c0_336 : Index := 0#32
  ![2, v421.toNat, 0]
def k2_off39 (k2_t1 : Fin k2_t1_loop.trips) (k2_t4 : Fin k2_t4_loop.trips) : Fin 2 → Nat :=
  let c0_i32_62 : BitVec 32 := 0#32
  let c1_i32_63 : BitVec 32 := 1#32
  let arg18 : BitVec 32 := Scf.iv c0_i32_62 c1_i32_63 k2_t1
  let c10_i32_115 : BitVec 32 := 10#32
  let v126 : BitVec 32 := Scalar.muli arg18 c10_i32_115
  let c2_i32_116 : BitVec 32 := 2#32
  let v127 : BitVec 32 := Scalar.addi v126 c2_i32_116
  let c0_i32_124 : BitVec 32 := 0#32
  let v134 : BitVec 1 := Scalar.cmpi .sgt v127 c0_i32_124
  let v135 : BitVec 32 := Scalar.extui v134
  let c0_i32_125 : BitVec 32 := 0#32
  let v136 : BitVec 1 := Scalar.cmpi .slt v127 c0_i32_125
  let v137 : BitVec 32 := Scalar.extui v136
  let v138 : BitVec 32 := Scalar.subi v135 v137
  let c50_i32_123 : BitVec 32 := 50#32
  let c0_i32_126 : BitVec 32 := 0#32
  let v139 : BitVec 1 := Scalar.cmpi .sgt c50_i32_123 c0_i32_126
  let v140 : BitVec 32 := Scalar.extui v139
  let c0_i32_127 : BitVec 32 := 0#32
  let v141 : BitVec 1 := Scalar.cmpi .slt c50_i32_123 c0_i32_127
  let v142 : BitVec 32 := Scalar.extui v141
  let v143 : BitVec 32 := Scalar.subi v140 v142
  let v144 : BitVec 1 := Scalar.cmpi .ne v138 v143
  let v145 : BitVec 32 := Scalar.remsi v127 c50_i32_123
  let c0_i32_128 : BitVec 32 := 0#32
  let v146 : BitVec 1 := Scalar.cmpi .ne v145 c0_i32_128
  let v147 : BitVec 1 := Scalar.andi v144 v146
  let v133 : BitVec 32 := Scalar.divsi v127 c50_i32_123
  let c1_i32_129 : BitVec 32 := 1#32
  let v148 : BitVec 32 := Scalar.subi v133 c1_i32_129
  let v149 : BitVec 32 := Scalar.select v147 v148 v133
  let c50_i32_130 : BitVec 32 := 50#32
  let v150 : BitVec 32 := Scalar.muli v149 c50_i32_130
  let v151 : BitVec 32 := Scalar.subi v127 v150
  let c5_i32_131 : BitVec 32 := 5#32
  let v152 : BitVec 32 := Scalar.muli v151 c5_i32_131
  let c0_i32_133 : BitVec 32 := 0#32
  let c1_i32_135 : BitVec 32 := 1#32
  let arg20 : BitVec 32 := Scf.iv c0_i32_133 c1_i32_135 k2_t4
  let v437 : BitVec 32 := Scalar.addi v152 arg20
  let v438 : Index := Scalar.indexCast v437
  let c0_343 : Index := 0#32
  ![v438.toNat, 0]
def k2_off40 (k2_t4 : Fin k2_t4_loop.trips) : Fin 3 → Nat :=
  let c2_i32_344 : BitVec 32 := 2#32
  let v442 : Index := Scalar.indexCast c2_i32_344
  let c4_i32_332 : BitVec 32 := 4#32
  let c0_i32_133 : BitVec 32 := 0#32
  let c1_i32_135 : BitVec 32 := 1#32
  let arg20 : BitVec 32 := Scf.iv c0_i32_133 c1_i32_135 k2_t4
  let v414 : BitVec 32 := Scalar.muli c4_i32_332 arg20
  let v443 : Index := Scalar.indexCast v414
  let c16 : Index := 16#32
  ![2, v443.toNat, 16]
def k2_off41 (k2_t4 : Fin k2_t4_loop.trips) (c1_i32_345 : BitVec 32) : Fin 3 → Nat :=
  let c2_i32_346 : BitVec 32 := 2#32
  let v447 : Index := Scalar.indexCast c2_i32_346
  let c4_i32_332 : BitVec 32 := 4#32
  let c0_i32_133 : BitVec 32 := 0#32
  let c1_i32_135 : BitVec 32 := 1#32
  let arg20 : BitVec 32 := Scf.iv c0_i32_133 c1_i32_135 k2_t4
  let v414 : BitVec 32 := Scalar.muli c4_i32_332 arg20
  let v446 : BitVec 32 := Scalar.addi v414 c1_i32_345
  let v448 : Index := Scalar.indexCast v446
  let c16_347 : Index := 16#32
  ![2, v448.toNat, 16]
def k2_off42 (k2_t1 : Fin k2_t1_loop.trips) (k2_t4 : Fin k2_t4_loop.trips) : Fin 2 → Nat :=
  let c0_i32_62 : BitVec 32 := 0#32
  let c1_i32_63 : BitVec 32 := 1#32
  let arg18 : BitVec 32 := Scf.iv c0_i32_62 c1_i32_63 k2_t1
  let c10_i32_115 : BitVec 32 := 10#32
  let v126 : BitVec 32 := Scalar.muli arg18 c10_i32_115
  let c2_i32_116 : BitVec 32 := 2#32
  let v127 : BitVec 32 := Scalar.addi v126 c2_i32_116
  let c0_i32_124 : BitVec 32 := 0#32
  let v134 : BitVec 1 := Scalar.cmpi .sgt v127 c0_i32_124
  let v135 : BitVec 32 := Scalar.extui v134
  let c0_i32_125 : BitVec 32 := 0#32
  let v136 : BitVec 1 := Scalar.cmpi .slt v127 c0_i32_125
  let v137 : BitVec 32 := Scalar.extui v136
  let v138 : BitVec 32 := Scalar.subi v135 v137
  let c50_i32_123 : BitVec 32 := 50#32
  let c0_i32_126 : BitVec 32 := 0#32
  let v139 : BitVec 1 := Scalar.cmpi .sgt c50_i32_123 c0_i32_126
  let v140 : BitVec 32 := Scalar.extui v139
  let c0_i32_127 : BitVec 32 := 0#32
  let v141 : BitVec 1 := Scalar.cmpi .slt c50_i32_123 c0_i32_127
  let v142 : BitVec 32 := Scalar.extui v141
  let v143 : BitVec 32 := Scalar.subi v140 v142
  let v144 : BitVec 1 := Scalar.cmpi .ne v138 v143
  let v145 : BitVec 32 := Scalar.remsi v127 c50_i32_123
  let c0_i32_128 : BitVec 32 := 0#32
  let v146 : BitVec 1 := Scalar.cmpi .ne v145 c0_i32_128
  let v147 : BitVec 1 := Scalar.andi v144 v146
  let v133 : BitVec 32 := Scalar.divsi v127 c50_i32_123
  let c1_i32_129 : BitVec 32 := 1#32
  let v148 : BitVec 32 := Scalar.subi v133 c1_i32_129
  let v149 : BitVec 32 := Scalar.select v147 v148 v133
  let c50_i32_130 : BitVec 32 := 50#32
  let v150 : BitVec 32 := Scalar.muli v149 c50_i32_130
  let v151 : BitVec 32 := Scalar.subi v127 v150
  let c5_i32_131 : BitVec 32 := 5#32
  let v152 : BitVec 32 := Scalar.muli v151 c5_i32_131
  let c0_i32_133 : BitVec 32 := 0#32
  let c1_i32_135 : BitVec 32 := 1#32
  let arg20 : BitVec 32 := Scf.iv c0_i32_133 c1_i32_135 k2_t4
  let v464 : BitVec 32 := Scalar.addi v152 arg20
  let v465 : Index := Scalar.indexCast v464
  let c16_354 : Index := 16#32
  ![v465.toNat, 16]
def k2_off43 (k2_t4 : Fin k2_t4_loop.trips) : Fin 3 → Nat :=
  let c2_i32_355 : BitVec 32 := 2#32
  let v469 : Index := Scalar.indexCast c2_i32_355
  let c4_i32_332 : BitVec 32 := 4#32
  let c0_i32_133 : BitVec 32 := 0#32
  let c1_i32_135 : BitVec 32 := 1#32
  let arg20 : BitVec 32 := Scf.iv c0_i32_133 c1_i32_135 k2_t4
  let v414 : BitVec 32 := Scalar.muli c4_i32_332 arg20
  let v470 : Index := Scalar.indexCast v414
  let c32 : Index := 32#32
  ![2, v470.toNat, 32]
def k2_off44 (k2_t4 : Fin k2_t4_loop.trips) (c1_i32_356 : BitVec 32) : Fin 3 → Nat :=
  let c2_i32_357 : BitVec 32 := 2#32
  let v474 : Index := Scalar.indexCast c2_i32_357
  let c4_i32_332 : BitVec 32 := 4#32
  let c0_i32_133 : BitVec 32 := 0#32
  let c1_i32_135 : BitVec 32 := 1#32
  let arg20 : BitVec 32 := Scf.iv c0_i32_133 c1_i32_135 k2_t4
  let v414 : BitVec 32 := Scalar.muli c4_i32_332 arg20
  let v473 : BitVec 32 := Scalar.addi v414 c1_i32_356
  let v475 : Index := Scalar.indexCast v473
  let c32_358 : Index := 32#32
  ![2, v475.toNat, 32]
def k2_off45 (k2_t1 : Fin k2_t1_loop.trips) (k2_t4 : Fin k2_t4_loop.trips) : Fin 2 → Nat :=
  let c0_i32_62 : BitVec 32 := 0#32
  let c1_i32_63 : BitVec 32 := 1#32
  let arg18 : BitVec 32 := Scf.iv c0_i32_62 c1_i32_63 k2_t1
  let c10_i32_115 : BitVec 32 := 10#32
  let v126 : BitVec 32 := Scalar.muli arg18 c10_i32_115
  let c2_i32_116 : BitVec 32 := 2#32
  let v127 : BitVec 32 := Scalar.addi v126 c2_i32_116
  let c0_i32_124 : BitVec 32 := 0#32
  let v134 : BitVec 1 := Scalar.cmpi .sgt v127 c0_i32_124
  let v135 : BitVec 32 := Scalar.extui v134
  let c0_i32_125 : BitVec 32 := 0#32
  let v136 : BitVec 1 := Scalar.cmpi .slt v127 c0_i32_125
  let v137 : BitVec 32 := Scalar.extui v136
  let v138 : BitVec 32 := Scalar.subi v135 v137
  let c50_i32_123 : BitVec 32 := 50#32
  let c0_i32_126 : BitVec 32 := 0#32
  let v139 : BitVec 1 := Scalar.cmpi .sgt c50_i32_123 c0_i32_126
  let v140 : BitVec 32 := Scalar.extui v139
  let c0_i32_127 : BitVec 32 := 0#32
  let v141 : BitVec 1 := Scalar.cmpi .slt c50_i32_123 c0_i32_127
  let v142 : BitVec 32 := Scalar.extui v141
  let v143 : BitVec 32 := Scalar.subi v140 v142
  let v144 : BitVec 1 := Scalar.cmpi .ne v138 v143
  let v145 : BitVec 32 := Scalar.remsi v127 c50_i32_123
  let c0_i32_128 : BitVec 32 := 0#32
  let v146 : BitVec 1 := Scalar.cmpi .ne v145 c0_i32_128
  let v147 : BitVec 1 := Scalar.andi v144 v146
  let v133 : BitVec 32 := Scalar.divsi v127 c50_i32_123
  let c1_i32_129 : BitVec 32 := 1#32
  let v148 : BitVec 32 := Scalar.subi v133 c1_i32_129
  let v149 : BitVec 32 := Scalar.select v147 v148 v133
  let c50_i32_130 : BitVec 32 := 50#32
  let v150 : BitVec 32 := Scalar.muli v149 c50_i32_130
  let v151 : BitVec 32 := Scalar.subi v127 v150
  let c5_i32_131 : BitVec 32 := 5#32
  let v152 : BitVec 32 := Scalar.muli v151 c5_i32_131
  let c0_i32_133 : BitVec 32 := 0#32
  let c1_i32_135 : BitVec 32 := 1#32
  let arg20 : BitVec 32 := Scf.iv c0_i32_133 c1_i32_135 k2_t4
  let v491 : BitVec 32 := Scalar.addi v152 arg20
  let v492 : Index := Scalar.indexCast v491
  let c32_365 : Index := 32#32
  ![v492.toNat, 32]
def k2_off46 (k2_t4 : Fin k2_t4_loop.trips) : Fin 3 → Nat :=
  let c2_i32_366 : BitVec 32 := 2#32
  let v496 : Index := Scalar.indexCast c2_i32_366
  let c4_i32_332 : BitVec 32 := 4#32
  let c0_i32_133 : BitVec 32 := 0#32
  let c1_i32_135 : BitVec 32 := 1#32
  let arg20 : BitVec 32 := Scf.iv c0_i32_133 c1_i32_135 k2_t4
  let v414 : BitVec 32 := Scalar.muli c4_i32_332 arg20
  let v497 : Index := Scalar.indexCast v414
  let c48 : Index := 48#32
  ![2, v497.toNat, 48]
def k2_off47 (k2_t4 : Fin k2_t4_loop.trips) (c1_i32_367 : BitVec 32) : Fin 3 → Nat :=
  let c2_i32_368 : BitVec 32 := 2#32
  let v501 : Index := Scalar.indexCast c2_i32_368
  let c4_i32_332 : BitVec 32 := 4#32
  let c0_i32_133 : BitVec 32 := 0#32
  let c1_i32_135 : BitVec 32 := 1#32
  let arg20 : BitVec 32 := Scf.iv c0_i32_133 c1_i32_135 k2_t4
  let v414 : BitVec 32 := Scalar.muli c4_i32_332 arg20
  let v500 : BitVec 32 := Scalar.addi v414 c1_i32_367
  let v502 : Index := Scalar.indexCast v500
  let c48_369 : Index := 48#32
  ![2, v502.toNat, 48]
def k2_off48 (k2_t1 : Fin k2_t1_loop.trips) (k2_t4 : Fin k2_t4_loop.trips) : Fin 2 → Nat :=
  let c0_i32_62 : BitVec 32 := 0#32
  let c1_i32_63 : BitVec 32 := 1#32
  let arg18 : BitVec 32 := Scf.iv c0_i32_62 c1_i32_63 k2_t1
  let c10_i32_115 : BitVec 32 := 10#32
  let v126 : BitVec 32 := Scalar.muli arg18 c10_i32_115
  let c2_i32_116 : BitVec 32 := 2#32
  let v127 : BitVec 32 := Scalar.addi v126 c2_i32_116
  let c0_i32_124 : BitVec 32 := 0#32
  let v134 : BitVec 1 := Scalar.cmpi .sgt v127 c0_i32_124
  let v135 : BitVec 32 := Scalar.extui v134
  let c0_i32_125 : BitVec 32 := 0#32
  let v136 : BitVec 1 := Scalar.cmpi .slt v127 c0_i32_125
  let v137 : BitVec 32 := Scalar.extui v136
  let v138 : BitVec 32 := Scalar.subi v135 v137
  let c50_i32_123 : BitVec 32 := 50#32
  let c0_i32_126 : BitVec 32 := 0#32
  let v139 : BitVec 1 := Scalar.cmpi .sgt c50_i32_123 c0_i32_126
  let v140 : BitVec 32 := Scalar.extui v139
  let c0_i32_127 : BitVec 32 := 0#32
  let v141 : BitVec 1 := Scalar.cmpi .slt c50_i32_123 c0_i32_127
  let v142 : BitVec 32 := Scalar.extui v141
  let v143 : BitVec 32 := Scalar.subi v140 v142
  let v144 : BitVec 1 := Scalar.cmpi .ne v138 v143
  let v145 : BitVec 32 := Scalar.remsi v127 c50_i32_123
  let c0_i32_128 : BitVec 32 := 0#32
  let v146 : BitVec 1 := Scalar.cmpi .ne v145 c0_i32_128
  let v147 : BitVec 1 := Scalar.andi v144 v146
  let v133 : BitVec 32 := Scalar.divsi v127 c50_i32_123
  let c1_i32_129 : BitVec 32 := 1#32
  let v148 : BitVec 32 := Scalar.subi v133 c1_i32_129
  let v149 : BitVec 32 := Scalar.select v147 v148 v133
  let c50_i32_130 : BitVec 32 := 50#32
  let v150 : BitVec 32 := Scalar.muli v149 c50_i32_130
  let v151 : BitVec 32 := Scalar.subi v127 v150
  let c5_i32_131 : BitVec 32 := 5#32
  let v152 : BitVec 32 := Scalar.muli v151 c5_i32_131
  let c0_i32_133 : BitVec 32 := 0#32
  let c1_i32_135 : BitVec 32 := 1#32
  let arg20 : BitVec 32 := Scf.iv c0_i32_133 c1_i32_135 k2_t4
  let v518 : BitVec 32 := Scalar.addi v152 arg20
  let v519 : Index := Scalar.indexCast v518
  let c48_376 : Index := 48#32
  ![v519.toNat, 48]
def k2_off49 (k2_t4 : Fin k2_t4_loop.trips) : Fin 3 → Nat :=
  let c2_i32_377 : BitVec 32 := 2#32
  let v523 : Index := Scalar.indexCast c2_i32_377
  let c4_i32_332 : BitVec 32 := 4#32
  let c0_i32_133 : BitVec 32 := 0#32
  let c1_i32_135 : BitVec 32 := 1#32
  let arg20 : BitVec 32 := Scf.iv c0_i32_133 c1_i32_135 k2_t4
  let v414 : BitVec 32 := Scalar.muli c4_i32_332 arg20
  let v524 : Index := Scalar.indexCast v414
  let c64 : Index := 64#32
  ![2, v524.toNat, 64]
def k2_off50 (k2_t4 : Fin k2_t4_loop.trips) (c1_i32_378 : BitVec 32) : Fin 3 → Nat :=
  let c2_i32_379 : BitVec 32 := 2#32
  let v528 : Index := Scalar.indexCast c2_i32_379
  let c4_i32_332 : BitVec 32 := 4#32
  let c0_i32_133 : BitVec 32 := 0#32
  let c1_i32_135 : BitVec 32 := 1#32
  let arg20 : BitVec 32 := Scf.iv c0_i32_133 c1_i32_135 k2_t4
  let v414 : BitVec 32 := Scalar.muli c4_i32_332 arg20
  let v527 : BitVec 32 := Scalar.addi v414 c1_i32_378
  let v529 : Index := Scalar.indexCast v527
  let c64_380 : Index := 64#32
  ![2, v529.toNat, 64]
def k2_off51 (k2_t1 : Fin k2_t1_loop.trips) (k2_t4 : Fin k2_t4_loop.trips) : Fin 2 → Nat :=
  let c0_i32_62 : BitVec 32 := 0#32
  let c1_i32_63 : BitVec 32 := 1#32
  let arg18 : BitVec 32 := Scf.iv c0_i32_62 c1_i32_63 k2_t1
  let c10_i32_115 : BitVec 32 := 10#32
  let v126 : BitVec 32 := Scalar.muli arg18 c10_i32_115
  let c2_i32_116 : BitVec 32 := 2#32
  let v127 : BitVec 32 := Scalar.addi v126 c2_i32_116
  let c0_i32_124 : BitVec 32 := 0#32
  let v134 : BitVec 1 := Scalar.cmpi .sgt v127 c0_i32_124
  let v135 : BitVec 32 := Scalar.extui v134
  let c0_i32_125 : BitVec 32 := 0#32
  let v136 : BitVec 1 := Scalar.cmpi .slt v127 c0_i32_125
  let v137 : BitVec 32 := Scalar.extui v136
  let v138 : BitVec 32 := Scalar.subi v135 v137
  let c50_i32_123 : BitVec 32 := 50#32
  let c0_i32_126 : BitVec 32 := 0#32
  let v139 : BitVec 1 := Scalar.cmpi .sgt c50_i32_123 c0_i32_126
  let v140 : BitVec 32 := Scalar.extui v139
  let c0_i32_127 : BitVec 32 := 0#32
  let v141 : BitVec 1 := Scalar.cmpi .slt c50_i32_123 c0_i32_127
  let v142 : BitVec 32 := Scalar.extui v141
  let v143 : BitVec 32 := Scalar.subi v140 v142
  let v144 : BitVec 1 := Scalar.cmpi .ne v138 v143
  let v145 : BitVec 32 := Scalar.remsi v127 c50_i32_123
  let c0_i32_128 : BitVec 32 := 0#32
  let v146 : BitVec 1 := Scalar.cmpi .ne v145 c0_i32_128
  let v147 : BitVec 1 := Scalar.andi v144 v146
  let v133 : BitVec 32 := Scalar.divsi v127 c50_i32_123
  let c1_i32_129 : BitVec 32 := 1#32
  let v148 : BitVec 32 := Scalar.subi v133 c1_i32_129
  let v149 : BitVec 32 := Scalar.select v147 v148 v133
  let c50_i32_130 : BitVec 32 := 50#32
  let v150 : BitVec 32 := Scalar.muli v149 c50_i32_130
  let v151 : BitVec 32 := Scalar.subi v127 v150
  let c5_i32_131 : BitVec 32 := 5#32
  let v152 : BitVec 32 := Scalar.muli v151 c5_i32_131
  let c0_i32_133 : BitVec 32 := 0#32
  let c1_i32_135 : BitVec 32 := 1#32
  let arg20 : BitVec 32 := Scf.iv c0_i32_133 c1_i32_135 k2_t4
  let v545 : BitVec 32 := Scalar.addi v152 arg20
  let v546 : Index := Scalar.indexCast v545
  let c64_387 : Index := 64#32
  ![v546.toNat, 64]
def k2_cond5 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_115 : BitVec 32 := 10#32
  let v126 : BitVec 32 := Scalar.muli arg18 c10_i32_115
  let c2_i32_116 : BitVec 32 := 2#32
  let v127 : BitVec 32 := Scalar.addi v126 c2_i32_116
  let c0_i32_124 : BitVec 32 := 0#32
  let v134 : BitVec 1 := Scalar.cmpi .sgt v127 c0_i32_124
  let v135 : BitVec 32 := Scalar.extui v134
  let c0_i32_125 : BitVec 32 := 0#32
  let v136 : BitVec 1 := Scalar.cmpi .slt v127 c0_i32_125
  let v137 : BitVec 32 := Scalar.extui v136
  let v138 : BitVec 32 := Scalar.subi v135 v137
  let c50_i32_123 : BitVec 32 := 50#32
  let c0_i32_126 : BitVec 32 := 0#32
  let v139 : BitVec 1 := Scalar.cmpi .sgt c50_i32_123 c0_i32_126
  let v140 : BitVec 32 := Scalar.extui v139
  let c0_i32_127 : BitVec 32 := 0#32
  let v141 : BitVec 1 := Scalar.cmpi .slt c50_i32_123 c0_i32_127
  let v142 : BitVec 32 := Scalar.extui v141
  let v143 : BitVec 32 := Scalar.subi v140 v142
  let v144 : BitVec 1 := Scalar.cmpi .ne v138 v143
  let v145 : BitVec 32 := Scalar.remsi v127 c50_i32_123
  let c0_i32_128 : BitVec 32 := 0#32
  let v146 : BitVec 1 := Scalar.cmpi .ne v145 c0_i32_128
  let v147 : BitVec 1 := Scalar.andi v144 v146
  let v133 : BitVec 32 := Scalar.divsi v127 c50_i32_123
  let c1_i32_129 : BitVec 32 := 1#32
  let v148 : BitVec 32 := Scalar.subi v133 c1_i32_129
  let v149 : BitVec 32 := Scalar.select v147 v148 v133
  let c50_i32_130 : BitVec 32 := 50#32
  let v150 : BitVec 32 := Scalar.muli v149 c50_i32_130
  let v151 : BitVec 32 := Scalar.subi v127 v150
  let c49_i32_137 : BitVec 32 := 49#32
  let v155 : BitVec 1 := Scalar.cmpi .eq v151 c49_i32_137
  let v156 : BitVec 32 := Scalar.extui v155
  let c0_i32_138 : BitVec 32 := 0#32
  let v157 : BitVec 1 := Scalar.cmpi .ne v156 c0_i32_138
  v157

def k2_off52 (i : grid2.Coords) (k2_t1 : Fin k2_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62 : BitVec 32 := 0#32
  let c1_i32_63 : BitVec 32 := 1#32
  let arg18 : BitVec 32 := Scf.iv c0_i32_62 c1_i32_63 k2_t1
  let c10_i32_115 : BitVec 32 := 10#32
  let v126 : BitVec 32 := Scalar.muli arg18 c10_i32_115
  let c2_i32_116 : BitVec 32 := 2#32
  let v127 : BitVec 32 := Scalar.addi v126 c2_i32_116
  let c0_i32_124 : BitVec 32 := 0#32
  let v134 : BitVec 1 := Scalar.cmpi .sgt v127 c0_i32_124
  let v135 : BitVec 32 := Scalar.extui v134
  let c0_i32_125 : BitVec 32 := 0#32
  let v136 : BitVec 1 := Scalar.cmpi .slt v127 c0_i32_125
  let v137 : BitVec 32 := Scalar.extui v136
  let v138 : BitVec 32 := Scalar.subi v135 v137
  let c50_i32_123 : BitVec 32 := 50#32
  let c0_i32_126 : BitVec 32 := 0#32
  let v139 : BitVec 1 := Scalar.cmpi .sgt c50_i32_123 c0_i32_126
  let v140 : BitVec 32 := Scalar.extui v139
  let c0_i32_127 : BitVec 32 := 0#32
  let v141 : BitVec 1 := Scalar.cmpi .slt c50_i32_123 c0_i32_127
  let v142 : BitVec 32 := Scalar.extui v141
  let v143 : BitVec 32 := Scalar.subi v140 v142
  let v144 : BitVec 1 := Scalar.cmpi .ne v138 v143
  let v145 : BitVec 32 := Scalar.remsi v127 c50_i32_123
  let c0_i32_128 : BitVec 32 := 0#32
  let v146 : BitVec 1 := Scalar.cmpi .ne v145 c0_i32_128
  let v147 : BitVec 1 := Scalar.andi v144 v146
  let v133 : BitVec 32 := Scalar.divsi v127 c50_i32_123
  let c1_i32_129 : BitVec 32 := 1#32
  let v148 : BitVec 32 := Scalar.subi v133 c1_i32_129
  let v149 : BitVec 32 := Scalar.select v147 v148 v133
  let c0_i32_332_r3 : BitVec 32 := 0#32
  let c0_i32_333_r3 : BitVec 32 := 0#32
  ![v1.toNat, v149.toNat, 0, 0]
def k2_cond6 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_115 : BitVec 32 := 10#32
  let v126 : BitVec 32 := Scalar.muli arg18 c10_i32_115
  let c2_i32_116 : BitVec 32 := 2#32
  let v127 : BitVec 32 := Scalar.addi v126 c2_i32_116
  let c10_i32_139 : BitVec 32 := 10#32
  let v158 : BitVec 32 := Scalar.addi v127 c10_i32_139
  let c250_i32_140 : BitVec 32 := 250#32
  let v159 : BitVec 1 := Scalar.cmpi .slt v158 c250_i32_140
  let v160 : BitVec 32 := Scalar.extui v159
  let c0_i32_141 : BitVec 32 := 0#32
  let v161 : BitVec 1 := Scalar.cmpi .ne v160 c0_i32_141
  v161

def k2_off53 (k2_t1 : Fin k2_t1_loop.trips) : Fin 2 → Nat :=
  let c0_i32_62 : BitVec 32 := 0#32
  let c1_i32_63 : BitVec 32 := 1#32
  let arg18 : BitVec 32 := Scf.iv c0_i32_62 c1_i32_63 k2_t1
  let c10_i32_115 : BitVec 32 := 10#32
  let v126 : BitVec 32 := Scalar.muli arg18 c10_i32_115
  let c2_i32_116 : BitVec 32 := 2#32
  let v127 : BitVec 32 := Scalar.addi v126 c2_i32_116
  let c10_i32_332 : BitVec 32 := 10#32
  let v414 : BitVec 32 := Scalar.addi v127 c10_i32_332
  let c0_i32_336 : BitVec 32 := 0#32
  ![v414.toNat, 0]
@[reducible] def k2_t5_loop : Scf.Loop 32 :=
  let c0_i32_160 : BitVec 32 := 0#32
  let c5_i32_161 : BitVec 32 := 5#32
  let v189 : BitVec 32 := Scalar.addi c0_i32_160 c5_i32_161
  let c1_i32_162 : BitVec 32 := 1#32
  ⟨c0_i32_160, v189, c1_i32_162⟩
def k2_off54 (k2_t5 : Fin k2_t5_loop.trips) : Fin 3 → Nat :=
  let c3_i32_333 : BitVec 32 := 3#32
  let v415 : Index := Scalar.indexCast c3_i32_333
  let c4_i32_332 : BitVec 32 := 4#32
  let c0_i32_160 : BitVec 32 := 0#32
  let c1_i32_162 : BitVec 32 := 1#32
  let arg20 : BitVec 32 := Scf.iv c0_i32_160 c1_i32_162 k2_t5
  let v414 : BitVec 32 := Scalar.muli c4_i32_332 arg20
  let v416 : Index := Scalar.indexCast v414
  let c0 : Index := 0#32
  ![3, v416.toNat, 0]
def k2_off55 (k2_t5 : Fin k2_t5_loop.trips) (c1_i32_334 : BitVec 32) : Fin 3 → Nat :=
  let c3_i32_335 : BitVec 32 := 3#32
  let v420 : Index := Scalar.indexCast c3_i32_335
  let c4_i32_332 : BitVec 32 := 4#32
  let c0_i32_160 : BitVec 32 := 0#32
  let c1_i32_162 : BitVec 32 := 1#32
  let arg20 : BitVec 32 := Scf.iv c0_i32_160 c1_i32_162 k2_t5
  let v414 : BitVec 32 := Scalar.muli c4_i32_332 arg20
  let v419 : BitVec 32 := Scalar.addi v414 c1_i32_334
  let v421 : Index := Scalar.indexCast v419
  let c0_336 : Index := 0#32
  ![3, v421.toNat, 0]
def k2_off56 (k2_t1 : Fin k2_t1_loop.trips) (k2_t5 : Fin k2_t5_loop.trips) : Fin 2 → Nat :=
  let c0_i32_62 : BitVec 32 := 0#32
  let c1_i32_63 : BitVec 32 := 1#32
  let arg18 : BitVec 32 := Scf.iv c0_i32_62 c1_i32_63 k2_t1
  let c10_i32_142 : BitVec 32 := 10#32
  let v162 : BitVec 32 := Scalar.muli arg18 c10_i32_142
  let c3_i32_143 : BitVec 32 := 3#32
  let v163 : BitVec 32 := Scalar.addi v162 c3_i32_143
  let c0_i32_151 : BitVec 32 := 0#32
  let v170 : BitVec 1 := Scalar.cmpi .sgt v163 c0_i32_151
  let v171 : BitVec 32 := Scalar.extui v170
  let c0_i32_152 : BitVec 32 := 0#32
  let v172 : BitVec 1 := Scalar.cmpi .slt v163 c0_i32_152
  let v173 : BitVec 32 := Scalar.extui v172
  let v174 : BitVec 32 := Scalar.subi v171 v173
  let c50_i32_150 : BitVec 32 := 50#32
  let c0_i32_153 : BitVec 32 := 0#32
  let v175 : BitVec 1 := Scalar.cmpi .sgt c50_i32_150 c0_i32_153
  let v176 : BitVec 32 := Scalar.extui v175
  let c0_i32_154 : BitVec 32 := 0#32
  let v177 : BitVec 1 := Scalar.cmpi .slt c50_i32_150 c0_i32_154
  let v178 : BitVec 32 := Scalar.extui v177
  let v179 : BitVec 32 := Scalar.subi v176 v178
  let v180 : BitVec 1 := Scalar.cmpi .ne v174 v179
  let v181 : BitVec 32 := Scalar.remsi v163 c50_i32_150
  let c0_i32_155 : BitVec 32 := 0#32
  let v182 : BitVec 1 := Scalar.cmpi .ne v181 c0_i32_155
  let v183 : BitVec 1 := Scalar.andi v180 v182
  let v169 : BitVec 32 := Scalar.divsi v163 c50_i32_150
  let c1_i32_156 : BitVec 32 := 1#32
  let v184 : BitVec 32 := Scalar.subi v169 c1_i32_156
  let v185 : BitVec 32 := Scalar.select v183 v184 v169
  let c50_i32_157 : BitVec 32 := 50#32
  let v186 : BitVec 32 := Scalar.muli v185 c50_i32_157
  let v187 : BitVec 32 := Scalar.subi v163 v186
  let c5_i32_158 : BitVec 32 := 5#32
  let v188 : BitVec 32 := Scalar.muli v187 c5_i32_158
  let c0_i32_160 : BitVec 32 := 0#32
  let c1_i32_162 : BitVec 32 := 1#32
  let arg20 : BitVec 32 := Scf.iv c0_i32_160 c1_i32_162 k2_t5
  let v437 : BitVec 32 := Scalar.addi v188 arg20
  let v438 : Index := Scalar.indexCast v437
  let c0_343 : Index := 0#32
  ![v438.toNat, 0]
def k2_off57 (k2_t5 : Fin k2_t5_loop.trips) : Fin 3 → Nat :=
  let c3_i32_344 : BitVec 32 := 3#32
  let v442 : Index := Scalar.indexCast c3_i32_344
  let c4_i32_332 : BitVec 32 := 4#32
  let c0_i32_160 : BitVec 32 := 0#32
  let c1_i32_162 : BitVec 32 := 1#32
  let arg20 : BitVec 32 := Scf.iv c0_i32_160 c1_i32_162 k2_t5
  let v414 : BitVec 32 := Scalar.muli c4_i32_332 arg20
  let v443 : Index := Scalar.indexCast v414
  let c16 : Index := 16#32
  ![3, v443.toNat, 16]
def k2_off58 (k2_t5 : Fin k2_t5_loop.trips) (c1_i32_345 : BitVec 32) : Fin 3 → Nat :=
  let c3_i32_346 : BitVec 32 := 3#32
  let v447 : Index := Scalar.indexCast c3_i32_346
  let c4_i32_332 : BitVec 32 := 4#32
  let c0_i32_160 : BitVec 32 := 0#32
  let c1_i32_162 : BitVec 32 := 1#32
  let arg20 : BitVec 32 := Scf.iv c0_i32_160 c1_i32_162 k2_t5
  let v414 : BitVec 32 := Scalar.muli c4_i32_332 arg20
  let v446 : BitVec 32 := Scalar.addi v414 c1_i32_345
  let v448 : Index := Scalar.indexCast v446
  let c16_347 : Index := 16#32
  ![3, v448.toNat, 16]
def k2_off59 (k2_t1 : Fin k2_t1_loop.trips) (k2_t5 : Fin k2_t5_loop.trips) : Fin 2 → Nat :=
  let c0_i32_62 : BitVec 32 := 0#32
  let c1_i32_63 : BitVec 32 := 1#32
  let arg18 : BitVec 32 := Scf.iv c0_i32_62 c1_i32_63 k2_t1
  let c10_i32_142 : BitVec 32 := 10#32
  let v162 : BitVec 32 := Scalar.muli arg18 c10_i32_142
  let c3_i32_143 : BitVec 32 := 3#32
  let v163 : BitVec 32 := Scalar.addi v162 c3_i32_143
  let c0_i32_151 : BitVec 32 := 0#32
  let v170 : BitVec 1 := Scalar.cmpi .sgt v163 c0_i32_151
  let v171 : BitVec 32 := Scalar.extui v170
  let c0_i32_152 : BitVec 32 := 0#32
  let v172 : BitVec 1 := Scalar.cmpi .slt v163 c0_i32_152
  let v173 : BitVec 32 := Scalar.extui v172
  let v174 : BitVec 32 := Scalar.subi v171 v173
  let c50_i32_150 : BitVec 32 := 50#32
  let c0_i32_153 : BitVec 32 := 0#32
  let v175 : BitVec 1 := Scalar.cmpi .sgt c50_i32_150 c0_i32_153
  let v176 : BitVec 32 := Scalar.extui v175
  let c0_i32_154 : BitVec 32 := 0#32
  let v177 : BitVec 1 := Scalar.cmpi .slt c50_i32_150 c0_i32_154
  let v178 : BitVec 32 := Scalar.extui v177
  let v179 : BitVec 32 := Scalar.subi v176 v178
  let v180 : BitVec 1 := Scalar.cmpi .ne v174 v179
  let v181 : BitVec 32 := Scalar.remsi v163 c50_i32_150
  let c0_i32_155 : BitVec 32 := 0#32
  let v182 : BitVec 1 := Scalar.cmpi .ne v181 c0_i32_155
  let v183 : BitVec 1 := Scalar.andi v180 v182
  let v169 : BitVec 32 := Scalar.divsi v163 c50_i32_150
  let c1_i32_156 : BitVec 32 := 1#32
  let v184 : BitVec 32 := Scalar.subi v169 c1_i32_156
  let v185 : BitVec 32 := Scalar.select v183 v184 v169
  let c50_i32_157 : BitVec 32 := 50#32
  let v186 : BitVec 32 := Scalar.muli v185 c50_i32_157
  let v187 : BitVec 32 := Scalar.subi v163 v186
  let c5_i32_158 : BitVec 32 := 5#32
  let v188 : BitVec 32 := Scalar.muli v187 c5_i32_158
  let c0_i32_160 : BitVec 32 := 0#32
  let c1_i32_162 : BitVec 32 := 1#32
  let arg20 : BitVec 32 := Scf.iv c0_i32_160 c1_i32_162 k2_t5
  let v464 : BitVec 32 := Scalar.addi v188 arg20
  let v465 : Index := Scalar.indexCast v464
  let c16_354 : Index := 16#32
  ![v465.toNat, 16]
def k2_off60 (k2_t5 : Fin k2_t5_loop.trips) : Fin 3 → Nat :=
  let c3_i32_355 : BitVec 32 := 3#32
  let v469 : Index := Scalar.indexCast c3_i32_355
  let c4_i32_332 : BitVec 32 := 4#32
  let c0_i32_160 : BitVec 32 := 0#32
  let c1_i32_162 : BitVec 32 := 1#32
  let arg20 : BitVec 32 := Scf.iv c0_i32_160 c1_i32_162 k2_t5
  let v414 : BitVec 32 := Scalar.muli c4_i32_332 arg20
  let v470 : Index := Scalar.indexCast v414
  let c32 : Index := 32#32
  ![3, v470.toNat, 32]
def k2_off61 (k2_t5 : Fin k2_t5_loop.trips) (c1_i32_356 : BitVec 32) : Fin 3 → Nat :=
  let c3_i32_357 : BitVec 32 := 3#32
  let v474 : Index := Scalar.indexCast c3_i32_357
  let c4_i32_332 : BitVec 32 := 4#32
  let c0_i32_160 : BitVec 32 := 0#32
  let c1_i32_162 : BitVec 32 := 1#32
  let arg20 : BitVec 32 := Scf.iv c0_i32_160 c1_i32_162 k2_t5
  let v414 : BitVec 32 := Scalar.muli c4_i32_332 arg20
  let v473 : BitVec 32 := Scalar.addi v414 c1_i32_356
  let v475 : Index := Scalar.indexCast v473
  let c32_358 : Index := 32#32
  ![3, v475.toNat, 32]
def k2_off62 (k2_t1 : Fin k2_t1_loop.trips) (k2_t5 : Fin k2_t5_loop.trips) : Fin 2 → Nat :=
  let c0_i32_62 : BitVec 32 := 0#32
  let c1_i32_63 : BitVec 32 := 1#32
  let arg18 : BitVec 32 := Scf.iv c0_i32_62 c1_i32_63 k2_t1
  let c10_i32_142 : BitVec 32 := 10#32
  let v162 : BitVec 32 := Scalar.muli arg18 c10_i32_142
  let c3_i32_143 : BitVec 32 := 3#32
  let v163 : BitVec 32 := Scalar.addi v162 c3_i32_143
  let c0_i32_151 : BitVec 32 := 0#32
  let v170 : BitVec 1 := Scalar.cmpi .sgt v163 c0_i32_151
  let v171 : BitVec 32 := Scalar.extui v170
  let c0_i32_152 : BitVec 32 := 0#32
  let v172 : BitVec 1 := Scalar.cmpi .slt v163 c0_i32_152
  let v173 : BitVec 32 := Scalar.extui v172
  let v174 : BitVec 32 := Scalar.subi v171 v173
  let c50_i32_150 : BitVec 32 := 50#32
  let c0_i32_153 : BitVec 32 := 0#32
  let v175 : BitVec 1 := Scalar.cmpi .sgt c50_i32_150 c0_i32_153
  let v176 : BitVec 32 := Scalar.extui v175
  let c0_i32_154 : BitVec 32 := 0#32
  let v177 : BitVec 1 := Scalar.cmpi .slt c50_i32_150 c0_i32_154
  let v178 : BitVec 32 := Scalar.extui v177
  let v179 : BitVec 32 := Scalar.subi v176 v178
  let v180 : BitVec 1 := Scalar.cmpi .ne v174 v179
  let v181 : BitVec 32 := Scalar.remsi v163 c50_i32_150
  let c0_i32_155 : BitVec 32 := 0#32
  let v182 : BitVec 1 := Scalar.cmpi .ne v181 c0_i32_155
  let v183 : BitVec 1 := Scalar.andi v180 v182
  let v169 : BitVec 32 := Scalar.divsi v163 c50_i32_150
  let c1_i32_156 : BitVec 32 := 1#32
  let v184 : BitVec 32 := Scalar.subi v169 c1_i32_156
  let v185 : BitVec 32 := Scalar.select v183 v184 v169
  let c50_i32_157 : BitVec 32 := 50#32
  let v186 : BitVec 32 := Scalar.muli v185 c50_i32_157
  let v187 : BitVec 32 := Scalar.subi v163 v186
  let c5_i32_158 : BitVec 32 := 5#32
  let v188 : BitVec 32 := Scalar.muli v187 c5_i32_158
  let c0_i32_160 : BitVec 32 := 0#32
  let c1_i32_162 : BitVec 32 := 1#32
  let arg20 : BitVec 32 := Scf.iv c0_i32_160 c1_i32_162 k2_t5
  let v491 : BitVec 32 := Scalar.addi v188 arg20
  let v492 : Index := Scalar.indexCast v491
  let c32_365 : Index := 32#32
  ![v492.toNat, 32]
def k2_off63 (k2_t5 : Fin k2_t5_loop.trips) : Fin 3 → Nat :=
  let c3_i32_366 : BitVec 32 := 3#32
  let v496 : Index := Scalar.indexCast c3_i32_366
  let c4_i32_332 : BitVec 32 := 4#32
  let c0_i32_160 : BitVec 32 := 0#32
  let c1_i32_162 : BitVec 32 := 1#32
  let arg20 : BitVec 32 := Scf.iv c0_i32_160 c1_i32_162 k2_t5
  let v414 : BitVec 32 := Scalar.muli c4_i32_332 arg20
  let v497 : Index := Scalar.indexCast v414
  let c48 : Index := 48#32
  ![3, v497.toNat, 48]
def k2_off64 (k2_t5 : Fin k2_t5_loop.trips) (c1_i32_367 : BitVec 32) : Fin 3 → Nat :=
  let c3_i32_368 : BitVec 32 := 3#32
  let v501 : Index := Scalar.indexCast c3_i32_368
  let c4_i32_332 : BitVec 32 := 4#32
  let c0_i32_160 : BitVec 32 := 0#32
  let c1_i32_162 : BitVec 32 := 1#32
  let arg20 : BitVec 32 := Scf.iv c0_i32_160 c1_i32_162 k2_t5
  let v414 : BitVec 32 := Scalar.muli c4_i32_332 arg20
  let v500 : BitVec 32 := Scalar.addi v414 c1_i32_367
  let v502 : Index := Scalar.indexCast v500
  let c48_369 : Index := 48#32
  ![3, v502.toNat, 48]
def k2_off65 (k2_t1 : Fin k2_t1_loop.trips) (k2_t5 : Fin k2_t5_loop.trips) : Fin 2 → Nat :=
  let c0_i32_62 : BitVec 32 := 0#32
  let c1_i32_63 : BitVec 32 := 1#32
  let arg18 : BitVec 32 := Scf.iv c0_i32_62 c1_i32_63 k2_t1
  let c10_i32_142 : BitVec 32 := 10#32
  let v162 : BitVec 32 := Scalar.muli arg18 c10_i32_142
  let c3_i32_143 : BitVec 32 := 3#32
  let v163 : BitVec 32 := Scalar.addi v162 c3_i32_143
  let c0_i32_151 : BitVec 32 := 0#32
  let v170 : BitVec 1 := Scalar.cmpi .sgt v163 c0_i32_151
  let v171 : BitVec 32 := Scalar.extui v170
  let c0_i32_152 : BitVec 32 := 0#32
  let v172 : BitVec 1 := Scalar.cmpi .slt v163 c0_i32_152
  let v173 : BitVec 32 := Scalar.extui v172
  let v174 : BitVec 32 := Scalar.subi v171 v173
  let c50_i32_150 : BitVec 32 := 50#32
  let c0_i32_153 : BitVec 32 := 0#32
  let v175 : BitVec 1 := Scalar.cmpi .sgt c50_i32_150 c0_i32_153
  let v176 : BitVec 32 := Scalar.extui v175
  let c0_i32_154 : BitVec 32 := 0#32
  let v177 : BitVec 1 := Scalar.cmpi .slt c50_i32_150 c0_i32_154
  let v178 : BitVec 32 := Scalar.extui v177
  let v179 : BitVec 32 := Scalar.subi v176 v178
  let v180 : BitVec 1 := Scalar.cmpi .ne v174 v179
  let v181 : BitVec 32 := Scalar.remsi v163 c50_i32_150
  let c0_i32_155 : BitVec 32 := 0#32
  let v182 : BitVec 1 := Scalar.cmpi .ne v181 c0_i32_155
  let v183 : BitVec 1 := Scalar.andi v180 v182
  let v169 : BitVec 32 := Scalar.divsi v163 c50_i32_150
  let c1_i32_156 : BitVec 32 := 1#32
  let v184 : BitVec 32 := Scalar.subi v169 c1_i32_156
  let v185 : BitVec 32 := Scalar.select v183 v184 v169
  let c50_i32_157 : BitVec 32 := 50#32
  let v186 : BitVec 32 := Scalar.muli v185 c50_i32_157
  let v187 : BitVec 32 := Scalar.subi v163 v186
  let c5_i32_158 : BitVec 32 := 5#32
  let v188 : BitVec 32 := Scalar.muli v187 c5_i32_158
  let c0_i32_160 : BitVec 32 := 0#32
  let c1_i32_162 : BitVec 32 := 1#32
  let arg20 : BitVec 32 := Scf.iv c0_i32_160 c1_i32_162 k2_t5
  let v518 : BitVec 32 := Scalar.addi v188 arg20
  let v519 : Index := Scalar.indexCast v518
  let c48_376 : Index := 48#32
  ![v519.toNat, 48]
def k2_off66 (k2_t5 : Fin k2_t5_loop.trips) : Fin 3 → Nat :=
  let c3_i32_377 : BitVec 32 := 3#32
  let v523 : Index := Scalar.indexCast c3_i32_377
  let c4_i32_332 : BitVec 32 := 4#32
  let c0_i32_160 : BitVec 32 := 0#32
  let c1_i32_162 : BitVec 32 := 1#32
  let arg20 : BitVec 32 := Scf.iv c0_i32_160 c1_i32_162 k2_t5
  let v414 : BitVec 32 := Scalar.muli c4_i32_332 arg20
  let v524 : Index := Scalar.indexCast v414
  let c64 : Index := 64#32
  ![3, v524.toNat, 64]
def k2_off67 (k2_t5 : Fin k2_t5_loop.trips) (c1_i32_378 : BitVec 32) : Fin 3 → Nat :=
  let c3_i32_379 : BitVec 32 := 3#32
  let v528 : Index := Scalar.indexCast c3_i32_379
  let c4_i32_332 : BitVec 32 := 4#32
  let c0_i32_160 : BitVec 32 := 0#32
  let c1_i32_162 : BitVec 32 := 1#32
  let arg20 : BitVec 32 := Scf.iv c0_i32_160 c1_i32_162 k2_t5
  let v414 : BitVec 32 := Scalar.muli c4_i32_332 arg20
  let v527 : BitVec 32 := Scalar.addi v414 c1_i32_378
  let v529 : Index := Scalar.indexCast v527
  let c64_380 : Index := 64#32
  ![3, v529.toNat, 64]
def k2_off68 (k2_t1 : Fin k2_t1_loop.trips) (k2_t5 : Fin k2_t5_loop.trips) : Fin 2 → Nat :=
  let c0_i32_62 : BitVec 32 := 0#32
  let c1_i32_63 : BitVec 32 := 1#32
  let arg18 : BitVec 32 := Scf.iv c0_i32_62 c1_i32_63 k2_t1
  let c10_i32_142 : BitVec 32 := 10#32
  let v162 : BitVec 32 := Scalar.muli arg18 c10_i32_142
  let c3_i32_143 : BitVec 32 := 3#32
  let v163 : BitVec 32 := Scalar.addi v162 c3_i32_143
  let c0_i32_151 : BitVec 32 := 0#32
  let v170 : BitVec 1 := Scalar.cmpi .sgt v163 c0_i32_151
  let v171 : BitVec 32 := Scalar.extui v170
  let c0_i32_152 : BitVec 32 := 0#32
  let v172 : BitVec 1 := Scalar.cmpi .slt v163 c0_i32_152
  let v173 : BitVec 32 := Scalar.extui v172
  let v174 : BitVec 32 := Scalar.subi v171 v173
  let c50_i32_150 : BitVec 32 := 50#32
  let c0_i32_153 : BitVec 32 := 0#32
  let v175 : BitVec 1 := Scalar.cmpi .sgt c50_i32_150 c0_i32_153
  let v176 : BitVec 32 := Scalar.extui v175
  let c0_i32_154 : BitVec 32 := 0#32
  let v177 : BitVec 1 := Scalar.cmpi .slt c50_i32_150 c0_i32_154
  let v178 : BitVec 32 := Scalar.extui v177
  let v179 : BitVec 32 := Scalar.subi v176 v178
  let v180 : BitVec 1 := Scalar.cmpi .ne v174 v179
  let v181 : BitVec 32 := Scalar.remsi v163 c50_i32_150
  let c0_i32_155 : BitVec 32 := 0#32
  let v182 : BitVec 1 := Scalar.cmpi .ne v181 c0_i32_155
  let v183 : BitVec 1 := Scalar.andi v180 v182
  let v169 : BitVec 32 := Scalar.divsi v163 c50_i32_150
  let c1_i32_156 : BitVec 32 := 1#32
  let v184 : BitVec 32 := Scalar.subi v169 c1_i32_156
  let v185 : BitVec 32 := Scalar.select v183 v184 v169
  let c50_i32_157 : BitVec 32 := 50#32
  let v186 : BitVec 32 := Scalar.muli v185 c50_i32_157
  let v187 : BitVec 32 := Scalar.subi v163 v186
  let c5_i32_158 : BitVec 32 := 5#32
  let v188 : BitVec 32 := Scalar.muli v187 c5_i32_158
  let c0_i32_160 : BitVec 32 := 0#32
  let c1_i32_162 : BitVec 32 := 1#32
  let arg20 : BitVec 32 := Scf.iv c0_i32_160 c1_i32_162 k2_t5
  let v545 : BitVec 32 := Scalar.addi v188 arg20
  let v546 : Index := Scalar.indexCast v545
  let c64_387 : Index := 64#32
  ![v546.toNat, 64]
def k2_cond7 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_142 : BitVec 32 := 10#32
  let v162 : BitVec 32 := Scalar.muli arg18 c10_i32_142
  let c3_i32_143 : BitVec 32 := 3#32
  let v163 : BitVec 32 := Scalar.addi v162 c3_i32_143
  let c0_i32_151 : BitVec 32 := 0#32
  let v170 : BitVec 1 := Scalar.cmpi .sgt v163 c0_i32_151
  let v171 : BitVec 32 := Scalar.extui v170
  let c0_i32_152 : BitVec 32 := 0#32
  let v172 : BitVec 1 := Scalar.cmpi .slt v163 c0_i32_152
  let v173 : BitVec 32 := Scalar.extui v172
  let v174 : BitVec 32 := Scalar.subi v171 v173
  let c50_i32_150 : BitVec 32 := 50#32
  let c0_i32_153 : BitVec 32 := 0#32
  let v175 : BitVec 1 := Scalar.cmpi .sgt c50_i32_150 c0_i32_153
  let v176 : BitVec 32 := Scalar.extui v175
  let c0_i32_154 : BitVec 32 := 0#32
  let v177 : BitVec 1 := Scalar.cmpi .slt c50_i32_150 c0_i32_154
  let v178 : BitVec 32 := Scalar.extui v177
  let v179 : BitVec 32 := Scalar.subi v176 v178
  let v180 : BitVec 1 := Scalar.cmpi .ne v174 v179
  let v181 : BitVec 32 := Scalar.remsi v163 c50_i32_150
  let c0_i32_155 : BitVec 32 := 0#32
  let v182 : BitVec 1 := Scalar.cmpi .ne v181 c0_i32_155
  let v183 : BitVec 1 := Scalar.andi v180 v182
  let v169 : BitVec 32 := Scalar.divsi v163 c50_i32_150
  let c1_i32_156 : BitVec 32 := 1#32
  let v184 : BitVec 32 := Scalar.subi v169 c1_i32_156
  let v185 : BitVec 32 := Scalar.select v183 v184 v169
  let c50_i32_157 : BitVec 32 := 50#32
  let v186 : BitVec 32 := Scalar.muli v185 c50_i32_157
  let v187 : BitVec 32 := Scalar.subi v163 v186
  let c49_i32_164 : BitVec 32 := 49#32
  let v191 : BitVec 1 := Scalar.cmpi .eq v187 c49_i32_164
  let v192 : BitVec 32 := Scalar.extui v191
  let c0_i32_165 : BitVec 32 := 0#32
  let v193 : BitVec 1 := Scalar.cmpi .ne v192 c0_i32_165
  v193

def k2_off69 (i : grid2.Coords) (k2_t1 : Fin k2_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62 : BitVec 32 := 0#32
  let c1_i32_63 : BitVec 32 := 1#32
  let arg18 : BitVec 32 := Scf.iv c0_i32_62 c1_i32_63 k2_t1
  let c10_i32_142 : BitVec 32 := 10#32
  let v162 : BitVec 32 := Scalar.muli arg18 c10_i32_142
  let c3_i32_143 : BitVec 32 := 3#32
  let v163 : BitVec 32 := Scalar.addi v162 c3_i32_143
  let c0_i32_151 : BitVec 32 := 0#32
  let v170 : BitVec 1 := Scalar.cmpi .sgt v163 c0_i32_151
  let v171 : BitVec 32 := Scalar.extui v170
  let c0_i32_152 : BitVec 32 := 0#32
  let v172 : BitVec 1 := Scalar.cmpi .slt v163 c0_i32_152
  let v173 : BitVec 32 := Scalar.extui v172
  let v174 : BitVec 32 := Scalar.subi v171 v173
  let c50_i32_150 : BitVec 32 := 50#32
  let c0_i32_153 : BitVec 32 := 0#32
  let v175 : BitVec 1 := Scalar.cmpi .sgt c50_i32_150 c0_i32_153
  let v176 : BitVec 32 := Scalar.extui v175
  let c0_i32_154 : BitVec 32 := 0#32
  let v177 : BitVec 1 := Scalar.cmpi .slt c50_i32_150 c0_i32_154
  let v178 : BitVec 32 := Scalar.extui v177
  let v179 : BitVec 32 := Scalar.subi v176 v178
  let v180 : BitVec 1 := Scalar.cmpi .ne v174 v179
  let v181 : BitVec 32 := Scalar.remsi v163 c50_i32_150
  let c0_i32_155 : BitVec 32 := 0#32
  let v182 : BitVec 1 := Scalar.cmpi .ne v181 c0_i32_155
  let v183 : BitVec 1 := Scalar.andi v180 v182
  let v169 : BitVec 32 := Scalar.divsi v163 c50_i32_150
  let c1_i32_156 : BitVec 32 := 1#32
  let v184 : BitVec 32 := Scalar.subi v169 c1_i32_156
  let v185 : BitVec 32 := Scalar.select v183 v184 v169
  let c0_i32_332_r4 : BitVec 32 := 0#32
  let c0_i32_333_r4 : BitVec 32 := 0#32
  ![v1.toNat, v185.toNat, 0, 0]
def k2_cond8 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_142 : BitVec 32 := 10#32
  let v162 : BitVec 32 := Scalar.muli arg18 c10_i32_142
  let c3_i32_143 : BitVec 32 := 3#32
  let v163 : BitVec 32 := Scalar.addi v162 c3_i32_143
  let c10_i32_166 : BitVec 32 := 10#32
  let v194 : BitVec 32 := Scalar.addi v163 c10_i32_166
  let c250_i32_167 : BitVec 32 := 250#32
  let v195 : BitVec 1 := Scalar.cmpi .slt v194 c250_i32_167
  let v196 : BitVec 32 := Scalar.extui v195
  let c0_i32_168 : BitVec 32 := 0#32
  let v197 : BitVec 1 := Scalar.cmpi .ne v196 c0_i32_168
  v197

def k2_off70 (k2_t1 : Fin k2_t1_loop.trips) : Fin 2 → Nat :=
  let c0_i32_62 : BitVec 32 := 0#32
  let c1_i32_63 : BitVec 32 := 1#32
  let arg18 : BitVec 32 := Scf.iv c0_i32_62 c1_i32_63 k2_t1
  let c10_i32_142 : BitVec 32 := 10#32
  let v162 : BitVec 32 := Scalar.muli arg18 c10_i32_142
  let c3_i32_143 : BitVec 32 := 3#32
  let v163 : BitVec 32 := Scalar.addi v162 c3_i32_143
  let c10_i32_332 : BitVec 32 := 10#32
  let v414 : BitVec 32 := Scalar.addi v163 c10_i32_332
  let c0_i32_336 : BitVec 32 := 0#32
  ![v414.toNat, 0]
@[reducible] def k2_t6_loop : Scf.Loop 32 :=
  let c0_i32_187 : BitVec 32 := 0#32
  let c5_i32_188 : BitVec 32 := 5#32
  let v225 : BitVec 32 := Scalar.addi c0_i32_187 c5_i32_188
  let c1_i32_189 : BitVec 32 := 1#32
  ⟨c0_i32_187, v225, c1_i32_189⟩
def k2_off71 (k2_t6 : Fin k2_t6_loop.trips) : Fin 3 → Nat :=
  let c4_i32_333 : BitVec 32 := 4#32
  let v415 : Index := Scalar.indexCast c4_i32_333
  let c4_i32_332 : BitVec 32 := 4#32
  let c0_i32_187 : BitVec 32 := 0#32
  let c1_i32_189 : BitVec 32 := 1#32
  let arg20 : BitVec 32 := Scf.iv c0_i32_187 c1_i32_189 k2_t6
  let v414 : BitVec 32 := Scalar.muli c4_i32_332 arg20
  let v416 : Index := Scalar.indexCast v414
  let c0 : Index := 0#32
  ![4, v416.toNat, 0]
def k2_off72 (k2_t6 : Fin k2_t6_loop.trips) (c1_i32_334 : BitVec 32) : Fin 3 → Nat :=
  let c4_i32_335 : BitVec 32 := 4#32
  let v420 : Index := Scalar.indexCast c4_i32_335
  let c4_i32_332 : BitVec 32 := 4#32
  let c0_i32_187 : BitVec 32 := 0#32
  let c1_i32_189 : BitVec 32 := 1#32
  let arg20 : BitVec 32 := Scf.iv c0_i32_187 c1_i32_189 k2_t6
  let v414 : BitVec 32 := Scalar.muli c4_i32_332 arg20
  let v419 : BitVec 32 := Scalar.addi v414 c1_i32_334
  let v421 : Index := Scalar.indexCast v419
  let c0_336 : Index := 0#32
  ![4, v421.toNat, 0]
def k2_off73 (k2_t1 : Fin k2_t1_loop.trips) (k2_t6 : Fin k2_t6_loop.trips) : Fin 2 → Nat :=
  let c0_i32_62 : BitVec 32 := 0#32
  let c1_i32_63 : BitVec 32 := 1#32
  let arg18 : BitVec 32 := Scf.iv c0_i32_62 c1_i32_63 k2_t1
  let c10_i32_169 : BitVec 32 := 10#32
  let v198 : BitVec 32 := Scalar.muli arg18 c10_i32_169
  let c4_i32_170 : BitVec 32 := 4#32
  let v199 : BitVec 32 := Scalar.addi v198 c4_i32_170
  let c0_i32_178 : BitVec 32 := 0#32
  let v206 : BitVec 1 := Scalar.cmpi .sgt v199 c0_i32_178
  let v207 : BitVec 32 := Scalar.extui v206
  let c0_i32_179 : BitVec 32 := 0#32
  let v208 : BitVec 1 := Scalar.cmpi .slt v199 c0_i32_179
  let v209 : BitVec 32 := Scalar.extui v208
  let v210 : BitVec 32 := Scalar.subi v207 v209
  let c50_i32_177 : BitVec 32 := 50#32
  let c0_i32_180 : BitVec 32 := 0#32
  let v211 : BitVec 1 := Scalar.cmpi .sgt c50_i32_177 c0_i32_180
  let v212 : BitVec 32 := Scalar.extui v211
  let c0_i32_181 : BitVec 32 := 0#32
  let v213 : BitVec 1 := Scalar.cmpi .slt c50_i32_177 c0_i32_181
  let v214 : BitVec 32 := Scalar.extui v213
  let v215 : BitVec 32 := Scalar.subi v212 v214
  let v216 : BitVec 1 := Scalar.cmpi .ne v210 v215
  let v217 : BitVec 32 := Scalar.remsi v199 c50_i32_177
  let c0_i32_182 : BitVec 32 := 0#32
  let v218 : BitVec 1 := Scalar.cmpi .ne v217 c0_i32_182
  let v219 : BitVec 1 := Scalar.andi v216 v218
  let v205 : BitVec 32 := Scalar.divsi v199 c50_i32_177
  let c1_i32_183 : BitVec 32 := 1#32
  let v220 : BitVec 32 := Scalar.subi v205 c1_i32_183
  let v221 : BitVec 32 := Scalar.select v219 v220 v205
  let c50_i32_184 : BitVec 32 := 50#32
  let v222 : BitVec 32 := Scalar.muli v221 c50_i32_184
  let v223 : BitVec 32 := Scalar.subi v199 v222
  let c5_i32_185 : BitVec 32 := 5#32
  let v224 : BitVec 32 := Scalar.muli v223 c5_i32_185
  let c0_i32_187 : BitVec 32 := 0#32
  let c1_i32_189 : BitVec 32 := 1#32
  let arg20 : BitVec 32 := Scf.iv c0_i32_187 c1_i32_189 k2_t6
  let v437 : BitVec 32 := Scalar.addi v224 arg20
  let v438 : Index := Scalar.indexCast v437
  let c0_343 : Index := 0#32
  ![v438.toNat, 0]
def k2_off74 (k2_t6 : Fin k2_t6_loop.trips) : Fin 3 → Nat :=
  let c4_i32_344 : BitVec 32 := 4#32
  let v442 : Index := Scalar.indexCast c4_i32_344
  let c4_i32_332 : BitVec 32 := 4#32
  let c0_i32_187 : BitVec 32 := 0#32
  let c1_i32_189 : BitVec 32 := 1#32
  let arg20 : BitVec 32 := Scf.iv c0_i32_187 c1_i32_189 k2_t6
  let v414 : BitVec 32 := Scalar.muli c4_i32_332 arg20
  let v443 : Index := Scalar.indexCast v414
  let c16 : Index := 16#32
  ![4, v443.toNat, 16]
def k2_off75 (k2_t6 : Fin k2_t6_loop.trips) (c1_i32_345 : BitVec 32) : Fin 3 → Nat :=
  let c4_i32_346 : BitVec 32 := 4#32
  let v447 : Index := Scalar.indexCast c4_i32_346
  let c4_i32_332 : BitVec 32 := 4#32
  let c0_i32_187 : BitVec 32 := 0#32
  let c1_i32_189 : BitVec 32 := 1#32
  let arg20 : BitVec 32 := Scf.iv c0_i32_187 c1_i32_189 k2_t6
  let v414 : BitVec 32 := Scalar.muli c4_i32_332 arg20
  let v446 : BitVec 32 := Scalar.addi v414 c1_i32_345
  let v448 : Index := Scalar.indexCast v446
  let c16_347 : Index := 16#32
  ![4, v448.toNat, 16]
def k2_off76 (k2_t1 : Fin k2_t1_loop.trips) (k2_t6 : Fin k2_t6_loop.trips) : Fin 2 → Nat :=
  let c0_i32_62 : BitVec 32 := 0#32
  let c1_i32_63 : BitVec 32 := 1#32
  let arg18 : BitVec 32 := Scf.iv c0_i32_62 c1_i32_63 k2_t1
  let c10_i32_169 : BitVec 32 := 10#32
  let v198 : BitVec 32 := Scalar.muli arg18 c10_i32_169
  let c4_i32_170 : BitVec 32 := 4#32
  let v199 : BitVec 32 := Scalar.addi v198 c4_i32_170
  let c0_i32_178 : BitVec 32 := 0#32
  let v206 : BitVec 1 := Scalar.cmpi .sgt v199 c0_i32_178
  let v207 : BitVec 32 := Scalar.extui v206
  let c0_i32_179 : BitVec 32 := 0#32
  let v208 : BitVec 1 := Scalar.cmpi .slt v199 c0_i32_179
  let v209 : BitVec 32 := Scalar.extui v208
  let v210 : BitVec 32 := Scalar.subi v207 v209
  let c50_i32_177 : BitVec 32 := 50#32
  let c0_i32_180 : BitVec 32 := 0#32
  let v211 : BitVec 1 := Scalar.cmpi .sgt c50_i32_177 c0_i32_180
  let v212 : BitVec 32 := Scalar.extui v211
  let c0_i32_181 : BitVec 32 := 0#32
  let v213 : BitVec 1 := Scalar.cmpi .slt c50_i32_177 c0_i32_181
  let v214 : BitVec 32 := Scalar.extui v213
  let v215 : BitVec 32 := Scalar.subi v212 v214
  let v216 : BitVec 1 := Scalar.cmpi .ne v210 v215
  let v217 : BitVec 32 := Scalar.remsi v199 c50_i32_177
  let c0_i32_182 : BitVec 32 := 0#32
  let v218 : BitVec 1 := Scalar.cmpi .ne v217 c0_i32_182
  let v219 : BitVec 1 := Scalar.andi v216 v218
  let v205 : BitVec 32 := Scalar.divsi v199 c50_i32_177
  let c1_i32_183 : BitVec 32 := 1#32
  let v220 : BitVec 32 := Scalar.subi v205 c1_i32_183
  let v221 : BitVec 32 := Scalar.select v219 v220 v205
  let c50_i32_184 : BitVec 32 := 50#32
  let v222 : BitVec 32 := Scalar.muli v221 c50_i32_184
  let v223 : BitVec 32 := Scalar.subi v199 v222
  let c5_i32_185 : BitVec 32 := 5#32
  let v224 : BitVec 32 := Scalar.muli v223 c5_i32_185
  let c0_i32_187 : BitVec 32 := 0#32
  let c1_i32_189 : BitVec 32 := 1#32
  let arg20 : BitVec 32 := Scf.iv c0_i32_187 c1_i32_189 k2_t6
  let v464 : BitVec 32 := Scalar.addi v224 arg20
  let v465 : Index := Scalar.indexCast v464
  let c16_354 : Index := 16#32
  ![v465.toNat, 16]
def k2_off77 (k2_t6 : Fin k2_t6_loop.trips) : Fin 3 → Nat :=
  let c4_i32_355 : BitVec 32 := 4#32
  let v469 : Index := Scalar.indexCast c4_i32_355
  let c4_i32_332 : BitVec 32 := 4#32
  let c0_i32_187 : BitVec 32 := 0#32
  let c1_i32_189 : BitVec 32 := 1#32
  let arg20 : BitVec 32 := Scf.iv c0_i32_187 c1_i32_189 k2_t6
  let v414 : BitVec 32 := Scalar.muli c4_i32_332 arg20
  let v470 : Index := Scalar.indexCast v414
  let c32 : Index := 32#32
  ![4, v470.toNat, 32]
def k2_off78 (k2_t6 : Fin k2_t6_loop.trips) (c1_i32_356 : BitVec 32) : Fin 3 → Nat :=
  let c4_i32_357 : BitVec 32 := 4#32
  let v474 : Index := Scalar.indexCast c4_i32_357
  let c4_i32_332 : BitVec 32 := 4#32
  let c0_i32_187 : BitVec 32 := 0#32
  let c1_i32_189 : BitVec 32 := 1#32
  let arg20 : BitVec 32 := Scf.iv c0_i32_187 c1_i32_189 k2_t6
  let v414 : BitVec 32 := Scalar.muli c4_i32_332 arg20
  let v473 : BitVec 32 := Scalar.addi v414 c1_i32_356
  let v475 : Index := Scalar.indexCast v473
  let c32_358 : Index := 32#32
  ![4, v475.toNat, 32]
def k2_off79 (k2_t1 : Fin k2_t1_loop.trips) (k2_t6 : Fin k2_t6_loop.trips) : Fin 2 → Nat :=
  let c0_i32_62 : BitVec 32 := 0#32
  let c1_i32_63 : BitVec 32 := 1#32
  let arg18 : BitVec 32 := Scf.iv c0_i32_62 c1_i32_63 k2_t1
  let c10_i32_169 : BitVec 32 := 10#32
  let v198 : BitVec 32 := Scalar.muli arg18 c10_i32_169
  let c4_i32_170 : BitVec 32 := 4#32
  let v199 : BitVec 32 := Scalar.addi v198 c4_i32_170
  let c0_i32_178 : BitVec 32 := 0#32
  let v206 : BitVec 1 := Scalar.cmpi .sgt v199 c0_i32_178
  let v207 : BitVec 32 := Scalar.extui v206
  let c0_i32_179 : BitVec 32 := 0#32
  let v208 : BitVec 1 := Scalar.cmpi .slt v199 c0_i32_179
  let v209 : BitVec 32 := Scalar.extui v208
  let v210 : BitVec 32 := Scalar.subi v207 v209
  let c50_i32_177 : BitVec 32 := 50#32
  let c0_i32_180 : BitVec 32 := 0#32
  let v211 : BitVec 1 := Scalar.cmpi .sgt c50_i32_177 c0_i32_180
  let v212 : BitVec 32 := Scalar.extui v211
  let c0_i32_181 : BitVec 32 := 0#32
  let v213 : BitVec 1 := Scalar.cmpi .slt c50_i32_177 c0_i32_181
  let v214 : BitVec 32 := Scalar.extui v213
  let v215 : BitVec 32 := Scalar.subi v212 v214
  let v216 : BitVec 1 := Scalar.cmpi .ne v210 v215
  let v217 : BitVec 32 := Scalar.remsi v199 c50_i32_177
  let c0_i32_182 : BitVec 32 := 0#32
  let v218 : BitVec 1 := Scalar.cmpi .ne v217 c0_i32_182
  let v219 : BitVec 1 := Scalar.andi v216 v218
  let v205 : BitVec 32 := Scalar.divsi v199 c50_i32_177
  let c1_i32_183 : BitVec 32 := 1#32
  let v220 : BitVec 32 := Scalar.subi v205 c1_i32_183
  let v221 : BitVec 32 := Scalar.select v219 v220 v205
  let c50_i32_184 : BitVec 32 := 50#32
  let v222 : BitVec 32 := Scalar.muli v221 c50_i32_184
  let v223 : BitVec 32 := Scalar.subi v199 v222
  let c5_i32_185 : BitVec 32 := 5#32
  let v224 : BitVec 32 := Scalar.muli v223 c5_i32_185
  let c0_i32_187 : BitVec 32 := 0#32
  let c1_i32_189 : BitVec 32 := 1#32
  let arg20 : BitVec 32 := Scf.iv c0_i32_187 c1_i32_189 k2_t6
  let v491 : BitVec 32 := Scalar.addi v224 arg20
  let v492 : Index := Scalar.indexCast v491
  let c32_365 : Index := 32#32
  ![v492.toNat, 32]
def k2_off80 (k2_t6 : Fin k2_t6_loop.trips) : Fin 3 → Nat :=
  let c4_i32_366 : BitVec 32 := 4#32
  let v496 : Index := Scalar.indexCast c4_i32_366
  let c4_i32_332 : BitVec 32 := 4#32
  let c0_i32_187 : BitVec 32 := 0#32
  let c1_i32_189 : BitVec 32 := 1#32
  let arg20 : BitVec 32 := Scf.iv c0_i32_187 c1_i32_189 k2_t6
  let v414 : BitVec 32 := Scalar.muli c4_i32_332 arg20
  let v497 : Index := Scalar.indexCast v414
  let c48 : Index := 48#32
  ![4, v497.toNat, 48]
def k2_off81 (k2_t6 : Fin k2_t6_loop.trips) (c1_i32_367 : BitVec 32) : Fin 3 → Nat :=
  let c4_i32_368 : BitVec 32 := 4#32
  let v501 : Index := Scalar.indexCast c4_i32_368
  let c4_i32_332 : BitVec 32 := 4#32
  let c0_i32_187 : BitVec 32 := 0#32
  let c1_i32_189 : BitVec 32 := 1#32
  let arg20 : BitVec 32 := Scf.iv c0_i32_187 c1_i32_189 k2_t6
  let v414 : BitVec 32 := Scalar.muli c4_i32_332 arg20
  let v500 : BitVec 32 := Scalar.addi v414 c1_i32_367
  let v502 : Index := Scalar.indexCast v500
  let c48_369 : Index := 48#32
  ![4, v502.toNat, 48]
def k2_off82 (k2_t1 : Fin k2_t1_loop.trips) (k2_t6 : Fin k2_t6_loop.trips) : Fin 2 → Nat :=
  let c0_i32_62 : BitVec 32 := 0#32
  let c1_i32_63 : BitVec 32 := 1#32
  let arg18 : BitVec 32 := Scf.iv c0_i32_62 c1_i32_63 k2_t1
  let c10_i32_169 : BitVec 32 := 10#32
  let v198 : BitVec 32 := Scalar.muli arg18 c10_i32_169
  let c4_i32_170 : BitVec 32 := 4#32
  let v199 : BitVec 32 := Scalar.addi v198 c4_i32_170
  let c0_i32_178 : BitVec 32 := 0#32
  let v206 : BitVec 1 := Scalar.cmpi .sgt v199 c0_i32_178
  let v207 : BitVec 32 := Scalar.extui v206
  let c0_i32_179 : BitVec 32 := 0#32
  let v208 : BitVec 1 := Scalar.cmpi .slt v199 c0_i32_179
  let v209 : BitVec 32 := Scalar.extui v208
  let v210 : BitVec 32 := Scalar.subi v207 v209
  let c50_i32_177 : BitVec 32 := 50#32
  let c0_i32_180 : BitVec 32 := 0#32
  let v211 : BitVec 1 := Scalar.cmpi .sgt c50_i32_177 c0_i32_180
  let v212 : BitVec 32 := Scalar.extui v211
  let c0_i32_181 : BitVec 32 := 0#32
  let v213 : BitVec 1 := Scalar.cmpi .slt c50_i32_177 c0_i32_181
  let v214 : BitVec 32 := Scalar.extui v213
  let v215 : BitVec 32 := Scalar.subi v212 v214
  let v216 : BitVec 1 := Scalar.cmpi .ne v210 v215
  let v217 : BitVec 32 := Scalar.remsi v199 c50_i32_177
  let c0_i32_182 : BitVec 32 := 0#32
  let v218 : BitVec 1 := Scalar.cmpi .ne v217 c0_i32_182
  let v219 : BitVec 1 := Scalar.andi v216 v218
  let v205 : BitVec 32 := Scalar.divsi v199 c50_i32_177
  let c1_i32_183 : BitVec 32 := 1#32
  let v220 : BitVec 32 := Scalar.subi v205 c1_i32_183
  let v221 : BitVec 32 := Scalar.select v219 v220 v205
  let c50_i32_184 : BitVec 32 := 50#32
  let v222 : BitVec 32 := Scalar.muli v221 c50_i32_184
  let v223 : BitVec 32 := Scalar.subi v199 v222
  let c5_i32_185 : BitVec 32 := 5#32
  let v224 : BitVec 32 := Scalar.muli v223 c5_i32_185
  let c0_i32_187 : BitVec 32 := 0#32
  let c1_i32_189 : BitVec 32 := 1#32
  let arg20 : BitVec 32 := Scf.iv c0_i32_187 c1_i32_189 k2_t6
  let v518 : BitVec 32 := Scalar.addi v224 arg20
  let v519 : Index := Scalar.indexCast v518
  let c48_376 : Index := 48#32
  ![v519.toNat, 48]
def k2_off83 (k2_t6 : Fin k2_t6_loop.trips) : Fin 3 → Nat :=
  let c4_i32_377 : BitVec 32 := 4#32
  let v523 : Index := Scalar.indexCast c4_i32_377
  let c4_i32_332 : BitVec 32 := 4#32
  let c0_i32_187 : BitVec 32 := 0#32
  let c1_i32_189 : BitVec 32 := 1#32
  let arg20 : BitVec 32 := Scf.iv c0_i32_187 c1_i32_189 k2_t6
  let v414 : BitVec 32 := Scalar.muli c4_i32_332 arg20
  let v524 : Index := Scalar.indexCast v414
  let c64 : Index := 64#32
  ![4, v524.toNat, 64]
def k2_off84 (k2_t6 : Fin k2_t6_loop.trips) (c1_i32_378 : BitVec 32) : Fin 3 → Nat :=
  let c4_i32_379 : BitVec 32 := 4#32
  let v528 : Index := Scalar.indexCast c4_i32_379
  let c4_i32_332 : BitVec 32 := 4#32
  let c0_i32_187 : BitVec 32 := 0#32
  let c1_i32_189 : BitVec 32 := 1#32
  let arg20 : BitVec 32 := Scf.iv c0_i32_187 c1_i32_189 k2_t6
  let v414 : BitVec 32 := Scalar.muli c4_i32_332 arg20
  let v527 : BitVec 32 := Scalar.addi v414 c1_i32_378
  let v529 : Index := Scalar.indexCast v527
  let c64_380 : Index := 64#32
  ![4, v529.toNat, 64]
def k2_off85 (k2_t1 : Fin k2_t1_loop.trips) (k2_t6 : Fin k2_t6_loop.trips) : Fin 2 → Nat :=
  let c0_i32_62 : BitVec 32 := 0#32
  let c1_i32_63 : BitVec 32 := 1#32
  let arg18 : BitVec 32 := Scf.iv c0_i32_62 c1_i32_63 k2_t1
  let c10_i32_169 : BitVec 32 := 10#32
  let v198 : BitVec 32 := Scalar.muli arg18 c10_i32_169
  let c4_i32_170 : BitVec 32 := 4#32
  let v199 : BitVec 32 := Scalar.addi v198 c4_i32_170
  let c0_i32_178 : BitVec 32 := 0#32
  let v206 : BitVec 1 := Scalar.cmpi .sgt v199 c0_i32_178
  let v207 : BitVec 32 := Scalar.extui v206
  let c0_i32_179 : BitVec 32 := 0#32
  let v208 : BitVec 1 := Scalar.cmpi .slt v199 c0_i32_179
  let v209 : BitVec 32 := Scalar.extui v208
  let v210 : BitVec 32 := Scalar.subi v207 v209
  let c50_i32_177 : BitVec 32 := 50#32
  let c0_i32_180 : BitVec 32 := 0#32
  let v211 : BitVec 1 := Scalar.cmpi .sgt c50_i32_177 c0_i32_180
  let v212 : BitVec 32 := Scalar.extui v211
  let c0_i32_181 : BitVec 32 := 0#32
  let v213 : BitVec 1 := Scalar.cmpi .slt c50_i32_177 c0_i32_181
  let v214 : BitVec 32 := Scalar.extui v213
  let v215 : BitVec 32 := Scalar.subi v212 v214
  let v216 : BitVec 1 := Scalar.cmpi .ne v210 v215
  let v217 : BitVec 32 := Scalar.remsi v199 c50_i32_177
  let c0_i32_182 : BitVec 32 := 0#32
  let v218 : BitVec 1 := Scalar.cmpi .ne v217 c0_i32_182
  let v219 : BitVec 1 := Scalar.andi v216 v218
  let v205 : BitVec 32 := Scalar.divsi v199 c50_i32_177
  let c1_i32_183 : BitVec 32 := 1#32
  let v220 : BitVec 32 := Scalar.subi v205 c1_i32_183
  let v221 : BitVec 32 := Scalar.select v219 v220 v205
  let c50_i32_184 : BitVec 32 := 50#32
  let v222 : BitVec 32 := Scalar.muli v221 c50_i32_184
  let v223 : BitVec 32 := Scalar.subi v199 v222
  let c5_i32_185 : BitVec 32 := 5#32
  let v224 : BitVec 32 := Scalar.muli v223 c5_i32_185
  let c0_i32_187 : BitVec 32 := 0#32
  let c1_i32_189 : BitVec 32 := 1#32
  let arg20 : BitVec 32 := Scf.iv c0_i32_187 c1_i32_189 k2_t6
  let v545 : BitVec 32 := Scalar.addi v224 arg20
  let v546 : Index := Scalar.indexCast v545
  let c64_387 : Index := 64#32
  ![v546.toNat, 64]
def k2_cond9 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_169 : BitVec 32 := 10#32
  let v198 : BitVec 32 := Scalar.muli arg18 c10_i32_169
  let c4_i32_170 : BitVec 32 := 4#32
  let v199 : BitVec 32 := Scalar.addi v198 c4_i32_170
  let c0_i32_178 : BitVec 32 := 0#32
  let v206 : BitVec 1 := Scalar.cmpi .sgt v199 c0_i32_178
  let v207 : BitVec 32 := Scalar.extui v206
  let c0_i32_179 : BitVec 32 := 0#32
  let v208 : BitVec 1 := Scalar.cmpi .slt v199 c0_i32_179
  let v209 : BitVec 32 := Scalar.extui v208
  let v210 : BitVec 32 := Scalar.subi v207 v209
  let c50_i32_177 : BitVec 32 := 50#32
  let c0_i32_180 : BitVec 32 := 0#32
  let v211 : BitVec 1 := Scalar.cmpi .sgt c50_i32_177 c0_i32_180
  let v212 : BitVec 32 := Scalar.extui v211
  let c0_i32_181 : BitVec 32 := 0#32
  let v213 : BitVec 1 := Scalar.cmpi .slt c50_i32_177 c0_i32_181
  let v214 : BitVec 32 := Scalar.extui v213
  let v215 : BitVec 32 := Scalar.subi v212 v214
  let v216 : BitVec 1 := Scalar.cmpi .ne v210 v215
  let v217 : BitVec 32 := Scalar.remsi v199 c50_i32_177
  let c0_i32_182 : BitVec 32 := 0#32
  let v218 : BitVec 1 := Scalar.cmpi .ne v217 c0_i32_182
  let v219 : BitVec 1 := Scalar.andi v216 v218
  let v205 : BitVec 32 := Scalar.divsi v199 c50_i32_177
  let c1_i32_183 : BitVec 32 := 1#32
  let v220 : BitVec 32 := Scalar.subi v205 c1_i32_183
  let v221 : BitVec 32 := Scalar.select v219 v220 v205
  let c50_i32_184 : BitVec 32 := 50#32
  let v222 : BitVec 32 := Scalar.muli v221 c50_i32_184
  let v223 : BitVec 32 := Scalar.subi v199 v222
  let c49_i32_191 : BitVec 32 := 49#32
  let v227 : BitVec 1 := Scalar.cmpi .eq v223 c49_i32_191
  let v228 : BitVec 32 := Scalar.extui v227
  let c0_i32_192 : BitVec 32 := 0#32
  let v229 : BitVec 1 := Scalar.cmpi .ne v228 c0_i32_192
  v229

def k2_off86 (i : grid2.Coords) (k2_t1 : Fin k2_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62 : BitVec 32 := 0#32
  let c1_i32_63 : BitVec 32 := 1#32
  let arg18 : BitVec 32 := Scf.iv c0_i32_62 c1_i32_63 k2_t1
  let c10_i32_169 : BitVec 32 := 10#32
  let v198 : BitVec 32 := Scalar.muli arg18 c10_i32_169
  let c4_i32_170 : BitVec 32 := 4#32
  let v199 : BitVec 32 := Scalar.addi v198 c4_i32_170
  let c0_i32_178 : BitVec 32 := 0#32
  let v206 : BitVec 1 := Scalar.cmpi .sgt v199 c0_i32_178
  let v207 : BitVec 32 := Scalar.extui v206
  let c0_i32_179 : BitVec 32 := 0#32
  let v208 : BitVec 1 := Scalar.cmpi .slt v199 c0_i32_179
  let v209 : BitVec 32 := Scalar.extui v208
  let v210 : BitVec 32 := Scalar.subi v207 v209
  let c50_i32_177 : BitVec 32 := 50#32
  let c0_i32_180 : BitVec 32 := 0#32
  let v211 : BitVec 1 := Scalar.cmpi .sgt c50_i32_177 c0_i32_180
  let v212 : BitVec 32 := Scalar.extui v211
  let c0_i32_181 : BitVec 32 := 0#32
  let v213 : BitVec 1 := Scalar.cmpi .slt c50_i32_177 c0_i32_181
  let v214 : BitVec 32 := Scalar.extui v213
  let v215 : BitVec 32 := Scalar.subi v212 v214
  let v216 : BitVec 1 := Scalar.cmpi .ne v210 v215
  let v217 : BitVec 32 := Scalar.remsi v199 c50_i32_177
  let c0_i32_182 : BitVec 32 := 0#32
  let v218 : BitVec 1 := Scalar.cmpi .ne v217 c0_i32_182
  let v219 : BitVec 1 := Scalar.andi v216 v218
  let v205 : BitVec 32 := Scalar.divsi v199 c50_i32_177
  let c1_i32_183 : BitVec 32 := 1#32
  let v220 : BitVec 32 := Scalar.subi v205 c1_i32_183
  let v221 : BitVec 32 := Scalar.select v219 v220 v205
  let c0_i32_332_r5 : BitVec 32 := 0#32
  let c0_i32_333_r5 : BitVec 32 := 0#32
  ![v1.toNat, v221.toNat, 0, 0]
def k2_cond10 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_169 : BitVec 32 := 10#32
  let v198 : BitVec 32 := Scalar.muli arg18 c10_i32_169
  let c4_i32_170 : BitVec 32 := 4#32
  let v199 : BitVec 32 := Scalar.addi v198 c4_i32_170
  let c10_i32_193 : BitVec 32 := 10#32
  let v230 : BitVec 32 := Scalar.addi v199 c10_i32_193
  let c250_i32_194 : BitVec 32 := 250#32
  let v231 : BitVec 1 := Scalar.cmpi .slt v230 c250_i32_194
  let v232 : BitVec 32 := Scalar.extui v231
  let c0_i32_195 : BitVec 32 := 0#32
  let v233 : BitVec 1 := Scalar.cmpi .ne v232 c0_i32_195
  v233

def k2_off87 (k2_t1 : Fin k2_t1_loop.trips) : Fin 2 → Nat :=
  let c0_i32_62 : BitVec 32 := 0#32
  let c1_i32_63 : BitVec 32 := 1#32
  let arg18 : BitVec 32 := Scf.iv c0_i32_62 c1_i32_63 k2_t1
  let c10_i32_169 : BitVec 32 := 10#32
  let v198 : BitVec 32 := Scalar.muli arg18 c10_i32_169
  let c4_i32_170 : BitVec 32 := 4#32
  let v199 : BitVec 32 := Scalar.addi v198 c4_i32_170
  let c10_i32_332 : BitVec 32 := 10#32
  let v414 : BitVec 32 := Scalar.addi v199 c10_i32_332
  let c0_i32_336 : BitVec 32 := 0#32
  ![v414.toNat, 0]
@[reducible] def k2_t7_loop : Scf.Loop 32 :=
  let c0_i32_214 : BitVec 32 := 0#32
  let c5_i32_215 : BitVec 32 := 5#32
  let v261 : BitVec 32 := Scalar.addi c0_i32_214 c5_i32_215
  let c1_i32_216 : BitVec 32 := 1#32
  ⟨c0_i32_214, v261, c1_i32_216⟩
def k2_off88 (k2_t7 : Fin k2_t7_loop.trips) : Fin 3 → Nat :=
  let c5_i32_333 : BitVec 32 := 5#32
  let v415 : Index := Scalar.indexCast c5_i32_333
  let c4_i32_332 : BitVec 32 := 4#32
  let c0_i32_214 : BitVec 32 := 0#32
  let c1_i32_216 : BitVec 32 := 1#32
  let arg20 : BitVec 32 := Scf.iv c0_i32_214 c1_i32_216 k2_t7
  let v414 : BitVec 32 := Scalar.muli c4_i32_332 arg20
  let v416 : Index := Scalar.indexCast v414
  let c0 : Index := 0#32
  ![5, v416.toNat, 0]
def k2_off89 (k2_t7 : Fin k2_t7_loop.trips) (c1_i32_334 : BitVec 32) : Fin 3 → Nat :=
  let c5_i32_335 : BitVec 32 := 5#32
  let v420 : Index := Scalar.indexCast c5_i32_335
  let c4_i32_332 : BitVec 32 := 4#32
  let c0_i32_214 : BitVec 32 := 0#32
  let c1_i32_216 : BitVec 32 := 1#32
  let arg20 : BitVec 32 := Scf.iv c0_i32_214 c1_i32_216 k2_t7
  let v414 : BitVec 32 := Scalar.muli c4_i32_332 arg20
  let v419 : BitVec 32 := Scalar.addi v414 c1_i32_334
  let v421 : Index := Scalar.indexCast v419
  let c0_336 : Index := 0#32
  ![5, v421.toNat, 0]
def k2_off90 (k2_t1 : Fin k2_t1_loop.trips) (k2_t7 : Fin k2_t7_loop.trips) : Fin 2 → Nat :=
  let c0_i32_62 : BitVec 32 := 0#32
  let c1_i32_63 : BitVec 32 := 1#32
  let arg18 : BitVec 32 := Scf.iv c0_i32_62 c1_i32_63 k2_t1
  let c10_i32_196 : BitVec 32 := 10#32
  let v234 : BitVec 32 := Scalar.muli arg18 c10_i32_196
  let c5_i32_197 : BitVec 32 := 5#32
  let v235 : BitVec 32 := Scalar.addi v234 c5_i32_197
  let c0_i32_205 : BitVec 32 := 0#32
  let v242 : BitVec 1 := Scalar.cmpi .sgt v235 c0_i32_205
  let v243 : BitVec 32 := Scalar.extui v242
  let c0_i32_206 : BitVec 32 := 0#32
  let v244 : BitVec 1 := Scalar.cmpi .slt v235 c0_i32_206
  let v245 : BitVec 32 := Scalar.extui v244
  let v246 : BitVec 32 := Scalar.subi v243 v245
  let c50_i32_204 : BitVec 32 := 50#32
  let c0_i32_207 : BitVec 32 := 0#32
  let v247 : BitVec 1 := Scalar.cmpi .sgt c50_i32_204 c0_i32_207
  let v248 : BitVec 32 := Scalar.extui v247
  let c0_i32_208 : BitVec 32 := 0#32
  let v249 : BitVec 1 := Scalar.cmpi .slt c50_i32_204 c0_i32_208
  let v250 : BitVec 32 := Scalar.extui v249
  let v251 : BitVec 32 := Scalar.subi v248 v250
  let v252 : BitVec 1 := Scalar.cmpi .ne v246 v251
  let v253 : BitVec 32 := Scalar.remsi v235 c50_i32_204
  let c0_i32_209 : BitVec 32 := 0#32
  let v254 : BitVec 1 := Scalar.cmpi .ne v253 c0_i32_209
  let v255 : BitVec 1 := Scalar.andi v252 v254
  let v241 : BitVec 32 := Scalar.divsi v235 c50_i32_204
  let c1_i32_210 : BitVec 32 := 1#32
  let v256 : BitVec 32 := Scalar.subi v241 c1_i32_210
  let v257 : BitVec 32 := Scalar.select v255 v256 v241
  let c50_i32_211 : BitVec 32 := 50#32
  let v258 : BitVec 32 := Scalar.muli v257 c50_i32_211
  let v259 : BitVec 32 := Scalar.subi v235 v258
  let c5_i32_212 : BitVec 32 := 5#32
  let v260 : BitVec 32 := Scalar.muli v259 c5_i32_212
  let c0_i32_214 : BitVec 32 := 0#32
  let c1_i32_216 : BitVec 32 := 1#32
  let arg20 : BitVec 32 := Scf.iv c0_i32_214 c1_i32_216 k2_t7
  let v437 : BitVec 32 := Scalar.addi v260 arg20
  let v438 : Index := Scalar.indexCast v437
  let c0_343 : Index := 0#32
  ![v438.toNat, 0]
def k2_off91 (k2_t7 : Fin k2_t7_loop.trips) : Fin 3 → Nat :=
  let c5_i32_344 : BitVec 32 := 5#32
  let v442 : Index := Scalar.indexCast c5_i32_344
  let c4_i32_332 : BitVec 32 := 4#32
  let c0_i32_214 : BitVec 32 := 0#32
  let c1_i32_216 : BitVec 32 := 1#32
  let arg20 : BitVec 32 := Scf.iv c0_i32_214 c1_i32_216 k2_t7
  let v414 : BitVec 32 := Scalar.muli c4_i32_332 arg20
  let v443 : Index := Scalar.indexCast v414
  let c16 : Index := 16#32
  ![5, v443.toNat, 16]
def k2_off92 (k2_t7 : Fin k2_t7_loop.trips) (c1_i32_345 : BitVec 32) : Fin 3 → Nat :=
  let c5_i32_346 : BitVec 32 := 5#32
  let v447 : Index := Scalar.indexCast c5_i32_346
  let c4_i32_332 : BitVec 32 := 4#32
  let c0_i32_214 : BitVec 32 := 0#32
  let c1_i32_216 : BitVec 32 := 1#32
  let arg20 : BitVec 32 := Scf.iv c0_i32_214 c1_i32_216 k2_t7
  let v414 : BitVec 32 := Scalar.muli c4_i32_332 arg20
  let v446 : BitVec 32 := Scalar.addi v414 c1_i32_345
  let v448 : Index := Scalar.indexCast v446
  let c16_347 : Index := 16#32
  ![5, v448.toNat, 16]
def k2_off93 (k2_t1 : Fin k2_t1_loop.trips) (k2_t7 : Fin k2_t7_loop.trips) : Fin 2 → Nat :=
  let c0_i32_62 : BitVec 32 := 0#32
  let c1_i32_63 : BitVec 32 := 1#32
  let arg18 : BitVec 32 := Scf.iv c0_i32_62 c1_i32_63 k2_t1
  let c10_i32_196 : BitVec 32 := 10#32
  let v234 : BitVec 32 := Scalar.muli arg18 c10_i32_196
  let c5_i32_197 : BitVec 32 := 5#32
  let v235 : BitVec 32 := Scalar.addi v234 c5_i32_197
  let c0_i32_205 : BitVec 32 := 0#32
  let v242 : BitVec 1 := Scalar.cmpi .sgt v235 c0_i32_205
  let v243 : BitVec 32 := Scalar.extui v242
  let c0_i32_206 : BitVec 32 := 0#32
  let v244 : BitVec 1 := Scalar.cmpi .slt v235 c0_i32_206
  let v245 : BitVec 32 := Scalar.extui v244
  let v246 : BitVec 32 := Scalar.subi v243 v245
  let c50_i32_204 : BitVec 32 := 50#32
  let c0_i32_207 : BitVec 32 := 0#32
  let v247 : BitVec 1 := Scalar.cmpi .sgt c50_i32_204 c0_i32_207
  let v248 : BitVec 32 := Scalar.extui v247
  let c0_i32_208 : BitVec 32 := 0#32
  let v249 : BitVec 1 := Scalar.cmpi .slt c50_i32_204 c0_i32_208
  let v250 : BitVec 32 := Scalar.extui v249
  let v251 : BitVec 32 := Scalar.subi v248 v250
  let v252 : BitVec 1 := Scalar.cmpi .ne v246 v251
  let v253 : BitVec 32 := Scalar.remsi v235 c50_i32_204
  let c0_i32_209 : BitVec 32 := 0#32
  let v254 : BitVec 1 := Scalar.cmpi .ne v253 c0_i32_209
  let v255 : BitVec 1 := Scalar.andi v252 v254
  let v241 : BitVec 32 := Scalar.divsi v235 c50_i32_204
  let c1_i32_210 : BitVec 32 := 1#32
  let v256 : BitVec 32 := Scalar.subi v241 c1_i32_210
  let v257 : BitVec 32 := Scalar.select v255 v256 v241
  let c50_i32_211 : BitVec 32 := 50#32
  let v258 : BitVec 32 := Scalar.muli v257 c50_i32_211
  let v259 : BitVec 32 := Scalar.subi v235 v258
  let c5_i32_212 : BitVec 32 := 5#32
  let v260 : BitVec 32 := Scalar.muli v259 c5_i32_212
  let c0_i32_214 : BitVec 32 := 0#32
  let c1_i32_216 : BitVec 32 := 1#32
  let arg20 : BitVec 32 := Scf.iv c0_i32_214 c1_i32_216 k2_t7
  let v464 : BitVec 32 := Scalar.addi v260 arg20
  let v465 : Index := Scalar.indexCast v464
  let c16_354 : Index := 16#32
  ![v465.toNat, 16]
def k2_off94 (k2_t7 : Fin k2_t7_loop.trips) : Fin 3 → Nat :=
  let c5_i32_355 : BitVec 32 := 5#32
  let v469 : Index := Scalar.indexCast c5_i32_355
  let c4_i32_332 : BitVec 32 := 4#32
  let c0_i32_214 : BitVec 32 := 0#32
  let c1_i32_216 : BitVec 32 := 1#32
  let arg20 : BitVec 32 := Scf.iv c0_i32_214 c1_i32_216 k2_t7
  let v414 : BitVec 32 := Scalar.muli c4_i32_332 arg20
  let v470 : Index := Scalar.indexCast v414
  let c32 : Index := 32#32
  ![5, v470.toNat, 32]
def k2_off95 (k2_t7 : Fin k2_t7_loop.trips) (c1_i32_356 : BitVec 32) : Fin 3 → Nat :=
  let c5_i32_357 : BitVec 32 := 5#32
  let v474 : Index := Scalar.indexCast c5_i32_357
  let c4_i32_332 : BitVec 32 := 4#32
  let c0_i32_214 : BitVec 32 := 0#32
  let c1_i32_216 : BitVec 32 := 1#32
  let arg20 : BitVec 32 := Scf.iv c0_i32_214 c1_i32_216 k2_t7
  let v414 : BitVec 32 := Scalar.muli c4_i32_332 arg20
  let v473 : BitVec 32 := Scalar.addi v414 c1_i32_356
  let v475 : Index := Scalar.indexCast v473
  let c32_358 : Index := 32#32
  ![5, v475.toNat, 32]
def k2_off96 (k2_t1 : Fin k2_t1_loop.trips) (k2_t7 : Fin k2_t7_loop.trips) : Fin 2 → Nat :=
  let c0_i32_62 : BitVec 32 := 0#32
  let c1_i32_63 : BitVec 32 := 1#32
  let arg18 : BitVec 32 := Scf.iv c0_i32_62 c1_i32_63 k2_t1
  let c10_i32_196 : BitVec 32 := 10#32
  let v234 : BitVec 32 := Scalar.muli arg18 c10_i32_196
  let c5_i32_197 : BitVec 32 := 5#32
  let v235 : BitVec 32 := Scalar.addi v234 c5_i32_197
  let c0_i32_205 : BitVec 32 := 0#32
  let v242 : BitVec 1 := Scalar.cmpi .sgt v235 c0_i32_205
  let v243 : BitVec 32 := Scalar.extui v242
  let c0_i32_206 : BitVec 32 := 0#32
  let v244 : BitVec 1 := Scalar.cmpi .slt v235 c0_i32_206
  let v245 : BitVec 32 := Scalar.extui v244
  let v246 : BitVec 32 := Scalar.subi v243 v245
  let c50_i32_204 : BitVec 32 := 50#32
  let c0_i32_207 : BitVec 32 := 0#32
  let v247 : BitVec 1 := Scalar.cmpi .sgt c50_i32_204 c0_i32_207
  let v248 : BitVec 32 := Scalar.extui v247
  let c0_i32_208 : BitVec 32 := 0#32
  let v249 : BitVec 1 := Scalar.cmpi .slt c50_i32_204 c0_i32_208
  let v250 : BitVec 32 := Scalar.extui v249
  let v251 : BitVec 32 := Scalar.subi v248 v250
  let v252 : BitVec 1 := Scalar.cmpi .ne v246 v251
  let v253 : BitVec 32 := Scalar.remsi v235 c50_i32_204
  let c0_i32_209 : BitVec 32 := 0#32
  let v254 : BitVec 1 := Scalar.cmpi .ne v253 c0_i32_209
  let v255 : BitVec 1 := Scalar.andi v252 v254
  let v241 : BitVec 32 := Scalar.divsi v235 c50_i32_204
  let c1_i32_210 : BitVec 32 := 1#32
  let v256 : BitVec 32 := Scalar.subi v241 c1_i32_210
  let v257 : BitVec 32 := Scalar.select v255 v256 v241
  let c50_i32_211 : BitVec 32 := 50#32
  let v258 : BitVec 32 := Scalar.muli v257 c50_i32_211
  let v259 : BitVec 32 := Scalar.subi v235 v258
  let c5_i32_212 : BitVec 32 := 5#32
  let v260 : BitVec 32 := Scalar.muli v259 c5_i32_212
  let c0_i32_214 : BitVec 32 := 0#32
  let c1_i32_216 : BitVec 32 := 1#32
  let arg20 : BitVec 32 := Scf.iv c0_i32_214 c1_i32_216 k2_t7
  let v491 : BitVec 32 := Scalar.addi v260 arg20
  let v492 : Index := Scalar.indexCast v491
  let c32_365 : Index := 32#32
  ![v492.toNat, 32]
def k2_off97 (k2_t7 : Fin k2_t7_loop.trips) : Fin 3 → Nat :=
  let c5_i32_366 : BitVec 32 := 5#32
  let v496 : Index := Scalar.indexCast c5_i32_366
  let c4_i32_332 : BitVec 32 := 4#32
  let c0_i32_214 : BitVec 32 := 0#32
  let c1_i32_216 : BitVec 32 := 1#32
  let arg20 : BitVec 32 := Scf.iv c0_i32_214 c1_i32_216 k2_t7
  let v414 : BitVec 32 := Scalar.muli c4_i32_332 arg20
  let v497 : Index := Scalar.indexCast v414
  let c48 : Index := 48#32
  ![5, v497.toNat, 48]
def k2_off98 (k2_t7 : Fin k2_t7_loop.trips) (c1_i32_367 : BitVec 32) : Fin 3 → Nat :=
  let c5_i32_368 : BitVec 32 := 5#32
  let v501 : Index := Scalar.indexCast c5_i32_368
  let c4_i32_332 : BitVec 32 := 4#32
  let c0_i32_214 : BitVec 32 := 0#32
  let c1_i32_216 : BitVec 32 := 1#32
  let arg20 : BitVec 32 := Scf.iv c0_i32_214 c1_i32_216 k2_t7
  let v414 : BitVec 32 := Scalar.muli c4_i32_332 arg20
  let v500 : BitVec 32 := Scalar.addi v414 c1_i32_367
  let v502 : Index := Scalar.indexCast v500
  let c48_369 : Index := 48#32
  ![5, v502.toNat, 48]
def k2_off99 (k2_t1 : Fin k2_t1_loop.trips) (k2_t7 : Fin k2_t7_loop.trips) : Fin 2 → Nat :=
  let c0_i32_62 : BitVec 32 := 0#32
  let c1_i32_63 : BitVec 32 := 1#32
  let arg18 : BitVec 32 := Scf.iv c0_i32_62 c1_i32_63 k2_t1
  let c10_i32_196 : BitVec 32 := 10#32
  let v234 : BitVec 32 := Scalar.muli arg18 c10_i32_196
  let c5_i32_197 : BitVec 32 := 5#32
  let v235 : BitVec 32 := Scalar.addi v234 c5_i32_197
  let c0_i32_205 : BitVec 32 := 0#32
  let v242 : BitVec 1 := Scalar.cmpi .sgt v235 c0_i32_205
  let v243 : BitVec 32 := Scalar.extui v242
  let c0_i32_206 : BitVec 32 := 0#32
  let v244 : BitVec 1 := Scalar.cmpi .slt v235 c0_i32_206
  let v245 : BitVec 32 := Scalar.extui v244
  let v246 : BitVec 32 := Scalar.subi v243 v245
  let c50_i32_204 : BitVec 32 := 50#32
  let c0_i32_207 : BitVec 32 := 0#32
  let v247 : BitVec 1 := Scalar.cmpi .sgt c50_i32_204 c0_i32_207
  let v248 : BitVec 32 := Scalar.extui v247
  let c0_i32_208 : BitVec 32 := 0#32
  let v249 : BitVec 1 := Scalar.cmpi .slt c50_i32_204 c0_i32_208
  let v250 : BitVec 32 := Scalar.extui v249
  let v251 : BitVec 32 := Scalar.subi v248 v250
  let v252 : BitVec 1 := Scalar.cmpi .ne v246 v251
  let v253 : BitVec 32 := Scalar.remsi v235 c50_i32_204
  let c0_i32_209 : BitVec 32 := 0#32
  let v254 : BitVec 1 := Scalar.cmpi .ne v253 c0_i32_209
  let v255 : BitVec 1 := Scalar.andi v252 v254
  let v241 : BitVec 32 := Scalar.divsi v235 c50_i32_204
  let c1_i32_210 : BitVec 32 := 1#32
  let v256 : BitVec 32 := Scalar.subi v241 c1_i32_210
  let v257 : BitVec 32 := Scalar.select v255 v256 v241
  let c50_i32_211 : BitVec 32 := 50#32
  let v258 : BitVec 32 := Scalar.muli v257 c50_i32_211
  let v259 : BitVec 32 := Scalar.subi v235 v258
  let c5_i32_212 : BitVec 32 := 5#32
  let v260 : BitVec 32 := Scalar.muli v259 c5_i32_212
  let c0_i32_214 : BitVec 32 := 0#32
  let c1_i32_216 : BitVec 32 := 1#32
  let arg20 : BitVec 32 := Scf.iv c0_i32_214 c1_i32_216 k2_t7
  let v518 : BitVec 32 := Scalar.addi v260 arg20
  let v519 : Index := Scalar.indexCast v518
  let c48_376 : Index := 48#32
  ![v519.toNat, 48]
def k2_off100 (k2_t7 : Fin k2_t7_loop.trips) : Fin 3 → Nat :=
  let c5_i32_377 : BitVec 32 := 5#32
  let v523 : Index := Scalar.indexCast c5_i32_377
  let c4_i32_332 : BitVec 32 := 4#32
  let c0_i32_214 : BitVec 32 := 0#32
  let c1_i32_216 : BitVec 32 := 1#32
  let arg20 : BitVec 32 := Scf.iv c0_i32_214 c1_i32_216 k2_t7
  let v414 : BitVec 32 := Scalar.muli c4_i32_332 arg20
  let v524 : Index := Scalar.indexCast v414
  let c64 : Index := 64#32
  ![5, v524.toNat, 64]
def k2_off101 (k2_t7 : Fin k2_t7_loop.trips) (c1_i32_378 : BitVec 32) : Fin 3 → Nat :=
  let c5_i32_379 : BitVec 32 := 5#32
  let v528 : Index := Scalar.indexCast c5_i32_379
  let c4_i32_332 : BitVec 32 := 4#32
  let c0_i32_214 : BitVec 32 := 0#32
  let c1_i32_216 : BitVec 32 := 1#32
  let arg20 : BitVec 32 := Scf.iv c0_i32_214 c1_i32_216 k2_t7
  let v414 : BitVec 32 := Scalar.muli c4_i32_332 arg20
  let v527 : BitVec 32 := Scalar.addi v414 c1_i32_378
  let v529 : Index := Scalar.indexCast v527
  let c64_380 : Index := 64#32
  ![5, v529.toNat, 64]
def k2_off102 (k2_t1 : Fin k2_t1_loop.trips) (k2_t7 : Fin k2_t7_loop.trips) : Fin 2 → Nat :=
  let c0_i32_62 : BitVec 32 := 0#32
  let c1_i32_63 : BitVec 32 := 1#32
  let arg18 : BitVec 32 := Scf.iv c0_i32_62 c1_i32_63 k2_t1
  let c10_i32_196 : BitVec 32 := 10#32
  let v234 : BitVec 32 := Scalar.muli arg18 c10_i32_196
  let c5_i32_197 : BitVec 32 := 5#32
  let v235 : BitVec 32 := Scalar.addi v234 c5_i32_197
  let c0_i32_205 : BitVec 32 := 0#32
  let v242 : BitVec 1 := Scalar.cmpi .sgt v235 c0_i32_205
  let v243 : BitVec 32 := Scalar.extui v242
  let c0_i32_206 : BitVec 32 := 0#32
  let v244 : BitVec 1 := Scalar.cmpi .slt v235 c0_i32_206
  let v245 : BitVec 32 := Scalar.extui v244
  let v246 : BitVec 32 := Scalar.subi v243 v245
  let c50_i32_204 : BitVec 32 := 50#32
  let c0_i32_207 : BitVec 32 := 0#32
  let v247 : BitVec 1 := Scalar.cmpi .sgt c50_i32_204 c0_i32_207
  let v248 : BitVec 32 := Scalar.extui v247
  let c0_i32_208 : BitVec 32 := 0#32
  let v249 : BitVec 1 := Scalar.cmpi .slt c50_i32_204 c0_i32_208
  let v250 : BitVec 32 := Scalar.extui v249
  let v251 : BitVec 32 := Scalar.subi v248 v250
  let v252 : BitVec 1 := Scalar.cmpi .ne v246 v251
  let v253 : BitVec 32 := Scalar.remsi v235 c50_i32_204
  let c0_i32_209 : BitVec 32 := 0#32
  let v254 : BitVec 1 := Scalar.cmpi .ne v253 c0_i32_209
  let v255 : BitVec 1 := Scalar.andi v252 v254
  let v241 : BitVec 32 := Scalar.divsi v235 c50_i32_204
  let c1_i32_210 : BitVec 32 := 1#32
  let v256 : BitVec 32 := Scalar.subi v241 c1_i32_210
  let v257 : BitVec 32 := Scalar.select v255 v256 v241
  let c50_i32_211 : BitVec 32 := 50#32
  let v258 : BitVec 32 := Scalar.muli v257 c50_i32_211
  let v259 : BitVec 32 := Scalar.subi v235 v258
  let c5_i32_212 : BitVec 32 := 5#32
  let v260 : BitVec 32 := Scalar.muli v259 c5_i32_212
  let c0_i32_214 : BitVec 32 := 0#32
  let c1_i32_216 : BitVec 32 := 1#32
  let arg20 : BitVec 32 := Scf.iv c0_i32_214 c1_i32_216 k2_t7
  let v545 : BitVec 32 := Scalar.addi v260 arg20
  let v546 : Index := Scalar.indexCast v545
  let c64_387 : Index := 64#32
  ![v546.toNat, 64]
def k2_cond11 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_196 : BitVec 32 := 10#32
  let v234 : BitVec 32 := Scalar.muli arg18 c10_i32_196
  let c5_i32_197 : BitVec 32 := 5#32
  let v235 : BitVec 32 := Scalar.addi v234 c5_i32_197
  let c0_i32_205 : BitVec 32 := 0#32
  let v242 : BitVec 1 := Scalar.cmpi .sgt v235 c0_i32_205
  let v243 : BitVec 32 := Scalar.extui v242
  let c0_i32_206 : BitVec 32 := 0#32
  let v244 : BitVec 1 := Scalar.cmpi .slt v235 c0_i32_206
  let v245 : BitVec 32 := Scalar.extui v244
  let v246 : BitVec 32 := Scalar.subi v243 v245
  let c50_i32_204 : BitVec 32 := 50#32
  let c0_i32_207 : BitVec 32 := 0#32
  let v247 : BitVec 1 := Scalar.cmpi .sgt c50_i32_204 c0_i32_207
  let v248 : BitVec 32 := Scalar.extui v247
  let c0_i32_208 : BitVec 32 := 0#32
  let v249 : BitVec 1 := Scalar.cmpi .slt c50_i32_204 c0_i32_208
  let v250 : BitVec 32 := Scalar.extui v249
  let v251 : BitVec 32 := Scalar.subi v248 v250
  let v252 : BitVec 1 := Scalar.cmpi .ne v246 v251
  let v253 : BitVec 32 := Scalar.remsi v235 c50_i32_204
  let c0_i32_209 : BitVec 32 := 0#32
  let v254 : BitVec 1 := Scalar.cmpi .ne v253 c0_i32_209
  let v255 : BitVec 1 := Scalar.andi v252 v254
  let v241 : BitVec 32 := Scalar.divsi v235 c50_i32_204
  let c1_i32_210 : BitVec 32 := 1#32
  let v256 : BitVec 32 := Scalar.subi v241 c1_i32_210
  let v257 : BitVec 32 := Scalar.select v255 v256 v241
  let c50_i32_211 : BitVec 32 := 50#32
  let v258 : BitVec 32 := Scalar.muli v257 c50_i32_211
  let v259 : BitVec 32 := Scalar.subi v235 v258
  let c49_i32_218 : BitVec 32 := 49#32
  let v263 : BitVec 1 := Scalar.cmpi .eq v259 c49_i32_218
  let v264 : BitVec 32 := Scalar.extui v263
  let c0_i32_219 : BitVec 32 := 0#32
  let v265 : BitVec 1 := Scalar.cmpi .ne v264 c0_i32_219
  v265

def k2_off103 (i : grid2.Coords) (k2_t1 : Fin k2_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62 : BitVec 32 := 0#32
  let c1_i32_63 : BitVec 32 := 1#32
  let arg18 : BitVec 32 := Scf.iv c0_i32_62 c1_i32_63 k2_t1
  let c10_i32_196 : BitVec 32 := 10#32
  let v234 : BitVec 32 := Scalar.muli arg18 c10_i32_196
  let c5_i32_197 : BitVec 32 := 5#32
  let v235 : BitVec 32 := Scalar.addi v234 c5_i32_197
  let c0_i32_205 : BitVec 32 := 0#32
  let v242 : BitVec 1 := Scalar.cmpi .sgt v235 c0_i32_205
  let v243 : BitVec 32 := Scalar.extui v242
  let c0_i32_206 : BitVec 32 := 0#32
  let v244 : BitVec 1 := Scalar.cmpi .slt v235 c0_i32_206
  let v245 : BitVec 32 := Scalar.extui v244
  let v246 : BitVec 32 := Scalar.subi v243 v245
  let c50_i32_204 : BitVec 32 := 50#32
  let c0_i32_207 : BitVec 32 := 0#32
  let v247 : BitVec 1 := Scalar.cmpi .sgt c50_i32_204 c0_i32_207
  let v248 : BitVec 32 := Scalar.extui v247
  let c0_i32_208 : BitVec 32 := 0#32
  let v249 : BitVec 1 := Scalar.cmpi .slt c50_i32_204 c0_i32_208
  let v250 : BitVec 32 := Scalar.extui v249
  let v251 : BitVec 32 := Scalar.subi v248 v250
  let v252 : BitVec 1 := Scalar.cmpi .ne v246 v251
  let v253 : BitVec 32 := Scalar.remsi v235 c50_i32_204
  let c0_i32_209 : BitVec 32 := 0#32
  let v254 : BitVec 1 := Scalar.cmpi .ne v253 c0_i32_209
  let v255 : BitVec 1 := Scalar.andi v252 v254
  let v241 : BitVec 32 := Scalar.divsi v235 c50_i32_204
  let c1_i32_210 : BitVec 32 := 1#32
  let v256 : BitVec 32 := Scalar.subi v241 c1_i32_210
  let v257 : BitVec 32 := Scalar.select v255 v256 v241
  let c0_i32_332_r6 : BitVec 32 := 0#32
  let c0_i32_333_r6 : BitVec 32 := 0#32
  ![v1.toNat, v257.toNat, 0, 0]
def k2_cond12 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_196 : BitVec 32 := 10#32
  let v234 : BitVec 32 := Scalar.muli arg18 c10_i32_196
  let c5_i32_197 : BitVec 32 := 5#32
  let v235 : BitVec 32 := Scalar.addi v234 c5_i32_197
  let c10_i32_220 : BitVec 32 := 10#32
  let v266 : BitVec 32 := Scalar.addi v235 c10_i32_220
  let c250_i32_221 : BitVec 32 := 250#32
  let v267 : BitVec 1 := Scalar.cmpi .slt v266 c250_i32_221
  let v268 : BitVec 32 := Scalar.extui v267
  let c0_i32_222 : BitVec 32 := 0#32
  let v269 : BitVec 1 := Scalar.cmpi .ne v268 c0_i32_222
  v269

def k2_off104 (k2_t1 : Fin k2_t1_loop.trips) : Fin 2 → Nat :=
  let c0_i32_62 : BitVec 32 := 0#32
  let c1_i32_63 : BitVec 32 := 1#32
  let arg18 : BitVec 32 := Scf.iv c0_i32_62 c1_i32_63 k2_t1
  let c10_i32_196 : BitVec 32 := 10#32
  let v234 : BitVec 32 := Scalar.muli arg18 c10_i32_196
  let c5_i32_197 : BitVec 32 := 5#32
  let v235 : BitVec 32 := Scalar.addi v234 c5_i32_197
  let c10_i32_332 : BitVec 32 := 10#32
  let v414 : BitVec 32 := Scalar.addi v235 c10_i32_332
  let c0_i32_336 : BitVec 32 := 0#32
  ![v414.toNat, 0]
@[reducible] def k2_t8_loop : Scf.Loop 32 :=
  let c0_i32_241 : BitVec 32 := 0#32
  let c5_i32_242 : BitVec 32 := 5#32
  let v297 : BitVec 32 := Scalar.addi c0_i32_241 c5_i32_242
  let c1_i32_243 : BitVec 32 := 1#32
  ⟨c0_i32_241, v297, c1_i32_243⟩
def k2_off105 (k2_t8 : Fin k2_t8_loop.trips) : Fin 3 → Nat :=
  let c6_i32_333 : BitVec 32 := 6#32
  let v415 : Index := Scalar.indexCast c6_i32_333
  let c4_i32_332 : BitVec 32 := 4#32
  let c0_i32_241 : BitVec 32 := 0#32
  let c1_i32_243 : BitVec 32 := 1#32
  let arg20 : BitVec 32 := Scf.iv c0_i32_241 c1_i32_243 k2_t8
  let v414 : BitVec 32 := Scalar.muli c4_i32_332 arg20
  let v416 : Index := Scalar.indexCast v414
  let c0 : Index := 0#32
  ![6, v416.toNat, 0]
def k2_off106 (k2_t8 : Fin k2_t8_loop.trips) (c1_i32_334 : BitVec 32) : Fin 3 → Nat :=
  let c6_i32_335 : BitVec 32 := 6#32
  let v420 : Index := Scalar.indexCast c6_i32_335
  let c4_i32_332 : BitVec 32 := 4#32
  let c0_i32_241 : BitVec 32 := 0#32
  let c1_i32_243 : BitVec 32 := 1#32
  let arg20 : BitVec 32 := Scf.iv c0_i32_241 c1_i32_243 k2_t8
  let v414 : BitVec 32 := Scalar.muli c4_i32_332 arg20
  let v419 : BitVec 32 := Scalar.addi v414 c1_i32_334
  let v421 : Index := Scalar.indexCast v419
  let c0_336 : Index := 0#32
  ![6, v421.toNat, 0]
def k2_off107 (k2_t1 : Fin k2_t1_loop.trips) (k2_t8 : Fin k2_t8_loop.trips) : Fin 2 → Nat :=
  let c0_i32_62 : BitVec 32 := 0#32
  let c1_i32_63 : BitVec 32 := 1#32
  let arg18 : BitVec 32 := Scf.iv c0_i32_62 c1_i32_63 k2_t1
  let c10_i32_223 : BitVec 32 := 10#32
  let v270 : BitVec 32 := Scalar.muli arg18 c10_i32_223
  let c6_i32_224 : BitVec 32 := 6#32
  let v271 : BitVec 32 := Scalar.addi v270 c6_i32_224
  let c0_i32_232 : BitVec 32 := 0#32
  let v278 : BitVec 1 := Scalar.cmpi .sgt v271 c0_i32_232
  let v279 : BitVec 32 := Scalar.extui v278
  let c0_i32_233 : BitVec 32 := 0#32
  let v280 : BitVec 1 := Scalar.cmpi .slt v271 c0_i32_233
  let v281 : BitVec 32 := Scalar.extui v280
  let v282 : BitVec 32 := Scalar.subi v279 v281
  let c50_i32_231 : BitVec 32 := 50#32
  let c0_i32_234 : BitVec 32 := 0#32
  let v283 : BitVec 1 := Scalar.cmpi .sgt c50_i32_231 c0_i32_234
  let v284 : BitVec 32 := Scalar.extui v283
  let c0_i32_235 : BitVec 32 := 0#32
  let v285 : BitVec 1 := Scalar.cmpi .slt c50_i32_231 c0_i32_235
  let v286 : BitVec 32 := Scalar.extui v285
  let v287 : BitVec 32 := Scalar.subi v284 v286
  let v288 : BitVec 1 := Scalar.cmpi .ne v282 v287
  let v289 : BitVec 32 := Scalar.remsi v271 c50_i32_231
  let c0_i32_236 : BitVec 32 := 0#32
  let v290 : BitVec 1 := Scalar.cmpi .ne v289 c0_i32_236
  let v291 : BitVec 1 := Scalar.andi v288 v290
  let v277 : BitVec 32 := Scalar.divsi v271 c50_i32_231
  let c1_i32_237 : BitVec 32 := 1#32
  let v292 : BitVec 32 := Scalar.subi v277 c1_i32_237
  let v293 : BitVec 32 := Scalar.select v291 v292 v277
  let c50_i32_238 : BitVec 32 := 50#32
  let v294 : BitVec 32 := Scalar.muli v293 c50_i32_238
  let v295 : BitVec 32 := Scalar.subi v271 v294
  let c5_i32_239 : BitVec 32 := 5#32
  let v296 : BitVec 32 := Scalar.muli v295 c5_i32_239
  let c0_i32_241 : BitVec 32 := 0#32
  let c1_i32_243 : BitVec 32 := 1#32
  let arg20 : BitVec 32 := Scf.iv c0_i32_241 c1_i32_243 k2_t8
  let v437 : BitVec 32 := Scalar.addi v296 arg20
  let v438 : Index := Scalar.indexCast v437
  let c0_343 : Index := 0#32
  ![v438.toNat, 0]
def k2_off108 (k2_t8 : Fin k2_t8_loop.trips) : Fin 3 → Nat :=
  let c6_i32_344 : BitVec 32 := 6#32
  let v442 : Index := Scalar.indexCast c6_i32_344
  let c4_i32_332 : BitVec 32 := 4#32
  let c0_i32_241 : BitVec 32 := 0#32
  let c1_i32_243 : BitVec 32 := 1#32
  let arg20 : BitVec 32 := Scf.iv c0_i32_241 c1_i32_243 k2_t8
  let v414 : BitVec 32 := Scalar.muli c4_i32_332 arg20
  let v443 : Index := Scalar.indexCast v414
  let c16 : Index := 16#32
  ![6, v443.toNat, 16]
def k2_off109 (k2_t8 : Fin k2_t8_loop.trips) (c1_i32_345 : BitVec 32) : Fin 3 → Nat :=
  let c6_i32_346 : BitVec 32 := 6#32
  let v447 : Index := Scalar.indexCast c6_i32_346
  let c4_i32_332 : BitVec 32 := 4#32
  let c0_i32_241 : BitVec 32 := 0#32
  let c1_i32_243 : BitVec 32 := 1#32
  let arg20 : BitVec 32 := Scf.iv c0_i32_241 c1_i32_243 k2_t8
  let v414 : BitVec 32 := Scalar.muli c4_i32_332 arg20
  let v446 : BitVec 32 := Scalar.addi v414 c1_i32_345
  let v448 : Index := Scalar.indexCast v446
  let c16_347 : Index := 16#32
  ![6, v448.toNat, 16]
def k2_off110 (k2_t1 : Fin k2_t1_loop.trips) (k2_t8 : Fin k2_t8_loop.trips) : Fin 2 → Nat :=
  let c0_i32_62 : BitVec 32 := 0#32
  let c1_i32_63 : BitVec 32 := 1#32
  let arg18 : BitVec 32 := Scf.iv c0_i32_62 c1_i32_63 k2_t1
  let c10_i32_223 : BitVec 32 := 10#32
  let v270 : BitVec 32 := Scalar.muli arg18 c10_i32_223
  let c6_i32_224 : BitVec 32 := 6#32
  let v271 : BitVec 32 := Scalar.addi v270 c6_i32_224
  let c0_i32_232 : BitVec 32 := 0#32
  let v278 : BitVec 1 := Scalar.cmpi .sgt v271 c0_i32_232
  let v279 : BitVec 32 := Scalar.extui v278
  let c0_i32_233 : BitVec 32 := 0#32
  let v280 : BitVec 1 := Scalar.cmpi .slt v271 c0_i32_233
  let v281 : BitVec 32 := Scalar.extui v280
  let v282 : BitVec 32 := Scalar.subi v279 v281
  let c50_i32_231 : BitVec 32 := 50#32
  let c0_i32_234 : BitVec 32 := 0#32
  let v283 : BitVec 1 := Scalar.cmpi .sgt c50_i32_231 c0_i32_234
  let v284 : BitVec 32 := Scalar.extui v283
  let c0_i32_235 : BitVec 32 := 0#32
  let v285 : BitVec 1 := Scalar.cmpi .slt c50_i32_231 c0_i32_235
  let v286 : BitVec 32 := Scalar.extui v285
  let v287 : BitVec 32 := Scalar.subi v284 v286
  let v288 : BitVec 1 := Scalar.cmpi .ne v282 v287
  let v289 : BitVec 32 := Scalar.remsi v271 c50_i32_231
  let c0_i32_236 : BitVec 32 := 0#32
  let v290 : BitVec 1 := Scalar.cmpi .ne v289 c0_i32_236
  let v291 : BitVec 1 := Scalar.andi v288 v290
  let v277 : BitVec 32 := Scalar.divsi v271 c50_i32_231
  let c1_i32_237 : BitVec 32 := 1#32
  let v292 : BitVec 32 := Scalar.subi v277 c1_i32_237
  let v293 : BitVec 32 := Scalar.select v291 v292 v277
  let c50_i32_238 : BitVec 32 := 50#32
  let v294 : BitVec 32 := Scalar.muli v293 c50_i32_238
  let v295 : BitVec 32 := Scalar.subi v271 v294
  let c5_i32_239 : BitVec 32 := 5#32
  let v296 : BitVec 32 := Scalar.muli v295 c5_i32_239
  let c0_i32_241 : BitVec 32 := 0#32
  let c1_i32_243 : BitVec 32 := 1#32
  let arg20 : BitVec 32 := Scf.iv c0_i32_241 c1_i32_243 k2_t8
  let v464 : BitVec 32 := Scalar.addi v296 arg20
  let v465 : Index := Scalar.indexCast v464
  let c16_354 : Index := 16#32
  ![v465.toNat, 16]
def k2_off111 (k2_t8 : Fin k2_t8_loop.trips) : Fin 3 → Nat :=
  let c6_i32_355 : BitVec 32 := 6#32
  let v469 : Index := Scalar.indexCast c6_i32_355
  let c4_i32_332 : BitVec 32 := 4#32
  let c0_i32_241 : BitVec 32 := 0#32
  let c1_i32_243 : BitVec 32 := 1#32
  let arg20 : BitVec 32 := Scf.iv c0_i32_241 c1_i32_243 k2_t8
  let v414 : BitVec 32 := Scalar.muli c4_i32_332 arg20
  let v470 : Index := Scalar.indexCast v414
  let c32 : Index := 32#32
  ![6, v470.toNat, 32]
def k2_off112 (k2_t8 : Fin k2_t8_loop.trips) (c1_i32_356 : BitVec 32) : Fin 3 → Nat :=
  let c6_i32_357 : BitVec 32 := 6#32
  let v474 : Index := Scalar.indexCast c6_i32_357
  let c4_i32_332 : BitVec 32 := 4#32
  let c0_i32_241 : BitVec 32 := 0#32
  let c1_i32_243 : BitVec 32 := 1#32
  let arg20 : BitVec 32 := Scf.iv c0_i32_241 c1_i32_243 k2_t8
  let v414 : BitVec 32 := Scalar.muli c4_i32_332 arg20
  let v473 : BitVec 32 := Scalar.addi v414 c1_i32_356
  let v475 : Index := Scalar.indexCast v473
  let c32_358 : Index := 32#32
  ![6, v475.toNat, 32]
def k2_off113 (k2_t1 : Fin k2_t1_loop.trips) (k2_t8 : Fin k2_t8_loop.trips) : Fin 2 → Nat :=
  let c0_i32_62 : BitVec 32 := 0#32
  let c1_i32_63 : BitVec 32 := 1#32
  let arg18 : BitVec 32 := Scf.iv c0_i32_62 c1_i32_63 k2_t1
  let c10_i32_223 : BitVec 32 := 10#32
  let v270 : BitVec 32 := Scalar.muli arg18 c10_i32_223
  let c6_i32_224 : BitVec 32 := 6#32
  let v271 : BitVec 32 := Scalar.addi v270 c6_i32_224
  let c0_i32_232 : BitVec 32 := 0#32
  let v278 : BitVec 1 := Scalar.cmpi .sgt v271 c0_i32_232
  let v279 : BitVec 32 := Scalar.extui v278
  let c0_i32_233 : BitVec 32 := 0#32
  let v280 : BitVec 1 := Scalar.cmpi .slt v271 c0_i32_233
  let v281 : BitVec 32 := Scalar.extui v280
  let v282 : BitVec 32 := Scalar.subi v279 v281
  let c50_i32_231 : BitVec 32 := 50#32
  let c0_i32_234 : BitVec 32 := 0#32
  let v283 : BitVec 1 := Scalar.cmpi .sgt c50_i32_231 c0_i32_234
  let v284 : BitVec 32 := Scalar.extui v283
  let c0_i32_235 : BitVec 32 := 0#32
  let v285 : BitVec 1 := Scalar.cmpi .slt c50_i32_231 c0_i32_235
  let v286 : BitVec 32 := Scalar.extui v285
  let v287 : BitVec 32 := Scalar.subi v284 v286
  let v288 : BitVec 1 := Scalar.cmpi .ne v282 v287
  let v289 : BitVec 32 := Scalar.remsi v271 c50_i32_231
  let c0_i32_236 : BitVec 32 := 0#32
  let v290 : BitVec 1 := Scalar.cmpi .ne v289 c0_i32_236
  let v291 : BitVec 1 := Scalar.andi v288 v290
  let v277 : BitVec 32 := Scalar.divsi v271 c50_i32_231
  let c1_i32_237 : BitVec 32 := 1#32
  let v292 : BitVec 32 := Scalar.subi v277 c1_i32_237
  let v293 : BitVec 32 := Scalar.select v291 v292 v277
  let c50_i32_238 : BitVec 32 := 50#32
  let v294 : BitVec 32 := Scalar.muli v293 c50_i32_238
  let v295 : BitVec 32 := Scalar.subi v271 v294
  let c5_i32_239 : BitVec 32 := 5#32
  let v296 : BitVec 32 := Scalar.muli v295 c5_i32_239
  let c0_i32_241 : BitVec 32 := 0#32
  let c1_i32_243 : BitVec 32 := 1#32
  let arg20 : BitVec 32 := Scf.iv c0_i32_241 c1_i32_243 k2_t8
  let v491 : BitVec 32 := Scalar.addi v296 arg20
  let v492 : Index := Scalar.indexCast v491
  let c32_365 : Index := 32#32
  ![v492.toNat, 32]
def k2_off114 (k2_t8 : Fin k2_t8_loop.trips) : Fin 3 → Nat :=
  let c6_i32_366 : BitVec 32 := 6#32
  let v496 : Index := Scalar.indexCast c6_i32_366
  let c4_i32_332 : BitVec 32 := 4#32
  let c0_i32_241 : BitVec 32 := 0#32
  let c1_i32_243 : BitVec 32 := 1#32
  let arg20 : BitVec 32 := Scf.iv c0_i32_241 c1_i32_243 k2_t8
  let v414 : BitVec 32 := Scalar.muli c4_i32_332 arg20
  let v497 : Index := Scalar.indexCast v414
  let c48 : Index := 48#32
  ![6, v497.toNat, 48]
def k2_off115 (k2_t8 : Fin k2_t8_loop.trips) (c1_i32_367 : BitVec 32) : Fin 3 → Nat :=
  let c6_i32_368 : BitVec 32 := 6#32
  let v501 : Index := Scalar.indexCast c6_i32_368
  let c4_i32_332 : BitVec 32 := 4#32
  let c0_i32_241 : BitVec 32 := 0#32
  let c1_i32_243 : BitVec 32 := 1#32
  let arg20 : BitVec 32 := Scf.iv c0_i32_241 c1_i32_243 k2_t8
  let v414 : BitVec 32 := Scalar.muli c4_i32_332 arg20
  let v500 : BitVec 32 := Scalar.addi v414 c1_i32_367
  let v502 : Index := Scalar.indexCast v500
  let c48_369 : Index := 48#32
  ![6, v502.toNat, 48]
def k2_off116 (k2_t1 : Fin k2_t1_loop.trips) (k2_t8 : Fin k2_t8_loop.trips) : Fin 2 → Nat :=
  let c0_i32_62 : BitVec 32 := 0#32
  let c1_i32_63 : BitVec 32 := 1#32
  let arg18 : BitVec 32 := Scf.iv c0_i32_62 c1_i32_63 k2_t1
  let c10_i32_223 : BitVec 32 := 10#32
  let v270 : BitVec 32 := Scalar.muli arg18 c10_i32_223
  let c6_i32_224 : BitVec 32 := 6#32
  let v271 : BitVec 32 := Scalar.addi v270 c6_i32_224
  let c0_i32_232 : BitVec 32 := 0#32
  let v278 : BitVec 1 := Scalar.cmpi .sgt v271 c0_i32_232
  let v279 : BitVec 32 := Scalar.extui v278
  let c0_i32_233 : BitVec 32 := 0#32
  let v280 : BitVec 1 := Scalar.cmpi .slt v271 c0_i32_233
  let v281 : BitVec 32 := Scalar.extui v280
  let v282 : BitVec 32 := Scalar.subi v279 v281
  let c50_i32_231 : BitVec 32 := 50#32
  let c0_i32_234 : BitVec 32 := 0#32
  let v283 : BitVec 1 := Scalar.cmpi .sgt c50_i32_231 c0_i32_234
  let v284 : BitVec 32 := Scalar.extui v283
  let c0_i32_235 : BitVec 32 := 0#32
  let v285 : BitVec 1 := Scalar.cmpi .slt c50_i32_231 c0_i32_235
  let v286 : BitVec 32 := Scalar.extui v285
  let v287 : BitVec 32 := Scalar.subi v284 v286
  let v288 : BitVec 1 := Scalar.cmpi .ne v282 v287
  let v289 : BitVec 32 := Scalar.remsi v271 c50_i32_231
  let c0_i32_236 : BitVec 32 := 0#32
  let v290 : BitVec 1 := Scalar.cmpi .ne v289 c0_i32_236
  let v291 : BitVec 1 := Scalar.andi v288 v290
  let v277 : BitVec 32 := Scalar.divsi v271 c50_i32_231
  let c1_i32_237 : BitVec 32 := 1#32
  let v292 : BitVec 32 := Scalar.subi v277 c1_i32_237
  let v293 : BitVec 32 := Scalar.select v291 v292 v277
  let c50_i32_238 : BitVec 32 := 50#32
  let v294 : BitVec 32 := Scalar.muli v293 c50_i32_238
  let v295 : BitVec 32 := Scalar.subi v271 v294
  let c5_i32_239 : BitVec 32 := 5#32
  let v296 : BitVec 32 := Scalar.muli v295 c5_i32_239
  let c0_i32_241 : BitVec 32 := 0#32
  let c1_i32_243 : BitVec 32 := 1#32
  let arg20 : BitVec 32 := Scf.iv c0_i32_241 c1_i32_243 k2_t8
  let v518 : BitVec 32 := Scalar.addi v296 arg20
  let v519 : Index := Scalar.indexCast v518
  let c48_376 : Index := 48#32
  ![v519.toNat, 48]
def k2_off117 (k2_t8 : Fin k2_t8_loop.trips) : Fin 3 → Nat :=
  let c6_i32_377 : BitVec 32 := 6#32
  let v523 : Index := Scalar.indexCast c6_i32_377
  let c4_i32_332 : BitVec 32 := 4#32
  let c0_i32_241 : BitVec 32 := 0#32
  let c1_i32_243 : BitVec 32 := 1#32
  let arg20 : BitVec 32 := Scf.iv c0_i32_241 c1_i32_243 k2_t8
  let v414 : BitVec 32 := Scalar.muli c4_i32_332 arg20
  let v524 : Index := Scalar.indexCast v414
  let c64 : Index := 64#32
  ![6, v524.toNat, 64]
def k2_off118 (k2_t8 : Fin k2_t8_loop.trips) (c1_i32_378 : BitVec 32) : Fin 3 → Nat :=
  let c6_i32_379 : BitVec 32 := 6#32
  let v528 : Index := Scalar.indexCast c6_i32_379
  let c4_i32_332 : BitVec 32 := 4#32
  let c0_i32_241 : BitVec 32 := 0#32
  let c1_i32_243 : BitVec 32 := 1#32
  let arg20 : BitVec 32 := Scf.iv c0_i32_241 c1_i32_243 k2_t8
  let v414 : BitVec 32 := Scalar.muli c4_i32_332 arg20
  let v527 : BitVec 32 := Scalar.addi v414 c1_i32_378
  let v529 : Index := Scalar.indexCast v527
  let c64_380 : Index := 64#32
  ![6, v529.toNat, 64]
def k2_off119 (k2_t1 : Fin k2_t1_loop.trips) (k2_t8 : Fin k2_t8_loop.trips) : Fin 2 → Nat :=
  let c0_i32_62 : BitVec 32 := 0#32
  let c1_i32_63 : BitVec 32 := 1#32
  let arg18 : BitVec 32 := Scf.iv c0_i32_62 c1_i32_63 k2_t1
  let c10_i32_223 : BitVec 32 := 10#32
  let v270 : BitVec 32 := Scalar.muli arg18 c10_i32_223
  let c6_i32_224 : BitVec 32 := 6#32
  let v271 : BitVec 32 := Scalar.addi v270 c6_i32_224
  let c0_i32_232 : BitVec 32 := 0#32
  let v278 : BitVec 1 := Scalar.cmpi .sgt v271 c0_i32_232
  let v279 : BitVec 32 := Scalar.extui v278
  let c0_i32_233 : BitVec 32 := 0#32
  let v280 : BitVec 1 := Scalar.cmpi .slt v271 c0_i32_233
  let v281 : BitVec 32 := Scalar.extui v280
  let v282 : BitVec 32 := Scalar.subi v279 v281
  let c50_i32_231 : BitVec 32 := 50#32
  let c0_i32_234 : BitVec 32 := 0#32
  let v283 : BitVec 1 := Scalar.cmpi .sgt c50_i32_231 c0_i32_234
  let v284 : BitVec 32 := Scalar.extui v283
  let c0_i32_235 : BitVec 32 := 0#32
  let v285 : BitVec 1 := Scalar.cmpi .slt c50_i32_231 c0_i32_235
  let v286 : BitVec 32 := Scalar.extui v285
  let v287 : BitVec 32 := Scalar.subi v284 v286
  let v288 : BitVec 1 := Scalar.cmpi .ne v282 v287
  let v289 : BitVec 32 := Scalar.remsi v271 c50_i32_231
  let c0_i32_236 : BitVec 32 := 0#32
  let v290 : BitVec 1 := Scalar.cmpi .ne v289 c0_i32_236
  let v291 : BitVec 1 := Scalar.andi v288 v290
  let v277 : BitVec 32 := Scalar.divsi v271 c50_i32_231
  let c1_i32_237 : BitVec 32 := 1#32
  let v292 : BitVec 32 := Scalar.subi v277 c1_i32_237
  let v293 : BitVec 32 := Scalar.select v291 v292 v277
  let c50_i32_238 : BitVec 32 := 50#32
  let v294 : BitVec 32 := Scalar.muli v293 c50_i32_238
  let v295 : BitVec 32 := Scalar.subi v271 v294
  let c5_i32_239 : BitVec 32 := 5#32
  let v296 : BitVec 32 := Scalar.muli v295 c5_i32_239
  let c0_i32_241 : BitVec 32 := 0#32
  let c1_i32_243 : BitVec 32 := 1#32
  let arg20 : BitVec 32 := Scf.iv c0_i32_241 c1_i32_243 k2_t8
  let v545 : BitVec 32 := Scalar.addi v296 arg20
  let v546 : Index := Scalar.indexCast v545
  let c64_387 : Index := 64#32
  ![v546.toNat, 64]
def k2_cond13 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_223 : BitVec 32 := 10#32
  let v270 : BitVec 32 := Scalar.muli arg18 c10_i32_223
  let c6_i32_224 : BitVec 32 := 6#32
  let v271 : BitVec 32 := Scalar.addi v270 c6_i32_224
  let c0_i32_232 : BitVec 32 := 0#32
  let v278 : BitVec 1 := Scalar.cmpi .sgt v271 c0_i32_232
  let v279 : BitVec 32 := Scalar.extui v278
  let c0_i32_233 : BitVec 32 := 0#32
  let v280 : BitVec 1 := Scalar.cmpi .slt v271 c0_i32_233
  let v281 : BitVec 32 := Scalar.extui v280
  let v282 : BitVec 32 := Scalar.subi v279 v281
  let c50_i32_231 : BitVec 32 := 50#32
  let c0_i32_234 : BitVec 32 := 0#32
  let v283 : BitVec 1 := Scalar.cmpi .sgt c50_i32_231 c0_i32_234
  let v284 : BitVec 32 := Scalar.extui v283
  let c0_i32_235 : BitVec 32 := 0#32
  let v285 : BitVec 1 := Scalar.cmpi .slt c50_i32_231 c0_i32_235
  let v286 : BitVec 32 := Scalar.extui v285
  let v287 : BitVec 32 := Scalar.subi v284 v286
  let v288 : BitVec 1 := Scalar.cmpi .ne v282 v287
  let v289 : BitVec 32 := Scalar.remsi v271 c50_i32_231
  let c0_i32_236 : BitVec 32 := 0#32
  let v290 : BitVec 1 := Scalar.cmpi .ne v289 c0_i32_236
  let v291 : BitVec 1 := Scalar.andi v288 v290
  let v277 : BitVec 32 := Scalar.divsi v271 c50_i32_231
  let c1_i32_237 : BitVec 32 := 1#32
  let v292 : BitVec 32 := Scalar.subi v277 c1_i32_237
  let v293 : BitVec 32 := Scalar.select v291 v292 v277
  let c50_i32_238 : BitVec 32 := 50#32
  let v294 : BitVec 32 := Scalar.muli v293 c50_i32_238
  let v295 : BitVec 32 := Scalar.subi v271 v294
  let c49_i32_245 : BitVec 32 := 49#32
  let v299 : BitVec 1 := Scalar.cmpi .eq v295 c49_i32_245
  let v300 : BitVec 32 := Scalar.extui v299
  let c0_i32_246 : BitVec 32 := 0#32
  let v301 : BitVec 1 := Scalar.cmpi .ne v300 c0_i32_246
  v301

def k2_off120 (i : grid2.Coords) (k2_t1 : Fin k2_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62 : BitVec 32 := 0#32
  let c1_i32_63 : BitVec 32 := 1#32
  let arg18 : BitVec 32 := Scf.iv c0_i32_62 c1_i32_63 k2_t1
  let c10_i32_223 : BitVec 32 := 10#32
  let v270 : BitVec 32 := Scalar.muli arg18 c10_i32_223
  let c6_i32_224 : BitVec 32 := 6#32
  let v271 : BitVec 32 := Scalar.addi v270 c6_i32_224
  let c0_i32_232 : BitVec 32 := 0#32
  let v278 : BitVec 1 := Scalar.cmpi .sgt v271 c0_i32_232
  let v279 : BitVec 32 := Scalar.extui v278
  let c0_i32_233 : BitVec 32 := 0#32
  let v280 : BitVec 1 := Scalar.cmpi .slt v271 c0_i32_233
  let v281 : BitVec 32 := Scalar.extui v280
  let v282 : BitVec 32 := Scalar.subi v279 v281
  let c50_i32_231 : BitVec 32 := 50#32
  let c0_i32_234 : BitVec 32 := 0#32
  let v283 : BitVec 1 := Scalar.cmpi .sgt c50_i32_231 c0_i32_234
  let v284 : BitVec 32 := Scalar.extui v283
  let c0_i32_235 : BitVec 32 := 0#32
  let v285 : BitVec 1 := Scalar.cmpi .slt c50_i32_231 c0_i32_235
  let v286 : BitVec 32 := Scalar.extui v285
  let v287 : BitVec 32 := Scalar.subi v284 v286
  let v288 : BitVec 1 := Scalar.cmpi .ne v282 v287
  let v289 : BitVec 32 := Scalar.remsi v271 c50_i32_231
  let c0_i32_236 : BitVec 32 := 0#32
  let v290 : BitVec 1 := Scalar.cmpi .ne v289 c0_i32_236
  let v291 : BitVec 1 := Scalar.andi v288 v290
  let v277 : BitVec 32 := Scalar.divsi v271 c50_i32_231
  let c1_i32_237 : BitVec 32 := 1#32
  let v292 : BitVec 32 := Scalar.subi v277 c1_i32_237
  let v293 : BitVec 32 := Scalar.select v291 v292 v277
  let c0_i32_332_r7 : BitVec 32 := 0#32
  let c0_i32_333_r7 : BitVec 32 := 0#32
  ![v1.toNat, v293.toNat, 0, 0]
def k2_cond14 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_223 : BitVec 32 := 10#32
  let v270 : BitVec 32 := Scalar.muli arg18 c10_i32_223
  let c6_i32_224 : BitVec 32 := 6#32
  let v271 : BitVec 32 := Scalar.addi v270 c6_i32_224
  let c10_i32_247 : BitVec 32 := 10#32
  let v302 : BitVec 32 := Scalar.addi v271 c10_i32_247
  let c250_i32_248 : BitVec 32 := 250#32
  let v303 : BitVec 1 := Scalar.cmpi .slt v302 c250_i32_248
  let v304 : BitVec 32 := Scalar.extui v303
  let c0_i32_249 : BitVec 32 := 0#32
  let v305 : BitVec 1 := Scalar.cmpi .ne v304 c0_i32_249
  v305

def k2_off121 (k2_t1 : Fin k2_t1_loop.trips) : Fin 2 → Nat :=
  let c0_i32_62 : BitVec 32 := 0#32
  let c1_i32_63 : BitVec 32 := 1#32
  let arg18 : BitVec 32 := Scf.iv c0_i32_62 c1_i32_63 k2_t1
  let c10_i32_223 : BitVec 32 := 10#32
  let v270 : BitVec 32 := Scalar.muli arg18 c10_i32_223
  let c6_i32_224 : BitVec 32 := 6#32
  let v271 : BitVec 32 := Scalar.addi v270 c6_i32_224
  let c10_i32_332 : BitVec 32 := 10#32
  let v414 : BitVec 32 := Scalar.addi v271 c10_i32_332
  let c0_i32_336 : BitVec 32 := 0#32
  ![v414.toNat, 0]
@[reducible] def k2_t9_loop : Scf.Loop 32 :=
  let c0_i32_268 : BitVec 32 := 0#32
  let c5_i32_269 : BitVec 32 := 5#32
  let v333 : BitVec 32 := Scalar.addi c0_i32_268 c5_i32_269
  let c1_i32_270 : BitVec 32 := 1#32
  ⟨c0_i32_268, v333, c1_i32_270⟩
def k2_off122 (k2_t9 : Fin k2_t9_loop.trips) : Fin 3 → Nat :=
  let c7_i32_333 : BitVec 32 := 7#32
  let v415 : Index := Scalar.indexCast c7_i32_333
  let c4_i32_332 : BitVec 32 := 4#32
  let c0_i32_268 : BitVec 32 := 0#32
  let c1_i32_270 : BitVec 32 := 1#32
  let arg20 : BitVec 32 := Scf.iv c0_i32_268 c1_i32_270 k2_t9
  let v414 : BitVec 32 := Scalar.muli c4_i32_332 arg20
  let v416 : Index := Scalar.indexCast v414
  let c0 : Index := 0#32
  ![7, v416.toNat, 0]
def k2_off123 (k2_t9 : Fin k2_t9_loop.trips) (c1_i32_334 : BitVec 32) : Fin 3 → Nat :=
  let c7_i32_335 : BitVec 32 := 7#32
  let v420 : Index := Scalar.indexCast c7_i32_335
  let c4_i32_332 : BitVec 32 := 4#32
  let c0_i32_268 : BitVec 32 := 0#32
  let c1_i32_270 : BitVec 32 := 1#32
  let arg20 : BitVec 32 := Scf.iv c0_i32_268 c1_i32_270 k2_t9
  let v414 : BitVec 32 := Scalar.muli c4_i32_332 arg20
  let v419 : BitVec 32 := Scalar.addi v414 c1_i32_334
  let v421 : Index := Scalar.indexCast v419
  let c0_336 : Index := 0#32
  ![7, v421.toNat, 0]
def k2_off124 (k2_t1 : Fin k2_t1_loop.trips) (k2_t9 : Fin k2_t9_loop.trips) : Fin 2 → Nat :=
  let c0_i32_62 : BitVec 32 := 0#32
  let c1_i32_63 : BitVec 32 := 1#32
  let arg18 : BitVec 32 := Scf.iv c0_i32_62 c1_i32_63 k2_t1
  let c10_i32_250 : BitVec 32 := 10#32
  let v306 : BitVec 32 := Scalar.muli arg18 c10_i32_250
  let c7_i32_251 : BitVec 32 := 7#32
  let v307 : BitVec 32 := Scalar.addi v306 c7_i32_251
  let c0_i32_259 : BitVec 32 := 0#32
  let v314 : BitVec 1 := Scalar.cmpi .sgt v307 c0_i32_259
  let v315 : BitVec 32 := Scalar.extui v314
  let c0_i32_260 : BitVec 32 := 0#32
  let v316 : BitVec 1 := Scalar.cmpi .slt v307 c0_i32_260
  let v317 : BitVec 32 := Scalar.extui v316
  let v318 : BitVec 32 := Scalar.subi v315 v317
  let c50_i32_258 : BitVec 32 := 50#32
  let c0_i32_261 : BitVec 32 := 0#32
  let v319 : BitVec 1 := Scalar.cmpi .sgt c50_i32_258 c0_i32_261
  let v320 : BitVec 32 := Scalar.extui v319
  let c0_i32_262 : BitVec 32 := 0#32
  let v321 : BitVec 1 := Scalar.cmpi .slt c50_i32_258 c0_i32_262
  let v322 : BitVec 32 := Scalar.extui v321
  let v323 : BitVec 32 := Scalar.subi v320 v322
  let v324 : BitVec 1 := Scalar.cmpi .ne v318 v323
  let v325 : BitVec 32 := Scalar.remsi v307 c50_i32_258
  let c0_i32_263 : BitVec 32 := 0#32
  let v326 : BitVec 1 := Scalar.cmpi .ne v325 c0_i32_263
  let v327 : BitVec 1 := Scalar.andi v324 v326
  let v313 : BitVec 32 := Scalar.divsi v307 c50_i32_258
  let c1_i32_264 : BitVec 32 := 1#32
  let v328 : BitVec 32 := Scalar.subi v313 c1_i32_264
  let v329 : BitVec 32 := Scalar.select v327 v328 v313
  let c50_i32_265 : BitVec 32 := 50#32
  let v330 : BitVec 32 := Scalar.muli v329 c50_i32_265
  let v331 : BitVec 32 := Scalar.subi v307 v330
  let c5_i32_266 : BitVec 32 := 5#32
  let v332 : BitVec 32 := Scalar.muli v331 c5_i32_266
  let c0_i32_268 : BitVec 32 := 0#32
  let c1_i32_270 : BitVec 32 := 1#32
  let arg20 : BitVec 32 := Scf.iv c0_i32_268 c1_i32_270 k2_t9
  let v437 : BitVec 32 := Scalar.addi v332 arg20
  let v438 : Index := Scalar.indexCast v437
  let c0_343 : Index := 0#32
  ![v438.toNat, 0]
def k2_off125 (k2_t9 : Fin k2_t9_loop.trips) : Fin 3 → Nat :=
  let c7_i32_344 : BitVec 32 := 7#32
  let v442 : Index := Scalar.indexCast c7_i32_344
  let c4_i32_332 : BitVec 32 := 4#32
  let c0_i32_268 : BitVec 32 := 0#32
  let c1_i32_270 : BitVec 32 := 1#32
  let arg20 : BitVec 32 := Scf.iv c0_i32_268 c1_i32_270 k2_t9
  let v414 : BitVec 32 := Scalar.muli c4_i32_332 arg20
  let v443 : Index := Scalar.indexCast v414
  let c16 : Index := 16#32
  ![7, v443.toNat, 16]
def k2_off126 (k2_t9 : Fin k2_t9_loop.trips) (c1_i32_345 : BitVec 32) : Fin 3 → Nat :=
  let c7_i32_346 : BitVec 32 := 7#32
  let v447 : Index := Scalar.indexCast c7_i32_346
  let c4_i32_332 : BitVec 32 := 4#32
  let c0_i32_268 : BitVec 32 := 0#32
  let c1_i32_270 : BitVec 32 := 1#32
  let arg20 : BitVec 32 := Scf.iv c0_i32_268 c1_i32_270 k2_t9
  let v414 : BitVec 32 := Scalar.muli c4_i32_332 arg20
  let v446 : BitVec 32 := Scalar.addi v414 c1_i32_345
  let v448 : Index := Scalar.indexCast v446
  let c16_347 : Index := 16#32
  ![7, v448.toNat, 16]
def k2_off127 (k2_t1 : Fin k2_t1_loop.trips) (k2_t9 : Fin k2_t9_loop.trips) : Fin 2 → Nat :=
  let c0_i32_62 : BitVec 32 := 0#32
  let c1_i32_63 : BitVec 32 := 1#32
  let arg18 : BitVec 32 := Scf.iv c0_i32_62 c1_i32_63 k2_t1
  let c10_i32_250 : BitVec 32 := 10#32
  let v306 : BitVec 32 := Scalar.muli arg18 c10_i32_250
  let c7_i32_251 : BitVec 32 := 7#32
  let v307 : BitVec 32 := Scalar.addi v306 c7_i32_251
  let c0_i32_259 : BitVec 32 := 0#32
  let v314 : BitVec 1 := Scalar.cmpi .sgt v307 c0_i32_259
  let v315 : BitVec 32 := Scalar.extui v314
  let c0_i32_260 : BitVec 32 := 0#32
  let v316 : BitVec 1 := Scalar.cmpi .slt v307 c0_i32_260
  let v317 : BitVec 32 := Scalar.extui v316
  let v318 : BitVec 32 := Scalar.subi v315 v317
  let c50_i32_258 : BitVec 32 := 50#32
  let c0_i32_261 : BitVec 32 := 0#32
  let v319 : BitVec 1 := Scalar.cmpi .sgt c50_i32_258 c0_i32_261
  let v320 : BitVec 32 := Scalar.extui v319
  let c0_i32_262 : BitVec 32 := 0#32
  let v321 : BitVec 1 := Scalar.cmpi .slt c50_i32_258 c0_i32_262
  let v322 : BitVec 32 := Scalar.extui v321
  let v323 : BitVec 32 := Scalar.subi v320 v322
  let v324 : BitVec 1 := Scalar.cmpi .ne v318 v323
  let v325 : BitVec 32 := Scalar.remsi v307 c50_i32_258
  let c0_i32_263 : BitVec 32 := 0#32
  let v326 : BitVec 1 := Scalar.cmpi .ne v325 c0_i32_263
  let v327 : BitVec 1 := Scalar.andi v324 v326
  let v313 : BitVec 32 := Scalar.divsi v307 c50_i32_258
  let c1_i32_264 : BitVec 32 := 1#32
  let v328 : BitVec 32 := Scalar.subi v313 c1_i32_264
  let v329 : BitVec 32 := Scalar.select v327 v328 v313
  let c50_i32_265 : BitVec 32 := 50#32
  let v330 : BitVec 32 := Scalar.muli v329 c50_i32_265
  let v331 : BitVec 32 := Scalar.subi v307 v330
  let c5_i32_266 : BitVec 32 := 5#32
  let v332 : BitVec 32 := Scalar.muli v331 c5_i32_266
  let c0_i32_268 : BitVec 32 := 0#32
  let c1_i32_270 : BitVec 32 := 1#32
  let arg20 : BitVec 32 := Scf.iv c0_i32_268 c1_i32_270 k2_t9
  let v464 : BitVec 32 := Scalar.addi v332 arg20
  let v465 : Index := Scalar.indexCast v464
  let c16_354 : Index := 16#32
  ![v465.toNat, 16]
def k2_off128 (k2_t9 : Fin k2_t9_loop.trips) : Fin 3 → Nat :=
  let c7_i32_355 : BitVec 32 := 7#32
  let v469 : Index := Scalar.indexCast c7_i32_355
  let c4_i32_332 : BitVec 32 := 4#32
  let c0_i32_268 : BitVec 32 := 0#32
  let c1_i32_270 : BitVec 32 := 1#32
  let arg20 : BitVec 32 := Scf.iv c0_i32_268 c1_i32_270 k2_t9
  let v414 : BitVec 32 := Scalar.muli c4_i32_332 arg20
  let v470 : Index := Scalar.indexCast v414
  let c32 : Index := 32#32
  ![7, v470.toNat, 32]
def k2_off129 (k2_t9 : Fin k2_t9_loop.trips) (c1_i32_356 : BitVec 32) : Fin 3 → Nat :=
  let c7_i32_357 : BitVec 32 := 7#32
  let v474 : Index := Scalar.indexCast c7_i32_357
  let c4_i32_332 : BitVec 32 := 4#32
  let c0_i32_268 : BitVec 32 := 0#32
  let c1_i32_270 : BitVec 32 := 1#32
  let arg20 : BitVec 32 := Scf.iv c0_i32_268 c1_i32_270 k2_t9
  let v414 : BitVec 32 := Scalar.muli c4_i32_332 arg20
  let v473 : BitVec 32 := Scalar.addi v414 c1_i32_356
  let v475 : Index := Scalar.indexCast v473
  let c32_358 : Index := 32#32
  ![7, v475.toNat, 32]
def k2_off130 (k2_t1 : Fin k2_t1_loop.trips) (k2_t9 : Fin k2_t9_loop.trips) : Fin 2 → Nat :=
  let c0_i32_62 : BitVec 32 := 0#32
  let c1_i32_63 : BitVec 32 := 1#32
  let arg18 : BitVec 32 := Scf.iv c0_i32_62 c1_i32_63 k2_t1
  let c10_i32_250 : BitVec 32 := 10#32
  let v306 : BitVec 32 := Scalar.muli arg18 c10_i32_250
  let c7_i32_251 : BitVec 32 := 7#32
  let v307 : BitVec 32 := Scalar.addi v306 c7_i32_251
  let c0_i32_259 : BitVec 32 := 0#32
  let v314 : BitVec 1 := Scalar.cmpi .sgt v307 c0_i32_259
  let v315 : BitVec 32 := Scalar.extui v314
  let c0_i32_260 : BitVec 32 := 0#32
  let v316 : BitVec 1 := Scalar.cmpi .slt v307 c0_i32_260
  let v317 : BitVec 32 := Scalar.extui v316
  let v318 : BitVec 32 := Scalar.subi v315 v317
  let c50_i32_258 : BitVec 32 := 50#32
  let c0_i32_261 : BitVec 32 := 0#32
  let v319 : BitVec 1 := Scalar.cmpi .sgt c50_i32_258 c0_i32_261
  let v320 : BitVec 32 := Scalar.extui v319
  let c0_i32_262 : BitVec 32 := 0#32
  let v321 : BitVec 1 := Scalar.cmpi .slt c50_i32_258 c0_i32_262
  let v322 : BitVec 32 := Scalar.extui v321
  let v323 : BitVec 32 := Scalar.subi v320 v322
  let v324 : BitVec 1 := Scalar.cmpi .ne v318 v323
  let v325 : BitVec 32 := Scalar.remsi v307 c50_i32_258
  let c0_i32_263 : BitVec 32 := 0#32
  let v326 : BitVec 1 := Scalar.cmpi .ne v325 c0_i32_263
  let v327 : BitVec 1 := Scalar.andi v324 v326
  let v313 : BitVec 32 := Scalar.divsi v307 c50_i32_258
  let c1_i32_264 : BitVec 32 := 1#32
  let v328 : BitVec 32 := Scalar.subi v313 c1_i32_264
  let v329 : BitVec 32 := Scalar.select v327 v328 v313
  let c50_i32_265 : BitVec 32 := 50#32
  let v330 : BitVec 32 := Scalar.muli v329 c50_i32_265
  let v331 : BitVec 32 := Scalar.subi v307 v330
  let c5_i32_266 : BitVec 32 := 5#32
  let v332 : BitVec 32 := Scalar.muli v331 c5_i32_266
  let c0_i32_268 : BitVec 32 := 0#32
  let c1_i32_270 : BitVec 32 := 1#32
  let arg20 : BitVec 32 := Scf.iv c0_i32_268 c1_i32_270 k2_t9
  let v491 : BitVec 32 := Scalar.addi v332 arg20
  let v492 : Index := Scalar.indexCast v491
  let c32_365 : Index := 32#32
  ![v492.toNat, 32]
def k2_off131 (k2_t9 : Fin k2_t9_loop.trips) : Fin 3 → Nat :=
  let c7_i32_366 : BitVec 32 := 7#32
  let v496 : Index := Scalar.indexCast c7_i32_366
  let c4_i32_332 : BitVec 32 := 4#32
  let c0_i32_268 : BitVec 32 := 0#32
  let c1_i32_270 : BitVec 32 := 1#32
  let arg20 : BitVec 32 := Scf.iv c0_i32_268 c1_i32_270 k2_t9
  let v414 : BitVec 32 := Scalar.muli c4_i32_332 arg20
  let v497 : Index := Scalar.indexCast v414
  let c48 : Index := 48#32
  ![7, v497.toNat, 48]
def k2_off132 (k2_t9 : Fin k2_t9_loop.trips) (c1_i32_367 : BitVec 32) : Fin 3 → Nat :=
  let c7_i32_368 : BitVec 32 := 7#32
  let v501 : Index := Scalar.indexCast c7_i32_368
  let c4_i32_332 : BitVec 32 := 4#32
  let c0_i32_268 : BitVec 32 := 0#32
  let c1_i32_270 : BitVec 32 := 1#32
  let arg20 : BitVec 32 := Scf.iv c0_i32_268 c1_i32_270 k2_t9
  let v414 : BitVec 32 := Scalar.muli c4_i32_332 arg20
  let v500 : BitVec 32 := Scalar.addi v414 c1_i32_367
  let v502 : Index := Scalar.indexCast v500
  let c48_369 : Index := 48#32
  ![7, v502.toNat, 48]
def k2_off133 (k2_t1 : Fin k2_t1_loop.trips) (k2_t9 : Fin k2_t9_loop.trips) : Fin 2 → Nat :=
  let c0_i32_62 : BitVec 32 := 0#32
  let c1_i32_63 : BitVec 32 := 1#32
  let arg18 : BitVec 32 := Scf.iv c0_i32_62 c1_i32_63 k2_t1
  let c10_i32_250 : BitVec 32 := 10#32
  let v306 : BitVec 32 := Scalar.muli arg18 c10_i32_250
  let c7_i32_251 : BitVec 32 := 7#32
  let v307 : BitVec 32 := Scalar.addi v306 c7_i32_251
  let c0_i32_259 : BitVec 32 := 0#32
  let v314 : BitVec 1 := Scalar.cmpi .sgt v307 c0_i32_259
  let v315 : BitVec 32 := Scalar.extui v314
  let c0_i32_260 : BitVec 32 := 0#32
  let v316 : BitVec 1 := Scalar.cmpi .slt v307 c0_i32_260
  let v317 : BitVec 32 := Scalar.extui v316
  let v318 : BitVec 32 := Scalar.subi v315 v317
  let c50_i32_258 : BitVec 32 := 50#32
  let c0_i32_261 : BitVec 32 := 0#32
  let v319 : BitVec 1 := Scalar.cmpi .sgt c50_i32_258 c0_i32_261
  let v320 : BitVec 32 := Scalar.extui v319
  let c0_i32_262 : BitVec 32 := 0#32
  let v321 : BitVec 1 := Scalar.cmpi .slt c50_i32_258 c0_i32_262
  let v322 : BitVec 32 := Scalar.extui v321
  let v323 : BitVec 32 := Scalar.subi v320 v322
  let v324 : BitVec 1 := Scalar.cmpi .ne v318 v323
  let v325 : BitVec 32 := Scalar.remsi v307 c50_i32_258
  let c0_i32_263 : BitVec 32 := 0#32
  let v326 : BitVec 1 := Scalar.cmpi .ne v325 c0_i32_263
  let v327 : BitVec 1 := Scalar.andi v324 v326
  let v313 : BitVec 32 := Scalar.divsi v307 c50_i32_258
  let c1_i32_264 : BitVec 32 := 1#32
  let v328 : BitVec 32 := Scalar.subi v313 c1_i32_264
  let v329 : BitVec 32 := Scalar.select v327 v328 v313
  let c50_i32_265 : BitVec 32 := 50#32
  let v330 : BitVec 32 := Scalar.muli v329 c50_i32_265
  let v331 : BitVec 32 := Scalar.subi v307 v330
  let c5_i32_266 : BitVec 32 := 5#32
  let v332 : BitVec 32 := Scalar.muli v331 c5_i32_266
  let c0_i32_268 : BitVec 32 := 0#32
  let c1_i32_270 : BitVec 32 := 1#32
  let arg20 : BitVec 32 := Scf.iv c0_i32_268 c1_i32_270 k2_t9
  let v518 : BitVec 32 := Scalar.addi v332 arg20
  let v519 : Index := Scalar.indexCast v518
  let c48_376 : Index := 48#32
  ![v519.toNat, 48]
def k2_off134 (k2_t9 : Fin k2_t9_loop.trips) : Fin 3 → Nat :=
  let c7_i32_377 : BitVec 32 := 7#32
  let v523 : Index := Scalar.indexCast c7_i32_377
  let c4_i32_332 : BitVec 32 := 4#32
  let c0_i32_268 : BitVec 32 := 0#32
  let c1_i32_270 : BitVec 32 := 1#32
  let arg20 : BitVec 32 := Scf.iv c0_i32_268 c1_i32_270 k2_t9
  let v414 : BitVec 32 := Scalar.muli c4_i32_332 arg20
  let v524 : Index := Scalar.indexCast v414
  let c64 : Index := 64#32
  ![7, v524.toNat, 64]
def k2_off135 (k2_t9 : Fin k2_t9_loop.trips) (c1_i32_378 : BitVec 32) : Fin 3 → Nat :=
  let c7_i32_379 : BitVec 32 := 7#32
  let v528 : Index := Scalar.indexCast c7_i32_379
  let c4_i32_332 : BitVec 32 := 4#32
  let c0_i32_268 : BitVec 32 := 0#32
  let c1_i32_270 : BitVec 32 := 1#32
  let arg20 : BitVec 32 := Scf.iv c0_i32_268 c1_i32_270 k2_t9
  let v414 : BitVec 32 := Scalar.muli c4_i32_332 arg20
  let v527 : BitVec 32 := Scalar.addi v414 c1_i32_378
  let v529 : Index := Scalar.indexCast v527
  let c64_380 : Index := 64#32
  ![7, v529.toNat, 64]
def k2_off136 (k2_t1 : Fin k2_t1_loop.trips) (k2_t9 : Fin k2_t9_loop.trips) : Fin 2 → Nat :=
  let c0_i32_62 : BitVec 32 := 0#32
  let c1_i32_63 : BitVec 32 := 1#32
  let arg18 : BitVec 32 := Scf.iv c0_i32_62 c1_i32_63 k2_t1
  let c10_i32_250 : BitVec 32 := 10#32
  let v306 : BitVec 32 := Scalar.muli arg18 c10_i32_250
  let c7_i32_251 : BitVec 32 := 7#32
  let v307 : BitVec 32 := Scalar.addi v306 c7_i32_251
  let c0_i32_259 : BitVec 32 := 0#32
  let v314 : BitVec 1 := Scalar.cmpi .sgt v307 c0_i32_259
  let v315 : BitVec 32 := Scalar.extui v314
  let c0_i32_260 : BitVec 32 := 0#32
  let v316 : BitVec 1 := Scalar.cmpi .slt v307 c0_i32_260
  let v317 : BitVec 32 := Scalar.extui v316
  let v318 : BitVec 32 := Scalar.subi v315 v317
  let c50_i32_258 : BitVec 32 := 50#32
  let c0_i32_261 : BitVec 32 := 0#32
  let v319 : BitVec 1 := Scalar.cmpi .sgt c50_i32_258 c0_i32_261
  let v320 : BitVec 32 := Scalar.extui v319
  let c0_i32_262 : BitVec 32 := 0#32
  let v321 : BitVec 1 := Scalar.cmpi .slt c50_i32_258 c0_i32_262
  let v322 : BitVec 32 := Scalar.extui v321
  let v323 : BitVec 32 := Scalar.subi v320 v322
  let v324 : BitVec 1 := Scalar.cmpi .ne v318 v323
  let v325 : BitVec 32 := Scalar.remsi v307 c50_i32_258
  let c0_i32_263 : BitVec 32 := 0#32
  let v326 : BitVec 1 := Scalar.cmpi .ne v325 c0_i32_263
  let v327 : BitVec 1 := Scalar.andi v324 v326
  let v313 : BitVec 32 := Scalar.divsi v307 c50_i32_258
  let c1_i32_264 : BitVec 32 := 1#32
  let v328 : BitVec 32 := Scalar.subi v313 c1_i32_264
  let v329 : BitVec 32 := Scalar.select v327 v328 v313
  let c50_i32_265 : BitVec 32 := 50#32
  let v330 : BitVec 32 := Scalar.muli v329 c50_i32_265
  let v331 : BitVec 32 := Scalar.subi v307 v330
  let c5_i32_266 : BitVec 32 := 5#32
  let v332 : BitVec 32 := Scalar.muli v331 c5_i32_266
  let c0_i32_268 : BitVec 32 := 0#32
  let c1_i32_270 : BitVec 32 := 1#32
  let arg20 : BitVec 32 := Scf.iv c0_i32_268 c1_i32_270 k2_t9
  let v545 : BitVec 32 := Scalar.addi v332 arg20
  let v546 : Index := Scalar.indexCast v545
  let c64_387 : Index := 64#32
  ![v546.toNat, 64]
def k2_cond15 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_250 : BitVec 32 := 10#32
  let v306 : BitVec 32 := Scalar.muli arg18 c10_i32_250
  let c7_i32_251 : BitVec 32 := 7#32
  let v307 : BitVec 32 := Scalar.addi v306 c7_i32_251
  let c0_i32_259 : BitVec 32 := 0#32
  let v314 : BitVec 1 := Scalar.cmpi .sgt v307 c0_i32_259
  let v315 : BitVec 32 := Scalar.extui v314
  let c0_i32_260 : BitVec 32 := 0#32
  let v316 : BitVec 1 := Scalar.cmpi .slt v307 c0_i32_260
  let v317 : BitVec 32 := Scalar.extui v316
  let v318 : BitVec 32 := Scalar.subi v315 v317
  let c50_i32_258 : BitVec 32 := 50#32
  let c0_i32_261 : BitVec 32 := 0#32
  let v319 : BitVec 1 := Scalar.cmpi .sgt c50_i32_258 c0_i32_261
  let v320 : BitVec 32 := Scalar.extui v319
  let c0_i32_262 : BitVec 32 := 0#32
  let v321 : BitVec 1 := Scalar.cmpi .slt c50_i32_258 c0_i32_262
  let v322 : BitVec 32 := Scalar.extui v321
  let v323 : BitVec 32 := Scalar.subi v320 v322
  let v324 : BitVec 1 := Scalar.cmpi .ne v318 v323
  let v325 : BitVec 32 := Scalar.remsi v307 c50_i32_258
  let c0_i32_263 : BitVec 32 := 0#32
  let v326 : BitVec 1 := Scalar.cmpi .ne v325 c0_i32_263
  let v327 : BitVec 1 := Scalar.andi v324 v326
  let v313 : BitVec 32 := Scalar.divsi v307 c50_i32_258
  let c1_i32_264 : BitVec 32 := 1#32
  let v328 : BitVec 32 := Scalar.subi v313 c1_i32_264
  let v329 : BitVec 32 := Scalar.select v327 v328 v313
  let c50_i32_265 : BitVec 32 := 50#32
  let v330 : BitVec 32 := Scalar.muli v329 c50_i32_265
  let v331 : BitVec 32 := Scalar.subi v307 v330
  let c49_i32_272 : BitVec 32 := 49#32
  let v335 : BitVec 1 := Scalar.cmpi .eq v331 c49_i32_272
  let v336 : BitVec 32 := Scalar.extui v335
  let c0_i32_273 : BitVec 32 := 0#32
  let v337 : BitVec 1 := Scalar.cmpi .ne v336 c0_i32_273
  v337

def k2_off137 (i : grid2.Coords) (k2_t1 : Fin k2_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62 : BitVec 32 := 0#32
  let c1_i32_63 : BitVec 32 := 1#32
  let arg18 : BitVec 32 := Scf.iv c0_i32_62 c1_i32_63 k2_t1
  let c10_i32_250 : BitVec 32 := 10#32
  let v306 : BitVec 32 := Scalar.muli arg18 c10_i32_250
  let c7_i32_251 : BitVec 32 := 7#32
  let v307 : BitVec 32 := Scalar.addi v306 c7_i32_251
  let c0_i32_259 : BitVec 32 := 0#32
  let v314 : BitVec 1 := Scalar.cmpi .sgt v307 c0_i32_259
  let v315 : BitVec 32 := Scalar.extui v314
  let c0_i32_260 : BitVec 32 := 0#32
  let v316 : BitVec 1 := Scalar.cmpi .slt v307 c0_i32_260
  let v317 : BitVec 32 := Scalar.extui v316
  let v318 : BitVec 32 := Scalar.subi v315 v317
  let c50_i32_258 : BitVec 32 := 50#32
  let c0_i32_261 : BitVec 32 := 0#32
  let v319 : BitVec 1 := Scalar.cmpi .sgt c50_i32_258 c0_i32_261
  let v320 : BitVec 32 := Scalar.extui v319
  let c0_i32_262 : BitVec 32 := 0#32
  let v321 : BitVec 1 := Scalar.cmpi .slt c50_i32_258 c0_i32_262
  let v322 : BitVec 32 := Scalar.extui v321
  let v323 : BitVec 32 := Scalar.subi v320 v322
  let v324 : BitVec 1 := Scalar.cmpi .ne v318 v323
  let v325 : BitVec 32 := Scalar.remsi v307 c50_i32_258
  let c0_i32_263 : BitVec 32 := 0#32
  let v326 : BitVec 1 := Scalar.cmpi .ne v325 c0_i32_263
  let v327 : BitVec 1 := Scalar.andi v324 v326
  let v313 : BitVec 32 := Scalar.divsi v307 c50_i32_258
  let c1_i32_264 : BitVec 32 := 1#32
  let v328 : BitVec 32 := Scalar.subi v313 c1_i32_264
  let v329 : BitVec 32 := Scalar.select v327 v328 v313
  let c0_i32_332_r8 : BitVec 32 := 0#32
  let c0_i32_333_r8 : BitVec 32 := 0#32
  ![v1.toNat, v329.toNat, 0, 0]
def k2_cond16 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_250 : BitVec 32 := 10#32
  let v306 : BitVec 32 := Scalar.muli arg18 c10_i32_250
  let c7_i32_251 : BitVec 32 := 7#32
  let v307 : BitVec 32 := Scalar.addi v306 c7_i32_251
  let c10_i32_274 : BitVec 32 := 10#32
  let v338 : BitVec 32 := Scalar.addi v307 c10_i32_274
  let c250_i32_275 : BitVec 32 := 250#32
  let v339 : BitVec 1 := Scalar.cmpi .slt v338 c250_i32_275
  let v340 : BitVec 32 := Scalar.extui v339
  let c0_i32_276 : BitVec 32 := 0#32
  let v341 : BitVec 1 := Scalar.cmpi .ne v340 c0_i32_276
  v341

def k2_off138 (k2_t1 : Fin k2_t1_loop.trips) : Fin 2 → Nat :=
  let c0_i32_62 : BitVec 32 := 0#32
  let c1_i32_63 : BitVec 32 := 1#32
  let arg18 : BitVec 32 := Scf.iv c0_i32_62 c1_i32_63 k2_t1
  let c10_i32_250 : BitVec 32 := 10#32
  let v306 : BitVec 32 := Scalar.muli arg18 c10_i32_250
  let c7_i32_251 : BitVec 32 := 7#32
  let v307 : BitVec 32 := Scalar.addi v306 c7_i32_251
  let c10_i32_332 : BitVec 32 := 10#32
  let v414 : BitVec 32 := Scalar.addi v307 c10_i32_332
  let c0_i32_336 : BitVec 32 := 0#32
  ![v414.toNat, 0]
@[reducible] def k2_t10_loop : Scf.Loop 32 :=
  let c0_i32_295 : BitVec 32 := 0#32
  let c5_i32_296 : BitVec 32 := 5#32
  let v369 : BitVec 32 := Scalar.addi c0_i32_295 c5_i32_296
  let c1_i32_297 : BitVec 32 := 1#32
  ⟨c0_i32_295, v369, c1_i32_297⟩
def k2_off139 (k2_t10 : Fin k2_t10_loop.trips) : Fin 3 → Nat :=
  let c8_i32_333 : BitVec 32 := 8#32
  let v415 : Index := Scalar.indexCast c8_i32_333
  let c4_i32_332 : BitVec 32 := 4#32
  let c0_i32_295 : BitVec 32 := 0#32
  let c1_i32_297 : BitVec 32 := 1#32
  let arg20 : BitVec 32 := Scf.iv c0_i32_295 c1_i32_297 k2_t10
  let v414 : BitVec 32 := Scalar.muli c4_i32_332 arg20
  let v416 : Index := Scalar.indexCast v414
  let c0 : Index := 0#32
  ![8, v416.toNat, 0]
def k2_off140 (k2_t10 : Fin k2_t10_loop.trips) (c1_i32_334 : BitVec 32) : Fin 3 → Nat :=
  let c8_i32_335 : BitVec 32 := 8#32
  let v420 : Index := Scalar.indexCast c8_i32_335
  let c4_i32_332 : BitVec 32 := 4#32
  let c0_i32_295 : BitVec 32 := 0#32
  let c1_i32_297 : BitVec 32 := 1#32
  let arg20 : BitVec 32 := Scf.iv c0_i32_295 c1_i32_297 k2_t10
  let v414 : BitVec 32 := Scalar.muli c4_i32_332 arg20
  let v419 : BitVec 32 := Scalar.addi v414 c1_i32_334
  let v421 : Index := Scalar.indexCast v419
  let c0_336 : Index := 0#32
  ![8, v421.toNat, 0]
def k2_off141 (k2_t1 : Fin k2_t1_loop.trips) (k2_t10 : Fin k2_t10_loop.trips) : Fin 2 → Nat :=
  let c0_i32_62 : BitVec 32 := 0#32
  let c1_i32_63 : BitVec 32 := 1#32
  let arg18 : BitVec 32 := Scf.iv c0_i32_62 c1_i32_63 k2_t1
  let c10_i32_277 : BitVec 32 := 10#32
  let v342 : BitVec 32 := Scalar.muli arg18 c10_i32_277
  let c8_i32_278 : BitVec 32 := 8#32
  let v343 : BitVec 32 := Scalar.addi v342 c8_i32_278
  let c0_i32_286 : BitVec 32 := 0#32
  let v350 : BitVec 1 := Scalar.cmpi .sgt v343 c0_i32_286
  let v351 : BitVec 32 := Scalar.extui v350
  let c0_i32_287 : BitVec 32 := 0#32
  let v352 : BitVec 1 := Scalar.cmpi .slt v343 c0_i32_287
  let v353 : BitVec 32 := Scalar.extui v352
  let v354 : BitVec 32 := Scalar.subi v351 v353
  let c50_i32_285 : BitVec 32 := 50#32
  let c0_i32_288 : BitVec 32 := 0#32
  let v355 : BitVec 1 := Scalar.cmpi .sgt c50_i32_285 c0_i32_288
  let v356 : BitVec 32 := Scalar.extui v355
  let c0_i32_289 : BitVec 32 := 0#32
  let v357 : BitVec 1 := Scalar.cmpi .slt c50_i32_285 c0_i32_289
  let v358 : BitVec 32 := Scalar.extui v357
  let v359 : BitVec 32 := Scalar.subi v356 v358
  let v360 : BitVec 1 := Scalar.cmpi .ne v354 v359
  let v361 : BitVec 32 := Scalar.remsi v343 c50_i32_285
  let c0_i32_290 : BitVec 32 := 0#32
  let v362 : BitVec 1 := Scalar.cmpi .ne v361 c0_i32_290
  let v363 : BitVec 1 := Scalar.andi v360 v362
  let v349 : BitVec 32 := Scalar.divsi v343 c50_i32_285
  let c1_i32_291 : BitVec 32 := 1#32
  let v364 : BitVec 32 := Scalar.subi v349 c1_i32_291
  let v365 : BitVec 32 := Scalar.select v363 v364 v349
  let c50_i32_292 : BitVec 32 := 50#32
  let v366 : BitVec 32 := Scalar.muli v365 c50_i32_292
  let v367 : BitVec 32 := Scalar.subi v343 v366
  let c5_i32_293 : BitVec 32 := 5#32
  let v368 : BitVec 32 := Scalar.muli v367 c5_i32_293
  let c0_i32_295 : BitVec 32 := 0#32
  let c1_i32_297 : BitVec 32 := 1#32
  let arg20 : BitVec 32 := Scf.iv c0_i32_295 c1_i32_297 k2_t10
  let v437 : BitVec 32 := Scalar.addi v368 arg20
  let v438 : Index := Scalar.indexCast v437
  let c0_343 : Index := 0#32
  ![v438.toNat, 0]
def k2_off142 (k2_t10 : Fin k2_t10_loop.trips) : Fin 3 → Nat :=
  let c8_i32_344 : BitVec 32 := 8#32
  let v442 : Index := Scalar.indexCast c8_i32_344
  let c4_i32_332 : BitVec 32 := 4#32
  let c0_i32_295 : BitVec 32 := 0#32
  let c1_i32_297 : BitVec 32 := 1#32
  let arg20 : BitVec 32 := Scf.iv c0_i32_295 c1_i32_297 k2_t10
  let v414 : BitVec 32 := Scalar.muli c4_i32_332 arg20
  let v443 : Index := Scalar.indexCast v414
  let c16 : Index := 16#32
  ![8, v443.toNat, 16]
def k2_off143 (k2_t10 : Fin k2_t10_loop.trips) (c1_i32_345 : BitVec 32) : Fin 3 → Nat :=
  let c8_i32_346 : BitVec 32 := 8#32
  let v447 : Index := Scalar.indexCast c8_i32_346
  let c4_i32_332 : BitVec 32 := 4#32
  let c0_i32_295 : BitVec 32 := 0#32
  let c1_i32_297 : BitVec 32 := 1#32
  let arg20 : BitVec 32 := Scf.iv c0_i32_295 c1_i32_297 k2_t10
  let v414 : BitVec 32 := Scalar.muli c4_i32_332 arg20
  let v446 : BitVec 32 := Scalar.addi v414 c1_i32_345
  let v448 : Index := Scalar.indexCast v446
  let c16_347 : Index := 16#32
  ![8, v448.toNat, 16]
def k2_off144 (k2_t1 : Fin k2_t1_loop.trips) (k2_t10 : Fin k2_t10_loop.trips) : Fin 2 → Nat :=
  let c0_i32_62 : BitVec 32 := 0#32
  let c1_i32_63 : BitVec 32 := 1#32
  let arg18 : BitVec 32 := Scf.iv c0_i32_62 c1_i32_63 k2_t1
  let c10_i32_277 : BitVec 32 := 10#32
  let v342 : BitVec 32 := Scalar.muli arg18 c10_i32_277
  let c8_i32_278 : BitVec 32 := 8#32
  let v343 : BitVec 32 := Scalar.addi v342 c8_i32_278
  let c0_i32_286 : BitVec 32 := 0#32
  let v350 : BitVec 1 := Scalar.cmpi .sgt v343 c0_i32_286
  let v351 : BitVec 32 := Scalar.extui v350
  let c0_i32_287 : BitVec 32 := 0#32
  let v352 : BitVec 1 := Scalar.cmpi .slt v343 c0_i32_287
  let v353 : BitVec 32 := Scalar.extui v352
  let v354 : BitVec 32 := Scalar.subi v351 v353
  let c50_i32_285 : BitVec 32 := 50#32
  let c0_i32_288 : BitVec 32 := 0#32
  let v355 : BitVec 1 := Scalar.cmpi .sgt c50_i32_285 c0_i32_288
  let v356 : BitVec 32 := Scalar.extui v355
  let c0_i32_289 : BitVec 32 := 0#32
  let v357 : BitVec 1 := Scalar.cmpi .slt c50_i32_285 c0_i32_289
  let v358 : BitVec 32 := Scalar.extui v357
  let v359 : BitVec 32 := Scalar.subi v356 v358
  let v360 : BitVec 1 := Scalar.cmpi .ne v354 v359
  let v361 : BitVec 32 := Scalar.remsi v343 c50_i32_285
  let c0_i32_290 : BitVec 32 := 0#32
  let v362 : BitVec 1 := Scalar.cmpi .ne v361 c0_i32_290
  let v363 : BitVec 1 := Scalar.andi v360 v362
  let v349 : BitVec 32 := Scalar.divsi v343 c50_i32_285
  let c1_i32_291 : BitVec 32 := 1#32
  let v364 : BitVec 32 := Scalar.subi v349 c1_i32_291
  let v365 : BitVec 32 := Scalar.select v363 v364 v349
  let c50_i32_292 : BitVec 32 := 50#32
  let v366 : BitVec 32 := Scalar.muli v365 c50_i32_292
  let v367 : BitVec 32 := Scalar.subi v343 v366
  let c5_i32_293 : BitVec 32 := 5#32
  let v368 : BitVec 32 := Scalar.muli v367 c5_i32_293
  let c0_i32_295 : BitVec 32 := 0#32
  let c1_i32_297 : BitVec 32 := 1#32
  let arg20 : BitVec 32 := Scf.iv c0_i32_295 c1_i32_297 k2_t10
  let v464 : BitVec 32 := Scalar.addi v368 arg20
  let v465 : Index := Scalar.indexCast v464
  let c16_354 : Index := 16#32
  ![v465.toNat, 16]
def k2_off145 (k2_t10 : Fin k2_t10_loop.trips) : Fin 3 → Nat :=
  let c8_i32_355 : BitVec 32 := 8#32
  let v469 : Index := Scalar.indexCast c8_i32_355
  let c4_i32_332 : BitVec 32 := 4#32
  let c0_i32_295 : BitVec 32 := 0#32
  let c1_i32_297 : BitVec 32 := 1#32
  let arg20 : BitVec 32 := Scf.iv c0_i32_295 c1_i32_297 k2_t10
  let v414 : BitVec 32 := Scalar.muli c4_i32_332 arg20
  let v470 : Index := Scalar.indexCast v414
  let c32 : Index := 32#32
  ![8, v470.toNat, 32]
def k2_off146 (k2_t10 : Fin k2_t10_loop.trips) (c1_i32_356 : BitVec 32) : Fin 3 → Nat :=
  let c8_i32_357 : BitVec 32 := 8#32
  let v474 : Index := Scalar.indexCast c8_i32_357
  let c4_i32_332 : BitVec 32 := 4#32
  let c0_i32_295 : BitVec 32 := 0#32
  let c1_i32_297 : BitVec 32 := 1#32
  let arg20 : BitVec 32 := Scf.iv c0_i32_295 c1_i32_297 k2_t10
  let v414 : BitVec 32 := Scalar.muli c4_i32_332 arg20
  let v473 : BitVec 32 := Scalar.addi v414 c1_i32_356
  let v475 : Index := Scalar.indexCast v473
  let c32_358 : Index := 32#32
  ![8, v475.toNat, 32]
def k2_off147 (k2_t1 : Fin k2_t1_loop.trips) (k2_t10 : Fin k2_t10_loop.trips) : Fin 2 → Nat :=
  let c0_i32_62 : BitVec 32 := 0#32
  let c1_i32_63 : BitVec 32 := 1#32
  let arg18 : BitVec 32 := Scf.iv c0_i32_62 c1_i32_63 k2_t1
  let c10_i32_277 : BitVec 32 := 10#32
  let v342 : BitVec 32 := Scalar.muli arg18 c10_i32_277
  let c8_i32_278 : BitVec 32 := 8#32
  let v343 : BitVec 32 := Scalar.addi v342 c8_i32_278
  let c0_i32_286 : BitVec 32 := 0#32
  let v350 : BitVec 1 := Scalar.cmpi .sgt v343 c0_i32_286
  let v351 : BitVec 32 := Scalar.extui v350
  let c0_i32_287 : BitVec 32 := 0#32
  let v352 : BitVec 1 := Scalar.cmpi .slt v343 c0_i32_287
  let v353 : BitVec 32 := Scalar.extui v352
  let v354 : BitVec 32 := Scalar.subi v351 v353
  let c50_i32_285 : BitVec 32 := 50#32
  let c0_i32_288 : BitVec 32 := 0#32
  let v355 : BitVec 1 := Scalar.cmpi .sgt c50_i32_285 c0_i32_288
  let v356 : BitVec 32 := Scalar.extui v355
  let c0_i32_289 : BitVec 32 := 0#32
  let v357 : BitVec 1 := Scalar.cmpi .slt c50_i32_285 c0_i32_289
  let v358 : BitVec 32 := Scalar.extui v357
  let v359 : BitVec 32 := Scalar.subi v356 v358
  let v360 : BitVec 1 := Scalar.cmpi .ne v354 v359
  let v361 : BitVec 32 := Scalar.remsi v343 c50_i32_285
  let c0_i32_290 : BitVec 32 := 0#32
  let v362 : BitVec 1 := Scalar.cmpi .ne v361 c0_i32_290
  let v363 : BitVec 1 := Scalar.andi v360 v362
  let v349 : BitVec 32 := Scalar.divsi v343 c50_i32_285
  let c1_i32_291 : BitVec 32 := 1#32
  let v364 : BitVec 32 := Scalar.subi v349 c1_i32_291
  let v365 : BitVec 32 := Scalar.select v363 v364 v349
  let c50_i32_292 : BitVec 32 := 50#32
  let v366 : BitVec 32 := Scalar.muli v365 c50_i32_292
  let v367 : BitVec 32 := Scalar.subi v343 v366
  let c5_i32_293 : BitVec 32 := 5#32
  let v368 : BitVec 32 := Scalar.muli v367 c5_i32_293
  let c0_i32_295 : BitVec 32 := 0#32
  let c1_i32_297 : BitVec 32 := 1#32
  let arg20 : BitVec 32 := Scf.iv c0_i32_295 c1_i32_297 k2_t10
  let v491 : BitVec 32 := Scalar.addi v368 arg20
  let v492 : Index := Scalar.indexCast v491
  let c32_365 : Index := 32#32
  ![v492.toNat, 32]
def k2_off148 (k2_t10 : Fin k2_t10_loop.trips) : Fin 3 → Nat :=
  let c8_i32_366 : BitVec 32 := 8#32
  let v496 : Index := Scalar.indexCast c8_i32_366
  let c4_i32_332 : BitVec 32 := 4#32
  let c0_i32_295 : BitVec 32 := 0#32
  let c1_i32_297 : BitVec 32 := 1#32
  let arg20 : BitVec 32 := Scf.iv c0_i32_295 c1_i32_297 k2_t10
  let v414 : BitVec 32 := Scalar.muli c4_i32_332 arg20
  let v497 : Index := Scalar.indexCast v414
  let c48 : Index := 48#32
  ![8, v497.toNat, 48]
def k2_off149 (k2_t10 : Fin k2_t10_loop.trips) (c1_i32_367 : BitVec 32) : Fin 3 → Nat :=
  let c8_i32_368 : BitVec 32 := 8#32
  let v501 : Index := Scalar.indexCast c8_i32_368
  let c4_i32_332 : BitVec 32 := 4#32
  let c0_i32_295 : BitVec 32 := 0#32
  let c1_i32_297 : BitVec 32 := 1#32
  let arg20 : BitVec 32 := Scf.iv c0_i32_295 c1_i32_297 k2_t10
  let v414 : BitVec 32 := Scalar.muli c4_i32_332 arg20
  let v500 : BitVec 32 := Scalar.addi v414 c1_i32_367
  let v502 : Index := Scalar.indexCast v500
  let c48_369 : Index := 48#32
  ![8, v502.toNat, 48]
def k2_off150 (k2_t1 : Fin k2_t1_loop.trips) (k2_t10 : Fin k2_t10_loop.trips) : Fin 2 → Nat :=
  let c0_i32_62 : BitVec 32 := 0#32
  let c1_i32_63 : BitVec 32 := 1#32
  let arg18 : BitVec 32 := Scf.iv c0_i32_62 c1_i32_63 k2_t1
  let c10_i32_277 : BitVec 32 := 10#32
  let v342 : BitVec 32 := Scalar.muli arg18 c10_i32_277
  let c8_i32_278 : BitVec 32 := 8#32
  let v343 : BitVec 32 := Scalar.addi v342 c8_i32_278
  let c0_i32_286 : BitVec 32 := 0#32
  let v350 : BitVec 1 := Scalar.cmpi .sgt v343 c0_i32_286
  let v351 : BitVec 32 := Scalar.extui v350
  let c0_i32_287 : BitVec 32 := 0#32
  let v352 : BitVec 1 := Scalar.cmpi .slt v343 c0_i32_287
  let v353 : BitVec 32 := Scalar.extui v352
  let v354 : BitVec 32 := Scalar.subi v351 v353
  let c50_i32_285 : BitVec 32 := 50#32
  let c0_i32_288 : BitVec 32 := 0#32
  let v355 : BitVec 1 := Scalar.cmpi .sgt c50_i32_285 c0_i32_288
  let v356 : BitVec 32 := Scalar.extui v355
  let c0_i32_289 : BitVec 32 := 0#32
  let v357 : BitVec 1 := Scalar.cmpi .slt c50_i32_285 c0_i32_289
  let v358 : BitVec 32 := Scalar.extui v357
  let v359 : BitVec 32 := Scalar.subi v356 v358
  let v360 : BitVec 1 := Scalar.cmpi .ne v354 v359
  let v361 : BitVec 32 := Scalar.remsi v343 c50_i32_285
  let c0_i32_290 : BitVec 32 := 0#32
  let v362 : BitVec 1 := Scalar.cmpi .ne v361 c0_i32_290
  let v363 : BitVec 1 := Scalar.andi v360 v362
  let v349 : BitVec 32 := Scalar.divsi v343 c50_i32_285
  let c1_i32_291 : BitVec 32 := 1#32
  let v364 : BitVec 32 := Scalar.subi v349 c1_i32_291
  let v365 : BitVec 32 := Scalar.select v363 v364 v349
  let c50_i32_292 : BitVec 32 := 50#32
  let v366 : BitVec 32 := Scalar.muli v365 c50_i32_292
  let v367 : BitVec 32 := Scalar.subi v343 v366
  let c5_i32_293 : BitVec 32 := 5#32
  let v368 : BitVec 32 := Scalar.muli v367 c5_i32_293
  let c0_i32_295 : BitVec 32 := 0#32
  let c1_i32_297 : BitVec 32 := 1#32
  let arg20 : BitVec 32 := Scf.iv c0_i32_295 c1_i32_297 k2_t10
  let v518 : BitVec 32 := Scalar.addi v368 arg20
  let v519 : Index := Scalar.indexCast v518
  let c48_376 : Index := 48#32
  ![v519.toNat, 48]
def k2_off151 (k2_t10 : Fin k2_t10_loop.trips) : Fin 3 → Nat :=
  let c8_i32_377 : BitVec 32 := 8#32
  let v523 : Index := Scalar.indexCast c8_i32_377
  let c4_i32_332 : BitVec 32 := 4#32
  let c0_i32_295 : BitVec 32 := 0#32
  let c1_i32_297 : BitVec 32 := 1#32
  let arg20 : BitVec 32 := Scf.iv c0_i32_295 c1_i32_297 k2_t10
  let v414 : BitVec 32 := Scalar.muli c4_i32_332 arg20
  let v524 : Index := Scalar.indexCast v414
  let c64 : Index := 64#32
  ![8, v524.toNat, 64]
def k2_off152 (k2_t10 : Fin k2_t10_loop.trips) (c1_i32_378 : BitVec 32) : Fin 3 → Nat :=
  let c8_i32_379 : BitVec 32 := 8#32
  let v528 : Index := Scalar.indexCast c8_i32_379
  let c4_i32_332 : BitVec 32 := 4#32
  let c0_i32_295 : BitVec 32 := 0#32
  let c1_i32_297 : BitVec 32 := 1#32
  let arg20 : BitVec 32 := Scf.iv c0_i32_295 c1_i32_297 k2_t10
  let v414 : BitVec 32 := Scalar.muli c4_i32_332 arg20
  let v527 : BitVec 32 := Scalar.addi v414 c1_i32_378
  let v529 : Index := Scalar.indexCast v527
  let c64_380 : Index := 64#32
  ![8, v529.toNat, 64]
def k2_off153 (k2_t1 : Fin k2_t1_loop.trips) (k2_t10 : Fin k2_t10_loop.trips) : Fin 2 → Nat :=
  let c0_i32_62 : BitVec 32 := 0#32
  let c1_i32_63 : BitVec 32 := 1#32
  let arg18 : BitVec 32 := Scf.iv c0_i32_62 c1_i32_63 k2_t1
  let c10_i32_277 : BitVec 32 := 10#32
  let v342 : BitVec 32 := Scalar.muli arg18 c10_i32_277
  let c8_i32_278 : BitVec 32 := 8#32
  let v343 : BitVec 32 := Scalar.addi v342 c8_i32_278
  let c0_i32_286 : BitVec 32 := 0#32
  let v350 : BitVec 1 := Scalar.cmpi .sgt v343 c0_i32_286
  let v351 : BitVec 32 := Scalar.extui v350
  let c0_i32_287 : BitVec 32 := 0#32
  let v352 : BitVec 1 := Scalar.cmpi .slt v343 c0_i32_287
  let v353 : BitVec 32 := Scalar.extui v352
  let v354 : BitVec 32 := Scalar.subi v351 v353
  let c50_i32_285 : BitVec 32 := 50#32
  let c0_i32_288 : BitVec 32 := 0#32
  let v355 : BitVec 1 := Scalar.cmpi .sgt c50_i32_285 c0_i32_288
  let v356 : BitVec 32 := Scalar.extui v355
  let c0_i32_289 : BitVec 32 := 0#32
  let v357 : BitVec 1 := Scalar.cmpi .slt c50_i32_285 c0_i32_289
  let v358 : BitVec 32 := Scalar.extui v357
  let v359 : BitVec 32 := Scalar.subi v356 v358
  let v360 : BitVec 1 := Scalar.cmpi .ne v354 v359
  let v361 : BitVec 32 := Scalar.remsi v343 c50_i32_285
  let c0_i32_290 : BitVec 32 := 0#32
  let v362 : BitVec 1 := Scalar.cmpi .ne v361 c0_i32_290
  let v363 : BitVec 1 := Scalar.andi v360 v362
  let v349 : BitVec 32 := Scalar.divsi v343 c50_i32_285
  let c1_i32_291 : BitVec 32 := 1#32
  let v364 : BitVec 32 := Scalar.subi v349 c1_i32_291
  let v365 : BitVec 32 := Scalar.select v363 v364 v349
  let c50_i32_292 : BitVec 32 := 50#32
  let v366 : BitVec 32 := Scalar.muli v365 c50_i32_292
  let v367 : BitVec 32 := Scalar.subi v343 v366
  let c5_i32_293 : BitVec 32 := 5#32
  let v368 : BitVec 32 := Scalar.muli v367 c5_i32_293
  let c0_i32_295 : BitVec 32 := 0#32
  let c1_i32_297 : BitVec 32 := 1#32
  let arg20 : BitVec 32 := Scf.iv c0_i32_295 c1_i32_297 k2_t10
  let v545 : BitVec 32 := Scalar.addi v368 arg20
  let v546 : Index := Scalar.indexCast v545
  let c64_387 : Index := 64#32
  ![v546.toNat, 64]
def k2_cond17 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_277 : BitVec 32 := 10#32
  let v342 : BitVec 32 := Scalar.muli arg18 c10_i32_277
  let c8_i32_278 : BitVec 32 := 8#32
  let v343 : BitVec 32 := Scalar.addi v342 c8_i32_278
  let c0_i32_286 : BitVec 32 := 0#32
  let v350 : BitVec 1 := Scalar.cmpi .sgt v343 c0_i32_286
  let v351 : BitVec 32 := Scalar.extui v350
  let c0_i32_287 : BitVec 32 := 0#32
  let v352 : BitVec 1 := Scalar.cmpi .slt v343 c0_i32_287
  let v353 : BitVec 32 := Scalar.extui v352
  let v354 : BitVec 32 := Scalar.subi v351 v353
  let c50_i32_285 : BitVec 32 := 50#32
  let c0_i32_288 : BitVec 32 := 0#32
  let v355 : BitVec 1 := Scalar.cmpi .sgt c50_i32_285 c0_i32_288
  let v356 : BitVec 32 := Scalar.extui v355
  let c0_i32_289 : BitVec 32 := 0#32
  let v357 : BitVec 1 := Scalar.cmpi .slt c50_i32_285 c0_i32_289
  let v358 : BitVec 32 := Scalar.extui v357
  let v359 : BitVec 32 := Scalar.subi v356 v358
  let v360 : BitVec 1 := Scalar.cmpi .ne v354 v359
  let v361 : BitVec 32 := Scalar.remsi v343 c50_i32_285
  let c0_i32_290 : BitVec 32 := 0#32
  let v362 : BitVec 1 := Scalar.cmpi .ne v361 c0_i32_290
  let v363 : BitVec 1 := Scalar.andi v360 v362
  let v349 : BitVec 32 := Scalar.divsi v343 c50_i32_285
  let c1_i32_291 : BitVec 32 := 1#32
  let v364 : BitVec 32 := Scalar.subi v349 c1_i32_291
  let v365 : BitVec 32 := Scalar.select v363 v364 v349
  let c50_i32_292 : BitVec 32 := 50#32
  let v366 : BitVec 32 := Scalar.muli v365 c50_i32_292
  let v367 : BitVec 32 := Scalar.subi v343 v366
  let c49_i32_299 : BitVec 32 := 49#32
  let v371 : BitVec 1 := Scalar.cmpi .eq v367 c49_i32_299
  let v372 : BitVec 32 := Scalar.extui v371
  let c0_i32_300 : BitVec 32 := 0#32
  let v373 : BitVec 1 := Scalar.cmpi .ne v372 c0_i32_300
  v373

def k2_off154 (i : grid2.Coords) (k2_t1 : Fin k2_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62 : BitVec 32 := 0#32
  let c1_i32_63 : BitVec 32 := 1#32
  let arg18 : BitVec 32 := Scf.iv c0_i32_62 c1_i32_63 k2_t1
  let c10_i32_277 : BitVec 32 := 10#32
  let v342 : BitVec 32 := Scalar.muli arg18 c10_i32_277
  let c8_i32_278 : BitVec 32 := 8#32
  let v343 : BitVec 32 := Scalar.addi v342 c8_i32_278
  let c0_i32_286 : BitVec 32 := 0#32
  let v350 : BitVec 1 := Scalar.cmpi .sgt v343 c0_i32_286
  let v351 : BitVec 32 := Scalar.extui v350
  let c0_i32_287 : BitVec 32 := 0#32
  let v352 : BitVec 1 := Scalar.cmpi .slt v343 c0_i32_287
  let v353 : BitVec 32 := Scalar.extui v352
  let v354 : BitVec 32 := Scalar.subi v351 v353
  let c50_i32_285 : BitVec 32 := 50#32
  let c0_i32_288 : BitVec 32 := 0#32
  let v355 : BitVec 1 := Scalar.cmpi .sgt c50_i32_285 c0_i32_288
  let v356 : BitVec 32 := Scalar.extui v355
  let c0_i32_289 : BitVec 32 := 0#32
  let v357 : BitVec 1 := Scalar.cmpi .slt c50_i32_285 c0_i32_289
  let v358 : BitVec 32 := Scalar.extui v357
  let v359 : BitVec 32 := Scalar.subi v356 v358
  let v360 : BitVec 1 := Scalar.cmpi .ne v354 v359
  let v361 : BitVec 32 := Scalar.remsi v343 c50_i32_285
  let c0_i32_290 : BitVec 32 := 0#32
  let v362 : BitVec 1 := Scalar.cmpi .ne v361 c0_i32_290
  let v363 : BitVec 1 := Scalar.andi v360 v362
  let v349 : BitVec 32 := Scalar.divsi v343 c50_i32_285
  let c1_i32_291 : BitVec 32 := 1#32
  let v364 : BitVec 32 := Scalar.subi v349 c1_i32_291
  let v365 : BitVec 32 := Scalar.select v363 v364 v349
  let c0_i32_332_r9 : BitVec 32 := 0#32
  let c0_i32_333_r9 : BitVec 32 := 0#32
  ![v1.toNat, v365.toNat, 0, 0]
def k2_cond18 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_277 : BitVec 32 := 10#32
  let v342 : BitVec 32 := Scalar.muli arg18 c10_i32_277
  let c8_i32_278 : BitVec 32 := 8#32
  let v343 : BitVec 32 := Scalar.addi v342 c8_i32_278
  let c10_i32_301 : BitVec 32 := 10#32
  let v374 : BitVec 32 := Scalar.addi v343 c10_i32_301
  let c250_i32_302 : BitVec 32 := 250#32
  let v375 : BitVec 1 := Scalar.cmpi .slt v374 c250_i32_302
  let v376 : BitVec 32 := Scalar.extui v375
  let c0_i32_303 : BitVec 32 := 0#32
  let v377 : BitVec 1 := Scalar.cmpi .ne v376 c0_i32_303
  v377

def k2_off155 (k2_t1 : Fin k2_t1_loop.trips) : Fin 2 → Nat :=
  let c0_i32_62 : BitVec 32 := 0#32
  let c1_i32_63 : BitVec 32 := 1#32
  let arg18 : BitVec 32 := Scf.iv c0_i32_62 c1_i32_63 k2_t1
  let c10_i32_277 : BitVec 32 := 10#32
  let v342 : BitVec 32 := Scalar.muli arg18 c10_i32_277
  let c8_i32_278 : BitVec 32 := 8#32
  let v343 : BitVec 32 := Scalar.addi v342 c8_i32_278
  let c10_i32_332 : BitVec 32 := 10#32
  let v414 : BitVec 32 := Scalar.addi v343 c10_i32_332
  let c0_i32_336 : BitVec 32 := 0#32
  ![v414.toNat, 0]
@[reducible] def k2_t11_loop : Scf.Loop 32 :=
  let c0_i32_322 : BitVec 32 := 0#32
  let c5_i32_323 : BitVec 32 := 5#32
  let v405 : BitVec 32 := Scalar.addi c0_i32_322 c5_i32_323
  let c1_i32_324 : BitVec 32 := 1#32
  ⟨c0_i32_322, v405, c1_i32_324⟩
def k2_off156 (k2_t11 : Fin k2_t11_loop.trips) : Fin 3 → Nat :=
  let c9_i32_333 : BitVec 32 := 9#32
  let v415 : Index := Scalar.indexCast c9_i32_333
  let c4_i32_332 : BitVec 32 := 4#32
  let c0_i32_322 : BitVec 32 := 0#32
  let c1_i32_324 : BitVec 32 := 1#32
  let arg20 : BitVec 32 := Scf.iv c0_i32_322 c1_i32_324 k2_t11
  let v414 : BitVec 32 := Scalar.muli c4_i32_332 arg20
  let v416 : Index := Scalar.indexCast v414
  let c0 : Index := 0#32
  ![9, v416.toNat, 0]
def k2_off157 (k2_t11 : Fin k2_t11_loop.trips) (c1_i32_334 : BitVec 32) : Fin 3 → Nat :=
  let c9_i32_335 : BitVec 32 := 9#32
  let v420 : Index := Scalar.indexCast c9_i32_335
  let c4_i32_332 : BitVec 32 := 4#32
  let c0_i32_322 : BitVec 32 := 0#32
  let c1_i32_324 : BitVec 32 := 1#32
  let arg20 : BitVec 32 := Scf.iv c0_i32_322 c1_i32_324 k2_t11
  let v414 : BitVec 32 := Scalar.muli c4_i32_332 arg20
  let v419 : BitVec 32 := Scalar.addi v414 c1_i32_334
  let v421 : Index := Scalar.indexCast v419
  let c0_336 : Index := 0#32
  ![9, v421.toNat, 0]
def k2_off158 (k2_t1 : Fin k2_t1_loop.trips) (k2_t11 : Fin k2_t11_loop.trips) : Fin 2 → Nat :=
  let c0_i32_62 : BitVec 32 := 0#32
  let c1_i32_63 : BitVec 32 := 1#32
  let arg18 : BitVec 32 := Scf.iv c0_i32_62 c1_i32_63 k2_t1
  let c10_i32_304 : BitVec 32 := 10#32
  let v378 : BitVec 32 := Scalar.muli arg18 c10_i32_304
  let c9_i32_305 : BitVec 32 := 9#32
  let v379 : BitVec 32 := Scalar.addi v378 c9_i32_305
  let c0_i32_313 : BitVec 32 := 0#32
  let v386 : BitVec 1 := Scalar.cmpi .sgt v379 c0_i32_313
  let v387 : BitVec 32 := Scalar.extui v386
  let c0_i32_314 : BitVec 32 := 0#32
  let v388 : BitVec 1 := Scalar.cmpi .slt v379 c0_i32_314
  let v389 : BitVec 32 := Scalar.extui v388
  let v390 : BitVec 32 := Scalar.subi v387 v389
  let c50_i32_312 : BitVec 32 := 50#32
  let c0_i32_315 : BitVec 32 := 0#32
  let v391 : BitVec 1 := Scalar.cmpi .sgt c50_i32_312 c0_i32_315
  let v392 : BitVec 32 := Scalar.extui v391
  let c0_i32_316 : BitVec 32 := 0#32
  let v393 : BitVec 1 := Scalar.cmpi .slt c50_i32_312 c0_i32_316
  let v394 : BitVec 32 := Scalar.extui v393
  let v395 : BitVec 32 := Scalar.subi v392 v394
  let v396 : BitVec 1 := Scalar.cmpi .ne v390 v395
  let v397 : BitVec 32 := Scalar.remsi v379 c50_i32_312
  let c0_i32_317 : BitVec 32 := 0#32
  let v398 : BitVec 1 := Scalar.cmpi .ne v397 c0_i32_317
  let v399 : BitVec 1 := Scalar.andi v396 v398
  let v385 : BitVec 32 := Scalar.divsi v379 c50_i32_312
  let c1_i32_318 : BitVec 32 := 1#32
  let v400 : BitVec 32 := Scalar.subi v385 c1_i32_318
  let v401 : BitVec 32 := Scalar.select v399 v400 v385
  let c50_i32_319 : BitVec 32 := 50#32
  let v402 : BitVec 32 := Scalar.muli v401 c50_i32_319
  let v403 : BitVec 32 := Scalar.subi v379 v402
  let c5_i32_320 : BitVec 32 := 5#32
  let v404 : BitVec 32 := Scalar.muli v403 c5_i32_320
  let c0_i32_322 : BitVec 32 := 0#32
  let c1_i32_324 : BitVec 32 := 1#32
  let arg20 : BitVec 32 := Scf.iv c0_i32_322 c1_i32_324 k2_t11
  let v437 : BitVec 32 := Scalar.addi v404 arg20
  let v438 : Index := Scalar.indexCast v437
  let c0_343 : Index := 0#32
  ![v438.toNat, 0]
def k2_off159 (k2_t11 : Fin k2_t11_loop.trips) : Fin 3 → Nat :=
  let c9_i32_344 : BitVec 32 := 9#32
  let v442 : Index := Scalar.indexCast c9_i32_344
  let c4_i32_332 : BitVec 32 := 4#32
  let c0_i32_322 : BitVec 32 := 0#32
  let c1_i32_324 : BitVec 32 := 1#32
  let arg20 : BitVec 32 := Scf.iv c0_i32_322 c1_i32_324 k2_t11
  let v414 : BitVec 32 := Scalar.muli c4_i32_332 arg20
  let v443 : Index := Scalar.indexCast v414
  let c16 : Index := 16#32
  ![9, v443.toNat, 16]
def k2_off160 (k2_t11 : Fin k2_t11_loop.trips) (c1_i32_345 : BitVec 32) : Fin 3 → Nat :=
  let c9_i32_346 : BitVec 32 := 9#32
  let v447 : Index := Scalar.indexCast c9_i32_346
  let c4_i32_332 : BitVec 32 := 4#32
  let c0_i32_322 : BitVec 32 := 0#32
  let c1_i32_324 : BitVec 32 := 1#32
  let arg20 : BitVec 32 := Scf.iv c0_i32_322 c1_i32_324 k2_t11
  let v414 : BitVec 32 := Scalar.muli c4_i32_332 arg20
  let v446 : BitVec 32 := Scalar.addi v414 c1_i32_345
  let v448 : Index := Scalar.indexCast v446
  let c16_347 : Index := 16#32
  ![9, v448.toNat, 16]
def k2_off161 (k2_t1 : Fin k2_t1_loop.trips) (k2_t11 : Fin k2_t11_loop.trips) : Fin 2 → Nat :=
  let c0_i32_62 : BitVec 32 := 0#32
  let c1_i32_63 : BitVec 32 := 1#32
  let arg18 : BitVec 32 := Scf.iv c0_i32_62 c1_i32_63 k2_t1
  let c10_i32_304 : BitVec 32 := 10#32
  let v378 : BitVec 32 := Scalar.muli arg18 c10_i32_304
  let c9_i32_305 : BitVec 32 := 9#32
  let v379 : BitVec 32 := Scalar.addi v378 c9_i32_305
  let c0_i32_313 : BitVec 32 := 0#32
  let v386 : BitVec 1 := Scalar.cmpi .sgt v379 c0_i32_313
  let v387 : BitVec 32 := Scalar.extui v386
  let c0_i32_314 : BitVec 32 := 0#32
  let v388 : BitVec 1 := Scalar.cmpi .slt v379 c0_i32_314
  let v389 : BitVec 32 := Scalar.extui v388
  let v390 : BitVec 32 := Scalar.subi v387 v389
  let c50_i32_312 : BitVec 32 := 50#32
  let c0_i32_315 : BitVec 32 := 0#32
  let v391 : BitVec 1 := Scalar.cmpi .sgt c50_i32_312 c0_i32_315
  let v392 : BitVec 32 := Scalar.extui v391
  let c0_i32_316 : BitVec 32 := 0#32
  let v393 : BitVec 1 := Scalar.cmpi .slt c50_i32_312 c0_i32_316
  let v394 : BitVec 32 := Scalar.extui v393
  let v395 : BitVec 32 := Scalar.subi v392 v394
  let v396 : BitVec 1 := Scalar.cmpi .ne v390 v395
  let v397 : BitVec 32 := Scalar.remsi v379 c50_i32_312
  let c0_i32_317 : BitVec 32 := 0#32
  let v398 : BitVec 1 := Scalar.cmpi .ne v397 c0_i32_317
  let v399 : BitVec 1 := Scalar.andi v396 v398
  let v385 : BitVec 32 := Scalar.divsi v379 c50_i32_312
  let c1_i32_318 : BitVec 32 := 1#32
  let v400 : BitVec 32 := Scalar.subi v385 c1_i32_318
  let v401 : BitVec 32 := Scalar.select v399 v400 v385
  let c50_i32_319 : BitVec 32 := 50#32
  let v402 : BitVec 32 := Scalar.muli v401 c50_i32_319
  let v403 : BitVec 32 := Scalar.subi v379 v402
  let c5_i32_320 : BitVec 32 := 5#32
  let v404 : BitVec 32 := Scalar.muli v403 c5_i32_320
  let c0_i32_322 : BitVec 32 := 0#32
  let c1_i32_324 : BitVec 32 := 1#32
  let arg20 : BitVec 32 := Scf.iv c0_i32_322 c1_i32_324 k2_t11
  let v464 : BitVec 32 := Scalar.addi v404 arg20
  let v465 : Index := Scalar.indexCast v464
  let c16_354 : Index := 16#32
  ![v465.toNat, 16]
def k2_off162 (k2_t11 : Fin k2_t11_loop.trips) : Fin 3 → Nat :=
  let c9_i32_355 : BitVec 32 := 9#32
  let v469 : Index := Scalar.indexCast c9_i32_355
  let c4_i32_332 : BitVec 32 := 4#32
  let c0_i32_322 : BitVec 32 := 0#32
  let c1_i32_324 : BitVec 32 := 1#32
  let arg20 : BitVec 32 := Scf.iv c0_i32_322 c1_i32_324 k2_t11
  let v414 : BitVec 32 := Scalar.muli c4_i32_332 arg20
  let v470 : Index := Scalar.indexCast v414
  let c32 : Index := 32#32
  ![9, v470.toNat, 32]
def k2_off163 (k2_t11 : Fin k2_t11_loop.trips) (c1_i32_356 : BitVec 32) : Fin 3 → Nat :=
  let c9_i32_357 : BitVec 32 := 9#32
  let v474 : Index := Scalar.indexCast c9_i32_357
  let c4_i32_332 : BitVec 32 := 4#32
  let c0_i32_322 : BitVec 32 := 0#32
  let c1_i32_324 : BitVec 32 := 1#32
  let arg20 : BitVec 32 := Scf.iv c0_i32_322 c1_i32_324 k2_t11
  let v414 : BitVec 32 := Scalar.muli c4_i32_332 arg20
  let v473 : BitVec 32 := Scalar.addi v414 c1_i32_356
  let v475 : Index := Scalar.indexCast v473
  let c32_358 : Index := 32#32
  ![9, v475.toNat, 32]
def k2_off164 (k2_t1 : Fin k2_t1_loop.trips) (k2_t11 : Fin k2_t11_loop.trips) : Fin 2 → Nat :=
  let c0_i32_62 : BitVec 32 := 0#32
  let c1_i32_63 : BitVec 32 := 1#32
  let arg18 : BitVec 32 := Scf.iv c0_i32_62 c1_i32_63 k2_t1
  let c10_i32_304 : BitVec 32 := 10#32
  let v378 : BitVec 32 := Scalar.muli arg18 c10_i32_304
  let c9_i32_305 : BitVec 32 := 9#32
  let v379 : BitVec 32 := Scalar.addi v378 c9_i32_305
  let c0_i32_313 : BitVec 32 := 0#32
  let v386 : BitVec 1 := Scalar.cmpi .sgt v379 c0_i32_313
  let v387 : BitVec 32 := Scalar.extui v386
  let c0_i32_314 : BitVec 32 := 0#32
  let v388 : BitVec 1 := Scalar.cmpi .slt v379 c0_i32_314
  let v389 : BitVec 32 := Scalar.extui v388
  let v390 : BitVec 32 := Scalar.subi v387 v389
  let c50_i32_312 : BitVec 32 := 50#32
  let c0_i32_315 : BitVec 32 := 0#32
  let v391 : BitVec 1 := Scalar.cmpi .sgt c50_i32_312 c0_i32_315
  let v392 : BitVec 32 := Scalar.extui v391
  let c0_i32_316 : BitVec 32 := 0#32
  let v393 : BitVec 1 := Scalar.cmpi .slt c50_i32_312 c0_i32_316
  let v394 : BitVec 32 := Scalar.extui v393
  let v395 : BitVec 32 := Scalar.subi v392 v394
  let v396 : BitVec 1 := Scalar.cmpi .ne v390 v395
  let v397 : BitVec 32 := Scalar.remsi v379 c50_i32_312
  let c0_i32_317 : BitVec 32 := 0#32
  let v398 : BitVec 1 := Scalar.cmpi .ne v397 c0_i32_317
  let v399 : BitVec 1 := Scalar.andi v396 v398
  let v385 : BitVec 32 := Scalar.divsi v379 c50_i32_312
  let c1_i32_318 : BitVec 32 := 1#32
  let v400 : BitVec 32 := Scalar.subi v385 c1_i32_318
  let v401 : BitVec 32 := Scalar.select v399 v400 v385
  let c50_i32_319 : BitVec 32 := 50#32
  let v402 : BitVec 32 := Scalar.muli v401 c50_i32_319
  let v403 : BitVec 32 := Scalar.subi v379 v402
  let c5_i32_320 : BitVec 32 := 5#32
  let v404 : BitVec 32 := Scalar.muli v403 c5_i32_320
  let c0_i32_322 : BitVec 32 := 0#32
  let c1_i32_324 : BitVec 32 := 1#32
  let arg20 : BitVec 32 := Scf.iv c0_i32_322 c1_i32_324 k2_t11
  let v491 : BitVec 32 := Scalar.addi v404 arg20
  let v492 : Index := Scalar.indexCast v491
  let c32_365 : Index := 32#32
  ![v492.toNat, 32]
def k2_off165 (k2_t11 : Fin k2_t11_loop.trips) : Fin 3 → Nat :=
  let c9_i32_366 : BitVec 32 := 9#32
  let v496 : Index := Scalar.indexCast c9_i32_366
  let c4_i32_332 : BitVec 32 := 4#32
  let c0_i32_322 : BitVec 32 := 0#32
  let c1_i32_324 : BitVec 32 := 1#32
  let arg20 : BitVec 32 := Scf.iv c0_i32_322 c1_i32_324 k2_t11
  let v414 : BitVec 32 := Scalar.muli c4_i32_332 arg20
  let v497 : Index := Scalar.indexCast v414
  let c48 : Index := 48#32
  ![9, v497.toNat, 48]
def k2_off166 (k2_t11 : Fin k2_t11_loop.trips) (c1_i32_367 : BitVec 32) : Fin 3 → Nat :=
  let c9_i32_368 : BitVec 32 := 9#32
  let v501 : Index := Scalar.indexCast c9_i32_368
  let c4_i32_332 : BitVec 32 := 4#32
  let c0_i32_322 : BitVec 32 := 0#32
  let c1_i32_324 : BitVec 32 := 1#32
  let arg20 : BitVec 32 := Scf.iv c0_i32_322 c1_i32_324 k2_t11
  let v414 : BitVec 32 := Scalar.muli c4_i32_332 arg20
  let v500 : BitVec 32 := Scalar.addi v414 c1_i32_367
  let v502 : Index := Scalar.indexCast v500
  let c48_369 : Index := 48#32
  ![9, v502.toNat, 48]
def k2_off167 (k2_t1 : Fin k2_t1_loop.trips) (k2_t11 : Fin k2_t11_loop.trips) : Fin 2 → Nat :=
  let c0_i32_62 : BitVec 32 := 0#32
  let c1_i32_63 : BitVec 32 := 1#32
  let arg18 : BitVec 32 := Scf.iv c0_i32_62 c1_i32_63 k2_t1
  let c10_i32_304 : BitVec 32 := 10#32
  let v378 : BitVec 32 := Scalar.muli arg18 c10_i32_304
  let c9_i32_305 : BitVec 32 := 9#32
  let v379 : BitVec 32 := Scalar.addi v378 c9_i32_305
  let c0_i32_313 : BitVec 32 := 0#32
  let v386 : BitVec 1 := Scalar.cmpi .sgt v379 c0_i32_313
  let v387 : BitVec 32 := Scalar.extui v386
  let c0_i32_314 : BitVec 32 := 0#32
  let v388 : BitVec 1 := Scalar.cmpi .slt v379 c0_i32_314
  let v389 : BitVec 32 := Scalar.extui v388
  let v390 : BitVec 32 := Scalar.subi v387 v389
  let c50_i32_312 : BitVec 32 := 50#32
  let c0_i32_315 : BitVec 32 := 0#32
  let v391 : BitVec 1 := Scalar.cmpi .sgt c50_i32_312 c0_i32_315
  let v392 : BitVec 32 := Scalar.extui v391
  let c0_i32_316 : BitVec 32 := 0#32
  let v393 : BitVec 1 := Scalar.cmpi .slt c50_i32_312 c0_i32_316
  let v394 : BitVec 32 := Scalar.extui v393
  let v395 : BitVec 32 := Scalar.subi v392 v394
  let v396 : BitVec 1 := Scalar.cmpi .ne v390 v395
  let v397 : BitVec 32 := Scalar.remsi v379 c50_i32_312
  let c0_i32_317 : BitVec 32 := 0#32
  let v398 : BitVec 1 := Scalar.cmpi .ne v397 c0_i32_317
  let v399 : BitVec 1 := Scalar.andi v396 v398
  let v385 : BitVec 32 := Scalar.divsi v379 c50_i32_312
  let c1_i32_318 : BitVec 32 := 1#32
  let v400 : BitVec 32 := Scalar.subi v385 c1_i32_318
  let v401 : BitVec 32 := Scalar.select v399 v400 v385
  let c50_i32_319 : BitVec 32 := 50#32
  let v402 : BitVec 32 := Scalar.muli v401 c50_i32_319
  let v403 : BitVec 32 := Scalar.subi v379 v402
  let c5_i32_320 : BitVec 32 := 5#32
  let v404 : BitVec 32 := Scalar.muli v403 c5_i32_320
  let c0_i32_322 : BitVec 32 := 0#32
  let c1_i32_324 : BitVec 32 := 1#32
  let arg20 : BitVec 32 := Scf.iv c0_i32_322 c1_i32_324 k2_t11
  let v518 : BitVec 32 := Scalar.addi v404 arg20
  let v519 : Index := Scalar.indexCast v518
  let c48_376 : Index := 48#32
  ![v519.toNat, 48]
def k2_off168 (k2_t11 : Fin k2_t11_loop.trips) : Fin 3 → Nat :=
  let c9_i32_377 : BitVec 32 := 9#32
  let v523 : Index := Scalar.indexCast c9_i32_377
  let c4_i32_332 : BitVec 32 := 4#32
  let c0_i32_322 : BitVec 32 := 0#32
  let c1_i32_324 : BitVec 32 := 1#32
  let arg20 : BitVec 32 := Scf.iv c0_i32_322 c1_i32_324 k2_t11
  let v414 : BitVec 32 := Scalar.muli c4_i32_332 arg20
  let v524 : Index := Scalar.indexCast v414
  let c64 : Index := 64#32
  ![9, v524.toNat, 64]
def k2_off169 (k2_t11 : Fin k2_t11_loop.trips) (c1_i32_378 : BitVec 32) : Fin 3 → Nat :=
  let c9_i32_379 : BitVec 32 := 9#32
  let v528 : Index := Scalar.indexCast c9_i32_379
  let c4_i32_332 : BitVec 32 := 4#32
  let c0_i32_322 : BitVec 32 := 0#32
  let c1_i32_324 : BitVec 32 := 1#32
  let arg20 : BitVec 32 := Scf.iv c0_i32_322 c1_i32_324 k2_t11
  let v414 : BitVec 32 := Scalar.muli c4_i32_332 arg20
  let v527 : BitVec 32 := Scalar.addi v414 c1_i32_378
  let v529 : Index := Scalar.indexCast v527
  let c64_380 : Index := 64#32
  ![9, v529.toNat, 64]
def k2_off170 (k2_t1 : Fin k2_t1_loop.trips) (k2_t11 : Fin k2_t11_loop.trips) : Fin 2 → Nat :=
  let c0_i32_62 : BitVec 32 := 0#32
  let c1_i32_63 : BitVec 32 := 1#32
  let arg18 : BitVec 32 := Scf.iv c0_i32_62 c1_i32_63 k2_t1
  let c10_i32_304 : BitVec 32 := 10#32
  let v378 : BitVec 32 := Scalar.muli arg18 c10_i32_304
  let c9_i32_305 : BitVec 32 := 9#32
  let v379 : BitVec 32 := Scalar.addi v378 c9_i32_305
  let c0_i32_313 : BitVec 32 := 0#32
  let v386 : BitVec 1 := Scalar.cmpi .sgt v379 c0_i32_313
  let v387 : BitVec 32 := Scalar.extui v386
  let c0_i32_314 : BitVec 32 := 0#32
  let v388 : BitVec 1 := Scalar.cmpi .slt v379 c0_i32_314
  let v389 : BitVec 32 := Scalar.extui v388
  let v390 : BitVec 32 := Scalar.subi v387 v389
  let c50_i32_312 : BitVec 32 := 50#32
  let c0_i32_315 : BitVec 32 := 0#32
  let v391 : BitVec 1 := Scalar.cmpi .sgt c50_i32_312 c0_i32_315
  let v392 : BitVec 32 := Scalar.extui v391
  let c0_i32_316 : BitVec 32 := 0#32
  let v393 : BitVec 1 := Scalar.cmpi .slt c50_i32_312 c0_i32_316
  let v394 : BitVec 32 := Scalar.extui v393
  let v395 : BitVec 32 := Scalar.subi v392 v394
  let v396 : BitVec 1 := Scalar.cmpi .ne v390 v395
  let v397 : BitVec 32 := Scalar.remsi v379 c50_i32_312
  let c0_i32_317 : BitVec 32 := 0#32
  let v398 : BitVec 1 := Scalar.cmpi .ne v397 c0_i32_317
  let v399 : BitVec 1 := Scalar.andi v396 v398
  let v385 : BitVec 32 := Scalar.divsi v379 c50_i32_312
  let c1_i32_318 : BitVec 32 := 1#32
  let v400 : BitVec 32 := Scalar.subi v385 c1_i32_318
  let v401 : BitVec 32 := Scalar.select v399 v400 v385
  let c50_i32_319 : BitVec 32 := 50#32
  let v402 : BitVec 32 := Scalar.muli v401 c50_i32_319
  let v403 : BitVec 32 := Scalar.subi v379 v402
  let c5_i32_320 : BitVec 32 := 5#32
  let v404 : BitVec 32 := Scalar.muli v403 c5_i32_320
  let c0_i32_322 : BitVec 32 := 0#32
  let c1_i32_324 : BitVec 32 := 1#32
  let arg20 : BitVec 32 := Scf.iv c0_i32_322 c1_i32_324 k2_t11
  let v545 : BitVec 32 := Scalar.addi v404 arg20
  let v546 : Index := Scalar.indexCast v545
  let c64_387 : Index := 64#32
  ![v546.toNat, 64]
def k2_cond19 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_304 : BitVec 32 := 10#32
  let v378 : BitVec 32 := Scalar.muli arg18 c10_i32_304
  let c9_i32_305 : BitVec 32 := 9#32
  let v379 : BitVec 32 := Scalar.addi v378 c9_i32_305
  let c0_i32_313 : BitVec 32 := 0#32
  let v386 : BitVec 1 := Scalar.cmpi .sgt v379 c0_i32_313
  let v387 : BitVec 32 := Scalar.extui v386
  let c0_i32_314 : BitVec 32 := 0#32
  let v388 : BitVec 1 := Scalar.cmpi .slt v379 c0_i32_314
  let v389 : BitVec 32 := Scalar.extui v388
  let v390 : BitVec 32 := Scalar.subi v387 v389
  let c50_i32_312 : BitVec 32 := 50#32
  let c0_i32_315 : BitVec 32 := 0#32
  let v391 : BitVec 1 := Scalar.cmpi .sgt c50_i32_312 c0_i32_315
  let v392 : BitVec 32 := Scalar.extui v391
  let c0_i32_316 : BitVec 32 := 0#32
  let v393 : BitVec 1 := Scalar.cmpi .slt c50_i32_312 c0_i32_316
  let v394 : BitVec 32 := Scalar.extui v393
  let v395 : BitVec 32 := Scalar.subi v392 v394
  let v396 : BitVec 1 := Scalar.cmpi .ne v390 v395
  let v397 : BitVec 32 := Scalar.remsi v379 c50_i32_312
  let c0_i32_317 : BitVec 32 := 0#32
  let v398 : BitVec 1 := Scalar.cmpi .ne v397 c0_i32_317
  let v399 : BitVec 1 := Scalar.andi v396 v398
  let v385 : BitVec 32 := Scalar.divsi v379 c50_i32_312
  let c1_i32_318 : BitVec 32 := 1#32
  let v400 : BitVec 32 := Scalar.subi v385 c1_i32_318
  let v401 : BitVec 32 := Scalar.select v399 v400 v385
  let c50_i32_319 : BitVec 32 := 50#32
  let v402 : BitVec 32 := Scalar.muli v401 c50_i32_319
  let v403 : BitVec 32 := Scalar.subi v379 v402
  let c49_i32_326 : BitVec 32 := 49#32
  let v407 : BitVec 1 := Scalar.cmpi .eq v403 c49_i32_326
  let v408 : BitVec 32 := Scalar.extui v407
  let c0_i32_327 : BitVec 32 := 0#32
  let v409 : BitVec 1 := Scalar.cmpi .ne v408 c0_i32_327
  v409

def k2_off171 (i : grid2.Coords) (k2_t1 : Fin k2_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62 : BitVec 32 := 0#32
  let c1_i32_63 : BitVec 32 := 1#32
  let arg18 : BitVec 32 := Scf.iv c0_i32_62 c1_i32_63 k2_t1
  let c10_i32_304 : BitVec 32 := 10#32
  let v378 : BitVec 32 := Scalar.muli arg18 c10_i32_304
  let c9_i32_305 : BitVec 32 := 9#32
  let v379 : BitVec 32 := Scalar.addi v378 c9_i32_305
  let c0_i32_313 : BitVec 32 := 0#32
  let v386 : BitVec 1 := Scalar.cmpi .sgt v379 c0_i32_313
  let v387 : BitVec 32 := Scalar.extui v386
  let c0_i32_314 : BitVec 32 := 0#32
  let v388 : BitVec 1 := Scalar.cmpi .slt v379 c0_i32_314
  let v389 : BitVec 32 := Scalar.extui v388
  let v390 : BitVec 32 := Scalar.subi v387 v389
  let c50_i32_312 : BitVec 32 := 50#32
  let c0_i32_315 : BitVec 32 := 0#32
  let v391 : BitVec 1 := Scalar.cmpi .sgt c50_i32_312 c0_i32_315
  let v392 : BitVec 32 := Scalar.extui v391
  let c0_i32_316 : BitVec 32 := 0#32
  let v393 : BitVec 1 := Scalar.cmpi .slt c50_i32_312 c0_i32_316
  let v394 : BitVec 32 := Scalar.extui v393
  let v395 : BitVec 32 := Scalar.subi v392 v394
  let v396 : BitVec 1 := Scalar.cmpi .ne v390 v395
  let v397 : BitVec 32 := Scalar.remsi v379 c50_i32_312
  let c0_i32_317 : BitVec 32 := 0#32
  let v398 : BitVec 1 := Scalar.cmpi .ne v397 c0_i32_317
  let v399 : BitVec 1 := Scalar.andi v396 v398
  let v385 : BitVec 32 := Scalar.divsi v379 c50_i32_312
  let c1_i32_318 : BitVec 32 := 1#32
  let v400 : BitVec 32 := Scalar.subi v385 c1_i32_318
  let v401 : BitVec 32 := Scalar.select v399 v400 v385
  let c0_i32_332_r10 : BitVec 32 := 0#32
  let c0_i32_333_r10 : BitVec 32 := 0#32
  ![v1.toNat, v401.toNat, 0, 0]
def k2_cond20 (k2_t1 : Fin k2_t1_loop.trips) : BitVec 1 :=
  let c0_i32_62 : BitVec 32 := 0#32
  let c1_i32_63 : BitVec 32 := 1#32
  let arg18 : BitVec 32 := Scf.iv c0_i32_62 c1_i32_63 k2_t1
  let c10_i32_304 : BitVec 32 := 10#32
  let v378 : BitVec 32 := Scalar.muli arg18 c10_i32_304
  let c9_i32_305 : BitVec 32 := 9#32
  let v379 : BitVec 32 := Scalar.addi v378 c9_i32_305
  let c10_i32_328 : BitVec 32 := 10#32
  let v410 : BitVec 32 := Scalar.addi v379 c10_i32_328
  let c250_i32_329 : BitVec 32 := 250#32
  let v411 : BitVec 1 := Scalar.cmpi .slt v410 c250_i32_329
  let v412 : BitVec 32 := Scalar.extui v411
  let c0_i32_330 : BitVec 32 := 0#32
  let v413 : BitVec 1 := Scalar.cmpi .ne v412 c0_i32_330
  v413

def k2_off172 (k2_t1 : Fin k2_t1_loop.trips) : Fin 2 → Nat :=
  let c0_i32_62 : BitVec 32 := 0#32
  let c1_i32_63 : BitVec 32 := 1#32
  let arg18 : BitVec 32 := Scf.iv c0_i32_62 c1_i32_63 k2_t1
  let c10_i32_304 : BitVec 32 := 10#32
  let v378 : BitVec 32 := Scalar.muli arg18 c10_i32_304
  let c9_i32_305 : BitVec 32 := 9#32
  let v379 : BitVec 32 := Scalar.addi v378 c9_i32_305
  let c10_i32_332 : BitVec 32 := 10#32
  let v414 : BitVec 32 := Scalar.addi v379 c10_i32_332
  let c0_i32_336 : BitVec 32 := 0#32
  ![v414.toNat, 0]
abbrev grid3 : Pipeline.Grid := ⟨1, ![8], ![false]⟩

def k3_cond1 (i : grid3.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_2 : BitVec 32 := 0#32
  let v7 : BitVec 1 := Scalar.cmpi .ne v6 c0_i32_2
  v7

def k3_cond2 (i : grid3.Coords) : BitVec 1 :=
  let arg0 : BitVec 32 := BitVec.ofNat 32 (i 0).val
  let c0_i32_3 : BitVec 32 := 0#32
  let v8 : BitVec 1 := Scalar.cmpi .sgt arg0 c0_i32_3
  let v9 : BitVec 32 := Scalar.extui v8
  let c0_i32_4 : BitVec 32 := 0#32
  let v10 : BitVec 1 := Scalar.cmpi .ne v9 c0_i32_4
  v10

def k3_cond3 (i : grid3.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_5 : BitVec 32 := 0#32
  let v13 : BitVec 1 := Scalar.cmpi .ne v12 c0_i32_5
  v13

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x80 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x80 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev grid4 : Pipeline.Grid := ⟨1, ![8], ![false]⟩

def k4_off1 (i : grid4.Coords) : Fin 2 → Nat :=
  let c0_9 : Index := 0#32
  let arg0 : BitVec 32 := BitVec.ofNat 32 (i 0).val
  let c5120_i32 : BitVec 32 := 5120#32
  let v26 : BitVec 32 := Scalar.muli arg0 c5120_i32
  let v27 : Index := Scalar.indexCast v26
  ![0, v27.toNat]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5120x80 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x80 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x80 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x80 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S80x40960 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x6x256x64x176_S6x256x64x176 : S1x6x256x64x176.ShapeCasts S6x256x64x176
  shapeCasts_S6x256x64x176_S6x256x11264 : S6x256x64x176.ShapeCasts S6x256x11264
  inb_S1x256x5632_S1x256x5632_0_0_0 : ∀ a, (![0, 0, 0] : Fin 3 → Nat) a + S1x256x5632.size a ≤ S1x256x5632.size a
  h_S1x256x5632 : 0 < S1x256x5632.numel
  shapeCasts_S1x256x5632_S256x5632 : S1x256x5632.ShapeCasts S256x5632
  inb_S80x256_S80x256_0_0 : ∀ a, (![0, 0] : Fin 2 → Nat) a + S80x256.size a ≤ S80x256.size a
  h_S80x256 : 0 < S80x256.numel
  inb_S1x5632x128_S1x5632x80_0_0_0 : ∀ a, (![0, 0, 0] : Fin 3 → Nat) a + S1x5632x80.size a ≤ S1x5632x128.size a
  h_S1x5632x80 : 0 < S1x5632x80.numel
  shapeCasts_S1x5632x80_S5632x80 : S1x5632x80.ShapeCasts S5632x80
  shapeCasts_S5632x80_S1x5632x80 : S5632x80.ShapeCasts S1x5632x80
  inb_S1x5632x128_S1x5632x48_0_0_80 : ∀ a, (![0, 0, 80] : Fin 3 → Nat) a + S1x5632x48.size a ≤ S1x5632x128.size a
  h_S1x5632x48 : 0 < S1x5632x48.numel
  shapeCasts_S1x5632x48_S5632x48 : S1x5632x48.ShapeCasts S5632x48
  shapeCasts_S5632x48_S1x5632x48 : S5632x48.ShapeCasts S1x5632x48
  shapeCasts_S7x11264x128_S78848x128 : S7x11264x128.ShapeCasts S78848x128
  shapeCasts_S1x4x4_S4x4 : S1x4x4.ShapeCasts S4x4
  slices_S4x4_S3x1_0_3 : S4x4.Slices ![0, 3] S3x1
  shapeCasts_S3x1_S3 : S3x1.ShapeCasts S3
  slices_S4x4_S3x3_0_0 : S4x4.Slices ![0, 0] S3x3
  shapeCasts_S1x6x4x4_S6x4x4 : S1x6x4x4.ShapeCasts S6x4x4
  slices_S6x4x4_S6x4x1_0_0_3 : S6x4x4.Slices ![0, 0, 3] S6x4x1
  shapeCasts_S6x4x1_S6x4 : S6x4x1.ShapeCasts S6x4
  bcast_S_S1 : S_.BroadcastsInDim S1 (![] : Fin 0 → Fin S1.rank)
  concatenates_S1_S1_S2_d0 : Shape.Concatenates [S1, S1] S2 0
  bcast_S_S6x3 : S_.BroadcastsInDim S6x3 (![] : Fin 0 → Fin S6x3.rank)
  slices_S6x4x4_S6x3x4_0_0_0 : S6x4x4.Slices ![0, 0, 0] S6x3x4
  slices_S6x4_S6x2_0_0 : S6x4.Slices ![0, 0] S6x2
  shapeCasts_S6x2_S12 : S6x2.ShapeCasts S12
  concatenates_S3_S12_S15_d0 : Shape.Concatenates [S3, S12] S15 0
  iota_S1x20000_d1_w32 : S1x20000.Iotas .tc 32 [1]
  natLt_1_32 : 1 < 32
  inb_S15_S1_0 : ∀ a, (![0] : Fin 1 → Nat) a + S1.size a ≤ S15.size a
  numel1_S1 : S1.numel = 1
  inb_S15_S1_1 : ∀ a, (![1] : Fin 1 → Nat) a + S1.size a ≤ S15.size a
  inb_S15_S1_2 : ∀ a, (![2] : Fin 1 → Nat) a + S1.size a ≤ S15.size a
  concatenates_S1x20000_S1x20000_S1x20000_S3x20000_d0 : Shape.Concatenates [S1x20000, S1x20000, S1x20000] S3x20000 0
  inb_S3x3_S3x3_0_0 : ∀ a, (![0, 0] : Fin 2 → Nat) a + S3x3.size a ≤ S3x3.size a
  h_S3x3 : 0 < S3x3.numel
  shapeCasts_S3x3_S3x3 : S3x3.ShapeCasts S3x3
  concatenates_S3x20000_S1x20000_S4x20000_d0 : Shape.Concatenates [S3x20000, S1x20000] S4x20000 0
  inb_S6x3x4_S1x3x4_0_0_0 : ∀ a, (![0, 0, 0] : Fin 3 → Nat) a + S1x3x4.size a ≤ S6x3x4.size a
  h_S1x3x4 : 0 < S1x3x4.numel
  shapeCasts_S1x3x4_S3x4 : S1x3x4.ShapeCasts S3x4
  slices_S3x20000_o0_0_S1x20000 : S3x20000.Slices ![0, 0] S1x20000
  slices_S3x20000_o2_0_S1x20000 : S3x20000.Slices ![2, 0] S1x20000
  inb_S15_S1_3 : ∀ a, (![3] : Fin 1 → Nat) a + S1.size a ≤ S15.size a
  slices_S3x20000_o1_0_S1x20000 : S3x20000.Slices ![1, 0] S1x20000
  inb_S15_S1_4 : ∀ a, (![4] : Fin 1 → Nat) a + S1.size a ≤ S15.size a
  inb_S6x3x4_S1x3x4_1_0_0 : ∀ a, (![1, 0, 0] : Fin 3 → Nat) a + S1x3x4.size a ≤ S6x3x4.size a
  inb_S15_S1_5 : ∀ a, (![5] : Fin 1 → Nat) a + S1.size a ≤ S15.size a
  inb_S15_S1_6 : ∀ a, (![6] : Fin 1 → Nat) a + S1.size a ≤ S15.size a
  inb_S6x3x4_S1x3x4_2_0_0 : ∀ a, (![2, 0, 0] : Fin 3 → Nat) a + S1x3x4.size a ≤ S6x3x4.size a
  inb_S15_S1_7 : ∀ a, (![7] : Fin 1 → Nat) a + S1.size a ≤ S15.size a
  inb_S15_S1_8 : ∀ a, (![8] : Fin 1 → Nat) a + S1.size a ≤ S15.size a
  inb_S6x3x4_S1x3x4_3_0_0 : ∀ a, (![3, 0, 0] : Fin 3 → Nat) a + S1x3x4.size a ≤ S6x3x4.size a
  inb_S15_S1_9 : ∀ a, (![9] : Fin 1 → Nat) a + S1.size a ≤ S15.size a
  inb_S15_S1_10 : ∀ a, (![10] : Fin 1 → Nat) a + S1.size a ≤ S15.size a
  inb_S6x3x4_S1x3x4_4_0_0 : ∀ a, (![4, 0, 0] : Fin 3 → Nat) a + S1x3x4.size a ≤ S6x3x4.size a
  inb_S15_S1_11 : ∀ a, (![11] : Fin 1 → Nat) a + S1.size a ≤ S15.size a
  inb_S15_S1_12 : ∀ a, (![12] : Fin 1 → Nat) a + S1.size a ≤ S15.size a
  inb_S6x3x4_S1x3x4_5_0_0 : ∀ a, (![5, 0, 0] : Fin 3 → Nat) a + S1x3x4.size a ≤ S6x3x4.size a
  inb_S15_S1_13 : ∀ a, (![13] : Fin 1 → Nat) a + S1.size a ≤ S15.size a
  inb_S15_S1_14 : ∀ a, (![14] : Fin 1 → Nat) a + S1.size a ≤ S15.size a
  inb_S1x1x20000_S1x1x20000_0_0_0 : ∀ a, (![0, 0, 0] : Fin 3 → Nat) a + S1x1x20000.size a ≤ S1x1x20000.size a
  h_S1x1x20000 : 0 < S1x1x20000.numel
  shapeCasts_S1x1x20000_S1x20000 : S1x1x20000.ShapeCasts S1x20000
  shapeCasts_S1x20000_S1x1x20000 : S1x20000.ShapeCasts S1x1x20000
  shapeCasts_S8x1x20000_S32x250x20 : S8x1x20000.ShapeCasts S32x250x20
  squeezes_S1x250x20_S250x20 : S1x250x20.Squeezes S250x20
  inb_S10x20x128_S1x20x128_0_0_0 : ∀ a, (![0, 0, 0] : Fin 3 → Nat) a + S1x20x128.size a ≤ S10x20x128.size a
  squeezes_S1x20x128_S20x128 : S1x20x128.Squeezes S20x128
  inb_S250x20_S1x20_0_0 : ∀ a, (![0, 0] : Fin 2 → Nat) a + S1x20.size a ≤ S250x20.size a
  squeezes_S1x20_S20 : S1x20.Squeezes S20
  inb_S78848x128_S78848x128_0_0 : ∀ a, (![0, 0] : Fin 2 → Nat) a + S78848x128.size a ≤ S78848x128.size a
  gathers_S78848x128_S20x128 : S78848x128.Gathers 0 S20x128
  inb_S10x20x128_S1x20x128_1_0_0 : ∀ a, (![1, 0, 0] : Fin 3 → Nat) a + S1x20x128.size a ≤ S10x20x128.size a
  inb_S250x20_S1x20_1_0 : ∀ a, (![1, 0] : Fin 2 → Nat) a + S1x20.size a ≤ S250x20.size a
  inb_S10x20x128_S1x20x128_2_0_0 : ∀ a, (![2, 0, 0] : Fin 3 → Nat) a + S1x20x128.size a ≤ S10x20x128.size a
  inb_S250x20_S1x20_2_0 : ∀ a, (![2, 0] : Fin 2 → Nat) a + S1x20.size a ≤ S250x20.size a
  inb_S10x20x128_S1x20x128_3_0_0 : ∀ a, (![3, 0, 0] : Fin 3 → Nat) a + S1x20x128.size a ≤ S10x20x128.size a
  inb_S250x20_S1x20_3_0 : ∀ a, (![3, 0] : Fin 2 → Nat) a + S1x20.size a ≤ S250x20.size a
  inb_S10x20x128_S1x20x128_4_0_0 : ∀ a, (![4, 0, 0] : Fin 3 → Nat) a + S1x20x128.size a ≤ S10x20x128.size a
  inb_S250x20_S1x20_4_0 : ∀ a, (![4, 0] : Fin 2 → Nat) a + S1x20.size a ≤ S250x20.size a
  inb_S10x20x128_S1x20x128_5_0_0 : ∀ a, (![5, 0, 0] : Fin 3 → Nat) a + S1x20x128.size a ≤ S10x20x128.size a
  inb_S250x20_S1x20_5_0 : ∀ a, (![5, 0] : Fin 2 → Nat) a + S1x20.size a ≤ S250x20.size a
  inb_S10x20x128_S1x20x128_6_0_0 : ∀ a, (![6, 0, 0] : Fin 3 → Nat) a + S1x20x128.size a ≤ S10x20x128.size a
  inb_S250x20_S1x20_6_0 : ∀ a, (![6, 0] : Fin 2 → Nat) a + S1x20.size a ≤ S250x20.size a
  inb_S10x20x128_S1x20x128_7_0_0 : ∀ a, (![7, 0, 0] : Fin 3 → Nat) a + S1x20x128.size a ≤ S10x20x128.size a
  inb_S250x20_S1x20_7_0 : ∀ a, (![7, 0] : Fin 2 → Nat) a + S1x20.size a ≤ S250x20.size a
  inb_S10x20x128_S1x20x128_8_0_0 : ∀ a, (![8, 0, 0] : Fin 3 → Nat) a + S1x20x128.size a ≤ S10x20x128.size a
  inb_S250x20_S1x20_8_0 : ∀ a, (![8, 0] : Fin 2 → Nat) a + S1x20.size a ≤ S250x20.size a
  inb_S10x20x128_S1x20x128_9_0_0 : ∀ a, (![9, 0, 0] : Fin 3 → Nat) a + S1x20x128.size a ≤ S10x20x128.size a
  inb_S250x20_S1x20_9_0 : ∀ a, (![9, 0] : Fin 2 → Nat) a + S1x20.size a ≤ S250x20.size a
  h_S1x1x16 : 0 < S1x1x16.numel
  shapeCasts_S1x1x16_S16 : S1x1x16.ShapeCasts S16
  h_S1x16 : 0 < S1x16.numel
  shapeCasts_S1x16_S16 : S1x16.ShapeCasts S16
  shapeCasts_S16_S1x16 : S16.ShapeCasts S1x16
  squeezes_S1x1x250x80_S250x80 : S1x1x250x80.Squeezes S250x80
  shapeCasts_S32x5x250x80_S40000x80 : S32x5x250x80.ShapeCasts S40000x80
  inb_S5000x80_S5000x80_0_0 : ∀ a, (![0, 0] : Fin 2 → Nat) a + S5000x80.size a ≤ S5000x80.size a
  h_S5000x80 : 0 < S5000x80.numel
  shapeCasts_S5000x80_S5000x80 : S5000x80.ShapeCasts S5000x80
  reduces_S5000x80_S80 : S5000x80.Reduces [0] S80
  inb_S2x80_S1x80_0_0 : ∀ a, (![0, 0] : Fin 2 → Nat) a + S1x80.size a ≤ S2x80.size a
  h_S1x80 : 0 < S1x80.numel
  shapeCasts_S1x80_S80 : S1x80.ShapeCasts S80
  shapeCasts_S80_S1x80 : S80.ShapeCasts S1x80
  inb_S2x80_S1x80_1_0 : ∀ a, (![1, 0] : Fin 2 → Nat) a + S1x80.size a ≤ S2x80.size a
  bcast_S_S960x80 : S_.BroadcastsInDim S960x80 (![] : Fin 0 → Fin S960x80.rank)
  concatenates_S40000x80_S960x80_S40960x80_d0 : Shape.Concatenates [S40000x80, S960x80] S40960x80 0
  inb_S5120x80_S5120x80_0_0 : ∀ a, (![0, 0] : Fin 2 → Nat) a + S5120x80.size a ≤ S5120x80.size a
  h_S5120x80 : 0 < S5120x80.numel
  shapeCasts_S5120x80_S5120x80 : S5120x80.ShapeCasts S5120x80
  shapeCasts_S1x80_S1x80 : S1x80.ShapeCasts S1x80
  broadcasts_S1x80_S5120x80 : S1x80.Broadcasts S5120x80
  inb_S1x80_S1x80_0_0 : ∀ a, (![0, 0] : Fin 2 → Nat) a + S1x80.size a ≤ S1x80.size a
  iota_S80x80_d0_w32 : S80x80.Iotas .tc 32 [0]
  iota_S80x80_d1_w32 : S80x80.Iotas .tc 32 [1]
  h_S80x5120 : 0 < S80x5120.numel
  slices_S80x40960_S80x40000_0_0 : S80x40960.Slices ![0, 0] S80x40000
  shapeCasts_S80x40000_S1x80x200x200 : S80x40000.ShapeCasts S1x80x200x200
  dot_S256x5632_S80x256_S5632x80_0_1_1_0_n_n_wf : DotDims.WF S256x5632 S80x256 S5632x80 [0] [1] [1] [0] [] []
  scatter_S6x4x4_S2_S6x3_01_2_12_0_wf : ScatterDims.WF S6x4x4 S2 S6x3 [0, 1] [2] [1, 2] 0
  dot_S6x4x4_S6x4x4_S6x4x4_2_1_1_2_0_0_wf : DotDims.WF S6x4x4 S6x4x4 S6x4x4 [2] [1] [1] [2] [0] [0]
  dot_S3x3_S3x20000_S3x20000_0_0_1_1_n_n_wf : DotDims.WF S3x3 S3x20000 S3x20000 [0] [0] [1] [1] [] []
  dot_S3x4_S4x20000_S3x20000_1_0_0_1_n_n_wf : DotDims.WF S3x4 S4x20000 S3x20000 [1] [0] [0] [1] [] []
  dot_S80x80_S5120x80_S80x5120_1_1_0_0_n_n_wf : DotDims.WF S80x80 S5120x80 S80x5120 [1] [1] [0] [0] [] []
  hcc2_scratch3 : 10 + S_.numel ≤ 40
  hcc2_scratch4 : 11 + S_.numel ≤ 40
  hcc2_scratch5 : 12 + S_.numel ≤ 40
  hcc2_scratch6 : 13 + S_.numel ≤ 40
  hcc2_scratch7 : 14 + S_.numel ≤ 40
  hcc2_scratch8 : 15 + S_.numel ≤ 40
  hcc2_scratch9 : 16 + S_.numel ≤ 40
  hcc2_scratch10 : 17 + S_.numel ≤ 40
  hcc2_scratch11 : 18 + S_.numel ≤ 40
  hcc2_scratch12 : 19 + S_.numel ≤ 40
  hcc2_scoped0 : 20 + S_.numel ≤ 40
  hcc2_scoped1 : 21 + S_.numel ≤ 40
  hcc2_scoped2 : 22 + S_.numel ≤ 40
  hcc2_scoped3 : 23 + S_.numel ≤ 40
  hcc2_scoped4 : 24 + S_.numel ≤ 40
  hcc2_scoped5 : 25 + S_.numel ≤ 40
  hcc2_scoped6 : 26 + S_.numel ≤ 40
  hcc2_scoped7 : 27 + S_.numel ≤ 40
  hcc2_scoped8 : 28 + S_.numel ≤ 40
  hcc2_scoped9 : 29 + S_.numel ≤ 40
  hcc2_scoped10 : 30 + S_.numel ≤ 40
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x5632.size a ≤ S6x256x11264.size a
  hwx0_0 : ∀ i : grid0.Coords, EltTy.bits .f32 = 32 ∨ (Rect.block (s := S6x256x11264) S1x256x5632.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x256.size a ≤ S80x256.size a
  hwx0_1 : ∀ i : grid0.Coords, EltTy.bits .f32 = 32 ∨ (Rect.block (s := S80x256) S80x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5632x128.size a ≤ S7x11264x128.size a
  hwx0_2 : ∀ i : grid0.Coords, EltTy.bits .f32 = 32 ∨ (Rect.block (s := S7x11264x128) S1x5632x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S3x3.size a ≤ S3x3.size a
  hwx1_0 : ∀ i : grid1.Coords, EltTy.bits .f32 = 32 ∨ (Rect.block (s := S3x3) S3x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6x3x4.size a ≤ S6x3x4.size a
  hwx1_1 : ∀ i : grid1.Coords, EltTy.bits .f32 = 32 ∨ (Rect.block (s := S6x3x4) S6x3x4.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S15.size a ≤ S15.size a
  hwx1_2 : ∀ i : grid1.Coords, EltTy.bits .f32 = 32 ∨ (Rect.block (s := S15) S15.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x20000.size a ≤ S8x1x20000.size a
  hwx1_3 : ∀ i : grid1.Coords, EltTy.bits .i32 = 32 ∨ (Rect.block (s := S8x1x20000) S1x1x20000.size (cc1_transform_3 i) (hinb1_3 i)).WholeWords (EltTy.packing .i32)
  hcore2 : grid2.bound 0 ≤ τ.nSC
  hsub2 : grid2.bound 1 ≤ τ.nSub
  k2_off1_inb : ∀ i : grid2.Coords, ∀ a, (k2_off1 i) a + S1x250x20.size a ≤ S32x250x20.size a
  k2_t1_ok : k2_t1_loop.OK
  k2_off2_inb : ∀ k2_t1 : Fin k2_t1_loop.trips, ∀ (r : Fin 10), ∀ a, (k2_off2 k2_t1 (BitVec.ofNat 32 r.val)) a + S1x20.size a ≤ S250x20.size a
  k2_t2_ok : k2_t2_loop.OK
  k2_off3_inb : ∀ k2_t2 : Fin k2_t2_loop.trips, ∀ a, (k2_off3 k2_t2) a + S1x1x16.size a ≤ S10x20x128.size a
  k2_off4_inb : ∀ k2_t2 : Fin k2_t2_loop.trips, ∀ (r : Fin 3), ∀ a, (k2_off4 k2_t2 (BitVec.ofNat 32 (1 + r.val))) a + S1x1x16.size a ≤ S10x20x128.size a
  k2_off5_inb : ∀ (k2_t1 : Fin k2_t1_loop.trips) (k2_t2 : Fin k2_t2_loop.trips), ∀ a, (k2_off5 k2_t1 k2_t2) a + S1x16.size a ≤ S250x80.size a
  k2_off6_inb : ∀ k2_t2 : Fin k2_t2_loop.trips, ∀ a, (k2_off6 k2_t2) a + S1x1x16.size a ≤ S10x20x128.size a
  k2_off7_inb : ∀ k2_t2 : Fin k2_t2_loop.trips, ∀ (r : Fin 3), ∀ a, (k2_off7 k2_t2 (BitVec.ofNat 32 (1 + r.val))) a + S1x1x16.size a ≤ S10x20x128.size a
  k2_off8_inb : ∀ (k2_t1 : Fin k2_t1_loop.trips) (k2_t2 : Fin k2_t2_loop.trips), ∀ a, (k2_off8 k2_t1 k2_t2) a + S1x16.size a ≤ S250x80.size a
  k2_off9_inb : ∀ k2_t2 : Fin k2_t2_loop.trips, ∀ a, (k2_off9 k2_t2) a + S1x1x16.size a ≤ S10x20x128.size a
  k2_off10_inb : ∀ k2_t2 : Fin k2_t2_loop.trips, ∀ (r : Fin 3), ∀ a, (k2_off10 k2_t2 (BitVec.ofNat 32 (1 + r.val))) a + S1x1x16.size a ≤ S10x20x128.size a
  k2_off11_inb : ∀ (k2_t1 : Fin k2_t1_loop.trips) (k2_t2 : Fin k2_t2_loop.trips), ∀ a, (k2_off11 k2_t1 k2_t2) a + S1x16.size a ≤ S250x80.size a
  k2_off12_inb : ∀ k2_t2 : Fin k2_t2_loop.trips, ∀ a, (k2_off12 k2_t2) a + S1x1x16.size a ≤ S10x20x128.size a
  k2_off13_inb : ∀ k2_t2 : Fin k2_t2_loop.trips, ∀ (r : Fin 3), ∀ a, (k2_off13 k2_t2 (BitVec.ofNat 32 (1 + r.val))) a + S1x1x16.size a ≤ S10x20x128.size a
  k2_off14_inb : ∀ (k2_t1 : Fin k2_t1_loop.trips) (k2_t2 : Fin k2_t2_loop.trips), ∀ a, (k2_off14 k2_t1 k2_t2) a + S1x16.size a ≤ S250x80.size a
  k2_off15_inb : ∀ k2_t2 : Fin k2_t2_loop.trips, ∀ a, (k2_off15 k2_t2) a + S1x1x16.size a ≤ S10x20x128.size a
  k2_off16_inb : ∀ k2_t2 : Fin k2_t2_loop.trips, ∀ (r : Fin 3), ∀ a, (k2_off16 k2_t2 (BitVec.ofNat 32 (1 + r.val))) a + S1x1x16.size a ≤ S10x20x128.size a
  k2_off17_inb : ∀ (k2_t1 : Fin k2_t1_loop.trips) (k2_t2 : Fin k2_t2_loop.trips), ∀ a, (k2_off17 k2_t1 k2_t2) a + S1x16.size a ≤ S250x80.size a
  k2_off18_inb : ∀ (i : grid2.Coords) (k2_t1 : Fin k2_t1_loop.trips), ∀ (k2_h1 : k2_cond1 k2_t1 = 1#1), ∀ a, (k2_off18 i k2_t1) a + S1x1x250x80.size a ≤ S32x5x250x80.size a
  k2_off19_inb : ∀ k2_t1 : Fin k2_t1_loop.trips, ∀ (k2_h2 : k2_cond2 k2_t1 = 1#1), ∀ a, (k2_off19 k2_t1) a + S1x20.size a ≤ S250x20.size a
  k2_t3_ok : k2_t3_loop.OK
  k2_off20_inb : ∀ k2_t3 : Fin k2_t3_loop.trips, ∀ a, (k2_off20 k2_t3) a + S1x1x16.size a ≤ S10x20x128.size a
  k2_off21_inb : ∀ k2_t3 : Fin k2_t3_loop.trips, ∀ (r : Fin 3), ∀ a, (k2_off21 k2_t3 (BitVec.ofNat 32 (1 + r.val))) a + S1x1x16.size a ≤ S10x20x128.size a
  k2_off22_inb : ∀ (k2_t1 : Fin k2_t1_loop.trips) (k2_t3 : Fin k2_t3_loop.trips), ∀ a, (k2_off22 k2_t1 k2_t3) a + S1x16.size a ≤ S250x80.size a
  k2_off23_inb : ∀ k2_t3 : Fin k2_t3_loop.trips, ∀ a, (k2_off23 k2_t3) a + S1x1x16.size a ≤ S10x20x128.size a
  k2_off24_inb : ∀ k2_t3 : Fin k2_t3_loop.trips, ∀ (r : Fin 3), ∀ a, (k2_off24 k2_t3 (BitVec.ofNat 32 (1 + r.val))) a + S1x1x16.size a ≤ S10x20x128.size a
  k2_off25_inb : ∀ (k2_t1 : Fin k2_t1_loop.trips) (k2_t3 : Fin k2_t3_loop.trips), ∀ a, (k2_off25 k2_t1 k2_t3) a + S1x16.size a ≤ S250x80.size a
  k2_off26_inb : ∀ k2_t3 : Fin k2_t3_loop.trips, ∀ a, (k2_off26 k2_t3) a + S1x1x16.size a ≤ S10x20x128.size a
  k2_off27_inb : ∀ k2_t3 : Fin k2_t3_loop.trips, ∀ (r : Fin 3), ∀ a, (k2_off27 k2_t3 (BitVec.ofNat 32 (1 + r.val))) a + S1x1x16.size a ≤ S10x20x128.size a
  k2_off28_inb : ∀ (k2_t1 : Fin k2_t1_loop.trips) (k2_t3 : Fin k2_t3_loop.trips), ∀ a, (k2_off28 k2_t1 k2_t3) a + S1x16.size a ≤ S250x80.size a
  k2_off29_inb : ∀ k2_t3 : Fin k2_t3_loop.trips, ∀ a, (k2_off29 k2_t3) a + S1x1x16.size a ≤ S10x20x128.size a
  k2_off30_inb : ∀ k2_t3 : Fin k2_t3_loop.trips, ∀ (r : Fin 3), ∀ a, (k2_off30 k2_t3 (BitVec.ofNat 32 (1 + r.val))) a + S1x1x16.size a ≤ S10x20x128.size a
  k2_off31_inb : ∀ (k2_t1 : Fin k2_t1_loop.trips) (k2_t3 : Fin k2_t3_loop.trips), ∀ a, (k2_off31 k2_t1 k2_t3) a + S1x16.size a ≤ S250x80.size a
  k2_off32_inb : ∀ k2_t3 : Fin k2_t3_loop.trips, ∀ a, (k2_off32 k2_t3) a + S1x1x16.size a ≤ S10x20x128.size a
  k2_off33_inb : ∀ k2_t3 : Fin k2_t3_loop.trips, ∀ (r : Fin 3), ∀ a, (k2_off33 k2_t3 (BitVec.ofNat 32 (1 + r.val))) a + S1x1x16.size a ≤ S10x20x128.size a
  k2_off34_inb : ∀ (k2_t1 : Fin k2_t1_loop.trips) (k2_t3 : Fin k2_t3_loop.trips), ∀ a, (k2_off34 k2_t1 k2_t3) a + S1x16.size a ≤ S250x80.size a
  k2_off35_inb : ∀ (i : grid2.Coords) (k2_t1 : Fin k2_t1_loop.trips), ∀ (k2_h3 : k2_cond3 k2_t1 = 1#1), ∀ a, (k2_off35 i k2_t1) a + S1x1x250x80.size a ≤ S32x5x250x80.size a
  k2_off36_inb : ∀ k2_t1 : Fin k2_t1_loop.trips, ∀ (k2_h4 : k2_cond4 k2_t1 = 1#1), ∀ a, (k2_off36 k2_t1) a + S1x20.size a ≤ S250x20.size a
  k2_t4_ok : k2_t4_loop.OK
  k2_off37_inb : ∀ k2_t4 : Fin k2_t4_loop.trips, ∀ a, (k2_off37 k2_t4) a + S1x1x16.size a ≤ S10x20x128.size a
  k2_off38_inb : ∀ k2_t4 : Fin k2_t4_loop.trips, ∀ (r : Fin 3), ∀ a, (k2_off38 k2_t4 (BitVec.ofNat 32 (1 + r.val))) a + S1x1x16.size a ≤ S10x20x128.size a
  k2_off39_inb : ∀ (k2_t1 : Fin k2_t1_loop.trips) (k2_t4 : Fin k2_t4_loop.trips), ∀ a, (k2_off39 k2_t1 k2_t4) a + S1x16.size a ≤ S250x80.size a
  k2_off40_inb : ∀ k2_t4 : Fin k2_t4_loop.trips, ∀ a, (k2_off40 k2_t4) a + S1x1x16.size a ≤ S10x20x128.size a
  k2_off41_inb : ∀ k2_t4 : Fin k2_t4_loop.trips, ∀ (r : Fin 3), ∀ a, (k2_off41 k2_t4 (BitVec.ofNat 32 (1 + r.val))) a + S1x1x16.size a ≤ S10x20x128.size a
  k2_off42_inb : ∀ (k2_t1 : Fin k2_t1_loop.trips) (k2_t4 : Fin k2_t4_loop.trips), ∀ a, (k2_off42 k2_t1 k2_t4) a + S1x16.size a ≤ S250x80.size a
  k2_off43_inb : ∀ k2_t4 : Fin k2_t4_loop.trips, ∀ a, (k2_off43 k2_t4) a + S1x1x16.size a ≤ S10x20x128.size a
  k2_off44_inb : ∀ k2_t4 : Fin k2_t4_loop.trips, ∀ (r : Fin 3), ∀ a, (k2_off44 k2_t4 (BitVec.ofNat 32 (1 + r.val))) a + S1x1x16.size a ≤ S10x20x128.size a
  k2_off45_inb : ∀ (k2_t1 : Fin k2_t1_loop.trips) (k2_t4 : Fin k2_t4_loop.trips), ∀ a, (k2_off45 k2_t1 k2_t4) a + S1x16.size a ≤ S250x80.size a
  k2_off46_inb : ∀ k2_t4 : Fin k2_t4_loop.trips, ∀ a, (k2_off46 k2_t4) a + S1x1x16.size a ≤ S10x20x128.size a
  k2_off47_inb : ∀ k2_t4 : Fin k2_t4_loop.trips, ∀ (r : Fin 3), ∀ a, (k2_off47 k2_t4 (BitVec.ofNat 32 (1 + r.val))) a + S1x1x16.size a ≤ S10x20x128.size a
  k2_off48_inb : ∀ (k2_t1 : Fin k2_t1_loop.trips) (k2_t4 : Fin k2_t4_loop.trips), ∀ a, (k2_off48 k2_t1 k2_t4) a + S1x16.size a ≤ S250x80.size a
  k2_off49_inb : ∀ k2_t4 : Fin k2_t4_loop.trips, ∀ a, (k2_off49 k2_t4) a + S1x1x16.size a ≤ S10x20x128.size a
  k2_off50_inb : ∀ k2_t4 : Fin k2_t4_loop.trips, ∀ (r : Fin 3), ∀ a, (k2_off50 k2_t4 (BitVec.ofNat 32 (1 + r.val))) a + S1x1x16.size a ≤ S10x20x128.size a
  k2_off51_inb : ∀ (k2_t1 : Fin k2_t1_loop.trips) (k2_t4 : Fin k2_t4_loop.trips), ∀ a, (k2_off51 k2_t1 k2_t4) a + S1x16.size a ≤ S250x80.size a
  k2_off52_inb : ∀ (i : grid2.Coords) (k2_t1 : Fin k2_t1_loop.trips), ∀ (k2_h5 : k2_cond5 k2_t1 = 1#1), ∀ a, (k2_off52 i k2_t1) a + S1x1x250x80.size a ≤ S32x5x250x80.size a
  k2_off53_inb : ∀ k2_t1 : Fin k2_t1_loop.trips, ∀ (k2_h6 : k2_cond6 k2_t1 = 1#1), ∀ a, (k2_off53 k2_t1) a + S1x20.size a ≤ S250x20.size a
  k2_t5_ok : k2_t5_loop.OK
  k2_off54_inb : ∀ k2_t5 : Fin k2_t5_loop.trips, ∀ a, (k2_off54 k2_t5) a + S1x1x16.size a ≤ S10x20x128.size a
  k2_off55_inb : ∀ k2_t5 : Fin k2_t5_loop.trips, ∀ (r : Fin 3), ∀ a, (k2_off55 k2_t5 (BitVec.ofNat 32 (1 + r.val))) a + S1x1x16.size a ≤ S10x20x128.size a
  k2_off56_inb : ∀ (k2_t1 : Fin k2_t1_loop.trips) (k2_t5 : Fin k2_t5_loop.trips), ∀ a, (k2_off56 k2_t1 k2_t5) a + S1x16.size a ≤ S250x80.size a
  k2_off57_inb : ∀ k2_t5 : Fin k2_t5_loop.trips, ∀ a, (k2_off57 k2_t5) a + S1x1x16.size a ≤ S10x20x128.size a
  k2_off58_inb : ∀ k2_t5 : Fin k2_t5_loop.trips, ∀ (r : Fin 3), ∀ a, (k2_off58 k2_t5 (BitVec.ofNat 32 (1 + r.val))) a + S1x1x16.size a ≤ S10x20x128.size a
  k2_off59_inb : ∀ (k2_t1 : Fin k2_t1_loop.trips) (k2_t5 : Fin k2_t5_loop.trips), ∀ a, (k2_off59 k2_t1 k2_t5) a + S1x16.size a ≤ S250x80.size a
  k2_off60_inb : ∀ k2_t5 : Fin k2_t5_loop.trips, ∀ a, (k2_off60 k2_t5) a + S1x1x16.size a ≤ S10x20x128.size a
  k2_off61_inb : ∀ k2_t5 : Fin k2_t5_loop.trips, ∀ (r : Fin 3), ∀ a, (k2_off61 k2_t5 (BitVec.ofNat 32 (1 + r.val))) a + S1x1x16.size a ≤ S10x20x128.size a
  k2_off62_inb : ∀ (k2_t1 : Fin k2_t1_loop.trips) (k2_t5 : Fin k2_t5_loop.trips), ∀ a, (k2_off62 k2_t1 k2_t5) a + S1x16.size a ≤ S250x80.size a
  k2_off63_inb : ∀ k2_t5 : Fin k2_t5_loop.trips, ∀ a, (k2_off63 k2_t5) a + S1x1x16.size a ≤ S10x20x128.size a
  k2_off64_inb : ∀ k2_t5 : Fin k2_t5_loop.trips, ∀ (r : Fin 3), ∀ a, (k2_off64 k2_t5 (BitVec.ofNat 32 (1 + r.val))) a + S1x1x16.size a ≤ S10x20x128.size a
  k2_off65_inb : ∀ (k2_t1 : Fin k2_t1_loop.trips) (k2_t5 : Fin k2_t5_loop.trips), ∀ a, (k2_off65 k2_t1 k2_t5) a + S1x16.size a ≤ S250x80.size a
  k2_off66_inb : ∀ k2_t5 : Fin k2_t5_loop.trips, ∀ a, (k2_off66 k2_t5) a + S1x1x16.size a ≤ S10x20x128.size a
  k2_off67_inb : ∀ k2_t5 : Fin k2_t5_loop.trips, ∀ (r : Fin 3), ∀ a, (k2_off67 k2_t5 (BitVec.ofNat 32 (1 + r.val))) a + S1x1x16.size a ≤ S10x20x128.size a
  k2_off68_inb : ∀ (k2_t1 : Fin k2_t1_loop.trips) (k2_t5 : Fin k2_t5_loop.trips), ∀ a, (k2_off68 k2_t1 k2_t5) a + S1x16.size a ≤ S250x80.size a
  k2_off69_inb : ∀ (i : grid2.Coords) (k2_t1 : Fin k2_t1_loop.trips), ∀ (k2_h7 : k2_cond7 k2_t1 = 1#1), ∀ a, (k2_off69 i k2_t1) a + S1x1x250x80.size a ≤ S32x5x250x80.size a
  k2_off70_inb : ∀ k2_t1 : Fin k2_t1_loop.trips, ∀ (k2_h8 : k2_cond8 k2_t1 = 1#1), ∀ a, (k2_off70 k2_t1) a + S1x20.size a ≤ S250x20.size a
  k2_t6_ok : k2_t6_loop.OK
  k2_off71_inb : ∀ k2_t6 : Fin k2_t6_loop.trips, ∀ a, (k2_off71 k2_t6) a + S1x1x16.size a ≤ S10x20x128.size a
  k2_off72_inb : ∀ k2_t6 : Fin k2_t6_loop.trips, ∀ (r : Fin 3), ∀ a, (k2_off72 k2_t6 (BitVec.ofNat 32 (1 + r.val))) a + S1x1x16.size a ≤ S10x20x128.size a
  k2_off73_inb : ∀ (k2_t1 : Fin k2_t1_loop.trips) (k2_t6 : Fin k2_t6_loop.trips), ∀ a, (k2_off73 k2_t1 k2_t6) a + S1x16.size a ≤ S250x80.size a
  k2_off74_inb : ∀ k2_t6 : Fin k2_t6_loop.trips, ∀ a, (k2_off74 k2_t6) a + S1x1x16.size a ≤ S10x20x128.size a
  k2_off75_inb : ∀ k2_t6 : Fin k2_t6_loop.trips, ∀ (r : Fin 3), ∀ a, (k2_off75 k2_t6 (BitVec.ofNat 32 (1 + r.val))) a + S1x1x16.size a ≤ S10x20x128.size a
  k2_off76_inb : ∀ (k2_t1 : Fin k2_t1_loop.trips) (k2_t6 : Fin k2_t6_loop.trips), ∀ a, (k2_off76 k2_t1 k2_t6) a + S1x16.size a ≤ S250x80.size a
  k2_off77_inb : ∀ k2_t6 : Fin k2_t6_loop.trips, ∀ a, (k2_off77 k2_t6) a + S1x1x16.size a ≤ S10x20x128.size a
  k2_off78_inb : ∀ k2_t6 : Fin k2_t6_loop.trips, ∀ (r : Fin 3), ∀ a, (k2_off78 k2_t6 (BitVec.ofNat 32 (1 + r.val))) a + S1x1x16.size a ≤ S10x20x128.size a
  k2_off79_inb : ∀ (k2_t1 : Fin k2_t1_loop.trips) (k2_t6 : Fin k2_t6_loop.trips), ∀ a, (k2_off79 k2_t1 k2_t6) a + S1x16.size a ≤ S250x80.size a
  k2_off80_inb : ∀ k2_t6 : Fin k2_t6_loop.trips, ∀ a, (k2_off80 k2_t6) a + S1x1x16.size a ≤ S10x20x128.size a
  k2_off81_inb : ∀ k2_t6 : Fin k2_t6_loop.trips, ∀ (r : Fin 3), ∀ a, (k2_off81 k2_t6 (BitVec.ofNat 32 (1 + r.val))) a + S1x1x16.size a ≤ S10x20x128.size a
  k2_off82_inb : ∀ (k2_t1 : Fin k2_t1_loop.trips) (k2_t6 : Fin k2_t6_loop.trips), ∀ a, (k2_off82 k2_t1 k2_t6) a + S1x16.size a ≤ S250x80.size a
  k2_off83_inb : ∀ k2_t6 : Fin k2_t6_loop.trips, ∀ a, (k2_off83 k2_t6) a + S1x1x16.size a ≤ S10x20x128.size a
  k2_off84_inb : ∀ k2_t6 : Fin k2_t6_loop.trips, ∀ (r : Fin 3), ∀ a, (k2_off84 k2_t6 (BitVec.ofNat 32 (1 + r.val))) a + S1x1x16.size a ≤ S10x20x128.size a
  k2_off85_inb : ∀ (k2_t1 : Fin k2_t1_loop.trips) (k2_t6 : Fin k2_t6_loop.trips), ∀ a, (k2_off85 k2_t1 k2_t6) a + S1x16.size a ≤ S250x80.size a
  k2_off86_inb : ∀ (i : grid2.Coords) (k2_t1 : Fin k2_t1_loop.trips), ∀ (k2_h9 : k2_cond9 k2_t1 = 1#1), ∀ a, (k2_off86 i k2_t1) a + S1x1x250x80.size a ≤ S32x5x250x80.size a
  k2_off87_inb : ∀ k2_t1 : Fin k2_t1_loop.trips, ∀ (k2_h10 : k2_cond10 k2_t1 = 1#1), ∀ a, (k2_off87 k2_t1) a + S1x20.size a ≤ S250x20.size a
  k2_t7_ok : k2_t7_loop.OK
  k2_off88_inb : ∀ k2_t7 : Fin k2_t7_loop.trips, ∀ a, (k2_off88 k2_t7) a + S1x1x16.size a ≤ S10x20x128.size a
  k2_off89_inb : ∀ k2_t7 : Fin k2_t7_loop.trips, ∀ (r : Fin 3), ∀ a, (k2_off89 k2_t7 (BitVec.ofNat 32 (1 + r.val))) a + S1x1x16.size a ≤ S10x20x128.size a
  k2_off90_inb : ∀ (k2_t1 : Fin k2_t1_loop.trips) (k2_t7 : Fin k2_t7_loop.trips), ∀ a, (k2_off90 k2_t1 k2_t7) a + S1x16.size a ≤ S250x80.size a
  k2_off91_inb : ∀ k2_t7 : Fin k2_t7_loop.trips, ∀ a, (k2_off91 k2_t7) a + S1x1x16.size a ≤ S10x20x128.size a
  k2_off92_inb : ∀ k2_t7 : Fin k2_t7_loop.trips, ∀ (r : Fin 3), ∀ a, (k2_off92 k2_t7 (BitVec.ofNat 32 (1 + r.val))) a + S1x1x16.size a ≤ S10x20x128.size a
  k2_off93_inb : ∀ (k2_t1 : Fin k2_t1_loop.trips) (k2_t7 : Fin k2_t7_loop.trips), ∀ a, (k2_off93 k2_t1 k2_t7) a + S1x16.size a ≤ S250x80.size a
  k2_off94_inb : ∀ k2_t7 : Fin k2_t7_loop.trips, ∀ a, (k2_off94 k2_t7) a + S1x1x16.size a ≤ S10x20x128.size a
  k2_off95_inb : ∀ k2_t7 : Fin k2_t7_loop.trips, ∀ (r : Fin 3), ∀ a, (k2_off95 k2_t7 (BitVec.ofNat 32 (1 + r.val))) a + S1x1x16.size a ≤ S10x20x128.size a
  k2_off96_inb : ∀ (k2_t1 : Fin k2_t1_loop.trips) (k2_t7 : Fin k2_t7_loop.trips), ∀ a, (k2_off96 k2_t1 k2_t7) a + S1x16.size a ≤ S250x80.size a
  k2_off97_inb : ∀ k2_t7 : Fin k2_t7_loop.trips, ∀ a, (k2_off97 k2_t7) a + S1x1x16.size a ≤ S10x20x128.size a
  k2_off98_inb : ∀ k2_t7 : Fin k2_t7_loop.trips, ∀ (r : Fin 3), ∀ a, (k2_off98 k2_t7 (BitVec.ofNat 32 (1 + r.val))) a + S1x1x16.size a ≤ S10x20x128.size a
  k2_off99_inb : ∀ (k2_t1 : Fin k2_t1_loop.trips) (k2_t7 : Fin k2_t7_loop.trips), ∀ a, (k2_off99 k2_t1 k2_t7) a + S1x16.size a ≤ S250x80.size a
  k2_off100_inb : ∀ k2_t7 : Fin k2_t7_loop.trips, ∀ a, (k2_off100 k2_t7) a + S1x1x16.size a ≤ S10x20x128.size a
  k2_off101_inb : ∀ k2_t7 : Fin k2_t7_loop.trips, ∀ (r : Fin 3), ∀ a, (k2_off101 k2_t7 (BitVec.ofNat 32 (1 + r.val))) a + S1x1x16.size a ≤ S10x20x128.size a
  k2_off102_inb : ∀ (k2_t1 : Fin k2_t1_loop.trips) (k2_t7 : Fin k2_t7_loop.trips), ∀ a, (k2_off102 k2_t1 k2_t7) a + S1x16.size a ≤ S250x80.size a
  k2_off103_inb : ∀ (i : grid2.Coords) (k2_t1 : Fin k2_t1_loop.trips), ∀ (k2_h11 : k2_cond11 k2_t1 = 1#1), ∀ a, (k2_off103 i k2_t1) a + S1x1x250x80.size a ≤ S32x5x250x80.size a
  k2_off104_inb : ∀ k2_t1 : Fin k2_t1_loop.trips, ∀ (k2_h12 : k2_cond12 k2_t1 = 1#1), ∀ a, (k2_off104 k2_t1) a + S1x20.size a ≤ S250x20.size a
  k2_t8_ok : k2_t8_loop.OK
  k2_off105_inb : ∀ k2_t8 : Fin k2_t8_loop.trips, ∀ a, (k2_off105 k2_t8) a + S1x1x16.size a ≤ S10x20x128.size a
  k2_off106_inb : ∀ k2_t8 : Fin k2_t8_loop.trips, ∀ (r : Fin 3), ∀ a, (k2_off106 k2_t8 (BitVec.ofNat 32 (1 + r.val))) a + S1x1x16.size a ≤ S10x20x128.size a
  k2_off107_inb : ∀ (k2_t1 : Fin k2_t1_loop.trips) (k2_t8 : Fin k2_t8_loop.trips), ∀ a, (k2_off107 k2_t1 k2_t8) a + S1x16.size a ≤ S250x80.size a
  k2_off108_inb : ∀ k2_t8 : Fin k2_t8_loop.trips, ∀ a, (k2_off108 k2_t8) a + S1x1x16.size a ≤ S10x20x128.size a
  k2_off109_inb : ∀ k2_t8 : Fin k2_t8_loop.trips, ∀ (r : Fin 3), ∀ a, (k2_off109 k2_t8 (BitVec.ofNat 32 (1 + r.val))) a + S1x1x16.size a ≤ S10x20x128.size a
  k2_off110_inb : ∀ (k2_t1 : Fin k2_t1_loop.trips) (k2_t8 : Fin k2_t8_loop.trips), ∀ a, (k2_off110 k2_t1 k2_t8) a + S1x16.size a ≤ S250x80.size a
  k2_off111_inb : ∀ k2_t8 : Fin k2_t8_loop.trips, ∀ a, (k2_off111 k2_t8) a + S1x1x16.size a ≤ S10x20x128.size a
  k2_off112_inb : ∀ k2_t8 : Fin k2_t8_loop.trips, ∀ (r : Fin 3), ∀ a, (k2_off112 k2_t8 (BitVec.ofNat 32 (1 + r.val))) a + S1x1x16.size a ≤ S10x20x128.size a
  k2_off113_inb : ∀ (k2_t1 : Fin k2_t1_loop.trips) (k2_t8 : Fin k2_t8_loop.trips), ∀ a, (k2_off113 k2_t1 k2_t8) a + S1x16.size a ≤ S250x80.size a
  k2_off114_inb : ∀ k2_t8 : Fin k2_t8_loop.trips, ∀ a, (k2_off114 k2_t8) a + S1x1x16.size a ≤ S10x20x128.size a
  k2_off115_inb : ∀ k2_t8 : Fin k2_t8_loop.trips, ∀ (r : Fin 3), ∀ a, (k2_off115 k2_t8 (BitVec.ofNat 32 (1 + r.val))) a + S1x1x16.size a ≤ S10x20x128.size a
  k2_off116_inb : ∀ (k2_t1 : Fin k2_t1_loop.trips) (k2_t8 : Fin k2_t8_loop.trips), ∀ a, (k2_off116 k2_t1 k2_t8) a + S1x16.size a ≤ S250x80.size a
  k2_off117_inb : ∀ k2_t8 : Fin k2_t8_loop.trips, ∀ a, (k2_off117 k2_t8) a + S1x1x16.size a ≤ S10x20x128.size a
  k2_off118_inb : ∀ k2_t8 : Fin k2_t8_loop.trips, ∀ (r : Fin 3), ∀ a, (k2_off118 k2_t8 (BitVec.ofNat 32 (1 + r.val))) a + S1x1x16.size a ≤ S10x20x128.size a
  k2_off119_inb : ∀ (k2_t1 : Fin k2_t1_loop.trips) (k2_t8 : Fin k2_t8_loop.trips), ∀ a, (k2_off119 k2_t1 k2_t8) a + S1x16.size a ≤ S250x80.size a
  k2_off120_inb : ∀ (i : grid2.Coords) (k2_t1 : Fin k2_t1_loop.trips), ∀ (k2_h13 : k2_cond13 k2_t1 = 1#1), ∀ a, (k2_off120 i k2_t1) a + S1x1x250x80.size a ≤ S32x5x250x80.size a
  k2_off121_inb : ∀ k2_t1 : Fin k2_t1_loop.trips, ∀ (k2_h14 : k2_cond14 k2_t1 = 1#1), ∀ a, (k2_off121 k2_t1) a + S1x20.size a ≤ S250x20.size a
  k2_t9_ok : k2_t9_loop.OK
  k2_off122_inb : ∀ k2_t9 : Fin k2_t9_loop.trips, ∀ a, (k2_off122 k2_t9) a + S1x1x16.size a ≤ S10x20x128.size a
  k2_off123_inb : ∀ k2_t9 : Fin k2_t9_loop.trips, ∀ (r : Fin 3), ∀ a, (k2_off123 k2_t9 (BitVec.ofNat 32 (1 + r.val))) a + S1x1x16.size a ≤ S10x20x128.size a
  k2_off124_inb : ∀ (k2_t1 : Fin k2_t1_loop.trips) (k2_t9 : Fin k2_t9_loop.trips), ∀ a, (k2_off124 k2_t1 k2_t9) a + S1x16.size a ≤ S250x80.size a
  k2_off125_inb : ∀ k2_t9 : Fin k2_t9_loop.trips, ∀ a, (k2_off125 k2_t9) a + S1x1x16.size a ≤ S10x20x128.size a
  k2_off126_inb : ∀ k2_t9 : Fin k2_t9_loop.trips, ∀ (r : Fin 3), ∀ a, (k2_off126 k2_t9 (BitVec.ofNat 32 (1 + r.val))) a + S1x1x16.size a ≤ S10x20x128.size a
  k2_off127_inb : ∀ (k2_t1 : Fin k2_t1_loop.trips) (k2_t9 : Fin k2_t9_loop.trips), ∀ a, (k2_off127 k2_t1 k2_t9) a + S1x16.size a ≤ S250x80.size a
  k2_off128_inb : ∀ k2_t9 : Fin k2_t9_loop.trips, ∀ a, (k2_off128 k2_t9) a + S1x1x16.size a ≤ S10x20x128.size a
  k2_off129_inb : ∀ k2_t9 : Fin k2_t9_loop.trips, ∀ (r : Fin 3), ∀ a, (k2_off129 k2_t9 (BitVec.ofNat 32 (1 + r.val))) a + S1x1x16.size a ≤ S10x20x128.size a
  k2_off130_inb : ∀ (k2_t1 : Fin k2_t1_loop.trips) (k2_t9 : Fin k2_t9_loop.trips), ∀ a, (k2_off130 k2_t1 k2_t9) a + S1x16.size a ≤ S250x80.size a
  k2_off131_inb : ∀ k2_t9 : Fin k2_t9_loop.trips, ∀ a, (k2_off131 k2_t9) a + S1x1x16.size a ≤ S10x20x128.size a
  k2_off132_inb : ∀ k2_t9 : Fin k2_t9_loop.trips, ∀ (r : Fin 3), ∀ a, (k2_off132 k2_t9 (BitVec.ofNat 32 (1 + r.val))) a + S1x1x16.size a ≤ S10x20x128.size a
  k2_off133_inb : ∀ (k2_t1 : Fin k2_t1_loop.trips) (k2_t9 : Fin k2_t9_loop.trips), ∀ a, (k2_off133 k2_t1 k2_t9) a + S1x16.size a ≤ S250x80.size a
  k2_off134_inb : ∀ k2_t9 : Fin k2_t9_loop.trips, ∀ a, (k2_off134 k2_t9) a + S1x1x16.size a ≤ S10x20x128.size a
  k2_off135_inb : ∀ k2_t9 : Fin k2_t9_loop.trips, ∀ (r : Fin 3), ∀ a, (k2_off135 k2_t9 (BitVec.ofNat 32 (1 + r.val))) a + S1x1x16.size a ≤ S10x20x128.size a
  k2_off136_inb : ∀ (k2_t1 : Fin k2_t1_loop.trips) (k2_t9 : Fin k2_t9_loop.trips), ∀ a, (k2_off136 k2_t1 k2_t9) a + S1x16.size a ≤ S250x80.size a
  k2_off137_inb : ∀ (i : grid2.Coords) (k2_t1 : Fin k2_t1_loop.trips), ∀ (k2_h15 : k2_cond15 k2_t1 = 1#1), ∀ a, (k2_off137 i k2_t1) a + S1x1x250x80.size a ≤ S32x5x250x80.size a
  k2_off138_inb : ∀ k2_t1 : Fin k2_t1_loop.trips, ∀ (k2_h16 : k2_cond16 k2_t1 = 1#1), ∀ a, (k2_off138 k2_t1) a + S1x20.size a ≤ S250x20.size a
  k2_t10_ok : k2_t10_loop.OK
  k2_off139_inb : ∀ k2_t10 : Fin k2_t10_loop.trips, ∀ a, (k2_off139 k2_t10) a + S1x1x16.size a ≤ S10x20x128.size a
  k2_off140_inb : ∀ k2_t10 : Fin k2_t10_loop.trips, ∀ (r : Fin 3), ∀ a, (k2_off140 k2_t10 (BitVec.ofNat 32 (1 + r.val))) a + S1x1x16.size a ≤ S10x20x128.size a
  k2_off141_inb : ∀ (k2_t1 : Fin k2_t1_loop.trips) (k2_t10 : Fin k2_t10_loop.trips), ∀ a, (k2_off141 k2_t1 k2_t10) a + S1x16.size a ≤ S250x80.size a
  k2_off142_inb : ∀ k2_t10 : Fin k2_t10_loop.trips, ∀ a, (k2_off142 k2_t10) a + S1x1x16.size a ≤ S10x20x128.size a
  k2_off143_inb : ∀ k2_t10 : Fin k2_t10_loop.trips, ∀ (r : Fin 3), ∀ a, (k2_off143 k2_t10 (BitVec.ofNat 32 (1 + r.val))) a + S1x1x16.size a ≤ S10x20x128.size a
  k2_off144_inb : ∀ (k2_t1 : Fin k2_t1_loop.trips) (k2_t10 : Fin k2_t10_loop.trips), ∀ a, (k2_off144 k2_t1 k2_t10) a + S1x16.size a ≤ S250x80.size a
  k2_off145_inb : ∀ k2_t10 : Fin k2_t10_loop.trips, ∀ a, (k2_off145 k2_t10) a + S1x1x16.size a ≤ S10x20x128.size a
  k2_off146_inb : ∀ k2_t10 : Fin k2_t10_loop.trips, ∀ (r : Fin 3), ∀ a, (k2_off146 k2_t10 (BitVec.ofNat 32 (1 + r.val))) a + S1x1x16.size a ≤ S10x20x128.size a
  k2_off147_inb : ∀ (k2_t1 : Fin k2_t1_loop.trips) (k2_t10 : Fin k2_t10_loop.trips), ∀ a, (k2_off147 k2_t1 k2_t10) a + S1x16.size a ≤ S250x80.size a
  k2_off148_inb : ∀ k2_t10 : Fin k2_t10_loop.trips, ∀ a, (k2_off148 k2_t10) a + S1x1x16.size a ≤ S10x20x128.size a
  k2_off149_inb : ∀ k2_t10 : Fin k2_t10_loop.trips, ∀ (r : Fin 3), ∀ a, (k2_off149 k2_t10 (BitVec.ofNat 32 (1 + r.val))) a + S1x1x16.size a ≤ S10x20x128.size a
  k2_off150_inb : ∀ (k2_t1 : Fin k2_t1_loop.trips) (k2_t10 : Fin k2_t10_loop.trips), ∀ a, (k2_off150 k2_t1 k2_t10) a + S1x16.size a ≤ S250x80.size a
  k2_off151_inb : ∀ k2_t10 : Fin k2_t10_loop.trips, ∀ a, (k2_off151 k2_t10) a + S1x1x16.size a ≤ S10x20x128.size a
  k2_off152_inb : ∀ k2_t10 : Fin k2_t10_loop.trips, ∀ (r : Fin 3), ∀ a, (k2_off152 k2_t10 (BitVec.ofNat 32 (1 + r.val))) a + S1x1x16.size a ≤ S10x20x128.size a
  k2_off153_inb : ∀ (k2_t1 : Fin k2_t1_loop.trips) (k2_t10 : Fin k2_t10_loop.trips), ∀ a, (k2_off153 k2_t1 k2_t10) a + S1x16.size a ≤ S250x80.size a
  k2_off154_inb : ∀ (i : grid2.Coords) (k2_t1 : Fin k2_t1_loop.trips), ∀ (k2_h17 : k2_cond17 k2_t1 = 1#1), ∀ a, (k2_off154 i k2_t1) a + S1x1x250x80.size a ≤ S32x5x250x80.size a
  k2_off155_inb : ∀ k2_t1 : Fin k2_t1_loop.trips, ∀ (k2_h18 : k2_cond18 k2_t1 = 1#1), ∀ a, (k2_off155 k2_t1) a + S1x20.size a ≤ S250x20.size a
  k2_t11_ok : k2_t11_loop.OK
  k2_off156_inb : ∀ k2_t11 : Fin k2_t11_loop.trips, ∀ a, (k2_off156 k2_t11) a + S1x1x16.size a ≤ S10x20x128.size a
  k2_off157_inb : ∀ k2_t11 : Fin k2_t11_loop.trips, ∀ (r : Fin 3), ∀ a, (k2_off157 k2_t11 (BitVec.ofNat 32 (1 + r.val))) a + S1x1x16.size a ≤ S10x20x128.size a
  k2_off158_inb : ∀ (k2_t1 : Fin k2_t1_loop.trips) (k2_t11 : Fin k2_t11_loop.trips), ∀ a, (k2_off158 k2_t1 k2_t11) a + S1x16.size a ≤ S250x80.size a
  k2_off159_inb : ∀ k2_t11 : Fin k2_t11_loop.trips, ∀ a, (k2_off159 k2_t11) a + S1x1x16.size a ≤ S10x20x128.size a
  k2_off160_inb : ∀ k2_t11 : Fin k2_t11_loop.trips, ∀ (r : Fin 3), ∀ a, (k2_off160 k2_t11 (BitVec.ofNat 32 (1 + r.val))) a + S1x1x16.size a ≤ S10x20x128.size a
  k2_off161_inb : ∀ (k2_t1 : Fin k2_t1_loop.trips) (k2_t11 : Fin k2_t11_loop.trips), ∀ a, (k2_off161 k2_t1 k2_t11) a + S1x16.size a ≤ S250x80.size a
  k2_off162_inb : ∀ k2_t11 : Fin k2_t11_loop.trips, ∀ a, (k2_off162 k2_t11) a + S1x1x16.size a ≤ S10x20x128.size a
  k2_off163_inb : ∀ k2_t11 : Fin k2_t11_loop.trips, ∀ (r : Fin 3), ∀ a, (k2_off163 k2_t11 (BitVec.ofNat 32 (1 + r.val))) a + S1x1x16.size a ≤ S10x20x128.size a
  k2_off164_inb : ∀ (k2_t1 : Fin k2_t1_loop.trips) (k2_t11 : Fin k2_t11_loop.trips), ∀ a, (k2_off164 k2_t1 k2_t11) a + S1x16.size a ≤ S250x80.size a
  k2_off165_inb : ∀ k2_t11 : Fin k2_t11_loop.trips, ∀ a, (k2_off165 k2_t11) a + S1x1x16.size a ≤ S10x20x128.size a
  k2_off166_inb : ∀ k2_t11 : Fin k2_t11_loop.trips, ∀ (r : Fin 3), ∀ a, (k2_off166 k2_t11 (BitVec.ofNat 32 (1 + r.val))) a + S1x1x16.size a ≤ S10x20x128.size a
  k2_off167_inb : ∀ (k2_t1 : Fin k2_t1_loop.trips) (k2_t11 : Fin k2_t11_loop.trips), ∀ a, (k2_off167 k2_t1 k2_t11) a + S1x16.size a ≤ S250x80.size a
  k2_off168_inb : ∀ k2_t11 : Fin k2_t11_loop.trips, ∀ a, (k2_off168 k2_t11) a + S1x1x16.size a ≤ S10x20x128.size a
  k2_off169_inb : ∀ k2_t11 : Fin k2_t11_loop.trips, ∀ (r : Fin 3), ∀ a, (k2_off169 k2_t11 (BitVec.ofNat 32 (1 + r.val))) a + S1x1x16.size a ≤ S10x20x128.size a
  k2_off170_inb : ∀ (k2_t1 : Fin k2_t1_loop.trips) (k2_t11 : Fin k2_t11_loop.trips), ∀ a, (k2_off170 k2_t1 k2_t11) a + S1x16.size a ≤ S250x80.size a
  k2_off171_inb : ∀ (i : grid2.Coords) (k2_t1 : Fin k2_t1_loop.trips), ∀ (k2_h19 : k2_cond19 k2_t1 = 1#1), ∀ a, (k2_off171 i k2_t1) a + S1x1x250x80.size a ≤ S32x5x250x80.size a
  k2_off172_inb : ∀ k2_t1 : Fin k2_t1_loop.trips, ∀ (k2_h20 : k2_cond20 k2_t1 = 1#1), ∀ a, (k2_off172 k2_t1) a + S1x20.size a ≤ S250x20.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x80.size a ≤ S40000x80.size a
  hwx3_0 : ∀ i : grid3.Coords, EltTy.bits .f32 = 32 ∨ (Rect.block (s := S40000x80) S5000x80.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x80.size a ≤ S2x80.size a
  hwx3_1 : ∀ i : grid3.Coords, EltTy.bits .f32 = 32 ∨ (Rect.block (s := S2x80) S2x80.size (cc3_transform_1 i) (hinb3_1 i)).WholeWords (EltTy.packing .f32)
  hrank4 : 0 < grid4.rank
  k4_off1_inb : ∀ i : grid4.Coords, ∀ a, (k4_off1 i) a + S80x5120.size a ≤ S80x40960.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5120x80.size a ≤ S40960x80.size a
  hwx4_0 : ∀ i : grid4.Coords, EltTy.bits .f32 = 32 ∨ (Rect.block (s := S40960x80) S5120x80.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x80.size a ≤ S2x80.size a
  hwx4_1 : ∀ i : grid4.Coords, EltTy.bits .f32 = 32 ∨ (Rect.block (s := S2x80) S2x80.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x80.size a ≤ S1x80.size a
  hwx4_2 : ∀ i : grid4.Coords, EltTy.bits .f32 = 32 ∨ (Rect.block (s := S1x80) S1x80.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x80.size a ≤ S1x80.size a
  hwx4_3 : ∀ i : grid4.Coords, EltTy.bits .f32 = 32 ∨ (Rect.block (s := S1x80) S1x80.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S80x40960.size a ≤ S80x40960.size a
  hwx4_4 : ∀ i : grid4.Coords, EltTy.bits .f32 = 32 ∨ (Rect.block (s := S80x40960) S80x40960.size (cc4_transform_4 i) (hinb4_4 i)).WholeWords (EltTy.packing .f32)

variable [Facts₀]

abbrev cc2_scratch3 : DmaSems sig S_ := SemArray.consecutive 10 S_ hcc2_scratch3
abbrev cc2_scratch4 : DmaSems sig S_ := SemArray.consecutive 11 S_ hcc2_scratch4
abbrev cc2_scratch5 : DmaSems sig S_ := SemArray.consecutive 12 S_ hcc2_scratch5
abbrev cc2_scratch6 : DmaSems sig S_ := SemArray.consecutive 13 S_ hcc2_scratch6
abbrev cc2_scratch7 : DmaSems sig S_ := SemArray.consecutive 14 S_ hcc2_scratch7
abbrev cc2_scratch8 : DmaSems sig S_ := SemArray.consecutive 15 S_ hcc2_scratch8
abbrev cc2_scratch9 : DmaSems sig S_ := SemArray.consecutive 16 S_ hcc2_scratch9
abbrev cc2_scratch10 : DmaSems sig S_ := SemArray.consecutive 17 S_ hcc2_scratch10
abbrev cc2_scratch11 : DmaSems sig S_ := SemArray.consecutive 18 S_ hcc2_scratch11
abbrev cc2_scratch12 : DmaSems sig S_ := SemArray.consecutive 19 S_ hcc2_scratch12
abbrev cc2_scoped0 : DmaSems sig S_ := SemArray.consecutive 20 S_ hcc2_scoped0
abbrev cc2_scoped1 : DmaSems sig S_ := SemArray.consecutive 21 S_ hcc2_scoped1
abbrev cc2_scoped2 : DmaSems sig S_ := SemArray.consecutive 22 S_ hcc2_scoped2
abbrev cc2_scoped3 : DmaSems sig S_ := SemArray.consecutive 23 S_ hcc2_scoped3
abbrev cc2_scoped4 : DmaSems sig S_ := SemArray.consecutive 24 S_ hcc2_scoped4
abbrev cc2_scoped5 : DmaSems sig S_ := SemArray.consecutive 25 S_ hcc2_scoped5
abbrev cc2_scoped6 : DmaSems sig S_ := SemArray.consecutive 26 S_ hcc2_scoped6
abbrev cc2_scoped7 : DmaSems sig S_ := SemArray.consecutive 27 S_ hcc2_scoped7
abbrev cc2_scoped8 : DmaSems sig S_ := SemArray.consecutive 28 S_ hcc2_scoped8
abbrev cc2_scoped9 : DmaSems sig S_ := SemArray.consecutive 29 S_ hcc2_scoped9
abbrev cc2_scoped10 : DmaSems sig S_ := SemArray.consecutive 30 S_ hcc2_scoped10
def dot_S256x5632_S80x256_S5632x80_0_1_1_0_n_n : DotDims S256x5632 S80x256 S5632x80 where
  lhsContracting := [0]
  rhsContracting := [1]
  lhsNonContracting := [1]
  rhsNonContracting := [0]
  lhsBatch := []
  rhsBatch := []
  wf := dot_S256x5632_S80x256_S5632x80_0_1_1_0_n_n_wf
def scatter_S6x4x4_S2_S6x3_01_2_12_0 : ScatterDims S6x4x4 S2 S6x3 where
  updateWindowDims := [0, 1]
  insertedWindowDims := [2]
  scatterDimsToOperandDims := [1, 2]
  indexVectorDim := 0
  wf := scatter_S6x4x4_S2_S6x3_01_2_12_0_wf
def dot_S6x4x4_S6x4x4_S6x4x4_2_1_1_2_0_0 : DotDims S6x4x4 S6x4x4 S6x4x4 where
  lhsContracting := [2]
  rhsContracting := [1]
  lhsNonContracting := [1]
  rhsNonContracting := [2]
  lhsBatch := [0]
  rhsBatch := [0]
  wf := dot_S6x4x4_S6x4x4_S6x4x4_2_1_1_2_0_0_wf
def dot_S3x3_S3x20000_S3x20000_0_0_1_1_n_n : DotDims S3x3 S3x20000 S3x20000 where
  lhsContracting := [0]
  rhsContracting := [0]
  lhsNonContracting := [1]
  rhsNonContracting := [1]
  lhsBatch := []
  rhsBatch := []
  wf := dot_S3x3_S3x20000_S3x20000_0_0_1_1_n_n_wf
def dot_S3x4_S4x20000_S3x20000_1_0_0_1_n_n : DotDims S3x4 S4x20000 S3x20000 where
  lhsContracting := [1]
  rhsContracting := [0]
  lhsNonContracting := [0]
  rhsNonContracting := [1]
  lhsBatch := []
  rhsBatch := []
  wf := dot_S3x4_S4x20000_S3x20000_1_0_0_1_n_n_wf
def dot_S80x80_S5120x80_S80x5120_1_1_0_0_n_n : DotDims S80x80 S5120x80 S80x5120 where
  lhsContracting := [1]
  rhsContracting := [1]
  lhsNonContracting := [0]
  rhsNonContracting := [0]
  lhsBatch := []
  rhsBatch := []
  wf := dot_S80x80_S5120x80_S80x5120_1_1_0_0_n_n_wf

abbrev win0_0 : Pipeline.Window sig grid0 :=
  Pipeline.Window.ofSpec (Memref.whole main_v1) S1x256x5632.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S80x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x5632x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S3x3.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v18) S6x3x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S15.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x1x20000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win3_0 : Pipeline.Window sig grid3 :=
  Pipeline.Window.ofSpec (Memref.whole main_v25) S5000x80.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S2x80.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond1 i == 1#1) && !(k3_cond2 i == 1#1) && !(k3_cond3 i == 1#1) | ⟨_ + 2, h⟩ => absurd h (Nat.not_lt.2 (Nat.le_add_left _ _))

abbrev win4_0 : Pipeline.Window sig grid4 :=
  Pipeline.Window.ofSpec (Memref.whole main_v28) S5120x80.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S2x80.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v29) S1x80.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v30) S1x80.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v31) S80x40960.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S1x6x256x64x176 : Shape := ⟨5, ![1, 6, 256, 64, 176]⟩
abbrev S1x1024x4 : Shape := ⟨3, ![1, 1024, 4]⟩
abbrev S1x6x3x256x704 : Shape := ⟨5, ![1, 6, 3, 256, 704]⟩
abbrev S1x6x4x4 : Shape := ⟨4, ![1, 6, 4, 4]⟩
abbrev S1x4x4 : Shape := ⟨3, ![1, 4, 4]⟩
abbrev S1 : Shape := ⟨1, ![1]⟩
abbrev S80x256 : Shape := ⟨2, ![80, 256]⟩
abbrev S80 : Shape := ⟨1, ![80]⟩
abbrev S3 : Shape := ⟨1, ![3]⟩
abbrev S200 : Shape := ⟨1, ![200]⟩
abbrev S4 : Shape := ⟨1, ![4]⟩
abbrev S200x200x4 : Shape := ⟨3, ![200, 200, 4]⟩
abbrev S1x200x200x4 : Shape := ⟨4, ![1, 200, 200, 4]⟩
abbrev S3x200x200x4 : Shape := ⟨4, ![3, 200, 200, 4]⟩
abbrev S_ : Shape := ⟨0, ![]⟩
abbrev S3x1x1x1 : Shape := ⟨4, ![3, 1, 1, 1]⟩
abbrev S6x256x64x176 : Shape := ⟨4, ![6, 256, 64, 176]⟩
abbrev S4x4 : Shape := ⟨2, ![4, 4]⟩
abbrev S3x1 : Shape := ⟨2, ![3, 1]⟩
abbrev S3x3 : Shape := ⟨2, ![3, 3]⟩
abbrev S6x4x4 : Shape := ⟨3, ![6, 4, 4]⟩
abbrev S6x4x1 : Shape := ⟨3, ![6, 4, 1]⟩
abbrev S6x4 : Shape := ⟨2, ![6, 4]⟩
abbrev S2 : Shape := ⟨1, ![2]⟩
abbrev S6x3 : Shape := ⟨2, ![6, 3]⟩
abbrev S6x3x4 : Shape := ⟨3, ![6, 3, 4]⟩
abbrev S1x3x160000 : Shape := ⟨3, ![1, 3, 160000]⟩
abbrev S1x3x1 : Shape := ⟨3, ![1, 3, 1]⟩
abbrev S1x3x3 : Shape := ⟨3, ![1, 3, 3]⟩
abbrev S3x160000 : Shape := ⟨2, ![3, 160000]⟩
abbrev S1x1x160000 : Shape := ⟨3, ![1, 1, 160000]⟩
abbrev S1x4x160000 : Shape := ⟨3, ![1, 4, 160000]⟩
abbrev S6x4x160000 : Shape := ⟨3, ![6, 4, 160000]⟩
abbrev S6x3x160000 : Shape := ⟨3, ![6, 3, 160000]⟩
abbrev S6x1x160000 : Shape := ⟨3, ![6, 1, 160000]⟩
abbrev S6x160000 : Shape := ⟨2, ![6, 160000]⟩
abbrev S6x1 : Shape := ⟨2, ![6, 1]⟩
abbrev S6 : Shape := ⟨1, ![6]⟩
abbrev S256x160000 : Shape := ⟨2, ![256, 160000]⟩
abbrev S1x160000 : Shape := ⟨2, ![1, 160000]⟩
abbrev S160000 : Shape := ⟨1, ![160000]⟩
abbrev S1x256x64x176 : Shape := ⟨4, ![1, 256, 64, 176]⟩
abbrev S256x64x176 : Shape := ⟨3, ![256, 64, 176]⟩
abbrev S160000x1 : Shape := ⟨2, ![160000, 1]⟩
abbrev S160000x2 : Shape := ⟨2, ![160000, 2]⟩
abbrev S256x200x200x4 : Shape := ⟨4, ![256, 200, 200, 4]⟩
abbrev S1x256x200x200x4 : Shape := ⟨5, ![1, 256, 200, 200, 4]⟩
abbrev S1x256x200x200 : Shape := ⟨4, ![1, 256, 200, 200]⟩
abbrev S1x256x200x200x1 : Shape := ⟨5, ![1, 256, 200, 200, 1]⟩
abbrev S80x1x200x200 : Shape := ⟨4, ![80, 1, 200, 200]⟩
abbrev S1x80x200x200 : Shape := ⟨4, ![1, 80, 200, 200]⟩
abbrev S1x80x1x1 : Shape := ⟨4, ![1, 80, 1, 1]⟩

abbrev nBuf : Space → Nat
  | .hbm => 448
  | .vmem => 0
  | .smem => 0
  | _ => 0

abbrev hbmTy0_0 (i : Nat) : BufTy := match i % 128 with
  | 0 => ⟨S1x6x256x64x176, .f32⟩
  | 1 => ⟨S1x1024x4, .f32⟩
  | 2 => ⟨S1x6x3x256x704, .f32⟩
  | 3 => ⟨S1x6x4x4, .f32⟩
  | 4 => ⟨S1x6x4x4, .f32⟩
  | 5 => ⟨S1x4x4, .f32⟩
  | 6 => ⟨S1, .f32⟩
  | 7 => ⟨S80x256, .f32⟩
  | 8 => ⟨S80, .f32⟩
  | 9 => ⟨S80, .f32⟩
  | 10 => ⟨S80, .f32⟩
  | 11 => ⟨S3, .f32⟩
  | 12 => ⟨S3, .f32⟩
  | 13 => ⟨S3, .f32⟩
  | 14 => ⟨S200, .i32⟩
  | 15 => ⟨S200, .i32⟩
  | 16 => ⟨S4, .i32⟩
  | 17 => ⟨S200x200x4, .i32⟩
  | 18 => ⟨S200x200x4, .i32⟩
  | 19 => ⟨S200x200x4, .i32⟩
  | 20 => ⟨S1x200x200x4, .i32⟩
  | 21 => ⟨S1x200x200x4, .i32⟩
  | 22 => ⟨S1x200x200x4, .i32⟩
  | 23 => ⟨S3x200x200x4, .i32⟩
  | 24 => ⟨S3x200x200x4, .f32⟩
  | 25 => ⟨S_, .f32⟩
  | 26 => ⟨S3, .f32⟩
  | 27 => ⟨S3, .f32⟩
  | 28 => ⟨S3, .f32⟩
  | 29 => ⟨S3, .f32⟩
  | 30 => ⟨S3x1x1x1, .f32⟩
  | 31 => ⟨S3x200x200x4, .f32⟩
  | 32 => ⟨S3x200x200x4, .f32⟩
  | 33 => ⟨S3x1x1x1, .f32⟩
  | 34 => ⟨S3x200x200x4, .f32⟩
  | 35 => ⟨S3x200x200x4, .f32⟩
  | 36 => ⟨S6x256x64x176, .f32⟩
  | 37 => ⟨S4x4, .f32⟩
  | 38 => ⟨S3x1, .f32⟩
  | 39 => ⟨S3, .f32⟩
  | 40 => ⟨S3x3, .f32⟩
  | 41 => ⟨S6x4x4, .f32⟩
  | 42 => ⟨S6x4x1, .f32⟩
  | 43 => ⟨S6x4, .f32⟩
  | 44 => ⟨S_, .i32⟩
  | 45 => ⟨S1, .i32⟩
  | 46 => ⟨S_, .i32⟩
  | 47 => ⟨S1, .i32⟩
  | 48 => ⟨S2, .i32⟩
  | 49 => ⟨S_, .f32⟩
  | 50 => ⟨S6x3, .f32⟩
  | 51 => ⟨S6x4x4, .f32⟩
  | 52 => ⟨S6x4x4, .f32⟩
  | 53 => ⟨S6x4x4, .f32⟩
  | 54 => ⟨S6x3x4, .f32⟩
  | 55 => ⟨S1x3x160000, .f32⟩
  | 56 => ⟨S1x3x1, .f32⟩
  | 57 => ⟨S1x3x160000, .f32⟩
  | 58 => ⟨S1x3x160000, .f32⟩
  | 59 => ⟨S3x3, .f32⟩
  | 60 => ⟨S1x3x3, .f32⟩
  | 61 => ⟨S3x3, .f32⟩
  | 62 => ⟨S3x160000, .f32⟩
  | 63 => ⟨S3x160000, .f32⟩
  | 64 => ⟨S1x3x160000, .f32⟩
  | 65 => ⟨S1x1x160000, .f32⟩
  | 66 => ⟨S_, .f32⟩
  | 67 => ⟨S1x1x160000, .f32⟩
  | 68 => ⟨S1x4x160000, .f32⟩
  | 69 => ⟨S6x4x160000, .f32⟩
  | 70 => ⟨S6x3x160000, .f32⟩
  | 71 => ⟨S6x1x160000, .f32⟩
  | 72 => ⟨S6x160000, .f32⟩
  | 73 => ⟨S6x1x160000, .f32⟩
  | 74 => ⟨S6x160000, .f32⟩
  | 75 => ⟨S6x160000, .f32⟩
  | 76 => ⟨S6x1, .f32⟩
  | 77 => ⟨S6, .f32⟩
  | 78 => ⟨S6x1, .f32⟩
  | 79 => ⟨S6x160000, .f32⟩
  | 80 => ⟨S6x160000, .f32⟩
  | 81 => ⟨S6x1x160000, .f32⟩
  | 82 => ⟨S6x160000, .f32⟩
  | 83 => ⟨S6x160000, .f32⟩
  | 84 => ⟨S6x1, .f32⟩
  | 85 => ⟨S6, .f32⟩
  | 86 => ⟨S6x1, .f32⟩
  | 87 => ⟨S6x160000, .f32⟩
  | 88 => ⟨S6x160000, .f32⟩
  | 89 => ⟨S_, .f32⟩
  | 90 => ⟨S6x160000, .f32⟩
  | 91 => ⟨S6x160000, .f32⟩
  | 92 => ⟨S6x160000, .f32⟩
  | 93 => ⟨S6x160000, .i32⟩
  | 94 => ⟨S_, .f32⟩
  | 95 => ⟨S6x160000, .f32⟩
  | 96 => ⟨S6x160000, .f32⟩
  | 97 => ⟨S6x160000, .f32⟩
  | 98 => ⟨S6x160000, .i32⟩
  | 99 => ⟨S_, .i32⟩
  | 100 => ⟨S6x160000, .i32⟩
  | 101 => ⟨S6x160000, .i1⟩
  | 102 => ⟨S_, .i32⟩
  | 103 => ⟨S6x160000, .i32⟩
  | 104 => ⟨S6x160000, .i1⟩
  | 105 => ⟨S6x160000, .i1⟩
  | 106 => ⟨S_, .i32⟩
  | 107 => ⟨S6x160000, .i32⟩
  | 108 => ⟨S6x160000, .i1⟩
  | 109 => ⟨S6x160000, .i1⟩
  | 110 => ⟨S_, .i32⟩
  | 111 => ⟨S6x160000, .i32⟩
  | 112 => ⟨S6x160000, .i1⟩
  | 113 => ⟨S6x160000, .i1⟩
  | 114 => ⟨S_, .f32⟩
  | 115 => ⟨S6x160000, .f32⟩
  | 116 => ⟨S6x160000, .i1⟩
  | 117 => ⟨S6x160000, .i1⟩
  | 118 => ⟨S_, .f32⟩
  | 119 => ⟨S256x160000, .f32⟩
  | 120 => ⟨S1x160000, .i32⟩
  | 121 => ⟨S160000, .i32⟩
  | 122 => ⟨S_, .i32⟩
  | 123 => ⟨S_, .i32⟩
  | 124 => ⟨S_, .i32⟩
  | 125 => ⟨S160000, .i32⟩
  | 126 => ⟨S160000, .i32⟩
  | 127 => ⟨S_, .i32⟩
  | _ => ⟨S1x6x256x64x176, .f32⟩

abbrev hbmTy0_1 (i : Nat) : BufTy := match i % 128 with
  | 0 => ⟨S160000, .i32⟩
  | 1 => ⟨S160000, .i32⟩
  | 2 => ⟨S1x160000, .i32⟩
  | 3 => ⟨S160000, .i32⟩
  | 4 => ⟨S_, .i32⟩
  | 5 => ⟨S_, .i32⟩
  | 6 => ⟨S_, .i32⟩
  | 7 => ⟨S160000, .i32⟩
  | 8 => ⟨S160000, .i32⟩
  | 9 => ⟨S_, .i32⟩
  | 10 => ⟨S160000, .i32⟩
  | 11 => ⟨S160000, .i32⟩
  | 12 => ⟨S1x256x64x176, .f32⟩
  | 13 => ⟨S256x64x176, .f32⟩
  | 14 => ⟨S_, .i32⟩
  | 15 => ⟨S160000, .i32⟩
  | 16 => ⟨S160000, .i1⟩
  | 17 => ⟨S_, .i32⟩
  | 18 => ⟨S160000, .i32⟩
  | 19 => ⟨S160000, .i32⟩
  | 20 => ⟨S160000, .i32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S160000x1, .i32⟩
  | 29 => ⟨S160000x1, .i32⟩
  | 30 => ⟨S160000x2, .i32⟩
  | 31 => ⟨S256x160000, .f32⟩
  | 32 => ⟨S1x160000, .i1⟩
  | 33 => ⟨S160000, .i1⟩
  | 34 => ⟨S1x160000, .i1⟩
  | 35 => ⟨S256x160000, .i1⟩
  | 36 => ⟨S256x160000, .f32⟩
  | 37 => ⟨S1x160000, .i32⟩
  | 38 => ⟨S160000, .i32⟩
  | 39 => ⟨S_, .i32⟩
  | 40 => ⟨S_, .i32⟩
  | 41 => ⟨S_, .i32⟩
  | 42 => ⟨S160000, .i32⟩
  | 43 => ⟨S160000, .i32⟩
  | 44 => ⟨S_, .i32⟩
  | 45 => ⟨S160000, .i32⟩
  | 46 => ⟨S160000, .i32⟩
  | 47 => ⟨S1x160000, .i32⟩
  | 48 => ⟨S160000, .i32⟩
  | 49 => ⟨S_, .i32⟩
  | 50 => ⟨S_, .i32⟩
  | 51 => ⟨S_, .i32⟩
  | 52 => ⟨S160000, .i32⟩
  | 53 => ⟨S160000, .i32⟩
  | 54 => ⟨S_, .i32⟩
  | 55 => ⟨S160000, .i32⟩
  | 56 => ⟨S160000, .i32⟩
  | 57 => ⟨S1x256x64x176, .f32⟩
  | 58 => ⟨S256x64x176, .f32⟩
  | 59 => ⟨S_, .i32⟩
  | 60 => ⟨S160000, .i32⟩
  | 61 => ⟨S160000, .i1⟩
  | 62 => ⟨S_, .i32⟩
  | 63 => ⟨S160000, .i32⟩
  | 64 => ⟨S160000, .i32⟩
  | 65 => ⟨S160000, .i32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S160000x1, .i32⟩
  | 75 => ⟨S160000x2, .i32⟩
  | 76 => ⟨S256x160000, .f32⟩
  | 77 => ⟨S1x160000, .i1⟩
  | 78 => ⟨S160000, .i1⟩
  | 79 => ⟨S1x160000, .i1⟩
  | 80 => ⟨S256x160000, .i1⟩
  | 81 => ⟨S256x160000, .f32⟩
  | 82 => ⟨S1x160000, .i32⟩
  | 83 => ⟨S160000, .i32⟩
  | 84 => ⟨S_, .i32⟩
  | 85 => ⟨S_, .i32⟩
  | 86 => ⟨S_, .i32⟩
  | 87 => ⟨S160000, .i32⟩
  | 88 => ⟨S160000, .i32⟩
  | 89 => ⟨S_, .i32⟩
  | 90 => ⟨S160000, .i32⟩
  | 91 => ⟨S160000, .i32⟩
  | 92 => ⟨S1x160000, .i32⟩
  | 93 => ⟨S160000, .i32⟩
  | 94 => ⟨S_, .i32⟩
  | 95 => ⟨S_, .i32⟩
  | 96 => ⟨S_, .i32⟩
  | 97 => ⟨S160000, .i32⟩
  | 98 => ⟨S160000, .i32⟩
  | 99 => ⟨S_, .i32⟩
  | 100 => ⟨S160000, .i32⟩
  | 101 => ⟨S160000, .i32⟩
  | 102 => ⟨S1x256x64x176, .f32⟩
  | 103 => ⟨S256x64x176, .f32⟩
  | 104 => ⟨S_, .i32⟩
  | 105 => ⟨S160000, .i32⟩
  | 106 => ⟨S160000, .i1⟩
  | 107 => ⟨S_, .i32⟩
  | 108 => ⟨S160000, .i32⟩
  | 109 => ⟨S160000, .i32⟩
  | 110 => ⟨S160000, .i32⟩
  | 111 => ⟨S_, .i32⟩
  | 112 => ⟨S160000, .i32⟩
  | 113 => ⟨S160000, .i1⟩
  | 114 => ⟨S_, .i32⟩
  | 115 => ⟨S160000, .i32⟩
  | 116 => ⟨S160000, .i32⟩
  | 117 => ⟨S160000, .i32⟩
  | 118 => ⟨S160000x1, .i32⟩
  | 119 => ⟨S160000x1, .i32⟩
  | 120 => ⟨S160000x2, .i32⟩
  | 121 => ⟨S256x160000, .f32⟩
  | 122 => ⟨S1x160000, .i1⟩
  | 123 => ⟨S160000, .i1⟩
  | 124 => ⟨S1x160000, .i1⟩
  | 125 => ⟨S256x160000, .i1⟩
  | 126 => ⟨S256x160000, .f32⟩
  | 127 => ⟨S1x160000, .i32⟩
  | _ => ⟨S1x6x256x64x176, .f32⟩

abbrev hbmTy0_2 (i : Nat) : BufTy := match i % 128 with
  | 0 => ⟨S160000, .i32⟩
  | 1 => ⟨S_, .i32⟩
  | 2 => ⟨S_, .i32⟩
  | 3 => ⟨S_, .i32⟩
  | 4 => ⟨S160000, .i32⟩
  | 5 => ⟨S160000, .i32⟩
  | 6 => ⟨S_, .i32⟩
  | 7 => ⟨S160000, .i32⟩
  | 8 => ⟨S160000, .i32⟩
  | 9 => ⟨S1x160000, .i32⟩
  | 10 => ⟨S160000, .i32⟩
  | 11 => ⟨S_, .i32⟩
  | 12 => ⟨S_, .i32⟩
  | 13 => ⟨S_, .i32⟩
  | 14 => ⟨S160000, .i32⟩
  | 15 => ⟨S160000, .i32⟩
  | 16 => ⟨S_, .i32⟩
  | 17 => ⟨S160000, .i32⟩
  | 18 => ⟨S160000, .i32⟩
  | 19 => ⟨S1x256x64x176, .f32⟩
  | 20 => ⟨S256x64x176, .f32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S160000x1, .i32⟩
  | 37 => ⟨S160000x2, .i32⟩
  | 38 => ⟨S256x160000, .f32⟩
  | 39 => ⟨S1x160000, .i1⟩
  | 40 => ⟨S160000, .i1⟩
  | 41 => ⟨S1x160000, .i1⟩
  | 42 => ⟨S256x160000, .i1⟩
  | 43 => ⟨S256x160000, .f32⟩
  | 44 => ⟨S1x160000, .i32⟩
  | 45 => ⟨S160000, .i32⟩
  | 46 => ⟨S_, .i32⟩
  | 47 => ⟨S_, .i32⟩
  | 48 => ⟨S_, .i32⟩
  | 49 => ⟨S160000, .i32⟩
  | 50 => ⟨S160000, .i32⟩
  | 51 => ⟨S_, .i32⟩
  | 52 => ⟨S160000, .i32⟩
  | 53 => ⟨S160000, .i32⟩
  | 54 => ⟨S1x160000, .i32⟩
  | 55 => ⟨S160000, .i32⟩
  | 56 => ⟨S_, .i32⟩
  | 57 => ⟨S_, .i32⟩
  | 58 => ⟨S_, .i32⟩
  | 59 => ⟨S160000, .i32⟩
  | 60 => ⟨S160000, .i32⟩
  | 61 => ⟨S_, .i32⟩
  | 62 => ⟨S160000, .i32⟩
  | 63 => ⟨S160000, .i32⟩
  | 64 => ⟨S1x256x64x176, .f32⟩
  | 65 => ⟨S256x64x176, .f32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S_, .i32⟩
  | 74 => ⟨S160000, .i32⟩
  | 75 => ⟨S160000, .i1⟩
  | 76 => ⟨S_, .i32⟩
  | 77 => ⟨S160000, .i32⟩
  | 78 => ⟨S160000, .i32⟩
  | 79 => ⟨S160000, .i32⟩
  | 80 => ⟨S160000x1, .i32⟩
  | 81 => ⟨S160000x1, .i32⟩
  | 82 => ⟨S160000x2, .i32⟩
  | 83 => ⟨S256x160000, .f32⟩
  | 84 => ⟨S1x160000, .i1⟩
  | 85 => ⟨S160000, .i1⟩
  | 86 => ⟨S1x160000, .i1⟩
  | 87 => ⟨S256x160000, .i1⟩
  | 88 => ⟨S256x160000, .f32⟩
  | 89 => ⟨S1x160000, .i32⟩
  | 90 => ⟨S160000, .i32⟩
  | 91 => ⟨S_, .i32⟩
  | 92 => ⟨S_, .i32⟩
  | 93 => ⟨S_, .i32⟩
  | 94 => ⟨S160000, .i32⟩
  | 95 => ⟨S160000, .i32⟩
  | 96 => ⟨S_, .i32⟩
  | 97 => ⟨S160000, .i32⟩
  | 98 => ⟨S160000, .i32⟩
  | 99 => ⟨S1x160000, .i32⟩
  | 100 => ⟨S160000, .i32⟩
  | 101 => ⟨S_, .i32⟩
  | 102 => ⟨S_, .i32⟩
  | 103 => ⟨S_, .i32⟩
  | 104 => ⟨S160000, .i32⟩
  | 105 => ⟨S160000, .i32⟩
  | 106 => ⟨S_, .i32⟩
  | 107 => ⟨S160000, .i32⟩
  | 108 => ⟨S160000, .i32⟩
  | 109 => ⟨S1x256x64x176, .f32⟩
  | 110 => ⟨S256x64x176, .f32⟩
  | 111 => ⟨S_, .i32⟩
  | 112 => ⟨S160000, .i32⟩
  | 113 => ⟨S160000, .i1⟩
  | 114 => ⟨S_, .i32⟩
  | 115 => ⟨S160000, .i32⟩
  | 116 => ⟨S160000, .i32⟩
  | 117 => ⟨S160000, .i32⟩
  | 118 => ⟨S_, .i32⟩
  | 119 => ⟨S160000, .i32⟩
  | 120 => ⟨S160000, .i1⟩
  | 121 => ⟨S_, .i32⟩
  | 122 => ⟨S160000, .i32⟩
  | 123 => ⟨S160000, .i32⟩
  | 124 => ⟨S160000, .i32⟩
  | 125 => ⟨S160000x1, .i32⟩
  | 126 => ⟨S160000x1, .i32⟩
  | 127 => ⟨S160000x2, .i32⟩
  | _ => ⟨S1x6x256x64x176, .f32⟩

abbrev hbmTy0_3 (i : Nat) : BufTy := match i % 128 with
  | 0 => ⟨S256x160000, .f32⟩
  | 1 => ⟨S1x160000, .i1⟩
  | 2 => ⟨S160000, .i1⟩
  | 3 => ⟨S1x160000, .i1⟩
  | 4 => ⟨S256x160000, .i1⟩
  | 5 => ⟨S256x160000, .f32⟩
  | 6 => ⟨S256x200x200x4, .f32⟩
  | 7 => ⟨S1x256x200x200x4, .f32⟩
  | 8 => ⟨S_, .f32⟩
  | 9 => ⟨S1x256x200x200, .f32⟩
  | 10 => ⟨S1x256x200x200x1, .f32⟩
  | 11 => ⟨S1x256x200x200, .f32⟩
  | 12 => ⟨S80x1x200x200, .f32⟩
  | 13 => ⟨S1x80x200x200, .f32⟩
  | 14 => ⟨S1x80x1x1, .f32⟩
  | 15 => ⟨S1x80x200x200, .f32⟩
  | 16 => ⟨S1x80x200x200, .f32⟩
  | 17 => ⟨S_, .f32⟩
  | 18 => ⟨S80, .f32⟩
  | 19 => ⟨S1x80x1x1, .f32⟩
  | 20 => ⟨S_, .f32⟩
  | 21 => ⟨S1x80x1x1, .f32⟩
  | 22 => ⟨S1x80x1x1, .f32⟩
  | 23 => ⟨S_, .i32⟩
  | 24 => ⟨S_, .f32⟩
  | 25 => ⟨S80, .f32⟩
  | 26 => ⟨S1x80x1x1, .f32⟩
  | 27 => ⟨S_, .f32⟩
  | 28 => ⟨S1x80x1x1, .f32⟩
  | 29 => ⟨S1x80x1x1, .f32⟩
  | 30 => ⟨S1x80x200x200, .f32⟩
  | 31 => ⟨S1x80x200x200, .f32⟩
  | 32 => ⟨S1x80x200x200, .f32⟩
  | 33 => ⟨S_, .f32⟩
  | 34 => ⟨S_, .f32⟩
  | 35 => ⟨S_, .f32⟩
  | 36 => ⟨S_, .f32⟩
  | 37 => ⟨S80, .f32⟩
  | 38 => ⟨S1x80x1x1, .f32⟩
  | 39 => ⟨S1x80x1x1, .f32⟩
  | 40 => ⟨S1x80x1x1, .f32⟩
  | 41 => ⟨S_, .f32⟩
  | 42 => ⟨S_, .i1⟩
  | 43 => ⟨S_, .f32⟩
  | 44 => ⟨S_, .f32⟩
  | 45 => ⟨S1x80x1x1, .f32⟩
  | 46 => ⟨S1x80x1x1, .f32⟩
  | 47 => ⟨S1x80x200x200, .f32⟩
  | 48 => ⟨S1x80x200x200, .f32⟩
  | 49 => ⟨S_, .f32⟩
  | 50 => ⟨S1x80x1x1, .f32⟩
  | 51 => ⟨S1x80x1x1, .f32⟩
  | 52 => ⟨S1x80x1x1, .f32⟩
  | 53 => ⟨S1x80x200x200, .f32⟩
  | 54 => ⟨S1x80x200x200, .f32⟩
  | 55 => ⟨S1x80x1x1, .f32⟩
  | 56 => ⟨S1x80x200x200, .f32⟩
  | 57 => ⟨S1x80x200x200, .f32⟩
  | 58 => ⟨S1x80x1x1, .f32⟩
  | 59 => ⟨S1x80x200x200, .f32⟩
  | 60 => ⟨S1x80x200x200, .f32⟩
  | 61 => ⟨S_, .f32⟩
  | 62 => ⟨S1x80x200x200, .f32⟩
  | 63 => ⟨S1x80x200x200, .f32⟩
  | _ => ⟨S1x6x256x64x176, .f32⟩

abbrev hbmTy (i : Nat) : BufTy := match i / 128 with
  | 0 => hbmTy0_0 i
  | 1 => hbmTy0_1 i
  | 2 => hbmTy0_2 i
  | 3 => hbmTy0_3 i
  | _ => ⟨S1x6x256x64x176, .f32⟩

abbrev bufTy : (tb : Table) → Fin (tcTables nBuf tb) → BufTy
  | .hbm, ⟨i, _⟩ => hbmTy i
  | _, _ => ⟨S1x6x256x64x176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_v29 : Ref sig .tc := ⟨.hbm, 45, rfl⟩
abbrev main_c_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_6 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_8 : Ref sig .tc := ⟨.hbm, 99, rfl⟩
abbrev main_v78 : Ref sig .tc := ⟨.hbm, 100, rfl⟩
abbrev main_v79 : Ref sig .tc := ⟨.hbm, 101, rfl⟩
abbrev main_c_9 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_10 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_11 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_12 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_13 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c_14 : Ref sig .tc := ⟨.hbm, 122, rfl⟩
abbrev main_c_15 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_16 : Ref sig .tc := ⟨.hbm, 132, rfl⟩
abbrev main_c_17 : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_18 : Ref sig .tc := ⟨.hbm, 142, rfl⟩
abbrev main_v101 : Ref sig .tc := ⟨.hbm, 143, rfl⟩
abbrev main_v102 : Ref sig .tc := ⟨.hbm, 144, rfl⟩
abbrev main_c_19 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_20 : Ref sig .tc := ⟨.hbm, 149, rfl⟩
abbrev main_v106 : Ref sig .tc := ⟨.hbm, 150, rfl⟩
abbrev main_v107 : Ref sig .tc := ⟨.hbm, 151, rfl⟩
abbrev main_c_21 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_call4_v0 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_c_22 : Ref sig .tc := ⟨.hbm, 167, rfl⟩
abbrev main_c_23 : Ref sig .tc := ⟨.hbm, 168, rfl⟩
abbrev main_call5_v0 : Ref sig .tc := ⟨.hbm, 169, rfl⟩
abbrev main_call5_v1 : Ref sig .tc := ⟨.hbm, 170, rfl⟩
abbrev main_call5_v2 : Ref sig .tc := ⟨.hbm, 171, rfl⟩
abbrev main_call5_v3 : Ref sig .tc := ⟨.hbm, 172, rfl⟩
abbrev main_call5_v4 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_c_24 : Ref sig .tc := ⟨.hbm, 177, rfl⟩
abbrev main_c_25 : Ref sig .tc := ⟨.hbm, 178, rfl⟩
abbrev main_call6_v0 : Ref sig .tc := ⟨.hbm, 179, rfl⟩
abbrev main_call6_v1 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_c_26 : Ref sig .tc := ⟨.hbm, 187, rfl⟩
abbrev main_v127 : Ref sig .tc := ⟨.hbm, 188, rfl⟩
abbrev main_v128 : Ref sig .tc := ⟨.hbm, 189, rfl⟩
abbrev main_c_27 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_c_28 : Ref sig .tc := ⟨.hbm, 194, rfl⟩
abbrev main_v132 : Ref sig .tc := ⟨.hbm, 195, rfl⟩
abbrev main_v133 : Ref sig .tc := ⟨.hbm, 196, rfl⟩
abbrev main_c_29 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_call7_v0 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_c_30 : Ref sig .tc := ⟨.hbm, 212, rfl⟩
abbrev main_c_31 : Ref sig .tc := ⟨.hbm, 213, rfl⟩
abbrev main_call8_v0 : Ref sig .tc := ⟨.hbm, 214, rfl⟩
abbrev main_call8_v1 : Ref sig .tc := ⟨.hbm, 215, rfl⟩
abbrev main_call8_v2 : Ref sig .tc := ⟨.hbm, 216, rfl⟩
abbrev main_call8_v3 : Ref sig .tc := ⟨.hbm, 217, rfl⟩
abbrev main_call8_v4 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_c_32 : Ref sig .tc := ⟨.hbm, 222, rfl⟩
abbrev main_c_33 : Ref sig .tc := ⟨.hbm, 223, rfl⟩
abbrev main_call9_v0 : Ref sig .tc := ⟨.hbm, 224, rfl⟩
abbrev main_call9_v1 : Ref sig .tc := ⟨.hbm, 225, rfl⟩
abbrev main_call9_v2 : Ref sig .tc := ⟨.hbm, 226, rfl⟩
abbrev main_call9_v3 : Ref sig .tc := ⟨.hbm, 227, rfl⟩
abbrev main_call9_v4 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_c_34 : Ref sig .tc := ⟨.hbm, 232, rfl⟩
abbrev main_v153 : Ref sig .tc := ⟨.hbm, 233, rfl⟩
abbrev main_v154 : Ref sig .tc := ⟨.hbm, 234, rfl⟩
abbrev main_c_35 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_c_36 : Ref sig .tc := ⟨.hbm, 239, rfl⟩
abbrev main_v158 : Ref sig .tc := ⟨.hbm, 240, rfl⟩
abbrev main_v159 : Ref sig .tc := ⟨.hbm, 241, rfl⟩
abbrev main_c_37 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_call10_v0 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_c_38 : Ref sig .tc := ⟨.hbm, 257, rfl⟩
abbrev main_c_39 : Ref sig .tc := ⟨.hbm, 258, rfl⟩
abbrev main_call11_v0 : Ref sig .tc := ⟨.hbm, 259, rfl⟩
abbrev main_call11_v1 : Ref sig .tc := ⟨.hbm, 260, rfl⟩
abbrev main_call11_v2 : Ref sig .tc := ⟨.hbm, 261, rfl⟩
abbrev main_call11_v3 : Ref sig .tc := ⟨.hbm, 262, rfl⟩
abbrev main_call11_v4 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_c_40 : Ref sig .tc := ⟨.hbm, 267, rfl⟩
abbrev main_c_41 : Ref sig .tc := ⟨.hbm, 268, rfl⟩
abbrev main_call12_v0 : Ref sig .tc := ⟨.hbm, 269, rfl⟩
abbrev main_call12_v1 : Ref sig .tc := ⟨.hbm, 270, rfl⟩
abbrev main_call12_v2 : Ref sig .tc := ⟨.hbm, 271, rfl⟩
abbrev main_call12_v3 : Ref sig .tc := ⟨.hbm, 272, rfl⟩
abbrev main_call12_v4 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_c_42 : Ref sig .tc := ⟨.hbm, 277, rfl⟩
abbrev main_v179 : Ref sig .tc := ⟨.hbm, 278, rfl⟩
abbrev main_v180 : Ref sig .tc := ⟨.hbm, 279, rfl⟩
abbrev main_c_43 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_c_44 : Ref sig .tc := ⟨.hbm, 284, rfl⟩
abbrev main_v184 : Ref sig .tc := ⟨.hbm, 285, rfl⟩
abbrev main_v185 : Ref sig .tc := ⟨.hbm, 286, rfl⟩
abbrev main_c_45 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_call13_v0 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_c_46 : Ref sig .tc := ⟨.hbm, 302, rfl⟩
abbrev main_c_47 : Ref sig .tc := ⟨.hbm, 303, rfl⟩
abbrev main_call14_v0 : Ref sig .tc := ⟨.hbm, 304, rfl⟩
abbrev main_call14_v1 : Ref sig .tc := ⟨.hbm, 305, rfl⟩
abbrev main_call14_v2 : Ref sig .tc := ⟨.hbm, 306, rfl⟩
abbrev main_call14_v3 : Ref sig .tc := ⟨.hbm, 307, rfl⟩
abbrev main_call14_v4 : Ref sig .tc := ⟨.hbm, 308, rfl⟩
abbrev main_v199 : Ref sig .tc := ⟨.hbm, 309, rfl⟩
abbrev main_v200 : Ref sig .tc := ⟨.hbm, 310, rfl⟩
abbrev main_v201 : Ref sig .tc := ⟨.hbm, 311, rfl⟩
abbrev main_c_48 : Ref sig .tc := ⟨.hbm, 312, rfl⟩
abbrev main_c_49 : Ref sig .tc := ⟨.hbm, 313, rfl⟩
abbrev main_call15_v0 : Ref sig .tc := ⟨.hbm, 314, rfl⟩
abbrev main_call15_v1 : Ref sig .tc := ⟨.hbm, 315, rfl⟩
abbrev main_call15_v2 : Ref sig .tc := ⟨.hbm, 316, rfl⟩
abbrev main_call15_v3 : Ref sig .tc := ⟨.hbm, 317, rfl⟩
abbrev main_call15_v4 : Ref sig .tc := ⟨.hbm, 318, rfl⟩
abbrev main_v202 : Ref sig .tc := ⟨.hbm, 319, rfl⟩
abbrev main_v203 : Ref sig .tc := ⟨.hbm, 320, rfl⟩
abbrev main_v204 : Ref sig .tc := ⟨.hbm, 321, rfl⟩
abbrev main_c_50 : Ref sig .tc := ⟨.hbm, 322, rfl⟩
abbrev main_v205 : Ref sig .tc := ⟨.hbm, 323, rfl⟩
abbrev main_v206 : Ref sig .tc := ⟨.hbm, 324, rfl⟩
abbrev main_c_51 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_c_52 : Ref sig .tc := ⟨.hbm, 329, rfl⟩
abbrev main_v210 : Ref sig .tc := ⟨.hbm, 330, rfl⟩
abbrev main_v211 : Ref sig .tc := ⟨.hbm, 331, rfl⟩
abbrev main_c_53 : Ref sig .tc := ⟨.hbm, 332, rfl⟩
abbrev main_v212 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_v217 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_call16_v0 : Ref sig .tc := ⟨.hbm, 343, rfl⟩
abbrev main_v222 : Ref sig .tc := ⟨.hbm, 344, rfl⟩
abbrev main_v223 : Ref sig .tc := ⟨.hbm, 345, rfl⟩
abbrev main_v224 : Ref sig .tc := ⟨.hbm, 346, rfl⟩
abbrev main_c_54 : Ref sig .tc := ⟨.hbm, 347, rfl⟩
abbrev main_c_55 : Ref sig .tc := ⟨.hbm, 348, rfl⟩
abbrev main_call17_v0 : Ref sig .tc := ⟨.hbm, 349, rfl⟩
abbrev main_call17_v1 : Ref sig .tc := ⟨.hbm, 350, rfl⟩
abbrev main_call17_v2 : Ref sig .tc := ⟨.hbm, 351, rfl⟩
abbrev main_call17_v3 : Ref sig .tc := ⟨.hbm, 352, rfl⟩
abbrev main_call17_v4 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_c_56 : Ref sig .tc := ⟨.hbm, 357, rfl⟩
abbrev main_c_57 : Ref sig .tc := ⟨.hbm, 358, rfl⟩
abbrev main_call18_v0 : Ref sig .tc := ⟨.hbm, 359, rfl⟩
abbrev main_call18_v1 : Ref sig .tc := ⟨.hbm, 360, rfl⟩
abbrev main_call18_v2 : Ref sig .tc := ⟨.hbm, 361, rfl⟩
abbrev main_call18_v3 : Ref sig .tc := ⟨.hbm, 362, rfl⟩
abbrev main_call18_v4 : Ref sig .tc := ⟨.hbm, 363, rfl⟩
abbrev main_v228 : Ref sig .tc := ⟨.hbm, 364, rfl⟩
abbrev main_v229 : Ref sig .tc := ⟨.hbm, 365, rfl⟩
abbrev main_v230 : Ref sig .tc := ⟨.hbm, 366, rfl⟩
abbrev main_c_58 : Ref sig .tc := ⟨.hbm, 367, rfl⟩
abbrev main_v231 : Ref sig .tc := ⟨.hbm, 368, rfl⟩
abbrev main_v232 : Ref sig .tc := ⟨.hbm, 369, rfl⟩
abbrev main_c_59 : Ref sig .tc := ⟨.hbm, 370, rfl⟩
abbrev main_v233 : Ref sig .tc := ⟨.hbm, 371, rfl⟩
abbrev main_v234 : Ref sig .tc := ⟨.hbm, 372, rfl⟩
abbrev main_v235 : Ref sig .tc := ⟨.hbm, 373, rfl⟩
abbrev main_c_60 : Ref sig .tc := ⟨.hbm, 374, rfl⟩
abbrev main_v236 : Ref sig .tc := ⟨.hbm, 375, rfl⟩
abbrev main_v237 : Ref sig .tc := ⟨.hbm, 376, rfl⟩
abbrev main_c_61 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_v247 : Ref sig .tc := ⟨.hbm, 387, rfl⟩
abbrev main_call19_v0 : Ref sig .tc := ⟨.hbm, 388, rfl⟩
abbrev main_v248 : Ref sig .tc := ⟨.hbm, 389, rfl⟩
abbrev main_v249 : Ref sig .tc := ⟨.hbm, 390, rfl⟩
abbrev main_v250 : Ref sig .tc := ⟨.hbm, 391, rfl⟩
abbrev main_cst_62 : Ref sig .tc := ⟨.hbm, 392, rfl⟩
abbrev main_v251 : Ref sig .tc := ⟨.hbm, 393, rfl⟩
abbrev main_v252 : Ref sig .tc := ⟨.hbm, 394, rfl⟩
abbrev main_v253 : Ref sig .tc := ⟨.hbm, 395, rfl⟩
abbrev main_v254 : Ref sig .tc := ⟨.hbm, 396, rfl⟩
abbrev main_v255 : Ref sig .tc := ⟨.hbm, 397, rfl⟩
abbrev main_v256 : Ref sig .tc := ⟨.hbm, 398, rfl⟩
abbrev main_v257 : Ref sig .tc := ⟨.hbm, 399, rfl⟩
abbrev main_v258 : Ref sig .tc := ⟨.hbm, 400, rfl⟩
abbrev main_cst_63 : Ref sig .tc := ⟨.hbm, 401, rfl⟩
abbrev main_v259 : Ref sig .tc := ⟨.hbm, 402, rfl⟩
abbrev main_v260 : Ref sig .tc := ⟨.hbm, 403, rfl⟩
abbrev main_cst_64 : Ref sig .tc := ⟨.hbm, 404, rfl⟩
abbrev main_v261 : Ref sig .tc := ⟨.hbm, 405, rfl⟩
abbrev main_v262 : Ref sig .tc := ⟨.hbm, 406, rfl⟩
abbrev main_c_65 : Ref sig .tc := ⟨.hbm, 407, rfl⟩
abbrev main_call20_cst : Ref sig .tc := ⟨.hbm, 408, rfl⟩
abbrev main_call20_v0 : Ref sig .tc := ⟨.hbm, 409, rfl⟩
abbrev main_call20_v1 : Ref sig .tc := ⟨.hbm, 410, rfl⟩
abbrev main_call20_cst_0 : Ref sig .tc := ⟨.hbm, 411, rfl⟩
abbrev main_call20_v2 : Ref sig .tc := ⟨.hbm, 412, rfl⟩
abbrev main_call20_v3 : Ref sig .tc := ⟨.hbm, 413, rfl⟩
abbrev main_call20_v4 : Ref sig .tc := ⟨.hbm, 414, rfl⟩
abbrev main_call20_v5 : Ref sig .tc := ⟨.hbm, 415, rfl⟩
abbrev main_call20_v6 : Ref sig .tc := ⟨.hbm, 416, rfl⟩
abbrev main_call20_v7 : Ref sig .tc := ⟨.hbm, 417, rfl⟩
abbrev main_call20_cst_1 : Ref sig .tc := ⟨.hbm, 418, rfl⟩
abbrev main_call20_v8 : Ref sig .tc := ⟨.hbm, 419, rfl⟩
abbrev main_call20_cst_2 : Ref sig .tc := ⟨.hbm, 420, rfl⟩
abbrev main_call20_v9 : Ref sig .tc := ⟨.hbm, 421, rfl⟩
abbrev main_call20_v10 : Ref sig .tc := ⟨.hbm, 422, rfl⟩
abbrev main_call20_v11 : Ref sig .tc := ⟨.hbm, 423, rfl⟩
abbrev main_call20_v12 : Ref sig .tc := ⟨.hbm, 424, rfl⟩
abbrev main_call20_cst_3 : Ref sig .tc := ⟨.hbm, 425, rfl⟩
abbrev main_call20_v13 : Ref sig .tc := ⟨.hbm, 426, rfl⟩
abbrev main_call20_cst_4 : Ref sig .tc := ⟨.hbm, 427, rfl⟩
abbrev main_call20_call0_v0 : Ref sig .tc := ⟨.hbm, 428, rfl⟩
abbrev main_call20_call0_v1 : Ref sig .tc := ⟨.hbm, 429, rfl⟩
abbrev main_v263 : Ref sig .tc := ⟨.hbm, 430, rfl⟩
abbrev main_v264 : Ref sig .tc := ⟨.hbm, 431, rfl⟩
abbrev main_v265 : Ref sig .tc := ⟨.hbm, 432, rfl⟩
abbrev main_cst_66 : Ref sig .tc := ⟨.hbm, 433, rfl⟩
abbrev main_v266 : Ref sig .tc := ⟨.hbm, 434, rfl⟩
abbrev main_v267 : Ref sig .tc := ⟨.hbm, 435, rfl⟩
abbrev main_v268 : Ref sig .tc := ⟨.hbm, 436, rfl⟩
abbrev main_v269 : Ref sig .tc := ⟨.hbm, 437, rfl⟩
abbrev main_v270 : Ref sig .tc := ⟨.hbm, 438, rfl⟩
abbrev main_v271 : Ref sig .tc := ⟨.hbm, 439, rfl⟩
abbrev main_v272 : Ref sig .tc := ⟨.hbm, 440, rfl⟩
abbrev main_v273 : Ref sig .tc := ⟨.hbm, 441, rfl⟩
abbrev main_v274 : Ref sig .tc := ⟨.hbm, 442, rfl⟩
abbrev main_v275 : Ref sig .tc := ⟨.hbm, 443, rfl⟩
abbrev main_v276 : Ref sig .tc := ⟨.hbm, 444, rfl⟩
abbrev main_call21_cst : Ref sig .tc := ⟨.hbm, 445, rfl⟩
abbrev main_call21_v0 : Ref sig .tc := ⟨.hbm, 446, rfl⟩
abbrev main_v277 : Ref sig .tc := ⟨.hbm, 447, rfl⟩

abbrev nD : Nat := 1
abbrev τ : Topo := Topo.v7x

variable {F : FTy → Type} [FloatOps F]

class Facts₀ : Prop where
  bcast_S200_S200x200x4_0 : S200.BroadcastsInDim S200x200x4 (![0] : Fin 1 → Fin S200x200x4.rank)
  bcast_S200_S200x200x4_1 : S200.BroadcastsInDim S200x200x4 (![1] : Fin 1 → Fin S200x200x4.rank)
  bcast_S4_S200x200x4_2 : S4.BroadcastsInDim S200x200x4 (![2] : Fin 1 → Fin S200x200x4.rank)
  bcast_S200x200x4_S1x200x200x4_1_2_3 : S200x200x4.BroadcastsInDim S1x200x200x4 (![1, 2, 3] : Fin 3 → Fin S1x200x200x4.rank)
  concatenates_S1x200x200x4_S1x200x200x4_S1x200x200x4_S3x200x200x4_d0 : Shape.Concatenates [S1x200x200x4, S1x200x200x4, S1x200x200x4] S3x200x200x4 0
  bcast_S_S3 : S_.BroadcastsInDim S3 (![] : Fin 0 → Fin S3.rank)
  shapeCasts_S3_S3x1x1x1 : S3.ShapeCasts S3x1x1x1
  bcast_S3x1x1x1_S3x200x200x4_0_1_2_3 : S3x1x1x1.BroadcastsInDim S3x200x200x4 (![0, 1, 2, 3] : Fin 4 → Fin S3x200x200x4.rank)
  shapeCasts_S1x6x256x64x176_S6x256x64x176 : S1x6x256x64x176.ShapeCasts S6x256x64x176
  shapeCasts_S1x4x4_S4x4 : S1x4x4.ShapeCasts S4x4
  slices_S4x4_S3x1_0_3 : S4x4.Slices ![0, 3] S3x1
  shapeCasts_S3x1_S3 : S3x1.ShapeCasts S3
  slices_S4x4_S3x3_0_0 : S4x4.Slices ![0, 0] S3x3
  shapeCasts_S1x6x4x4_S6x4x4 : S1x6x4x4.ShapeCasts S6x4x4
  slices_S6x4x4_S6x4x1_0_0_3 : S6x4x4.Slices ![0, 0, 3] S6x4x1
  shapeCasts_S6x4x1_S6x4 : S6x4x1.ShapeCasts S6x4
  bcast_S_S1 : S_.BroadcastsInDim S1 (![] : Fin 0 → Fin S1.rank)
  concatenates_S1_S1_S2_d0 : Shape.Concatenates [S1, S1] S2 0
  bcast_S_S6x3 : S_.BroadcastsInDim S6x3 (![] : Fin 0 → Fin S6x3.rank)
  slices_S6x4x4_S6x3x4_0_0_0 : S6x4x4.Slices ![0, 0, 0] S6x3x4
  shapeCasts_S3x200x200x4_S1x3x160000 : S3x200x200x4.ShapeCasts S1x3x160000
  shapeCasts_S3_S1x3x1 : S3.ShapeCasts S1x3x1
  bcast_S1x3x1_S1x3x160000_0_1_2 : S1x3x1.BroadcastsInDim S1x3x160000 (![0, 1, 2] : Fin 3 → Fin S1x3x160000.rank)
  transposes_S3x3_S3x3_1_0 : S3x3.Transposes [1, 0] S3x3
  bcast_S3x3_S1x3x3_1_2 : S3x3.BroadcastsInDim S1x3x3 (![1, 2] : Fin 2 → Fin S1x3x3.rank)
  shapeCasts_S1x3x3_S3x3 : S1x3x3.ShapeCasts S3x3
  shapeCasts_S1x3x160000_S3x160000 : S1x3x160000.ShapeCasts S3x160000
  bcast_S3x160000_S1x3x160000_1_2 : S3x160000.BroadcastsInDim S1x3x160000 (![1, 2] : Fin 2 → Fin S1x3x160000.rank)
  slices_S1x3x160000_S1x1x160000_0_0_0 : S1x3x160000.Slices ![0, 0, 0] S1x1x160000
  bcast_S_S1x1x160000 : S_.BroadcastsInDim S1x1x160000 (![] : Fin 0 → Fin S1x1x160000.rank)
  concatenates_S1x3x160000_S1x1x160000_S1x4x160000_d1 : Shape.Concatenates [S1x3x160000, S1x1x160000] S1x4x160000 1
  bcast_S1x4x160000_S6x4x160000_0_1_2 : S1x4x160000.BroadcastsInDim S6x4x160000 (![0, 1, 2] : Fin 3 → Fin S6x4x160000.rank)
  slices_S6x3x160000_S6x1x160000_0_2_0 : S6x3x160000.Slices ![0, 2, 0] S6x1x160000
  shapeCasts_S6x1x160000_S6x160000 : S6x1x160000.ShapeCasts S6x160000
  slices_S6x3x160000_S6x1x160000_0_0_0 : S6x3x160000.Slices ![0, 0, 0] S6x1x160000
  slices_S6x4_S6x1_0_0 : S6x4.Slices ![0, 0] S6x1
  shapeCasts_S6x1_S6 : S6x1.ShapeCasts S6
  bcast_S6_S6x1_0 : S6.BroadcastsInDim S6x1 (![0] : Fin 1 → Fin S6x1.rank)
  bcast_S6x1_S6x160000_0_1 : S6x1.BroadcastsInDim S6x160000 (![0, 1] : Fin 2 → Fin S6x160000.rank)
  slices_S6x3x160000_S6x1x160000_0_1_0 : S6x3x160000.Slices ![0, 1, 0] S6x1x160000
  slices_S6x4_S6x1_0_1 : S6x4.Slices ![0, 1] S6x1
  bcast_S_S6x160000 : S_.BroadcastsInDim S6x160000 (![] : Fin 0 → Fin S6x160000.rank)
  bcast_S_S256x160000 : S_.BroadcastsInDim S256x160000 (![] : Fin 0 → Fin S256x160000.rank)
  slices_S6x160000_S1x160000_0_0 : S6x160000.Slices ![0, 0] S1x160000
  shapeCasts_S1x160000_S160000 : S1x160000.ShapeCasts S160000
  bcast_S_S160000 : S_.BroadcastsInDim S160000 (![] : Fin 0 → Fin S160000.rank)
  slices_S6x256x64x176_S1x256x64x176_0_0_0_0 : S6x256x64x176.Slices ![0, 0, 0, 0] S1x256x64x176
  shapeCasts_S1x256x64x176_S256x64x176 : S1x256x64x176.ShapeCasts S256x64x176
  bcast_S160000_S160000x1_0 : S160000.BroadcastsInDim S160000x1 (![0] : Fin 1 → Fin S160000x1.rank)
  concatenates_S160000x1_S160000x1_S160000x2_d1 : Shape.Concatenates [S160000x1, S160000x1] S160000x2 1
  bcast_S160000_S1x160000_1 : S160000.BroadcastsInDim S1x160000 (![1] : Fin 1 → Fin S1x160000.rank)
  bcast_S1x160000_S256x160000_0_1 : S1x160000.BroadcastsInDim S256x160000 (![0, 1] : Fin 2 → Fin S256x160000.rank)
  slices_S6x160000_S1x160000_1_0 : S6x160000.Slices ![1, 0] S1x160000
  slices_S6x256x64x176_S1x256x64x176_1_0_0_0 : S6x256x64x176.Slices ![1, 0, 0, 0] S1x256x64x176
  slices_S6x160000_S1x160000_2_0 : S6x160000.Slices ![2, 0] S1x160000
  slices_S6x256x64x176_S1x256x64x176_2_0_0_0 : S6x256x64x176.Slices ![2, 0, 0, 0] S1x256x64x176
  slices_S6x160000_S1x160000_3_0 : S6x160000.Slices ![3, 0] S1x160000
  slices_S6x256x64x176_S1x256x64x176_3_0_0_0 : S6x256x64x176.Slices ![3, 0, 0, 0] S1x256x64x176
  slices_S6x160000_S1x160000_4_0 : S6x160000.Slices ![4, 0] S1x160000
  slices_S6x256x64x176_S1x256x64x176_4_0_0_0 : S6x256x64x176.Slices ![4, 0, 0, 0] S1x256x64x176
  slices_S6x160000_S1x160000_5_0 : S6x160000.Slices ![5, 0] S1x160000
  slices_S6x256x64x176_S1x256x64x176_5_0_0_0 : S6x256x64x176.Slices ![5, 0, 0, 0] S1x256x64x176
  shapeCasts_S256x160000_S256x200x200x4 : S256x160000.ShapeCasts S256x200x200x4
  bcast_S256x200x200x4_S1x256x200x200x4_1_2_3_4 : S256x200x200x4.BroadcastsInDim S1x256x200x200x4 (![1, 2, 3, 4] : Fin 4 → Fin S1x256x200x200x4.rank)
  reducesTo_S1x256x200x200x4_S1x256x200x200_d4 : S1x256x200x200x4.ReducesTo [4] S1x256x200x200
  h_S_ : 0 < S_.numel
  bcast_S1x256x200x200_S1x256x200x200x1_0_1_2_3 : S1x256x200x200.BroadcastsInDim S1x256x200x200x1 (![0, 1, 2, 3] : Fin 4 → Fin S1x256x200x200x1.rank)
  shapeCasts_S1x256x200x200x1_S1x256x200x200 : S1x256x200x200x1.ShapeCasts S1x256x200x200
  transposes_S80x1x200x200_S1x80x200x200_1_0_2_3 : S80x1x200x200.Transposes [1, 0, 2, 3] S1x80x200x200
  bcast_S80_S1x80x1x1_1 : S80.BroadcastsInDim S1x80x1x1 (![1] : Fin 1 → Fin S1x80x1x1.rank)
  bcast_S1x80x1x1_S1x80x200x200_0_1_2_3 : S1x80x1x1.BroadcastsInDim S1x80x200x200 (![0, 1, 2, 3] : Fin 4 → Fin S1x80x200x200.rank)
  reducesTo_S1x80x200x200_S80_d0_2_3 : S1x80x200x200.ReducesTo [0, 2, 3] S80
  bcast_S_S1x80x1x1 : S_.BroadcastsInDim S1x80x1x1 (![] : Fin 0 → Fin S1x80x1x1.rank)
  bcast_S_S1x80x200x200 : S_.BroadcastsInDim S1x80x200x200 (![] : Fin 0 → Fin S1x80x200x200.rank)
  scatter_S6x4x4_S2_S6x3_01_2_12_0_wf : ScatterDims.WF S6x4x4 S2 S6x3 [0, 1] [2] [1, 2] 0
  dot_S6x4x4_S6x4x4_S6x4x4_2_1_1_2_0_0_wf : DotDims.WF S6x4x4 S6x4x4 S6x4x4 [2] [1] [1] [2] [0] [0]
  dot_S3x3_S3x160000_S3x160000_1_0_0_1_n_n_wf : DotDims.WF S3x3 S3x160000 S3x160000 [1] [0] [0] [1] [] []
  dot_S6x3x4_S6x4x160000_S6x3x160000_2_1_1_2_0_0_wf : DotDims.WF S6x3x4 S6x4x160000 S6x3x160000 [2] [1] [1] [2] [0] [0]
  gather_S256x64x176_S160000x2_S256x160000_0_12_n_n_12_1_25611_wf : GatherDims.WF S256x64x176 S160000x2 S256x160000 [0] [1, 2] [] [1, 2] [] 1 ![256, 1, 1]
  dot_S80x256_S1x256x200x200_S80x1x200x200_1_1_0_023_n_n_wf : DotDims.WF S80x256 S1x256x200x200 S80x1x200x200 [1] [1] [0] [0, 2, 3] [] []

variable [Facts₀]

def scatter_S6x4x4_S2_S6x3_01_2_12_0 : ScatterDims S6x4x4 S2 S6x3 where
  updateWindowDims := [0, 1]
  insertedWindowDims := [2]
  scatterDimsToOperandDims := [1, 2]
  indexVectorDim := 0
  wf := scatter_S6x4x4_S2_S6x3_01_2_12_0_wf
def dot_S6x4x4_S6x4x4_S6x4x4_2_1_1_2_0_0 : DotDims S6x4x4 S6x4x4 S6x4x4 where
  lhsContracting := [2]
  rhsContracting := [1]
  lhsNonContracting := [1]
  rhsNonContracting := [2]
  lhsBatch := [0]
  rhsBatch := [0]
  wf := dot_S6x4x4_S6x4x4_S6x4x4_2_1_1_2_0_0_wf
def dot_S3x3_S3x160000_S3x160000_1_0_0_1_n_n : DotDims S3x3 S3x160000 S3x160000 where
  lhsContracting := [1]
  rhsContracting := [0]
  lhsNonContracting := [0]
  rhsNonContracting := [1]
  lhsBatch := []
  rhsBatch := []
  wf := dot_S3x3_S3x160000_S3x160000_1_0_0_1_n_n_wf
def dot_S6x3x4_S6x4x160000_S6x3x160000_2_1_1_2_0_0 : DotDims S6x3x4 S6x4x160000 S6x3x160000 where
  lhsContracting := [2]
  rhsContracting := [1]
  lhsNonContracting := [1]
  rhsNonContracting := [2]
  lhsBatch := [0]
  rhsBatch := [0]
  wf := dot_S6x3x4_S6x4x160000_S6x3x160000_2_1_1_2_0_0_wf
def gather_S256x64x176_S160000x2_S256x160000_0_12_n_n_12_1_25611 : GatherDims S256x64x176 S160000x2 S256x160000 where
  offsetDims := [0]
  collapsedSliceDims := [1, 2]
  operandBatchingDims := []
  startIndicesBatchingDims := []
  startIndexMap := [1, 2]
  indexVectorDim := 1
  sliceSizes := ![256, 1, 1]
  wf := gather_S256x64x176_S160000x2_S256x160000_0_12_n_n_12_1_25611_wf
def dot_S80x256_S1x256x200x200_S80x1x200x200_1_1_0_023_n_n : DotDims S80x256 S1x256x200x200 S80x1x200x200 where
  lhsContracting := [1]
  rhsContracting := [1]
  lhsNonContracting := [0]
  rhsNonContracting := [0, 2, 3]
  lhsBatch := []
  rhsBatch := []
  wf := dot_S80x256_S1x256x200x200_S80x1x200x200_1_1_0_023_n_n_wf

class Facts : Prop extends Facts₀ where

variable [Facts]
-- ==== Proof.SetupKB.lean ====
/-
  The program as the launch theorems see it, and the one resource algebra every part of the proof shares.

  The device runs thirty-five threads: the TensorCore runs @main — host operations, four pipelined kernel
  regions (the feature table, the voxel addresses, the batch statistics, the normalisation) and the start of
  the gather kernel —, each SparseCore's sequencer dispatches that kernel's sixteen tasks, and each vector
  subcore runs one task. Three protocols meet in one ghost state: the launch handshakes between TensorCore,
  sequencers and tiles (a rounds schedule over natural-number payload indices), the four pipelines' staging
  cells (a rounds schedule with unit duties), and the tiles' own copies and gathers, which only ever wait for
  transfers they issued themselves and so need counters and no schedule.
-/
import proofs.«207241_g55714315764006_cont_9to1c4b_410_29_alg».proof.Defs
import proofs.«207241_g55714315764006_cont_9to1c4b_410_29_alg».proof.Proof.Gen.Kernel
import Idealize.ShloMosaic.Lib.SparseCore.Launch
import Idealize.ShloMosaic.Lib.Pipeline.Kit
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type}

/-! ## The program as the launch theorem sees it -/

/-- The labels of the four pipelines over the kernels' own. -/
abbrev ΛP : Labels := Pipeline.Sig Λ₀ (Fin 4) fun p => (pcfgs (F := F) p).Adm
/-- The one SparseCore call. -/
abbrev K : SparseCore.Cfg τ sig (ΛP (F := F)) 1 := sc (F := F)
theorem nSub_zero : (K (F := F)).nSub 0 = 16 := rfl
theorem nCore_zero : (K (F := F)).nCore 0 = 2 := rfl
/-- The body table under the SparseCore layer: the kernels' bodies and the pipelines' regions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging cells' rounds. -/
abbrev UP : Type := URounds (GSem nD τ sig) Unit
/-- Handshakes, pipelines, and the transfers' counters (the right-most factor, where the executor finds them). -/
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance
instance : CountersIn UU := inferInstance

end Cert.Proof.KB

end
-- ==== Proof.MainOpsKB.lean ====
import proofs.«207241_g55714315764006_cont_9to1c4b_410_29_alg».proof.Proof.Gen.Kernel
import Idealize.ShloMosaic.Lib.StableHlo.Run

noncomputable section

namespace Cert.Proof.KB.Ops

open Cert.Kernel Cert.Kernel.Gen
open Idealize.ShloMosaic Idealize.ShloMosaic.TcCoe Idealize.SL.Sem
open Idealize.ShloMosaic.StableHlo (nullary_bufs_sub unary_bufs_sub binary_bufs_sub ternary_bufs_sub reshape_bufs_sub)

variable {F : FTy → Type} [FloatOps F]

/-- Host operations, stretch 0 of @main. -/
abbrev ops0 : List (HloOp τ sig (Elt F)) :=
  [ StableHlo.reshape main_arg0 main_v0 rfl shapeCasts_S1x6x256x64x176_S6x256x64x176,
    StableHlo.reshape main_v0 main_v1 rfl shapeCasts_S6x256x64x176_S6x256x11264 ]

theorem ops0_sub : (ops0 (F := F)).Forall fun op => op.bufs ⊆ StableHlo.tcRefs τ sig :=
  ⟨reshape_bufs_sub .., reshape_bufs_sub ..⟩

theorem ops0_fresh : (ops0 (F := F)).Forall fun op => op.fresh = ∅ :=
  ⟨rfl, rfl⟩

/-- Host operations, stretch 1 of @main. -/
abbrev ops1 : List (HloOp τ sig (Elt F)) :=
  [ StableHlo.reshape main_v2 main_v3 rfl shapeCasts_S7x11264x128_S78848x128,
    StableHlo.reshape main_arg5 main_v4 rfl shapeCasts_S1x4x4_S4x4,
    StableHlo.unary main_v4 main_v5 ((extractStridedSlice S3x1 ![0, 3] · slices_S4x4_S3x1_0_3) : (⟨S4x4, .f32⟩ : BufTy).Contents (Elt F) → (⟨S3x1, .f32⟩ : BufTy).Contents (Elt F)),
    StableHlo.reshape main_v5 main_v6 rfl shapeCasts_S3x1_S3,
    StableHlo.unary main_v4 main_v7 ((extractStridedSlice S3x3 ![0, 0] · slices_S4x4_S3x3_0_0) : (⟨S4x4, .f32⟩ : BufTy).Contents (Elt F) → (⟨S3x3, .f32⟩ : BufTy).Contents (Elt F)),
    StableHlo.reshape main_arg4 main_v8 rfl shapeCasts_S1x6x4x4_S6x4x4,
    StableHlo.unary main_v8 main_v9 ((extractStridedSlice S6x4x1 ![0, 0, 3] · slices_S6x4x4_S6x4x1_0_0_3) : (⟨S6x4x4, .f32⟩ : BufTy).Contents (Elt F) → (⟨S6x4x1, .f32⟩ : BufTy).Contents (Elt F)),
    StableHlo.reshape main_v9 main_v10 rfl shapeCasts_S6x4x1_S6x4,
    StableHlo.nullary main_c (constantI S_ 32 0#32),
    StableHlo.unary main_c main_v11 (broadcastInDim S1 ![] bcast_S_S1 : (⟨S_, .i32⟩ : BufTy).Contents (Elt F) → (⟨S1, .i32⟩ : BufTy).Contents (Elt F)),
    StableHlo.nullary main_c_0 (constantI S_ 32 3#32),
    StableHlo.unary main_c_0 main_v12 (broadcastInDim S1 ![] bcast_S_S1 : (⟨S_, .i32⟩ : BufTy).Contents (Elt F) → (⟨S1, .i32⟩ : BufTy).Contents (Elt F)),
    StableHlo.binary main_v11 main_v12 main_v13 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst (constant S_ .f32 0x00000000#32),
    StableHlo.unary main_cst main_v14 (broadcastInDim S6x3 ![] bcast_S_S6x3 : (⟨S_, .f32⟩ : BufTy).Contents (Elt F) → (⟨S6x3, .f32⟩ : BufTy).Contents (Elt F)),
    StableHlo.ternary main_v8 main_v13 main_v14 main_v15 ((fun x i u => Host.scatter scatter_S6x4x4_S2_S6x3_01_2_12_0 (fun _ b => b) x i u) : (⟨S6x4x4, .f32⟩ : BufTy).Contents (Elt F) → (⟨S2, .i32⟩ : BufTy).Contents (Elt F) → (⟨S6x3, .f32⟩ : BufTy).Contents (Elt F) → (⟨S6x4x4, .f32⟩ : BufTy).Contents (Elt F)),
    StableHlo.reshape main_arg3 main_v16 rfl shapeCasts_S1x6x4x4_S6x4x4,
    StableHlo.binary main_v15 main_v16 main_v17 ((fun l r => Host.dotGeneral dot_S6x4x4_S6x4x4_S6x4x4_2_1_1_2_0_0 none l r) : (⟨S6x4x4, .f32⟩ : BufTy).Contents (Elt F) → (⟨S6x4x4, .f32⟩ : BufTy).Contents (Elt F) → (⟨S6x4x4, .f32⟩ : BufTy).Contents (Elt F)),
    StableHlo.unary main_v17 main_v18 ((extractStridedSlice S6x3x4 ![0, 0, 0] · slices_S6x4x4_S6x3x4_0_0_0) : (⟨S6x4x4, .f32⟩ : BufTy).Contents (Elt F) → (⟨S6x3x4, .f32⟩ : BufTy).Contents (Elt F)),
    StableHlo.unary main_v10 main_v19 ((extractStridedSlice S6x2 ![0, 0] · slices_S6x4_S6x2_0_0) : (⟨S6x4, .f32⟩ : BufTy).Contents (Elt F) → (⟨S6x2, .f32⟩ : BufTy).Contents (Elt F)),
    StableHlo.reshape main_v19 main_v20 rfl shapeCasts_S6x2_S12,
    StableHlo.binary main_v6 main_v20 main_v21 ((fun a b => concatenate S15 0 [⟨S3, a⟩, ⟨S12, b⟩] concatenates_S3_S12_S15_d0) : (⟨S3, .f32⟩ : BufTy).Contents (Elt F) → (⟨S12, .f32⟩ : BufTy).Contents (Elt F) → (⟨S15, .f32⟩ : BufTy).Contents (Elt F)) ]

theorem ops1_sub : (ops1 (F := F)).Forall fun op => op.bufs ⊆ StableHlo.tcRefs τ sig :=
  ⟨reshape_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., ternary_bufs_sub .., reshape_bufs_sub .., binary_bufs_sub .., unary_bufs_sub .., unary_bufs_sub .., reshape_bufs_sub .., binary_bufs_sub ..⟩

theorem ops1_fresh : (ops1 (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- Host operations, stretch 2 of @main. -/
abbrev ops2 : List (HloOp τ sig (Elt F)) :=
  [ StableHlo.reshape main_v22 main_v23 rfl shapeCasts_S8x1x20000_S32x250x20 ]

theorem ops2_sub : (ops2 (F := F)).Forall fun op => op.bufs ⊆ StableHlo.tcRefs τ sig :=
  reshape_bufs_sub ..

theorem ops2_fresh : (ops2 (F := F)).Forall fun op => op.fresh = ∅ :=
  rfl

/-- Host operations, stretch 3 of @main. -/
abbrev ops3 : List (HloOp τ sig (Elt F)) :=
  [ StableHlo.reshape main_v24 main_v25 rfl shapeCasts_S32x5x250x80_S40000x80 ]

theorem ops3_sub : (ops3 (F := F)).Forall fun op => op.bufs ⊆ StableHlo.tcRefs τ sig :=
  reshape_bufs_sub ..

theorem ops3_fresh : (ops3 (F := F)).Forall fun op => op.fresh = ∅ :=
  rfl

/-- Host operations, stretch 4 of @main. -/
abbrev ops4 : List (HloOp τ sig (Elt F)) :=
  [ StableHlo.nullary main_cst_1 (constant S_ .f32 0x00000000#32),
    StableHlo.unary main_cst_1 main_v27 (broadcastInDim S960x80 ![] bcast_S_S960x80 : (⟨S_, .f32⟩ : BufTy).Contents (Elt F) → (⟨S960x80, .f32⟩ : BufTy).Contents (Elt F)),
    StableHlo.binary main_v25 main_v27 main_v28 ((fun a b => concatenate S40960x80 0 [⟨S40000x80, a⟩, ⟨S960x80, b⟩] concatenates_S40000x80_S960x80_S40960x80_d0) : (⟨S40000x80, .f32⟩ : BufTy).Contents (Elt F) → (⟨S960x80, .f32⟩ : BufTy).Contents (Elt F) → (⟨S40960x80, .f32⟩ : BufTy).Contents (Elt F)),
    StableHlo.reshape main_arg9 main_v29 rfl shapeCasts_S80_S1x80,
    StableHlo.reshape main_arg10 main_v30 rfl shapeCasts_S80_S1x80 ]

theorem ops4_sub : (ops4 (F := F)).Forall fun op => op.bufs ⊆ StableHlo.tcRefs τ sig :=
  ⟨nullary_bufs_sub .., unary_bufs_sub .., binary_bufs_sub .., reshape_bufs_sub .., reshape_bufs_sub ..⟩

theorem ops4_fresh : (ops4 (F := F)).Forall fun op => op.fresh = ∅ :=
  ⟨rfl, rfl, rfl, rfl, rfl⟩

/-- Host operations, stretch 5 of @main. -/
abbrev ops5 : List (HloOp τ sig (Elt F)) :=
  [ StableHlo.unary main_v31 main_v32 ((extractStridedSlice S80x40000 ![0, 0] · slices_S80x40960_S80x40000_0_0) : (⟨S80x40960, .f32⟩ : BufTy).Contents (Elt F) → (⟨S80x40000, .f32⟩ : BufTy).Contents (Elt F)),
    StableHlo.reshape main_v32 main_v33 rfl shapeCasts_S80x40000_S1x80x200x200 ]

theorem ops5_sub : (ops5 (F := F)).Forall fun op => op.bufs ⊆ StableHlo.tcRefs τ sig :=
  ⟨unary_bufs_sub .., reshape_bufs_sub ..⟩

theorem ops5_fresh : (ops5 (F := F)).Forall fun op => op.fresh = ∅ :=
  ⟨rfl, rfl⟩

end Cert.Proof.KB.Ops

end
-- ==== Proof.MainKB.lean ====
/-
  @main on the TensorCore, inside the launch of the whole device.

  @main is six stretches of host operations around five calls: the feature-table region, the address region,
  the gather kernel on the SparseCores, the statistics region and the normalisation region. Between two
  segments the TensorCore holds its handshake state, the region boundary, every unscoped buffer whole at a
  valuation, its free semaphores at zero, its generator register, and the rounds ghost state of the pipelines
  it has not entered yet. A host stretch moves the valuation to `StableHlo.after`; a region moves its
  pipeline's arrays to what the write-backs leave; the SparseCore call moves the gathered array.
-/
import proofs.«207241_g55714315764006_cont_9to1c4b_410_29_alg».proof.Proof.SetupKB
import proofs.«207241_g55714315764006_cont_9to1c4b_410_29_alg».proof.Proof.MainOpsKB
import proofs.«207241_g55714315764006_cont_9to1c4b_410_29_alg».proof.Proof.Gen.Kernel.Launch
import Idealize.ShloMosaic.Lib.Pipeline.Regions
import Idealize.ShloMosaic.Lib.Pipeline.FrameSuffix
import Idealize.ShloMosaic.Lib.StableHlo.Run
import Idealize.ShloMosaic.Lib.Tactic

noncomputable section

namespace Cert.Proof.KB

open Cert.Kernel Cert.Kernel.Gen Cert.Proof.KB.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-! ## @main as stretches of host operations around its five calls -/

set_option maxRecDepth 4096 in
/-- @main is its stretches and calls in order. -/
theorem main_eq (d : Dev nD) : main (F := F) d =
    (StableHlo.seq (ops0 (F := F)) >>= fun _ =>
    Prog.lift (.customCall (SparseCore.inner (Pipeline.entry 0)) ()) >>= fun _ =>
    StableHlo.seq (ops1 (F := F)) >>= fun _ =>
    Prog.lift (.customCall (SparseCore.inner (Pipeline.entry 1)) ()) >>= fun _ =>
    StableHlo.seq (ops2 (F := F)) >>= fun _ =>
    (K (F := F)).run d 0 >>= fun _ =>
    StableHlo.seq (ops3 (F := F)) >>= fun _ =>
    Prog.lift (.customCall (SparseCore.inner (Pipeline.entry 2)) ()) >>= fun _ =>
    StableHlo.seq (ops4 (F := F)) >>= fun _ =>
    Prog.lift (.customCall (SparseCore.inner (Pipeline.entry 3)) ()) >>= fun _ =>
    StableHlo.seq (ops5 (F := F)) >>= fun _ =>
    pure ⟨⟩ : Prog (TpuEff nD τ sig (Elt F) (SparseCore.Sig (ΛP (F := F)) 1) .tc) PUnit) := rfl

/-! ## The TensorCore's state between two segments -/

/-- No pipeline of this program has a prefetched table. -/
abbrev adm : (p : Fin 4) → (pcfgs (F := F) p).Adm := fun p => (cfgs p).toPCfg_adm

/-- The body table of the whole device: the SparseCore layer over the pipelines' and the kernels'. -/
abbrev DK : Defs nD τ sig (Elt F) (SparseCore.Sig (ΛP (F := F)) 1) := (K (F := F)).defs (D (F := F))

/-- Before call `n` of the SparseCores, every unscoped buffer at the valuation `W`, the pipelines in `Ps` not yet entered. -/
def TS (d : Dev nD) (n : ℕ) (W : Valuation τ sig (Elt F)) (Ps : Finset (Fin 4)) : sProp 𝕄 :=
  iprop((K (F := F)).tcSt EH d n ∗ boundary (T d) ∗ held (T d) (Pipeline.ucRefs τ sig) W ∗ (K (F := F)).tcSems0 d
    ∗ (∃ r, prngReg d r) ∗ Pipeline.ghostOn (pcfgs (F := F)) adm EP Ps d)

set_option backward.isDefEq.respectTransparency.types false in
/-- A stretch of host operations moves the valuation to `after`. -/
theorem host_step (d : Dev nD) (n : ℕ) (ops : List (HloOp τ sig (Elt F)))
    (hsub : ops.Forall fun op => op.bufs ⊆ StableHlo.tcRefs τ sig) (hf : ∀ op ∈ ops, op.fresh = ∅)
    (W : Valuation τ sig (Elt F)) (Ps : Finset (Fin 4)) {β : Type}
    (k : PUnit → Prog (TpuEff nD τ sig (Elt F) (SparseCore.Sig (ΛP (F := F)) 1) .tc) β) (Φ : β → sProp 𝕄) :
    iprop(TS d n W Ps ∗ (TS d n (after ops W) Ps -∗ wp frame (wpE (DK (F := F)) 𝒱 (T d) none) Set.univ (k ⟨⟩) Φ))
      ⊢ wp frame (wpE (DK (F := F)) 𝒱 (T d) none) Set.univ (seq ops >>= k) Φ := by
  have hseq := StableHlo.wp_seq (defs := DK (F := F)) 𝒱 none Set.univ d (Pipeline.ucRefs τ sig) k (K := Φ) ops
    (fun op h => Pipeline.sub_ucRefs op ((List.forall_iff_forall_mem.mp hsub) op h)) hf W
  unfold TS
  iintro ⟨⟨Hst, Hbd, Hh, Hsm, Hp, Hg⟩, Hk⟩
  iapply hseq $$ [Hbd Hh]
  · isplitl [Hbd] <;> iassumption
  iintro ⟨Hbd, Hh⟩
  iapply Hk
  isplitl [Hst]; · iexact Hst
  isplitl [Hbd]; · iexact Hbd
  isplitl [Hh]; · iexact Hh
  isplitl [Hsm]; · iexact Hsm
  isplitl [Hp]; · iexact Hp
  iexact Hg

/-! ## @main's obligation, from a step per call

  Each call's effect on the valuation is a parameter here (`R p` for pipeline `p`, `G` for the SparseCore
  call), and each call's step a hypothesis; the stretches between them are `host_step`. -/

section Chain

variable (P : (K (F := F)).Pay (nD := nD) (Val := Elt F) (Name := ℕ) (U := UU)) (κ : GSem nD τ sig → ℕ)
variable (m : (ℓ : Loc nD τ sig) → Buf (Elt F) ℓ)
variable (R : Fin 4 → Dev nD → Valuation τ sig (Elt F) → Valuation τ sig (Elt F))
variable (G : Dev nD → Valuation τ sig (Elt F) → Valuation τ sig (Elt F))

/-- The valuation at launch, -/
def W0 (d : Dev nD) : Valuation τ sig (Elt F) := fun b => m (d, b)
/-- when the table region is entered, and left, -/
def Wa (d : Dev nD) : Valuation τ sig (Elt F) := after (ops0 (F := F)) (W0 m d)
def W1 (d : Dev nD) : Valuation τ sig (Elt F) := R 0 d (Wa m d)
/-- when the address region is entered, and left, -/
def Wb (d : Dev nD) : Valuation τ sig (Elt F) := after (ops1 (F := F)) (W1 m R d)
def W2 (d : Dev nD) : Valuation τ sig (Elt F) := R 1 d (Wb m R d)
/-- at the SparseCore call, and after it, -/
def Wc (d : Dev nD) : Valuation τ sig (Elt F) := after (ops2 (F := F)) (W2 m R d)
def W3 (d : Dev nD) : Valuation τ sig (Elt F) := G d (Wc m R d)
/-- when the statistics region is entered, and left, -/
def Wd (d : Dev nD) : Valuation τ sig (Elt F) := after (ops3 (F := F)) (W3 m R G d)
def W4 (d : Dev nD) : Valuation τ sig (Elt F) := R 2 d (Wd m R G d)
/-- when the normalisation region is entered, and left, -/
def We (d : Dev nD) : Valuation τ sig (Elt F) := after (ops4 (F := F)) (W4 m R G d)
def W5 (d : Dev nD) : Valuation τ sig (Elt F) := R 3 d (We m R G d)
/-- and at the return. -/
def Wf (d : Dev nD) : Valuation τ sig (Elt F) := after (ops5 (F := F)) (W5 m R G d)

/-- What a region's step says: entered with its pipeline's ghost state still unspent, it moves the valuation from `W` to `W'`. -/
def RegionStep (p : Fin 4) (n : ℕ) (d : Dev nD) (W W' : Valuation τ sig (Elt F)) : Prop :=
  ∀ (Ps : Finset (Fin 4)), p ∈ Ps → ∀ {β : Type} (k : PUnit → Prog (TpuEff nD τ sig (Elt F) (SparseCore.Sig (ΛP (F := F)) 1) .tc) β) (Φ : β → sProp 𝕄),
    iprop((K (F := F)).ctx EH P κ ∗ TS d n W Ps
        ∗ (TS d n W' (Ps.erase p) -∗ wp frame (wpE (DK (F := F)) 𝒱 (T d) none) Set.univ (k ⟨⟩) Φ))
      ⊢ wp frame (wpE (DK (F := F)) 𝒱 (T d) none) Set.univ
          (Prog.lift (.customCall (SparseCore.inner (Pipeline.entry p)) ()) >>= k) Φ

/-- What the SparseCore call's step says: from before call 0 to before call 1, the valuation moved by `G`. -/
def ScStep (d : Dev nD) (W W' : Valuation τ sig (Elt F)) : Prop :=
  ∀ (Ps : Finset (Fin 4)) {β : Type} (k : PUnit → Prog (TpuEff nD τ sig (Elt F) (SparseCore.Sig (ΛP (F := F)) 1) .tc) β) (Φ : β → sProp 𝕄),
    iprop((K (F := F)).ctx EH P κ ∗ TS d 0 W Ps
        ∗ (TS d 1 W' Ps -∗ wp frame (wpE (DK (F := F)) 𝒱 (T d) none) Set.univ (k ⟨⟩) Φ))
      ⊢ wp frame (wpE (DK (F := F)) 𝒱 (T d) none) Set.univ ((K (F := F)).run d 0 >>= k) Φ

theorem fresh_of (ops : List (HloOp τ sig (Elt F))) (h : ops.Forall fun op => op.fresh = ∅) : ∀ op ∈ ops, op.fresh = ∅ :=
  List.forall_iff_forall_mem.mp h

/-- @main from the launch valuation to the return's, every pipeline entered once. -/
theorem main_chain (d : Dev nD)
    (h0 : RegionStep P κ 0 0 d (Wa m d) (W1 m R d)) (h1 : RegionStep P κ 1 0 d (Wb m R d) (W2 m R d))
    (hsc : ScStep P κ d (Wc m R d) (W3 m R G d))
    (h3 : RegionStep P κ 2 1 d (Wd m R G d) (W4 m R G d)) (h4 : RegionStep P κ 3 1 d (We m R G d) (W5 m R G d)) :
    iprop((K (F := F)).ctx EH P κ ∗ TS d 0 (W0 m d) Finset.univ)
      ⊢ wp frame (wpE (DK (F := F)) 𝒱 (T d) none) Set.univ (main (F := F) d)
          fun _ => TS d 1 (Wf m R G d) ((((Finset.univ.erase 0).erase 1).erase 2).erase 3) := by
  rw [main_eq]
  iintro ⟨#Hctx, H⟩
  iapply (host_step d 0 ops0 ops0_sub (fresh_of _ ops0_fresh) (W0 m d) Finset.univ _ _)
  isplitl [H]; · iexact H
  iintro H
  iapply (h0 Finset.univ (Finset.mem_univ _) _ _)
  isplitr; · iexact Hctx
  isplitl [H]; · iexact H
  iintro H
  iapply (host_step d 0 ops1 ops1_sub (fresh_of _ ops1_fresh) _ _ _ _)
  isplitl [H]; · iexact H
  iintro H
  iapply (h1 (Finset.univ.erase 0) (by decide) _ _)
  isplitr; · iexact Hctx
  isplitl [H]; · iexact H
  iintro H
  iapply (host_step d 0 ops2 ops2_sub (fresh_of _ ops2_fresh) _ _ _ _)
  isplitl [H]; · iexact H
  iintro H
  iapply (hsc _ _ _)
  isplitr; · iexact Hctx
  isplitl [H]; · iexact H
  iintro H
  iapply (host_step d 1 ops3 ops3_sub (fresh_of _ ops3_fresh) _ _ _ _)
  isplitl [H]; · iexact H
  iintro H
  iapply (h3 ((Finset.univ.erase 0).erase 1) (by decide) _ _)
  isplitr; · iexact Hctx
  isplitl [H]; · iexact H
  iintro H
  iapply (host_step d 1 ops4 ops4_sub (fresh_of _ ops4_fresh) _ _ _ _)
  isplitl [H]; · iexact H
  iintro H
  iapply (h4 (((Finset.univ.erase 0).erase 1).erase 2) (by decide) _ _)
  isplitr; · iexact Hctx
  isplitl [H]; · iexact H
  iintro H
  iapply (host_step d 1 ops5 ops5_sub (fresh_of _ ops5_fresh) _ _ _ _)
  isplitl [H]; · iexact H
  iintro H
  rw [wp_pure]; imodintro
  iexact H

end Chain

end Cert.Proof.KB

end
-- ==== Proof.LaunchKB.lean ====
/-
  The step of one kernel region inside the device's launch, for any of the four pipelines.

  A region is entered on the TensorCore while the SparseCores' handshakes are pending: the TensorCore still
  owes the start signals of the gather call (regions before it) or nothing (regions after it). The region's
  record speaks of a thread state made of the unscoped buffers at a valuation, the generator register and that
  debt with the bound on the pairs its waits have recorded; the step takes the record's pipeline out of the
  ghost state not yet spent, runs the region by the library's rule under the pipelines' body table, and lifts
  the result under the SparseCore layer.
-/
import proofs.«207241_g55714315764006_cont_9to1c4b_410_29_alg».proof.Proof.MainKB

noncomputable section

namespace Cert.Proof.KB

open Cert.Kernel Cert.Kernel.Gen Cert.Proof.KB.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-- What rides beside the buffers through a region entered before call `n`: the generator register at some state,
    and the TensorCore's debt to the handshakes with the bound on its recorded pairs. -/
def Rr (d : Dev nD) (n : ℕ) : sProp 𝕄 :=
  iprop((∃ r, prngReg d r) ∗ ∃ W, ⌜(K (F := F)).WBelow (T d) W (8 * n)⌝ ∗ owes (T d) ((K (F := F)).Otc d n) W)

section RegionStep

variable (P : (K (F := F)).Pay (nD := nD) (Val := Elt F) (Name := ℕ) (U := UU)) (κ : GSem nD τ sig → ℕ)
variable (rdats : (p : Fin 4) → (c : Dev nD) → Pipeline.RDat τ (Elt F) (HIx 1) ℕ UU ℕ (Pipeline.pin (pcfgs (F := F)) adm p) c)

set_option backward.isDefEq.respectTransparency.types false in
/-- The call of a pipeline's region under the pipelines' body table is its call under the SparseCore layer. -/
theorem lift_region (d : Dev nD) (p : Fin 4) (Φ : PUnit → sProp 𝕄) :
    wp frame (wpE (D (F := F)) 𝒱 (T d) none) Set.univ
        (Prog.op (.customCall (Pipeline.entry p) ()) fun _ => .ret PUnit.unit : Prog (TpuEff nD τ sig (Elt F) (ΛP (F := F)) .tc) PUnit) Φ
      ⊢ wp frame (wpE (DK (F := F)) 𝒱 (T d) none) Set.univ
        (Prog.lift (.customCall (SparseCore.inner (Pipeline.entry p)) ()) : Prog (TpuEff nD τ sig (Elt F) (SparseCore.Sig (ΛP (F := F)) 1) .tc) PUnit) Φ :=
  (K (F := F)).wp_liftProg (D (F := F)) 𝒱 (T d) Set.univ none _ _

set_option backward.isDefEq.respectTransparency.types false in
/-- The library's region rule on this device's TensorCore, at the top of @main. -/
theorem region_wp [∀ e, Nonempty (Elt F e)] (p : Fin 4) (d : Dev nD)
    (Rg : Pipeline.RDat.RegionSeg (pcfgs (F := F)) adm rdats (none : HIx 1) (defs₀ (F := F)) 𝒱₀ (K (F := F)).L (K (F := F)).lev p)
    (Q : PUnit → sProp 𝕄) :
    iprop((iprop(boundary (T d) ∗ Rg.post d) -∗ wp frame (wpE (D (F := F)) 𝒱 (T d) none) Set.univ
            (.ret PUnit.unit : Prog (TpuEff nD τ sig (Elt F) (ΛP (F := F)) .tc) PUnit) Q)
        ∗ boundary (T d) ∗ Rg.pre d ∗ levAts (K (F := F)).L (K (F := F)).lev
        ∗ Pipeline.PerCore.cellsGhost (Pipeline.pinD (pcfgs (F := F)) fun _ => adm) EP p d
        ∗ Pipeline.PerCore.toksInit (Pipeline.pinD (pcfgs (F := F)) fun _ => adm) EP p d)
      ⊢ wp frame (wpE (D (F := F)) 𝒱 (T d) none) Set.univ
        (Prog.op (.customCall (Pipeline.entry p) ()) fun _ => .ret PUnit.unit : Prog (TpuEff nD τ sig (Elt F) (ΛP (F := F)) .tc) PUnit) Q :=
  Pipeline.RDat.RegionSeg.wp (pcfgs (F := F)) adm rdats (none : HIx 1) cellOf_inj EP (defs₀ (F := F)) 𝒱₀
    (K (F := F)).L (K (F := F)).lev Rg d none (fun u hu => nomatch hu) (fun _ => .ret PUnit.unit) Q

set_option backward.isDefEq.respectTransparency.types false in
/-- A region's record over the thread state "buffers at `W`, then at `W'`" gives the region's step. -/
theorem region_step_of [∀ e, Nonempty (Elt F e)] (p : Fin 4) (n : ℕ) (d : Dev nD) (W W' : Valuation τ sig (Elt F))
    (Rg : Pipeline.RDat.RegionSeg (pcfgs (F := F)) adm rdats (none : HIx 1) (defs₀ (F := F)) 𝒱₀ (K (F := F)).L (K (F := F)).lev p)
    (hpre : Rg.pre d = iprop(held (T d) (Pipeline.ucRefs τ sig) W ∗ Rr d n))
    (hpost : Rg.post d = iprop(held (T d) (Pipeline.ucRefs τ sig) W' ∗ Rr d n)) :
    RegionStep P κ p n d W W' := by
  intro Ps hp β k Φ
  have hg : (Pipeline.ghostOn (pcfgs (F := F)) adm EP Ps d : sProp 𝕄) = _ :=
    Pipeline.PerCore.ghostOn_erase (pcs := pcfgs (F := F)) (a := fun _ => adm) (EP := EP) hp d
  have hwp := region_wp rdats p d Rg (fun a => wp frame (wpE (DK (F := F)) 𝒱 (T d) none) Set.univ (k a) Φ)
  rw [hpre, hpost] at hwp
  unfold Rr at hwp
  unfold TS SparseCore.Cfg.tcSt
  rw [hg, wp_bind]
  iintro ⟨#Hctx, ⟨⟨⟨%Wt, %hWt, HO⟩, Hat, Hrd, Hrs, Htoks⟩, Hbd, Hh, Hsm, Hp, ⟨⟨Hcg, Htk⟩, Hg⟩⟩, Hk⟩
  ihave Hlev := (SparseCore.Cfg.ctx_levAts κ) $$ Hctx
  iapply (lift_region d p _)
  iapply hwp
  isplitl [Hk Hat Hrd Hrs Htoks Hsm Hg]
  · iintro ⟨Hbd, Hh, Hp, %Wt', %hWt', HO⟩
    rw [wp_ret]; imodintro
    iapply Hk
    isplitl [HO Hat Hrd Hrs Htoks]
    · isplitl [HO]
      · iexists Wt'; isplitr
        · ipureintro; exact hWt'
        · iexact HO
      isplitl [Hat]; · iexact Hat
      isplitl [Hrd]; · iexact Hrd
      isplitl [Hrs]; · iexact Hrs
      iexact Htoks
    isplitl [Hbd]; · iexact Hbd
    isplitl [Hh]; · iexact Hh
    isplitl [Hsm]; · iexact Hsm
    isplitl [Hp]; · iexact Hp
    iexact Hg
  isplitl [Hbd]; · iexact Hbd
  isplitl [Hh Hp HO]
  · isplitl [Hh]; · iexact Hh
    isplitl [Hp]; · iexact Hp
    iexists Wt; isplitr
    · ipureintro; exact hWt
    · iexact HO
  isplitl [Hlev]; · iexact Hlev
  isplitl [Hcg]; · iexact Hcg
  iexact Htk

end RegionStep

end Cert.Proof.KB

end
-- ==== Proof.AssembleKB.lean ====
/-
  The device's run from the steps of its five calls.

  The launch element is the handshakes' rounds beside the pipelines' rounds (the transfers' counters start at
  the unit); the pipelines' share funds, for every TensorCore, the staging cells' ghost state and duty tokens of
  all four pipelines, which @main spends region by region. @main's obligation is then the chain of MainKI from
  what the launch deals the TensorCore; at the end the unscoped buffers are read off the final memory at the
  last valuation.
-/
import proofs.«207241_g55714315764006_cont_9to1c4b_410_29_alg».proof.Proof.LaunchKB

noncomputable section

namespace Cert.Proof.KB

open Cert.Kernel Cert.Kernel.Gen Cert.Proof.KB.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-! ## The launch element -/

set_option backward.isDefEq.respectTransparency.types false in
/-- The handshakes' rounds, the pipelines' rounds, the counters' unit. -/
def u₀ : UU :=
  (initOf (K (F := F)).hsCells (K (F := F)).hsToks,
    (initOf (Pipeline.PerCore.cells (Pipeline.pinD (pcfgs (F := F)) fun _ : Dev nD => adm) cellOf_inj)
      (Pipeline.PerCore.launchToks (Pipeline.pinD (pcfgs (F := F)) fun _ : Dev nD => adm) cellOf_inj), 1))

/-- What the launch leaves each TensorCore beside its buffers: all four pipelines' ghost state, unspent. -/
abbrev G₀ (d : Dev nD) : sProp 𝕄 := Pipeline.ghostOn (pcfgs (F := F)) adm EP Finset.univ d

omit [FloatOps F] in
theorem ownU_split3 (a : UH) (b : UP) (c : Counters) :
    (ownU ((a, (b, c)) : UU) : sProp 𝕄) ⊢ iprop(BI.own (EH a) ∗ BI.own (EP b)) := by
  have h1 : (ownU ((a, (b, c)) : UU) : sProp 𝕄) ⊢ iprop(BI.own (EH a) ∗ BI.own (((Emb.inr : Emb (UP × Counters) UU).trans
      (uEmb (nD := nD) (sig := sig) (Ix := HIx 1) (Val := Elt F) (Name := ℕ) (U := UU) (Lvl := ℕ)).toEmb) (b, c))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  refine h1.trans (sep_mono .rfl ?_)
  exact (own_pair_emb _ b c).trans sep_elim_left

section Run

variable (P : (K (F := F)).Pay (nD := nD) (Val := Elt F) (Name := ℕ) (U := UU))
variable (hPx : ∀ q thr, P.x q thr = iprop(emp))

omit [FloatOps F] in
theorem bigSep_emp' {I : Type} (s : Finset I) : (bigSep s fun _ => iprop(emp)) = (iprop(emp) : sProp 𝕄) := bigSep_emp_const s

set_option backward.isDefEq.respectTransparency.types false in
include hPx in
theorem hu₀ : (ownU (u₀ (F := F)) : sProp 𝕄)
    ⊢ |={Set.univ}=> iprop(BI.own (EH (initOf (K (F := F)).hsCells (K (F := F)).hsToks)) ∗ (bigSep Finset.univ fun d : Dev nD => G₀ (F := F) d)
        ∗ bigSep Finset.univ fun thr : Thread nD τ => bigSep Finset.univ fun q : Fin 1 => P.x q thr) := by
  have hfund := Pipeline.PerCore.fund_ghost (Pipeline.pinD (pcfgs (F := F)) fun _ : Dev nD => adm) (EP (F := F)) cellOf_inj
  have hG : iprop((bigSep Finset.univ fun c : Dev nD => bigSep Finset.univ fun p =>
          Pipeline.PerCore.cellsGhost (Pipeline.pinD (pcfgs (F := F)) fun _ : Dev nD => adm) (EP (F := F)) p c)
        ∗ (bigSep Finset.univ fun c : Dev nD => bigSep Finset.univ fun p =>
          (Pipeline.PerCore.toksInit (Pipeline.pinD (pcfgs (F := F)) fun _ : Dev nD => adm) (EP (F := F)) p c : sProp 𝕄)))
      ⊢ (bigSep Finset.univ fun d : Dev nD => G₀ (F := F) d) := by
    rw [← bigSep_sep']
    exact bigSep_mono fun c _ => Entails.of_eq (by
      show _ = Pipeline.PerCore.ghostOn (pcfgs (F := F)) (fun _ : Dev nD => adm) (EP (F := F)) Finset.univ c
      unfold Pipeline.PerCore.ghostOn; rw [bigSep_sep'])
  unfold u₀
  iintro Hu
  ihave H := (ownU_split3 _ _ _) $$ Hu
  icases H with ⟨HH, HP⟩
  imod hfund $$ HP with Hg
  imodintro
  isplitl [HH]; · iexact HH
  isplitl [Hg]; · iapply hG; iexact Hg
  simp only [hPx, bigSep_emp']
  iempintro

/-! ## @main's obligation and the final read -/

variable (m : (ℓ : Loc nD τ sig) → Buf (Elt F) ℓ) (g : Dev nD → PrngReg)
variable (R : Fin 4 → Dev nD → Valuation τ sig (Elt F) → Valuation τ sig (Elt F))
variable (G : Dev nD → Valuation τ sig (Elt F) → Valuation τ sig (Elt F))

/-- What @main leaves the claim: every unscoped buffer at the last valuation. -/
abbrev FIN (d : Dev nD) : sProp 𝕄 := held (T d) (Pipeline.ucRefs τ sig) (Wf m R G d)

set_option backward.isDefEq.respectTransparency.types false in
theorem hmain (κ : GSem nD τ sig → ℕ) (d : Dev nD)
    (h0 : RegionStep P κ 0 0 d (Wa m d) (W1 m R d)) (h1 : RegionStep P κ 1 0 d (Wb m R d) (W2 m R d))
    (hsc : ScStep P κ d (Wc m R d) (W3 m R G d))
    (h3 : RegionStep P κ 2 1 d (Wd m R G d) (W4 m R G d)) (h4 : RegionStep P κ 3 1 d (We m R G d) (W5 m R G d)) :
    iprop((K (F := F)).ctx EH P κ ∗ (K (F := F)).tcSt EH d 0 ∗ (K (F := F)).tcRes m g d ∗ G₀ (F := F) d)
      ⊢ wp frame (wpE (DK (F := F)) 𝒱 (T d) none) Set.univ (main (F := F) d)
          fun _ => iprop((K (F := F)).tcSt EH d 1 ∗ FIN m R G d) := by
  have hpre : iprop((K (F := F)).ctx EH P κ ∗ (K (F := F)).tcSt EH d 0 ∗ (K (F := F)).tcRes m g d ∗ G₀ (F := F) d)
      ⊢ iprop((K (F := F)).ctx EH P κ ∗ TS d 0 (W0 m d) Finset.univ) := by
    unfold TS SparseCore.Cfg.tcRes
    rw [show (unscopedBufs d (fun b => m ((d.tc : Thread nD τ).loc b)) : sProp 𝕄) = held (d.tc : Thread nD τ) (Pipeline.ucRefs τ sig) (W0 m d) from
      Pipeline.unscopedBufs_held d (W0 m d)]
    iintro ⟨#Hctx, Hst, ⟨Hb, Hh, Hsm, Hp⟩, HG⟩
    isplitr; · iexact Hctx
    isplitl [Hst]; · iexact Hst
    isplitl [Hb]; · iexact Hb
    isplitl [Hh]; · iexact Hh
    isplitl [Hsm]; · iexact Hsm
    isplitl [Hp]; · iexists _; iexact Hp
    iexact HG
  have hpost : ∀ _u : PUnit, TS d 1 (Wf m R G d) ((((Finset.univ.erase 0).erase 1).erase 2).erase 3)
      ⊢ iprop((K (F := F)).tcSt EH d 1 ∗ FIN m R G d) := by
    intro _
    unfold TS
    iintro ⟨Hst, -, Hh, -, -, -⟩
    isplitl [Hst]; · iexact Hst
    iexact Hh
  exact hpre.trans ((main_chain P κ m R G d h0 h1 hsc h3 h4).trans (wp_mono frame _ _ hpost))

/-- The final memory holds every unscoped buffer of every TensorCore at the last valuation. -/
def fq (d : Dev nD) (s' : Phys nD τ sig (Elt F)) : Prop :=
  ∀ b ∈ Pipeline.ucRefs τ sig, s'.mem.mem ((d, b) : Loc nD τ sig) = Wf m R G d b

theorem hfin (d : Dev nD) (s' : Phys nD τ sig (Elt F)) : iprop(FIN m R G d ∗ SI s') ⊢ (⌜fq m R G d s'⌝ : sProp 𝕄) := by
  unfold FIN held
  iintro H
  ihave H' := (pointsTo_read_all (Pipeline.ucRefs τ sig) (fun b => ((d, b) : Loc nD τ sig)) (Wf m R G d) s') $$ H
  icases H' with ⟨%h, -⟩
  ipureintro; exact h

end Run

end Cert.Proof.KB

end
-- ==== Proof.Region0B.lean ====
/-
  The feature table's kernel region: the first TensorCore call of the program.

  The pipeline walks a 7 × 2 grid. At point (j, p) it stages block (min j 5, p) of the features — 256 channels by 5632
  positions —, the weights whole (80 by 256), and the output's block (j, p): 5632 positions by 128 columns. The body
  contracts the feature block with the weights over the channels, keeps the product where j < 6 and zeros where j = 6,
  writes it to columns 0 … 79 of the output block and zeros to columns 80 … 127. The two column strips tile the block,
  so what the body leaves is a function of the two input blocks alone, and the output array after the fourteen
  write-backs is one function of the features and the weights: product rows for the first six planes, zeros in the
  seventh and in the padding columns.

  Everything is stated at a parameter `V`, the TensorCore's buffer contents when the region is entered, at
  parameters `O` and `Rc`, what the core owes throughout the region and a bound on its recorded wait pairs, and for any
  float instance.
-/
import proofs.«207241_g55714315764006_cont_9to1c4b_410_29_alg».proof.Proof.SetupKB
import proofs.«207241_g55714315764006_cont_9to1c4b_410_29_alg».proof.Proof.Gen.Kernel.Launch
import proofs.«207241_g55714315764006_cont_9to1c4b_410_29_alg».proof.Proof.Gen.Kernel.Skeleton
import proofs.«207241_g55714315764006_cont_9to1c4b_410_29_alg».proof.Proof.Gen.Kernel.Points
import Idealize.ShloMosaic.Lib.Pipeline.FrameBody
import Idealize.ShloMosaic.Lib.Pipeline.Value
import Idealize.ShloMosaic.Lib.Ring
import Idealize.ShloMosaic.Lib.ValueIdx
import Idealize.ShloMosaic.PureOps.Ideal.Laws
import Idealize.ShloMosaic.Lib.Tactic

set_option maxRecDepth 16384

noncomputable section

namespace Cert.Proof.KB.R0

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig (HIx 1) (Elt F) ℕ Cert.Proof.KB.UU ℕ

section Region

variable (V : (c : Dev nD) → (b : Ref sig .tc) → Buf (Elt F) ((c : Thread nD τ).loc b))
variable (O : CellTallies nD τ sig (HIx 1)) (Rc : Set (SemLoc sig × HIx 1))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point, for any proof data whose array is the
    entry contents and whose body leaves the block in place: the window is fetched at every point. -/
theorem before0_0_of {c : Dev nD} (dat : Dat τ (Elt F) (HIx 1) ℕ Cert.Proof.KB.UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the weights at every point, fetched there (the first point) or not (its block
    index never moves, and the body leaves the buffer as it found it). -/
theorem before0_1_of {c : Dev nD} (dat : Dat τ (Elt F) (HIx 1) ℕ Cert.Proof.KB.UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole feature block and the whole weights, as the body loads them. -/
abbrev rFeat : Rect S1x256x5632 := Rect.unit (s := S1x256x5632) ![0, 0, 0] S1x256x5632.size inb_S1x256x5632_S1x256x5632_0_0_0
abbrev rWts : Rect S80x256 := Rect.unit (s := S80x256) ![0, 0] S80x256.size inb_S80x256_S80x256_0_0
/-- Columns 0 … 79 of the output block: the product's strip. -/
abbrev rProd : Rect S1x5632x128 := Rect.unit (s := S1x5632x128) ![0, 0, 0] S1x5632x80.size inb_S1x5632x128_S1x5632x80_0_0_0
/-- Columns 80 … 127 of the output block: the padding strip. -/
abbrev rPad : Rect S1x5632x128 := Rect.unit (s := S1x5632x128) ![0, 0, 80] S1x5632x48.size inb_S1x5632x128_S1x5632x48_0_0_80

/-! ## What the body leaves in the output window's buffer -/

/-- The output block after the body at grid coordinates `i`, from the two input blocks: the padding strip's zeros over the
    product strip (last store first). -/
def out0_2 (i : grid0.Coords) (x0 : Vec F S1x256x5632 .f32) (x1 : Vec F S80x256 .f32) : Vec F S1x5632x128 .f32 :=
  View.canon [⟨rPad, k0_pay2 (F := F)⟩, ⟨rProd, k0_pay1 i (View.ld x0 rFeat) (View.ld x1 rWts)⟩]

/-- The two strips tile the output block: the product's 80 columns and the padding's 48, both cut at multiples of 16. -/
theorem cover0_2 (p0 : Vec F S1x5632x80 .f32) (p1 : Vec F S1x5632x48 .f32) (y : S1x5632x128.Idx) :
    ∃ pc ∈ ([⟨rPad, p1⟩, ⟨rProd, p0⟩] : List (View.Piece (Elt F) S1x5632x128 .f32)), y ∈ pc.1.set :=
  View.cover_of_tiledBy [⟨rPad, p1⟩, ⟨rProd, p0⟩] ![1, 5632, 16] (by sl_kernel_rfl) y

/-! ## The body's triple -/

set_option maxHeartbeats 1000000 in
/-- The body on whole staging memrefs — the feature block and the weights at read contents, the output block at
    anything — runs to the continuation holding the inputs as they were and the output block at `out0_2` of them. -/
theorem sound_kernel0 (c : Dev nD) (E : Set ℕ) (i : grid0.Coords)
    (arg2 : Memref sig .tc .vmem S1x256x5632 .f32) (harg2 : arg2.IsWhole)
    (arg3 : Memref sig .tc .vmem S80x256 .f32) (harg3 : arg3.IsWhole)
    (arg4 : Memref sig .tc .vmem S1x5632x128 .f32) (harg4 : arg4.IsWhole)
    (x0 : Vec F S1x256x5632 .f32) (x1 : Vec F S80x256 .f32) (Q : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 i x0 x1)) -∗ Q ⟨⟩))
      ⊢ wp frame (wpE (defs₀ (F := F)) Variants.none c none) E (cc0__table_body i arg2 harg2 arg3 harg3 arg4 harg4) Q := by
  simp only [cc0__table_body_eq_skeleton]; unfold cc0__table_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

/-- The region's invariant, the shape every region of this class has: the core's scoped buffers that no window of this
    call stages, each at some contents, and the generator register at some state. The body touches neither. -/
def Φ0 (c : Dev nD) : sProp 𝕄 :=
  iprop(Pipeline.scopedRest (Ix := HIx 1) (Name := ℕ) (U := Cert.Proof.KB.UU) (Lvl := ℕ) (Val := Elt F) spec0 c ∗ ∃ r, prngReg c r)

/-- The proof data of the feature table's pipeline on core `c`: the arrays as the region finds them; after the body at
    point `t` each input's buffer at its block and the output's at `out0_2` of the input blocks at the point's grid
    coordinates; the invariant `Φ0`; the core owing `O` throughout, its recorded wait pairs within `Rc`; full shares. -/
def dat0 (c : Dev nD) : Dat τ (Elt F) (HIx 1) ℕ Cert.Proof.KB.UU ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Φ0 c
  q _ := fullShare
  owed _ := O
  recorded _ := Rc

/-- The proof data's arrays are the region-entry contents. -/
theorem A_eq0 (c : Dev nD) (w : Fin cfg0.W) : (dat0 V O Rc c).A w = V c (Pipeline.arrRef spec0 w) := by
  dsimp only [dat0]

/-- What the body leaves, window by window. -/
theorem after0_0 (c : Dev nD) (t : Fin cfg0.N) : (dat0 V O Rc c).after 0 t = iblk0 V c 0 t := by dsimp only [dat0]
theorem after0_1 (c : Dev nD) (t : Fin cfg0.N) : (dat0 V O Rc c).after 1 t = iblk0 V c 1 t := by dsimp only [dat0]
theorem after0_2 (c : Dev nD) (t : Fin cfg0.N) :
    (dat0 V O Rc c).after 2 t = out0_2 (grid0.coords t) (iblk0 V c 0 t) (iblk0 V c 1 t) := by dsimp only [dat0]

/-- Each input's current staging buffer holds its block at every point, fetched there or not. -/
theorem before0_0 (c : Dev nD) (t : Fin cfg0.N) (d) : (dat0 V O Rc c).before 0 t d = iblk0 V c 0 t :=
  before0_0_of V (dat0 V O Rc c) (A_eq0 V O Rc c 0) (after0_0 V O Rc c) t d
theorem before0_1 (c : Dev nD) (t : Fin cfg0.N) (d) : (dat0 V O Rc c).before 1 t d = iblk0 V c 1 t :=
  before0_1_of V (dat0 V O Rc c) (A_eq0 V O Rc c 1) (after0_1 V O Rc c) t d

/-! ## The body obligation, at a generic point -/

/-- What the body is called with at point `t`, the windows one by one, -/
def bodyPre0 (c : Dev nD) (t : Fin cfg0.N) : sProp 𝕄 :=
  iprop((dat0 V O Rc c).Φ t.castSucc ∗ (dat0 V O Rc c).owesAt (none : HIx 1) t.castSucc
    ∗ (∃ d, owns (c : Thread nD τ) (st0_0 t) fullShare ((dat0 V O Rc c).before 0 t d))
    ∗ (∃ d, owns (c : Thread nD τ) (st0_1 t) fullShare ((dat0 V O Rc c).before 1 t d))
    ∗ (∃ d, owns (c : Thread nD τ) (st0_2 t) fullShare ((dat0 V O Rc c).before 2 t d)))

/-- and what it returns. -/
def bodyPost0 (c : Dev nD) (t : Fin cfg0.N) : sProp 𝕄 :=
  iprop((dat0 V O Rc c).Φ t.succ ∗ (dat0 V O Rc c).owesAt (none : HIx 1) t.succ
    ∗ owns (c : Thread nD τ) (st0_0 t) fullShare ((dat0 V O Rc c).after 0 t)
    ∗ owns (c : Thread nD τ) (st0_1 t) fullShare ((dat0 V O Rc c).after 1 t)
    ∗ owns (c : Thread nD τ) (st0_2 t) fullShare ((dat0 V O Rc c).after 2 t))

/-- The body at any point: the inputs' memrefs hold their blocks, so the body's triple applies; the invariant and what
    the core owes pass through unread. -/
theorem sound_body0 (c : Dev nD) (t : Fin cfg0.N) :
    bodyPre0 V O Rc c t ⊢ wp frame (wpE (defs₀ (F := F)) Variants.none c none) Set.univ (bodyAt0 t) (fun _ => bodyPost0 V O Rc c t) := by
  unfold bodyPre0 bodyPost0 bodyAt0
  simp only [before0_0, before0_1]
  rw [show (dat0 V O Rc c).Φ t.succ = (dat0 V O Rc c).Φ t.castSucc from rfl,
    show (dat0 V O Rc c).owesAt (none : HIx 1) t.succ = (dat0 V O Rc c).owesAt (none : HIx 1) t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) :
    BodyObligation (dat0 (F := F) V O Rc c) (defs₀ (F := F)) Variants.none (none : HIx 1) Set.univ := fun t => by
  rw [bigSep_W0, bigSep_W0]
  exact sound_body0 V O Rc c t

end Region

/-! ## The value: the output array after the region, as one function of the features and the weights -/

/-- Block (j, p) of the features as the contraction takes it: 256 channels by the 5632 positions from `5632 p` on. -/
def featBlock (x : Vec F S6x256x11264 .f32) (j : Fin 6) (p : Fin 2) : FVec F S256x5632 .f32 :=
  fun k => x (ix3 j ⟨(k 0).val, (k 0).isLt⟩ ⟨p.val * 5632 + (k 1).val, by
    have h : (k 1).val < 5632 := (k 1).isLt
    have := p.isLt; omega⟩)

/-- The block's product with the weights: entry (position, o) contracts the block's channels against row `o` of the
    weights, into a zero accumulator — the float instance's own matrix product, in the body's own contraction. -/
def blockProd (x : Vec F S6x256x11264 .f32) (w : Vec F S80x256 .f32) (j : Fin 6) (p : Fin 2) : FVec F S5632x80 .f32 :=
  matmul dot_S256x5632_S80x256_S5632x80_0_1_1_0_n_n (some .fp32) (featBlock x j p) w (constant S5632x80 .f32 0x00000000#32)

/-- THE FEATURE TABLE: entry (j, pos, o) is, for a plane `j < 6` and a column `o < 80`, the product of the block that
    holds position `pos` — block (j, pos / 5632) — at (pos % 5632, o); the seventh plane and the padding columns
    80 … 127 are zero. -/
def tableOf (x : Vec F S6x256x11264 .f32) (w : Vec F S80x256 .f32) : Vec F S7x11264x128 .f32 := fun i =>
  if h : (i 0).val < 6 ∧ (i 2).val < 80 then
    blockProd x w ⟨(i 0).val, h.1⟩ ⟨(i 1).val / 5632, by have h1 : (i 1).val < 11264 := (i 1).isLt; omega⟩
      (ix2 ⟨(i 1).val % 5632, Nat.mod_lt _ (by decide)⟩ ⟨(i 2).val, h.2⟩)
  else Scalar.ofBits .f32 0x00000000#32

/-- Off the product's planes and columns the table is the zero word. -/
theorem tableOf_of_not (x : Vec F S6x256x11264 .f32) (w : Vec F S80x256 .f32) (i : S7x11264x128.Idx)
    (h : ¬((i 0).val < 6 ∧ (i 2).val < 80)) : tableOf x w i = Scalar.ofBits .f32 0x00000000#32 := by
  unfold tableOf; rw [dif_neg h]

/-- The table at an index given by its plane, the block its position falls in, the position inside the block and its
    column: the block's product there. -/
theorem tableOf_of_coords (x : Vec F S6x256x11264 .f32) (w : Vec F S80x256 .f32) (I : S7x11264x128.Idx)
    (j : Fin 6) (p : Fin 2) (r : Fin 5632) (o : Fin 80)
    (h0 : (I 0).val = j.val) (h1 : (I 1).val = p.val * 5632 + r.val) (h2 : (I 2).val = o.val) :
    tableOf x w I = blockProd x w j p (ix2 r o) := by
  have hj := j.isLt; have hp := p.isLt; have hr := r.isLt; have ho := o.isLt
  unfold tableOf
  rw [dif_pos ⟨by omega, by omega⟩]
  refine congr (congr (congrArg (blockProd x w) (Fin.ext h0)) (Fin.ext ?_)) (funext fun a => Fin.ext ?_)
  · show (I 1).val / 5632 = p.val; omega
  · match a with
    | ⟨0, _⟩ => show (I 1).val % 5632 = r.val; omega
    | ⟨1, _⟩ => exact h2

/-! ## The payloads at an index -/

/-- The padding strip's payload is the zero word everywhere. -/
theorem pay2_apply (x : S1x5632x48.Idx) : k0_pay2 (F := F) x = Scalar.ofBits .f32 0x00000000#32 := rfl

/-- The grid's first coordinate against six, as the body's signed comparison computes it. -/
theorem cmp_plane : ∀ n : Fin 7, Scalar.cmpi .slt (BitVec.ofNat 32 n.val) 6#32 = if n.val < 6 then 1#1 else 0#1 := by decide

/-- The product strip's payload at (·, r, o): in the first six planes the block's product at (r, o), in the seventh
    plane the zero word. -/
theorem pay1_apply (i : grid0.Coords) (x0 : Vec F S1x256x5632 .f32) (x1 : Vec F S80x256 .f32) (y : S1x5632x80.Idx) :
    k0_pay1 i x0 x1 y = if (i 0).val < 6 then
        matmul dot_S256x5632_S80x256_S5632x80_0_1_1_0_n_n (some .fp32) (shapeCast S256x5632 x0 shapeCasts_S1x256x5632_S256x5632) x1
          (constant S5632x80 .f32 0x00000000#32) (fun a => y a.succ)
      else Scalar.ofBits .f32 0x00000000#32 := by
  show shapeCast S1x5632x80 (Scalar.select (Scalar.cmpi .slt (BitVec.ofNat 32 (i 0).val) 6#32)
      (matmul dot_S256x5632_S80x256_S5632x80_0_1_1_0_n_n (some .fp32) (shapeCast S256x5632 x0 shapeCasts_S1x256x5632_S256x5632) x1
        (constant S5632x80 .f32 0x00000000#32))
      (broadcast S5632x80 (Scalar.ofBits .f32 0x00000000#32 : F .f32))) shapeCasts_S5632x80_S1x5632x80 y = _
  rw [shapeCast_addUnit_apply ![5632, 80]]
  have hc : Scalar.cmpi .slt (BitVec.ofNat 32 (i 0).val) 6#32 = if (i 0).val < 6 then 1#1 else 0#1 :=
    cmp_plane ⟨(i 0).val, (i 0).isLt⟩
  by_cases h : (i 0).val < 6
  · rw [if_pos h] at hc; rw [if_pos h, hc, select_one]
  · rw [if_neg h] at hc; rw [if_neg h, hc, select_zero]; rfl

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body loads both input blocks whole, so the output block is the two strips' payloads of the blocks themselves. -/
theorem out0_2_eq (i : grid0.Coords) (x0 : Vec F S1x256x5632 .f32) (x1 : Vec F S80x256 .f32) :
    out0_2 i x0 x1 = View.canon [⟨rPad, k0_pay2 (F := F)⟩, ⟨rProd, k0_pay1 i x0 x1⟩] := by
  unfold out0_2
  rw [View.ld_unit_zero (S := S1x256x5632) zeros3, View.ld_unit_zero (S := S80x256) zeros2]

/-! ## The contraction's operand indices -/

theorem lhs_dot_0 (i : S5632x80.Idx) (q : dot_S256x5632_S80x256_S5632x80_0_1_1_0_n_n.contr.Idx) :
    (dot_S256x5632_S80x256_S5632x80_0_1_1_0_n_n.lhsIdx i q 0).val = (q ⟨0, by decide⟩).val :=
  dot_S256x5632_S80x256_S5632x80_0_1_1_0_n_n.lhsIdx_val_of_single rfl i q
theorem lhs_dot_1 (i : S5632x80.Idx) (q : dot_S256x5632_S80x256_S5632x80_0_1_1_0_n_n.contr.Idx) :
    (dot_S256x5632_S80x256_S5632x80_0_1_1_0_n_n.lhsIdx i q 1).val = (i 0).val := by
  unfold DotDims.lhsIdx
  rw [dif_neg (show ¬(1 : Fin S256x5632.rank) ∈ dot_S256x5632_S80x256_S5632x80_0_1_1_0_n_n.lhsBatch by decide), dif_pos (show (1 : Fin S256x5632.rank) ∈ dot_S256x5632_S80x256_S5632x80_0_1_1_0_n_n.lhsNonContracting by decide)]
  rfl
theorem rhs_dot_0 (i : S5632x80.Idx) (q : dot_S256x5632_S80x256_S5632x80_0_1_1_0_n_n.contr.Idx) :
    (dot_S256x5632_S80x256_S5632x80_0_1_1_0_n_n.rhsIdx i q 0).val = (i 1).val := by
  unfold DotDims.rhsIdx
  rw [dif_neg (show ¬(0 : Fin S80x256.rank) ∈ dot_S256x5632_S80x256_S5632x80_0_1_1_0_n_n.rhsBatch by decide), dif_pos (show (0 : Fin S80x256.rank) ∈ dot_S256x5632_S80x256_S5632x80_0_1_1_0_n_n.rhsNonContracting by decide)]
  rfl
theorem rhs_dot_1 (i : S5632x80.Idx) (q : dot_S256x5632_S80x256_S5632x80_0_1_1_0_n_n.contr.Idx) :
    (dot_S256x5632_S80x256_S5632x80_0_1_1_0_n_n.rhsIdx i q 1).val = (q ⟨0, by decide⟩).val :=
  dot_S256x5632_S80x256_S5632x80_0_1_1_0_n_n.rhsIdx_val_of_single rfl i q

section Value

variable (V : (c : Dev nD) → (b : Ref sig .tc) → Buf (Elt F) ((c : Thread nD τ).loc b))
variable (O : CellTallies nD τ sig (HIx 1)) (Rc : Set (SemLoc sig × HIx 1))

/-! ## From blocks to the array -/

/-- The printed index maps over the grid, decided: at point `t = 2 j + p` the output's block index is (j, p, 0), the
    features' (min j 5, 0, p), the weights' (0, 0), and the grid's first coordinate is j. -/
theorem idx_facts0 : ∀ t : Fin cfg0.N,
    win0_2.index t (0 : Fin 3) = t.val / 2 ∧ win0_2.index t (1 : Fin 3) = t.val % 2 ∧ win0_2.index t (2 : Fin 3) = 0
    ∧ win0_0.index t (0 : Fin 3) = min (t.val / 2) 5 ∧ win0_0.index t (1 : Fin 3) = 0 ∧ win0_0.index t (2 : Fin 3) = t.val % 2
    ∧ win0_1.index t (0 : Fin 2) = 0 ∧ win0_1.index t (1 : Fin 2) = 0
    ∧ (grid0.coords t 0).val = t.val / 2 :=
  (by decide +kernel : ∀ t : Fin grid0.N, _)

/-- The weights' one block is the weights. -/
theorem iblk0_1_eq (c : Dev nD) (t : Fin cfg0.N) : iblk0 V c 1 t = V c main_arg7 := by
  obtain ⟨-, -, -, -, -, -, e10, e11, -⟩ := idx_facts0 t
  funext k
  show V c main_arg7 (((cfg0.win 1).blk t).view.emb k) = V c main_arg7 k
  refine congrArg _ (funext fun a => Fin.ext ?_)
  match a with
  | ⟨0, _⟩ => show win0_1.index t (0 : Fin 2) * 80 + 1 * (k 0).val = (k 0).val; omega
  | ⟨1, _⟩ => show win0_1.index t (1 : Fin 2) * 256 + 1 * (k 1).val = (k 1).val; omega

/-- The features' block at a point of the first six planes, as the contraction takes it, is block (j, p) of the
    features. -/
theorem featBlock_eq (c : Dev nD) (t : Fin cfg0.N) (hj : t.val / 2 < 6) :
    shapeCast S256x5632 (iblk0 V c 0 t) shapeCasts_S1x256x5632_S256x5632
      = featBlock (V c main_v1) ⟨t.val / 2, hj⟩ ⟨t.val % 2, Nat.mod_lt _ (by decide)⟩ := by
  obtain ⟨-, -, -, e00, e01, e02, -, -, -⟩ := idx_facts0 t
  funext k
  rw [shapeCast_dropUnit_apply ![256, 5632]]
  show V c main_v1 (((cfg0.win 0).blk t).view.emb (Fin.cons ⟨0, Nat.one_pos⟩ k)) = V c main_v1 _
  refine congrArg _ (funext fun a => Fin.ext ?_)
  match a with
  | ⟨0, _⟩ => show win0_0.index t (0 : Fin 3) * 1 + 1 * 0 = t.val / 2; omega
  | ⟨1, _⟩ => show win0_0.index t (1 : Fin 3) * 256 + 1 * (k 0).val = (k 0).val; omega
  | ⟨2, _⟩ => show win0_0.index t (2 : Fin 3) * 5632 + 1 * (k 1).val = t.val % 2 * 5632 + (k 1).val; omega

/-- WHAT POINT `t` WRITES BACK is block `t` of the feature table of the arrays as the region finds them. -/
theorem flushed0_2_eq (c : Dev nD) (t : Fin cfg0.N) :
    (dat0 V O Rc c).flushed 2 t = ((cfg0.win 2).blk t).view.read (Elt F) (tableOf (V c main_v1) (V c main_arg7)) := by
  show (cfg0.win 2).cut (grid0.coords t) ((dat0 V O Rc c).after 2 t) = _
  rw [after0_2, out0_2_eq, iblk0_1_eq]
  obtain ⟨e20, e21, e22, -, -, -, -, -, eg⟩ := idx_facts0 t
  have ht : t.val < 14 := lt_of_lt_of_eq t.isLt N_0
  funext y
  show View.canon [⟨rPad, k0_pay2 (F := F)⟩, ⟨rProd, k0_pay1 (grid0.coords t) (iblk0 V c 0 t) (V c main_arg7)⟩] y
    = tableOf (V c main_v1) (V c main_arg7) (((cfg0.win 2).blk t).view.emb y)
  have y0 : (y 0).val < 1 := (y 0).isLt
  have y1 : (y 1).val < 5632 := (y 1).isLt
  have y2 : (y 2).val < 128 := (y 2).isLt
  have a0 : ((((cfg0.win 2).blk t).view.emb y) 0).val = t.val / 2 := by
    show win0_2.index t (0 : Fin 3) * 1 + 1 * (y 0).val = t.val / 2; omega
  have a1 : ((((cfg0.win 2).blk t).view.emb y) 1).val = t.val % 2 * 5632 + (y 1).val := by
    show win0_2.index t (1 : Fin 3) * 5632 + 1 * (y 1).val = _; omega
  have a2 : ((((cfg0.win 2).blk t).view.emb y) 2).val = (y 2).val := by
    show win0_2.index t (2 : Fin 3) * 128 + 1 * (y 2).val = _; omega
  generalize ((cfg0.win 2).blk t).view.emb y = I at a0 a1 a2 ⊢
  by_cases hy : (y 2).val < 80
  · -- a column of the product's strip
    obtain ⟨x, rfl⟩ : ∃ x : S1x5632x80.Idx, rProd.emb x = y :=
      ⟨ix3 ⟨(y 0).val, y0⟩ ⟨(y 1).val, y1⟩ ⟨(y 2).val, hy⟩, funext fun a => Fin.ext (by
        match a with
        | ⟨0, _⟩ => show 0 + 1 * (y 0).val = (y 0).val; omega
        | ⟨1, _⟩ => show 0 + 1 * (y 1).val = (y 1).val; omega
        | ⟨2, _⟩ => show 0 + 1 * (y 2).val = (y 2).val; omega)⟩
    have e1 : ((rProd.emb x) 1).val = (x 1).val := by show 0 + 1 * (x 1).val = _; omega
    have e2 : ((rProd.emb x) 2).val = (x 2).val := by show 0 + 1 * (x 2).val = _; omega
    have x1 : (x 1).val < 5632 := (x 1).isLt
    have x2 : (x 2).val < 80 := (x 2).isLt
    have hnot : rProd.emb x ∉ rPad.set := by
      rw [Rect.mem_set_unit]; intro h
      have h80 : 80 ≤ ((rProd.emb x) 2).val := (h (2 : Fin 3)).1
      omega
    rw [View.canon_cons_of_not_mem (⟨rPad, k0_pay2 (F := F)⟩ : View.Piece (Elt F) S1x5632x128 .f32) _ hnot,
      View.canon_cons_emb, pay1_apply]
    by_cases hj : t.val / 2 < 6
    · rw [if_pos (by rw [eg]; exact hj), featBlock_eq V c t hj,
        tableOf_of_coords _ _ I ⟨t.val / 2, hj⟩ ⟨t.val % 2, Nat.mod_lt _ (by decide)⟩ ⟨(x 1).val, x1⟩ ⟨(x 2).val, x2⟩
          a0 (by rw [a1, e1]) (by rw [a2, e2])]
      unfold blockProd
      refine congrArg _ (funext fun a => ?_)
      match a with
      | ⟨0, _⟩ => rfl
      | ⟨1, _⟩ => rfl
    · rw [if_neg (by rw [eg]; exact hj)]
      exact (tableOf_of_not _ _ I (by rw [a0]; omega)).symm
  · -- a column of the padding strip
    obtain ⟨x, rfl⟩ : ∃ x : S1x5632x48.Idx, rPad.emb x = y :=
      ⟨ix3 ⟨(y 0).val, y0⟩ ⟨(y 1).val, y1⟩ ⟨(y 2).val - 80, by omega⟩, funext fun a => Fin.ext (by
        match a with
        | ⟨0, _⟩ => show 0 + 1 * (y 0).val = (y 0).val; omega
        | ⟨1, _⟩ => show 0 + 1 * (y 1).val = (y 1).val; omega
        | ⟨2, _⟩ => show 80 + 1 * ((y 2).val - 80) = (y 2).val; omega)⟩
    rw [View.canon_cons_emb, pay2_apply]
    exact (tableOf_of_not _ _ I (by rw [a2]; omega)).symm

/-- An index of the output array is in point `t`'s block iff each coordinate is in the block's range on its axis. -/
theorem mem_blk0_2 (t : Fin cfg0.N) (i : S7x11264x128.Idx) :
    i ∈ ((cfg0.win 2).blk t).view.set ↔ ∀ a : Fin 3, win0_2.index t a * S1x5632x128.size a ≤ (i a).val ∧ (i a).val < win0_2.index t a * S1x5632x128.size a + S1x5632x128.size a := by
  show i ∈ ((View.whole main_v2).slice (win0_2.rect t)).set ↔ _
  rw [View.set_slice_whole, Rect.mem_set_unit]
  exact Iff.rfl

/-- THE COVER: the fourteen blocks tile the output array; entry (j, pos, ·) is in the block of point `2 j + pos / 5632`. -/
theorem cover_table (i : S7x11264x128.Idx) :
    ∃ t : Fin cfg0.N, (cfg0.win 2).flush t = true ∧ i ∈ ((cfg0.win 2).blk t).view.set := by
  have h0 : (i 0).val < 7 := (i 0).isLt
  have h1 : (i 1).val < 11264 := (i 1).isLt
  have h2 : (i 2).val < 128 := (i 2).isLt
  obtain ⟨t, tv⟩ : ∃ t : Fin cfg0.N, t.val = (i 0).val * 2 + (i 1).val / 5632 :=
    ⟨⟨(i 0).val * 2 + (i 1).val / 5632, lt_of_lt_of_eq (show (i 0).val * 2 + (i 1).val / 5632 < 14 by omega) N_0.symm⟩, rfl⟩
  obtain ⟨e20, e21, e22, -⟩ := idx_facts0 t
  refine ⟨t, flush0_2 t, ?_⟩
  rw [mem_blk0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 5632 ≤ (i 1).val ∧ (i 1).val < win0_2.index t (1 : Fin 3) * 5632 + 5632; omega
  | ⟨2, _⟩ => show win0_2.index t (2 : Fin 3) * 128 ≤ (i 2).val ∧ (i 2).val < win0_2.index t (2 : Fin 3) * 128 + 128; omega

/-- THE OUTPUT ARRAY AFTER THE REGION is the feature table of the features and the weights as the region finds them. -/
theorem table_eq (c : Dev nD) : (dat0 V O Rc c).arrAt 2 cfg0.N = tableOf (V c main_v1) (V c main_arg7) :=
  (dat0 V O Rc c).arrAt_eq_of_cover 2 (tableOf (V c main_v1) (V c main_arg7)) (fun t _ => flushed0_2_eq V O Rc c t) cover_table

end Value

/-- At the ideal values an entry of the table in a product plane and column is the channels' sum of products. -/
theorem tableOf_apply (x : S6x256x11264.Idx → EReal) (w : S80x256.Idx → EReal) (j : Fin 6) (pos : Fin 11264) (o : Fin 80) :
    tableOf (F := Ideal) x w (ix3 ⟨j.val, by omega⟩ pos ⟨o.val, by omega⟩) = ∑ ch : Fin 256, x (ix3 j ch pos) * w (ix2 o ch) := by
  have hpos := pos.isLt
  have hp : pos.val / 5632 < 2 := by omega
  rw [tableOf_of_coords (F := Ideal) x w _ j ⟨pos.val / 5632, hp⟩ ⟨pos.val % 5632, Nat.mod_lt _ (by decide)⟩ o rfl
    (by show pos.val = pos.val / 5632 * 5632 + pos.val % 5632; omega) rfl]
  unfold blockProd
  simp only [matmul]
  rw [Ideal.matmul_constant_zero_apply, ← Equiv.sum_comp (contrEquiv1 dot_S256x5632_S80x256_S5632x80_0_1_1_0_n_n 256 rfl rfl).symm]
  refine Finset.sum_congr rfl fun k _ => ?_
  have hk := contrEquiv1_symm_val dot_S256x5632_S80x256_S5632x80_0_1_1_0_n_n 256 rfl rfl k
  have el : featBlock (F := Ideal) x j ⟨pos.val / 5632, hp⟩
      (dot_S256x5632_S80x256_S5632x80_0_1_1_0_n_n.lhsIdx (ix2 ⟨pos.val % 5632, Nat.mod_lt _ (by decide)⟩ o) ((contrEquiv1 dot_S256x5632_S80x256_S5632x80_0_1_1_0_n_n 256 rfl rfl).symm k))
      = x (ix3 j k pos) := by
    unfold featBlock
    refine congrArg x (funext fun a => Fin.ext ?_)
    match a with
    | ⟨0, _⟩ => rfl
    | ⟨1, _⟩ =>
      show (dot_S256x5632_S80x256_S5632x80_0_1_1_0_n_n.lhsIdx (ix2 ⟨pos.val % 5632, Nat.mod_lt _ (by decide)⟩ o) ((contrEquiv1 dot_S256x5632_S80x256_S5632x80_0_1_1_0_n_n 256 rfl rfl).symm k) 0).val = k.val
      exact (lhs_dot_0 _ _).trans hk
    | ⟨2, _⟩ =>
      show pos.val / 5632 * 5632 + (dot_S256x5632_S80x256_S5632x80_0_1_1_0_n_n.lhsIdx (ix2 ⟨pos.val % 5632, Nat.mod_lt _ (by decide)⟩ o) ((contrEquiv1 dot_S256x5632_S80x256_S5632x80_0_1_1_0_n_n 256 rfl rfl).symm k) 1).val = pos.val
      rw [lhs_dot_1]
      show pos.val / 5632 * 5632 + pos.val % 5632 = pos.val
      omega
  have er : dot_S256x5632_S80x256_S5632x80_0_1_1_0_n_n.rhsIdx (ix2 ⟨pos.val % 5632, Nat.mod_lt _ (by decide)⟩ o) ((contrEquiv1 dot_S256x5632_S80x256_S5632x80_0_1_1_0_n_n 256 rfl rfl).symm k) = ix2 o k :=
    funext fun a => Fin.ext (by
      match a with
      | ⟨0, _⟩ => exact rhs_dot_0 _ _
      | ⟨1, _⟩ => exact (rhs_dot_1 _ _).trans hk)
  rw [el, er]

end Cert.Proof.KB.R0

end
-- ==== Proof.Region1B.lean ====
/-
  THE VOXEL ADDRESSES: one kernel region of the program, at the contents `V` the region is entered with.

  The region's grid has eight points. At point `i` the body numbers the twenty thousand voxels `20000·i + lane`, splits the
  number into the voxel's integer coordinates, places the voxel's centre in space, rotates it, and then, for each of six
  cameras in turn, projects the point, divides by the depth, shifts by the camera's offsets, divides by the stride, rounds
  to even and converts to a signed word: the pixel `(u, v)`. Where `0 ≤ u < 176`, `0 ≤ v < 64` and the depth is positive the
  voxel's address becomes the camera's row number `j·11264 + v·176 + u`; elsewhere it stays what it was, and it starts at
  `67584 = 6·11264`, the row of zeros. So the last camera that sees a voxel names its row, and a voxel no camera sees reads
  zeros. The rotation (a 3 × 3 block) and the six projections (3 × 4 each) are read from their windows whole or by slices;
  the fifteen offsets are read from scalar memory one word at a time; the twenty thousand addresses are stored over the whole
  output block, which the pipeline writes back at every point as row `i` of the [8, 1, 20000] address array.

  Here: each window's block; what the body leaves in the output block as ONE term over the blocks it reads, the chain of
  the six cameras' steps kept as named steps of the grid point; the body's triple; the pipeline's proof data, with the
  core's debt and its recorded waits as parameters the body passes through unread; the body obligation; and the value —
  first that EVERY address names a row of the 78848-row table, at any float instance (it rests on the integer guards of the
  selects alone), then the address array as one function of the three arrays the region reads.
-/
import proofs.«207241_g55714315764006_cont_9to1c4b_410_29_alg».proof.Proof.SetupKB
import proofs.«207241_g55714315764006_cont_9to1c4b_410_29_alg».proof.Proof.Gen.Kernel.Launch
import proofs.«207241_g55714315764006_cont_9to1c4b_410_29_alg».proof.Proof.Gen.Kernel.Skeleton
import proofs.«207241_g55714315764006_cont_9to1c4b_410_29_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.Proof.KB.R1

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig (HIx 1) (Elt F) ℕ Cert.Proof.KB.UU ℕ

section Region
-- the TensorCore's buffer contents when the region is entered, the tallies the core owes throughout it, and the bound
-- on the waits it has recorded: the body reads none of the three
variable (V : (c : Dev nD) → (b : Ref sig .tc) → Buf (Elt F) ((c : Thread nD τ).loc b))
variable (O : CellTallies nD τ sig (HIx 1))
variable (Rc : Set (SemLoc sig × HIx 1))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place: unfetched, the block index has not moved. The three
    input windows are whole arrays, uncut and never idle. -/
theorem before1_0_of {c : Dev nD} (dat : Dat τ (Elt F) (HIx 1) ℕ Cert.Proof.KB.UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ Cert.Proof.KB.UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 1) ℕ Cert.Proof.KB.UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The rotation, whole. -/
abbrev rRot : Rect S3x3 := Rect.unit (s := S3x3) ![0, 0] S3x3.size inb_S3x3_S3x3_0_0
/-- Camera `j`'s projection: slice `j` of the six. -/
abbrev rCam0 : Rect S6x3x4 := Rect.unit (s := S6x3x4) ![0, 0, 0] S1x3x4.size inb_S6x3x4_S1x3x4_0_0_0
abbrev rCam1 : Rect S6x3x4 := Rect.unit (s := S6x3x4) ![1, 0, 0] S1x3x4.size inb_S6x3x4_S1x3x4_1_0_0
abbrev rCam2 : Rect S6x3x4 := Rect.unit (s := S6x3x4) ![2, 0, 0] S1x3x4.size inb_S6x3x4_S1x3x4_2_0_0
abbrev rCam3 : Rect S6x3x4 := Rect.unit (s := S6x3x4) ![3, 0, 0] S1x3x4.size inb_S6x3x4_S1x3x4_3_0_0
abbrev rCam4 : Rect S6x3x4 := Rect.unit (s := S6x3x4) ![4, 0, 0] S1x3x4.size inb_S6x3x4_S1x3x4_4_0_0
abbrev rCam5 : Rect S6x3x4 := Rect.unit (s := S6x3x4) ![5, 0, 0] S1x3x4.size inb_S6x3x4_S1x3x4_5_0_0
/-- The output block, whole. -/
abbrev rOut : Rect S1x1x20000 := Rect.unit (s := S1x1x20000) ![0, 0, 0] S1x1x20000.size inb_S1x1x20000_S1x1x20000_0_0_0

/-- One word of the fifteen offsets, as the body reads it from scalar memory: the one element of the one-cell rectangle
    at `off`. -/
abbrev wordAt (x2 : Vec F S15 .f32) (off : Fin 1 → Nat) (inb : ∀ a, off a + S1.size a ≤ S15.size a) : Elt F .f32 :=
  View.ld x2 (Rect.unit (s := S15) off S1.size inb) (Shape.Idx.first (numel1_S1.symm ▸ Nat.one_pos))

/-! ## What the body leaves in the output block -/

/-- The voxel's point in space, rotated, with a fourth coordinate one: a [4, 20000] block, from the grid point, the
    first three offsets (the translation) and the rotation. -/
def ptVec (i : grid1.Coords) (x0 : Vec F S3x3 .f32) (x2 : Vec F S15 .f32) : FVec F S4x20000 .f32 :=
  k1_pay7 (k1_pay3 i) (k1_pay4 i) 4#32 (k1_pay5 i) (k1_pay6 i) 1#32 (wordAt x2 ![0] inb_S15_S1_0) (wordAt x2 ![1] inb_S15_S1_1) (wordAt x2 ![2] inb_S15_S1_2) (View.ld x0 rRot)

/-- The addresses after the six cameras, in order: camera `j` reads its projection and the offsets `3 + 2j`, `4 + 2j`, and
    selects its row number over the address so far; camera 0 starts from the zero row, 67584. -/
def addrVec (i : grid1.Coords) (x0 : Vec F S3x3 .f32) (x1 : Vec F S6x3x4 .f32) (x2 : Vec F S15 .f32) : IVec S1x20000 32 :=
  k1_pay13 (ptVec i x0 x2)
    (k1_pay12 (ptVec i x0 x2)
      (k1_pay11 (ptVec i x0 x2)
        (k1_pay10 (ptVec i x0 x2)
          (k1_pay9 (ptVec i x0 x2)
            (k1_pay8 (ptVec i x0 x2) 67584#32 (View.ld x1 rCam0) (wordAt x2 ![3] inb_S15_S1_3) (wordAt x2 ![4] inb_S15_S1_4))
            (View.ld x1 rCam1) (wordAt x2 ![5] inb_S15_S1_5) (wordAt x2 ![6] inb_S15_S1_6))
          (View.ld x1 rCam2) (wordAt x2 ![7] inb_S15_S1_7) (wordAt x2 ![8] inb_S15_S1_8))
        (View.ld x1 rCam3) (wordAt x2 ![9] inb_S15_S1_9) (wordAt x2 ![10] inb_S15_S1_10))
      (View.ld x1 rCam4) (wordAt x2 ![11] inb_S15_S1_11) (wordAt x2 ![12] inb_S15_S1_12))
    (View.ld x1 rCam5) (wordAt x2 ![13] inb_S15_S1_13) (wordAt x2 ![14] inb_S15_S1_14)

/-- The output window's staging buffer after the body, from the input windows' blocks: its one store, of the addresses
    recast to the block's shape, over the whole block. -/
def out1_3 (i : grid1.Coords) (x0 : Vec F S3x3 .f32) (x1 : Vec F S6x3x4 .f32) (x2 : Vec F S15 .f32) : Vec F S1x1x20000 .i32 :=
  View.canon [⟨rOut, k1_pay1 (addrVec i x0 x1 x2)⟩]

/-- The store is of the whole block, so it covers it. -/
theorem cover1_3 (p0 : Vec F S1x1x20000 .i32) (y : S1x1x20000.Idx) :
    ∃ pc ∈ ([⟨rOut, p0⟩] : List (View.Piece (Elt F) S1x1x20000 .i32)), y ∈ pc.1.set :=
  View.cover_of_tiled [⟨rOut, p0⟩] S1x1x20000.size (by rfl) y

/-! ## The body's triple -/

set_option maxHeartbeats 1000000 in
/-- The kernel body on whole staging memrefs, the three inputs' at contents `x0`, `x1`, `x2` and the output's at anything,
    runs to the continuation holding the inputs' as they were and the output's at `out1_3` of them: the printed function
    is its skeleton, run part by part; what the run read — the rotation whole, six slices of the projections, fifteen words —
    are the loads `out1_3` is written over. -/
theorem sound_kernel1 (c : Dev nD) (E : Set ℕ) (i : grid1.Coords)
    (arg1 : Memref sig .tc .vmem S3x3 .f32) (harg1 : arg1.IsWhole)
    (arg2 : Memref sig .tc .vmem S6x3x4 .f32) (harg2 : arg2.IsWhole)
    (arg3 : Memref sig .tc .smem S15 .f32) (harg3 : arg3.IsWhole)
    (arg4 : Memref sig .tc .vmem S1x1x20000 .i32) (harg4 : arg4.IsWhole)
    (x0 : Vec F S3x3 .f32) (x1 : Vec F S6x3x4 .f32) (x2 : Vec F S15 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 i x0 x1 x2)) -∗ K ⟨⟩))
      ⊢ wp frame (wpE (defs₀ (F := F)) Variants.none c none) E (cc1__addr_body i arg1 harg1 arg2 harg2 arg3 harg3 arg4 harg4) K := by
  simp only [cc1__addr_body_eq_skeleton]; unfold cc1__addr_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover1_3 _)).trans ?_
  unfold out1_3 addrVec ptVec
  sl_unfold_run_names
  rfl

/-! ## The pipeline's proof data -/

/-- The region's invariant: the core's scoped buffers that are no staging buffer of this pipeline, each at some contents,
    and its generator register at some state — what the body may use and does not: it names neither. -/
def Φ1 (c : Dev nD) : sProp 𝕄 :=
  iprop(Pipeline.scopedRest (Ix := HIx 1) (Name := ℕ) (U := Cert.Proof.KB.UU) (Lvl := ℕ) (Val := Elt F) spec1 c ∗ ∃ r, prngReg c r)

/-- The proof data of the pipeline on core `c`: the arrays as the region finds them; after the body at point `t` each
    input's buffer at its block and the output's at `out1_3` of the input blocks; the invariant `Φ1`; what the core owes
    and the bound on its recorded waits constant through the region; full shares. -/
def dat1 (c : Dev nD) : Dat τ (Elt F) (HIx 1) ℕ Cert.Proof.KB.UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Φ1 c
  q _ := fullShare
  owed _ := O
  recorded _ := Rc

/-- The proof data's arrays are the region-entry contents. -/
theorem A_eq1 (c : Dev nD) (w : Fin cfg1.W) : (dat1 V O Rc c).A w = V c (Pipeline.arrRef spec1 w) := by
  dsimp only [dat1]

/-- What the body leaves, window by window. -/
theorem after1_0 (c : Dev nD) (t : Fin cfg1.N) : (dat1 V O Rc c).after 0 t = iblk1 V c 0 t := by dsimp only [dat1]
theorem after1_1 (c : Dev nD) (t : Fin cfg1.N) : (dat1 V O Rc c).after 1 t = iblk1 V c 1 t := by dsimp only [dat1]
theorem after1_2 (c : Dev nD) (t : Fin cfg1.N) : (dat1 V O Rc c).after 2 t = iblk1 V c 2 t := by dsimp only [dat1]
theorem after1_3 (c : Dev nD) (t : Fin cfg1.N) :
    (dat1 V O Rc c).after 3 t = out1_3 (grid1.coords t) (iblk1 V c 0 t) (iblk1 V c 1 t) (iblk1 V c 2 t) := by dsimp only [dat1]

/-- Each input's current staging buffer holds its block at every point, fetched there or not. -/
theorem before1_0 (c : Dev nD) (t : Fin cfg1.N) (d) : (dat1 V O Rc c).before 0 t d = iblk1 V c 0 t :=
  before1_0_of V (dat1 V O Rc c) (A_eq1 V O Rc c 0) (after1_0 V O Rc c) t d
theorem before1_1 (c : Dev nD) (t : Fin cfg1.N) (d) : (dat1 V O Rc c).before 1 t d = iblk1 V c 1 t :=
  before1_1_of V (dat1 V O Rc c) (A_eq1 V O Rc c 1) (after1_1 V O Rc c) t d
theorem before1_2 (c : Dev nD) (t : Fin cfg1.N) (d) : (dat1 V O Rc c).before 2 t d = iblk1 V c 2 t :=
  before1_2_of V (dat1 V O Rc c) (A_eq1 V O Rc c 2) (after1_2 V O Rc c) t d

/-! ## The body obligation, at a generic point -/

/-- What the body is called with at point `t`, the windows one by one, -/
def bodyPre1 (c : Dev nD) (t : Fin cfg1.N) : sProp 𝕄 :=
  iprop((dat1 V O Rc c).Φ t.castSucc ∗ (dat1 V O Rc c).owesAt (none : HIx 1) t.castSucc
    ∗ (∃ d, owns (c : Thread nD τ) (st1_0 t) fullShare ((dat1 V O Rc c).before 0 t d))
    ∗ (∃ d, owns (c : Thread nD τ) (st1_1 t) fullShare ((dat1 V O Rc c).before 1 t d))
    ∗ (∃ d, owns (c : Thread nD τ) (st1_2 t) fullShare ((dat1 V O Rc c).before 2 t d))
    ∗ (∃ d, owns (c : Thread nD τ) (st1_3 t) fullShare ((dat1 V O Rc c).before 3 t d)))

/-- and what it returns. -/
def bodyPost1 (c : Dev nD) (t : Fin cfg1.N) : sProp 𝕄 :=
  iprop((dat1 V O Rc c).Φ t.succ ∗ (dat1 V O Rc c).owesAt (none : HIx 1) t.succ
    ∗ owns (c : Thread nD τ) (st1_0 t) fullShare ((dat1 V O Rc c).after 0 t)
    ∗ owns (c : Thread nD τ) (st1_1 t) fullShare ((dat1 V O Rc c).after 1 t)
    ∗ owns (c : Thread nD τ) (st1_2 t) fullShare ((dat1 V O Rc c).after 2 t)
    ∗ owns (c : Thread nD τ) (st1_3 t) fullShare ((dat1 V O Rc c).after 3 t))

/-- The body at any point: the inputs' memrefs hold their blocks, so the triple applies; the invariant and the core's
    debt pass through unread. -/
theorem sound_body1 (c : Dev nD) (t : Fin cfg1.N) :
    bodyPre1 V O Rc c t ⊢ wp frame (wpE (defs₀ (F := F)) Variants.none c none) Set.univ (bodyAt1 t) (fun _ => bodyPost1 V O Rc c t) := by
  unfold bodyPre1 bodyPost1 bodyAt1
  simp only [before1_0, before1_1, before1_2]
  rw [show (dat1 V O Rc c).Φ t.succ = (dat1 V O Rc c).Φ t.castSucc from rfl,
    show (dat1 V O Rc c).owesAt (none : HIx 1) t.succ = (dat1 V O Rc c).owesAt (none : HIx 1) t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V O Rc c) (defs₀ (F := F)) Variants.none (none : HIx 1) Set.univ := fun t => by
  rw [bigSep_W1, bigSep_W1]
  exact sound_body1 V O Rc c t

/-! ## The value, first part: every address names a row of the table -/

/-- A conjunction of one-bit words is set exactly when both are. -/
theorem andi_eq_one (x y : BitVec 1) : IntOp.andi x y = 1 ↔ x = 1 ∧ y = 1 := by
  unfold IntOp.andi; revert x y; decide

/-- The signed test `0 ≤ u` as a word. -/
theorem cmpi_sge_zero (u : BitVec 32) : IntOp.cmpi .sge u 0#32 = 1 ↔ 0 ≤ u.toInt := by
  unfold IntOp.cmpi
  show BitVec.ofBool ((0#32).sle u) = 1 ↔ _
  cases h : (0#32).sle u <;> simp [BitVec.sle] at h ⊢ <;> omega

/-- The signed test `u < n` as a word. -/
theorem cmpi_slt (u n : BitVec 32) : IntOp.cmpi .slt u n = 1 ↔ u.toInt < n.toInt := by
  unfold IntOp.cmpi
  show BitVec.ofBool (u.slt n) = 1 ↔ _
  cases h : u.slt n <;> simp [BitVec.slt] at h ⊢ <;> omega

/-- A word that is nonnegative as a signed number and below a small bound is that natural number. -/
theorem toNat_lt_of_signed (u : BitVec 32) (n : Nat) (hn : n < 2 ^ 31) (h0 : 0 ≤ u.toInt) (h1 : u.toInt < (n : Int)) : u.toNat < n := by
  rw [BitVec.toInt_eq_toNat_cond] at h0 h1
  have := u.isLt
  split at h0 <;> omega

/-- ONE CAMERA'S STEP, at a lane: the row number `base + v·176 + u` is taken only where `0 ≤ u < 176` and `0 ≤ v < 64` as
    signed words (whatever the depth test `d` says), so it does not wrap and is below `base + 11264`; elsewhere the address
    so far is kept. -/
theorem cam_lt (u v prev base : BitVec 32) (d : BitVec 1) (hbase : base.toNat + 11264 ≤ 78848) (hprev : prev.toNat < 78848) :
    (Scalar.select (IntOp.andi (IntOp.andi (IntOp.andi (IntOp.andi (IntOp.cmpi .sge u 0#32) (IntOp.cmpi .sge v 0#32)) (IntOp.cmpi .slt u 176#32)) (IntOp.cmpi .slt v 64#32)) d)
      (IntOp.addi (IntOp.addi base (IntOp.muli v 176#32)) u) prev).toNat < 78848 := by
  unfold Scalar.select
  split
  · rename_i hg
    rw [andi_eq_one, andi_eq_one, andi_eq_one, andi_eq_one, cmpi_sge_zero, cmpi_sge_zero, cmpi_slt, cmpi_slt] at hg
    obtain ⟨⟨⟨⟨hu0, hv0⟩, hu1⟩, hv1⟩, -⟩ := hg
    have e176 : (176#32).toInt = 176 := by decide
    have e64 : (64#32).toInt = 64 := by decide
    rw [e176] at hu1; rw [e64] at hv1
    have hu := toNat_lt_of_signed u 176 (by decide) hu0 hu1
    have hv := toNat_lt_of_signed v 64 (by decide) hv0 hv1
    have e176n : (176#32).toNat = 176 := rfl
    have hmul : (v * 176#32).toNat = v.toNat * 176 := by
      rw [BitVec.toNat_mul, e176n]; exact Nat.mod_eq_of_lt (by omega)
    have hadd1 : (base + v * 176#32).toNat = base.toNat + v.toNat * 176 := by
      rw [BitVec.toNat_add, hmul]; exact Nat.mod_eq_of_lt (by omega)
    have hadd2 : (base + v * 176#32 + u).toNat = base.toNat + v.toNat * 176 + u.toNat := by
      rw [BitVec.toNat_add, hadd1]; exact Nat.mod_eq_of_lt (by omega)
    show (base + v * 176#32 + u).toNat < 78848
    rw [hadd2]; omega
  · exact hprev

/-- Each camera's step keeps every lane's address below the table's height: camera 0 over the zero row, -/
theorem pay8_lt (v87 : FVec F S4x20000 .f32) (p : Vec F S1x3x4 .f32) (a b : Elt F .f32) (k : S1x20000.Idx) :
    (k1_pay8 v87 67584#32 p a b k).toNat < 78848 :=
  cam_lt _ _ _ _ _ (by show (0#32).toNat + 11264 ≤ 78848; decide) (by show (67584#32).toNat < 78848; decide)
/-- and cameras 1 to 5 over the address so far. -/
theorem pay9_lt (v87 : FVec F S4x20000 .f32) (prev : IVec S1x20000 32) (p : Vec F S1x3x4 .f32) (a b : Elt F .f32)
    (hprev : ∀ k, (prev k).toNat < 78848) (k : S1x20000.Idx) : (k1_pay9 v87 prev p a b k).toNat < 78848 :=
  cam_lt _ _ _ _ _ (by show (11264#32).toNat + 11264 ≤ 78848; decide) (hprev k)
theorem pay10_lt (v87 : FVec F S4x20000 .f32) (prev : IVec S1x20000 32) (p : Vec F S1x3x4 .f32) (a b : Elt F .f32)
    (hprev : ∀ k, (prev k).toNat < 78848) (k : S1x20000.Idx) : (k1_pay10 v87 prev p a b k).toNat < 78848 :=
  cam_lt _ _ _ _ _ (by show (22528#32).toNat + 11264 ≤ 78848; decide) (hprev k)
theorem pay11_lt (v87 : FVec F S4x20000 .f32) (prev : IVec S1x20000 32) (p : Vec F S1x3x4 .f32) (a b : Elt F .f32)
    (hprev : ∀ k, (prev k).toNat < 78848) (k : S1x20000.Idx) : (k1_pay11 v87 prev p a b k).toNat < 78848 :=
  cam_lt _ _ _ _ _ (by show (33792#32).toNat + 11264 ≤ 78848; decide) (hprev k)
theorem pay12_lt (v87 : FVec F S4x20000 .f32) (prev : IVec S1x20000 32) (p : Vec F S1x3x4 .f32) (a b : Elt F .f32)
    (hprev : ∀ k, (prev k).toNat < 78848) (k : S1x20000.Idx) : (k1_pay12 v87 prev p a b k).toNat < 78848 :=
  cam_lt _ _ _ _ _ (by show (45056#32).toNat + 11264 ≤ 78848; decide) (hprev k)
theorem pay13_lt (v87 : FVec F S4x20000 .f32) (prev : IVec S1x20000 32) (p : Vec F S1x3x4 .f32) (a b : Elt F .f32)
    (hprev : ∀ k, (prev k).toNat < 78848) (k : S1x20000.Idx) : (k1_pay13 v87 prev p a b k).toNat < 78848 :=
  cam_lt _ _ _ _ _ (by show (56320#32).toNat + 11264 ≤ 78848; decide) (hprev k)

/-- So after the six cameras every lane's address is below 78848. -/
theorem addrVec_lt (i : grid1.Coords) (x0 : Vec F S3x3 .f32) (x1 : Vec F S6x3x4 .f32) (x2 : Vec F S15 .f32) (k : S1x20000.Idx) :
    (addrVec i x0 x1 x2 k).toNat < 78848 := by
  unfold addrVec
  exact pay13_lt _ _ _ _ _ (pay12_lt _ _ _ _ _ (pay11_lt _ _ _ _ _ (pay10_lt _ _ _ _ _ (pay9_lt _ _ _ _ _ (pay8_lt _ _ _ _))))) k

theorem hzOut : (![0, 0, 0] : Fin 3 → Nat) = fun _ => 0 := funext fun a => by fin_cases a <;> rfl

/-- The output block after the body IS the addresses recast: its one store covers it. -/
theorem out1_3_eq (i : grid1.Coords) (x0 : Vec F S3x3 .f32) (x1 : Vec F S6x3x4 .f32) (x2 : Vec F S15 .f32) :
    out1_3 i x0 x1 x2 = k1_pay1 (addrVec i x0 x1 x2) := by
  unfold out1_3
  exact View.canon_unit_zero (S := S1x1x20000) hzOut _ _

/-- Every element of the output block is below 78848: the recast only renames the lanes. -/
theorem out1_3_lt (i : grid1.Coords) (x0 : Vec F S3x3 .f32) (x1 : Vec F S6x3x4 .f32) (x2 : Vec F S15 .f32) (y : S1x1x20000.Idx) :
    BitVec.toNat (w := 32) (out1_3 i x0 x1 x2 y) < 78848 := by
  rw [out1_3_eq]
  exact addrVec_lt i x0 x1 x2 _

/-! ## From the blocks to the array -/

/-- The output window's block index at point `t` is `(t, 0, 0)`, decided over the grid. -/
theorem idx_facts3 : ∀ t : Fin cfg1.N, win1_3.index t (0 : Fin 3) = t.val ∧ win1_3.index t (1 : Fin 3) = 0 ∧ win1_3.index t (2 : Fin 3) = 0 :=
  (by decide +kernel : ∀ t : Fin grid1.N, _)

/-- An index of the array is in point `t`'s block iff each coordinate is in the block's range on its axis. -/
theorem mem_blk3 (t : Fin cfg1.N) (i : S8x1x20000.Idx) :
    i ∈ ((cfg1.win 3).blk t).view.set ↔ ∀ a : Fin 3, win1_3.index t a * S1x1x20000.size a ≤ (i a).val ∧ (i a).val < win1_3.index t a * S1x1x20000.size a + S1x1x20000.size a := by
  show i ∈ ((View.whole main_v22).slice (win1_3.rect t)).set ↔ _
  rw [View.set_slice_whole, Rect.mem_set_unit]
  exact Iff.rfl

/-- The grid point that writes row `j 0` of the address array. -/
def ptOf (j : S8x1x20000.Idx) : Fin cfg1.N := ⟨(j 0).val, by rw [show cfg1.N = 8 from N_1]; exact (j 0).isLt⟩

/-- Row `j 0` is in its point's block: the eight blocks tile the array. -/
theorem mem_ptOf (j : S8x1x20000.Idx) : j ∈ ((cfg1.win 3).blk (ptOf j)).view.set := by
  rw [mem_blk3]
  obtain ⟨e0, e1, e2⟩ := idx_facts3 (ptOf j)
  intro a
  match a with
  | ⟨0, _⟩ => show win1_3.index (ptOf j) (0 : Fin 3) * 1 ≤ (j 0).val ∧ (j 0).val < win1_3.index (ptOf j) (0 : Fin 3) * 1 + 1; rw [e0]; show (j 0).val * 1 ≤ (j 0).val ∧ (j 0).val < (j 0).val * 1 + 1; omega
  | ⟨1, _⟩ => show win1_3.index (ptOf j) (1 : Fin 3) * 1 ≤ (j 1).val ∧ (j 1).val < win1_3.index (ptOf j) (1 : Fin 3) * 1 + 1; rw [e1]; have : (j 1).val < 1 := (j 1).isLt; omega
  | ⟨2, _⟩ => show win1_3.index (ptOf j) (2 : Fin 3) * 20000 ≤ (j 2).val ∧ (j 2).val < win1_3.index (ptOf j) (2 : Fin 3) * 20000 + 20000; rw [e2]; have : (j 2).val < 20000 := (j 2).isLt; omega

/-- Every index of the address array is in some flushing point's block. -/
theorem cover3 (j : S8x1x20000.Idx) : ∃ t : Fin cfg1.N, (cfg1.win 3).flush t = true ∧ j ∈ ((cfg1.win 3).blk t).view.set :=
  ⟨ptOf j, flush1_3 _, mem_ptOf j⟩

/-- EVERY ADDRESS NAMES A ROW OF THE TABLE: after the region every element of the address array, as a natural number, is
    below 78848 — at any float instance: whichever point wrote it last wrote a value its camera guards bound. -/
theorem addr_lt (c : Dev nD) (j : S8x1x20000.Idx) : BitVec.toNat (w := 32) ((dat1 V O Rc c).arrAt 3 cfg1.N j) < 78848 := by
  refine (dat1 V O Rc c).arrAt_forall_of_cover 3 (fun _ v => BitVec.toNat (w := 32) v < 78848) ?_ cover3 j
  intro t _ y
  show BitVec.toNat (w := 32) (_root_.cast _ ((dat1 V O Rc c).after 3 t ((cfg1.win 3).xinj (cfg1.grid.coords t) y))) < 78848
  rw [cast_eq, after1_3]
  exact out1_3_lt _ _ _ _ _

/-! ## The value, second part: the address array as one function of the three arrays the region reads -/

/-- The input windows' block indices are zero at every point, decided over the grid, -/
theorem idx_facts0 : ∀ t : Fin cfg1.N, win1_0.index t (0 : Fin 2) = 0 ∧ win1_0.index t (1 : Fin 2) = 0 :=
  (by decide +kernel : ∀ t : Fin grid1.N, _)
theorem idx_facts1 : ∀ t : Fin cfg1.N, win1_1.index t (0 : Fin 3) = 0 ∧ win1_1.index t (1 : Fin 3) = 0 ∧ win1_1.index t (2 : Fin 3) = 0 :=
  (by decide +kernel : ∀ t : Fin grid1.N, _)
theorem idx_facts2 : ∀ t : Fin cfg1.N, win1_2.index t (0 : Fin 1) = 0 :=
  (by decide +kernel : ∀ t : Fin grid1.N, _)

/-- so each input window's block IS its array, at every point: the rotation, -/
theorem iblk1_0 (c : Dev nD) (t : Fin cfg1.N) : (iblk1 V c 0 t : Vec F S3x3 .f32) = V c main_v7 := by
  obtain ⟨e0, e1⟩ := idx_facts0 t
  funext x
  show V c main_v7 (((cfg1.win 0).blk t).view.emb x) = V c main_v7 x
  congr 1
  funext a; apply Fin.ext
  match a with
  | ⟨0, _⟩ => show win1_0.index t (0 : Fin 2) * 3 + 1 * (x 0).val = (x 0).val; omega
  | ⟨1, _⟩ => show win1_0.index t (1 : Fin 2) * 3 + 1 * (x 1).val = (x 1).val; omega
/-- the six projections, -/
theorem iblk1_1 (c : Dev nD) (t : Fin cfg1.N) : (iblk1 V c 1 t : Vec F S6x3x4 .f32) = V c main_v18 := by
  obtain ⟨e0, e1, e2⟩ := idx_facts1 t
  funext x
  show V c main_v18 (((cfg1.win 1).blk t).view.emb x) = V c main_v18 x
  congr 1
  funext a; apply Fin.ext
  match a with
  | ⟨0, _⟩ => show win1_1.index t (0 : Fin 3) * 6 + 1 * (x 0).val = (x 0).val; omega
  | ⟨1, _⟩ => show win1_1.index t (1 : Fin 3) * 3 + 1 * (x 1).val = (x 1).val; omega
  | ⟨2, _⟩ => show win1_1.index t (2 : Fin 3) * 4 + 1 * (x 2).val = (x 2).val; omega
/-- the fifteen offsets. -/
theorem iblk1_2 (c : Dev nD) (t : Fin cfg1.N) : (iblk1 V c 2 t : Vec F S15 .f32) = V c main_v21 := by
  have e0 := idx_facts2 t
  funext x
  show V c main_v21 (((cfg1.win 2).blk t).view.emb x) = V c main_v21 x
  congr 1
  funext a; apply Fin.ext
  match a with
  | ⟨0, _⟩ => show win1_2.index t (0 : Fin 1) * 15 + 1 * (x 0).val = (x 0).val; omega

/-- THE ADDRESS ARRAY as one function of the rotation `rm`, the projections `proj` and the offsets `par`: row `j 0` is what
    grid point `j 0` stores, the cameras' chain at that point read at lane `j 2`. -/
def addrOf (rm : Vec F S3x3 .f32) (proj : Vec F S6x3x4 .f32) (par : Vec F S15 .f32) : IVec S8x1x20000 32 :=
  fun j => out1_3 (grid1.coords (ptOf j)) rm proj par (ix3 (0 : Fin 1) (0 : Fin 1) (j 2))

/-- `addrOf` under point `t`'s block: at the array index of the block's element `y` it is what point `t` stores at `y` — the
    index's row is `t` and its lane is `y`'s. -/
theorem addrOf_emb (rm : Vec F S3x3 .f32) (proj : Vec F S6x3x4 .f32) (par : Vec F S15 .f32) (t : Fin cfg1.N)
    (y : ((cfg1.win 3).xblock (cfg1.grid.coords t)).Idx) :
    addrOf rm proj par (((cfg1.win 3).blk t).view.emb y) = out1_3 (grid1.coords t) rm proj par ((cfg1.win 3).xinj (grid1.coords t) y) := by
  obtain ⟨e0, e1, e2⟩ := idx_facts3 t
  have hp : ptOf (((cfg1.win 3).blk t).view.emb y) = t := by
    apply Fin.ext
    show win1_3.index t (0 : Fin 3) * 1 + 1 * (y 0).val = t.val
    have : (y 0).val < 1 := (y 0).isLt
    omega
  have hl : (ix3 (0 : Fin 1) (0 : Fin 1) ((((cfg1.win 3).blk t).view.emb y) 2) : S1x1x20000.Idx) = (cfg1.win 3).xinj (grid1.coords t) y := by
    funext a; apply Fin.ext
    match a with
    | ⟨0, _⟩ => show 0 = (y 0).val; have : (y 0).val < 1 := (y 0).isLt; omega
    | ⟨1, _⟩ => show 0 = (y 1).val; have : (y 1).val < 1 := (y 1).isLt; omega
    | ⟨2, _⟩ => show win1_3.index t (2 : Fin 3) * 20000 + 1 * (y 2).val = (y 2).val; omega
  unfold addrOf
  rw [hp, hl]

/-- WHAT POINT `t` WRITES BACK is block `t` of `addrOf` of the three arrays as the region finds them. -/
theorem flushed3_eq (c : Dev nD) (t : Fin cfg1.N) :
    (dat1 V O Rc c).flushed 3 t = ((cfg1.win 3).blk t).view.read (Elt F) (addrOf (V c main_v7) (V c main_v18) (V c main_v21)) := by
  show (cfg1.win 3).cut (grid1.coords t) ((dat1 V O Rc c).after 3 t) = _
  rw [after1_3, iblk1_0, iblk1_1, iblk1_2]
  funext y
  rw [View.read_apply, cast_eq, addrOf_emb]

/-- THE ARRAY after the region: `addrOf` of the three arrays — the eight blocks tile it. -/
theorem addr_eq (c : Dev nD) : (dat1 V O Rc c).arrAt 3 cfg1.N = addrOf (V c main_v7) (V c main_v18) (V c main_v21) :=
  (dat1 V O Rc c).arrAt_eq_of_cover 3 _ (fun t _ => flushed3_eq V O Rc c t) cover3

/-- A row of the address array at a lane: the cameras' chain at the row's grid point, read at that lane (the recast of
    the store only adds a unit axis). -/
theorem addrOf_apply (rm : Vec F S3x3 .f32) (proj : Vec F S6x3x4 .f32) (par : Vec F S15 .f32) (j : S8x1x20000.Idx) :
    addrOf rm proj par j = addrVec (grid1.coords (ptOf j)) rm proj par (ix2 (0 : Fin 1) (j 2)) := by
  show out1_3 (grid1.coords (ptOf j)) rm proj par (ix3 (0 : Fin 1) (0 : Fin 1) (j 2)) = _
  rw [out1_3_eq]
  unfold k1_pay1
  refine (shapeCast_addUnit_apply ![1, 20000] _ _ _).trans ?_
  congr 1
  funext a
  match a with
  | ⟨0, _⟩ => rfl
  | ⟨1, _⟩ => rfl

end Region

end Cert.Proof.KB.R1

end
-- ==== Proof.Region3B.lean ====
/-
  The batch statistics: the third pipelined region of the program.

  The region walks the rows of x : f32[40000, 80] in eight blocks of 5000 rows and keeps ONE [2, 80] block in its
  staging buffer through all eight points: row 0 the running column sums, row 1 the running column sums of
  squares. The first point stores the block's two reductions; every later point loads both rows, adds the
  block's reductions and stores them back; the last point then turns the two totals into the column means
  (total / 40000, row 0) and the column deviations sqrt(total of squares / 40000 - mean * mean + epsilon) (row 1).
  The block is written back to its array once, after the last point.

  So the region has three control cases over the grid coordinate i — i = 0 (the reset), 0 < i < 7 (the update),
  i = 7 (the update, then the finish) — and the contents of the output's buffer after a point are defined by
  recursion on the point: the case the coordinate selects, run on the input block of the point and on what the
  point before left. The body's triple is proved once per case; the proof data, the facts about what each
  window's buffer holds when the body runs, and the body obligation follow; the value — the buffer after
  the last point as a function of the array alone, and at the ideal floats the mean and the deviation of every
  column — is read off these in the sibling module Region3Value.

  Everything is generic in the float instance and stated at a parameter: the buffer contents `V` the region is
  entered with, and the tallies `O` the core owes then (the body passes them through unread).
-/
import proofs.«207241_g55714315764006_cont_9to1c4b_410_29_alg».proof.Proof.SetupKB
import proofs.«207241_g55714315764006_cont_9to1c4b_410_29_alg».proof.Proof.Gen.Kernel.Launch
import proofs.«207241_g55714315764006_cont_9to1c4b_410_29_alg».proof.Proof.Gen.Kernel.Skeleton
import proofs.«207241_g55714315764006_cont_9to1c4b_410_29_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.KB.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ Cert.Proof.KB.UU ℕ

/-! ## The three control cases, in closed form over the grid -/

/-- The reset's condition holds at the first point only; -/
theorem hcond3_1 : ∀ t : Fin cfg3.N, k3_cond1 (grid3.coords t) = 1#1 ↔ t.val = 0 :=
  (by decide +kernel : ∀ t : Fin grid3.N, k3_cond1 (grid3.coords t) = 1#1 ↔ t.val = 0)
/-- the update's at every later point; -/
theorem hcond3_2 : ∀ t : Fin cfg3.N, k3_cond2 (grid3.coords t) = 1#1 ↔ t.val ≠ 0 :=
  (by decide +kernel : ∀ t : Fin grid3.N, k3_cond2 (grid3.coords t) = 1#1 ↔ t.val ≠ 0)
/-- the finish's at the last point only. -/
theorem hcond3_3 : ∀ t : Fin cfg3.N, k3_cond3 (grid3.coords t) = 1#1 ↔ t.val = 7 :=
  (by decide +kernel : ∀ t : Fin grid3.N, k3_cond3 (grid3.coords t) = 1#1 ↔ t.val = 7)
/-- So at every point the body stores into the output's buffer: the window is idle nowhere. -/
theorem hlive3_1 : ∀ i : grid3.Coords, cfg3.idle 1 i = false := by decide +kernel

/-! ## The staging memrefs at a point -/

/-- One staging buffer of the output window, through which its contents are stated (the choice does not matter). -/
abbrev VO3_1 : View sig .tc .vmem S2x80 .f32 := (Memref.whole cc3_stg1_0 : Memref sig .tc .vmem S2x80 .f32).view
/-- Each window's current staging memref at point `t`, and its wholeness. -/
abbrev ms3_0 (t : Fin cfg3.N) : Memref sig .tc .vmem S5000x80 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2x80 .f32 := win3_1.stage (cfg3.slots t 1)
abbrev hs3_1 (t : Fin cfg3.N) : (ms3_1 t).IsWhole := hstage3_1 ((cfg3.slots t 1).cast nbuf3_1)

/-! ## The body's triple, case by case

Each case is a subtype: the list of pieces the body's stores leave in the output's buffer (last first), with the
proof that on whole staging memrefs — the input's at its contents, the output's at what the case needs of it — the
body runs to the continuation holding the input's as it was and the output's with those pieces written. -/

set_option maxHeartbeats 1000000 in
/-- THE RESET (i = 0). The output's buffer may hold anything: both rows are stored whole; what the body loads of it
    before is not used. -/
noncomputable def kernelRun3_A (c : Dev nD) (i : grid3.Coords) (arg1 : Memref sig .tc .vmem S5000x80 .f32) (harg1 : arg1.IsWhole)
    (arg2 : Memref sig .tc .vmem S2x80 .f32) (harg2 : arg2.IsWhole)
    (hc1 : k3_cond1 i = 1#1) (hc2 : ¬k3_cond2 i = 1#1) (hc3 : ¬k3_cond3 i = 1#1) (x0 : Vec F S5000x80 .f32) :
    { L1 : List (View.Piece (Elt F) S2x80 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc3__stats_body i arg1 harg1 arg2 harg2) K } := by
  refine ⟨?_, fun E K => ?run⟩
  case run =>
    simp only [cc3__stats_body_eq_skeleton]; unfold cc3__stats_body_skel
    unfold owns
    iintro ⟨⟨%f0, %hf0, H0⟩, ⟨%d1, %f1, -, H1⟩, Hk⟩
    obtain rfl := harg1.eq_unread hf0
    sl_exec (disch := first | exact hc1 | exact hc2 | exact hc3)
    sl_step
    iapply Hk
    isplitl [H0]
    · iexists _; isplitr; · ipureintro; exact harg1.read_unread _
      iexact H0
    iexists _; iexact H1

set_option maxHeartbeats 1000000 in
/-- THE UPDATE (0 < i < 7). The output's buffer holds the running block `xo`: each row is loaded, the input block's
    reduction added, the row stored back. -/
noncomputable def kernelRun3_B (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : ¬k3_cond3 i = 1#1) (x0 : Vec F S5000x80 .f32) (xo1 : Vec F S2x80 .f32) :
    { L1 : List (View.Piece (Elt F) S2x80 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc3__stats_body i arg1 harg1 arg2 harg2) K } := by
  refine ⟨?_, fun E K => ?run⟩
  case run =>
    simp only [cc3__stats_body_eq_skeleton]; unfold cc3__stats_body_skel
    unfold owns
    iintro ⟨⟨%f0, %hf0, H0⟩, ⟨%f1, %hf1, H1⟩, Hk⟩
    obtain rfl := harg1.eq_unread hf0; obtain rfl := harg2.eq_unread hf1
    sl_exec (disch := first | exact hc1 | exact hc2 | exact hc3)
    sl_step
    iapply Hk
    isplitl [H0]
    · iexists _; isplitr; · ipureintro; exact harg1.read_unread _
      iexact H0
    iexists _; iexact H1

set_option maxHeartbeats 1000000 in
/-- THE LAST POINT (i = 7): the update, then the finish — both totals loaded back, the mean stored into row 0 and
    the deviation into row 1. -/
noncomputable def kernelRun3_C (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : k3_cond3 i = 1#1) (x0 : Vec F S5000x80 .f32) (xo1 : Vec F S2x80 .f32) :
    { L1 : List (View.Piece (Elt F) S2x80 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc3__stats_body i arg1 harg1 arg2 harg2) K } := by
  refine ⟨?_, fun E K => ?run⟩
  case run =>
    simp only [cc3__stats_body_eq_skeleton]; unfold cc3__stats_body_skel
    unfold owns
    iintro ⟨⟨%f0, %hf0, H0⟩, ⟨%f1, %hf1, H1⟩, Hk⟩
    obtain rfl := harg1.eq_unread hf0; obtain rfl := harg2.eq_unread hf1
    sl_exec (disch := first | exact hc1 | exact hc2 | exact hc3)
    sl_step
    iapply Hk
    isplitl [H0]
    · iexists _; isplitr; · ipureintro; exact harg1.read_unread _
      iexact H0
    iexists _; iexact H1

/-! ## What each case leaves in the output's buffer -/

/-- The reset's pieces are the two rows: they cover the block. -/
theorem cover3_A_1 (c : Dev nD) (i : grid3.Coords) (arg1 : Memref sig .tc .vmem S5000x80 .f32) (harg1 : arg1.IsWhole)
    (arg2 : Memref sig .tc .vmem S2x80 .f32) (harg2 : arg2.IsWhole)
    (hc1 : k3_cond1 i = 1#1) (hc2 : ¬k3_cond2 i = 1#1) (hc3 : ¬k3_cond3 i = 1#1) (x0 : Vec F S5000x80 .f32) (y : S2x80.Idx) :
    ∃ pc ∈ (kernelRun3_A c i arg1 harg1 arg2 harg2 hc1 hc2 hc3 x0).1, y ∈ pc.1.set :=
  View.cover_of_tiledL (kernelRun3_A c i arg1 harg1 arg2 harg2 hc1 hc2 hc3 x0).1 S1x80.size (by sl_kernel_rfl) y

/-- What the reset leaves: its pieces read back over junk. -/
def out3_A_1 (c : Dev nD) (i : grid3.Coords) (arg1 : Memref sig .tc .vmem S5000x80 .f32) (harg1 : arg1.IsWhole)
    (arg2 : Memref sig .tc .vmem S2x80 .f32) (harg2 : arg2.IsWhole)
    (hc1 : k3_cond1 i = 1#1) (hc2 : ¬k3_cond2 i = 1#1) (hc3 : ¬k3_cond3 i = 1#1) (x0 : Vec F S5000x80 .f32) : Vec F S2x80 .f32 :=
  VO3_1.read (Elt F) (VO3_1.writes (Elt F) VO3_1.junk (kernelRun3_A c i arg1 harg1 arg2 harg2 hc1 hc2 hc3 x0).1)

/-- The update's pieces are the two rows: they cover the block. -/
theorem cover3_B_1 (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : ¬k3_cond3 i = 1#1) (x0 : Vec F S5000x80 .f32) (xo1 : Vec F S2x80 .f32) (y : S2x80.Idx) :
    ∃ pc ∈ (kernelRun3_B c i arg1 harg1 arg2 harg2 hc1 hc2 hc3 x0 xo1).1, y ∈ pc.1.set :=
  View.cover_of_tiledL (kernelRun3_B c i arg1 harg1 arg2 harg2 hc1 hc2 hc3 x0 xo1).1 S1x80.size (by sl_kernel_rfl) y

/-- What the update leaves. -/
def out3_B_1 (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : ¬k3_cond3 i = 1#1) (x0 : Vec F S5000x80 .f32) (xo1 : Vec F S2x80 .f32) : Vec F S2x80 .f32 :=
  VO3_1.read (Elt F) (VO3_1.writes (Elt F) VO3_1.junk (kernelRun3_B c i arg1 harg1 arg2 harg2 hc1 hc2 hc3 x0 xo1).1)

/-- The last point's pieces (each row stored twice) cover the block. -/
theorem cover3_C_1 (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : k3_cond3 i = 1#1) (x0 : Vec F S5000x80 .f32) (xo1 : Vec F S2x80 .f32) (y : S2x80.Idx) :
    ∃ pc ∈ (kernelRun3_C c i arg1 harg1 arg2 harg2 hc1 hc2 hc3 x0 xo1).1, y ∈ pc.1.set :=
  View.cover_of_tiledL (kernelRun3_C c i arg1 harg1 arg2 harg2 hc1 hc2 hc3 x0 xo1).1 S1x80.size (by sl_kernel_rfl) y

/-- What the last point leaves. -/
def out3_C_1 (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : k3_cond3 i = 1#1) (x0 : Vec F S5000x80 .f32) (xo1 : Vec F S2x80 .f32) : Vec F S2x80 .f32 :=
  VO3_1.read (Elt F) (VO3_1.writes (Elt F) VO3_1.junk (kernelRun3_C c i arg1 harg1 arg2 harg2 hc1 hc2 hc3 x0 xo1).1)

section Region
-- the TensorCore's buffer contents when the region is entered, the tallies the core owes then and the bound on the pairs
-- its waits have recorded: the parameters the region's half of the proof is stated at (the body passes the last two through)
variable (V : (c : Dev nD) → (b : Ref sig .tc) → Buf (Elt F) ((c : Thread nD τ).loc b))
variable (O : CellTallies nD τ sig (HIx 1))
variable (Rc : Set (SemLoc sig × HIx 1))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for ANY proof data whose array is
    `V`'s and whose body leaves the block in place: the window is fetched at every point, uncut and never idle. -/
theorem before3_0_of {c : Dev nD} (dat : Dat τ (Elt F) (HIx 1) ℕ Cert.Proof.KB.UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The invariant -/

/-- What the body may use and need not describe, the same before and after every point: the TensorCore's scoped
    buffers that are no staging buffer of this pipeline, each at some contents, and the generator register at some state. -/
def Φ3 (c : Dev nD) : sProp 𝕄 :=
  iprop(Pipeline.scopedRest (Ix := HIx 1) (Name := ℕ) (U := Cert.Proof.KB.UU) (Lvl := ℕ) (Val := Elt F) spec3 c ∗ ∃ r, prngReg c r)

/-! ## What the output's buffer holds after each point -/

/-- THE ACCUMULATION. What the output's staging buffer holds after the body at position `n`: the case the
    coordinate selects there, run at the point's memrefs and input block — the reset at the first point, else the
    update (at the last point followed by the finish) over what this leaves at `n - 1`: the buffer is not written
    back between. -/
def outsAt3 (c : Dev nD) : (n : ℕ) → n < cfg3.N → Vec F S2x80 .f32
  | 0, hn => out3_A_1 c (grid3.coords ⟨0, hn⟩) (ms3_0 ⟨0, hn⟩) (hs3_0 ⟨0, hn⟩) (ms3_1 ⟨0, hn⟩) (hs3_1 ⟨0, hn⟩)
      ((hcond3_1 ⟨0, hn⟩).mpr rfl) (fun h => (hcond3_2 ⟨0, hn⟩).mp h rfl) (fun h => absurd ((hcond3_3 ⟨0, hn⟩).mp h) (show (0 : ℕ) ≠ 7 by decide))
      (iblk3 V c 0 ⟨0, hn⟩)
  | n + 1, hn =>
    if h7 : n + 1 = 7 then
      out3_C_1 c (grid3.coords ⟨n + 1, hn⟩) (ms3_0 ⟨n + 1, hn⟩) (hs3_0 ⟨n + 1, hn⟩) (ms3_1 ⟨n + 1, hn⟩) (hs3_1 ⟨n + 1, hn⟩)
        (fun h => Nat.succ_ne_zero n ((hcond3_1 ⟨n + 1, hn⟩).mp h)) ((hcond3_2 ⟨n + 1, hn⟩).mpr (Nat.succ_ne_zero n)) ((hcond3_3 ⟨n + 1, hn⟩).mpr h7)
        (iblk3 V c 0 ⟨n + 1, hn⟩) (outsAt3 c n (Nat.lt_of_succ_lt hn))
    else
      out3_B_1 c (grid3.coords ⟨n + 1, hn⟩) (ms3_0 ⟨n + 1, hn⟩) (hs3_0 ⟨n + 1, hn⟩) (ms3_1 ⟨n + 1, hn⟩) (hs3_1 ⟨n + 1, hn⟩)
        (fun h => Nat.succ_ne_zero n ((hcond3_1 ⟨n + 1, hn⟩).mp h)) ((hcond3_2 ⟨n + 1, hn⟩).mpr (Nat.succ_ne_zero n)) (fun h => h7 ((hcond3_3 ⟨n + 1, hn⟩).mp h))
        (iblk3 V c 0 ⟨n + 1, hn⟩) (outsAt3 c n (Nat.lt_of_succ_lt hn))

/-- `outsAt3` at the first point: the reset's contents. -/
theorem outsAt3_A (c : Dev nD) (t : Fin cfg3.N) (h0 : t.val = 0) :
    outsAt3 V c t.val t.isLt = out3_A_1 c (grid3.coords t) (ms3_0 t) (hs3_0 t) (ms3_1 t) (hs3_1 t)
      ((hcond3_1 t).mpr h0) (fun h => (hcond3_2 t).mp h h0) (fun h => by have := (hcond3_3 t).mp h; omega) (iblk3 V c 0 t) := by
  obtain ⟨n, hn⟩ := t
  cases n with
  | zero => exact rfl
  | succ n => exact absurd h0 (Nat.succ_ne_zero n)

/-- `outsAt3` at a point strictly between the first and the last: the update's contents, over what the point before left. -/
theorem outsAt3_B (c : Dev nD) (t : Fin cfg3.N) (h0 : t.val ≠ 0) (h7 : t.val ≠ 7) :
    outsAt3 V c t.val t.isLt = out3_B_1 c (grid3.coords t) (ms3_0 t) (hs3_0 t) (ms3_1 t) (hs3_1 t)
      (fun h => h0 ((hcond3_1 t).mp h)) ((hcond3_2 t).mpr h0) (fun h => h7 ((hcond3_3 t).mp h)) (iblk3 V c 0 t)
      (outsAt3 V c (t.val - 1) (Nat.lt_of_le_of_lt (Nat.sub_le _ _) t.isLt)) := by
  obtain ⟨n, hn⟩ := t
  cases n with
  | zero => exact absurd rfl h0
  | succ n => exact (dif_neg h7).trans rfl

/-- `outsAt3` at the last point: the last case's contents, over what the point before left. -/
theorem outsAt3_C (c : Dev nD) (t : Fin cfg3.N) (h7 : t.val = 7) :
    outsAt3 V c t.val t.isLt = out3_C_1 c (grid3.coords t) (ms3_0 t) (hs3_0 t) (ms3_1 t) (hs3_1 t)
      (fun h => by have := (hcond3_1 t).mp h; omega) ((hcond3_2 t).mpr (by omega)) ((hcond3_3 t).mpr h7) (iblk3 V c 0 t)
      (outsAt3 V c (t.val - 1) (Nat.lt_of_le_of_lt (Nat.sub_le _ _) t.isLt)) := by
  obtain ⟨n, hn⟩ := t
  cases n with
  | zero => exact absurd h7 (show (0 : ℕ) ≠ 7 by decide)
  | succ n => exact (dif_pos h7).trans rfl

/-! ## The pipeline's proof data -/

/-- The proof data of the pipeline on core `c`: the arrays as the region finds them (`V`); after the body at point `t`
    the input's buffer at its block and the output's at `outsAt3`; the invariant `Φ3`, untouched; the core owing throughout what it owed at entry (`O`); full shares. -/
def dat3 (c : Dev nD) : Dat τ (Elt F) (HIx 1) ℕ Cert.Proof.KB.UU ℕ cfg3 c where
  A w := V c (Pipeline.arrRef spec3 w)
  after w t := match w with
    | ⟨0, _⟩ => iblk3 V c 0 t
    | ⟨1, _⟩ => (outsAt3 V c t.val t.isLt)
  Φ _ := Φ3 c
  q _ := fullShare
  owed _ := O
  recorded _ := Rc

/-- The proof data's arrays are the region-entry contents. -/
theorem A_eq3 (c : Dev nD) (w : Fin cfg3.W) : (dat3 V O Rc c).A w = V c (Pipeline.arrRef spec3 w) := by
  dsimp only [dat3]

/-- What the body leaves, window by window. -/
theorem after3_0 (c : Dev nD) (t : Fin cfg3.N) : (dat3 V O Rc c).after 0 t = iblk3 V c 0 t := by dsimp only [dat3]
theorem after3_1 (c : Dev nD) (t : Fin cfg3.N) : (dat3 V O Rc c).after 1 t = (outsAt3 V c t.val t.isLt) := by dsimp only [dat3]

/-- The input's current staging buffer holds its block at every point. -/
theorem before3_0 (c : Dev nD) (t : Fin cfg3.N) (d) : (dat3 V O Rc c).before 0 t d = iblk3 V c 0 t :=
  before3_0_of V (dat3 V O Rc c) (A_eq3 V O Rc c 0) (after3_0 V O Rc c) t d

/-- At every point but the first the output's current staging buffer holds what the body left at the point before:
    the buffer was not written back between (only the last point writes back), the window is live and uncut. -/
theorem before3_1 (c : Dev nD) (t : Fin cfg3.N) (h0 : t.val ≠ 0) (d) :
    (dat3 V O Rc c).before 1 t d = (outsAt3 V c (t.val - 1) (Nat.lt_of_le_of_lt (Nat.sub_le _ _) t.isLt)) := by
  have hN : t.val < 8 := lt_of_lt_of_eq t.isLt (show cfg3.N = 8 from N_3)
  rw [Dat.before_out_kept _ 1 rfl t h0 (Bool.eq_false_iff.mpr fun h => by have := (flush3_1 _).mp h; dsimp only at this; omega)
    hlive3_1 (fun _ _ => rfl)]
  dsimp only [dat3]

/-! ## The body obligation, at a generic point -/

/-- What the body is called with at point `t`, the windows one by one, -/
def bodyPre3 (c : Dev nD) (t : Fin cfg3.N) : sProp 𝕄 :=
  iprop((dat3 V O Rc c).Φ t.castSucc ∗ (dat3 V O Rc c).owesAt (none : HIx 1) t.castSucc
    ∗ (∃ d, owns (c : Thread nD τ) (ms3_0 t) fullShare ((dat3 V O Rc c).before 0 t d))
    ∗ (∃ d, owns (c : Thread nD τ) (ms3_1 t) fullShare ((dat3 V O Rc c).before 1 t d)))

/-- and what it returns. -/
def bodyPost3 (c : Dev nD) (t : Fin cfg3.N) : sProp 𝕄 :=
  iprop((dat3 V O Rc c).Φ t.succ ∗ (dat3 V O Rc c).owesAt (none : HIx 1) t.succ
    ∗ owns (c : Thread nD τ) (ms3_0 t) fullShare ((dat3 V O Rc c).after 0 t)
    ∗ owns (c : Thread nD τ) (ms3_1 t) fullShare ((dat3 V O Rc c).after 1 t))

set_option maxHeartbeats 800000 in
/-- The body at any point: the input's memref holds its block; the closed forms say which case the point is in; past
    the first point the output's memref holds what the point before left; so that case's run applies; the invariant
    and what the core owes pass through unread. -/
theorem sound_body3 (c : Dev nD) (t : Fin cfg3.N) :
    bodyPre3 V O Rc c t ⊢ wp frame (wpE (defs₀ (F := F)) Variants.none c none) Set.univ (bodyAt3 t) (fun _ => bodyPost3 V O Rc c t) := by
  unfold bodyPre3 bodyPost3 bodyAt3
  simp only [before3_0]
  rw [show (dat3 V O Rc c).Φ t.succ = (dat3 V O Rc c).Φ t.castSucc from rfl,
    show (dat3 V O Rc c).owesAt (none : HIx 1) t.succ = (dat3 V O Rc c).owesAt (none : HIx 1) t.castSucc from rfl,
    after3_0, after3_1]
  have hN : t.val < 8 := lt_of_lt_of_eq t.isLt (show cfg3.N = 8 from N_3)
  by_cases h0 : t.val = 0
  · rw [outsAt3_A V c t h0]
    unfold out3_A_1
    iintro ⟨HΦ, Ho, ⟨%d0, H0⟩, ⟨%d1, H1⟩⟩
    iapply ((kernelRun3_A c (grid3.coords t) _ _ _ _ ((hcond3_1 t).mpr h0) (fun h => (hcond3_2 t).mp h h0)
      (fun h => by have := (hcond3_3 t).mp h; omega) (iblk3 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover3_A_1 c _ _ _ _ _ _ _ _ _)
  · by_cases h7 : t.val = 7
    · rw [outsAt3_C V c t h7]
      simp only [before3_1 V O Rc c t h0]
      unfold out3_C_1
      iintro ⟨HΦ, Ho, ⟨%d0, H0⟩, ⟨%d1, H1⟩⟩
      iapply ((kernelRun3_C c (grid3.coords t) _ _ _ _ (fun h => by have := (hcond3_1 t).mp h; omega) ((hcond3_2 t).mpr (by omega))
        ((hcond3_3 t).mpr h7) (iblk3 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover3_C_1 c _ _ _ _ _ _ _ _ _ _)
    · rw [outsAt3_B V c t h0 h7]
      simp only [before3_1 V O Rc c t h0]
      unfold out3_B_1
      iintro ⟨HΦ, Ho, ⟨%d0, H0⟩, ⟨%d1, H1⟩⟩
      iapply ((kernelRun3_B c (grid3.coords t) _ _ _ _ (fun h => h0 ((hcond3_1 t).mp h)) ((hcond3_2 t).mpr h0)
        (fun h => h7 ((hcond3_3 t).mp h)) (iblk3 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover3_B_1 c _ _ _ _ _ _ _ _ _ _)

set_option maxHeartbeats 1600000 in
/-- The library's body obligation, at every point: the output window is idle nowhere (`hlive3_1`), so the obligation's
    post for it is the plain one. -/
theorem body_obligation3 (c : Dev nD) :
    BodyObligation (dat3 (F := F) V O Rc c) (defs₀ (F := F)) Variants.none (none : HIx 1) Set.univ := fun t => by
  rw [bigSep_W3, bigSep_W3]
  have hl : cfg3.idle 1 (cfg3.grid.coords t) = false := hlive3_1 _
  rw [hl]
  show bodyPre3 V O Rc c t ⊢ wp frame (wpE (defs₀ (F := F)) Variants.none c none) Set.univ (bodyAt3 t) (fun _ => bodyPost3 V O Rc c t)
  exact sound_body3 V O Rc c t

end Region

end Cert.Proof.KB.R3

end
-- ==== Proof.Region4B.lean ====
/-
  The normalisation region: one pipelined kernel over eight points.

  Point t reads rows [5120 t, 5120 (t + 1)) of the padded feature array x : f32[40960, 80], the batch
  statistics st : f32[2, 80] (row 0 the mean, row 1 the denominator), the scale g and the shift b
  (f32[1, 80] each), forms  y = max ((x - mean) / denom * g + b, 0)  entrywise and stores the TRANSPOSE of that
  block — as the product of the 80 × 80 identity with y, contracting the channel axis — into columns
  [5120 t, 5120 (t + 1)) of the result f32[80, 40960]. The result's staging buffer is the whole array: it is
  handed from point to point, each point overwrites one strip of columns and leaves the rest as it found
  it, and the array is written back once, after the last point. At the first point the buffer holds contents
  nobody chose, so what a point leaves there cannot be named as a function of the point alone: the proof
  data says how a point CHANGES the buffer (a relation between what it found and what it leaves), and the
  value of the array at exit follows by chaining the eight relations: every column lies in exactly one strip.
-/
import proofs.«207241_g55714315764006_cont_9to1c4b_410_29_alg».proof.Proof.SetupKB
import proofs.«207241_g55714315764006_cont_9to1c4b_410_29_alg».proof.Proof.Gen.Kernel.Launch
import proofs.«207241_g55714315764006_cont_9to1c4b_410_29_alg».proof.Proof.Gen.Kernel.Skeleton
import proofs.«207241_g55714315764006_cont_9to1c4b_410_29_alg».proof.Proof.Gen.Kernel.Points
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Writes
import Idealize.ShloMosaic.Lib.Tactic

set_option maxRecDepth 16384

noncomputable section

namespace Cert.Proof.KB.R4

open Cert.Kernel Cert.Kernel.Gen

open Idealize.ShloMosaic Idealize.ShloMosaic.TcCoe Idealize.ShloMosaic.Tactic
open Idealize.ShloMosaic.SparseCore.Cfg (HIx)
open Idealize.ShloMosaic.ValueIdx (ix2 eq_ix2 idx2_lt0 idx2_lt1)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ Cert.Proof.KB.UU ℕ

/-! ## One store over given contents -/

/-- A buffer holding `f`, after one unmasked store of `w` through the rectangle `r`, reads as what it read
    before with `r`'s elements replaced by `w`. -/
theorem read_writes_single {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    refine View.read_writes_apply_of_forall_not_mem v f y _ fun p hp => ?_
    rw [List.mem_singleton] at hp; subst hp; exact hy

/-! ## The body's accesses and its payload -/

/-- The rows block, read whole. -/
abbrev rX : Rect S5120x80 := Rect.unit (s := S5120x80) ![0, 0] S5120x80.size inb_S5120x80_S5120x80_0_0
/-- Row 0 of the statistics: the mean. -/
abbrev rMean : Rect S2x80 := Rect.unit (s := S2x80) ![0, 0] S1x80.size inb_S2x80_S1x80_0_0
/-- Row 1 of the statistics: the denominator. -/
abbrev rDen : Rect S2x80 := Rect.unit (s := S2x80) ![1, 0] S1x80.size inb_S2x80_S1x80_1_0
/-- The scale, and the shift, read whole. -/
abbrev rRow : Rect S1x80 := Rect.unit (s := S1x80) ![0, 0] S1x80.size inb_S1x80_S1x80_0_0
/-- The strip of columns the point at grid coordinates `i` stores: columns [5120 i, 5120 (i + 1)), all 80 rows. -/
abbrev rOut (i : grid4.Coords) : Rect S80x40960 := Rect.unit (s := S80x40960) (k4_off1 i) S80x5120.size (k4_off1_inb i)

/-- What a point stores, from the rows block `x0`, the statistics, the scale and the shift: the normalised,
    rectified block, transposed. -/
def payOf (x0 : Vec F S5120x80 .f32) (st : Vec F S2x80 .f32) (g b : Vec F S1x80 .f32) : Vec F S80x5120 .f32 :=
  k4_pay1 (View.ld x0 rX) (View.ld st rMean) (View.ld st rDen) (View.ld g rRow) (View.ld b rRow)

/-! ## The body's triple -/

set_option maxHeartbeats 1000000 in
/-- The kernel body on whole staging memrefs — the four inputs' at contents `x0`, `st`, `g`, `b` and the result's at
    contents `y` — runs to the continuation holding the inputs' as they were and the result's at `y` with the
    point's strip of columns replaced by the payload. -/
theorem sound_kernel4 (c : Dev nD) (E : Set ℕ) (i : grid4.Coords)
    (arg1 : Memref sig .tc .vmem S5120x80 .f32) (harg1 : arg1.IsWhole) (arg2 : Memref sig .tc .vmem S2x80 .f32) (harg2 : arg2.IsWhole)
    (arg3 : Memref sig .tc .vmem S1x80 .f32) (harg3 : arg3.IsWhole) (arg4 : Memref sig .tc .vmem S1x80 .f32) (harg4 : arg4.IsWhole)
    (arg5 : Memref sig .tc .vmem S80x40960 .f32) (harg5 : arg5.IsWhole)
    (x0 : Vec F S5120x80 .f32) (st : Vec F S2x80 .f32) (g b : Vec F S1x80 .f32) (y : Vec F S80x40960 .f32) (K : PUnit → sProp 𝕄) :
    iprop(owns (c : Thread nD τ) arg1 fullShare x0 ∗ owns (c : Thread nD τ) arg2 fullShare st ∗ owns (c : Thread nD τ) arg3 fullShare g
        ∗ owns (c : Thread nD τ) arg4 fullShare b ∗ owns (c : Thread nD τ) arg5 fullShare y
        ∗ (iprop(owns (c : Thread nD τ) arg1 fullShare x0 ∗ owns (c : Thread nD τ) arg2 fullShare st ∗ owns (c : Thread nD τ) arg3 fullShare g
            ∗ owns (c : Thread nD τ) arg4 fullShare b ∗ owns (c : Thread nD τ) arg5 fullShare ((rOut i).overlay y (payOf x0 st g b))) -∗ K ⟨⟩))
      ⊢ wp frame (wpE (defs₀ (F := F)) Variants.none c none) E (cc4__norm_body i arg1 harg1 arg2 harg2 arg3 harg3 arg4 harg4 arg5 harg5) K := by
  simp only [cc4__norm_body_eq_skeleton]; unfold cc4__norm_body_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact read_writes_single _ _ _ _

section Region
variable (V : (c : Dev nD) → (b : Ref sig .tc) → Buf (Elt F) ((c : Thread nD τ).loc b))
variable (O : CellTallies nD τ sig (HIx 1)) (Rc : Set (SemLoc sig × HIx 1))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What point `t` stores: the payload of its input blocks. -/
def pay4 (c : Dev nD) (t : Fin cfg4.N) : Vec F S80x5120 .f32 :=
  payOf (iblk4 V c 0 t) (iblk4 V c 1 t) (iblk4 V c 2 t) (iblk4 V c 3 t)

/-! ## The pipeline's proof data -/

/-- The region's invariant on core `c`: the core's scoped buffers that are no staging buffer of this pipeline, each
    at some contents, and its generator register at some state; the body touches neither. -/
def Φ4 (c : Dev nD) : sProp 𝕄 :=
  iprop(Pipeline.scopedRest (Ix := HIx 1) (Name := ℕ) (U := Cert.Proof.KB.UU) (Lvl := ℕ) (Val := Elt F) spec4 c ∗ ∃ r, prngReg c r)

/-- The proof data of the normalisation pipeline on core `c`: the arrays as the region finds them (`V`); the body
    leaves each input's buffer as it found it, and leaves the result's buffer as it found it but for the point's
    strip of columns, which holds the payload of the point's input blocks; the core owes `O` throughout, and its
    recorded wait pairs stay within `Rc` and the pipeline's own. -/
def rdat4 (c : Dev nD) : RDat τ (Elt F) (HIx 1) ℕ Cert.Proof.KB.UU ℕ cfg4 c where
  A w := V c (Pipeline.arrRef spec4 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = (rOut (grid4.coords t)).overlay Y (pay4 V c t)
  Φ _ := Φ4 c
  q _ := fullShare
  owed _ := O
  recorded _ := Rc

/-- The relation, window by window (the proof data's `match` reduced by `dsimp`). -/
theorem after4_0 (c : Dev nD) (t : Fin cfg4.N) (Y X) : (rdat4 (F := F) V O Rc c).after 0 t Y X = (X = Y) := by dsimp only [rdat4]
theorem after4_1 (c : Dev nD) (t : Fin cfg4.N) (Y X) : (rdat4 (F := F) V O Rc c).after 1 t Y X = (X = Y) := by dsimp only [rdat4]
theorem after4_2 (c : Dev nD) (t : Fin cfg4.N) (Y X) : (rdat4 (F := F) V O Rc c).after 2 t Y X = (X = Y) := by dsimp only [rdat4]
theorem after4_3 (c : Dev nD) (t : Fin cfg4.N) (Y X) : (rdat4 (F := F) V O Rc c).after 3 t Y X = (X = Y) := by dsimp only [rdat4]
theorem after4_4 (c : Dev nD) (t : Fin cfg4.N) (Y X) :
    (rdat4 (F := F) V O Rc c).after 4 t Y X = (X = (rOut (grid4.coords t)).overlay Y (pay4 V c t)) := by dsimp only [rdat4]

/-! ## What the body finds in the inputs' buffers -/

/-- An input's current staging buffer holds its block wherever the body is handed it, fetched there or not: the
    body leaves it as found, an unfetched point has the block index of the point before, and the windows are uncut,
    so a fetch fills the whole buffer. -/
theorem finds4_0 (c : Dev nD) (t : Fin cfg4.N) (Y) (h : (rdat4 (F := F) V O Rc c).Finds 0 t Y) : Y = iblk4 V c 0 t := by
  obtain ⟨d, rfl⟩ := Pipeline.RDat.finds_in_eq_fetched (rdat4 V O Rc c) 0 rfl (fun _ _ _ => rfl)
    (fun t Y X h => by rw [after4_0] at h; exact h) t Y h
  unfold RDat.fetched RDat.blockOf iblk4; rfl
theorem finds4_1 (c : Dev nD) (t : Fin cfg4.N) (Y) (h : (rdat4 (F := F) V O Rc c).Finds 1 t Y) : Y = iblk4 V c 1 t := by
  obtain ⟨d, rfl⟩ := Pipeline.RDat.finds_in_eq_fetched (rdat4 V O Rc c) 1 rfl (fun _ _ _ => rfl)
    (fun t Y X h => by rw [after4_1] at h; exact h) t Y h
  unfold RDat.fetched RDat.blockOf iblk4; rfl
theorem finds4_2 (c : Dev nD) (t : Fin cfg4.N) (Y) (h : (rdat4 (F := F) V O Rc c).Finds 2 t Y) : Y = iblk4 V c 2 t := by
  obtain ⟨d, rfl⟩ := Pipeline.RDat.finds_in_eq_fetched (rdat4 V O Rc c) 2 rfl (fun _ _ _ => rfl)
    (fun t Y X h => by rw [after4_2] at h; exact h) t Y h
  unfold RDat.fetched RDat.blockOf iblk4; rfl
theorem finds4_3 (c : Dev nD) (t : Fin cfg4.N) (Y) (h : (rdat4 (F := F) V O Rc c).Finds 3 t Y) : Y = iblk4 V c 3 t := by
  obtain ⟨d, rfl⟩ := Pipeline.RDat.finds_in_eq_fetched (rdat4 V O Rc c) 3 rfl (fun _ _ _ => rfl)
    (fun t Y X h => by rw [after4_3] at h; exact h) t Y h
  unfold RDat.fetched RDat.blockOf iblk4; rfl

/-! ## The body obligation, at a generic point -/

/-- The body at any point, the inputs' buffers at their blocks and the result's at any contents `y`: the body's
    triple applies; the invariant and the core's `owes` pass through unread. -/
theorem sound_body4 (c : Dev nD) (t : Fin cfg4.N) (y : Vec F S80x40960 .f32) :
    iprop((rdat4 V O Rc c).Φ t.castSucc ∗ (rdat4 V O Rc c).owesAt (none : HIx 1) t.castSucc
        ∗ owns (c : Thread nD τ) (st4_0 t) fullShare (iblk4 V c 0 t) ∗ owns (c : Thread nD τ) (st4_1 t) fullShare (iblk4 V c 1 t)
        ∗ owns (c : Thread nD τ) (st4_2 t) fullShare (iblk4 V c 2 t) ∗ owns (c : Thread nD τ) (st4_3 t) fullShare (iblk4 V c 3 t)
        ∗ owns (c : Thread nD τ) (st4_4 t) fullShare y)
      ⊢ wp frame (wpE (defs₀ (F := F)) Variants.none c none) Set.univ (bodyAt4 t) (fun _ =>
          iprop((rdat4 V O Rc c).Φ t.succ ∗ (rdat4 V O Rc c).owesAt (none : HIx 1) t.succ
            ∗ (∃ X, ⌜X = iblk4 V c 0 t⌝ ∗ owns (c : Thread nD τ) (st4_0 t) fullShare X)
            ∗ (∃ X, ⌜X = iblk4 V c 1 t⌝ ∗ owns (c : Thread nD τ) (st4_1 t) fullShare X)
            ∗ (∃ X, ⌜X = iblk4 V c 2 t⌝ ∗ owns (c : Thread nD τ) (st4_2 t) fullShare X)
            ∗ (∃ X, ⌜X = iblk4 V c 3 t⌝ ∗ owns (c : Thread nD τ) (st4_3 t) fullShare X)
            ∗ (∃ X, ⌜X = (rOut (grid4.coords t)).overlay y (pay4 V c t)⌝ ∗ owns (c : Thread nD τ) (st4_4 t) fullShare X))) := by
  unfold bodyAt4
  rw [show (rdat4 V O Rc c).Φ t.succ = (rdat4 V O Rc c).Φ t.castSucc from rfl,
    show (rdat4 V O Rc c).owesAt (none : HIx 1) t.succ = (rdat4 V O Rc c).owesAt (none : HIx 1) t.castSucc from rfl]
  iintro ⟨HΦ, Ho, H0, H1, H2, H3, H4⟩
  iapply (sound_kernel4 c Set.univ (grid4.coords t) _ _ _ _ _ _ _ _ _ _ (iblk4 V c 0 t) (iblk4 V c 1 t) (iblk4 V c 2 t) (iblk4 V c 3 t) y _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr; · ipureintro; rfl
  iexact H4

/-- The library's body obligation, at every point: whatever the windows' buffers may hold there, the inputs' hold
    their blocks (`finds4_W`), and the result's relation is the body's triple. -/
theorem body_obligation4 (c : Dev nD) :
    (rdat4 (F := F) V O Rc c).BodyObligation (defs₀ (F := F)) Variants.none (none : HIx 1) Set.univ := fun t Y hY => by
  have h0 := finds4_0 V O Rc c t (Y 0) (hY 0)
  have h1 := finds4_1 V O Rc c t (Y 1) (hY 1)
  have h2 := finds4_2 V O Rc c t (Y 2) (hY 2)
  have h3 := finds4_3 V O Rc c t (Y 3) (hY 3)
  rw [bigSep_W4, bigSep_W4]
  simp only [after4_0, after4_1, after4_2, after4_3, after4_4]
  rw [h0, h1, h2, h3]
  exact sound_body4 V O Rc c t (Y 4)

/-! ## The value of the result array at exit -/

/-- Rows [5120 k, 5120 (k + 1)) of the feature array. -/
def xblk (x : Vec F S40960x80 .f32) (k : Fin 8) : Vec F S5120x80 .f32 :=
  fun j => x (ix2 ⟨5120 * k.val + (j 0).val, by have := idx2_lt0 j; omega⟩ ⟨(j 1).val, idx2_lt1 j⟩)

/-- The normalised array, index by index: entry (o, r) is the payload of rows block r / 5120 at (o, r % 5120). -/
def normOf (x : Vec F S40960x80 .f32) (st : Vec F S2x80 .f32) (g b : Vec F S1x80 .f32) : Vec F S80x40960 .f32 :=
  fun j => payOf (xblk x ⟨(j 1).val / 5120, by have := idx2_lt1 j; omega⟩) st g b
    (ix2 ⟨(j 0).val, idx2_lt0 j⟩ ⟨(j 1).val % 5120, Nat.mod_lt _ (by norm_num)⟩)

/-- The normalised array at column `5120 k + i`, row `o`: block `k`'s payload at `(o, i)`. -/
theorem normOf_of_block (x : Vec F S40960x80 .f32) (st : Vec F S2x80 .f32) (g b : Vec F S1x80 .f32)
    (j : S80x40960.Idx) (k : Fin 8) (i : S80x5120.Idx) (h0 : (j 0).val = (i 0).val) (h1 : (j 1).val = 5120 * k.val + (i 1).val) :
    normOf x st g b j = payOf (xblk x k) st g b i := by
  have hi1 : (i 1).val < 5120 := idx2_lt1 i
  have hk : (⟨(j 1).val / 5120, by have := idx2_lt1 j; omega⟩ : Fin 8) = k := Fin.ext (by show (j 1).val / 5120 = k.val; omega)
  have hi : (ix2 ⟨(j 0).val, idx2_lt0 j⟩ ⟨(j 1).val % 5120, Nat.mod_lt _ (by norm_num)⟩ : S80x5120.Idx) = i := by
    funext a
    match a with
    | ⟨0, _⟩ => exact Fin.ext h0
    | ⟨1, _⟩ => exact Fin.ext (by show (j 1).val % 5120 = (i 1).val; omega)
  show payOf (xblk x ⟨(j 1).val / 5120, _⟩) st g b (ix2 ⟨(j 0).val, _⟩ ⟨(j 1).val % 5120, _⟩) = _
  rw [hk, hi]

/-- The grid has one axis: a point's coordinate is its number. -/
theorem coords4_val : ∀ t : Fin grid4.N, ((grid4.coords t) 0).val = t.val := by decide +kernel
/-- The rows window's block index at point `t` is `(t, 0)`. -/
theorem index4_0 : ∀ t : Fin grid4.N, cc4_transform_0 (grid4.coords t) = ![t.val, 0] := by decide +kernel
/-- The store's offsets at point `t`: row 0, column `5120 t`. -/
theorem off4 (t : Fin cfg4.N) : k4_off1 (grid4.coords t) = ![0, 5120 * t.val] := by rw [k4_off1_eq, coords4_val]

/-- A point as one of the eight blocks. -/
abbrev k4 (t : Fin cfg4.N) : Fin 8 := ⟨t.val, lt_of_lt_of_eq t.isLt N_4⟩

/-- The rows window's block at point `t` is rows block `t` of the array. -/
theorem iblk4_0_eq (c : Dev nD) (t : Fin cfg4.N) : iblk4 V c 0 t = xblk (V c main_v28) (k4 t) := by
  funext j
  show V c main_v28 (((cfg4.win 0).rect t).emb j) = V c main_v28 (ix2 ⟨5120 * t.val + (j 0).val, _⟩ ⟨(j 1).val, _⟩)
  congr 1
  funext a; apply Fin.ext
  rw [(cfg4.win 0).rect_emb_val t j a]
  show cc4_transform_0 (grid4.coords t) a * S5120x80.size a + (j a).val = _
  rw [index4_0]
  match a with
  | ⟨0, _⟩ => show t.val * 5120 + (j 0).val = 5120 * t.val + (j 0).val; omega
  | ⟨1, _⟩ => show 0 * 80 + (j 1).val = (j 1).val; omega

/-- The statistics', the scale's and the shift's windows hold their whole arrays at every point. -/
theorem iblk4_1_eq (c : Dev nD) (t : Fin cfg4.N) : iblk4 V c 1 t = V c main_v26 := by
  funext j
  show V c main_v26 (((cfg4.win 1).rect t).emb j) = V c main_v26 j
  congr 1
  funext a; apply Fin.ext
  exact (cfg4.win 1).rect_emb_val_of_index_zero t a (by match a with | ⟨0, _⟩ => rfl | ⟨1, _⟩ => rfl) j
theorem iblk4_2_eq (c : Dev nD) (t : Fin cfg4.N) : iblk4 V c 2 t = V c main_v29 := by
  funext j
  show V c main_v29 (((cfg4.win 2).rect t).emb j) = V c main_v29 j
  congr 1
  funext a; apply Fin.ext
  exact (cfg4.win 2).rect_emb_val_of_index_zero t a (by match a with | ⟨0, _⟩ => rfl | ⟨1, _⟩ => rfl) j
theorem iblk4_3_eq (c : Dev nD) (t : Fin cfg4.N) : iblk4 V c 3 t = V c main_v30 := by
  funext j
  show V c main_v30 (((cfg4.win 3).rect t).emb j) = V c main_v30 j
  congr 1
  funext a; apply Fin.ext
  exact (cfg4.win 3).rect_emb_val_of_index_zero t a (by match a with | ⟨0, _⟩ => rfl | ⟨1, _⟩ => rfl) j

/-- What point `t` stores, over the arrays as the region finds them. -/
theorem pay4_eq (c : Dev nD) (t : Fin cfg4.N) :
    pay4 V c t = payOf (xblk (V c main_v28) (k4 t)) (V c main_v26) (V c main_v29) (V c main_v30) := by
  unfold pay4; rw [iblk4_0_eq, iblk4_1_eq, iblk4_2_eq, iblk4_3_eq]

/-- Contents of the result's buffer whose columns below `5120 n` are the normalised array's. -/
def GoodUpTo (c : Dev nD) (n : ℕ) (X : Vec F S80x40960 .f32) : Prop :=
  ∀ j : S80x40960.Idx, (j 1).val < 5120 * n → X j = normOf (V c main_v28) (V c main_v26) (V c main_v29) (V c main_v30) j

/-- Point `t`'s store extends the finished columns by its strip: inside the strip the payload is the normalised
    array's block `t`; left of it nothing changes. -/
theorem overlay_good (c : Dev nD) (t : Fin cfg4.N) (Y : Vec F S80x40960 .f32) (hY : GoodUpTo V c t.val Y) :
    GoodUpTo V c (t.val + 1) ((rOut (grid4.coords t)).overlay Y (pay4 V c t)) := by
  intro j hj
  by_cases hm : j ∈ (rOut (grid4.coords t)).set
  · obtain ⟨x, rfl⟩ : ∃ x, (rOut (grid4.coords t)).emb x = j := (rOut (grid4.coords t)).exists_idx_of_mem hm
    rw [Rect.overlay_emb, pay4_eq]
    refine (normOf_of_block _ _ _ _ _ (k4 t) x ?_ ?_).symm
    · rw [Rect.emb_apply]; show k4_off1 (grid4.coords t) 0 + 1 * (x 0).val = _; rw [off4]; show 0 + 1 * (x 0).val = _; omega
    · rw [Rect.emb_apply]; show k4_off1 (grid4.coords t) 1 + 1 * (x 1).val = _; rw [off4]; show 5120 * t.val + 1 * (x 1).val = 5120 * t.val + (x 1).val; omega
  · rw [Rect.overlay_of_not_mem _ _ _ hm]
    refine hY j ?_
    by_contra hlt
    refine hm (Rect.mem_set_unit.mpr fun a => ?_)
    rw [off4]
    match a with
    | ⟨0, _⟩ => exact ⟨Nat.zero_le _, by show (j 0).val < 0 + 80; have := idx2_lt0 j; omega⟩
    | ⟨1, _⟩ => exact ⟨by show 5120 * t.val ≤ (j 1).val; omega, by show (j 1).val < 5120 * t.val + 5120; omega⟩

/-- What point `n` may leave in the result's buffer has columns below `5120 (n + 1)` finished: the buffer is
    handed from point to point (no point before the last writes it back), each adding its strip. -/
theorem leaves_good (c : Dev nD) : ∀ (n : ℕ) (h : n < cfg4.N) (X : Vec F S80x40960 .f32),
    (rdat4 (F := F) V O Rc c).Leaves 4 ⟨n, h⟩ X → GoodUpTo V c (n + 1) X
  | 0, h, X, ⟨Y, _, hR⟩ => by
    rw [after4_4] at hR; subst hR
    exact overlay_good V c ⟨0, h⟩ Y (fun j hj => absurd hj (by show ¬ (j 1).val < 5120 * 0; omega))
  | n + 1, h, X, ⟨Y, hY, hR⟩ => by
    rw [after4_4] at hR; subst hR
    have hf : (cfg4.win 4).fetch ⟨n + 1, h⟩ = false := (cfg4.win 4).fetch_out rfl _
    rcases ((rdat4 V O Rc c).finds_of_pos hf (Nat.succ_ne_zero n) Y).mp hY with hfl | hL
    · exfalso
      have h7 := (flush4_4 _).mp hfl
      have h8 : n + 1 < 8 := lt_of_lt_of_eq h N_4
      change (n + 1 - 1) % 8 = 7 at h7
      omega
    · exact overlay_good V c ⟨n + 1, h⟩ Y (leaves_good c n (Nat.lt_of_succ_lt h) Y hL)

/-- The result's block is its whole array: a write-back of contents `X` over anything leaves `X`. -/
theorem write_whole4 (c : Dev nD) (t : Fin cfg4.N) (G₀ : Buf (Elt F) ((cfg4.win 4).arr.view.loc ((c : Dev nD).tc : Thread nD τ)))
    (X : (cfg4.win 4).block.Idx → Elt F (cfg4.win 4).elt) :
    ((cfg4.win 4).blk t).view.write (Elt F) G₀ ((cfg4.win 4).cut (cfg4.grid.coords t) X) Finset.univ = X := by
  funext i
  have hi : ((cfg4.win 4).blk t).view.emb i = i := by
    funext a; apply Fin.ext
    exact (cfg4.win 4).rect_emb_val_of_index_zero t a (by match a with | ⟨0, _⟩ => rfl | ⟨1, _⟩ => rfl) i
  have hw := View.write_emb_of_mem (v := ((cfg4.win 4).blk t).view) G₀ ((cfg4.win 4).cut (cfg4.grid.coords t) X) (Finset.mem_univ i)
  rw [hi] at hw
  exact hw

/-- Whatever the result array may hold after the write-back of the last point is the normalised array of the
    inputs as the region found them: the only write-back is the last point's, of a buffer all of whose columns are
    finished. -/
theorem norm_of_ArrAt (c : Dev nD) (Z : Buf (Elt F) ((cfg4.win 4).arr.view.loc ((c : Dev nD).tc : Thread nD τ))) :
    (rdat4 (F := F) V O Rc c).ArrAt 4 cfg4.N Z → Z = normOf (V c main_v28) (V c main_v26) (V c main_v29) (V c main_v30) := by
  intro h
  have e : cfg4.N = t4_7.val + 1 := N_4
  have h' : (rdat4 (F := F) V O Rc c).ArrAt 4 (t4_7.val + 1) Z := by rw [← e]; exact h
  rw [Pipeline.RDat.ArrAt_succ, if_pos ((flush4_4 t4_7).mpr rfl)] at h'
  obtain ⟨G₀, X, -, hX, rfl⟩ := h'
  rw [write_whole4]
  funext j
  exact leaves_good V O Rc c 7 t4_7.isLt X hX j (by have := idx2_lt1 j; omega)

end Region

/-! ## The normalised array at the ideal values -/

section AtIdeal
open Idealize.ShloMosaic.ValueIdx

/-- The payload's dot: 80 × 80 by 5120 × 80, both contracted on their second axis. -/
abbrev D4 : DotDims S80x80 S5120x80 S80x5120 := dot_S80x80_S5120x80_S80x5120_1_1_0_0_n_n
/-- Its contraction index is its one coordinate. -/
abbrev E4 : D4.contr.Idx ≃ Fin 80 := contrEquiv1 D4 80 rfl rfl

/-- The dot's left operand index at output index `i = (p, r)` and contraction coordinate `q` is `(p, q)`. -/
theorem lhsIdx4 (i : S80x5120.Idx) (q : Fin 80) : D4.lhsIdx i (E4.symm q) = ix2 ⟨(i 0).val, idx2_lt0 i⟩ q := by
  funext a
  match a with
  | ⟨0, _⟩ => apply Fin.ext; simp [DotDims.lhsIdx, D4, dot_S80x80_S5120x80_S80x5120_1_1_0_0_n_n]; rfl
  | ⟨1, _⟩ =>
    apply Fin.ext
    show (D4.lhsIdx i (E4.symm q) 1).val = q.val
    rw [D4.lhsIdx_val_of_single (cl := 1) rfl]; exact contrEquiv1_symm_val D4 80 rfl rfl q
/-- and its right operand index is `(r, q)`. -/
theorem rhsIdx4 (i : S80x5120.Idx) (q : Fin 80) : D4.rhsIdx i (E4.symm q) = ix2 ⟨(i 1).val, idx2_lt1 i⟩ q := by
  funext a
  match a with
  | ⟨0, _⟩ => apply Fin.ext; simp [DotDims.rhsIdx, D4, dot_S80x80_S5120x80_S80x5120_1_1_0_0_n_n]; rfl
  | ⟨1, _⟩ =>
    apply Fin.ext
    show (D4.rhsIdx i (E4.symm q) 1).val = q.val
    rw [D4.rhsIdx_val_of_single (cr := 1) rfl]; exact contrEquiv1_symm_val D4 80 rfl rfl q

/-- The matrix built from the two iotas: 1 on the diagonal, 0 off it. -/
def eye80 : FVec Ideal S80x80 .f32 :=
  sitofp .f32 (extui 32 (cmpi .eq (iota .tc S80x80 32 [0] iota_S80x80_d0_w32) (iota .tc S80x80 32 [1] iota_S80x80_d1_w32)) natLt_1_32)

theorem eye80_apply (p q : Fin 80) : eye80 (ix2 p q) = if p = q then 1 else 0 := by
  unfold eye80
  rw [sitofp_apply, extui_apply]
  show FloatOps.sitofp .f32 ((IntOp.cmpi .eq (iota .tc S80x80 32 [0] iota_S80x80_d0_w32 (ix2 p q)) (iota .tc S80x80 32 [1] iota_S80x80_d1_w32 (ix2 p q))).setWidth 32) = _
  rw [iota_single_apply, iota_single_apply]
  show FloatOps.sitofp .f32 ((IntOp.cmpi .eq (BitVec.ofNat 32 p.val) (BitVec.ofNat 32 q.val)).setWidth 32) = _
  have hcmp : IntOp.cmpi .eq (BitVec.ofNat 32 p.val) (BitVec.ofNat 32 q.val) = if p = q then 1#1 else 0#1 := by
    unfold IntOp.cmpi
    by_cases h : p = q
    · subst h; simp
    · rw [if_neg h]
      have hne : BitVec.ofNat 32 p.val ≠ BitVec.ofNat 32 q.val := fun e => h (Fin.ext (by
        have h2 := congrArg BitVec.toNat e
        simp only [BitVec.toNat_ofNat] at h2
        have := p.isLt; have := q.isLt; omega))
      rw [beq_eq_false_iff_ne.mpr hne]; rfl
  rw [hcmp]
  by_cases h : p = q
  · rw [if_pos h, if_pos h]; show (((BitVec.setWidth 32 1#1).toInt : ℝ) : EReal) = 1; simp
  · rw [if_neg h, if_neg h]; show (((BitVec.setWidth 32 0#1).toInt : ℝ) : EReal) = 0; simp

/-- A row vector broadcast down the rows block reads its own column. -/
theorem bcast_row {α : Type} (v : S1x80.Idx → α) (i : S5120x80.Idx) :
    broadcastTo S5120x80 (shapeCast S1x80 v shapeCasts_S1x80_S1x80) broadcasts_S1x80_S5120x80 i = v (ix2 0 ⟨(i 1).val, idx2_lt1 i⟩) := by
  rw [shapeCast_self]
  refine broadcastTo_apply _ _ i _ fun a => ?_
  match a with
  | ⟨0, _⟩ => rfl
  | ⟨1, _⟩ => rfl

/-- The payload at the ideal values, entry (o, r): the block's entry (r, o), normalised and rectified. -/
theorem k4_pay1_apply (v0 : FVec Ideal S5120x80 .f32) (v2 v4 v10 v14 : FVec Ideal S1x80 .f32) (i : S80x5120.Idx) :
    k4_pay1 (F := Ideal) v0 v2 v4 v10 v14 i
      = max (Ideal.div (v0 (ix2 ⟨(i 1).val, idx2_lt1 i⟩ ⟨(i 0).val, idx2_lt0 i⟩) - v2 (ix2 0 ⟨(i 0).val, idx2_lt0 i⟩)) (v4 (ix2 0 ⟨(i 0).val, idx2_lt0 i⟩))
          * v10 (ix2 0 ⟨(i 0).val, idx2_lt0 i⟩) + v14 (ix2 0 ⟨(i 0).val, idx2_lt0 i⟩)) 0 := by
  unfold k4_pay1
  dsimp only
  simp only [matmul]
  rw [Ideal.matmul_constant_zero_apply, ← Equiv.sum_comp E4.symm, Finset.sum_eq_single (⟨(i 0).val, idx2_lt0 i⟩ : Fin 80)]
  · rw [lhsIdx4, rhsIdx4]
    show eye80 (ix2 _ _) * _ = _
    rw [eye80_apply, if_pos rfl, one_mul, maximumf_apply, addf_apply, mulf_apply, divf_apply, subf_apply, shapeCast_self,
      bcast_row, bcast_row, bcast_row, bcast_row, broadcast_apply]
    show max _ (Ideal.ofBits .f32 0x00000000#32) = _
    rw [Ideal.ofBits_zero_f32]
  · intro q _ hq
    rw [lhsIdx4]
    show eye80 (ix2 _ q) * _ = 0
    rw [eye80_apply, if_neg (fun e => hq e.symm), zero_mul]
  · intro h; exact absurd (Finset.mem_univ _) h

/-- The body's loads at an index: the rows block whole, the statistics' two rows, the scale and the shift whole. -/
theorem ld_rX (v : Vec Ideal S5120x80 .f32) (p : Fin 5120) (q : Fin 80) : View.ld v rX (ix2 p q) = v (ix2 p q) := by
  show v (rX.idx (ix2 p q)) = v (ix2 p q)
  congr 1; funext a
  match a with
  | ⟨0, _⟩ => exact Fin.ext (by show 0 + 1 * p.val = p.val; omega)
  | ⟨1, _⟩ => exact Fin.ext (by show 0 + 1 * q.val = q.val; omega)
theorem ld_rMean (v : Vec Ideal S2x80 .f32) (q : Fin 80) : View.ld v rMean (ix2 0 q) = v (ix2 0 q) := by
  show v (rMean.idx (ix2 0 q)) = v (ix2 0 q)
  congr 1; funext a
  match a with
  | ⟨0, _⟩ => exact Fin.ext (by show 0 + 1 * 0 = 0; omega)
  | ⟨1, _⟩ => exact Fin.ext (by show 0 + 1 * q.val = q.val; omega)
theorem ld_rDen (v : Vec Ideal S2x80 .f32) (q : Fin 80) : View.ld v rDen (ix2 0 q) = v (ix2 1 q) := by
  show v (rDen.idx (ix2 0 q)) = v (ix2 1 q)
  congr 1; funext a
  match a with
  | ⟨0, _⟩ => exact Fin.ext (by show 1 + 1 * 0 = 1; omega)
  | ⟨1, _⟩ => exact Fin.ext (by show 0 + 1 * q.val = q.val; omega)
theorem ld_rRow (v : Vec Ideal S1x80 .f32) (q : Fin 80) : View.ld v rRow (ix2 0 q) = v (ix2 0 q) := by
  show v (rRow.idx (ix2 0 q)) = v (ix2 0 q)
  congr 1; funext a
  match a with
  | ⟨0, _⟩ => exact Fin.ext (by show 0 + 1 * 0 = 0; omega)
  | ⟨1, _⟩ => exact Fin.ext (by show 0 + 1 * q.val = q.val; omega)

/-- What a point stores, at the ideal values, entry (o, r). -/
theorem payOf_apply (x0 : FVec Ideal S5120x80 .f32) (st : FVec Ideal S2x80 .f32) (g b : FVec Ideal S1x80 .f32) (i : S80x5120.Idx) :
    payOf (F := Ideal) x0 st g b i
      = max (Ideal.div (x0 (ix2 ⟨(i 1).val, idx2_lt1 i⟩ ⟨(i 0).val, idx2_lt0 i⟩) - st (ix2 0 ⟨(i 0).val, idx2_lt0 i⟩)) (st (ix2 1 ⟨(i 0).val, idx2_lt0 i⟩))
          * g (ix2 0 ⟨(i 0).val, idx2_lt0 i⟩) + b (ix2 0 ⟨(i 0).val, idx2_lt0 i⟩)) 0 := by
  unfold payOf
  rw [k4_pay1_apply, ld_rX, ld_rMean, ld_rDen, ld_rRow, ld_rRow]

/-- Rows block `k` at `(p, q)` is the array at `(5120 k + p, q)`. -/
theorem xblk_apply (x : FVec Ideal S40960x80 .f32) (k : Fin 8) (p : Fin 5120) (q : Fin 80) (r : Fin 40960) (h : r.val = 5120 * k.val + p.val) :
    xblk (F := Ideal) x k (ix2 p q) = x (ix2 r q) := by
  show x (ix2 ⟨5120 * k.val + p.val, _⟩ ⟨q.val, _⟩) = x (ix2 r q)
  congr 1; funext a
  match a with
  | ⟨0, _⟩ => exact Fin.ext h.symm
  | ⟨1, _⟩ => rfl

/-- THE NORMALISED ARRAY AT THE IDEAL VALUES, entry (o, r):  max ((x (r, o) − mean o) / denom o · g o + b o) 0, the
    quotient the ideal instance's. The identity factor contributes nothing: on the extended reals 0 · a = 0 for
    every a, so the 79 off-diagonal terms of the contraction vanish whatever the block holds. -/
theorem normOf_apply (x : FVec Ideal S40960x80 .f32) (st : FVec Ideal S2x80 .f32) (g b : FVec Ideal S1x80 .f32) (j : S80x40960.Idx) :
    normOf (F := Ideal) x st g b j
      = max (Ideal.div (x (ix2 ⟨(j 1).val, idx2_lt1 j⟩ ⟨(j 0).val, idx2_lt0 j⟩) - st (ix2 0 ⟨(j 0).val, idx2_lt0 j⟩)) (st (ix2 1 ⟨(j 0).val, idx2_lt0 j⟩))
          * g (ix2 0 ⟨(j 0).val, idx2_lt0 j⟩) + b (ix2 0 ⟨(j 0).val, idx2_lt0 j⟩)) 0 := by
  unfold normOf
  rw [payOf_apply, xblk_apply x _ _ _ ⟨(j 1).val, idx2_lt1 j⟩ (by
    show (j 1).val = 5120 * ((j 1).val / 5120) + (j 1).val % 5120; omega)]

end AtIdeal

end Cert.Proof.KB.R4

end
-- ==== Proof.RegionsKB.lean ====
/-
  The four kernel regions as records for the region rule, over one family of proof data.

  Every pipeline's proof data is stated at its region's entry valuation, with the TensorCore's debt to the
  handshakes and the bound on its recorded pairs passed through: the table and address regions run before the
  gather call (the start signals still owed), the statistics and normalisation regions after it (nothing owed).
  A region takes its arrays out of the unscoped buffers, runs, and puts them back at what the write-backs leave.
-/
import proofs.«207241_g55714315764006_cont_9to1c4b_410_29_alg».proof.Proof.LaunchKB
import proofs.«207241_g55714315764006_cont_9to1c4b_410_29_alg».proof.Proof.Region0B
import proofs.«207241_g55714315764006_cont_9to1c4b_410_29_alg».proof.Proof.Region1B
import proofs.«207241_g55714315764006_cont_9to1c4b_410_29_alg».proof.Proof.Region3B
import proofs.«207241_g55714315764006_cont_9to1c4b_410_29_alg».proof.Proof.Region4B
import Idealize.ShloMosaic.Lib.Pipeline.RegionsLoop

noncomputable section

namespace Cert.Proof.KB

open Cert.Kernel Cert.Kernel.Gen Cert.Proof.KB.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F] [∀ e, Nonempty (Elt F e)]

local notation "𝕄" => MT nD τ sig (HIx 1) (Elt F) ℕ UU ℕ

/-- A valuation read at the TensorCore's references (the same on every core: a region's proof data reads it on its own). -/
abbrev Vof (W : Valuation τ sig (Elt F)) : (c : Dev nD) → (b : Ref sig .tc) → Buf (Elt F) ((c : Thread nD τ).loc b) :=
  fun _ b => W (Proc.devRef .tc b)

/-- The pairs a TensorCore's waits may have recorded before call `n`: those at or below the call's first level. -/
def Rcn (d : Dev nD) (n : ℕ) : Set (SemLoc sig × HIx 1) := {p | (K (F := F)).lev (T d, p.1) p.2 ≤ 8 * n}

/-! ## What the TensorCore owes, against the pipelines' own index -/

/-- Every unit the TensorCore owes the handshakes is at a call's index, never at the pipelines' own. -/
theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun c _ => ?_
    rw [tallyAt_apply, if_neg (fun h => nomatch h.2)]
  · rfl

/-- So whatever it owes sits strictly above level 0, where the pipelines' staging cells wait. -/
theorem Otc_pos (d : Dev nD) (n : ℕ) (g : GSem nD τ sig) (i : HIx 1) (h : 0 < (K (F := F)).Otc d n g i) :
    i ∈ (K (F := F)).L g ∧ 0 < (K (F := F)).lev g i := by
  refine ⟨Finset.mem_univ _, ?_⟩
  cases i with
  | none => rw [Otc_none] at h; exact absurd h (Nat.lt_irrefl 0)
  | some q => exact (K (F := F)).lev_some_pos g q

/-- Pairs recorded at or below the call's first level are within the bound the proof data carries, -/
theorem sub_of_wbelow (c : Dev nD) (n : ℕ) (W : Waits sig (HIx 1)) (B : Set (SemLoc sig × HIx 1))
    (h : (K (F := F)).WBelow (T c) W (8 * n)) : (↑W : Set (SemLoc sig × HIx 1)) ⊆ Rcn (F := F) c n ∪ B :=
  fun p hp => Or.inl (h p (Finset.mem_coe.mp hp))

/-- and pairs within that bound and a pipeline's own wait pairs (at level 0) are at or below it. -/
theorem wbelow_of_sub (c : Dev nD) (n : ℕ) (cfg : Pipeline.Cfg sig Λ₀) (W : Waits sig (HIx 1))
    (h : (↑W : Set (SemLoc sig × HIx 1)) ⊆ Rcn (F := F) c n ∪ cfg.waitPairs none) : (K (F := F)).WBelow (T c) W (8 * n) :=
  fun p hp => by
    rcases h (Finset.mem_coe.mpr hp) with h1 | ⟨w, s, rfl⟩
    · exact h1
    · exact Nat.zero_le _

/-! ## A region's arrays back among the unscoped buffers, for relational proof data -/

/-- Pipeline `p`'s arrays at contents `A` and the unscoped rest at `V` are the core's unscoped buffers at any
    valuation that has the arrays at `A` and agrees with `V` off them. -/
theorem unscopedBufs_of_rarrays {p : Fin 4} (hw : Pipeline.WinFacts (Pipeline.pin (pcfgs (F := F)) adm p).spec)
    (harr : ∀ w, ((Pipeline.pin (pcfgs (F := F)) adm p).spec w).arr.IsWhole) (c : Dev nD)
    (rdats : (p : Fin 4) → (c : Dev nD) → Pipeline.RDat τ (Elt F) (HIx 1) ℕ UU ℕ (Pipeline.pin (pcfgs (F := F)) adm p) c)
    (hshare : ∀ w, (rdats p c).share w = fullShare)
    (V V' : (b : Ref sig .tc) → Buf (Elt F) ((c.tc : Thread nD τ).loc b))
    (A : (w : Fin (Pipeline.pin (pcfgs (F := F)) adm p).W) → Buf (Elt F) (((Pipeline.pin (pcfgs (F := F)) adm p).spec w).arr.view.loc (c.tc : Thread nD τ)))
    (hA : ∀ w, A w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats p c).arrays A ∗ Pipeline.unscopedRest (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rdats p c harr hshare]
  refine sep_mono (Entails.of_eq (bigSep_congr fun w _ => by rw [hA])) (Entails.of_eq ?_)
  unfold Pipeline.unscopedRest
  exact bigSep_congr fun b hb => by rw [hrest b (Finset.mem_sdiff.mp hb).2]

section Family

variable (Wa Wb Wd We : Dev nD → Valuation τ sig (Elt F))

/-- Every pipeline's proof data at its region's entry valuation. -/
def rdats : (p : Fin 4) → (c : Dev nD) → Pipeline.RDat τ (Elt F) (HIx 1) ℕ UU ℕ (Pipeline.pin (pcfgs (F := F)) adm p) c
  | ⟨0, _⟩ => fun c => (R0.dat0 (Vof (Wa c)) ((K (F := F)).Otc c 0) (Rcn (F := F) c 0) c).toR
  | ⟨1, _⟩ => fun c => (R1.dat1 (Vof (Wb c)) ((K (F := F)).Otc c 0) (Rcn (F := F) c 0) c).toR
  | ⟨2, _⟩ => fun c => (R3.dat3 (Vof (Wd c)) ((K (F := F)).Otc c 1) (Rcn (F := F) c 1) c).toR
  | ⟨3, _⟩ => fun c => R4.rdat4 (Vof (We c)) ((K (F := F)).Otc c 1) (Rcn (F := F) c 1) c

/-- The table region's exit valuation: its arrays at what the pipeline leaves, every other buffer as entered. -/
def Wx0 (c : Dev nD) : Valuation τ sig (Elt F) :=
  Pipeline.withArrays spec0 c (Wa c) fun w => (R0.dat0 (Vof (Wa c)) ((K (F := F)).Otc c 0) (Rcn (F := F) c 0) c).arrAt w cfg0.N

theorem Wx0_arr (c : Dev nD) (w : Fin cfg0.W) :
    Wx0 Wa c (Proc.devRef .tc (Pipeline.arrRef spec0 w)) = (R0.dat0 (Vof (Wa c)) ((K (F := F)).Otc c 0) (Rcn (F := F) c 0) c).arrAt w cfg0.N := by
  unfold Wx0; exact Pipeline.withArrays_arr spec0 launch0.win.arr_inj c _ _ w
theorem Wx0_of_ne (c : Dev nD) (b : Ref sig .tc) (hb : ∀ w, Pipeline.arrRef spec0 w ≠ b) :
    Wx0 Wa c (Proc.devRef .tc b) = Wa c (Proc.devRef .tc b) := by
  unfold Wx0; exact Pipeline.withArrays_of_ne spec0 c _ _ b hb

/-! ## The regions as records -/

set_option backward.isDefEq.respectTransparency.types false in
/-- THE TABLE REGION over the thread state: entered with every unscoped buffer at `Wa`, left with them at `Wx0`. Its
    arrays come out of the unscoped buffers and go back at what the write-backs leave; the generator register goes
    into the invariant and comes out; the debt to the handshakes rides through, its recorded pairs bounded going in by
    the call's level and coming out by that and the pipeline's own wait pairs, which sit at level 0. -/
def reg0 : Pipeline.RDat.RegionSeg (pcfgs (F := F)) adm (rdats Wa Wb Wd We) (none : HIx 1) (defs₀ (F := F)) 𝒱₀
    (K (F := F)).L (K (F := F)).lev (0 : Fin 4) where
  win := launch0.win.to₀
  block_pos := launch0.block_pos
  stage_whole := launch0.stage_whole
  K := PEmpty
  osem k := k.elim
  ho := Pipeline.OwnSemFacts.none _
  hbody c := (R0.body_obligation0 (Vof (Wa c)) ((K (F := F)).Otc c 0) (Rcn (F := F) c 0) c).loose.toR
  hwaits c := Pipeline.RDat.cellsWaits_of_cut _ _ _ (0 : Fin 4) c 0 ((K (F := F)).Otc c 0) (fun _ => rfl)
    (fun _ _ => Finset.mem_univ _) (fun _ _ => Nat.le_refl 0) (Otc_pos c 0)
  pre c := iprop(held (T c) (Pipeline.ucRefs τ sig) (Wa c) ∗ Rr c 0)
  post c := iprop(held (T c) (Pipeline.ucRefs τ sig) (Wx0 Wa c) ∗ Rr c 0)
  X c := iprop(∃ r, prngReg c r)
  Y c := iprop(∃ r, prngReg c r)
  Z c := Pipeline.unscopedRest (Ix := HIx 1) (Name := ℕ) (U := UU) (Lvl := ℕ) spec0 c (Vof (Wa c) c)
  hentry c := by
    rw [Pipeline.ownSems0_none]
    have hsplit := Pipeline.RDat.arrays_of_unscopedBufs (p := (0 : Fin 4)) (pcfgs (F := F)) adm (rdats Wa Wb Wd We) launch0.win launch0.arr_whole c
      ((rdats Wa Wb Wd We 0 c).share_full fun _ => rfl) (Vof (Wa c) c) fun _ => rfl
    rw [Pipeline.unscopedBufs_held] at hsplit
    unfold Rr
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact sub_of_wbelow c 0 W _ hW
      iexact HO
    isplitl [Hp]; · iexact Hp
    iexact Hrest
  hin c := by
    rw [show (rdats Wa Wb Wd We 0 c).Φ 0 = R0.Φ0 c from rfl]; unfold R0.Φ0
    iintro ⟨Hp, -, Hr⟩
    isplitl [Hr]; · iexact Hr
    iexact Hp
  hout c := by
    rw [Pipeline.ownSems0_none, show (rdats Wa Wb Wd We 0 c).Φ (Fin.last _) = R0.Φ0 c from rfl]; unfold R0.Φ0
    iintro ⟨Hr, Hp⟩
    isplitl [Hp]; · iexact Hp
    isplitr; · iempintro
    iexact Hr
  hexit c := by
    have hjoin := unscopedBufs_of_rarrays (p := (0 : Fin 4)) launch0.win launch0.arr_whole c (rdats Wa Wb Wd We)
      ((rdats Wa Wb Wd We 0 c).share_full fun _ => rfl) (Vof (Wa c) c) (Vof (Wx0 Wa c) c)
      ((R0.dat0 (Vof (Wa c)) ((K (F := F)).Otc c 0) (Rcn (F := F) c 0) c).arrAt · cfg0.N)
      (fun w => (Wx0_arr Wa c w).symm)
      (fun b hb => Wx0_of_ne Wa c b fun w e => hb (Finset.mem_image.mpr ⟨w, Finset.mem_univ _, e⟩))
    rw [Pipeline.unscopedBufs_held] at hjoin
    have hjoin' : iprop((R0.dat0 (Vof (Wa c)) ((K (F := F)).Otc c 0) (Rcn (F := F) c 0) c).arrays
          ((R0.dat0 (Vof (Wa c)) ((K (F := F)).Otc c 0) (Rcn (F := F) c 0) c).arrAt · cfg0.N)
        ∗ Pipeline.unscopedRest (Ix := HIx 1) (Name := ℕ) (U := UU) (Lvl := ℕ) spec0 c (Vof (Wa c) c))
        ⊢ (held (T c) (Pipeline.ucRefs τ sig) (Wx0 Wa c) : sProp 𝕄) := hjoin
    rw [show (rdats Wa Wb Wd We 0 c).arraysAt (Pipeline.pin (pcfgs (F := F)) adm 0).N
        = (R0.dat0 (Vof (Wa c)) ((K (F := F)).Otc c 0) (Rcn (F := F) c 0) c).toR.arraysAt cfg0.N from rfl,
      Pipeline.Dat.toR_arraysAt_eq]
    unfold Rr
    iintro ⟨Ha, HO, HY, Hrest⟩
    imodintro
    isplitl [Ha Hrest]
    · iapply hjoin'
      isplitl [Ha]; · iexact Ha
      iexact Hrest
    isplitl [HY]; · iexact HY
    unfold Pipeline.RDat.owesAt Pipeline.owesWithin
    icases HO with ⟨%W, %hW, HO⟩
    iexists W; isplitr; · ipureintro; exact wbelow_of_sub c 0 _ W hW
    iexact HO

/-- The address region's exit valuation: its arrays at what the pipeline leaves, every other buffer as entered. -/
def Wx1 (c : Dev nD) : Valuation τ sig (Elt F) :=
  Pipeline.withArrays spec1 c (Wb c) fun w => (R1.dat1 (Vof (Wb c)) ((K (F := F)).Otc c 0) (Rcn (F := F) c 0) c).arrAt w cfg1.N

/-- The statistics region's exit valuation: its arrays at what the pipeline leaves, every other buffer as entered. -/
def Wx3 (c : Dev nD) : Valuation τ sig (Elt F) :=
  Pipeline.withArrays spec3 c (Wd c) fun w => (R3.dat3 (Vof (Wd c)) ((K (F := F)).Otc c 1) (Rcn (F := F) c 1) c).arrAt w cfg3.N

theorem Wx1_arr (c : Dev nD) (w : Fin cfg1.W) :
    Wx1 Wb c (Proc.devRef .tc (Pipeline.arrRef spec1 w)) = (R1.dat1 (Vof (Wb c)) ((K (F := F)).Otc c 0) (Rcn (F := F) c 0) c).arrAt w cfg1.N := by
  unfold Wx1; exact Pipeline.withArrays_arr spec1 launch1.win.arr_inj c _ _ w
theorem Wx1_of_ne (c : Dev nD) (b : Ref sig .tc) (hb : ∀ w, Pipeline.arrRef spec1 w ≠ b) :
    Wx1 Wb c (Proc.devRef .tc b) = Wb c (Proc.devRef .tc b) := by
  unfold Wx1; exact Pipeline.withArrays_of_ne spec1 c _ _ b hb

theorem Wx3_arr (c : Dev nD) (w : Fin cfg3.W) :
    Wx3 Wd c (Proc.devRef .tc (Pipeline.arrRef spec3 w)) = (R3.dat3 (Vof (Wd c)) ((K (F := F)).Otc c 1) (Rcn (F := F) c 1) c).arrAt w cfg3.N := by
  unfold Wx3; exact Pipeline.withArrays_arr spec3 launch3.win.arr_inj c _ _ w
theorem Wx3_of_ne (c : Dev nD) (b : Ref sig .tc) (hb : ∀ w, Pipeline.arrRef spec3 w ≠ b) :
    Wx3 Wd c (Proc.devRef .tc b) = Wd c (Proc.devRef .tc b) := by
  unfold Wx3; exact Pipeline.withArrays_of_ne spec3 c _ _ b hb

set_option backward.isDefEq.respectTransparency.types false in
/-- THE ADDRESS REGION over the thread state: entered with every unscoped buffer at `Wb`, left with them at `Wx1`,
    before the gather call (the start signals still owed). Its arrays come out of the unscoped buffers and go back at what the write-backs leave; the generator
    register goes into the invariant and comes out; what the core owes rides through, its recorded pairs bounded as in
    the table region's record. -/
def reg1 : Pipeline.RDat.RegionSeg (pcfgs (F := F)) adm (rdats Wa Wb Wd We) (none : HIx 1) (defs₀ (F := F)) 𝒱₀
    (K (F := F)).L (K (F := F)).lev (1 : Fin 4) where
  win := launch1.win.to₀
  block_pos := launch1.block_pos
  stage_whole := launch1.stage_whole
  K := PEmpty
  osem k := k.elim
  ho := Pipeline.OwnSemFacts.none _
  hbody c := (R1.body_obligation1 (Vof (Wb c)) ((K (F := F)).Otc c 0) (Rcn (F := F) c 0) c).loose.toR
  hwaits c := Pipeline.RDat.cellsWaits_of_cut _ _ _ (1 : Fin 4) c 0 ((K (F := F)).Otc c 0) (fun _ => rfl)
    (fun _ _ => Finset.mem_univ _) (fun _ _ => Nat.le_refl 0) (Otc_pos c 0)
  pre c := iprop(held (T c) (Pipeline.ucRefs τ sig) (Wb c) ∗ Rr c 0)
  post c := iprop(held (T c) (Pipeline.ucRefs τ sig) (Wx1 Wb c) ∗ Rr c 0)
  X c := iprop(∃ r, prngReg c r)
  Y c := iprop(∃ r, prngReg c r)
  Z c := Pipeline.unscopedRest (Ix := HIx 1) (Name := ℕ) (U := UU) (Lvl := ℕ) spec1 c (Vof (Wb c) c)
  hentry c := by
    rw [Pipeline.ownSems0_none]
    have hsplit := Pipeline.RDat.arrays_of_unscopedBufs (p := (1 : Fin 4)) (pcfgs (F := F)) adm (rdats Wa Wb Wd We) launch1.win launch1.arr_whole c
      ((rdats Wa Wb Wd We 1 c).share_full fun _ => rfl) (Vof (Wb c) c) fun _ => rfl
    rw [Pipeline.unscopedBufs_held] at hsplit
    unfold Rr
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact sub_of_wbelow c 0 W _ hW
      iexact HO
    isplitl [Hp]; · iexact Hp
    iexact Hrest
  hin c := by
    rw [show (rdats Wa Wb Wd We 1 c).Φ 0 = R1.Φ1 c from rfl]; unfold R1.Φ1
    iintro ⟨Hp, -, Hr⟩
    isplitl [Hr]; · iexact Hr
    iexact Hp
  hout c := by
    rw [Pipeline.ownSems0_none, show (rdats Wa Wb Wd We 1 c).Φ (Fin.last _) = R1.Φ1 c from rfl]; unfold R1.Φ1
    iintro ⟨Hr, Hp⟩
    isplitl [Hp]; · iexact Hp
    isplitr; · iempintro
    iexact Hr
  hexit c := by
    have hjoin := unscopedBufs_of_rarrays (p := (1 : Fin 4)) launch1.win launch1.arr_whole c (rdats Wa Wb Wd We)
      ((rdats Wa Wb Wd We 1 c).share_full fun _ => rfl) (Vof (Wb c) c) (Vof (Wx1 Wb c) c)
      ((R1.dat1 (Vof (Wb c)) ((K (F := F)).Otc c 0) (Rcn (F := F) c 0) c).arrAt · cfg1.N)
      (fun w => (Wx1_arr Wb c w).symm)
      (fun b hb => Wx1_of_ne Wb c b fun w e => hb (Finset.mem_image.mpr ⟨w, Finset.mem_univ _, e⟩))
    rw [Pipeline.unscopedBufs_held] at hjoin
    have hjoin' : iprop((R1.dat1 (Vof (Wb c)) ((K (F := F)).Otc c 0) (Rcn (F := F) c 0) c).arrays
          ((R1.dat1 (Vof (Wb c)) ((K (F := F)).Otc c 0) (Rcn (F := F) c 0) c).arrAt · cfg1.N)
        ∗ Pipeline.unscopedRest (Ix := HIx 1) (Name := ℕ) (U := UU) (Lvl := ℕ) spec1 c (Vof (Wb c) c))
        ⊢ (held (T c) (Pipeline.ucRefs τ sig) (Wx1 Wb c) : sProp 𝕄) := hjoin
    rw [show (rdats Wa Wb Wd We 1 c).arraysAt (Pipeline.pin (pcfgs (F := F)) adm 1).N
        = (R1.dat1 (Vof (Wb c)) ((K (F := F)).Otc c 0) (Rcn (F := F) c 0) c).toR.arraysAt cfg1.N from rfl,
      Pipeline.Dat.toR_arraysAt_eq]
    unfold Rr
    iintro ⟨Ha, HO, HY, Hrest⟩
    imodintro
    isplitl [Ha Hrest]
    · iapply hjoin'
      isplitl [Ha]; · iexact Ha
      iexact Hrest
    isplitl [HY]; · iexact HY
    unfold Pipeline.RDat.owesAt Pipeline.owesWithin
    icases HO with ⟨%W, %hW, HO⟩
    iexists W; isplitr; · ipureintro; exact wbelow_of_sub c 0 _ W hW
    iexact HO

set_option backward.isDefEq.respectTransparency.types false in
/-- THE STATISTICS REGION over the thread state: entered with every unscoped buffer at `Wd`, left with them at `Wx3`,
    after the gather call (nothing owed). Its arrays come out of the unscoped buffers and go back at what the write-backs leave; the generator
    register goes into the invariant and comes out; what the core owes rides through, its recorded pairs bounded as in
    the table region's record. -/
def reg3 : Pipeline.RDat.RegionSeg (pcfgs (F := F)) adm (rdats Wa Wb Wd We) (none : HIx 1) (defs₀ (F := F)) 𝒱₀
    (K (F := F)).L (K (F := F)).lev (2 : Fin 4) where
  win := launch3.win.to₀
  block_pos := launch3.block_pos
  stage_whole := launch3.stage_whole
  K := PEmpty
  osem k := k.elim
  ho := Pipeline.OwnSemFacts.none _
  hbody c := (R3.body_obligation3 (Vof (Wd c)) ((K (F := F)).Otc c 1) (Rcn (F := F) c 1) c).loose.toR
  hwaits c := Pipeline.RDat.cellsWaits_of_cut _ _ _ (2 : Fin 4) c 0 ((K (F := F)).Otc c 1) (fun _ => rfl)
    (fun _ _ => Finset.mem_univ _) (fun _ _ => Nat.le_refl 0) (Otc_pos c 1)
  pre c := iprop(held (T c) (Pipeline.ucRefs τ sig) (Wd c) ∗ Rr c 1)
  post c := iprop(held (T c) (Pipeline.ucRefs τ sig) (Wx3 Wd c) ∗ Rr c 1)
  X c := iprop(∃ r, prngReg c r)
  Y c := iprop(∃ r, prngReg c r)
  Z c := Pipeline.unscopedRest (Ix := HIx 1) (Name := ℕ) (U := UU) (Lvl := ℕ) spec3 c (Vof (Wd c) c)
  hentry c := by
    rw [Pipeline.ownSems0_none]
    have hsplit := Pipeline.RDat.arrays_of_unscopedBufs (p := (2 : Fin 4)) (pcfgs (F := F)) adm (rdats Wa Wb Wd We) launch3.win launch3.arr_whole c
      ((rdats Wa Wb Wd We 2 c).share_full fun _ => rfl) (Vof (Wd c) c) fun _ => rfl
    rw [Pipeline.unscopedBufs_held] at hsplit
    unfold Rr
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact sub_of_wbelow c 1 W _ hW
      iexact HO
    isplitl [Hp]; · iexact Hp
    iexact Hrest
  hin c := by
    rw [show (rdats Wa Wb Wd We 2 c).Φ 0 = R3.Φ3 c from rfl]; unfold R3.Φ3
    iintro ⟨Hp, -, Hr⟩
    isplitl [Hr]; · iexact Hr
    iexact Hp
  hout c := by
    rw [Pipeline.ownSems0_none, show (rdats Wa Wb Wd We 2 c).Φ (Fin.last _) = R3.Φ3 c from rfl]; unfold R3.Φ3
    iintro ⟨Hr, Hp⟩
    isplitl [Hp]; · iexact Hp
    isplitr; · iempintro
    iexact Hr
  hexit c := by
    have hjoin := unscopedBufs_of_rarrays (p := (2 : Fin 4)) launch3.win launch3.arr_whole c (rdats Wa Wb Wd We)
      ((rdats Wa Wb Wd We 2 c).share_full fun _ => rfl) (Vof (Wd c) c) (Vof (Wx3 Wd c) c)
      ((R3.dat3 (Vof (Wd c)) ((K (F := F)).Otc c 1) (Rcn (F := F) c 1) c).arrAt · cfg3.N)
      (fun w => (Wx3_arr Wd c w).symm)
      (fun b hb => Wx3_of_ne Wd c b fun w e => hb (Finset.mem_image.mpr ⟨w, Finset.mem_univ _, e⟩))
    rw [Pipeline.unscopedBufs_held] at hjoin
    have hjoin' : iprop((R3.dat3 (Vof (Wd c)) ((K (F := F)).Otc c 1) (Rcn (F := F) c 1) c).arrays
          ((R3.dat3 (Vof (Wd c)) ((K (F := F)).Otc c 1) (Rcn (F := F) c 1) c).arrAt · cfg3.N)
        ∗ Pipeline.unscopedRest (Ix := HIx 1) (Name := ℕ) (U := UU) (Lvl := ℕ) spec3 c (Vof (Wd c) c))
        ⊢ (held (T c) (Pipeline.ucRefs τ sig) (Wx3 Wd c) : sProp 𝕄) := hjoin
    rw [show (rdats Wa Wb Wd We 2 c).arraysAt (Pipeline.pin (pcfgs (F := F)) adm 2).N
        = (R3.dat3 (Vof (Wd c)) ((K (F := F)).Otc c 1) (Rcn (F := F) c 1) c).toR.arraysAt cfg3.N from rfl,
      Pipeline.Dat.toR_arraysAt_eq]
    unfold Rr
    iintro ⟨Ha, HO, HY, Hrest⟩
    imodintro
    isplitl [Ha Hrest]
    · iapply hjoin'
      isplitl [Ha]; · iexact Ha
      iexact Hrest
    isplitl [HY]; · iexact HY
    unfold Pipeline.RDat.owesAt Pipeline.owesWithin
    icases HO with ⟨%W, %hW, HO⟩
    iexists W; isplitr; · ipureintro; exact wbelow_of_sub c 1 _ W hW
    iexact HO

/-- The normalisation region's arrays at its exit: the four inputs as entered, the result at the normalised array of them. -/
def A4 (c : Dev nD) : (w : Fin cfg4.W) → Buf (Elt F) ((cfg4.win w).arr.view.loc (c.tc : Thread nD τ))
  | ⟨0, _⟩ => Vof (We c) c (Pipeline.arrRef spec4 0)
  | ⟨1, _⟩ => Vof (We c) c (Pipeline.arrRef spec4 1)
  | ⟨2, _⟩ => Vof (We c) c (Pipeline.arrRef spec4 2)
  | ⟨3, _⟩ => Vof (We c) c (Pipeline.arrRef spec4 3)
  | ⟨4, _⟩ => R4.normOf (Vof (We c) c main_v28) (Vof (We c) c main_v26) (Vof (We c) c main_v29) (Vof (We c) c main_v30)

/-- The normalisation region's exit valuation: its arrays at `A4`, every other buffer as entered. -/
def Wx4 (c : Dev nD) : Valuation τ sig (Elt F) := Pipeline.withArrays spec4 c (We c) (A4 We c)

theorem Wx4_arr (c : Dev nD) (w : Fin cfg4.W) : Wx4 We c (Proc.devRef .tc (Pipeline.arrRef spec4 w)) = A4 We c w := by
  unfold Wx4; exact Pipeline.withArrays_arr spec4 launch4.win.arr_inj c _ _ w
theorem Wx4_of_ne (c : Dev nD) (b : Ref sig .tc) (hb : ∀ w, Pipeline.arrRef spec4 w ≠ b) :
    Wx4 We c (Proc.devRef .tc b) = We c (Proc.devRef .tc b) := by
  unfold Wx4; exact Pipeline.withArrays_of_ne spec4 c _ _ b hb

/-- Whatever the normalisation region's arrays may hold after the last write-back is `A4`: an input array is never
    written, and the result array is the normalised array. -/
theorem ArrAt4 (c : Dev nD) (w : Fin cfg4.W) (Z : Buf (Elt F) ((cfg4.win w).arr.view.loc (c.tc : Thread nD τ)))
    (h : (R4.rdat4 (Vof (We c)) ((K (F := F)).Otc c 1) (Rcn (F := F) c 1) c).ArrAt w cfg4.N Z) : Z = A4 We c w := by
  match w with
  | ⟨0, _⟩ => exact (congrFun (Pipeline.RDat.ArrAt_in _ _ rfl cfg4.N) Z).mp h
  | ⟨1, _⟩ => exact (congrFun (Pipeline.RDat.ArrAt_in _ _ rfl cfg4.N) Z).mp h
  | ⟨2, _⟩ => exact (congrFun (Pipeline.RDat.ArrAt_in _ _ rfl cfg4.N) Z).mp h
  | ⟨3, _⟩ => exact (congrFun (Pipeline.RDat.ArrAt_in _ _ rfl cfg4.N) Z).mp h
  | ⟨4, _⟩ => exact R4.norm_of_ArrAt (Vof (We c)) _ _ c Z h

/-- So the arrays at whatever they may hold then are the arrays at `A4`. -/
theorem arraysAt4 (c : Dev nD) :
    (R4.rdat4 (Vof (We c)) ((K (F := F)).Otc c 1) (Rcn (F := F) c 1) c).arraysAt cfg4.N
      ⊢ ((R4.rdat4 (Vof (We c)) ((K (F := F)).Otc c 1) (Rcn (F := F) c 1) c).arrays (A4 We c) : sProp 𝕄) := by
  unfold Pipeline.RDat.arraysAt Pipeline.RDat.arrays
  exact BI.bigSep_mono fun w _ =>
    show iprop(∃ Z, ⌜(R4.rdat4 (Vof (We c)) ((K (F := F)).Otc c 1) (Rcn (F := F) c 1) c).ArrAt w cfg4.N Z⌝
          ∗ (cfg4.win w).arr.view.loc (c.tc : Thread nD τ) ↦[(cfg4.win w).arr.view.set]{(R4.rdat4 (Vof (We c)) ((K (F := F)).Otc c 1) (Rcn (F := F) c 1) c).share w} Z)
        ⊢ ((cfg4.win w).arr.view.loc (c.tc : Thread nD τ) ↦[(cfg4.win w).arr.view.set]{(R4.rdat4 (Vof (We c)) ((K (F := F)).Otc c 1) (Rcn (F := F) c 1) c).share w} A4 We c w : sProp 𝕄) from by
      iintro ⟨%Z, %hZ, H⟩
      have e := ArrAt4 We c w Z hZ
      subst e
      iexact H

set_option backward.isDefEq.respectTransparency.types false in
/-- THE NORMALISATION REGION over the thread state: entered with every unscoped buffer at `We`, left with them at `Wx4`,
    after the gather call (nothing owed). Its proof data constrains what the body leaves instead of naming it, so at
    the exit each array is held at some contents it may hold, and those are `A4`. -/
def reg4 : Pipeline.RDat.RegionSeg (pcfgs (F := F)) adm (rdats Wa Wb Wd We) (none : HIx 1) (defs₀ (F := F)) 𝒱₀
    (K (F := F)).L (K (F := F)).lev (3 : Fin 4) where
  win := launch4.win.to₀
  block_pos := launch4.block_pos
  stage_whole := launch4.stage_whole
  K := PEmpty
  osem k := k.elim
  ho := Pipeline.OwnSemFacts.none _
  hbody c := R4.body_obligation4 (Vof (We c)) ((K (F := F)).Otc c 1) (Rcn (F := F) c 1) c
  hwaits c := Pipeline.RDat.cellsWaits_of_cut _ _ _ (3 : Fin 4) c 0 ((K (F := F)).Otc c 1) (fun _ => rfl)
    (fun _ _ => Finset.mem_univ _) (fun _ _ => Nat.le_refl 0) (Otc_pos c 1)
  pre c := iprop(held (T c) (Pipeline.ucRefs τ sig) (We c) ∗ Rr c 1)
  post c := iprop(held (T c) (Pipeline.ucRefs τ sig) (Wx4 We c) ∗ Rr c 1)
  X c := iprop(∃ r, prngReg c r)
  Y c := iprop(∃ r, prngReg c r)
  Z c := Pipeline.unscopedRest (Ix := HIx 1) (Name := ℕ) (U := UU) (Lvl := ℕ) spec4 c (Vof (We c) c)
  hentry c := by
    rw [Pipeline.ownSems0_none]
    have hsplit := Pipeline.RDat.arrays_of_unscopedBufs (p := (3 : Fin 4)) (pcfgs (F := F)) adm (rdats Wa Wb Wd We) launch4.win launch4.arr_whole c
      ((rdats Wa Wb Wd We 3 c).share_full fun _ => rfl) (Vof (We c) c) fun _ => rfl
    rw [Pipeline.unscopedBufs_held] at hsplit
    unfold Rr
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact sub_of_wbelow c 1 W _ hW
      iexact HO
    isplitl [Hp]; · iexact Hp
    iexact Hrest
  hin c := by
    rw [show (rdats Wa Wb Wd We 3 c).Φ 0 = R4.Φ4 c from rfl]; unfold R4.Φ4
    iintro ⟨Hp, -, Hr⟩
    isplitl [Hr]; · iexact Hr
    iexact Hp
  hout c := by
    rw [Pipeline.ownSems0_none, show (rdats Wa Wb Wd We 3 c).Φ (Fin.last _) = R4.Φ4 c from rfl]; unfold R4.Φ4
    iintro ⟨Hr, Hp⟩
    isplitl [Hp]; · iexact Hp
    isplitr; · iempintro
    iexact Hr
  hexit c := by
    have hjoin := unscopedBufs_of_rarrays (p := (3 : Fin 4)) launch4.win launch4.arr_whole c (rdats Wa Wb Wd We)
      ((rdats Wa Wb Wd We 3 c).share_full fun _ => rfl) (Vof (We c) c) (Vof (Wx4 We c) c) (A4 We c)
      (fun w => (Wx4_arr We c w).symm)
      (fun b hb => Wx4_of_ne We c b fun w e => hb (Finset.mem_image.mpr ⟨w, Finset.mem_univ _, e⟩))
    rw [Pipeline.unscopedBufs_held] at hjoin
    have hjoin' : iprop((R4.rdat4 (Vof (We c)) ((K (F := F)).Otc c 1) (Rcn (F := F) c 1) c).arrays (A4 We c)
        ∗ Pipeline.unscopedRest (Ix := HIx 1) (Name := ℕ) (U := UU) (Lvl := ℕ) spec4 c (Vof (We c) c))
        ⊢ (held (T c) (Pipeline.ucRefs τ sig) (Wx4 We c) : sProp 𝕄) := hjoin
    have harr := arraysAt4 We c
    rw [show (rdats Wa Wb Wd We 3 c).arraysAt (Pipeline.pin (pcfgs (F := F)) adm 3).N
        = (R4.rdat4 (Vof (We c)) ((K (F := F)).Otc c 1) (Rcn (F := F) c 1) c).arraysAt cfg4.N from rfl]
    unfold Rr
    iintro ⟨Ha, HO, HY, Hrest⟩
    ihave Ha := harr $$ Ha
    imodintro
    isplitl [Ha Hrest]
    · iapply hjoin'
      isplitl [Ha]; · iexact Ha
      iexact Hrest
    isplitl [HY]; · iexact HY
    unfold Pipeline.RDat.owesAt Pipeline.owesWithin
    icases HO with ⟨%W, %hW, HO⟩
    iexists W; isplitr; · ipureintro; exact wbelow_of_sub c 1 _ W hW
    iexact HO

end Family

/-! ## The regions' steps -/

section Steps

variable (P : (K (F := F)).Pay (nD := nD) (Val := Elt F) (Name := ℕ) (U := UU)) (κ : GSem nD τ sig → ℕ)
variable (Wa Wb Wd We : Dev nD → Valuation τ sig (Elt F))

include Wb Wd We in
/-- The table region's step: from `Wa` to `Wx0`, entered before the gather call. -/
theorem step0 (d : Dev nD) : RegionStep P κ 0 0 d (Wa d) (Wx0 Wa d) :=
  region_step_of P κ (rdats Wa Wb Wd We) 0 0 d (Wa d) (Wx0 Wa d) (reg0 Wa Wb Wd We) rfl rfl

include Wa Wd We in
/-- The address region's step: from `Wb` to `Wx1`, entered before the gather call. -/
theorem step1 (d : Dev nD) : RegionStep P κ 1 0 d (Wb d) (Wx1 Wb d) :=
  region_step_of P κ (rdats Wa Wb Wd We) 1 0 d (Wb d) (Wx1 Wb d) (reg1 Wa Wb Wd We) rfl rfl

include Wa Wb We in
/-- The statistics region's step: from `Wd` to `Wx3`, entered after the gather call. -/
theorem step2 (d : Dev nD) : RegionStep P κ 2 1 d (Wd d) (Wx3 Wd d) :=
  region_step_of P κ (rdats Wa Wb Wd We) 2 1 d (Wd d) (Wx3 Wd d) (reg3 Wa Wb Wd We) rfl rfl

include Wa Wb Wd in
/-- The normalisation region's step: from `We` to `Wx4`, entered after the gather call. -/
theorem step3 (d : Dev nD) : RegionStep P κ 3 1 d (We d) (Wx4 We d) :=
  region_step_of P κ (rdats Wa Wb Wd We) 3 1 d (We d) (Wx4 We d) (reg4 Wa Wb Wd We) rfl rfl

end Steps

end Cert.Proof.KB

end
-- ==== Proof.ScFactsB.lean ====
/-
  Facts about the gather kernel's printed offsets and conditions, decided over the loops' trips.

  Chunk k = 10 g + b (group g, slot b) accumulates into rows (k mod 50) · 5 + t of the accumulation scratch, t the
  chunk's group of four rows, lanes 16 c … 16 c + 15 for the lane chunk c. Only the tenth slot's chunk can be the last
  of a part (k mod 50 = 49 needs b = 9), and it is when g mod 5 = 4; a slot is refilled unless the group is the last.
-/
import proofs.«207241_g55714315764006_cont_9to1c4b_410_29_alg».proof.Proof.Gen.Kernel
import Idealize.ShloMosaic.Lib.Tactic

namespace Cert.Proof.KB.Sc

open Cert.Kernel Cert.Kernel.Gen
open Idealize.ShloMosaic Idealize.ShloMosaic.Tactic Idealize.ShloMosaic.Tactic.Exec

/-! ## The conditions of a group's trip -/
theorem cond_out0 : ∀ t : Fin k2_t1_loop.trips, ¬ k2_cond1 t = 1#1 := by decide +kernel
theorem cond_out1 : ∀ t : Fin k2_t1_loop.trips, ¬ k2_cond3 t = 1#1 := by decide +kernel
theorem cond_out2 : ∀ t : Fin k2_t1_loop.trips, ¬ k2_cond5 t = 1#1 := by decide +kernel
theorem cond_out3 : ∀ t : Fin k2_t1_loop.trips, ¬ k2_cond7 t = 1#1 := by decide +kernel
theorem cond_out4 : ∀ t : Fin k2_t1_loop.trips, ¬ k2_cond9 t = 1#1 := by decide +kernel
theorem cond_out5 : ∀ t : Fin k2_t1_loop.trips, ¬ k2_cond11 t = 1#1 := by decide +kernel
theorem cond_out6 : ∀ t : Fin k2_t1_loop.trips, ¬ k2_cond13 t = 1#1 := by decide +kernel
theorem cond_out7 : ∀ t : Fin k2_t1_loop.trips, ¬ k2_cond15 t = 1#1 := by decide +kernel
theorem cond_out8 : ∀ t : Fin k2_t1_loop.trips, ¬ k2_cond17 t = 1#1 := by decide +kernel
theorem cond_out9_pos : ∀ t : Fin k2_t1_loop.trips, t.val % 5 = 4 → k2_cond19 t = 1#1 := by decide +kernel
theorem cond_out9_neg : ∀ t : Fin k2_t1_loop.trips, ¬ t.val % 5 = 4 → ¬ k2_cond19 t = 1#1 := by decide +kernel
theorem cond_re0_pos : ∀ t : Fin k2_t1_loop.trips, t.val < 24 → k2_cond2 t = 1#1 := by decide +kernel
theorem cond_re0_neg : ∀ t : Fin k2_t1_loop.trips, ¬ t.val < 24 → ¬ k2_cond2 t = 1#1 := by decide +kernel
theorem cond_re1_pos : ∀ t : Fin k2_t1_loop.trips, t.val < 24 → k2_cond4 t = 1#1 := by decide +kernel
theorem cond_re1_neg : ∀ t : Fin k2_t1_loop.trips, ¬ t.val < 24 → ¬ k2_cond4 t = 1#1 := by decide +kernel
theorem cond_re2_pos : ∀ t : Fin k2_t1_loop.trips, t.val < 24 → k2_cond6 t = 1#1 := by decide +kernel
theorem cond_re2_neg : ∀ t : Fin k2_t1_loop.trips, ¬ t.val < 24 → ¬ k2_cond6 t = 1#1 := by decide +kernel
theorem cond_re3_pos : ∀ t : Fin k2_t1_loop.trips, t.val < 24 → k2_cond8 t = 1#1 := by decide +kernel
theorem cond_re3_neg : ∀ t : Fin k2_t1_loop.trips, ¬ t.val < 24 → ¬ k2_cond8 t = 1#1 := by decide +kernel
theorem cond_re4_pos : ∀ t : Fin k2_t1_loop.trips, t.val < 24 → k2_cond10 t = 1#1 := by decide +kernel
theorem cond_re4_neg : ∀ t : Fin k2_t1_loop.trips, ¬ t.val < 24 → ¬ k2_cond10 t = 1#1 := by decide +kernel
theorem cond_re5_pos : ∀ t : Fin k2_t1_loop.trips, t.val < 24 → k2_cond12 t = 1#1 := by decide +kernel
theorem cond_re5_neg : ∀ t : Fin k2_t1_loop.trips, ¬ t.val < 24 → ¬ k2_cond12 t = 1#1 := by decide +kernel
theorem cond_re6_pos : ∀ t : Fin k2_t1_loop.trips, t.val < 24 → k2_cond14 t = 1#1 := by decide +kernel
theorem cond_re6_neg : ∀ t : Fin k2_t1_loop.trips, ¬ t.val < 24 → ¬ k2_cond14 t = 1#1 := by decide +kernel
theorem cond_re7_pos : ∀ t : Fin k2_t1_loop.trips, t.val < 24 → k2_cond16 t = 1#1 := by decide +kernel
theorem cond_re7_neg : ∀ t : Fin k2_t1_loop.trips, ¬ t.val < 24 → ¬ k2_cond16 t = 1#1 := by decide +kernel
theorem cond_re8_pos : ∀ t : Fin k2_t1_loop.trips, t.val < 24 → k2_cond18 t = 1#1 := by decide +kernel
theorem cond_re8_neg : ∀ t : Fin k2_t1_loop.trips, ¬ t.val < 24 → ¬ k2_cond18 t = 1#1 := by decide +kernel
theorem cond_re9_pos : ∀ t : Fin k2_t1_loop.trips, t.val < 24 → k2_cond20 t = 1#1 := by decide +kernel
theorem cond_re9_neg : ∀ t : Fin k2_t1_loop.trips, ¬ t.val < 24 → ¬ k2_cond20 t = 1#1 := by decide +kernel

/-! ## The loops' trip counts -/
theorem trips_t1 : k2_t1_loop.trips = 25 := by decide +kernel
theorem trips_t2 : k2_t2_loop.trips = 5 := by decide +kernel
theorem trips_t3 : k2_t3_loop.trips = 5 := by decide +kernel
theorem trips_t4 : k2_t4_loop.trips = 5 := by decide +kernel
theorem trips_t5 : k2_t5_loop.trips = 5 := by decide +kernel
theorem trips_t6 : k2_t6_loop.trips = 5 := by decide +kernel
theorem trips_t7 : k2_t7_loop.trips = 5 := by decide +kernel
theorem trips_t8 : k2_t8_loop.trips = 5 := by decide +kernel
theorem trips_t9 : k2_t9_loop.trips = 5 := by decide +kernel
theorem trips_t10 : k2_t10_loop.trips = 5 := by decide +kernel
theorem trips_t11 : k2_t11_loop.trips = 5 := by decide +kernel

/-! ## The accumulation scratch's offsets in closed form -/
theorem acc_off_0_0 : ∀ (k : Fin k2_t1_loop.trips) (t : Fin k2_t2_loop.trips), k2_off5 k t = ![((10 * k.val + 0) % 50) * 5 + t.val, 0] := by decide +kernel
instance closedOff_acc_0_0 (k : Fin k2_t1_loop.trips) (t : Fin k2_t2_loop.trips) : ClosedOff (k2_off5 k t) := ⟨_, acc_off_0_0 k t⟩
theorem acc_off_0_1 : ∀ (k : Fin k2_t1_loop.trips) (t : Fin k2_t2_loop.trips), k2_off8 k t = ![((10 * k.val + 0) % 50) * 5 + t.val, 16] := by decide +kernel
instance closedOff_acc_0_1 (k : Fin k2_t1_loop.trips) (t : Fin k2_t2_loop.trips) : ClosedOff (k2_off8 k t) := ⟨_, acc_off_0_1 k t⟩
theorem acc_off_0_2 : ∀ (k : Fin k2_t1_loop.trips) (t : Fin k2_t2_loop.trips), k2_off11 k t = ![((10 * k.val + 0) % 50) * 5 + t.val, 32] := by decide +kernel
instance closedOff_acc_0_2 (k : Fin k2_t1_loop.trips) (t : Fin k2_t2_loop.trips) : ClosedOff (k2_off11 k t) := ⟨_, acc_off_0_2 k t⟩
theorem acc_off_0_3 : ∀ (k : Fin k2_t1_loop.trips) (t : Fin k2_t2_loop.trips), k2_off14 k t = ![((10 * k.val + 0) % 50) * 5 + t.val, 48] := by decide +kernel
instance closedOff_acc_0_3 (k : Fin k2_t1_loop.trips) (t : Fin k2_t2_loop.trips) : ClosedOff (k2_off14 k t) := ⟨_, acc_off_0_3 k t⟩
theorem acc_off_0_4 : ∀ (k : Fin k2_t1_loop.trips) (t : Fin k2_t2_loop.trips), k2_off17 k t = ![((10 * k.val + 0) % 50) * 5 + t.val, 64] := by decide +kernel
instance closedOff_acc_0_4 (k : Fin k2_t1_loop.trips) (t : Fin k2_t2_loop.trips) : ClosedOff (k2_off17 k t) := ⟨_, acc_off_0_4 k t⟩
theorem acc_off_1_0 : ∀ (k : Fin k2_t1_loop.trips) (t : Fin k2_t3_loop.trips), k2_off22 k t = ![((10 * k.val + 1) % 50) * 5 + t.val, 0] := by decide +kernel
instance closedOff_acc_1_0 (k : Fin k2_t1_loop.trips) (t : Fin k2_t3_loop.trips) : ClosedOff (k2_off22 k t) := ⟨_, acc_off_1_0 k t⟩
theorem acc_off_1_1 : ∀ (k : Fin k2_t1_loop.trips) (t : Fin k2_t3_loop.trips), k2_off25 k t = ![((10 * k.val + 1) % 50) * 5 + t.val, 16] := by decide +kernel
instance closedOff_acc_1_1 (k : Fin k2_t1_loop.trips) (t : Fin k2_t3_loop.trips) : ClosedOff (k2_off25 k t) := ⟨_, acc_off_1_1 k t⟩
theorem acc_off_1_2 : ∀ (k : Fin k2_t1_loop.trips) (t : Fin k2_t3_loop.trips), k2_off28 k t = ![((10 * k.val + 1) % 50) * 5 + t.val, 32] := by decide +kernel
instance closedOff_acc_1_2 (k : Fin k2_t1_loop.trips) (t : Fin k2_t3_loop.trips) : ClosedOff (k2_off28 k t) := ⟨_, acc_off_1_2 k t⟩
theorem acc_off_1_3 : ∀ (k : Fin k2_t1_loop.trips) (t : Fin k2_t3_loop.trips), k2_off31 k t = ![((10 * k.val + 1) % 50) * 5 + t.val, 48] := by decide +kernel
instance closedOff_acc_1_3 (k : Fin k2_t1_loop.trips) (t : Fin k2_t3_loop.trips) : ClosedOff (k2_off31 k t) := ⟨_, acc_off_1_3 k t⟩
theorem acc_off_1_4 : ∀ (k : Fin k2_t1_loop.trips) (t : Fin k2_t3_loop.trips), k2_off34 k t = ![((10 * k.val + 1) % 50) * 5 + t.val, 64] := by decide +kernel
instance closedOff_acc_1_4 (k : Fin k2_t1_loop.trips) (t : Fin k2_t3_loop.trips) : ClosedOff (k2_off34 k t) := ⟨_, acc_off_1_4 k t⟩
theorem acc_off_2_0 : ∀ (k : Fin k2_t1_loop.trips) (t : Fin k2_t4_loop.trips), k2_off39 k t = ![((10 * k.val + 2) % 50) * 5 + t.val, 0] := by decide +kernel
instance closedOff_acc_2_0 (k : Fin k2_t1_loop.trips) (t : Fin k2_t4_loop.trips) : ClosedOff (k2_off39 k t) := ⟨_, acc_off_2_0 k t⟩
theorem acc_off_2_1 : ∀ (k : Fin k2_t1_loop.trips) (t : Fin k2_t4_loop.trips), k2_off42 k t = ![((10 * k.val + 2) % 50) * 5 + t.val, 16] := by decide +kernel
instance closedOff_acc_2_1 (k : Fin k2_t1_loop.trips) (t : Fin k2_t4_loop.trips) : ClosedOff (k2_off42 k t) := ⟨_, acc_off_2_1 k t⟩
theorem acc_off_2_2 : ∀ (k : Fin k2_t1_loop.trips) (t : Fin k2_t4_loop.trips), k2_off45 k t = ![((10 * k.val + 2) % 50) * 5 + t.val, 32] := by decide +kernel
instance closedOff_acc_2_2 (k : Fin k2_t1_loop.trips) (t : Fin k2_t4_loop.trips) : ClosedOff (k2_off45 k t) := ⟨_, acc_off_2_2 k t⟩
theorem acc_off_2_3 : ∀ (k : Fin k2_t1_loop.trips) (t : Fin k2_t4_loop.trips), k2_off48 k t = ![((10 * k.val + 2) % 50) * 5 + t.val, 48] := by decide +kernel
instance closedOff_acc_2_3 (k : Fin k2_t1_loop.trips) (t : Fin k2_t4_loop.trips) : ClosedOff (k2_off48 k t) := ⟨_, acc_off_2_3 k t⟩
theorem acc_off_2_4 : ∀ (k : Fin k2_t1_loop.trips) (t : Fin k2_t4_loop.trips), k2_off51 k t = ![((10 * k.val + 2) % 50) * 5 + t.val, 64] := by decide +kernel
instance closedOff_acc_2_4 (k : Fin k2_t1_loop.trips) (t : Fin k2_t4_loop.trips) : ClosedOff (k2_off51 k t) := ⟨_, acc_off_2_4 k t⟩
theorem acc_off_3_0 : ∀ (k : Fin k2_t1_loop.trips) (t : Fin k2_t5_loop.trips), k2_off56 k t = ![((10 * k.val + 3) % 50) * 5 + t.val, 0] := by decide +kernel
instance closedOff_acc_3_0 (k : Fin k2_t1_loop.trips) (t : Fin k2_t5_loop.trips) : ClosedOff (k2_off56 k t) := ⟨_, acc_off_3_0 k t⟩
theorem acc_off_3_1 : ∀ (k : Fin k2_t1_loop.trips) (t : Fin k2_t5_loop.trips), k2_off59 k t = ![((10 * k.val + 3) % 50) * 5 + t.val, 16] := by decide +kernel
instance closedOff_acc_3_1 (k : Fin k2_t1_loop.trips) (t : Fin k2_t5_loop.trips) : ClosedOff (k2_off59 k t) := ⟨_, acc_off_3_1 k t⟩
theorem acc_off_3_2 : ∀ (k : Fin k2_t1_loop.trips) (t : Fin k2_t5_loop.trips), k2_off62 k t = ![((10 * k.val + 3) % 50) * 5 + t.val, 32] := by decide +kernel
instance closedOff_acc_3_2 (k : Fin k2_t1_loop.trips) (t : Fin k2_t5_loop.trips) : ClosedOff (k2_off62 k t) := ⟨_, acc_off_3_2 k t⟩
theorem acc_off_3_3 : ∀ (k : Fin k2_t1_loop.trips) (t : Fin k2_t5_loop.trips), k2_off65 k t = ![((10 * k.val + 3) % 50) * 5 + t.val, 48] := by decide +kernel
instance closedOff_acc_3_3 (k : Fin k2_t1_loop.trips) (t : Fin k2_t5_loop.trips) : ClosedOff (k2_off65 k t) := ⟨_, acc_off_3_3 k t⟩
theorem acc_off_3_4 : ∀ (k : Fin k2_t1_loop.trips) (t : Fin k2_t5_loop.trips), k2_off68 k t = ![((10 * k.val + 3) % 50) * 5 + t.val, 64] := by decide +kernel
instance closedOff_acc_3_4 (k : Fin k2_t1_loop.trips) (t : Fin k2_t5_loop.trips) : ClosedOff (k2_off68 k t) := ⟨_, acc_off_3_4 k t⟩
theorem acc_off_4_0 : ∀ (k : Fin k2_t1_loop.trips) (t : Fin k2_t6_loop.trips), k2_off73 k t = ![((10 * k.val + 4) % 50) * 5 + t.val, 0] := by decide +kernel
instance closedOff_acc_4_0 (k : Fin k2_t1_loop.trips) (t : Fin k2_t6_loop.trips) : ClosedOff (k2_off73 k t) := ⟨_, acc_off_4_0 k t⟩
theorem acc_off_4_1 : ∀ (k : Fin k2_t1_loop.trips) (t : Fin k2_t6_loop.trips), k2_off76 k t = ![((10 * k.val + 4) % 50) * 5 + t.val, 16] := by decide +kernel
instance closedOff_acc_4_1 (k : Fin k2_t1_loop.trips) (t : Fin k2_t6_loop.trips) : ClosedOff (k2_off76 k t) := ⟨_, acc_off_4_1 k t⟩
theorem acc_off_4_2 : ∀ (k : Fin k2_t1_loop.trips) (t : Fin k2_t6_loop.trips), k2_off79 k t = ![((10 * k.val + 4) % 50) * 5 + t.val, 32] := by decide +kernel
instance closedOff_acc_4_2 (k : Fin k2_t1_loop.trips) (t : Fin k2_t6_loop.trips) : ClosedOff (k2_off79 k t) := ⟨_, acc_off_4_2 k t⟩
theorem acc_off_4_3 : ∀ (k : Fin k2_t1_loop.trips) (t : Fin k2_t6_loop.trips), k2_off82 k t = ![((10 * k.val + 4) % 50) * 5 + t.val, 48] := by decide +kernel
instance closedOff_acc_4_3 (k : Fin k2_t1_loop.trips) (t : Fin k2_t6_loop.trips) : ClosedOff (k2_off82 k t) := ⟨_, acc_off_4_3 k t⟩
theorem acc_off_4_4 : ∀ (k : Fin k2_t1_loop.trips) (t : Fin k2_t6_loop.trips), k2_off85 k t = ![((10 * k.val + 4) % 50) * 5 + t.val, 64] := by decide +kernel
instance closedOff_acc_4_4 (k : Fin k2_t1_loop.trips) (t : Fin k2_t6_loop.trips) : ClosedOff (k2_off85 k t) := ⟨_, acc_off_4_4 k t⟩
theorem acc_off_5_0 : ∀ (k : Fin k2_t1_loop.trips) (t : Fin k2_t7_loop.trips), k2_off90 k t = ![((10 * k.val + 5) % 50) * 5 + t.val, 0] := by decide +kernel
instance closedOff_acc_5_0 (k : Fin k2_t1_loop.trips) (t : Fin k2_t7_loop.trips) : ClosedOff (k2_off90 k t) := ⟨_, acc_off_5_0 k t⟩
theorem acc_off_5_1 : ∀ (k : Fin k2_t1_loop.trips) (t : Fin k2_t7_loop.trips), k2_off93 k t = ![((10 * k.val + 5) % 50) * 5 + t.val, 16] := by decide +kernel
instance closedOff_acc_5_1 (k : Fin k2_t1_loop.trips) (t : Fin k2_t7_loop.trips) : ClosedOff (k2_off93 k t) := ⟨_, acc_off_5_1 k t⟩
theorem acc_off_5_2 : ∀ (k : Fin k2_t1_loop.trips) (t : Fin k2_t7_loop.trips), k2_off96 k t = ![((10 * k.val + 5) % 50) * 5 + t.val, 32] := by decide +kernel
instance closedOff_acc_5_2 (k : Fin k2_t1_loop.trips) (t : Fin k2_t7_loop.trips) : ClosedOff (k2_off96 k t) := ⟨_, acc_off_5_2 k t⟩
theorem acc_off_5_3 : ∀ (k : Fin k2_t1_loop.trips) (t : Fin k2_t7_loop.trips), k2_off99 k t = ![((10 * k.val + 5) % 50) * 5 + t.val, 48] := by decide +kernel
instance closedOff_acc_5_3 (k : Fin k2_t1_loop.trips) (t : Fin k2_t7_loop.trips) : ClosedOff (k2_off99 k t) := ⟨_, acc_off_5_3 k t⟩
theorem acc_off_5_4 : ∀ (k : Fin k2_t1_loop.trips) (t : Fin k2_t7_loop.trips), k2_off102 k t = ![((10 * k.val + 5) % 50) * 5 + t.val, 64] := by decide +kernel
instance closedOff_acc_5_4 (k : Fin k2_t1_loop.trips) (t : Fin k2_t7_loop.trips) : ClosedOff (k2_off102 k t) := ⟨_, acc_off_5_4 k t⟩
theorem acc_off_6_0 : ∀ (k : Fin k2_t1_loop.trips) (t : Fin k2_t8_loop.trips), k2_off107 k t = ![((10 * k.val + 6) % 50) * 5 + t.val, 0] := by decide +kernel
instance closedOff_acc_6_0 (k : Fin k2_t1_loop.trips) (t : Fin k2_t8_loop.trips) : ClosedOff (k2_off107 k t) := ⟨_, acc_off_6_0 k t⟩
theorem acc_off_6_1 : ∀ (k : Fin k2_t1_loop.trips) (t : Fin k2_t8_loop.trips), k2_off110 k t = ![((10 * k.val + 6) % 50) * 5 + t.val, 16] := by decide +kernel
instance closedOff_acc_6_1 (k : Fin k2_t1_loop.trips) (t : Fin k2_t8_loop.trips) : ClosedOff (k2_off110 k t) := ⟨_, acc_off_6_1 k t⟩
theorem acc_off_6_2 : ∀ (k : Fin k2_t1_loop.trips) (t : Fin k2_t8_loop.trips), k2_off113 k t = ![((10 * k.val + 6) % 50) * 5 + t.val, 32] := by decide +kernel
instance closedOff_acc_6_2 (k : Fin k2_t1_loop.trips) (t : Fin k2_t8_loop.trips) : ClosedOff (k2_off113 k t) := ⟨_, acc_off_6_2 k t⟩
theorem acc_off_6_3 : ∀ (k : Fin k2_t1_loop.trips) (t : Fin k2_t8_loop.trips), k2_off116 k t = ![((10 * k.val + 6) % 50) * 5 + t.val, 48] := by decide +kernel
instance closedOff_acc_6_3 (k : Fin k2_t1_loop.trips) (t : Fin k2_t8_loop.trips) : ClosedOff (k2_off116 k t) := ⟨_, acc_off_6_3 k t⟩
theorem acc_off_6_4 : ∀ (k : Fin k2_t1_loop.trips) (t : Fin k2_t8_loop.trips), k2_off119 k t = ![((10 * k.val + 6) % 50) * 5 + t.val, 64] := by decide +kernel
instance closedOff_acc_6_4 (k : Fin k2_t1_loop.trips) (t : Fin k2_t8_loop.trips) : ClosedOff (k2_off119 k t) := ⟨_, acc_off_6_4 k t⟩
theorem acc_off_7_0 : ∀ (k : Fin k2_t1_loop.trips) (t : Fin k2_t9_loop.trips), k2_off124 k t = ![((10 * k.val + 7) % 50) * 5 + t.val, 0] := by decide +kernel
instance closedOff_acc_7_0 (k : Fin k2_t1_loop.trips) (t : Fin k2_t9_loop.trips) : ClosedOff (k2_off124 k t) := ⟨_, acc_off_7_0 k t⟩
theorem acc_off_7_1 : ∀ (k : Fin k2_t1_loop.trips) (t : Fin k2_t9_loop.trips), k2_off127 k t = ![((10 * k.val + 7) % 50) * 5 + t.val, 16] := by decide +kernel
instance closedOff_acc_7_1 (k : Fin k2_t1_loop.trips) (t : Fin k2_t9_loop.trips) : ClosedOff (k2_off127 k t) := ⟨_, acc_off_7_1 k t⟩
theorem acc_off_7_2 : ∀ (k : Fin k2_t1_loop.trips) (t : Fin k2_t9_loop.trips), k2_off130 k t = ![((10 * k.val + 7) % 50) * 5 + t.val, 32] := by decide +kernel
instance closedOff_acc_7_2 (k : Fin k2_t1_loop.trips) (t : Fin k2_t9_loop.trips) : ClosedOff (k2_off130 k t) := ⟨_, acc_off_7_2 k t⟩
theorem acc_off_7_3 : ∀ (k : Fin k2_t1_loop.trips) (t : Fin k2_t9_loop.trips), k2_off133 k t = ![((10 * k.val + 7) % 50) * 5 + t.val, 48] := by decide +kernel
instance closedOff_acc_7_3 (k : Fin k2_t1_loop.trips) (t : Fin k2_t9_loop.trips) : ClosedOff (k2_off133 k t) := ⟨_, acc_off_7_3 k t⟩
theorem acc_off_7_4 : ∀ (k : Fin k2_t1_loop.trips) (t : Fin k2_t9_loop.trips), k2_off136 k t = ![((10 * k.val + 7) % 50) * 5 + t.val, 64] := by decide +kernel
instance closedOff_acc_7_4 (k : Fin k2_t1_loop.trips) (t : Fin k2_t9_loop.trips) : ClosedOff (k2_off136 k t) := ⟨_, acc_off_7_4 k t⟩
theorem acc_off_8_0 : ∀ (k : Fin k2_t1_loop.trips) (t : Fin k2_t10_loop.trips), k2_off141 k t = ![((10 * k.val + 8) % 50) * 5 + t.val, 0] := by decide +kernel
instance closedOff_acc_8_0 (k : Fin k2_t1_loop.trips) (t : Fin k2_t10_loop.trips) : ClosedOff (k2_off141 k t) := ⟨_, acc_off_8_0 k t⟩
theorem acc_off_8_1 : ∀ (k : Fin k2_t1_loop.trips) (t : Fin k2_t10_loop.trips), k2_off144 k t = ![((10 * k.val + 8) % 50) * 5 + t.val, 16] := by decide +kernel
instance closedOff_acc_8_1 (k : Fin k2_t1_loop.trips) (t : Fin k2_t10_loop.trips) : ClosedOff (k2_off144 k t) := ⟨_, acc_off_8_1 k t⟩
theorem acc_off_8_2 : ∀ (k : Fin k2_t1_loop.trips) (t : Fin k2_t10_loop.trips), k2_off147 k t = ![((10 * k.val + 8) % 50) * 5 + t.val, 32] := by decide +kernel
instance closedOff_acc_8_2 (k : Fin k2_t1_loop.trips) (t : Fin k2_t10_loop.trips) : ClosedOff (k2_off147 k t) := ⟨_, acc_off_8_2 k t⟩
theorem acc_off_8_3 : ∀ (k : Fin k2_t1_loop.trips) (t : Fin k2_t10_loop.trips), k2_off150 k t = ![((10 * k.val + 8) % 50) * 5 + t.val, 48] := by decide +kernel
instance closedOff_acc_8_3 (k : Fin k2_t1_loop.trips) (t : Fin k2_t10_loop.trips) : ClosedOff (k2_off150 k t) := ⟨_, acc_off_8_3 k t⟩
theorem acc_off_8_4 : ∀ (k : Fin k2_t1_loop.trips) (t : Fin k2_t10_loop.trips), k2_off153 k t = ![((10 * k.val + 8) % 50) * 5 + t.val, 64] := by decide +kernel
instance closedOff_acc_8_4 (k : Fin k2_t1_loop.trips) (t : Fin k2_t10_loop.trips) : ClosedOff (k2_off153 k t) := ⟨_, acc_off_8_4 k t⟩
theorem acc_off_9_0 : ∀ (k : Fin k2_t1_loop.trips) (t : Fin k2_t11_loop.trips), k2_off158 k t = ![((10 * k.val + 9) % 50) * 5 + t.val, 0] := by decide +kernel
instance closedOff_acc_9_0 (k : Fin k2_t1_loop.trips) (t : Fin k2_t11_loop.trips) : ClosedOff (k2_off158 k t) := ⟨_, acc_off_9_0 k t⟩
theorem acc_off_9_1 : ∀ (k : Fin k2_t1_loop.trips) (t : Fin k2_t11_loop.trips), k2_off161 k t = ![((10 * k.val + 9) % 50) * 5 + t.val, 16] := by decide +kernel
instance closedOff_acc_9_1 (k : Fin k2_t1_loop.trips) (t : Fin k2_t11_loop.trips) : ClosedOff (k2_off161 k t) := ⟨_, acc_off_9_1 k t⟩
theorem acc_off_9_2 : ∀ (k : Fin k2_t1_loop.trips) (t : Fin k2_t11_loop.trips), k2_off164 k t = ![((10 * k.val + 9) % 50) * 5 + t.val, 32] := by decide +kernel
instance closedOff_acc_9_2 (k : Fin k2_t1_loop.trips) (t : Fin k2_t11_loop.trips) : ClosedOff (k2_off164 k t) := ⟨_, acc_off_9_2 k t⟩
theorem acc_off_9_3 : ∀ (k : Fin k2_t1_loop.trips) (t : Fin k2_t11_loop.trips), k2_off167 k t = ![((10 * k.val + 9) % 50) * 5 + t.val, 48] := by decide +kernel
instance closedOff_acc_9_3 (k : Fin k2_t1_loop.trips) (t : Fin k2_t11_loop.trips) : ClosedOff (k2_off167 k t) := ⟨_, acc_off_9_3 k t⟩
theorem acc_off_9_4 : ∀ (k : Fin k2_t1_loop.trips) (t : Fin k2_t11_loop.trips), k2_off170 k t = ![((10 * k.val + 9) % 50) * 5 + t.val, 64] := by decide +kernel
instance closedOff_acc_9_4 (k : Fin k2_t1_loop.trips) (t : Fin k2_t11_loop.trips) : ClosedOff (k2_off170 k t) := ⟨_, acc_off_9_4 k t⟩

end Cert.Proof.KB.Sc
-- ==== Proof.ScDefsB.lean ====
/-
  The gather kernel's tile task: the operands' split, the value, and the vocabulary of the ring's invariant.

  Thirty-two workers — vector subcore s of SparseCore c is worker 2 s + c — each own one slab of the address array
  (250 chunks of 20 addresses) and one slab of the output (5 parts of 250 rows of 80 lanes). A worker copies its
  address slab into its scratch, then for each chunk k gathers the twenty table rows the chunk names and stores, for
  each of the chunk's five groups of four consecutive rows, the sum ((r₀ + r₁) + (r₂ + r₃)) of the group's first 80
  lanes into row (k mod 50) · 5 + group of an accumulation scratch, which it copies out to part k div 50 of its output
  slab after every fiftieth chunk. The gathers run ten deep, chunk k in slot k mod 10, each slot on a semaphore of
  its own, so that on every semaphore one transfer is outstanding at a time.

  The table is read whole by every worker: it is dealt as read shares, one per SparseCore, cut again one per vector
  subcore. The address array and the output are dealt by slabs, which are disjoint and cover them.
-/
import proofs.«207241_g55714315764006_cont_9to1c4b_410_29_alg».proof.Proof.SetupKB
import proofs.«207241_g55714315764006_cont_9to1c4b_410_29_alg».proof.Proof.Gen.Kernel.Skeleton
import proofs.«207241_g55714315764006_cont_9to1c4b_410_29_alg».proof.Proof.ScFactsB
import Idealize.ShloMosaic.Lib.SparseCore.Launch
import Idealize.ShloMosaic.Lib.SparseCore.Stream
import Idealize.ShloMosaic.Lib.Pipeline.Kit
import Idealize.ShloMosaic.Lib.Transfers
import Idealize.ShloMosaic.Lib.Tactic

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The three arrays, the workers, the slabs -/

/-- The table, the address array and the output, as the TensorCore names them on device `d`. -/
abbrev tLoc (d : Dev nD) : Loc nD τ sig := (SparseCore.T d).loc main_v3
abbrev aLoc (d : Dev nD) : Loc nD τ sig := (SparseCore.T d).loc main_v23
abbrev oLoc (d : Dev nD) : Loc nD τ sig := (SparseCore.T d).loc main_v24

abbrev tV : Memref sig .scVector .hbm S78848x128 .f32 := Memref.whole main_v3_scv
abbrev aV : Memref sig .scVector .hbm S32x250x20 .i32 := Memref.whole main_v23_scv
abbrev oV : Memref sig .scVector .hbm S32x5x250x80 .f32 := Memref.whole main_v24_scv

/-- Worker `2 s + c`. -/
def wk (c : Fin 2) (s : Fin 16) : Fin 32 := ⟨2 * s.val + c.val, by omega⟩

/-- The workers are the pairs (SparseCore, vector subcore). -/
def wkEquiv : Fin 2 × Fin 16 ≃ Fin 32 where
  toFun p := wk p.1 p.2
  invFun w := (⟨w.val % 2, Nat.mod_lt _ (by decide)⟩, ⟨w.val / 2, by omega⟩)
  left_inv p := by
    rcases p with ⟨c, s⟩
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

theorem hdivA : 32 ∣ S32x250x20.size 0 := ⟨1, rfl⟩
theorem hdivO : 32 ∣ S32x5x250x80.size 0 := ⟨1, rfl⟩
/-- Worker `w`'s slab of the address array and of the output: index `w` on the leading axis. -/
abbrev aSlab (w : Fin 32) : Rect S32x250x20 := Rect.part (s := S32x250x20) (a₀ := 0) hdivA w
abbrev oSlab (w : Fin 32) : Rect S32x5x250x80 := Rect.part (s := S32x5x250x80) (a₀ := 0) hdivO w
abbrev aSet (w : Fin 32) : Finset S32x250x20.Idx := ((aV : Memref sig .scVector .hbm S32x250x20 .i32).view.slice (aSlab w)).set
abbrev oSet (w : Fin 32) : Finset S32x5x250x80.Idx := ((oV : Memref sig .scVector .hbm S32x5x250x80 .f32).view.slice (oSlab w)).set

/-- The table's read share of SparseCore `c`, and of its vector subcore `s`. -/
def qC (c : Fin 2) : PosShare TreeShare := piece fullShare 1 c
def qT (c : Fin 2) (s : Fin 16) : PosShare TreeShare := piece (qC c) 15 s

/-! ## The operands' contents and the value -/

variable (tab : (d : Dev nD) → Buf (Elt F) (tLoc d)) (adr : (d : Dev nD) → Buf (Elt F) (aLoc d))

/-- Every address names a row of the table. -/
def AdrOK : Prop := ∀ (d : Dev nD) (j : Idx (aLoc d)), (adr d j).toNat < 78848

def tIx (r : Fin 78848) (l : Fin 128) : S78848x128.Idx := fun | 0 => r | 1 => l | ⟨_ + 2, h⟩ => absurd h (Nat.not_lt.2 (Nat.le_add_left _ _))
def aIx (w : Fin 32) (k : Fin 250) (j : Fin 20) : S32x250x20.Idx :=
  fun | 0 => w | 1 => k | 2 => j | ⟨_ + 3, h⟩ => absurd h (Nat.not_lt.2 (Nat.le_add_left _ _))

variable [FloatOps F]

/-- The table row that address `j` of chunk `k` of worker `w` names, at lane `l`. -/
def rowAt (d : Dev nD) (w : Fin 32) (k : Fin 250) (j : Fin 20) (l : Fin 128) : Elt F .f32 :=
  tab d (tIx ⟨(adr d (aIx w k j)).toNat % 78848, Nat.mod_lt _ (by decide)⟩ l)

/-- The output: entry (w, p, r, l) is ((t₀ + t₁) + (t₂ + t₃)), `tⱼ` lane `l` of the table row that address
    `4 (r mod 5) + j` of chunk `50 p + r div 5` of worker `w` names. -/
def gathered (d : Dev nD) : Buf (Elt F) (oLoc d) := fun x =>
  have hp : (x 1).val < 5 := (x 1).isLt
  have hr : (x 2).val < 250 := (x 2).isLt
  have hl : (x 3).val < 80 := (x 3).isLt
  let w : Fin 32 := x 0
  let k : Fin 250 := ⟨50 * (x 1).val + (x 2).val / 5, by omega⟩
  let l : Fin 128 := ⟨(x 3).val, by omega⟩
  let t (j : Fin 4) : Elt F .f32 := rowAt tab adr d w k ⟨4 * ((x 2).val % 5) + j.val, by omega⟩ l
  FloatOps.addf (φ := .f32) (FloatOps.addf (φ := .f32) (t 0) (t 1)) (FloatOps.addf (φ := .f32) (t 2) (t 3))

/-! ## What the handshakes carry -/

abbrev cC (c : Fin ((K (F := F)).nCore 0)) : Fin 2 := Fin.cast nCore_zero c
abbrev sS (s : Fin ((K (F := F)).nSub 0)) : Fin 16 := Fin.cast nSub_zero s

/-- The table at a read share; a slab of the address array at its contents; a slab of the output. -/
abbrev tPts (d : Dev nD) (q : PosShare TreeShare) : sProp 𝕄 := tLoc d ↦{q} tab d
abbrev aPts (d : Dev nD) (w : Fin 32) : sProp 𝕄 := aLoc d ↦[aSet w]{fullShare} adr d
abbrev oPts (d : Dev nD) (w : Fin 32) (f : Buf (Elt F) (oLoc d)) : sProp 𝕄 := oLoc d ↦[oSet w]{fullShare} f

/-- The call hands SparseCore `c` its read share of the table and its sixteen workers' slabs; vector subcore `s` of it
    gets its own read share and worker `2 s + c`'s two slabs, and hands them back with the output slab at the value. -/
def P : (K (F := F)).Pay (nD := nD) (Val := Elt F) (Name := ℕ) (U := UU) where
  st := fun q d c => match q with
    | 0 => iprop(tPts tab d (qC (cC c)) ∗ (bigSep Finset.univ fun s : Fin 16 => aPts adr d (wk (cC c) s))
        ∗ bigSep Finset.univ fun s : Fin 16 => iprop(∃ f, oPts d (wk (cC c) s) f))
  dn := fun q d c => match q with
    | 0 => iprop(tPts tab d (qC (cC c)) ∗ (bigSep Finset.univ fun s : Fin 16 => aPts adr d (wk (cC c) s))
        ∗ bigSep Finset.univ fun s : Fin 16 => oPts d (wk (cC c) s) (gathered tab adr d))
  go := fun q d c s => match q with
    | 0 => iprop(tPts tab d (qT (cC c) (sS s)) ∗ aPts adr d (wk (cC c) (sS s)) ∗ ∃ f, oPts d (wk (cC c) (sS s)) f)
  td := fun q d c s => match q with
    | 0 => iprop(tPts tab d (qT (cC c) (sS s)) ∗ aPts adr d (wk (cC c) (sS s)) ∗ oPts d (wk (cC c) (sS s)) (gathered tab adr d))
  x := fun _ _ => iprop(emp)

instance P_storable : (P (F := F) tab adr).IsStorable where
  st q d c := match q with
    | 0 => (inferInstance : BI.Storable (upEmb : UEmb _ 𝕄) iprop(tPts tab d (qC (cC c)) ∗ (bigSep Finset.univ fun s : Fin 16 => aPts adr d (wk (cC c) s))
        ∗ bigSep Finset.univ fun s : Fin 16 => iprop(∃ f, oPts d (wk (cC c) s) f)))
  dn q d c := match q with
    | 0 => (inferInstance : BI.Storable (upEmb : UEmb _ 𝕄) iprop(tPts tab d (qC (cC c)) ∗ (bigSep Finset.univ fun s : Fin 16 => aPts adr d (wk (cC c) s))
        ∗ bigSep Finset.univ fun s : Fin 16 => oPts d (wk (cC c) s) (gathered tab adr d)))
  go q d c s := match q with
    | 0 => (inferInstance : BI.Storable (upEmb : UEmb _ 𝕄)
        iprop(tPts tab d (qT (cC c) (sS s)) ∗ aPts adr d (wk (cC c) (sS s)) ∗ ∃ f, oPts d (wk (cC c) (sS s)) f))
  td q d c s := match q with
    | 0 => (inferInstance : BI.Storable (upEmb : UEmb _ 𝕄)
        iprop(tPts tab d (qT (cC c) (sS s)) ∗ aPts adr d (wk (cC c) (sS s)) ∗ oPts d (wk (cC c) (sS s)) (gathered tab adr d)))

/-! ## A tile's task: the set-up -/

section Tile

variable (d : Dev nD) (L : grid2.Coords)

abbrev cV (L : grid2.Coords) : Fin τ.nSC := (L 0).castLE hcore2
abbrev jV (L : grid2.Coords) : Fin τ.nSub := (L 1).castLE hsub2
omit [FloatOps F] in
theorem bound_zero : grid2.bound 0 = 2 := rfl
omit [FloatOps F] in
theorem bound_one : grid2.bound 1 = 16 := rfl
abbrev cL (L : grid2.Coords) : Fin 2 := Fin.cast bound_zero (L 0)
abbrev sL (L : grid2.Coords) : Fin 16 := Fin.cast bound_one (L 1)
/-- The tile's worker number. -/
abbrev wL (L : grid2.Coords) : Fin 32 := wk (cL L) (sL L)

/-- The tile's scratch: the address slab, the ring of ten slots, the accumulated rows. -/
abbrev sA : Memref sig .scVector .vmem S250x20 .i32 := Memref.whole cc2_scratch0
abbrev sR : Memref sig .scVector .vmem S10x20x128 .f32 := Memref.whole cc2_scratch1
abbrev sY : Memref sig .scVector .vmem S250x80 .f32 := Memref.whole cc2_scratch2

/-- The tile's twenty-one DMA semaphores: the ten slots', the address copy's, the ten copy-outs'. -/
def semOf : Fin 21 → DmaSem sig
  | 0 => cc2_scratch3.sem
  | 1 => cc2_scratch4.sem
  | 2 => cc2_scratch5.sem
  | 3 => cc2_scratch6.sem
  | 4 => cc2_scratch7.sem
  | 5 => cc2_scratch8.sem
  | 6 => cc2_scratch9.sem
  | 7 => cc2_scratch10.sem
  | 8 => cc2_scratch11.sem
  | 9 => cc2_scratch12.sem
  | 10 => cc2_scoped0.sem
  | 11 => cc2_scoped1.sem
  | 12 => cc2_scoped2.sem
  | 13 => cc2_scoped3.sem
  | 14 => cc2_scoped4.sem
  | 15 => cc2_scoped5.sem
  | 16 => cc2_scoped6.sem
  | 17 => cc2_scoped7.sem
  | 18 => cc2_scoped8.sem
  | 19 => cc2_scoped9.sem
  | 20 => cc2_scoped10.sem
  | ⟨_ + 21, h⟩ => absurd h (by omega)

omit [FloatOps F] in
theorem semOf_inj : Function.Injective semOf := by decide
omit [FloatOps F] in
theorem semOf_scoped : ∀ i : Fin 21, (SemLoc.dma (semOf i) : SemLoc sig).isScoped .scVector = true := by decide

def semCell (i : Fin 21) : GSem nD τ sig := (V d (cV L) (jV L), SemLoc.dma (semOf i))
omit [FloatOps F] in
theorem semCell_inj : Function.Injective (semCell d L) := fun i j h => semOf_inj (SemLoc.dma.inj (Prod.mk.inj h).2)
def semCells : Finset (GSem nD τ sig) := Finset.univ.map ⟨semCell d L, semCell_inj d L⟩

omit [FloatOps F] in
theorem bigSep_fin21 (Φ : Fin 21 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) := by
  rw [show (Finset.univ : Finset (Fin 21)) = {0, 1, 2, 3, 4, 5, 6, 7, 8, 9, 10, 11, 12, 13, 14, 15, 16, 17, 18, 19, 20} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    bigSep_insert (by decide), bigSep_insert (by decide), bigSep_insert (by decide), bigSep_insert (by decide), bigSep_insert (by decide), bigSep_insert (by decide), bigSep_insert (by decide), bigSep_insert (by decide), bigSep_insert (by decide), bigSep_singleton]
  rfl

omit [FloatOps F] in
/-- Twenty read tokens: the ten numbered as the slots' semaphores are, and the first ten. -/
theorem bigSep_range20 (Φ : ℕ → sProp 𝕄) :
    bigSep (Finset.range 20) Φ = iprop(Φ 19 ∗ Φ 18 ∗ Φ 17 ∗ Φ 16 ∗ Φ 15 ∗ Φ 14 ∗ Φ 13 ∗ Φ 12 ∗ Φ 11 ∗ Φ 10 ∗ bigSep (Finset.range 10) Φ) := by
  rw [Finset.range_add_one (n := 19), bigSep_insert Finset.notMem_range_self,
    Finset.range_add_one (n := 18), bigSep_insert Finset.notMem_range_self,
    Finset.range_add_one (n := 17), bigSep_insert Finset.notMem_range_self,
    Finset.range_add_one (n := 16), bigSep_insert Finset.notMem_range_self,
    Finset.range_add_one (n := 15), bigSep_insert Finset.notMem_range_self,
    Finset.range_add_one (n := 14), bigSep_insert Finset.notMem_range_self,
    Finset.range_add_one (n := 13), bigSep_insert Finset.notMem_range_self,
    Finset.range_add_one (n := 12), bigSep_insert Finset.notMem_range_self,
    Finset.range_add_one (n := 11), bigSep_insert Finset.notMem_range_self,
    Finset.range_add_one (n := 10), bigSep_insert Finset.notMem_range_self]
  rfl

omit [FloatOps F] in
/-- An array at a read share is twenty read tokens and what remains: the ten numbered as the slots' semaphores are,
    the first ten together. -/
theorem pts_tokens (ℓ : Loc nD τ sig) (q : PosShare TreeShare) (f : Buf (Elt F) ℓ) :
    (ℓ ↦{q} f : sProp 𝕄) ⊢ iprop((ℓ ↦{Transfers.shareDrop q 20} f)
      ∗ (ℓ ↦{Transfers.shareTokN q 19} f) ∗ (ℓ ↦{Transfers.shareTokN q 18} f) ∗ (ℓ ↦{Transfers.shareTokN q 17} f) ∗ (ℓ ↦{Transfers.shareTokN q 16} f) ∗ (ℓ ↦{Transfers.shareTokN q 15} f) ∗ (ℓ ↦{Transfers.shareTokN q 14} f) ∗ (ℓ ↦{Transfers.shareTokN q 13} f) ∗ (ℓ ↦{Transfers.shareTokN q 12} f) ∗ (ℓ ↦{Transfers.shareTokN q 11} f) ∗ (ℓ ↦{Transfers.shareTokN q 10} f)
      ∗ bigSep (Finset.range 10) fun i => (ℓ ↦{Transfers.shareTokN q i} f : sProp 𝕄)) := by
  have h := (Transfers.pointsTo_toks_range (Ix := HIx 1) (Name := ℕ) (U := UU) (Lvl := ℕ) (ℓ := ℓ) (S := Finset.univ) (f := f) q 20).1
  rw [bigSep_range20 (F := F) (fun i => (ℓ ↦{Transfers.shareTokN q i} f : sProp 𝕄))] at h
  exact h
omit [FloatOps F] in
theorem pts_tokens_join (ℓ : Loc nD τ sig) (q : PosShare TreeShare) (f : Buf (Elt F) ℓ) :
    iprop((ℓ ↦{Transfers.shareDrop q 20} f)
      ∗ (ℓ ↦{Transfers.shareTokN q 19} f) ∗ (ℓ ↦{Transfers.shareTokN q 18} f) ∗ (ℓ ↦{Transfers.shareTokN q 17} f) ∗ (ℓ ↦{Transfers.shareTokN q 16} f) ∗ (ℓ ↦{Transfers.shareTokN q 15} f) ∗ (ℓ ↦{Transfers.shareTokN q 14} f) ∗ (ℓ ↦{Transfers.shareTokN q 13} f) ∗ (ℓ ↦{Transfers.shareTokN q 12} f) ∗ (ℓ ↦{Transfers.shareTokN q 11} f) ∗ (ℓ ↦{Transfers.shareTokN q 10} f)
      ∗ bigSep (Finset.range 10) fun i => (ℓ ↦{Transfers.shareTokN q i} f : sProp 𝕄)) ⊢ (ℓ ↦{q} f : sProp 𝕄) := by
  have h := (Transfers.pointsTo_toks_range (Ix := HIx 1) (Name := ℕ) (U := UU) (Lvl := ℕ) (ℓ := ℓ) (S := Finset.univ) (f := f) q 20).2
  rw [bigSep_range20 (F := F) (fun i => (ℓ ↦{Transfers.shareTokN q i} f : sProp 𝕄))] at h
  exact h

omit [FloatOps F] in
/-- A buffer held outright is held at ten read shares at once. -/
theorem pts_pieces10 (ℓ : Loc nD τ sig) (f : Buf (Elt F) ℓ) :
    (ℓ ↦{fullShare} f : sProp 𝕄) = iprop((ℓ ↦{piece fullShare 9 0} f) ∗ (ℓ ↦{piece fullShare 9 1} f) ∗ (ℓ ↦{piece fullShare 9 2} f) ∗ (ℓ ↦{piece fullShare 9 3} f) ∗ (ℓ ↦{piece fullShare 9 4} f) ∗ (ℓ ↦{piece fullShare 9 5} f) ∗ (ℓ ↦{piece fullShare 9 6} f) ∗ (ℓ ↦{piece fullShare 9 7} f) ∗ (ℓ ↦{piece fullShare 9 8} f) ∗ (ℓ ↦{piece fullShare 9 9} f)) :=
  (pointsTo_pieces (ℓ := ℓ) Finset.univ f 9 fullShare).trans (bigSep_fin10 (F := F) (fun k => (ℓ ↦{piece fullShare 9 k} f : sProp 𝕄)))

omit [FloatOps F] in
theorem ownSems0_V :
    (ownSems0 (V d (cV L) (jV L)) : sProp 𝕄)
      = iprop((semVal (V d (cV L) (jV L), SemLoc.dma cc2_scratch3.sem) 0
          ∗ semVal (V d (cV L) (jV L), SemLoc.dma cc2_scratch4.sem) 0
          ∗ semVal (V d (cV L) (jV L), SemLoc.dma cc2_scratch5.sem) 0
          ∗ semVal (V d (cV L) (jV L), SemLoc.dma cc2_scratch6.sem) 0
          ∗ semVal (V d (cV L) (jV L), SemLoc.dma cc2_scratch7.sem) 0
          ∗ semVal (V d (cV L) (jV L), SemLoc.dma cc2_scratch8.sem) 0
          ∗ semVal (V d (cV L) (jV L), SemLoc.dma cc2_scratch9.sem) 0
          ∗ semVal (V d (cV L) (jV L), SemLoc.dma cc2_scratch10.sem) 0
          ∗ semVal (V d (cV L) (jV L), SemLoc.dma cc2_scratch11.sem) 0
          ∗ semVal (V d (cV L) (jV L), SemLoc.dma cc2_scratch12.sem) 0
          ∗ semVal (V d (cV L) (jV L), SemLoc.dma cc2_scoped0.sem) 0
          ∗ semVal (V d (cV L) (jV L), SemLoc.dma cc2_scoped1.sem) 0
          ∗ semVal (V d (cV L) (jV L), SemLoc.dma cc2_scoped2.sem) 0
          ∗ semVal (V d (cV L) (jV L), SemLoc.dma cc2_scoped3.sem) 0
          ∗ semVal (V d (cV L) (jV L), SemLoc.dma cc2_scoped4.sem) 0
          ∗ semVal (V d (cV L) (jV L), SemLoc.dma cc2_scoped5.sem) 0
          ∗ semVal (V d (cV L) (jV L), SemLoc.dma cc2_scoped6.sem) 0
          ∗ semVal (V d (cV L) (jV L), SemLoc.dma cc2_scoped7.sem) 0
          ∗ semVal (V d (cV L) (jV L), SemLoc.dma cc2_scoped8.sem) 0
          ∗ semVal (V d (cV L) (jV L), SemLoc.dma cc2_scoped9.sem) 0
          ∗ semVal (V d (cV L) (jV L), SemLoc.dma cc2_scoped10.sem) 0)
          ∗ bigSep (ownCells (V d (cV L) (jV L)) \ semCells d L) fun g => semVal g 0) := by
  unfold SparseCore.Cfg.ownSems0
  have hsub : semCells d L ⊆ ownCells (V d (cV L) (jV L)) := by
    intro g hg
    obtain ⟨i, -, rfl⟩ := Finset.mem_map.mp hg
    exact mem_ownCells.mpr ⟨rfl, semOf_scoped i⟩
  rw [bigSep_sdiff_split hsub]
  unfold semCells
  rw [bigSep_map, bigSep_fin21]
  rfl

omit [FloatOps F] in
/-- The three scratch buffers are among the tile's own: they, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV L) (jV L)) (b := (Proc.scVector (cV L) (jV L)).devRef cc2_scratch2) rfl⟩⟩)]

/-- The tile's slab of the address array, as the program slices it. -/
abbrev aRowK (L : grid2.Coords) : Memref sig .scVector .hbm S250x20 .i32 :=
  ((aV : Memref sig .scVector .hbm S32x250x20 .i32).slice (Rect.unit (s := S32x250x20) (k2_off1 L) S1x250x20.size (k2_off1_inb L)) (fun _ => rfl)).squeeze S250x20 squeezes_S1x250x20_S250x20

omit [FloatOps F] in
theorem aRowK_rect : Rect.unit (s := S32x250x20) (k2_off1 L) S1x250x20.size (k2_off1_inb L) = aSlab (wL L) := by
  unfold aSlab Rect.part Rect.block
  congr 1 <;> funext a
  · rw [k2_off1_eq]
    match a with
    | 0 => simp [Shape.partIx, Shape.partSize, wk]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem set_aRowK : (aRowK L).view.set = aSet (wL L) := by
  show (((aV : Memref sig .scVector .hbm S32x250x20 .i32).view.slice (Rect.unit (s := S32x250x20) (k2_off1 L) S1x250x20.size (k2_off1_inb L))).reshape S250x20 squeezes_S1x250x20_S250x20.numel_eq).set
    = ((aV : Memref sig .scVector .hbm S32x250x20 .i32).view.slice (aSlab (wL L))).set
  rw [View.set_reshape]
  exact aRowK_rect L ▸ rfl

/-- What the tile's address scratch holds once the slab has been copied in. -/
abbrev fA (d : Dev nD) (L : grid2.Coords) : Buf (Elt F) ((sA).view.loc (V d (cV L) (jV L))) := (aRowK L).view.read (Elt F) (adr d)

/-! ## The ring's invariant -/

/-- Slot `b` of the ring, a chunk's offsets, the table as the gathers name it. -/
abbrev slotM (b : ℕ) (hb : ∀ a, (![b, 0, 0] : Fin 3 → ℕ) a + S1x20x128.size a ≤ S10x20x128.size a) : Memref sig .scVector .vmem S20x128 .f32 :=
  (sR.slice (Rect.unit (s := S10x20x128) ![b, 0, 0] S1x20x128.size hb) (fun _ => rfl)).squeeze S20x128 squeezes_S1x20x128_S20x128
abbrev rowM (off : Fin 2 → ℕ) (h : ∀ a, off a + S1x20.size a ≤ S250x20.size a) : Memref sig .scVector .vmem S20 .i32 :=
  (sA.slice (Rect.unit (s := S250x20) off S1x20.size h) (fun _ => rfl)).squeeze S20 squeezes_S1x20_S20
abbrev tVs : Memref sig .scVector .hbm S78848x128 .f32 :=
  tV.slice (Rect.unit (s := S78848x128) ![0, 0] S78848x128.size inb_S78848x128_S78848x128_0_0) (fun _ => rfl)

omit [FloatOps F] in
/-- Every word of the address scratch names a row of the table. -/
theorem hinAll (hadr : AdrOK adr) (off : Fin 2 → ℕ) (h : ∀ a, off a + S1x20.size a ≤ S250x20.size a) (x : S20.Idx) :
    (View.read (Elt F) (rowM off h).view (fA adr d L) x).toNat < 78848 := by
  simp only [View.read_apply, cast_eq]
  exact hadr d _

/-- What a chunk's gather lands in its slot: at row `j`, the table's row that the chunk's word `j` names. -/
def gPay (hadr : AdrOK adr) (off : Fin 2 → ℕ) (h : ∀ a, off a + S1x20.size a ≤ S250x20.size a) : S20x128.Idx → Elt F .f32 :=
  SparseCore.gatherPayload gathers_S78848x128_S20x128 ((tVs).view.read (Elt F) (tab d))
    (SparseCore.rows ((rowM off h).view.read (Elt F) (fA adr d L)) rfl (hinAll adr d L hadr off h))

/-- Slot `b` before group `g < 25`: its chunk `10 g + b` in flight on the slot's semaphore, holding the slot, the chunk's
    row of the address scratch and the table, the last two at the slot's read shares, whose rests the tile keeps. -/
abbrev slotFl (hadr : AdrOK adr) (b : ℕ) (hb : ∀ a, (![b, 0, 0] : Fin 3 → ℕ) a + S1x20x128.size a ≤ S10x20x128.size a) (n : ℕ) (hn : n < 40)
    (qa qt : PosShare TreeShare) (g : ℕ) : sProp 𝕄 :=
  iprop(∃ (f0 : Buf (Elt F) ((sR).view.loc (V d (cV L) (jV L)))) (off : Fin 2 → ℕ) (h : ∀ a, off a + S1x20.size a ≤ S250x20.size a),
      ⌜off = ![10 * g + b, 0]⌝
      ∗ Transfers.Flight countersEmb (V d (cV L) (jV L)) (SemLoc.dma (⟨n, hn⟩ : DmaSem sig)) default 81920
          iprop((((slotM b hb).view.loc (V d (cV L) (jV L)) ↦[(slotM b hb).view.set]{fullShare}
                    View.write (Elt F) (slotM b hb).view f0 (gPay tab adr d L hadr off h) Finset.univ)
                ∗ ((sA).view.loc (V d (cV L) (jV L)) ↦[(rowM off h).view.set]{qa} fA adr d L))
              ∗ ((tV).view.loc (V d (cV L) (jV L)) ↦[(tVs).view.set]{qt} tab d))
      ∗ ((tV).view.loc (V d (cV L) (jV L)) ↦[Finset.univ \ (tVs).view.set]{qt} tab d)
      ∗ ((sA).view.loc (V d (cV L) (jV L)) ↦[Finset.univ \ (rowM off h).view.set]{qa} fA adr d L))
/-- The slot after the last group: everything at rest. -/
abbrev slotHome (b : ℕ) (hb : ∀ a, (![b, 0, 0] : Fin 3 → ℕ) a + S1x20x128.size a ≤ S10x20x128.size a) (n : ℕ) (hn : n < 40)
    (qa qt : PosShare TreeShare) : sProp 𝕄 :=
  iprop(semVal (V d (cV L) (jV L), SemLoc.dma (⟨n, hn⟩ : DmaSem sig)) 0
      ∗ (∃ f, (slotM b hb).view.loc (V d (cV L) (jV L)) ↦[(slotM b hb).view.set]{fullShare} f)
      ∗ ((tV).view.loc (V d (cV L) (jV L)) ↦{qt} tab d)
      ∗ ((sA).view.loc (V d (cV L) (jV L)) ↦{qa} fA adr d L))
def slotInv (hadr : AdrOK adr) (b : ℕ) (hb : ∀ a, (![b, 0, 0] : Fin 3 → ℕ) a + S1x20x128.size a ≤ S10x20x128.size a) (n : ℕ) (hn : n < 40)
    (qa qt : PosShare TreeShare) (g : ℕ) : sProp 𝕄 :=
  if g < 25 then slotFl tab adr d L hadr b hb n hn qa qt g else slotHome tab adr d L b hb n hn qa qt

/-- The rest of the invariant: the accumulated rows and the output slab at whatever they hold; the last copy-out's
    semaphore at rest; what the tile owes, its waits at no index recorded. -/
abbrev invRest (O : CellTallies nD τ sig (HIx 1)) (W : Waits sig (HIx 1)) : sProp 𝕄 :=
  iprop((∃ fy, (sY).view.loc (V d (cV L) (jV L)) ↦{fullShare} fy)
    ∗ (∃ fo, oPts d (wL L) fo)
    ∗ semVal (V d (cV L) (jV L), SemLoc.dma cc2_scoped10.sem) 0
    ∗ ∃ W', ⌜∀ p ∈ W', p ∈ W ∨ p.2 = none⌝ ∗ owes (V d (cV L) (jV L)) O W')

/-- Before group `g`. -/
def inv (hadr : AdrOK adr) (O : CellTallies nD τ sig (HIx 1)) (W : Waits sig (HIx 1)) (g : ℕ) (_ : BitVec 32) : sProp 𝕄 :=
  iprop(Transfers.MayWaits (V d (cV L) (jV L)) (none : HIx 1) O
    ∗ slotInv tab adr d L hadr 0 inb_S10x20x128_S1x20x128_0_0_0 10 (by decide) (piece fullShare 9 0) (Transfers.shareTokN (qT (cL L) (sL L)) 10) g
    ∗ slotInv tab adr d L hadr 1 inb_S10x20x128_S1x20x128_1_0_0 11 (by decide) (piece fullShare 9 1) (Transfers.shareTokN (qT (cL L) (sL L)) 11) g
    ∗ slotInv tab adr d L hadr 2 inb_S10x20x128_S1x20x128_2_0_0 12 (by decide) (piece fullShare 9 2) (Transfers.shareTokN (qT (cL L) (sL L)) 12) g
    ∗ slotInv tab adr d L hadr 3 inb_S10x20x128_S1x20x128_3_0_0 13 (by decide) (piece fullShare 9 3) (Transfers.shareTokN (qT (cL L) (sL L)) 13) g
    ∗ slotInv tab adr d L hadr 4 inb_S10x20x128_S1x20x128_4_0_0 14 (by decide) (piece fullShare 9 4) (Transfers.shareTokN (qT (cL L) (sL L)) 14) g
    ∗ slotInv tab adr d L hadr 5 inb_S10x20x128_S1x20x128_5_0_0 15 (by decide) (piece fullShare 9 5) (Transfers.shareTokN (qT (cL L) (sL L)) 15) g
    ∗ slotInv tab adr d L hadr 6 inb_S10x20x128_S1x20x128_6_0_0 16 (by decide) (piece fullShare 9 6) (Transfers.shareTokN (qT (cL L) (sL L)) 16) g
    ∗ slotInv tab adr d L hadr 7 inb_S10x20x128_S1x20x128_7_0_0 17 (by decide) (piece fullShare 9 7) (Transfers.shareTokN (qT (cL L) (sL L)) 17) g
    ∗ slotInv tab adr d L hadr 8 inb_S10x20x128_S1x20x128_8_0_0 18 (by decide) (piece fullShare 9 8) (Transfers.shareTokN (qT (cL L) (sL L)) 18) g
    ∗ slotInv tab adr d L hadr 9 inb_S10x20x128_S1x20x128_9_0_0 19 (by decide) (piece fullShare 9 9) (Transfers.shareTokN (qT (cL L) (sL L)) 19) g
    ∗ invRest d L O W)

theorem inv_lt (hadr : AdrOK adr) (O : CellTallies nD τ sig (HIx 1)) (W : Waits sig (HIx 1)) (g : ℕ) (hg : g < 25) (acc : BitVec 32) :
    inv tab adr d L hadr O W g acc = iprop(Transfers.MayWaits (V d (cV L) (jV L)) (none : HIx 1) O
    ∗ slotFl tab adr d L hadr 0 inb_S10x20x128_S1x20x128_0_0_0 10 (by decide) (piece fullShare 9 0) (Transfers.shareTokN (qT (cL L) (sL L)) 10) g
    ∗ slotFl tab adr d L hadr 1 inb_S10x20x128_S1x20x128_1_0_0 11 (by decide) (piece fullShare 9 1) (Transfers.shareTokN (qT (cL L) (sL L)) 11) g
    ∗ slotFl tab adr d L hadr 2 inb_S10x20x128_S1x20x128_2_0_0 12 (by decide) (piece fullShare 9 2) (Transfers.shareTokN (qT (cL L) (sL L)) 12) g
    ∗ slotFl tab adr d L hadr 3 inb_S10x20x128_S1x20x128_3_0_0 13 (by decide) (piece fullShare 9 3) (Transfers.shareTokN (qT (cL L) (sL L)) 13) g
    ∗ slotFl tab adr d L hadr 4 inb_S10x20x128_S1x20x128_4_0_0 14 (by decide) (piece fullShare 9 4) (Transfers.shareTokN (qT (cL L) (sL L)) 14) g
    ∗ slotFl tab adr d L hadr 5 inb_S10x20x128_S1x20x128_5_0_0 15 (by decide) (piece fullShare 9 5) (Transfers.shareTokN (qT (cL L) (sL L)) 15) g
    ∗ slotFl tab adr d L hadr 6 inb_S10x20x128_S1x20x128_6_0_0 16 (by decide) (piece fullShare 9 6) (Transfers.shareTokN (qT (cL L) (sL L)) 16) g
    ∗ slotFl tab adr d L hadr 7 inb_S10x20x128_S1x20x128_7_0_0 17 (by decide) (piece fullShare 9 7) (Transfers.shareTokN (qT (cL L) (sL L)) 17) g
    ∗ slotFl tab adr d L hadr 8 inb_S10x20x128_S1x20x128_8_0_0 18 (by decide) (piece fullShare 9 8) (Transfers.shareTokN (qT (cL L) (sL L)) 18) g
    ∗ slotFl tab adr d L hadr 9 inb_S10x20x128_S1x20x128_9_0_0 19 (by decide) (piece fullShare 9 9) (Transfers.shareTokN (qT (cL L) (sL L)) 19) g
    ∗ invRest d L O W) := by
  unfold inv slotInv
  iterate 10 rw [if_pos hg]
theorem inv_ge (hadr : AdrOK adr) (O : CellTallies nD τ sig (HIx 1)) (W : Waits sig (HIx 1)) (g : ℕ) (hg : ¬ g < 25) (acc : BitVec 32) :
    inv tab adr d L hadr O W g acc = iprop(Transfers.MayWaits (V d (cV L) (jV L)) (none : HIx 1) O
    ∗ slotHome tab adr d L 0 inb_S10x20x128_S1x20x128_0_0_0 10 (by decide) (piece fullShare 9 0) (Transfers.shareTokN (qT (cL L) (sL L)) 10)
    ∗ slotHome tab adr d L 1 inb_S10x20x128_S1x20x128_1_0_0 11 (by decide) (piece fullShare 9 1) (Transfers.shareTokN (qT (cL L) (sL L)) 11)
    ∗ slotHome tab adr d L 2 inb_S10x20x128_S1x20x128_2_0_0 12 (by decide) (piece fullShare 9 2) (Transfers.shareTokN (qT (cL L) (sL L)) 12)
    ∗ slotHome tab adr d L 3 inb_S10x20x128_S1x20x128_3_0_0 13 (by decide) (piece fullShare 9 3) (Transfers.shareTokN (qT (cL L) (sL L)) 13)
    ∗ slotHome tab adr d L 4 inb_S10x20x128_S1x20x128_4_0_0 14 (by decide) (piece fullShare 9 4) (Transfers.shareTokN (qT (cL L) (sL L)) 14)
    ∗ slotHome tab adr d L 5 inb_S10x20x128_S1x20x128_5_0_0 15 (by decide) (piece fullShare 9 5) (Transfers.shareTokN (qT (cL L) (sL L)) 15)
    ∗ slotHome tab adr d L 6 inb_S10x20x128_S1x20x128_6_0_0 16 (by decide) (piece fullShare 9 6) (Transfers.shareTokN (qT (cL L) (sL L)) 16)
    ∗ slotHome tab adr d L 7 inb_S10x20x128_S1x20x128_7_0_0 17 (by decide) (piece fullShare 9 7) (Transfers.shareTokN (qT (cL L) (sL L)) 17)
    ∗ slotHome tab adr d L 8 inb_S10x20x128_S1x20x128_8_0_0 18 (by decide) (piece fullShare 9 8) (Transfers.shareTokN (qT (cL L) (sL L)) 18)
    ∗ slotHome tab adr d L 9 inb_S10x20x128_S1x20x128_9_0_0 19 (by decide) (piece fullShare 9 9) (Transfers.shareTokN (qT (cL L) (sL L)) 19)
    ∗ invRest d L O W) := by
  unfold inv slotInv
  iterate 10 rw [if_neg hg]

/-! ## The value, chunk by chunk -/

/-- Row `r`, lane `l` of the accumulation scratch (indices taken modulo the extents, so that the term is total). -/
def yIx (r l : ℕ) : S250x80.Idx :=
  fun | 0 => ⟨r % 250, Nat.mod_lt _ (by decide)⟩ | 1 => ⟨l % 80, Nat.mod_lt _ (by decide)⟩ | ⟨_ + 2, h⟩ => absurd h (Nat.not_lt.2 (Nat.le_add_left _ _))

/-- Lane `l` of the table row that word `j` of chunk `c` of the tile's slab names (indices modulo the extents). -/
def rowN (c j l : ℕ) : Elt F .f32 :=
  rowAt tab adr d (wL L) ⟨c % 250, Nat.mod_lt _ (by decide)⟩ ⟨j % 20, Nat.mod_lt _ (by decide)⟩ ⟨l % 128, Nat.mod_lt _ (by decide)⟩

/-- What chunk `c` contributes at its group `t` of four rows and lane `l`: ((r₀ + r₁) + (r₂ + r₃)). -/
def gvalN (c t l : ℕ) : Elt F .f32 :=
  FloatOps.addf (φ := .f32) (FloatOps.addf (φ := .f32) (rowN tab adr d L c (4 * t) l) (rowN tab adr d L c (4 * t + 1) l))
    (FloatOps.addf (φ := .f32) (rowN tab adr d L c (4 * t + 2) l) (rowN tab adr d L c (4 * t + 3) l))

/-- The accumulation scratch after the tile's first `m` chunks: every chunk of the part that chunk `m - 1` lies in
    has its five rows of eighty lanes at the value. (Nothing is said of earlier parts' rows, which the later chunks
    overwrite; after chunk `50 p + 49` the whole of part `p` is there.) -/
def AccOK (m : ℕ) (fy : Buf (Elt F) ((sY).view.loc (V d (cV L) (jV L)))) : Prop :=
  ∀ c, c < m → c / 50 = (m - 1) / 50 → ∀ t, t < 5 → ∀ l, l < 80 → fy (yIx ((c % 50) * 5 + t) l) = gvalN tab adr d L c t l

end Tile

end Cert.Proof.KB.Sc

end
-- ==== Proof.ScAccStepB.lean ====
/-
  The accumulation scratch after one more chunk: the step of AccOK, for any chunk number.

  Chunk c's accumulation is a list of unmasked stores into the accumulation scratch. If every store's rectangle lies in the
  chunk's own five rows (c mod 50) · 5 … + 4, the stores cover those rows' eighty lanes, and each store's payload at its own
  index is the chunk's value at the row's group and the lane, then: the chunk's rows hold its value, whatever they held; every
  other row holds what it held, so the earlier chunks of the same part of fifty keep theirs (their rows are other rows).
-/
import proofs.«207241_g55714315764006_cont_9to1c4b_410_29_alg».proof.Proof.ScDefsB
import Idealize.ShloMosaic.Lib.Writes

noncomputable section

namespace Cert.Proof.KB.Sc

open Cert.Kernel Cert.Kernel.Gen Cert.Proof.KB
open Idealize.ShloMosaic
open Idealize.ShloMosaic.SparseCore (S V T)

variable {F : FTy → Type}
variable (tab : (d : Dev nD) → Buf (Elt F) (tLoc d)) (adr : (d : Dev nD) → Buf (Elt F) (aLoc d))
variable [FloatOps F]
variable (d : Dev nD) (L : grid2.Coords)

omit [FloatOps F] in
theorem yIx_row (r l : ℕ) (hr : r < 250) : ((yIx r l) 0).val = r := Nat.mod_eq_of_lt hr
omit [FloatOps F] in
theorem yIx_lane (r l : ℕ) (hl : l < 80) : ((yIx r l) 1).val = l := Nat.mod_eq_of_lt hl

/-- THE STEP: after chunk c's stores the accumulation scratch is right for the first c + 1 chunks. -/
theorem accOK_step (c : ℕ) (hc : c < 250) (fy : Buf (Elt F) ((sY).view.loc (V d (cV L) (jV L)))) (h : AccOK tab adr d L c fy)
    (Lw : List (View.Piece (Elt F) S250x80 .f32))
    (hrow : ∀ p ∈ Lw, ∀ y ∈ p.1.set, (y 0).val / 5 = c % 50)
    (hcov : ∀ t, t < 5 → ∀ l, l < 80 → ∃ p ∈ Lw, yIx ((c % 50) * 5 + t) l ∈ p.1.set)
    (hpay : ∀ p ∈ Lw, ∀ x : p.1.shape.Idx,
      p.2 x = gvalN tab adr d L c ((p.1.emb x 0).val - (c % 50) * 5) ((p.1.emb x 1).val)) :
    AccOK tab adr d L (c + 1) ((sY).view.writes (Elt F) fy Lw) := by
  intro c' hc' hdiv t ht l hl
  have hdiv' : c' / 50 = c / 50 := by rw [Nat.add_sub_cancel] at hdiv; exact hdiv
  by_cases hcc : c' = c
  · subst hcc
    have hr : (c' % 50) * 5 + t < 250 := by omega
    have hy := View.read_writes_apply_of_pieces (sY).view fy
      (fun y : S250x80.Idx => gvalN tab adr d L c' ((y 0).val - (c' % 50) * 5) ((y 1).val)) Lw hpay
      (yIx ((c' % 50) * 5 + t) l) (hcov t ht l hl)
    have e : (sY).view.read (Elt F) ((sY).view.writes (Elt F) fy Lw) (yIx ((c' % 50) * 5 + t) l)
        = ((sY).view.writes (Elt F) fy Lw) (yIx ((c' % 50) * 5 + t) l) := rfl
    rw [e] at hy
    rw [hy, yIx_row _ _ hr, yIx_lane _ _ hl, Nat.add_sub_cancel_left]
  · have hlt : c' < c := by omega
    have hr : (c' % 50) * 5 + t < 250 := by omega
    have hold := View.read_writes_apply_of_forall_not_mem (sY).view fy (yIx ((c' % 50) * 5 + t) l) Lw (fun p hp hy => by
      have h5 := hrow p hp _ hy
      rw [yIx_row _ _ hr] at h5
      omega)
    have e : (sY).view.read (Elt F) ((sY).view.writes (Elt F) fy Lw) (yIx ((c' % 50) * 5 + t) l)
        = ((sY).view.writes (Elt F) fy Lw) (yIx ((c' % 50) * 5 + t) l) := rfl
    have e' : (sY).view.read (Elt F) fy (yIx ((c' % 50) * 5 + t) l) = fy (yIx ((c' % 50) * 5 + t) l) := rfl
    rw [e, e'] at hold
    rw [hold]
    exact h c' hlt (by omega) t ht l hl

end Cert.Proof.KB.Sc

end
-- ==== Proof.ScAccB.lean ====
/-
  The accumulation of a landed chunk: what the loads of a slot read, lane by lane.

  A landed slot holds, at row `j` and lane `l`, lane `l` of the table row that word `j` of the chunk's address row names. The
  accumulation reads the ring through one-row, sixteen-lane rectangles inside the slot, recasts the four rows of a group to
  lane vectors, adds them as ((r₀ + r₁) + (r₂ + r₃)) and recasts the sum to a row: at each lane that is the chunk's group value.
-/
import proofs.«207241_g55714315764006_cont_9to1c4b_410_29_alg».proof.Proof.ScDefsB
import Idealize.ShloMosaic.Lib.Pipeline.Value
import Idealize.ShloMosaic.Lib.ValueIdx

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

/-! ## The lane form of a group's sum -/

omit tab adr d L in
/-- Four one-row blocks recast to lane vectors, added ((a + b) + (c + d)), recast to a row: at lane `x 1` the sum of the
    four blocks' elements at that lane. -/
theorem lane_sum4 (A B C D : Vec F S1x1x16 .f32) (x : S1x16.Idx) :
    shapeCast S1x16 (addf (addf (shapeCast S16 A shapeCasts_S1x1x16_S16 : FVec F S16 .f32) (shapeCast S16 B shapeCasts_S1x1x16_S16 : FVec F S16 .f32))
        (addf (shapeCast S16 C shapeCasts_S1x1x16_S16 : FVec F S16 .f32) (shapeCast S16 D shapeCasts_S1x1x16_S16 : FVec F S16 .f32))) shapeCasts_S16_S1x16 x
      = FloatOps.addf (φ := .f32) (FloatOps.addf (φ := .f32) (A (ix3 (0 : Fin 1) (0 : Fin 1) (x 1))) (B (ix3 (0 : Fin 1) (0 : Fin 1) (x 1))))
          (FloatOps.addf (φ := .f32) (C (ix3 (0 : Fin 1) (0 : Fin 1) (x 1))) (D (ix3 (0 : Fin 1) (0 : Fin 1) (x 1)))) := by
  have hx0 : (x 0).val = 0 := by have h : (x 0).val < 1 := (x 0).isLt; omega
  have e1 : ∀ (Z : Vec F S1x1x16 .f32), shapeCast S16 Z shapeCasts_S1x1x16_S16 (ix1 (x 1)) = Z (ix3 (0 : Fin 1) (0 : Fin 1) (x 1)) := fun Z =>
    shapeCast_apply Z shapeCasts_S1x1x16_S16 (ix1 (x 1)) (ix3 (0 : Fin 1) (0 : Fin 1) (x 1))
      (by rw [Shape.rowMajor_val_three, Shape.rowMajor_val_one]; show (0 * 1 + 0) * 16 + (x 1).val = (x 1).val; omega)
  refine (shapeCast_apply _ shapeCasts_S16_S1x16 x (ix1 (x 1))
    (by rw [Shape.rowMajor_val_one, Shape.rowMajor_val_two]; show (x 1).val = (x 0).val * 16 + (x 1).val; omega)).trans ?_
  show FloatOps.addf (φ := .f32) (FloatOps.addf (φ := .f32) (shapeCast S16 A shapeCasts_S1x1x16_S16 (ix1 (x 1))) (shapeCast S16 B shapeCasts_S1x1x16_S16 (ix1 (x 1))))
      (FloatOps.addf (φ := .f32) (shapeCast S16 C shapeCasts_S1x1x16_S16 (ix1 (x 1))) (shapeCast S16 D shapeCasts_S1x1x16_S16 (ix1 (x 1)))) = _
  rw [e1 A, e1 B, e1 C, e1 D]

/-! ## What a load of the ring reads of a landed slot -/

omit tab adr [FloatOps F] in
/-- Slot `b`'s element `(j, l)` is the ring's `(b, j, l)`. -/
theorem slotM_emb (b : ℕ) (hb : ∀ a, (![b, 0, 0] : Fin 3 → ℕ) a + S1x20x128.size a ≤ S10x20x128.size a) (j : Fin 20) (l : Fin 128) (a : Fin 3) :
    ((slotM b hb).view.emb (ix2 j l) a).val = (![b, j.val, l.val] : Fin 3 → ℕ) a := by
  have hre : Shape.reshapeEquiv squeezes_S1x20x128_S20x128.numel_eq (ix2 j l) = (ix3 (0 : Fin 1) j l : S1x20x128.Idx) :=
    Shape.reshapeEquiv_eq_of_rowMajor _ (by rw [Shape.rowMajor_val_three, Shape.rowMajor_val_two]; show (0 * 20 + j.val) * 128 + l.val = j.val * 128 + l.val; omega)
  show ((sR).view.emb ((Rect.unit (s := S10x20x128) ![b, 0, 0] S1x20x128.size hb).emb (Shape.reshapeEquiv squeezes_S1x20x128_S20x128.numel_eq (ix2 j l))) a).val = _
  rw [hre]
  match a with
  | ⟨0, _⟩ => show b + 1 * 0 = b; omega
  | ⟨1, _⟩ => show 0 + 1 * j.val = j.val; omega
  | ⟨2, _⟩ => show 0 + 1 * l.val = l.val; omega

omit tab adr [FloatOps F] in
/-- A load of the ring through a one-row, sixteen-lane rectangle at `(b, j, l₀)`, the ring holding `g` written over slot `b`,
    reads `g` at row `j`, lanes `l₀ …`. -/
theorem ring_read (b : ℕ) (hb : ∀ a, (![b, 0, 0] : Fin 3 → ℕ) a + S1x20x128.size a ≤ S10x20x128.size a)
    (f0 : Buf (Elt F) ((sR).view.loc (V d (cV L) (jV L)))) (g : S20x128.Idx → Elt F .f32)
    (off : Fin 3 → ℕ) (inb : ∀ a, off a + S1x1x16.size a ≤ S10x20x128.size a) (j : Fin 20) (l0 : ℕ) (hl : l0 + 16 ≤ 128)
    (hoff : off = ![b, j.val, l0]) (e : Fin 16) :
    View.readAt (Elt F) (sR).view (Rect.unit (s := S10x20x128) off S1x1x16.size inb).toLoadRect
        (View.write (Elt F) (slotM b hb).view f0 g Finset.univ) (ix3 (0 : Fin 1) (0 : Fin 1) e)
      = g (ix2 j (⟨l0 + e.val, by omega⟩ : Fin 128)) := by
  subst hoff
  have hemb : (sR).view.emb ((Rect.unit (s := S10x20x128) ![b, j.val, l0] S1x1x16.size inb).toLoadRect.idx (ix3 (0 : Fin 1) (0 : Fin 1) e))
      = (slotM b hb).view.emb (ix2 j (⟨l0 + e.val, by omega⟩ : Fin 128)) := by
    funext a
    apply Fin.ext
    rw [slotM_emb]
    match a with
    | ⟨0, _⟩ => show b + 1 * 0 = b; omega
    | ⟨1, _⟩ => show j.val + 1 * 0 = j.val; omega
    | ⟨2, _⟩ => show l0 + 1 * e.val = l0 + e.val; omega
  rw [View.readAt_apply, View.read_apply, hemb, View.write_emb_of_mem _ _ (Finset.mem_univ _)]
  simp only [cast_cast, cast_eq]

end Cert.Proof.KB.Sc

end
-- ==== Proof.ScPieceB.lean ====
/-
  One store of a chunk's accumulation: its payload, lane by lane, is the chunk's group value.

  The store of group t, lane chunk q of a landed chunk c in slot b takes four loads of the ring — rows 4 t … 4 t + 3 of
  the slot, lanes 16 q … 16 q + 15 —, adds them ((r₀ + r₁) + (r₂ + r₃)) and writes the sum to row (c mod 50) · 5 + t of the
  accumulation scratch at those lanes. Each load reads the landed payload, which is the table row the chunk's word names.
  The rectangles are taken whole, with their offsets, sizes and strides as facts, so that a use never has to name a
  rectangle's in-bounds evidence.
-/
import proofs.«207241_g55714315764006_cont_9to1c4b_410_29_alg».proof.Proof.ScAccB
import Idealize.ShloMosaic.Lib.Pipeline.Value
import Idealize.ShloMosaic.Lib.ValueIdx

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

omit tab adr [FloatOps F] d L in
/-- A rectangle with unit strides is the unit-stride rectangle of its offsets and sizes. -/
theorem rect_eq_unit {s : Shape} (R : Rect s) (o sz : Fin s.rank → ℕ) (ho : R.off = o) (hs : R.size = sz) (hst : ∀ a, R.stride a = 1)
    (inb : ∀ a, o a + sz a ≤ s.size a) : R = Rect.unit o sz inb := by
  obtain ⟨⟨off, size, stride, inb'⟩, pos⟩ := R
  have h1 : stride = fun _ => 1 := funext hst
  have ho' : off = o := ho
  have hs' : size = sz := hs
  subst h1 ho' hs'
  rfl

omit tab adr [FloatOps F] d L in
/-- A store at row `r0 · 5 + t` lies in rows `r0 · 5 … r0 · 5 + 4`. -/
theorem row_of_mem {R : Rect S250x80} {y : S250x80.Idx} (hy : y ∈ R.set) (r l0 r0 t : ℕ) (ht : t < 5) (hoff : R.off = ![r, l0])
    (hsz : R.size = S1x16.size) (hst : ∀ a, R.stride a = 1) (hr : r = r0 * 5 + t) : (y 0).val / 5 = r0 := by
  obtain ⟨j, hj, e⟩ := R.mem_set.mp hy 0
  rw [hoff, hst] at e
  rw [hsz] at hj
  have hj' : j < 1 := hj
  have e' : (y 0).val = r + 1 * j := e
  omega

omit tab adr [FloatOps F] d L in
/-- Row `r0 · 5 + t`, lane `l` is in the store of that row at the lane chunk `l / 16`. -/
theorem mem_of_lane (R : Rect S250x80) (r l0 r0 t l q : ℕ) (hoff : R.off = ![r, l0]) (hsz : R.size = S1x16.size)
    (hst : ∀ a, R.stride a = 1) (hr : r = r0 * 5 + t) (hl0 : l0 = 16 * q) (hr250 : r0 * 5 + t < 250) (hl : l < 80) (hq : l / 16 = q) :
    yIx (r0 * 5 + t) l ∈ R.set := by
  refine R.mem_set.mpr fun a => ?_
  match a with
  | ⟨0, _⟩ =>
    refine ⟨0, by rw [hsz]; exact Nat.one_pos, ?_⟩
    rw [hoff, hst]
    show (r0 * 5 + t) % 250 = r + 1 * 0
    rw [Nat.mod_eq_of_lt hr250]; omega
  | ⟨1, _⟩ =>
    refine ⟨l - l0, by rw [hsz]; show l - l0 < 16; omega, ?_⟩
    rw [hoff, hst]
    show l % 80 = l0 + 1 * (l - l0)
    rw [Nat.mod_eq_of_lt hl]; omega

omit tab adr [FloatOps F] d L in
/-- The load of row `4 t + i` of slot `b` at lanes `16 q …` is inside the ring. -/
theorem ld_inb (b t q i : ℕ) (hb : b + 1 ≤ 10) (ht : t < 5) (hq : q < 5) (hi : i < 4) :
    ∀ a, (![b, 4 * t + i, 16 * q] : Fin 3 → ℕ) a + S1x1x16.size a ≤ S10x20x128.size a := fun a => by
  match a with
  | ⟨0, _⟩ => show b + 1 ≤ 10; omega
  | ⟨1, _⟩ => show 4 * t + i + 1 ≤ 20; omega
  | ⟨2, _⟩ => show 16 * q + 16 ≤ 128; omega

/-- THE STORE'S PAYLOAD AT ITS OWN INDEX. For the store at row `(c mod 50) · 5 + t`, lanes `16 q …` (its offsets `off`), whose
    four loads are at `(b, 4 t + i, 16 q)` of the ring holding chunk `c`'s landed payload in slot `b` — the landed payload
    being the table rows the chunk's words name (`hg`) —, the sum at the store's index `x` is the chunk's value at group
    `t` and the lane of `x`. -/
theorem piece_val (hadr : AdrOK adr) (b : ℕ) (hb : ∀ a, (![b, 0, 0] : Fin 3 → ℕ) a + S1x20x128.size a ≤ S10x20x128.size a)
    (c : ℕ) (hh : ∀ a, (![c, 0] : Fin 2 → ℕ) a + S1x20.size a ≤ S250x20.size a)
    (hg : ∀ (j : Fin 20) (l : Fin 128), gPay tab adr d L hadr ![c, 0] hh (ix2 j l) = rowN tab adr d L c j.val l.val)
    (f0 : Buf (Elt F) ((sR).view.loc (V d (cV L) (jV L))))
    (off : Fin 2 → ℕ) (inb : ∀ a, off a + S1x16.size a ≤ S250x80.size a) (t q : ℕ) (ht : t < 5) (hq : q < 5)
    (hoff : off = ![(c % 50) * 5 + t, 16 * q])
    (x : (Rect.unit (s := S250x80) off S1x16.size inb).shape.Idx) :
    shapeCast S1x16 (addf
        (addf (shapeCast S16 (View.readAt (Elt F) (sR).view (Rect.unit (s := S10x20x128) ![b, 4 * t + 0, 16 * q] S1x1x16.size (ld_inb b t q 0 (hb 0) ht hq (by decide))).toLoadRect
            (View.write (Elt F) (slotM b hb).view f0 (gPay tab adr d L hadr ![c, 0] hh) Finset.univ)) shapeCasts_S1x1x16_S16 : FVec F S16 .f32)
          (shapeCast S16 (View.readAt (Elt F) (sR).view (Rect.unit (s := S10x20x128) ![b, 4 * t + 1, 16 * q] S1x1x16.size (ld_inb b t q 1 (hb 0) ht hq (by decide))).toLoadRect
            (View.write (Elt F) (slotM b hb).view f0 (gPay tab adr d L hadr ![c, 0] hh) Finset.univ)) shapeCasts_S1x1x16_S16 : FVec F S16 .f32))
        (addf (shapeCast S16 (View.readAt (Elt F) (sR).view (Rect.unit (s := S10x20x128) ![b, 4 * t + 2, 16 * q] S1x1x16.size (ld_inb b t q 2 (hb 0) ht hq (by decide))).toLoadRect
            (View.write (Elt F) (slotM b hb).view f0 (gPay tab adr d L hadr ![c, 0] hh) Finset.univ)) shapeCasts_S1x1x16_S16 : FVec F S16 .f32)
          (shapeCast S16 (View.readAt (Elt F) (sR).view (Rect.unit (s := S10x20x128) ![b, 4 * t + 3, 16 * q] S1x1x16.size (ld_inb b t q 3 (hb 0) ht hq (by decide))).toLoadRect
            (View.write (Elt F) (slotM b hb).view f0 (gPay tab adr d L hadr ![c, 0] hh) Finset.univ)) shapeCasts_S1x1x16_S16 : FVec F S16 .f32))) shapeCasts_S16_S1x16 x
      = gvalN tab adr d L c (((Rect.unit (s := S250x80) off S1x16.size inb).emb x 0).val - (c % 50) * 5)
          (((Rect.unit (s := S250x80) off S1x16.size inb).emb x 1).val) := by
  subst hoff
  have hx0 : (x 0).val = 0 := by have h : (x 0).val < 1 := (x 0).isLt; omega
  have hx1 : (x 1).val < 16 := (x 1).isLt
  have ex0 : ((Rect.unit (s := S250x80) ![(c % 50) * 5 + t, 16 * q] S1x16.size inb).emb x 0).val = (c % 50) * 5 + t := by
    show (c % 50) * 5 + t + 1 * (x 0).val = _; omega
  have ex1 : ((Rect.unit (s := S250x80) ![(c % 50) * 5 + t, 16 * q] S1x16.size inb).emb x 1).val = 16 * q + (x 1).val := by
    show 16 * q + 1 * (x 1).val = _; omega
  rw [ex0, ex1, Nat.add_sub_cancel_left]
  refine (lane_sum4 _ _ _ _ x).trans ?_
  have r0 := ring_read d L b hb f0 (gPay tab adr d L hadr ![c, 0] hh) ![b, 4 * t + 0, 16 * q] (ld_inb b t q 0 (hb 0) ht hq (by decide))
    (⟨4 * t + 0, by omega⟩ : Fin 20) (16 * q) (by omega) rfl (x 1)
  have r1 := ring_read d L b hb f0 (gPay tab adr d L hadr ![c, 0] hh) ![b, 4 * t + 1, 16 * q] (ld_inb b t q 1 (hb 0) ht hq (by decide))
    (⟨4 * t + 1, by omega⟩ : Fin 20) (16 * q) (by omega) rfl (x 1)
  have r2 := ring_read d L b hb f0 (gPay tab adr d L hadr ![c, 0] hh) ![b, 4 * t + 2, 16 * q] (ld_inb b t q 2 (hb 0) ht hq (by decide))
    (⟨4 * t + 2, by omega⟩ : Fin 20) (16 * q) (by omega) rfl (x 1)
  have r3 := ring_read d L b hb f0 (gPay tab adr d L hadr ![c, 0] hh) ![b, 4 * t + 3, 16 * q] (ld_inb b t q 3 (hb 0) ht hq (by decide))
    (⟨4 * t + 3, by omega⟩ : Fin 20) (16 * q) (by omega) rfl (x 1)
  rw [r0, r1, r2, r3, hg, hg, hg, hg]
  rfl

end Cert.Proof.KB.Sc

end
-- ==== Proof.ScGPayB.lean ====
/-
  The landed slot's contents, entry by entry.

  A chunk's gather lands in its slot, at row `j` and lane `l`, lane `l` of the table row that word `j` of the chunk's row of the
  address scratch names; that word is the tile's slab of the address array at (chunk, j); every address names a row, so the
  row taken modulo the table's height is the row itself.
-/
import proofs.«207241_g55714315764006_cont_9to1c4b_410_29_alg».proof.Proof.ScAccB
import Idealize.ShloMosaic.Lib.Pipeline.Value
import Idealize.ShloMosaic.Lib.ValueIdx

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

omit tab adr [FloatOps F] d L in
/-- Cell `y` of chunk `c`'s row of the address scratch is the scratch's `(c, y)`. -/
theorem rowM_emb (c : ℕ) (hh : ∀ a, (![c, 0] : Fin 2 → ℕ) a + S1x20.size a ≤ S250x20.size a) (y : S20.Idx) (a : Fin 2) :
    ((rowM ![c, 0] hh).view.emb y a).val = (![c, (y 0).val] : Fin 2 → ℕ) a := by
  have hre : Shape.reshapeEquiv squeezes_S1x20_S20.numel_eq y = (ix2 (0 : Fin 1) (y 0) : S1x20.Idx) :=
    Shape.reshapeEquiv_eq_of_rowMajor _ (by rw [Shape.rowMajor_val_two, Shape.rowMajor_val_one]; show 0 * 20 + (y 0).val = (y 0).val; omega)
  show ((sA).view.emb ((Rect.unit (s := S250x20) ![c, 0] S1x20.size hh).emb (Shape.reshapeEquiv squeezes_S1x20_S20.numel_eq y)) a).val = _
  rw [hre]
  match a with
  | ⟨0, _⟩ => show c + 1 * 0 = c; omega
  | ⟨1, _⟩ => show 0 + 1 * (y 0).val = (y 0).val; omega

omit tab adr [FloatOps F] d in
/-- Element `(k, j)` of the tile's slab of the address array is the array's `(worker, k, j)`. -/
theorem aRowK_emb (z : S250x20.Idx) (a : Fin 3) :
    ((aRowK L).view.emb z a).val = (![(wL L).val, (z 0).val, (z 1).val] : Fin 3 → ℕ) a := by
  have hre : Shape.reshapeEquiv squeezes_S1x250x20_S250x20.numel_eq z = (ix3 (0 : Fin 1) (z 0) (z 1) : S1x250x20.Idx) :=
    Shape.reshapeEquiv_eq_of_rowMajor _ (by rw [Shape.rowMajor_val_three, Shape.rowMajor_val_two]; show (0 * 250 + (z 0).val) * 20 + (z 1).val = (z 0).val * 20 + (z 1).val; omega)
  show ((aV).view.emb ((Rect.unit (s := S32x250x20) (k2_off1 L) S1x250x20.size (k2_off1_inb L)).emb (Shape.reshapeEquiv squeezes_S1x250x20_S250x20.numel_eq z)) a).val = _
  rw [hre]
  have hk := k2_off1_eq L
  match a with
  | ⟨0, _⟩ => show k2_off1 L 0 + 1 * 0 = 2 * (L 1).val + (L 0).val; rw [hk]; show 2 * (L 1).val + (L 0).val + 1 * 0 = _; omega
  | ⟨1, _⟩ => show k2_off1 L 1 + 1 * (z 0).val = (z 0).val; rw [hk]; show 0 + 1 * (z 0).val = _; omega
  | ⟨2, _⟩ => show k2_off1 L 2 + 1 * (z 1).val = (z 1).val; rw [hk]; show 0 + 1 * (z 1).val = _; omega

omit tab adr [FloatOps F] d L in
/-- The gather's source index: on the indexed axis the row the list names, on the other the lane. -/
theorem gIdx0 (R : Fin 20 → Fin 78848) (j : Fin 20) (l : Fin 128) :
    (gathers_S78848x128_S20x128.idx R (ix2 j l) ⟨0, by decide⟩).val = (R j).val :=
  congrArg Fin.val (Shape.Gathers.idx_axis gathers_S78848x128_S20x128 R (ix2 j l))
omit tab adr [FloatOps F] d L in
theorem gIdx1 (R : Fin 20 → Fin 78848) (j : Fin 20) (l : Fin 128) :
    (gathers_S78848x128_S20x128.idx R (ix2 j l) ⟨1, by decide⟩).val = l.val :=
  Shape.Gathers.idx_of_ne gathers_S78848x128_S20x128 R (ix2 j l) ⟨1, by decide⟩ (by decide)

omit tab adr [FloatOps F] d L in
/-- The cell at row-major position `k` of a list of twenty is cell `k`. -/
theorem symm20 (k : Fin S20.numel) : ((S20.rowMajor.symm k) 0).val = k.val := by
  have h := Shape.rowMajor_val_one (S20.rowMajor.symm k)
  rw [Equiv.apply_symm_apply] at h
  exact h.symm

/-- The word at cell `y` of chunk `c`'s row of the address scratch, once the slab is in: the address array's
    `(worker, c, y)`. -/
theorem word_apply (c : ℕ) (hc : c < 250) (hh : ∀ a, (![c, 0] : Fin 2 → ℕ) a + S1x20.size a ≤ S250x20.size a) (y : S20.Idx) :
    View.read (Elt F) (rowM ![c, 0] hh).view (fA adr d L) y = adr d (aIx (wL L) ⟨c, hc⟩ ⟨(y 0).val, (y 0).isLt⟩) := by
  rw [View.read_apply]
  show _root_.cast _ ((aRowK L).view.read (Elt F) (adr d) ((rowM ![c, 0] hh).view.emb y)) = _
  rw [View.read_apply]
  simp only [cast_cast, cast_eq]
  congr 1
  funext a
  apply Fin.ext
  rw [aRowK_emb]
  match a with
  | ⟨0, _⟩ => rfl
  | ⟨1, _⟩ => exact rowM_emb c hh y 0
  | ⟨2, _⟩ => exact rowM_emb c hh y 1

/-- THE LANDED SLOT at row `j`, lane `l`: lane `l` of the table row that word `j` of chunk `c` names. -/
theorem gPay_apply (hadr : AdrOK adr) (c : ℕ) (hc : c < 250) (hh : ∀ a, (![c, 0] : Fin 2 → ℕ) a + S1x20.size a ≤ S250x20.size a)
    (j : Fin 20) (l : Fin 128) :
    gPay tab adr d L hadr ![c, 0] hh (ix2 j l) = rowN tab adr d L c j.val l.val := by
  have hcm : c % 250 = c := Nat.mod_eq_of_lt hc
  have hjm : j.val % 20 = j.val := Nat.mod_eq_of_lt j.isLt
  have hlm : l.val % 128 = l.val := Nat.mod_eq_of_lt l.isLt
  have hcj : aIx (wL L) ⟨c % 250, Nat.mod_lt _ (by decide)⟩ ⟨j.val % 20, Nat.mod_lt _ (by decide)⟩ = aIx (wL L) ⟨c, hc⟩ j := by
    congr 1
    · exact Fin.ext hcm
    · exact Fin.ext hjm
  unfold gPay SparseCore.gatherPayload rowN rowAt
  rw [View.read_apply]
  simp only [cast_eq]
  congr 1
  funext a
  apply Fin.ext
  match a with
  | ⟨0, _⟩ =>
    show 0 + 1 * (gathers_S78848x128_S20x128.idx _ (ix2 j l) ⟨0, by decide⟩).val = _
    rw [Nat.zero_add, Nat.one_mul]
    refine (gIdx0 _ j l).trans ?_
    show (View.read (Elt F) (rowM ![c, 0] hh).view (fA adr d L) (S20.rowMajor.symm (Fin.cast _ j))).toNat
      = (adr d (aIx (wL L) ⟨c % 250, Nat.mod_lt _ (by decide)⟩ ⟨j.val % 20, Nat.mod_lt _ (by decide)⟩)).toNat % 78848
    rw [word_apply adr d L c hc hh, hcj, Nat.mod_eq_of_lt (hadr d _)]
    congr 3
    exact Fin.ext (symm20 _)
  | ⟨1, _⟩ =>
    show 0 + 1 * (gathers_S78848x128_S20x128.idx _ (ix2 j l) ⟨1, by decide⟩).val = l.val % 128
    rw [Nat.zero_add, Nat.one_mul]
    exact (gIdx1 _ j l).trans hlm.symm

end Cert.Proof.KB.Sc

end
-- ==== Proof.ScSlot0B.lean ====
/-
  The accumulation of one landed chunk, slot 0.
-/
import proofs.«207241_g55714315764006_cont_9to1c4b_410_29_alg».proof.Proof.ScDefsB
import proofs.«207241_g55714315764006_cont_9to1c4b_410_29_alg».proof.Proof.ScAccStepB
import proofs.«207241_g55714315764006_cont_9to1c4b_410_29_alg».proof.Proof.ScPieceB
import proofs.«207241_g55714315764006_cont_9to1c4b_410_29_alg».proof.Proof.ScGPayB

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 0's chunk `10 k + 0`, landed, is accumulated: the loop of five groups of four rows, five lane chunks each,
    reads the slot and stores the sums into the chunk's five rows of the accumulation scratch. -/
theorem accLoop0 (hadr : AdrOK adr) (k : Fin k2_t1_loop.trips) (c0_i32_62 c1_i32_63 : BitVec 32) (v80 : BitVec 32)
    (f0 : Buf (Elt F) ((sR).view.loc (V d (cV L) (jV L)))) (hh : ∀ a, (![10 * k.val + 0, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 0 inb_S10x20x128_S1x20x128_0_0_0).view.loc (V d (cV L) (jV L)) ↦[(slotM 0 inb_S10x20x128_S1x20x128_0_0_0).view.set]{fullShare} View.write (Elt F) (slotM 0 inb_S10x20x128_S1x20x128_0_0_0).view f0 (gPay tab adr d L hadr ![10 * k.val + 0, 0] hh) Finset.univ)
        ∗ (∃ fy, ((sY).view.loc (V d (cV L) (jV L)) ↦{fullShare} fy) ∗ ⌜AccOK tab adr d L (10 * k.val + 0) fy⌝))
      ⊢ iprop((∀ r, (((slotM 0 inb_S10x20x128_S1x20x128_0_0_0).view.loc (V d (cV L) (jV L)) ↦[(slotM 0 inb_S10x20x128_S1x20x128_0_0_0).view.set]{fullShare} View.write (Elt F) (slotM 0 inb_S10x20x128_S1x20x128_0_0_0).view f0 (gPay tab adr d L hadr ![10 * k.val + 0, 0] hh) Finset.univ)
              ∗ (∃ fy, ((sY).view.loc (V d (cV L) (jV L)) ↦{fullShare} fy) ∗ ⌜AccOK tab adr d L (10 * k.val + 0 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t2_loop k2_t2_ok 0#32
              (k2_t2_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 c0_i32_62 c1_i32_63 k v80) >>= kk) Q) := by
  have hk : k.val < 25 := lt_of_lt_of_eq k.isLt trips_t1
  have lt0 : 0 < k2_t2_loop.trips := by rw [trips_t2]; decide
  have lt1 : 1 < k2_t2_loop.trips := by rw [trips_t2]; decide
  have lt2 : 2 < k2_t2_loop.trips := by rw [trips_t2]; decide
  have lt3 : 3 < k2_t2_loop.trips := by rw [trips_t2]; decide
  have lt4 : 4 < k2_t2_loop.trips := by rw [trips_t2]; decide
  have hg := gPay_apply tab adr d L hadr (10 * k.val + 0) (by omega) hh
  iintro ⟨Hs, ⟨%fy, Hy, %hacc⟩⟩ Hk
  sl_unroll trips_t2
  sl_exec
  iapply Hk
  isplitl [Hs]; · iexact Hs
  iexists _
  isplitl [Hy]; · iexact Hy
  ipureintro
  sl_unfold_run_names
  refine accOK_step tab adr d L (10 * k.val + 0) (by omega) fy hacc _ ?_ ?_ ?_
  · -- every store lies in the chunk's own five rows
    exact List.forall_mem_cons.2 ⟨fun y hy => row_of_mem hy _ _ ((10 * k.val + 0) % 50) 4 (by decide) (acc_off_0_4 k ⟨4, lt4⟩) rfl (fun _ => rfl) rfl,
      List.forall_mem_cons.2 ⟨fun y hy => row_of_mem hy _ _ ((10 * k.val + 0) % 50) 4 (by decide) (acc_off_0_3 k ⟨4, lt4⟩) rfl (fun _ => rfl) rfl,
      List.forall_mem_cons.2 ⟨fun y hy => row_of_mem hy _ _ ((10 * k.val + 0) % 50) 4 (by decide) (acc_off_0_2 k ⟨4, lt4⟩) rfl (fun _ => rfl) rfl,
      List.forall_mem_cons.2 ⟨fun y hy => row_of_mem hy _ _ ((10 * k.val + 0) % 50) 4 (by decide) (acc_off_0_1 k ⟨4, lt4⟩) rfl (fun _ => rfl) rfl,
      List.forall_mem_cons.2 ⟨fun y hy => row_of_mem hy _ _ ((10 * k.val + 0) % 50) 4 (by decide) (acc_off_0_0 k ⟨4, lt4⟩) rfl (fun _ => rfl) rfl,
      List.forall_mem_cons.2 ⟨fun y hy => row_of_mem hy _ _ ((10 * k.val + 0) % 50) 3 (by decide) (acc_off_0_4 k ⟨3, lt3⟩) rfl (fun _ => rfl) rfl,
      List.forall_mem_cons.2 ⟨fun y hy => row_of_mem hy _ _ ((10 * k.val + 0) % 50) 3 (by decide) (acc_off_0_3 k ⟨3, lt3⟩) rfl (fun _ => rfl) rfl,
      List.forall_mem_cons.2 ⟨fun y hy => row_of_mem hy _ _ ((10 * k.val + 0) % 50) 3 (by decide) (acc_off_0_2 k ⟨3, lt3⟩) rfl (fun _ => rfl) rfl,
      List.forall_mem_cons.2 ⟨fun y hy => row_of_mem hy _ _ ((10 * k.val + 0) % 50) 3 (by decide) (acc_off_0_1 k ⟨3, lt3⟩) rfl (fun _ => rfl) rfl,
      List.forall_mem_cons.2 ⟨fun y hy => row_of_mem hy _ _ ((10 * k.val + 0) % 50) 3 (by decide) (acc_off_0_0 k ⟨3, lt3⟩) rfl (fun _ => rfl) rfl,
      List.forall_mem_cons.2 ⟨fun y hy => row_of_mem hy _ _ ((10 * k.val + 0) % 50) 2 (by decide) (acc_off_0_4 k ⟨2, lt2⟩) rfl (fun _ => rfl) rfl,
      List.forall_mem_cons.2 ⟨fun y hy => row_of_mem hy _ _ ((10 * k.val + 0) % 50) 2 (by decide) (acc_off_0_3 k ⟨2, lt2⟩) rfl (fun _ => rfl) rfl,
      List.forall_mem_cons.2 ⟨fun y hy => row_of_mem hy _ _ ((10 * k.val + 0) % 50) 2 (by decide) (acc_off_0_2 k ⟨2, lt2⟩) rfl (fun _ => rfl) rfl,
      List.forall_mem_cons.2 ⟨fun y hy => row_of_mem hy _ _ ((10 * k.val + 0) % 50) 2 (by decide) (acc_off_0_1 k ⟨2, lt2⟩) rfl (fun _ => rfl) rfl,
      List.forall_mem_cons.2 ⟨fun y hy => row_of_mem hy _ _ ((10 * k.val + 0) % 50) 2 (by decide) (acc_off_0_0 k ⟨2, lt2⟩) rfl (fun _ => rfl) rfl,
      List.forall_mem_cons.2 ⟨fun y hy => row_of_mem hy _ _ ((10 * k.val + 0) % 50) 1 (by decide) (acc_off_0_4 k ⟨1, lt1⟩) rfl (fun _ => rfl) rfl,
      List.forall_mem_cons.2 ⟨fun y hy => row_of_mem hy _ _ ((10 * k.val + 0) % 50) 1 (by decide) (acc_off_0_3 k ⟨1, lt1⟩) rfl (fun _ => rfl) rfl,
      List.forall_mem_cons.2 ⟨fun y hy => row_of_mem hy _ _ ((10 * k.val + 0) % 50) 1 (by decide) (acc_off_0_2 k ⟨1, lt1⟩) rfl (fun _ => rfl) rfl,
      List.forall_mem_cons.2 ⟨fun y hy => row_of_mem hy _ _ ((10 * k.val + 0) % 50) 1 (by decide) (acc_off_0_1 k ⟨1, lt1⟩) rfl (fun _ => rfl) rfl,
      List.forall_mem_cons.2 ⟨fun y hy => row_of_mem hy _ _ ((10 * k.val + 0) % 50) 1 (by decide) (acc_off_0_0 k ⟨1, lt1⟩) rfl (fun _ => rfl) rfl,
      List.forall_mem_cons.2 ⟨fun y hy => row_of_mem hy _ _ ((10 * k.val + 0) % 50) 0 (by decide) (acc_off_0_4 k ⟨0, lt0⟩) rfl (fun _ => rfl) rfl,
      List.forall_mem_cons.2 ⟨fun y hy => row_of_mem hy _ _ ((10 * k.val + 0) % 50) 0 (by decide) (acc_off_0_3 k ⟨0, lt0⟩) rfl (fun _ => rfl) rfl,
      List.forall_mem_cons.2 ⟨fun y hy => row_of_mem hy _ _ ((10 * k.val + 0) % 50) 0 (by decide) (acc_off_0_2 k ⟨0, lt0⟩) rfl (fun _ => rfl) rfl,
      List.forall_mem_cons.2 ⟨fun y hy => row_of_mem hy _ _ ((10 * k.val + 0) % 50) 0 (by decide) (acc_off_0_1 k ⟨0, lt0⟩) rfl (fun _ => rfl) rfl,
      List.forall_mem_cons.2 ⟨fun y hy => row_of_mem hy _ _ ((10 * k.val + 0) % 50) 0 (by decide) (acc_off_0_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 0) % 50) 0 l 0 (acc_off_0_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 0) % 50) 0 l 1 (acc_off_0_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 0) % 50) 0 l 2 (acc_off_0_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 0) % 50) 0 l 3 (acc_off_0_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 0) % 50) 0 l 4 (acc_off_0_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 0) % 50) 1 l 0 (acc_off_0_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 0) % 50) 1 l 1 (acc_off_0_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 0) % 50) 1 l 2 (acc_off_0_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 0) % 50) 1 l 3 (acc_off_0_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 0) % 50) 1 l 4 (acc_off_0_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 0) % 50) 2 l 0 (acc_off_0_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 0) % 50) 2 l 1 (acc_off_0_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 0) % 50) 2 l 2 (acc_off_0_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 0) % 50) 2 l 3 (acc_off_0_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 0) % 50) 2 l 4 (acc_off_0_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 0) % 50) 3 l 0 (acc_off_0_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 0) % 50) 3 l 1 (acc_off_0_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 0) % 50) 3 l 2 (acc_off_0_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 0) % 50) 3 l 3 (acc_off_0_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 0) % 50) 3 l 4 (acc_off_0_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 0) % 50) 4 l 0 (acc_off_0_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 0) % 50) 4 l 1 (acc_off_0_1 k ⟨4, lt4⟩) rfl (fun _ => rfl) rfl rfl (by omega) hl hq⟩
    · exact ⟨_, List.mem_cons_of_mem _ (List.mem_cons_of_mem _ (List.mem_cons_self)), mem_of_lane _ _ _ ((10 * k.val + 0) % 50) 4 l 2 (acc_off_0_2 k ⟨4, lt4⟩) rfl (fun _ => rfl) rfl rfl (by omega) hl hq⟩
    · exact ⟨_, List.mem_cons_of_mem _ (List.mem_cons_self), mem_of_lane _ _ _ ((10 * k.val + 0) % 50) 4 l 3 (acc_off_0_3 k ⟨4, lt4⟩) rfl (fun _ => rfl) rfl rfl (by omega) hl hq⟩
    · exact ⟨_, List.mem_cons_self, mem_of_lane _ _ _ ((10 * k.val + 0) % 50) 4 l 4 (acc_off_0_4 k ⟨4, lt4⟩) rfl (fun _ => rfl) rfl rfl (by omega) hl hq⟩
  · -- each store's payload is the chunk's value at its row's group and its lane
    exact List.forall_mem_cons.2 ⟨fun x => piece_val tab adr d L hadr 0 inb_S10x20x128_S1x20x128_0_0_0 (10 * k.val + 0) hh hg f0 _ (k2_off17_inb k ⟨4, lt4⟩) 4 4 (by decide) (by decide) (acc_off_0_4 k ⟨4, lt4⟩) x,
      List.forall_mem_cons.2 ⟨fun x => piece_val tab adr d L hadr 0 inb_S10x20x128_S1x20x128_0_0_0 (10 * k.val + 0) hh hg f0 _ (k2_off14_inb k ⟨4, lt4⟩) 4 3 (by decide) (by decide) (acc_off_0_3 k ⟨4, lt4⟩) x,
      List.forall_mem_cons.2 ⟨fun x => piece_val tab adr d L hadr 0 inb_S10x20x128_S1x20x128_0_0_0 (10 * k.val + 0) hh hg f0 _ (k2_off11_inb k ⟨4, lt4⟩) 4 2 (by decide) (by decide) (acc_off_0_2 k ⟨4, lt4⟩) x,
      List.forall_mem_cons.2 ⟨fun x => piece_val tab adr d L hadr 0 inb_S10x20x128_S1x20x128_0_0_0 (10 * k.val + 0) hh hg f0 _ (k2_off8_inb k ⟨4, lt4⟩) 4 1 (by decide) (by decide) (acc_off_0_1 k ⟨4, lt4⟩) x,
      List.forall_mem_cons.2 ⟨fun x => piece_val tab adr d L hadr 0 inb_S10x20x128_S1x20x128_0_0_0 (10 * k.val + 0) hh hg f0 _ (k2_off5_inb k ⟨4, lt4⟩) 4 0 (by decide) (by decide) (acc_off_0_0 k ⟨4, lt4⟩) x,
      List.forall_mem_cons.2 ⟨fun x => piece_val tab adr d L hadr 0 inb_S10x20x128_S1x20x128_0_0_0 (10 * k.val + 0) hh hg f0 _ (k2_off17_inb k ⟨3, lt3⟩) 3 4 (by decide) (by decide) (acc_off_0_4 k ⟨3, lt3⟩) x,
      List.forall_mem_cons.2 ⟨fun x => piece_val tab adr d L hadr 0 inb_S10x20x128_S1x20x128_0_0_0 (10 * k.val + 0) hh hg f0 _ (k2_off14_inb k ⟨3, lt3⟩) 3 3 (by decide) (by decide) (acc_off_0_3 k ⟨3, lt3⟩) x,
      List.forall_mem_cons.2 ⟨fun x => piece_val tab adr d L hadr 0 inb_S10x20x128_S1x20x128_0_0_0 (10 * k.val + 0) hh hg f0 _ (k2_off11_inb k ⟨3, lt3⟩) 3 2 (by decide) (by decide) (acc_off_0_2 k ⟨3, lt3⟩) x,
      List.forall_mem_cons.2 ⟨fun x => piece_val tab adr d L hadr 0 inb_S10x20x128_S1x20x128_0_0_0 (10 * k.val + 0) hh hg f0 _ (k2_off8_inb k ⟨3, lt3⟩) 3 1 (by decide) (by decide) (acc_off_0_1 k ⟨3, lt3⟩) x,
      List.forall_mem_cons.2 ⟨fun x => piece_val tab adr d L hadr 0 inb_S10x20x128_S1x20x128_0_0_0 (10 * k.val + 0) hh hg f0 _ (k2_off5_inb k ⟨3, lt3⟩) 3 0 (by decide) (by decide) (acc_off_0_0 k ⟨3, lt3⟩) x,
      List.forall_mem_cons.2 ⟨fun x => piece_val tab adr d L hadr 0 inb_S10x20x128_S1x20x128_0_0_0 (10 * k.val + 0) hh hg f0 _ (k2_off17_inb k ⟨2, lt2⟩) 2 4 (by decide) (by decide) (acc_off_0_4 k ⟨2, lt2⟩) x,
      List.forall_mem_cons.2 ⟨fun x => piece_val tab adr d L hadr 0 inb_S10x20x128_S1x20x128_0_0_0 (10 * k.val + 0) hh hg f0 _ (k2_off14_inb k ⟨2, lt2⟩) 2 3 (by decide) (by decide) (acc_off_0_3 k ⟨2, lt2⟩) x,
      List.forall_mem_cons.2 ⟨fun x => piece_val tab adr d L hadr 0 inb_S10x20x128_S1x20x128_0_0_0 (10 * k.val + 0) hh hg f0 _ (k2_off11_inb k ⟨2, lt2⟩) 2 2 (by decide) (by decide) (acc_off_0_2 k ⟨2, lt2⟩) x,
      List.forall_mem_cons.2 ⟨fun x => piece_val tab adr d L hadr 0 inb_S10x20x128_S1x20x128_0_0_0 (10 * k.val + 0) hh hg f0 _ (k2_off8_inb k ⟨2, lt2⟩) 2 1 (by decide) (by decide) (acc_off_0_1 k ⟨2, lt2⟩) x,
      List.forall_mem_cons.2 ⟨fun x => piece_val tab adr d L hadr 0 inb_S10x20x128_S1x20x128_0_0_0 (10 * k.val + 0) hh hg f0 _ (k2_off5_inb k ⟨2, lt2⟩) 2 0 (by decide) (by decide) (acc_off_0_0 k ⟨2, lt2⟩) x,
      List.forall_mem_cons.2 ⟨fun x => piece_val tab adr d L hadr 0 inb_S10x20x128_S1x20x128_0_0_0 (10 * k.val + 0) hh hg f0 _ (k2_off17_inb k ⟨1, lt1⟩) 1 4 (by decide) (by decide) (acc_off_0_4 k ⟨1, lt1⟩) x,
      List.forall_mem_cons.2 ⟨fun x => piece_val tab adr d L hadr 0 inb_S10x20x128_S1x20x128_0_0_0 (10 * k.val + 0) hh hg f0 _ (k2_off14_inb k ⟨1, lt1⟩) 1 3 (by decide) (by decide) (acc_off_0_3 k ⟨1, lt1⟩) x,
      List.forall_mem_cons.2 ⟨fun x => piece_val tab adr d L hadr 0 inb_S10x20x128_S1x20x128_0_0_0 (10 * k.val + 0) hh hg f0 _ (k2_off11_inb k ⟨1, lt1⟩) 1 2 (by decide) (by decide) (acc_off_0_2 k ⟨1, lt1⟩) x,
      List.forall_mem_cons.2 ⟨fun x => piece_val tab adr d L hadr 0 inb_S10x20x128_S1x20x128_0_0_0 (10 * k.val + 0) hh hg f0 _ (k2_off8_inb k ⟨1, lt1⟩) 1 1 (by decide) (by decide) (acc_off_0_1 k ⟨1, lt1⟩) x,
      List.forall_mem_cons.2 ⟨fun x => piece_val tab adr d L hadr 0 inb_S10x20x128_S1x20x128_0_0_0 (10 * k.val + 0) hh hg f0 _ (k2_off5_inb k ⟨1, lt1⟩) 1 0 (by decide) (by decide) (acc_off_0_0 k ⟨1, lt1⟩) x,
      List.forall_mem_cons.2 ⟨fun x => piece_val tab adr d L hadr 0 inb_S10x20x128_S1x20x128_0_0_0 (10 * k.val + 0) hh hg f0 _ (k2_off17_inb k ⟨0, lt0⟩) 0 4 (by decide) (by decide) (acc_off_0_4 k ⟨0, lt0⟩) x,
      List.forall_mem_cons.2 ⟨fun x => piece_val tab adr d L hadr 0 inb_S10x20x128_S1x20x128_0_0_0 (10 * k.val + 0) hh hg f0 _ (k2_off14_inb k ⟨0, lt0⟩) 0 3 (by decide) (by decide) (acc_off_0_3 k ⟨0, lt0⟩) x,
      List.forall_mem_cons.2 ⟨fun x => piece_val tab adr d L hadr 0 inb_S10x20x128_S1x20x128_0_0_0 (10 * k.val + 0) hh hg f0 _ (k2_off11_inb k ⟨0, lt0⟩) 0 2 (by decide) (by decide) (acc_off_0_2 k ⟨0, lt0⟩) x,
      List.forall_mem_cons.2 ⟨fun x => piece_val tab adr d L hadr 0 inb_S10x20x128_S1x20x128_0_0_0 (10 * k.val + 0) hh hg f0 _ (k2_off8_inb k ⟨0, lt0⟩) 0 1 (by decide) (by decide) (acc_off_0_1 k ⟨0, lt0⟩) x,
      List.forall_mem_cons.2 ⟨fun x => piece_val tab adr d L hadr 0 inb_S10x20x128_S1x20x128_0_0_0 (10 * k.val + 0) hh hg f0 _ (k2_off5_inb k ⟨0, lt0⟩) 0 0 (by decide) (by decide) (acc_off_0_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KB.Sc

end
-- ==== Proof.ScPiecesB.lean ====
/-
  A chunk's twenty-five stores, read off as a list: the step of the accumulation scratch from the list's pieces.

  Chunk c's accumulation stores, for each of its five groups t of four rows and each of the five lane chunks cc of
  sixteen lanes, the group's sum at those lanes into row (c mod 50) · 5 + t, lanes 16 cc … 16 cc + 15 of the
  accumulation scratch. A run of the body leaves the scratch at the list of those twenty-five stores, the last
  first. If the list's pieces are, in that order, the stores of the pairs (4, 4), (4, 3), …, (0, 0) — each at its
  rectangle, its payload the chunk's value at the group and the lane — then the stores lie in the chunk's own
  rows, cover their eighty lanes and carry the chunk's value: the scratch is right for one more chunk.
-/
import proofs.«207241_g55714315764006_cont_9to1c4b_410_29_alg».proof.Proof.ScAccStepB

noncomputable section

namespace Cert.Proof.KB.Sc

open Cert.Kernel Cert.Kernel.Gen Cert.Proof.KB
open Idealize.ShloMosaic
open Idealize.ShloMosaic.SparseCore (S V T)

/-! ## Lists related entry by entry -/

theorem forall2_left {α β : Type} {R : α → β → Prop} {l₁ : List α} {l₂ : List β} (h : List.Forall₂ R l₁ l₂) :
    ∀ a ∈ l₁, ∃ b ∈ l₂, R a b := by
  induction h with
  | nil => intro a ha; cases ha
  | cons hab _ ih =>
    intro a ha
    rcases List.mem_cons.mp ha with rfl | ha
    · exact ⟨_, List.mem_cons_self, hab⟩
    · obtain ⟨b, hb, hr⟩ := ih a ha
      exact ⟨b, List.mem_cons_of_mem _ hb, hr⟩

theorem forall2_right {α β : Type} {R : α → β → Prop} {l₁ : List α} {l₂ : List β} (h : List.Forall₂ R l₁ l₂) :
    ∀ b ∈ l₂, ∃ a ∈ l₁, R a b := by
  induction h with
  | nil => intro b hb; cases hb
  | cons hab _ ih =>
    intro b hb
    rcases List.mem_cons.mp hb with rfl | hb
    · exact ⟨_, List.mem_cons_self, hab⟩
    · obtain ⟨a, ha, hr⟩ := ih b hb
      exact ⟨a, List.mem_cons_of_mem _ ha, hr⟩

/-! ## The stores of a chunk -/

variable {F : FTy → Type}
variable (tab : (d : Dev nD) → Buf (Elt F) (tLoc d)) (adr : (d : Dev nD) → Buf (Elt F) (aLoc d))
variable [FloatOps F]
variable (d : Dev nD) (L : grid2.Coords)

/-- The piece `p` is chunk `c`'s store of group `tc.1`, lane chunk `tc.2`: a one-row, sixteen-lane rectangle at row
    (c mod 50) · 5 + group, lane 16 · lane chunk, carrying at each of its indices the chunk's value at the index's row (less the chunk's first row) and lane. -/
def PieceAt (c : ℕ) (p : View.Piece (Elt F) S250x80 .f32) (tc : ℕ × ℕ) : Prop :=
  ∃ (off : Fin 2 → ℕ) (h : ∀ a, off a + S1x16.size a ≤ S250x80.size a)
    (pay : (Rect.unit (s := S250x80) off S1x16.size h).shape.Idx → Elt F .f32),
    off = ![(c % 50) * 5 + tc.1, 16 * tc.2] ∧ p = ⟨Rect.unit (s := S250x80) off S1x16.size h, pay⟩
      ∧ ∀ x, pay x = gvalN tab adr d L c (((Rect.unit (s := S250x80) off S1x16.size h).emb x 0).val - (c % 50) * 5)
          (((Rect.unit (s := S250x80) off S1x16.size h).emb x 1).val)

/-- The twenty-five (group, lane chunk) pairs in the order a run lists the stores: the last store first. -/
def tcList : List (ℕ × ℕ) :=
  [(4, 4), (4, 3), (4, 2), (4, 1), (4, 0), (3, 4), (3, 3), (3, 2), (3, 1), (3, 0), (2, 4), (2, 3), (2, 2), (2, 1), (2, 0),
    (1, 4), (1, 3), (1, 2), (1, 1), (1, 0), (0, 4), (0, 3), (0, 2), (0, 1), (0, 0)]

theorem tcList_lt : ∀ tc ∈ tcList, tc.1 < 5 ∧ tc.2 < 5 := by decide

theorem mem_tcList (t cc : ℕ) (ht : t < 5) (hcc : cc < 5) : (t, cc) ∈ tcList := by
  interval_cases t <;> interval_cases cc <;> decide

/-- THE STEP FROM THE LIST: the scratch after the listed stores is right for the first c + 1 chunks. -/
theorem accOK_of_pieces (c : ℕ) (hc : c < 250) (fy : Buf (Elt F) ((sY).view.loc (V d (cV L) (jV L))))
    (h : AccOK tab adr d L c fy) (Lw : List (View.Piece (Elt F) S250x80 .f32))
    (hL : List.Forall₂ (PieceAt tab adr d L c) Lw tcList) :
    AccOK tab adr d L (c + 1) ((sY).view.writes (Elt F) fy Lw) := by
  refine accOK_step tab adr d L c hc fy h Lw ?_ ?_ ?_
  · intro p hp y hy
    obtain ⟨tc, htc, off, hin, pay, hoff, rfl, -⟩ := forall2_left hL p hp
    have ht := (tcList_lt tc htc).1
    have h0 := ((Rect.mem_set_unit (inb := hin)).mp hy) (0 : Fin 2)
    rw [hoff] at h0
    have e0 : (![(c % 50) * 5 + tc.1, 16 * tc.2] : Fin 2 → ℕ) 0 = (c % 50) * 5 + tc.1 := rfl
    have e1 : S1x16.size 0 = 1 := rfl
    rw [e0, e1] at h0
    omega
  · intro t ht l hl
    have hcc : l / 16 < 5 := by omega
    obtain ⟨p, hp, off, hin, pay, hoff, rfl, -⟩ := forall2_right hL (t, l / 16) (mem_tcList t (l / 16) ht hcc)
    refine ⟨_, hp, (Rect.mem_set_unit (inb := hin)).mpr fun a => ?_⟩
    rw [hoff]
    have hr : (c % 50) * 5 + t < 250 := by omega
    match a with
    | ⟨0, _⟩ =>
      show (c % 50) * 5 + t ≤ ((yIx ((c % 50) * 5 + t) l) 0).val ∧ ((yIx ((c % 50) * 5 + t) l) 0).val < (c % 50) * 5 + t + 1
      rw [yIx_row _ _ hr]; omega
    | ⟨1, _⟩ =>
      show 16 * (l / 16) ≤ ((yIx ((c % 50) * 5 + t) l) 1).val ∧ ((yIx ((c % 50) * 5 + t) l) 1).val < 16 * (l / 16) + 16
      rw [yIx_lane _ _ hl]; omega
  · intro p hp x
    obtain ⟨tc, htc, off, hin, pay, hoff, rfl, hpay⟩ := forall2_left hL p hp
    exact hpay x

end Cert.Proof.KB.Sc

end
-- ==== Proof.ScSlot1B.lean ====
/-
  The accumulation of one landed chunk, slot 1.
-/
import proofs.«207241_g55714315764006_cont_9to1c4b_410_29_alg».proof.Proof.ScPiecesB
import proofs.«207241_g55714315764006_cont_9to1c4b_410_29_alg».proof.Proof.ScPieceB
import proofs.«207241_g55714315764006_cont_9to1c4b_410_29_alg».proof.Proof.ScGPayB

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 1's chunk `10 k + 1`, landed, is accumulated: the loop of five groups of four rows, five lane chunks each,
    reads the slot and stores the sums into the chunk's five rows of the accumulation scratch. -/
theorem accLoop1 (hadr : AdrOK adr) (k : Fin k2_t1_loop.trips) (arg18 v55 c10_i32_86 v116 : BitVec 32)
    (f0 : Buf (Elt F) ((sR).view.loc (V d (cV L) (jV L)))) (hh : ∀ a, (![10 * k.val + 1, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 1 inb_S10x20x128_S1x20x128_1_0_0).view.loc (V d (cV L) (jV L)) ↦[(slotM 1 inb_S10x20x128_S1x20x128_1_0_0).view.set]{fullShare} View.write (Elt F) (slotM 1 inb_S10x20x128_S1x20x128_1_0_0).view f0 (gPay tab adr d L hadr ![10 * k.val + 1, 0] hh) Finset.univ)
        ∗ (∃ fy, ((sY).view.loc (V d (cV L) (jV L)) ↦{fullShare} fy) ∗ ⌜AccOK tab adr d L (10 * k.val + 1) fy⌝))
      ⊢ iprop((∀ r, (((slotM 1 inb_S10x20x128_S1x20x128_1_0_0).view.loc (V d (cV L) (jV L)) ↦[(slotM 1 inb_S10x20x128_S1x20x128_1_0_0).view.set]{fullShare} View.write (Elt F) (slotM 1 inb_S10x20x128_S1x20x128_1_0_0).view f0 (gPay tab adr d L hadr ![10 * k.val + 1, 0] hh) Finset.univ)
              ∗ (∃ fy, ((sY).view.loc (V d (cV L) (jV L)) ↦{fullShare} fy) ∗ ⌜AccOK tab adr d L (10 * k.val + 1 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t3_loop k2_t3_ok 0#32
              (k2_t3_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v55 c10_i32_86 v116) >>= kk) Q) := by
  iintro ⟨Hslot, ⟨%fy, Hy, %hacc⟩⟩ Hk
  sl_unroll trips_t3
  sl_exec
  iapply Hk
  isplitl [Hslot]; · iexact Hslot
  iexists _
  isplitl [Hy]; · iexact Hy
  ipureintro
  have hc : 10 * k.val + 1 < 250 := by have h := k.isLt; have e := trips_t1; omega
  have hg := fun (j : Fin 20) (l : Fin 128) => gPay_apply tab adr d L hadr (10 * k.val + 1) hc hh j l
  refine accOK_of_pieces tab adr d L (10 * k.val + 1) hc fy hacc _ ?_
  sl_unfold_run_names
  exact
    (List.Forall₂.cons ⟨_, _, _, acc_off_1_4 k _, rfl, fun x => piece_val tab adr d L hadr 1 inb_S10x20x128_S1x20x128_1_0_0 (10 * k.val + 1) hh hg f0 _ _ 4 4 (by decide) (by decide) (acc_off_1_4 k _) x⟩
    (List.Forall₂.cons ⟨_, _, _, acc_off_1_3 k _, rfl, fun x => piece_val tab adr d L hadr 1 inb_S10x20x128_S1x20x128_1_0_0 (10 * k.val + 1) hh hg f0 _ _ 4 3 (by decide) (by decide) (acc_off_1_3 k _) x⟩
    (List.Forall₂.cons ⟨_, _, _, acc_off_1_2 k _, rfl, fun x => piece_val tab adr d L hadr 1 inb_S10x20x128_S1x20x128_1_0_0 (10 * k.val + 1) hh hg f0 _ _ 4 2 (by decide) (by decide) (acc_off_1_2 k _) x⟩
    (List.Forall₂.cons ⟨_, _, _, acc_off_1_1 k _, rfl, fun x => piece_val tab adr d L hadr 1 inb_S10x20x128_S1x20x128_1_0_0 (10 * k.val + 1) hh hg f0 _ _ 4 1 (by decide) (by decide) (acc_off_1_1 k _) x⟩
    (List.Forall₂.cons ⟨_, _, _, acc_off_1_0 k _, rfl, fun x => piece_val tab adr d L hadr 1 inb_S10x20x128_S1x20x128_1_0_0 (10 * k.val + 1) hh hg f0 _ _ 4 0 (by decide) (by decide) (acc_off_1_0 k _) x⟩
    (List.Forall₂.cons ⟨_, _, _, acc_off_1_4 k _, rfl, fun x => piece_val tab adr d L hadr 1 inb_S10x20x128_S1x20x128_1_0_0 (10 * k.val + 1) hh hg f0 _ _ 3 4 (by decide) (by decide) (acc_off_1_4 k _) x⟩
    (List.Forall₂.cons ⟨_, _, _, acc_off_1_3 k _, rfl, fun x => piece_val tab adr d L hadr 1 inb_S10x20x128_S1x20x128_1_0_0 (10 * k.val + 1) hh hg f0 _ _ 3 3 (by decide) (by decide) (acc_off_1_3 k _) x⟩
    (List.Forall₂.cons ⟨_, _, _, acc_off_1_2 k _, rfl, fun x => piece_val tab adr d L hadr 1 inb_S10x20x128_S1x20x128_1_0_0 (10 * k.val + 1) hh hg f0 _ _ 3 2 (by decide) (by decide) (acc_off_1_2 k _) x⟩
    (List.Forall₂.cons ⟨_, _, _, acc_off_1_1 k _, rfl, fun x => piece_val tab adr d L hadr 1 inb_S10x20x128_S1x20x128_1_0_0 (10 * k.val + 1) hh hg f0 _ _ 3 1 (by decide) (by decide) (acc_off_1_1 k _) x⟩
    (List.Forall₂.cons ⟨_, _, _, acc_off_1_0 k _, rfl, fun x => piece_val tab adr d L hadr 1 inb_S10x20x128_S1x20x128_1_0_0 (10 * k.val + 1) hh hg f0 _ _ 3 0 (by decide) (by decide) (acc_off_1_0 k _) x⟩
    (List.Forall₂.cons ⟨_, _, _, acc_off_1_4 k _, rfl, fun x => piece_val tab adr d L hadr 1 inb_S10x20x128_S1x20x128_1_0_0 (10 * k.val + 1) hh hg f0 _ _ 2 4 (by decide) (by decide) (acc_off_1_4 k _) x⟩
    (List.Forall₂.cons ⟨_, _, _, acc_off_1_3 k _, rfl, fun x => piece_val tab adr d L hadr 1 inb_S10x20x128_S1x20x128_1_0_0 (10 * k.val + 1) hh hg f0 _ _ 2 3 (by decide) (by decide) (acc_off_1_3 k _) x⟩
    (List.Forall₂.cons ⟨_, _, _, acc_off_1_2 k _, rfl, fun x => piece_val tab adr d L hadr 1 inb_S10x20x128_S1x20x128_1_0_0 (10 * k.val + 1) hh hg f0 _ _ 2 2 (by decide) (by decide) (acc_off_1_2 k _) x⟩
    (List.Forall₂.cons ⟨_, _, _, acc_off_1_1 k _, rfl, fun x => piece_val tab adr d L hadr 1 inb_S10x20x128_S1x20x128_1_0_0 (10 * k.val + 1) hh hg f0 _ _ 2 1 (by decide) (by decide) (acc_off_1_1 k _) x⟩
    (List.Forall₂.cons ⟨_, _, _, acc_off_1_0 k _, rfl, fun x => piece_val tab adr d L hadr 1 inb_S10x20x128_S1x20x128_1_0_0 (10 * k.val + 1) hh hg f0 _ _ 2 0 (by decide) (by decide) (acc_off_1_0 k _) x⟩
    (List.Forall₂.cons ⟨_, _, _, acc_off_1_4 k _, rfl, fun x => piece_val tab adr d L hadr 1 inb_S10x20x128_S1x20x128_1_0_0 (10 * k.val + 1) hh hg f0 _ _ 1 4 (by decide) (by decide) (acc_off_1_4 k _) x⟩
    (List.Forall₂.cons ⟨_, _, _, acc_off_1_3 k _, rfl, fun x => piece_val tab adr d L hadr 1 inb_S10x20x128_S1x20x128_1_0_0 (10 * k.val + 1) hh hg f0 _ _ 1 3 (by decide) (by decide) (acc_off_1_3 k _) x⟩
    (List.Forall₂.cons ⟨_, _, _, acc_off_1_2 k _, rfl, fun x => piece_val tab adr d L hadr 1 inb_S10x20x128_S1x20x128_1_0_0 (10 * k.val + 1) hh hg f0 _ _ 1 2 (by decide) (by decide) (acc_off_1_2 k _) x⟩
    (List.Forall₂.cons ⟨_, _, _, acc_off_1_1 k _, rfl, fun x => piece_val tab adr d L hadr 1 inb_S10x20x128_S1x20x128_1_0_0 (10 * k.val + 1) hh hg f0 _ _ 1 1 (by decide) (by decide) (acc_off_1_1 k _) x⟩
    (List.Forall₂.cons ⟨_, _, _, acc_off_1_0 k _, rfl, fun x => piece_val tab adr d L hadr 1 inb_S10x20x128_S1x20x128_1_0_0 (10 * k.val + 1) hh hg f0 _ _ 1 0 (by decide) (by decide) (acc_off_1_0 k _) x⟩
    (List.Forall₂.cons ⟨_, _, _, acc_off_1_4 k _, rfl, fun x => piece_val tab adr d L hadr 1 inb_S10x20x128_S1x20x128_1_0_0 (10 * k.val + 1) hh hg f0 _ _ 0 4 (by decide) (by decide) (acc_off_1_4 k _) x⟩
    (List.Forall₂.cons ⟨_, _, _, acc_off_1_3 k _, rfl, fun x => piece_val tab adr d L hadr 1 inb_S10x20x128_S1x20x128_1_0_0 (10 * k.val + 1) hh hg f0 _ _ 0 3 (by decide) (by decide) (acc_off_1_3 k _) x⟩
    (List.Forall₂.cons ⟨_, _, _, acc_off_1_2 k _, rfl, fun x => piece_val tab adr d L hadr 1 inb_S10x20x128_S1x20x128_1_0_0 (10 * k.val + 1) hh hg f0 _ _ 0 2 (by decide) (by decide) (acc_off_1_2 k _) x⟩
    (List.Forall₂.cons ⟨_, _, _, acc_off_1_1 k _, rfl, fun x => piece_val tab adr d L hadr 1 inb_S10x20x128_S1x20x128_1_0_0 (10 * k.val + 1) hh hg f0 _ _ 0 1 (by decide) (by decide) (acc_off_1_1 k _) x⟩
    (List.Forall₂.cons ⟨_, _, _, acc_off_1_0 k _, rfl, fun x => piece_val tab adr d L hadr 1 inb_S10x20x128_S1x20x128_1_0_0 (10 * k.val + 1) hh hg f0 _ _ 0 0 (by decide) (by decide) (acc_off_1_0 k _) x⟩
    List.Forall₂.nil)))))))))))))))))))))))))

end Cert.Proof.KB.Sc

end
-- ==== Proof.ScSlot2B.lean ====
/-
  The accumulation of one landed chunk, slot 2.
-/
import proofs.«207241_g55714315764006_cont_9to1c4b_410_29_alg».proof.Proof.ScDefsB
import proofs.«207241_g55714315764006_cont_9to1c4b_410_29_alg».proof.Proof.ScAccStepB
import proofs.«207241_g55714315764006_cont_9to1c4b_410_29_alg».proof.Proof.ScPieceB
import proofs.«207241_g55714315764006_cont_9to1c4b_410_29_alg».proof.Proof.ScGPayB

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 2's chunk `10 k + 2`, landed, is accumulated: the loop of five groups of four rows, five lane chunks each,
    reads the slot and stores the sums into the chunk's five rows of the accumulation scratch. -/
theorem accLoop2 (hadr : AdrOK adr) (k : Fin k2_t1_loop.trips) (arg18 v127 v151 v152 c0_i32_132 c0_i32_133 : BitVec 32)
    (f0 : Buf (Elt F) ((sR).view.loc (V d (cV L) (jV L)))) (hh : ∀ a, (![10 * k.val + 2, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 2 inb_S10x20x128_S1x20x128_2_0_0).view.loc (V d (cV L) (jV L)) ↦[(slotM 2 inb_S10x20x128_S1x20x128_2_0_0).view.set]{fullShare} View.write (Elt F) (slotM 2 inb_S10x20x128_S1x20x128_2_0_0).view f0 (gPay tab adr d L hadr ![10 * k.val + 2, 0] hh) Finset.univ)
        ∗ (∃ fy, ((sY).view.loc (V d (cV L) (jV L)) ↦{fullShare} fy) ∗ ⌜AccOK tab adr d L (10 * k.val + 2) fy⌝))
      ⊢ iprop((∀ r, (((slotM 2 inb_S10x20x128_S1x20x128_2_0_0).view.loc (V d (cV L) (jV L)) ↦[(slotM 2 inb_S10x20x128_S1x20x128_2_0_0).view.set]{fullShare} View.write (Elt F) (slotM 2 inb_S10x20x128_S1x20x128_2_0_0).view f0 (gPay tab adr d L hadr ![10 * k.val + 2, 0] hh) Finset.univ)
              ∗ (∃ fy, ((sY).view.loc (V d (cV L) (jV L)) ↦{fullShare} fy) ∗ ⌜AccOK tab adr d L (10 * k.val + 2 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t4_loop k2_t4_ok c0_i32_132
              (k2_t4_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v127 v151 v152 c0_i32_132 c0_i32_133) >>= kk) Q) := by
  have hk : k.val < 25 := lt_of_lt_of_eq k.isLt trips_t1
  have lt0 : 0 < k2_t4_loop.trips := by rw [trips_t4]; decide
  have lt1 : 1 < k2_t4_loop.trips := by rw [trips_t4]; decide
  have lt2 : 2 < k2_t4_loop.trips := by rw [trips_t4]; decide
  have lt3 : 3 < k2_t4_loop.trips := by rw [trips_t4]; decide
  have lt4 : 4 < k2_t4_loop.trips := by rw [trips_t4]; decide
  have hg := gPay_apply tab adr d L hadr (10 * k.val + 2) (by omega) hh
  iintro ⟨Hs, ⟨%fy, Hy, %hacc⟩⟩ Hk
  sl_unroll trips_t4
  sl_exec
  iapply Hk
  isplitl [Hs]; · iexact Hs
  iexists _
  isplitl [Hy]; · iexact Hy
  ipureintro
  sl_unfold_run_names
  refine accOK_step tab adr d L (10 * k.val + 2) (by omega) fy hacc _ ?_ ?_ ?_
  · -- every store lies in the chunk's own five rows
    exact List.forall_mem_cons.2 ⟨fun y hy => row_of_mem hy _ _ ((10 * k.val + 2) % 50) 4 (by decide) (acc_off_2_4 k ⟨4, lt4⟩) rfl (fun _ => rfl) rfl,
      List.forall_mem_cons.2 ⟨fun y hy => row_of_mem hy _ _ ((10 * k.val + 2) % 50) 4 (by decide) (acc_off_2_3 k ⟨4, lt4⟩) rfl (fun _ => rfl) rfl,
      List.forall_mem_cons.2 ⟨fun y hy => row_of_mem hy _ _ ((10 * k.val + 2) % 50) 4 (by decide) (acc_off_2_2 k ⟨4, lt4⟩) rfl (fun _ => rfl) rfl,
      List.forall_mem_cons.2 ⟨fun y hy => row_of_mem hy _ _ ((10 * k.val + 2) % 50) 4 (by decide) (acc_off_2_1 k ⟨4, lt4⟩) rfl (fun _ => rfl) rfl,
      List.forall_mem_cons.2 ⟨fun y hy => row_of_mem hy _ _ ((10 * k.val + 2) % 50) 4 (by decide) (acc_off_2_0 k ⟨4, lt4⟩) rfl (fun _ => rfl) rfl,
      List.forall_mem_cons.2 ⟨fun y hy => row_of_mem hy _ _ ((10 * k.val + 2) % 50) 3 (by decide) (acc_off_2_4 k ⟨3, lt3⟩) rfl (fun _ => rfl) rfl,
      List.forall_mem_cons.2 ⟨fun y hy => row_of_mem hy _ _ ((10 * k.val + 2) % 50) 3 (by decide) (acc_off_2_3 k ⟨3, lt3⟩) rfl (fun _ => rfl) rfl,
      List.forall_mem_cons.2 ⟨fun y hy => row_of_mem hy _ _ ((10 * k.val + 2) % 50) 3 (by decide) (acc_off_2_2 k ⟨3, lt3⟩) rfl (fun _ => rfl) rfl,
      List.forall_mem_cons.2 ⟨fun y hy => row_of_mem hy _ _ ((10 * k.val + 2) % 50) 3 (by decide) (acc_off_2_1 k ⟨3, lt3⟩) rfl (fun _ => rfl) rfl,
      List.forall_mem_cons.2 ⟨fun y hy => row_of_mem hy _ _ ((10 * k.val + 2) % 50) 3 (by decide) (acc_off_2_0 k ⟨3, lt3⟩) rfl (fun _ => rfl) rfl,
      List.forall_mem_cons.2 ⟨fun y hy => row_of_mem hy _ _ ((10 * k.val + 2) % 50) 2 (by decide) (acc_off_2_4 k ⟨2, lt2⟩) rfl (fun _ => rfl) rfl,
      List.forall_mem_cons.2 ⟨fun y hy => row_of_mem hy _ _ ((10 * k.val + 2) % 50) 2 (by decide) (acc_off_2_3 k ⟨2, lt2⟩) rfl (fun _ => rfl) rfl,
      List.forall_mem_cons.2 ⟨fun y hy => row_of_mem hy _ _ ((10 * k.val + 2) % 50) 2 (by decide) (acc_off_2_2 k ⟨2, lt2⟩) rfl (fun _ => rfl) rfl,
      List.forall_mem_cons.2 ⟨fun y hy => row_of_mem hy _ _ ((10 * k.val + 2) % 50) 2 (by decide) (acc_off_2_1 k ⟨2, lt2⟩) rfl (fun _ => rfl) rfl,
      List.forall_mem_cons.2 ⟨fun y hy => row_of_mem hy _ _ ((10 * k.val + 2) % 50) 2 (by decide) (acc_off_2_0 k ⟨2, lt2⟩) rfl (fun _ => rfl) rfl,
      List.forall_mem_cons.2 ⟨fun y hy => row_of_mem hy _ _ ((10 * k.val + 2) % 50) 1 (by decide) (acc_off_2_4 k ⟨1, lt1⟩) rfl (fun _ => rfl) rfl,
      List.forall_mem_cons.2 ⟨fun y hy => row_of_mem hy _ _ ((10 * k.val + 2) % 50) 1 (by decide) (acc_off_2_3 k ⟨1, lt1⟩) rfl (fun _ => rfl) rfl,
      List.forall_mem_cons.2 ⟨fun y hy => row_of_mem hy _ _ ((10 * k.val + 2) % 50) 1 (by decide) (acc_off_2_2 k ⟨1, lt1⟩) rfl (fun _ => rfl) rfl,
      List.forall_mem_cons.2 ⟨fun y hy => row_of_mem hy _ _ ((10 * k.val + 2) % 50) 1 (by decide) (acc_off_2_1 k ⟨1, lt1⟩) rfl (fun _ => rfl) rfl,
      List.forall_mem_cons.2 ⟨fun y hy => row_of_mem hy _ _ ((10 * k.val + 2) % 50) 1 (by decide) (acc_off_2_0 k ⟨1, lt1⟩) rfl (fun _ => rfl) rfl,
      List.forall_mem_cons.2 ⟨fun y hy => row_of_mem hy _ _ ((10 * k.val + 2) % 50) 0 (by decide) (acc_off_2_4 k ⟨0, lt0⟩) rfl (fun _ => rfl) rfl,
      List.forall_mem_cons.2 ⟨fun y hy => row_of_mem hy _ _ ((10 * k.val + 2) % 50) 0 (by decide) (acc_off_2_3 k ⟨0, lt0⟩) rfl (fun _ => rfl) rfl,
      List.forall_mem_cons.2 ⟨fun y hy => row_of_mem hy _ _ ((10 * k.val + 2) % 50) 0 (by decide) (acc_off_2_2 k ⟨0, lt0⟩) rfl (fun _ => rfl) rfl,
      List.forall_mem_cons.2 ⟨fun y hy => row_of_mem hy _ _ ((10 * k.val + 2) % 50) 0 (by decide) (acc_off_2_1 k ⟨0, lt0⟩) rfl (fun _ => rfl) rfl,
      List.forall_mem_cons.2 ⟨fun y hy => row_of_mem hy _ _ ((10 * k.val + 2) % 50) 0 (by decide) (acc_off_2_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 2) % 50) 0 l 0 (acc_off_2_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 2) % 50) 0 l 1 (acc_off_2_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 2) % 50) 0 l 2 (acc_off_2_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 2) % 50) 0 l 3 (acc_off_2_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 2) % 50) 0 l 4 (acc_off_2_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 2) % 50) 1 l 0 (acc_off_2_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 2) % 50) 1 l 1 (acc_off_2_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 2) % 50) 1 l 2 (acc_off_2_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 2) % 50) 1 l 3 (acc_off_2_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 2) % 50) 1 l 4 (acc_off_2_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 2) % 50) 2 l 0 (acc_off_2_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 2) % 50) 2 l 1 (acc_off_2_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 2) % 50) 2 l 2 (acc_off_2_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 2) % 50) 2 l 3 (acc_off_2_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 2) % 50) 2 l 4 (acc_off_2_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 2) % 50) 3 l 0 (acc_off_2_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 2) % 50) 3 l 1 (acc_off_2_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 2) % 50) 3 l 2 (acc_off_2_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 2) % 50) 3 l 3 (acc_off_2_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 2) % 50) 3 l 4 (acc_off_2_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 2) % 50) 4 l 0 (acc_off_2_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 2) % 50) 4 l 1 (acc_off_2_1 k ⟨4, lt4⟩) rfl (fun _ => rfl) rfl rfl (by omega) hl hq⟩
    · exact ⟨_, List.mem_cons_of_mem _ (List.mem_cons_of_mem _ (List.mem_cons_self)), mem_of_lane _ _ _ ((10 * k.val + 2) % 50) 4 l 2 (acc_off_2_2 k ⟨4, lt4⟩) rfl (fun _ => rfl) rfl rfl (by omega) hl hq⟩
    · exact ⟨_, List.mem_cons_of_mem _ (List.mem_cons_self), mem_of_lane _ _ _ ((10 * k.val + 2) % 50) 4 l 3 (acc_off_2_3 k ⟨4, lt4⟩) rfl (fun _ => rfl) rfl rfl (by omega) hl hq⟩
    · exact ⟨_, List.mem_cons_self, mem_of_lane _ _ _ ((10 * k.val + 2) % 50) 4 l 4 (acc_off_2_4 k ⟨4, lt4⟩) rfl (fun _ => rfl) rfl rfl (by omega) hl hq⟩
  · -- each store's payload is the chunk's value at its row's group and its lane
    exact List.forall_mem_cons.2 ⟨fun x => piece_val tab adr d L hadr 2 inb_S10x20x128_S1x20x128_2_0_0 (10 * k.val + 2) hh hg f0 _ (k2_off51_inb k ⟨4, lt4⟩) 4 4 (by decide) (by decide) (acc_off_2_4 k ⟨4, lt4⟩) x,
      List.forall_mem_cons.2 ⟨fun x => piece_val tab adr d L hadr 2 inb_S10x20x128_S1x20x128_2_0_0 (10 * k.val + 2) hh hg f0 _ (k2_off48_inb k ⟨4, lt4⟩) 4 3 (by decide) (by decide) (acc_off_2_3 k ⟨4, lt4⟩) x,
      List.forall_mem_cons.2 ⟨fun x => piece_val tab adr d L hadr 2 inb_S10x20x128_S1x20x128_2_0_0 (10 * k.val + 2) hh hg f0 _ (k2_off45_inb k ⟨4, lt4⟩) 4 2 (by decide) (by decide) (acc_off_2_2 k ⟨4, lt4⟩) x,
      List.forall_mem_cons.2 ⟨fun x => piece_val tab adr d L hadr 2 inb_S10x20x128_S1x20x128_2_0_0 (10 * k.val + 2) hh hg f0 _ (k2_off42_inb k ⟨4, lt4⟩) 4 1 (by decide) (by decide) (acc_off_2_1 k ⟨4, lt4⟩) x,
      List.forall_mem_cons.2 ⟨fun x => piece_val tab adr d L hadr 2 inb_S10x20x128_S1x20x128_2_0_0 (10 * k.val + 2) hh hg f0 _ (k2_off39_inb k ⟨4, lt4⟩) 4 0 (by decide) (by decide) (acc_off_2_0 k ⟨4, lt4⟩) x,
      List.forall_mem_cons.2 ⟨fun x => piece_val tab adr d L hadr 2 inb_S10x20x128_S1x20x128_2_0_0 (10 * k.val + 2) hh hg f0 _ (k2_off51_inb k ⟨3, lt3⟩) 3 4 (by decide) (by decide) (acc_off_2_4 k ⟨3, lt3⟩) x,
      List.forall_mem_cons.2 ⟨fun x => piece_val tab adr d L hadr 2 inb_S10x20x128_S1x20x128_2_0_0 (10 * k.val + 2) hh hg f0 _ (k2_off48_inb k ⟨3, lt3⟩) 3 3 (by decide) (by decide) (acc_off_2_3 k ⟨3, lt3⟩) x,
      List.forall_mem_cons.2 ⟨fun x => piece_val tab adr d L hadr 2 inb_S10x20x128_S1x20x128_2_0_0 (10 * k.val + 2) hh hg f0 _ (k2_off45_inb k ⟨3, lt3⟩) 3 2 (by decide) (by decide) (acc_off_2_2 k ⟨3, lt3⟩) x,
      List.forall_mem_cons.2 ⟨fun x => piece_val tab adr d L hadr 2 inb_S10x20x128_S1x20x128_2_0_0 (10 * k.val + 2) hh hg f0 _ (k2_off42_inb k ⟨3, lt3⟩) 3 1 (by decide) (by decide) (acc_off_2_1 k ⟨3, lt3⟩) x,
      List.forall_mem_cons.2 ⟨fun x => piece_val tab adr d L hadr 2 inb_S10x20x128_S1x20x128_2_0_0 (10 * k.val + 2) hh hg f0 _ (k2_off39_inb k ⟨3, lt3⟩) 3 0 (by decide) (by decide) (acc_off_2_0 k ⟨3, lt3⟩) x,
      List.forall_mem_cons.2 ⟨fun x => piece_val tab adr d L hadr 2 inb_S10x20x128_S1x20x128_2_0_0 (10 * k.val + 2) hh hg f0 _ (k2_off51_inb k ⟨2, lt2⟩) 2 4 (by decide) (by decide) (acc_off_2_4 k ⟨2, lt2⟩) x,
      List.forall_mem_cons.2 ⟨fun x => piece_val tab adr d L hadr 2 inb_S10x20x128_S1x20x128_2_0_0 (10 * k.val + 2) hh hg f0 _ (k2_off48_inb k ⟨2, lt2⟩) 2 3 (by decide) (by decide) (acc_off_2_3 k ⟨2, lt2⟩) x,
      List.forall_mem_cons.2 ⟨fun x => piece_val tab adr d L hadr 2 inb_S10x20x128_S1x20x128_2_0_0 (10 * k.val + 2) hh hg f0 _ (k2_off45_inb k ⟨2, lt2⟩) 2 2 (by decide) (by decide) (acc_off_2_2 k ⟨2, lt2⟩) x,
      List.forall_mem_cons.2 ⟨fun x => piece_val tab adr d L hadr 2 inb_S10x20x128_S1x20x128_2_0_0 (10 * k.val + 2) hh hg f0 _ (k2_off42_inb k ⟨2, lt2⟩) 2 1 (by decide) (by decide) (acc_off_2_1 k ⟨2, lt2⟩) x,
      List.forall_mem_cons.2 ⟨fun x => piece_val tab adr d L hadr 2 inb_S10x20x128_S1x20x128_2_0_0 (10 * k.val + 2) hh hg f0 _ (k2_off39_inb k ⟨2, lt2⟩) 2 0 (by decide) (by decide) (acc_off_2_0 k ⟨2, lt2⟩) x,
      List.forall_mem_cons.2 ⟨fun x => piece_val tab adr d L hadr 2 inb_S10x20x128_S1x20x128_2_0_0 (10 * k.val + 2) hh hg f0 _ (k2_off51_inb k ⟨1, lt1⟩) 1 4 (by decide) (by decide) (acc_off_2_4 k ⟨1, lt1⟩) x,
      List.forall_mem_cons.2 ⟨fun x => piece_val tab adr d L hadr 2 inb_S10x20x128_S1x20x128_2_0_0 (10 * k.val + 2) hh hg f0 _ (k2_off48_inb k ⟨1, lt1⟩) 1 3 (by decide) (by decide) (acc_off_2_3 k ⟨1, lt1⟩) x,
      List.forall_mem_cons.2 ⟨fun x => piece_val tab adr d L hadr 2 inb_S10x20x128_S1x20x128_2_0_0 (10 * k.val + 2) hh hg f0 _ (k2_off45_inb k ⟨1, lt1⟩) 1 2 (by decide) (by decide) (acc_off_2_2 k ⟨1, lt1⟩) x,
      List.forall_mem_cons.2 ⟨fun x => piece_val tab adr d L hadr 2 inb_S10x20x128_S1x20x128_2_0_0 (10 * k.val + 2) hh hg f0 _ (k2_off42_inb k ⟨1, lt1⟩) 1 1 (by decide) (by decide) (acc_off_2_1 k ⟨1, lt1⟩) x,
      List.forall_mem_cons.2 ⟨fun x => piece_val tab adr d L hadr 2 inb_S10x20x128_S1x20x128_2_0_0 (10 * k.val + 2) hh hg f0 _ (k2_off39_inb k ⟨1, lt1⟩) 1 0 (by decide) (by decide) (acc_off_2_0 k ⟨1, lt1⟩) x,
      List.forall_mem_cons.2 ⟨fun x => piece_val tab adr d L hadr 2 inb_S10x20x128_S1x20x128_2_0_0 (10 * k.val + 2) hh hg f0 _ (k2_off51_inb k ⟨0, lt0⟩) 0 4 (by decide) (by decide) (acc_off_2_4 k ⟨0, lt0⟩) x,
      List.forall_mem_cons.2 ⟨fun x => piece_val tab adr d L hadr 2 inb_S10x20x128_S1x20x128_2_0_0 (10 * k.val + 2) hh hg f0 _ (k2_off48_inb k ⟨0, lt0⟩) 0 3 (by decide) (by decide) (acc_off_2_3 k ⟨0, lt0⟩) x,
      List.forall_mem_cons.2 ⟨fun x => piece_val tab adr d L hadr 2 inb_S10x20x128_S1x20x128_2_0_0 (10 * k.val + 2) hh hg f0 _ (k2_off45_inb k ⟨0, lt0⟩) 0 2 (by decide) (by decide) (acc_off_2_2 k ⟨0, lt0⟩) x,
      List.forall_mem_cons.2 ⟨fun x => piece_val tab adr d L hadr 2 inb_S10x20x128_S1x20x128_2_0_0 (10 * k.val + 2) hh hg f0 _ (k2_off42_inb k ⟨0, lt0⟩) 0 1 (by decide) (by decide) (acc_off_2_1 k ⟨0, lt0⟩) x,
      List.forall_mem_cons.2 ⟨fun x => piece_val tab adr d L hadr 2 inb_S10x20x128_S1x20x128_2_0_0 (10 * k.val + 2) hh hg f0 _ (k2_off39_inb k ⟨0, lt0⟩) 0 0 (by decide) (by decide) (acc_off_2_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KB.Sc

end
-- ==== Proof.ScSlot3B.lean ====
/-
  The accumulation of one landed chunk, slot 3.
-/
import proofs.«207241_g55714315764006_cont_9to1c4b_410_29_alg».proof.Proof.ScPiecesB
import proofs.«207241_g55714315764006_cont_9to1c4b_410_29_alg».proof.Proof.ScPieceB
import proofs.«207241_g55714315764006_cont_9to1c4b_410_29_alg».proof.Proof.ScGPayB

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

/-- Slot 3's chunk `10 k + 3`, landed, is accumulated: the loop of five groups of four rows, five lane chunks each,
    reads the slot and stores the sums into the chunk's five rows of the accumulation scratch. -/
theorem accLoop3 (hadr : AdrOK adr) (k : Fin k2_t1_loop.trips) (arg18 v163 v185 c50_i32_157 v188 : BitVec 32)
    (f0 : Buf (Elt F) ((sR).view.loc (V d (cV L) (jV L)))) (hh : ∀ a, (![10 * k.val + 3, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 3 inb_S10x20x128_S1x20x128_3_0_0).view.loc (V d (cV L) (jV L)) ↦[(slotM 3 inb_S10x20x128_S1x20x128_3_0_0).view.set]{fullShare} View.write (Elt F) (slotM 3 inb_S10x20x128_S1x20x128_3_0_0).view f0 (gPay tab adr d L hadr ![10 * k.val + 3, 0] hh) Finset.univ)
        ∗ (∃ fy, ((sY).view.loc (V d (cV L) (jV L)) ↦{fullShare} fy) ∗ ⌜AccOK tab adr d L (10 * k.val + 3) fy⌝))
      ⊢ iprop((∀ r, (((slotM 3 inb_S10x20x128_S1x20x128_3_0_0).view.loc (V d (cV L) (jV L)) ↦[(slotM 3 inb_S10x20x128_S1x20x128_3_0_0).view.set]{fullShare} View.write (Elt F) (slotM 3 inb_S10x20x128_S1x20x128_3_0_0).view f0 (gPay tab adr d L hadr ![10 * k.val + 3, 0] hh) Finset.univ)
              ∗ (∃ fy, ((sY).view.loc (V d (cV L) (jV L)) ↦{fullShare} fy) ∗ ⌜AccOK tab adr d L (10 * k.val + 3 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t5_loop k2_t5_ok 0#32
              (k2_t5_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v163 v185 c50_i32_157 v188) >>= kk) Q) := by
  iintro ⟨Hs, ⟨%fy, Hy, %hacc⟩⟩
  iintro Hk
  sl_unroll trips_t5
  sl_exec
  iapply Hk
  isplitl [Hs]; · iexact Hs
  iexists _
  isplitl [Hy]; · iexact Hy
  ipureintro
  have hk : k.val < 25 := lt_of_lt_of_eq k.isLt trips_t1
  have hc : 10 * k.val + 3 < 250 := by omega
  have h5 : ∀ n, n < 5 → n < k2_t5_loop.trips := fun n h => lt_of_lt_of_eq h trips_t5.symm
  have hg : ∀ (j : Fin 20) (l : Fin 128), gPay tab adr d L hadr ![10 * k.val + 3, 0] hh (ix2 j l)
      = rowN tab adr d L (10 * k.val + 3) j.val l.val := fun j l => gPay_apply tab adr d L hadr (10 * k.val + 3) hc hh j l
  refine accOK_of_pieces tab adr d L (10 * k.val + 3) hc fy hacc _ ?_
  unfold accLoop3.sl.Hy_22 accLoop3.sl.Hy_17 accLoop3.sl.Hy_12 accLoop3.sl.Hy_7
  unfold tcList
  refine List.Forall₂.cons ?_ ?_
  · exact ⟨_, _, _, acc_off_3_4 k ⟨4, h5 4 (by decide)⟩, rfl, fun x => piece_val tab adr d L hadr 3 inb_S10x20x128_S1x20x128_3_0_0 (10 * k.val + 3) hh hg f0 _ _ 4 4 (by decide) (by decide) (acc_off_3_4 k ⟨4, h5 4 (by decide)⟩) x⟩
  refine List.Forall₂.cons ?_ ?_
  · exact ⟨_, _, _, acc_off_3_3 k ⟨4, h5 4 (by decide)⟩, rfl, fun x => piece_val tab adr d L hadr 3 inb_S10x20x128_S1x20x128_3_0_0 (10 * k.val + 3) hh hg f0 _ _ 4 3 (by decide) (by decide) (acc_off_3_3 k ⟨4, h5 4 (by decide)⟩) x⟩
  refine List.Forall₂.cons ?_ ?_
  · exact ⟨_, _, _, acc_off_3_2 k ⟨4, h5 4 (by decide)⟩, rfl, fun x => piece_val tab adr d L hadr 3 inb_S10x20x128_S1x20x128_3_0_0 (10 * k.val + 3) hh hg f0 _ _ 4 2 (by decide) (by decide) (acc_off_3_2 k ⟨4, h5 4 (by decide)⟩) x⟩
  refine List.Forall₂.cons ?_ ?_
  · exact ⟨_, _, _, acc_off_3_1 k ⟨4, h5 4 (by decide)⟩, rfl, fun x => piece_val tab adr d L hadr 3 inb_S10x20x128_S1x20x128_3_0_0 (10 * k.val + 3) hh hg f0 _ _ 4 1 (by decide) (by decide) (acc_off_3_1 k ⟨4, h5 4 (by decide)⟩) x⟩
  refine List.Forall₂.cons ?_ ?_
  · exact ⟨_, _, _, acc_off_3_0 k ⟨4, h5 4 (by decide)⟩, rfl, fun x => piece_val tab adr d L hadr 3 inb_S10x20x128_S1x20x128_3_0_0 (10 * k.val + 3) hh hg f0 _ _ 4 0 (by decide) (by decide) (acc_off_3_0 k ⟨4, h5 4 (by decide)⟩) x⟩
  refine List.Forall₂.cons ?_ ?_
  · exact ⟨_, _, _, acc_off_3_4 k ⟨3, h5 3 (by decide)⟩, rfl, fun x => piece_val tab adr d L hadr 3 inb_S10x20x128_S1x20x128_3_0_0 (10 * k.val + 3) hh hg f0 _ _ 3 4 (by decide) (by decide) (acc_off_3_4 k ⟨3, h5 3 (by decide)⟩) x⟩
  refine List.Forall₂.cons ?_ ?_
  · exact ⟨_, _, _, acc_off_3_3 k ⟨3, h5 3 (by decide)⟩, rfl, fun x => piece_val tab adr d L hadr 3 inb_S10x20x128_S1x20x128_3_0_0 (10 * k.val + 3) hh hg f0 _ _ 3 3 (by decide) (by decide) (acc_off_3_3 k ⟨3, h5 3 (by decide)⟩) x⟩
  refine List.Forall₂.cons ?_ ?_
  · exact ⟨_, _, _, acc_off_3_2 k ⟨3, h5 3 (by decide)⟩, rfl, fun x => piece_val tab adr d L hadr 3 inb_S10x20x128_S1x20x128_3_0_0 (10 * k.val + 3) hh hg f0 _ _ 3 2 (by decide) (by decide) (acc_off_3_2 k ⟨3, h5 3 (by decide)⟩) x⟩
  refine List.Forall₂.cons ?_ ?_
  · exact ⟨_, _, _, acc_off_3_1 k ⟨3, h5 3 (by decide)⟩, rfl, fun x => piece_val tab adr d L hadr 3 inb_S10x20x128_S1x20x128_3_0_0 (10 * k.val + 3) hh hg f0 _ _ 3 1 (by decide) (by decide) (acc_off_3_1 k ⟨3, h5 3 (by decide)⟩) x⟩
  refine List.Forall₂.cons ?_ ?_
  · exact ⟨_, _, _, acc_off_3_0 k ⟨3, h5 3 (by decide)⟩, rfl, fun x => piece_val tab adr d L hadr 3 inb_S10x20x128_S1x20x128_3_0_0 (10 * k.val + 3) hh hg f0 _ _ 3 0 (by decide) (by decide) (acc_off_3_0 k ⟨3, h5 3 (by decide)⟩) x⟩
  refine List.Forall₂.cons ?_ ?_
  · exact ⟨_, _, _, acc_off_3_4 k ⟨2, h5 2 (by decide)⟩, rfl, fun x => piece_val tab adr d L hadr 3 inb_S10x20x128_S1x20x128_3_0_0 (10 * k.val + 3) hh hg f0 _ _ 2 4 (by decide) (by decide) (acc_off_3_4 k ⟨2, h5 2 (by decide)⟩) x⟩
  refine List.Forall₂.cons ?_ ?_
  · exact ⟨_, _, _, acc_off_3_3 k ⟨2, h5 2 (by decide)⟩, rfl, fun x => piece_val tab adr d L hadr 3 inb_S10x20x128_S1x20x128_3_0_0 (10 * k.val + 3) hh hg f0 _ _ 2 3 (by decide) (by decide) (acc_off_3_3 k ⟨2, h5 2 (by decide)⟩) x⟩
  refine List.Forall₂.cons ?_ ?_
  · exact ⟨_, _, _, acc_off_3_2 k ⟨2, h5 2 (by decide)⟩, rfl, fun x => piece_val tab adr d L hadr 3 inb_S10x20x128_S1x20x128_3_0_0 (10 * k.val + 3) hh hg f0 _ _ 2 2 (by decide) (by decide) (acc_off_3_2 k ⟨2, h5 2 (by decide)⟩) x⟩
  refine List.Forall₂.cons ?_ ?_
  · exact ⟨_, _, _, acc_off_3_1 k ⟨2, h5 2 (by decide)⟩, rfl, fun x => piece_val tab adr d L hadr 3 inb_S10x20x128_S1x20x128_3_0_0 (10 * k.val + 3) hh hg f0 _ _ 2 1 (by decide) (by decide) (acc_off_3_1 k ⟨2, h5 2 (by decide)⟩) x⟩
  refine List.Forall₂.cons ?_ ?_
  · exact ⟨_, _, _, acc_off_3_0 k ⟨2, h5 2 (by decide)⟩, rfl, fun x => piece_val tab adr d L hadr 3 inb_S10x20x128_S1x20x128_3_0_0 (10 * k.val + 3) hh hg f0 _ _ 2 0 (by decide) (by decide) (acc_off_3_0 k ⟨2, h5 2 (by decide)⟩) x⟩
  refine List.Forall₂.cons ?_ ?_
  · exact ⟨_, _, _, acc_off_3_4 k ⟨1, h5 1 (by decide)⟩, rfl, fun x => piece_val tab adr d L hadr 3 inb_S10x20x128_S1x20x128_3_0_0 (10 * k.val + 3) hh hg f0 _ _ 1 4 (by decide) (by decide) (acc_off_3_4 k ⟨1, h5 1 (by decide)⟩) x⟩
  refine List.Forall₂.cons ?_ ?_
  · exact ⟨_, _, _, acc_off_3_3 k ⟨1, h5 1 (by decide)⟩, rfl, fun x => piece_val tab adr d L hadr 3 inb_S10x20x128_S1x20x128_3_0_0 (10 * k.val + 3) hh hg f0 _ _ 1 3 (by decide) (by decide) (acc_off_3_3 k ⟨1, h5 1 (by decide)⟩) x⟩
  refine List.Forall₂.cons ?_ ?_
  · exact ⟨_, _, _, acc_off_3_2 k ⟨1, h5 1 (by decide)⟩, rfl, fun x => piece_val tab adr d L hadr 3 inb_S10x20x128_S1x20x128_3_0_0 (10 * k.val + 3) hh hg f0 _ _ 1 2 (by decide) (by decide) (acc_off_3_2 k ⟨1, h5 1 (by decide)⟩) x⟩
  refine List.Forall₂.cons ?_ ?_
  · exact ⟨_, _, _, acc_off_3_1 k ⟨1, h5 1 (by decide)⟩, rfl, fun x => piece_val tab adr d L hadr 3 inb_S10x20x128_S1x20x128_3_0_0 (10 * k.val + 3) hh hg f0 _ _ 1 1 (by decide) (by decide) (acc_off_3_1 k ⟨1, h5 1 (by decide)⟩) x⟩
  refine List.Forall₂.cons ?_ ?_
  · exact ⟨_, _, _, acc_off_3_0 k ⟨1, h5 1 (by decide)⟩, rfl, fun x => piece_val tab adr d L hadr 3 inb_S10x20x128_S1x20x128_3_0_0 (10 * k.val + 3) hh hg f0 _ _ 1 0 (by decide) (by decide) (acc_off_3_0 k ⟨1, h5 1 (by decide)⟩) x⟩
  refine List.Forall₂.cons ?_ ?_
  · exact ⟨_, _, _, acc_off_3_4 k ⟨0, h5 0 (by decide)⟩, rfl, fun x => piece_val tab adr d L hadr 3 inb_S10x20x128_S1x20x128_3_0_0 (10 * k.val + 3) hh hg f0 _ _ 0 4 (by decide) (by decide) (acc_off_3_4 k ⟨0, h5 0 (by decide)⟩) x⟩
  refine List.Forall₂.cons ?_ ?_
  · exact ⟨_, _, _, acc_off_3_3 k ⟨0, h5 0 (by decide)⟩, rfl, fun x => piece_val tab adr d L hadr 3 inb_S10x20x128_S1x20x128_3_0_0 (10 * k.val + 3) hh hg f0 _ _ 0 3 (by decide) (by decide) (acc_off_3_3 k ⟨0, h5 0 (by decide)⟩) x⟩
  refine List.Forall₂.cons ?_ ?_
  · exact ⟨_, _, _, acc_off_3_2 k ⟨0, h5 0 (by decide)⟩, rfl, fun x => piece_val tab adr d L hadr 3 inb_S10x20x128_S1x20x128_3_0_0 (10 * k.val + 3) hh hg f0 _ _ 0 2 (by decide) (by decide) (acc_off_3_2 k ⟨0, h5 0 (by decide)⟩) x⟩
  refine List.Forall₂.cons ?_ ?_
  · exact ⟨_, _, _, acc_off_3_1 k ⟨0, h5 0 (by decide)⟩, rfl, fun x => piece_val tab adr d L hadr 3 inb_S10x20x128_S1x20x128_3_0_0 (10 * k.val + 3) hh hg f0 _ _ 0 1 (by decide) (by decide) (acc_off_3_1 k ⟨0, h5 0 (by decide)⟩) x⟩
  refine List.Forall₂.cons ?_ ?_
  · exact ⟨_, _, _, acc_off_3_0 k ⟨0, h5 0 (by decide)⟩, rfl, fun x => piece_val tab adr d L hadr 3 inb_S10x20x128_S1x20x128_3_0_0 (10 * k.val + 3) hh hg f0 _ _ 0 0 (by decide) (by decide) (acc_off_3_0 k ⟨0, h5 0 (by decide)⟩) x⟩
  exact List.Forall₂.nil

end Cert.Proof.KB.Sc

end
-- ==== Proof.ScSlot4B.lean ====
/-
  The accumulation of one landed chunk, slot 4.
-/
import proofs.«207241_g55714315764006_cont_9to1c4b_410_29_alg».proof.Proof.ScDefsB
import proofs.«207241_g55714315764006_cont_9to1c4b_410_29_alg».proof.Proof.ScAccStepB
import proofs.«207241_g55714315764006_cont_9to1c4b_410_29_alg».proof.Proof.ScPieceB
import proofs.«207241_g55714315764006_cont_9to1c4b_410_29_alg».proof.Proof.ScGPayB

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 4's chunk `10 k + 4`, landed, is accumulated: the loop of five groups of four rows, five lane chunks each,
    reads the slot and stores the sums into the chunk's five rows of the accumulation scratch. -/
theorem accLoop4 (hadr : AdrOK adr) (k : Fin k2_t1_loop.trips) (arg18 v199 v205 : BitVec 32) (v216 : BitVec 1) (v217 c0_i32_182 v224 : BitVec 32)
    (f0 : Buf (Elt F) ((sR).view.loc (V d (cV L) (jV L)))) (hh : ∀ a, (![10 * k.val + 4, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 4 inb_S10x20x128_S1x20x128_4_0_0).view.loc (V d (cV L) (jV L)) ↦[(slotM 4 inb_S10x20x128_S1x20x128_4_0_0).view.set]{fullShare} View.write (Elt F) (slotM 4 inb_S10x20x128_S1x20x128_4_0_0).view f0 (gPay tab adr d L hadr ![10 * k.val + 4, 0] hh) Finset.univ)
        ∗ (∃ fy, ((sY).view.loc (V d (cV L) (jV L)) ↦{fullShare} fy) ∗ ⌜AccOK tab adr d L (10 * k.val + 4) fy⌝))
      ⊢ iprop((∀ r, (((slotM 4 inb_S10x20x128_S1x20x128_4_0_0).view.loc (V d (cV L) (jV L)) ↦[(slotM 4 inb_S10x20x128_S1x20x128_4_0_0).view.set]{fullShare} View.write (Elt F) (slotM 4 inb_S10x20x128_S1x20x128_4_0_0).view f0 (gPay tab adr d L hadr ![10 * k.val + 4, 0] hh) Finset.univ)
              ∗ (∃ fy, ((sY).view.loc (V d (cV L) (jV L)) ↦{fullShare} fy) ∗ ⌜AccOK tab adr d L (10 * k.val + 4 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t6_loop k2_t6_ok 0#32
              (k2_t6_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v199 v205 v216 v217 c0_i32_182 v224) >>= kk) Q) := by
  have hk : k.val < 25 := lt_of_lt_of_eq k.isLt trips_t1
  have lt0 : 0 < k2_t6_loop.trips := by rw [trips_t6]; decide
  have lt1 : 1 < k2_t6_loop.trips := by rw [trips_t6]; decide
  have lt2 : 2 < k2_t6_loop.trips := by rw [trips_t6]; decide
  have lt3 : 3 < k2_t6_loop.trips := by rw [trips_t6]; decide
  have lt4 : 4 < k2_t6_loop.trips := by rw [trips_t6]; decide
  have hg := gPay_apply tab adr d L hadr (10 * k.val + 4) (by omega) hh
  iintro ⟨Hs, ⟨%fy, Hy, %hacc⟩⟩ Hk
  sl_unroll trips_t6
  sl_exec
  iapply Hk
  isplitl [Hs]; · iexact Hs
  iexists _
  isplitl [Hy]; · iexact Hy
  ipureintro
  sl_unfold_run_names
  refine accOK_step tab adr d L (10 * k.val + 4) (by omega) fy hacc _ ?_ ?_ ?_
  · -- every store lies in the chunk's own five rows
    exact List.forall_mem_cons.2 ⟨fun y hy => row_of_mem hy _ _ ((10 * k.val + 4) % 50) 4 (by decide) (acc_off_4_4 k ⟨4, lt4⟩) rfl (fun _ => rfl) rfl,
      List.forall_mem_cons.2 ⟨fun y hy => row_of_mem hy _ _ ((10 * k.val + 4) % 50) 4 (by decide) (acc_off_4_3 k ⟨4, lt4⟩) rfl (fun _ => rfl) rfl,
      List.forall_mem_cons.2 ⟨fun y hy => row_of_mem hy _ _ ((10 * k.val + 4) % 50) 4 (by decide) (acc_off_4_2 k ⟨4, lt4⟩) rfl (fun _ => rfl) rfl,
      List.forall_mem_cons.2 ⟨fun y hy => row_of_mem hy _ _ ((10 * k.val + 4) % 50) 4 (by decide) (acc_off_4_1 k ⟨4, lt4⟩) rfl (fun _ => rfl) rfl,
      List.forall_mem_cons.2 ⟨fun y hy => row_of_mem hy _ _ ((10 * k.val + 4) % 50) 4 (by decide) (acc_off_4_0 k ⟨4, lt4⟩) rfl (fun _ => rfl) rfl,
      List.forall_mem_cons.2 ⟨fun y hy => row_of_mem hy _ _ ((10 * k.val + 4) % 50) 3 (by decide) (acc_off_4_4 k ⟨3, lt3⟩) rfl (fun _ => rfl) rfl,
      List.forall_mem_cons.2 ⟨fun y hy => row_of_mem hy _ _ ((10 * k.val + 4) % 50) 3 (by decide) (acc_off_4_3 k ⟨3, lt3⟩) rfl (fun _ => rfl) rfl,
      List.forall_mem_cons.2 ⟨fun y hy => row_of_mem hy _ _ ((10 * k.val + 4) % 50) 3 (by decide) (acc_off_4_2 k ⟨3, lt3⟩) rfl (fun _ => rfl) rfl,
      List.forall_mem_cons.2 ⟨fun y hy => row_of_mem hy _ _ ((10 * k.val + 4) % 50) 3 (by decide) (acc_off_4_1 k ⟨3, lt3⟩) rfl (fun _ => rfl) rfl,
      List.forall_mem_cons.2 ⟨fun y hy => row_of_mem hy _ _ ((10 * k.val + 4) % 50) 3 (by decide) (acc_off_4_0 k ⟨3, lt3⟩) rfl (fun _ => rfl) rfl,
      List.forall_mem_cons.2 ⟨fun y hy => row_of_mem hy _ _ ((10 * k.val + 4) % 50) 2 (by decide) (acc_off_4_4 k ⟨2, lt2⟩) rfl (fun _ => rfl) rfl,
      List.forall_mem_cons.2 ⟨fun y hy => row_of_mem hy _ _ ((10 * k.val + 4) % 50) 2 (by decide) (acc_off_4_3 k ⟨2, lt2⟩) rfl (fun _ => rfl) rfl,
      List.forall_mem_cons.2 ⟨fun y hy => row_of_mem hy _ _ ((10 * k.val + 4) % 50) 2 (by decide) (acc_off_4_2 k ⟨2, lt2⟩) rfl (fun _ => rfl) rfl,
      List.forall_mem_cons.2 ⟨fun y hy => row_of_mem hy _ _ ((10 * k.val + 4) % 50) 2 (by decide) (acc_off_4_1 k ⟨2, lt2⟩) rfl (fun _ => rfl) rfl,
      List.forall_mem_cons.2 ⟨fun y hy => row_of_mem hy _ _ ((10 * k.val + 4) % 50) 2 (by decide) (acc_off_4_0 k ⟨2, lt2⟩) rfl (fun _ => rfl) rfl,
      List.forall_mem_cons.2 ⟨fun y hy => row_of_mem hy _ _ ((10 * k.val + 4) % 50) 1 (by decide) (acc_off_4_4 k ⟨1, lt1⟩) rfl (fun _ => rfl) rfl,
      List.forall_mem_cons.2 ⟨fun y hy => row_of_mem hy _ _ ((10 * k.val + 4) % 50) 1 (by decide) (acc_off_4_3 k ⟨1, lt1⟩) rfl (fun _ => rfl) rfl,
      List.forall_mem_cons.2 ⟨fun y hy => row_of_mem hy _ _ ((10 * k.val + 4) % 50) 1 (by decide) (acc_off_4_2 k ⟨1, lt1⟩) rfl (fun _ => rfl) rfl,
      List.forall_mem_cons.2 ⟨fun y hy => row_of_mem hy _ _ ((10 * k.val + 4) % 50) 1 (by decide) (acc_off_4_1 k ⟨1, lt1⟩) rfl (fun _ => rfl) rfl,
      List.forall_mem_cons.2 ⟨fun y hy => row_of_mem hy _ _ ((10 * k.val + 4) % 50) 1 (by decide) (acc_off_4_0 k ⟨1, lt1⟩) rfl (fun _ => rfl) rfl,
      List.forall_mem_cons.2 ⟨fun y hy => row_of_mem hy _ _ ((10 * k.val + 4) % 50) 0 (by decide) (acc_off_4_4 k ⟨0, lt0⟩) rfl (fun _ => rfl) rfl,
      List.forall_mem_cons.2 ⟨fun y hy => row_of_mem hy _ _ ((10 * k.val + 4) % 50) 0 (by decide) (acc_off_4_3 k ⟨0, lt0⟩) rfl (fun _ => rfl) rfl,
      List.forall_mem_cons.2 ⟨fun y hy => row_of_mem hy _ _ ((10 * k.val + 4) % 50) 0 (by decide) (acc_off_4_2 k ⟨0, lt0⟩) rfl (fun _ => rfl) rfl,
      List.forall_mem_cons.2 ⟨fun y hy => row_of_mem hy _ _ ((10 * k.val + 4) % 50) 0 (by decide) (acc_off_4_1 k ⟨0, lt0⟩) rfl (fun _ => rfl) rfl,
      List.forall_mem_cons.2 ⟨fun y hy => row_of_mem hy _ _ ((10 * k.val + 4) % 50) 0 (by decide) (acc_off_4_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 4) % 50) 0 l 0 (acc_off_4_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 4) % 50) 0 l 1 (acc_off_4_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 4) % 50) 0 l 2 (acc_off_4_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 4) % 50) 0 l 3 (acc_off_4_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 4) % 50) 0 l 4 (acc_off_4_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 4) % 50) 1 l 0 (acc_off_4_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 4) % 50) 1 l 1 (acc_off_4_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 4) % 50) 1 l 2 (acc_off_4_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 4) % 50) 1 l 3 (acc_off_4_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 4) % 50) 1 l 4 (acc_off_4_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 4) % 50) 2 l 0 (acc_off_4_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 4) % 50) 2 l 1 (acc_off_4_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 4) % 50) 2 l 2 (acc_off_4_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 4) % 50) 2 l 3 (acc_off_4_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 4) % 50) 2 l 4 (acc_off_4_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 4) % 50) 3 l 0 (acc_off_4_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 4) % 50) 3 l 1 (acc_off_4_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 4) % 50) 3 l 2 (acc_off_4_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 4) % 50) 3 l 3 (acc_off_4_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 4) % 50) 3 l 4 (acc_off_4_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 4) % 50) 4 l 0 (acc_off_4_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 4) % 50) 4 l 1 (acc_off_4_1 k ⟨4, lt4⟩) rfl (fun _ => rfl) rfl rfl (by omega) hl hq⟩
    · exact ⟨_, List.mem_cons_of_mem _ (List.mem_cons_of_mem _ (List.mem_cons_self)), mem_of_lane _ _ _ ((10 * k.val + 4) % 50) 4 l 2 (acc_off_4_2 k ⟨4, lt4⟩) rfl (fun _ => rfl) rfl rfl (by omega) hl hq⟩
    · exact ⟨_, List.mem_cons_of_mem _ (List.mem_cons_self), mem_of_lane _ _ _ ((10 * k.val + 4) % 50) 4 l 3 (acc_off_4_3 k ⟨4, lt4⟩) rfl (fun _ => rfl) rfl rfl (by omega) hl hq⟩
    · exact ⟨_, List.mem_cons_self, mem_of_lane _ _ _ ((10 * k.val + 4) % 50) 4 l 4 (acc_off_4_4 k ⟨4, lt4⟩) rfl (fun _ => rfl) rfl rfl (by omega) hl hq⟩
  · -- each store's payload is the chunk's value at its row's group and its lane
    exact List.forall_mem_cons.2 ⟨fun x => piece_val tab adr d L hadr 4 inb_S10x20x128_S1x20x128_4_0_0 (10 * k.val + 4) hh hg f0 _ (k2_off85_inb k ⟨4, lt4⟩) 4 4 (by decide) (by decide) (acc_off_4_4 k ⟨4, lt4⟩) x,
      List.forall_mem_cons.2 ⟨fun x => piece_val tab adr d L hadr 4 inb_S10x20x128_S1x20x128_4_0_0 (10 * k.val + 4) hh hg f0 _ (k2_off82_inb k ⟨4, lt4⟩) 4 3 (by decide) (by decide) (acc_off_4_3 k ⟨4, lt4⟩) x,
      List.forall_mem_cons.2 ⟨fun x => piece_val tab adr d L hadr 4 inb_S10x20x128_S1x20x128_4_0_0 (10 * k.val + 4) hh hg f0 _ (k2_off79_inb k ⟨4, lt4⟩) 4 2 (by decide) (by decide) (acc_off_4_2 k ⟨4, lt4⟩) x,
      List.forall_mem_cons.2 ⟨fun x => piece_val tab adr d L hadr 4 inb_S10x20x128_S1x20x128_4_0_0 (10 * k.val + 4) hh hg f0 _ (k2_off76_inb k ⟨4, lt4⟩) 4 1 (by decide) (by decide) (acc_off_4_1 k ⟨4, lt4⟩) x,
      List.forall_mem_cons.2 ⟨fun x => piece_val tab adr d L hadr 4 inb_S10x20x128_S1x20x128_4_0_0 (10 * k.val + 4) hh hg f0 _ (k2_off73_inb k ⟨4, lt4⟩) 4 0 (by decide) (by decide) (acc_off_4_0 k ⟨4, lt4⟩) x,
      List.forall_mem_cons.2 ⟨fun x => piece_val tab adr d L hadr 4 inb_S10x20x128_S1x20x128_4_0_0 (10 * k.val + 4) hh hg f0 _ (k2_off85_inb k ⟨3, lt3⟩) 3 4 (by decide) (by decide) (acc_off_4_4 k ⟨3, lt3⟩) x,
      List.forall_mem_cons.2 ⟨fun x => piece_val tab adr d L hadr 4 inb_S10x20x128_S1x20x128_4_0_0 (10 * k.val + 4) hh hg f0 _ (k2_off82_inb k ⟨3, lt3⟩) 3 3 (by decide) (by decide) (acc_off_4_3 k ⟨3, lt3⟩) x,
      List.forall_mem_cons.2 ⟨fun x => piece_val tab adr d L hadr 4 inb_S10x20x128_S1x20x128_4_0_0 (10 * k.val + 4) hh hg f0 _ (k2_off79_inb k ⟨3, lt3⟩) 3 2 (by decide) (by decide) (acc_off_4_2 k ⟨3, lt3⟩) x,
      List.forall_mem_cons.2 ⟨fun x => piece_val tab adr d L hadr 4 inb_S10x20x128_S1x20x128_4_0_0 (10 * k.val + 4) hh hg f0 _ (k2_off76_inb k ⟨3, lt3⟩) 3 1 (by decide) (by decide) (acc_off_4_1 k ⟨3, lt3⟩) x,
      List.forall_mem_cons.2 ⟨fun x => piece_val tab adr d L hadr 4 inb_S10x20x128_S1x20x128_4_0_0 (10 * k.val + 4) hh hg f0 _ (k2_off73_inb k ⟨3, lt3⟩) 3 0 (by decide) (by decide) (acc_off_4_0 k ⟨3, lt3⟩) x,
      List.forall_mem_cons.2 ⟨fun x => piece_val tab adr d L hadr 4 inb_S10x20x128_S1x20x128_4_0_0 (10 * k.val + 4) hh hg f0 _ (k2_off85_inb k ⟨2, lt2⟩) 2 4 (by decide) (by decide) (acc_off_4_4 k ⟨2, lt2⟩) x,
      List.forall_mem_cons.2 ⟨fun x => piece_val tab adr d L hadr 4 inb_S10x20x128_S1x20x128_4_0_0 (10 * k.val + 4) hh hg f0 _ (k2_off82_inb k ⟨2, lt2⟩) 2 3 (by decide) (by decide) (acc_off_4_3 k ⟨2, lt2⟩) x,
      List.forall_mem_cons.2 ⟨fun x => piece_val tab adr d L hadr 4 inb_S10x20x128_S1x20x128_4_0_0 (10 * k.val + 4) hh hg f0 _ (k2_off79_inb k ⟨2, lt2⟩) 2 2 (by decide) (by decide) (acc_off_4_2 k ⟨2, lt2⟩) x,
      List.forall_mem_cons.2 ⟨fun x => piece_val tab adr d L hadr 4 inb_S10x20x128_S1x20x128_4_0_0 (10 * k.val + 4) hh hg f0 _ (k2_off76_inb k ⟨2, lt2⟩) 2 1 (by decide) (by decide) (acc_off_4_1 k ⟨2, lt2⟩) x,
      List.forall_mem_cons.2 ⟨fun x => piece_val tab adr d L hadr 4 inb_S10x20x128_S1x20x128_4_0_0 (10 * k.val + 4) hh hg f0 _ (k2_off73_inb k ⟨2, lt2⟩) 2 0 (by decide) (by decide) (acc_off_4_0 k ⟨2, lt2⟩) x,
      List.forall_mem_cons.2 ⟨fun x => piece_val tab adr d L hadr 4 inb_S10x20x128_S1x20x128_4_0_0 (10 * k.val + 4) hh hg f0 _ (k2_off85_inb k ⟨1, lt1⟩) 1 4 (by decide) (by decide) (acc_off_4_4 k ⟨1, lt1⟩) x,
      List.forall_mem_cons.2 ⟨fun x => piece_val tab adr d L hadr 4 inb_S10x20x128_S1x20x128_4_0_0 (10 * k.val + 4) hh hg f0 _ (k2_off82_inb k ⟨1, lt1⟩) 1 3 (by decide) (by decide) (acc_off_4_3 k ⟨1, lt1⟩) x,
      List.forall_mem_cons.2 ⟨fun x => piece_val tab adr d L hadr 4 inb_S10x20x128_S1x20x128_4_0_0 (10 * k.val + 4) hh hg f0 _ (k2_off79_inb k ⟨1, lt1⟩) 1 2 (by decide) (by decide) (acc_off_4_2 k ⟨1, lt1⟩) x,
      List.forall_mem_cons.2 ⟨fun x => piece_val tab adr d L hadr 4 inb_S10x20x128_S1x20x128_4_0_0 (10 * k.val + 4) hh hg f0 _ (k2_off76_inb k ⟨1, lt1⟩) 1 1 (by decide) (by decide) (acc_off_4_1 k ⟨1, lt1⟩) x,
      List.forall_mem_cons.2 ⟨fun x => piece_val tab adr d L hadr 4 inb_S10x20x128_S1x20x128_4_0_0 (10 * k.val + 4) hh hg f0 _ (k2_off73_inb k ⟨1, lt1⟩) 1 0 (by decide) (by decide) (acc_off_4_0 k ⟨1, lt1⟩) x,
      List.forall_mem_cons.2 ⟨fun x => piece_val tab adr d L hadr 4 inb_S10x20x128_S1x20x128_4_0_0 (10 * k.val + 4) hh hg f0 _ (k2_off85_inb k ⟨0, lt0⟩) 0 4 (by decide) (by decide) (acc_off_4_4 k ⟨0, lt0⟩) x,
      List.forall_mem_cons.2 ⟨fun x => piece_val tab adr d L hadr 4 inb_S10x20x128_S1x20x128_4_0_0 (10 * k.val + 4) hh hg f0 _ (k2_off82_inb k ⟨0, lt0⟩) 0 3 (by decide) (by decide) (acc_off_4_3 k ⟨0, lt0⟩) x,
      List.forall_mem_cons.2 ⟨fun x => piece_val tab adr d L hadr 4 inb_S10x20x128_S1x20x128_4_0_0 (10 * k.val + 4) hh hg f0 _ (k2_off79_inb k ⟨0, lt0⟩) 0 2 (by decide) (by decide) (acc_off_4_2 k ⟨0, lt0⟩) x,
      List.forall_mem_cons.2 ⟨fun x => piece_val tab adr d L hadr 4 inb_S10x20x128_S1x20x128_4_0_0 (10 * k.val + 4) hh hg f0 _ (k2_off76_inb k ⟨0, lt0⟩) 0 1 (by decide) (by decide) (acc_off_4_1 k ⟨0, lt0⟩) x,
      List.forall_mem_cons.2 ⟨fun x => piece_val tab adr d L hadr 4 inb_S10x20x128_S1x20x128_4_0_0 (10 * k.val + 4) hh hg f0 _ (k2_off73_inb k ⟨0, lt0⟩) 0 0 (by decide) (by decide) (acc_off_4_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KB.Sc

end
-- ==== Proof.ScSlot5B.lean ====
/-
  The accumulation of one landed chunk, slot 5.
-/
import proofs.«207241_g55714315764006_cont_9to1c4b_410_29_alg».proof.Proof.ScPiecesB
import proofs.«207241_g55714315764006_cont_9to1c4b_410_29_alg».proof.Proof.ScPieceB
import proofs.«207241_g55714315764006_cont_9to1c4b_410_29_alg».proof.Proof.ScGPayB

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 5's chunk `10 k + 5`, landed, is accumulated: the loop of five groups of four rows, five lane chunks each,
    reads the slot and stores the sums into the chunk's five rows of the accumulation scratch. -/
theorem accLoop5 (hadr : AdrOK adr) (k : Fin k2_t1_loop.trips) (arg18 v235 c50_i32_204 v241 v246 v248 c0_i32_208 v260 : BitVec 32)
    (f0 : Buf (Elt F) ((sR).view.loc (V d (cV L) (jV L)))) (hh : ∀ a, (![10 * k.val + 5, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 5 inb_S10x20x128_S1x20x128_5_0_0).view.loc (V d (cV L) (jV L)) ↦[(slotM 5 inb_S10x20x128_S1x20x128_5_0_0).view.set]{fullShare} View.write (Elt F) (slotM 5 inb_S10x20x128_S1x20x128_5_0_0).view f0 (gPay tab adr d L hadr ![10 * k.val + 5, 0] hh) Finset.univ)
        ∗ (∃ fy, ((sY).view.loc (V d (cV L) (jV L)) ↦{fullShare} fy) ∗ ⌜AccOK tab adr d L (10 * k.val + 5) fy⌝))
      ⊢ iprop((∀ r, (((slotM 5 inb_S10x20x128_S1x20x128_5_0_0).view.loc (V d (cV L) (jV L)) ↦[(slotM 5 inb_S10x20x128_S1x20x128_5_0_0).view.set]{fullShare} View.write (Elt F) (slotM 5 inb_S10x20x128_S1x20x128_5_0_0).view f0 (gPay tab adr d L hadr ![10 * k.val + 5, 0] hh) Finset.univ)
              ∗ (∃ fy, ((sY).view.loc (V d (cV L) (jV L)) ↦{fullShare} fy) ∗ ⌜AccOK tab adr d L (10 * k.val + 5 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t7_loop k2_t7_ok 0#32
              (k2_t7_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v235 c50_i32_204 v241 v246 v248 c0_i32_208 v260) >>= kk) Q) := by
  iintro ⟨Hslot, ⟨%fy, Hy, %hacc⟩⟩ Hk
  sl_unroll trips_t7
  sl_exec
  iapply Hk
  isplitl [Hslot]; · iexact Hslot
  iexists _
  isplitl [Hy]; · iexact Hy
  ipureintro
  have hc : 10 * k.val + 5 < 250 := by have h := k.isLt; have e := trips_t1; omega
  have hg := fun (j : Fin 20) (l : Fin 128) => gPay_apply tab adr d L hadr (10 * k.val + 5) hc hh j l
  refine accOK_of_pieces tab adr d L (10 * k.val + 5) hc fy hacc _ ?_
  sl_unfold_run_names
  exact
    (List.Forall₂.cons ⟨_, _, _, acc_off_5_4 k _, rfl, fun x => piece_val tab adr d L hadr 5 inb_S10x20x128_S1x20x128_5_0_0 (10 * k.val + 5) hh hg f0 _ _ 4 4 (by decide) (by decide) (acc_off_5_4 k _) x⟩
    (List.Forall₂.cons ⟨_, _, _, acc_off_5_3 k _, rfl, fun x => piece_val tab adr d L hadr 5 inb_S10x20x128_S1x20x128_5_0_0 (10 * k.val + 5) hh hg f0 _ _ 4 3 (by decide) (by decide) (acc_off_5_3 k _) x⟩
    (List.Forall₂.cons ⟨_, _, _, acc_off_5_2 k _, rfl, fun x => piece_val tab adr d L hadr 5 inb_S10x20x128_S1x20x128_5_0_0 (10 * k.val + 5) hh hg f0 _ _ 4 2 (by decide) (by decide) (acc_off_5_2 k _) x⟩
    (List.Forall₂.cons ⟨_, _, _, acc_off_5_1 k _, rfl, fun x => piece_val tab adr d L hadr 5 inb_S10x20x128_S1x20x128_5_0_0 (10 * k.val + 5) hh hg f0 _ _ 4 1 (by decide) (by decide) (acc_off_5_1 k _) x⟩
    (List.Forall₂.cons ⟨_, _, _, acc_off_5_0 k _, rfl, fun x => piece_val tab adr d L hadr 5 inb_S10x20x128_S1x20x128_5_0_0 (10 * k.val + 5) hh hg f0 _ _ 4 0 (by decide) (by decide) (acc_off_5_0 k _) x⟩
    (List.Forall₂.cons ⟨_, _, _, acc_off_5_4 k _, rfl, fun x => piece_val tab adr d L hadr 5 inb_S10x20x128_S1x20x128_5_0_0 (10 * k.val + 5) hh hg f0 _ _ 3 4 (by decide) (by decide) (acc_off_5_4 k _) x⟩
    (List.Forall₂.cons ⟨_, _, _, acc_off_5_3 k _, rfl, fun x => piece_val tab adr d L hadr 5 inb_S10x20x128_S1x20x128_5_0_0 (10 * k.val + 5) hh hg f0 _ _ 3 3 (by decide) (by decide) (acc_off_5_3 k _) x⟩
    (List.Forall₂.cons ⟨_, _, _, acc_off_5_2 k _, rfl, fun x => piece_val tab adr d L hadr 5 inb_S10x20x128_S1x20x128_5_0_0 (10 * k.val + 5) hh hg f0 _ _ 3 2 (by decide) (by decide) (acc_off_5_2 k _) x⟩
    (List.Forall₂.cons ⟨_, _, _, acc_off_5_1 k _, rfl, fun x => piece_val tab adr d L hadr 5 inb_S10x20x128_S1x20x128_5_0_0 (10 * k.val + 5) hh hg f0 _ _ 3 1 (by decide) (by decide) (acc_off_5_1 k _) x⟩
    (List.Forall₂.cons ⟨_, _, _, acc_off_5_0 k _, rfl, fun x => piece_val tab adr d L hadr 5 inb_S10x20x128_S1x20x128_5_0_0 (10 * k.val + 5) hh hg f0 _ _ 3 0 (by decide) (by decide) (acc_off_5_0 k _) x⟩
    (List.Forall₂.cons ⟨_, _, _, acc_off_5_4 k _, rfl, fun x => piece_val tab adr d L hadr 5 inb_S10x20x128_S1x20x128_5_0_0 (10 * k.val + 5) hh hg f0 _ _ 2 4 (by decide) (by decide) (acc_off_5_4 k _) x⟩
    (List.Forall₂.cons ⟨_, _, _, acc_off_5_3 k _, rfl, fun x => piece_val tab adr d L hadr 5 inb_S10x20x128_S1x20x128_5_0_0 (10 * k.val + 5) hh hg f0 _ _ 2 3 (by decide) (by decide) (acc_off_5_3 k _) x⟩
    (List.Forall₂.cons ⟨_, _, _, acc_off_5_2 k _, rfl, fun x => piece_val tab adr d L hadr 5 inb_S10x20x128_S1x20x128_5_0_0 (10 * k.val + 5) hh hg f0 _ _ 2 2 (by decide) (by decide) (acc_off_5_2 k _) x⟩
    (List.Forall₂.cons ⟨_, _, _, acc_off_5_1 k _, rfl, fun x => piece_val tab adr d L hadr 5 inb_S10x20x128_S1x20x128_5_0_0 (10 * k.val + 5) hh hg f0 _ _ 2 1 (by decide) (by decide) (acc_off_5_1 k _) x⟩
    (List.Forall₂.cons ⟨_, _, _, acc_off_5_0 k _, rfl, fun x => piece_val tab adr d L hadr 5 inb_S10x20x128_S1x20x128_5_0_0 (10 * k.val + 5) hh hg f0 _ _ 2 0 (by decide) (by decide) (acc_off_5_0 k _) x⟩
    (List.Forall₂.cons ⟨_, _, _, acc_off_5_4 k _, rfl, fun x => piece_val tab adr d L hadr 5 inb_S10x20x128_S1x20x128_5_0_0 (10 * k.val + 5) hh hg f0 _ _ 1 4 (by decide) (by decide) (acc_off_5_4 k _) x⟩
    (List.Forall₂.cons ⟨_, _, _, acc_off_5_3 k _, rfl, fun x => piece_val tab adr d L hadr 5 inb_S10x20x128_S1x20x128_5_0_0 (10 * k.val + 5) hh hg f0 _ _ 1 3 (by decide) (by decide) (acc_off_5_3 k _) x⟩
    (List.Forall₂.cons ⟨_, _, _, acc_off_5_2 k _, rfl, fun x => piece_val tab adr d L hadr 5 inb_S10x20x128_S1x20x128_5_0_0 (10 * k.val + 5) hh hg f0 _ _ 1 2 (by decide) (by decide) (acc_off_5_2 k _) x⟩
    (List.Forall₂.cons ⟨_, _, _, acc_off_5_1 k _, rfl, fun x => piece_val tab adr d L hadr 5 inb_S10x20x128_S1x20x128_5_0_0 (10 * k.val + 5) hh hg f0 _ _ 1 1 (by decide) (by decide) (acc_off_5_1 k _) x⟩
    (List.Forall₂.cons ⟨_, _, _, acc_off_5_0 k _, rfl, fun x => piece_val tab adr d L hadr 5 inb_S10x20x128_S1x20x128_5_0_0 (10 * k.val + 5) hh hg f0 _ _ 1 0 (by decide) (by decide) (acc_off_5_0 k _) x⟩
    (List.Forall₂.cons ⟨_, _, _, acc_off_5_4 k _, rfl, fun x => piece_val tab adr d L hadr 5 inb_S10x20x128_S1x20x128_5_0_0 (10 * k.val + 5) hh hg f0 _ _ 0 4 (by decide) (by decide) (acc_off_5_4 k _) x⟩
    (List.Forall₂.cons ⟨_, _, _, acc_off_5_3 k _, rfl, fun x => piece_val tab adr d L hadr 5 inb_S10x20x128_S1x20x128_5_0_0 (10 * k.val + 5) hh hg f0 _ _ 0 3 (by decide) (by decide) (acc_off_5_3 k _) x⟩
    (List.Forall₂.cons ⟨_, _, _, acc_off_5_2 k _, rfl, fun x => piece_val tab adr d L hadr 5 inb_S10x20x128_S1x20x128_5_0_0 (10 * k.val + 5) hh hg f0 _ _ 0 2 (by decide) (by decide) (acc_off_5_2 k _) x⟩
    (List.Forall₂.cons ⟨_, _, _, acc_off_5_1 k _, rfl, fun x => piece_val tab adr d L hadr 5 inb_S10x20x128_S1x20x128_5_0_0 (10 * k.val + 5) hh hg f0 _ _ 0 1 (by decide) (by decide) (acc_off_5_1 k _) x⟩
    (List.Forall₂.cons ⟨_, _, _, acc_off_5_0 k _, rfl, fun x => piece_val tab adr d L hadr 5 inb_S10x20x128_S1x20x128_5_0_0 (10 * k.val + 5) hh hg f0 _ _ 0 0 (by decide) (by decide) (acc_off_5_0 k _) x⟩
    List.Forall₂.nil)))))))))))))))))))))))))

end Cert.Proof.KB.Sc

end
-- ==== Proof.ScSlot6B.lean ====
/-
  The accumulation of one landed chunk, slot 6.
-/
import proofs.«207241_g55714315764006_cont_9to1c4b_410_29_alg».proof.Proof.ScDefsB
import proofs.«207241_g55714315764006_cont_9to1c4b_410_29_alg».proof.Proof.ScAccStepB
import proofs.«207241_g55714315764006_cont_9to1c4b_410_29_alg».proof.Proof.ScPieceB
import proofs.«207241_g55714315764006_cont_9to1c4b_410_29_alg».proof.Proof.ScGPayB

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 6's chunk `10 k + 6`, landed, is accumulated: the loop of five groups of four rows, five lane chunks each,
    reads the slot and stores the sums into the chunk's five rows of the accumulation scratch. -/
theorem accLoop6 (hadr : AdrOK adr) (k : Fin k2_t1_loop.trips) (arg18 v271 c50_i32_231 v277 v279 : BitVec 32) (v280 : BitVec 1) (v296 : BitVec 32)
    (f0 : Buf (Elt F) ((sR).view.loc (V d (cV L) (jV L)))) (hh : ∀ a, (![10 * k.val + 6, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 6 inb_S10x20x128_S1x20x128_6_0_0).view.loc (V d (cV L) (jV L)) ↦[(slotM 6 inb_S10x20x128_S1x20x128_6_0_0).view.set]{fullShare} View.write (Elt F) (slotM 6 inb_S10x20x128_S1x20x128_6_0_0).view f0 (gPay tab adr d L hadr ![10 * k.val + 6, 0] hh) Finset.univ)
        ∗ (∃ fy, ((sY).view.loc (V d (cV L) (jV L)) ↦{fullShare} fy) ∗ ⌜AccOK tab adr d L (10 * k.val + 6) fy⌝))
      ⊢ iprop((∀ r, (((slotM 6 inb_S10x20x128_S1x20x128_6_0_0).view.loc (V d (cV L) (jV L)) ↦[(slotM 6 inb_S10x20x128_S1x20x128_6_0_0).view.set]{fullShare} View.write (Elt F) (slotM 6 inb_S10x20x128_S1x20x128_6_0_0).view f0 (gPay tab adr d L hadr ![10 * k.val + 6, 0] hh) Finset.univ)
              ∗ (∃ fy, ((sY).view.loc (V d (cV L) (jV L)) ↦{fullShare} fy) ∗ ⌜AccOK tab adr d L (10 * k.val + 6 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t8_loop k2_t8_ok 0#32
              (k2_t8_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v271 c50_i32_231 v277 v279 v280 v296) >>= kk) Q) := by
  have hk : k.val < 25 := lt_of_lt_of_eq k.isLt trips_t1
  have lt0 : 0 < k2_t8_loop.trips := by rw [trips_t8]; decide
  have lt1 : 1 < k2_t8_loop.trips := by rw [trips_t8]; decide
  have lt2 : 2 < k2_t8_loop.trips := by rw [trips_t8]; decide
  have lt3 : 3 < k2_t8_loop.trips := by rw [trips_t8]; decide
  have lt4 : 4 < k2_t8_loop.trips := by rw [trips_t8]; decide
  have hg := gPay_apply tab adr d L hadr (10 * k.val + 6) (by omega) hh
  iintro ⟨Hs, ⟨%fy, Hy, %hacc⟩⟩ Hk
  sl_unroll trips_t8
  sl_exec
  iapply Hk
  isplitl [Hs]; · iexact Hs
  iexists _
  isplitl [Hy]; · iexact Hy
  ipureintro
  sl_unfold_run_names
  refine accOK_step tab adr d L (10 * k.val + 6) (by omega) fy hacc _ ?_ ?_ ?_
  · -- every store lies in the chunk's own five rows
    exact List.forall_mem_cons.2 ⟨fun y hy => row_of_mem hy _ _ ((10 * k.val + 6) % 50) 4 (by decide) (acc_off_6_4 k ⟨4, lt4⟩) rfl (fun _ => rfl) rfl,
      List.forall_mem_cons.2 ⟨fun y hy => row_of_mem hy _ _ ((10 * k.val + 6) % 50) 4 (by decide) (acc_off_6_3 k ⟨4, lt4⟩) rfl (fun _ => rfl) rfl,
      List.forall_mem_cons.2 ⟨fun y hy => row_of_mem hy _ _ ((10 * k.val + 6) % 50) 4 (by decide) (acc_off_6_2 k ⟨4, lt4⟩) rfl (fun _ => rfl) rfl,
      List.forall_mem_cons.2 ⟨fun y hy => row_of_mem hy _ _ ((10 * k.val + 6) % 50) 4 (by decide) (acc_off_6_1 k ⟨4, lt4⟩) rfl (fun _ => rfl) rfl,
      List.forall_mem_cons.2 ⟨fun y hy => row_of_mem hy _ _ ((10 * k.val + 6) % 50) 4 (by decide) (acc_off_6_0 k ⟨4, lt4⟩) rfl (fun _ => rfl) rfl,
      List.forall_mem_cons.2 ⟨fun y hy => row_of_mem hy _ _ ((10 * k.val + 6) % 50) 3 (by decide) (acc_off_6_4 k ⟨3, lt3⟩) rfl (fun _ => rfl) rfl,
      List.forall_mem_cons.2 ⟨fun y hy => row_of_mem hy _ _ ((10 * k.val + 6) % 50) 3 (by decide) (acc_off_6_3 k ⟨3, lt3⟩) rfl (fun _ => rfl) rfl,
      List.forall_mem_cons.2 ⟨fun y hy => row_of_mem hy _ _ ((10 * k.val + 6) % 50) 3 (by decide) (acc_off_6_2 k ⟨3, lt3⟩) rfl (fun _ => rfl) rfl,
      List.forall_mem_cons.2 ⟨fun y hy => row_of_mem hy _ _ ((10 * k.val + 6) % 50) 3 (by decide) (acc_off_6_1 k ⟨3, lt3⟩) rfl (fun _ => rfl) rfl,
      List.forall_mem_cons.2 ⟨fun y hy => row_of_mem hy _ _ ((10 * k.val + 6) % 50) 3 (by decide) (acc_off_6_0 k ⟨3, lt3⟩) rfl (fun _ => rfl) rfl,
      List.forall_mem_cons.2 ⟨fun y hy => row_of_mem hy _ _ ((10 * k.val + 6) % 50) 2 (by decide) (acc_off_6_4 k ⟨2, lt2⟩) rfl (fun _ => rfl) rfl,
      List.forall_mem_cons.2 ⟨fun y hy => row_of_mem hy _ _ ((10 * k.val + 6) % 50) 2 (by decide) (acc_off_6_3 k ⟨2, lt2⟩) rfl (fun _ => rfl) rfl,
      List.forall_mem_cons.2 ⟨fun y hy => row_of_mem hy _ _ ((10 * k.val + 6) % 50) 2 (by decide) (acc_off_6_2 k ⟨2, lt2⟩) rfl (fun _ => rfl) rfl,
      List.forall_mem_cons.2 ⟨fun y hy => row_of_mem hy _ _ ((10 * k.val + 6) % 50) 2 (by decide) (acc_off_6_1 k ⟨2, lt2⟩) rfl (fun _ => rfl) rfl,
      List.forall_mem_cons.2 ⟨fun y hy => row_of_mem hy _ _ ((10 * k.val + 6) % 50) 2 (by decide) (acc_off_6_0 k ⟨2, lt2⟩) rfl (fun _ => rfl) rfl,
      List.forall_mem_cons.2 ⟨fun y hy => row_of_mem hy _ _ ((10 * k.val + 6) % 50) 1 (by decide) (acc_off_6_4 k ⟨1, lt1⟩) rfl (fun _ => rfl) rfl,
      List.forall_mem_cons.2 ⟨fun y hy => row_of_mem hy _ _ ((10 * k.val + 6) % 50) 1 (by decide) (acc_off_6_3 k ⟨1, lt1⟩) rfl (fun _ => rfl) rfl,
      List.forall_mem_cons.2 ⟨fun y hy => row_of_mem hy _ _ ((10 * k.val + 6) % 50) 1 (by decide) (acc_off_6_2 k ⟨1, lt1⟩) rfl (fun _ => rfl) rfl,
      List.forall_mem_cons.2 ⟨fun y hy => row_of_mem hy _ _ ((10 * k.val + 6) % 50) 1 (by decide) (acc_off_6_1 k ⟨1, lt1⟩) rfl (fun _ => rfl) rfl,
      List.forall_mem_cons.2 ⟨fun y hy => row_of_mem hy _ _ ((10 * k.val + 6) % 50) 1 (by decide) (acc_off_6_0 k ⟨1, lt1⟩) rfl (fun _ => rfl) rfl,
      List.forall_mem_cons.2 ⟨fun y hy => row_of_mem hy _ _ ((10 * k.val + 6) % 50) 0 (by decide) (acc_off_6_4 k ⟨0, lt0⟩) rfl (fun _ => rfl) rfl,
      List.forall_mem_cons.2 ⟨fun y hy => row_of_mem hy _ _ ((10 * k.val + 6) % 50) 0 (by decide) (acc_off_6_3 k ⟨0, lt0⟩) rfl (fun _ => rfl) rfl,
      List.forall_mem_cons.2 ⟨fun y hy => row_of_mem hy _ _ ((10 * k.val + 6) % 50) 0 (by decide) (acc_off_6_2 k ⟨0, lt0⟩) rfl (fun _ => rfl) rfl,
      List.forall_mem_cons.2 ⟨fun y hy => row_of_mem hy _ _ ((10 * k.val + 6) % 50) 0 (by decide) (acc_off_6_1 k ⟨0, lt0⟩) rfl (fun _ => rfl) rfl,
      List.forall_mem_cons.2 ⟨fun y hy => row_of_mem hy _ _ ((10 * k.val + 6) % 50) 0 (by decide) (acc_off_6_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 6) % 50) 0 l 0 (acc_off_6_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 6) % 50) 0 l 1 (acc_off_6_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 6) % 50) 0 l 2 (acc_off_6_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 6) % 50) 0 l 3 (acc_off_6_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 6) % 50) 0 l 4 (acc_off_6_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 6) % 50) 1 l 0 (acc_off_6_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 6) % 50) 1 l 1 (acc_off_6_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 6) % 50) 1 l 2 (acc_off_6_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 6) % 50) 1 l 3 (acc_off_6_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 6) % 50) 1 l 4 (acc_off_6_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 6) % 50) 2 l 0 (acc_off_6_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 6) % 50) 2 l 1 (acc_off_6_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 6) % 50) 2 l 2 (acc_off_6_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 6) % 50) 2 l 3 (acc_off_6_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 6) % 50) 2 l 4 (acc_off_6_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 6) % 50) 3 l 0 (acc_off_6_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 6) % 50) 3 l 1 (acc_off_6_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 6) % 50) 3 l 2 (acc_off_6_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 6) % 50) 3 l 3 (acc_off_6_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 6) % 50) 3 l 4 (acc_off_6_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 6) % 50) 4 l 0 (acc_off_6_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 6) % 50) 4 l 1 (acc_off_6_1 k ⟨4, lt4⟩) rfl (fun _ => rfl) rfl rfl (by omega) hl hq⟩
    · exact ⟨_, List.mem_cons_of_mem _ (List.mem_cons_of_mem _ (List.mem_cons_self)), mem_of_lane _ _ _ ((10 * k.val + 6) % 50) 4 l 2 (acc_off_6_2 k ⟨4, lt4⟩) rfl (fun _ => rfl) rfl rfl (by omega) hl hq⟩
    · exact ⟨_, List.mem_cons_of_mem _ (List.mem_cons_self), mem_of_lane _ _ _ ((10 * k.val + 6) % 50) 4 l 3 (acc_off_6_3 k ⟨4, lt4⟩) rfl (fun _ => rfl) rfl rfl (by omega) hl hq⟩
    · exact ⟨_, List.mem_cons_self, mem_of_lane _ _ _ ((10 * k.val + 6) % 50) 4 l 4 (acc_off_6_4 k ⟨4, lt4⟩) rfl (fun _ => rfl) rfl rfl (by omega) hl hq⟩
  · -- each store's payload is the chunk's value at its row's group and its lane
    exact List.forall_mem_cons.2 ⟨fun x => piece_val tab adr d L hadr 6 inb_S10x20x128_S1x20x128_6_0_0 (10 * k.val + 6) hh hg f0 _ (k2_off119_inb k ⟨4, lt4⟩) 4 4 (by decide) (by decide) (acc_off_6_4 k ⟨4, lt4⟩) x,
      List.forall_mem_cons.2 ⟨fun x => piece_val tab adr d L hadr 6 inb_S10x20x128_S1x20x128_6_0_0 (10 * k.val + 6) hh hg f0 _ (k2_off116_inb k ⟨4, lt4⟩) 4 3 (by decide) (by decide) (acc_off_6_3 k ⟨4, lt4⟩) x,
      List.forall_mem_cons.2 ⟨fun x => piece_val tab adr d L hadr 6 inb_S10x20x128_S1x20x128_6_0_0 (10 * k.val + 6) hh hg f0 _ (k2_off113_inb k ⟨4, lt4⟩) 4 2 (by decide) (by decide) (acc_off_6_2 k ⟨4, lt4⟩) x,
      List.forall_mem_cons.2 ⟨fun x => piece_val tab adr d L hadr 6 inb_S10x20x128_S1x20x128_6_0_0 (10 * k.val + 6) hh hg f0 _ (k2_off110_inb k ⟨4, lt4⟩) 4 1 (by decide) (by decide) (acc_off_6_1 k ⟨4, lt4⟩) x,
      List.forall_mem_cons.2 ⟨fun x => piece_val tab adr d L hadr 6 inb_S10x20x128_S1x20x128_6_0_0 (10 * k.val + 6) hh hg f0 _ (k2_off107_inb k ⟨4, lt4⟩) 4 0 (by decide) (by decide) (acc_off_6_0 k ⟨4, lt4⟩) x,
      List.forall_mem_cons.2 ⟨fun x => piece_val tab adr d L hadr 6 inb_S10x20x128_S1x20x128_6_0_0 (10 * k.val + 6) hh hg f0 _ (k2_off119_inb k ⟨3, lt3⟩) 3 4 (by decide) (by decide) (acc_off_6_4 k ⟨3, lt3⟩) x,
      List.forall_mem_cons.2 ⟨fun x => piece_val tab adr d L hadr 6 inb_S10x20x128_S1x20x128_6_0_0 (10 * k.val + 6) hh hg f0 _ (k2_off116_inb k ⟨3, lt3⟩) 3 3 (by decide) (by decide) (acc_off_6_3 k ⟨3, lt3⟩) x,
      List.forall_mem_cons.2 ⟨fun x => piece_val tab adr d L hadr 6 inb_S10x20x128_S1x20x128_6_0_0 (10 * k.val + 6) hh hg f0 _ (k2_off113_inb k ⟨3, lt3⟩) 3 2 (by decide) (by decide) (acc_off_6_2 k ⟨3, lt3⟩) x,
      List.forall_mem_cons.2 ⟨fun x => piece_val tab adr d L hadr 6 inb_S10x20x128_S1x20x128_6_0_0 (10 * k.val + 6) hh hg f0 _ (k2_off110_inb k ⟨3, lt3⟩) 3 1 (by decide) (by decide) (acc_off_6_1 k ⟨3, lt3⟩) x,
      List.forall_mem_cons.2 ⟨fun x => piece_val tab adr d L hadr 6 inb_S10x20x128_S1x20x128_6_0_0 (10 * k.val + 6) hh hg f0 _ (k2_off107_inb k ⟨3, lt3⟩) 3 0 (by decide) (by decide) (acc_off_6_0 k ⟨3, lt3⟩) x,
      List.forall_mem_cons.2 ⟨fun x => piece_val tab adr d L hadr 6 inb_S10x20x128_S1x20x128_6_0_0 (10 * k.val + 6) hh hg f0 _ (k2_off119_inb k ⟨2, lt2⟩) 2 4 (by decide) (by decide) (acc_off_6_4 k ⟨2, lt2⟩) x,
      List.forall_mem_cons.2 ⟨fun x => piece_val tab adr d L hadr 6 inb_S10x20x128_S1x20x128_6_0_0 (10 * k.val + 6) hh hg f0 _ (k2_off116_inb k ⟨2, lt2⟩) 2 3 (by decide) (by decide) (acc_off_6_3 k ⟨2, lt2⟩) x,
      List.forall_mem_cons.2 ⟨fun x => piece_val tab adr d L hadr 6 inb_S10x20x128_S1x20x128_6_0_0 (10 * k.val + 6) hh hg f0 _ (k2_off113_inb k ⟨2, lt2⟩) 2 2 (by decide) (by decide) (acc_off_6_2 k ⟨2, lt2⟩) x,
      List.forall_mem_cons.2 ⟨fun x => piece_val tab adr d L hadr 6 inb_S10x20x128_S1x20x128_6_0_0 (10 * k.val + 6) hh hg f0 _ (k2_off110_inb k ⟨2, lt2⟩) 2 1 (by decide) (by decide) (acc_off_6_1 k ⟨2, lt2⟩) x,
      List.forall_mem_cons.2 ⟨fun x => piece_val tab adr d L hadr 6 inb_S10x20x128_S1x20x128_6_0_0 (10 * k.val + 6) hh hg f0 _ (k2_off107_inb k ⟨2, lt2⟩) 2 0 (by decide) (by decide) (acc_off_6_0 k ⟨2, lt2⟩) x,
      List.forall_mem_cons.2 ⟨fun x => piece_val tab adr d L hadr 6 inb_S10x20x128_S1x20x128_6_0_0 (10 * k.val + 6) hh hg f0 _ (k2_off119_inb k ⟨1, lt1⟩) 1 4 (by decide) (by decide) (acc_off_6_4 k ⟨1, lt1⟩) x,
      List.forall_mem_cons.2 ⟨fun x => piece_val tab adr d L hadr 6 inb_S10x20x128_S1x20x128_6_0_0 (10 * k.val + 6) hh hg f0 _ (k2_off116_inb k ⟨1, lt1⟩) 1 3 (by decide) (by decide) (acc_off_6_3 k ⟨1, lt1⟩) x,
      List.forall_mem_cons.2 ⟨fun x => piece_val tab adr d L hadr 6 inb_S10x20x128_S1x20x128_6_0_0 (10 * k.val + 6) hh hg f0 _ (k2_off113_inb k ⟨1, lt1⟩) 1 2 (by decide) (by decide) (acc_off_6_2 k ⟨1, lt1⟩) x,
      List.forall_mem_cons.2 ⟨fun x => piece_val tab adr d L hadr 6 inb_S10x20x128_S1x20x128_6_0_0 (10 * k.val + 6) hh hg f0 _ (k2_off110_inb k ⟨1, lt1⟩) 1 1 (by decide) (by decide) (acc_off_6_1 k ⟨1, lt1⟩) x,
      List.forall_mem_cons.2 ⟨fun x => piece_val tab adr d L hadr 6 inb_S10x20x128_S1x20x128_6_0_0 (10 * k.val + 6) hh hg f0 _ (k2_off107_inb k ⟨1, lt1⟩) 1 0 (by decide) (by decide) (acc_off_6_0 k ⟨1, lt1⟩) x,
      List.forall_mem_cons.2 ⟨fun x => piece_val tab adr d L hadr 6 inb_S10x20x128_S1x20x128_6_0_0 (10 * k.val + 6) hh hg f0 _ (k2_off119_inb k ⟨0, lt0⟩) 0 4 (by decide) (by decide) (acc_off_6_4 k ⟨0, lt0⟩) x,
      List.forall_mem_cons.2 ⟨fun x => piece_val tab adr d L hadr 6 inb_S10x20x128_S1x20x128_6_0_0 (10 * k.val + 6) hh hg f0 _ (k2_off116_inb k ⟨0, lt0⟩) 0 3 (by decide) (by decide) (acc_off_6_3 k ⟨0, lt0⟩) x,
      List.forall_mem_cons.2 ⟨fun x => piece_val tab adr d L hadr 6 inb_S10x20x128_S1x20x128_6_0_0 (10 * k.val + 6) hh hg f0 _ (k2_off113_inb k ⟨0, lt0⟩) 0 2 (by decide) (by decide) (acc_off_6_2 k ⟨0, lt0⟩) x,
      List.forall_mem_cons.2 ⟨fun x => piece_val tab adr d L hadr 6 inb_S10x20x128_S1x20x128_6_0_0 (10 * k.val + 6) hh hg f0 _ (k2_off110_inb k ⟨0, lt0⟩) 0 1 (by decide) (by decide) (acc_off_6_1 k ⟨0, lt0⟩) x,
      List.forall_mem_cons.2 ⟨fun x => piece_val tab adr d L hadr 6 inb_S10x20x128_S1x20x128_6_0_0 (10 * k.val + 6) hh hg f0 _ (k2_off107_inb k ⟨0, lt0⟩) 0 0 (by decide) (by decide) (acc_off_6_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KB.Sc

end
-- ==== Proof.ScSlot7B.lean ====
/-
  The accumulation of one landed chunk, slot 7.
-/
import proofs.«207241_g55714315764006_cont_9to1c4b_410_29_alg».proof.Proof.ScDefsB
import proofs.«207241_g55714315764006_cont_9to1c4b_410_29_alg».proof.Proof.ScAccStepB
import proofs.«207241_g55714315764006_cont_9to1c4b_410_29_alg».proof.Proof.ScPieceB
import proofs.«207241_g55714315764006_cont_9to1c4b_410_29_alg».proof.Proof.ScGPayB

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 7's chunk `10 k + 7`, landed, is accumulated: the loop of five groups of four rows, five lane chunks each,
    reads the slot and stores the sums into the chunk's five rows of the accumulation scratch. -/
theorem accLoop7 (hadr : AdrOK adr) (k : Fin k2_t1_loop.trips) (arg18 v307 c50_i32_258 v332 : BitVec 32)
    (f0 : Buf (Elt F) ((sR).view.loc (V d (cV L) (jV L)))) (hh : ∀ a, (![10 * k.val + 7, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 7 inb_S10x20x128_S1x20x128_7_0_0).view.loc (V d (cV L) (jV L)) ↦[(slotM 7 inb_S10x20x128_S1x20x128_7_0_0).view.set]{fullShare} View.write (Elt F) (slotM 7 inb_S10x20x128_S1x20x128_7_0_0).view f0 (gPay tab adr d L hadr ![10 * k.val + 7, 0] hh) Finset.univ)
        ∗ (∃ fy, ((sY).view.loc (V d (cV L) (jV L)) ↦{fullShare} fy) ∗ ⌜AccOK tab adr d L (10 * k.val + 7) fy⌝))
      ⊢ iprop((∀ r, (((slotM 7 inb_S10x20x128_S1x20x128_7_0_0).view.loc (V d (cV L) (jV L)) ↦[(slotM 7 inb_S10x20x128_S1x20x128_7_0_0).view.set]{fullShare} View.write (Elt F) (slotM 7 inb_S10x20x128_S1x20x128_7_0_0).view f0 (gPay tab adr d L hadr ![10 * k.val + 7, 0] hh) Finset.univ)
              ∗ (∃ fy, ((sY).view.loc (V d (cV L) (jV L)) ↦{fullShare} fy) ∗ ⌜AccOK tab adr d L (10 * k.val + 7 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t9_loop k2_t9_ok 0#32
              (k2_t9_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v307 c50_i32_258 v332) >>= kk) Q) := by
  have hk : k.val < 25 := lt_of_lt_of_eq k.isLt trips_t1
  have lt0 : 0 < k2_t9_loop.trips := by rw [trips_t9]; decide
  have lt1 : 1 < k2_t9_loop.trips := by rw [trips_t9]; decide
  have lt2 : 2 < k2_t9_loop.trips := by rw [trips_t9]; decide
  have lt3 : 3 < k2_t9_loop.trips := by rw [trips_t9]; decide
  have lt4 : 4 < k2_t9_loop.trips := by rw [trips_t9]; decide
  have hg := gPay_apply tab adr d L hadr (10 * k.val + 7) (by omega) hh
  iintro ⟨Hs, ⟨%fy, Hy, %hacc⟩⟩ Hk
  sl_unroll trips_t9
  sl_exec
  iapply Hk
  isplitl [Hs]; · iexact Hs
  iexists _
  isplitl [Hy]; · iexact Hy
  ipureintro
  sl_unfold_run_names
  refine accOK_step tab adr d L (10 * k.val + 7) (by omega) fy hacc _ ?_ ?_ ?_
  · -- every store lies in the chunk's own five rows
    exact List.forall_mem_cons.2 ⟨fun y hy => row_of_mem hy _ _ ((10 * k.val + 7) % 50) 4 (by decide) (acc_off_7_4 k ⟨4, lt4⟩) rfl (fun _ => rfl) rfl,
      List.forall_mem_cons.2 ⟨fun y hy => row_of_mem hy _ _ ((10 * k.val + 7) % 50) 4 (by decide) (acc_off_7_3 k ⟨4, lt4⟩) rfl (fun _ => rfl) rfl,
      List.forall_mem_cons.2 ⟨fun y hy => row_of_mem hy _ _ ((10 * k.val + 7) % 50) 4 (by decide) (acc_off_7_2 k ⟨4, lt4⟩) rfl (fun _ => rfl) rfl,
      List.forall_mem_cons.2 ⟨fun y hy => row_of_mem hy _ _ ((10 * k.val + 7) % 50) 4 (by decide) (acc_off_7_1 k ⟨4, lt4⟩) rfl (fun _ => rfl) rfl,
      List.forall_mem_cons.2 ⟨fun y hy => row_of_mem hy _ _ ((10 * k.val + 7) % 50) 4 (by decide) (acc_off_7_0 k ⟨4, lt4⟩) rfl (fun _ => rfl) rfl,
      List.forall_mem_cons.2 ⟨fun y hy => row_of_mem hy _ _ ((10 * k.val + 7) % 50) 3 (by decide) (acc_off_7_4 k ⟨3, lt3⟩) rfl (fun _ => rfl) rfl,
      List.forall_mem_cons.2 ⟨fun y hy => row_of_mem hy _ _ ((10 * k.val + 7) % 50) 3 (by decide) (acc_off_7_3 k ⟨3, lt3⟩) rfl (fun _ => rfl) rfl,
      List.forall_mem_cons.2 ⟨fun y hy => row_of_mem hy _ _ ((10 * k.val + 7) % 50) 3 (by decide) (acc_off_7_2 k ⟨3, lt3⟩) rfl (fun _ => rfl) rfl,
      List.forall_mem_cons.2 ⟨fun y hy => row_of_mem hy _ _ ((10 * k.val + 7) % 50) 3 (by decide) (acc_off_7_1 k ⟨3, lt3⟩) rfl (fun _ => rfl) rfl,
      List.forall_mem_cons.2 ⟨fun y hy => row_of_mem hy _ _ ((10 * k.val + 7) % 50) 3 (by decide) (acc_off_7_0 k ⟨3, lt3⟩) rfl (fun _ => rfl) rfl,
      List.forall_mem_cons.2 ⟨fun y hy => row_of_mem hy _ _ ((10 * k.val + 7) % 50) 2 (by decide) (acc_off_7_4 k ⟨2, lt2⟩) rfl (fun _ => rfl) rfl,
      List.forall_mem_cons.2 ⟨fun y hy => row_of_mem hy _ _ ((10 * k.val + 7) % 50) 2 (by decide) (acc_off_7_3 k ⟨2, lt2⟩) rfl (fun _ => rfl) rfl,
      List.forall_mem_cons.2 ⟨fun y hy => row_of_mem hy _ _ ((10 * k.val + 7) % 50) 2 (by decide) (acc_off_7_2 k ⟨2, lt2⟩) rfl (fun _ => rfl) rfl,
      List.forall_mem_cons.2 ⟨fun y hy => row_of_mem hy _ _ ((10 * k.val + 7) % 50) 2 (by decide) (acc_off_7_1 k ⟨2, lt2⟩) rfl (fun _ => rfl) rfl,
      List.forall_mem_cons.2 ⟨fun y hy => row_of_mem hy _ _ ((10 * k.val + 7) % 50) 2 (by decide) (acc_off_7_0 k ⟨2, lt2⟩) rfl (fun _ => rfl) rfl,
      List.forall_mem_cons.2 ⟨fun y hy => row_of_mem hy _ _ ((10 * k.val + 7) % 50) 1 (by decide) (acc_off_7_4 k ⟨1, lt1⟩) rfl (fun _ => rfl) rfl,
      List.forall_mem_cons.2 ⟨fun y hy => row_of_mem hy _ _ ((10 * k.val + 7) % 50) 1 (by decide) (acc_off_7_3 k ⟨1, lt1⟩) rfl (fun _ => rfl) rfl,
      List.forall_mem_cons.2 ⟨fun y hy => row_of_mem hy _ _ ((10 * k.val + 7) % 50) 1 (by decide) (acc_off_7_2 k ⟨1, lt1⟩) rfl (fun _ => rfl) rfl,
      List.forall_mem_cons.2 ⟨fun y hy => row_of_mem hy _ _ ((10 * k.val + 7) % 50) 1 (by decide) (acc_off_7_1 k ⟨1, lt1⟩) rfl (fun _ => rfl) rfl,
      List.forall_mem_cons.2 ⟨fun y hy => row_of_mem hy _ _ ((10 * k.val + 7) % 50) 1 (by decide) (acc_off_7_0 k ⟨1, lt1⟩) rfl (fun _ => rfl) rfl,
      List.forall_mem_cons.2 ⟨fun y hy => row_of_mem hy _ _ ((10 * k.val + 7) % 50) 0 (by decide) (acc_off_7_4 k ⟨0, lt0⟩) rfl (fun _ => rfl) rfl,
      List.forall_mem_cons.2 ⟨fun y hy => row_of_mem hy _ _ ((10 * k.val + 7) % 50) 0 (by decide) (acc_off_7_3 k ⟨0, lt0⟩) rfl (fun _ => rfl) rfl,
      List.forall_mem_cons.2 ⟨fun y hy => row_of_mem hy _ _ ((10 * k.val + 7) % 50) 0 (by decide) (acc_off_7_2 k ⟨0, lt0⟩) rfl (fun _ => rfl) rfl,
      List.forall_mem_cons.2 ⟨fun y hy => row_of_mem hy _ _ ((10 * k.val + 7) % 50) 0 (by decide) (acc_off_7_1 k ⟨0, lt0⟩) rfl (fun _ => rfl) rfl,
      List.forall_mem_cons.2 ⟨fun y hy => row_of_mem hy _ _ ((10 * k.val + 7) % 50) 0 (by decide) (acc_off_7_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 7) % 50) 0 l 0 (acc_off_7_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 7) % 50) 0 l 1 (acc_off_7_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 7) % 50) 0 l 2 (acc_off_7_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 7) % 50) 0 l 3 (acc_off_7_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 7) % 50) 0 l 4 (acc_off_7_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 7) % 50) 1 l 0 (acc_off_7_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 7) % 50) 1 l 1 (acc_off_7_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 7) % 50) 1 l 2 (acc_off_7_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 7) % 50) 1 l 3 (acc_off_7_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 7) % 50) 1 l 4 (acc_off_7_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 7) % 50) 2 l 0 (acc_off_7_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 7) % 50) 2 l 1 (acc_off_7_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 7) % 50) 2 l 2 (acc_off_7_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 7) % 50) 2 l 3 (acc_off_7_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 7) % 50) 2 l 4 (acc_off_7_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 7) % 50) 3 l 0 (acc_off_7_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 7) % 50) 3 l 1 (acc_off_7_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 7) % 50) 3 l 2 (acc_off_7_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 7) % 50) 3 l 3 (acc_off_7_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 7) % 50) 3 l 4 (acc_off_7_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 7) % 50) 4 l 0 (acc_off_7_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 7) % 50) 4 l 1 (acc_off_7_1 k ⟨4, lt4⟩) rfl (fun _ => rfl) rfl rfl (by omega) hl hq⟩
    · exact ⟨_, List.mem_cons_of_mem _ (List.mem_cons_of_mem _ (List.mem_cons_self)), mem_of_lane _ _ _ ((10 * k.val + 7) % 50) 4 l 2 (acc_off_7_2 k ⟨4, lt4⟩) rfl (fun _ => rfl) rfl rfl (by omega) hl hq⟩
    · exact ⟨_, List.mem_cons_of_mem _ (List.mem_cons_self), mem_of_lane _ _ _ ((10 * k.val + 7) % 50) 4 l 3 (acc_off_7_3 k ⟨4, lt4⟩) rfl (fun _ => rfl) rfl rfl (by omega) hl hq⟩
    · exact ⟨_, List.mem_cons_self, mem_of_lane _ _ _ ((10 * k.val + 7) % 50) 4 l 4 (acc_off_7_4 k ⟨4, lt4⟩) rfl (fun _ => rfl) rfl rfl (by omega) hl hq⟩
  · -- each store's payload is the chunk's value at its row's group and its lane
    exact List.forall_mem_cons.2 ⟨fun x => piece_val tab adr d L hadr 7 inb_S10x20x128_S1x20x128_7_0_0 (10 * k.val + 7) hh hg f0 _ (k2_off136_inb k ⟨4, lt4⟩) 4 4 (by decide) (by decide) (acc_off_7_4 k ⟨4, lt4⟩) x,
      List.forall_mem_cons.2 ⟨fun x => piece_val tab adr d L hadr 7 inb_S10x20x128_S1x20x128_7_0_0 (10 * k.val + 7) hh hg f0 _ (k2_off133_inb k ⟨4, lt4⟩) 4 3 (by decide) (by decide) (acc_off_7_3 k ⟨4, lt4⟩) x,
      List.forall_mem_cons.2 ⟨fun x => piece_val tab adr d L hadr 7 inb_S10x20x128_S1x20x128_7_0_0 (10 * k.val + 7) hh hg f0 _ (k2_off130_inb k ⟨4, lt4⟩) 4 2 (by decide) (by decide) (acc_off_7_2 k ⟨4, lt4⟩) x,
      List.forall_mem_cons.2 ⟨fun x => piece_val tab adr d L hadr 7 inb_S10x20x128_S1x20x128_7_0_0 (10 * k.val + 7) hh hg f0 _ (k2_off127_inb k ⟨4, lt4⟩) 4 1 (by decide) (by decide) (acc_off_7_1 k ⟨4, lt4⟩) x,
      List.forall_mem_cons.2 ⟨fun x => piece_val tab adr d L hadr 7 inb_S10x20x128_S1x20x128_7_0_0 (10 * k.val + 7) hh hg f0 _ (k2_off124_inb k ⟨4, lt4⟩) 4 0 (by decide) (by decide) (acc_off_7_0 k ⟨4, lt4⟩) x,
      List.forall_mem_cons.2 ⟨fun x => piece_val tab adr d L hadr 7 inb_S10x20x128_S1x20x128_7_0_0 (10 * k.val + 7) hh hg f0 _ (k2_off136_inb k ⟨3, lt3⟩) 3 4 (by decide) (by decide) (acc_off_7_4 k ⟨3, lt3⟩) x,
      List.forall_mem_cons.2 ⟨fun x => piece_val tab adr d L hadr 7 inb_S10x20x128_S1x20x128_7_0_0 (10 * k.val + 7) hh hg f0 _ (k2_off133_inb k ⟨3, lt3⟩) 3 3 (by decide) (by decide) (acc_off_7_3 k ⟨3, lt3⟩) x,
      List.forall_mem_cons.2 ⟨fun x => piece_val tab adr d L hadr 7 inb_S10x20x128_S1x20x128_7_0_0 (10 * k.val + 7) hh hg f0 _ (k2_off130_inb k ⟨3, lt3⟩) 3 2 (by decide) (by decide) (acc_off_7_2 k ⟨3, lt3⟩) x,
      List.forall_mem_cons.2 ⟨fun x => piece_val tab adr d L hadr 7 inb_S10x20x128_S1x20x128_7_0_0 (10 * k.val + 7) hh hg f0 _ (k2_off127_inb k ⟨3, lt3⟩) 3 1 (by decide) (by decide) (acc_off_7_1 k ⟨3, lt3⟩) x,
      List.forall_mem_cons.2 ⟨fun x => piece_val tab adr d L hadr 7 inb_S10x20x128_S1x20x128_7_0_0 (10 * k.val + 7) hh hg f0 _ (k2_off124_inb k ⟨3, lt3⟩) 3 0 (by decide) (by decide) (acc_off_7_0 k ⟨3, lt3⟩) x,
      List.forall_mem_cons.2 ⟨fun x => piece_val tab adr d L hadr 7 inb_S10x20x128_S1x20x128_7_0_0 (10 * k.val + 7) hh hg f0 _ (k2_off136_inb k ⟨2, lt2⟩) 2 4 (by decide) (by decide) (acc_off_7_4 k ⟨2, lt2⟩) x,
      List.forall_mem_cons.2 ⟨fun x => piece_val tab adr d L hadr 7 inb_S10x20x128_S1x20x128_7_0_0 (10 * k.val + 7) hh hg f0 _ (k2_off133_inb k ⟨2, lt2⟩) 2 3 (by decide) (by decide) (acc_off_7_3 k ⟨2, lt2⟩) x,
      List.forall_mem_cons.2 ⟨fun x => piece_val tab adr d L hadr 7 inb_S10x20x128_S1x20x128_7_0_0 (10 * k.val + 7) hh hg f0 _ (k2_off130_inb k ⟨2, lt2⟩) 2 2 (by decide) (by decide) (acc_off_7_2 k ⟨2, lt2⟩) x,
      List.forall_mem_cons.2 ⟨fun x => piece_val tab adr d L hadr 7 inb_S10x20x128_S1x20x128_7_0_0 (10 * k.val + 7) hh hg f0 _ (k2_off127_inb k ⟨2, lt2⟩) 2 1 (by decide) (by decide) (acc_off_7_1 k ⟨2, lt2⟩) x,
      List.forall_mem_cons.2 ⟨fun x => piece_val tab adr d L hadr 7 inb_S10x20x128_S1x20x128_7_0_0 (10 * k.val + 7) hh hg f0 _ (k2_off124_inb k ⟨2, lt2⟩) 2 0 (by decide) (by decide) (acc_off_7_0 k ⟨2, lt2⟩) x,
      List.forall_mem_cons.2 ⟨fun x => piece_val tab adr d L hadr 7 inb_S10x20x128_S1x20x128_7_0_0 (10 * k.val + 7) hh hg f0 _ (k2_off136_inb k ⟨1, lt1⟩) 1 4 (by decide) (by decide) (acc_off_7_4 k ⟨1, lt1⟩) x,
      List.forall_mem_cons.2 ⟨fun x => piece_val tab adr d L hadr 7 inb_S10x20x128_S1x20x128_7_0_0 (10 * k.val + 7) hh hg f0 _ (k2_off133_inb k ⟨1, lt1⟩) 1 3 (by decide) (by decide) (acc_off_7_3 k ⟨1, lt1⟩) x,
      List.forall_mem_cons.2 ⟨fun x => piece_val tab adr d L hadr 7 inb_S10x20x128_S1x20x128_7_0_0 (10 * k.val + 7) hh hg f0 _ (k2_off130_inb k ⟨1, lt1⟩) 1 2 (by decide) (by decide) (acc_off_7_2 k ⟨1, lt1⟩) x,
      List.forall_mem_cons.2 ⟨fun x => piece_val tab adr d L hadr 7 inb_S10x20x128_S1x20x128_7_0_0 (10 * k.val + 7) hh hg f0 _ (k2_off127_inb k ⟨1, lt1⟩) 1 1 (by decide) (by decide) (acc_off_7_1 k ⟨1, lt1⟩) x,
      List.forall_mem_cons.2 ⟨fun x => piece_val tab adr d L hadr 7 inb_S10x20x128_S1x20x128_7_0_0 (10 * k.val + 7) hh hg f0 _ (k2_off124_inb k ⟨1, lt1⟩) 1 0 (by decide) (by decide) (acc_off_7_0 k ⟨1, lt1⟩) x,
      List.forall_mem_cons.2 ⟨fun x => piece_val tab adr d L hadr 7 inb_S10x20x128_S1x20x128_7_0_0 (10 * k.val + 7) hh hg f0 _ (k2_off136_inb k ⟨0, lt0⟩) 0 4 (by decide) (by decide) (acc_off_7_4 k ⟨0, lt0⟩) x,
      List.forall_mem_cons.2 ⟨fun x => piece_val tab adr d L hadr 7 inb_S10x20x128_S1x20x128_7_0_0 (10 * k.val + 7) hh hg f0 _ (k2_off133_inb k ⟨0, lt0⟩) 0 3 (by decide) (by decide) (acc_off_7_3 k ⟨0, lt0⟩) x,
      List.forall_mem_cons.2 ⟨fun x => piece_val tab adr d L hadr 7 inb_S10x20x128_S1x20x128_7_0_0 (10 * k.val + 7) hh hg f0 _ (k2_off130_inb k ⟨0, lt0⟩) 0 2 (by decide) (by decide) (acc_off_7_2 k ⟨0, lt0⟩) x,
      List.forall_mem_cons.2 ⟨fun x => piece_val tab adr d L hadr 7 inb_S10x20x128_S1x20x128_7_0_0 (10 * k.val + 7) hh hg f0 _ (k2_off127_inb k ⟨0, lt0⟩) 0 1 (by decide) (by decide) (acc_off_7_1 k ⟨0, lt0⟩) x,
      List.forall_mem_cons.2 ⟨fun x => piece_val tab adr d L hadr 7 inb_S10x20x128_S1x20x128_7_0_0 (10 * k.val + 7) hh hg f0 _ (k2_off124_inb k ⟨0, lt0⟩) 0 0 (by decide) (by decide) (acc_off_7_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KB.Sc

end
-- ==== Proof.ScSlot8B.lean ====
/-
  The accumulation of one landed chunk, slot 8.
-/
import proofs.«207241_g55714315764006_cont_9to1c4b_410_29_alg».proof.Proof.ScDefsB
import proofs.«207241_g55714315764006_cont_9to1c4b_410_29_alg».proof.Proof.ScAccStepB
import proofs.«207241_g55714315764006_cont_9to1c4b_410_29_alg».proof.Proof.ScPieceB
import proofs.«207241_g55714315764006_cont_9to1c4b_410_29_alg».proof.Proof.ScGPayB

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 8's chunk `10 k + 8`, landed, is accumulated: the loop of five groups of four rows, five lane chunks each,
    reads the slot and stores the sums into the chunk's five rows of the accumulation scratch. -/
theorem accLoop8 (hadr : AdrOK adr) (k : Fin k2_t1_loop.trips) (arg18 v343 v368 : BitVec 32)
    (f0 : Buf (Elt F) ((sR).view.loc (V d (cV L) (jV L)))) (hh : ∀ a, (![10 * k.val + 8, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 8 inb_S10x20x128_S1x20x128_8_0_0).view.loc (V d (cV L) (jV L)) ↦[(slotM 8 inb_S10x20x128_S1x20x128_8_0_0).view.set]{fullShare} View.write (Elt F) (slotM 8 inb_S10x20x128_S1x20x128_8_0_0).view f0 (gPay tab adr d L hadr ![10 * k.val + 8, 0] hh) Finset.univ)
        ∗ (∃ fy, ((sY).view.loc (V d (cV L) (jV L)) ↦{fullShare} fy) ∗ ⌜AccOK tab adr d L (10 * k.val + 8) fy⌝))
      ⊢ iprop((∀ r, (((slotM 8 inb_S10x20x128_S1x20x128_8_0_0).view.loc (V d (cV L) (jV L)) ↦[(slotM 8 inb_S10x20x128_S1x20x128_8_0_0).view.set]{fullShare} View.write (Elt F) (slotM 8 inb_S10x20x128_S1x20x128_8_0_0).view f0 (gPay tab adr d L hadr ![10 * k.val + 8, 0] hh) Finset.univ)
              ∗ (∃ fy, ((sY).view.loc (V d (cV L) (jV L)) ↦{fullShare} fy) ∗ ⌜AccOK tab adr d L (10 * k.val + 8 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t10_loop k2_t10_ok 0#32
              (k2_t10_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v343 v368) >>= kk) Q) := by
  have hk : k.val < 25 := lt_of_lt_of_eq k.isLt trips_t1
  have lt0 : 0 < k2_t10_loop.trips := by rw [trips_t10]; decide
  have lt1 : 1 < k2_t10_loop.trips := by rw [trips_t10]; decide
  have lt2 : 2 < k2_t10_loop.trips := by rw [trips_t10]; decide
  have lt3 : 3 < k2_t10_loop.trips := by rw [trips_t10]; decide
  have lt4 : 4 < k2_t10_loop.trips := by rw [trips_t10]; decide
  have hg := gPay_apply tab adr d L hadr (10 * k.val + 8) (by omega) hh
  iintro ⟨Hs, ⟨%fy, Hy, %hacc⟩⟩ Hk
  sl_unroll trips_t10
  sl_exec
  iapply Hk
  isplitl [Hs]; · iexact Hs
  iexists _
  isplitl [Hy]; · iexact Hy
  ipureintro
  sl_unfold_run_names
  refine accOK_step tab adr d L (10 * k.val + 8) (by omega) fy hacc _ ?_ ?_ ?_
  · -- every store lies in the chunk's own five rows
    exact List.forall_mem_cons.2 ⟨fun y hy => row_of_mem hy _ _ ((10 * k.val + 8) % 50) 4 (by decide) (acc_off_8_4 k ⟨4, lt4⟩) rfl (fun _ => rfl) rfl,
      List.forall_mem_cons.2 ⟨fun y hy => row_of_mem hy _ _ ((10 * k.val + 8) % 50) 4 (by decide) (acc_off_8_3 k ⟨4, lt4⟩) rfl (fun _ => rfl) rfl,
      List.forall_mem_cons.2 ⟨fun y hy => row_of_mem hy _ _ ((10 * k.val + 8) % 50) 4 (by decide) (acc_off_8_2 k ⟨4, lt4⟩) rfl (fun _ => rfl) rfl,
      List.forall_mem_cons.2 ⟨fun y hy => row_of_mem hy _ _ ((10 * k.val + 8) % 50) 4 (by decide) (acc_off_8_1 k ⟨4, lt4⟩) rfl (fun _ => rfl) rfl,
      List.forall_mem_cons.2 ⟨fun y hy => row_of_mem hy _ _ ((10 * k.val + 8) % 50) 4 (by decide) (acc_off_8_0 k ⟨4, lt4⟩) rfl (fun _ => rfl) rfl,
      List.forall_mem_cons.2 ⟨fun y hy => row_of_mem hy _ _ ((10 * k.val + 8) % 50) 3 (by decide) (acc_off_8_4 k ⟨3, lt3⟩) rfl (fun _ => rfl) rfl,
      List.forall_mem_cons.2 ⟨fun y hy => row_of_mem hy _ _ ((10 * k.val + 8) % 50) 3 (by decide) (acc_off_8_3 k ⟨3, lt3⟩) rfl (fun _ => rfl) rfl,
      List.forall_mem_cons.2 ⟨fun y hy => row_of_mem hy _ _ ((10 * k.val + 8) % 50) 3 (by decide) (acc_off_8_2 k ⟨3, lt3⟩) rfl (fun _ => rfl) rfl,
      List.forall_mem_cons.2 ⟨fun y hy => row_of_mem hy _ _ ((10 * k.val + 8) % 50) 3 (by decide) (acc_off_8_1 k ⟨3, lt3⟩) rfl (fun _ => rfl) rfl,
      List.forall_mem_cons.2 ⟨fun y hy => row_of_mem hy _ _ ((10 * k.val + 8) % 50) 3 (by decide) (acc_off_8_0 k ⟨3, lt3⟩) rfl (fun _ => rfl) rfl,
      List.forall_mem_cons.2 ⟨fun y hy => row_of_mem hy _ _ ((10 * k.val + 8) % 50) 2 (by decide) (acc_off_8_4 k ⟨2, lt2⟩) rfl (fun _ => rfl) rfl,
      List.forall_mem_cons.2 ⟨fun y hy => row_of_mem hy _ _ ((10 * k.val + 8) % 50) 2 (by decide) (acc_off_8_3 k ⟨2, lt2⟩) rfl (fun _ => rfl) rfl,
      List.forall_mem_cons.2 ⟨fun y hy => row_of_mem hy _ _ ((10 * k.val + 8) % 50) 2 (by decide) (acc_off_8_2 k ⟨2, lt2⟩) rfl (fun _ => rfl) rfl,
      List.forall_mem_cons.2 ⟨fun y hy => row_of_mem hy _ _ ((10 * k.val + 8) % 50) 2 (by decide) (acc_off_8_1 k ⟨2, lt2⟩) rfl (fun _ => rfl) rfl,
      List.forall_mem_cons.2 ⟨fun y hy => row_of_mem hy _ _ ((10 * k.val + 8) % 50) 2 (by decide) (acc_off_8_0 k ⟨2, lt2⟩) rfl (fun _ => rfl) rfl,
      List.forall_mem_cons.2 ⟨fun y hy => row_of_mem hy _ _ ((10 * k.val + 8) % 50) 1 (by decide) (acc_off_8_4 k ⟨1, lt1⟩) rfl (fun _ => rfl) rfl,
      List.forall_mem_cons.2 ⟨fun y hy => row_of_mem hy _ _ ((10 * k.val + 8) % 50) 1 (by decide) (acc_off_8_3 k ⟨1, lt1⟩) rfl (fun _ => rfl) rfl,
      List.forall_mem_cons.2 ⟨fun y hy => row_of_mem hy _ _ ((10 * k.val + 8) % 50) 1 (by decide) (acc_off_8_2 k ⟨1, lt1⟩) rfl (fun _ => rfl) rfl,
      List.forall_mem_cons.2 ⟨fun y hy => row_of_mem hy _ _ ((10 * k.val + 8) % 50) 1 (by decide) (acc_off_8_1 k ⟨1, lt1⟩) rfl (fun _ => rfl) rfl,
      List.forall_mem_cons.2 ⟨fun y hy => row_of_mem hy _ _ ((10 * k.val + 8) % 50) 1 (by decide) (acc_off_8_0 k ⟨1, lt1⟩) rfl (fun _ => rfl) rfl,
      List.forall_mem_cons.2 ⟨fun y hy => row_of_mem hy _ _ ((10 * k.val + 8) % 50) 0 (by decide) (acc_off_8_4 k ⟨0, lt0⟩) rfl (fun _ => rfl) rfl,
      List.forall_mem_cons.2 ⟨fun y hy => row_of_mem hy _ _ ((10 * k.val + 8) % 50) 0 (by decide) (acc_off_8_3 k ⟨0, lt0⟩) rfl (fun _ => rfl) rfl,
      List.forall_mem_cons.2 ⟨fun y hy => row_of_mem hy _ _ ((10 * k.val + 8) % 50) 0 (by decide) (acc_off_8_2 k ⟨0, lt0⟩) rfl (fun _ => rfl) rfl,
      List.forall_mem_cons.2 ⟨fun y hy => row_of_mem hy _ _ ((10 * k.val + 8) % 50) 0 (by decide) (acc_off_8_1 k ⟨0, lt0⟩) rfl (fun _ => rfl) rfl,
      List.forall_mem_cons.2 ⟨fun y hy => row_of_mem hy _ _ ((10 * k.val + 8) % 50) 0 (by decide) (acc_off_8_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 8) % 50) 0 l 0 (acc_off_8_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 8) % 50) 0 l 1 (acc_off_8_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 8) % 50) 0 l 2 (acc_off_8_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 8) % 50) 0 l 3 (acc_off_8_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 8) % 50) 0 l 4 (acc_off_8_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 8) % 50) 1 l 0 (acc_off_8_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 8) % 50) 1 l 1 (acc_off_8_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 8) % 50) 1 l 2 (acc_off_8_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 8) % 50) 1 l 3 (acc_off_8_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 8) % 50) 1 l 4 (acc_off_8_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 8) % 50) 2 l 0 (acc_off_8_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 8) % 50) 2 l 1 (acc_off_8_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 8) % 50) 2 l 2 (acc_off_8_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 8) % 50) 2 l 3 (acc_off_8_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 8) % 50) 2 l 4 (acc_off_8_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 8) % 50) 3 l 0 (acc_off_8_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 8) % 50) 3 l 1 (acc_off_8_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 8) % 50) 3 l 2 (acc_off_8_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 8) % 50) 3 l 3 (acc_off_8_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 8) % 50) 3 l 4 (acc_off_8_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 8) % 50) 4 l 0 (acc_off_8_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 8) % 50) 4 l 1 (acc_off_8_1 k ⟨4, lt4⟩) rfl (fun _ => rfl) rfl rfl (by omega) hl hq⟩
    · exact ⟨_, List.mem_cons_of_mem _ (List.mem_cons_of_mem _ (List.mem_cons_self)), mem_of_lane _ _ _ ((10 * k.val + 8) % 50) 4 l 2 (acc_off_8_2 k ⟨4, lt4⟩) rfl (fun _ => rfl) rfl rfl (by omega) hl hq⟩
    · exact ⟨_, List.mem_cons_of_mem _ (List.mem_cons_self), mem_of_lane _ _ _ ((10 * k.val + 8) % 50) 4 l 3 (acc_off_8_3 k ⟨4, lt4⟩) rfl (fun _ => rfl) rfl rfl (by omega) hl hq⟩
    · exact ⟨_, List.mem_cons_self, mem_of_lane _ _ _ ((10 * k.val + 8) % 50) 4 l 4 (acc_off_8_4 k ⟨4, lt4⟩) rfl (fun _ => rfl) rfl rfl (by omega) hl hq⟩
  · -- each store's payload is the chunk's value at its row's group and its lane
    exact List.forall_mem_cons.2 ⟨fun x => piece_val tab adr d L hadr 8 inb_S10x20x128_S1x20x128_8_0_0 (10 * k.val + 8) hh hg f0 _ (k2_off153_inb k ⟨4, lt4⟩) 4 4 (by decide) (by decide) (acc_off_8_4 k ⟨4, lt4⟩) x,
      List.forall_mem_cons.2 ⟨fun x => piece_val tab adr d L hadr 8 inb_S10x20x128_S1x20x128_8_0_0 (10 * k.val + 8) hh hg f0 _ (k2_off150_inb k ⟨4, lt4⟩) 4 3 (by decide) (by decide) (acc_off_8_3 k ⟨4, lt4⟩) x,
      List.forall_mem_cons.2 ⟨fun x => piece_val tab adr d L hadr 8 inb_S10x20x128_S1x20x128_8_0_0 (10 * k.val + 8) hh hg f0 _ (k2_off147_inb k ⟨4, lt4⟩) 4 2 (by decide) (by decide) (acc_off_8_2 k ⟨4, lt4⟩) x,
      List.forall_mem_cons.2 ⟨fun x => piece_val tab adr d L hadr 8 inb_S10x20x128_S1x20x128_8_0_0 (10 * k.val + 8) hh hg f0 _ (k2_off144_inb k ⟨4, lt4⟩) 4 1 (by decide) (by decide) (acc_off_8_1 k ⟨4, lt4⟩) x,
      List.forall_mem_cons.2 ⟨fun x => piece_val tab adr d L hadr 8 inb_S10x20x128_S1x20x128_8_0_0 (10 * k.val + 8) hh hg f0 _ (k2_off141_inb k ⟨4, lt4⟩) 4 0 (by decide) (by decide) (acc_off_8_0 k ⟨4, lt4⟩) x,
      List.forall_mem_cons.2 ⟨fun x => piece_val tab adr d L hadr 8 inb_S10x20x128_S1x20x128_8_0_0 (10 * k.val + 8) hh hg f0 _ (k2_off153_inb k ⟨3, lt3⟩) 3 4 (by decide) (by decide) (acc_off_8_4 k ⟨3, lt3⟩) x,
      List.forall_mem_cons.2 ⟨fun x => piece_val tab adr d L hadr 8 inb_S10x20x128_S1x20x128_8_0_0 (10 * k.val + 8) hh hg f0 _ (k2_off150_inb k ⟨3, lt3⟩) 3 3 (by decide) (by decide) (acc_off_8_3 k ⟨3, lt3⟩) x,
      List.forall_mem_cons.2 ⟨fun x => piece_val tab adr d L hadr 8 inb_S10x20x128_S1x20x128_8_0_0 (10 * k.val + 8) hh hg f0 _ (k2_off147_inb k ⟨3, lt3⟩) 3 2 (by decide) (by decide) (acc_off_8_2 k ⟨3, lt3⟩) x,
      List.forall_mem_cons.2 ⟨fun x => piece_val tab adr d L hadr 8 inb_S10x20x128_S1x20x128_8_0_0 (10 * k.val + 8) hh hg f0 _ (k2_off144_inb k ⟨3, lt3⟩) 3 1 (by decide) (by decide) (acc_off_8_1 k ⟨3, lt3⟩) x,
      List.forall_mem_cons.2 ⟨fun x => piece_val tab adr d L hadr 8 inb_S10x20x128_S1x20x128_8_0_0 (10 * k.val + 8) hh hg f0 _ (k2_off141_inb k ⟨3, lt3⟩) 3 0 (by decide) (by decide) (acc_off_8_0 k ⟨3, lt3⟩) x,
      List.forall_mem_cons.2 ⟨fun x => piece_val tab adr d L hadr 8 inb_S10x20x128_S1x20x128_8_0_0 (10 * k.val + 8) hh hg f0 _ (k2_off153_inb k ⟨2, lt2⟩) 2 4 (by decide) (by decide) (acc_off_8_4 k ⟨2, lt2⟩) x,
      List.forall_mem_cons.2 ⟨fun x => piece_val tab adr d L hadr 8 inb_S10x20x128_S1x20x128_8_0_0 (10 * k.val + 8) hh hg f0 _ (k2_off150_inb k ⟨2, lt2⟩) 2 3 (by decide) (by decide) (acc_off_8_3 k ⟨2, lt2⟩) x,
      List.forall_mem_cons.2 ⟨fun x => piece_val tab adr d L hadr 8 inb_S10x20x128_S1x20x128_8_0_0 (10 * k.val + 8) hh hg f0 _ (k2_off147_inb k ⟨2, lt2⟩) 2 2 (by decide) (by decide) (acc_off_8_2 k ⟨2, lt2⟩) x,
      List.forall_mem_cons.2 ⟨fun x => piece_val tab adr d L hadr 8 inb_S10x20x128_S1x20x128_8_0_0 (10 * k.val + 8) hh hg f0 _ (k2_off144_inb k ⟨2, lt2⟩) 2 1 (by decide) (by decide) (acc_off_8_1 k ⟨2, lt2⟩) x,
      List.forall_mem_cons.2 ⟨fun x => piece_val tab adr d L hadr 8 inb_S10x20x128_S1x20x128_8_0_0 (10 * k.val + 8) hh hg f0 _ (k2_off141_inb k ⟨2, lt2⟩) 2 0 (by decide) (by decide) (acc_off_8_0 k ⟨2, lt2⟩) x,
      List.forall_mem_cons.2 ⟨fun x => piece_val tab adr d L hadr 8 inb_S10x20x128_S1x20x128_8_0_0 (10 * k.val + 8) hh hg f0 _ (k2_off153_inb k ⟨1, lt1⟩) 1 4 (by decide) (by decide) (acc_off_8_4 k ⟨1, lt1⟩) x,
      List.forall_mem_cons.2 ⟨fun x => piece_val tab adr d L hadr 8 inb_S10x20x128_S1x20x128_8_0_0 (10 * k.val + 8) hh hg f0 _ (k2_off150_inb k ⟨1, lt1⟩) 1 3 (by decide) (by decide) (acc_off_8_3 k ⟨1, lt1⟩) x,
      List.forall_mem_cons.2 ⟨fun x => piece_val tab adr d L hadr 8 inb_S10x20x128_S1x20x128_8_0_0 (10 * k.val + 8) hh hg f0 _ (k2_off147_inb k ⟨1, lt1⟩) 1 2 (by decide) (by decide) (acc_off_8_2 k ⟨1, lt1⟩) x,
      List.forall_mem_cons.2 ⟨fun x => piece_val tab adr d L hadr 8 inb_S10x20x128_S1x20x128_8_0_0 (10 * k.val + 8) hh hg f0 _ (k2_off144_inb k ⟨1, lt1⟩) 1 1 (by decide) (by decide) (acc_off_8_1 k ⟨1, lt1⟩) x,
      List.forall_mem_cons.2 ⟨fun x => piece_val tab adr d L hadr 8 inb_S10x20x128_S1x20x128_8_0_0 (10 * k.val + 8) hh hg f0 _ (k2_off141_inb k ⟨1, lt1⟩) 1 0 (by decide) (by decide) (acc_off_8_0 k ⟨1, lt1⟩) x,
      List.forall_mem_cons.2 ⟨fun x => piece_val tab adr d L hadr 8 inb_S10x20x128_S1x20x128_8_0_0 (10 * k.val + 8) hh hg f0 _ (k2_off153_inb k ⟨0, lt0⟩) 0 4 (by decide) (by decide) (acc_off_8_4 k ⟨0, lt0⟩) x,
      List.forall_mem_cons.2 ⟨fun x => piece_val tab adr d L hadr 8 inb_S10x20x128_S1x20x128_8_0_0 (10 * k.val + 8) hh hg f0 _ (k2_off150_inb k ⟨0, lt0⟩) 0 3 (by decide) (by decide) (acc_off_8_3 k ⟨0, lt0⟩) x,
      List.forall_mem_cons.2 ⟨fun x => piece_val tab adr d L hadr 8 inb_S10x20x128_S1x20x128_8_0_0 (10 * k.val + 8) hh hg f0 _ (k2_off147_inb k ⟨0, lt0⟩) 0 2 (by decide) (by decide) (acc_off_8_2 k ⟨0, lt0⟩) x,
      List.forall_mem_cons.2 ⟨fun x => piece_val tab adr d L hadr 8 inb_S10x20x128_S1x20x128_8_0_0 (10 * k.val + 8) hh hg f0 _ (k2_off144_inb k ⟨0, lt0⟩) 0 1 (by decide) (by decide) (acc_off_8_1 k ⟨0, lt0⟩) x,
      List.forall_mem_cons.2 ⟨fun x => piece_val tab adr d L hadr 8 inb_S10x20x128_S1x20x128_8_0_0 (10 * k.val + 8) hh hg f0 _ (k2_off141_inb k ⟨0, lt0⟩) 0 0 (by decide) (by decide) (acc_off_8_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KB.Sc

end
-- ==== Proof.ScSlot9B.lean ====
/-
  The accumulation of one landed chunk, slot 9.
-/
import proofs.«207241_g55714315764006_cont_9to1c4b_410_29_alg».proof.Proof.ScDefsB
import proofs.«207241_g55714315764006_cont_9to1c4b_410_29_alg».proof.Proof.ScPiecesB
import proofs.«207241_g55714315764006_cont_9to1c4b_410_29_alg».proof.Proof.ScPieceB
import proofs.«207241_g55714315764006_cont_9to1c4b_410_29_alg».proof.Proof.ScGPayB

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

/-- A store at row (c mod 50) · 5 + t, lanes 16 q …, whose payload is the chunk's value there, is the piece the list of
    stores has at (t, q). -/
theorem pieceAt_mk9 (c : ℕ) (off : Fin 2 → ℕ) (h : ∀ a, off a + S1x16.size a ≤ S250x80.size a)
    (pay : (Rect.unit (s := S250x80) off S1x16.size h).shape.Idx → Elt F .f32) (t q : ℕ)
    (hoff : off = ![(c % 50) * 5 + t, 16 * q])
    (hval : ∀ x, pay x = gvalN tab adr d L c (((Rect.unit (s := S250x80) off S1x16.size h).emb x 0).val - (c % 50) * 5)
      (((Rect.unit (s := S250x80) off S1x16.size h).emb x 1).val)) :
    PieceAt tab adr d L c ⟨Rect.unit (s := S250x80) off S1x16.size h, pay⟩ (t, q) :=
  ⟨off, h, pay, hoff, rfl, hval⟩

set_option maxHeartbeats 4000000 in
/-- Slot 9's chunk `10 k + 9`, landed, is accumulated: the loop of five groups of four rows, five lane chunks each,
    reads the slot and stores the sums into the chunk's five rows of the accumulation scratch. -/
theorem accLoop9 (hadr : AdrOK adr) (k : Fin k2_t1_loop.trips) (v379 v404 : BitVec 32)
    (f0 : Buf (Elt F) ((sR).view.loc (V d (cV L) (jV L)))) (hh : ∀ a, (![10 * k.val + 9, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 9 inb_S10x20x128_S1x20x128_9_0_0).view.loc (V d (cV L) (jV L)) ↦[(slotM 9 inb_S10x20x128_S1x20x128_9_0_0).view.set]{fullShare} View.write (Elt F) (slotM 9 inb_S10x20x128_S1x20x128_9_0_0).view f0 (gPay tab adr d L hadr ![10 * k.val + 9, 0] hh) Finset.univ)
        ∗ (∃ fy, ((sY).view.loc (V d (cV L) (jV L)) ↦{fullShare} fy) ∗ ⌜AccOK tab adr d L (10 * k.val + 9) fy⌝))
      ⊢ iprop((∀ r, (((slotM 9 inb_S10x20x128_S1x20x128_9_0_0).view.loc (V d (cV L) (jV L)) ↦[(slotM 9 inb_S10x20x128_S1x20x128_9_0_0).view.set]{fullShare} View.write (Elt F) (slotM 9 inb_S10x20x128_S1x20x128_9_0_0).view f0 (gPay tab adr d L hadr ![10 * k.val + 9, 0] hh) Finset.univ)
              ∗ (∃ fy, ((sY).view.loc (V d (cV L) (jV L)) ↦{fullShare} fy) ∗ ⌜AccOK tab adr d L (10 * k.val + 9 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t11_loop k2_t11_ok 0#32
              (k2_t11_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k v379 v404) >>= kk) Q) := by
  have hk : k.val < 25 := lt_of_lt_of_eq k.isLt trips_t1
  have hg := fun (j : Fin 20) (l : Fin 128) => gPay_apply tab adr d L hadr (10 * k.val + 9) (by omega) hh j l
  iintro ⟨Hs, ⟨%fy, Hy, %hacc⟩⟩ Hk
  sl_unroll trips_t11
  sl_exec
  iapply Hk
  isplitl [Hs]; · iexact Hs
  iexists _; isplitl [Hy]; · iexact Hy
  ipureintro
  sl_unfold_run_names
  refine accOK_of_pieces tab adr d L (10 * k.val + 9) (by omega) fy hacc _ ?_
  refine List.Forall₂.cons (pieceAt_mk9 tab adr d L (10 * k.val + 9) _ _ _ 4 4 (acc_off_9_4 k _)
    (fun x => piece_val tab adr d L hadr 9 inb_S10x20x128_S1x20x128_9_0_0 (10 * k.val + 9) hh hg f0 _ _ 4 4 (by decide) (by decide) (acc_off_9_4 k _) x)) ?_
  refine List.Forall₂.cons (pieceAt_mk9 tab adr d L (10 * k.val + 9) _ _ _ 4 3 (acc_off_9_3 k _)
    (fun x => piece_val tab adr d L hadr 9 inb_S10x20x128_S1x20x128_9_0_0 (10 * k.val + 9) hh hg f0 _ _ 4 3 (by decide) (by decide) (acc_off_9_3 k _) x)) ?_
  refine List.Forall₂.cons (pieceAt_mk9 tab adr d L (10 * k.val + 9) _ _ _ 4 2 (acc_off_9_2 k _)
    (fun x => piece_val tab adr d L hadr 9 inb_S10x20x128_S1x20x128_9_0_0 (10 * k.val + 9) hh hg f0 _ _ 4 2 (by decide) (by decide) (acc_off_9_2 k _) x)) ?_
  refine List.Forall₂.cons (pieceAt_mk9 tab adr d L (10 * k.val + 9) _ _ _ 4 1 (acc_off_9_1 k _)
    (fun x => piece_val tab adr d L hadr 9 inb_S10x20x128_S1x20x128_9_0_0 (10 * k.val + 9) hh hg f0 _ _ 4 1 (by decide) (by decide) (acc_off_9_1 k _) x)) ?_
  refine List.Forall₂.cons (pieceAt_mk9 tab adr d L (10 * k.val + 9) _ _ _ 4 0 (acc_off_9_0 k _)
    (fun x => piece_val tab adr d L hadr 9 inb_S10x20x128_S1x20x128_9_0_0 (10 * k.val + 9) hh hg f0 _ _ 4 0 (by decide) (by decide) (acc_off_9_0 k _) x)) ?_
  refine List.Forall₂.cons (pieceAt_mk9 tab adr d L (10 * k.val + 9) _ _ _ 3 4 (acc_off_9_4 k _)
    (fun x => piece_val tab adr d L hadr 9 inb_S10x20x128_S1x20x128_9_0_0 (10 * k.val + 9) hh hg f0 _ _ 3 4 (by decide) (by decide) (acc_off_9_4 k _) x)) ?_
  refine List.Forall₂.cons (pieceAt_mk9 tab adr d L (10 * k.val + 9) _ _ _ 3 3 (acc_off_9_3 k _)
    (fun x => piece_val tab adr d L hadr 9 inb_S10x20x128_S1x20x128_9_0_0 (10 * k.val + 9) hh hg f0 _ _ 3 3 (by decide) (by decide) (acc_off_9_3 k _) x)) ?_
  refine List.Forall₂.cons (pieceAt_mk9 tab adr d L (10 * k.val + 9) _ _ _ 3 2 (acc_off_9_2 k _)
    (fun x => piece_val tab adr d L hadr 9 inb_S10x20x128_S1x20x128_9_0_0 (10 * k.val + 9) hh hg f0 _ _ 3 2 (by decide) (by decide) (acc_off_9_2 k _) x)) ?_
  refine List.Forall₂.cons (pieceAt_mk9 tab adr d L (10 * k.val + 9) _ _ _ 3 1 (acc_off_9_1 k _)
    (fun x => piece_val tab adr d L hadr 9 inb_S10x20x128_S1x20x128_9_0_0 (10 * k.val + 9) hh hg f0 _ _ 3 1 (by decide) (by decide) (acc_off_9_1 k _) x)) ?_
  refine List.Forall₂.cons (pieceAt_mk9 tab adr d L (10 * k.val + 9) _ _ _ 3 0 (acc_off_9_0 k _)
    (fun x => piece_val tab adr d L hadr 9 inb_S10x20x128_S1x20x128_9_0_0 (10 * k.val + 9) hh hg f0 _ _ 3 0 (by decide) (by decide) (acc_off_9_0 k _) x)) ?_
  refine List.Forall₂.cons (pieceAt_mk9 tab adr d L (10 * k.val + 9) _ _ _ 2 4 (acc_off_9_4 k _)
    (fun x => piece_val tab adr d L hadr 9 inb_S10x20x128_S1x20x128_9_0_0 (10 * k.val + 9) hh hg f0 _ _ 2 4 (by decide) (by decide) (acc_off_9_4 k _) x)) ?_
  refine List.Forall₂.cons (pieceAt_mk9 tab adr d L (10 * k.val + 9) _ _ _ 2 3 (acc_off_9_3 k _)
    (fun x => piece_val tab adr d L hadr 9 inb_S10x20x128_S1x20x128_9_0_0 (10 * k.val + 9) hh hg f0 _ _ 2 3 (by decide) (by decide) (acc_off_9_3 k _) x)) ?_
  refine List.Forall₂.cons (pieceAt_mk9 tab adr d L (10 * k.val + 9) _ _ _ 2 2 (acc_off_9_2 k _)
    (fun x => piece_val tab adr d L hadr 9 inb_S10x20x128_S1x20x128_9_0_0 (10 * k.val + 9) hh hg f0 _ _ 2 2 (by decide) (by decide) (acc_off_9_2 k _) x)) ?_
  refine List.Forall₂.cons (pieceAt_mk9 tab adr d L (10 * k.val + 9) _ _ _ 2 1 (acc_off_9_1 k _)
    (fun x => piece_val tab adr d L hadr 9 inb_S10x20x128_S1x20x128_9_0_0 (10 * k.val + 9) hh hg f0 _ _ 2 1 (by decide) (by decide) (acc_off_9_1 k _) x)) ?_
  refine List.Forall₂.cons (pieceAt_mk9 tab adr d L (10 * k.val + 9) _ _ _ 2 0 (acc_off_9_0 k _)
    (fun x => piece_val tab adr d L hadr 9 inb_S10x20x128_S1x20x128_9_0_0 (10 * k.val + 9) hh hg f0 _ _ 2 0 (by decide) (by decide) (acc_off_9_0 k _) x)) ?_
  refine List.Forall₂.cons (pieceAt_mk9 tab adr d L (10 * k.val + 9) _ _ _ 1 4 (acc_off_9_4 k _)
    (fun x => piece_val tab adr d L hadr 9 inb_S10x20x128_S1x20x128_9_0_0 (10 * k.val + 9) hh hg f0 _ _ 1 4 (by decide) (by decide) (acc_off_9_4 k _) x)) ?_
  refine List.Forall₂.cons (pieceAt_mk9 tab adr d L (10 * k.val + 9) _ _ _ 1 3 (acc_off_9_3 k _)
    (fun x => piece_val tab adr d L hadr 9 inb_S10x20x128_S1x20x128_9_0_0 (10 * k.val + 9) hh hg f0 _ _ 1 3 (by decide) (by decide) (acc_off_9_3 k _) x)) ?_
  refine List.Forall₂.cons (pieceAt_mk9 tab adr d L (10 * k.val + 9) _ _ _ 1 2 (acc_off_9_2 k _)
    (fun x => piece_val tab adr d L hadr 9 inb_S10x20x128_S1x20x128_9_0_0 (10 * k.val + 9) hh hg f0 _ _ 1 2 (by decide) (by decide) (acc_off_9_2 k _) x)) ?_
  refine List.Forall₂.cons (pieceAt_mk9 tab adr d L (10 * k.val + 9) _ _ _ 1 1 (acc_off_9_1 k _)
    (fun x => piece_val tab adr d L hadr 9 inb_S10x20x128_S1x20x128_9_0_0 (10 * k.val + 9) hh hg f0 _ _ 1 1 (by decide) (by decide) (acc_off_9_1 k _) x)) ?_
  refine List.Forall₂.cons (pieceAt_mk9 tab adr d L (10 * k.val + 9) _ _ _ 1 0 (acc_off_9_0 k _)
    (fun x => piece_val tab adr d L hadr 9 inb_S10x20x128_S1x20x128_9_0_0 (10 * k.val + 9) hh hg f0 _ _ 1 0 (by decide) (by decide) (acc_off_9_0 k _) x)) ?_
  refine List.Forall₂.cons (pieceAt_mk9 tab adr d L (10 * k.val + 9) _ _ _ 0 4 (acc_off_9_4 k _)
    (fun x => piece_val tab adr d L hadr 9 inb_S10x20x128_S1x20x128_9_0_0 (10 * k.val + 9) hh hg f0 _ _ 0 4 (by decide) (by decide) (acc_off_9_4 k _) x)) ?_
  refine List.Forall₂.cons (pieceAt_mk9 tab adr d L (10 * k.val + 9) _ _ _ 0 3 (acc_off_9_3 k _)
    (fun x => piece_val tab adr d L hadr 9 inb_S10x20x128_S1x20x128_9_0_0 (10 * k.val + 9) hh hg f0 _ _ 0 3 (by decide) (by decide) (acc_off_9_3 k _) x)) ?_
  refine List.Forall₂.cons (pieceAt_mk9 tab adr d L (10 * k.val + 9) _ _ _ 0 2 (acc_off_9_2 k _)
    (fun x => piece_val tab adr d L hadr 9 inb_S10x20x128_S1x20x128_9_0_0 (10 * k.val + 9) hh hg f0 _ _ 0 2 (by decide) (by decide) (acc_off_9_2 k _) x)) ?_
  refine List.Forall₂.cons (pieceAt_mk9 tab adr d L (10 * k.val + 9) _ _ _ 0 1 (acc_off_9_1 k _)
    (fun x => piece_val tab adr d L hadr 9 inb_S10x20x128_S1x20x128_9_0_0 (10 * k.val + 9) hh hg f0 _ _ 0 1 (by decide) (by decide) (acc_off_9_1 k _) x)) ?_
  refine List.Forall₂.cons (pieceAt_mk9 tab adr d L (10 * k.val + 9) _ _ _ 0 0 (acc_off_9_0 k _)
    (fun x => piece_val tab adr d L hadr 9 inb_S10x20x128_S1x20x128_9_0_0 (10 * k.val + 9) hh hg f0 _ _ 0 0 (by decide) (by decide) (acc_off_9_0 k _) x)) ?_
  exact List.Forall₂.nil

end Cert.Proof.KB.Sc

end
-- ==== Proof.ScAccPureB.lean ====
/-
  One step of the accumulation. The tile writes chunk c's five rows of eighty lanes at rows
  (c mod 50) · 5 … (c mod 50) · 5 + 4 of its accumulation scratch and leaves the other rows as they
  were. If before the step every earlier chunk of the part the previous chunk lies in had its rows
  at the value, then after it every chunk up to c of the part c lies in has: an earlier chunk of
  c's part has a smaller residue modulo 50, so its rows lie below the rows written and were kept;
  and it lies in the previous chunk's part as well, so it had its rows at the value. When c opens a
  new part (c mod 50 = 0) there is no earlier chunk in it and only the new rows are asked for.
-/
import proofs.«207241_g55714315764006_cont_9to1c4b_410_29_alg».proof.Proof.ScDefsB

noncomputable section

namespace Cert.Proof.KB.Sc

open Cert.Kernel Cert.Kernel.Gen Cert.Proof.KB
open Idealize.ShloMosaic
open Idealize.ShloMosaic.SparseCore (S V T)
open Idealize.SL.Sem

variable {F : FTy → Type} [FloatOps F]
variable (tab : (d : Dev nD) → Buf (Elt F) (tLoc d)) (adr : (d : Dev nD) → Buf (Elt F) (aLoc d))
variable (d : Dev nD) (L : grid2.Coords)

/-- Before the first chunk nothing is asked. -/
theorem AccOK_zero (fy : Buf (Elt F) ((sY).view.loc (V d (cV L) (jV L)))) : AccOK tab adr d L 0 fy :=
  fun c hc => absurd hc (Nat.not_lt_zero c)

/-- The step, from the least that is needed of the rows kept: the rows below the ones written, at
    the eighty lanes. -/
theorem AccOK_step_of_below (c : ℕ) (fy fy' : Buf (Elt F) ((sY).view.loc (V d (cV L) (jV L))))
    (hold : AccOK tab adr d L c fy)
    (hnew : ∀ t, t < 5 → ∀ l, l < 80 → fy' (yIx ((c % 50) * 5 + t) l) = gvalN tab adr d L c t l)
    (hkeep : ∀ r l, r < (c % 50) * 5 → l < 80 → fy' (yIx r l) = fy (yIx r l)) :
    AccOK tab adr d L (c + 1) fy' := by
  intro c' hc' hpart t ht l hl
  rcases Nat.lt_or_ge c' c with hlt | hge
  · rw [hkeep ((c' % 50) * 5 + t) l (by omega) hl]
    exact hold c' hlt (by omega) t ht l hl
  · obtain rfl : c' = c := by omega
    exact hnew t ht l hl

/-- The step: chunk c's rows written at the value, every other row kept. -/
theorem AccOK_step (c : ℕ) (hc : c < 250) (fy fy' : Buf (Elt F) ((sY).view.loc (V d (cV L) (jV L))))
    (hold : AccOK tab adr d L c fy)
    (hnew : ∀ t, t < 5 → ∀ l, l < 80 → fy' (yIx ((c % 50) * 5 + t) l) = gvalN tab adr d L c t l)
    (hkeep : ∀ r l, (r < (c % 50) * 5 ∨ (c % 50) * 5 + 5 ≤ r) → fy' (yIx r l) = fy (yIx r l)) :
    AccOK tab adr d L (c + 1) fy' :=
  AccOK_step_of_below tab adr d L c fy fy' hold hnew fun r l hr _ => hkeep r l (Or.inl hr)

/-- The same with the rows kept asked only inside the scratch: rows below 250, the eighty lanes. -/
theorem AccOK_step_inb (c : ℕ) (hc : c < 250) (fy fy' : Buf (Elt F) ((sY).view.loc (V d (cV L) (jV L))))
    (hold : AccOK tab adr d L c fy)
    (hnew : ∀ t, t < 5 → ∀ l, l < 80 → fy' (yIx ((c % 50) * 5 + t) l) = gvalN tab adr d L c t l)
    (hkeep : ∀ r, r < 250 → ∀ l, l < 80 → (r < (c % 50) * 5 ∨ (c % 50) * 5 + 5 ≤ r) → fy' (yIx r l) = fy (yIx r l)) :
    AccOK tab adr d L (c + 1) fy' :=
  AccOK_step_of_below tab adr d L c fy fy' hold hnew fun r l hr hl => hkeep r (by omega) l hl (Or.inl hr)

/-- After the fiftieth chunk of part p the whole scratch is at the value: row r holds group r mod 5
    of chunk 50 p + r div 5. -/
theorem AccOK_full (p : ℕ) (fy : Buf (Elt F) ((sY).view.loc (V d (cV L) (jV L))))
    (h : AccOK tab adr d L (50 * p + 50) fy) (r : ℕ) (hr : r < 250) (l : ℕ) (hl : l < 80) :
    fy (yIx r l) = gvalN tab adr d L (50 * p + r / 5) (r % 5) l := by
  have h1 := h (50 * p + r / 5) (by omega) (by omega) (r % 5) (by omega) l hl
  have h2 : ((50 * p + r / 5) % 50) * 5 + r % 5 = r := by omega
  rw [h2] at h1
  exact h1

end Cert.Proof.KB.Sc

end
-- ==== Proof.ScOutStepB.lean ====
/-
  One copy-out of the accumulation scratch. After every fiftieth chunk the tile copies its 250
  accumulated rows of 80 lanes to one part of its slab of the output: part p after chunk 50 p + 49.
  The part's index (r, l) sits at (worker, p, r, l) of the output. If the scratch holds, at every row
  r and lane l, group r mod 5 of chunk 50 p + r div 5 at lane l, and the parts below p of the slab were
  at the output's value, then after the copy the parts below p + 1 are: the copy leaves the other
  parts alone, and at (worker, p, r, l) the output's value is by definition that group of that chunk.
-/
import proofs.«207241_g55714315764006_cont_9to1c4b_410_29_alg».proof.Proof.ScDefsB
import proofs.«207241_g55714315764006_cont_9to1c4b_410_29_alg».proof.Proof.ScAccPureB

noncomputable section

namespace Cert.Proof.KB.Sc

open Cert.Kernel Cert.Kernel.Gen Cert.Proof.KB
open Idealize.ShloMosaic
open Idealize.ShloMosaic.SparseCore (S V T)
open Idealize.SL.Sem

/-! ## The part of the output one copy-out writes -/

section Part
variable (L : grid2.Coords)

/-- The part of the output the copy-out after chunk 10 k + 9 writes, as the program slices it. -/
abbrev oPartK (k : Fin k2_t1_loop.trips) (h : k2_cond19 k = 1#1) : Memref sig .scVector .hbm S250x80 .f32 :=
  ((oV : Memref sig .scVector .hbm S32x5x250x80 .f32).slice (Rect.unit (s := S32x5x250x80) (k2_off171 L k) S1x1x250x80.size (k2_off171_inb L k h)) (fun _ => rfl)).squeeze S250x80 squeezes_S1x1x250x80_S250x80

/-- It lies in the tile's slab of the output: the same leading index, one of the slab's five parts, all of its rows and lanes. -/
theorem oPart_subset (k : Fin k2_t1_loop.trips) (h : k2_cond19 k = 1#1) : (oPartK L k h).view.set ⊆ oSet (wL L) := by
  show (((oV : Memref sig .scVector .hbm S32x5x250x80 .f32).view.slice (Rect.unit (s := S32x5x250x80) (k2_off171 L k) S1x1x250x80.size (k2_off171_inb L k h))).reshape S250x80 squeezes_S1x1x250x80_S250x80.numel_eq).set
    ⊆ ((oV : Memref sig .scVector .hbm S32x5x250x80 .f32).view.slice (oSlab (wL L))).set
  rw [View.set_reshape, View.set_slice, View.set_slice]
  refine Finset.map_subset_map.mpr (Rect.set_subset_of_span _ _ (fun _ => rfl) fun a => ?_)
  have hin := k2_off171_inb L k h a
  rw [k2_off171_eq] at hin
  simp only [Rect.off_unit, Rect.size_unit, Rect.stride_unit]
  rw [k2_off171_eq]
  have hw : (wL L).val = 2 * (L 1).val + (L 0).val := rfl
  match a with
  | ⟨0, _⟩ =>
    show (wL L).val * 1 ≤ 2 * (L 1).val + (L 0).val ∧ 2 * (L 1).val + (L 0).val + 1 * 1 ≤ (wL L).val * 1 + 1 + (1 - 1)
    omega
  | ⟨1, _⟩ =>
    have hin' : (10 * k.val + 9) / 50 + 1 ≤ 5 := hin
    show 0 * 5 ≤ (10 * k.val + 9) / 50 ∧ (10 * k.val + 9) / 50 + 1 * 1 ≤ 0 * 5 + 5 + (1 - 1)
    omega
  | ⟨2, _⟩ =>
    show 0 * 250 ≤ 0 ∧ 0 + 1 * 250 ≤ 0 * 250 + 250 + (1 - 1)
    omega
  | ⟨3, _⟩ =>
    show 0 * 80 ≤ 0 ∧ 0 + 1 * 80 ≤ 0 * 80 + 80 + (1 - 1)
    omega

/-- An element of worker w's slab has w for its leading coordinate. -/
theorem fst_of_mem_oSet (w : Fin 32) (x : S32x5x250x80.Idx) (hx : x ∈ oSet w) : (x 0).val = w.val := by
  have hx' : x ∈ ((oV : Memref sig .scVector .hbm S32x5x250x80 .f32).view.slice (oSlab w)).set := hx
  rw [View.set_slice, Finset.mem_map] at hx'
  obtain ⟨j, hj, rfl⟩ := hx'
  have h0 := (Rect.mem_set_unit.mp hj) 0
  have h0' : w.val * 1 ≤ (j 0).val ∧ (j 0).val < w.val * 1 + 1 := h0
  show (j 0).val = w.val
  omega

/-- An element of the part written after chunk 10 k + 9 has (10 k + 9) div 50 for its second coordinate. -/
theorem snd_of_mem_oPart (k : Fin k2_t1_loop.trips) (h : k2_cond19 k = 1#1) (x : S32x5x250x80.Idx)
    (hx : x ∈ (oPartK L k h).view.set) : (x 1).val = (10 * k.val + 9) / 50 := by
  have hx' : x ∈ (((oV : Memref sig .scVector .hbm S32x5x250x80 .f32).view.slice (Rect.unit (s := S32x5x250x80) (k2_off171 L k) S1x1x250x80.size (k2_off171_inb L k h))).reshape S250x80 squeezes_S1x1x250x80_S250x80.numel_eq).set := hx
  rw [View.set_reshape, View.set_slice, Finset.mem_map] at hx'
  obtain ⟨j, hj, rfl⟩ := hx'
  have h1 := (Rect.mem_set_unit.mp hj) 1
  rw [k2_off171_eq] at h1
  have h1' : (10 * k.val + 9) / 50 ≤ (j 1).val ∧ (j 1).val < (10 * k.val + 9) / 50 + 1 := h1
  show (j 1).val = (10 * k.val + 9) / 50
  omega

/-- The index (r, l) of the part behind two unit axes. -/
def y4 (y : S250x80.Idx) : S1x1x250x80.Idx :=
  fun | 0 => ⟨0, by decide⟩ | 1 => ⟨0, by decide⟩ | 2 => y 0 | 3 => y 1 | ⟨_ + 4, h⟩ => absurd h (Nat.not_lt.2 (Nat.le_add_left _ _))

/-- Dropping the two unit axes matches (r, l) with (0, 0, r, l): the same row-major position. -/
theorem reshape_y4 (y : S250x80.Idx) :
    Shape.reshapeEquiv squeezes_S1x1x250x80_S250x80.numel_eq y = y4 y :=
  Shape.reshapeEquiv_eq_of_rowMajor _ (by
    rw [Shape.rowMajor_val_four, Shape.rowMajor_val_two]
    show ((0 * 1 + 0) * 250 + (y 0).val) * 80 + (y 1).val = (y 0).val * 80 + (y 1).val
    omega)

/-- Where the part's index (r, l) sits in the output: at (worker, (10 k + 9) div 50, r, l). -/
theorem oPart_emb_val (k : Fin k2_t1_loop.trips) (h : k2_cond19 k = 1#1) (y : S250x80.Idx) (a : Fin 4) :
    (((oPartK L k h).view.emb y : S32x5x250x80.Idx) a).val
      = (![2 * (L 1).val + (L 0).val, (10 * k.val + 9) / 50, (y 0).val, (y 1).val] : Fin 4 → ℕ) a := by
  show (((Rect.unit (s := S32x5x250x80) (k2_off171 L k) S1x1x250x80.size (k2_off171_inb L k h)).emb
      (Shape.reshapeEquiv squeezes_S1x1x250x80_S250x80.numel_eq y) a : Fin _) : ℕ) = _
  rw [Rect.emb_apply, reshape_y4]
  simp only [Rect.off_unit, Rect.stride_unit]
  rw [congrFun (k2_off171_eq L k) a]
  match a with
  | ⟨0, _⟩ => show 2 * (L 1).val + (L 0).val + 1 * 0 = 2 * (L 1).val + (L 0).val; omega
  | ⟨1, _⟩ => show (10 * k.val + 9) / 50 + 1 * 0 = (10 * k.val + 9) / 50; omega
  | ⟨2, _⟩ => show 0 + 1 * (y 0).val = (y 0).val; omega
  | ⟨3, _⟩ => show 0 + 1 * (y 1).val = (y 1).val; omega

end Part

/-! ## The output's value at an element of the slab, and the step -/

variable {F : FTy → Type} [FloatOps F]
variable (tab : (d : Dev nD) → Buf (Elt F) (tLoc d)) (adr : (d : Dev nD) → Buf (Elt F) (aLoc d))
variable (d : Dev nD) (L : grid2.Coords)

/-- In range the reductions modulo the extents are identities: lane l of the row that word j of
    chunk c names. -/
theorem rowN_eq (c j l : ℕ) (hc : c < 250) (hj : j < 20) (hl : l < 128) :
    rowN tab adr d L c j l = rowAt tab adr d (wL L) ⟨c, hc⟩ ⟨j, hj⟩ ⟨l, hl⟩ := by
  have e1 : (⟨c % 250, Nat.mod_lt _ (by decide)⟩ : Fin 250) = ⟨c, hc⟩ := Fin.ext (Nat.mod_eq_of_lt hc)
  have e2 : (⟨j % 20, Nat.mod_lt _ (by decide)⟩ : Fin 20) = ⟨j, hj⟩ := Fin.ext (Nat.mod_eq_of_lt hj)
  have e3 : (⟨l % 128, Nat.mod_lt _ (by decide)⟩ : Fin 128) = ⟨l, hl⟩ := Fin.ext (Nat.mod_eq_of_lt hl)
  unfold rowN
  rw [e1, e2, e3]

/-- The output's value at an element (w, p, r, l) of the tile's slab is group r mod 5 of chunk
    50 p + r div 5 at lane l. -/
theorem gathered_eq (x : Idx (oLoc d)) (hx : x ∈ oSet (wL L)) :
    gathered tab adr d x
      = gvalN tab adr d L (50 * (x 1).val + (x 2).val / 5) ((x 2).val % 5) (x 3).val := by
  have hp : (x 1).val < 5 := (x 1).isLt
  have hr : (x 2).val < 250 := (x 2).isLt
  have hl : (x 3).val < 80 := (x 3).isLt
  have hw : x 0 = wL L := Fin.ext (fst_of_mem_oSet (wL L) x hx)
  unfold gvalN
  rw [rowN_eq tab adr d L _ (4 * ((x 2).val % 5)) _ (by omega) (by omega) (by omega),
    rowN_eq tab adr d L _ (4 * ((x 2).val % 5) + 1) _ (by omega) (by omega) (by omega),
    rowN_eq tab adr d L _ (4 * ((x 2).val % 5) + 2) _ (by omega) (by omega) (by omega),
    rowN_eq tab adr d L _ (4 * ((x 2).val % 5) + 3) _ (by omega) (by omega) (by omega), ← hw]
  rfl

/-- The tile's slab of the output has its parts below p at the value. -/
def OutOK (p : ℕ) (fo : Buf (Elt F) (oLoc d)) : Prop :=
  ∀ x : Idx (oLoc d), x ∈ oSet (wL L) → (x 1).val < p → fo x = gathered tab adr d x

/-- Before the first copy-out nothing is asked. -/
theorem OutOK_zero (fo : Buf (Elt F) (oLoc d)) : OutOK tab adr d L 0 fo :=
  fun x _ h => absurd h (Nat.not_lt_zero _)

/-- The copy-out after chunk 10 k + 9, k = 5 p + 4: the scratch, whole at part p's value, lands on
    part p of the slab; the parts below p + 1 are then at the value. -/
theorem out_step (k : Fin k2_t1_loop.trips) (h5 : k.val % 5 = 4) (h19 : k2_cond19 k = 1#1)
    (fy : Buf (Elt F) ((sY).view.loc (V d (cV L) (jV L)))) (hacc : AccOK tab adr d L (10 * k.val + 9 + 1) fy)
    (fo fo' : Buf (Elt F) (oLoc d)) (hout : OutOK tab adr d L (k.val / 5) fo)
    (hnew : (oPartK L k h19).view.read (Elt F) fo' = (sY).view.read (Elt F) fy)
    (hkeep : ∀ x, x ∉ (oPartK L k h19).view.set → fo' x = fo x) :
    OutOK tab adr d L ((k.val + 1) / 5) fo' := by
  intro x hx hp
  by_cases hlt : (x 1).val < k.val / 5
  · rw [hkeep x fun hm => by have := snd_of_mem_oPart L k h19 x hm; omega]
    exact hout x hx hlt
  · have h1 : (x 1).val = k.val / 5 := by omega
    have hr : (x 2).val < 250 := (x 2).isLt
    have hl : (x 3).val < 80 := (x 3).isLt
    have hxe : ((oPartK L k h19).view.emb (yIx (x 2).val (x 3).val) : S32x5x250x80.Idx) = x := by
      funext a
      apply Fin.ext
      rw [oPart_emb_val]
      have h0 := fst_of_mem_oSet (wL L) x hx
      have hw : (wL L).val = 2 * (L 1).val + (L 0).val := rfl
      match a with
      | ⟨0, _⟩ => show 2 * (L 1).val + (L 0).val = (x 0).val; omega
      | ⟨1, _⟩ => show (10 * k.val + 9) / 50 = (x 1).val; omega
      | ⟨2, _⟩ => show (x 2).val % 250 = (x 2).val; omega
      | ⟨3, _⟩ => show (x 3).val % 80 = (x 3).val; omega
    have hv := congrFun hnew (yIx (x 2).val (x 3).val)
    simp only [View.read_apply, cast_eq] at hv
    rw [hxe] at hv
    have e : 10 * k.val + 9 + 1 = 50 * (k.val / 5) + 50 := by omega
    rw [e] at hacc
    have hfy := AccOK_full tab adr d L (k.val / 5) fy hacc (x 2).val hr (x 3).val hl
    have hg := gathered_eq tab adr d L x hx
    rw [h1] at hg
    exact hv.trans (hfy.trans hg.symm)

end Cert.Proof.KB.Sc

end
-- ==== Proof.ScTileB.lean ====
/-
  The gather kernel's obligations for the launch theorem.

  Thirty-two workers — vector subcore s of SparseCore c is worker 2 s + c — each own one slab of the address array
  (250 chunks of 20 addresses) and one slab of the output (5 parts of 250 rows of 80 lanes). A worker copies its
  address slab into its scratch, then for each chunk k gathers the twenty table rows the chunk names and stores, for
  each of the chunk's five groups of four consecutive rows, the sum ((r₀ + r₁) + (r₂ + r₃)) of the group's first 80
  lanes into row (k mod 50) · 5 + group of an accumulation scratch, which it copies out to part k div 50 of its output
  slab after every fiftieth chunk. The gathers run ten deep, chunk k in slot k mod 10, each slot on a semaphore of
  its own, so that on every semaphore one transfer is outstanding at a time.

  The table is read whole by every worker: it is dealt as read shares, one per SparseCore, cut again one per vector
  subcore, and inside a task once more into a token per slot. The address array and the output are dealt by slabs,
  which are disjoint and cover them. The group loop (25 groups of ten chunks) is opened at an invariant that holds,
  per slot, the chunk in flight with what it will land; a landed chunk's accumulation is the slot's own lemma.
-/
import proofs.«207241_g55714315764006_cont_9to1c4b_410_29_alg».proof.Proof.ScDefsB
import proofs.«207241_g55714315764006_cont_9to1c4b_410_29_alg».proof.Proof.ScSlot0B
import proofs.«207241_g55714315764006_cont_9to1c4b_410_29_alg».proof.Proof.ScSlot1B
import proofs.«207241_g55714315764006_cont_9to1c4b_410_29_alg».proof.Proof.ScSlot2B
import proofs.«207241_g55714315764006_cont_9to1c4b_410_29_alg».proof.Proof.ScSlot3B
import proofs.«207241_g55714315764006_cont_9to1c4b_410_29_alg».proof.Proof.ScSlot4B
import proofs.«207241_g55714315764006_cont_9to1c4b_410_29_alg».proof.Proof.ScSlot5B
import proofs.«207241_g55714315764006_cont_9to1c4b_410_29_alg».proof.Proof.ScSlot6B
import proofs.«207241_g55714315764006_cont_9to1c4b_410_29_alg».proof.Proof.ScSlot7B
import proofs.«207241_g55714315764006_cont_9to1c4b_410_29_alg».proof.Proof.ScSlot8B
import proofs.«207241_g55714315764006_cont_9to1c4b_410_29_alg».proof.Proof.ScSlot9B
import proofs.«207241_g55714315764006_cont_9to1c4b_410_29_alg».proof.Proof.ScOutStepB

noncomputable section

namespace Cert.Proof.KB.Sc

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]

/-! ## The launch equations -/

omit [FloatOps F] in
theorem aSet_eq (w : Fin 32) : aSet w = (aSlab w).set := by
  show ((View.whole (main_v23_scv : Ref sig .scVector)).slice (aSlab w)).set = _
  rw [View.set_slice]; exact Finset.map_refl
omit [FloatOps F] in
theorem oSet_eq (w : Fin 32) : oSet w = (oSlab w).set := by
  show ((View.whole (main_v24_scv : Ref sig .scVector)).slice (oSlab w)).set = _
  rw [View.set_slice]; exact Finset.map_refl
omit [FloatOps F] in
theorem aSet_disjoint : ∀ i ∈ (Finset.univ : Finset (Fin 32)), ∀ j ∈ (Finset.univ : Finset (Fin 32)), i ≠ j → Disjoint (aSet i) (aSet j) :=
  fun i _ j _ h => by rw [aSet_eq, aSet_eq]; exact Rect.part_disjoint hdivA h
omit [FloatOps F] in
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
omit [FloatOps F] in
theorem aSet_cover : (Finset.univ : Finset (Fin 32)).biUnion aSet = Finset.univ :=
  (Finset.biUnion_congr rfl fun i _ => aSet_eq i).trans (Rect.biUnion_part hdivA)
omit [FloatOps F] in
theorem oSet_cover : (Finset.univ : Finset (Fin 32)).biUnion oSet = Finset.univ :=
  (Finset.biUnion_congr rfl fun i _ => oSet_eq i).trans (Rect.biUnion_part hdivO)

omit [FloatOps F] in
/-- A family over the workers, by SparseCore and vector subcore. -/
theorem bigSep_workers (Φ : Fin 32 → sProp 𝕄) :
    (bigSep Finset.univ fun c : Fin 2 => bigSep Finset.univ fun s : Fin 16 => Φ (wk c s)) = bigSep Finset.univ Φ := by
  rw [bigSep_univ_equiv wkEquiv Φ, bigSep_univ_prod]; rfl

omit [FloatOps F] in
theorem aPts_workers (d : Dev nD) (f : Buf (Elt F) (aLoc d)) :
    (bigSep Finset.univ fun w : Fin 32 => (aLoc d ↦[aSet w]{fullShare} f : sProp 𝕄)) = aLoc d ↦{fullShare} f := by
  rw [← pointsTo_biUnion Finset.univ (ℓ := aLoc d) aSet aSet_disjoint, aSet_cover]; try rfl
omit [FloatOps F] in
theorem oPts_workers (d : Dev nD) (f : Buf (Elt F) (oLoc d)) :
    (bigSep Finset.univ fun w : Fin 32 => (oLoc d ↦[oSet w]{fullShare} f : sProp 𝕄)) = oLoc d ↦{fullShare} f := by
  rw [← pointsTo_biUnion Finset.univ (ℓ := oLoc d) oSet oSet_disjoint, oSet_cover]; try rfl

/-- The output's slabs at whatever they hold are the output at whatever it holds. -/
theorem oPts_workers_ex (d : Dev nD) :
    (bigSep Finset.univ fun w : Fin 32 => (iprop(∃ f, oLoc d ↦[oSet w]{fullShare} f) : sProp 𝕄)) = iprop(∃ f, oLoc d ↦{fullShare} f) := by
  have h1 : (bigSep Finset.univ fun w : Fin 32 => (iprop(∃ f, oLoc d ↦[oSet w]{fullShare} f) : sProp 𝕄)) ⊢ iprop(∃ f, oLoc d ↦{fullShare} f) := by
    refine (bigSep_exists_pi Finset.univ (fun w (f : Buf (Elt F) (oLoc d)) => (oLoc d ↦[oSet w]{fullShare} f : sProp 𝕄))).trans ?_
    iintro ⟨%fs, H⟩
    ihave H' := (pointsTo_biUnion_join Finset.univ oSet fs (fs 0) oSet_disjoint) $$ H
    icases H' with ⟨%g, -, Hg⟩
    rw [oSet_cover]
    iexists g; iexact Hg
  have h2 : (iprop(∃ f, oLoc d ↦{fullShare} f) : sProp 𝕄) ⊢ bigSep Finset.univ fun w : Fin 32 => (iprop(∃ f, oLoc d ↦[oSet w]{fullShare} f) : sProp 𝕄) :=
    exists_elim fun f => (Entails.of_eq (oPts_workers (F := F) d f).symm).trans
      (bigSep_mono fun w _ => exists_intro (Φ := fun f => (oLoc d ↦[oSet w]{fullShare} f : sProp 𝕄)) f)
  exact BI.equiv_iff.mp ⟨h1, h2⟩

omit [FloatOps F] in
theorem tPts_cores (d : Dev nD) (f : Buf (Elt F) (tLoc d)) :
    (bigSep Finset.univ fun c : Fin 2 => (tLoc d ↦{qC c} f : sProp 𝕄)) = tLoc d ↦{fullShare} f :=
  (pointsTo_pieces (ℓ := tLoc d) Finset.univ f 1 fullShare).symm
omit [FloatOps F] in
theorem tPts_tiles (d : Dev nD) (c : Fin 2) (f : Buf (Elt F) (tLoc d)) :
    (bigSep Finset.univ fun s : Fin 16 => (tLoc d ↦{qT c s} f : sProp 𝕄)) = tLoc d ↦{qC c} f :=
  (pointsTo_pieces (ℓ := tLoc d) Finset.univ f 15 (qC c)).symm

theorem st_eq (d : Dev nD) (c : Fin ((K (F := F)).nCore 0)) :
    (P (F := F) tab adr).st 0 d c = iprop(tPts tab d (qC (cC c)) ∗ (bigSep Finset.univ fun s : Fin 16 => aPts adr d (wk (cC c) s))
        ∗ bigSep Finset.univ fun s : Fin 16 => iprop(∃ f, oPts d (wk (cC c) s) f)) := rfl
theorem dn_eq (d : Dev nD) (c : Fin ((K (F := F)).nCore 0)) :
    (P (F := F) tab adr).dn 0 d c = iprop(tPts tab d (qC (cC c)) ∗ (bigSep Finset.univ fun s : Fin 16 => aPts adr d (wk (cC c) s))
        ∗ bigSep Finset.univ fun s : Fin 16 => oPts d (wk (cC c) s) (gathered tab adr d)) := rfl
theorem go_eq (d : Dev nD) (c : Fin ((K (F := F)).nCore 0)) (s : Fin ((K (F := F)).nSub 0)) :
    (P (F := F) tab adr).go 0 d c s = iprop(tPts tab d (qT (cC c) (sS s)) ∗ aPts adr d (wk (cC c) (sS s)) ∗ ∃ f, oPts d (wk (cC c) (sS s)) f) := rfl
theorem td_eq (d : Dev nD) (c : Fin ((K (F := F)).nCore 0)) (s : Fin ((K (F := F)).nSub 0)) :
    (P (F := F) tab adr).td 0 d c s = iprop(tPts tab d (qT (cC c) (sS s)) ∗ aPts adr d (wk (cC c) (sS s)) ∗ oPts d (wk (cC c) (sS s)) (gathered tab adr d)) := rfl

omit [FloatOps F] in
theorem bigSep_cores (Φ : Fin 2 → sProp 𝕄) :
    (bigSep Finset.univ fun c : Fin ((K (F := F)).nCore 0) => Φ (cC c)) = bigSep Finset.univ Φ :=
  bigSep_congr fun _ _ => congrArg Φ (Fin.ext rfl)
omit [FloatOps F] in
theorem bigSep_tiles (Φ : Fin 16 → sProp 𝕄) :
    (bigSep Finset.univ fun s : Fin ((K (F := F)).nSub 0) => Φ (sS s)) = bigSep Finset.univ Φ :=
  bigSep_congr fun _ _ => congrArg Φ (Fin.ext rfl)

/-- The SparseCores' shares together are the three arrays whole. -/
theorem st0_eq (d : Dev nD) :
    (bigSep Finset.univ fun c : Fin ((K (F := F)).nCore 0) => (P (F := F) tab adr).st 0 d c)
      = iprop((tLoc d ↦{fullShare} tab d) ∗ (aLoc d ↦{fullShare} adr d) ∗ ∃ f, oLoc d ↦{fullShare} f) := by
  simp only [st_eq]
  rw [bigSep_cores (F := F) (fun c => iprop(tPts tab d (qC c) ∗ (bigSep Finset.univ fun s : Fin 16 => aPts adr d (wk c s))
        ∗ bigSep Finset.univ fun s : Fin 16 => iprop(∃ f, oPts d (wk c s) f))),
    bigSep_sep', bigSep_sep', tPts_cores,
    bigSep_workers (F := F) (fun w => aPts adr d w), bigSep_workers (F := F) (fun w => iprop(∃ f, oPts d w f)),
    aPts_workers, oPts_workers_ex]

theorem dn0_eq (d : Dev nD) :
    (bigSep Finset.univ fun c : Fin ((K (F := F)).nCore 0) => (P (F := F) tab adr).dn 0 d c)
      = iprop((tLoc d ↦{fullShare} tab d) ∗ (aLoc d ↦{fullShare} adr d) ∗ (oLoc d ↦{fullShare} gathered tab adr d)) := by
  simp only [dn_eq]
  rw [bigSep_cores (F := F) (fun c => iprop(tPts tab d (qC c) ∗ (bigSep Finset.univ fun s : Fin 16 => aPts adr d (wk c s))
        ∗ bigSep Finset.univ fun s : Fin 16 => oPts d (wk c s) (gathered tab adr d))),
    bigSep_sep', bigSep_sep', tPts_cores,
    bigSep_workers (F := F) (fun w => aPts adr d w), bigSep_workers (F := F) (fun w => oPts d w (gathered tab adr d)),
    aPts_workers, oPts_workers]

/-- A SparseCore's operands split among its sixteen tiles and join back. -/
theorem vecSplit : (K (F := F)).VecSplit' (P (F := F) tab adr) 0 := by
  intro d c
  rw [st_eq, dn_eq]
  simp only [go_eq, td_eq]
  rw [bigSep_tiles (F := F) (fun s => iprop(tPts tab d (qT (cC c) s) ∗ aPts adr d (wk (cC c) s) ∗ ∃ f, oPts d (wk (cC c) s) f)),
    bigSep_tiles (F := F) (fun s => iprop(tPts tab d (qT (cC c) s) ∗ aPts adr d (wk (cC c) s) ∗ oPts d (wk (cC c) s) (gathered tab adr d))),
    bigSep_sep', bigSep_sep', bigSep_sep', bigSep_sep', tPts_tiles]
  iintro H; imodintro
  isplitl [H]; · iexact H
  iintro H; iexact H

/-! ## A tile's task -/

section Tile

variable (d : Dev nD) (L : grid2.Coords)

omit [FloatOps F] in
/-- A buffer that reads as `w` through a view is unchanged by writing `w` through it. -/
theorem write_of_read_eq {κ : Kind} {sp : Space} {s : Shape} {e : EltTy} (v : View sig κ sp s e) (c : v.ty.Contents (Elt F)) (w : s.Idx → Elt F e)
    (h : v.read (Elt F) c = w) : v.write (Elt F) c w Finset.univ = c := by
  subst h
  rw [View.write_read_eq_piecewise]
  funext i
  by_cases hi : i ∈ v.setOn Finset.univ
  · exact Finset.piecewise_eq_of_mem _ _ _ hi
  · exact Finset.piecewise_eq_of_notMem _ _ _ hi

omit [FloatOps F] in
/-- One write of the whole shape reads back as its payload. -/
theorem read_writes_whole {κ : Kind} {sp : Space} {s : Shape} {e : EltTy} (v : View sig κ sp s e) (f : v.ty.Contents (Elt F))
    (w : (Rect.whole s).shape.Idx → Elt F e) : v.read (Elt F) (v.writes (Elt F) f [⟨Rect.whole s, w⟩]) = w :=
  funext fun x => by
    have h := View.read_writes_cons_emb (v := v) (f := f) (Rect.whole s) w [] x
    rwa [Rect.emb_whole_apply] at h

omit [FloatOps F] in
/-- Reading through a view sees only the view's own elements. -/
theorem read_piecewise_set {κ : Kind} {sp : Space} {s : Shape} {e : EltTy} (v : View sig κ sp s e) (g f : v.ty.Contents (Elt F))
    [∀ j, Decidable (j ∈ v.set)] : v.read (Elt F) ((v.set).piecewise g f) = v.read (Elt F) g :=
  funext fun y => by
    rw [View.read_apply, View.read_apply, Finset.piecewise_eq_of_mem _ _ _ (v.emb_mem_set y)]

omit [FloatOps F] in
/-- A slot's elements are its unit-stride box of the ring scratch: one index on the leading axis. -/
theorem slot_set (b : ℕ) (hb : ∀ a, (![b, 0, 0] : Fin 3 → ℕ) a + S1x20x128.size a ≤ S10x20x128.size a) :
    (slotM b hb).view.set = (Rect.unit (s := S10x20x128) ![b, 0, 0] S1x20x128.size hb).set := by
  show (((sR : Memref sig .scVector .vmem S10x20x128 .f32).view.slice (Rect.unit (s := S10x20x128) ![b, 0, 0] S1x20x128.size hb)).reshape S20x128 squeezes_S1x20x128_S20x128.numel_eq).set = _
  rw [View.set_reshape]
  exact View.set_slice_whole _ _

omit [FloatOps F] in
/-- Two different slots share no element: they are apart on the leading axis. -/
theorem slot_disj (b b' : ℕ) (hb : ∀ a, (![b, 0, 0] : Fin 3 → ℕ) a + S1x20x128.size a ≤ S10x20x128.size a)
    (hb' : ∀ a, (![b', 0, 0] : Fin 3 → ℕ) a + S1x20x128.size a ≤ S10x20x128.size a) (hne : b ≠ b') :
    Disjoint (slotM b hb).view.set (slotM b' hb').view.set := by
  rw [slot_set, slot_set]
  refine Rect.unit_disjoint (0 : Fin 3) ?_
  show b + 1 ≤ b' ∨ b' + 1 ≤ b
  omega

omit [FloatOps F] in
/-- A part of an element set and the rest of it, each at some contents, are the set at some contents. -/
theorem join_step {ℓ : Loc nD τ sig} (S I : Finset (Idx ℓ)) (hI : I ⊆ S) :
    iprop((∃ f : Buf (Elt F) ℓ, ℓ ↦[I]{fullShare} f) ∗ (∃ f : Buf (Elt F) ℓ, ℓ ↦[S \ I]{fullShare} f))
      ⊢ (iprop(∃ f : Buf (Elt F) ℓ, ℓ ↦[S]{fullShare} f) : sProp 𝕄) := by
  iintro ⟨⟨%g, Hg⟩, ⟨%f, Hf⟩⟩
  iexists (I.piecewise g f)
  iapply (pointsTo_join_subset hI)
  isplitl [Hg]; · iexact Hg
  iexact Hf

omit [FloatOps F] in
/-- THE RING SCRATCH WHOLE AGAIN: the ten slots, each at some contents, and what of the scratch lies in none of them
    are the scratch at some contents. The slots are joined back last first, each inside what the earlier ones left. -/
theorem sR_join (g : Buf (Elt F) ((sR).view.loc (V d (cV L) (jV L)))) :
    iprop((∃ f, (slotM 0 inb_S10x20x128_S1x20x128_0_0_0).view.loc (V d (cV L) (jV L)) ↦[(slotM 0 inb_S10x20x128_S1x20x128_0_0_0).view.set]{fullShare} f)
      ∗ (∃ f, (slotM 1 inb_S10x20x128_S1x20x128_1_0_0).view.loc (V d (cV L) (jV L)) ↦[(slotM 1 inb_S10x20x128_S1x20x128_1_0_0).view.set]{fullShare} f)
      ∗ (∃ f, (slotM 2 inb_S10x20x128_S1x20x128_2_0_0).view.loc (V d (cV L) (jV L)) ↦[(slotM 2 inb_S10x20x128_S1x20x128_2_0_0).view.set]{fullShare} f)
      ∗ (∃ f, (slotM 3 inb_S10x20x128_S1x20x128_3_0_0).view.loc (V d (cV L) (jV L)) ↦[(slotM 3 inb_S10x20x128_S1x20x128_3_0_0).view.set]{fullShare} f)
      ∗ (∃ f, (slotM 4 inb_S10x20x128_S1x20x128_4_0_0).view.loc (V d (cV L) (jV L)) ↦[(slotM 4 inb_S10x20x128_S1x20x128_4_0_0).view.set]{fullShare} f)
      ∗ (∃ f, (slotM 5 inb_S10x20x128_S1x20x128_5_0_0).view.loc (V d (cV L) (jV L)) ↦[(slotM 5 inb_S10x20x128_S1x20x128_5_0_0).view.set]{fullShare} f)
      ∗ (∃ f, (slotM 6 inb_S10x20x128_S1x20x128_6_0_0).view.loc (V d (cV L) (jV L)) ↦[(slotM 6 inb_S10x20x128_S1x20x128_6_0_0).view.set]{fullShare} f)
      ∗ (∃ f, (slotM 7 inb_S10x20x128_S1x20x128_7_0_0).view.loc (V d (cV L) (jV L)) ↦[(slotM 7 inb_S10x20x128_S1x20x128_7_0_0).view.set]{fullShare} f)
      ∗ (∃ f, (slotM 8 inb_S10x20x128_S1x20x128_8_0_0).view.loc (V d (cV L) (jV L)) ↦[(slotM 8 inb_S10x20x128_S1x20x128_8_0_0).view.set]{fullShare} f)
      ∗ (∃ f, (slotM 9 inb_S10x20x128_S1x20x128_9_0_0).view.loc (V d (cV L) (jV L)) ↦[(slotM 9 inb_S10x20x128_S1x20x128_9_0_0).view.set]{fullShare} f)
      ∗ ((sR).view.loc (V d (cV L) (jV L)) ↦[((((((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) \ (slotM 6 inb_S10x20x128_S1x20x128_6_0_0).view.set) \ (slotM 7 inb_S10x20x128_S1x20x128_7_0_0).view.set) \ (slotM 8 inb_S10x20x128_S1x20x128_8_0_0).view.set) \ (slotM 9 inb_S10x20x128_S1x20x128_9_0_0).view.set)]{fullShare} g))
      ⊢ (iprop(∃ f, (V d (cV L) (jV L)).loc cc2_scratch1 ↦{fullShare} f) : sProp 𝕄) := by
  iintro ⟨H0, H1, H2, H3, H4, H5, H6, H7, H8, H9, Hg⟩
  ihave Hr : iprop(∃ f : Buf (Elt F) ((sR).view.loc (V d (cV L) (jV L))), (sR).view.loc (V d (cV L) (jV L)) ↦[((((((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) \ (slotM 6 inb_S10x20x128_S1x20x128_6_0_0).view.set) \ (slotM 7 inb_S10x20x128_S1x20x128_7_0_0).view.set) \ (slotM 8 inb_S10x20x128_S1x20x128_8_0_0).view.set) \ (slotM 9 inb_S10x20x128_S1x20x128_9_0_0).view.set)]{fullShare} f) $$ [Hg]
  · iexists g; iexact Hg
  ihave Hr := (join_step (F := F) (ℓ := (sR).view.loc (V d (cV L) (jV L))) (((((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) \ (slotM 6 inb_S10x20x128_S1x20x128_6_0_0).view.set) \ (slotM 7 inb_S10x20x128_S1x20x128_7_0_0).view.set) \ (slotM 8 inb_S10x20x128_S1x20x128_8_0_0).view.set) (slotM 9 inb_S10x20x128_S1x20x128_9_0_0).view.set (Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, slot_disj 9 0 _ _ (by decide)⟩, slot_disj 9 1 _ _ (by decide)⟩, slot_disj 9 2 _ _ (by decide)⟩, slot_disj 9 3 _ _ (by decide)⟩, slot_disj 9 4 _ _ (by decide)⟩, slot_disj 9 5 _ _ (by decide)⟩, slot_disj 9 6 _ _ (by decide)⟩, slot_disj 9 7 _ _ (by decide)⟩, slot_disj 9 8 _ _ (by decide)⟩)) $$ [H9 Hr]
  · isplitl [H9]; · iexact H9
    iexact Hr
  ihave Hr := (join_step (F := F) (ℓ := (sR).view.loc (V d (cV L) (jV L))) ((((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) \ (slotM 6 inb_S10x20x128_S1x20x128_6_0_0).view.set) \ (slotM 7 inb_S10x20x128_S1x20x128_7_0_0).view.set) (slotM 8 inb_S10x20x128_S1x20x128_8_0_0).view.set (Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, slot_disj 8 0 _ _ (by decide)⟩, slot_disj 8 1 _ _ (by decide)⟩, slot_disj 8 2 _ _ (by decide)⟩, slot_disj 8 3 _ _ (by decide)⟩, slot_disj 8 4 _ _ (by decide)⟩, slot_disj 8 5 _ _ (by decide)⟩, slot_disj 8 6 _ _ (by decide)⟩, slot_disj 8 7 _ _ (by decide)⟩)) $$ [H8 Hr]
  · isplitl [H8]; · iexact H8
    iexact Hr
  ihave Hr := (join_step (F := F) (ℓ := (sR).view.loc (V d (cV L) (jV L))) (((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) \ (slotM 6 inb_S10x20x128_S1x20x128_6_0_0).view.set) (slotM 7 inb_S10x20x128_S1x20x128_7_0_0).view.set (Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, slot_disj 7 0 _ _ (by decide)⟩, slot_disj 7 1 _ _ (by decide)⟩, slot_disj 7 2 _ _ (by decide)⟩, slot_disj 7 3 _ _ (by decide)⟩, slot_disj 7 4 _ _ (by decide)⟩, slot_disj 7 5 _ _ (by decide)⟩, slot_disj 7 6 _ _ (by decide)⟩)) $$ [H7 Hr]
  · isplitl [H7]; · iexact H7
    iexact Hr
  ihave Hr := (join_step (F := F) (ℓ := (sR).view.loc (V d (cV L) (jV L))) ((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) (slotM 6 inb_S10x20x128_S1x20x128_6_0_0).view.set (Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, slot_disj 6 0 _ _ (by decide)⟩, slot_disj 6 1 _ _ (by decide)⟩, slot_disj 6 2 _ _ (by decide)⟩, slot_disj 6 3 _ _ (by decide)⟩, slot_disj 6 4 _ _ (by decide)⟩, slot_disj 6 5 _ _ (by decide)⟩)) $$ [H6 Hr]
  · isplitl [H6]; · iexact H6
    iexact Hr
  ihave Hr := (join_step (F := F) (ℓ := (sR).view.loc (V d (cV L) (jV L))) (((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) (slotM 5 inb_S10x20x128_S1x20x128_5_0_0).view.set (Finset.subset_sdiff.mpr ⟨Finset.subset_sdiff.mpr ⟨Finset.subset_sdiff.mpr ⟨Finset.subset_sdiff.mpr ⟨Finset.subset_sdiff.mpr ⟨Finset.subset_univ _, slot_disj 5 0 _ _ (by decide)⟩, slot_disj 5 1 _ _ (by decide)⟩, slot_disj 5 2 _ _ (by decide)⟩, slot_disj 5 3 _ _ (by decide)⟩, slot_disj 5 4 _ _ (by decide)⟩)) $$ [H5 Hr]
  · isplitl [H5]; · iexact H5
    iexact Hr
  ihave Hr := (join_step (F := F) (ℓ := (sR).view.loc (V d (cV L) (jV L))) ((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) (slotM 4 inb_S10x20x128_S1x20x128_4_0_0).view.set (Finset.subset_sdiff.mpr ⟨Finset.subset_sdiff.mpr ⟨Finset.subset_sdiff.mpr ⟨Finset.subset_sdiff.mpr ⟨Finset.subset_univ _, slot_disj 4 0 _ _ (by decide)⟩, slot_disj 4 1 _ _ (by decide)⟩, slot_disj 4 2 _ _ (by decide)⟩, slot_disj 4 3 _ _ (by decide)⟩)) $$ [H4 Hr]
  · isplitl [H4]; · iexact H4
    iexact Hr
  ihave Hr := (join_step (F := F) (ℓ := (sR).view.loc (V d (cV L) (jV L))) (((Finset.univ \ (slotM 0 inb_S10x20x128_S1x20x128_0_0_0).view.set) \ (slotM 1 inb_S10x20x128_S1x20x128_1_0_0).view.set) \ (slotM 2 inb_S10x20x128_S1x20x128_2_0_0).view.set) (slotM 3 inb_S10x20x128_S1x20x128_3_0_0).view.set (Finset.subset_sdiff.mpr ⟨Finset.subset_sdiff.mpr ⟨Finset.subset_sdiff.mpr ⟨Finset.subset_univ _, slot_disj 3 0 _ _ (by decide)⟩, slot_disj 3 1 _ _ (by decide)⟩, slot_disj 3 2 _ _ (by decide)⟩)) $$ [H3 Hr]
  · isplitl [H3]; · iexact H3
    iexact Hr
  ihave Hr := (join_step (F := F) (ℓ := (sR).view.loc (V d (cV L) (jV L))) ((Finset.univ \ (slotM 0 inb_S10x20x128_S1x20x128_0_0_0).view.set) \ (slotM 1 inb_S10x20x128_S1x20x128_1_0_0).view.set) (slotM 2 inb_S10x20x128_S1x20x128_2_0_0).view.set (Finset.subset_sdiff.mpr ⟨Finset.subset_sdiff.mpr ⟨Finset.subset_univ _, slot_disj 2 0 _ _ (by decide)⟩, slot_disj 2 1 _ _ (by decide)⟩)) $$ [H2 Hr]
  · isplitl [H2]; · iexact H2
    iexact Hr
  ihave Hr := (join_step (F := F) (ℓ := (sR).view.loc (V d (cV L) (jV L))) (Finset.univ \ (slotM 0 inb_S10x20x128_S1x20x128_0_0_0).view.set) (slotM 1 inb_S10x20x128_S1x20x128_1_0_0).view.set (Finset.subset_sdiff.mpr ⟨Finset.subset_univ _, slot_disj 1 0 _ _ (by decide)⟩)) $$ [H1 Hr]
  · isplitl [H1]; · iexact H1
    iexact Hr
  ihave Hr := (join_step (F := F) (ℓ := (sR).view.loc (V d (cV L) (jV L))) Finset.univ (slotM 0 inb_S10x20x128_S1x20x128_0_0_0).view.set (Finset.subset_univ _)) $$ [H0 Hr]
  · isplitl [H0]; · iexact H0
    iexact Hr
  iexact Hr

/-! ## The group loop's invariant -/

/-- Slot `b` before group `g < 25`: its chunk `10 g + b` in flight on the slot's semaphore, holding the slot at
    contents that read as what the chunk's gather lands, the chunk's row of the address scratch and the table, the
    last two at the slot's read shares, whose rests the tile keeps. -/
abbrev slotFlV (hadr : AdrOK adr) (b : ℕ) (hb : ∀ a, (![b, 0, 0] : Fin 3 → ℕ) a + S1x20x128.size a ≤ S10x20x128.size a) (n : ℕ) (hn : n < 40)
    (qa qt : PosShare TreeShare) (g : ℕ) : sProp 𝕄 :=
  iprop(∃ (c : Buf (Elt F) ((sR).view.loc (V d (cV L) (jV L)))) (off : Fin 2 → ℕ) (h : ∀ a, off a + S1x20.size a ≤ S250x20.size a),
      Transfers.Flight countersEmb (V d (cV L) (jV L)) (SemLoc.dma (⟨n, hn⟩ : DmaSem sig)) default 81920
          iprop((((slotM b hb).view.loc (V d (cV L) (jV L)) ↦[(slotM b hb).view.set]{fullShare} c)
                ∗ ((sA).view.loc (V d (cV L) (jV L)) ↦[(rowM off h).view.set]{qa} fA adr d L))
              ∗ ((tV).view.loc (V d (cV L) (jV L)) ↦[(tVs).view.set]{qt} tab d))
      ∗ ((tV).view.loc (V d (cV L) (jV L)) ↦[Finset.univ \ (tVs).view.set]{qt} tab d)
      ∗ ((sA).view.loc (V d (cV L) (jV L)) ↦[Finset.univ \ (rowM off h).view.set]{qa} fA adr d L)
      ∗ ⌜off = ![10 * g + b, 0]⌝
      ∗ ⌜(slotM b hb).view.read (Elt F) c = gPay tab adr d L hadr off h⌝)

def slotInvV (hadr : AdrOK adr) (b : ℕ) (hb : ∀ a, (![b, 0, 0] : Fin 3 → ℕ) a + S1x20x128.size a ≤ S10x20x128.size a) (n : ℕ) (hn : n < 40)
    (qa qt : PosShare TreeShare) (g : ℕ) : sProp 𝕄 :=
  if g < 25 then slotFlV tab adr d L hadr b hb n hn qa qt g else slotHome tab adr d L b hb n hn qa qt

/-- Beside the slots, before group `g`: the accumulation scratch with the current part's chunks so far; the output slab
    with the parts finished so far; the last copy-out's semaphore at rest; what the tile owes, its waits at no index
    recorded. -/
abbrev invRestV (O : CellTallies nD τ sig (HIx 1)) (W : Waits sig (HIx 1)) (g : ℕ) : sProp 𝕄 :=
  iprop((∃ fy, ((sY).view.loc (V d (cV L) (jV L)) ↦{fullShare} fy) ∗ ⌜AccOK tab adr d L (10 * g) fy⌝)
    ∗ (∃ fo, oPts d (wL L) fo ∗ ⌜OutOK tab adr d L (g / 5) fo⌝)
    ∗ semVal (V d (cV L) (jV L), SemLoc.dma cc2_scoped10.sem) 0
    ∗ ∃ W', ⌜∀ p ∈ W', p ∈ W ∨ p.2 = none⌝ ∗ owes (V d (cV L) (jV L)) O W')

/-- Before group `g`. -/
def invV (hadr : AdrOK adr) (O : CellTallies nD τ sig (HIx 1)) (W : Waits sig (HIx 1)) (g : ℕ) (_ : BitVec 32) : sProp 𝕄 :=
  iprop(Transfers.MayWaits (V d (cV L) (jV L)) (none : HIx 1) O
    ∗ slotInvV tab adr d L hadr 0 inb_S10x20x128_S1x20x128_0_0_0 10 (by decide) (piece fullShare 9 0) (Transfers.shareTokN (qT (cL L) (sL L)) 10) g
    ∗ slotInvV tab adr d L hadr 1 inb_S10x20x128_S1x20x128_1_0_0 11 (by decide) (piece fullShare 9 1) (Transfers.shareTokN (qT (cL L) (sL L)) 11) g
    ∗ slotInvV tab adr d L hadr 2 inb_S10x20x128_S1x20x128_2_0_0 12 (by decide) (piece fullShare 9 2) (Transfers.shareTokN (qT (cL L) (sL L)) 12) g
    ∗ slotInvV tab adr d L hadr 3 inb_S10x20x128_S1x20x128_3_0_0 13 (by decide) (piece fullShare 9 3) (Transfers.shareTokN (qT (cL L) (sL L)) 13) g
    ∗ slotInvV tab adr d L hadr 4 inb_S10x20x128_S1x20x128_4_0_0 14 (by decide) (piece fullShare 9 4) (Transfers.shareTokN (qT (cL L) (sL L)) 14) g
    ∗ slotInvV tab adr d L hadr 5 inb_S10x20x128_S1x20x128_5_0_0 15 (by decide) (piece fullShare 9 5) (Transfers.shareTokN (qT (cL L) (sL L)) 15) g
    ∗ slotInvV tab adr d L hadr 6 inb_S10x20x128_S1x20x128_6_0_0 16 (by decide) (piece fullShare 9 6) (Transfers.shareTokN (qT (cL L) (sL L)) 16) g
    ∗ slotInvV tab adr d L hadr 7 inb_S10x20x128_S1x20x128_7_0_0 17 (by decide) (piece fullShare 9 7) (Transfers.shareTokN (qT (cL L) (sL L)) 17) g
    ∗ slotInvV tab adr d L hadr 8 inb_S10x20x128_S1x20x128_8_0_0 18 (by decide) (piece fullShare 9 8) (Transfers.shareTokN (qT (cL L) (sL L)) 18) g
    ∗ slotInvV tab adr d L hadr 9 inb_S10x20x128_S1x20x128_9_0_0 19 (by decide) (piece fullShare 9 9) (Transfers.shareTokN (qT (cL L) (sL L)) 19) g
    ∗ invRestV tab adr d L O W g)

theorem invV_lt (hadr : AdrOK adr) (O : CellTallies nD τ sig (HIx 1)) (W : Waits sig (HIx 1)) (g : ℕ) (hg : g < 25) (acc : BitVec 32) :
    invV tab adr d L hadr O W g acc = iprop(Transfers.MayWaits (V d (cV L) (jV L)) (none : HIx 1) O
    ∗ slotFlV tab adr d L hadr 0 inb_S10x20x128_S1x20x128_0_0_0 10 (by decide) (piece fullShare 9 0) (Transfers.shareTokN (qT (cL L) (sL L)) 10) g
    ∗ slotFlV tab adr d L hadr 1 inb_S10x20x128_S1x20x128_1_0_0 11 (by decide) (piece fullShare 9 1) (Transfers.shareTokN (qT (cL L) (sL L)) 11) g
    ∗ slotFlV tab adr d L hadr 2 inb_S10x20x128_S1x20x128_2_0_0 12 (by decide) (piece fullShare 9 2) (Transfers.shareTokN (qT (cL L) (sL L)) 12) g
    ∗ slotFlV tab adr d L hadr 3 inb_S10x20x128_S1x20x128_3_0_0 13 (by decide) (piece fullShare 9 3) (Transfers.shareTokN (qT (cL L) (sL L)) 13) g
    ∗ slotFlV tab adr d L hadr 4 inb_S10x20x128_S1x20x128_4_0_0 14 (by decide) (piece fullShare 9 4) (Transfers.shareTokN (qT (cL L) (sL L)) 14) g
    ∗ slotFlV tab adr d L hadr 5 inb_S10x20x128_S1x20x128_5_0_0 15 (by decide) (piece fullShare 9 5) (Transfers.shareTokN (qT (cL L) (sL L)) 15) g
    ∗ slotFlV tab adr d L hadr 6 inb_S10x20x128_S1x20x128_6_0_0 16 (by decide) (piece fullShare 9 6) (Transfers.shareTokN (qT (cL L) (sL L)) 16) g
    ∗ slotFlV tab adr d L hadr 7 inb_S10x20x128_S1x20x128_7_0_0 17 (by decide) (piece fullShare 9 7) (Transfers.shareTokN (qT (cL L) (sL L)) 17) g
    ∗ slotFlV tab adr d L hadr 8 inb_S10x20x128_S1x20x128_8_0_0 18 (by decide) (piece fullShare 9 8) (Transfers.shareTokN (qT (cL L) (sL L)) 18) g
    ∗ slotFlV tab adr d L hadr 9 inb_S10x20x128_S1x20x128_9_0_0 19 (by decide) (piece fullShare 9 9) (Transfers.shareTokN (qT (cL L) (sL L)) 19) g
    ∗ invRestV tab adr d L O W g) := by
  unfold invV slotInvV
  iterate 10 rw [if_pos hg]
theorem invV_ge (hadr : AdrOK adr) (O : CellTallies nD τ sig (HIx 1)) (W : Waits sig (HIx 1)) (g : ℕ) (hg : ¬ g < 25) (acc : BitVec 32) :
    invV tab adr d L hadr O W g acc = iprop(Transfers.MayWaits (V d (cV L) (jV L)) (none : HIx 1) O
    ∗ slotHome tab adr d L 0 inb_S10x20x128_S1x20x128_0_0_0 10 (by decide) (piece fullShare 9 0) (Transfers.shareTokN (qT (cL L) (sL L)) 10)
    ∗ slotHome tab adr d L 1 inb_S10x20x128_S1x20x128_1_0_0 11 (by decide) (piece fullShare 9 1) (Transfers.shareTokN (qT (cL L) (sL L)) 11)
    ∗ slotHome tab adr d L 2 inb_S10x20x128_S1x20x128_2_0_0 12 (by decide) (piece fullShare 9 2) (Transfers.shareTokN (qT (cL L) (sL L)) 12)
    ∗ slotHome tab adr d L 3 inb_S10x20x128_S1x20x128_3_0_0 13 (by decide) (piece fullShare 9 3) (Transfers.shareTokN (qT (cL L) (sL L)) 13)
    ∗ slotHome tab adr d L 4 inb_S10x20x128_S1x20x128_4_0_0 14 (by decide) (piece fullShare 9 4) (Transfers.shareTokN (qT (cL L) (sL L)) 14)
    ∗ slotHome tab adr d L 5 inb_S10x20x128_S1x20x128_5_0_0 15 (by decide) (piece fullShare 9 5) (Transfers.shareTokN (qT (cL L) (sL L)) 15)
    ∗ slotHome tab adr d L 6 inb_S10x20x128_S1x20x128_6_0_0 16 (by decide) (piece fullShare 9 6) (Transfers.shareTokN (qT (cL L) (sL L)) 16)
    ∗ slotHome tab adr d L 7 inb_S10x20x128_S1x20x128_7_0_0 17 (by decide) (piece fullShare 9 7) (Transfers.shareTokN (qT (cL L) (sL L)) 17)
    ∗ slotHome tab adr d L 8 inb_S10x20x128_S1x20x128_8_0_0 18 (by decide) (piece fullShare 9 8) (Transfers.shareTokN (qT (cL L) (sL L)) 18)
    ∗ slotHome tab adr d L 9 inb_S10x20x128_S1x20x128_9_0_0 19 (by decide) (piece fullShare 9 9) (Transfers.shareTokN (qT (cL L) (sL L)) 19)
    ∗ invRestV tab adr d L O W g) := by
  unfold invV slotInvV
  iterate 10 rw [if_neg hg]

omit [FloatOps F] in
/-- A wait recorded at no index keeps the record's shape. -/
theorem waits_step {W W' : Waits sig (HIx 1)} {sm : SemLoc sig} (h : ∀ p ∈ W', p ∈ W ∨ p.2 = none) :
    ∀ p ∈ insert (sm, (default : HIx 1)) W', p ∈ W ∨ p.2 = none :=
  fun p hp => (Finset.mem_insert.mp hp).elim (fun e => .inr (e ▸ rfl)) (h p)

set_option maxHeartbeats 8000000 in
/-- The task on vector subcore `(L 0, L 1)`. -/
theorem tile_body (hF : (K (F := F)).Facts) (hadr : AdrOK adr) (O : CellTallies nD τ sig (HIx 1)) (W : Waits sig (HIx 1)) (hO : ∀ g, O g none = 0) :
    iprop(levAts (K (F := F)).L (K (F := F)).lev ∗ emp
        ∗ (tPts tab d (qT (cL L) (sL L)) ∗ aPts adr d (wL L) ∗ ∃ f, oPts d (wL L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__sc_body L tV (Memref.isWhole_whole _) aV (Memref.isWhole_whole _) oV (Memref.isWhole_whole _)
            sA (Memref.isWhole_whole _) sR (Memref.isWhole_whole _) sY (Memref.isWhole_whole _)
            cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10)
          fun _ => iprop((tPts tab d (qT (cL L) (sL L)) ∗ aPts adr d (wL L) ∗ oPts d (wL L) (gathered tab adr d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2__sc_body_eq_skeleton]; unfold cc2__sc_body_skel
  rw [(K (F := F)).scopedBufs_V hF d (cV L) (jV L), SparseCore.Cfg.scopedSems0_V (Val := Elt F) d (cV L) (jV L), ownSems0_V, ownBufs_V]
  iintro ⟨#Hlv, -, ⟨Ht, Ha, %fo, Ho⟩, ⟨⟨%fa, HsA⟩, ⟨%fr, HsR⟩, ⟨%fy, HsY⟩, Hbufs⟩, ⟨⟨Hs0, Hs1, Hs2, Hs3, Hs4, Hs5, Hs6, Hs7, Hs8, Hs9, Hs10, Hs11, Hs12, Hs13, Hs14, Hs15, Hs16, Hs17, Hs18, Hs19, Hs20⟩, Hsems⟩, HO⟩
  ihave Hmw := ((K (F := F)).mayWaits_none (thr := V d (cV L) (jV L)) hO) $$ Hlv
  ihave Ha' := (Entails.of_eq (show (aPts adr d (wL L) : sProp 𝕄) = ((aRowK L).view.loc (V d (cV L) (jV L)) ↦[(aRowK L).view.set]{fullShare} adr d) from by rw [set_aRowK])) $$ Ha
  -- the table's read share, cut into a token per slot semaphore
  ihave Ht' := (Entails.of_eq (show (tPts tab d (qT (cL L) (sL L)) : sProp 𝕄) = ((tV).view.loc (V d (cV L) (jV L)) ↦{qT (cL L) (sL L)} tab d) from rfl)) $$ Ht
  ihave Ht2 := (pts_tokens (F := F) ((tV).view.loc (V d (cV L) (jV L))) (qT (cL L) (sL L)) (tab d)) $$ Ht'
  icases Ht2 with ⟨Htr, Ht9, Ht8, Ht7, Ht6, Ht5, Ht4, Ht3, Ht2, Ht1, Ht0, Htlow⟩
  ihave HsA' := (Entails.of_eq (show ((V d (cV L) (jV L)).loc cc2_scratch0 ↦{fullShare} fa : sProp 𝕄) = ((sA).view.loc (V d (cV L) (jV L)) ↦{fullShare} fa) from rfl)) $$ HsA
  ihave HsR' := (Entails.of_eq (show ((V d (cV L) (jV L)).loc cc2_scratch1 ↦{fullShare} fr : sProp 𝕄) = ((sR).view.loc (V d (cV L) (jV L)) ↦{fullShare} fr) from rfl)) $$ HsR
  ihave HsY' := (Entails.of_eq (show ((V d (cV L) (jV L)).loc cc2_scratch2 ↦{fullShare} fy : sProp 𝕄) = ((sY).view.loc (V d (cV L) (jV L)) ↦{fullShare} fy) from rfl)) $$ HsY
  -- the address slab is copied into the address scratch
  sl_exec
  -- the address scratch at the slab's contents, cut into a read share per slot
  ihave HsA2 := (Entails.of_eq (pointsTo_congr (g := fA adr d L) fun i _ => congrFun (View.write_whole_univ _ _ _) i)) $$ HsA'
  ihave HsA3 := (Entails.of_eq (pts_pieces10 (F := F) ((sA).view.loc (V d (cV L) (jV L))) (fA adr d L))) $$ HsA2
  icases HsA3 with ⟨HA0, HA1, HA2, HA3, HA4, HA5, HA6, HA7, HA8, HA9⟩
  have hin : ∀ (off : Fin 2 → ℕ) (h : ∀ a, off a + S1x20.size a ≤ S250x20.size a) (hs : ∀ a, (Rect.unit (s := S250x20) off S1x20.size h).stride a = 1) (x : S20.Idx),
      (View.read (Elt F) ((sA.slice (Rect.unit (s := S250x20) off S1x20.size h) hs).squeeze S20 squeezes_S1x20_S20).view (fA adr d L) x).toNat < 78848 :=
    fun off h _ x => hinAll adr d L hadr off h x
  -- every word of the scratch names a row of the table; the ten gathers of the first group are issued, one per slot
  sl_exec
  sl_for (invV tab adr d L hadr O W) $$ [Hmw Hs0 Ht0 HA0 Hs1 Ht1 HA1 Hs2 Ht2 HA2 Hs3 Ht3 HA3 Hs4 Ht4 HA4 Hs5 Ht5 HA5 Hs6 Ht6 HA6 Hs7 Ht7 HA7 Hs8 Ht8 HA8 Hs9 Ht9 HA9 HsY' Ho Hs20 HO]
  case region =>
    intro k acc
    have h25 : k.val < 25 := trips_t1 ▸ k.isLt
    refine (Entails.of_eq (invV_lt tab adr d L hadr O W k.val h25 acc)).trans ?_
    iintro ⟨Hmw, ⟨%c0, %off0, %hh0, Hf0, Ht0, HA0, %e0, %hrd0⟩, ⟨%c1, %off1, %hh1, Hf1, Ht1, HA1, %e1, %hrd1⟩, ⟨%c2, %off2, %hh2, Hf2, Ht2, HA2, %e2, %hrd2⟩, ⟨%c3, %off3, %hh3, Hf3, Ht3, HA3, %e3, %hrd3⟩, ⟨%c4, %off4, %hh4, Hf4, Ht4, HA4, %e4, %hrd4⟩, ⟨%c5, %off5, %hh5, Hf5, Ht5, HA5, %e5, %hrd5⟩, ⟨%c6, %off6, %hh6, Hf6, Ht6, HA6, %e6, %hrd6⟩, ⟨%c7, %off7, %hh7, Hf7, Ht7, HA7, %e7, %hrd7⟩, ⟨%c8, %off8, %hh8, Hf8, Ht8, HA8, %e8, %hrd8⟩, ⟨%c9, %off9, %hh9, Hf9, Ht9, HA9, %e9, %hrd9⟩, ⟨%fy0, HsY, %hacc0⟩, ⟨%fo, Ho, %hout⟩, Hs20, %W', %hW', HO⟩
    subst e0; subst e1; subst e2; subst e3; subst e4; subst e5; subst e6; subst e7; subst e8; subst e9
    have hc0 := cond_out0 k; have hc1 := cond_out1 k; have hc2 := cond_out2 k; have hc3 := cond_out3 k; have hc4 := cond_out4 k; have hc5 := cond_out5 k; have hc6 := cond_out6 k; have hc7 := cond_out7 k; have hc8 := cond_out8 k
    by_cases hk : k.val < 24
    · have hr0 := cond_re0_pos k hk; have hr1 := cond_re1_pos k hk; have hr2 := cond_re2_pos k hk; have hr3 := cond_re3_pos k hk; have hr4 := cond_re4_pos k hk; have hr5 := cond_re5_pos k hk; have hr6 := cond_re6_pos k hk; have hr7 := cond_re7_pos k hk; have hr8 := cond_re8_pos k hk; have hr9 := cond_re9_pos k hk
      by_cases h5 : k.val % 5 = 4
      ·
        have hc9 := cond_out9_pos k h5
        -- the part of the output slab this group's copy-out writes, held by its own elements as the program slices it
        ihave Ho2 := (pointsTo_split_subset (oPart_subset L k hc9)).1 $$ Ho
        icases Ho2 with ⟨Hop, Hor⟩
        ihave Hop := (Entails.of_eq (show (oLoc d ↦[(oPartK L k hc9).view.set]{fullShare} fo : sProp 𝕄)
            = ((oPartK L k hc9).view.loc (V d (cV L) (jV L)) ↦[(oPartK L k hc9).view.set]{fullShare} fo) from rfl)) $$ Hop
        sl_exec
        ihave Hf0_dst := (Entails.of_eq (congrArg (fun z => ((slotM 0 inb_S10x20x128_S1x20x128_0_0_0).view.loc (V d (cV L) (jV L)) ↦[(slotM 0 inb_S10x20x128_S1x20x128_0_0_0).view.set]{fullShare} z : sProp 𝕄))
          (write_of_read_eq (F := F) (slotM 0 inb_S10x20x128_S1x20x128_0_0_0).view c0 _ hrd0).symm)) $$ Hf0_dst
        iapply (accLoop0 tab adr d L hadr k _ _ _ c0 hh0 _ _) $$ [Hf0_dst HsY]
        · isplitl [Hf0_dst]; · iexact Hf0_dst
          iexists _; isplitl [HsY]; · iexact HsY
          ipureintro; exact hacc0
        iintro %r0 ⟨Hf0_dst, %fy1, HsY, %hacc1⟩
        sl_exec
        ihave Hf1_dst := (Entails.of_eq (congrArg (fun z => ((slotM 1 inb_S10x20x128_S1x20x128_1_0_0).view.loc (V d (cV L) (jV L)) ↦[(slotM 1 inb_S10x20x128_S1x20x128_1_0_0).view.set]{fullShare} z : sProp 𝕄))
          (write_of_read_eq (F := F) (slotM 1 inb_S10x20x128_S1x20x128_1_0_0).view c1 _ hrd1).symm)) $$ Hf1_dst
        iapply (accLoop1 tab adr d L hadr k _ _ _ _ c1 hh1 _ _) $$ [Hf1_dst HsY]
        · isplitl [Hf1_dst]; · iexact Hf1_dst
          iexists _; isplitl [HsY]; · iexact HsY
          ipureintro; exact hacc1
        iintro %r1 ⟨Hf1_dst, %fy2, HsY, %hacc2⟩
        sl_exec
        ihave Hf2_dst := (Entails.of_eq (congrArg (fun z => ((slotM 2 inb_S10x20x128_S1x20x128_2_0_0).view.loc (V d (cV L) (jV L)) ↦[(slotM 2 inb_S10x20x128_S1x20x128_2_0_0).view.set]{fullShare} z : sProp 𝕄))
          (write_of_read_eq (F := F) (slotM 2 inb_S10x20x128_S1x20x128_2_0_0).view c2 _ hrd2).symm)) $$ Hf2_dst
        iapply (accLoop2 tab adr d L hadr k _ _ _ _ _ _ c2 hh2 _ _) $$ [Hf2_dst HsY]
        · isplitl [Hf2_dst]; · iexact Hf2_dst
          iexists _; isplitl [HsY]; · iexact HsY
          ipureintro; exact hacc2
        iintro %r2 ⟨Hf2_dst, %fy3, HsY, %hacc3⟩
        sl_exec
        ihave Hf3_dst := (Entails.of_eq (congrArg (fun z => ((slotM 3 inb_S10x20x128_S1x20x128_3_0_0).view.loc (V d (cV L) (jV L)) ↦[(slotM 3 inb_S10x20x128_S1x20x128_3_0_0).view.set]{fullShare} z : sProp 𝕄))
          (write_of_read_eq (F := F) (slotM 3 inb_S10x20x128_S1x20x128_3_0_0).view c3 _ hrd3).symm)) $$ Hf3_dst
        iapply (accLoop3 tab adr d L hadr k _ _ _ _ _ c3 hh3 _ _) $$ [Hf3_dst HsY]
        · isplitl [Hf3_dst]; · iexact Hf3_dst
          iexists _; isplitl [HsY]; · iexact HsY
          ipureintro; exact hacc3
        iintro %r3 ⟨Hf3_dst, %fy4, HsY, %hacc4⟩
        sl_exec
        ihave Hf4_dst := (Entails.of_eq (congrArg (fun z => ((slotM 4 inb_S10x20x128_S1x20x128_4_0_0).view.loc (V d (cV L) (jV L)) ↦[(slotM 4 inb_S10x20x128_S1x20x128_4_0_0).view.set]{fullShare} z : sProp 𝕄))
          (write_of_read_eq (F := F) (slotM 4 inb_S10x20x128_S1x20x128_4_0_0).view c4 _ hrd4).symm)) $$ Hf4_dst
        iapply (accLoop4 tab adr d L hadr k _ _ _ _ _ _ _ c4 hh4 _ _) $$ [Hf4_dst HsY]
        · isplitl [Hf4_dst]; · iexact Hf4_dst
          iexists _; isplitl [HsY]; · iexact HsY
          ipureintro; exact hacc4
        iintro %r4 ⟨Hf4_dst, %fy5, HsY, %hacc5⟩
        sl_exec
        ihave Hf5_dst := (Entails.of_eq (congrArg (fun z => ((slotM 5 inb_S10x20x128_S1x20x128_5_0_0).view.loc (V d (cV L) (jV L)) ↦[(slotM 5 inb_S10x20x128_S1x20x128_5_0_0).view.set]{fullShare} z : sProp 𝕄))
          (write_of_read_eq (F := F) (slotM 5 inb_S10x20x128_S1x20x128_5_0_0).view c5 _ hrd5).symm)) $$ Hf5_dst
        iapply (accLoop5 tab adr d L hadr k _ _ _ _ _ _ _ _ c5 hh5 _ _) $$ [Hf5_dst HsY]
        · isplitl [Hf5_dst]; · iexact Hf5_dst
          iexists _; isplitl [HsY]; · iexact HsY
          ipureintro; exact hacc5
        iintro %r5 ⟨Hf5_dst, %fy6, HsY, %hacc6⟩
        sl_exec
        ihave Hf6_dst := (Entails.of_eq (congrArg (fun z => ((slotM 6 inb_S10x20x128_S1x20x128_6_0_0).view.loc (V d (cV L) (jV L)) ↦[(slotM 6 inb_S10x20x128_S1x20x128_6_0_0).view.set]{fullShare} z : sProp 𝕄))
          (write_of_read_eq (F := F) (slotM 6 inb_S10x20x128_S1x20x128_6_0_0).view c6 _ hrd6).symm)) $$ Hf6_dst
        iapply (accLoop6 tab adr d L hadr k _ _ _ _ _ _ _ c6 hh6 _ _) $$ [Hf6_dst HsY]
        · isplitl [Hf6_dst]; · iexact Hf6_dst
          iexists _; isplitl [HsY]; · iexact HsY
          ipureintro; exact hacc6
        iintro %r6 ⟨Hf6_dst, %fy7, HsY, %hacc7⟩
        sl_exec
        ihave Hf7_dst := (Entails.of_eq (congrArg (fun z => ((slotM 7 inb_S10x20x128_S1x20x128_7_0_0).view.loc (V d (cV L) (jV L)) ↦[(slotM 7 inb_S10x20x128_S1x20x128_7_0_0).view.set]{fullShare} z : sProp 𝕄))
          (write_of_read_eq (F := F) (slotM 7 inb_S10x20x128_S1x20x128_7_0_0).view c7 _ hrd7).symm)) $$ Hf7_dst
        iapply (accLoop7 tab adr d L hadr k _ _ _ _ c7 hh7 _ _) $$ [Hf7_dst HsY]
        · isplitl [Hf7_dst]; · iexact Hf7_dst
          iexists _; isplitl [HsY]; · iexact HsY
          ipureintro; exact hacc7
        iintro %r7 ⟨Hf7_dst, %fy8, HsY, %hacc8⟩
        sl_exec
        ihave Hf8_dst := (Entails.of_eq (congrArg (fun z => ((slotM 8 inb_S10x20x128_S1x20x128_8_0_0).view.loc (V d (cV L) (jV L)) ↦[(slotM 8 inb_S10x20x128_S1x20x128_8_0_0).view.set]{fullShare} z : sProp 𝕄))
          (write_of_read_eq (F := F) (slotM 8 inb_S10x20x128_S1x20x128_8_0_0).view c8 _ hrd8).symm)) $$ Hf8_dst
        iapply (accLoop8 tab adr d L hadr k _ _ _ c8 hh8 _ _) $$ [Hf8_dst HsY]
        · isplitl [Hf8_dst]; · iexact Hf8_dst
          iexists _; isplitl [HsY]; · iexact HsY
          ipureintro; exact hacc8
        iintro %r8 ⟨Hf8_dst, %fy9, HsY, %hacc9⟩
        sl_exec
        ihave Hf9_dst := (Entails.of_eq (congrArg (fun z => ((slotM 9 inb_S10x20x128_S1x20x128_9_0_0).view.loc (V d (cV L) (jV L)) ↦[(slotM 9 inb_S10x20x128_S1x20x128_9_0_0).view.set]{fullShare} z : sProp 𝕄))
          (write_of_read_eq (F := F) (slotM 9 inb_S10x20x128_S1x20x128_9_0_0).view c9 _ hrd9).symm)) $$ Hf9_dst
        iapply (accLoop9 tab adr d L hadr k _ _ c9 hh9 _ _) $$ [Hf9_dst HsY]
        · isplitl [Hf9_dst]; · iexact Hf9_dst
          iexists _; isplitl [HsY]; · iexact HsY
          ipureintro; exact hacc9
        iintro %r9 ⟨Hf9_dst, %fy10, HsY, %hacc10⟩
        sl_exec
        sl_step
        rw [invV_lt tab adr d L hadr O W (k.val + 1) (by omega)]
        isplitl [Hmw]; · iexact Hmw
        isplitl [Hf0 Ht0 HA0]
        · iexists _; iexists _; iexists _
          isplitl [Hf0]; · iexact Hf0
          isplitl [Ht0]; · iexact Ht0
          isplitl [HA0]; · iexact HA0
          isplitr
          · ipureintro; rw [k2_off19_eq]; exact congrArg (fun x => (![x, 0] : Fin 2 → ℕ)) (by omega)
          · ipureintro; exact read_writes_whole _ _ _
        isplitl [Hf1 Ht1 HA1]
        · iexists _; iexists _; iexists _
          isplitl [Hf1]; · iexact Hf1
          isplitl [Ht1]; · iexact Ht1
          isplitl [HA1]; · iexact HA1
          isplitr
          · ipureintro; rw [k2_off36_eq]; exact congrArg (fun x => (![x, 0] : Fin 2 → ℕ)) (by omega)
          · ipureintro; exact read_writes_whole _ _ _
        isplitl [Hf2 Ht2 HA2]
        · iexists _; iexists _; iexists _
          isplitl [Hf2]; · iexact Hf2
          isplitl [Ht2]; · iexact Ht2
          isplitl [HA2]; · iexact HA2
          isplitr
          · ipureintro; rw [k2_off53_eq]; exact congrArg (fun x => (![x, 0] : Fin 2 → ℕ)) (by omega)
          · ipureintro; exact read_writes_whole _ _ _
        isplitl [Hf3 Ht3 HA3]
        · iexists _; iexists _; iexists _
          isplitl [Hf3]; · iexact Hf3
          isplitl [Ht3]; · iexact Ht3
          isplitl [HA3]; · iexact HA3
          isplitr
          · ipureintro; rw [k2_off70_eq]; exact congrArg (fun x => (![x, 0] : Fin 2 → ℕ)) (by omega)
          · ipureintro; exact read_writes_whole _ _ _
        isplitl [Hf4 Ht4 HA4]
        · iexists _; iexists _; iexists _
          isplitl [Hf4]; · iexact Hf4
          isplitl [Ht4]; · iexact Ht4
          isplitl [HA4]; · iexact HA4
          isplitr
          · ipureintro; rw [k2_off87_eq]; exact congrArg (fun x => (![x, 0] : Fin 2 → ℕ)) (by omega)
          · ipureintro; exact read_writes_whole _ _ _
        isplitl [Hf5 Ht5 HA5]
        · iexists _; iexists _; iexists _
          isplitl [Hf5]; · iexact Hf5
          isplitl [Ht5]; · iexact Ht5
          isplitl [HA5]; · iexact HA5
          isplitr
          · ipureintro; rw [k2_off104_eq]; exact congrArg (fun x => (![x, 0] : Fin 2 → ℕ)) (by omega)
          · ipureintro; exact read_writes_whole _ _ _
        isplitl [Hf6 Ht6 HA6]
        · iexists _; iexists _; iexists _
          isplitl [Hf6]; · iexact Hf6
          isplitl [Ht6]; · iexact Ht6
          isplitl [HA6]; · iexact HA6
          isplitr
          · ipureintro; rw [k2_off121_eq]; exact congrArg (fun x => (![x, 0] : Fin 2 → ℕ)) (by omega)
          · ipureintro; exact read_writes_whole _ _ _
        isplitl [Hf7 Ht7 HA7]
        · iexists _; iexists _; iexists _
          isplitl [Hf7]; · iexact Hf7
          isplitl [Ht7]; · iexact Ht7
          isplitl [HA7]; · iexact HA7
          isplitr
          · ipureintro; rw [k2_off138_eq]; exact congrArg (fun x => (![x, 0] : Fin 2 → ℕ)) (by omega)
          · ipureintro; exact read_writes_whole _ _ _
        isplitl [Hf8 Ht8 HA8]
        · iexists _; iexists _; iexists _
          isplitl [Hf8]; · iexact Hf8
          isplitl [Ht8]; · iexact Ht8
          isplitl [HA8]; · iexact HA8
          isplitr
          · ipureintro; rw [k2_off155_eq]; exact congrArg (fun x => (![x, 0] : Fin 2 → ℕ)) (by omega)
          · ipureintro; exact read_writes_whole _ _ _
        isplitl [Hf9 Ht9 HA9]
        · iexists _; iexists _; iexists _
          isplitl [Hf9]; · iexact Hf9
          isplitl [Ht9]; · iexact Ht9
          isplitl [HA9]; · iexact HA9
          isplitr
          · ipureintro; rw [k2_off172_eq]; exact congrArg (fun x => (![x, 0] : Fin 2 → ℕ)) (by omega)
          · ipureintro; exact read_writes_whole _ _ _
        isplitl [HsY]
        · iexists _; isplitl [HsY]; · iexact HsY
          ipureintro; exact (show 10 * k.val + 9 + 1 = 10 * (k.val + 1) by omega) ▸ hacc10
        isplitl [Hop Hor]
        · ihave Hj := (pointsTo_join_subset (ℓ := oLoc d) (q := fullShare) (oPart_subset L k hc9)) $$ [Hop Hor]
          · isplitl [Hop]; · iexact Hop
            iexact Hor
          iexists _; isplitl [Hj]; · iexact Hj
          ipureintro
          refine out_step tab adr d L k h5 hc9 fy10 hacc10 fo _ hout ?_ (fun x hx => Finset.piecewise_eq_of_notMem _ _ _ hx)
          rw [read_piecewise_set]
          first | exact View.read_write_univ _ _ | exact read_writes_whole _ _ _
        isplitl [Hs20]; · iexact Hs20
        iexists _; isplitr
        rotate_left
        · iexact HO
        · ipureintro; exact waits_step (waits_step (waits_step (waits_step (waits_step (waits_step (waits_step (waits_step (waits_step (waits_step (waits_step (hW')))))))))))

      ·
        have hc9 := cond_out9_neg k h5
        sl_exec
        ihave Hf0_dst := (Entails.of_eq (congrArg (fun z => ((slotM 0 inb_S10x20x128_S1x20x128_0_0_0).view.loc (V d (cV L) (jV L)) ↦[(slotM 0 inb_S10x20x128_S1x20x128_0_0_0).view.set]{fullShare} z : sProp 𝕄))
          (write_of_read_eq (F := F) (slotM 0 inb_S10x20x128_S1x20x128_0_0_0).view c0 _ hrd0).symm)) $$ Hf0_dst
        iapply (accLoop0 tab adr d L hadr k _ _ _ c0 hh0 _ _) $$ [Hf0_dst HsY]
        · isplitl [Hf0_dst]; · iexact Hf0_dst
          iexists _; isplitl [HsY]; · iexact HsY
          ipureintro; exact hacc0
        iintro %r0 ⟨Hf0_dst, %fy1, HsY, %hacc1⟩
        sl_exec
        ihave Hf1_dst := (Entails.of_eq (congrArg (fun z => ((slotM 1 inb_S10x20x128_S1x20x128_1_0_0).view.loc (V d (cV L) (jV L)) ↦[(slotM 1 inb_S10x20x128_S1x20x128_1_0_0).view.set]{fullShare} z : sProp 𝕄))
          (write_of_read_eq (F := F) (slotM 1 inb_S10x20x128_S1x20x128_1_0_0).view c1 _ hrd1).symm)) $$ Hf1_dst
        iapply (accLoop1 tab adr d L hadr k _ _ _ _ c1 hh1 _ _) $$ [Hf1_dst HsY]
        · isplitl [Hf1_dst]; · iexact Hf1_dst
          iexists _; isplitl [HsY]; · iexact HsY
          ipureintro; exact hacc1
        iintro %r1 ⟨Hf1_dst, %fy2, HsY, %hacc2⟩
        sl_exec
        ihave Hf2_dst := (Entails.of_eq (congrArg (fun z => ((slotM 2 inb_S10x20x128_S1x20x128_2_0_0).view.loc (V d (cV L) (jV L)) ↦[(slotM 2 inb_S10x20x128_S1x20x128_2_0_0).view.set]{fullShare} z : sProp 𝕄))
          (write_of_read_eq (F := F) (slotM 2 inb_S10x20x128_S1x20x128_2_0_0).view c2 _ hrd2).symm)) $$ Hf2_dst
        iapply (accLoop2 tab adr d L hadr k _ _ _ _ _ _ c2 hh2 _ _) $$ [Hf2_dst HsY]
        · isplitl [Hf2_dst]; · iexact Hf2_dst
          iexists _; isplitl [HsY]; · iexact HsY
          ipureintro; exact hacc2
        iintro %r2 ⟨Hf2_dst, %fy3, HsY, %hacc3⟩
        sl_exec
        ihave Hf3_dst := (Entails.of_eq (congrArg (fun z => ((slotM 3 inb_S10x20x128_S1x20x128_3_0_0).view.loc (V d (cV L) (jV L)) ↦[(slotM 3 inb_S10x20x128_S1x20x128_3_0_0).view.set]{fullShare} z : sProp 𝕄))
          (write_of_read_eq (F := F) (slotM 3 inb_S10x20x128_S1x20x128_3_0_0).view c3 _ hrd3).symm)) $$ Hf3_dst
        iapply (accLoop3 tab adr d L hadr k _ _ _ _ _ c3 hh3 _ _) $$ [Hf3_dst HsY]
        · isplitl [Hf3_dst]; · iexact Hf3_dst
          iexists _; isplitl [HsY]; · iexact HsY
          ipureintro; exact hacc3
        iintro %r3 ⟨Hf3_dst, %fy4, HsY, %hacc4⟩
        sl_exec
        ihave Hf4_dst := (Entails.of_eq (congrArg (fun z => ((slotM 4 inb_S10x20x128_S1x20x128_4_0_0).view.loc (V d (cV L) (jV L)) ↦[(slotM 4 inb_S10x20x128_S1x20x128_4_0_0).view.set]{fullShare} z : sProp 𝕄))
          (write_of_read_eq (F := F) (slotM 4 inb_S10x20x128_S1x20x128_4_0_0).view c4 _ hrd4).symm)) $$ Hf4_dst
        iapply (accLoop4 tab adr d L hadr k _ _ _ _ _ _ _ c4 hh4 _ _) $$ [Hf4_dst HsY]
        · isplitl [Hf4_dst]; · iexact Hf4_dst
          iexists _; isplitl [HsY]; · iexact HsY
          ipureintro; exact hacc4
        iintro %r4 ⟨Hf4_dst, %fy5, HsY, %hacc5⟩
        sl_exec
        ihave Hf5_dst := (Entails.of_eq (congrArg (fun z => ((slotM 5 inb_S10x20x128_S1x20x128_5_0_0).view.loc (V d (cV L) (jV L)) ↦[(slotM 5 inb_S10x20x128_S1x20x128_5_0_0).view.set]{fullShare} z : sProp 𝕄))
          (write_of_read_eq (F := F) (slotM 5 inb_S10x20x128_S1x20x128_5_0_0).view c5 _ hrd5).symm)) $$ Hf5_dst
        iapply (accLoop5 tab adr d L hadr k _ _ _ _ _ _ _ _ c5 hh5 _ _) $$ [Hf5_dst HsY]
        · isplitl [Hf5_dst]; · iexact Hf5_dst
          iexists _; isplitl [HsY]; · iexact HsY
          ipureintro; exact hacc5
        iintro %r5 ⟨Hf5_dst, %fy6, HsY, %hacc6⟩
        sl_exec
        ihave Hf6_dst := (Entails.of_eq (congrArg (fun z => ((slotM 6 inb_S10x20x128_S1x20x128_6_0_0).view.loc (V d (cV L) (jV L)) ↦[(slotM 6 inb_S10x20x128_S1x20x128_6_0_0).view.set]{fullShare} z : sProp 𝕄))
          (write_of_read_eq (F := F) (slotM 6 inb_S10x20x128_S1x20x128_6_0_0).view c6 _ hrd6).symm)) $$ Hf6_dst
        iapply (accLoop6 tab adr d L hadr k _ _ _ _ _ _ _ c6 hh6 _ _) $$ [Hf6_dst HsY]
        · isplitl [Hf6_dst]; · iexact Hf6_dst
          iexists _; isplitl [HsY]; · iexact HsY
          ipureintro; exact hacc6
        iintro %r6 ⟨Hf6_dst, %fy7, HsY, %hacc7⟩
        sl_exec
        ihave Hf7_dst := (Entails.of_eq (congrArg (fun z => ((slotM 7 inb_S10x20x128_S1x20x128_7_0_0).view.loc (V d (cV L) (jV L)) ↦[(slotM 7 inb_S10x20x128_S1x20x128_7_0_0).view.set]{fullShare} z : sProp 𝕄))
          (write_of_read_eq (F := F) (slotM 7 inb_S10x20x128_S1x20x128_7_0_0).view c7 _ hrd7).symm)) $$ Hf7_dst
        iapply (accLoop7 tab adr d L hadr k _ _ _ _ c7 hh7 _ _) $$ [Hf7_dst HsY]
        · isplitl [Hf7_dst]; · iexact Hf7_dst
          iexists _; isplitl [HsY]; · iexact HsY
          ipureintro; exact hacc7
        iintro %r7 ⟨Hf7_dst, %fy8, HsY, %hacc8⟩
        sl_exec
        ihave Hf8_dst := (Entails.of_eq (congrArg (fun z => ((slotM 8 inb_S10x20x128_S1x20x128_8_0_0).view.loc (V d (cV L) (jV L)) ↦[(slotM 8 inb_S10x20x128_S1x20x128_8_0_0).view.set]{fullShare} z : sProp 𝕄))
          (write_of_read_eq (F := F) (slotM 8 inb_S10x20x128_S1x20x128_8_0_0).view c8 _ hrd8).symm)) $$ Hf8_dst
        iapply (accLoop8 tab adr d L hadr k _ _ _ c8 hh8 _ _) $$ [Hf8_dst HsY]
        · isplitl [Hf8_dst]; · iexact Hf8_dst
          iexists _; isplitl [HsY]; · iexact HsY
          ipureintro; exact hacc8
        iintro %r8 ⟨Hf8_dst, %fy9, HsY, %hacc9⟩
        sl_exec
        ihave Hf9_dst := (Entails.of_eq (congrArg (fun z => ((slotM 9 inb_S10x20x128_S1x20x128_9_0_0).view.loc (V d (cV L) (jV L)) ↦[(slotM 9 inb_S10x20x128_S1x20x128_9_0_0).view.set]{fullShare} z : sProp 𝕄))
          (write_of_read_eq (F := F) (slotM 9 inb_S10x20x128_S1x20x128_9_0_0).view c9 _ hrd9).symm)) $$ Hf9_dst
        iapply (accLoop9 tab adr d L hadr k _ _ c9 hh9 _ _) $$ [Hf9_dst HsY]
        · isplitl [Hf9_dst]; · iexact Hf9_dst
          iexists _; isplitl [HsY]; · iexact HsY
          ipureintro; exact hacc9
        iintro %r9 ⟨Hf9_dst, %fy10, HsY, %hacc10⟩
        sl_exec
        sl_step
        rw [invV_lt tab adr d L hadr O W (k.val + 1) (by omega)]
        isplitl [Hmw]; · iexact Hmw
        isplitl [Hf0 Ht0 HA0]
        · iexists _; iexists _; iexists _
          isplitl [Hf0]; · iexact Hf0
          isplitl [Ht0]; · iexact Ht0
          isplitl [HA0]; · iexact HA0
          isplitr
          · ipureintro; rw [k2_off19_eq]; exact congrArg (fun x => (![x, 0] : Fin 2 → ℕ)) (by omega)
          · ipureintro; exact read_writes_whole _ _ _
        isplitl [Hf1 Ht1 HA1]
        · iexists _; iexists _; iexists _
          isplitl [Hf1]; · iexact Hf1
          isplitl [Ht1]; · iexact Ht1
          isplitl [HA1]; · iexact HA1
          isplitr
          · ipureintro; rw [k2_off36_eq]; exact congrArg (fun x => (![x, 0] : Fin 2 → ℕ)) (by omega)
          · ipureintro; exact read_writes_whole _ _ _
        isplitl [Hf2 Ht2 HA2]
        · iexists _; iexists _; iexists _
          isplitl [Hf2]; · iexact Hf2
          isplitl [Ht2]; · iexact Ht2
          isplitl [HA2]; · iexact HA2
          isplitr
          · ipureintro; rw [k2_off53_eq]; exact congrArg (fun x => (![x, 0] : Fin 2 → ℕ)) (by omega)
          · ipureintro; exact read_writes_whole _ _ _
        isplitl [Hf3 Ht3 HA3]
        · iexists _; iexists _; iexists _
          isplitl [Hf3]; · iexact Hf3
          isplitl [Ht3]; · iexact Ht3
          isplitl [HA3]; · iexact HA3
          isplitr
          · ipureintro; rw [k2_off70_eq]; exact congrArg (fun x => (![x, 0] : Fin 2 → ℕ)) (by omega)
          · ipureintro; exact read_writes_whole _ _ _
        isplitl [Hf4 Ht4 HA4]
        · iexists _; iexists _; iexists _
          isplitl [Hf4]; · iexact Hf4
          isplitl [Ht4]; · iexact Ht4
          isplitl [HA4]; · iexact HA4
          isplitr
          · ipureintro; rw [k2_off87_eq]; exact congrArg (fun x => (![x, 0] : Fin 2 → ℕ)) (by omega)
          · ipureintro; exact read_writes_whole _ _ _
        isplitl [Hf5 Ht5 HA5]
        · iexists _; iexists _; iexists _
          isplitl [Hf5]; · iexact Hf5
          isplitl [Ht5]; · iexact Ht5
          isplitl [HA5]; · iexact HA5
          isplitr
          · ipureintro; rw [k2_off104_eq]; exact congrArg (fun x => (![x, 0] : Fin 2 → ℕ)) (by omega)
          · ipureintro; exact read_writes_whole _ _ _
        isplitl [Hf6 Ht6 HA6]
        · iexists _; iexists _; iexists _
          isplitl [Hf6]; · iexact Hf6
          isplitl [Ht6]; · iexact Ht6
          isplitl [HA6]; · iexact HA6
          isplitr
          · ipureintro; rw [k2_off121_eq]; exact congrArg (fun x => (![x, 0] : Fin 2 → ℕ)) (by omega)
          · ipureintro; exact read_writes_whole _ _ _
        isplitl [Hf7 Ht7 HA7]
        · iexists _; iexists _; iexists _
          isplitl [Hf7]; · iexact Hf7
          isplitl [Ht7]; · iexact Ht7
          isplitl [HA7]; · iexact HA7
          isplitr
          · ipureintro; rw [k2_off138_eq]; exact congrArg (fun x => (![x, 0] : Fin 2 → ℕ)) (by omega)
          · ipureintro; exact read_writes_whole _ _ _
        isplitl [Hf8 Ht8 HA8]
        · iexists _; iexists _; iexists _
          isplitl [Hf8]; · iexact Hf8
          isplitl [Ht8]; · iexact Ht8
          isplitl [HA8]; · iexact HA8
          isplitr
          · ipureintro; rw [k2_off155_eq]; exact congrArg (fun x => (![x, 0] : Fin 2 → ℕ)) (by omega)
          · ipureintro; exact read_writes_whole _ _ _
        isplitl [Hf9 Ht9 HA9]
        · iexists _; iexists _; iexists _
          isplitl [Hf9]; · iexact Hf9
          isplitl [Ht9]; · iexact Ht9
          isplitl [HA9]; · iexact HA9
          isplitr
          · ipureintro; rw [k2_off172_eq]; exact congrArg (fun x => (![x, 0] : Fin 2 → ℕ)) (by omega)
          · ipureintro; exact read_writes_whole _ _ _
        isplitl [HsY]
        · iexists _; isplitl [HsY]; · iexact HsY
          ipureintro; exact (show 10 * k.val + 9 + 1 = 10 * (k.val + 1) by omega) ▸ hacc10
        isplitl [Ho]
        · iexists _; isplitl [Ho]; · iexact Ho
          ipureintro; exact (show k.val / 5 = (k.val + 1) / 5 by omega) ▸ hout
        isplitl [Hs20]; · iexact Hs20
        iexists _; isplitr
        rotate_left
        · iexact HO
        · ipureintro; exact waits_step (waits_step (waits_step (waits_step (waits_step (waits_step (waits_step (waits_step (waits_step (waits_step (hW'))))))))))

    ·
      have hk24 : k.val = 24 := by omega
      have hr0 := cond_re0_neg k hk; have hr1 := cond_re1_neg k hk; have hr2 := cond_re2_neg k hk; have hr3 := cond_re3_neg k hk; have hr4 := cond_re4_neg k hk; have hr5 := cond_re5_neg k hk; have hr6 := cond_re6_neg k hk; have hr7 := cond_re7_neg k hk; have hr8 := cond_re8_neg k hk; have hr9 := cond_re9_neg k hk
      have h5 : k.val % 5 = 4 := by omega
      have hc9 := cond_out9_pos k h5
      -- the part of the output slab this group's copy-out writes, held by its own elements as the program slices it
      ihave Ho2 := (pointsTo_split_subset (oPart_subset L k hc9)).1 $$ Ho
      icases Ho2 with ⟨Hop, Hor⟩
      ihave Hop := (Entails.of_eq (show (oLoc d ↦[(oPartK L k hc9).view.set]{fullShare} fo : sProp 𝕄)
          = ((oPartK L k hc9).view.loc (V d (cV L) (jV L)) ↦[(oPartK L k hc9).view.set]{fullShare} fo) from rfl)) $$ Hop
      sl_exec
      ihave Hf0_dst := (Entails.of_eq (congrArg (fun z => ((slotM 0 inb_S10x20x128_S1x20x128_0_0_0).view.loc (V d (cV L) (jV L)) ↦[(slotM 0 inb_S10x20x128_S1x20x128_0_0_0).view.set]{fullShare} z : sProp 𝕄))
        (write_of_read_eq (F := F) (slotM 0 inb_S10x20x128_S1x20x128_0_0_0).view c0 _ hrd0).symm)) $$ Hf0_dst
      iapply (accLoop0 tab adr d L hadr k _ _ _ c0 hh0 _ _) $$ [Hf0_dst HsY]
      · isplitl [Hf0_dst]; · iexact Hf0_dst
        iexists _; isplitl [HsY]; · iexact HsY
        ipureintro; exact hacc0
      iintro %r0 ⟨Hf0_dst, %fy1, HsY, %hacc1⟩
      sl_exec
      ihave Hf1_dst := (Entails.of_eq (congrArg (fun z => ((slotM 1 inb_S10x20x128_S1x20x128_1_0_0).view.loc (V d (cV L) (jV L)) ↦[(slotM 1 inb_S10x20x128_S1x20x128_1_0_0).view.set]{fullShare} z : sProp 𝕄))
        (write_of_read_eq (F := F) (slotM 1 inb_S10x20x128_S1x20x128_1_0_0).view c1 _ hrd1).symm)) $$ Hf1_dst
      iapply (accLoop1 tab adr d L hadr k _ _ _ _ c1 hh1 _ _) $$ [Hf1_dst HsY]
      · isplitl [Hf1_dst]; · iexact Hf1_dst
        iexists _; isplitl [HsY]; · iexact HsY
        ipureintro; exact hacc1
      iintro %r1 ⟨Hf1_dst, %fy2, HsY, %hacc2⟩
      sl_exec
      ihave Hf2_dst := (Entails.of_eq (congrArg (fun z => ((slotM 2 inb_S10x20x128_S1x20x128_2_0_0).view.loc (V d (cV L) (jV L)) ↦[(slotM 2 inb_S10x20x128_S1x20x128_2_0_0).view.set]{fullShare} z : sProp 𝕄))
        (write_of_read_eq (F := F) (slotM 2 inb_S10x20x128_S1x20x128_2_0_0).view c2 _ hrd2).symm)) $$ Hf2_dst
      iapply (accLoop2 tab adr d L hadr k _ _ _ _ _ _ c2 hh2 _ _) $$ [Hf2_dst HsY]
      · isplitl [Hf2_dst]; · iexact Hf2_dst
        iexists _; isplitl [HsY]; · iexact HsY
        ipureintro; exact hacc2
      iintro %r2 ⟨Hf2_dst, %fy3, HsY, %hacc3⟩
      sl_exec
      ihave Hf3_dst := (Entails.of_eq (congrArg (fun z => ((slotM 3 inb_S10x20x128_S1x20x128_3_0_0).view.loc (V d (cV L) (jV L)) ↦[(slotM 3 inb_S10x20x128_S1x20x128_3_0_0).view.set]{fullShare} z : sProp 𝕄))
        (write_of_read_eq (F := F) (slotM 3 inb_S10x20x128_S1x20x128_3_0_0).view c3 _ hrd3).symm)) $$ Hf3_dst
      iapply (accLoop3 tab adr d L hadr k _ _ _ _ _ c3 hh3 _ _) $$ [Hf3_dst HsY]
      · isplitl [Hf3_dst]; · iexact Hf3_dst
        iexists _; isplitl [HsY]; · iexact HsY
        ipureintro; exact hacc3
      iintro %r3 ⟨Hf3_dst, %fy4, HsY, %hacc4⟩
      sl_exec
      ihave Hf4_dst := (Entails.of_eq (congrArg (fun z => ((slotM 4 inb_S10x20x128_S1x20x128_4_0_0).view.loc (V d (cV L) (jV L)) ↦[(slotM 4 inb_S10x20x128_S1x20x128_4_0_0).view.set]{fullShare} z : sProp 𝕄))
        (write_of_read_eq (F := F) (slotM 4 inb_S10x20x128_S1x20x128_4_0_0).view c4 _ hrd4).symm)) $$ Hf4_dst
      iapply (accLoop4 tab adr d L hadr k _ _ _ _ _ _ _ c4 hh4 _ _) $$ [Hf4_dst HsY]
      · isplitl [Hf4_dst]; · iexact Hf4_dst
        iexists _; isplitl [HsY]; · iexact HsY
        ipureintro; exact hacc4
      iintro %r4 ⟨Hf4_dst, %fy5, HsY, %hacc5⟩
      sl_exec
      ihave Hf5_dst := (Entails.of_eq (congrArg (fun z => ((slotM 5 inb_S10x20x128_S1x20x128_5_0_0).view.loc (V d (cV L) (jV L)) ↦[(slotM 5 inb_S10x20x128_S1x20x128_5_0_0).view.set]{fullShare} z : sProp 𝕄))
        (write_of_read_eq (F := F) (slotM 5 inb_S10x20x128_S1x20x128_5_0_0).view c5 _ hrd5).symm)) $$ Hf5_dst
      iapply (accLoop5 tab adr d L hadr k _ _ _ _ _ _ _ _ c5 hh5 _ _) $$ [Hf5_dst HsY]
      · isplitl [Hf5_dst]; · iexact Hf5_dst
        iexists _; isplitl [HsY]; · iexact HsY
        ipureintro; exact hacc5
      iintro %r5 ⟨Hf5_dst, %fy6, HsY, %hacc6⟩
      sl_exec
      ihave Hf6_dst := (Entails.of_eq (congrArg (fun z => ((slotM 6 inb_S10x20x128_S1x20x128_6_0_0).view.loc (V d (cV L) (jV L)) ↦[(slotM 6 inb_S10x20x128_S1x20x128_6_0_0).view.set]{fullShare} z : sProp 𝕄))
        (write_of_read_eq (F := F) (slotM 6 inb_S10x20x128_S1x20x128_6_0_0).view c6 _ hrd6).symm)) $$ Hf6_dst
      iapply (accLoop6 tab adr d L hadr k _ _ _ _ _ _ _ c6 hh6 _ _) $$ [Hf6_dst HsY]
      · isplitl [Hf6_dst]; · iexact Hf6_dst
        iexists _; isplitl [HsY]; · iexact HsY
        ipureintro; exact hacc6
      iintro %r6 ⟨Hf6_dst, %fy7, HsY, %hacc7⟩
      sl_exec
      ihave Hf7_dst := (Entails.of_eq (congrArg (fun z => ((slotM 7 inb_S10x20x128_S1x20x128_7_0_0).view.loc (V d (cV L) (jV L)) ↦[(slotM 7 inb_S10x20x128_S1x20x128_7_0_0).view.set]{fullShare} z : sProp 𝕄))
        (write_of_read_eq (F := F) (slotM 7 inb_S10x20x128_S1x20x128_7_0_0).view c7 _ hrd7).symm)) $$ Hf7_dst
      iapply (accLoop7 tab adr d L hadr k _ _ _ _ c7 hh7 _ _) $$ [Hf7_dst HsY]
      · isplitl [Hf7_dst]; · iexact Hf7_dst
        iexists _; isplitl [HsY]; · iexact HsY
        ipureintro; exact hacc7
      iintro %r7 ⟨Hf7_dst, %fy8, HsY, %hacc8⟩
      sl_exec
      ihave Hf8_dst := (Entails.of_eq (congrArg (fun z => ((slotM 8 inb_S10x20x128_S1x20x128_8_0_0).view.loc (V d (cV L) (jV L)) ↦[(slotM 8 inb_S10x20x128_S1x20x128_8_0_0).view.set]{fullShare} z : sProp 𝕄))
        (write_of_read_eq (F := F) (slotM 8 inb_S10x20x128_S1x20x128_8_0_0).view c8 _ hrd8).symm)) $$ Hf8_dst
      iapply (accLoop8 tab adr d L hadr k _ _ _ c8 hh8 _ _) $$ [Hf8_dst HsY]
      · isplitl [Hf8_dst]; · iexact Hf8_dst
        iexists _; isplitl [HsY]; · iexact HsY
        ipureintro; exact hacc8
      iintro %r8 ⟨Hf8_dst, %fy9, HsY, %hacc9⟩
      sl_exec
      ihave Hf9_dst := (Entails.of_eq (congrArg (fun z => ((slotM 9 inb_S10x20x128_S1x20x128_9_0_0).view.loc (V d (cV L) (jV L)) ↦[(slotM 9 inb_S10x20x128_S1x20x128_9_0_0).view.set]{fullShare} z : sProp 𝕄))
        (write_of_read_eq (F := F) (slotM 9 inb_S10x20x128_S1x20x128_9_0_0).view c9 _ hrd9).symm)) $$ Hf9_dst
      iapply (accLoop9 tab adr d L hadr k _ _ c9 hh9 _ _) $$ [Hf9_dst HsY]
      · isplitl [Hf9_dst]; · iexact Hf9_dst
        iexists _; isplitl [HsY]; · iexact HsY
        ipureintro; exact hacc9
      iintro %r9 ⟨Hf9_dst, %fy10, HsY, %hacc10⟩
      sl_exec
      sl_step
      rw [invV_ge tab adr d L hadr O W (k.val + 1) (by omega)]
      isplitl [Hmw]; · iexact Hmw
      isplitl [Hf0 Hf0_dst Ht0 HA0]
      · isplitl [Hf0]; · iexact Hf0
        isplitl [Hf0_dst]; · iexists _; iexact Hf0_dst
        isplitl [Ht0]; · iexact Ht0
        iexact HA0
      isplitl [Hf1 Hf1_dst Ht1 HA1]
      · isplitl [Hf1]; · iexact Hf1
        isplitl [Hf1_dst]; · iexists _; iexact Hf1_dst
        isplitl [Ht1]; · iexact Ht1
        iexact HA1
      isplitl [Hf2 Hf2_dst Ht2 HA2]
      · isplitl [Hf2]; · iexact Hf2
        isplitl [Hf2_dst]; · iexists _; iexact Hf2_dst
        isplitl [Ht2]; · iexact Ht2
        iexact HA2
      isplitl [Hf3 Hf3_dst Ht3 HA3]
      · isplitl [Hf3]; · iexact Hf3
        isplitl [Hf3_dst]; · iexists _; iexact Hf3_dst
        isplitl [Ht3]; · iexact Ht3
        iexact HA3
      isplitl [Hf4 Hf4_dst Ht4 HA4]
      · isplitl [Hf4]; · iexact Hf4
        isplitl [Hf4_dst]; · iexists _; iexact Hf4_dst
        isplitl [Ht4]; · iexact Ht4
        iexact HA4
      isplitl [Hf5 Hf5_dst Ht5 HA5]
      · isplitl [Hf5]; · iexact Hf5
        isplitl [Hf5_dst]; · iexists _; iexact Hf5_dst
        isplitl [Ht5]; · iexact Ht5
        iexact HA5
      isplitl [Hf6 Hf6_dst Ht6 HA6]
      · isplitl [Hf6]; · iexact Hf6
        isplitl [Hf6_dst]; · iexists _; iexact Hf6_dst
        isplitl [Ht6]; · iexact Ht6
        iexact HA6
      isplitl [Hf7 Hf7_dst Ht7 HA7]
      · isplitl [Hf7]; · iexact Hf7
        isplitl [Hf7_dst]; · iexists _; iexact Hf7_dst
        isplitl [Ht7]; · iexact Ht7
        iexact HA7
      isplitl [Hf8 Hf8_dst Ht8 HA8]
      · isplitl [Hf8]; · iexact Hf8
        isplitl [Hf8_dst]; · iexists _; iexact Hf8_dst
        isplitl [Ht8]; · iexact Ht8
        iexact HA8
      isplitl [Hf9 Hf9_dst Ht9 HA9]
      · isplitl [Hf9]; · iexact Hf9
        isplitl [Hf9_dst]; · iexists _; iexact Hf9_dst
        isplitl [Ht9]; · iexact Ht9
        iexact HA9
      isplitl [HsY]
      · iexists _; isplitl [HsY]; · iexact HsY
        ipureintro; exact (show 10 * k.val + 9 + 1 = 10 * (k.val + 1) by omega) ▸ hacc10
      isplitl [Hop Hor]
      · ihave Hj := (pointsTo_join_subset (ℓ := oLoc d) (q := fullShare) (oPart_subset L k hc9)) $$ [Hop Hor]
        · isplitl [Hop]; · iexact Hop
          iexact Hor
        iexists _; isplitl [Hj]; · iexact Hj
        ipureintro
        refine out_step tab adr d L k h5 hc9 fy10 hacc10 fo _ hout ?_ (fun x hx => Finset.piecewise_eq_of_notMem _ _ _ hx)
        rw [read_piecewise_set]
        first | exact View.read_write_univ _ _ | exact read_writes_whole _ _ _
      isplitl [Hs20]; · iexact Hs20
      iexists _; isplitr
      rotate_left
      · iexact HO
      · ipureintro; exact waits_step (waits_step (waits_step (waits_step (waits_step (waits_step (waits_step (waits_step (waits_step (waits_step (waits_step (hW')))))))))))

  · rw [invV_lt tab adr d L hadr O W 0 (by decide)]
    isplitl [Hmw]; · iexact Hmw
    isplitl [Hs0 Ht0 HA0]
    · iexists _; iexists _; iexists _
      isplitl [Hs0]; · iexact Hs0
      isplitl [Ht0]; · iexact Ht0
      isplitl [HA0]; · iexact HA0
      isplitr
      · ipureintro; rfl
      · ipureintro; exact View.read_write_univ _ _
    isplitl [Hs1 Ht1 HA1]
    · iexists _; iexists _; iexists _
      isplitl [Hs1]; · iexact Hs1
      isplitl [Ht1]; · iexact Ht1
      isplitl [HA1]; · iexact HA1
      isplitr
      · ipureintro; rfl
      · ipureintro; exact View.read_write_univ _ _
    isplitl [Hs2 Ht2 HA2]
    · iexists _; iexists _; iexists _
      isplitl [Hs2]; · iexact Hs2
      isplitl [Ht2]; · iexact Ht2
      isplitl [HA2]; · iexact HA2
      isplitr
      · ipureintro; rfl
      · ipureintro; exact View.read_write_univ _ _
    isplitl [Hs3 Ht3 HA3]
    · iexists _; iexists _; iexists _
      isplitl [Hs3]; · iexact Hs3
      isplitl [Ht3]; · iexact Ht3
      isplitl [HA3]; · iexact HA3
      isplitr
      · ipureintro; rfl
      · ipureintro; exact View.read_write_univ _ _
    isplitl [Hs4 Ht4 HA4]
    · iexists _; iexists _; iexists _
      isplitl [Hs4]; · iexact Hs4
      isplitl [Ht4]; · iexact Ht4
      isplitl [HA4]; · iexact HA4
      isplitr
      · ipureintro; rfl
      · ipureintro; exact View.read_write_univ _ _
    isplitl [Hs5 Ht5 HA5]
    · iexists _; iexists _; iexists _
      isplitl [Hs5]; · iexact Hs5
      isplitl [Ht5]; · iexact Ht5
      isplitl [HA5]; · iexact HA5
      isplitr
      · ipureintro; rfl
      · ipureintro; exact View.read_write_univ _ _
    isplitl [Hs6 Ht6 HA6]
    · iexists _; iexists _; iexists _
      isplitl [Hs6]; · iexact Hs6
      isplitl [Ht6]; · iexact Ht6
      isplitl [HA6]; · iexact HA6
      isplitr
      · ipureintro; rfl
      · ipureintro; exact View.read_write_univ _ _
    isplitl [Hs7 Ht7 HA7]
    · iexists _; iexists _; iexists _
      isplitl [Hs7]; · iexact Hs7
      isplitl [Ht7]; · iexact Ht7
      isplitl [HA7]; · iexact HA7
      isplitr
      · ipureintro; rfl
      · ipureintro; exact View.read_write_univ _ _
    isplitl [Hs8 Ht8 HA8]
    · iexists _; iexists _; iexists _
      isplitl [Hs8]; · iexact Hs8
      isplitl [Ht8]; · iexact Ht8
      isplitl [HA8]; · iexact HA8
      isplitr
      · ipureintro; rfl
      · ipureintro; exact View.read_write_univ _ _
    isplitl [Hs9 Ht9 HA9]
    · iexists _; iexists _; iexists _
      isplitl [Hs9]; · iexact Hs9
      isplitl [Ht9]; · iexact Ht9
      isplitl [HA9]; · iexact HA9
      isplitr
      · ipureintro; rfl
      · ipureintro; exact View.read_write_univ _ _
    isplitl [HsY']
    · iexists _; isplitl [HsY']; · iexact HsY'
      ipureintro; intro c hc; exact absurd hc (Nat.not_lt_zero _)
    isplitl [Ho]
    · iexists _; isplitl [Ho]; · iexact Ho
      ipureintro; intro x _ hx; exact absurd hx (Nat.not_lt_zero _)
    isplitl [Hs20]; · iexact Hs20
    iexists _; isplitr
    rotate_left
    · iexact HO
    · ipureintro; exact waits_step (fun p hp => Or.inl hp)

  iintro %acc HI
  have htr : Scf.trips k2_t1_loop.lb k2_t1_loop.ub k2_t1_loop.st = 25 := trips_t1
  ihave HI := (Entails.of_eq (invV_ge tab adr d L hadr O W _ (by rw [htr]; decide) acc)) $$ HI
  icases HI with ⟨-, ⟨Hs0, Hr0, Ht0, HA0⟩, ⟨Hs1, Hr1, Ht1, HA1⟩, ⟨Hs2, Hr2, Ht2, HA2⟩, ⟨Hs3, Hr3, Ht3, HA3⟩, ⟨Hs4, Hr4, Ht4, HA4⟩, ⟨Hs5, Hr5, Ht5, HA5⟩, ⟨Hs6, Hr6, Ht6, HA6⟩, ⟨Hs7, Hr7, Ht7, HA7⟩, ⟨Hs8, Hr8, Ht8, HA8⟩, ⟨Hs9, Hr9, Ht9, HA9⟩, ⟨%fyE, HsY, -⟩, ⟨%foE, Ho, %houtE⟩, Hs20, %WE, %hWE, HO⟩
  sl_step
  isplitl [Htr Ht0 Ht1 Ht2 Ht3 Ht4 Ht5 Ht6 Ht7 Ht8 Ht9 Htlow Ha' Ho]
  · isplitl [Htr Ht0 Ht1 Ht2 Ht3 Ht4 Ht5 Ht6 Ht7 Ht8 Ht9 Htlow]
    · iapply (pts_tokens_join (F := F) ((tV).view.loc (V d (cV L) (jV L))) (qT (cL L) (sL L)) (tab d))
      isplitl [Htr]; · iexact Htr
      isplitl [Ht9]; · iexact Ht9
      isplitl [Ht8]; · iexact Ht8
      isplitl [Ht7]; · iexact Ht7
      isplitl [Ht6]; · iexact Ht6
      isplitl [Ht5]; · iexact Ht5
      isplitl [Ht4]; · iexact Ht4
      isplitl [Ht3]; · iexact Ht3
      isplitl [Ht2]; · iexact Ht2
      isplitl [Ht1]; · iexact Ht1
      isplitl [Ht0]; · iexact Ht0
      iexact Htlow
    isplitl [Ha']
    · iapply (Entails.of_eq (show ((aRowK L).view.loc (V d (cV L) (jV L)) ↦[(aRowK L).view.set]{fullShare} adr d : sProp 𝕄) = aPts adr d (wL L) from by rw [set_aRowK]))
      iexact Ha'
    · rw [htr] at houtE
      iapply (Entails.of_eq (pointsTo_congr (ℓ := oLoc d) (q := fullShare) (I := oSet (wL L)) fun i hi => houtE i hi (i 1).isLt))
      iexact Ho
  isplitl [HA0 Hr0 HA1 Hr1 HA2 Hr2 HA3 Hr3 HA4 Hr4 HA5 Hr5 HA6 Hr6 HA7 Hr7 HA8 Hr8 HA9 Hr9 HsR' HsY Hbufs]
  · isplitl [HA0 HA1 HA2 HA3 HA4 HA5 HA6 HA7 HA8 HA9]
    · iexists (fA adr d L)
      iapply (Entails.of_eq (pts_pieces10 (F := F) ((sA).view.loc (V d (cV L) (jV L))) (fA adr d L)).symm)
      isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      isplitl [HA8]; · iexact HA8
      iexact HA9
    isplitl [Hr0 Hr1 Hr2 Hr3 Hr4 Hr5 Hr6 Hr7 Hr8 Hr9 HsR']
    · iapply (sR_join (F := F) d L _)
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      isplitl [Hr7]; · iexact Hr7
      isplitl [Hr8]; · iexact Hr8
      isplitl [Hr9]; · iexact Hr9
      iexact HsR'
    isplitl [HsY]; · iexists _; iexact HsY
    iexact Hbufs
  isplitl [Hs0 Hs1 Hs2 Hs3 Hs4 Hs5 Hs6 Hs7 Hs8 Hs9 Hs10 Hs11 Hs12 Hs13 Hs14 Hs15 Hs16 Hs17 Hs18 Hs19 Hs20 Hsems]
  · isplitl [Hs0 Hs1 Hs2 Hs3 Hs4 Hs5 Hs6 Hs7 Hs8 Hs9 Hs10 Hs11 Hs12 Hs13 Hs14 Hs15 Hs16 Hs17 Hs18 Hs19 Hs20]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      iexact Hs20
    iexact Hsems
  iexists WE; isplitr
  · ipureintro; exact hWE
  · iexact HO

/-! ## The launch theorem's obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__sc_body (coordsV c s)
          tV (Memref.isWhole_whole _) aV (Memref.isWhole_whole _) oV (Memref.isWhole_whole _)
          sA (Memref.isWhole_whole _) sR (Memref.isWhole_whole _) sY (Memref.isWhole_whole _)
          cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hadr : AdrOK adr) : (K (F := F)).TileObl (D (F := F)) 𝒱 (P (F := F) tab adr) v₀ 0 := by
  intro d c i O W hO _ _
  -- the kernel owes nothing for a protocol of its own
  simp only [show (P (F := F) tab adr).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_body tab adr d (coordsV ⟨_, hc.1⟩ ⟨_, hc.2⟩) facts hadr O W hO).trans (wp_mono frame _ _ fun _ => obl_post)

end Tile

end Cert.Proof.KB.Sc

end
-- ==== Proof.ScStepKB.lean ====
/-
  The TensorCore's step at the gather call.

  Between two segments of @main the TensorCore holds every unscoped buffer whole at a valuation. At the call of
  the SparseCores it gives up three of them — the feature table, the address array and the output array — to
  the two SparseCores' sequencers (the table and the addresses at their contents, the output at whatever it
  holds), signals the starts, waits for the two done signals, and takes the three arrays back: the table and the
  addresses as they were, the output at the gathered sums. Every other buffer is untouched, so the valuation
  after the call is the valuation before it with the output array replaced.
-/
import proofs.«207241_g55714315764006_cont_9to1c4b_410_29_alg».proof.Proof.LaunchKB
import proofs.«207241_g55714315764006_cont_9to1c4b_410_29_alg».proof.Proof.ScTileB

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-! ## The three arrays of the call -/

/-- The table, the address array and the output array, as device buffers of the TensorCore. -/
abbrev tRef : DevRef τ sig := Proc.devRef .tc (main_v3 : Ref sig .tc)
abbrev aRef : DevRef τ sig := Proc.devRef .tc (main_v23 : Ref sig .tc)
abbrev oRef : DevRef τ sig := Proc.devRef .tc (main_v24 : Ref sig .tc)

/-- The three together. -/
abbrev S3 : Finset (DevRef τ sig) := {tRef, aRef, oRef}

/-- They are unscoped buffers of the TensorCore. -/
theorem S3_sub : S3 ⊆ Pipeline.ucRefs τ sig := by
  intro b hb
  simp only [S3, Finset.mem_insert, Finset.mem_singleton] at hb
  rcases hb with rfl | rfl | rfl <;> exact Finset.mem_filter.mpr ⟨StableHlo.devRef_mem_tcRefs _, by decide⟩

omit [FloatOps F] in
/-- Held at a valuation, one by one. -/
theorem held_S3 (d : Dev nD) (W : Valuation τ sig (Elt F)) :
    (held (T d) S3 W : sProp 𝕄)
      = iprop((Sc.tLoc d ↦{fullShare} W tRef) ∗ (Sc.aLoc d ↦{fullShare} W aRef) ∗ Sc.oLoc d ↦{fullShare} W oRef) := by
  unfold held S3
  rw [SparseCore.bigSep_insert' (by decide), SparseCore.bigSep_insert' (by decide), bigSep_singleton]

section Step

variable (Wc : Dev nD → Valuation τ sig (Elt F))

/-- The table and the address array as the call finds them. -/
def tabOf (d : Dev nD) : Buf (Elt F) (Sc.tLoc d) := Wc d tRef
def adrOf (d : Dev nD) : Buf (Elt F) (Sc.aLoc d) := Wc d aRef

/-- The valuation after the call: the output array at the gathered sums, every other buffer as before. -/
def Wsc (d : Dev nD) : Valuation τ sig (Elt F) :=
  Function.update (Wc d) oRef (Sc.gathered (tabOf Wc) (adrOf Wc) d)

theorem Wsc_t (d : Dev nD) : Wsc Wc d tRef = Wc d tRef := Function.update_of_ne (show tRef ≠ oRef by decide) _ _
theorem Wsc_a (d : Dev nD) : Wsc Wc d aRef = Wc d aRef := Function.update_of_ne (show aRef ≠ oRef by decide) _ _
theorem Wsc_o (d : Dev nD) : Wsc Wc d oRef = Sc.gathered (tabOf Wc) (adrOf Wc) d := Function.update_self _ _ _

/-- Off the three arrays the two valuations agree. -/
theorem held_rest (d : Dev nD) :
    (held (T d) (Pipeline.ucRefs τ sig \ S3) (Wsc Wc d) : sProp 𝕄) = held (T d) (Pipeline.ucRefs τ sig \ S3) (Wc d) :=
  StableHlo.held_congr (T d) fun b hb => Function.update_of_ne (fun e => (Finset.mem_sdiff.mp hb).2 (by
    rw [e]; simp only [S3, Finset.mem_insert, Finset.mem_singleton, or_true])) _ _

set_option backward.isDefEq.respectTransparency.types false in
/-- THE STEP: from before call 0, every unscoped buffer at `Wc d`, to before call 1, every unscoped buffer at
    `Wsc Wc d`. -/
theorem sc_step (κ : GSem nD τ sig → ℕ) (d : Dev nD) :
    ScStep (Sc.P (tabOf Wc) (adrOf Wc)) κ d (Wc d) (Wsc Wc d) := by
  intro Ps β k Φ
  unfold TS
  rw [StableHlo.held_sub_split (T d) S3_sub (Wc d), StableHlo.held_sub_split (T d) S3_sub (Wsc Wc d), held_S3, held_S3,
    held_rest, Wsc_t, Wsc_a, Wsc_o, wp_bind]
  iintro ⟨#Hctx, ⟨Hst, Hbd, ⟨⟨Ht, Ha, Ho⟩, Hrest⟩, Hsm, Hp, Hg⟩, Hk⟩
  iapply ((K (F := F)).wp_run (D (F := F)) 𝒱 (EH := EH) (P := Sc.P (tabOf Wc) (adrOf Wc)) κ d 0)
  isplitr; · iexact Hctx
  isplitl [Hst]; · iexact Hst
  isplitl [Ht Ha Ho]
  · rw [Sc.st0_eq]
    isplitl [Ht]; · iexact Ht
    isplitl [Ha]; · iexact Ha
    iexists _; iexact Ho
  iintro ⟨Hst, Hdn⟩
  ihave Hdn' := (Entails.of_eq (Sc.dn0_eq (tabOf Wc) (adrOf Wc) d)) $$ Hdn
  icases Hdn' with ⟨Ht, Ha, Ho⟩
  iapply Hk
  isplitl [Hst]; · iexact Hst
  isplitl [Hbd]; · iexact Hbd
  isplitl [Ht Ha Ho Hrest]
  · isplitl [Ht Ha Ho]
    · isplitl [Ht]; · iexact Ht
      isplitl [Ha]; · iexact Ha
      iexact Ho
    iexact Hrest
  isplitl [Hsm]; · iexact Hsm
  isplitl [Hp]; · iexact Hp
  iexact Hg

end Step

end Cert.Proof.KB

end
-- ==== Proof.ChainKB.lean ====
/-
  The valuations of @main's segments, tied together.

  Each region is entered at what the stretch of host operations before it left and leaves its pipeline's arrays
  at what the write-backs make of them; the SparseCore call is entered with the table and the addresses the
  first two regions computed and leaves the gathered sums in its result array.
-/
import proofs.«207241_g55714315764006_cont_9to1c4b_410_29_alg».proof.Proof.RegionsKB
import proofs.«207241_g55714315764006_cont_9to1c4b_410_29_alg».proof.Proof.ScStepKB

noncomputable section

namespace Cert.Proof.KB

open Cert.Kernel Cert.Kernel.Gen Cert.Proof.KB.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

section Final

variable (m : (ℓ : Loc nD τ sig) → Buf (Elt F) ℓ) (g : Dev nD → PrngReg)

/-- The valuation the table region is entered at, and the one it leaves; -/
def Ea (d : Dev nD) : Valuation τ sig (Elt F) := after (ops0 (F := F)) (W0 m d)
def X0 (d : Dev nD) : Valuation τ sig (Elt F) := Wx0 (Ea m) d
/-- the address region's; -/
def Eb (d : Dev nD) : Valuation τ sig (Elt F) := after (ops1 (F := F)) (X0 m d)
def X1 (d : Dev nD) : Valuation τ sig (Elt F) := Wx1 (Eb m) d
/-- the gather call's; -/
def Ec (d : Dev nD) : Valuation τ sig (Elt F) := after (ops2 (F := F)) (X1 m d)
def X2 (d : Dev nD) : Valuation τ sig (Elt F) := Wsc (Ec m) d
/-- the statistics region's; -/
def Ed (d : Dev nD) : Valuation τ sig (Elt F) := after (ops3 (F := F)) (X2 m d)
def X3 (d : Dev nD) : Valuation τ sig (Elt F) := Wx3 (Ed m) d
/-- the normalisation region's. -/
def Ee (d : Dev nD) : Valuation τ sig (Elt F) := after (ops4 (F := F)) (X3 m d)
def X4 (d : Dev nD) : Valuation τ sig (Elt F) := Wx4 (Ee m) d

/-- What each pipeline's region leaves, whatever it is asked at (the chain asks it at its entry valuation). -/
def Rf : Fin 4 → Dev nD → Valuation τ sig (Elt F) → Valuation τ sig (Elt F)
  | ⟨0, _⟩ => fun d _ => X0 m d
  | ⟨1, _⟩ => fun d _ => X1 m d
  | ⟨2, _⟩ => fun d _ => X3 m d
  | ⟨3, _⟩ => fun d _ => X4 m d
/-- What the gather call leaves. -/
def Gf : Dev nD → Valuation τ sig (Elt F) → Valuation τ sig (Elt F) := fun d _ => X2 m d

/-- The pay record of the gather call at the table and the addresses the first two regions computed. -/
abbrev Pf : (K (F := F)).Pay (nD := nD) (Val := Elt F) (Name := ℕ) (U := UU) := Sc.P (tabOf (Ec m)) (adrOf (Ec m))

end Final

end Cert.Proof.KB

end
-- ==== Proof.KeptKB.lean ====
/-
  Two facts the launch of the whole device needs of @main's chain of valuations.

  Every address the gather kernel reads names a row of the table: the address array is a reshape of the address
  region's result, an entry of a reshaped array is an entry of the original, and the region bounds every entry it
  writes.

  No argument of @main is ever written: every host operation writes a value or a constant of @main, never an
  argument; a region changes only its pipeline's arrays, and the one argument that is such an array is an input
  window, which the pipeline only reads; the gather call changes only its result array.
-/
import proofs.«207241_g55714315764006_cont_9to1c4b_410_29_alg».proof.Proof.ChainKB
import Idealize.ShloMosaic.Lib.Pipeline.Value
import Idealize.ShloMosaic.Lib.StableHlo.Run

noncomputable section

namespace Cert.Proof.KB

open Cert.Kernel Cert.Kernel.Gen Cert.Proof.KB.Ops

open Idealize.ShloMosaic Idealize.ShloMosaic.TcCoe
open Idealize.ShloMosaic.SparseCore (S V T)
open Idealize.ShloMosaic.SparseCore.Cfg (HIx Pay)
open Idealize.SL Idealize.SL.Sem
open Idealize.ShloMosaic.StableHlo (held seq after)

variable {F : FTy → Type} [FloatOps F]

/-! ## What the host stretches write -/

/-- A one-reference write set lies in the listed references' when the reference is listed. -/
theorem writes_sub_of_mem (y : Ref sig .tc) (W : List (Ref sig .tc)) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references each stretch writes: values and constants of @main, one per operation, in order. -/
abbrev wr0 : List (Ref sig .tc) := [main_v0, main_v1]
abbrev wr1 : List (Ref sig .tc) :=
  [main_v3, main_v4, main_v5, main_v6, main_v7, main_v8, main_v9, main_v10, main_c, main_v11, main_c_0, main_v12, main_v13,
    main_cst, main_v14, main_v15, main_v16, main_v17, main_v18, main_v19, main_v20, main_v21]
abbrev wr2 : List (Ref sig .tc) := [main_v23]
abbrev wr3 : List (Ref sig .tc) := [main_v25]
abbrev wr4 : List (Ref sig .tc) := [main_cst_1, main_v27, main_v28, main_v29, main_v30]
abbrev wr5 : List (Ref sig .tc) := [main_v32, main_v33]

theorem ops0_writes : (ops0 (F := F)).Forall fun op => op.writes ⊆ (wr0.map (Proc.devRef (τ := τ) .tc)).toFinset :=
  ⟨writes_sub_of_mem main_v0 wr0 (by decide), writes_sub_of_mem main_v1 wr0 (by decide)⟩
theorem ops1_writes : (ops1 (F := F)).Forall fun op => op.writes ⊆ (wr1.map (Proc.devRef (τ := τ) .tc)).toFinset :=
  ⟨writes_sub_of_mem main_v3 wr1 (by decide), writes_sub_of_mem main_v4 wr1 (by decide), writes_sub_of_mem main_v5 wr1 (by decide),
    writes_sub_of_mem main_v6 wr1 (by decide), writes_sub_of_mem main_v7 wr1 (by decide), writes_sub_of_mem main_v8 wr1 (by decide),
    writes_sub_of_mem main_v9 wr1 (by decide), writes_sub_of_mem main_v10 wr1 (by decide), writes_sub_of_mem main_c wr1 (by decide),
    writes_sub_of_mem main_v11 wr1 (by decide), writes_sub_of_mem main_c_0 wr1 (by decide), writes_sub_of_mem main_v12 wr1 (by decide),
    writes_sub_of_mem main_v13 wr1 (by decide), writes_sub_of_mem main_cst wr1 (by decide), writes_sub_of_mem main_v14 wr1 (by decide),
    writes_sub_of_mem main_v15 wr1 (by decide), writes_sub_of_mem main_v16 wr1 (by decide), writes_sub_of_mem main_v17 wr1 (by decide),
    writes_sub_of_mem main_v18 wr1 (by decide), writes_sub_of_mem main_v19 wr1 (by decide), writes_sub_of_mem main_v20 wr1 (by decide),
    writes_sub_of_mem main_v21 wr1 (by decide)⟩
theorem ops2_writes : (ops2 (F := F)).Forall fun op => op.writes ⊆ (wr2.map (Proc.devRef (τ := τ) .tc)).toFinset :=
  writes_sub_of_mem main_v23 wr2 (by decide)
theorem ops3_writes : (ops3 (F := F)).Forall fun op => op.writes ⊆ (wr3.map (Proc.devRef (τ := τ) .tc)).toFinset :=
  writes_sub_of_mem main_v25 wr3 (by decide)
theorem ops4_writes : (ops4 (F := F)).Forall fun op => op.writes ⊆ (wr4.map (Proc.devRef (τ := τ) .tc)).toFinset :=
  ⟨writes_sub_of_mem main_cst_1 wr4 (by decide), writes_sub_of_mem main_v27 wr4 (by decide), writes_sub_of_mem main_v28 wr4 (by decide),
    writes_sub_of_mem main_v29 wr4 (by decide), writes_sub_of_mem main_v30 wr4 (by decide)⟩
theorem ops5_writes : (ops5 (F := F)).Forall fun op => op.writes ⊆ (wr5.map (Proc.devRef (τ := τ) .tc)).toFinset :=
  ⟨writes_sub_of_mem main_v32 wr5 (by decide), writes_sub_of_mem main_v33 wr5 (by decide)⟩

/-- A reference no stretch writes. -/
def HostKept (r : Ref sig .tc) : Prop := r ∉ wr0 ∧ r ∉ wr1 ∧ r ∉ wr2 ∧ r ∉ wr3 ∧ r ∉ wr4 ∧ r ∉ wr5

/-! ## The addresses -/

/-- An entry of the address array the gather call reads is an entry of the address region's result. -/
theorem adr_of_result (W : Valuation τ sig (Elt F))
    (h : ∀ k : S8x1x20000.Idx, BitVec.toNat (w := 32) (W (Proc.devRef .tc main_v22) k) < 78848) (j : S32x250x20.Idx) :
    BitVec.toNat (w := 32) (after (ops2 (F := F)) W aRef j) < 78848 := by
  have e : after (ops2 (F := F)) W aRef
      = fun i => shapeCast S32x250x20 (W (Proc.devRef .tc main_v22)) shapeCasts_S8x1x20000_S32x250x20 i := by
    show after (ops2 (F := F)) W (Proc.devRef .tc main_v23) = _
    simp only [StableHlo.after_cons, StableHlo.after_nil]
    rw [StableHlo.reshape_result]
    rfl
  rw [e]
  unfold shapeCast
  exact h _

/-! ## What the calls leave alone -/

/-- The gather call changes only its result array. -/
theorem Wsc_of_ne (Wc : Dev nD → Valuation τ sig (Elt F)) (d : Dev nD) (r : Ref sig .tc) (h : r ≠ main_v24) :
    Wsc Wc d (Proc.devRef .tc r) = Wc d (Proc.devRef .tc r) :=
  Function.update_of_ne (StableHlo.devRef_ne_of_ne h) _ _

/-- The table region only reads its second window's array: the pipeline leaves it as it found it. -/
theorem arr0_1_kept (V : (c : Dev nD) → (b : Ref sig .tc) → Buf (Elt F) ((c : Thread nD τ).loc b))
    (O : CellTallies nD τ sig (HIx 1)) (Rc : Set (SemLoc sig × HIx 1)) (c : Dev nD) :
    (R0.dat0 V O Rc c).arrAt 1 cfg0.N = V c main_arg7 :=
  ((R0.dat0 V O Rc c).arrAt_in 1 rfl _).trans (R0.A_eq0 V O Rc c 1)

/-- No argument is an array of the address, statistics or normalisation pipeline; of the table pipeline only
    `main_arg7` is. -/
theorem not_arr1 : ∀ r ∈ ([main_arg0, main_arg1, main_arg2, main_arg3, main_arg4, main_arg5, main_arg6, main_arg7, main_arg8, main_arg9, main_arg10] : List (Ref sig .tc)),
    (∀ w, Pipeline.arrRef spec1 w ≠ r) ∧ (∀ w, Pipeline.arrRef spec3 w ≠ r) ∧ (∀ w, Pipeline.arrRef spec4 w ≠ r) ∧ r ≠ main_v24 := by decide
theorem not_arr0 : ∀ r ∈ ([main_arg0, main_arg1, main_arg2, main_arg3, main_arg4, main_arg5, main_arg6, main_arg8, main_arg9, main_arg10] : List (Ref sig .tc)),
    ∀ w, Pipeline.arrRef spec0 w ≠ r := by decide
/-- No stretch writes an argument. -/
theorem hostKept_args : ∀ r ∈ ([main_arg0, main_arg1, main_arg2, main_arg3, main_arg4, main_arg5, main_arg6, main_arg7, main_arg8, main_arg9, main_arg10] : List (Ref sig .tc)),
    HostKept r := by
  intro r hr
  unfold HostKept
  revert r
  decide

/-- An unscoped reference of the TensorCore is one of the unscoped device buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs _, h⟩

/-! ## The chain -/

section Chain

variable (m : (ℓ : Loc nD τ sig) → Buf (Elt F) ℓ)

/-- (A) EVERY ADDRESS NAMES A ROW OF THE TABLE: the array the gather call reads is a reshape of the address region's
    result, every entry of which the region bounds. -/
theorem adr_ok : Sc.AdrOK (adrOf (Ec m)) := by
  intro d j
  have h22 : ∀ k : S8x1x20000.Idx, BitVec.toNat (w := 32) (X1 m d (Proc.devRef .tc main_v22) k) < 78848 := by
    intro k
    have e : X1 m d (Proc.devRef .tc main_v22)
        = (R1.dat1 (Vof (Eb m d)) ((K (F := F)).Otc d 0) (Rcn (F := F) d 0) d).arrAt 3 cfg1.N := Wx1_arr (Eb m) d 3
    rw [e]
    exact R1.addr_lt (Vof (Eb m d)) ((K (F := F)).Otc d 0) (Rcn (F := F) d 0) d k
  exact adr_of_result (X1 m d) h22 j

/-- A reference that no stretch writes, that is no array of the last three pipelines nor the gather call's result,
    and that the table region leaves as it found it, holds at the return what it held at launch. -/
theorem kept_of (d : Dev nD) (r : Ref sig .tc) (hh : HostKept r)
    (h1 : ∀ w, Pipeline.arrRef spec1 w ≠ r) (h3 : ∀ w, Pipeline.arrRef spec3 w ≠ r) (h4 : ∀ w, Pipeline.arrRef spec4 w ≠ r)
    (ho : r ≠ main_v24) (h0 : X0 m d (Proc.devRef .tc r) = Ea m d (Proc.devRef .tc r)) :
    Wf m (Rf m) (Gf m) d (Proc.devRef .tc r) = m (d, Proc.devRef .tc r) := by
  obtain ⟨k0, k1, k2, k3, k4, k5⟩ := hh
  exact (StableHlo.after_of_writes_sub (ops5 (F := F)) (X4 m d) ops5_writes k5).trans <|
    (Wx4_of_ne (Ee m) d r h4).trans <|
    (StableHlo.after_of_writes_sub (ops4 (F := F)) (X3 m d) ops4_writes k4).trans <|
    (Wx3_of_ne (Ed m) d r h3).trans <|
    (StableHlo.after_of_writes_sub (ops3 (F := F)) (X2 m d) ops3_writes k3).trans <|
    (Wsc_of_ne (Ec m) d r ho).trans <|
    (StableHlo.after_of_writes_sub (ops2 (F := F)) (X1 m d) ops2_writes k2).trans <|
    (Wx1_of_ne (Eb m) d r h1).trans <|
    (StableHlo.after_of_writes_sub (ops1 (F := F)) (X0 m d) ops1_writes k1).trans <|
    h0.trans <|
    (StableHlo.after_of_writes_sub (ops0 (F := F)) (W0 m d) ops0_writes k0)

/-- The same for a reference that is no array of the table pipeline either. -/
theorem kept_of' (d : Dev nD) (r : Ref sig .tc) (hh : HostKept r) (h0 : ∀ w, Pipeline.arrRef spec0 w ≠ r)
    (h1 : ∀ w, Pipeline.arrRef spec1 w ≠ r) (h3 : ∀ w, Pipeline.arrRef spec3 w ≠ r) (h4 : ∀ w, Pipeline.arrRef spec4 w ≠ r)
    (ho : r ≠ main_v24) : Wf m (Rf m) (Gf m) d (Proc.devRef .tc r) = m (d, Proc.devRef .tc r) :=
  kept_of m d r hh h1 h3 h4 ho (Wx0_of_ne (Ea m) d r h0)

/-- The table region leaves `main_arg7`, the array of its second window, as it found it. -/
theorem X0_arg7 (d : Dev nD) : X0 m d (Proc.devRef .tc main_arg7) = Ea m d (Proc.devRef .tc main_arg7) :=
  (Wx0_arr (Ea m) d 1).trans (arr0_1_kept (Vof (Ea m d)) ((K (F := F)).Otc d 0) (Rcn (F := F) d 0) d)

/-! (B) The arguments at the return are the arguments at launch. -/

theorem kept_arg0 (d : Dev nD) : Wf m (Rf m) (Gf m) d (Proc.devRef .tc main_arg0) = m ((d.tc : Thread nD τ).loc main_arg0) :=
  kept_of' m d main_arg0 (hostKept_args _ (by decide)) (not_arr0 _ (by decide)) (not_arr1 _ (by decide)).1 (not_arr1 _ (by decide)).2.1 (not_arr1 _ (by decide)).2.2.1 (not_arr1 _ (by decide)).2.2.2
theorem kept_arg1 (d : Dev nD) : Wf m (Rf m) (Gf m) d (Proc.devRef .tc main_arg1) = m ((d.tc : Thread nD τ).loc main_arg1) :=
  kept_of' m d main_arg1 (hostKept_args _ (by decide)) (not_arr0 _ (by decide)) (not_arr1 _ (by decide)).1 (not_arr1 _ (by decide)).2.1 (not_arr1 _ (by decide)).2.2.1 (not_arr1 _ (by decide)).2.2.2
theorem kept_arg2 (d : Dev nD) : Wf m (Rf m) (Gf m) d (Proc.devRef .tc main_arg2) = m ((d.tc : Thread nD τ).loc main_arg2) :=
  kept_of' m d main_arg2 (hostKept_args _ (by decide)) (not_arr0 _ (by decide)) (not_arr1 _ (by decide)).1 (not_arr1 _ (by decide)).2.1 (not_arr1 _ (by decide)).2.2.1 (not_arr1 _ (by decide)).2.2.2
theorem kept_arg3 (d : Dev nD) : Wf m (Rf m) (Gf m) d (Proc.devRef .tc main_arg3) = m ((d.tc : Thread nD τ).loc main_arg3) :=
  kept_of' m d main_arg3 (hostKept_args _ (by decide)) (not_arr0 _ (by decide)) (not_arr1 _ (by decide)).1 (not_arr1 _ (by decide)).2.1 (not_arr1 _ (by decide)).2.2.1 (not_arr1 _ (by decide)).2.2.2
theorem kept_arg4 (d : Dev nD) : Wf m (Rf m) (Gf m) d (Proc.devRef .tc main_arg4) = m ((d.tc : Thread nD τ).loc main_arg4) :=
  kept_of' m d main_arg4 (hostKept_args _ (by decide)) (not_arr0 _ (by decide)) (not_arr1 _ (by decide)).1 (not_arr1 _ (by decide)).2.1 (not_arr1 _ (by decide)).2.2.1 (not_arr1 _ (by decide)).2.2.2
theorem kept_arg5 (d : Dev nD) : Wf m (Rf m) (Gf m) d (Proc.devRef .tc main_arg5) = m ((d.tc : Thread nD τ).loc main_arg5) :=
  kept_of' m d main_arg5 (hostKept_args _ (by decide)) (not_arr0 _ (by decide)) (not_arr1 _ (by decide)).1 (not_arr1 _ (by decide)).2.1 (not_arr1 _ (by decide)).2.2.1 (not_arr1 _ (by decide)).2.2.2
theorem kept_arg6 (d : Dev nD) : Wf m (Rf m) (Gf m) d (Proc.devRef .tc main_arg6) = m ((d.tc : Thread nD τ).loc main_arg6) :=
  kept_of' m d main_arg6 (hostKept_args _ (by decide)) (not_arr0 _ (by decide)) (not_arr1 _ (by decide)).1 (not_arr1 _ (by decide)).2.1 (not_arr1 _ (by decide)).2.2.1 (not_arr1 _ (by decide)).2.2.2
theorem kept_arg7 (d : Dev nD) : Wf m (Rf m) (Gf m) d (Proc.devRef .tc main_arg7) = m ((d.tc : Thread nD τ).loc main_arg7) :=
  kept_of m d main_arg7 (hostKept_args _ (by decide)) (not_arr1 _ (by decide)).1 (not_arr1 _ (by decide)).2.1 (not_arr1 _ (by decide)).2.2.1 (not_arr1 _ (by decide)).2.2.2 (X0_arg7 m d)
theorem kept_arg8 (d : Dev nD) : Wf m (Rf m) (Gf m) d (Proc.devRef .tc main_arg8) = m ((d.tc : Thread nD τ).loc main_arg8) :=
  kept_of' m d main_arg8 (hostKept_args _ (by decide)) (not_arr0 _ (by decide)) (not_arr1 _ (by decide)).1 (not_arr1 _ (by decide)).2.1 (not_arr1 _ (by decide)).2.2.1 (not_arr1 _ (by decide)).2.2.2
theorem kept_arg9 (d : Dev nD) : Wf m (Rf m) (Gf m) d (Proc.devRef .tc main_arg9) = m ((d.tc : Thread nD τ).loc main_arg9) :=
  kept_of' m d main_arg9 (hostKept_args _ (by decide)) (not_arr0 _ (by decide)) (not_arr1 _ (by decide)).1 (not_arr1 _ (by decide)).2.1 (not_arr1 _ (by decide)).2.2.1 (not_arr1 _ (by decide)).2.2.2
theorem kept_arg10 (d : Dev nD) : Wf m (Rf m) (Gf m) d (Proc.devRef .tc main_arg10) = m ((d.tc : Thread nD τ).loc main_arg10) :=
  kept_of' m d main_arg10 (hostKept_args _ (by decide)) (not_arr0 _ (by decide)) (not_arr1 _ (by decide)).1 (not_arr1 _ (by decide)).2.1 (not_arr1 _ (by decide)).2.2.1 (not_arr1 _ (by decide)).2.2.2

end Chain

end Cert.Proof.KB

end
-- ==== Proof.FinalKB.lean ====
/-
  The device's run, and the frame of the idealized kernel.

  The valuations of @main's segments are tied here: each region is entered at what the stretch before it left
  and leaves its pipeline's arrays at what the write-backs make of them; the SparseCore call is entered with
  the table and the addresses the first two regions computed and leaves the gathered sums. Every address names
  a row of the table, which is what the gather's indexed copies need; so every weakly fair execution of the
  thirty-five threads terminates without a fault, and at the end every unscoped buffer of the TensorCore holds
  the last valuation's contents — in particular the eleven arguments, which nothing writes.
-/
import proofs.«207241_g55714315764006_cont_9to1c4b_410_29_alg».proof.Proof.AssembleKB
import proofs.«207241_g55714315764006_cont_9to1c4b_410_29_alg».proof.Proof.ChainKB
import proofs.«207241_g55714315764006_cont_9to1c4b_410_29_alg».proof.Proof.KeptKB

noncomputable section

namespace Cert.Proof.KB

open Cert.Kernel Cert.Kernel.Gen Cert.Proof.KB.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

section Final

variable (m : (ℓ : Loc nD τ sig) → Buf (Elt F) ℓ) (g : Dev nD → PrngReg)

set_option backward.isDefEq.respectTransparency.types false in
/-- The device's run: it terminates without a fault, every unscoped buffer of every TensorCore at the last valuation. -/
theorem run [∀ e, Nonempty (Elt F e)] :
    θ_run (Cert.Kernel.defs (F := F)) (Cert.Kernel.threads (F := F)) ⟨m, fun _ => 0, g⟩
      (fun r => ∀ c : Dev nD, ∀ b ∈ Pipeline.ucRefs τ sig, r.2.mem ((c, b) : Loc nD τ sig) = Wf m (Rf m) (Gf m) c b) :=
  SparseCore.Cfg.θ_run_sc (K := K (F := F)) (D := D (F := F)) (𝒱 := 𝒱) (EH := EH) (P := Pf m) facts v₀
    (fun q hq => match q with | 0 => nomatch hq)
    (fun q _ => match q with | 0 => Sc.tileObl (tabOf (Ec m)) (adrOf (Ec m)) (adr_ok m))
    (fun q _ => match q with | 0 => SparseCore.Cfg.VecSplit.of_plain (Sc.vecSplit (tabOf (Ec m)) (adrOf (Ec m))))
    m g main (fun d => G₀ (F := F) d) (FIN m (Rf m) (Gf m)) (u₀ (F := F))
    (sep_elim_left.trans (hu₀ (Pf m) (fun _ _ => rfl)))
    (fun κ d => hmain (Pf m) m g (Rf m) (Gf m) κ d
      (step0 (Pf m) κ (Ea m) (Eb m) (Ed m) (Ee m) d) (step1 (Pf m) κ (Ea m) (Eb m) (Ed m) (Ee m) d)
      (sc_step (Ec m) κ d)
      (step2 (Pf m) κ (Ea m) (Eb m) (Ed m) (Ee m) d) (step3 (Pf m) κ (Ea m) (Eb m) (Ed m) (Ee m) d))
    (fq m (Rf m) (Gf m)) (hfin m (Rf m) (Gf m)) _ (fun _ h => h)

/-- The frame at any float instance: the run, read at the eleven argument arrays, which nothing writes. -/
theorem frame_gen [∀ e, Nonempty (Elt F e)] :
    θ_run (Cert.Kernel.defs (F := F)) (Cert.Kernel.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (Cert.Kernel.defs (F := F)) _ _).mono (fun r h c =>
    ⟨(h c _ (mem_uc main_arg0 (by decide))).trans (kept_arg0 m c), (h c _ (mem_uc main_arg1 (by decide))).trans (kept_arg1 m c),
     (h c _ (mem_uc main_arg2 (by decide))).trans (kept_arg2 m c), (h c _ (mem_uc main_arg3 (by decide))).trans (kept_arg3 m c),
     (h c _ (mem_uc main_arg4 (by decide))).trans (kept_arg4 m c), (h c _ (mem_uc main_arg5 (by decide))).trans (kept_arg5 m c),
     (h c _ (mem_uc main_arg6 (by decide))).trans (kept_arg6 m c), (h c _ (mem_uc main_arg7 (by decide))).trans (kept_arg7 m c),
     (h c _ (mem_uc main_arg8 (by decide))).trans (kept_arg8 m c), (h c _ (mem_uc main_arg9 (by decide))).trans (kept_arg9 m c),
     (h c _ (mem_uc main_arg10 (by decide))).trans (kept_arg10 m c)⟩) (run m g)

/-- The run with the result named beside the kept arguments: what the value claim starts from. -/
theorem run_result [∀ e, Nonempty (Elt F e)] :
    θ_run (Cert.Kernel.defs (F := F)) (Cert.Kernel.threads (F := F)) ⟨m, fun _ => 0, g⟩ (fun r => ∀ c : Dev nD,
      r.2.mem ((c.tc : Thread nD τ).loc main_v33) = Wf m (Rf m) (Gf m) c (Proc.devRef .tc main_v33)) :=
  (θ_run (Cert.Kernel.defs (F := F)) _ _).mono (fun r h c => h c _ (mem_uc main_v33 (by decide))) (run m g)

/-- The run with the result named AND the arguments kept: the kernel's half of the value claim. -/
theorem run_full [∀ e, Nonempty (Elt F e)] :
    θ_run (Cert.Kernel.defs (F := F)) (Cert.Kernel.threads (F := F)) ⟨m, fun _ => 0, g⟩ (fun r => ∀ c : Dev nD,
      r.2.mem ((c.tc : Thread nD τ).loc main_v33) = Wf m (Rf m) (Gf m) c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (Cert.Kernel.defs (F := F)) _ _).mono (fun r h c =>
    ⟨h c _ (mem_uc main_v33 (by decide)),
     (h c _ (mem_uc main_arg0 (by decide))).trans (kept_arg0 m c), (h c _ (mem_uc main_arg1 (by decide))).trans (kept_arg1 m c),
     (h c _ (mem_uc main_arg2 (by decide))).trans (kept_arg2 m c), (h c _ (mem_uc main_arg3 (by decide))).trans (kept_arg3 m c),
     (h c _ (mem_uc main_arg4 (by decide))).trans (kept_arg4 m c), (h c _ (mem_uc main_arg5 (by decide))).trans (kept_arg5 m c),
     (h c _ (mem_uc main_arg6 (by decide))).trans (kept_arg6 m c), (h c _ (mem_uc main_arg7 (by decide))).trans (kept_arg7 m c),
     (h c _ (mem_uc main_arg8 (by decide))).trans (kept_arg8 m c), (h c _ (mem_uc main_arg9 (by decide))).trans (kept_arg9 m c),
     (h c _ (mem_uc main_arg10 (by decide))).trans (kept_arg10 m c)⟩) (run m g)

end Final

end Cert.Proof.KB

end
-- ==== Proof.SetupKI.lean ====
/-
  The program as the launch theorems see it, and the one resource algebra every part of the proof shares.

  The device runs thirty-five threads: the TensorCore runs @main — host operations, four pipelined kernel
  regions (the feature table, the voxel addresses, the batch statistics, the normalisation) and the start of
  the gather kernel —, each SparseCore's sequencer dispatches that kernel's sixteen tasks, and each vector
  subcore runs one task. Three protocols meet in one ghost state: the launch handshakes between TensorCore,
  sequencers and tiles (a rounds schedule over natural-number payload indices), the four pipelines' staging
  cells (a rounds schedule with unit duties), and the tiles' own copies and gathers, which only ever wait for
  transfers they issued themselves and so need counters and no schedule.
-/
import proofs.«207241_g55714315764006_cont_9to1c4b_410_29_alg».proof.Defs
import proofs.«207241_g55714315764006_cont_9to1c4b_410_29_alg».proof.Proof.Gen.KernelIdeal
import Idealize.ShloMosaic.Lib.SparseCore.Launch
import Idealize.ShloMosaic.Lib.Pipeline.Kit
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type}

/-! ## The program as the launch theorem sees it -/

/-- The labels of the four pipelines over the kernels' own. -/
abbrev ΛP : Labels := Pipeline.Sig Λ₀ (Fin 4) fun p => (pcfgs (F := F) p).Adm
/-- The one SparseCore call. -/
abbrev K : SparseCore.Cfg τ sig (ΛP (F := F)) 1 := sc (F := F)
theorem nSub_zero : (K (F := F)).nSub 0 = 16 := rfl
theorem nCore_zero : (K (F := F)).nCore 0 = 2 := rfl
/-- The body table under the SparseCore layer: the kernels' bodies and the pipelines' regions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging cells' rounds. -/
abbrev UP : Type := URounds (GSem nD τ sig) Unit
/-- Handshakes, pipelines, and the transfers' counters (the right-most factor, where the executor finds them). -/
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance
instance : CountersIn UU := inferInstance

end Cert.Proof.KI

end
-- ==== Proof.MainOpsKI.lean ====
import proofs.«207241_g55714315764006_cont_9to1c4b_410_29_alg».proof.Proof.Gen.KernelIdeal
import Idealize.ShloMosaic.Lib.StableHlo.Run

noncomputable section

namespace Cert.Proof.KI.Ops

open Cert.KernelIdeal Cert.KernelIdeal.Gen
open Idealize.ShloMosaic Idealize.ShloMosaic.TcCoe Idealize.SL.Sem
open Idealize.ShloMosaic.StableHlo (nullary_bufs_sub unary_bufs_sub binary_bufs_sub ternary_bufs_sub reshape_bufs_sub)

variable {F : FTy → Type} [FloatOps F]

/-- Host operations, stretch 0 of @main. -/
abbrev ops0 : List (HloOp τ sig (Elt F)) :=
  [ StableHlo.reshape main_arg0 main_v0 rfl shapeCasts_S1x6x256x64x176_S6x256x64x176,
    StableHlo.reshape main_v0 main_v1 rfl shapeCasts_S6x256x64x176_S6x256x11264 ]

theorem ops0_sub : (ops0 (F := F)).Forall fun op => op.bufs ⊆ StableHlo.tcRefs τ sig :=
  ⟨reshape_bufs_sub .., reshape_bufs_sub ..⟩

theorem ops0_fresh : (ops0 (F := F)).Forall fun op => op.fresh = ∅ :=
  ⟨rfl, rfl⟩

/-- Host operations, stretch 1 of @main. -/
abbrev ops1 : List (HloOp τ sig (Elt F)) :=
  [ StableHlo.reshape main_v2 main_v3 rfl shapeCasts_S7x11264x128_S78848x128,
    StableHlo.reshape main_arg5 main_v4 rfl shapeCasts_S1x4x4_S4x4,
    StableHlo.unary main_v4 main_v5 ((extractStridedSlice S3x1 ![0, 3] · slices_S4x4_S3x1_0_3) : (⟨S4x4, .f32⟩ : BufTy).Contents (Elt F) → (⟨S3x1, .f32⟩ : BufTy).Contents (Elt F)),
    StableHlo.reshape main_v5 main_v6 rfl shapeCasts_S3x1_S3,
    StableHlo.unary main_v4 main_v7 ((extractStridedSlice S3x3 ![0, 0] · slices_S4x4_S3x3_0_0) : (⟨S4x4, .f32⟩ : BufTy).Contents (Elt F) → (⟨S3x3, .f32⟩ : BufTy).Contents (Elt F)),
    StableHlo.reshape main_arg4 main_v8 rfl shapeCasts_S1x6x4x4_S6x4x4,
    StableHlo.unary main_v8 main_v9 ((extractStridedSlice S6x4x1 ![0, 0, 3] · slices_S6x4x4_S6x4x1_0_0_3) : (⟨S6x4x4, .f32⟩ : BufTy).Contents (Elt F) → (⟨S6x4x1, .f32⟩ : BufTy).Contents (Elt F)),
    StableHlo.reshape main_v9 main_v10 rfl shapeCasts_S6x4x1_S6x4,
    StableHlo.nullary main_c (constantI S_ 32 0#32),
    StableHlo.unary main_c main_v11 (broadcastInDim S1 ![] bcast_S_S1 : (⟨S_, .i32⟩ : BufTy).Contents (Elt F) → (⟨S1, .i32⟩ : BufTy).Contents (Elt F)),
    StableHlo.nullary main_c_0 (constantI S_ 32 3#32),
    StableHlo.unary main_c_0 main_v12 (broadcastInDim S1 ![] bcast_S_S1 : (⟨S_, .i32⟩ : BufTy).Contents (Elt F) → (⟨S1, .i32⟩ : BufTy).Contents (Elt F)),
    StableHlo.binary main_v11 main_v12 main_v13 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst (constant S_ .f32 0x00000000#32),
    StableHlo.unary main_cst main_v14 (broadcastInDim S6x3 ![] bcast_S_S6x3 : (⟨S_, .f32⟩ : BufTy).Contents (Elt F) → (⟨S6x3, .f32⟩ : BufTy).Contents (Elt F)),
    StableHlo.ternary main_v8 main_v13 main_v14 main_v15 ((fun x i u => Host.scatter scatter_S6x4x4_S2_S6x3_01_2_12_0 (fun _ b => b) x i u) : (⟨S6x4x4, .f32⟩ : BufTy).Contents (Elt F) → (⟨S2, .i32⟩ : BufTy).Contents (Elt F) → (⟨S6x3, .f32⟩ : BufTy).Contents (Elt F) → (⟨S6x4x4, .f32⟩ : BufTy).Contents (Elt F)),
    StableHlo.reshape main_arg3 main_v16 rfl shapeCasts_S1x6x4x4_S6x4x4,
    StableHlo.binary main_v15 main_v16 main_v17 ((fun l r => Host.dotGeneral dot_S6x4x4_S6x4x4_S6x4x4_2_1_1_2_0_0 none l r) : (⟨S6x4x4, .f32⟩ : BufTy).Contents (Elt F) → (⟨S6x4x4, .f32⟩ : BufTy).Contents (Elt F) → (⟨S6x4x4, .f32⟩ : BufTy).Contents (Elt F)),
    StableHlo.unary main_v17 main_v18 ((extractStridedSlice S6x3x4 ![0, 0, 0] · slices_S6x4x4_S6x3x4_0_0_0) : (⟨S6x4x4, .f32⟩ : BufTy).Contents (Elt F) → (⟨S6x3x4, .f32⟩ : BufTy).Contents (Elt F)),
    StableHlo.unary main_v10 main_v19 ((extractStridedSlice S6x2 ![0, 0] · slices_S6x4_S6x2_0_0) : (⟨S6x4, .f32⟩ : BufTy).Contents (Elt F) → (⟨S6x2, .f32⟩ : BufTy).Contents (Elt F)),
    StableHlo.reshape main_v19 main_v20 rfl shapeCasts_S6x2_S12,
    StableHlo.binary main_v6 main_v20 main_v21 ((fun a b => concatenate S15 0 [⟨S3, a⟩, ⟨S12, b⟩] concatenates_S3_S12_S15_d0) : (⟨S3, .f32⟩ : BufTy).Contents (Elt F) → (⟨S12, .f32⟩ : BufTy).Contents (Elt F) → (⟨S15, .f32⟩ : BufTy).Contents (Elt F)) ]

theorem ops1_sub : (ops1 (F := F)).Forall fun op => op.bufs ⊆ StableHlo.tcRefs τ sig :=
  ⟨reshape_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., ternary_bufs_sub .., reshape_bufs_sub .., binary_bufs_sub .., unary_bufs_sub .., unary_bufs_sub .., reshape_bufs_sub .., binary_bufs_sub ..⟩

theorem ops1_fresh : (ops1 (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- Host operations, stretch 2 of @main. -/
abbrev ops2 : List (HloOp τ sig (Elt F)) :=
  [ StableHlo.reshape main_v22 main_v23 rfl shapeCasts_S8x1x20000_S32x250x20 ]

theorem ops2_sub : (ops2 (F := F)).Forall fun op => op.bufs ⊆ StableHlo.tcRefs τ sig :=
  reshape_bufs_sub ..

theorem ops2_fresh : (ops2 (F := F)).Forall fun op => op.fresh = ∅ :=
  rfl

/-- Host operations, stretch 3 of @main. -/
abbrev ops3 : List (HloOp τ sig (Elt F)) :=
  [ StableHlo.reshape main_v24 main_v25 rfl shapeCasts_S32x5x250x80_S40000x80 ]

theorem ops3_sub : (ops3 (F := F)).Forall fun op => op.bufs ⊆ StableHlo.tcRefs τ sig :=
  reshape_bufs_sub ..

theorem ops3_fresh : (ops3 (F := F)).Forall fun op => op.fresh = ∅ :=
  rfl

/-- Host operations, stretch 4 of @main. -/
abbrev ops4 : List (HloOp τ sig (Elt F)) :=
  [ StableHlo.nullary main_cst_1 (constant S_ .f32 0x00000000#32),
    StableHlo.unary main_cst_1 main_v27 (broadcastInDim S960x80 ![] bcast_S_S960x80 : (⟨S_, .f32⟩ : BufTy).Contents (Elt F) → (⟨S960x80, .f32⟩ : BufTy).Contents (Elt F)),
    StableHlo.binary main_v25 main_v27 main_v28 ((fun a b => concatenate S40960x80 0 [⟨S40000x80, a⟩, ⟨S960x80, b⟩] concatenates_S40000x80_S960x80_S40960x80_d0) : (⟨S40000x80, .f32⟩ : BufTy).Contents (Elt F) → (⟨S960x80, .f32⟩ : BufTy).Contents (Elt F) → (⟨S40960x80, .f32⟩ : BufTy).Contents (Elt F)),
    StableHlo.reshape main_arg9 main_v29 rfl shapeCasts_S80_S1x80,
    StableHlo.reshape main_arg10 main_v30 rfl shapeCasts_S80_S1x80 ]

theorem ops4_sub : (ops4 (F := F)).Forall fun op => op.bufs ⊆ StableHlo.tcRefs τ sig :=
  ⟨nullary_bufs_sub .., unary_bufs_sub .., binary_bufs_sub .., reshape_bufs_sub .., reshape_bufs_sub ..⟩

theorem ops4_fresh : (ops4 (F := F)).Forall fun op => op.fresh = ∅ :=
  ⟨rfl, rfl, rfl, rfl, rfl⟩

/-- Host operations, stretch 5 of @main. -/
abbrev ops5 : List (HloOp τ sig (Elt F)) :=
  [ StableHlo.unary main_v31 main_v32 ((extractStridedSlice S80x40000 ![0, 0] · slices_S80x40960_S80x40000_0_0) : (⟨S80x40960, .f32⟩ : BufTy).Contents (Elt F) → (⟨S80x40000, .f32⟩ : BufTy).Contents (Elt F)),
    StableHlo.reshape main_v32 main_v33 rfl shapeCasts_S80x40000_S1x80x200x200 ]

theorem ops5_sub : (ops5 (F := F)).Forall fun op => op.bufs ⊆ StableHlo.tcRefs τ sig :=
  ⟨unary_bufs_sub .., reshape_bufs_sub ..⟩

theorem ops5_fresh : (ops5 (F := F)).Forall fun op => op.fresh = ∅ :=
  ⟨rfl, rfl⟩

end Cert.Proof.KI.Ops

end
-- ==== Proof.MainKI.lean ====
/-
  @main on the TensorCore, inside the launch of the whole device.

  @main is six stretches of host operations around five calls: the feature-table region, the address region,
  the gather kernel on the SparseCores, the statistics region and the normalisation region. Between two
  segments the TensorCore holds its handshake state, the region boundary, every unscoped buffer whole at a
  valuation, its free semaphores at zero, its generator register, and the rounds ghost state of the pipelines
  it has not entered yet. A host stretch moves the valuation to `StableHlo.after`; a region moves its
  pipeline's arrays to what the write-backs leave; the SparseCore call moves the gathered array.
-/
import proofs.«207241_g55714315764006_cont_9to1c4b_410_29_alg».proof.Proof.SetupKI
import proofs.«207241_g55714315764006_cont_9to1c4b_410_29_alg».proof.Proof.MainOpsKI
import proofs.«207241_g55714315764006_cont_9to1c4b_410_29_alg».proof.Proof.Gen.KernelIdeal.Launch
import Idealize.ShloMosaic.Lib.Pipeline.Regions
import Idealize.ShloMosaic.Lib.Pipeline.FrameSuffix
import Idealize.ShloMosaic.Lib.StableHlo.Run
import Idealize.ShloMosaic.Lib.Tactic

noncomputable section

namespace Cert.Proof.KI

open Cert.KernelIdeal Cert.KernelIdeal.Gen Cert.Proof.KI.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-! ## @main as stretches of host operations around its five calls -/

set_option maxRecDepth 4096 in
/-- @main is its stretches and calls in order. -/
theorem main_eq (d : Dev nD) : main (F := F) d =
    (StableHlo.seq (ops0 (F := F)) >>= fun _ =>
    Prog.lift (.customCall (SparseCore.inner (Pipeline.entry 0)) ()) >>= fun _ =>
    StableHlo.seq (ops1 (F := F)) >>= fun _ =>
    Prog.lift (.customCall (SparseCore.inner (Pipeline.entry 1)) ()) >>= fun _ =>
    StableHlo.seq (ops2 (F := F)) >>= fun _ =>
    (K (F := F)).run d 0 >>= fun _ =>
    StableHlo.seq (ops3 (F := F)) >>= fun _ =>
    Prog.lift (.customCall (SparseCore.inner (Pipeline.entry 2)) ()) >>= fun _ =>
    StableHlo.seq (ops4 (F := F)) >>= fun _ =>
    Prog.lift (.customCall (SparseCore.inner (Pipeline.entry 3)) ()) >>= fun _ =>
    StableHlo.seq (ops5 (F := F)) >>= fun _ =>
    pure ⟨⟩ : Prog (TpuEff nD τ sig (Elt F) (SparseCore.Sig (ΛP (F := F)) 1) .tc) PUnit) := rfl

/-! ## The TensorCore's state between two segments -/

/-- No pipeline of this program has a prefetched table. -/
abbrev adm : (p : Fin 4) → (pcfgs (F := F) p).Adm := fun p => (cfgs p).toPCfg_adm

/-- The body table of the whole device: the SparseCore layer over the pipelines' and the kernels'. -/
abbrev DK : Defs nD τ sig (Elt F) (SparseCore.Sig (ΛP (F := F)) 1) := (K (F := F)).defs (D (F := F))

/-- Before call `n` of the SparseCores, every unscoped buffer at the valuation `W`, the pipelines in `Ps` not yet entered. -/
def TS (d : Dev nD) (n : ℕ) (W : Valuation τ sig (Elt F)) (Ps : Finset (Fin 4)) : sProp 𝕄 :=
  iprop((K (F := F)).tcSt EH d n ∗ boundary (T d) ∗ held (T d) (Pipeline.ucRefs τ sig) W ∗ (K (F := F)).tcSems0 d
    ∗ (∃ r, prngReg d r) ∗ Pipeline.ghostOn (pcfgs (F := F)) adm EP Ps d)

set_option backward.isDefEq.respectTransparency.types false in
/-- A stretch of host operations moves the valuation to `after`. -/
theorem host_step (d : Dev nD) (n : ℕ) (ops : List (HloOp τ sig (Elt F)))
    (hsub : ops.Forall fun op => op.bufs ⊆ StableHlo.tcRefs τ sig) (hf : ∀ op ∈ ops, op.fresh = ∅)
    (W : Valuation τ sig (Elt F)) (Ps : Finset (Fin 4)) {β : Type}
    (k : PUnit → Prog (TpuEff nD τ sig (Elt F) (SparseCore.Sig (ΛP (F := F)) 1) .tc) β) (Φ : β → sProp 𝕄) :
    iprop(TS d n W Ps ∗ (TS d n (after ops W) Ps -∗ wp frame (wpE (DK (F := F)) 𝒱 (T d) none) Set.univ (k ⟨⟩) Φ))
      ⊢ wp frame (wpE (DK (F := F)) 𝒱 (T d) none) Set.univ (seq ops >>= k) Φ := by
  have hseq := StableHlo.wp_seq (defs := DK (F := F)) 𝒱 none Set.univ d (Pipeline.ucRefs τ sig) k (K := Φ) ops
    (fun op h => Pipeline.sub_ucRefs op ((List.forall_iff_forall_mem.mp hsub) op h)) hf W
  unfold TS
  iintro ⟨⟨Hst, Hbd, Hh, Hsm, Hp, Hg⟩, Hk⟩
  iapply hseq $$ [Hbd Hh]
  · isplitl [Hbd] <;> iassumption
  iintro ⟨Hbd, Hh⟩
  iapply Hk
  isplitl [Hst]; · iexact Hst
  isplitl [Hbd]; · iexact Hbd
  isplitl [Hh]; · iexact Hh
  isplitl [Hsm]; · iexact Hsm
  isplitl [Hp]; · iexact Hp
  iexact Hg

/-! ## @main's obligation, from a step per call

  Each call's effect on the valuation is a parameter here (`R p` for pipeline `p`, `G` for the SparseCore
  call), and each call's step a hypothesis; the stretches between them are `host_step`. -/

section Chain

variable (P : (K (F := F)).Pay (nD := nD) (Val := Elt F) (Name := ℕ) (U := UU)) (κ : GSem nD τ sig → ℕ)
variable (m : (ℓ : Loc nD τ sig) → Buf (Elt F) ℓ)
variable (R : Fin 4 → Dev nD → Valuation τ sig (Elt F) → Valuation τ sig (Elt F))
variable (G : Dev nD → Valuation τ sig (Elt F) → Valuation τ sig (Elt F))

/-- The valuation at launch, -/
def W0 (d : Dev nD) : Valuation τ sig (Elt F) := fun b => m (d, b)
/-- when the table region is entered, and left, -/
def Wa (d : Dev nD) : Valuation τ sig (Elt F) := after (ops0 (F := F)) (W0 m d)
def W1 (d : Dev nD) : Valuation τ sig (Elt F) := R 0 d (Wa m d)
/-- when the address region is entered, and left, -/
def Wb (d : Dev nD) : Valuation τ sig (Elt F) := after (ops1 (F := F)) (W1 m R d)
def W2 (d : Dev nD) : Valuation τ sig (Elt F) := R 1 d (Wb m R d)
/-- at the SparseCore call, and after it, -/
def Wc (d : Dev nD) : Valuation τ sig (Elt F) := after (ops2 (F := F)) (W2 m R d)
def W3 (d : Dev nD) : Valuation τ sig (Elt F) := G d (Wc m R d)
/-- when the statistics region is entered, and left, -/
def Wd (d : Dev nD) : Valuation τ sig (Elt F) := after (ops3 (F := F)) (W3 m R G d)
def W4 (d : Dev nD) : Valuation τ sig (Elt F) := R 2 d (Wd m R G d)
/-- when the normalisation region is entered, and left, -/
def We (d : Dev nD) : Valuation τ sig (Elt F) := after (ops4 (F := F)) (W4 m R G d)
def W5 (d : Dev nD) : Valuation τ sig (Elt F) := R 3 d (We m R G d)
/-- and at the return. -/
def Wf (d : Dev nD) : Valuation τ sig (Elt F) := after (ops5 (F := F)) (W5 m R G d)

/-- What a region's step says: entered with its pipeline's ghost state still unspent, it moves the valuation from `W` to `W'`. -/
def RegionStep (p : Fin 4) (n : ℕ) (d : Dev nD) (W W' : Valuation τ sig (Elt F)) : Prop :=
  ∀ (Ps : Finset (Fin 4)), p ∈ Ps → ∀ {β : Type} (k : PUnit → Prog (TpuEff nD τ sig (Elt F) (SparseCore.Sig (ΛP (F := F)) 1) .tc) β) (Φ : β → sProp 𝕄),
    iprop((K (F := F)).ctx EH P κ ∗ TS d n W Ps
        ∗ (TS d n W' (Ps.erase p) -∗ wp frame (wpE (DK (F := F)) 𝒱 (T d) none) Set.univ (k ⟨⟩) Φ))
      ⊢ wp frame (wpE (DK (F := F)) 𝒱 (T d) none) Set.univ
          (Prog.lift (.customCall (SparseCore.inner (Pipeline.entry p)) ()) >>= k) Φ

/-- What the SparseCore call's step says: from before call 0 to before call 1, the valuation moved by `G`. -/
def ScStep (d : Dev nD) (W W' : Valuation τ sig (Elt F)) : Prop :=
  ∀ (Ps : Finset (Fin 4)) {β : Type} (k : PUnit → Prog (TpuEff nD τ sig (Elt F) (SparseCore.Sig (ΛP (F := F)) 1) .tc) β) (Φ : β → sProp 𝕄),
    iprop((K (F := F)).ctx EH P κ ∗ TS d 0 W Ps
        ∗ (TS d 1 W' Ps -∗ wp frame (wpE (DK (F := F)) 𝒱 (T d) none) Set.univ (k ⟨⟩) Φ))
      ⊢ wp frame (wpE (DK (F := F)) 𝒱 (T d) none) Set.univ ((K (F := F)).run d 0 >>= k) Φ

theorem fresh_of (ops : List (HloOp τ sig (Elt F))) (h : ops.Forall fun op => op.fresh = ∅) : ∀ op ∈ ops, op.fresh = ∅ :=
  List.forall_iff_forall_mem.mp h

/-- @main from the launch valuation to the return's, every pipeline entered once. -/
theorem main_chain (d : Dev nD)
    (h0 : RegionStep P κ 0 0 d (Wa m d) (W1 m R d)) (h1 : RegionStep P κ 1 0 d (Wb m R d) (W2 m R d))
    (hsc : ScStep P κ d (Wc m R d) (W3 m R G d))
    (h3 : RegionStep P κ 2 1 d (Wd m R G d) (W4 m R G d)) (h4 : RegionStep P κ 3 1 d (We m R G d) (W5 m R G d)) :
    iprop((K (F := F)).ctx EH P κ ∗ TS d 0 (W0 m d) Finset.univ)
      ⊢ wp frame (wpE (DK (F := F)) 𝒱 (T d) none) Set.univ (main (F := F) d)
          fun _ => TS d 1 (Wf m R G d) ((((Finset.univ.erase 0).erase 1).erase 2).erase 3) := by
  rw [main_eq]
  iintro ⟨#Hctx, H⟩
  iapply (host_step d 0 ops0 ops0_sub (fresh_of _ ops0_fresh) (W0 m d) Finset.univ _ _)
  isplitl [H]; · iexact H
  iintro H
  iapply (h0 Finset.univ (Finset.mem_univ _) _ _)
  isplitr; · iexact Hctx
  isplitl [H]; · iexact H
  iintro H
  iapply (host_step d 0 ops1 ops1_sub (fresh_of _ ops1_fresh) _ _ _ _)
  isplitl [H]; · iexact H
  iintro H
  iapply (h1 (Finset.univ.erase 0) (by decide) _ _)
  isplitr; · iexact Hctx
  isplitl [H]; · iexact H
  iintro H
  iapply (host_step d 0 ops2 ops2_sub (fresh_of _ ops2_fresh) _ _ _ _)
  isplitl [H]; · iexact H
  iintro H
  iapply (hsc _ _ _)
  isplitr; · iexact Hctx
  isplitl [H]; · iexact H
  iintro H
  iapply (host_step d 1 ops3 ops3_sub (fresh_of _ ops3_fresh) _ _ _ _)
  isplitl [H]; · iexact H
  iintro H
  iapply (h3 ((Finset.univ.erase 0).erase 1) (by decide) _ _)
  isplitr; · iexact Hctx
  isplitl [H]; · iexact H
  iintro H
  iapply (host_step d 1 ops4 ops4_sub (fresh_of _ ops4_fresh) _ _ _ _)
  isplitl [H]; · iexact H
  iintro H
  iapply (h4 (((Finset.univ.erase 0).erase 1).erase 2) (by decide) _ _)
  isplitr; · iexact Hctx
  isplitl [H]; · iexact H
  iintro H
  iapply (host_step d 1 ops5 ops5_sub (fresh_of _ ops5_fresh) _ _ _ _)
  isplitl [H]; · iexact H
  iintro H
  rw [wp_pure]; imodintro
  iexact H

end Chain

end Cert.Proof.KI

end
-- ==== Proof.LaunchKI.lean ====
/-
  The step of one kernel region inside the device's launch, for any of the four pipelines.

  A region is entered on the TensorCore while the SparseCores' handshakes are pending: the TensorCore still
  owes the start signals of the gather call (regions before it) or nothing (regions after it). The region's
  record speaks of a thread state made of the unscoped buffers at a valuation, the generator register and that
  debt with the bound on the pairs its waits have recorded; the step takes the record's pipeline out of the
  ghost state not yet spent, runs the region by the library's rule under the pipelines' body table, and lifts
  the result under the SparseCore layer.
-/
import proofs.«207241_g55714315764006_cont_9to1c4b_410_29_alg».proof.Proof.MainKI

noncomputable section

namespace Cert.Proof.KI

open Cert.KernelIdeal Cert.KernelIdeal.Gen Cert.Proof.KI.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-- What rides beside the buffers through a region entered before call `n`: the generator register at some state,
    and the TensorCore's debt to the handshakes with the bound on its recorded pairs. -/
def Rr (d : Dev nD) (n : ℕ) : sProp 𝕄 :=
  iprop((∃ r, prngReg d r) ∗ ∃ W, ⌜(K (F := F)).WBelow (T d) W (8 * n)⌝ ∗ owes (T d) ((K (F := F)).Otc d n) W)

section RegionStep

variable (P : (K (F := F)).Pay (nD := nD) (Val := Elt F) (Name := ℕ) (U := UU)) (κ : GSem nD τ sig → ℕ)
variable (rdats : (p : Fin 4) → (c : Dev nD) → Pipeline.RDat τ (Elt F) (HIx 1) ℕ UU ℕ (Pipeline.pin (pcfgs (F := F)) adm p) c)

set_option backward.isDefEq.respectTransparency.types false in
/-- The call of a pipeline's region under the pipelines' body table is its call under the SparseCore layer. -/
theorem lift_region (d : Dev nD) (p : Fin 4) (Φ : PUnit → sProp 𝕄) :
    wp frame (wpE (D (F := F)) 𝒱 (T d) none) Set.univ
        (Prog.op (.customCall (Pipeline.entry p) ()) fun _ => .ret PUnit.unit : Prog (TpuEff nD τ sig (Elt F) (ΛP (F := F)) .tc) PUnit) Φ
      ⊢ wp frame (wpE (DK (F := F)) 𝒱 (T d) none) Set.univ
        (Prog.lift (.customCall (SparseCore.inner (Pipeline.entry p)) ()) : Prog (TpuEff nD τ sig (Elt F) (SparseCore.Sig (ΛP (F := F)) 1) .tc) PUnit) Φ :=
  (K (F := F)).wp_liftProg (D (F := F)) 𝒱 (T d) Set.univ none _ _

set_option backward.isDefEq.respectTransparency.types false in
/-- The library's region rule on this device's TensorCore, at the top of @main. -/
theorem region_wp [∀ e, Nonempty (Elt F e)] (p : Fin 4) (d : Dev nD)
    (Rg : Pipeline.RDat.RegionSeg (pcfgs (F := F)) adm rdats (none : HIx 1) (defs₀ (F := F)) 𝒱₀ (K (F := F)).L (K (F := F)).lev p)
    (Q : PUnit → sProp 𝕄) :
    iprop((iprop(boundary (T d) ∗ Rg.post d) -∗ wp frame (wpE (D (F := F)) 𝒱 (T d) none) Set.univ
            (.ret PUnit.unit : Prog (TpuEff nD τ sig (Elt F) (ΛP (F := F)) .tc) PUnit) Q)
        ∗ boundary (T d) ∗ Rg.pre d ∗ levAts (K (F := F)).L (K (F := F)).lev
        ∗ Pipeline.PerCore.cellsGhost (Pipeline.pinD (pcfgs (F := F)) fun _ => adm) EP p d
        ∗ Pipeline.PerCore.toksInit (Pipeline.pinD (pcfgs (F := F)) fun _ => adm) EP p d)
      ⊢ wp frame (wpE (D (F := F)) 𝒱 (T d) none) Set.univ
        (Prog.op (.customCall (Pipeline.entry p) ()) fun _ => .ret PUnit.unit : Prog (TpuEff nD τ sig (Elt F) (ΛP (F := F)) .tc) PUnit) Q :=
  Pipeline.RDat.RegionSeg.wp (pcfgs (F := F)) adm rdats (none : HIx 1) cellOf_inj EP (defs₀ (F := F)) 𝒱₀
    (K (F := F)).L (K (F := F)).lev Rg d none (fun u hu => nomatch hu) (fun _ => .ret PUnit.unit) Q

set_option backward.isDefEq.respectTransparency.types false in
/-- A region's record over the thread state "buffers at `W`, then at `W'`" gives the region's step. -/
theorem region_step_of [∀ e, Nonempty (Elt F e)] (p : Fin 4) (n : ℕ) (d : Dev nD) (W W' : Valuation τ sig (Elt F))
    (Rg : Pipeline.RDat.RegionSeg (pcfgs (F := F)) adm rdats (none : HIx 1) (defs₀ (F := F)) 𝒱₀ (K (F := F)).L (K (F := F)).lev p)
    (hpre : Rg.pre d = iprop(held (T d) (Pipeline.ucRefs τ sig) W ∗ Rr d n))
    (hpost : Rg.post d = iprop(held (T d) (Pipeline.ucRefs τ sig) W' ∗ Rr d n)) :
    RegionStep P κ p n d W W' := by
  intro Ps hp β k Φ
  have hg : (Pipeline.ghostOn (pcfgs (F := F)) adm EP Ps d : sProp 𝕄) = _ :=
    Pipeline.PerCore.ghostOn_erase (pcs := pcfgs (F := F)) (a := fun _ => adm) (EP := EP) hp d
  have hwp := region_wp rdats p d Rg (fun a => wp frame (wpE (DK (F := F)) 𝒱 (T d) none) Set.univ (k a) Φ)
  rw [hpre, hpost] at hwp
  unfold Rr at hwp
  unfold TS SparseCore.Cfg.tcSt
  rw [hg, wp_bind]
  iintro ⟨#Hctx, ⟨⟨⟨%Wt, %hWt, HO⟩, Hat, Hrd, Hrs, Htoks⟩, Hbd, Hh, Hsm, Hp, ⟨⟨Hcg, Htk⟩, Hg⟩⟩, Hk⟩
  ihave Hlev := (SparseCore.Cfg.ctx_levAts κ) $$ Hctx
  iapply (lift_region d p _)
  iapply hwp
  isplitl [Hk Hat Hrd Hrs Htoks Hsm Hg]
  · iintro ⟨Hbd, Hh, Hp, %Wt', %hWt', HO⟩
    rw [wp_ret]; imodintro
    iapply Hk
    isplitl [HO Hat Hrd Hrs Htoks]
    · isplitl [HO]
      · iexists Wt'; isplitr
        · ipureintro; exact hWt'
        · iexact HO
      isplitl [Hat]; · iexact Hat
      isplitl [Hrd]; · iexact Hrd
      isplitl [Hrs]; · iexact Hrs
      iexact Htoks
    isplitl [Hbd]; · iexact Hbd
    isplitl [Hh]; · iexact Hh
    isplitl [Hsm]; · iexact Hsm
    isplitl [Hp]; · iexact Hp
    iexact Hg
  isplitl [Hbd]; · iexact Hbd
  isplitl [Hh Hp HO]
  · isplitl [Hh]; · iexact Hh
    isplitl [Hp]; · iexact Hp
    iexists Wt; isplitr
    · ipureintro; exact hWt
    · iexact HO
  isplitl [Hlev]; · iexact Hlev
  isplitl [Hcg]; · iexact Hcg
  iexact Htk

end RegionStep

end Cert.Proof.KI

end
-- ==== Proof.AssembleKI.lean ====
/-
  The device's run from the steps of its five calls.

  The launch element is the handshakes' rounds beside the pipelines' rounds (the transfers' counters start at
  the unit); the pipelines' share funds, for every TensorCore, the staging cells' ghost state and duty tokens of
  all four pipelines, which @main spends region by region. @main's obligation is then the chain of MainKI from
  what the launch deals the TensorCore; at the end the unscoped buffers are read off the final memory at the
  last valuation.
-/
import proofs.«207241_g55714315764006_cont_9to1c4b_410_29_alg».proof.Proof.LaunchKI

noncomputable section

namespace Cert.Proof.KI

open Cert.KernelIdeal Cert.KernelIdeal.Gen Cert.Proof.KI.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-! ## The launch element -/

set_option backward.isDefEq.respectTransparency.types false in
/-- The handshakes' rounds, the pipelines' rounds, the counters' unit. -/
def u₀ : UU :=
  (initOf (K (F := F)).hsCells (K (F := F)).hsToks,
    (initOf (Pipeline.PerCore.cells (Pipeline.pinD (pcfgs (F := F)) fun _ : Dev nD => adm) cellOf_inj)
      (Pipeline.PerCore.launchToks (Pipeline.pinD (pcfgs (F := F)) fun _ : Dev nD => adm) cellOf_inj), 1))

/-- What the launch leaves each TensorCore beside its buffers: all four pipelines' ghost state, unspent. -/
abbrev G₀ (d : Dev nD) : sProp 𝕄 := Pipeline.ghostOn (pcfgs (F := F)) adm EP Finset.univ d

omit [FloatOps F] in
theorem ownU_split3 (a : UH) (b : UP) (c : Counters) :
    (ownU ((a, (b, c)) : UU) : sProp 𝕄) ⊢ iprop(BI.own (EH a) ∗ BI.own (EP b)) := by
  have h1 : (ownU ((a, (b, c)) : UU) : sProp 𝕄) ⊢ iprop(BI.own (EH a) ∗ BI.own (((Emb.inr : Emb (UP × Counters) UU).trans
      (uEmb (nD := nD) (sig := sig) (Ix := HIx 1) (Val := Elt F) (Name := ℕ) (U := UU) (Lvl := ℕ)).toEmb) (b, c))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  refine h1.trans (sep_mono .rfl ?_)
  exact (own_pair_emb _ b c).trans sep_elim_left

section Run

variable (P : (K (F := F)).Pay (nD := nD) (Val := Elt F) (Name := ℕ) (U := UU))
variable (hPx : ∀ q thr, P.x q thr = iprop(emp))

omit [FloatOps F] in
theorem bigSep_emp' {I : Type} (s : Finset I) : (bigSep s fun _ => iprop(emp)) = (iprop(emp) : sProp 𝕄) := bigSep_emp_const s

set_option backward.isDefEq.respectTransparency.types false in
include hPx in
theorem hu₀ : (ownU (u₀ (F := F)) : sProp 𝕄)
    ⊢ |={Set.univ}=> iprop(BI.own (EH (initOf (K (F := F)).hsCells (K (F := F)).hsToks)) ∗ (bigSep Finset.univ fun d : Dev nD => G₀ (F := F) d)
        ∗ bigSep Finset.univ fun thr : Thread nD τ => bigSep Finset.univ fun q : Fin 1 => P.x q thr) := by
  have hfund := Pipeline.PerCore.fund_ghost (Pipeline.pinD (pcfgs (F := F)) fun _ : Dev nD => adm) (EP (F := F)) cellOf_inj
  have hG : iprop((bigSep Finset.univ fun c : Dev nD => bigSep Finset.univ fun p =>
          Pipeline.PerCore.cellsGhost (Pipeline.pinD (pcfgs (F := F)) fun _ : Dev nD => adm) (EP (F := F)) p c)
        ∗ (bigSep Finset.univ fun c : Dev nD => bigSep Finset.univ fun p =>
          (Pipeline.PerCore.toksInit (Pipeline.pinD (pcfgs (F := F)) fun _ : Dev nD => adm) (EP (F := F)) p c : sProp 𝕄)))
      ⊢ (bigSep Finset.univ fun d : Dev nD => G₀ (F := F) d) := by
    rw [← bigSep_sep']
    exact bigSep_mono fun c _ => Entails.of_eq (by
      show _ = Pipeline.PerCore.ghostOn (pcfgs (F := F)) (fun _ : Dev nD => adm) (EP (F := F)) Finset.univ c
      unfold Pipeline.PerCore.ghostOn; rw [bigSep_sep'])
  unfold u₀
  iintro Hu
  ihave H := (ownU_split3 _ _ _) $$ Hu
  icases H with ⟨HH, HP⟩
  imod hfund $$ HP with Hg
  imodintro
  isplitl [HH]; · iexact HH
  isplitl [Hg]; · iapply hG; iexact Hg
  simp only [hPx, bigSep_emp']
  iempintro

/-! ## @main's obligation and the final read -/

variable (m : (ℓ : Loc nD τ sig) → Buf (Elt F) ℓ) (g : Dev nD → PrngReg)
variable (R : Fin 4 → Dev nD → Valuation τ sig (Elt F) → Valuation τ sig (Elt F))
variable (G : Dev nD → Valuation τ sig (Elt F) → Valuation τ sig (Elt F))

/-- What @main leaves the claim: every unscoped buffer at the last valuation. -/
abbrev FIN (d : Dev nD) : sProp 𝕄 := held (T d) (Pipeline.ucRefs τ sig) (Wf m R G d)

set_option backward.isDefEq.respectTransparency.types false in
theorem hmain (κ : GSem nD τ sig → ℕ) (d : Dev nD)
    (h0 : RegionStep P κ 0 0 d (Wa m d) (W1 m R d)) (h1 : RegionStep P κ 1 0 d (Wb m R d) (W2 m R d))
    (hsc : ScStep P κ d (Wc m R d) (W3 m R G d))
    (h3 : RegionStep P κ 2 1 d (Wd m R G d) (W4 m R G d)) (h4 : RegionStep P κ 3 1 d (We m R G d) (W5 m R G d)) :
    iprop((K (F := F)).ctx EH P κ ∗ (K (F := F)).tcSt EH d 0 ∗ (K (F := F)).tcRes m g d ∗ G₀ (F := F) d)
      ⊢ wp frame (wpE (DK (F := F)) 𝒱 (T d) none) Set.univ (main (F := F) d)
          fun _ => iprop((K (F := F)).tcSt EH d 1 ∗ FIN m R G d) := by
  have hpre : iprop((K (F := F)).ctx EH P κ ∗ (K (F := F)).tcSt EH d 0 ∗ (K (F := F)).tcRes m g d ∗ G₀ (F := F) d)
      ⊢ iprop((K (F := F)).ctx EH P κ ∗ TS d 0 (W0 m d) Finset.univ) := by
    unfold TS SparseCore.Cfg.tcRes
    rw [show (unscopedBufs d (fun b => m ((d.tc : Thread nD τ).loc b)) : sProp 𝕄) = held (d.tc : Thread nD τ) (Pipeline.ucRefs τ sig) (W0 m d) from
      Pipeline.unscopedBufs_held d (W0 m d)]
    iintro ⟨#Hctx, Hst, ⟨Hb, Hh, Hsm, Hp⟩, HG⟩
    isplitr; · iexact Hctx
    isplitl [Hst]; · iexact Hst
    isplitl [Hb]; · iexact Hb
    isplitl [Hh]; · iexact Hh
    isplitl [Hsm]; · iexact Hsm
    isplitl [Hp]; · iexists _; iexact Hp
    iexact HG
  have hpost : ∀ _u : PUnit, TS d 1 (Wf m R G d) ((((Finset.univ.erase 0).erase 1).erase 2).erase 3)
      ⊢ iprop((K (F := F)).tcSt EH d 1 ∗ FIN m R G d) := by
    intro _
    unfold TS
    iintro ⟨Hst, -, Hh, -, -, -⟩
    isplitl [Hst]; · iexact Hst
    iexact Hh
  exact hpre.trans ((main_chain P κ m R G d h0 h1 hsc h3 h4).trans (wp_mono frame _ _ hpost))

/-- The final memory holds every unscoped buffer of every TensorCore at the last valuation. -/
def fq (d : Dev nD) (s' : Phys nD τ sig (Elt F)) : Prop :=
  ∀ b ∈ Pipeline.ucRefs τ sig, s'.mem.mem ((d, b) : Loc nD τ sig) = Wf m R G d b

theorem hfin (d : Dev nD) (s' : Phys nD τ sig (Elt F)) : iprop(FIN m R G d ∗ SI s') ⊢ (⌜fq m R G d s'⌝ : sProp 𝕄) := by
  unfold FIN held
  iintro H
  ihave H' := (pointsTo_read_all (Pipeline.ucRefs τ sig) (fun b => ((d, b) : Loc nD τ sig)) (Wf m R G d) s') $$ H
  icases H' with ⟨%h, -⟩
  ipureintro; exact h

end Run

end Cert.Proof.KI

end
-- ==== Proof.Region0.lean ====
/-
  The feature table's kernel region: the first TensorCore call of the program.

  The pipeline walks a 7 × 2 grid. At point (j, p) it stages block (min j 5, p) of the features — 256 channels by 5632
  positions —, the weights whole (80 by 256), and the output's block (j, p): 5632 positions by 128 columns. The body
  contracts the feature block with the weights over the channels, keeps the product where j < 6 and zeros where j = 6,
  writes it to columns 0 … 79 of the output block and zeros to columns 80 … 127. The two column strips tile the block,
  so what the body leaves is a function of the two input blocks alone, and the output array after the fourteen
  write-backs is one function of the features and the weights: product rows for the first six planes, zeros in the
  seventh and in the padding columns.

  Everything is stated at a parameter `V`, the TensorCore's buffer contents when the region is entered, at
  parameters `O` and `Rc`, what the core owes throughout the region and a bound on its recorded wait pairs, and for any
  float instance.
-/
import proofs.«207241_g55714315764006_cont_9to1c4b_410_29_alg».proof.Proof.SetupKI
import proofs.«207241_g55714315764006_cont_9to1c4b_410_29_alg».proof.Proof.Gen.KernelIdeal.Launch
import proofs.«207241_g55714315764006_cont_9to1c4b_410_29_alg».proof.Proof.Gen.KernelIdeal.Skeleton
import proofs.«207241_g55714315764006_cont_9to1c4b_410_29_alg».proof.Proof.Gen.KernelIdeal.Points
import Idealize.ShloMosaic.Lib.Pipeline.FrameBody
import Idealize.ShloMosaic.Lib.Pipeline.Value
import Idealize.ShloMosaic.Lib.Ring
import Idealize.ShloMosaic.Lib.ValueIdx
import Idealize.ShloMosaic.PureOps.Ideal.Laws
import Idealize.ShloMosaic.Lib.Tactic

set_option maxRecDepth 16384

noncomputable section

namespace Cert.Proof.KI.R0

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig (HIx 1) (Elt F) ℕ Cert.Proof.KI.UU ℕ

section Region

variable (V : (c : Dev nD) → (b : Ref sig .tc) → Buf (Elt F) ((c : Thread nD τ).loc b))
variable (O : CellTallies nD τ sig (HIx 1)) (Rc : Set (SemLoc sig × HIx 1))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point, for any proof data whose array is the
    entry contents and whose body leaves the block in place: the window is fetched at every point. -/
theorem before0_0_of {c : Dev nD} (dat : Dat τ (Elt F) (HIx 1) ℕ Cert.Proof.KI.UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the weights at every point, fetched there (the first point) or not (its block
    index never moves, and the body leaves the buffer as it found it). -/
theorem before0_1_of {c : Dev nD} (dat : Dat τ (Elt F) (HIx 1) ℕ Cert.Proof.KI.UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole feature block and the whole weights, as the body loads them. -/
abbrev rFeat : Rect S1x256x5632 := Rect.unit (s := S1x256x5632) ![0, 0, 0] S1x256x5632.size inb_S1x256x5632_S1x256x5632_0_0_0
abbrev rWts : Rect S80x256 := Rect.unit (s := S80x256) ![0, 0] S80x256.size inb_S80x256_S80x256_0_0
/-- Columns 0 … 79 of the output block: the product's strip. -/
abbrev rProd : Rect S1x5632x128 := Rect.unit (s := S1x5632x128) ![0, 0, 0] S1x5632x80.size inb_S1x5632x128_S1x5632x80_0_0_0
/-- Columns 80 … 127 of the output block: the padding strip. -/
abbrev rPad : Rect S1x5632x128 := Rect.unit (s := S1x5632x128) ![0, 0, 80] S1x5632x48.size inb_S1x5632x128_S1x5632x48_0_0_80

/-! ## What the body leaves in the output window's buffer -/

/-- The output block after the body at grid coordinates `i`, from the two input blocks: the padding strip's zeros over the
    product strip (last store first). -/
def out0_2 (i : grid0.Coords) (x0 : Vec F S1x256x5632 .f32) (x1 : Vec F S80x256 .f32) : Vec F S1x5632x128 .f32 :=
  View.canon [⟨rPad, k0_pay2 (F := F)⟩, ⟨rProd, k0_pay1 i (View.ld x0 rFeat) (View.ld x1 rWts)⟩]

/-- The two strips tile the output block: the product's 80 columns and the padding's 48, both cut at multiples of 16. -/
theorem cover0_2 (p0 : Vec F S1x5632x80 .f32) (p1 : Vec F S1x5632x48 .f32) (y : S1x5632x128.Idx) :
    ∃ pc ∈ ([⟨rPad, p1⟩, ⟨rProd, p0⟩] : List (View.Piece (Elt F) S1x5632x128 .f32)), y ∈ pc.1.set :=
  View.cover_of_tiledBy [⟨rPad, p1⟩, ⟨rProd, p0⟩] ![1, 5632, 16] (by sl_kernel_rfl) y

/-! ## The body's triple -/

set_option maxHeartbeats 1000000 in
/-- The body on whole staging memrefs — the feature block and the weights at read contents, the output block at
    anything — runs to the continuation holding the inputs as they were and the output block at `out0_2` of them. -/
theorem sound_kernel0 (c : Dev nD) (E : Set ℕ) (i : grid0.Coords)
    (arg2 : Memref sig .tc .vmem S1x256x5632 .f32) (harg2 : arg2.IsWhole)
    (arg3 : Memref sig .tc .vmem S80x256 .f32) (harg3 : arg3.IsWhole)
    (arg4 : Memref sig .tc .vmem S1x5632x128 .f32) (harg4 : arg4.IsWhole)
    (x0 : Vec F S1x256x5632 .f32) (x1 : Vec F S80x256 .f32) (Q : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 i x0 x1)) -∗ Q ⟨⟩))
      ⊢ wp frame (wpE (defs₀ (F := F)) Variants.none c none) E (cc0__table_body i arg2 harg2 arg3 harg3 arg4 harg4) Q := by
  simp only [cc0__table_body_eq_skeleton]; unfold cc0__table_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

/-- The region's invariant, the shape every region of this class has: the core's scoped buffers that no window of this
    call stages, each at some contents, and the generator register at some state. The body touches neither. -/
def Φ0 (c : Dev nD) : sProp 𝕄 :=
  iprop(Pipeline.scopedRest (Ix := HIx 1) (Name := ℕ) (U := Cert.Proof.KI.UU) (Lvl := ℕ) (Val := Elt F) spec0 c ∗ ∃ r, prngReg c r)

/-- The proof data of the feature table's pipeline on core `c`: the arrays as the region finds them; after the body at
    point `t` each input's buffer at its block and the output's at `out0_2` of the input blocks at the point's grid
    coordinates; the invariant `Φ0`; the core owing `O` throughout, its recorded wait pairs within `Rc`; full shares. -/
def dat0 (c : Dev nD) : Dat τ (Elt F) (HIx 1) ℕ Cert.Proof.KI.UU ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Φ0 c
  q _ := fullShare
  owed _ := O
  recorded _ := Rc

/-- The proof data's arrays are the region-entry contents. -/
theorem A_eq0 (c : Dev nD) (w : Fin cfg0.W) : (dat0 V O Rc c).A w = V c (Pipeline.arrRef spec0 w) := by
  dsimp only [dat0]

/-- What the body leaves, window by window. -/
theorem after0_0 (c : Dev nD) (t : Fin cfg0.N) : (dat0 V O Rc c).after 0 t = iblk0 V c 0 t := by dsimp only [dat0]
theorem after0_1 (c : Dev nD) (t : Fin cfg0.N) : (dat0 V O Rc c).after 1 t = iblk0 V c 1 t := by dsimp only [dat0]
theorem after0_2 (c : Dev nD) (t : Fin cfg0.N) :
    (dat0 V O Rc c).after 2 t = out0_2 (grid0.coords t) (iblk0 V c 0 t) (iblk0 V c 1 t) := by dsimp only [dat0]

/-- Each input's current staging buffer holds its block at every point, fetched there or not. -/
theorem before0_0 (c : Dev nD) (t : Fin cfg0.N) (d) : (dat0 V O Rc c).before 0 t d = iblk0 V c 0 t :=
  before0_0_of V (dat0 V O Rc c) (A_eq0 V O Rc c 0) (after0_0 V O Rc c) t d
theorem before0_1 (c : Dev nD) (t : Fin cfg0.N) (d) : (dat0 V O Rc c).before 1 t d = iblk0 V c 1 t :=
  before0_1_of V (dat0 V O Rc c) (A_eq0 V O Rc c 1) (after0_1 V O Rc c) t d

/-! ## The body obligation, at a generic point -/

/-- What the body is called with at point `t`, the windows one by one, -/
def bodyPre0 (c : Dev nD) (t : Fin cfg0.N) : sProp 𝕄 :=
  iprop((dat0 V O Rc c).Φ t.castSucc ∗ (dat0 V O Rc c).owesAt (none : HIx 1) t.castSucc
    ∗ (∃ d, owns (c : Thread nD τ) (st0_0 t) fullShare ((dat0 V O Rc c).before 0 t d))
    ∗ (∃ d, owns (c : Thread nD τ) (st0_1 t) fullShare ((dat0 V O Rc c).before 1 t d))
    ∗ (∃ d, owns (c : Thread nD τ) (st0_2 t) fullShare ((dat0 V O Rc c).before 2 t d)))

/-- and what it returns. -/
def bodyPost0 (c : Dev nD) (t : Fin cfg0.N) : sProp 𝕄 :=
  iprop((dat0 V O Rc c).Φ t.succ ∗ (dat0 V O Rc c).owesAt (none : HIx 1) t.succ
    ∗ owns (c : Thread nD τ) (st0_0 t) fullShare ((dat0 V O Rc c).after 0 t)
    ∗ owns (c : Thread nD τ) (st0_1 t) fullShare ((dat0 V O Rc c).after 1 t)
    ∗ owns (c : Thread nD τ) (st0_2 t) fullShare ((dat0 V O Rc c).after 2 t))

/-- The body at any point: the inputs' memrefs hold their blocks, so the body's triple applies; the invariant and what
    the core owes pass through unread. -/
theorem sound_body0 (c : Dev nD) (t : Fin cfg0.N) :
    bodyPre0 V O Rc c t ⊢ wp frame (wpE (defs₀ (F := F)) Variants.none c none) Set.univ (bodyAt0 t) (fun _ => bodyPost0 V O Rc c t) := by
  unfold bodyPre0 bodyPost0 bodyAt0
  simp only [before0_0, before0_1]
  rw [show (dat0 V O Rc c).Φ t.succ = (dat0 V O Rc c).Φ t.castSucc from rfl,
    show (dat0 V O Rc c).owesAt (none : HIx 1) t.succ = (dat0 V O Rc c).owesAt (none : HIx 1) t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) :
    BodyObligation (dat0 (F := F) V O Rc c) (defs₀ (F := F)) Variants.none (none : HIx 1) Set.univ := fun t => by
  rw [bigSep_W0, bigSep_W0]
  exact sound_body0 V O Rc c t

end Region

/-! ## The value: the output array after the region, as one function of the features and the weights -/

/-- Block (j, p) of the features as the contraction takes it: 256 channels by the 5632 positions from `5632 p` on. -/
def featBlock (x : Vec F S6x256x11264 .f32) (j : Fin 6) (p : Fin 2) : FVec F S256x5632 .f32 :=
  fun k => x (ix3 j ⟨(k 0).val, (k 0).isLt⟩ ⟨p.val * 5632 + (k 1).val, by
    have h : (k 1).val < 5632 := (k 1).isLt
    have := p.isLt; omega⟩)

/-- The block's product with the weights: entry (position, o) contracts the block's channels against row `o` of the
    weights, into a zero accumulator — the float instance's own matrix product, in the body's own contraction. -/
def blockProd (x : Vec F S6x256x11264 .f32) (w : Vec F S80x256 .f32) (j : Fin 6) (p : Fin 2) : FVec F S5632x80 .f32 :=
  matmul dot_S256x5632_S80x256_S5632x80_0_1_1_0_n_n (some .fp32) (featBlock x j p) w (constant S5632x80 .f32 0x00000000#32)

/-- THE FEATURE TABLE: entry (j, pos, o) is, for a plane `j < 6` and a column `o < 80`, the product of the block that
    holds position `pos` — block (j, pos / 5632) — at (pos % 5632, o); the seventh plane and the padding columns
    80 … 127 are zero. -/
def tableOf (x : Vec F S6x256x11264 .f32) (w : Vec F S80x256 .f32) : Vec F S7x11264x128 .f32 := fun i =>
  if h : (i 0).val < 6 ∧ (i 2).val < 80 then
    blockProd x w ⟨(i 0).val, h.1⟩ ⟨(i 1).val / 5632, by have h1 : (i 1).val < 11264 := (i 1).isLt; omega⟩
      (ix2 ⟨(i 1).val % 5632, Nat.mod_lt _ (by decide)⟩ ⟨(i 2).val, h.2⟩)
  else Scalar.ofBits .f32 0x00000000#32

/-- Off the product's planes and columns the table is the zero word. -/
theorem tableOf_of_not (x : Vec F S6x256x11264 .f32) (w : Vec F S80x256 .f32) (i : S7x11264x128.Idx)
    (h : ¬((i 0).val < 6 ∧ (i 2).val < 80)) : tableOf x w i = Scalar.ofBits .f32 0x00000000#32 := by
  unfold tableOf; rw [dif_neg h]

/-- The table at an index given by its plane, the block its position falls in, the position inside the block and its
    column: the block's product there. -/
theorem tableOf_of_coords (x : Vec F S6x256x11264 .f32) (w : Vec F S80x256 .f32) (I : S7x11264x128.Idx)
    (j : Fin 6) (p : Fin 2) (r : Fin 5632) (o : Fin 80)
    (h0 : (I 0).val = j.val) (h1 : (I 1).val = p.val * 5632 + r.val) (h2 : (I 2).val = o.val) :
    tableOf x w I = blockProd x w j p (ix2 r o) := by
  have hj := j.isLt; have hp := p.isLt; have hr := r.isLt; have ho := o.isLt
  unfold tableOf
  rw [dif_pos ⟨by omega, by omega⟩]
  refine congr (congr (congrArg (blockProd x w) (Fin.ext h0)) (Fin.ext ?_)) (funext fun a => Fin.ext ?_)
  · show (I 1).val / 5632 = p.val; omega
  · match a with
    | ⟨0, _⟩ => show (I 1).val % 5632 = r.val; omega
    | ⟨1, _⟩ => exact h2

/-! ## The payloads at an index -/

/-- The padding strip's payload is the zero word everywhere. -/
theorem pay2_apply (x : S1x5632x48.Idx) : k0_pay2 (F := F) x = Scalar.ofBits .f32 0x00000000#32 := rfl

/-- The grid's first coordinate against six, as the body's signed comparison computes it. -/
theorem cmp_plane : ∀ n : Fin 7, Scalar.cmpi .slt (BitVec.ofNat 32 n.val) 6#32 = if n.val < 6 then 1#1 else 0#1 := by decide

/-- The product strip's payload at (·, r, o): in the first six planes the block's product at (r, o), in the seventh
    plane the zero word. -/
theorem pay1_apply (i : grid0.Coords) (x0 : Vec F S1x256x5632 .f32) (x1 : Vec F S80x256 .f32) (y : S1x5632x80.Idx) :
    k0_pay1 i x0 x1 y = if (i 0).val < 6 then
        matmul dot_S256x5632_S80x256_S5632x80_0_1_1_0_n_n (some .fp32) (shapeCast S256x5632 x0 shapeCasts_S1x256x5632_S256x5632) x1
          (constant S5632x80 .f32 0x00000000#32) (fun a => y a.succ)
      else Scalar.ofBits .f32 0x00000000#32 := by
  show shapeCast S1x5632x80 (Scalar.select (Scalar.cmpi .slt (BitVec.ofNat 32 (i 0).val) 6#32)
      (matmul dot_S256x5632_S80x256_S5632x80_0_1_1_0_n_n (some .fp32) (shapeCast S256x5632 x0 shapeCasts_S1x256x5632_S256x5632) x1
        (constant S5632x80 .f32 0x00000000#32))
      (broadcast S5632x80 (Scalar.ofBits .f32 0x00000000#32 : F .f32))) shapeCasts_S5632x80_S1x5632x80 y = _
  rw [shapeCast_addUnit_apply ![5632, 80]]
  have hc : Scalar.cmpi .slt (BitVec.ofNat 32 (i 0).val) 6#32 = if (i 0).val < 6 then 1#1 else 0#1 :=
    cmp_plane ⟨(i 0).val, (i 0).isLt⟩
  by_cases h : (i 0).val < 6
  · rw [if_pos h] at hc; rw [if_pos h, hc, select_one]
  · rw [if_neg h] at hc; rw [if_neg h, hc, select_zero]; rfl

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body loads both input blocks whole, so the output block is the two strips' payloads of the blocks themselves. -/
theorem out0_2_eq (i : grid0.Coords) (x0 : Vec F S1x256x5632 .f32) (x1 : Vec F S80x256 .f32) :
    out0_2 i x0 x1 = View.canon [⟨rPad, k0_pay2 (F := F)⟩, ⟨rProd, k0_pay1 i x0 x1⟩] := by
  unfold out0_2
  rw [View.ld_unit_zero (S := S1x256x5632) zeros3, View.ld_unit_zero (S := S80x256) zeros2]

/-! ## The contraction's operand indices -/

theorem lhs_dot_0 (i : S5632x80.Idx) (q : dot_S256x5632_S80x256_S5632x80_0_1_1_0_n_n.contr.Idx) :
    (dot_S256x5632_S80x256_S5632x80_0_1_1_0_n_n.lhsIdx i q 0).val = (q ⟨0, by decide⟩).val :=
  dot_S256x5632_S80x256_S5632x80_0_1_1_0_n_n.lhsIdx_val_of_single rfl i q
theorem lhs_dot_1 (i : S5632x80.Idx) (q : dot_S256x5632_S80x256_S5632x80_0_1_1_0_n_n.contr.Idx) :
    (dot_S256x5632_S80x256_S5632x80_0_1_1_0_n_n.lhsIdx i q 1).val = (i 0).val := by
  unfold DotDims.lhsIdx
  rw [dif_neg (show ¬(1 : Fin S256x5632.rank) ∈ dot_S256x5632_S80x256_S5632x80_0_1_1_0_n_n.lhsBatch by decide), dif_pos (show (1 : Fin S256x5632.rank) ∈ dot_S256x5632_S80x256_S5632x80_0_1_1_0_n_n.lhsNonContracting by decide)]
  rfl
theorem rhs_dot_0 (i : S5632x80.Idx) (q : dot_S256x5632_S80x256_S5632x80_0_1_1_0_n_n.contr.Idx) :
    (dot_S256x5632_S80x256_S5632x80_0_1_1_0_n_n.rhsIdx i q 0).val = (i 1).val := by
  unfold DotDims.rhsIdx
  rw [dif_neg (show ¬(0 : Fin S80x256.rank) ∈ dot_S256x5632_S80x256_S5632x80_0_1_1_0_n_n.rhsBatch by decide), dif_pos (show (0 : Fin S80x256.rank) ∈ dot_S256x5632_S80x256_S5632x80_0_1_1_0_n_n.rhsNonContracting by decide)]
  rfl
theorem rhs_dot_1 (i : S5632x80.Idx) (q : dot_S256x5632_S80x256_S5632x80_0_1_1_0_n_n.contr.Idx) :
    (dot_S256x5632_S80x256_S5632x80_0_1_1_0_n_n.rhsIdx i q 1).val = (q ⟨0, by decide⟩).val :=
  dot_S256x5632_S80x256_S5632x80_0_1_1_0_n_n.rhsIdx_val_of_single rfl i q

section Value

variable (V : (c : Dev nD) → (b : Ref sig .tc) → Buf (Elt F) ((c : Thread nD τ).loc b))
variable (O : CellTallies nD τ sig (HIx 1)) (Rc : Set (SemLoc sig × HIx 1))

/-! ## From blocks to the array -/

/-- The printed index maps over the grid, decided: at point `t = 2 j + p` the output's block index is (j, p, 0), the
    features' (min j 5, 0, p), the weights' (0, 0), and the grid's first coordinate is j. -/
theorem idx_facts0 : ∀ t : Fin cfg0.N,
    win0_2.index t (0 : Fin 3) = t.val / 2 ∧ win0_2.index t (1 : Fin 3) = t.val % 2 ∧ win0_2.index t (2 : Fin 3) = 0
    ∧ win0_0.index t (0 : Fin 3) = min (t.val / 2) 5 ∧ win0_0.index t (1 : Fin 3) = 0 ∧ win0_0.index t (2 : Fin 3) = t.val % 2
    ∧ win0_1.index t (0 : Fin 2) = 0 ∧ win0_1.index t (1 : Fin 2) = 0
    ∧ (grid0.coords t 0).val = t.val / 2 :=
  (by decide +kernel : ∀ t : Fin grid0.N, _)

/-- The weights' one block is the weights. -/
theorem iblk0_1_eq (c : Dev nD) (t : Fin cfg0.N) : iblk0 V c 1 t = V c main_arg7 := by
  obtain ⟨-, -, -, -, -, -, e10, e11, -⟩ := idx_facts0 t
  funext k
  show V c main_arg7 (((cfg0.win 1).blk t).view.emb k) = V c main_arg7 k
  refine congrArg _ (funext fun a => Fin.ext ?_)
  match a with
  | ⟨0, _⟩ => show win0_1.index t (0 : Fin 2) * 80 + 1 * (k 0).val = (k 0).val; omega
  | ⟨1, _⟩ => show win0_1.index t (1 : Fin 2) * 256 + 1 * (k 1).val = (k 1).val; omega

/-- The features' block at a point of the first six planes, as the contraction takes it, is block (j, p) of the
    features. -/
theorem featBlock_eq (c : Dev nD) (t : Fin cfg0.N) (hj : t.val / 2 < 6) :
    shapeCast S256x5632 (iblk0 V c 0 t) shapeCasts_S1x256x5632_S256x5632
      = featBlock (V c main_v1) ⟨t.val / 2, hj⟩ ⟨t.val % 2, Nat.mod_lt _ (by decide)⟩ := by
  obtain ⟨-, -, -, e00, e01, e02, -, -, -⟩ := idx_facts0 t
  funext k
  rw [shapeCast_dropUnit_apply ![256, 5632]]
  show V c main_v1 (((cfg0.win 0).blk t).view.emb (Fin.cons ⟨0, Nat.one_pos⟩ k)) = V c main_v1 _
  refine congrArg _ (funext fun a => Fin.ext ?_)
  match a with
  | ⟨0, _⟩ => show win0_0.index t (0 : Fin 3) * 1 + 1 * 0 = t.val / 2; omega
  | ⟨1, _⟩ => show win0_0.index t (1 : Fin 3) * 256 + 1 * (k 0).val = (k 0).val; omega
  | ⟨2, _⟩ => show win0_0.index t (2 : Fin 3) * 5632 + 1 * (k 1).val = t.val % 2 * 5632 + (k 1).val; omega

/-- WHAT POINT `t` WRITES BACK is block `t` of the feature table of the arrays as the region finds them. -/
theorem flushed0_2_eq (c : Dev nD) (t : Fin cfg0.N) :
    (dat0 V O Rc c).flushed 2 t = ((cfg0.win 2).blk t).view.read (Elt F) (tableOf (V c main_v1) (V c main_arg7)) := by
  show (cfg0.win 2).cut (grid0.coords t) ((dat0 V O Rc c).after 2 t) = _
  rw [after0_2, out0_2_eq, iblk0_1_eq]
  obtain ⟨e20, e21, e22, -, -, -, -, -, eg⟩ := idx_facts0 t
  have ht : t.val < 14 := lt_of_lt_of_eq t.isLt N_0
  funext y
  show View.canon [⟨rPad, k0_pay2 (F := F)⟩, ⟨rProd, k0_pay1 (grid0.coords t) (iblk0 V c 0 t) (V c main_arg7)⟩] y
    = tableOf (V c main_v1) (V c main_arg7) (((cfg0.win 2).blk t).view.emb y)
  have y0 : (y 0).val < 1 := (y 0).isLt
  have y1 : (y 1).val < 5632 := (y 1).isLt
  have y2 : (y 2).val < 128 := (y 2).isLt
  have a0 : ((((cfg0.win 2).blk t).view.emb y) 0).val = t.val / 2 := by
    show win0_2.index t (0 : Fin 3) * 1 + 1 * (y 0).val = t.val / 2; omega
  have a1 : ((((cfg0.win 2).blk t).view.emb y) 1).val = t.val % 2 * 5632 + (y 1).val := by
    show win0_2.index t (1 : Fin 3) * 5632 + 1 * (y 1).val = _; omega
  have a2 : ((((cfg0.win 2).blk t).view.emb y) 2).val = (y 2).val := by
    show win0_2.index t (2 : Fin 3) * 128 + 1 * (y 2).val = _; omega
  generalize ((cfg0.win 2).blk t).view.emb y = I at a0 a1 a2 ⊢
  by_cases hy : (y 2).val < 80
  · -- a column of the product's strip
    obtain ⟨x, rfl⟩ : ∃ x : S1x5632x80.Idx, rProd.emb x = y :=
      ⟨ix3 ⟨(y 0).val, y0⟩ ⟨(y 1).val, y1⟩ ⟨(y 2).val, hy⟩, funext fun a => Fin.ext (by
        match a with
        | ⟨0, _⟩ => show 0 + 1 * (y 0).val = (y 0).val; omega
        | ⟨1, _⟩ => show 0 + 1 * (y 1).val = (y 1).val; omega
        | ⟨2, _⟩ => show 0 + 1 * (y 2).val = (y 2).val; omega)⟩
    have e1 : ((rProd.emb x) 1).val = (x 1).val := by show 0 + 1 * (x 1).val = _; omega
    have e2 : ((rProd.emb x) 2).val = (x 2).val := by show 0 + 1 * (x 2).val = _; omega
    have x1 : (x 1).val < 5632 := (x 1).isLt
    have x2 : (x 2).val < 80 := (x 2).isLt
    have hnot : rProd.emb x ∉ rPad.set := by
      rw [Rect.mem_set_unit]; intro h
      have h80 : 80 ≤ ((rProd.emb x) 2).val := (h (2 : Fin 3)).1
      omega
    rw [View.canon_cons_of_not_mem (⟨rPad, k0_pay2 (F := F)⟩ : View.Piece (Elt F) S1x5632x128 .f32) _ hnot,
      View.canon_cons_emb, pay1_apply]
    by_cases hj : t.val / 2 < 6
    · rw [if_pos (by rw [eg]; exact hj), featBlock_eq V c t hj,
        tableOf_of_coords _ _ I ⟨t.val / 2, hj⟩ ⟨t.val % 2, Nat.mod_lt _ (by decide)⟩ ⟨(x 1).val, x1⟩ ⟨(x 2).val, x2⟩
          a0 (by rw [a1, e1]) (by rw [a2, e2])]
      unfold blockProd
      refine congrArg _ (funext fun a => ?_)
      match a with
      | ⟨0, _⟩ => rfl
      | ⟨1, _⟩ => rfl
    · rw [if_neg (by rw [eg]; exact hj)]
      exact (tableOf_of_not _ _ I (by rw [a0]; omega)).symm
  · -- a column of the padding strip
    obtain ⟨x, rfl⟩ : ∃ x : S1x5632x48.Idx, rPad.emb x = y :=
      ⟨ix3 ⟨(y 0).val, y0⟩ ⟨(y 1).val, y1⟩ ⟨(y 2).val - 80, by omega⟩, funext fun a => Fin.ext (by
        match a with
        | ⟨0, _⟩ => show 0 + 1 * (y 0).val = (y 0).val; omega
        | ⟨1, _⟩ => show 0 + 1 * (y 1).val = (y 1).val; omega
        | ⟨2, _⟩ => show 80 + 1 * ((y 2).val - 80) = (y 2).val; omega)⟩
    rw [View.canon_cons_emb, pay2_apply]
    exact (tableOf_of_not _ _ I (by rw [a2]; omega)).symm

/-- An index of the output array is in point `t`'s block iff each coordinate is in the block's range on its axis. -/
theorem mem_blk0_2 (t : Fin cfg0.N) (i : S7x11264x128.Idx) :
    i ∈ ((cfg0.win 2).blk t).view.set ↔ ∀ a : Fin 3, win0_2.index t a * S1x5632x128.size a ≤ (i a).val ∧ (i a).val < win0_2.index t a * S1x5632x128.size a + S1x5632x128.size a := by
  show i ∈ ((View.whole main_v2).slice (win0_2.rect t)).set ↔ _
  rw [View.set_slice_whole, Rect.mem_set_unit]
  exact Iff.rfl

/-- THE COVER: the fourteen blocks tile the output array; entry (j, pos, ·) is in the block of point `2 j + pos / 5632`. -/
theorem cover_table (i : S7x11264x128.Idx) :
    ∃ t : Fin cfg0.N, (cfg0.win 2).flush t = true ∧ i ∈ ((cfg0.win 2).blk t).view.set := by
  have h0 : (i 0).val < 7 := (i 0).isLt
  have h1 : (i 1).val < 11264 := (i 1).isLt
  have h2 : (i 2).val < 128 := (i 2).isLt
  obtain ⟨t, tv⟩ : ∃ t : Fin cfg0.N, t.val = (i 0).val * 2 + (i 1).val / 5632 :=
    ⟨⟨(i 0).val * 2 + (i 1).val / 5632, lt_of_lt_of_eq (show (i 0).val * 2 + (i 1).val / 5632 < 14 by omega) N_0.symm⟩, rfl⟩
  obtain ⟨e20, e21, e22, -⟩ := idx_facts0 t
  refine ⟨t, flush0_2 t, ?_⟩
  rw [mem_blk0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 5632 ≤ (i 1).val ∧ (i 1).val < win0_2.index t (1 : Fin 3) * 5632 + 5632; omega
  | ⟨2, _⟩ => show win0_2.index t (2 : Fin 3) * 128 ≤ (i 2).val ∧ (i 2).val < win0_2.index t (2 : Fin 3) * 128 + 128; omega

/-- THE OUTPUT ARRAY AFTER THE REGION is the feature table of the features and the weights as the region finds them. -/
theorem table_eq (c : Dev nD) : (dat0 V O Rc c).arrAt 2 cfg0.N = tableOf (V c main_v1) (V c main_arg7) :=
  (dat0 V O Rc c).arrAt_eq_of_cover 2 (tableOf (V c main_v1) (V c main_arg7)) (fun t _ => flushed0_2_eq V O Rc c t) cover_table

end Value

/-- At the ideal values an entry of the table in a product plane and column is the channels' sum of products. -/
theorem tableOf_apply (x : S6x256x11264.Idx → EReal) (w : S80x256.Idx → EReal) (j : Fin 6) (pos : Fin 11264) (o : Fin 80) :
    tableOf (F := Ideal) x w (ix3 ⟨j.val, by omega⟩ pos ⟨o.val, by omega⟩) = ∑ ch : Fin 256, x (ix3 j ch pos) * w (ix2 o ch) := by
  have hpos := pos.isLt
  have hp : pos.val / 5632 < 2 := by omega
  rw [tableOf_of_coords (F := Ideal) x w _ j ⟨pos.val / 5632, hp⟩ ⟨pos.val % 5632, Nat.mod_lt _ (by decide)⟩ o rfl
    (by show pos.val = pos.val / 5632 * 5632 + pos.val % 5632; omega) rfl]
  unfold blockProd
  simp only [matmul]
  rw [Ideal.matmul_constant_zero_apply, ← Equiv.sum_comp (contrEquiv1 dot_S256x5632_S80x256_S5632x80_0_1_1_0_n_n 256 rfl rfl).symm]
  refine Finset.sum_congr rfl fun k _ => ?_
  have hk := contrEquiv1_symm_val dot_S256x5632_S80x256_S5632x80_0_1_1_0_n_n 256 rfl rfl k
  have el : featBlock (F := Ideal) x j ⟨pos.val / 5632, hp⟩
      (dot_S256x5632_S80x256_S5632x80_0_1_1_0_n_n.lhsIdx (ix2 ⟨pos.val % 5632, Nat.mod_lt _ (by decide)⟩ o) ((contrEquiv1 dot_S256x5632_S80x256_S5632x80_0_1_1_0_n_n 256 rfl rfl).symm k))
      = x (ix3 j k pos) := by
    unfold featBlock
    refine congrArg x (funext fun a => Fin.ext ?_)
    match a with
    | ⟨0, _⟩ => rfl
    | ⟨1, _⟩ =>
      show (dot_S256x5632_S80x256_S5632x80_0_1_1_0_n_n.lhsIdx (ix2 ⟨pos.val % 5632, Nat.mod_lt _ (by decide)⟩ o) ((contrEquiv1 dot_S256x5632_S80x256_S5632x80_0_1_1_0_n_n 256 rfl rfl).symm k) 0).val = k.val
      exact (lhs_dot_0 _ _).trans hk
    | ⟨2, _⟩ =>
      show pos.val / 5632 * 5632 + (dot_S256x5632_S80x256_S5632x80_0_1_1_0_n_n.lhsIdx (ix2 ⟨pos.val % 5632, Nat.mod_lt _ (by decide)⟩ o) ((contrEquiv1 dot_S256x5632_S80x256_S5632x80_0_1_1_0_n_n 256 rfl rfl).symm k) 1).val = pos.val
      rw [lhs_dot_1]
      show pos.val / 5632 * 5632 + pos.val % 5632 = pos.val
      omega
  have er : dot_S256x5632_S80x256_S5632x80_0_1_1_0_n_n.rhsIdx (ix2 ⟨pos.val % 5632, Nat.mod_lt _ (by decide)⟩ o) ((contrEquiv1 dot_S256x5632_S80x256_S5632x80_0_1_1_0_n_n 256 rfl rfl).symm k) = ix2 o k :=
    funext fun a => Fin.ext (by
      match a with
      | ⟨0, _⟩ => exact rhs_dot_0 _ _
      | ⟨1, _⟩ => exact (rhs_dot_1 _ _).trans hk)
  rw [el, er]

end Cert.Proof.KI.R0

end
-- ==== Proof.Region1.lean ====
/-
  THE VOXEL ADDRESSES: one kernel region of the program, at the contents `V` the region is entered with.

  The region's grid has eight points. At point `i` the body numbers the twenty thousand voxels `20000·i + lane`, splits the
  number into the voxel's integer coordinates, places the voxel's centre in space, rotates it, and then, for each of six
  cameras in turn, projects the point, divides by the depth, shifts by the camera's offsets, divides by the stride, rounds
  to even and converts to a signed word: the pixel `(u, v)`. Where `0 ≤ u < 176`, `0 ≤ v < 64` and the depth is positive the
  voxel's address becomes the camera's row number `j·11264 + v·176 + u`; elsewhere it stays what it was, and it starts at
  `67584 = 6·11264`, the row of zeros. So the last camera that sees a voxel names its row, and a voxel no camera sees reads
  zeros. The rotation (a 3 × 3 block) and the six projections (3 × 4 each) are read from their windows whole or by slices;
  the fifteen offsets are read from scalar memory one word at a time; the twenty thousand addresses are stored over the whole
  output block, which the pipeline writes back at every point as row `i` of the [8, 1, 20000] address array.

  Here: each window's block; what the body leaves in the output block as ONE term over the blocks it reads, the chain of
  the six cameras' steps kept as named steps of the grid point; the body's triple; the pipeline's proof data, with the
  core's debt and its recorded waits as parameters the body passes through unread; the body obligation; and the value —
  first that EVERY address names a row of the 78848-row table, at any float instance (it rests on the integer guards of the
  selects alone), then the address array as one function of the three arrays the region reads.
-/
import proofs.«207241_g55714315764006_cont_9to1c4b_410_29_alg».proof.Proof.SetupKI
import proofs.«207241_g55714315764006_cont_9to1c4b_410_29_alg».proof.Proof.Gen.KernelIdeal.Launch
import proofs.«207241_g55714315764006_cont_9to1c4b_410_29_alg».proof.Proof.Gen.KernelIdeal.Skeleton
import proofs.«207241_g55714315764006_cont_9to1c4b_410_29_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.Proof.KI.R1

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig (HIx 1) (Elt F) ℕ Cert.Proof.KI.UU ℕ

section Region
-- the TensorCore's buffer contents when the region is entered, the tallies the core owes throughout it, and the bound
-- on the waits it has recorded: the body reads none of the three
variable (V : (c : Dev nD) → (b : Ref sig .tc) → Buf (Elt F) ((c : Thread nD τ).loc b))
variable (O : CellTallies nD τ sig (HIx 1))
variable (Rc : Set (SemLoc sig × HIx 1))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place: unfetched, the block index has not moved. The three
    input windows are whole arrays, uncut and never idle. -/
theorem before1_0_of {c : Dev nD} (dat : Dat τ (Elt F) (HIx 1) ℕ Cert.Proof.KI.UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ Cert.Proof.KI.UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 1) ℕ Cert.Proof.KI.UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The rotation, whole. -/
abbrev rRot : Rect S3x3 := Rect.unit (s := S3x3) ![0, 0] S3x3.size inb_S3x3_S3x3_0_0
/-- Camera `j`'s projection: slice `j` of the six. -/
abbrev rCam0 : Rect S6x3x4 := Rect.unit (s := S6x3x4) ![0, 0, 0] S1x3x4.size inb_S6x3x4_S1x3x4_0_0_0
abbrev rCam1 : Rect S6x3x4 := Rect.unit (s := S6x3x4) ![1, 0, 0] S1x3x4.size inb_S6x3x4_S1x3x4_1_0_0
abbrev rCam2 : Rect S6x3x4 := Rect.unit (s := S6x3x4) ![2, 0, 0] S1x3x4.size inb_S6x3x4_S1x3x4_2_0_0
abbrev rCam3 : Rect S6x3x4 := Rect.unit (s := S6x3x4) ![3, 0, 0] S1x3x4.size inb_S6x3x4_S1x3x4_3_0_0
abbrev rCam4 : Rect S6x3x4 := Rect.unit (s := S6x3x4) ![4, 0, 0] S1x3x4.size inb_S6x3x4_S1x3x4_4_0_0
abbrev rCam5 : Rect S6x3x4 := Rect.unit (s := S6x3x4) ![5, 0, 0] S1x3x4.size inb_S6x3x4_S1x3x4_5_0_0
/-- The output block, whole. -/
abbrev rOut : Rect S1x1x20000 := Rect.unit (s := S1x1x20000) ![0, 0, 0] S1x1x20000.size inb_S1x1x20000_S1x1x20000_0_0_0

/-- One word of the fifteen offsets, as the body reads it from scalar memory: the one element of the one-cell rectangle
    at `off`. -/
abbrev wordAt (x2 : Vec F S15 .f32) (off : Fin 1 → Nat) (inb : ∀ a, off a + S1.size a ≤ S15.size a) : Elt F .f32 :=
  View.ld x2 (Rect.unit (s := S15) off S1.size inb) (Shape.Idx.first (numel1_S1.symm ▸ Nat.one_pos))

/-! ## What the body leaves in the output block -/

/-- The voxel's point in space, rotated, with a fourth coordinate one: a [4, 20000] block, from the grid point, the
    first three offsets (the translation) and the rotation. -/
def ptVec (i : grid1.Coords) (x0 : Vec F S3x3 .f32) (x2 : Vec F S15 .f32) : FVec F S4x20000 .f32 :=
  k1_pay7 (k1_pay3 i) (k1_pay4 i) 4#32 (k1_pay5 i) (k1_pay6 i) 1#32 (wordAt x2 ![0] inb_S15_S1_0) (wordAt x2 ![1] inb_S15_S1_1) (wordAt x2 ![2] inb_S15_S1_2) (View.ld x0 rRot)

/-- The addresses after the six cameras, in order: camera `j` reads its projection and the offsets `3 + 2j`, `4 + 2j`, and
    selects its row number over the address so far; camera 0 starts from the zero row, 67584. -/
def addrVec (i : grid1.Coords) (x0 : Vec F S3x3 .f32) (x1 : Vec F S6x3x4 .f32) (x2 : Vec F S15 .f32) : IVec S1x20000 32 :=
  k1_pay13 (ptVec i x0 x2)
    (k1_pay12 (ptVec i x0 x2)
      (k1_pay11 (ptVec i x0 x2)
        (k1_pay10 (ptVec i x0 x2)
          (k1_pay9 (ptVec i x0 x2)
            (k1_pay8 (ptVec i x0 x2) 67584#32 (View.ld x1 rCam0) (wordAt x2 ![3] inb_S15_S1_3) (wordAt x2 ![4] inb_S15_S1_4))
            (View.ld x1 rCam1) (wordAt x2 ![5] inb_S15_S1_5) (wordAt x2 ![6] inb_S15_S1_6))
          (View.ld x1 rCam2) (wordAt x2 ![7] inb_S15_S1_7) (wordAt x2 ![8] inb_S15_S1_8))
        (View.ld x1 rCam3) (wordAt x2 ![9] inb_S15_S1_9) (wordAt x2 ![10] inb_S15_S1_10))
      (View.ld x1 rCam4) (wordAt x2 ![11] inb_S15_S1_11) (wordAt x2 ![12] inb_S15_S1_12))
    (View.ld x1 rCam5) (wordAt x2 ![13] inb_S15_S1_13) (wordAt x2 ![14] inb_S15_S1_14)

/-- The output window's staging buffer after the body, from the input windows' blocks: its one store, of the addresses
    recast to the block's shape, over the whole block. -/
def out1_3 (i : grid1.Coords) (x0 : Vec F S3x3 .f32) (x1 : Vec F S6x3x4 .f32) (x2 : Vec F S15 .f32) : Vec F S1x1x20000 .i32 :=
  View.canon [⟨rOut, k1_pay1 (addrVec i x0 x1 x2)⟩]

/-- The store is of the whole block, so it covers it. -/
theorem cover1_3 (p0 : Vec F S1x1x20000 .i32) (y : S1x1x20000.Idx) :
    ∃ pc ∈ ([⟨rOut, p0⟩] : List (View.Piece (Elt F) S1x1x20000 .i32)), y ∈ pc.1.set :=
  View.cover_of_tiled [⟨rOut, p0⟩] S1x1x20000.size (by rfl) y

/-! ## The body's triple -/

set_option maxHeartbeats 1000000 in
/-- The kernel body on whole staging memrefs, the three inputs' at contents `x0`, `x1`, `x2` and the output's at anything,
    runs to the continuation holding the inputs' as they were and the output's at `out1_3` of them: the printed function
    is its skeleton, run part by part; what the run read — the rotation whole, six slices of the projections, fifteen words —
    are the loads `out1_3` is written over. -/
theorem sound_kernel1 (c : Dev nD) (E : Set ℕ) (i : grid1.Coords)
    (arg1 : Memref sig .tc .vmem S3x3 .f32) (harg1 : arg1.IsWhole)
    (arg2 : Memref sig .tc .vmem S6x3x4 .f32) (harg2 : arg2.IsWhole)
    (arg3 : Memref sig .tc .smem S15 .f32) (harg3 : arg3.IsWhole)
    (arg4 : Memref sig .tc .vmem S1x1x20000 .i32) (harg4 : arg4.IsWhole)
    (x0 : Vec F S3x3 .f32) (x1 : Vec F S6x3x4 .f32) (x2 : Vec F S15 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 i x0 x1 x2)) -∗ K ⟨⟩))
      ⊢ wp frame (wpE (defs₀ (F := F)) Variants.none c none) E (cc1__addr_body i arg1 harg1 arg2 harg2 arg3 harg3 arg4 harg4) K := by
  simp only [cc1__addr_body_eq_skeleton]; unfold cc1__addr_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover1_3 _)).trans ?_
  unfold out1_3 addrVec ptVec
  sl_unfold_run_names
  rfl

/-! ## The pipeline's proof data -/

/-- The region's invariant: the core's scoped buffers that are no staging buffer of this pipeline, each at some contents,
    and its generator register at some state — what the body may use and does not: it names neither. -/
def Φ1 (c : Dev nD) : sProp 𝕄 :=
  iprop(Pipeline.scopedRest (Ix := HIx 1) (Name := ℕ) (U := Cert.Proof.KI.UU) (Lvl := ℕ) (Val := Elt F) spec1 c ∗ ∃ r, prngReg c r)

/-- The proof data of the pipeline on core `c`: the arrays as the region finds them; after the body at point `t` each
    input's buffer at its block and the output's at `out1_3` of the input blocks; the invariant `Φ1`; what the core owes
    and the bound on its recorded waits constant through the region; full shares. -/
def dat1 (c : Dev nD) : Dat τ (Elt F) (HIx 1) ℕ Cert.Proof.KI.UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Φ1 c
  q _ := fullShare
  owed _ := O
  recorded _ := Rc

/-- The proof data's arrays are the region-entry contents. -/
theorem A_eq1 (c : Dev nD) (w : Fin cfg1.W) : (dat1 V O Rc c).A w = V c (Pipeline.arrRef spec1 w) := by
  dsimp only [dat1]

/-- What the body leaves, window by window. -/
theorem after1_0 (c : Dev nD) (t : Fin cfg1.N) : (dat1 V O Rc c).after 0 t = iblk1 V c 0 t := by dsimp only [dat1]
theorem after1_1 (c : Dev nD) (t : Fin cfg1.N) : (dat1 V O Rc c).after 1 t = iblk1 V c 1 t := by dsimp only [dat1]
theorem after1_2 (c : Dev nD) (t : Fin cfg1.N) : (dat1 V O Rc c).after 2 t = iblk1 V c 2 t := by dsimp only [dat1]
theorem after1_3 (c : Dev nD) (t : Fin cfg1.N) :
    (dat1 V O Rc c).after 3 t = out1_3 (grid1.coords t) (iblk1 V c 0 t) (iblk1 V c 1 t) (iblk1 V c 2 t) := by dsimp only [dat1]

/-- Each input's current staging buffer holds its block at every point, fetched there or not. -/
theorem before1_0 (c : Dev nD) (t : Fin cfg1.N) (d) : (dat1 V O Rc c).before 0 t d = iblk1 V c 0 t :=
  before1_0_of V (dat1 V O Rc c) (A_eq1 V O Rc c 0) (after1_0 V O Rc c) t d
theorem before1_1 (c : Dev nD) (t : Fin cfg1.N) (d) : (dat1 V O Rc c).before 1 t d = iblk1 V c 1 t :=
  before1_1_of V (dat1 V O Rc c) (A_eq1 V O Rc c 1) (after1_1 V O Rc c) t d
theorem before1_2 (c : Dev nD) (t : Fin cfg1.N) (d) : (dat1 V O Rc c).before 2 t d = iblk1 V c 2 t :=
  before1_2_of V (dat1 V O Rc c) (A_eq1 V O Rc c 2) (after1_2 V O Rc c) t d

/-! ## The body obligation, at a generic point -/

/-- What the body is called with at point `t`, the windows one by one, -/
def bodyPre1 (c : Dev nD) (t : Fin cfg1.N) : sProp 𝕄 :=
  iprop((dat1 V O Rc c).Φ t.castSucc ∗ (dat1 V O Rc c).owesAt (none : HIx 1) t.castSucc
    ∗ (∃ d, owns (c : Thread nD τ) (st1_0 t) fullShare ((dat1 V O Rc c).before 0 t d))
    ∗ (∃ d, owns (c : Thread nD τ) (st1_1 t) fullShare ((dat1 V O Rc c).before 1 t d))
    ∗ (∃ d, owns (c : Thread nD τ) (st1_2 t) fullShare ((dat1 V O Rc c).before 2 t d))
    ∗ (∃ d, owns (c : Thread nD τ) (st1_3 t) fullShare ((dat1 V O Rc c).before 3 t d)))

/-- and what it returns. -/
def bodyPost1 (c : Dev nD) (t : Fin cfg1.N) : sProp 𝕄 :=
  iprop((dat1 V O Rc c).Φ t.succ ∗ (dat1 V O Rc c).owesAt (none : HIx 1) t.succ
    ∗ owns (c : Thread nD τ) (st1_0 t) fullShare ((dat1 V O Rc c).after 0 t)
    ∗ owns (c : Thread nD τ) (st1_1 t) fullShare ((dat1 V O Rc c).after 1 t)
    ∗ owns (c : Thread nD τ) (st1_2 t) fullShare ((dat1 V O Rc c).after 2 t)
    ∗ owns (c : Thread nD τ) (st1_3 t) fullShare ((dat1 V O Rc c).after 3 t))

/-- The body at any point: the inputs' memrefs hold their blocks, so the triple applies; the invariant and the core's
    debt pass through unread. -/
theorem sound_body1 (c : Dev nD) (t : Fin cfg1.N) :
    bodyPre1 V O Rc c t ⊢ wp frame (wpE (defs₀ (F := F)) Variants.none c none) Set.univ (bodyAt1 t) (fun _ => bodyPost1 V O Rc c t) := by
  unfold bodyPre1 bodyPost1 bodyAt1
  simp only [before1_0, before1_1, before1_2]
  rw [show (dat1 V O Rc c).Φ t.succ = (dat1 V O Rc c).Φ t.castSucc from rfl,
    show (dat1 V O Rc c).owesAt (none : HIx 1) t.succ = (dat1 V O Rc c).owesAt (none : HIx 1) t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V O Rc c) (defs₀ (F := F)) Variants.none (none : HIx 1) Set.univ := fun t => by
  rw [bigSep_W1, bigSep_W1]
  exact sound_body1 V O Rc c t

/-! ## The value, first part: every address names a row of the table -/

/-- A conjunction of one-bit words is set exactly when both are. -/
theorem andi_eq_one (x y : BitVec 1) : IntOp.andi x y = 1 ↔ x = 1 ∧ y = 1 := by
  unfold IntOp.andi; revert x y; decide

/-- The signed test `0 ≤ u` as a word. -/
theorem cmpi_sge_zero (u : BitVec 32) : IntOp.cmpi .sge u 0#32 = 1 ↔ 0 ≤ u.toInt := by
  unfold IntOp.cmpi
  show BitVec.ofBool ((0#32).sle u) = 1 ↔ _
  cases h : (0#32).sle u <;> simp [BitVec.sle] at h ⊢ <;> omega

/-- The signed test `u < n` as a word. -/
theorem cmpi_slt (u n : BitVec 32) : IntOp.cmpi .slt u n = 1 ↔ u.toInt < n.toInt := by
  unfold IntOp.cmpi
  show BitVec.ofBool (u.slt n) = 1 ↔ _
  cases h : u.slt n <;> simp [BitVec.slt] at h ⊢ <;> omega

/-- A word that is nonnegative as a signed number and below a small bound is that natural number. -/
theorem toNat_lt_of_signed (u : BitVec 32) (n : Nat) (hn : n < 2 ^ 31) (h0 : 0 ≤ u.toInt) (h1 : u.toInt < (n : Int)) : u.toNat < n := by
  rw [BitVec.toInt_eq_toNat_cond] at h0 h1
  have := u.isLt
  split at h0 <;> omega

/-- ONE CAMERA'S STEP, at a lane: the row number `base + v·176 + u` is taken only where `0 ≤ u < 176` and `0 ≤ v < 64` as
    signed words (whatever the depth test `d` says), so it does not wrap and is below `base + 11264`; elsewhere the address
    so far is kept. -/
theorem cam_lt (u v prev base : BitVec 32) (d : BitVec 1) (hbase : base.toNat + 11264 ≤ 78848) (hprev : prev.toNat < 78848) :
    (Scalar.select (IntOp.andi (IntOp.andi (IntOp.andi (IntOp.andi (IntOp.cmpi .sge u 0#32) (IntOp.cmpi .sge v 0#32)) (IntOp.cmpi .slt u 176#32)) (IntOp.cmpi .slt v 64#32)) d)
      (IntOp.addi (IntOp.addi base (IntOp.muli v 176#32)) u) prev).toNat < 78848 := by
  unfold Scalar.select
  split
  · rename_i hg
    rw [andi_eq_one, andi_eq_one, andi_eq_one, andi_eq_one, cmpi_sge_zero, cmpi_sge_zero, cmpi_slt, cmpi_slt] at hg
    obtain ⟨⟨⟨⟨hu0, hv0⟩, hu1⟩, hv1⟩, -⟩ := hg
    have e176 : (176#32).toInt = 176 := by decide
    have e64 : (64#32).toInt = 64 := by decide
    rw [e176] at hu1; rw [e64] at hv1
    have hu := toNat_lt_of_signed u 176 (by decide) hu0 hu1
    have hv := toNat_lt_of_signed v 64 (by decide) hv0 hv1
    have e176n : (176#32).toNat = 176 := rfl
    have hmul : (v * 176#32).toNat = v.toNat * 176 := by
      rw [BitVec.toNat_mul, e176n]; exact Nat.mod_eq_of_lt (by omega)
    have hadd1 : (base + v * 176#32).toNat = base.toNat + v.toNat * 176 := by
      rw [BitVec.toNat_add, hmul]; exact Nat.mod_eq_of_lt (by omega)
    have hadd2 : (base + v * 176#32 + u).toNat = base.toNat + v.toNat * 176 + u.toNat := by
      rw [BitVec.toNat_add, hadd1]; exact Nat.mod_eq_of_lt (by omega)
    show (base + v * 176#32 + u).toNat < 78848
    rw [hadd2]; omega
  · exact hprev

/-- Each camera's step keeps every lane's address below the table's height: camera 0 over the zero row, -/
theorem pay8_lt (v87 : FVec F S4x20000 .f32) (p : Vec F S1x3x4 .f32) (a b : Elt F .f32) (k : S1x20000.Idx) :
    (k1_pay8 v87 67584#32 p a b k).toNat < 78848 :=
  cam_lt _ _ _ _ _ (by show (0#32).toNat + 11264 ≤ 78848; decide) (by show (67584#32).toNat < 78848; decide)
/-- and cameras 1 to 5 over the address so far. -/
theorem pay9_lt (v87 : FVec F S4x20000 .f32) (prev : IVec S1x20000 32) (p : Vec F S1x3x4 .f32) (a b : Elt F .f32)
    (hprev : ∀ k, (prev k).toNat < 78848) (k : S1x20000.Idx) : (k1_pay9 v87 prev p a b k).toNat < 78848 :=
  cam_lt _ _ _ _ _ (by show (11264#32).toNat + 11264 ≤ 78848; decide) (hprev k)
theorem pay10_lt (v87 : FVec F S4x20000 .f32) (prev : IVec S1x20000 32) (p : Vec F S1x3x4 .f32) (a b : Elt F .f32)
    (hprev : ∀ k, (prev k).toNat < 78848) (k : S1x20000.Idx) : (k1_pay10 v87 prev p a b k).toNat < 78848 :=
  cam_lt _ _ _ _ _ (by show (22528#32).toNat + 11264 ≤ 78848; decide) (hprev k)
theorem pay11_lt (v87 : FVec F S4x20000 .f32) (prev : IVec S1x20000 32) (p : Vec F S1x3x4 .f32) (a b : Elt F .f32)
    (hprev : ∀ k, (prev k).toNat < 78848) (k : S1x20000.Idx) : (k1_pay11 v87 prev p a b k).toNat < 78848 :=
  cam_lt _ _ _ _ _ (by show (33792#32).toNat + 11264 ≤ 78848; decide) (hprev k)
theorem pay12_lt (v87 : FVec F S4x20000 .f32) (prev : IVec S1x20000 32) (p : Vec F S1x3x4 .f32) (a b : Elt F .f32)
    (hprev : ∀ k, (prev k).toNat < 78848) (k : S1x20000.Idx) : (k1_pay12 v87 prev p a b k).toNat < 78848 :=
  cam_lt _ _ _ _ _ (by show (45056#32).toNat + 11264 ≤ 78848; decide) (hprev k)
theorem pay13_lt (v87 : FVec F S4x20000 .f32) (prev : IVec S1x20000 32) (p : Vec F S1x3x4 .f32) (a b : Elt F .f32)
    (hprev : ∀ k, (prev k).toNat < 78848) (k : S1x20000.Idx) : (k1_pay13 v87 prev p a b k).toNat < 78848 :=
  cam_lt _ _ _ _ _ (by show (56320#32).toNat + 11264 ≤ 78848; decide) (hprev k)

/-- So after the six cameras every lane's address is below 78848. -/
theorem addrVec_lt (i : grid1.Coords) (x0 : Vec F S3x3 .f32) (x1 : Vec F S6x3x4 .f32) (x2 : Vec F S15 .f32) (k : S1x20000.Idx) :
    (addrVec i x0 x1 x2 k).toNat < 78848 := by
  unfold addrVec
  exact pay13_lt _ _ _ _ _ (pay12_lt _ _ _ _ _ (pay11_lt _ _ _ _ _ (pay10_lt _ _ _ _ _ (pay9_lt _ _ _ _ _ (pay8_lt _ _ _ _))))) k

theorem hzOut : (![0, 0, 0] : Fin 3 → Nat) = fun _ => 0 := funext fun a => by fin_cases a <;> rfl

/-- The output block after the body IS the addresses recast: its one store covers it. -/
theorem out1_3_eq (i : grid1.Coords) (x0 : Vec F S3x3 .f32) (x1 : Vec F S6x3x4 .f32) (x2 : Vec F S15 .f32) :
    out1_3 i x0 x1 x2 = k1_pay1 (addrVec i x0 x1 x2) := by
  unfold out1_3
  exact View.canon_unit_zero (S := S1x1x20000) hzOut _ _

/-- Every element of the output block is below 78848: the recast only renames the lanes. -/
theorem out1_3_lt (i : grid1.Coords) (x0 : Vec F S3x3 .f32) (x1 : Vec F S6x3x4 .f32) (x2 : Vec F S15 .f32) (y : S1x1x20000.Idx) :
    BitVec.toNat (w := 32) (out1_3 i x0 x1 x2 y) < 78848 := by
  rw [out1_3_eq]
  exact addrVec_lt i x0 x1 x2 _

/-! ## From the blocks to the array -/

/-- The output window's block index at point `t` is `(t, 0, 0)`, decided over the grid. -/
theorem idx_facts3 : ∀ t : Fin cfg1.N, win1_3.index t (0 : Fin 3) = t.val ∧ win1_3.index t (1 : Fin 3) = 0 ∧ win1_3.index t (2 : Fin 3) = 0 :=
  (by decide +kernel : ∀ t : Fin grid1.N, _)

/-- An index of the array is in point `t`'s block iff each coordinate is in the block's range on its axis. -/
theorem mem_blk3 (t : Fin cfg1.N) (i : S8x1x20000.Idx) :
    i ∈ ((cfg1.win 3).blk t).view.set ↔ ∀ a : Fin 3, win1_3.index t a * S1x1x20000.size a ≤ (i a).val ∧ (i a).val < win1_3.index t a * S1x1x20000.size a + S1x1x20000.size a := by
  show i ∈ ((View.whole main_v22).slice (win1_3.rect t)).set ↔ _
  rw [View.set_slice_whole, Rect.mem_set_unit]
  exact Iff.rfl

/-- The grid point that writes row `j 0` of the address array. -/
def ptOf (j : S8x1x20000.Idx) : Fin cfg1.N := ⟨(j 0).val, by rw [show cfg1.N = 8 from N_1]; exact (j 0).isLt⟩

/-- Row `j 0` is in its point's block: the eight blocks tile the array. -/
theorem mem_ptOf (j : S8x1x20000.Idx) : j ∈ ((cfg1.win 3).blk (ptOf j)).view.set := by
  rw [mem_blk3]
  obtain ⟨e0, e1, e2⟩ := idx_facts3 (ptOf j)
  intro a
  match a with
  | ⟨0, _⟩ => show win1_3.index (ptOf j) (0 : Fin 3) * 1 ≤ (j 0).val ∧ (j 0).val < win1_3.index (ptOf j) (0 : Fin 3) * 1 + 1; rw [e0]; show (j 0).val * 1 ≤ (j 0).val ∧ (j 0).val < (j 0).val * 1 + 1; omega
  | ⟨1, _⟩ => show win1_3.index (ptOf j) (1 : Fin 3) * 1 ≤ (j 1).val ∧ (j 1).val < win1_3.index (ptOf j) (1 : Fin 3) * 1 + 1; rw [e1]; have : (j 1).val < 1 := (j 1).isLt; omega
  | ⟨2, _⟩ => show win1_3.index (ptOf j) (2 : Fin 3) * 20000 ≤ (j 2).val ∧ (j 2).val < win1_3.index (ptOf j) (2 : Fin 3) * 20000 + 20000; rw [e2]; have : (j 2).val < 20000 := (j 2).isLt; omega

/-- Every index of the address array is in some flushing point's block. -/
theorem cover3 (j : S8x1x20000.Idx) : ∃ t : Fin cfg1.N, (cfg1.win 3).flush t = true ∧ j ∈ ((cfg1.win 3).blk t).view.set :=
  ⟨ptOf j, flush1_3 _, mem_ptOf j⟩

/-- EVERY ADDRESS NAMES A ROW OF THE TABLE: after the region every element of the address array, as a natural number, is
    below 78848 — at any float instance: whichever point wrote it last wrote a value its camera guards bound. -/
theorem addr_lt (c : Dev nD) (j : S8x1x20000.Idx) : BitVec.toNat (w := 32) ((dat1 V O Rc c).arrAt 3 cfg1.N j) < 78848 := by
  refine (dat1 V O Rc c).arrAt_forall_of_cover 3 (fun _ v => BitVec.toNat (w := 32) v < 78848) ?_ cover3 j
  intro t _ y
  show BitVec.toNat (w := 32) (_root_.cast _ ((dat1 V O Rc c).after 3 t ((cfg1.win 3).xinj (cfg1.grid.coords t) y))) < 78848
  rw [cast_eq, after1_3]
  exact out1_3_lt _ _ _ _ _

/-! ## The value, second part: the address array as one function of the three arrays the region reads -/

/-- The input windows' block indices are zero at every point, decided over the grid, -/
theorem idx_facts0 : ∀ t : Fin cfg1.N, win1_0.index t (0 : Fin 2) = 0 ∧ win1_0.index t (1 : Fin 2) = 0 :=
  (by decide +kernel : ∀ t : Fin grid1.N, _)
theorem idx_facts1 : ∀ t : Fin cfg1.N, win1_1.index t (0 : Fin 3) = 0 ∧ win1_1.index t (1 : Fin 3) = 0 ∧ win1_1.index t (2 : Fin 3) = 0 :=
  (by decide +kernel : ∀ t : Fin grid1.N, _)
theorem idx_facts2 : ∀ t : Fin cfg1.N, win1_2.index t (0 : Fin 1) = 0 :=
  (by decide +kernel : ∀ t : Fin grid1.N, _)

/-- so each input window's block IS its array, at every point: the rotation, -/
theorem iblk1_0 (c : Dev nD) (t : Fin cfg1.N) : (iblk1 V c 0 t : Vec F S3x3 .f32) = V c main_v7 := by
  obtain ⟨e0, e1⟩ := idx_facts0 t
  funext x
  show V c main_v7 (((cfg1.win 0).blk t).view.emb x) = V c main_v7 x
  congr 1
  funext a; apply Fin.ext
  match a with
  | ⟨0, _⟩ => show win1_0.index t (0 : Fin 2) * 3 + 1 * (x 0).val = (x 0).val; omega
  | ⟨1, _⟩ => show win1_0.index t (1 : Fin 2) * 3 + 1 * (x 1).val = (x 1).val; omega
/-- the six projections, -/
theorem iblk1_1 (c : Dev nD) (t : Fin cfg1.N) : (iblk1 V c 1 t : Vec F S6x3x4 .f32) = V c main_v18 := by
  obtain ⟨e0, e1, e2⟩ := idx_facts1 t
  funext x
  show V c main_v18 (((cfg1.win 1).blk t).view.emb x) = V c main_v18 x
  congr 1
  funext a; apply Fin.ext
  match a with
  | ⟨0, _⟩ => show win1_1.index t (0 : Fin 3) * 6 + 1 * (x 0).val = (x 0).val; omega
  | ⟨1, _⟩ => show win1_1.index t (1 : Fin 3) * 3 + 1 * (x 1).val = (x 1).val; omega
  | ⟨2, _⟩ => show win1_1.index t (2 : Fin 3) * 4 + 1 * (x 2).val = (x 2).val; omega
/-- the fifteen offsets. -/
theorem iblk1_2 (c : Dev nD) (t : Fin cfg1.N) : (iblk1 V c 2 t : Vec F S15 .f32) = V c main_v21 := by
  have e0 := idx_facts2 t
  funext x
  show V c main_v21 (((cfg1.win 2).blk t).view.emb x) = V c main_v21 x
  congr 1
  funext a; apply Fin.ext
  match a with
  | ⟨0, _⟩ => show win1_2.index t (0 : Fin 1) * 15 + 1 * (x 0).val = (x 0).val; omega

/-- THE ADDRESS ARRAY as one function of the rotation `rm`, the projections `proj` and the offsets `par`: row `j 0` is what
    grid point `j 0` stores, the cameras' chain at that point read at lane `j 2`. -/
def addrOf (rm : Vec F S3x3 .f32) (proj : Vec F S6x3x4 .f32) (par : Vec F S15 .f32) : IVec S8x1x20000 32 :=
  fun j => out1_3 (grid1.coords (ptOf j)) rm proj par (ix3 (0 : Fin 1) (0 : Fin 1) (j 2))

/-- `addrOf` under point `t`'s block: at the array index of the block's element `y` it is what point `t` stores at `y` — the
    index's row is `t` and its lane is `y`'s. -/
theorem addrOf_emb (rm : Vec F S3x3 .f32) (proj : Vec F S6x3x4 .f32) (par : Vec F S15 .f32) (t : Fin cfg1.N)
    (y : ((cfg1.win 3).xblock (cfg1.grid.coords t)).Idx) :
    addrOf rm proj par (((cfg1.win 3).blk t).view.emb y) = out1_3 (grid1.coords t) rm proj par ((cfg1.win 3).xinj (grid1.coords t) y) := by
  obtain ⟨e0, e1, e2⟩ := idx_facts3 t
  have hp : ptOf (((cfg1.win 3).blk t).view.emb y) = t := by
    apply Fin.ext
    show win1_3.index t (0 : Fin 3) * 1 + 1 * (y 0).val = t.val
    have : (y 0).val < 1 := (y 0).isLt
    omega
  have hl : (ix3 (0 : Fin 1) (0 : Fin 1) ((((cfg1.win 3).blk t).view.emb y) 2) : S1x1x20000.Idx) = (cfg1.win 3).xinj (grid1.coords t) y := by
    funext a; apply Fin.ext
    match a with
    | ⟨0, _⟩ => show 0 = (y 0).val; have : (y 0).val < 1 := (y 0).isLt; omega
    | ⟨1, _⟩ => show 0 = (y 1).val; have : (y 1).val < 1 := (y 1).isLt; omega
    | ⟨2, _⟩ => show win1_3.index t (2 : Fin 3) * 20000 + 1 * (y 2).val = (y 2).val; omega
  unfold addrOf
  rw [hp, hl]

/-- WHAT POINT `t` WRITES BACK is block `t` of `addrOf` of the three arrays as the region finds them. -/
theorem flushed3_eq (c : Dev nD) (t : Fin cfg1.N) :
    (dat1 V O Rc c).flushed 3 t = ((cfg1.win 3).blk t).view.read (Elt F) (addrOf (V c main_v7) (V c main_v18) (V c main_v21)) := by
  show (cfg1.win 3).cut (grid1.coords t) ((dat1 V O Rc c).after 3 t) = _
  rw [after1_3, iblk1_0, iblk1_1, iblk1_2]
  funext y
  rw [View.read_apply, cast_eq, addrOf_emb]

/-- THE ARRAY after the region: `addrOf` of the three arrays — the eight blocks tile it. -/
theorem addr_eq (c : Dev nD) : (dat1 V O Rc c).arrAt 3 cfg1.N = addrOf (V c main_v7) (V c main_v18) (V c main_v21) :=
  (dat1 V O Rc c).arrAt_eq_of_cover 3 _ (fun t _ => flushed3_eq V O Rc c t) cover3

/-- A row of the address array at a lane: the cameras' chain at the row's grid point, read at that lane (the recast of
    the store only adds a unit axis). -/
theorem addrOf_apply (rm : Vec F S3x3 .f32) (proj : Vec F S6x3x4 .f32) (par : Vec F S15 .f32) (j : S8x1x20000.Idx) :
    addrOf rm proj par j = addrVec (grid1.coords (ptOf j)) rm proj par (ix2 (0 : Fin 1) (j 2)) := by
  show out1_3 (grid1.coords (ptOf j)) rm proj par (ix3 (0 : Fin 1) (0 : Fin 1) (j 2)) = _
  rw [out1_3_eq]
  unfold k1_pay1
  refine (shapeCast_addUnit_apply ![1, 20000] _ _ _).trans ?_
  congr 1
  funext a
  match a with
  | ⟨0, _⟩ => rfl
  | ⟨1, _⟩ => rfl

end Region

end Cert.Proof.KI.R1

end
-- ==== Proof.Region3.lean ====
/-
  The batch statistics: the third pipelined region of the program.

  The region walks the rows of x : f32[40000, 80] in eight blocks of 5000 rows and keeps ONE [2, 80] block in its
  staging buffer through all eight points: row 0 the running column sums, row 1 the running column sums of
  squares. The first point stores the block's two reductions; every later point loads both rows, adds the
  block's reductions and stores them back; the last point then turns the two totals into the column means
  (total / 40000, row 0) and the column deviations sqrt(total of squares / 40000 - mean * mean + epsilon) (row 1).
  The block is written back to its array once, after the last point.

  So the region has three control cases over the grid coordinate i — i = 0 (the reset), 0 < i < 7 (the update),
  i = 7 (the update, then the finish) — and the contents of the output's buffer after a point are defined by
  recursion on the point: the case the coordinate selects, run on the input block of the point and on what the
  point before left. The body's triple is proved once per case; the proof data, the facts about what each
  window's buffer holds when the body runs, and the body obligation follow; the value — the buffer after
  the last point as a function of the array alone, and at the ideal floats the mean and the deviation of every
  column — is read off these in the sibling module Region3Value.

  Everything is generic in the float instance and stated at a parameter: the buffer contents `V` the region is
  entered with, and the tallies `O` the core owes then (the body passes them through unread).
-/
import proofs.«207241_g55714315764006_cont_9to1c4b_410_29_alg».proof.Proof.SetupKI
import proofs.«207241_g55714315764006_cont_9to1c4b_410_29_alg».proof.Proof.Gen.KernelIdeal.Launch
import proofs.«207241_g55714315764006_cont_9to1c4b_410_29_alg».proof.Proof.Gen.KernelIdeal.Skeleton
import proofs.«207241_g55714315764006_cont_9to1c4b_410_29_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.KI.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ Cert.Proof.KI.UU ℕ

/-! ## The three control cases, in closed form over the grid -/

/-- The reset's condition holds at the first point only; -/
theorem hcond3_1 : ∀ t : Fin cfg3.N, k3_cond1 (grid3.coords t) = 1#1 ↔ t.val = 0 :=
  (by decide +kernel : ∀ t : Fin grid3.N, k3_cond1 (grid3.coords t) = 1#1 ↔ t.val = 0)
/-- the update's at every later point; -/
theorem hcond3_2 : ∀ t : Fin cfg3.N, k3_cond2 (grid3.coords t) = 1#1 ↔ t.val ≠ 0 :=
  (by decide +kernel : ∀ t : Fin grid3.N, k3_cond2 (grid3.coords t) = 1#1 ↔ t.val ≠ 0)
/-- the finish's at the last point only. -/
theorem hcond3_3 : ∀ t : Fin cfg3.N, k3_cond3 (grid3.coords t) = 1#1 ↔ t.val = 7 :=
  (by decide +kernel : ∀ t : Fin grid3.N, k3_cond3 (grid3.coords t) = 1#1 ↔ t.val = 7)
/-- So at every point the body stores into the output's buffer: the window is idle nowhere. -/
theorem hlive3_1 : ∀ i : grid3.Coords, cfg3.idle 1 i = false := by decide +kernel

/-! ## The staging memrefs at a point -/

/-- One staging buffer of the output window, through which its contents are stated (the choice does not matter). -/
abbrev VO3_1 : View sig .tc .vmem S2x80 .f32 := (Memref.whole cc3_stg1_0 : Memref sig .tc .vmem S2x80 .f32).view
/-- Each window's current staging memref at point `t`, and its wholeness. -/
abbrev ms3_0 (t : Fin cfg3.N) : Memref sig .tc .vmem S5000x80 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2x80 .f32 := win3_1.stage (cfg3.slots t 1)
abbrev hs3_1 (t : Fin cfg3.N) : (ms3_1 t).IsWhole := hstage3_1 ((cfg3.slots t 1).cast nbuf3_1)

/-! ## The body's triple, case by case

Each case is a subtype: the list of pieces the body's stores leave in the output's buffer (last first), with the
proof that on whole staging memrefs — the input's at its contents, the output's at what the case needs of it — the
body runs to the continuation holding the input's as it was and the output's with those pieces written. -/

set_option maxHeartbeats 1000000 in
/-- THE RESET (i = 0). The output's buffer may hold anything: both rows are stored whole; what the body loads of it
    before is not used. -/
noncomputable def kernelRun3_A (c : Dev nD) (i : grid3.Coords) (arg1 : Memref sig .tc .vmem S5000x80 .f32) (harg1 : arg1.IsWhole)
    (arg2 : Memref sig .tc .vmem S2x80 .f32) (harg2 : arg2.IsWhole)
    (hc1 : k3_cond1 i = 1#1) (hc2 : ¬k3_cond2 i = 1#1) (hc3 : ¬k3_cond3 i = 1#1) (x0 : Vec F S5000x80 .f32) :
    { L1 : List (View.Piece (Elt F) S2x80 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc3__stats_body i arg1 harg1 arg2 harg2) K } := by
  refine ⟨?_, fun E K => ?run⟩
  case run =>
    simp only [cc3__stats_body_eq_skeleton]; unfold cc3__stats_body_skel
    unfold owns
    iintro ⟨⟨%f0, %hf0, H0⟩, ⟨%d1, %f1, -, H1⟩, Hk⟩
    obtain rfl := harg1.eq_unread hf0
    sl_exec (disch := first | exact hc1 | exact hc2 | exact hc3)
    sl_step
    iapply Hk
    isplitl [H0]
    · iexists _; isplitr; · ipureintro; exact harg1.read_unread _
      iexact H0
    iexists _; iexact H1

set_option maxHeartbeats 1000000 in
/-- THE UPDATE (0 < i < 7). The output's buffer holds the running block `xo`: each row is loaded, the input block's
    reduction added, the row stored back. -/
noncomputable def kernelRun3_B (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : ¬k3_cond3 i = 1#1) (x0 : Vec F S5000x80 .f32) (xo1 : Vec F S2x80 .f32) :
    { L1 : List (View.Piece (Elt F) S2x80 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc3__stats_body i arg1 harg1 arg2 harg2) K } := by
  refine ⟨?_, fun E K => ?run⟩
  case run =>
    simp only [cc3__stats_body_eq_skeleton]; unfold cc3__stats_body_skel
    unfold owns
    iintro ⟨⟨%f0, %hf0, H0⟩, ⟨%f1, %hf1, H1⟩, Hk⟩
    obtain rfl := harg1.eq_unread hf0; obtain rfl := harg2.eq_unread hf1
    sl_exec (disch := first | exact hc1 | exact hc2 | exact hc3)
    sl_step
    iapply Hk
    isplitl [H0]
    · iexists _; isplitr; · ipureintro; exact harg1.read_unread _
      iexact H0
    iexists _; iexact H1

set_option maxHeartbeats 1000000 in
/-- THE LAST POINT (i = 7): the update, then the finish — both totals loaded back, the mean stored into row 0 and
    the deviation into row 1. -/
noncomputable def kernelRun3_C (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : k3_cond3 i = 1#1) (x0 : Vec F S5000x80 .f32) (xo1 : Vec F S2x80 .f32) :
    { L1 : List (View.Piece (Elt F) S2x80 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc3__stats_body i arg1 harg1 arg2 harg2) K } := by
  refine ⟨?_, fun E K => ?run⟩
  case run =>
    simp only [cc3__stats_body_eq_skeleton]; unfold cc3__stats_body_skel
    unfold owns
    iintro ⟨⟨%f0, %hf0, H0⟩, ⟨%f1, %hf1, H1⟩, Hk⟩
    obtain rfl := harg1.eq_unread hf0; obtain rfl := harg2.eq_unread hf1
    sl_exec (disch := first | exact hc1 | exact hc2 | exact hc3)
    sl_step
    iapply Hk
    isplitl [H0]
    · iexists _; isplitr; · ipureintro; exact harg1.read_unread _
      iexact H0
    iexists _; iexact H1

/-! ## What each case leaves in the output's buffer -/

/-- The reset's pieces are the two rows: they cover the block. -/
theorem cover3_A_1 (c : Dev nD) (i : grid3.Coords) (arg1 : Memref sig .tc .vmem S5000x80 .f32) (harg1 : arg1.IsWhole)
    (arg2 : Memref sig .tc .vmem S2x80 .f32) (harg2 : arg2.IsWhole)
    (hc1 : k3_cond1 i = 1#1) (hc2 : ¬k3_cond2 i = 1#1) (hc3 : ¬k3_cond3 i = 1#1) (x0 : Vec F S5000x80 .f32) (y : S2x80.Idx) :
    ∃ pc ∈ (kernelRun3_A c i arg1 harg1 arg2 harg2 hc1 hc2 hc3 x0).1, y ∈ pc.1.set :=
  View.cover_of_tiledL (kernelRun3_A c i arg1 harg1 arg2 harg2 hc1 hc2 hc3 x0).1 S1x80.size (by sl_kernel_rfl) y

/-- What the reset leaves: its pieces read back over junk. -/
def out3_A_1 (c : Dev nD) (i : grid3.Coords) (arg1 : Memref sig .tc .vmem S5000x80 .f32) (harg1 : arg1.IsWhole)
    (arg2 : Memref sig .tc .vmem S2x80 .f32) (harg2 : arg2.IsWhole)
    (hc1 : k3_cond1 i = 1#1) (hc2 : ¬k3_cond2 i = 1#1) (hc3 : ¬k3_cond3 i = 1#1) (x0 : Vec F S5000x80 .f32) : Vec F S2x80 .f32 :=
  VO3_1.read (Elt F) (VO3_1.writes (Elt F) VO3_1.junk (kernelRun3_A c i arg1 harg1 arg2 harg2 hc1 hc2 hc3 x0).1)

/-- The update's pieces are the two rows: they cover the block. -/
theorem cover3_B_1 (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : ¬k3_cond3 i = 1#1) (x0 : Vec F S5000x80 .f32) (xo1 : Vec F S2x80 .f32) (y : S2x80.Idx) :
    ∃ pc ∈ (kernelRun3_B c i arg1 harg1 arg2 harg2 hc1 hc2 hc3 x0 xo1).1, y ∈ pc.1.set :=
  View.cover_of_tiledL (kernelRun3_B c i arg1 harg1 arg2 harg2 hc1 hc2 hc3 x0 xo1).1 S1x80.size (by sl_kernel_rfl) y

/-- What the update leaves. -/
def out3_B_1 (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : ¬k3_cond3 i = 1#1) (x0 : Vec F S5000x80 .f32) (xo1 : Vec F S2x80 .f32) : Vec F S2x80 .f32 :=
  VO3_1.read (Elt F) (VO3_1.writes (Elt F) VO3_1.junk (kernelRun3_B c i arg1 harg1 arg2 harg2 hc1 hc2 hc3 x0 xo1).1)

/-- The last point's pieces (each row stored twice) cover the block. -/
theorem cover3_C_1 (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : k3_cond3 i = 1#1) (x0 : Vec F S5000x80 .f32) (xo1 : Vec F S2x80 .f32) (y : S2x80.Idx) :
    ∃ pc ∈ (kernelRun3_C c i arg1 harg1 arg2 harg2 hc1 hc2 hc3 x0 xo1).1, y ∈ pc.1.set :=
  View.cover_of_tiledL (kernelRun3_C c i arg1 harg1 arg2 harg2 hc1 hc2 hc3 x0 xo1).1 S1x80.size (by sl_kernel_rfl) y

/-- What the last point leaves. -/
def out3_C_1 (c : Dev nD) (i : grid3.Coords) (arg1 : Memref sig .tc .vmem S5000x80 .f32) (harg1 : arg1.IsWhole)
    (arg2 : Memref sig .tc .vmem S2x80 .f32) (harg2 : arg2.IsWhole)
    (hc1 : ¬k3_cond1 i = 1#1) (hc2 : k3_cond2 i = 1#1) (hc3 : k3_cond3 i = 1#1) (x0 : Vec F S5000x80 .f32) (xo1 : Vec F S2x80 .f32) : Vec F S2x80 .f32 :=
  VO3_1.read (Elt F) (VO3_1.writes (Elt F) VO3_1.junk (kernelRun3_C c i arg1 harg1 arg2 harg2 hc1 hc2 hc3 x0 xo1).1)

section Region
-- the TensorCore's buffer contents when the region is entered, the tallies the core owes then and the bound on the pairs
-- its waits have recorded: the parameters the region's half of the proof is stated at (the body passes the last two through)
variable (V : (c : Dev nD) → (b : Ref sig .tc) → Buf (Elt F) ((c : Thread nD τ).loc b))
variable (O : CellTallies nD τ sig (HIx 1))
variable (Rc : Set (SemLoc sig × HIx 1))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for ANY proof data whose array is
    `V`'s and whose body leaves the block in place: the window is fetched at every point, uncut and never idle. -/
theorem before3_0_of {c : Dev nD} (dat : Dat τ (Elt F) (HIx 1) ℕ Cert.Proof.KI.UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The invariant -/

/-- What the body may use and need not describe, the same before and after every point: the TensorCore's scoped
    buffers that are no staging buffer of this pipeline, each at some contents, and the generator register at some state. -/
def Φ3 (c : Dev nD) : sProp 𝕄 :=
  iprop(Pipeline.scopedRest (Ix := HIx 1) (Name := ℕ) (U := Cert.Proof.KI.UU) (Lvl := ℕ) (Val := Elt F) spec3 c ∗ ∃ r, prngReg c r)

/-! ## What the output's buffer holds after each point -/

/-- THE ACCUMULATION. What the output's staging buffer holds after the body at position `n`: the case the
    coordinate selects there, run at the point's memrefs and input block — the reset at the first point, else the
    update (at the last point followed by the finish) over what this leaves at `n - 1`: the buffer is not written
    back between. -/
def outsAt3 (c : Dev nD) : (n : ℕ) → n < cfg3.N → Vec F S2x80 .f32
  | 0, hn => out3_A_1 c (grid3.coords ⟨0, hn⟩) (ms3_0 ⟨0, hn⟩) (hs3_0 ⟨0, hn⟩) (ms3_1 ⟨0, hn⟩) (hs3_1 ⟨0, hn⟩)
      ((hcond3_1 ⟨0, hn⟩).mpr rfl) (fun h => (hcond3_2 ⟨0, hn⟩).mp h rfl) (fun h => absurd ((hcond3_3 ⟨0, hn⟩).mp h) (show (0 : ℕ) ≠ 7 by decide))
      (iblk3 V c 0 ⟨0, hn⟩)
  | n + 1, hn =>
    if h7 : n + 1 = 7 then
      out3_C_1 c (grid3.coords ⟨n + 1, hn⟩) (ms3_0 ⟨n + 1, hn⟩) (hs3_0 ⟨n + 1, hn⟩) (ms3_1 ⟨n + 1, hn⟩) (hs3_1 ⟨n + 1, hn⟩)
        (fun h => Nat.succ_ne_zero n ((hcond3_1 ⟨n + 1, hn⟩).mp h)) ((hcond3_2 ⟨n + 1, hn⟩).mpr (Nat.succ_ne_zero n)) ((hcond3_3 ⟨n + 1, hn⟩).mpr h7)
        (iblk3 V c 0 ⟨n + 1, hn⟩) (outsAt3 c n (Nat.lt_of_succ_lt hn))
    else
      out3_B_1 c (grid3.coords ⟨n + 1, hn⟩) (ms3_0 ⟨n + 1, hn⟩) (hs3_0 ⟨n + 1, hn⟩) (ms3_1 ⟨n + 1, hn⟩) (hs3_1 ⟨n + 1, hn⟩)
        (fun h => Nat.succ_ne_zero n ((hcond3_1 ⟨n + 1, hn⟩).mp h)) ((hcond3_2 ⟨n + 1, hn⟩).mpr (Nat.succ_ne_zero n)) (fun h => h7 ((hcond3_3 ⟨n + 1, hn⟩).mp h))
        (iblk3 V c 0 ⟨n + 1, hn⟩) (outsAt3 c n (Nat.lt_of_succ_lt hn))

/-- `outsAt3` at the first point: the reset's contents. -/
theorem outsAt3_A (c : Dev nD) (t : Fin cfg3.N) (h0 : t.val = 0) :
    outsAt3 V c t.val t.isLt = out3_A_1 c (grid3.coords t) (ms3_0 t) (hs3_0 t) (ms3_1 t) (hs3_1 t)
      ((hcond3_1 t).mpr h0) (fun h => (hcond3_2 t).mp h h0) (fun h => by have := (hcond3_3 t).mp h; omega) (iblk3 V c 0 t) := by
  obtain ⟨n, hn⟩ := t
  cases n with
  | zero => exact rfl
  | succ n => exact absurd h0 (Nat.succ_ne_zero n)

/-- `outsAt3` at a point strictly between the first and the last: the update's contents, over what the point before left. -/
theorem outsAt3_B (c : Dev nD) (t : Fin cfg3.N) (h0 : t.val ≠ 0) (h7 : t.val ≠ 7) :
    outsAt3 V c t.val t.isLt = out3_B_1 c (grid3.coords t) (ms3_0 t) (hs3_0 t) (ms3_1 t) (hs3_1 t)
      (fun h => h0 ((hcond3_1 t).mp h)) ((hcond3_2 t).mpr h0) (fun h => h7 ((hcond3_3 t).mp h)) (iblk3 V c 0 t)
      (outsAt3 V c (t.val - 1) (Nat.lt_of_le_of_lt (Nat.sub_le _ _) t.isLt)) := by
  obtain ⟨n, hn⟩ := t
  cases n with
  | zero => exact absurd rfl h0
  | succ n => exact (dif_neg h7).trans rfl

/-- `outsAt3` at the last point: the last case's contents, over what the point before left. -/
theorem outsAt3_C (c : Dev nD) (t : Fin cfg3.N) (h7 : t.val = 7) :
    outsAt3 V c t.val t.isLt = out3_C_1 c (grid3.coords t) (ms3_0 t) (hs3_0 t) (ms3_1 t) (hs3_1 t)
      (fun h => by have := (hcond3_1 t).mp h; omega) ((hcond3_2 t).mpr (by omega)) ((hcond3_3 t).mpr h7) (iblk3 V c 0 t)
      (outsAt3 V c (t.val - 1) (Nat.lt_of_le_of_lt (Nat.sub_le _ _) t.isLt)) := by
  obtain ⟨n, hn⟩ := t
  cases n with
  | zero => exact absurd h7 (show (0 : ℕ) ≠ 7 by decide)
  | succ n => exact (dif_pos h7).trans rfl

/-! ## The pipeline's proof data -/

/-- The proof data of the pipeline on core `c`: the arrays as the region finds them (`V`); after the body at point `t`
    the input's buffer at its block and the output's at `outsAt3`; the invariant `Φ3`, untouched; the core owing throughout what it owed at entry (`O`); full shares. -/
def dat3 (c : Dev nD) : Dat τ (Elt F) (HIx 1) ℕ Cert.Proof.KI.UU ℕ cfg3 c where
  A w := V c (Pipeline.arrRef spec3 w)
  after w t := match w with
    | ⟨0, _⟩ => iblk3 V c 0 t
    | ⟨1, _⟩ => (outsAt3 V c t.val t.isLt)
  Φ _ := Φ3 c
  q _ := fullShare
  owed _ := O
  recorded _ := Rc

/-- The proof data's arrays are the region-entry contents. -/
theorem A_eq3 (c : Dev nD) (w : Fin cfg3.W) : (dat3 V O Rc c).A w = V c (Pipeline.arrRef spec3 w) := by
  dsimp only [dat3]

/-- What the body leaves, window by window. -/
theorem after3_0 (c : Dev nD) (t : Fin cfg3.N) : (dat3 V O Rc c).after 0 t = iblk3 V c 0 t := by dsimp only [dat3]
theorem after3_1 (c : Dev nD) (t : Fin cfg3.N) : (dat3 V O Rc c).after 1 t = (outsAt3 V c t.val t.isLt) := by dsimp only [dat3]

/-- The input's current staging buffer holds its block at every point. -/
theorem before3_0 (c : Dev nD) (t : Fin cfg3.N) (d) : (dat3 V O Rc c).before 0 t d = iblk3 V c 0 t :=
  before3_0_of V (dat3 V O Rc c) (A_eq3 V O Rc c 0) (after3_0 V O Rc c) t d

/-- At every point but the first the output's current staging buffer holds what the body left at the point before:
    the buffer was not written back between (only the last point writes back), the window is live and uncut. -/
theorem before3_1 (c : Dev nD) (t : Fin cfg3.N) (h0 : t.val ≠ 0) (d) :
    (dat3 V O Rc c).before 1 t d = (outsAt3 V c (t.val - 1) (Nat.lt_of_le_of_lt (Nat.sub_le _ _) t.isLt)) := by
  have hN : t.val < 8 := lt_of_lt_of_eq t.isLt (show cfg3.N = 8 from N_3)
  rw [Dat.before_out_kept _ 1 rfl t h0 (Bool.eq_false_iff.mpr fun h => by have := (flush3_1 _).mp h; dsimp only at this; omega)
    hlive3_1 (fun _ _ => rfl)]
  dsimp only [dat3]

/-! ## The body obligation, at a generic point -/

/-- What the body is called with at point `t`, the windows one by one, -/
def bodyPre3 (c : Dev nD) (t : Fin cfg3.N) : sProp 𝕄 :=
  iprop((dat3 V O Rc c).Φ t.castSucc ∗ (dat3 V O Rc c).owesAt (none : HIx 1) t.castSucc
    ∗ (∃ d, owns (c : Thread nD τ) (ms3_0 t) fullShare ((dat3 V O Rc c).before 0 t d))
    ∗ (∃ d, owns (c : Thread nD τ) (ms3_1 t) fullShare ((dat3 V O Rc c).before 1 t d)))

/-- and what it returns. -/
def bodyPost3 (c : Dev nD) (t : Fin cfg3.N) : sProp 𝕄 :=
  iprop((dat3 V O Rc c).Φ t.succ ∗ (dat3 V O Rc c).owesAt (none : HIx 1) t.succ
    ∗ owns (c : Thread nD τ) (ms3_0 t) fullShare ((dat3 V O Rc c).after 0 t)
    ∗ owns (c : Thread nD τ) (ms3_1 t) fullShare ((dat3 V O Rc c).after 1 t))

set_option maxHeartbeats 800000 in
/-- The body at any point: the input's memref holds its block; the closed forms say which case the point is in; past
    the first point the output's memref holds what the point before left; so that case's run applies; the invariant
    and what the core owes pass through unread. -/
theorem sound_body3 (c : Dev nD) (t : Fin cfg3.N) :
    bodyPre3 V O Rc c t ⊢ wp frame (wpE (defs₀ (F := F)) Variants.none c none) Set.univ (bodyAt3 t) (fun _ => bodyPost3 V O Rc c t) := by
  unfold bodyPre3 bodyPost3 bodyAt3
  simp only [before3_0]
  rw [show (dat3 V O Rc c).Φ t.succ = (dat3 V O Rc c).Φ t.castSucc from rfl,
    show (dat3 V O Rc c).owesAt (none : HIx 1) t.succ = (dat3 V O Rc c).owesAt (none : HIx 1) t.castSucc from rfl,
    after3_0, after3_1]
  have hN : t.val < 8 := lt_of_lt_of_eq t.isLt (show cfg3.N = 8 from N_3)
  by_cases h0 : t.val = 0
  · rw [outsAt3_A V c t h0]
    unfold out3_A_1
    iintro ⟨HΦ, Ho, ⟨%d0, H0⟩, ⟨%d1, H1⟩⟩
    iapply ((kernelRun3_A c (grid3.coords t) _ _ _ _ ((hcond3_1 t).mpr h0) (fun h => (hcond3_2 t).mp h h0)
      (fun h => by have := (hcond3_3 t).mp h; omega) (iblk3 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover3_A_1 c _ _ _ _ _ _ _ _ _)
  · by_cases h7 : t.val = 7
    · rw [outsAt3_C V c t h7]
      simp only [before3_1 V O Rc c t h0]
      unfold out3_C_1
      iintro ⟨HΦ, Ho, ⟨%d0, H0⟩, ⟨%d1, H1⟩⟩
      iapply ((kernelRun3_C c (grid3.coords t) _ _ _ _ (fun h => by have := (hcond3_1 t).mp h; omega) ((hcond3_2 t).mpr (by omega))
        ((hcond3_3 t).mpr h7) (iblk3 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover3_C_1 c _ _ _ _ _ _ _ _ _ _)
    · rw [outsAt3_B V c t h0 h7]
      simp only [before3_1 V O Rc c t h0]
      unfold out3_B_1
      iintro ⟨HΦ, Ho, ⟨%d0, H0⟩, ⟨%d1, H1⟩⟩
      iapply ((kernelRun3_B c (grid3.coords t) _ _ _ _ (fun h => h0 ((hcond3_1 t).mp h)) ((hcond3_2 t).mpr h0)
        (fun h => h7 ((hcond3_3 t).mp h)) (iblk3 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover3_B_1 c _ _ _ _ _ _ _ _ _ _)

set_option maxHeartbeats 1600000 in
/-- The library's body obligation, at every point: the output window is idle nowhere (`hlive3_1`), so the obligation's
    post for it is the plain one. -/
theorem body_obligation3 (c : Dev nD) :
    BodyObligation (dat3 (F := F) V O Rc c) (defs₀ (F := F)) Variants.none (none : HIx 1) Set.univ := fun t => by
  rw [bigSep_W3, bigSep_W3]
  have hl : cfg3.idle 1 (cfg3.grid.coords t) = false := hlive3_1 _
  rw [hl]
  show bodyPre3 V O Rc c t ⊢ wp frame (wpE (defs₀ (F := F)) Variants.none c none) Set.univ (bodyAt3 t) (fun _ => bodyPost3 V O Rc c t)
  exact sound_body3 V O Rc c t

end Region

end Cert.Proof.KI.R3

end
-- ==== Proof.Region4.lean ====
/-
  The normalisation region: one pipelined kernel over eight points.

  Point t reads rows [5120 t, 5120 (t + 1)) of the padded feature array x : f32[40960, 80], the batch
  statistics st : f32[2, 80] (row 0 the mean, row 1 the denominator), the scale g and the shift b
  (f32[1, 80] each), forms  y = max ((x - mean) / denom * g + b, 0)  entrywise and stores the TRANSPOSE of that
  block — as the product of the 80 × 80 identity with y, contracting the channel axis — into columns
  [5120 t, 5120 (t + 1)) of the result f32[80, 40960]. The result's staging buffer is the whole array: it is
  handed from point to point, each point overwrites one strip of columns and leaves the rest as it found
  it, and the array is written back once, after the last point. At the first point the buffer holds contents
  nobody chose, so what a point leaves there cannot be named as a function of the point alone: the proof
  data says how a point CHANGES the buffer (a relation between what it found and what it leaves), and the
  value of the array at exit follows by chaining the eight relations: every column lies in exactly one strip.
-/
import proofs.«207241_g55714315764006_cont_9to1c4b_410_29_alg».proof.Proof.SetupKI
import proofs.«207241_g55714315764006_cont_9to1c4b_410_29_alg».proof.Proof.Gen.KernelIdeal.Launch
import proofs.«207241_g55714315764006_cont_9to1c4b_410_29_alg».proof.Proof.Gen.KernelIdeal.Skeleton
import proofs.«207241_g55714315764006_cont_9to1c4b_410_29_alg».proof.Proof.Gen.KernelIdeal.Points
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Writes
import Idealize.ShloMosaic.Lib.Tactic

set_option maxRecDepth 16384

noncomputable section

namespace Cert.Proof.KI.R4

open Cert.KernelIdeal Cert.KernelIdeal.Gen

open Idealize.ShloMosaic Idealize.ShloMosaic.TcCoe Idealize.ShloMosaic.Tactic
open Idealize.ShloMosaic.SparseCore.Cfg (HIx)
open Idealize.ShloMosaic.ValueIdx (ix2 eq_ix2 idx2_lt0 idx2_lt1)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ Cert.Proof.KI.UU ℕ

/-! ## One store over given contents -/

/-- A buffer holding `f`, after one unmasked store of `w` through the rectangle `r`, reads as what it read
    before with `r`'s elements replaced by `w`. -/
theorem read_writes_single {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    refine View.read_writes_apply_of_forall_not_mem v f y _ fun p hp => ?_
    rw [List.mem_singleton] at hp; subst hp; exact hy

/-! ## The body's accesses and its payload -/

/-- The rows block, read whole. -/
abbrev rX : Rect S5120x80 := Rect.unit (s := S5120x80) ![0, 0] S5120x80.size inb_S5120x80_S5120x80_0_0
/-- Row 0 of the statistics: the mean. -/
abbrev rMean : Rect S2x80 := Rect.unit (s := S2x80) ![0, 0] S1x80.size inb_S2x80_S1x80_0_0
/-- Row 1 of the statistics: the denominator. -/
abbrev rDen : Rect S2x80 := Rect.unit (s := S2x80) ![1, 0] S1x80.size inb_S2x80_S1x80_1_0
/-- The scale, and the shift, read whole. -/
abbrev rRow : Rect S1x80 := Rect.unit (s := S1x80) ![0, 0] S1x80.size inb_S1x80_S1x80_0_0
/-- The strip of columns the point at grid coordinates `i` stores: columns [5120 i, 5120 (i + 1)), all 80 rows. -/
abbrev rOut (i : grid4.Coords) : Rect S80x40960 := Rect.unit (s := S80x40960) (k4_off1 i) S80x5120.size (k4_off1_inb i)

/-- What a point stores, from the rows block `x0`, the statistics, the scale and the shift: the normalised,
    rectified block, transposed. -/
def payOf (x0 : Vec F S5120x80 .f32) (st : Vec F S2x80 .f32) (g b : Vec F S1x80 .f32) : Vec F S80x5120 .f32 :=
  k4_pay1 (View.ld x0 rX) (View.ld st rMean) (View.ld st rDen) (View.ld g rRow) (View.ld b rRow)

/-! ## The body's triple -/

set_option maxHeartbeats 1000000 in
/-- The kernel body on whole staging memrefs — the four inputs' at contents `x0`, `st`, `g`, `b` and the result's at
    contents `y` — runs to the continuation holding the inputs' as they were and the result's at `y` with the
    point's strip of columns replaced by the payload. -/
theorem sound_kernel4 (c : Dev nD) (E : Set ℕ) (i : grid4.Coords)
    (arg1 : Memref sig .tc .vmem S5120x80 .f32) (harg1 : arg1.IsWhole) (arg2 : Memref sig .tc .vmem S2x80 .f32) (harg2 : arg2.IsWhole)
    (arg3 : Memref sig .tc .vmem S1x80 .f32) (harg3 : arg3.IsWhole) (arg4 : Memref sig .tc .vmem S1x80 .f32) (harg4 : arg4.IsWhole)
    (arg5 : Memref sig .tc .vmem S80x40960 .f32) (harg5 : arg5.IsWhole)
    (x0 : Vec F S5120x80 .f32) (st : Vec F S2x80 .f32) (g b : Vec F S1x80 .f32) (y : Vec F S80x40960 .f32) (K : PUnit → sProp 𝕄) :
    iprop(owns (c : Thread nD τ) arg1 fullShare x0 ∗ owns (c : Thread nD τ) arg2 fullShare st ∗ owns (c : Thread nD τ) arg3 fullShare g
        ∗ owns (c : Thread nD τ) arg4 fullShare b ∗ owns (c : Thread nD τ) arg5 fullShare y
        ∗ (iprop(owns (c : Thread nD τ) arg1 fullShare x0 ∗ owns (c : Thread nD τ) arg2 fullShare st ∗ owns (c : Thread nD τ) arg3 fullShare g
            ∗ owns (c : Thread nD τ) arg4 fullShare b ∗ owns (c : Thread nD τ) arg5 fullShare ((rOut i).overlay y (payOf x0 st g b))) -∗ K ⟨⟩))
      ⊢ wp frame (wpE (defs₀ (F := F)) Variants.none c none) E (cc4__norm_body i arg1 harg1 arg2 harg2 arg3 harg3 arg4 harg4 arg5 harg5) K := by
  simp only [cc4__norm_body_eq_skeleton]; unfold cc4__norm_body_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact read_writes_single _ _ _ _

section Region
variable (V : (c : Dev nD) → (b : Ref sig .tc) → Buf (Elt F) ((c : Thread nD τ).loc b))
variable (O : CellTallies nD τ sig (HIx 1)) (Rc : Set (SemLoc sig × HIx 1))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What point `t` stores: the payload of its input blocks. -/
def pay4 (c : Dev nD) (t : Fin cfg4.N) : Vec F S80x5120 .f32 :=
  payOf (iblk4 V c 0 t) (iblk4 V c 1 t) (iblk4 V c 2 t) (iblk4 V c 3 t)

/-! ## The pipeline's proof data -/

/-- The region's invariant on core `c`: the core's scoped buffers that are no staging buffer of this pipeline, each
    at some contents, and its generator register at some state; the body touches neither. -/
def Φ4 (c : Dev nD) : sProp 𝕄 :=
  iprop(Pipeline.scopedRest (Ix := HIx 1) (Name := ℕ) (U := Cert.Proof.KI.UU) (Lvl := ℕ) (Val := Elt F) spec4 c ∗ ∃ r, prngReg c r)

/-- The proof data of the normalisation pipeline on core `c`: the arrays as the region finds them (`V`); the body
    leaves each input's buffer as it found it, and leaves the result's buffer as it found it but for the point's
    strip of columns, which holds the payload of the point's input blocks; the core owes `O` throughout, and its
    recorded wait pairs stay within `Rc` and the pipeline's own. -/
def rdat4 (c : Dev nD) : RDat τ (Elt F) (HIx 1) ℕ Cert.Proof.KI.UU ℕ cfg4 c where
  A w := V c (Pipeline.arrRef spec4 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = (rOut (grid4.coords t)).overlay Y (pay4 V c t)
  Φ _ := Φ4 c
  q _ := fullShare
  owed _ := O
  recorded _ := Rc

/-- The relation, window by window (the proof data's `match` reduced by `dsimp`). -/
theorem after4_0 (c : Dev nD) (t : Fin cfg4.N) (Y X) : (rdat4 (F := F) V O Rc c).after 0 t Y X = (X = Y) := by dsimp only [rdat4]
theorem after4_1 (c : Dev nD) (t : Fin cfg4.N) (Y X) : (rdat4 (F := F) V O Rc c).after 1 t Y X = (X = Y) := by dsimp only [rdat4]
theorem after4_2 (c : Dev nD) (t : Fin cfg4.N) (Y X) : (rdat4 (F := F) V O Rc c).after 2 t Y X = (X = Y) := by dsimp only [rdat4]
theorem after4_3 (c : Dev nD) (t : Fin cfg4.N) (Y X) : (rdat4 (F := F) V O Rc c).after 3 t Y X = (X = Y) := by dsimp only [rdat4]
theorem after4_4 (c : Dev nD) (t : Fin cfg4.N) (Y X) :
    (rdat4 (F := F) V O Rc c).after 4 t Y X = (X = (rOut (grid4.coords t)).overlay Y (pay4 V c t)) := by dsimp only [rdat4]

/-! ## What the body finds in the inputs' buffers -/

/-- An input's current staging buffer holds its block wherever the body is handed it, fetched there or not: the
    body leaves it as found, an unfetched point has the block index of the point before, and the windows are uncut,
    so a fetch fills the whole buffer. -/
theorem finds4_0 (c : Dev nD) (t : Fin cfg4.N) (Y) (h : (rdat4 (F := F) V O Rc c).Finds 0 t Y) : Y = iblk4 V c 0 t := by
  obtain ⟨d, rfl⟩ := Pipeline.RDat.finds_in_eq_fetched (rdat4 V O Rc c) 0 rfl (fun _ _ _ => rfl)
    (fun t Y X h => by rw [after4_0] at h; exact h) t Y h
  unfold RDat.fetched RDat.blockOf iblk4; rfl
theorem finds4_1 (c : Dev nD) (t : Fin cfg4.N) (Y) (h : (rdat4 (F := F) V O Rc c).Finds 1 t Y) : Y = iblk4 V c 1 t := by
  obtain ⟨d, rfl⟩ := Pipeline.RDat.finds_in_eq_fetched (rdat4 V O Rc c) 1 rfl (fun _ _ _ => rfl)
    (fun t Y X h => by rw [after4_1] at h; exact h) t Y h
  unfold RDat.fetched RDat.blockOf iblk4; rfl
theorem finds4_2 (c : Dev nD) (t : Fin cfg4.N) (Y) (h : (rdat4 (F := F) V O Rc c).Finds 2 t Y) : Y = iblk4 V c 2 t := by
  obtain ⟨d, rfl⟩ := Pipeline.RDat.finds_in_eq_fetched (rdat4 V O Rc c) 2 rfl (fun _ _ _ => rfl)
    (fun t Y X h => by rw [after4_2] at h; exact h) t Y h
  unfold RDat.fetched RDat.blockOf iblk4; rfl
theorem finds4_3 (c : Dev nD) (t : Fin cfg4.N) (Y) (h : (rdat4 (F := F) V O Rc c).Finds 3 t Y) : Y = iblk4 V c 3 t := by
  obtain ⟨d, rfl⟩ := Pipeline.RDat.finds_in_eq_fetched (rdat4 V O Rc c) 3 rfl (fun _ _ _ => rfl)
    (fun t Y X h => by rw [after4_3] at h; exact h) t Y h
  unfold RDat.fetched RDat.blockOf iblk4; rfl

/-! ## The body obligation, at a generic point -/

/-- The body at any point, the inputs' buffers at their blocks and the result's at any contents `y`: the body's
    triple applies; the invariant and the core's `owes` pass through unread. -/
theorem sound_body4 (c : Dev nD) (t : Fin cfg4.N) (y : Vec F S80x40960 .f32) :
    iprop((rdat4 V O Rc c).Φ t.castSucc ∗ (rdat4 V O Rc c).owesAt (none : HIx 1) t.castSucc
        ∗ owns (c : Thread nD τ) (st4_0 t) fullShare (iblk4 V c 0 t) ∗ owns (c : Thread nD τ) (st4_1 t) fullShare (iblk4 V c 1 t)
        ∗ owns (c : Thread nD τ) (st4_2 t) fullShare (iblk4 V c 2 t) ∗ owns (c : Thread nD τ) (st4_3 t) fullShare (iblk4 V c 3 t)
        ∗ owns (c : Thread nD τ) (st4_4 t) fullShare y)
      ⊢ wp frame (wpE (defs₀ (F := F)) Variants.none c none) Set.univ (bodyAt4 t) (fun _ =>
          iprop((rdat4 V O Rc c).Φ t.succ ∗ (rdat4 V O Rc c).owesAt (none : HIx 1) t.succ
            ∗ (∃ X, ⌜X = iblk4 V c 0 t⌝ ∗ owns (c : Thread nD τ) (st4_0 t) fullShare X)
            ∗ (∃ X, ⌜X = iblk4 V c 1 t⌝ ∗ owns (c : Thread nD τ) (st4_1 t) fullShare X)
            ∗ (∃ X, ⌜X = iblk4 V c 2 t⌝ ∗ owns (c : Thread nD τ) (st4_2 t) fullShare X)
            ∗ (∃ X, ⌜X = iblk4 V c 3 t⌝ ∗ owns (c : Thread nD τ) (st4_3 t) fullShare X)
            ∗ (∃ X, ⌜X = (rOut (grid4.coords t)).overlay y (pay4 V c t)⌝ ∗ owns (c : Thread nD τ) (st4_4 t) fullShare X))) := by
  unfold bodyAt4
  rw [show (rdat4 V O Rc c).Φ t.succ = (rdat4 V O Rc c).Φ t.castSucc from rfl,
    show (rdat4 V O Rc c).owesAt (none : HIx 1) t.succ = (rdat4 V O Rc c).owesAt (none : HIx 1) t.castSucc from rfl]
  iintro ⟨HΦ, Ho, H0, H1, H2, H3, H4⟩
  iapply (sound_kernel4 c Set.univ (grid4.coords t) _ _ _ _ _ _ _ _ _ _ (iblk4 V c 0 t) (iblk4 V c 1 t) (iblk4 V c 2 t) (iblk4 V c 3 t) y _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr; · ipureintro; rfl
  iexact H4

/-- The library's body obligation, at every point: whatever the windows' buffers may hold there, the inputs' hold
    their blocks (`finds4_W`), and the result's relation is the body's triple. -/
theorem body_obligation4 (c : Dev nD) :
    (rdat4 (F := F) V O Rc c).BodyObligation (defs₀ (F := F)) Variants.none (none : HIx 1) Set.univ := fun t Y hY => by
  have h0 := finds4_0 V O Rc c t (Y 0) (hY 0)
  have h1 := finds4_1 V O Rc c t (Y 1) (hY 1)
  have h2 := finds4_2 V O Rc c t (Y 2) (hY 2)
  have h3 := finds4_3 V O Rc c t (Y 3) (hY 3)
  rw [bigSep_W4, bigSep_W4]
  simp only [after4_0, after4_1, after4_2, after4_3, after4_4]
  rw [h0, h1, h2, h3]
  exact sound_body4 V O Rc c t (Y 4)

/-! ## The value of the result array at exit -/

/-- Rows [5120 k, 5120 (k + 1)) of the feature array. -/
def xblk (x : Vec F S40960x80 .f32) (k : Fin 8) : Vec F S5120x80 .f32 :=
  fun j => x (ix2 ⟨5120 * k.val + (j 0).val, by have := idx2_lt0 j; omega⟩ ⟨(j 1).val, idx2_lt1 j⟩)

/-- The normalised array, index by index: entry (o, r) is the payload of rows block r / 5120 at (o, r % 5120). -/
def normOf (x : Vec F S40960x80 .f32) (st : Vec F S2x80 .f32) (g b : Vec F S1x80 .f32) : Vec F S80x40960 .f32 :=
  fun j => payOf (xblk x ⟨(j 1).val / 5120, by have := idx2_lt1 j; omega⟩) st g b
    (ix2 ⟨(j 0).val, idx2_lt0 j⟩ ⟨(j 1).val % 5120, Nat.mod_lt _ (by norm_num)⟩)

/-- The normalised array at column `5120 k + i`, row `o`: block `k`'s payload at `(o, i)`. -/
theorem normOf_of_block (x : Vec F S40960x80 .f32) (st : Vec F S2x80 .f32) (g b : Vec F S1x80 .f32)
    (j : S80x40960.Idx) (k : Fin 8) (i : S80x5120.Idx) (h0 : (j 0).val = (i 0).val) (h1 : (j 1).val = 5120 * k.val + (i 1).val) :
    normOf x st g b j = payOf (xblk x k) st g b i := by
  have hi1 : (i 1).val < 5120 := idx2_lt1 i
  have hk : (⟨(j 1).val / 5120, by have := idx2_lt1 j; omega⟩ : Fin 8) = k := Fin.ext (by show (j 1).val / 5120 = k.val; omega)
  have hi : (ix2 ⟨(j 0).val, idx2_lt0 j⟩ ⟨(j 1).val % 5120, Nat.mod_lt _ (by norm_num)⟩ : S80x5120.Idx) = i := by
    funext a
    match a with
    | ⟨0, _⟩ => exact Fin.ext h0
    | ⟨1, _⟩ => exact Fin.ext (by show (j 1).val % 5120 = (i 1).val; omega)
  show payOf (xblk x ⟨(j 1).val / 5120, _⟩) st g b (ix2 ⟨(j 0).val, _⟩ ⟨(j 1).val % 5120, _⟩) = _
  rw [hk, hi]

/-- The grid has one axis: a point's coordinate is its number. -/
theorem coords4_val : ∀ t : Fin grid4.N, ((grid4.coords t) 0).val = t.val := by decide +kernel
/-- The rows window's block index at point `t` is `(t, 0)`. -/
theorem index4_0 : ∀ t : Fin grid4.N, cc4_transform_0 (grid4.coords t) = ![t.val, 0] := by decide +kernel
/-- The store's offsets at point `t`: row 0, column `5120 t`. -/
theorem off4 (t : Fin cfg4.N) : k4_off1 (grid4.coords t) = ![0, 5120 * t.val] := by rw [k4_off1_eq, coords4_val]

/-- A point as one of the eight blocks. -/
abbrev k4 (t : Fin cfg4.N) : Fin 8 := ⟨t.val, lt_of_lt_of_eq t.isLt N_4⟩

/-- The rows window's block at point `t` is rows block `t` of the array. -/
theorem iblk4_0_eq (c : Dev nD) (t : Fin cfg4.N) : iblk4 V c 0 t = xblk (V c main_v28) (k4 t) := by
  funext j
  show V c main_v28 (((cfg4.win 0).rect t).emb j) = V c main_v28 (ix2 ⟨5120 * t.val + (j 0).val, _⟩ ⟨(j 1).val, _⟩)
  congr 1
  funext a; apply Fin.ext
  rw [(cfg4.win 0).rect_emb_val t j a]
  show cc4_transform_0 (grid4.coords t) a * S5120x80.size a + (j a).val = _
  rw [index4_0]
  match a with
  | ⟨0, _⟩ => show t.val * 5120 + (j 0).val = 5120 * t.val + (j 0).val; omega
  | ⟨1, _⟩ => show 0 * 80 + (j 1).val = (j 1).val; omega

/-- The statistics', the scale's and the shift's windows hold their whole arrays at every point. -/
theorem iblk4_1_eq (c : Dev nD) (t : Fin cfg4.N) : iblk4 V c 1 t = V c main_v26 := by
  funext j
  show V c main_v26 (((cfg4.win 1).rect t).emb j) = V c main_v26 j
  congr 1
  funext a; apply Fin.ext
  exact (cfg4.win 1).rect_emb_val_of_index_zero t a (by match a with | ⟨0, _⟩ => rfl | ⟨1, _⟩ => rfl) j
theorem iblk4_2_eq (c : Dev nD) (t : Fin cfg4.N) : iblk4 V c 2 t = V c main_v29 := by
  funext j
  show V c main_v29 (((cfg4.win 2).rect t).emb j) = V c main_v29 j
  congr 1
  funext a; apply Fin.ext
  exact (cfg4.win 2).rect_emb_val_of_index_zero t a (by match a with | ⟨0, _⟩ => rfl | ⟨1, _⟩ => rfl) j
theorem iblk4_3_eq (c : Dev nD) (t : Fin cfg4.N) : iblk4 V c 3 t = V c main_v30 := by
  funext j
  show V c main_v30 (((cfg4.win 3).rect t).emb j) = V c main_v30 j
  congr 1
  funext a; apply Fin.ext
  exact (cfg4.win 3).rect_emb_val_of_index_zero t a (by match a with | ⟨0, _⟩ => rfl | ⟨1, _⟩ => rfl) j

/-- What point `t` stores, over the arrays as the region finds them. -/
theorem pay4_eq (c : Dev nD) (t : Fin cfg4.N) :
    pay4 V c t = payOf (xblk (V c main_v28) (k4 t)) (V c main_v26) (V c main_v29) (V c main_v30) := by
  unfold pay4; rw [iblk4_0_eq, iblk4_1_eq, iblk4_2_eq, iblk4_3_eq]

/-- Contents of the result's buffer whose columns below `5120 n` are the normalised array's. -/
def GoodUpTo (c : Dev nD) (n : ℕ) (X : Vec F S80x40960 .f32) : Prop :=
  ∀ j : S80x40960.Idx, (j 1).val < 5120 * n → X j = normOf (V c main_v28) (V c main_v26) (V c main_v29) (V c main_v30) j

/-- Point `t`'s store extends the finished columns by its strip: inside the strip the payload is the normalised
    array's block `t`; left of it nothing changes. -/
theorem overlay_good (c : Dev nD) (t : Fin cfg4.N) (Y : Vec F S80x40960 .f32) (hY : GoodUpTo V c t.val Y) :
    GoodUpTo V c (t.val + 1) ((rOut (grid4.coords t)).overlay Y (pay4 V c t)) := by
  intro j hj
  by_cases hm : j ∈ (rOut (grid4.coords t)).set
  · obtain ⟨x, rfl⟩ : ∃ x, (rOut (grid4.coords t)).emb x = j := (rOut (grid4.coords t)).exists_idx_of_mem hm
    rw [Rect.overlay_emb, pay4_eq]
    refine (normOf_of_block _ _ _ _ _ (k4 t) x ?_ ?_).symm
    · rw [Rect.emb_apply]; show k4_off1 (grid4.coords t) 0 + 1 * (x 0).val = _; rw [off4]; show 0 + 1 * (x 0).val = _; omega
    · rw [Rect.emb_apply]; show k4_off1 (grid4.coords t) 1 + 1 * (x 1).val = _; rw [off4]; show 5120 * t.val + 1 * (x 1).val = 5120 * t.val + (x 1).val; omega
  · rw [Rect.overlay_of_not_mem _ _ _ hm]
    refine hY j ?_
    by_contra hlt
    refine hm (Rect.mem_set_unit.mpr fun a => ?_)
    rw [off4]
    match a with
    | ⟨0, _⟩ => exact ⟨Nat.zero_le _, by show (j 0).val < 0 + 80; have := idx2_lt0 j; omega⟩
    | ⟨1, _⟩ => exact ⟨by show 5120 * t.val ≤ (j 1).val; omega, by show (j 1).val < 5120 * t.val + 5120; omega⟩

/-- What point `n` may leave in the result's buffer has columns below `5120 (n + 1)` finished: the buffer is
    handed from point to point (no point before the last writes it back), each adding its strip. -/
theorem leaves_good (c : Dev nD) : ∀ (n : ℕ) (h : n < cfg4.N) (X : Vec F S80x40960 .f32),
    (rdat4 (F := F) V O Rc c).Leaves 4 ⟨n, h⟩ X → GoodUpTo V c (n + 1) X
  | 0, h, X, ⟨Y, _, hR⟩ => by
    rw [after4_4] at hR; subst hR
    exact overlay_good V c ⟨0, h⟩ Y (fun j hj => absurd hj (by show ¬ (j 1).val < 5120 * 0; omega))
  | n + 1, h, X, ⟨Y, hY, hR⟩ => by
    rw [after4_4] at hR; subst hR
    have hf : (cfg4.win 4).fetch ⟨n + 1, h⟩ = false := (cfg4.win 4).fetch_out rfl _
    rcases ((rdat4 V O Rc c).finds_of_pos hf (Nat.succ_ne_zero n) Y).mp hY with hfl | hL
    · exfalso
      have h7 := (flush4_4 _).mp hfl
      have h8 : n + 1 < 8 := lt_of_lt_of_eq h N_4
      change (n + 1 - 1) % 8 = 7 at h7
      omega
    · exact overlay_good V c ⟨n + 1, h⟩ Y (leaves_good c n (Nat.lt_of_succ_lt h) Y hL)

/-- The result's block is its whole array: a write-back of contents `X` over anything leaves `X`. -/
theorem write_whole4 (c : Dev nD) (t : Fin cfg4.N) (G₀ : Buf (Elt F) ((cfg4.win 4).arr.view.loc ((c : Dev nD).tc : Thread nD τ)))
    (X : (cfg4.win 4).block.Idx → Elt F (cfg4.win 4).elt) :
    ((cfg4.win 4).blk t).view.write (Elt F) G₀ ((cfg4.win 4).cut (cfg4.grid.coords t) X) Finset.univ = X := by
  funext i
  have hi : ((cfg4.win 4).blk t).view.emb i = i := by
    funext a; apply Fin.ext
    exact (cfg4.win 4).rect_emb_val_of_index_zero t a (by match a with | ⟨0, _⟩ => rfl | ⟨1, _⟩ => rfl) i
  have hw := View.write_emb_of_mem (v := ((cfg4.win 4).blk t).view) G₀ ((cfg4.win 4).cut (cfg4.grid.coords t) X) (Finset.mem_univ i)
  rw [hi] at hw
  exact hw

/-- Whatever the result array may hold after the write-back of the last point is the normalised array of the
    inputs as the region found them: the only write-back is the last point's, of a buffer all of whose columns are
    finished. -/
theorem norm_of_ArrAt (c : Dev nD) (Z : Buf (Elt F) ((cfg4.win 4).arr.view.loc ((c : Dev nD).tc : Thread nD τ))) :
    (rdat4 (F := F) V O Rc c).ArrAt 4 cfg4.N Z → Z = normOf (V c main_v28) (V c main_v26) (V c main_v29) (V c main_v30) := by
  intro h
  have e : cfg4.N = t4_7.val + 1 := N_4
  have h' : (rdat4 (F := F) V O Rc c).ArrAt 4 (t4_7.val + 1) Z := by rw [← e]; exact h
  rw [Pipeline.RDat.ArrAt_succ, if_pos ((flush4_4 t4_7).mpr rfl)] at h'
  obtain ⟨G₀, X, -, hX, rfl⟩ := h'
  rw [write_whole4]
  funext j
  exact leaves_good V O Rc c 7 t4_7.isLt X hX j (by have := idx2_lt1 j; omega)

end Region

/-! ## The normalised array at the ideal values -/

section AtIdeal
open Idealize.ShloMosaic.ValueIdx

/-- The payload's dot: 80 × 80 by 5120 × 80, both contracted on their second axis. -/
abbrev D4 : DotDims S80x80 S5120x80 S80x5120 := dot_S80x80_S5120x80_S80x5120_1_1_0_0_n_n
/-- Its contraction index is its one coordinate. -/
abbrev E4 : D4.contr.Idx ≃ Fin 80 := contrEquiv1 D4 80 rfl rfl

/-- The dot's left operand index at output index `i = (p, r)` and contraction coordinate `q` is `(p, q)`. -/
theorem lhsIdx4 (i : S80x5120.Idx) (q : Fin 80) : D4.lhsIdx i (E4.symm q) = ix2 ⟨(i 0).val, idx2_lt0 i⟩ q := by
  funext a
  match a with
  | ⟨0, _⟩ => apply Fin.ext; simp [DotDims.lhsIdx, D4, dot_S80x80_S5120x80_S80x5120_1_1_0_0_n_n]; rfl
  | ⟨1, _⟩ =>
    apply Fin.ext
    show (D4.lhsIdx i (E4.symm q) 1).val = q.val
    rw [D4.lhsIdx_val_of_single (cl := 1) rfl]; exact contrEquiv1_symm_val D4 80 rfl rfl q
/-- and its right operand index is `(r, q)`. -/
theorem rhsIdx4 (i : S80x5120.Idx) (q : Fin 80) : D4.rhsIdx i (E4.symm q) = ix2 ⟨(i 1).val, idx2_lt1 i⟩ q := by
  funext a
  match a with
  | ⟨0, _⟩ => apply Fin.ext; simp [DotDims.rhsIdx, D4, dot_S80x80_S5120x80_S80x5120_1_1_0_0_n_n]; rfl
  | ⟨1, _⟩ =>
    apply Fin.ext
    show (D4.rhsIdx i (E4.symm q) 1).val = q.val
    rw [D4.rhsIdx_val_of_single (cr := 1) rfl]; exact contrEquiv1_symm_val D4 80 rfl rfl q

/-- The matrix built from the two iotas: 1 on the diagonal, 0 off it. -/
def eye80 : FVec Ideal S80x80 .f32 :=
  sitofp .f32 (extui 32 (cmpi .eq (iota .tc S80x80 32 [0] iota_S80x80_d0_w32) (iota .tc S80x80 32 [1] iota_S80x80_d1_w32)) natLt_1_32)

theorem eye80_apply (p q : Fin 80) : eye80 (ix2 p q) = if p = q then 1 else 0 := by
  unfold eye80
  rw [sitofp_apply, extui_apply]
  show FloatOps.sitofp .f32 ((IntOp.cmpi .eq (iota .tc S80x80 32 [0] iota_S80x80_d0_w32 (ix2 p q)) (iota .tc S80x80 32 [1] iota_S80x80_d1_w32 (ix2 p q))).setWidth 32) = _
  rw [iota_single_apply, iota_single_apply]
  show FloatOps.sitofp .f32 ((IntOp.cmpi .eq (BitVec.ofNat 32 p.val) (BitVec.ofNat 32 q.val)).setWidth 32) = _
  have hcmp : IntOp.cmpi .eq (BitVec.ofNat 32 p.val) (BitVec.ofNat 32 q.val) = if p = q then 1#1 else 0#1 := by
    unfold IntOp.cmpi
    by_cases h : p = q
    · subst h; simp
    · rw [if_neg h]
      have hne : BitVec.ofNat 32 p.val ≠ BitVec.ofNat 32 q.val := fun e => h (Fin.ext (by
        have h2 := congrArg BitVec.toNat e
        simp only [BitVec.toNat_ofNat] at h2
        have := p.isLt; have := q.isLt; omega))
      rw [beq_eq_false_iff_ne.mpr hne]; rfl
  rw [hcmp]
  by_cases h : p = q
  · rw [if_pos h, if_pos h]; show (((BitVec.setWidth 32 1#1).toInt : ℝ) : EReal) = 1; simp
  · rw [if_neg h, if_neg h]; show (((BitVec.setWidth 32 0#1).toInt : ℝ) : EReal) = 0; simp

/-- A row vector broadcast down the rows block reads its own column. -/
theorem bcast_row {α : Type} (v : S1x80.Idx → α) (i : S5120x80.Idx) :
    broadcastTo S5120x80 (shapeCast S1x80 v shapeCasts_S1x80_S1x80) broadcasts_S1x80_S5120x80 i = v (ix2 0 ⟨(i 1).val, idx2_lt1 i⟩) := by
  rw [shapeCast_self]
  refine broadcastTo_apply _ _ i _ fun a => ?_
  match a with
  | ⟨0, _⟩ => rfl
  | ⟨1, _⟩ => rfl

/-- The payload at the ideal values, entry (o, r): the block's entry (r, o), normalised and rectified. -/
theorem k4_pay1_apply (v0 : FVec Ideal S5120x80 .f32) (v2 v4 v10 v14 : FVec Ideal S1x80 .f32) (i : S80x5120.Idx) :
    k4_pay1 (F := Ideal) v0 v2 v4 v10 v14 i
      = max (Ideal.div (v0 (ix2 ⟨(i 1).val, idx2_lt1 i⟩ ⟨(i 0).val, idx2_lt0 i⟩) - v2 (ix2 0 ⟨(i 0).val, idx2_lt0 i⟩)) (v4 (ix2 0 ⟨(i 0).val, idx2_lt0 i⟩))
          * v10 (ix2 0 ⟨(i 0).val, idx2_lt0 i⟩) + v14 (ix2 0 ⟨(i 0).val, idx2_lt0 i⟩)) 0 := by
  unfold k4_pay1
  dsimp only
  simp only [matmul]
  rw [Ideal.matmul_constant_zero_apply, ← Equiv.sum_comp E4.symm, Finset.sum_eq_single (⟨(i 0).val, idx2_lt0 i⟩ : Fin 80)]
  · rw [lhsIdx4, rhsIdx4]
    show eye80 (ix2 _ _) * _ = _
    rw [eye80_apply, if_pos rfl, one_mul, maximumf_apply, addf_apply, mulf_apply, divf_apply, subf_apply, shapeCast_self,
      bcast_row, bcast_row, bcast_row, bcast_row, broadcast_apply]
    show max _ (Ideal.ofBits .f32 0x00000000#32) = _
    rw [Ideal.ofBits_zero_f32]
  · intro q _ hq
    rw [lhsIdx4]
    show eye80 (ix2 _ q) * _ = 0
    rw [eye80_apply, if_neg (fun e => hq e.symm), zero_mul]
  · intro h; exact absurd (Finset.mem_univ _) h

/-- The body's loads at an index: the rows block whole, the statistics' two rows, the scale and the shift whole. -/
theorem ld_rX (v : Vec Ideal S5120x80 .f32) (p : Fin 5120) (q : Fin 80) : View.ld v rX (ix2 p q) = v (ix2 p q) := by
  show v (rX.idx (ix2 p q)) = v (ix2 p q)
  congr 1; funext a
  match a with
  | ⟨0, _⟩ => exact Fin.ext (by show 0 + 1 * p.val = p.val; omega)
  | ⟨1, _⟩ => exact Fin.ext (by show 0 + 1 * q.val = q.val; omega)
theorem ld_rMean (v : Vec Ideal S2x80 .f32) (q : Fin 80) : View.ld v rMean (ix2 0 q) = v (ix2 0 q) := by
  show v (rMean.idx (ix2 0 q)) = v (ix2 0 q)
  congr 1; funext a
  match a with
  | ⟨0, _⟩ => exact Fin.ext (by show 0 + 1 * 0 = 0; omega)
  | ⟨1, _⟩ => exact Fin.ext (by show 0 + 1 * q.val = q.val; omega)
theorem ld_rDen (v : Vec Ideal S2x80 .f32) (q : Fin 80) : View.ld v rDen (ix2 0 q) = v (ix2 1 q) := by
  show v (rDen.idx (ix2 0 q)) = v (ix2 1 q)
  congr 1; funext a
  match a with
  | ⟨0, _⟩ => exact Fin.ext (by show 1 + 1 * 0 = 1; omega)
  | ⟨1, _⟩ => exact Fin.ext (by show 0 + 1 * q.val = q.val; omega)
theorem ld_rRow (v : Vec Ideal S1x80 .f32) (q : Fin 80) : View.ld v rRow (ix2 0 q) = v (ix2 0 q) := by
  show v (rRow.idx (ix2 0 q)) = v (ix2 0 q)
  congr 1; funext a
  match a with
  | ⟨0, _⟩ => exact Fin.ext (by show 0 + 1 * 0 = 0; omega)
  | ⟨1, _⟩ => exact Fin.ext (by show 0 + 1 * q.val = q.val; omega)

/-- What a point stores, at the ideal values, entry (o, r). -/
theorem payOf_apply (x0 : FVec Ideal S5120x80 .f32) (st : FVec Ideal S2x80 .f32) (g b : FVec Ideal S1x80 .f32) (i : S80x5120.Idx) :
    payOf (F := Ideal) x0 st g b i
      = max (Ideal.div (x0 (ix2 ⟨(i 1).val, idx2_lt1 i⟩ ⟨(i 0).val, idx2_lt0 i⟩) - st (ix2 0 ⟨(i 0).val, idx2_lt0 i⟩)) (st (ix2 1 ⟨(i 0).val, idx2_lt0 i⟩))
          * g (ix2 0 ⟨(i 0).val, idx2_lt0 i⟩) + b (ix2 0 ⟨(i 0).val, idx2_lt0 i⟩)) 0 := by
  unfold payOf
  rw [k4_pay1_apply, ld_rX, ld_rMean, ld_rDen, ld_rRow, ld_rRow]

/-- Rows block `k` at `(p, q)` is the array at `(5120 k + p, q)`. -/
theorem xblk_apply (x : FVec Ideal S40960x80 .f32) (k : Fin 8) (p : Fin 5120) (q : Fin 80) (r : Fin 40960) (h : r.val = 5120 * k.val + p.val) :
    xblk (F := Ideal) x k (ix2 p q) = x (ix2 r q) := by
  show x (ix2 ⟨5120 * k.val + p.val, _⟩ ⟨q.val, _⟩) = x (ix2 r q)
  congr 1; funext a
  match a with
  | ⟨0, _⟩ => exact Fin.ext h.symm
  | ⟨1, _⟩ => rfl

/-- THE NORMALISED ARRAY AT THE IDEAL VALUES, entry (o, r):  max ((x (r, o) − mean o) / denom o · g o + b o) 0, the
    quotient the ideal instance's. The identity factor contributes nothing: on the extended reals 0 · a = 0 for
    every a, so the 79 off-diagonal terms of the contraction vanish whatever the block holds. -/
theorem normOf_apply (x : FVec Ideal S40960x80 .f32) (st : FVec Ideal S2x80 .f32) (g b : FVec Ideal S1x80 .f32) (j : S80x40960.Idx) :
    normOf (F := Ideal) x st g b j
      = max (Ideal.div (x (ix2 ⟨(j 1).val, idx2_lt1 j⟩ ⟨(j 0).val, idx2_lt0 j⟩) - st (ix2 0 ⟨(j 0).val, idx2_lt0 j⟩)) (st (ix2 1 ⟨(j 0).val, idx2_lt0 j⟩))
          * g (ix2 0 ⟨(j 0).val, idx2_lt0 j⟩) + b (ix2 0 ⟨(j 0).val, idx2_lt0 j⟩)) 0 := by
  unfold normOf
  rw [payOf_apply, xblk_apply x _ _ _ ⟨(j 1).val, idx2_lt1 j⟩ (by
    show (j 1).val = 5120 * ((j 1).val / 5120) + (j 1).val % 5120; omega)]

end AtIdeal

end Cert.Proof.KI.R4

end
-- ==== Proof.RegionsKI.lean ====
/-
  The four kernel regions as records for the region rule, over one family of proof data.

  Every pipeline's proof data is stated at its region's entry valuation, with the TensorCore's debt to the
  handshakes and the bound on its recorded pairs passed through: the table and address regions run before the
  gather call (the start signals still owed), the statistics and normalisation regions after it (nothing owed).
  A region takes its arrays out of the unscoped buffers, runs, and puts them back at what the write-backs leave.
-/
import proofs.«207241_g55714315764006_cont_9to1c4b_410_29_alg».proof.Proof.LaunchKI
import proofs.«207241_g55714315764006_cont_9to1c4b_410_29_alg».proof.Proof.Region0
import proofs.«207241_g55714315764006_cont_9to1c4b_410_29_alg».proof.Proof.Region1
import proofs.«207241_g55714315764006_cont_9to1c4b_410_29_alg».proof.Proof.Region3
import proofs.«207241_g55714315764006_cont_9to1c4b_410_29_alg».proof.Proof.Region4
import Idealize.ShloMosaic.Lib.Pipeline.RegionsLoop

noncomputable section

namespace Cert.Proof.KI

open Cert.KernelIdeal Cert.KernelIdeal.Gen Cert.Proof.KI.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F] [∀ e, Nonempty (Elt F e)]

local notation "𝕄" => MT nD τ sig (HIx 1) (Elt F) ℕ UU ℕ

/-- A valuation read at the TensorCore's references (the same on every core: a region's proof data reads it on its own). -/
abbrev Vof (W : Valuation τ sig (Elt F)) : (c : Dev nD) → (b : Ref sig .tc) → Buf (Elt F) ((c : Thread nD τ).loc b) :=
  fun _ b => W (Proc.devRef .tc b)

/-- The pairs a TensorCore's waits may have recorded before call `n`: those at or below the call's first level. -/
def Rcn (d : Dev nD) (n : ℕ) : Set (SemLoc sig × HIx 1) := {p | (K (F := F)).lev (T d, p.1) p.2 ≤ 8 * n}

/-! ## What the TensorCore owes, against the pipelines' own index -/

/-- Every unit the TensorCore owes the handshakes is at a call's index, never at the pipelines' own. -/
theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun c _ => ?_
    rw [tallyAt_apply, if_neg (fun h => nomatch h.2)]
  · rfl

/-- So whatever it owes sits strictly above level 0, where the pipelines' staging cells wait. -/
theorem Otc_pos (d : Dev nD) (n : ℕ) (g : GSem nD τ sig) (i : HIx 1) (h : 0 < (K (F := F)).Otc d n g i) :
    i ∈ (K (F := F)).L g ∧ 0 < (K (F := F)).lev g i := by
  refine ⟨Finset.mem_univ _, ?_⟩
  cases i with
  | none => rw [Otc_none] at h; exact absurd h (Nat.lt_irrefl 0)
  | some q => exact (K (F := F)).lev_some_pos g q

/-- Pairs recorded at or below the call's first level are within the bound the proof data carries, -/
theorem sub_of_wbelow (c : Dev nD) (n : ℕ) (W : Waits sig (HIx 1)) (B : Set (SemLoc sig × HIx 1))
    (h : (K (F := F)).WBelow (T c) W (8 * n)) : (↑W : Set (SemLoc sig × HIx 1)) ⊆ Rcn (F := F) c n ∪ B :=
  fun p hp => Or.inl (h p (Finset.mem_coe.mp hp))

/-- and pairs within that bound and a pipeline's own wait pairs (at level 0) are at or below it. -/
theorem wbelow_of_sub (c : Dev nD) (n : ℕ) (cfg : Pipeline.Cfg sig Λ₀) (W : Waits sig (HIx 1))
    (h : (↑W : Set (SemLoc sig × HIx 1)) ⊆ Rcn (F := F) c n ∪ cfg.waitPairs none) : (K (F := F)).WBelow (T c) W (8 * n) :=
  fun p hp => by
    rcases h (Finset.mem_coe.mpr hp) with h1 | ⟨w, s, rfl⟩
    · exact h1
    · exact Nat.zero_le _

/-! ## A region's arrays back among the unscoped buffers, for relational proof data -/

/-- Pipeline `p`'s arrays at contents `A` and the unscoped rest at `V` are the core's unscoped buffers at any
    valuation that has the arrays at `A` and agrees with `V` off them. -/
theorem unscopedBufs_of_rarrays {p : Fin 4} (hw : Pipeline.WinFacts (Pipeline.pin (pcfgs (F := F)) adm p).spec)
    (harr : ∀ w, ((Pipeline.pin (pcfgs (F := F)) adm p).spec w).arr.IsWhole) (c : Dev nD)
    (rdats : (p : Fin 4) → (c : Dev nD) → Pipeline.RDat τ (Elt F) (HIx 1) ℕ UU ℕ (Pipeline.pin (pcfgs (F := F)) adm p) c)
    (hshare : ∀ w, (rdats p c).share w = fullShare)
    (V V' : (b : Ref sig .tc) → Buf (Elt F) ((c.tc : Thread nD τ).loc b))
    (A : (w : Fin (Pipeline.pin (pcfgs (F := F)) adm p).W) → Buf (Elt F) (((Pipeline.pin (pcfgs (F := F)) adm p).spec w).arr.view.loc (c.tc : Thread nD τ)))
    (hA : ∀ w, A w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats p c).arrays A ∗ Pipeline.unscopedRest (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rdats p c harr hshare]
  refine sep_mono (Entails.of_eq (bigSep_congr fun w _ => by rw [hA])) (Entails.of_eq ?_)
  unfold Pipeline.unscopedRest
  exact bigSep_congr fun b hb => by rw [hrest b (Finset.mem_sdiff.mp hb).2]

section Family

variable (Wa Wb Wd We : Dev nD → Valuation τ sig (Elt F))

/-- Every pipeline's proof data at its region's entry valuation. -/
def rdats : (p : Fin 4) → (c : Dev nD) → Pipeline.RDat τ (Elt F) (HIx 1) ℕ UU ℕ (Pipeline.pin (pcfgs (F := F)) adm p) c
  | ⟨0, _⟩ => fun c => (R0.dat0 (Vof (Wa c)) ((K (F := F)).Otc c 0) (Rcn (F := F) c 0) c).toR
  | ⟨1, _⟩ => fun c => (R1.dat1 (Vof (Wb c)) ((K (F := F)).Otc c 0) (Rcn (F := F) c 0) c).toR
  | ⟨2, _⟩ => fun c => (R3.dat3 (Vof (Wd c)) ((K (F := F)).Otc c 1) (Rcn (F := F) c 1) c).toR
  | ⟨3, _⟩ => fun c => R4.rdat4 (Vof (We c)) ((K (F := F)).Otc c 1) (Rcn (F := F) c 1) c

/-- The table region's exit valuation: its arrays at what the pipeline leaves, every other buffer as entered. -/
def Wx0 (c : Dev nD) : Valuation τ sig (Elt F) :=
  Pipeline.withArrays spec0 c (Wa c) fun w => (R0.dat0 (Vof (Wa c)) ((K (F := F)).Otc c 0) (Rcn (F := F) c 0) c).arrAt w cfg0.N

theorem Wx0_arr (c : Dev nD) (w : Fin cfg0.W) :
    Wx0 Wa c (Proc.devRef .tc (Pipeline.arrRef spec0 w)) = (R0.dat0 (Vof (Wa c)) ((K (F := F)).Otc c 0) (Rcn (F := F) c 0) c).arrAt w cfg0.N := by
  unfold Wx0; exact Pipeline.withArrays_arr spec0 launch0.win.arr_inj c _ _ w
theorem Wx0_of_ne (c : Dev nD) (b : Ref sig .tc) (hb : ∀ w, Pipeline.arrRef spec0 w ≠ b) :
    Wx0 Wa c (Proc.devRef .tc b) = Wa c (Proc.devRef .tc b) := by
  unfold Wx0; exact Pipeline.withArrays_of_ne spec0 c _ _ b hb

/-! ## The regions as records -/

set_option backward.isDefEq.respectTransparency.types false in
/-- THE TABLE REGION over the thread state: entered with every unscoped buffer at `Wa`, left with them at `Wx0`. Its
    arrays come out of the unscoped buffers and go back at what the write-backs leave; the generator register goes
    into the invariant and comes out; the debt to the handshakes rides through, its recorded pairs bounded going in by
    the call's level and coming out by that and the pipeline's own wait pairs, which sit at level 0. -/
def reg0 : Pipeline.RDat.RegionSeg (pcfgs (F := F)) adm (rdats Wa Wb Wd We) (none : HIx 1) (defs₀ (F := F)) 𝒱₀
    (K (F := F)).L (K (F := F)).lev (0 : Fin 4) where
  win := launch0.win.to₀
  block_pos := launch0.block_pos
  stage_whole := launch0.stage_whole
  K := PEmpty
  osem k := k.elim
  ho := Pipeline.OwnSemFacts.none _
  hbody c := (R0.body_obligation0 (Vof (Wa c)) ((K (F := F)).Otc c 0) (Rcn (F := F) c 0) c).loose.toR
  hwaits c := Pipeline.RDat.cellsWaits_of_cut _ _ _ (0 : Fin 4) c 0 ((K (F := F)).Otc c 0) (fun _ => rfl)
    (fun _ _ => Finset.mem_univ _) (fun _ _ => Nat.le_refl 0) (Otc_pos c 0)
  pre c := iprop(held (T c) (Pipeline.ucRefs τ sig) (Wa c) ∗ Rr c 0)
  post c := iprop(held (T c) (Pipeline.ucRefs τ sig) (Wx0 Wa c) ∗ Rr c 0)
  X c := iprop(∃ r, prngReg c r)
  Y c := iprop(∃ r, prngReg c r)
  Z c := Pipeline.unscopedRest (Ix := HIx 1) (Name := ℕ) (U := UU) (Lvl := ℕ) spec0 c (Vof (Wa c) c)
  hentry c := by
    rw [Pipeline.ownSems0_none]
    have hsplit := Pipeline.RDat.arrays_of_unscopedBufs (p := (0 : Fin 4)) (pcfgs (F := F)) adm (rdats Wa Wb Wd We) launch0.win launch0.arr_whole c
      ((rdats Wa Wb Wd We 0 c).share_full fun _ => rfl) (Vof (Wa c) c) fun _ => rfl
    rw [Pipeline.unscopedBufs_held] at hsplit
    unfold Rr
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact sub_of_wbelow c 0 W _ hW
      iexact HO
    isplitl [Hp]; · iexact Hp
    iexact Hrest
  hin c := by
    rw [show (rdats Wa Wb Wd We 0 c).Φ 0 = R0.Φ0 c from rfl]; unfold R0.Φ0
    iintro ⟨Hp, -, Hr⟩
    isplitl [Hr]; · iexact Hr
    iexact Hp
  hout c := by
    rw [Pipeline.ownSems0_none, show (rdats Wa Wb Wd We 0 c).Φ (Fin.last _) = R0.Φ0 c from rfl]; unfold R0.Φ0
    iintro ⟨Hr, Hp⟩
    isplitl [Hp]; · iexact Hp
    isplitr; · iempintro
    iexact Hr
  hexit c := by
    have hjoin := unscopedBufs_of_rarrays (p := (0 : Fin 4)) launch0.win launch0.arr_whole c (rdats Wa Wb Wd We)
      ((rdats Wa Wb Wd We 0 c).share_full fun _ => rfl) (Vof (Wa c) c) (Vof (Wx0 Wa c) c)
      ((R0.dat0 (Vof (Wa c)) ((K (F := F)).Otc c 0) (Rcn (F := F) c 0) c).arrAt · cfg0.N)
      (fun w => (Wx0_arr Wa c w).symm)
      (fun b hb => Wx0_of_ne Wa c b fun w e => hb (Finset.mem_image.mpr ⟨w, Finset.mem_univ _, e⟩))
    rw [Pipeline.unscopedBufs_held] at hjoin
    have hjoin' : iprop((R0.dat0 (Vof (Wa c)) ((K (F := F)).Otc c 0) (Rcn (F := F) c 0) c).arrays
          ((R0.dat0 (Vof (Wa c)) ((K (F := F)).Otc c 0) (Rcn (F := F) c 0) c).arrAt · cfg0.N)
        ∗ Pipeline.unscopedRest (Ix := HIx 1) (Name := ℕ) (U := UU) (Lvl := ℕ) spec0 c (Vof (Wa c) c))
        ⊢ (held (T c) (Pipeline.ucRefs τ sig) (Wx0 Wa c) : sProp 𝕄) := hjoin
    rw [show (rdats Wa Wb Wd We 0 c).arraysAt (Pipeline.pin (pcfgs (F := F)) adm 0).N
        = (R0.dat0 (Vof (Wa c)) ((K (F := F)).Otc c 0) (Rcn (F := F) c 0) c).toR.arraysAt cfg0.N from rfl,
      Pipeline.Dat.toR_arraysAt_eq]
    unfold Rr
    iintro ⟨Ha, HO, HY, Hrest⟩
    imodintro
    isplitl [Ha Hrest]
    · iapply hjoin'
      isplitl [Ha]; · iexact Ha
      iexact Hrest
    isplitl [HY]; · iexact HY
    unfold Pipeline.RDat.owesAt Pipeline.owesWithin
    icases HO with ⟨%W, %hW, HO⟩
    iexists W; isplitr; · ipureintro; exact wbelow_of_sub c 0 _ W hW
    iexact HO

/-- The address region's exit valuation: its arrays at what the pipeline leaves, every other buffer as entered. -/
def Wx1 (c : Dev nD) : Valuation τ sig (Elt F) :=
  Pipeline.withArrays spec1 c (Wb c) fun w => (R1.dat1 (Vof (Wb c)) ((K (F := F)).Otc c 0) (Rcn (F := F) c 0) c).arrAt w cfg1.N

/-- The statistics region's exit valuation: its arrays at what the pipeline leaves, every other buffer as entered. -/
def Wx3 (c : Dev nD) : Valuation τ sig (Elt F) :=
  Pipeline.withArrays spec3 c (Wd c) fun w => (R3.dat3 (Vof (Wd c)) ((K (F := F)).Otc c 1) (Rcn (F := F) c 1) c).arrAt w cfg3.N

theorem Wx1_arr (c : Dev nD) (w : Fin cfg1.W) :
    Wx1 Wb c (Proc.devRef .tc (Pipeline.arrRef spec1 w)) = (R1.dat1 (Vof (Wb c)) ((K (F := F)).Otc c 0) (Rcn (F := F) c 0) c).arrAt w cfg1.N := by
  unfold Wx1; exact Pipeline.withArrays_arr spec1 launch1.win.arr_inj c _ _ w
theorem Wx1_of_ne (c : Dev nD) (b : Ref sig .tc) (hb : ∀ w, Pipeline.arrRef spec1 w ≠ b) :
    Wx1 Wb c (Proc.devRef .tc b) = Wb c (Proc.devRef .tc b) := by
  unfold Wx1; exact Pipeline.withArrays_of_ne spec1 c _ _ b hb

theorem Wx3_arr (c : Dev nD) (w : Fin cfg3.W) :
    Wx3 Wd c (Proc.devRef .tc (Pipeline.arrRef spec3 w)) = (R3.dat3 (Vof (Wd c)) ((K (F := F)).Otc c 1) (Rcn (F := F) c 1) c).arrAt w cfg3.N := by
  unfold Wx3; exact Pipeline.withArrays_arr spec3 launch3.win.arr_inj c _ _ w
theorem Wx3_of_ne (c : Dev nD) (b : Ref sig .tc) (hb : ∀ w, Pipeline.arrRef spec3 w ≠ b) :
    Wx3 Wd c (Proc.devRef .tc b) = Wd c (Proc.devRef .tc b) := by
  unfold Wx3; exact Pipeline.withArrays_of_ne spec3 c _ _ b hb

set_option backward.isDefEq.respectTransparency.types false in
/-- THE ADDRESS REGION over the thread state: entered with every unscoped buffer at `Wb`, left with them at `Wx1`,
    before the gather call (the start signals still owed). Its arrays come out of the unscoped buffers and go back at what the write-backs leave; the generator
    register goes into the invariant and comes out; what the core owes rides through, its recorded pairs bounded as in
    the table region's record. -/
def reg1 : Pipeline.RDat.RegionSeg (pcfgs (F := F)) adm (rdats Wa Wb Wd We) (none : HIx 1) (defs₀ (F := F)) 𝒱₀
    (K (F := F)).L (K (F := F)).lev (1 : Fin 4) where
  win := launch1.win.to₀
  block_pos := launch1.block_pos
  stage_whole := launch1.stage_whole
  K := PEmpty
  osem k := k.elim
  ho := Pipeline.OwnSemFacts.none _
  hbody c := (R1.body_obligation1 (Vof (Wb c)) ((K (F := F)).Otc c 0) (Rcn (F := F) c 0) c).loose.toR
  hwaits c := Pipeline.RDat.cellsWaits_of_cut _ _ _ (1 : Fin 4) c 0 ((K (F := F)).Otc c 0) (fun _ => rfl)
    (fun _ _ => Finset.mem_univ _) (fun _ _ => Nat.le_refl 0) (Otc_pos c 0)
  pre c := iprop(held (T c) (Pipeline.ucRefs τ sig) (Wb c) ∗ Rr c 0)
  post c := iprop(held (T c) (Pipeline.ucRefs τ sig) (Wx1 Wb c) ∗ Rr c 0)
  X c := iprop(∃ r, prngReg c r)
  Y c := iprop(∃ r, prngReg c r)
  Z c := Pipeline.unscopedRest (Ix := HIx 1) (Name := ℕ) (U := UU) (Lvl := ℕ) spec1 c (Vof (Wb c) c)
  hentry c := by
    rw [Pipeline.ownSems0_none]
    have hsplit := Pipeline.RDat.arrays_of_unscopedBufs (p := (1 : Fin 4)) (pcfgs (F := F)) adm (rdats Wa Wb Wd We) launch1.win launch1.arr_whole c
      ((rdats Wa Wb Wd We 1 c).share_full fun _ => rfl) (Vof (Wb c) c) fun _ => rfl
    rw [Pipeline.unscopedBufs_held] at hsplit
    unfold Rr
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact sub_of_wbelow c 0 W _ hW
      iexact HO
    isplitl [Hp]; · iexact Hp
    iexact Hrest
  hin c := by
    rw [show (rdats Wa Wb Wd We 1 c).Φ 0 = R1.Φ1 c from rfl]; unfold R1.Φ1
    iintro ⟨Hp, -, Hr⟩
    isplitl [Hr]; · iexact Hr
    iexact Hp
  hout c := by
    rw [Pipeline.ownSems0_none, show (rdats Wa Wb Wd We 1 c).Φ (Fin.last _) = R1.Φ1 c from rfl]; unfold R1.Φ1
    iintro ⟨Hr, Hp⟩
    isplitl [Hp]; · iexact Hp
    isplitr; · iempintro
    iexact Hr
  hexit c := by
    have hjoin := unscopedBufs_of_rarrays (p := (1 : Fin 4)) launch1.win launch1.arr_whole c (rdats Wa Wb Wd We)
      ((rdats Wa Wb Wd We 1 c).share_full fun _ => rfl) (Vof (Wb c) c) (Vof (Wx1 Wb c) c)
      ((R1.dat1 (Vof (Wb c)) ((K (F := F)).Otc c 0) (Rcn (F := F) c 0) c).arrAt · cfg1.N)
      (fun w => (Wx1_arr Wb c w).symm)
      (fun b hb => Wx1_of_ne Wb c b fun w e => hb (Finset.mem_image.mpr ⟨w, Finset.mem_univ _, e⟩))
    rw [Pipeline.unscopedBufs_held] at hjoin
    have hjoin' : iprop((R1.dat1 (Vof (Wb c)) ((K (F := F)).Otc c 0) (Rcn (F := F) c 0) c).arrays
          ((R1.dat1 (Vof (Wb c)) ((K (F := F)).Otc c 0) (Rcn (F := F) c 0) c).arrAt · cfg1.N)
        ∗ Pipeline.unscopedRest (Ix := HIx 1) (Name := ℕ) (U := UU) (Lvl := ℕ) spec1 c (Vof (Wb c) c))
        ⊢ (held (T c) (Pipeline.ucRefs τ sig) (Wx1 Wb c) : sProp 𝕄) := hjoin
    rw [show (rdats Wa Wb Wd We 1 c).arraysAt (Pipeline.pin (pcfgs (F := F)) adm 1).N
        = (R1.dat1 (Vof (Wb c)) ((K (F := F)).Otc c 0) (Rcn (F := F) c 0) c).toR.arraysAt cfg1.N from rfl,
      Pipeline.Dat.toR_arraysAt_eq]
    unfold Rr
    iintro ⟨Ha, HO, HY, Hrest⟩
    imodintro
    isplitl [Ha Hrest]
    · iapply hjoin'
      isplitl [Ha]; · iexact Ha
      iexact Hrest
    isplitl [HY]; · iexact HY
    unfold Pipeline.RDat.owesAt Pipeline.owesWithin
    icases HO with ⟨%W, %hW, HO⟩
    iexists W; isplitr; · ipureintro; exact wbelow_of_sub c 0 _ W hW
    iexact HO

set_option backward.isDefEq.respectTransparency.types false in
/-- THE STATISTICS REGION over the thread state: entered with every unscoped buffer at `Wd`, left with them at `Wx3`,
    after the gather call (nothing owed). Its arrays come out of the unscoped buffers and go back at what the write-backs leave; the generator
    register goes into the invariant and comes out; what the core owes rides through, its recorded pairs bounded as in
    the table region's record. -/
def reg3 : Pipeline.RDat.RegionSeg (pcfgs (F := F)) adm (rdats Wa Wb Wd We) (none : HIx 1) (defs₀ (F := F)) 𝒱₀
    (K (F := F)).L (K (F := F)).lev (2 : Fin 4) where
  win := launch3.win.to₀
  block_pos := launch3.block_pos
  stage_whole := launch3.stage_whole
  K := PEmpty
  osem k := k.elim
  ho := Pipeline.OwnSemFacts.none _
  hbody c := (R3.body_obligation3 (Vof (Wd c)) ((K (F := F)).Otc c 1) (Rcn (F := F) c 1) c).loose.toR
  hwaits c := Pipeline.RDat.cellsWaits_of_cut _ _ _ (2 : Fin 4) c 0 ((K (F := F)).Otc c 1) (fun _ => rfl)
    (fun _ _ => Finset.mem_univ _) (fun _ _ => Nat.le_refl 0) (Otc_pos c 1)
  pre c := iprop(held (T c) (Pipeline.ucRefs τ sig) (Wd c) ∗ Rr c 1)
  post c := iprop(held (T c) (Pipeline.ucRefs τ sig) (Wx3 Wd c) ∗ Rr c 1)
  X c := iprop(∃ r, prngReg c r)
  Y c := iprop(∃ r, prngReg c r)
  Z c := Pipeline.unscopedRest (Ix := HIx 1) (Name := ℕ) (U := UU) (Lvl := ℕ) spec3 c (Vof (Wd c) c)
  hentry c := by
    rw [Pipeline.ownSems0_none]
    have hsplit := Pipeline.RDat.arrays_of_unscopedBufs (p := (2 : Fin 4)) (pcfgs (F := F)) adm (rdats Wa Wb Wd We) launch3.win launch3.arr_whole c
      ((rdats Wa Wb Wd We 2 c).share_full fun _ => rfl) (Vof (Wd c) c) fun _ => rfl
    rw [Pipeline.unscopedBufs_held] at hsplit
    unfold Rr
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact sub_of_wbelow c 1 W _ hW
      iexact HO
    isplitl [Hp]; · iexact Hp
    iexact Hrest
  hin c := by
    rw [show (rdats Wa Wb Wd We 2 c).Φ 0 = R3.Φ3 c from rfl]; unfold R3.Φ3
    iintro ⟨Hp, -, Hr⟩
    isplitl [Hr]; · iexact Hr
    iexact Hp
  hout c := by
    rw [Pipeline.ownSems0_none, show (rdats Wa Wb Wd We 2 c).Φ (Fin.last _) = R3.Φ3 c from rfl]; unfold R3.Φ3
    iintro ⟨Hr, Hp⟩
    isplitl [Hp]; · iexact Hp
    isplitr; · iempintro
    iexact Hr
  hexit c := by
    have hjoin := unscopedBufs_of_rarrays (p := (2 : Fin 4)) launch3.win launch3.arr_whole c (rdats Wa Wb Wd We)
      ((rdats Wa Wb Wd We 2 c).share_full fun _ => rfl) (Vof (Wd c) c) (Vof (Wx3 Wd c) c)
      ((R3.dat3 (Vof (Wd c)) ((K (F := F)).Otc c 1) (Rcn (F := F) c 1) c).arrAt · cfg3.N)
      (fun w => (Wx3_arr Wd c w).symm)
      (fun b hb => Wx3_of_ne Wd c b fun w e => hb (Finset.mem_image.mpr ⟨w, Finset.mem_univ _, e⟩))
    rw [Pipeline.unscopedBufs_held] at hjoin
    have hjoin' : iprop((R3.dat3 (Vof (Wd c)) ((K (F := F)).Otc c 1) (Rcn (F := F) c 1) c).arrays
          ((R3.dat3 (Vof (Wd c)) ((K (F := F)).Otc c 1) (Rcn (F := F) c 1) c).arrAt · cfg3.N)
        ∗ Pipeline.unscopedRest (Ix := HIx 1) (Name := ℕ) (U := UU) (Lvl := ℕ) spec3 c (Vof (Wd c) c))
        ⊢ (held (T c) (Pipeline.ucRefs τ sig) (Wx3 Wd c) : sProp 𝕄) := hjoin
    rw [show (rdats Wa Wb Wd We 2 c).arraysAt (Pipeline.pin (pcfgs (F := F)) adm 2).N
        = (R3.dat3 (Vof (Wd c)) ((K (F := F)).Otc c 1) (Rcn (F := F) c 1) c).toR.arraysAt cfg3.N from rfl,
      Pipeline.Dat.toR_arraysAt_eq]
    unfold Rr
    iintro ⟨Ha, HO, HY, Hrest⟩
    imodintro
    isplitl [Ha Hrest]
    · iapply hjoin'
      isplitl [Ha]; · iexact Ha
      iexact Hrest
    isplitl [HY]; · iexact HY
    unfold Pipeline.RDat.owesAt Pipeline.owesWithin
    icases HO with ⟨%W, %hW, HO⟩
    iexists W; isplitr; · ipureintro; exact wbelow_of_sub c 1 _ W hW
    iexact HO

/-- The normalisation region's arrays at its exit: the four inputs as entered, the result at the normalised array of them. -/
def A4 (c : Dev nD) : (w : Fin cfg4.W) → Buf (Elt F) ((cfg4.win w).arr.view.loc (c.tc : Thread nD τ))
  | ⟨0, _⟩ => Vof (We c) c (Pipeline.arrRef spec4 0)
  | ⟨1, _⟩ => Vof (We c) c (Pipeline.arrRef spec4 1)
  | ⟨2, _⟩ => Vof (We c) c (Pipeline.arrRef spec4 2)
  | ⟨3, _⟩ => Vof (We c) c (Pipeline.arrRef spec4 3)
  | ⟨4, _⟩ => R4.normOf (Vof (We c) c main_v28) (Vof (We c) c main_v26) (Vof (We c) c main_v29) (Vof (We c) c main_v30)

/-- The normalisation region's exit valuation: its arrays at `A4`, every other buffer as entered. -/
def Wx4 (c : Dev nD) : Valuation τ sig (Elt F) := Pipeline.withArrays spec4 c (We c) (A4 We c)

theorem Wx4_arr (c : Dev nD) (w : Fin cfg4.W) : Wx4 We c (Proc.devRef .tc (Pipeline.arrRef spec4 w)) = A4 We c w := by
  unfold Wx4; exact Pipeline.withArrays_arr spec4 launch4.win.arr_inj c _ _ w
theorem Wx4_of_ne (c : Dev nD) (b : Ref sig .tc) (hb : ∀ w, Pipeline.arrRef spec4 w ≠ b) :
    Wx4 We c (Proc.devRef .tc b) = We c (Proc.devRef .tc b) := by
  unfold Wx4; exact Pipeline.withArrays_of_ne spec4 c _ _ b hb

/-- Whatever the normalisation region's arrays may hold after the last write-back is `A4`: an input array is never
    written, and the result array is the normalised array. -/
theorem ArrAt4 (c : Dev nD) (w : Fin cfg4.W) (Z : Buf (Elt F) ((cfg4.win w).arr.view.loc (c.tc : Thread nD τ)))
    (h : (R4.rdat4 (Vof (We c)) ((K (F := F)).Otc c 1) (Rcn (F := F) c 1) c).ArrAt w cfg4.N Z) : Z = A4 We c w := by
  match w with
  | ⟨0, _⟩ => exact (congrFun (Pipeline.RDat.ArrAt_in _ _ rfl cfg4.N) Z).mp h
  | ⟨1, _⟩ => exact (congrFun (Pipeline.RDat.ArrAt_in _ _ rfl cfg4.N) Z).mp h
  | ⟨2, _⟩ => exact (congrFun (Pipeline.RDat.ArrAt_in _ _ rfl cfg4.N) Z).mp h
  | ⟨3, _⟩ => exact (congrFun (Pipeline.RDat.ArrAt_in _ _ rfl cfg4.N) Z).mp h
  | ⟨4, _⟩ => exact R4.norm_of_ArrAt (Vof (We c)) _ _ c Z h

/-- So the arrays at whatever they may hold then are the arrays at `A4`. -/
theorem arraysAt4 (c : Dev nD) :
    (R4.rdat4 (Vof (We c)) ((K (F := F)).Otc c 1) (Rcn (F := F) c 1) c).arraysAt cfg4.N
      ⊢ ((R4.rdat4 (Vof (We c)) ((K (F := F)).Otc c 1) (Rcn (F := F) c 1) c).arrays (A4 We c) : sProp 𝕄) := by
  unfold Pipeline.RDat.arraysAt Pipeline.RDat.arrays
  exact BI.bigSep_mono fun w _ =>
    show iprop(∃ Z, ⌜(R4.rdat4 (Vof (We c)) ((K (F := F)).Otc c 1) (Rcn (F := F) c 1) c).ArrAt w cfg4.N Z⌝
          ∗ (cfg4.win w).arr.view.loc (c.tc : Thread nD τ) ↦[(cfg4.win w).arr.view.set]{(R4.rdat4 (Vof (We c)) ((K (F := F)).Otc c 1) (Rcn (F := F) c 1) c).share w} Z)
        ⊢ ((cfg4.win w).arr.view.loc (c.tc : Thread nD τ) ↦[(cfg4.win w).arr.view.set]{(R4.rdat4 (Vof (We c)) ((K (F := F)).Otc c 1) (Rcn (F := F) c 1) c).share w} A4 We c w : sProp 𝕄) from by
      iintro ⟨%Z, %hZ, H⟩
      have e := ArrAt4 We c w Z hZ
      subst e
      iexact H

set_option backward.isDefEq.respectTransparency.types false in
/-- THE NORMALISATION REGION over the thread state: entered with every unscoped buffer at `We`, left with them at `Wx4`,
    after the gather call (nothing owed). Its proof data constrains what the body leaves instead of naming it, so at
    the exit each array is held at some contents it may hold, and those are `A4`. -/
def reg4 : Pipeline.RDat.RegionSeg (pcfgs (F := F)) adm (rdats Wa Wb Wd We) (none : HIx 1) (defs₀ (F := F)) 𝒱₀
    (K (F := F)).L (K (F := F)).lev (3 : Fin 4) where
  win := launch4.win.to₀
  block_pos := launch4.block_pos
  stage_whole := launch4.stage_whole
  K := PEmpty
  osem k := k.elim
  ho := Pipeline.OwnSemFacts.none _
  hbody c := R4.body_obligation4 (Vof (We c)) ((K (F := F)).Otc c 1) (Rcn (F := F) c 1) c
  hwaits c := Pipeline.RDat.cellsWaits_of_cut _ _ _ (3 : Fin 4) c 0 ((K (F := F)).Otc c 1) (fun _ => rfl)
    (fun _ _ => Finset.mem_univ _) (fun _ _ => Nat.le_refl 0) (Otc_pos c 1)
  pre c := iprop(held (T c) (Pipeline.ucRefs τ sig) (We c) ∗ Rr c 1)
  post c := iprop(held (T c) (Pipeline.ucRefs τ sig) (Wx4 We c) ∗ Rr c 1)
  X c := iprop(∃ r, prngReg c r)
  Y c := iprop(∃ r, prngReg c r)
  Z c := Pipeline.unscopedRest (Ix := HIx 1) (Name := ℕ) (U := UU) (Lvl := ℕ) spec4 c (Vof (We c) c)
  hentry c := by
    rw [Pipeline.ownSems0_none]
    have hsplit := Pipeline.RDat.arrays_of_unscopedBufs (p := (3 : Fin 4)) (pcfgs (F := F)) adm (rdats Wa Wb Wd We) launch4.win launch4.arr_whole c
      ((rdats Wa Wb Wd We 3 c).share_full fun _ => rfl) (Vof (We c) c) fun _ => rfl
    rw [Pipeline.unscopedBufs_held] at hsplit
    unfold Rr
    iintro ⟨⟨Hub, Hp, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact sub_of_wbelow c 1 W _ hW
      iexact HO
    isplitl [Hp]; · iexact Hp
    iexact Hrest
  hin c := by
    rw [show (rdats Wa Wb Wd We 3 c).Φ 0 = R4.Φ4 c from rfl]; unfold R4.Φ4
    iintro ⟨Hp, -, Hr⟩
    isplitl [Hr]; · iexact Hr
    iexact Hp
  hout c := by
    rw [Pipeline.ownSems0_none, show (rdats Wa Wb Wd We 3 c).Φ (Fin.last _) = R4.Φ4 c from rfl]; unfold R4.Φ4
    iintro ⟨Hr, Hp⟩
    isplitl [Hp]; · iexact Hp
    isplitr; · iempintro
    iexact Hr
  hexit c := by
    have hjoin := unscopedBufs_of_rarrays (p := (3 : Fin 4)) launch4.win launch4.arr_whole c (rdats Wa Wb Wd We)
      ((rdats Wa Wb Wd We 3 c).share_full fun _ => rfl) (Vof (We c) c) (Vof (Wx4 We c) c) (A4 We c)
      (fun w => (Wx4_arr We c w).symm)
      (fun b hb => Wx4_of_ne We c b fun w e => hb (Finset.mem_image.mpr ⟨w, Finset.mem_univ _, e⟩))
    rw [Pipeline.unscopedBufs_held] at hjoin
    have hjoin' : iprop((R4.rdat4 (Vof (We c)) ((K (F := F)).Otc c 1) (Rcn (F := F) c 1) c).arrays (A4 We c)
        ∗ Pipeline.unscopedRest (Ix := HIx 1) (Name := ℕ) (U := UU) (Lvl := ℕ) spec4 c (Vof (We c) c))
        ⊢ (held (T c) (Pipeline.ucRefs τ sig) (Wx4 We c) : sProp 𝕄) := hjoin
    have harr := arraysAt4 We c
    rw [show (rdats Wa Wb Wd We 3 c).arraysAt (Pipeline.pin (pcfgs (F := F)) adm 3).N
        = (R4.rdat4 (Vof (We c)) ((K (F := F)).Otc c 1) (Rcn (F := F) c 1) c).arraysAt cfg4.N from rfl]
    unfold Rr
    iintro ⟨Ha, HO, HY, Hrest⟩
    ihave Ha := harr $$ Ha
    imodintro
    isplitl [Ha Hrest]
    · iapply hjoin'
      isplitl [Ha]; · iexact Ha
      iexact Hrest
    isplitl [HY]; · iexact HY
    unfold Pipeline.RDat.owesAt Pipeline.owesWithin
    icases HO with ⟨%W, %hW, HO⟩
    iexists W; isplitr; · ipureintro; exact wbelow_of_sub c 1 _ W hW
    iexact HO

end Family

/-! ## The regions' steps -/

section Steps

variable (P : (K (F := F)).Pay (nD := nD) (Val := Elt F) (Name := ℕ) (U := UU)) (κ : GSem nD τ sig → ℕ)
variable (Wa Wb Wd We : Dev nD → Valuation τ sig (Elt F))

include Wb Wd We in
/-- The table region's step: from `Wa` to `Wx0`, entered before the gather call. -/
theorem step0 (d : Dev nD) : RegionStep P κ 0 0 d (Wa d) (Wx0 Wa d) :=
  region_step_of P κ (rdats Wa Wb Wd We) 0 0 d (Wa d) (Wx0 Wa d) (reg0 Wa Wb Wd We) rfl rfl

include Wa Wd We in
/-- The address region's step: from `Wb` to `Wx1`, entered before the gather call. -/
theorem step1 (d : Dev nD) : RegionStep P κ 1 0 d (Wb d) (Wx1 Wb d) :=
  region_step_of P κ (rdats Wa Wb Wd We) 1 0 d (Wb d) (Wx1 Wb d) (reg1 Wa Wb Wd We) rfl rfl

include Wa Wb We in
/-- The statistics region's step: from `Wd` to `Wx3`, entered after the gather call. -/
theorem step2 (d : Dev nD) : RegionStep P κ 2 1 d (Wd d) (Wx3 Wd d) :=
  region_step_of P κ (rdats Wa Wb Wd We) 2 1 d (Wd d) (Wx3 Wd d) (reg3 Wa Wb Wd We) rfl rfl

include Wa Wb Wd in
/-- The normalisation region's step: from `We` to `Wx4`, entered after the gather call. -/
theorem step3 (d : Dev nD) : RegionStep P κ 3 1 d (We d) (Wx4 We d) :=
  region_step_of P κ (rdats Wa Wb Wd We) 3 1 d (We d) (Wx4 We d) (reg4 Wa Wb Wd We) rfl rfl

end Steps

end Cert.Proof.KI

end
-- ==== Proof.ScFacts.lean ====
/-
  Facts about the gather kernel's printed offsets and conditions, decided over the loops' trips.

  Chunk k = 10 g + b (group g, slot b) accumulates into rows (k mod 50) · 5 + t of the accumulation scratch, t the
  chunk's group of four rows, lanes 16 c … 16 c + 15 for the lane chunk c. Only the tenth slot's chunk can be the last
  of a part (k mod 50 = 49 needs b = 9), and it is when g mod 5 = 4; a slot is refilled unless the group is the last.
-/
import proofs.«207241_g55714315764006_cont_9to1c4b_410_29_alg».proof.Proof.Gen.KernelIdeal
import Idealize.ShloMosaic.Lib.Tactic

namespace Cert.Proof.KI.Sc

open Cert.KernelIdeal Cert.KernelIdeal.Gen
open Idealize.ShloMosaic Idealize.ShloMosaic.Tactic Idealize.ShloMosaic.Tactic.Exec

/-! ## The conditions of a group's trip -/
theorem cond_out0 : ∀ t : Fin k2_t1_loop.trips, ¬ k2_cond1 t = 1#1 := by decide +kernel
theorem cond_out1 : ∀ t : Fin k2_t1_loop.trips, ¬ k2_cond3 t = 1#1 := by decide +kernel
theorem cond_out2 : ∀ t : Fin k2_t1_loop.trips, ¬ k2_cond5 t = 1#1 := by decide +kernel
theorem cond_out3 : ∀ t : Fin k2_t1_loop.trips, ¬ k2_cond7 t = 1#1 := by decide +kernel
theorem cond_out4 : ∀ t : Fin k2_t1_loop.trips, ¬ k2_cond9 t = 1#1 := by decide +kernel
theorem cond_out5 : ∀ t : Fin k2_t1_loop.trips, ¬ k2_cond11 t = 1#1 := by decide +kernel
theorem cond_out6 : ∀ t : Fin k2_t1_loop.trips, ¬ k2_cond13 t = 1#1 := by decide +kernel
theorem cond_out7 : ∀ t : Fin k2_t1_loop.trips, ¬ k2_cond15 t = 1#1 := by decide +kernel
theorem cond_out8 : ∀ t : Fin k2_t1_loop.trips, ¬ k2_cond17 t = 1#1 := by decide +kernel
theorem cond_out9_pos : ∀ t : Fin k2_t1_loop.trips, t.val % 5 = 4 → k2_cond19 t = 1#1 := by decide +kernel
theorem cond_out9_neg : ∀ t : Fin k2_t1_loop.trips, ¬ t.val % 5 = 4 → ¬ k2_cond19 t = 1#1 := by decide +kernel
theorem cond_re0_pos : ∀ t : Fin k2_t1_loop.trips, t.val < 24 → k2_cond2 t = 1#1 := by decide +kernel
theorem cond_re0_neg : ∀ t : Fin k2_t1_loop.trips, ¬ t.val < 24 → ¬ k2_cond2 t = 1#1 := by decide +kernel
theorem cond_re1_pos : ∀ t : Fin k2_t1_loop.trips, t.val < 24 → k2_cond4 t = 1#1 := by decide +kernel
theorem cond_re1_neg : ∀ t : Fin k2_t1_loop.trips, ¬ t.val < 24 → ¬ k2_cond4 t = 1#1 := by decide +kernel
theorem cond_re2_pos : ∀ t : Fin k2_t1_loop.trips, t.val < 24 → k2_cond6 t = 1#1 := by decide +kernel
theorem cond_re2_neg : ∀ t : Fin k2_t1_loop.trips, ¬ t.val < 24 → ¬ k2_cond6 t = 1#1 := by decide +kernel
theorem cond_re3_pos : ∀ t : Fin k2_t1_loop.trips, t.val < 24 → k2_cond8 t = 1#1 := by decide +kernel
theorem cond_re3_neg : ∀ t : Fin k2_t1_loop.trips, ¬ t.val < 24 → ¬ k2_cond8 t = 1#1 := by decide +kernel
theorem cond_re4_pos : ∀ t : Fin k2_t1_loop.trips, t.val < 24 → k2_cond10 t = 1#1 := by decide +kernel
theorem cond_re4_neg : ∀ t : Fin k2_t1_loop.trips, ¬ t.val < 24 → ¬ k2_cond10 t = 1#1 := by decide +kernel
theorem cond_re5_pos : ∀ t : Fin k2_t1_loop.trips, t.val < 24 → k2_cond12 t = 1#1 := by decide +kernel
theorem cond_re5_neg : ∀ t : Fin k2_t1_loop.trips, ¬ t.val < 24 → ¬ k2_cond12 t = 1#1 := by decide +kernel
theorem cond_re6_pos : ∀ t : Fin k2_t1_loop.trips, t.val < 24 → k2_cond14 t = 1#1 := by decide +kernel
theorem cond_re6_neg : ∀ t : Fin k2_t1_loop.trips, ¬ t.val < 24 → ¬ k2_cond14 t = 1#1 := by decide +kernel
theorem cond_re7_pos : ∀ t : Fin k2_t1_loop.trips, t.val < 24 → k2_cond16 t = 1#1 := by decide +kernel
theorem cond_re7_neg : ∀ t : Fin k2_t1_loop.trips, ¬ t.val < 24 → ¬ k2_cond16 t = 1#1 := by decide +kernel
theorem cond_re8_pos : ∀ t : Fin k2_t1_loop.trips, t.val < 24 → k2_cond18 t = 1#1 := by decide +kernel
theorem cond_re8_neg : ∀ t : Fin k2_t1_loop.trips, ¬ t.val < 24 → ¬ k2_cond18 t = 1#1 := by decide +kernel
theorem cond_re9_pos : ∀ t : Fin k2_t1_loop.trips, t.val < 24 → k2_cond20 t = 1#1 := by decide +kernel
theorem cond_re9_neg : ∀ t : Fin k2_t1_loop.trips, ¬ t.val < 24 → ¬ k2_cond20 t = 1#1 := by decide +kernel

/-! ## The loops' trip counts -/
theorem trips_t1 : k2_t1_loop.trips = 25 := by decide +kernel
theorem trips_t2 : k2_t2_loop.trips = 5 := by decide +kernel
theorem trips_t3 : k2_t3_loop.trips = 5 := by decide +kernel
theorem trips_t4 : k2_t4_loop.trips = 5 := by decide +kernel
theorem trips_t5 : k2_t5_loop.trips = 5 := by decide +kernel
theorem trips_t6 : k2_t6_loop.trips = 5 := by decide +kernel
theorem trips_t7 : k2_t7_loop.trips = 5 := by decide +kernel
theorem trips_t8 : k2_t8_loop.trips = 5 := by decide +kernel
theorem trips_t9 : k2_t9_loop.trips = 5 := by decide +kernel
theorem trips_t10 : k2_t10_loop.trips = 5 := by decide +kernel
theorem trips_t11 : k2_t11_loop.trips = 5 := by decide +kernel

/-! ## The accumulation scratch's offsets in closed form -/
theorem acc_off_0_0 : ∀ (k : Fin k2_t1_loop.trips) (t : Fin k2_t2_loop.trips), k2_off5 k t = ![((10 * k.val + 0) % 50) * 5 + t.val, 0] := by decide +kernel
instance closedOff_acc_0_0 (k : Fin k2_t1_loop.trips) (t : Fin k2_t2_loop.trips) : ClosedOff (k2_off5 k t) := ⟨_, acc_off_0_0 k t⟩
theorem acc_off_0_1 : ∀ (k : Fin k2_t1_loop.trips) (t : Fin k2_t2_loop.trips), k2_off8 k t = ![((10 * k.val + 0) % 50) * 5 + t.val, 16] := by decide +kernel
instance closedOff_acc_0_1 (k : Fin k2_t1_loop.trips) (t : Fin k2_t2_loop.trips) : ClosedOff (k2_off8 k t) := ⟨_, acc_off_0_1 k t⟩
theorem acc_off_0_2 : ∀ (k : Fin k2_t1_loop.trips) (t : Fin k2_t2_loop.trips), k2_off11 k t = ![((10 * k.val + 0) % 50) * 5 + t.val, 32] := by decide +kernel
instance closedOff_acc_0_2 (k : Fin k2_t1_loop.trips) (t : Fin k2_t2_loop.trips) : ClosedOff (k2_off11 k t) := ⟨_, acc_off_0_2 k t⟩
theorem acc_off_0_3 : ∀ (k : Fin k2_t1_loop.trips) (t : Fin k2_t2_loop.trips), k2_off14 k t = ![((10 * k.val + 0) % 50) * 5 + t.val, 48] := by decide +kernel
instance closedOff_acc_0_3 (k : Fin k2_t1_loop.trips) (t : Fin k2_t2_loop.trips) : ClosedOff (k2_off14 k t) := ⟨_, acc_off_0_3 k t⟩
theorem acc_off_0_4 : ∀ (k : Fin k2_t1_loop.trips) (t : Fin k2_t2_loop.trips), k2_off17 k t = ![((10 * k.val + 0) % 50) * 5 + t.val, 64] := by decide +kernel
instance closedOff_acc_0_4 (k : Fin k2_t1_loop.trips) (t : Fin k2_t2_loop.trips) : ClosedOff (k2_off17 k t) := ⟨_, acc_off_0_4 k t⟩
theorem acc_off_1_0 : ∀ (k : Fin k2_t1_loop.trips) (t : Fin k2_t3_loop.trips), k2_off22 k t = ![((10 * k.val + 1) % 50) * 5 + t.val, 0] := by decide +kernel
instance closedOff_acc_1_0 (k : Fin k2_t1_loop.trips) (t : Fin k2_t3_loop.trips) : ClosedOff (k2_off22 k t) := ⟨_, acc_off_1_0 k t⟩
theorem acc_off_1_1 : ∀ (k : Fin k2_t1_loop.trips) (t : Fin k2_t3_loop.trips), k2_off25 k t = ![((10 * k.val + 1) % 50) * 5 + t.val, 16] := by decide +kernel
instance closedOff_acc_1_1 (k : Fin k2_t1_loop.trips) (t : Fin k2_t3_loop.trips) : ClosedOff (k2_off25 k t) := ⟨_, acc_off_1_1 k t⟩
theorem acc_off_1_2 : ∀ (k : Fin k2_t1_loop.trips) (t : Fin k2_t3_loop.trips), k2_off28 k t = ![((10 * k.val + 1) % 50) * 5 + t.val, 32] := by decide +kernel
instance closedOff_acc_1_2 (k : Fin k2_t1_loop.trips) (t : Fin k2_t3_loop.trips) : ClosedOff (k2_off28 k t) := ⟨_, acc_off_1_2 k t⟩
theorem acc_off_1_3 : ∀ (k : Fin k2_t1_loop.trips) (t : Fin k2_t3_loop.trips), k2_off31 k t = ![((10 * k.val + 1) % 50) * 5 + t.val, 48] := by decide +kernel
instance closedOff_acc_1_3 (k : Fin k2_t1_loop.trips) (t : Fin k2_t3_loop.trips) : ClosedOff (k2_off31 k t) := ⟨_, acc_off_1_3 k t⟩
theorem acc_off_1_4 : ∀ (k : Fin k2_t1_loop.trips) (t : Fin k2_t3_loop.trips), k2_off34 k t = ![((10 * k.val + 1) % 50) * 5 + t.val, 64] := by decide +kernel
instance closedOff_acc_1_4 (k : Fin k2_t1_loop.trips) (t : Fin k2_t3_loop.trips) : ClosedOff (k2_off34 k t) := ⟨_, acc_off_1_4 k t⟩
theorem acc_off_2_0 : ∀ (k : Fin k2_t1_loop.trips) (t : Fin k2_t4_loop.trips), k2_off39 k t = ![((10 * k.val + 2) % 50) * 5 + t.val, 0] := by decide +kernel
instance closedOff_acc_2_0 (k : Fin k2_t1_loop.trips) (t : Fin k2_t4_loop.trips) : ClosedOff (k2_off39 k t) := ⟨_, acc_off_2_0 k t⟩
theorem acc_off_2_1 : ∀ (k : Fin k2_t1_loop.trips) (t : Fin k2_t4_loop.trips), k2_off42 k t = ![((10 * k.val + 2) % 50) * 5 + t.val, 16] := by decide +kernel
instance closedOff_acc_2_1 (k : Fin k2_t1_loop.trips) (t : Fin k2_t4_loop.trips) : ClosedOff (k2_off42 k t) := ⟨_, acc_off_2_1 k t⟩
theorem acc_off_2_2 : ∀ (k : Fin k2_t1_loop.trips) (t : Fin k2_t4_loop.trips), k2_off45 k t = ![((10 * k.val + 2) % 50) * 5 + t.val, 32] := by decide +kernel
instance closedOff_acc_2_2 (k : Fin k2_t1_loop.trips) (t : Fin k2_t4_loop.trips) : ClosedOff (k2_off45 k t) := ⟨_, acc_off_2_2 k t⟩
theorem acc_off_2_3 : ∀ (k : Fin k2_t1_loop.trips) (t : Fin k2_t4_loop.trips), k2_off48 k t = ![((10 * k.val + 2) % 50) * 5 + t.val, 48] := by decide +kernel
instance closedOff_acc_2_3 (k : Fin k2_t1_loop.trips) (t : Fin k2_t4_loop.trips) : ClosedOff (k2_off48 k t) := ⟨_, acc_off_2_3 k t⟩
theorem acc_off_2_4 : ∀ (k : Fin k2_t1_loop.trips) (t : Fin k2_t4_loop.trips), k2_off51 k t = ![((10 * k.val + 2) % 50) * 5 + t.val, 64] := by decide +kernel
instance closedOff_acc_2_4 (k : Fin k2_t1_loop.trips) (t : Fin k2_t4_loop.trips) : ClosedOff (k2_off51 k t) := ⟨_, acc_off_2_4 k t⟩
theorem acc_off_3_0 : ∀ (k : Fin k2_t1_loop.trips) (t : Fin k2_t5_loop.trips), k2_off56 k t = ![((10 * k.val + 3) % 50) * 5 + t.val, 0] := by decide +kernel
instance closedOff_acc_3_0 (k : Fin k2_t1_loop.trips) (t : Fin k2_t5_loop.trips) : ClosedOff (k2_off56 k t) := ⟨_, acc_off_3_0 k t⟩
theorem acc_off_3_1 : ∀ (k : Fin k2_t1_loop.trips) (t : Fin k2_t5_loop.trips), k2_off59 k t = ![((10 * k.val + 3) % 50) * 5 + t.val, 16] := by decide +kernel
instance closedOff_acc_3_1 (k : Fin k2_t1_loop.trips) (t : Fin k2_t5_loop.trips) : ClosedOff (k2_off59 k t) := ⟨_, acc_off_3_1 k t⟩
theorem acc_off_3_2 : ∀ (k : Fin k2_t1_loop.trips) (t : Fin k2_t5_loop.trips), k2_off62 k t = ![((10 * k.val + 3) % 50) * 5 + t.val, 32] := by decide +kernel
instance closedOff_acc_3_2 (k : Fin k2_t1_loop.trips) (t : Fin k2_t5_loop.trips) : ClosedOff (k2_off62 k t) := ⟨_, acc_off_3_2 k t⟩
theorem acc_off_3_3 : ∀ (k : Fin k2_t1_loop.trips) (t : Fin k2_t5_loop.trips), k2_off65 k t = ![((10 * k.val + 3) % 50) * 5 + t.val, 48] := by decide +kernel
instance closedOff_acc_3_3 (k : Fin k2_t1_loop.trips) (t : Fin k2_t5_loop.trips) : ClosedOff (k2_off65 k t) := ⟨_, acc_off_3_3 k t⟩
theorem acc_off_3_4 : ∀ (k : Fin k2_t1_loop.trips) (t : Fin k2_t5_loop.trips), k2_off68 k t = ![((10 * k.val + 3) % 50) * 5 + t.val, 64] := by decide +kernel
instance closedOff_acc_3_4 (k : Fin k2_t1_loop.trips) (t : Fin k2_t5_loop.trips) : ClosedOff (k2_off68 k t) := ⟨_, acc_off_3_4 k t⟩
theorem acc_off_4_0 : ∀ (k : Fin k2_t1_loop.trips) (t : Fin k2_t6_loop.trips), k2_off73 k t = ![((10 * k.val + 4) % 50) * 5 + t.val, 0] := by decide +kernel
instance closedOff_acc_4_0 (k : Fin k2_t1_loop.trips) (t : Fin k2_t6_loop.trips) : ClosedOff (k2_off73 k t) := ⟨_, acc_off_4_0 k t⟩
theorem acc_off_4_1 : ∀ (k : Fin k2_t1_loop.trips) (t : Fin k2_t6_loop.trips), k2_off76 k t = ![((10 * k.val + 4) % 50) * 5 + t.val, 16] := by decide +kernel
instance closedOff_acc_4_1 (k : Fin k2_t1_loop.trips) (t : Fin k2_t6_loop.trips) : ClosedOff (k2_off76 k t) := ⟨_, acc_off_4_1 k t⟩
theorem acc_off_4_2 : ∀ (k : Fin k2_t1_loop.trips) (t : Fin k2_t6_loop.trips), k2_off79 k t = ![((10 * k.val + 4) % 50) * 5 + t.val, 32] := by decide +kernel
instance closedOff_acc_4_2 (k : Fin k2_t1_loop.trips) (t : Fin k2_t6_loop.trips) : ClosedOff (k2_off79 k t) := ⟨_, acc_off_4_2 k t⟩
theorem acc_off_4_3 : ∀ (k : Fin k2_t1_loop.trips) (t : Fin k2_t6_loop.trips), k2_off82 k t = ![((10 * k.val + 4) % 50) * 5 + t.val, 48] := by decide +kernel
instance closedOff_acc_4_3 (k : Fin k2_t1_loop.trips) (t : Fin k2_t6_loop.trips) : ClosedOff (k2_off82 k t) := ⟨_, acc_off_4_3 k t⟩
theorem acc_off_4_4 : ∀ (k : Fin k2_t1_loop.trips) (t : Fin k2_t6_loop.trips), k2_off85 k t = ![((10 * k.val + 4) % 50) * 5 + t.val, 64] := by decide +kernel
instance closedOff_acc_4_4 (k : Fin k2_t1_loop.trips) (t : Fin k2_t6_loop.trips) : ClosedOff (k2_off85 k t) := ⟨_, acc_off_4_4 k t⟩
theorem acc_off_5_0 : ∀ (k : Fin k2_t1_loop.trips) (t : Fin k2_t7_loop.trips), k2_off90 k t = ![((10 * k.val + 5) % 50) * 5 + t.val, 0] := by decide +kernel
instance closedOff_acc_5_0 (k : Fin k2_t1_loop.trips) (t : Fin k2_t7_loop.trips) : ClosedOff (k2_off90 k t) := ⟨_, acc_off_5_0 k t⟩
theorem acc_off_5_1 : ∀ (k : Fin k2_t1_loop.trips) (t : Fin k2_t7_loop.trips), k2_off93 k t = ![((10 * k.val + 5) % 50) * 5 + t.val, 16] := by decide +kernel
instance closedOff_acc_5_1 (k : Fin k2_t1_loop.trips) (t : Fin k2_t7_loop.trips) : ClosedOff (k2_off93 k t) := ⟨_, acc_off_5_1 k t⟩
theorem acc_off_5_2 : ∀ (k : Fin k2_t1_loop.trips) (t : Fin k2_t7_loop.trips), k2_off96 k t = ![((10 * k.val + 5) % 50) * 5 + t.val, 32] := by decide +kernel
instance closedOff_acc_5_2 (k : Fin k2_t1_loop.trips) (t : Fin k2_t7_loop.trips) : ClosedOff (k2_off96 k t) := ⟨_, acc_off_5_2 k t⟩
theorem acc_off_5_3 : ∀ (k : Fin k2_t1_loop.trips) (t : Fin k2_t7_loop.trips), k2_off99 k t = ![((10 * k.val + 5) % 50) * 5 + t.val, 48] := by decide +kernel
instance closedOff_acc_5_3 (k : Fin k2_t1_loop.trips) (t : Fin k2_t7_loop.trips) : ClosedOff (k2_off99 k t) := ⟨_, acc_off_5_3 k t⟩
theorem acc_off_5_4 : ∀ (k : Fin k2_t1_loop.trips) (t : Fin k2_t7_loop.trips), k2_off102 k t = ![((10 * k.val + 5) % 50) * 5 + t.val, 64] := by decide +kernel
instance closedOff_acc_5_4 (k : Fin k2_t1_loop.trips) (t : Fin k2_t7_loop.trips) : ClosedOff (k2_off102 k t) := ⟨_, acc_off_5_4 k t⟩
theorem acc_off_6_0 : ∀ (k : Fin k2_t1_loop.trips) (t : Fin k2_t8_loop.trips), k2_off107 k t = ![((10 * k.val + 6) % 50) * 5 + t.val, 0] := by decide +kernel
instance closedOff_acc_6_0 (k : Fin k2_t1_loop.trips) (t : Fin k2_t8_loop.trips) : ClosedOff (k2_off107 k t) := ⟨_, acc_off_6_0 k t⟩
theorem acc_off_6_1 : ∀ (k : Fin k2_t1_loop.trips) (t : Fin k2_t8_loop.trips), k2_off110 k t = ![((10 * k.val + 6) % 50) * 5 + t.val, 16] := by decide +kernel
instance closedOff_acc_6_1 (k : Fin k2_t1_loop.trips) (t : Fin k2_t8_loop.trips) : ClosedOff (k2_off110 k t) := ⟨_, acc_off_6_1 k t⟩
theorem acc_off_6_2 : ∀ (k : Fin k2_t1_loop.trips) (t : Fin k2_t8_loop.trips), k2_off113 k t = ![((10 * k.val + 6) % 50) * 5 + t.val, 32] := by decide +kernel
instance closedOff_acc_6_2 (k : Fin k2_t1_loop.trips) (t : Fin k2_t8_loop.trips) : ClosedOff (k2_off113 k t) := ⟨_, acc_off_6_2 k t⟩
theorem acc_off_6_3 : ∀ (k : Fin k2_t1_loop.trips) (t : Fin k2_t8_loop.trips), k2_off116 k t = ![((10 * k.val + 6) % 50) * 5 + t.val, 48] := by decide +kernel
instance closedOff_acc_6_3 (k : Fin k2_t1_loop.trips) (t : Fin k2_t8_loop.trips) : ClosedOff (k2_off116 k t) := ⟨_, acc_off_6_3 k t⟩
theorem acc_off_6_4 : ∀ (k : Fin k2_t1_loop.trips) (t : Fin k2_t8_loop.trips), k2_off119 k t = ![((10 * k.val + 6) % 50) * 5 + t.val, 64] := by decide +kernel
instance closedOff_acc_6_4 (k : Fin k2_t1_loop.trips) (t : Fin k2_t8_loop.trips) : ClosedOff (k2_off119 k t) := ⟨_, acc_off_6_4 k t⟩
theorem acc_off_7_0 : ∀ (k : Fin k2_t1_loop.trips) (t : Fin k2_t9_loop.trips), k2_off124 k t = ![((10 * k.val + 7) % 50) * 5 + t.val, 0] := by decide +kernel
instance closedOff_acc_7_0 (k : Fin k2_t1_loop.trips) (t : Fin k2_t9_loop.trips) : ClosedOff (k2_off124 k t) := ⟨_, acc_off_7_0 k t⟩
theorem acc_off_7_1 : ∀ (k : Fin k2_t1_loop.trips) (t : Fin k2_t9_loop.trips), k2_off127 k t = ![((10 * k.val + 7) % 50) * 5 + t.val, 16] := by decide +kernel
instance closedOff_acc_7_1 (k : Fin k2_t1_loop.trips) (t : Fin k2_t9_loop.trips) : ClosedOff (k2_off127 k t) := ⟨_, acc_off_7_1 k t⟩
theorem acc_off_7_2 : ∀ (k : Fin k2_t1_loop.trips) (t : Fin k2_t9_loop.trips), k2_off130 k t = ![((10 * k.val + 7) % 50) * 5 + t.val, 32] := by decide +kernel
instance closedOff_acc_7_2 (k : Fin k2_t1_loop.trips) (t : Fin k2_t9_loop.trips) : ClosedOff (k2_off130 k t) := ⟨_, acc_off_7_2 k t⟩
theorem acc_off_7_3 : ∀ (k : Fin k2_t1_loop.trips) (t : Fin k2_t9_loop.trips), k2_off133 k t = ![((10 * k.val + 7) % 50) * 5 + t.val, 48] := by decide +kernel
instance closedOff_acc_7_3 (k : Fin k2_t1_loop.trips) (t : Fin k2_t9_loop.trips) : ClosedOff (k2_off133 k t) := ⟨_, acc_off_7_3 k t⟩
theorem acc_off_7_4 : ∀ (k : Fin k2_t1_loop.trips) (t : Fin k2_t9_loop.trips), k2_off136 k t = ![((10 * k.val + 7) % 50) * 5 + t.val, 64] := by decide +kernel
instance closedOff_acc_7_4 (k : Fin k2_t1_loop.trips) (t : Fin k2_t9_loop.trips) : ClosedOff (k2_off136 k t) := ⟨_, acc_off_7_4 k t⟩
theorem acc_off_8_0 : ∀ (k : Fin k2_t1_loop.trips) (t : Fin k2_t10_loop.trips), k2_off141 k t = ![((10 * k.val + 8) % 50) * 5 + t.val, 0] := by decide +kernel
instance closedOff_acc_8_0 (k : Fin k2_t1_loop.trips) (t : Fin k2_t10_loop.trips) : ClosedOff (k2_off141 k t) := ⟨_, acc_off_8_0 k t⟩
theorem acc_off_8_1 : ∀ (k : Fin k2_t1_loop.trips) (t : Fin k2_t10_loop.trips), k2_off144 k t = ![((10 * k.val + 8) % 50) * 5 + t.val, 16] := by decide +kernel
instance closedOff_acc_8_1 (k : Fin k2_t1_loop.trips) (t : Fin k2_t10_loop.trips) : ClosedOff (k2_off144 k t) := ⟨_, acc_off_8_1 k t⟩
theorem acc_off_8_2 : ∀ (k : Fin k2_t1_loop.trips) (t : Fin k2_t10_loop.trips), k2_off147 k t = ![((10 * k.val + 8) % 50) * 5 + t.val, 32] := by decide +kernel
instance closedOff_acc_8_2 (k : Fin k2_t1_loop.trips) (t : Fin k2_t10_loop.trips) : ClosedOff (k2_off147 k t) := ⟨_, acc_off_8_2 k t⟩
theorem acc_off_8_3 : ∀ (k : Fin k2_t1_loop.trips) (t : Fin k2_t10_loop.trips), k2_off150 k t = ![((10 * k.val + 8) % 50) * 5 + t.val, 48] := by decide +kernel
instance closedOff_acc_8_3 (k : Fin k2_t1_loop.trips) (t : Fin k2_t10_loop.trips) : ClosedOff (k2_off150 k t) := ⟨_, acc_off_8_3 k t⟩
theorem acc_off_8_4 : ∀ (k : Fin k2_t1_loop.trips) (t : Fin k2_t10_loop.trips), k2_off153 k t = ![((10 * k.val + 8) % 50) * 5 + t.val, 64] := by decide +kernel
instance closedOff_acc_8_4 (k : Fin k2_t1_loop.trips) (t : Fin k2_t10_loop.trips) : ClosedOff (k2_off153 k t) := ⟨_, acc_off_8_4 k t⟩
theorem acc_off_9_0 : ∀ (k : Fin k2_t1_loop.trips) (t : Fin k2_t11_loop.trips), k2_off158 k t = ![((10 * k.val + 9) % 50) * 5 + t.val, 0] := by decide +kernel
instance closedOff_acc_9_0 (k : Fin k2_t1_loop.trips) (t : Fin k2_t11_loop.trips) : ClosedOff (k2_off158 k t) := ⟨_, acc_off_9_0 k t⟩
theorem acc_off_9_1 : ∀ (k : Fin k2_t1_loop.trips) (t : Fin k2_t11_loop.trips), k2_off161 k t = ![((10 * k.val + 9) % 50) * 5 + t.val, 16] := by decide +kernel
instance closedOff_acc_9_1 (k : Fin k2_t1_loop.trips) (t : Fin k2_t11_loop.trips) : ClosedOff (k2_off161 k t) := ⟨_, acc_off_9_1 k t⟩
theorem acc_off_9_2 : ∀ (k : Fin k2_t1_loop.trips) (t : Fin k2_t11_loop.trips), k2_off164 k t = ![((10 * k.val + 9) % 50) * 5 + t.val, 32] := by decide +kernel
instance closedOff_acc_9_2 (k : Fin k2_t1_loop.trips) (t : Fin k2_t11_loop.trips) : ClosedOff (k2_off164 k t) := ⟨_, acc_off_9_2 k t⟩
theorem acc_off_9_3 : ∀ (k : Fin k2_t1_loop.trips) (t : Fin k2_t11_loop.trips), k2_off167 k t = ![((10 * k.val + 9) % 50) * 5 + t.val, 48] := by decide +kernel
instance closedOff_acc_9_3 (k : Fin k2_t1_loop.trips) (t : Fin k2_t11_loop.trips) : ClosedOff (k2_off167 k t) := ⟨_, acc_off_9_3 k t⟩
theorem acc_off_9_4 : ∀ (k : Fin k2_t1_loop.trips) (t : Fin k2_t11_loop.trips), k2_off170 k t = ![((10 * k.val + 9) % 50) * 5 + t.val, 64] := by decide +kernel
instance closedOff_acc_9_4 (k : Fin k2_t1_loop.trips) (t : Fin k2_t11_loop.trips) : ClosedOff (k2_off170 k t) := ⟨_, acc_off_9_4 k t⟩

end Cert.Proof.KI.Sc
-- ==== Proof.ScDefs.lean ====
/-
  The gather kernel's tile task: the operands' split, the value, and the vocabulary of the ring's invariant.

  Thirty-two workers — vector subcore s of SparseCore c is worker 2 s + c — each own one slab of the address array
  (250 chunks of 20 addresses) and one slab of the output (5 parts of 250 rows of 80 lanes). A worker copies its
  address slab into its scratch, then for each chunk k gathers the twenty table rows the chunk names and stores, for
  each of the chunk's five groups of four consecutive rows, the sum ((r₀ + r₁) + (r₂ + r₃)) of the group's first 80
  lanes into row (k mod 50) · 5 + group of an accumulation scratch, which it copies out to part k div 50 of its output
  slab after every fiftieth chunk. The gathers run ten deep, chunk k in slot k mod 10, each slot on a semaphore of
  its own, so that on every semaphore one transfer is outstanding at a time.

  The table is read whole by every worker: it is dealt as read shares, one per SparseCore, cut again one per vector
  subcore. The address array and the output are dealt by slabs, which are disjoint and cover them.
-/
import proofs.«207241_g55714315764006_cont_9to1c4b_410_29_alg».proof.Proof.SetupKI
import proofs.«207241_g55714315764006_cont_9to1c4b_410_29_alg».proof.Proof.Gen.KernelIdeal.Skeleton
import proofs.«207241_g55714315764006_cont_9to1c4b_410_29_alg».proof.Proof.ScFacts
import Idealize.ShloMosaic.Lib.SparseCore.Launch
import Idealize.ShloMosaic.Lib.SparseCore.Stream
import Idealize.ShloMosaic.Lib.Pipeline.Kit
import Idealize.ShloMosaic.Lib.Transfers
import Idealize.ShloMosaic.Lib.Tactic

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The three arrays, the workers, the slabs -/

/-- The table, the address array and the output, as the TensorCore names them on device `d`. -/
abbrev tLoc (d : Dev nD) : Loc nD τ sig := (SparseCore.T d).loc main_v3
abbrev aLoc (d : Dev nD) : Loc nD τ sig := (SparseCore.T d).loc main_v23
abbrev oLoc (d : Dev nD) : Loc nD τ sig := (SparseCore.T d).loc main_v24

abbrev tV : Memref sig .scVector .hbm S78848x128 .f32 := Memref.whole main_v3_scv
abbrev aV : Memref sig .scVector .hbm S32x250x20 .i32 := Memref.whole main_v23_scv
abbrev oV : Memref sig .scVector .hbm S32x5x250x80 .f32 := Memref.whole main_v24_scv

/-- Worker `2 s + c`. -/
def wk (c : Fin 2) (s : Fin 16) : Fin 32 := ⟨2 * s.val + c.val, by omega⟩

/-- The workers are the pairs (SparseCore, vector subcore). -/
def wkEquiv : Fin 2 × Fin 16 ≃ Fin 32 where
  toFun p := wk p.1 p.2
  invFun w := (⟨w.val % 2, Nat.mod_lt _ (by decide)⟩, ⟨w.val / 2, by omega⟩)
  left_inv p := by
    rcases p with ⟨c, s⟩
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

theorem hdivA : 32 ∣ S32x250x20.size 0 := ⟨1, rfl⟩
theorem hdivO : 32 ∣ S32x5x250x80.size 0 := ⟨1, rfl⟩
/-- Worker `w`'s slab of the address array and of the output: index `w` on the leading axis. -/
abbrev aSlab (w : Fin 32) : Rect S32x250x20 := Rect.part (s := S32x250x20) (a₀ := 0) hdivA w
abbrev oSlab (w : Fin 32) : Rect S32x5x250x80 := Rect.part (s := S32x5x250x80) (a₀ := 0) hdivO w
abbrev aSet (w : Fin 32) : Finset S32x250x20.Idx := ((aV : Memref sig .scVector .hbm S32x250x20 .i32).view.slice (aSlab w)).set
abbrev oSet (w : Fin 32) : Finset S32x5x250x80.Idx := ((oV : Memref sig .scVector .hbm S32x5x250x80 .f32).view.slice (oSlab w)).set

/-- The table's read share of SparseCore `c`, and of its vector subcore `s`. -/
def qC (c : Fin 2) : PosShare TreeShare := piece fullShare 1 c
def qT (c : Fin 2) (s : Fin 16) : PosShare TreeShare := piece (qC c) 15 s

/-! ## The operands' contents and the value -/

variable (tab : (d : Dev nD) → Buf (Elt F) (tLoc d)) (adr : (d : Dev nD) → Buf (Elt F) (aLoc d))

/-- Every address names a row of the table. -/
def AdrOK : Prop := ∀ (d : Dev nD) (j : Idx (aLoc d)), (adr d j).toNat < 78848

def tIx (r : Fin 78848) (l : Fin 128) : S78848x128.Idx := fun | 0 => r | 1 => l | ⟨_ + 2, h⟩ => absurd h (Nat.not_lt.2 (Nat.le_add_left _ _))
def aIx (w : Fin 32) (k : Fin 250) (j : Fin 20) : S32x250x20.Idx :=
  fun | 0 => w | 1 => k | 2 => j | ⟨_ + 3, h⟩ => absurd h (Nat.not_lt.2 (Nat.le_add_left _ _))

variable [FloatOps F]

/-- The table row that address `j` of chunk `k` of worker `w` names, at lane `l`. -/
def rowAt (d : Dev nD) (w : Fin 32) (k : Fin 250) (j : Fin 20) (l : Fin 128) : Elt F .f32 :=
  tab d (tIx ⟨(adr d (aIx w k j)).toNat % 78848, Nat.mod_lt _ (by decide)⟩ l)

/-- The output: entry (w, p, r, l) is ((t₀ + t₁) + (t₂ + t₃)), `tⱼ` lane `l` of the table row that address
    `4 (r mod 5) + j` of chunk `50 p + r div 5` of worker `w` names. -/
def gathered (d : Dev nD) : Buf (Elt F) (oLoc d) := fun x =>
  have hp : (x 1).val < 5 := (x 1).isLt
  have hr : (x 2).val < 250 := (x 2).isLt
  have hl : (x 3).val < 80 := (x 3).isLt
  let w : Fin 32 := x 0
  let k : Fin 250 := ⟨50 * (x 1).val + (x 2).val / 5, by omega⟩
  let l : Fin 128 := ⟨(x 3).val, by omega⟩
  let t (j : Fin 4) : Elt F .f32 := rowAt tab adr d w k ⟨4 * ((x 2).val % 5) + j.val, by omega⟩ l
  FloatOps.addf (φ := .f32) (FloatOps.addf (φ := .f32) (t 0) (t 1)) (FloatOps.addf (φ := .f32) (t 2) (t 3))

/-! ## What the handshakes carry -/

abbrev cC (c : Fin ((K (F := F)).nCore 0)) : Fin 2 := Fin.cast nCore_zero c
abbrev sS (s : Fin ((K (F := F)).nSub 0)) : Fin 16 := Fin.cast nSub_zero s

/-- The table at a read share; a slab of the address array at its contents; a slab of the output. -/
abbrev tPts (d : Dev nD) (q : PosShare TreeShare) : sProp 𝕄 := tLoc d ↦{q} tab d
abbrev aPts (d : Dev nD) (w : Fin 32) : sProp 𝕄 := aLoc d ↦[aSet w]{fullShare} adr d
abbrev oPts (d : Dev nD) (w : Fin 32) (f : Buf (Elt F) (oLoc d)) : sProp 𝕄 := oLoc d ↦[oSet w]{fullShare} f

/-- The call hands SparseCore `c` its read share of the table and its sixteen workers' slabs; vector subcore `s` of it
    gets its own read share and worker `2 s + c`'s two slabs, and hands them back with the output slab at the value. -/
def P : (K (F := F)).Pay (nD := nD) (Val := Elt F) (Name := ℕ) (U := UU) where
  st := fun q d c => match q with
    | 0 => iprop(tPts tab d (qC (cC c)) ∗ (bigSep Finset.univ fun s : Fin 16 => aPts adr d (wk (cC c) s))
        ∗ bigSep Finset.univ fun s : Fin 16 => iprop(∃ f, oPts d (wk (cC c) s) f))
  dn := fun q d c => match q with
    | 0 => iprop(tPts tab d (qC (cC c)) ∗ (bigSep Finset.univ fun s : Fin 16 => aPts adr d (wk (cC c) s))
        ∗ bigSep Finset.univ fun s : Fin 16 => oPts d (wk (cC c) s) (gathered tab adr d))
  go := fun q d c s => match q with
    | 0 => iprop(tPts tab d (qT (cC c) (sS s)) ∗ aPts adr d (wk (cC c) (sS s)) ∗ ∃ f, oPts d (wk (cC c) (sS s)) f)
  td := fun q d c s => match q with
    | 0 => iprop(tPts tab d (qT (cC c) (sS s)) ∗ aPts adr d (wk (cC c) (sS s)) ∗ oPts d (wk (cC c) (sS s)) (gathered tab adr d))
  x := fun _ _ => iprop(emp)

instance P_storable : (P (F := F) tab adr).IsStorable where
  st q d c := match q with
    | 0 => (inferInstance : BI.Storable (upEmb : UEmb _ 𝕄) iprop(tPts tab d (qC (cC c)) ∗ (bigSep Finset.univ fun s : Fin 16 => aPts adr d (wk (cC c) s))
        ∗ bigSep Finset.univ fun s : Fin 16 => iprop(∃ f, oPts d (wk (cC c) s) f)))
  dn q d c := match q with
    | 0 => (inferInstance : BI.Storable (upEmb : UEmb _ 𝕄) iprop(tPts tab d (qC (cC c)) ∗ (bigSep Finset.univ fun s : Fin 16 => aPts adr d (wk (cC c) s))
        ∗ bigSep Finset.univ fun s : Fin 16 => oPts d (wk (cC c) s) (gathered tab adr d)))
  go q d c s := match q with
    | 0 => (inferInstance : BI.Storable (upEmb : UEmb _ 𝕄)
        iprop(tPts tab d (qT (cC c) (sS s)) ∗ aPts adr d (wk (cC c) (sS s)) ∗ ∃ f, oPts d (wk (cC c) (sS s)) f))
  td q d c s := match q with
    | 0 => (inferInstance : BI.Storable (upEmb : UEmb _ 𝕄)
        iprop(tPts tab d (qT (cC c) (sS s)) ∗ aPts adr d (wk (cC c) (sS s)) ∗ oPts d (wk (cC c) (sS s)) (gathered tab adr d)))

/-! ## A tile's task: the set-up -/

section Tile

variable (d : Dev nD) (L : grid2.Coords)

abbrev cV (L : grid2.Coords) : Fin τ.nSC := (L 0).castLE hcore2
abbrev jV (L : grid2.Coords) : Fin τ.nSub := (L 1).castLE hsub2
omit [FloatOps F] in
theorem bound_zero : grid2.bound 0 = 2 := rfl
omit [FloatOps F] in
theorem bound_one : grid2.bound 1 = 16 := rfl
abbrev cL (L : grid2.Coords) : Fin 2 := Fin.cast bound_zero (L 0)
abbrev sL (L : grid2.Coords) : Fin 16 := Fin.cast bound_one (L 1)
/-- The tile's worker number. -/
abbrev wL (L : grid2.Coords) : Fin 32 := wk (cL L) (sL L)

/-- The tile's scratch: the address slab, the ring of ten slots, the accumulated rows. -/
abbrev sA : Memref sig .scVector .vmem S250x20 .i32 := Memref.whole cc2_scratch0
abbrev sR : Memref sig .scVector .vmem S10x20x128 .f32 := Memref.whole cc2_scratch1
abbrev sY : Memref sig .scVector .vmem S250x80 .f32 := Memref.whole cc2_scratch2

/-- The tile's twenty-one DMA semaphores: the ten slots', the address copy's, the ten copy-outs'. -/
def semOf : Fin 21 → DmaSem sig
  | 0 => cc2_scratch3.sem
  | 1 => cc2_scratch4.sem
  | 2 => cc2_scratch5.sem
  | 3 => cc2_scratch6.sem
  | 4 => cc2_scratch7.sem
  | 5 => cc2_scratch8.sem
  | 6 => cc2_scratch9.sem
  | 7 => cc2_scratch10.sem
  | 8 => cc2_scratch11.sem
  | 9 => cc2_scratch12.sem
  | 10 => cc2_scoped0.sem
  | 11 => cc2_scoped1.sem
  | 12 => cc2_scoped2.sem
  | 13 => cc2_scoped3.sem
  | 14 => cc2_scoped4.sem
  | 15 => cc2_scoped5.sem
  | 16 => cc2_scoped6.sem
  | 17 => cc2_scoped7.sem
  | 18 => cc2_scoped8.sem
  | 19 => cc2_scoped9.sem
  | 20 => cc2_scoped10.sem
  | ⟨_ + 21, h⟩ => absurd h (by omega)

omit [FloatOps F] in
theorem semOf_inj : Function.Injective semOf := by decide
omit [FloatOps F] in
theorem semOf_scoped : ∀ i : Fin 21, (SemLoc.dma (semOf i) : SemLoc sig).isScoped .scVector = true := by decide

def semCell (i : Fin 21) : GSem nD τ sig := (V d (cV L) (jV L), SemLoc.dma (semOf i))
omit [FloatOps F] in
theorem semCell_inj : Function.Injective (semCell d L) := fun i j h => semOf_inj (SemLoc.dma.inj (Prod.mk.inj h).2)
def semCells : Finset (GSem nD τ sig) := Finset.univ.map ⟨semCell d L, semCell_inj d L⟩

omit [FloatOps F] in
theorem bigSep_fin21 (Φ : Fin 21 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) := by
  rw [show (Finset.univ : Finset (Fin 21)) = {0, 1, 2, 3, 4, 5, 6, 7, 8, 9, 10, 11, 12, 13, 14, 15, 16, 17, 18, 19, 20} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    bigSep_insert (by decide), bigSep_insert (by decide), bigSep_insert (by decide), bigSep_insert (by decide), bigSep_insert (by decide), bigSep_insert (by decide), bigSep_insert (by decide), bigSep_insert (by decide), bigSep_insert (by decide), bigSep_singleton]
  rfl

omit [FloatOps F] in
/-- Twenty read tokens: the ten numbered as the slots' semaphores are, and the first ten. -/
theorem bigSep_range20 (Φ : ℕ → sProp 𝕄) :
    bigSep (Finset.range 20) Φ = iprop(Φ 19 ∗ Φ 18 ∗ Φ 17 ∗ Φ 16 ∗ Φ 15 ∗ Φ 14 ∗ Φ 13 ∗ Φ 12 ∗ Φ 11 ∗ Φ 10 ∗ bigSep (Finset.range 10) Φ) := by
  rw [Finset.range_add_one (n := 19), bigSep_insert Finset.notMem_range_self,
    Finset.range_add_one (n := 18), bigSep_insert Finset.notMem_range_self,
    Finset.range_add_one (n := 17), bigSep_insert Finset.notMem_range_self,
    Finset.range_add_one (n := 16), bigSep_insert Finset.notMem_range_self,
    Finset.range_add_one (n := 15), bigSep_insert Finset.notMem_range_self,
    Finset.range_add_one (n := 14), bigSep_insert Finset.notMem_range_self,
    Finset.range_add_one (n := 13), bigSep_insert Finset.notMem_range_self,
    Finset.range_add_one (n := 12), bigSep_insert Finset.notMem_range_self,
    Finset.range_add_one (n := 11), bigSep_insert Finset.notMem_range_self,
    Finset.range_add_one (n := 10), bigSep_insert Finset.notMem_range_self]
  rfl

omit [FloatOps F] in
/-- An array at a read share is twenty read tokens and what remains: the ten numbered as the slots' semaphores are,
    the first ten together. -/
theorem pts_tokens (ℓ : Loc nD τ sig) (q : PosShare TreeShare) (f : Buf (Elt F) ℓ) :
    (ℓ ↦{q} f : sProp 𝕄) ⊢ iprop((ℓ ↦{Transfers.shareDrop q 20} f)
      ∗ (ℓ ↦{Transfers.shareTokN q 19} f) ∗ (ℓ ↦{Transfers.shareTokN q 18} f) ∗ (ℓ ↦{Transfers.shareTokN q 17} f) ∗ (ℓ ↦{Transfers.shareTokN q 16} f) ∗ (ℓ ↦{Transfers.shareTokN q 15} f) ∗ (ℓ ↦{Transfers.shareTokN q 14} f) ∗ (ℓ ↦{Transfers.shareTokN q 13} f) ∗ (ℓ ↦{Transfers.shareTokN q 12} f) ∗ (ℓ ↦{Transfers.shareTokN q 11} f) ∗ (ℓ ↦{Transfers.shareTokN q 10} f)
      ∗ bigSep (Finset.range 10) fun i => (ℓ ↦{Transfers.shareTokN q i} f : sProp 𝕄)) := by
  have h := (Transfers.pointsTo_toks_range (Ix := HIx 1) (Name := ℕ) (U := UU) (Lvl := ℕ) (ℓ := ℓ) (S := Finset.univ) (f := f) q 20).1
  rw [bigSep_range20 (F := F) (fun i => (ℓ ↦{Transfers.shareTokN q i} f : sProp 𝕄))] at h
  exact h
omit [FloatOps F] in
theorem pts_tokens_join (ℓ : Loc nD τ sig) (q : PosShare TreeShare) (f : Buf (Elt F) ℓ) :
    iprop((ℓ ↦{Transfers.shareDrop q 20} f)
      ∗ (ℓ ↦{Transfers.shareTokN q 19} f) ∗ (ℓ ↦{Transfers.shareTokN q 18} f) ∗ (ℓ ↦{Transfers.shareTokN q 17} f) ∗ (ℓ ↦{Transfers.shareTokN q 16} f) ∗ (ℓ ↦{Transfers.shareTokN q 15} f) ∗ (ℓ ↦{Transfers.shareTokN q 14} f) ∗ (ℓ ↦{Transfers.shareTokN q 13} f) ∗ (ℓ ↦{Transfers.shareTokN q 12} f) ∗ (ℓ ↦{Transfers.shareTokN q 11} f) ∗ (ℓ ↦{Transfers.shareTokN q 10} f)
      ∗ bigSep (Finset.range 10) fun i => (ℓ ↦{Transfers.shareTokN q i} f : sProp 𝕄)) ⊢ (ℓ ↦{q} f : sProp 𝕄) := by
  have h := (Transfers.pointsTo_toks_range (Ix := HIx 1) (Name := ℕ) (U := UU) (Lvl := ℕ) (ℓ := ℓ) (S := Finset.univ) (f := f) q 20).2
  rw [bigSep_range20 (F := F) (fun i => (ℓ ↦{Transfers.shareTokN q i} f : sProp 𝕄))] at h
  exact h

omit [FloatOps F] in
/-- A buffer held outright is held at ten read shares at once. -/
theorem pts_pieces10 (ℓ : Loc nD τ sig) (f : Buf (Elt F) ℓ) :
    (ℓ ↦{fullShare} f : sProp 𝕄) = iprop((ℓ ↦{piece fullShare 9 0} f) ∗ (ℓ ↦{piece fullShare 9 1} f) ∗ (ℓ ↦{piece fullShare 9 2} f) ∗ (ℓ ↦{piece fullShare 9 3} f) ∗ (ℓ ↦{piece fullShare 9 4} f) ∗ (ℓ ↦{piece fullShare 9 5} f) ∗ (ℓ ↦{piece fullShare 9 6} f) ∗ (ℓ ↦{piece fullShare 9 7} f) ∗ (ℓ ↦{piece fullShare 9 8} f) ∗ (ℓ ↦{piece fullShare 9 9} f)) :=
  (pointsTo_pieces (ℓ := ℓ) Finset.univ f 9 fullShare).trans (bigSep_fin10 (F := F) (fun k => (ℓ ↦{piece fullShare 9 k} f : sProp 𝕄)))

omit [FloatOps F] in
theorem ownSems0_V :
    (ownSems0 (V d (cV L) (jV L)) : sProp 𝕄)
      = iprop((semVal (V d (cV L) (jV L), SemLoc.dma cc2_scratch3.sem) 0
          ∗ semVal (V d (cV L) (jV L), SemLoc.dma cc2_scratch4.sem) 0
          ∗ semVal (V d (cV L) (jV L), SemLoc.dma cc2_scratch5.sem) 0
          ∗ semVal (V d (cV L) (jV L), SemLoc.dma cc2_scratch6.sem) 0
          ∗ semVal (V d (cV L) (jV L), SemLoc.dma cc2_scratch7.sem) 0
          ∗ semVal (V d (cV L) (jV L), SemLoc.dma cc2_scratch8.sem) 0
          ∗ semVal (V d (cV L) (jV L), SemLoc.dma cc2_scratch9.sem) 0
          ∗ semVal (V d (cV L) (jV L), SemLoc.dma cc2_scratch10.sem) 0
          ∗ semVal (V d (cV L) (jV L), SemLoc.dma cc2_scratch11.sem) 0
          ∗ semVal (V d (cV L) (jV L), SemLoc.dma cc2_scratch12.sem) 0
          ∗ semVal (V d (cV L) (jV L), SemLoc.dma cc2_scoped0.sem) 0
          ∗ semVal (V d (cV L) (jV L), SemLoc.dma cc2_scoped1.sem) 0
          ∗ semVal (V d (cV L) (jV L), SemLoc.dma cc2_scoped2.sem) 0
          ∗ semVal (V d (cV L) (jV L), SemLoc.dma cc2_scoped3.sem) 0
          ∗ semVal (V d (cV L) (jV L), SemLoc.dma cc2_scoped4.sem) 0
          ∗ semVal (V d (cV L) (jV L), SemLoc.dma cc2_scoped5.sem) 0
          ∗ semVal (V d (cV L) (jV L), SemLoc.dma cc2_scoped6.sem) 0
          ∗ semVal (V d (cV L) (jV L), SemLoc.dma cc2_scoped7.sem) 0
          ∗ semVal (V d (cV L) (jV L), SemLoc.dma cc2_scoped8.sem) 0
          ∗ semVal (V d (cV L) (jV L), SemLoc.dma cc2_scoped9.sem) 0
          ∗ semVal (V d (cV L) (jV L), SemLoc.dma cc2_scoped10.sem) 0)
          ∗ bigSep (ownCells (V d (cV L) (jV L)) \ semCells d L) fun g => semVal g 0) := by
  unfold SparseCore.Cfg.ownSems0
  have hsub : semCells d L ⊆ ownCells (V d (cV L) (jV L)) := by
    intro g hg
    obtain ⟨i, -, rfl⟩ := Finset.mem_map.mp hg
    exact mem_ownCells.mpr ⟨rfl, semOf_scoped i⟩
  rw [bigSep_sdiff_split hsub]
  unfold semCells
  rw [bigSep_map, bigSep_fin21]
  rfl

omit [FloatOps F] in
/-- The three scratch buffers are among the tile's own: they, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV L) (jV L)) (b := (Proc.scVector (cV L) (jV L)).devRef cc2_scratch2) rfl⟩⟩)]

/-- The tile's slab of the address array, as the program slices it. -/
abbrev aRowK (L : grid2.Coords) : Memref sig .scVector .hbm S250x20 .i32 :=
  ((aV : Memref sig .scVector .hbm S32x250x20 .i32).slice (Rect.unit (s := S32x250x20) (k2_off1 L) S1x250x20.size (k2_off1_inb L)) (fun _ => rfl)).squeeze S250x20 squeezes_S1x250x20_S250x20

omit [FloatOps F] in
theorem aRowK_rect : Rect.unit (s := S32x250x20) (k2_off1 L) S1x250x20.size (k2_off1_inb L) = aSlab (wL L) := by
  unfold aSlab Rect.part Rect.block
  congr 1 <;> funext a
  · rw [k2_off1_eq]
    match a with
    | 0 => simp [Shape.partIx, Shape.partSize, wk]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem set_aRowK : (aRowK L).view.set = aSet (wL L) := by
  show (((aV : Memref sig .scVector .hbm S32x250x20 .i32).view.slice (Rect.unit (s := S32x250x20) (k2_off1 L) S1x250x20.size (k2_off1_inb L))).reshape S250x20 squeezes_S1x250x20_S250x20.numel_eq).set
    = ((aV : Memref sig .scVector .hbm S32x250x20 .i32).view.slice (aSlab (wL L))).set
  rw [View.set_reshape]
  exact aRowK_rect L ▸ rfl

/-- What the tile's address scratch holds once the slab has been copied in. -/
abbrev fA (d : Dev nD) (L : grid2.Coords) : Buf (Elt F) ((sA).view.loc (V d (cV L) (jV L))) := (aRowK L).view.read (Elt F) (adr d)

/-! ## The ring's invariant -/

/-- Slot `b` of the ring, a chunk's offsets, the table as the gathers name it. -/
abbrev slotM (b : ℕ) (hb : ∀ a, (![b, 0, 0] : Fin 3 → ℕ) a + S1x20x128.size a ≤ S10x20x128.size a) : Memref sig .scVector .vmem S20x128 .f32 :=
  (sR.slice (Rect.unit (s := S10x20x128) ![b, 0, 0] S1x20x128.size hb) (fun _ => rfl)).squeeze S20x128 squeezes_S1x20x128_S20x128
abbrev rowM (off : Fin 2 → ℕ) (h : ∀ a, off a + S1x20.size a ≤ S250x20.size a) : Memref sig .scVector .vmem S20 .i32 :=
  (sA.slice (Rect.unit (s := S250x20) off S1x20.size h) (fun _ => rfl)).squeeze S20 squeezes_S1x20_S20
abbrev tVs : Memref sig .scVector .hbm S78848x128 .f32 :=
  tV.slice (Rect.unit (s := S78848x128) ![0, 0] S78848x128.size inb_S78848x128_S78848x128_0_0) (fun _ => rfl)

omit [FloatOps F] in
/-- Every word of the address scratch names a row of the table. -/
theorem hinAll (hadr : AdrOK adr) (off : Fin 2 → ℕ) (h : ∀ a, off a + S1x20.size a ≤ S250x20.size a) (x : S20.Idx) :
    (View.read (Elt F) (rowM off h).view (fA adr d L) x).toNat < 78848 := by
  simp only [View.read_apply, cast_eq]
  exact hadr d _

/-- What a chunk's gather lands in its slot: at row `j`, the table's row that the chunk's word `j` names. -/
def gPay (hadr : AdrOK adr) (off : Fin 2 → ℕ) (h : ∀ a, off a + S1x20.size a ≤ S250x20.size a) : S20x128.Idx → Elt F .f32 :=
  SparseCore.gatherPayload gathers_S78848x128_S20x128 ((tVs).view.read (Elt F) (tab d))
    (SparseCore.rows ((rowM off h).view.read (Elt F) (fA adr d L)) rfl (hinAll adr d L hadr off h))

/-- Slot `b` before group `g < 25`: its chunk `10 g + b` in flight on the slot's semaphore, holding the slot, the chunk's
    row of the address scratch and the table, the last two at the slot's read shares, whose rests the tile keeps. -/
abbrev slotFl (hadr : AdrOK adr) (b : ℕ) (hb : ∀ a, (![b, 0, 0] : Fin 3 → ℕ) a + S1x20x128.size a ≤ S10x20x128.size a) (n : ℕ) (hn : n < 40)
    (qa qt : PosShare TreeShare) (g : ℕ) : sProp 𝕄 :=
  iprop(∃ (f0 : Buf (Elt F) ((sR).view.loc (V d (cV L) (jV L)))) (off : Fin 2 → ℕ) (h : ∀ a, off a + S1x20.size a ≤ S250x20.size a),
      ⌜off = ![10 * g + b, 0]⌝
      ∗ Transfers.Flight countersEmb (V d (cV L) (jV L)) (SemLoc.dma (⟨n, hn⟩ : DmaSem sig)) default 81920
          iprop((((slotM b hb).view.loc (V d (cV L) (jV L)) ↦[(slotM b hb).view.set]{fullShare}
                    View.write (Elt F) (slotM b hb).view f0 (gPay tab adr d L hadr off h) Finset.univ)
                ∗ ((sA).view.loc (V d (cV L) (jV L)) ↦[(rowM off h).view.set]{qa} fA adr d L))
              ∗ ((tV).view.loc (V d (cV L) (jV L)) ↦[(tVs).view.set]{qt} tab d))
      ∗ ((tV).view.loc (V d (cV L) (jV L)) ↦[Finset.univ \ (tVs).view.set]{qt} tab d)
      ∗ ((sA).view.loc (V d (cV L) (jV L)) ↦[Finset.univ \ (rowM off h).view.set]{qa} fA adr d L))
/-- The slot after the last group: everything at rest. -/
abbrev slotHome (b : ℕ) (hb : ∀ a, (![b, 0, 0] : Fin 3 → ℕ) a + S1x20x128.size a ≤ S10x20x128.size a) (n : ℕ) (hn : n < 40)
    (qa qt : PosShare TreeShare) : sProp 𝕄 :=
  iprop(semVal (V d (cV L) (jV L), SemLoc.dma (⟨n, hn⟩ : DmaSem sig)) 0
      ∗ (∃ f, (slotM b hb).view.loc (V d (cV L) (jV L)) ↦[(slotM b hb).view.set]{fullShare} f)
      ∗ ((tV).view.loc (V d (cV L) (jV L)) ↦{qt} tab d)
      ∗ ((sA).view.loc (V d (cV L) (jV L)) ↦{qa} fA adr d L))
def slotInv (hadr : AdrOK adr) (b : ℕ) (hb : ∀ a, (![b, 0, 0] : Fin 3 → ℕ) a + S1x20x128.size a ≤ S10x20x128.size a) (n : ℕ) (hn : n < 40)
    (qa qt : PosShare TreeShare) (g : ℕ) : sProp 𝕄 :=
  if g < 25 then slotFl tab adr d L hadr b hb n hn qa qt g else slotHome tab adr d L b hb n hn qa qt

/-- The rest of the invariant: the accumulated rows and the output slab at whatever they hold; the last copy-out's
    semaphore at rest; what the tile owes, its waits at no index recorded. -/
abbrev invRest (O : CellTallies nD τ sig (HIx 1)) (W : Waits sig (HIx 1)) : sProp 𝕄 :=
  iprop((∃ fy, (sY).view.loc (V d (cV L) (jV L)) ↦{fullShare} fy)
    ∗ (∃ fo, oPts d (wL L) fo)
    ∗ semVal (V d (cV L) (jV L), SemLoc.dma cc2_scoped10.sem) 0
    ∗ ∃ W', ⌜∀ p ∈ W', p ∈ W ∨ p.2 = none⌝ ∗ owes (V d (cV L) (jV L)) O W')

/-- Before group `g`. -/
def inv (hadr : AdrOK adr) (O : CellTallies nD τ sig (HIx 1)) (W : Waits sig (HIx 1)) (g : ℕ) (_ : BitVec 32) : sProp 𝕄 :=
  iprop(Transfers.MayWaits (V d (cV L) (jV L)) (none : HIx 1) O
    ∗ slotInv tab adr d L hadr 0 inb_S10x20x128_S1x20x128_0_0_0 10 (by decide) (piece fullShare 9 0) (Transfers.shareTokN (qT (cL L) (sL L)) 10) g
    ∗ slotInv tab adr d L hadr 1 inb_S10x20x128_S1x20x128_1_0_0 11 (by decide) (piece fullShare 9 1) (Transfers.shareTokN (qT (cL L) (sL L)) 11) g
    ∗ slotInv tab adr d L hadr 2 inb_S10x20x128_S1x20x128_2_0_0 12 (by decide) (piece fullShare 9 2) (Transfers.shareTokN (qT (cL L) (sL L)) 12) g
    ∗ slotInv tab adr d L hadr 3 inb_S10x20x128_S1x20x128_3_0_0 13 (by decide) (piece fullShare 9 3) (Transfers.shareTokN (qT (cL L) (sL L)) 13) g
    ∗ slotInv tab adr d L hadr 4 inb_S10x20x128_S1x20x128_4_0_0 14 (by decide) (piece fullShare 9 4) (Transfers.shareTokN (qT (cL L) (sL L)) 14) g
    ∗ slotInv tab adr d L hadr 5 inb_S10x20x128_S1x20x128_5_0_0 15 (by decide) (piece fullShare 9 5) (Transfers.shareTokN (qT (cL L) (sL L)) 15) g
    ∗ slotInv tab adr d L hadr 6 inb_S10x20x128_S1x20x128_6_0_0 16 (by decide) (piece fullShare 9 6) (Transfers.shareTokN (qT (cL L) (sL L)) 16) g
    ∗ slotInv tab adr d L hadr 7 inb_S10x20x128_S1x20x128_7_0_0 17 (by decide) (piece fullShare 9 7) (Transfers.shareTokN (qT (cL L) (sL L)) 17) g
    ∗ slotInv tab adr d L hadr 8 inb_S10x20x128_S1x20x128_8_0_0 18 (by decide) (piece fullShare 9 8) (Transfers.shareTokN (qT (cL L) (sL L)) 18) g
    ∗ slotInv tab adr d L hadr 9 inb_S10x20x128_S1x20x128_9_0_0 19 (by decide) (piece fullShare 9 9) (Transfers.shareTokN (qT (cL L) (sL L)) 19) g
    ∗ invRest d L O W)

theorem inv_lt (hadr : AdrOK adr) (O : CellTallies nD τ sig (HIx 1)) (W : Waits sig (HIx 1)) (g : ℕ) (hg : g < 25) (acc : BitVec 32) :
    inv tab adr d L hadr O W g acc = iprop(Transfers.MayWaits (V d (cV L) (jV L)) (none : HIx 1) O
    ∗ slotFl tab adr d L hadr 0 inb_S10x20x128_S1x20x128_0_0_0 10 (by decide) (piece fullShare 9 0) (Transfers.shareTokN (qT (cL L) (sL L)) 10) g
    ∗ slotFl tab adr d L hadr 1 inb_S10x20x128_S1x20x128_1_0_0 11 (by decide) (piece fullShare 9 1) (Transfers.shareTokN (qT (cL L) (sL L)) 11) g
    ∗ slotFl tab adr d L hadr 2 inb_S10x20x128_S1x20x128_2_0_0 12 (by decide) (piece fullShare 9 2) (Transfers.shareTokN (qT (cL L) (sL L)) 12) g
    ∗ slotFl tab adr d L hadr 3 inb_S10x20x128_S1x20x128_3_0_0 13 (by decide) (piece fullShare 9 3) (Transfers.shareTokN (qT (cL L) (sL L)) 13) g
    ∗ slotFl tab adr d L hadr 4 inb_S10x20x128_S1x20x128_4_0_0 14 (by decide) (piece fullShare 9 4) (Transfers.shareTokN (qT (cL L) (sL L)) 14) g
    ∗ slotFl tab adr d L hadr 5 inb_S10x20x128_S1x20x128_5_0_0 15 (by decide) (piece fullShare 9 5) (Transfers.shareTokN (qT (cL L) (sL L)) 15) g
    ∗ slotFl tab adr d L hadr 6 inb_S10x20x128_S1x20x128_6_0_0 16 (by decide) (piece fullShare 9 6) (Transfers.shareTokN (qT (cL L) (sL L)) 16) g
    ∗ slotFl tab adr d L hadr 7 inb_S10x20x128_S1x20x128_7_0_0 17 (by decide) (piece fullShare 9 7) (Transfers.shareTokN (qT (cL L) (sL L)) 17) g
    ∗ slotFl tab adr d L hadr 8 inb_S10x20x128_S1x20x128_8_0_0 18 (by decide) (piece fullShare 9 8) (Transfers.shareTokN (qT (cL L) (sL L)) 18) g
    ∗ slotFl tab adr d L hadr 9 inb_S10x20x128_S1x20x128_9_0_0 19 (by decide) (piece fullShare 9 9) (Transfers.shareTokN (qT (cL L) (sL L)) 19) g
    ∗ invRest d L O W) := by
  unfold inv slotInv
  iterate 10 rw [if_pos hg]
theorem inv_ge (hadr : AdrOK adr) (O : CellTallies nD τ sig (HIx 1)) (W : Waits sig (HIx 1)) (g : ℕ) (hg : ¬ g < 25) (acc : BitVec 32) :
    inv tab adr d L hadr O W g acc = iprop(Transfers.MayWaits (V d (cV L) (jV L)) (none : HIx 1) O
    ∗ slotHome tab adr d L 0 inb_S10x20x128_S1x20x128_0_0_0 10 (by decide) (piece fullShare 9 0) (Transfers.shareTokN (qT (cL L) (sL L)) 10)
    ∗ slotHome tab adr d L 1 inb_S10x20x128_S1x20x128_1_0_0 11 (by decide) (piece fullShare 9 1) (Transfers.shareTokN (qT (cL L) (sL L)) 11)
    ∗ slotHome tab adr d L 2 inb_S10x20x128_S1x20x128_2_0_0 12 (by decide) (piece fullShare 9 2) (Transfers.shareTokN (qT (cL L) (sL L)) 12)
    ∗ slotHome tab adr d L 3 inb_S10x20x128_S1x20x128_3_0_0 13 (by decide) (piece fullShare 9 3) (Transfers.shareTokN (qT (cL L) (sL L)) 13)
    ∗ slotHome tab adr d L 4 inb_S10x20x128_S1x20x128_4_0_0 14 (by decide) (piece fullShare 9 4) (Transfers.shareTokN (qT (cL L) (sL L)) 14)
    ∗ slotHome tab adr d L 5 inb_S10x20x128_S1x20x128_5_0_0 15 (by decide) (piece fullShare 9 5) (Transfers.shareTokN (qT (cL L) (sL L)) 15)
    ∗ slotHome tab adr d L 6 inb_S10x20x128_S1x20x128_6_0_0 16 (by decide) (piece fullShare 9 6) (Transfers.shareTokN (qT (cL L) (sL L)) 16)
    ∗ slotHome tab adr d L 7 inb_S10x20x128_S1x20x128_7_0_0 17 (by decide) (piece fullShare 9 7) (Transfers.shareTokN (qT (cL L) (sL L)) 17)
    ∗ slotHome tab adr d L 8 inb_S10x20x128_S1x20x128_8_0_0 18 (by decide) (piece fullShare 9 8) (Transfers.shareTokN (qT (cL L) (sL L)) 18)
    ∗ slotHome tab adr d L 9 inb_S10x20x128_S1x20x128_9_0_0 19 (by decide) (piece fullShare 9 9) (Transfers.shareTokN (qT (cL L) (sL L)) 19)
    ∗ invRest d L O W) := by
  unfold inv slotInv
  iterate 10 rw [if_neg hg]

/-! ## The value, chunk by chunk -/

/-- Row `r`, lane `l` of the accumulation scratch (indices taken modulo the extents, so that the term is total). -/
def yIx (r l : ℕ) : S250x80.Idx :=
  fun | 0 => ⟨r % 250, Nat.mod_lt _ (by decide)⟩ | 1 => ⟨l % 80, Nat.mod_lt _ (by decide)⟩ | ⟨_ + 2, h⟩ => absurd h (Nat.not_lt.2 (Nat.le_add_left _ _))

/-- Lane `l` of the table row that word `j` of chunk `c` of the tile's slab names (indices modulo the extents). -/
def rowN (c j l : ℕ) : Elt F .f32 :=
  rowAt tab adr d (wL L) ⟨c % 250, Nat.mod_lt _ (by decide)⟩ ⟨j % 20, Nat.mod_lt _ (by decide)⟩ ⟨l % 128, Nat.mod_lt _ (by decide)⟩

/-- What chunk `c` contributes at its group `t` of four rows and lane `l`: ((r₀ + r₁) + (r₂ + r₃)). -/
def gvalN (c t l : ℕ) : Elt F .f32 :=
  FloatOps.addf (φ := .f32) (FloatOps.addf (φ := .f32) (rowN tab adr d L c (4 * t) l) (rowN tab adr d L c (4 * t + 1) l))
    (FloatOps.addf (φ := .f32) (rowN tab adr d L c (4 * t + 2) l) (rowN tab adr d L c (4 * t + 3) l))

/-- The accumulation scratch after the tile's first `m` chunks: every chunk of the part that chunk `m - 1` lies in
    has its five rows of eighty lanes at the value. (Nothing is said of earlier parts' rows, which the later chunks
    overwrite; after chunk `50 p + 49` the whole of part `p` is there.) -/
def AccOK (m : ℕ) (fy : Buf (Elt F) ((sY).view.loc (V d (cV L) (jV L)))) : Prop :=
  ∀ c, c < m → c / 50 = (m - 1) / 50 → ∀ t, t < 5 → ∀ l, l < 80 → fy (yIx ((c % 50) * 5 + t) l) = gvalN tab adr d L c t l

end Tile

end Cert.Proof.KI.Sc

end
-- ==== Proof.ScAccStep.lean ====
/-
  The accumulation scratch after one more chunk: the step of AccOK, for any chunk number.

  Chunk c's accumulation is a list of unmasked stores into the accumulation scratch. If every store's rectangle lies in the
  chunk's own five rows (c mod 50) · 5 … + 4, the stores cover those rows' eighty lanes, and each store's payload at its own
  index is the chunk's value at the row's group and the lane, then: the chunk's rows hold its value, whatever they held; every
  other row holds what it held, so the earlier chunks of the same part of fifty keep theirs (their rows are other rows).
-/
import proofs.«207241_g55714315764006_cont_9to1c4b_410_29_alg».proof.Proof.ScDefs
import Idealize.ShloMosaic.Lib.Writes

noncomputable section

namespace Cert.Proof.KI.Sc

open Cert.KernelIdeal Cert.KernelIdeal.Gen Cert.Proof.KI
open Idealize.ShloMosaic
open Idealize.ShloMosaic.SparseCore (S V T)

variable {F : FTy → Type}
variable (tab : (d : Dev nD) → Buf (Elt F) (tLoc d)) (adr : (d : Dev nD) → Buf (Elt F) (aLoc d))
variable [FloatOps F]
variable (d : Dev nD) (L : grid2.Coords)

omit [FloatOps F] in
theorem yIx_row (r l : ℕ) (hr : r < 250) : ((yIx r l) 0).val = r := Nat.mod_eq_of_lt hr
omit [FloatOps F] in
theorem yIx_lane (r l : ℕ) (hl : l < 80) : ((yIx r l) 1).val = l := Nat.mod_eq_of_lt hl

/-- THE STEP: after chunk c's stores the accumulation scratch is right for the first c + 1 chunks. -/
theorem accOK_step (c : ℕ) (hc : c < 250) (fy : Buf (Elt F) ((sY).view.loc (V d (cV L) (jV L)))) (h : AccOK tab adr d L c fy)
    (Lw : List (View.Piece (Elt F) S250x80 .f32))
    (hrow : ∀ p ∈ Lw, ∀ y ∈ p.1.set, (y 0).val / 5 = c % 50)
    (hcov : ∀ t, t < 5 → ∀ l, l < 80 → ∃ p ∈ Lw, yIx ((c % 50) * 5 + t) l ∈ p.1.set)
    (hpay : ∀ p ∈ Lw, ∀ x : p.1.shape.Idx,
      p.2 x = gvalN tab adr d L c ((p.1.emb x 0).val - (c % 50) * 5) ((p.1.emb x 1).val)) :
    AccOK tab adr d L (c + 1) ((sY).view.writes (Elt F) fy Lw) := by
  intro c' hc' hdiv t ht l hl
  have hdiv' : c' / 50 = c / 50 := by rw [Nat.add_sub_cancel] at hdiv; exact hdiv
  by_cases hcc : c' = c
  · subst hcc
    have hr : (c' % 50) * 5 + t < 250 := by omega
    have hy := View.read_writes_apply_of_pieces (sY).view fy
      (fun y : S250x80.Idx => gvalN tab adr d L c' ((y 0).val - (c' % 50) * 5) ((y 1).val)) Lw hpay
      (yIx ((c' % 50) * 5 + t) l) (hcov t ht l hl)
    have e : (sY).view.read (Elt F) ((sY).view.writes (Elt F) fy Lw) (yIx ((c' % 50) * 5 + t) l)
        = ((sY).view.writes (Elt F) fy Lw) (yIx ((c' % 50) * 5 + t) l) := rfl
    rw [e] at hy
    rw [hy, yIx_row _ _ hr, yIx_lane _ _ hl, Nat.add_sub_cancel_left]
  · have hlt : c' < c := by omega
    have hr : (c' % 50) * 5 + t < 250 := by omega
    have hold := View.read_writes_apply_of_forall_not_mem (sY).view fy (yIx ((c' % 50) * 5 + t) l) Lw (fun p hp hy => by
      have h5 := hrow p hp _ hy
      rw [yIx_row _ _ hr] at h5
      omega)
    have e : (sY).view.read (Elt F) ((sY).view.writes (Elt F) fy Lw) (yIx ((c' % 50) * 5 + t) l)
        = ((sY).view.writes (Elt F) fy Lw) (yIx ((c' % 50) * 5 + t) l) := rfl
    have e' : (sY).view.read (Elt F) fy (yIx ((c' % 50) * 5 + t) l) = fy (yIx ((c' % 50) * 5 + t) l) := rfl
    rw [e, e'] at hold
    rw [hold]
    exact h c' hlt (by omega) t ht l hl

end Cert.Proof.KI.Sc

end
-- ==== Proof.ScAcc.lean ====
/-
  The accumulation of a landed chunk: what the loads of a slot read, lane by lane.

  A landed slot holds, at row `j` and lane `l`, lane `l` of the table row that word `j` of the chunk's address row names. The
  accumulation reads the ring through one-row, sixteen-lane rectangles inside the slot, recasts the four rows of a group to
  lane vectors, adds them as ((r₀ + r₁) + (r₂ + r₃)) and recasts the sum to a row: at each lane that is the chunk's group value.
-/
import proofs.«207241_g55714315764006_cont_9to1c4b_410_29_alg».proof.Proof.ScDefs
import Idealize.ShloMosaic.Lib.Pipeline.Value
import Idealize.ShloMosaic.Lib.ValueIdx

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

/-! ## The lane form of a group's sum -/

omit tab adr d L in
/-- Four one-row blocks recast to lane vectors, added ((a + b) + (c + d)), recast to a row: at lane `x 1` the sum of the
    four blocks' elements at that lane. -/
theorem lane_sum4 (A B C D : Vec F S1x1x16 .f32) (x : S1x16.Idx) :
    shapeCast S1x16 (addf (addf (shapeCast S16 A shapeCasts_S1x1x16_S16 : FVec F S16 .f32) (shapeCast S16 B shapeCasts_S1x1x16_S16 : FVec F S16 .f32))
        (addf (shapeCast S16 C shapeCasts_S1x1x16_S16 : FVec F S16 .f32) (shapeCast S16 D shapeCasts_S1x1x16_S16 : FVec F S16 .f32))) shapeCasts_S16_S1x16 x
      = FloatOps.addf (φ := .f32) (FloatOps.addf (φ := .f32) (A (ix3 (0 : Fin 1) (0 : Fin 1) (x 1))) (B (ix3 (0 : Fin 1) (0 : Fin 1) (x 1))))
          (FloatOps.addf (φ := .f32) (C (ix3 (0 : Fin 1) (0 : Fin 1) (x 1))) (D (ix3 (0 : Fin 1) (0 : Fin 1) (x 1)))) := by
  have hx0 : (x 0).val = 0 := by have h : (x 0).val < 1 := (x 0).isLt; omega
  have e1 : ∀ (Z : Vec F S1x1x16 .f32), shapeCast S16 Z shapeCasts_S1x1x16_S16 (ix1 (x 1)) = Z (ix3 (0 : Fin 1) (0 : Fin 1) (x 1)) := fun Z =>
    shapeCast_apply Z shapeCasts_S1x1x16_S16 (ix1 (x 1)) (ix3 (0 : Fin 1) (0 : Fin 1) (x 1))
      (by rw [Shape.rowMajor_val_three, Shape.rowMajor_val_one]; show (0 * 1 + 0) * 16 + (x 1).val = (x 1).val; omega)
  refine (shapeCast_apply _ shapeCasts_S16_S1x16 x (ix1 (x 1))
    (by rw [Shape.rowMajor_val_one, Shape.rowMajor_val_two]; show (x 1).val = (x 0).val * 16 + (x 1).val; omega)).trans ?_
  show FloatOps.addf (φ := .f32) (FloatOps.addf (φ := .f32) (shapeCast S16 A shapeCasts_S1x1x16_S16 (ix1 (x 1))) (shapeCast S16 B shapeCasts_S1x1x16_S16 (ix1 (x 1))))
      (FloatOps.addf (φ := .f32) (shapeCast S16 C shapeCasts_S1x1x16_S16 (ix1 (x 1))) (shapeCast S16 D shapeCasts_S1x1x16_S16 (ix1 (x 1)))) = _
  rw [e1 A, e1 B, e1 C, e1 D]

/-! ## What a load of the ring reads of a landed slot -/

omit tab adr [FloatOps F] in
/-- Slot `b`'s element `(j, l)` is the ring's `(b, j, l)`. -/
theorem slotM_emb (b : ℕ) (hb : ∀ a, (![b, 0, 0] : Fin 3 → ℕ) a + S1x20x128.size a ≤ S10x20x128.size a) (j : Fin 20) (l : Fin 128) (a : Fin 3) :
    ((slotM b hb).view.emb (ix2 j l) a).val = (![b, j.val, l.val] : Fin 3 → ℕ) a := by
  have hre : Shape.reshapeEquiv squeezes_S1x20x128_S20x128.numel_eq (ix2 j l) = (ix3 (0 : Fin 1) j l : S1x20x128.Idx) :=
    Shape.reshapeEquiv_eq_of_rowMajor _ (by rw [Shape.rowMajor_val_three, Shape.rowMajor_val_two]; show (0 * 20 + j.val) * 128 + l.val = j.val * 128 + l.val; omega)
  show ((sR).view.emb ((Rect.unit (s := S10x20x128) ![b, 0, 0] S1x20x128.size hb).emb (Shape.reshapeEquiv squeezes_S1x20x128_S20x128.numel_eq (ix2 j l))) a).val = _
  rw [hre]
  match a with
  | ⟨0, _⟩ => show b + 1 * 0 = b; omega
  | ⟨1, _⟩ => show 0 + 1 * j.val = j.val; omega
  | ⟨2, _⟩ => show 0 + 1 * l.val = l.val; omega

omit tab adr [FloatOps F] in
/-- A load of the ring through a one-row, sixteen-lane rectangle at `(b, j, l₀)`, the ring holding `g` written over slot `b`,
    reads `g` at row `j`, lanes `l₀ …`. -/
theorem ring_read (b : ℕ) (hb : ∀ a, (![b, 0, 0] : Fin 3 → ℕ) a + S1x20x128.size a ≤ S10x20x128.size a)
    (f0 : Buf (Elt F) ((sR).view.loc (V d (cV L) (jV L)))) (g : S20x128.Idx → Elt F .f32)
    (off : Fin 3 → ℕ) (inb : ∀ a, off a + S1x1x16.size a ≤ S10x20x128.size a) (j : Fin 20) (l0 : ℕ) (hl : l0 + 16 ≤ 128)
    (hoff : off = ![b, j.val, l0]) (e : Fin 16) :
    View.readAt (Elt F) (sR).view (Rect.unit (s := S10x20x128) off S1x1x16.size inb).toLoadRect
        (View.write (Elt F) (slotM b hb).view f0 g Finset.univ) (ix3 (0 : Fin 1) (0 : Fin 1) e)
      = g (ix2 j (⟨l0 + e.val, by omega⟩ : Fin 128)) := by
  subst hoff
  have hemb : (sR).view.emb ((Rect.unit (s := S10x20x128) ![b, j.val, l0] S1x1x16.size inb).toLoadRect.idx (ix3 (0 : Fin 1) (0 : Fin 1) e))
      = (slotM b hb).view.emb (ix2 j (⟨l0 + e.val, by omega⟩ : Fin 128)) := by
    funext a
    apply Fin.ext
    rw [slotM_emb]
    match a with
    | ⟨0, _⟩ => show b + 1 * 0 = b; omega
    | ⟨1, _⟩ => show j.val + 1 * 0 = j.val; omega
    | ⟨2, _⟩ => show l0 + 1 * e.val = l0 + e.val; omega
  rw [View.readAt_apply, View.read_apply, hemb, View.write_emb_of_mem _ _ (Finset.mem_univ _)]
  simp only [cast_cast, cast_eq]

end Cert.Proof.KI.Sc

end
-- ==== Proof.ScPiece.lean ====
/-
  One store of a chunk's accumulation: its payload, lane by lane, is the chunk's group value.

  The store of group t, lane chunk q of a landed chunk c in slot b takes four loads of the ring — rows 4 t … 4 t + 3 of
  the slot, lanes 16 q … 16 q + 15 —, adds them ((r₀ + r₁) + (r₂ + r₃)) and writes the sum to row (c mod 50) · 5 + t of the
  accumulation scratch at those lanes. Each load reads the landed payload, which is the table row the chunk's word names.
  The rectangles are taken whole, with their offsets, sizes and strides as facts, so that a use never has to name a
  rectangle's in-bounds evidence.
-/
import proofs.«207241_g55714315764006_cont_9to1c4b_410_29_alg».proof.Proof.ScAcc
import Idealize.ShloMosaic.Lib.Pipeline.Value
import Idealize.ShloMosaic.Lib.ValueIdx

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

omit tab adr [FloatOps F] d L in
/-- A rectangle with unit strides is the unit-stride rectangle of its offsets and sizes. -/
theorem rect_eq_unit {s : Shape} (R : Rect s) (o sz : Fin s.rank → ℕ) (ho : R.off = o) (hs : R.size = sz) (hst : ∀ a, R.stride a = 1)
    (inb : ∀ a, o a + sz a ≤ s.size a) : R = Rect.unit o sz inb := by
  obtain ⟨⟨off, size, stride, inb'⟩, pos⟩ := R
  have h1 : stride = fun _ => 1 := funext hst
  have ho' : off = o := ho
  have hs' : size = sz := hs
  subst h1 ho' hs'
  rfl

omit tab adr [FloatOps F] d L in
/-- A store at row `r0 · 5 + t` lies in rows `r0 · 5 … r0 · 5 + 4`. -/
theorem row_of_mem {R : Rect S250x80} {y : S250x80.Idx} (hy : y ∈ R.set) (r l0 r0 t : ℕ) (ht : t < 5) (hoff : R.off = ![r, l0])
    (hsz : R.size = S1x16.size) (hst : ∀ a, R.stride a = 1) (hr : r = r0 * 5 + t) : (y 0).val / 5 = r0 := by
  obtain ⟨j, hj, e⟩ := R.mem_set.mp hy 0
  rw [hoff, hst] at e
  rw [hsz] at hj
  have hj' : j < 1 := hj
  have e' : (y 0).val = r + 1 * j := e
  omega

omit tab adr [FloatOps F] d L in
/-- Row `r0 · 5 + t`, lane `l` is in the store of that row at the lane chunk `l / 16`. -/
theorem mem_of_lane (R : Rect S250x80) (r l0 r0 t l q : ℕ) (hoff : R.off = ![r, l0]) (hsz : R.size = S1x16.size)
    (hst : ∀ a, R.stride a = 1) (hr : r = r0 * 5 + t) (hl0 : l0 = 16 * q) (hr250 : r0 * 5 + t < 250) (hl : l < 80) (hq : l / 16 = q) :
    yIx (r0 * 5 + t) l ∈ R.set := by
  refine R.mem_set.mpr fun a => ?_
  match a with
  | ⟨0, _⟩ =>
    refine ⟨0, by rw [hsz]; exact Nat.one_pos, ?_⟩
    rw [hoff, hst]
    show (r0 * 5 + t) % 250 = r + 1 * 0
    rw [Nat.mod_eq_of_lt hr250]; omega
  | ⟨1, _⟩ =>
    refine ⟨l - l0, by rw [hsz]; show l - l0 < 16; omega, ?_⟩
    rw [hoff, hst]
    show l % 80 = l0 + 1 * (l - l0)
    rw [Nat.mod_eq_of_lt hl]; omega

omit tab adr [FloatOps F] d L in
/-- The load of row `4 t + i` of slot `b` at lanes `16 q …` is inside the ring. -/
theorem ld_inb (b t q i : ℕ) (hb : b + 1 ≤ 10) (ht : t < 5) (hq : q < 5) (hi : i < 4) :
    ∀ a, (![b, 4 * t + i, 16 * q] : Fin 3 → ℕ) a + S1x1x16.size a ≤ S10x20x128.size a := fun a => by
  match a with
  | ⟨0, _⟩ => show b + 1 ≤ 10; omega
  | ⟨1, _⟩ => show 4 * t + i + 1 ≤ 20; omega
  | ⟨2, _⟩ => show 16 * q + 16 ≤ 128; omega

/-- THE STORE'S PAYLOAD AT ITS OWN INDEX. For the store at row `(c mod 50) · 5 + t`, lanes `16 q …` (its offsets `off`), whose
    four loads are at `(b, 4 t + i, 16 q)` of the ring holding chunk `c`'s landed payload in slot `b` — the landed payload
    being the table rows the chunk's words name (`hg`) —, the sum at the store's index `x` is the chunk's value at group
    `t` and the lane of `x`. -/
theorem piece_val (hadr : AdrOK adr) (b : ℕ) (hb : ∀ a, (![b, 0, 0] : Fin 3 → ℕ) a + S1x20x128.size a ≤ S10x20x128.size a)
    (c : ℕ) (hh : ∀ a, (![c, 0] : Fin 2 → ℕ) a + S1x20.size a ≤ S250x20.size a)
    (hg : ∀ (j : Fin 20) (l : Fin 128), gPay tab adr d L hadr ![c, 0] hh (ix2 j l) = rowN tab adr d L c j.val l.val)
    (f0 : Buf (Elt F) ((sR).view.loc (V d (cV L) (jV L))))
    (off : Fin 2 → ℕ) (inb : ∀ a, off a + S1x16.size a ≤ S250x80.size a) (t q : ℕ) (ht : t < 5) (hq : q < 5)
    (hoff : off = ![(c % 50) * 5 + t, 16 * q])
    (x : (Rect.unit (s := S250x80) off S1x16.size inb).shape.Idx) :
    shapeCast S1x16 (addf
        (addf (shapeCast S16 (View.readAt (Elt F) (sR).view (Rect.unit (s := S10x20x128) ![b, 4 * t + 0, 16 * q] S1x1x16.size (ld_inb b t q 0 (hb 0) ht hq (by decide))).toLoadRect
            (View.write (Elt F) (slotM b hb).view f0 (gPay tab adr d L hadr ![c, 0] hh) Finset.univ)) shapeCasts_S1x1x16_S16 : FVec F S16 .f32)
          (shapeCast S16 (View.readAt (Elt F) (sR).view (Rect.unit (s := S10x20x128) ![b, 4 * t + 1, 16 * q] S1x1x16.size (ld_inb b t q 1 (hb 0) ht hq (by decide))).toLoadRect
            (View.write (Elt F) (slotM b hb).view f0 (gPay tab adr d L hadr ![c, 0] hh) Finset.univ)) shapeCasts_S1x1x16_S16 : FVec F S16 .f32))
        (addf (shapeCast S16 (View.readAt (Elt F) (sR).view (Rect.unit (s := S10x20x128) ![b, 4 * t + 2, 16 * q] S1x1x16.size (ld_inb b t q 2 (hb 0) ht hq (by decide))).toLoadRect
            (View.write (Elt F) (slotM b hb).view f0 (gPay tab adr d L hadr ![c, 0] hh) Finset.univ)) shapeCasts_S1x1x16_S16 : FVec F S16 .f32)
          (shapeCast S16 (View.readAt (Elt F) (sR).view (Rect.unit (s := S10x20x128) ![b, 4 * t + 3, 16 * q] S1x1x16.size (ld_inb b t q 3 (hb 0) ht hq (by decide))).toLoadRect
            (View.write (Elt F) (slotM b hb).view f0 (gPay tab adr d L hadr ![c, 0] hh) Finset.univ)) shapeCasts_S1x1x16_S16 : FVec F S16 .f32))) shapeCasts_S16_S1x16 x
      = gvalN tab adr d L c (((Rect.unit (s := S250x80) off S1x16.size inb).emb x 0).val - (c % 50) * 5)
          (((Rect.unit (s := S250x80) off S1x16.size inb).emb x 1).val) := by
  subst hoff
  have hx0 : (x 0).val = 0 := by have h : (x 0).val < 1 := (x 0).isLt; omega
  have hx1 : (x 1).val < 16 := (x 1).isLt
  have ex0 : ((Rect.unit (s := S250x80) ![(c % 50) * 5 + t, 16 * q] S1x16.size inb).emb x 0).val = (c % 50) * 5 + t := by
    show (c % 50) * 5 + t + 1 * (x 0).val = _; omega
  have ex1 : ((Rect.unit (s := S250x80) ![(c % 50) * 5 + t, 16 * q] S1x16.size inb).emb x 1).val = 16 * q + (x 1).val := by
    show 16 * q + 1 * (x 1).val = _; omega
  rw [ex0, ex1, Nat.add_sub_cancel_left]
  refine (lane_sum4 _ _ _ _ x).trans ?_
  have r0 := ring_read d L b hb f0 (gPay tab adr d L hadr ![c, 0] hh) ![b, 4 * t + 0, 16 * q] (ld_inb b t q 0 (hb 0) ht hq (by decide))
    (⟨4 * t + 0, by omega⟩ : Fin 20) (16 * q) (by omega) rfl (x 1)
  have r1 := ring_read d L b hb f0 (gPay tab adr d L hadr ![c, 0] hh) ![b, 4 * t + 1, 16 * q] (ld_inb b t q 1 (hb 0) ht hq (by decide))
    (⟨4 * t + 1, by omega⟩ : Fin 20) (16 * q) (by omega) rfl (x 1)
  have r2 := ring_read d L b hb f0 (gPay tab adr d L hadr ![c, 0] hh) ![b, 4 * t + 2, 16 * q] (ld_inb b t q 2 (hb 0) ht hq (by decide))
    (⟨4 * t + 2, by omega⟩ : Fin 20) (16 * q) (by omega) rfl (x 1)
  have r3 := ring_read d L b hb f0 (gPay tab adr d L hadr ![c, 0] hh) ![b, 4 * t + 3, 16 * q] (ld_inb b t q 3 (hb 0) ht hq (by decide))
    (⟨4 * t + 3, by omega⟩ : Fin 20) (16 * q) (by omega) rfl (x 1)
  rw [r0, r1, r2, r3, hg, hg, hg, hg]
  rfl

end Cert.Proof.KI.Sc

end
-- ==== Proof.ScGPay.lean ====
/-
  The landed slot's contents, entry by entry.

  A chunk's gather lands in its slot, at row `j` and lane `l`, lane `l` of the table row that word `j` of the chunk's row of the
  address scratch names; that word is the tile's slab of the address array at (chunk, j); every address names a row, so the
  row taken modulo the table's height is the row itself.
-/
import proofs.«207241_g55714315764006_cont_9to1c4b_410_29_alg».proof.Proof.ScAcc
import Idealize.ShloMosaic.Lib.Pipeline.Value
import Idealize.ShloMosaic.Lib.ValueIdx

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

omit tab adr [FloatOps F] d L in
/-- Cell `y` of chunk `c`'s row of the address scratch is the scratch's `(c, y)`. -/
theorem rowM_emb (c : ℕ) (hh : ∀ a, (![c, 0] : Fin 2 → ℕ) a + S1x20.size a ≤ S250x20.size a) (y : S20.Idx) (a : Fin 2) :
    ((rowM ![c, 0] hh).view.emb y a).val = (![c, (y 0).val] : Fin 2 → ℕ) a := by
  have hre : Shape.reshapeEquiv squeezes_S1x20_S20.numel_eq y = (ix2 (0 : Fin 1) (y 0) : S1x20.Idx) :=
    Shape.reshapeEquiv_eq_of_rowMajor _ (by rw [Shape.rowMajor_val_two, Shape.rowMajor_val_one]; show 0 * 20 + (y 0).val = (y 0).val; omega)
  show ((sA).view.emb ((Rect.unit (s := S250x20) ![c, 0] S1x20.size hh).emb (Shape.reshapeEquiv squeezes_S1x20_S20.numel_eq y)) a).val = _
  rw [hre]
  match a with
  | ⟨0, _⟩ => show c + 1 * 0 = c; omega
  | ⟨1, _⟩ => show 0 + 1 * (y 0).val = (y 0).val; omega

omit tab adr [FloatOps F] d in
/-- Element `(k, j)` of the tile's slab of the address array is the array's `(worker, k, j)`. -/
theorem aRowK_emb (z : S250x20.Idx) (a : Fin 3) :
    ((aRowK L).view.emb z a).val = (![(wL L).val, (z 0).val, (z 1).val] : Fin 3 → ℕ) a := by
  have hre : Shape.reshapeEquiv squeezes_S1x250x20_S250x20.numel_eq z = (ix3 (0 : Fin 1) (z 0) (z 1) : S1x250x20.Idx) :=
    Shape.reshapeEquiv_eq_of_rowMajor _ (by rw [Shape.rowMajor_val_three, Shape.rowMajor_val_two]; show (0 * 250 + (z 0).val) * 20 + (z 1).val = (z 0).val * 20 + (z 1).val; omega)
  show ((aV).view.emb ((Rect.unit (s := S32x250x20) (k2_off1 L) S1x250x20.size (k2_off1_inb L)).emb (Shape.reshapeEquiv squeezes_S1x250x20_S250x20.numel_eq z)) a).val = _
  rw [hre]
  have hk := k2_off1_eq L
  match a with
  | ⟨0, _⟩ => show k2_off1 L 0 + 1 * 0 = 2 * (L 1).val + (L 0).val; rw [hk]; show 2 * (L 1).val + (L 0).val + 1 * 0 = _; omega
  | ⟨1, _⟩ => show k2_off1 L 1 + 1 * (z 0).val = (z 0).val; rw [hk]; show 0 + 1 * (z 0).val = _; omega
  | ⟨2, _⟩ => show k2_off1 L 2 + 1 * (z 1).val = (z 1).val; rw [hk]; show 0 + 1 * (z 1).val = _; omega

omit tab adr [FloatOps F] d L in
/-- The gather's source index: on the indexed axis the row the list names, on the other the lane. -/
theorem gIdx0 (R : Fin 20 → Fin 78848) (j : Fin 20) (l : Fin 128) :
    (gathers_S78848x128_S20x128.idx R (ix2 j l) ⟨0, by decide⟩).val = (R j).val :=
  congrArg Fin.val (Shape.Gathers.idx_axis gathers_S78848x128_S20x128 R (ix2 j l))
omit tab adr [FloatOps F] d L in
theorem gIdx1 (R : Fin 20 → Fin 78848) (j : Fin 20) (l : Fin 128) :
    (gathers_S78848x128_S20x128.idx R (ix2 j l) ⟨1, by decide⟩).val = l.val :=
  Shape.Gathers.idx_of_ne gathers_S78848x128_S20x128 R (ix2 j l) ⟨1, by decide⟩ (by decide)

omit tab adr [FloatOps F] d L in
/-- The cell at row-major position `k` of a list of twenty is cell `k`. -/
theorem symm20 (k : Fin S20.numel) : ((S20.rowMajor.symm k) 0).val = k.val := by
  have h := Shape.rowMajor_val_one (S20.rowMajor.symm k)
  rw [Equiv.apply_symm_apply] at h
  exact h.symm

/-- The word at cell `y` of chunk `c`'s row of the address scratch, once the slab is in: the address array's
    `(worker, c, y)`. -/
theorem word_apply (c : ℕ) (hc : c < 250) (hh : ∀ a, (![c, 0] : Fin 2 → ℕ) a + S1x20.size a ≤ S250x20.size a) (y : S20.Idx) :
    View.read (Elt F) (rowM ![c, 0] hh).view (fA adr d L) y = adr d (aIx (wL L) ⟨c, hc⟩ ⟨(y 0).val, (y 0).isLt⟩) := by
  rw [View.read_apply]
  show _root_.cast _ ((aRowK L).view.read (Elt F) (adr d) ((rowM ![c, 0] hh).view.emb y)) = _
  rw [View.read_apply]
  simp only [cast_cast, cast_eq]
  congr 1
  funext a
  apply Fin.ext
  rw [aRowK_emb]
  match a with
  | ⟨0, _⟩ => rfl
  | ⟨1, _⟩ => exact rowM_emb c hh y 0
  | ⟨2, _⟩ => exact rowM_emb c hh y 1

/-- THE LANDED SLOT at row `j`, lane `l`: lane `l` of the table row that word `j` of chunk `c` names. -/
theorem gPay_apply (hadr : AdrOK adr) (c : ℕ) (hc : c < 250) (hh : ∀ a, (![c, 0] : Fin 2 → ℕ) a + S1x20.size a ≤ S250x20.size a)
    (j : Fin 20) (l : Fin 128) :
    gPay tab adr d L hadr ![c, 0] hh (ix2 j l) = rowN tab adr d L c j.val l.val := by
  have hcm : c % 250 = c := Nat.mod_eq_of_lt hc
  have hjm : j.val % 20 = j.val := Nat.mod_eq_of_lt j.isLt
  have hlm : l.val % 128 = l.val := Nat.mod_eq_of_lt l.isLt
  have hcj : aIx (wL L) ⟨c % 250, Nat.mod_lt _ (by decide)⟩ ⟨j.val % 20, Nat.mod_lt _ (by decide)⟩ = aIx (wL L) ⟨c, hc⟩ j := by
    congr 1
    · exact Fin.ext hcm
    · exact Fin.ext hjm
  unfold gPay SparseCore.gatherPayload rowN rowAt
  rw [View.read_apply]
  simp only [cast_eq]
  congr 1
  funext a
  apply Fin.ext
  match a with
  | ⟨0, _⟩ =>
    show 0 + 1 * (gathers_S78848x128_S20x128.idx _ (ix2 j l) ⟨0, by decide⟩).val = _
    rw [Nat.zero_add, Nat.one_mul]
    refine (gIdx0 _ j l).trans ?_
    show (View.read (Elt F) (rowM ![c, 0] hh).view (fA adr d L) (S20.rowMajor.symm (Fin.cast _ j))).toNat
      = (adr d (aIx (wL L) ⟨c % 250, Nat.mod_lt _ (by decide)⟩ ⟨j.val % 20, Nat.mod_lt _ (by decide)⟩)).toNat % 78848
    rw [word_apply adr d L c hc hh, hcj, Nat.mod_eq_of_lt (hadr d _)]
    congr 3
    exact Fin.ext (symm20 _)
  | ⟨1, _⟩ =>
    show 0 + 1 * (gathers_S78848x128_S20x128.idx _ (ix2 j l) ⟨1, by decide⟩).val = l.val % 128
    rw [Nat.zero_add, Nat.one_mul]
    exact (gIdx1 _ j l).trans hlm.symm

end Cert.Proof.KI.Sc

end
-- ==== Proof.ScSlot0.lean ====
/-
  The accumulation of one landed chunk, slot 0.
-/
import proofs.«207241_g55714315764006_cont_9to1c4b_410_29_alg».proof.Proof.ScDefs
import proofs.«207241_g55714315764006_cont_9to1c4b_410_29_alg».proof.Proof.ScAccStep
import proofs.«207241_g55714315764006_cont_9to1c4b_410_29_alg».proof.Proof.ScPiece
import proofs.«207241_g55714315764006_cont_9to1c4b_410_29_alg».proof.Proof.ScGPay

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 0's chunk `10 k + 0`, landed, is accumulated: the loop of five groups of four rows, five lane chunks each,
    reads the slot and stores the sums into the chunk's five rows of the accumulation scratch. -/
theorem accLoop0 (hadr : AdrOK adr) (k : Fin k2_t1_loop.trips) (c0_i32_62 c1_i32_63 : BitVec 32) (v80 : BitVec 32)
    (f0 : Buf (Elt F) ((sR).view.loc (V d (cV L) (jV L)))) (hh : ∀ a, (![10 * k.val + 0, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 0 inb_S10x20x128_S1x20x128_0_0_0).view.loc (V d (cV L) (jV L)) ↦[(slotM 0 inb_S10x20x128_S1x20x128_0_0_0).view.set]{fullShare} View.write (Elt F) (slotM 0 inb_S10x20x128_S1x20x128_0_0_0).view f0 (gPay tab adr d L hadr ![10 * k.val + 0, 0] hh) Finset.univ)
        ∗ (∃ fy, ((sY).view.loc (V d (cV L) (jV L)) ↦{fullShare} fy) ∗ ⌜AccOK tab adr d L (10 * k.val + 0) fy⌝))
      ⊢ iprop((∀ r, (((slotM 0 inb_S10x20x128_S1x20x128_0_0_0).view.loc (V d (cV L) (jV L)) ↦[(slotM 0 inb_S10x20x128_S1x20x128_0_0_0).view.set]{fullShare} View.write (Elt F) (slotM 0 inb_S10x20x128_S1x20x128_0_0_0).view f0 (gPay tab adr d L hadr ![10 * k.val + 0, 0] hh) Finset.univ)
              ∗ (∃ fy, ((sY).view.loc (V d (cV L) (jV L)) ↦{fullShare} fy) ∗ ⌜AccOK tab adr d L (10 * k.val + 0 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t2_loop k2_t2_ok 0#32
              (k2_t2_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 c0_i32_62 c1_i32_63 k v80) >>= kk) Q) := by
  have hk : k.val < 25 := lt_of_lt_of_eq k.isLt trips_t1
  have lt0 : 0 < k2_t2_loop.trips := by rw [trips_t2]; decide
  have lt1 : 1 < k2_t2_loop.trips := by rw [trips_t2]; decide
  have lt2 : 2 < k2_t2_loop.trips := by rw [trips_t2]; decide
  have lt3 : 3 < k2_t2_loop.trips := by rw [trips_t2]; decide
  have lt4 : 4 < k2_t2_loop.trips := by rw [trips_t2]; decide
  have hg := gPay_apply tab adr d L hadr (10 * k.val + 0) (by omega) hh
  iintro ⟨Hs, ⟨%fy, Hy, %hacc⟩⟩ Hk
  sl_unroll trips_t2
  sl_exec
  iapply Hk
  isplitl [Hs]; · iexact Hs
  iexists _
  isplitl [Hy]; · iexact Hy
  ipureintro
  sl_unfold_run_names
  refine accOK_step tab adr d L (10 * k.val + 0) (by omega) fy hacc _ ?_ ?_ ?_
  · -- every store lies in the chunk's own five rows
    exact List.forall_mem_cons.2 ⟨fun y hy => row_of_mem hy _ _ ((10 * k.val + 0) % 50) 4 (by decide) (acc_off_0_4 k ⟨4, lt4⟩) rfl (fun _ => rfl) rfl,
      List.forall_mem_cons.2 ⟨fun y hy => row_of_mem hy _ _ ((10 * k.val + 0) % 50) 4 (by decide) (acc_off_0_3 k ⟨4, lt4⟩) rfl (fun _ => rfl) rfl,
      List.forall_mem_cons.2 ⟨fun y hy => row_of_mem hy _ _ ((10 * k.val + 0) % 50) 4 (by decide) (acc_off_0_2 k ⟨4, lt4⟩) rfl (fun _ => rfl) rfl,
      List.forall_mem_cons.2 ⟨fun y hy => row_of_mem hy _ _ ((10 * k.val + 0) % 50) 4 (by decide) (acc_off_0_1 k ⟨4, lt4⟩) rfl (fun _ => rfl) rfl,
      List.forall_mem_cons.2 ⟨fun y hy => row_of_mem hy _ _ ((10 * k.val + 0) % 50) 4 (by decide) (acc_off_0_0 k ⟨4, lt4⟩) rfl (fun _ => rfl) rfl,
      List.forall_mem_cons.2 ⟨fun y hy => row_of_mem hy _ _ ((10 * k.val + 0) % 50) 3 (by decide) (acc_off_0_4 k ⟨3, lt3⟩) rfl (fun _ => rfl) rfl,
      List.forall_mem_cons.2 ⟨fun y hy => row_of_mem hy _ _ ((10 * k.val + 0) % 50) 3 (by decide) (acc_off_0_3 k ⟨3, lt3⟩) rfl (fun _ => rfl) rfl,
      List.forall_mem_cons.2 ⟨fun y hy => row_of_mem hy _ _ ((10 * k.val + 0) % 50) 3 (by decide) (acc_off_0_2 k ⟨3, lt3⟩) rfl (fun _ => rfl) rfl,
      List.forall_mem_cons.2 ⟨fun y hy => row_of_mem hy _ _ ((10 * k.val + 0) % 50) 3 (by decide) (acc_off_0_1 k ⟨3, lt3⟩) rfl (fun _ => rfl) rfl,
      List.forall_mem_cons.2 ⟨fun y hy => row_of_mem hy _ _ ((10 * k.val + 0) % 50) 3 (by decide) (acc_off_0_0 k ⟨3, lt3⟩) rfl (fun _ => rfl) rfl,
      List.forall_mem_cons.2 ⟨fun y hy => row_of_mem hy _ _ ((10 * k.val + 0) % 50) 2 (by decide) (acc_off_0_4 k ⟨2, lt2⟩) rfl (fun _ => rfl) rfl,
      List.forall_mem_cons.2 ⟨fun y hy => row_of_mem hy _ _ ((10 * k.val + 0) % 50) 2 (by decide) (acc_off_0_3 k ⟨2, lt2⟩) rfl (fun _ => rfl) rfl,
      List.forall_mem_cons.2 ⟨fun y hy => row_of_mem hy _ _ ((10 * k.val + 0) % 50) 2 (by decide) (acc_off_0_2 k ⟨2, lt2⟩) rfl (fun _ => rfl) rfl,
      List.forall_mem_cons.2 ⟨fun y hy => row_of_mem hy _ _ ((10 * k.val + 0) % 50) 2 (by decide) (acc_off_0_1 k ⟨2, lt2⟩) rfl (fun _ => rfl) rfl,
      List.forall_mem_cons.2 ⟨fun y hy => row_of_mem hy _ _ ((10 * k.val + 0) % 50) 2 (by decide) (acc_off_0_0 k ⟨2, lt2⟩) rfl (fun _ => rfl) rfl,
      List.forall_mem_cons.2 ⟨fun y hy => row_of_mem hy _ _ ((10 * k.val + 0) % 50) 1 (by decide) (acc_off_0_4 k ⟨1, lt1⟩) rfl (fun _ => rfl) rfl,
      List.forall_mem_cons.2 ⟨fun y hy => row_of_mem hy _ _ ((10 * k.val + 0) % 50) 1 (by decide) (acc_off_0_3 k ⟨1, lt1⟩) rfl (fun _ => rfl) rfl,
      List.forall_mem_cons.2 ⟨fun y hy => row_of_mem hy _ _ ((10 * k.val + 0) % 50) 1 (by decide) (acc_off_0_2 k ⟨1, lt1⟩) rfl (fun _ => rfl) rfl,
      List.forall_mem_cons.2 ⟨fun y hy => row_of_mem hy _ _ ((10 * k.val + 0) % 50) 1 (by decide) (acc_off_0_1 k ⟨1, lt1⟩) rfl (fun _ => rfl) rfl,
      List.forall_mem_cons.2 ⟨fun y hy => row_of_mem hy _ _ ((10 * k.val + 0) % 50) 1 (by decide) (acc_off_0_0 k ⟨1, lt1⟩) rfl (fun _ => rfl) rfl,
      List.forall_mem_cons.2 ⟨fun y hy => row_of_mem hy _ _ ((10 * k.val + 0) % 50) 0 (by decide) (acc_off_0_4 k ⟨0, lt0⟩) rfl (fun _ => rfl) rfl,
      List.forall_mem_cons.2 ⟨fun y hy => row_of_mem hy _ _ ((10 * k.val + 0) % 50) 0 (by decide) (acc_off_0_3 k ⟨0, lt0⟩) rfl (fun _ => rfl) rfl,
      List.forall_mem_cons.2 ⟨fun y hy => row_of_mem hy _ _ ((10 * k.val + 0) % 50) 0 (by decide) (acc_off_0_2 k ⟨0, lt0⟩) rfl (fun _ => rfl) rfl,
      List.forall_mem_cons.2 ⟨fun y hy => row_of_mem hy _ _ ((10 * k.val + 0) % 50) 0 (by decide) (acc_off_0_1 k ⟨0, lt0⟩) rfl (fun _ => rfl) rfl,
      List.forall_mem_cons.2 ⟨fun y hy => row_of_mem hy _ _ ((10 * k.val + 0) % 50) 0 (by decide) (acc_off_0_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 0) % 50) 0 l 0 (acc_off_0_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 0) % 50) 0 l 1 (acc_off_0_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 0) % 50) 0 l 2 (acc_off_0_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 0) % 50) 0 l 3 (acc_off_0_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 0) % 50) 0 l 4 (acc_off_0_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 0) % 50) 1 l 0 (acc_off_0_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 0) % 50) 1 l 1 (acc_off_0_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 0) % 50) 1 l 2 (acc_off_0_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 0) % 50) 1 l 3 (acc_off_0_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 0) % 50) 1 l 4 (acc_off_0_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 0) % 50) 2 l 0 (acc_off_0_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 0) % 50) 2 l 1 (acc_off_0_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 0) % 50) 2 l 2 (acc_off_0_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 0) % 50) 2 l 3 (acc_off_0_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 0) % 50) 2 l 4 (acc_off_0_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 0) % 50) 3 l 0 (acc_off_0_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 0) % 50) 3 l 1 (acc_off_0_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 0) % 50) 3 l 2 (acc_off_0_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 0) % 50) 3 l 3 (acc_off_0_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 0) % 50) 3 l 4 (acc_off_0_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 0) % 50) 4 l 0 (acc_off_0_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 0) % 50) 4 l 1 (acc_off_0_1 k ⟨4, lt4⟩) rfl (fun _ => rfl) rfl rfl (by omega) hl hq⟩
    · exact ⟨_, List.mem_cons_of_mem _ (List.mem_cons_of_mem _ (List.mem_cons_self)), mem_of_lane _ _ _ ((10 * k.val + 0) % 50) 4 l 2 (acc_off_0_2 k ⟨4, lt4⟩) rfl (fun _ => rfl) rfl rfl (by omega) hl hq⟩
    · exact ⟨_, List.mem_cons_of_mem _ (List.mem_cons_self), mem_of_lane _ _ _ ((10 * k.val + 0) % 50) 4 l 3 (acc_off_0_3 k ⟨4, lt4⟩) rfl (fun _ => rfl) rfl rfl (by omega) hl hq⟩
    · exact ⟨_, List.mem_cons_self, mem_of_lane _ _ _ ((10 * k.val + 0) % 50) 4 l 4 (acc_off_0_4 k ⟨4, lt4⟩) rfl (fun _ => rfl) rfl rfl (by omega) hl hq⟩
  · -- each store's payload is the chunk's value at its row's group and its lane
    exact List.forall_mem_cons.2 ⟨fun x => piece_val tab adr d L hadr 0 inb_S10x20x128_S1x20x128_0_0_0 (10 * k.val + 0) hh hg f0 _ (k2_off17_inb k ⟨4, lt4⟩) 4 4 (by decide) (by decide) (acc_off_0_4 k ⟨4, lt4⟩) x,
      List.forall_mem_cons.2 ⟨fun x => piece_val tab adr d L hadr 0 inb_S10x20x128_S1x20x128_0_0_0 (10 * k.val + 0) hh hg f0 _ (k2_off14_inb k ⟨4, lt4⟩) 4 3 (by decide) (by decide) (acc_off_0_3 k ⟨4, lt4⟩) x,
      List.forall_mem_cons.2 ⟨fun x => piece_val tab adr d L hadr 0 inb_S10x20x128_S1x20x128_0_0_0 (10 * k.val + 0) hh hg f0 _ (k2_off11_inb k ⟨4, lt4⟩) 4 2 (by decide) (by decide) (acc_off_0_2 k ⟨4, lt4⟩) x,
      List.forall_mem_cons.2 ⟨fun x => piece_val tab adr d L hadr 0 inb_S10x20x128_S1x20x128_0_0_0 (10 * k.val + 0) hh hg f0 _ (k2_off8_inb k ⟨4, lt4⟩) 4 1 (by decide) (by decide) (acc_off_0_1 k ⟨4, lt4⟩) x,
      List.forall_mem_cons.2 ⟨fun x => piece_val tab adr d L hadr 0 inb_S10x20x128_S1x20x128_0_0_0 (10 * k.val + 0) hh hg f0 _ (k2_off5_inb k ⟨4, lt4⟩) 4 0 (by decide) (by decide) (acc_off_0_0 k ⟨4, lt4⟩) x,
      List.forall_mem_cons.2 ⟨fun x => piece_val tab adr d L hadr 0 inb_S10x20x128_S1x20x128_0_0_0 (10 * k.val + 0) hh hg f0 _ (k2_off17_inb k ⟨3, lt3⟩) 3 4 (by decide) (by decide) (acc_off_0_4 k ⟨3, lt3⟩) x,
      List.forall_mem_cons.2 ⟨fun x => piece_val tab adr d L hadr 0 inb_S10x20x128_S1x20x128_0_0_0 (10 * k.val + 0) hh hg f0 _ (k2_off14_inb k ⟨3, lt3⟩) 3 3 (by decide) (by decide) (acc_off_0_3 k ⟨3, lt3⟩) x,
      List.forall_mem_cons.2 ⟨fun x => piece_val tab adr d L hadr 0 inb_S10x20x128_S1x20x128_0_0_0 (10 * k.val + 0) hh hg f0 _ (k2_off11_inb k ⟨3, lt3⟩) 3 2 (by decide) (by decide) (acc_off_0_2 k ⟨3, lt3⟩) x,
      List.forall_mem_cons.2 ⟨fun x => piece_val tab adr d L hadr 0 inb_S10x20x128_S1x20x128_0_0_0 (10 * k.val + 0) hh hg f0 _ (k2_off8_inb k ⟨3, lt3⟩) 3 1 (by decide) (by decide) (acc_off_0_1 k ⟨3, lt3⟩) x,
      List.forall_mem_cons.2 ⟨fun x => piece_val tab adr d L hadr 0 inb_S10x20x128_S1x20x128_0_0_0 (10 * k.val + 0) hh hg f0 _ (k2_off5_inb k ⟨3, lt3⟩) 3 0 (by decide) (by decide) (acc_off_0_0 k ⟨3, lt3⟩) x,
      List.forall_mem_cons.2 ⟨fun x => piece_val tab adr d L hadr 0 inb_S10x20x128_S1x20x128_0_0_0 (10 * k.val + 0) hh hg f0 _ (k2_off17_inb k ⟨2, lt2⟩) 2 4 (by decide) (by decide) (acc_off_0_4 k ⟨2, lt2⟩) x,
      List.forall_mem_cons.2 ⟨fun x => piece_val tab adr d L hadr 0 inb_S10x20x128_S1x20x128_0_0_0 (10 * k.val + 0) hh hg f0 _ (k2_off14_inb k ⟨2, lt2⟩) 2 3 (by decide) (by decide) (acc_off_0_3 k ⟨2, lt2⟩) x,
      List.forall_mem_cons.2 ⟨fun x => piece_val tab adr d L hadr 0 inb_S10x20x128_S1x20x128_0_0_0 (10 * k.val + 0) hh hg f0 _ (k2_off11_inb k ⟨2, lt2⟩) 2 2 (by decide) (by decide) (acc_off_0_2 k ⟨2, lt2⟩) x,
      List.forall_mem_cons.2 ⟨fun x => piece_val tab adr d L hadr 0 inb_S10x20x128_S1x20x128_0_0_0 (10 * k.val + 0) hh hg f0 _ (k2_off8_inb k ⟨2, lt2⟩) 2 1 (by decide) (by decide) (acc_off_0_1 k ⟨2, lt2⟩) x,
      List.forall_mem_cons.2 ⟨fun x => piece_val tab adr d L hadr 0 inb_S10x20x128_S1x20x128_0_0_0 (10 * k.val + 0) hh hg f0 _ (k2_off5_inb k ⟨2, lt2⟩) 2 0 (by decide) (by decide) (acc_off_0_0 k ⟨2, lt2⟩) x,
      List.forall_mem_cons.2 ⟨fun x => piece_val tab adr d L hadr 0 inb_S10x20x128_S1x20x128_0_0_0 (10 * k.val + 0) hh hg f0 _ (k2_off17_inb k ⟨1, lt1⟩) 1 4 (by decide) (by decide) (acc_off_0_4 k ⟨1, lt1⟩) x,
      List.forall_mem_cons.2 ⟨fun x => piece_val tab adr d L hadr 0 inb_S10x20x128_S1x20x128_0_0_0 (10 * k.val + 0) hh hg f0 _ (k2_off14_inb k ⟨1, lt1⟩) 1 3 (by decide) (by decide) (acc_off_0_3 k ⟨1, lt1⟩) x,
      List.forall_mem_cons.2 ⟨fun x => piece_val tab adr d L hadr 0 inb_S10x20x128_S1x20x128_0_0_0 (10 * k.val + 0) hh hg f0 _ (k2_off11_inb k ⟨1, lt1⟩) 1 2 (by decide) (by decide) (acc_off_0_2 k ⟨1, lt1⟩) x,
      List.forall_mem_cons.2 ⟨fun x => piece_val tab adr d L hadr 0 inb_S10x20x128_S1x20x128_0_0_0 (10 * k.val + 0) hh hg f0 _ (k2_off8_inb k ⟨1, lt1⟩) 1 1 (by decide) (by decide) (acc_off_0_1 k ⟨1, lt1⟩) x,
      List.forall_mem_cons.2 ⟨fun x => piece_val tab adr d L hadr 0 inb_S10x20x128_S1x20x128_0_0_0 (10 * k.val + 0) hh hg f0 _ (k2_off5_inb k ⟨1, lt1⟩) 1 0 (by decide) (by decide) (acc_off_0_0 k ⟨1, lt1⟩) x,
      List.forall_mem_cons.2 ⟨fun x => piece_val tab adr d L hadr 0 inb_S10x20x128_S1x20x128_0_0_0 (10 * k.val + 0) hh hg f0 _ (k2_off17_inb k ⟨0, lt0⟩) 0 4 (by decide) (by decide) (acc_off_0_4 k ⟨0, lt0⟩) x,
      List.forall_mem_cons.2 ⟨fun x => piece_val tab adr d L hadr 0 inb_S10x20x128_S1x20x128_0_0_0 (10 * k.val + 0) hh hg f0 _ (k2_off14_inb k ⟨0, lt0⟩) 0 3 (by decide) (by decide) (acc_off_0_3 k ⟨0, lt0⟩) x,
      List.forall_mem_cons.2 ⟨fun x => piece_val tab adr d L hadr 0 inb_S10x20x128_S1x20x128_0_0_0 (10 * k.val + 0) hh hg f0 _ (k2_off11_inb k ⟨0, lt0⟩) 0 2 (by decide) (by decide) (acc_off_0_2 k ⟨0, lt0⟩) x,
      List.forall_mem_cons.2 ⟨fun x => piece_val tab adr d L hadr 0 inb_S10x20x128_S1x20x128_0_0_0 (10 * k.val + 0) hh hg f0 _ (k2_off8_inb k ⟨0, lt0⟩) 0 1 (by decide) (by decide) (acc_off_0_1 k ⟨0, lt0⟩) x,
      List.forall_mem_cons.2 ⟨fun x => piece_val tab adr d L hadr 0 inb_S10x20x128_S1x20x128_0_0_0 (10 * k.val + 0) hh hg f0 _ (k2_off5_inb k ⟨0, lt0⟩) 0 0 (by decide) (by decide) (acc_off_0_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KI.Sc

end
-- ==== Proof.ScPieces.lean ====
/-
  A chunk's twenty-five stores, read off as a list: the step of the accumulation scratch from the list's pieces.

  Chunk c's accumulation stores, for each of its five groups t of four rows and each of the five lane chunks cc of
  sixteen lanes, the group's sum at those lanes into row (c mod 50) · 5 + t, lanes 16 cc … 16 cc + 15 of the
  accumulation scratch. A run of the body leaves the scratch at the list of those twenty-five stores, the last
  first. If the list's pieces are, in that order, the stores of the pairs (4, 4), (4, 3), …, (0, 0) — each at its
  rectangle, its payload the chunk's value at the group and the lane — then the stores lie in the chunk's own
  rows, cover their eighty lanes and carry the chunk's value: the scratch is right for one more chunk.
-/
import proofs.«207241_g55714315764006_cont_9to1c4b_410_29_alg».proof.Proof.ScAccStep

noncomputable section

namespace Cert.Proof.KI.Sc

open Cert.KernelIdeal Cert.KernelIdeal.Gen Cert.Proof.KI
open Idealize.ShloMosaic
open Idealize.ShloMosaic.SparseCore (S V T)

/-! ## Lists related entry by entry -/

theorem forall2_left {α β : Type} {R : α → β → Prop} {l₁ : List α} {l₂ : List β} (h : List.Forall₂ R l₁ l₂) :
    ∀ a ∈ l₁, ∃ b ∈ l₂, R a b := by
  induction h with
  | nil => intro a ha; cases ha
  | cons hab _ ih =>
    intro a ha
    rcases List.mem_cons.mp ha with rfl | ha
    · exact ⟨_, List.mem_cons_self, hab⟩
    · obtain ⟨b, hb, hr⟩ := ih a ha
      exact ⟨b, List.mem_cons_of_mem _ hb, hr⟩

theorem forall2_right {α β : Type} {R : α → β → Prop} {l₁ : List α} {l₂ : List β} (h : List.Forall₂ R l₁ l₂) :
    ∀ b ∈ l₂, ∃ a ∈ l₁, R a b := by
  induction h with
  | nil => intro b hb; cases hb
  | cons hab _ ih =>
    intro b hb
    rcases List.mem_cons.mp hb with rfl | hb
    · exact ⟨_, List.mem_cons_self, hab⟩
    · obtain ⟨a, ha, hr⟩ := ih b hb
      exact ⟨a, List.mem_cons_of_mem _ ha, hr⟩

/-! ## The stores of a chunk -/

variable {F : FTy → Type}
variable (tab : (d : Dev nD) → Buf (Elt F) (tLoc d)) (adr : (d : Dev nD) → Buf (Elt F) (aLoc d))
variable [FloatOps F]
variable (d : Dev nD) (L : grid2.Coords)

/-- The piece `p` is chunk `c`'s store of group `tc.1`, lane chunk `tc.2`: a one-row, sixteen-lane rectangle at row
    (c mod 50) · 5 + group, lane 16 · lane chunk, carrying at each of its indices the chunk's value at the index's row (less the chunk's first row) and lane. -/
def PieceAt (c : ℕ) (p : View.Piece (Elt F) S250x80 .f32) (tc : ℕ × ℕ) : Prop :=
  ∃ (off : Fin 2 → ℕ) (h : ∀ a, off a + S1x16.size a ≤ S250x80.size a)
    (pay : (Rect.unit (s := S250x80) off S1x16.size h).shape.Idx → Elt F .f32),
    off = ![(c % 50) * 5 + tc.1, 16 * tc.2] ∧ p = ⟨Rect.unit (s := S250x80) off S1x16.size h, pay⟩
      ∧ ∀ x, pay x = gvalN tab adr d L c (((Rect.unit (s := S250x80) off S1x16.size h).emb x 0).val - (c % 50) * 5)
          (((Rect.unit (s := S250x80) off S1x16.size h).emb x 1).val)

/-- The twenty-five (group, lane chunk) pairs in the order a run lists the stores: the last store first. -/
def tcList : List (ℕ × ℕ) :=
  [(4, 4), (4, 3), (4, 2), (4, 1), (4, 0), (3, 4), (3, 3), (3, 2), (3, 1), (3, 0), (2, 4), (2, 3), (2, 2), (2, 1), (2, 0),
    (1, 4), (1, 3), (1, 2), (1, 1), (1, 0), (0, 4), (0, 3), (0, 2), (0, 1), (0, 0)]

theorem tcList_lt : ∀ tc ∈ tcList, tc.1 < 5 ∧ tc.2 < 5 := by decide

theorem mem_tcList (t cc : ℕ) (ht : t < 5) (hcc : cc < 5) : (t, cc) ∈ tcList := by
  interval_cases t <;> interval_cases cc <;> decide

/-- THE STEP FROM THE LIST: the scratch after the listed stores is right for the first c + 1 chunks. -/
theorem accOK_of_pieces (c : ℕ) (hc : c < 250) (fy : Buf (Elt F) ((sY).view.loc (V d (cV L) (jV L))))
    (h : AccOK tab adr d L c fy) (Lw : List (View.Piece (Elt F) S250x80 .f32))
    (hL : List.Forall₂ (PieceAt tab adr d L c) Lw tcList) :
    AccOK tab adr d L (c + 1) ((sY).view.writes (Elt F) fy Lw) := by
  refine accOK_step tab adr d L c hc fy h Lw ?_ ?_ ?_
  · intro p hp y hy
    obtain ⟨tc, htc, off, hin, pay, hoff, rfl, -⟩ := forall2_left hL p hp
    have ht := (tcList_lt tc htc).1
    have h0 := ((Rect.mem_set_unit (inb := hin)).mp hy) (0 : Fin 2)
    rw [hoff] at h0
    have e0 : (![(c % 50) * 5 + tc.1, 16 * tc.2] : Fin 2 → ℕ) 0 = (c % 50) * 5 + tc.1 := rfl
    have e1 : S1x16.size 0 = 1 := rfl
    rw [e0, e1] at h0
    omega
  · intro t ht l hl
    have hcc : l / 16 < 5 := by omega
    obtain ⟨p, hp, off, hin, pay, hoff, rfl, -⟩ := forall2_right hL (t, l / 16) (mem_tcList t (l / 16) ht hcc)
    refine ⟨_, hp, (Rect.mem_set_unit (inb := hin)).mpr fun a => ?_⟩
    rw [hoff]
    have hr : (c % 50) * 5 + t < 250 := by omega
    match a with
    | ⟨0, _⟩ =>
      show (c % 50) * 5 + t ≤ ((yIx ((c % 50) * 5 + t) l) 0).val ∧ ((yIx ((c % 50) * 5 + t) l) 0).val < (c % 50) * 5 + t + 1
      rw [yIx_row _ _ hr]; omega
    | ⟨1, _⟩ =>
      show 16 * (l / 16) ≤ ((yIx ((c % 50) * 5 + t) l) 1).val ∧ ((yIx ((c % 50) * 5 + t) l) 1).val < 16 * (l / 16) + 16
      rw [yIx_lane _ _ hl]; omega
  · intro p hp x
    obtain ⟨tc, htc, off, hin, pay, hoff, rfl, hpay⟩ := forall2_left hL p hp
    exact hpay x

end Cert.Proof.KI.Sc

end
-- ==== Proof.ScSlot1.lean ====
/-
  The accumulation of one landed chunk, slot 1.
-/
import proofs.«207241_g55714315764006_cont_9to1c4b_410_29_alg».proof.Proof.ScPieces
import proofs.«207241_g55714315764006_cont_9to1c4b_410_29_alg».proof.Proof.ScPiece
import proofs.«207241_g55714315764006_cont_9to1c4b_410_29_alg».proof.Proof.ScGPay

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 1's chunk `10 k + 1`, landed, is accumulated: the loop of five groups of four rows, five lane chunks each,
    reads the slot and stores the sums into the chunk's five rows of the accumulation scratch. -/
theorem accLoop1 (hadr : AdrOK adr) (k : Fin k2_t1_loop.trips) (arg18 v55 c10_i32_86 v116 : BitVec 32)
    (f0 : Buf (Elt F) ((sR).view.loc (V d (cV L) (jV L)))) (hh : ∀ a, (![10 * k.val + 1, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 1 inb_S10x20x128_S1x20x128_1_0_0).view.loc (V d (cV L) (jV L)) ↦[(slotM 1 inb_S10x20x128_S1x20x128_1_0_0).view.set]{fullShare} View.write (Elt F) (slotM 1 inb_S10x20x128_S1x20x128_1_0_0).view f0 (gPay tab adr d L hadr ![10 * k.val + 1, 0] hh) Finset.univ)
        ∗ (∃ fy, ((sY).view.loc (V d (cV L) (jV L)) ↦{fullShare} fy) ∗ ⌜AccOK tab adr d L (10 * k.val + 1) fy⌝))
      ⊢ iprop((∀ r, (((slotM 1 inb_S10x20x128_S1x20x128_1_0_0).view.loc (V d (cV L) (jV L)) ↦[(slotM 1 inb_S10x20x128_S1x20x128_1_0_0).view.set]{fullShare} View.write (Elt F) (slotM 1 inb_S10x20x128_S1x20x128_1_0_0).view f0 (gPay tab adr d L hadr ![10 * k.val + 1, 0] hh) Finset.univ)
              ∗ (∃ fy, ((sY).view.loc (V d (cV L) (jV L)) ↦{fullShare} fy) ∗ ⌜AccOK tab adr d L (10 * k.val + 1 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t3_loop k2_t3_ok 0#32
              (k2_t3_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v55 c10_i32_86 v116) >>= kk) Q) := by
  iintro ⟨Hslot, ⟨%fy, Hy, %hacc⟩⟩ Hk
  sl_unroll trips_t3
  sl_exec
  iapply Hk
  isplitl [Hslot]; · iexact Hslot
  iexists _
  isplitl [Hy]; · iexact Hy
  ipureintro
  have hc : 10 * k.val + 1 < 250 := by have h := k.isLt; have e := trips_t1; omega
  have hg := fun (j : Fin 20) (l : Fin 128) => gPay_apply tab adr d L hadr (10 * k.val + 1) hc hh j l
  refine accOK_of_pieces tab adr d L (10 * k.val + 1) hc fy hacc _ ?_
  sl_unfold_run_names
  exact
    (List.Forall₂.cons ⟨_, _, _, acc_off_1_4 k _, rfl, fun x => piece_val tab adr d L hadr 1 inb_S10x20x128_S1x20x128_1_0_0 (10 * k.val + 1) hh hg f0 _ _ 4 4 (by decide) (by decide) (acc_off_1_4 k _) x⟩
    (List.Forall₂.cons ⟨_, _, _, acc_off_1_3 k _, rfl, fun x => piece_val tab adr d L hadr 1 inb_S10x20x128_S1x20x128_1_0_0 (10 * k.val + 1) hh hg f0 _ _ 4 3 (by decide) (by decide) (acc_off_1_3 k _) x⟩
    (List.Forall₂.cons ⟨_, _, _, acc_off_1_2 k _, rfl, fun x => piece_val tab adr d L hadr 1 inb_S10x20x128_S1x20x128_1_0_0 (10 * k.val + 1) hh hg f0 _ _ 4 2 (by decide) (by decide) (acc_off_1_2 k _) x⟩
    (List.Forall₂.cons ⟨_, _, _, acc_off_1_1 k _, rfl, fun x => piece_val tab adr d L hadr 1 inb_S10x20x128_S1x20x128_1_0_0 (10 * k.val + 1) hh hg f0 _ _ 4 1 (by decide) (by decide) (acc_off_1_1 k _) x⟩
    (List.Forall₂.cons ⟨_, _, _, acc_off_1_0 k _, rfl, fun x => piece_val tab adr d L hadr 1 inb_S10x20x128_S1x20x128_1_0_0 (10 * k.val + 1) hh hg f0 _ _ 4 0 (by decide) (by decide) (acc_off_1_0 k _) x⟩
    (List.Forall₂.cons ⟨_, _, _, acc_off_1_4 k _, rfl, fun x => piece_val tab adr d L hadr 1 inb_S10x20x128_S1x20x128_1_0_0 (10 * k.val + 1) hh hg f0 _ _ 3 4 (by decide) (by decide) (acc_off_1_4 k _) x⟩
    (List.Forall₂.cons ⟨_, _, _, acc_off_1_3 k _, rfl, fun x => piece_val tab adr d L hadr 1 inb_S10x20x128_S1x20x128_1_0_0 (10 * k.val + 1) hh hg f0 _ _ 3 3 (by decide) (by decide) (acc_off_1_3 k _) x⟩
    (List.Forall₂.cons ⟨_, _, _, acc_off_1_2 k _, rfl, fun x => piece_val tab adr d L hadr 1 inb_S10x20x128_S1x20x128_1_0_0 (10 * k.val + 1) hh hg f0 _ _ 3 2 (by decide) (by decide) (acc_off_1_2 k _) x⟩
    (List.Forall₂.cons ⟨_, _, _, acc_off_1_1 k _, rfl, fun x => piece_val tab adr d L hadr 1 inb_S10x20x128_S1x20x128_1_0_0 (10 * k.val + 1) hh hg f0 _ _ 3 1 (by decide) (by decide) (acc_off_1_1 k _) x⟩
    (List.Forall₂.cons ⟨_, _, _, acc_off_1_0 k _, rfl, fun x => piece_val tab adr d L hadr 1 inb_S10x20x128_S1x20x128_1_0_0 (10 * k.val + 1) hh hg f0 _ _ 3 0 (by decide) (by decide) (acc_off_1_0 k _) x⟩
    (List.Forall₂.cons ⟨_, _, _, acc_off_1_4 k _, rfl, fun x => piece_val tab adr d L hadr 1 inb_S10x20x128_S1x20x128_1_0_0 (10 * k.val + 1) hh hg f0 _ _ 2 4 (by decide) (by decide) (acc_off_1_4 k _) x⟩
    (List.Forall₂.cons ⟨_, _, _, acc_off_1_3 k _, rfl, fun x => piece_val tab adr d L hadr 1 inb_S10x20x128_S1x20x128_1_0_0 (10 * k.val + 1) hh hg f0 _ _ 2 3 (by decide) (by decide) (acc_off_1_3 k _) x⟩
    (List.Forall₂.cons ⟨_, _, _, acc_off_1_2 k _, rfl, fun x => piece_val tab adr d L hadr 1 inb_S10x20x128_S1x20x128_1_0_0 (10 * k.val + 1) hh hg f0 _ _ 2 2 (by decide) (by decide) (acc_off_1_2 k _) x⟩
    (List.Forall₂.cons ⟨_, _, _, acc_off_1_1 k _, rfl, fun x => piece_val tab adr d L hadr 1 inb_S10x20x128_S1x20x128_1_0_0 (10 * k.val + 1) hh hg f0 _ _ 2 1 (by decide) (by decide) (acc_off_1_1 k _) x⟩
    (List.Forall₂.cons ⟨_, _, _, acc_off_1_0 k _, rfl, fun x => piece_val tab adr d L hadr 1 inb_S10x20x128_S1x20x128_1_0_0 (10 * k.val + 1) hh hg f0 _ _ 2 0 (by decide) (by decide) (acc_off_1_0 k _) x⟩
    (List.Forall₂.cons ⟨_, _, _, acc_off_1_4 k _, rfl, fun x => piece_val tab adr d L hadr 1 inb_S10x20x128_S1x20x128_1_0_0 (10 * k.val + 1) hh hg f0 _ _ 1 4 (by decide) (by decide) (acc_off_1_4 k _) x⟩
    (List.Forall₂.cons ⟨_, _, _, acc_off_1_3 k _, rfl, fun x => piece_val tab adr d L hadr 1 inb_S10x20x128_S1x20x128_1_0_0 (10 * k.val + 1) hh hg f0 _ _ 1 3 (by decide) (by decide) (acc_off_1_3 k _) x⟩
    (List.Forall₂.cons ⟨_, _, _, acc_off_1_2 k _, rfl, fun x => piece_val tab adr d L hadr 1 inb_S10x20x128_S1x20x128_1_0_0 (10 * k.val + 1) hh hg f0 _ _ 1 2 (by decide) (by decide) (acc_off_1_2 k _) x⟩
    (List.Forall₂.cons ⟨_, _, _, acc_off_1_1 k _, rfl, fun x => piece_val tab adr d L hadr 1 inb_S10x20x128_S1x20x128_1_0_0 (10 * k.val + 1) hh hg f0 _ _ 1 1 (by decide) (by decide) (acc_off_1_1 k _) x⟩
    (List.Forall₂.cons ⟨_, _, _, acc_off_1_0 k _, rfl, fun x => piece_val tab adr d L hadr 1 inb_S10x20x128_S1x20x128_1_0_0 (10 * k.val + 1) hh hg f0 _ _ 1 0 (by decide) (by decide) (acc_off_1_0 k _) x⟩
    (List.Forall₂.cons ⟨_, _, _, acc_off_1_4 k _, rfl, fun x => piece_val tab adr d L hadr 1 inb_S10x20x128_S1x20x128_1_0_0 (10 * k.val + 1) hh hg f0 _ _ 0 4 (by decide) (by decide) (acc_off_1_4 k _) x⟩
    (List.Forall₂.cons ⟨_, _, _, acc_off_1_3 k _, rfl, fun x => piece_val tab adr d L hadr 1 inb_S10x20x128_S1x20x128_1_0_0 (10 * k.val + 1) hh hg f0 _ _ 0 3 (by decide) (by decide) (acc_off_1_3 k _) x⟩
    (List.Forall₂.cons ⟨_, _, _, acc_off_1_2 k _, rfl, fun x => piece_val tab adr d L hadr 1 inb_S10x20x128_S1x20x128_1_0_0 (10 * k.val + 1) hh hg f0 _ _ 0 2 (by decide) (by decide) (acc_off_1_2 k _) x⟩
    (List.Forall₂.cons ⟨_, _, _, acc_off_1_1 k _, rfl, fun x => piece_val tab adr d L hadr 1 inb_S10x20x128_S1x20x128_1_0_0 (10 * k.val + 1) hh hg f0 _ _ 0 1 (by decide) (by decide) (acc_off_1_1 k _) x⟩
    (List.Forall₂.cons ⟨_, _, _, acc_off_1_0 k _, rfl, fun x => piece_val tab adr d L hadr 1 inb_S10x20x128_S1x20x128_1_0_0 (10 * k.val + 1) hh hg f0 _ _ 0 0 (by decide) (by decide) (acc_off_1_0 k _) x⟩
    List.Forall₂.nil)))))))))))))))))))))))))

end Cert.Proof.KI.Sc

end
-- ==== Proof.ScSlot2.lean ====
/-
  The accumulation of one landed chunk, slot 2.
-/
import proofs.«207241_g55714315764006_cont_9to1c4b_410_29_alg».proof.Proof.ScDefs
import proofs.«207241_g55714315764006_cont_9to1c4b_410_29_alg».proof.Proof.ScAccStep
import proofs.«207241_g55714315764006_cont_9to1c4b_410_29_alg».proof.Proof.ScPiece
import proofs.«207241_g55714315764006_cont_9to1c4b_410_29_alg».proof.Proof.ScGPay

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 2's chunk `10 k + 2`, landed, is accumulated: the loop of five groups of four rows, five lane chunks each,
    reads the slot and stores the sums into the chunk's five rows of the accumulation scratch. -/
theorem accLoop2 (hadr : AdrOK adr) (k : Fin k2_t1_loop.trips) (arg18 v127 v151 v152 c0_i32_132 c0_i32_133 : BitVec 32)
    (f0 : Buf (Elt F) ((sR).view.loc (V d (cV L) (jV L)))) (hh : ∀ a, (![10 * k.val + 2, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 2 inb_S10x20x128_S1x20x128_2_0_0).view.loc (V d (cV L) (jV L)) ↦[(slotM 2 inb_S10x20x128_S1x20x128_2_0_0).view.set]{fullShare} View.write (Elt F) (slotM 2 inb_S10x20x128_S1x20x128_2_0_0).view f0 (gPay tab adr d L hadr ![10 * k.val + 2, 0] hh) Finset.univ)
        ∗ (∃ fy, ((sY).view.loc (V d (cV L) (jV L)) ↦{fullShare} fy) ∗ ⌜AccOK tab adr d L (10 * k.val + 2) fy⌝))
      ⊢ iprop((∀ r, (((slotM 2 inb_S10x20x128_S1x20x128_2_0_0).view.loc (V d (cV L) (jV L)) ↦[(slotM 2 inb_S10x20x128_S1x20x128_2_0_0).view.set]{fullShare} View.write (Elt F) (slotM 2 inb_S10x20x128_S1x20x128_2_0_0).view f0 (gPay tab adr d L hadr ![10 * k.val + 2, 0] hh) Finset.univ)
              ∗ (∃ fy, ((sY).view.loc (V d (cV L) (jV L)) ↦{fullShare} fy) ∗ ⌜AccOK tab adr d L (10 * k.val + 2 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t4_loop k2_t4_ok c0_i32_132
              (k2_t4_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v127 v151 v152 c0_i32_132 c0_i32_133) >>= kk) Q) := by
  have hk : k.val < 25 := lt_of_lt_of_eq k.isLt trips_t1
  have lt0 : 0 < k2_t4_loop.trips := by rw [trips_t4]; decide
  have lt1 : 1 < k2_t4_loop.trips := by rw [trips_t4]; decide
  have lt2 : 2 < k2_t4_loop.trips := by rw [trips_t4]; decide
  have lt3 : 3 < k2_t4_loop.trips := by rw [trips_t4]; decide
  have lt4 : 4 < k2_t4_loop.trips := by rw [trips_t4]; decide
  have hg := gPay_apply tab adr d L hadr (10 * k.val + 2) (by omega) hh
  iintro ⟨Hs, ⟨%fy, Hy, %hacc⟩⟩ Hk
  sl_unroll trips_t4
  sl_exec
  iapply Hk
  isplitl [Hs]; · iexact Hs
  iexists _
  isplitl [Hy]; · iexact Hy
  ipureintro
  sl_unfold_run_names
  refine accOK_step tab adr d L (10 * k.val + 2) (by omega) fy hacc _ ?_ ?_ ?_
  · -- every store lies in the chunk's own five rows
    exact List.forall_mem_cons.2 ⟨fun y hy => row_of_mem hy _ _ ((10 * k.val + 2) % 50) 4 (by decide) (acc_off_2_4 k ⟨4, lt4⟩) rfl (fun _ => rfl) rfl,
      List.forall_mem_cons.2 ⟨fun y hy => row_of_mem hy _ _ ((10 * k.val + 2) % 50) 4 (by decide) (acc_off_2_3 k ⟨4, lt4⟩) rfl (fun _ => rfl) rfl,
      List.forall_mem_cons.2 ⟨fun y hy => row_of_mem hy _ _ ((10 * k.val + 2) % 50) 4 (by decide) (acc_off_2_2 k ⟨4, lt4⟩) rfl (fun _ => rfl) rfl,
      List.forall_mem_cons.2 ⟨fun y hy => row_of_mem hy _ _ ((10 * k.val + 2) % 50) 4 (by decide) (acc_off_2_1 k ⟨4, lt4⟩) rfl (fun _ => rfl) rfl,
      List.forall_mem_cons.2 ⟨fun y hy => row_of_mem hy _ _ ((10 * k.val + 2) % 50) 4 (by decide) (acc_off_2_0 k ⟨4, lt4⟩) rfl (fun _ => rfl) rfl,
      List.forall_mem_cons.2 ⟨fun y hy => row_of_mem hy _ _ ((10 * k.val + 2) % 50) 3 (by decide) (acc_off_2_4 k ⟨3, lt3⟩) rfl (fun _ => rfl) rfl,
      List.forall_mem_cons.2 ⟨fun y hy => row_of_mem hy _ _ ((10 * k.val + 2) % 50) 3 (by decide) (acc_off_2_3 k ⟨3, lt3⟩) rfl (fun _ => rfl) rfl,
      List.forall_mem_cons.2 ⟨fun y hy => row_of_mem hy _ _ ((10 * k.val + 2) % 50) 3 (by decide) (acc_off_2_2 k ⟨3, lt3⟩) rfl (fun _ => rfl) rfl,
      List.forall_mem_cons.2 ⟨fun y hy => row_of_mem hy _ _ ((10 * k.val + 2) % 50) 3 (by decide) (acc_off_2_1 k ⟨3, lt3⟩) rfl (fun _ => rfl) rfl,
      List.forall_mem_cons.2 ⟨fun y hy => row_of_mem hy _ _ ((10 * k.val + 2) % 50) 3 (by decide) (acc_off_2_0 k ⟨3, lt3⟩) rfl (fun _ => rfl) rfl,
      List.forall_mem_cons.2 ⟨fun y hy => row_of_mem hy _ _ ((10 * k.val + 2) % 50) 2 (by decide) (acc_off_2_4 k ⟨2, lt2⟩) rfl (fun _ => rfl) rfl,
      List.forall_mem_cons.2 ⟨fun y hy => row_of_mem hy _ _ ((10 * k.val + 2) % 50) 2 (by decide) (acc_off_2_3 k ⟨2, lt2⟩) rfl (fun _ => rfl) rfl,
      List.forall_mem_cons.2 ⟨fun y hy => row_of_mem hy _ _ ((10 * k.val + 2) % 50) 2 (by decide) (acc_off_2_2 k ⟨2, lt2⟩) rfl (fun _ => rfl) rfl,
      List.forall_mem_cons.2 ⟨fun y hy => row_of_mem hy _ _ ((10 * k.val + 2) % 50) 2 (by decide) (acc_off_2_1 k ⟨2, lt2⟩) rfl (fun _ => rfl) rfl,
      List.forall_mem_cons.2 ⟨fun y hy => row_of_mem hy _ _ ((10 * k.val + 2) % 50) 2 (by decide) (acc_off_2_0 k ⟨2, lt2⟩) rfl (fun _ => rfl) rfl,
      List.forall_mem_cons.2 ⟨fun y hy => row_of_mem hy _ _ ((10 * k.val + 2) % 50) 1 (by decide) (acc_off_2_4 k ⟨1, lt1⟩) rfl (fun _ => rfl) rfl,
      List.forall_mem_cons.2 ⟨fun y hy => row_of_mem hy _ _ ((10 * k.val + 2) % 50) 1 (by decide) (acc_off_2_3 k ⟨1, lt1⟩) rfl (fun _ => rfl) rfl,
      List.forall_mem_cons.2 ⟨fun y hy => row_of_mem hy _ _ ((10 * k.val + 2) % 50) 1 (by decide) (acc_off_2_2 k ⟨1, lt1⟩) rfl (fun _ => rfl) rfl,
      List.forall_mem_cons.2 ⟨fun y hy => row_of_mem hy _ _ ((10 * k.val + 2) % 50) 1 (by decide) (acc_off_2_1 k ⟨1, lt1⟩) rfl (fun _ => rfl) rfl,
      List.forall_mem_cons.2 ⟨fun y hy => row_of_mem hy _ _ ((10 * k.val + 2) % 50) 1 (by decide) (acc_off_2_0 k ⟨1, lt1⟩) rfl (fun _ => rfl) rfl,
      List.forall_mem_cons.2 ⟨fun y hy => row_of_mem hy _ _ ((10 * k.val + 2) % 50) 0 (by decide) (acc_off_2_4 k ⟨0, lt0⟩) rfl (fun _ => rfl) rfl,
      List.forall_mem_cons.2 ⟨fun y hy => row_of_mem hy _ _ ((10 * k.val + 2) % 50) 0 (by decide) (acc_off_2_3 k ⟨0, lt0⟩) rfl (fun _ => rfl) rfl,
      List.forall_mem_cons.2 ⟨fun y hy => row_of_mem hy _ _ ((10 * k.val + 2) % 50) 0 (by decide) (acc_off_2_2 k ⟨0, lt0⟩) rfl (fun _ => rfl) rfl,
      List.forall_mem_cons.2 ⟨fun y hy => row_of_mem hy _ _ ((10 * k.val + 2) % 50) 0 (by decide) (acc_off_2_1 k ⟨0, lt0⟩) rfl (fun _ => rfl) rfl,
      List.forall_mem_cons.2 ⟨fun y hy => row_of_mem hy _ _ ((10 * k.val + 2) % 50) 0 (by decide) (acc_off_2_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 2) % 50) 0 l 0 (acc_off_2_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 2) % 50) 0 l 1 (acc_off_2_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 2) % 50) 0 l 2 (acc_off_2_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 2) % 50) 0 l 3 (acc_off_2_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 2) % 50) 0 l 4 (acc_off_2_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 2) % 50) 1 l 0 (acc_off_2_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 2) % 50) 1 l 1 (acc_off_2_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 2) % 50) 1 l 2 (acc_off_2_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 2) % 50) 1 l 3 (acc_off_2_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 2) % 50) 1 l 4 (acc_off_2_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 2) % 50) 2 l 0 (acc_off_2_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 2) % 50) 2 l 1 (acc_off_2_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 2) % 50) 2 l 2 (acc_off_2_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 2) % 50) 2 l 3 (acc_off_2_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 2) % 50) 2 l 4 (acc_off_2_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 2) % 50) 3 l 0 (acc_off_2_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 2) % 50) 3 l 1 (acc_off_2_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 2) % 50) 3 l 2 (acc_off_2_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 2) % 50) 3 l 3 (acc_off_2_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 2) % 50) 3 l 4 (acc_off_2_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 2) % 50) 4 l 0 (acc_off_2_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 2) % 50) 4 l 1 (acc_off_2_1 k ⟨4, lt4⟩) rfl (fun _ => rfl) rfl rfl (by omega) hl hq⟩
    · exact ⟨_, List.mem_cons_of_mem _ (List.mem_cons_of_mem _ (List.mem_cons_self)), mem_of_lane _ _ _ ((10 * k.val + 2) % 50) 4 l 2 (acc_off_2_2 k ⟨4, lt4⟩) rfl (fun _ => rfl) rfl rfl (by omega) hl hq⟩
    · exact ⟨_, List.mem_cons_of_mem _ (List.mem_cons_self), mem_of_lane _ _ _ ((10 * k.val + 2) % 50) 4 l 3 (acc_off_2_3 k ⟨4, lt4⟩) rfl (fun _ => rfl) rfl rfl (by omega) hl hq⟩
    · exact ⟨_, List.mem_cons_self, mem_of_lane _ _ _ ((10 * k.val + 2) % 50) 4 l 4 (acc_off_2_4 k ⟨4, lt4⟩) rfl (fun _ => rfl) rfl rfl (by omega) hl hq⟩
  · -- each store's payload is the chunk's value at its row's group and its lane
    exact List.forall_mem_cons.2 ⟨fun x => piece_val tab adr d L hadr 2 inb_S10x20x128_S1x20x128_2_0_0 (10 * k.val + 2) hh hg f0 _ (k2_off51_inb k ⟨4, lt4⟩) 4 4 (by decide) (by decide) (acc_off_2_4 k ⟨4, lt4⟩) x,
      List.forall_mem_cons.2 ⟨fun x => piece_val tab adr d L hadr 2 inb_S10x20x128_S1x20x128_2_0_0 (10 * k.val + 2) hh hg f0 _ (k2_off48_inb k ⟨4, lt4⟩) 4 3 (by decide) (by decide) (acc_off_2_3 k ⟨4, lt4⟩) x,
      List.forall_mem_cons.2 ⟨fun x => piece_val tab adr d L hadr 2 inb_S10x20x128_S1x20x128_2_0_0 (10 * k.val + 2) hh hg f0 _ (k2_off45_inb k ⟨4, lt4⟩) 4 2 (by decide) (by decide) (acc_off_2_2 k ⟨4, lt4⟩) x,
      List.forall_mem_cons.2 ⟨fun x => piece_val tab adr d L hadr 2 inb_S10x20x128_S1x20x128_2_0_0 (10 * k.val + 2) hh hg f0 _ (k2_off42_inb k ⟨4, lt4⟩) 4 1 (by decide) (by decide) (acc_off_2_1 k ⟨4, lt4⟩) x,
      List.forall_mem_cons.2 ⟨fun x => piece_val tab adr d L hadr 2 inb_S10x20x128_S1x20x128_2_0_0 (10 * k.val + 2) hh hg f0 _ (k2_off39_inb k ⟨4, lt4⟩) 4 0 (by decide) (by decide) (acc_off_2_0 k ⟨4, lt4⟩) x,
      List.forall_mem_cons.2 ⟨fun x => piece_val tab adr d L hadr 2 inb_S10x20x128_S1x20x128_2_0_0 (10 * k.val + 2) hh hg f0 _ (k2_off51_inb k ⟨3, lt3⟩) 3 4 (by decide) (by decide) (acc_off_2_4 k ⟨3, lt3⟩) x,
      List.forall_mem_cons.2 ⟨fun x => piece_val tab adr d L hadr 2 inb_S10x20x128_S1x20x128_2_0_0 (10 * k.val + 2) hh hg f0 _ (k2_off48_inb k ⟨3, lt3⟩) 3 3 (by decide) (by decide) (acc_off_2_3 k ⟨3, lt3⟩) x,
      List.forall_mem_cons.2 ⟨fun x => piece_val tab adr d L hadr 2 inb_S10x20x128_S1x20x128_2_0_0 (10 * k.val + 2) hh hg f0 _ (k2_off45_inb k ⟨3, lt3⟩) 3 2 (by decide) (by decide) (acc_off_2_2 k ⟨3, lt3⟩) x,
      List.forall_mem_cons.2 ⟨fun x => piece_val tab adr d L hadr 2 inb_S10x20x128_S1x20x128_2_0_0 (10 * k.val + 2) hh hg f0 _ (k2_off42_inb k ⟨3, lt3⟩) 3 1 (by decide) (by decide) (acc_off_2_1 k ⟨3, lt3⟩) x,
      List.forall_mem_cons.2 ⟨fun x => piece_val tab adr d L hadr 2 inb_S10x20x128_S1x20x128_2_0_0 (10 * k.val + 2) hh hg f0 _ (k2_off39_inb k ⟨3, lt3⟩) 3 0 (by decide) (by decide) (acc_off_2_0 k ⟨3, lt3⟩) x,
      List.forall_mem_cons.2 ⟨fun x => piece_val tab adr d L hadr 2 inb_S10x20x128_S1x20x128_2_0_0 (10 * k.val + 2) hh hg f0 _ (k2_off51_inb k ⟨2, lt2⟩) 2 4 (by decide) (by decide) (acc_off_2_4 k ⟨2, lt2⟩) x,
      List.forall_mem_cons.2 ⟨fun x => piece_val tab adr d L hadr 2 inb_S10x20x128_S1x20x128_2_0_0 (10 * k.val + 2) hh hg f0 _ (k2_off48_inb k ⟨2, lt2⟩) 2 3 (by decide) (by decide) (acc_off_2_3 k ⟨2, lt2⟩) x,
      List.forall_mem_cons.2 ⟨fun x => piece_val tab adr d L hadr 2 inb_S10x20x128_S1x20x128_2_0_0 (10 * k.val + 2) hh hg f0 _ (k2_off45_inb k ⟨2, lt2⟩) 2 2 (by decide) (by decide) (acc_off_2_2 k ⟨2, lt2⟩) x,
      List.forall_mem_cons.2 ⟨fun x => piece_val tab adr d L hadr 2 inb_S10x20x128_S1x20x128_2_0_0 (10 * k.val + 2) hh hg f0 _ (k2_off42_inb k ⟨2, lt2⟩) 2 1 (by decide) (by decide) (acc_off_2_1 k ⟨2, lt2⟩) x,
      List.forall_mem_cons.2 ⟨fun x => piece_val tab adr d L hadr 2 inb_S10x20x128_S1x20x128_2_0_0 (10 * k.val + 2) hh hg f0 _ (k2_off39_inb k ⟨2, lt2⟩) 2 0 (by decide) (by decide) (acc_off_2_0 k ⟨2, lt2⟩) x,
      List.forall_mem_cons.2 ⟨fun x => piece_val tab adr d L hadr 2 inb_S10x20x128_S1x20x128_2_0_0 (10 * k.val + 2) hh hg f0 _ (k2_off51_inb k ⟨1, lt1⟩) 1 4 (by decide) (by decide) (acc_off_2_4 k ⟨1, lt1⟩) x,
      List.forall_mem_cons.2 ⟨fun x => piece_val tab adr d L hadr 2 inb_S10x20x128_S1x20x128_2_0_0 (10 * k.val + 2) hh hg f0 _ (k2_off48_inb k ⟨1, lt1⟩) 1 3 (by decide) (by decide) (acc_off_2_3 k ⟨1, lt1⟩) x,
      List.forall_mem_cons.2 ⟨fun x => piece_val tab adr d L hadr 2 inb_S10x20x128_S1x20x128_2_0_0 (10 * k.val + 2) hh hg f0 _ (k2_off45_inb k ⟨1, lt1⟩) 1 2 (by decide) (by decide) (acc_off_2_2 k ⟨1, lt1⟩) x,
      List.forall_mem_cons.2 ⟨fun x => piece_val tab adr d L hadr 2 inb_S10x20x128_S1x20x128_2_0_0 (10 * k.val + 2) hh hg f0 _ (k2_off42_inb k ⟨1, lt1⟩) 1 1 (by decide) (by decide) (acc_off_2_1 k ⟨1, lt1⟩) x,
      List.forall_mem_cons.2 ⟨fun x => piece_val tab adr d L hadr 2 inb_S10x20x128_S1x20x128_2_0_0 (10 * k.val + 2) hh hg f0 _ (k2_off39_inb k ⟨1, lt1⟩) 1 0 (by decide) (by decide) (acc_off_2_0 k ⟨1, lt1⟩) x,
      List.forall_mem_cons.2 ⟨fun x => piece_val tab adr d L hadr 2 inb_S10x20x128_S1x20x128_2_0_0 (10 * k.val + 2) hh hg f0 _ (k2_off51_inb k ⟨0, lt0⟩) 0 4 (by decide) (by decide) (acc_off_2_4 k ⟨0, lt0⟩) x,
      List.forall_mem_cons.2 ⟨fun x => piece_val tab adr d L hadr 2 inb_S10x20x128_S1x20x128_2_0_0 (10 * k.val + 2) hh hg f0 _ (k2_off48_inb k ⟨0, lt0⟩) 0 3 (by decide) (by decide) (acc_off_2_3 k ⟨0, lt0⟩) x,
      List.forall_mem_cons.2 ⟨fun x => piece_val tab adr d L hadr 2 inb_S10x20x128_S1x20x128_2_0_0 (10 * k.val + 2) hh hg f0 _ (k2_off45_inb k ⟨0, lt0⟩) 0 2 (by decide) (by decide) (acc_off_2_2 k ⟨0, lt0⟩) x,
      List.forall_mem_cons.2 ⟨fun x => piece_val tab adr d L hadr 2 inb_S10x20x128_S1x20x128_2_0_0 (10 * k.val + 2) hh hg f0 _ (k2_off42_inb k ⟨0, lt0⟩) 0 1 (by decide) (by decide) (acc_off_2_1 k ⟨0, lt0⟩) x,
      List.forall_mem_cons.2 ⟨fun x => piece_val tab adr d L hadr 2 inb_S10x20x128_S1x20x128_2_0_0 (10 * k.val + 2) hh hg f0 _ (k2_off39_inb k ⟨0, lt0⟩) 0 0 (by decide) (by decide) (acc_off_2_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KI.Sc

end
-- ==== Proof.ScSlot3.lean ====
/-
  The accumulation of one landed chunk, slot 3.
-/
import proofs.«207241_g55714315764006_cont_9to1c4b_410_29_alg».proof.Proof.ScPieces
import proofs.«207241_g55714315764006_cont_9to1c4b_410_29_alg».proof.Proof.ScPiece
import proofs.«207241_g55714315764006_cont_9to1c4b_410_29_alg».proof.Proof.ScGPay

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

/-- Slot 3's chunk `10 k + 3`, landed, is accumulated: the loop of five groups of four rows, five lane chunks each,
    reads the slot and stores the sums into the chunk's five rows of the accumulation scratch. -/
theorem accLoop3 (hadr : AdrOK adr) (k : Fin k2_t1_loop.trips) (arg18 v163 v185 c50_i32_157 v188 : BitVec 32)
    (f0 : Buf (Elt F) ((sR).view.loc (V d (cV L) (jV L)))) (hh : ∀ a, (![10 * k.val + 3, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 3 inb_S10x20x128_S1x20x128_3_0_0).view.loc (V d (cV L) (jV L)) ↦[(slotM 3 inb_S10x20x128_S1x20x128_3_0_0).view.set]{fullShare} View.write (Elt F) (slotM 3 inb_S10x20x128_S1x20x128_3_0_0).view f0 (gPay tab adr d L hadr ![10 * k.val + 3, 0] hh) Finset.univ)
        ∗ (∃ fy, ((sY).view.loc (V d (cV L) (jV L)) ↦{fullShare} fy) ∗ ⌜AccOK tab adr d L (10 * k.val + 3) fy⌝))
      ⊢ iprop((∀ r, (((slotM 3 inb_S10x20x128_S1x20x128_3_0_0).view.loc (V d (cV L) (jV L)) ↦[(slotM 3 inb_S10x20x128_S1x20x128_3_0_0).view.set]{fullShare} View.write (Elt F) (slotM 3 inb_S10x20x128_S1x20x128_3_0_0).view f0 (gPay tab adr d L hadr ![10 * k.val + 3, 0] hh) Finset.univ)
              ∗ (∃ fy, ((sY).view.loc (V d (cV L) (jV L)) ↦{fullShare} fy) ∗ ⌜AccOK tab adr d L (10 * k.val + 3 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t5_loop k2_t5_ok 0#32
              (k2_t5_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v163 v185 c50_i32_157 v188) >>= kk) Q) := by
  iintro ⟨Hs, ⟨%fy, Hy, %hacc⟩⟩
  iintro Hk
  sl_unroll trips_t5
  sl_exec
  iapply Hk
  isplitl [Hs]; · iexact Hs
  iexists _
  isplitl [Hy]; · iexact Hy
  ipureintro
  have hk : k.val < 25 := lt_of_lt_of_eq k.isLt trips_t1
  have hc : 10 * k.val + 3 < 250 := by omega
  have h5 : ∀ n, n < 5 → n < k2_t5_loop.trips := fun n h => lt_of_lt_of_eq h trips_t5.symm
  have hg : ∀ (j : Fin 20) (l : Fin 128), gPay tab adr d L hadr ![10 * k.val + 3, 0] hh (ix2 j l)
      = rowN tab adr d L (10 * k.val + 3) j.val l.val := fun j l => gPay_apply tab adr d L hadr (10 * k.val + 3) hc hh j l
  refine accOK_of_pieces tab adr d L (10 * k.val + 3) hc fy hacc _ ?_
  unfold accLoop3.sl.Hy_22 accLoop3.sl.Hy_17 accLoop3.sl.Hy_12 accLoop3.sl.Hy_7
  unfold tcList
  refine List.Forall₂.cons ?_ ?_
  · exact ⟨_, _, _, acc_off_3_4 k ⟨4, h5 4 (by decide)⟩, rfl, fun x => piece_val tab adr d L hadr 3 inb_S10x20x128_S1x20x128_3_0_0 (10 * k.val + 3) hh hg f0 _ _ 4 4 (by decide) (by decide) (acc_off_3_4 k ⟨4, h5 4 (by decide)⟩) x⟩
  refine List.Forall₂.cons ?_ ?_
  · exact ⟨_, _, _, acc_off_3_3 k ⟨4, h5 4 (by decide)⟩, rfl, fun x => piece_val tab adr d L hadr 3 inb_S10x20x128_S1x20x128_3_0_0 (10 * k.val + 3) hh hg f0 _ _ 4 3 (by decide) (by decide) (acc_off_3_3 k ⟨4, h5 4 (by decide)⟩) x⟩
  refine List.Forall₂.cons ?_ ?_
  · exact ⟨_, _, _, acc_off_3_2 k ⟨4, h5 4 (by decide)⟩, rfl, fun x => piece_val tab adr d L hadr 3 inb_S10x20x128_S1x20x128_3_0_0 (10 * k.val + 3) hh hg f0 _ _ 4 2 (by decide) (by decide) (acc_off_3_2 k ⟨4, h5 4 (by decide)⟩) x⟩
  refine List.Forall₂.cons ?_ ?_
  · exact ⟨_, _, _, acc_off_3_1 k ⟨4, h5 4 (by decide)⟩, rfl, fun x => piece_val tab adr d L hadr 3 inb_S10x20x128_S1x20x128_3_0_0 (10 * k.val + 3) hh hg f0 _ _ 4 1 (by decide) (by decide) (acc_off_3_1 k ⟨4, h5 4 (by decide)⟩) x⟩
  refine List.Forall₂.cons ?_ ?_
  · exact ⟨_, _, _, acc_off_3_0 k ⟨4, h5 4 (by decide)⟩, rfl, fun x => piece_val tab adr d L hadr 3 inb_S10x20x128_S1x20x128_3_0_0 (10 * k.val + 3) hh hg f0 _ _ 4 0 (by decide) (by decide) (acc_off_3_0 k ⟨4, h5 4 (by decide)⟩) x⟩
  refine List.Forall₂.cons ?_ ?_
  · exact ⟨_, _, _, acc_off_3_4 k ⟨3, h5 3 (by decide)⟩, rfl, fun x => piece_val tab adr d L hadr 3 inb_S10x20x128_S1x20x128_3_0_0 (10 * k.val + 3) hh hg f0 _ _ 3 4 (by decide) (by decide) (acc_off_3_4 k ⟨3, h5 3 (by decide)⟩) x⟩
  refine List.Forall₂.cons ?_ ?_
  · exact ⟨_, _, _, acc_off_3_3 k ⟨3, h5 3 (by decide)⟩, rfl, fun x => piece_val tab adr d L hadr 3 inb_S10x20x128_S1x20x128_3_0_0 (10 * k.val + 3) hh hg f0 _ _ 3 3 (by decide) (by decide) (acc_off_3_3 k ⟨3, h5 3 (by decide)⟩) x⟩
  refine List.Forall₂.cons ?_ ?_
  · exact ⟨_, _, _, acc_off_3_2 k ⟨3, h5 3 (by decide)⟩, rfl, fun x => piece_val tab adr d L hadr 3 inb_S10x20x128_S1x20x128_3_0_0 (10 * k.val + 3) hh hg f0 _ _ 3 2 (by decide) (by decide) (acc_off_3_2 k ⟨3, h5 3 (by decide)⟩) x⟩
  refine List.Forall₂.cons ?_ ?_
  · exact ⟨_, _, _, acc_off_3_1 k ⟨3, h5 3 (by decide)⟩, rfl, fun x => piece_val tab adr d L hadr 3 inb_S10x20x128_S1x20x128_3_0_0 (10 * k.val + 3) hh hg f0 _ _ 3 1 (by decide) (by decide) (acc_off_3_1 k ⟨3, h5 3 (by decide)⟩) x⟩
  refine List.Forall₂.cons ?_ ?_
  · exact ⟨_, _, _, acc_off_3_0 k ⟨3, h5 3 (by decide)⟩, rfl, fun x => piece_val tab adr d L hadr 3 inb_S10x20x128_S1x20x128_3_0_0 (10 * k.val + 3) hh hg f0 _ _ 3 0 (by decide) (by decide) (acc_off_3_0 k ⟨3, h5 3 (by decide)⟩) x⟩
  refine List.Forall₂.cons ?_ ?_
  · exact ⟨_, _, _, acc_off_3_4 k ⟨2, h5 2 (by decide)⟩, rfl, fun x => piece_val tab adr d L hadr 3 inb_S10x20x128_S1x20x128_3_0_0 (10 * k.val + 3) hh hg f0 _ _ 2 4 (by decide) (by decide) (acc_off_3_4 k ⟨2, h5 2 (by decide)⟩) x⟩
  refine List.Forall₂.cons ?_ ?_
  · exact ⟨_, _, _, acc_off_3_3 k ⟨2, h5 2 (by decide)⟩, rfl, fun x => piece_val tab adr d L hadr 3 inb_S10x20x128_S1x20x128_3_0_0 (10 * k.val + 3) hh hg f0 _ _ 2 3 (by decide) (by decide) (acc_off_3_3 k ⟨2, h5 2 (by decide)⟩) x⟩
  refine List.Forall₂.cons ?_ ?_
  · exact ⟨_, _, _, acc_off_3_2 k ⟨2, h5 2 (by decide)⟩, rfl, fun x => piece_val tab adr d L hadr 3 inb_S10x20x128_S1x20x128_3_0_0 (10 * k.val + 3) hh hg f0 _ _ 2 2 (by decide) (by decide) (acc_off_3_2 k ⟨2, h5 2 (by decide)⟩) x⟩
  refine List.Forall₂.cons ?_ ?_
  · exact ⟨_, _, _, acc_off_3_1 k ⟨2, h5 2 (by decide)⟩, rfl, fun x => piece_val tab adr d L hadr 3 inb_S10x20x128_S1x20x128_3_0_0 (10 * k.val + 3) hh hg f0 _ _ 2 1 (by decide) (by decide) (acc_off_3_1 k ⟨2, h5 2 (by decide)⟩) x⟩
  refine List.Forall₂.cons ?_ ?_
  · exact ⟨_, _, _, acc_off_3_0 k ⟨2, h5 2 (by decide)⟩, rfl, fun x => piece_val tab adr d L hadr 3 inb_S10x20x128_S1x20x128_3_0_0 (10 * k.val + 3) hh hg f0 _ _ 2 0 (by decide) (by decide) (acc_off_3_0 k ⟨2, h5 2 (by decide)⟩) x⟩
  refine List.Forall₂.cons ?_ ?_
  · exact ⟨_, _, _, acc_off_3_4 k ⟨1, h5 1 (by decide)⟩, rfl, fun x => piece_val tab adr d L hadr 3 inb_S10x20x128_S1x20x128_3_0_0 (10 * k.val + 3) hh hg f0 _ _ 1 4 (by decide) (by decide) (acc_off_3_4 k ⟨1, h5 1 (by decide)⟩) x⟩
  refine List.Forall₂.cons ?_ ?_
  · exact ⟨_, _, _, acc_off_3_3 k ⟨1, h5 1 (by decide)⟩, rfl, fun x => piece_val tab adr d L hadr 3 inb_S10x20x128_S1x20x128_3_0_0 (10 * k.val + 3) hh hg f0 _ _ 1 3 (by decide) (by decide) (acc_off_3_3 k ⟨1, h5 1 (by decide)⟩) x⟩
  refine List.Forall₂.cons ?_ ?_
  · exact ⟨_, _, _, acc_off_3_2 k ⟨1, h5 1 (by decide)⟩, rfl, fun x => piece_val tab adr d L hadr 3 inb_S10x20x128_S1x20x128_3_0_0 (10 * k.val + 3) hh hg f0 _ _ 1 2 (by decide) (by decide) (acc_off_3_2 k ⟨1, h5 1 (by decide)⟩) x⟩
  refine List.Forall₂.cons ?_ ?_
  · exact ⟨_, _, _, acc_off_3_1 k ⟨1, h5 1 (by decide)⟩, rfl, fun x => piece_val tab adr d L hadr 3 inb_S10x20x128_S1x20x128_3_0_0 (10 * k.val + 3) hh hg f0 _ _ 1 1 (by decide) (by decide) (acc_off_3_1 k ⟨1, h5 1 (by decide)⟩) x⟩
  refine List.Forall₂.cons ?_ ?_
  · exact ⟨_, _, _, acc_off_3_0 k ⟨1, h5 1 (by decide)⟩, rfl, fun x => piece_val tab adr d L hadr 3 inb_S10x20x128_S1x20x128_3_0_0 (10 * k.val + 3) hh hg f0 _ _ 1 0 (by decide) (by decide) (acc_off_3_0 k ⟨1, h5 1 (by decide)⟩) x⟩
  refine List.Forall₂.cons ?_ ?_
  · exact ⟨_, _, _, acc_off_3_4 k ⟨0, h5 0 (by decide)⟩, rfl, fun x => piece_val tab adr d L hadr 3 inb_S10x20x128_S1x20x128_3_0_0 (10 * k.val + 3) hh hg f0 _ _ 0 4 (by decide) (by decide) (acc_off_3_4 k ⟨0, h5 0 (by decide)⟩) x⟩
  refine List.Forall₂.cons ?_ ?_
  · exact ⟨_, _, _, acc_off_3_3 k ⟨0, h5 0 (by decide)⟩, rfl, fun x => piece_val tab adr d L hadr 3 inb_S10x20x128_S1x20x128_3_0_0 (10 * k.val + 3) hh hg f0 _ _ 0 3 (by decide) (by decide) (acc_off_3_3 k ⟨0, h5 0 (by decide)⟩) x⟩
  refine List.Forall₂.cons ?_ ?_
  · exact ⟨_, _, _, acc_off_3_2 k ⟨0, h5 0 (by decide)⟩, rfl, fun x => piece_val tab adr d L hadr 3 inb_S10x20x128_S1x20x128_3_0_0 (10 * k.val + 3) hh hg f0 _ _ 0 2 (by decide) (by decide) (acc_off_3_2 k ⟨0, h5 0 (by decide)⟩) x⟩
  refine List.Forall₂.cons ?_ ?_
  · exact ⟨_, _, _, acc_off_3_1 k ⟨0, h5 0 (by decide)⟩, rfl, fun x => piece_val tab adr d L hadr 3 inb_S10x20x128_S1x20x128_3_0_0 (10 * k.val + 3) hh hg f0 _ _ 0 1 (by decide) (by decide) (acc_off_3_1 k ⟨0, h5 0 (by decide)⟩) x⟩
  refine List.Forall₂.cons ?_ ?_
  · exact ⟨_, _, _, acc_off_3_0 k ⟨0, h5 0 (by decide)⟩, rfl, fun x => piece_val tab adr d L hadr 3 inb_S10x20x128_S1x20x128_3_0_0 (10 * k.val + 3) hh hg f0 _ _ 0 0 (by decide) (by decide) (acc_off_3_0 k ⟨0, h5 0 (by decide)⟩) x⟩
  exact List.Forall₂.nil

end Cert.Proof.KI.Sc

end
-- ==== Proof.ScSlot4.lean ====
/-
  The accumulation of one landed chunk, slot 4.
-/
import proofs.«207241_g55714315764006_cont_9to1c4b_410_29_alg».proof.Proof.ScDefs
import proofs.«207241_g55714315764006_cont_9to1c4b_410_29_alg».proof.Proof.ScAccStep
import proofs.«207241_g55714315764006_cont_9to1c4b_410_29_alg».proof.Proof.ScPiece
import proofs.«207241_g55714315764006_cont_9to1c4b_410_29_alg».proof.Proof.ScGPay

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 4's chunk `10 k + 4`, landed, is accumulated: the loop of five groups of four rows, five lane chunks each,
    reads the slot and stores the sums into the chunk's five rows of the accumulation scratch. -/
theorem accLoop4 (hadr : AdrOK adr) (k : Fin k2_t1_loop.trips) (arg18 v199 v205 : BitVec 32) (v216 : BitVec 1) (v217 c0_i32_182 v224 : BitVec 32)
    (f0 : Buf (Elt F) ((sR).view.loc (V d (cV L) (jV L)))) (hh : ∀ a, (![10 * k.val + 4, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 4 inb_S10x20x128_S1x20x128_4_0_0).view.loc (V d (cV L) (jV L)) ↦[(slotM 4 inb_S10x20x128_S1x20x128_4_0_0).view.set]{fullShare} View.write (Elt F) (slotM 4 inb_S10x20x128_S1x20x128_4_0_0).view f0 (gPay tab adr d L hadr ![10 * k.val + 4, 0] hh) Finset.univ)
        ∗ (∃ fy, ((sY).view.loc (V d (cV L) (jV L)) ↦{fullShare} fy) ∗ ⌜AccOK tab adr d L (10 * k.val + 4) fy⌝))
      ⊢ iprop((∀ r, (((slotM 4 inb_S10x20x128_S1x20x128_4_0_0).view.loc (V d (cV L) (jV L)) ↦[(slotM 4 inb_S10x20x128_S1x20x128_4_0_0).view.set]{fullShare} View.write (Elt F) (slotM 4 inb_S10x20x128_S1x20x128_4_0_0).view f0 (gPay tab adr d L hadr ![10 * k.val + 4, 0] hh) Finset.univ)
              ∗ (∃ fy, ((sY).view.loc (V d (cV L) (jV L)) ↦{fullShare} fy) ∗ ⌜AccOK tab adr d L (10 * k.val + 4 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t6_loop k2_t6_ok 0#32
              (k2_t6_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v199 v205 v216 v217 c0_i32_182 v224) >>= kk) Q) := by
  have hk : k.val < 25 := lt_of_lt_of_eq k.isLt trips_t1
  have lt0 : 0 < k2_t6_loop.trips := by rw [trips_t6]; decide
  have lt1 : 1 < k2_t6_loop.trips := by rw [trips_t6]; decide
  have lt2 : 2 < k2_t6_loop.trips := by rw [trips_t6]; decide
  have lt3 : 3 < k2_t6_loop.trips := by rw [trips_t6]; decide
  have lt4 : 4 < k2_t6_loop.trips := by rw [trips_t6]; decide
  have hg := gPay_apply tab adr d L hadr (10 * k.val + 4) (by omega) hh
  iintro ⟨Hs, ⟨%fy, Hy, %hacc⟩⟩ Hk
  sl_unroll trips_t6
  sl_exec
  iapply Hk
  isplitl [Hs]; · iexact Hs
  iexists _
  isplitl [Hy]; · iexact Hy
  ipureintro
  sl_unfold_run_names
  refine accOK_step tab adr d L (10 * k.val + 4) (by omega) fy hacc _ ?_ ?_ ?_
  · -- every store lies in the chunk's own five rows
    exact List.forall_mem_cons.2 ⟨fun y hy => row_of_mem hy _ _ ((10 * k.val + 4) % 50) 4 (by decide) (acc_off_4_4 k ⟨4, lt4⟩) rfl (fun _ => rfl) rfl,
      List.forall_mem_cons.2 ⟨fun y hy => row_of_mem hy _ _ ((10 * k.val + 4) % 50) 4 (by decide) (acc_off_4_3 k ⟨4, lt4⟩) rfl (fun _ => rfl) rfl,
      List.forall_mem_cons.2 ⟨fun y hy => row_of_mem hy _ _ ((10 * k.val + 4) % 50) 4 (by decide) (acc_off_4_2 k ⟨4, lt4⟩) rfl (fun _ => rfl) rfl,
      List.forall_mem_cons.2 ⟨fun y hy => row_of_mem hy _ _ ((10 * k.val + 4) % 50) 4 (by decide) (acc_off_4_1 k ⟨4, lt4⟩) rfl (fun _ => rfl) rfl,
      List.forall_mem_cons.2 ⟨fun y hy => row_of_mem hy _ _ ((10 * k.val + 4) % 50) 4 (by decide) (acc_off_4_0 k ⟨4, lt4⟩) rfl (fun _ => rfl) rfl,
      List.forall_mem_cons.2 ⟨fun y hy => row_of_mem hy _ _ ((10 * k.val + 4) % 50) 3 (by decide) (acc_off_4_4 k ⟨3, lt3⟩) rfl (fun _ => rfl) rfl,
      List.forall_mem_cons.2 ⟨fun y hy => row_of_mem hy _ _ ((10 * k.val + 4) % 50) 3 (by decide) (acc_off_4_3 k ⟨3, lt3⟩) rfl (fun _ => rfl) rfl,
      List.forall_mem_cons.2 ⟨fun y hy => row_of_mem hy _ _ ((10 * k.val + 4) % 50) 3 (by decide) (acc_off_4_2 k ⟨3, lt3⟩) rfl (fun _ => rfl) rfl,
      List.forall_mem_cons.2 ⟨fun y hy => row_of_mem hy _ _ ((10 * k.val + 4) % 50) 3 (by decide) (acc_off_4_1 k ⟨3, lt3⟩) rfl (fun _ => rfl) rfl,
      List.forall_mem_cons.2 ⟨fun y hy => row_of_mem hy _ _ ((10 * k.val + 4) % 50) 3 (by decide) (acc_off_4_0 k ⟨3, lt3⟩) rfl (fun _ => rfl) rfl,
      List.forall_mem_cons.2 ⟨fun y hy => row_of_mem hy _ _ ((10 * k.val + 4) % 50) 2 (by decide) (acc_off_4_4 k ⟨2, lt2⟩) rfl (fun _ => rfl) rfl,
      List.forall_mem_cons.2 ⟨fun y hy => row_of_mem hy _ _ ((10 * k.val + 4) % 50) 2 (by decide) (acc_off_4_3 k ⟨2, lt2⟩) rfl (fun _ => rfl) rfl,
      List.forall_mem_cons.2 ⟨fun y hy => row_of_mem hy _ _ ((10 * k.val + 4) % 50) 2 (by decide) (acc_off_4_2 k ⟨2, lt2⟩) rfl (fun _ => rfl) rfl,
      List.forall_mem_cons.2 ⟨fun y hy => row_of_mem hy _ _ ((10 * k.val + 4) % 50) 2 (by decide) (acc_off_4_1 k ⟨2, lt2⟩) rfl (fun _ => rfl) rfl,
      List.forall_mem_cons.2 ⟨fun y hy => row_of_mem hy _ _ ((10 * k.val + 4) % 50) 2 (by decide) (acc_off_4_0 k ⟨2, lt2⟩) rfl (fun _ => rfl) rfl,
      List.forall_mem_cons.2 ⟨fun y hy => row_of_mem hy _ _ ((10 * k.val + 4) % 50) 1 (by decide) (acc_off_4_4 k ⟨1, lt1⟩) rfl (fun _ => rfl) rfl,
      List.forall_mem_cons.2 ⟨fun y hy => row_of_mem hy _ _ ((10 * k.val + 4) % 50) 1 (by decide) (acc_off_4_3 k ⟨1, lt1⟩) rfl (fun _ => rfl) rfl,
      List.forall_mem_cons.2 ⟨fun y hy => row_of_mem hy _ _ ((10 * k.val + 4) % 50) 1 (by decide) (acc_off_4_2 k ⟨1, lt1⟩) rfl (fun _ => rfl) rfl,
      List.forall_mem_cons.2 ⟨fun y hy => row_of_mem hy _ _ ((10 * k.val + 4) % 50) 1 (by decide) (acc_off_4_1 k ⟨1, lt1⟩) rfl (fun _ => rfl) rfl,
      List.forall_mem_cons.2 ⟨fun y hy => row_of_mem hy _ _ ((10 * k.val + 4) % 50) 1 (by decide) (acc_off_4_0 k ⟨1, lt1⟩) rfl (fun _ => rfl) rfl,
      List.forall_mem_cons.2 ⟨fun y hy => row_of_mem hy _ _ ((10 * k.val + 4) % 50) 0 (by decide) (acc_off_4_4 k ⟨0, lt0⟩) rfl (fun _ => rfl) rfl,
      List.forall_mem_cons.2 ⟨fun y hy => row_of_mem hy _ _ ((10 * k.val + 4) % 50) 0 (by decide) (acc_off_4_3 k ⟨0, lt0⟩) rfl (fun _ => rfl) rfl,
      List.forall_mem_cons.2 ⟨fun y hy => row_of_mem hy _ _ ((10 * k.val + 4) % 50) 0 (by decide) (acc_off_4_2 k ⟨0, lt0⟩) rfl (fun _ => rfl) rfl,
      List.forall_mem_cons.2 ⟨fun y hy => row_of_mem hy _ _ ((10 * k.val + 4) % 50) 0 (by decide) (acc_off_4_1 k ⟨0, lt0⟩) rfl (fun _ => rfl) rfl,
      List.forall_mem_cons.2 ⟨fun y hy => row_of_mem hy _ _ ((10 * k.val + 4) % 50) 0 (by decide) (acc_off_4_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 4) % 50) 0 l 0 (acc_off_4_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 4) % 50) 0 l 1 (acc_off_4_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 4) % 50) 0 l 2 (acc_off_4_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 4) % 50) 0 l 3 (acc_off_4_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 4) % 50) 0 l 4 (acc_off_4_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 4) % 50) 1 l 0 (acc_off_4_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 4) % 50) 1 l 1 (acc_off_4_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 4) % 50) 1 l 2 (acc_off_4_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 4) % 50) 1 l 3 (acc_off_4_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 4) % 50) 1 l 4 (acc_off_4_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 4) % 50) 2 l 0 (acc_off_4_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 4) % 50) 2 l 1 (acc_off_4_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 4) % 50) 2 l 2 (acc_off_4_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 4) % 50) 2 l 3 (acc_off_4_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 4) % 50) 2 l 4 (acc_off_4_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 4) % 50) 3 l 0 (acc_off_4_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 4) % 50) 3 l 1 (acc_off_4_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 4) % 50) 3 l 2 (acc_off_4_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 4) % 50) 3 l 3 (acc_off_4_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 4) % 50) 3 l 4 (acc_off_4_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 4) % 50) 4 l 0 (acc_off_4_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 4) % 50) 4 l 1 (acc_off_4_1 k ⟨4, lt4⟩) rfl (fun _ => rfl) rfl rfl (by omega) hl hq⟩
    · exact ⟨_, List.mem_cons_of_mem _ (List.mem_cons_of_mem _ (List.mem_cons_self)), mem_of_lane _ _ _ ((10 * k.val + 4) % 50) 4 l 2 (acc_off_4_2 k ⟨4, lt4⟩) rfl (fun _ => rfl) rfl rfl (by omega) hl hq⟩
    · exact ⟨_, List.mem_cons_of_mem _ (List.mem_cons_self), mem_of_lane _ _ _ ((10 * k.val + 4) % 50) 4 l 3 (acc_off_4_3 k ⟨4, lt4⟩) rfl (fun _ => rfl) rfl rfl (by omega) hl hq⟩
    · exact ⟨_, List.mem_cons_self, mem_of_lane _ _ _ ((10 * k.val + 4) % 50) 4 l 4 (acc_off_4_4 k ⟨4, lt4⟩) rfl (fun _ => rfl) rfl rfl (by omega) hl hq⟩
  · -- each store's payload is the chunk's value at its row's group and its lane
    exact List.forall_mem_cons.2 ⟨fun x => piece_val tab adr d L hadr 4 inb_S10x20x128_S1x20x128_4_0_0 (10 * k.val + 4) hh hg f0 _ (k2_off85_inb k ⟨4, lt4⟩) 4 4 (by decide) (by decide) (acc_off_4_4 k ⟨4, lt4⟩) x,
      List.forall_mem_cons.2 ⟨fun x => piece_val tab adr d L hadr 4 inb_S10x20x128_S1x20x128_4_0_0 (10 * k.val + 4) hh hg f0 _ (k2_off82_inb k ⟨4, lt4⟩) 4 3 (by decide) (by decide) (acc_off_4_3 k ⟨4, lt4⟩) x,
      List.forall_mem_cons.2 ⟨fun x => piece_val tab adr d L hadr 4 inb_S10x20x128_S1x20x128_4_0_0 (10 * k.val + 4) hh hg f0 _ (k2_off79_inb k ⟨4, lt4⟩) 4 2 (by decide) (by decide) (acc_off_4_2 k ⟨4, lt4⟩) x,
      List.forall_mem_cons.2 ⟨fun x => piece_val tab adr d L hadr 4 inb_S10x20x128_S1x20x128_4_0_0 (10 * k.val + 4) hh hg f0 _ (k2_off76_inb k ⟨4, lt4⟩) 4 1 (by decide) (by decide) (acc_off_4_1 k ⟨4, lt4⟩) x,
      List.forall_mem_cons.2 ⟨fun x => piece_val tab adr d L hadr 4 inb_S10x20x128_S1x20x128_4_0_0 (10 * k.val + 4) hh hg f0 _ (k2_off73_inb k ⟨4, lt4⟩) 4 0 (by decide) (by decide) (acc_off_4_0 k ⟨4, lt4⟩) x,
      List.forall_mem_cons.2 ⟨fun x => piece_val tab adr d L hadr 4 inb_S10x20x128_S1x20x128_4_0_0 (10 * k.val + 4) hh hg f0 _ (k2_off85_inb k ⟨3, lt3⟩) 3 4 (by decide) (by decide) (acc_off_4_4 k ⟨3, lt3⟩) x,
      List.forall_mem_cons.2 ⟨fun x => piece_val tab adr d L hadr 4 inb_S10x20x128_S1x20x128_4_0_0 (10 * k.val + 4) hh hg f0 _ (k2_off82_inb k ⟨3, lt3⟩) 3 3 (by decide) (by decide) (acc_off_4_3 k ⟨3, lt3⟩) x,
      List.forall_mem_cons.2 ⟨fun x => piece_val tab adr d L hadr 4 inb_S10x20x128_S1x20x128_4_0_0 (10 * k.val + 4) hh hg f0 _ (k2_off79_inb k ⟨3, lt3⟩) 3 2 (by decide) (by decide) (acc_off_4_2 k ⟨3, lt3⟩) x,
      List.forall_mem_cons.2 ⟨fun x => piece_val tab adr d L hadr 4 inb_S10x20x128_S1x20x128_4_0_0 (10 * k.val + 4) hh hg f0 _ (k2_off76_inb k ⟨3, lt3⟩) 3 1 (by decide) (by decide) (acc_off_4_1 k ⟨3, lt3⟩) x,
      List.forall_mem_cons.2 ⟨fun x => piece_val tab adr d L hadr 4 inb_S10x20x128_S1x20x128_4_0_0 (10 * k.val + 4) hh hg f0 _ (k2_off73_inb k ⟨3, lt3⟩) 3 0 (by decide) (by decide) (acc_off_4_0 k ⟨3, lt3⟩) x,
      List.forall_mem_cons.2 ⟨fun x => piece_val tab adr d L hadr 4 inb_S10x20x128_S1x20x128_4_0_0 (10 * k.val + 4) hh hg f0 _ (k2_off85_inb k ⟨2, lt2⟩) 2 4 (by decide) (by decide) (acc_off_4_4 k ⟨2, lt2⟩) x,
      List.forall_mem_cons.2 ⟨fun x => piece_val tab adr d L hadr 4 inb_S10x20x128_S1x20x128_4_0_0 (10 * k.val + 4) hh hg f0 _ (k2_off82_inb k ⟨2, lt2⟩) 2 3 (by decide) (by decide) (acc_off_4_3 k ⟨2, lt2⟩) x,
      List.forall_mem_cons.2 ⟨fun x => piece_val tab adr d L hadr 4 inb_S10x20x128_S1x20x128_4_0_0 (10 * k.val + 4) hh hg f0 _ (k2_off79_inb k ⟨2, lt2⟩) 2 2 (by decide) (by decide) (acc_off_4_2 k ⟨2, lt2⟩) x,
      List.forall_mem_cons.2 ⟨fun x => piece_val tab adr d L hadr 4 inb_S10x20x128_S1x20x128_4_0_0 (10 * k.val + 4) hh hg f0 _ (k2_off76_inb k ⟨2, lt2⟩) 2 1 (by decide) (by decide) (acc_off_4_1 k ⟨2, lt2⟩) x,
      List.forall_mem_cons.2 ⟨fun x => piece_val tab adr d L hadr 4 inb_S10x20x128_S1x20x128_4_0_0 (10 * k.val + 4) hh hg f0 _ (k2_off73_inb k ⟨2, lt2⟩) 2 0 (by decide) (by decide) (acc_off_4_0 k ⟨2, lt2⟩) x,
      List.forall_mem_cons.2 ⟨fun x => piece_val tab adr d L hadr 4 inb_S10x20x128_S1x20x128_4_0_0 (10 * k.val + 4) hh hg f0 _ (k2_off85_inb k ⟨1, lt1⟩) 1 4 (by decide) (by decide) (acc_off_4_4 k ⟨1, lt1⟩) x,
      List.forall_mem_cons.2 ⟨fun x => piece_val tab adr d L hadr 4 inb_S10x20x128_S1x20x128_4_0_0 (10 * k.val + 4) hh hg f0 _ (k2_off82_inb k ⟨1, lt1⟩) 1 3 (by decide) (by decide) (acc_off_4_3 k ⟨1, lt1⟩) x,
      List.forall_mem_cons.2 ⟨fun x => piece_val tab adr d L hadr 4 inb_S10x20x128_S1x20x128_4_0_0 (10 * k.val + 4) hh hg f0 _ (k2_off79_inb k ⟨1, lt1⟩) 1 2 (by decide) (by decide) (acc_off_4_2 k ⟨1, lt1⟩) x,
      List.forall_mem_cons.2 ⟨fun x => piece_val tab adr d L hadr 4 inb_S10x20x128_S1x20x128_4_0_0 (10 * k.val + 4) hh hg f0 _ (k2_off76_inb k ⟨1, lt1⟩) 1 1 (by decide) (by decide) (acc_off_4_1 k ⟨1, lt1⟩) x,
      List.forall_mem_cons.2 ⟨fun x => piece_val tab adr d L hadr 4 inb_S10x20x128_S1x20x128_4_0_0 (10 * k.val + 4) hh hg f0 _ (k2_off73_inb k ⟨1, lt1⟩) 1 0 (by decide) (by decide) (acc_off_4_0 k ⟨1, lt1⟩) x,
      List.forall_mem_cons.2 ⟨fun x => piece_val tab adr d L hadr 4 inb_S10x20x128_S1x20x128_4_0_0 (10 * k.val + 4) hh hg f0 _ (k2_off85_inb k ⟨0, lt0⟩) 0 4 (by decide) (by decide) (acc_off_4_4 k ⟨0, lt0⟩) x,
      List.forall_mem_cons.2 ⟨fun x => piece_val tab adr d L hadr 4 inb_S10x20x128_S1x20x128_4_0_0 (10 * k.val + 4) hh hg f0 _ (k2_off82_inb k ⟨0, lt0⟩) 0 3 (by decide) (by decide) (acc_off_4_3 k ⟨0, lt0⟩) x,
      List.forall_mem_cons.2 ⟨fun x => piece_val tab adr d L hadr 4 inb_S10x20x128_S1x20x128_4_0_0 (10 * k.val + 4) hh hg f0 _ (k2_off79_inb k ⟨0, lt0⟩) 0 2 (by decide) (by decide) (acc_off_4_2 k ⟨0, lt0⟩) x,
      List.forall_mem_cons.2 ⟨fun x => piece_val tab adr d L hadr 4 inb_S10x20x128_S1x20x128_4_0_0 (10 * k.val + 4) hh hg f0 _ (k2_off76_inb k ⟨0, lt0⟩) 0 1 (by decide) (by decide) (acc_off_4_1 k ⟨0, lt0⟩) x,
      List.forall_mem_cons.2 ⟨fun x => piece_val tab adr d L hadr 4 inb_S10x20x128_S1x20x128_4_0_0 (10 * k.val + 4) hh hg f0 _ (k2_off73_inb k ⟨0, lt0⟩) 0 0 (by decide) (by decide) (acc_off_4_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KI.Sc

end
-- ==== Proof.ScSlot5.lean ====
/-
  The accumulation of one landed chunk, slot 5.
-/
import proofs.«207241_g55714315764006_cont_9to1c4b_410_29_alg».proof.Proof.ScPieces
import proofs.«207241_g55714315764006_cont_9to1c4b_410_29_alg».proof.Proof.ScPiece
import proofs.«207241_g55714315764006_cont_9to1c4b_410_29_alg».proof.Proof.ScGPay

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 5's chunk `10 k + 5`, landed, is accumulated: the loop of five groups of four rows, five lane chunks each,
    reads the slot and stores the sums into the chunk's five rows of the accumulation scratch. -/
theorem accLoop5 (hadr : AdrOK adr) (k : Fin k2_t1_loop.trips) (arg18 v235 c50_i32_204 v241 v246 v248 c0_i32_208 v260 : BitVec 32)
    (f0 : Buf (Elt F) ((sR).view.loc (V d (cV L) (jV L)))) (hh : ∀ a, (![10 * k.val + 5, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 5 inb_S10x20x128_S1x20x128_5_0_0).view.loc (V d (cV L) (jV L)) ↦[(slotM 5 inb_S10x20x128_S1x20x128_5_0_0).view.set]{fullShare} View.write (Elt F) (slotM 5 inb_S10x20x128_S1x20x128_5_0_0).view f0 (gPay tab adr d L hadr ![10 * k.val + 5, 0] hh) Finset.univ)
        ∗ (∃ fy, ((sY).view.loc (V d (cV L) (jV L)) ↦{fullShare} fy) ∗ ⌜AccOK tab adr d L (10 * k.val + 5) fy⌝))
      ⊢ iprop((∀ r, (((slotM 5 inb_S10x20x128_S1x20x128_5_0_0).view.loc (V d (cV L) (jV L)) ↦[(slotM 5 inb_S10x20x128_S1x20x128_5_0_0).view.set]{fullShare} View.write (Elt F) (slotM 5 inb_S10x20x128_S1x20x128_5_0_0).view f0 (gPay tab adr d L hadr ![10 * k.val + 5, 0] hh) Finset.univ)
              ∗ (∃ fy, ((sY).view.loc (V d (cV L) (jV L)) ↦{fullShare} fy) ∗ ⌜AccOK tab adr d L (10 * k.val + 5 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t7_loop k2_t7_ok 0#32
              (k2_t7_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v235 c50_i32_204 v241 v246 v248 c0_i32_208 v260) >>= kk) Q) := by
  iintro ⟨Hslot, ⟨%fy, Hy, %hacc⟩⟩ Hk
  sl_unroll trips_t7
  sl_exec
  iapply Hk
  isplitl [Hslot]; · iexact Hslot
  iexists _
  isplitl [Hy]; · iexact Hy
  ipureintro
  have hc : 10 * k.val + 5 < 250 := by have h := k.isLt; have e := trips_t1; omega
  have hg := fun (j : Fin 20) (l : Fin 128) => gPay_apply tab adr d L hadr (10 * k.val + 5) hc hh j l
  refine accOK_of_pieces tab adr d L (10 * k.val + 5) hc fy hacc _ ?_
  sl_unfold_run_names
  exact
    (List.Forall₂.cons ⟨_, _, _, acc_off_5_4 k _, rfl, fun x => piece_val tab adr d L hadr 5 inb_S10x20x128_S1x20x128_5_0_0 (10 * k.val + 5) hh hg f0 _ _ 4 4 (by decide) (by decide) (acc_off_5_4 k _) x⟩
    (List.Forall₂.cons ⟨_, _, _, acc_off_5_3 k _, rfl, fun x => piece_val tab adr d L hadr 5 inb_S10x20x128_S1x20x128_5_0_0 (10 * k.val + 5) hh hg f0 _ _ 4 3 (by decide) (by decide) (acc_off_5_3 k _) x⟩
    (List.Forall₂.cons ⟨_, _, _, acc_off_5_2 k _, rfl, fun x => piece_val tab adr d L hadr 5 inb_S10x20x128_S1x20x128_5_0_0 (10 * k.val + 5) hh hg f0 _ _ 4 2 (by decide) (by decide) (acc_off_5_2 k _) x⟩
    (List.Forall₂.cons ⟨_, _, _, acc_off_5_1 k _, rfl, fun x => piece_val tab adr d L hadr 5 inb_S10x20x128_S1x20x128_5_0_0 (10 * k.val + 5) hh hg f0 _ _ 4 1 (by decide) (by decide) (acc_off_5_1 k _) x⟩
    (List.Forall₂.cons ⟨_, _, _, acc_off_5_0 k _, rfl, fun x => piece_val tab adr d L hadr 5 inb_S10x20x128_S1x20x128_5_0_0 (10 * k.val + 5) hh hg f0 _ _ 4 0 (by decide) (by decide) (acc_off_5_0 k _) x⟩
    (List.Forall₂.cons ⟨_, _, _, acc_off_5_4 k _, rfl, fun x => piece_val tab adr d L hadr 5 inb_S10x20x128_S1x20x128_5_0_0 (10 * k.val + 5) hh hg f0 _ _ 3 4 (by decide) (by decide) (acc_off_5_4 k _) x⟩
    (List.Forall₂.cons ⟨_, _, _, acc_off_5_3 k _, rfl, fun x => piece_val tab adr d L hadr 5 inb_S10x20x128_S1x20x128_5_0_0 (10 * k.val + 5) hh hg f0 _ _ 3 3 (by decide) (by decide) (acc_off_5_3 k _) x⟩
    (List.Forall₂.cons ⟨_, _, _, acc_off_5_2 k _, rfl, fun x => piece_val tab adr d L hadr 5 inb_S10x20x128_S1x20x128_5_0_0 (10 * k.val + 5) hh hg f0 _ _ 3 2 (by decide) (by decide) (acc_off_5_2 k _) x⟩
    (List.Forall₂.cons ⟨_, _, _, acc_off_5_1 k _, rfl, fun x => piece_val tab adr d L hadr 5 inb_S10x20x128_S1x20x128_5_0_0 (10 * k.val + 5) hh hg f0 _ _ 3 1 (by decide) (by decide) (acc_off_5_1 k _) x⟩
    (List.Forall₂.cons ⟨_, _, _, acc_off_5_0 k _, rfl, fun x => piece_val tab adr d L hadr 5 inb_S10x20x128_S1x20x128_5_0_0 (10 * k.val + 5) hh hg f0 _ _ 3 0 (by decide) (by decide) (acc_off_5_0 k _) x⟩
    (List.Forall₂.cons ⟨_, _, _, acc_off_5_4 k _, rfl, fun x => piece_val tab adr d L hadr 5 inb_S10x20x128_S1x20x128_5_0_0 (10 * k.val + 5) hh hg f0 _ _ 2 4 (by decide) (by decide) (acc_off_5_4 k _) x⟩
    (List.Forall₂.cons ⟨_, _, _, acc_off_5_3 k _, rfl, fun x => piece_val tab adr d L hadr 5 inb_S10x20x128_S1x20x128_5_0_0 (10 * k.val + 5) hh hg f0 _ _ 2 3 (by decide) (by decide) (acc_off_5_3 k _) x⟩
    (List.Forall₂.cons ⟨_, _, _, acc_off_5_2 k _, rfl, fun x => piece_val tab adr d L hadr 5 inb_S10x20x128_S1x20x128_5_0_0 (10 * k.val + 5) hh hg f0 _ _ 2 2 (by decide) (by decide) (acc_off_5_2 k _) x⟩
    (List.Forall₂.cons ⟨_, _, _, acc_off_5_1 k _, rfl, fun x => piece_val tab adr d L hadr 5 inb_S10x20x128_S1x20x128_5_0_0 (10 * k.val + 5) hh hg f0 _ _ 2 1 (by decide) (by decide) (acc_off_5_1 k _) x⟩
    (List.Forall₂.cons ⟨_, _, _, acc_off_5_0 k _, rfl, fun x => piece_val tab adr d L hadr 5 inb_S10x20x128_S1x20x128_5_0_0 (10 * k.val + 5) hh hg f0 _ _ 2 0 (by decide) (by decide) (acc_off_5_0 k _) x⟩
    (List.Forall₂.cons ⟨_, _, _, acc_off_5_4 k _, rfl, fun x => piece_val tab adr d L hadr 5 inb_S10x20x128_S1x20x128_5_0_0 (10 * k.val + 5) hh hg f0 _ _ 1 4 (by decide) (by decide) (acc_off_5_4 k _) x⟩
    (List.Forall₂.cons ⟨_, _, _, acc_off_5_3 k _, rfl, fun x => piece_val tab adr d L hadr 5 inb_S10x20x128_S1x20x128_5_0_0 (10 * k.val + 5) hh hg f0 _ _ 1 3 (by decide) (by decide) (acc_off_5_3 k _) x⟩
    (List.Forall₂.cons ⟨_, _, _, acc_off_5_2 k _, rfl, fun x => piece_val tab adr d L hadr 5 inb_S10x20x128_S1x20x128_5_0_0 (10 * k.val + 5) hh hg f0 _ _ 1 2 (by decide) (by decide) (acc_off_5_2 k _) x⟩
    (List.Forall₂.cons ⟨_, _, _, acc_off_5_1 k _, rfl, fun x => piece_val tab adr d L hadr 5 inb_S10x20x128_S1x20x128_5_0_0 (10 * k.val + 5) hh hg f0 _ _ 1 1 (by decide) (by decide) (acc_off_5_1 k _) x⟩
    (List.Forall₂.cons ⟨_, _, _, acc_off_5_0 k _, rfl, fun x => piece_val tab adr d L hadr 5 inb_S10x20x128_S1x20x128_5_0_0 (10 * k.val + 5) hh hg f0 _ _ 1 0 (by decide) (by decide) (acc_off_5_0 k _) x⟩
    (List.Forall₂.cons ⟨_, _, _, acc_off_5_4 k _, rfl, fun x => piece_val tab adr d L hadr 5 inb_S10x20x128_S1x20x128_5_0_0 (10 * k.val + 5) hh hg f0 _ _ 0 4 (by decide) (by decide) (acc_off_5_4 k _) x⟩
    (List.Forall₂.cons ⟨_, _, _, acc_off_5_3 k _, rfl, fun x => piece_val tab adr d L hadr 5 inb_S10x20x128_S1x20x128_5_0_0 (10 * k.val + 5) hh hg f0 _ _ 0 3 (by decide) (by decide) (acc_off_5_3 k _) x⟩
    (List.Forall₂.cons ⟨_, _, _, acc_off_5_2 k _, rfl, fun x => piece_val tab adr d L hadr 5 inb_S10x20x128_S1x20x128_5_0_0 (10 * k.val + 5) hh hg f0 _ _ 0 2 (by decide) (by decide) (acc_off_5_2 k _) x⟩
    (List.Forall₂.cons ⟨_, _, _, acc_off_5_1 k _, rfl, fun x => piece_val tab adr d L hadr 5 inb_S10x20x128_S1x20x128_5_0_0 (10 * k.val + 5) hh hg f0 _ _ 0 1 (by decide) (by decide) (acc_off_5_1 k _) x⟩
    (List.Forall₂.cons ⟨_, _, _, acc_off_5_0 k _, rfl, fun x => piece_val tab adr d L hadr 5 inb_S10x20x128_S1x20x128_5_0_0 (10 * k.val + 5) hh hg f0 _ _ 0 0 (by decide) (by decide) (acc_off_5_0 k _) x⟩
    List.Forall₂.nil)))))))))))))))))))))))))

end Cert.Proof.KI.Sc

end
-- ==== Proof.ScSlot6.lean ====
/-
  The accumulation of one landed chunk, slot 6.
-/
import proofs.«207241_g55714315764006_cont_9to1c4b_410_29_alg».proof.Proof.ScDefs
import proofs.«207241_g55714315764006_cont_9to1c4b_410_29_alg».proof.Proof.ScAccStep
import proofs.«207241_g55714315764006_cont_9to1c4b_410_29_alg».proof.Proof.ScPiece
import proofs.«207241_g55714315764006_cont_9to1c4b_410_29_alg».proof.Proof.ScGPay

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 6's chunk `10 k + 6`, landed, is accumulated: the loop of five groups of four rows, five lane chunks each,
    reads the slot and stores the sums into the chunk's five rows of the accumulation scratch. -/
theorem accLoop6 (hadr : AdrOK adr) (k : Fin k2_t1_loop.trips) (arg18 v271 c50_i32_231 v277 v279 : BitVec 32) (v280 : BitVec 1) (v296 : BitVec 32)
    (f0 : Buf (Elt F) ((sR).view.loc (V d (cV L) (jV L)))) (hh : ∀ a, (![10 * k.val + 6, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 6 inb_S10x20x128_S1x20x128_6_0_0).view.loc (V d (cV L) (jV L)) ↦[(slotM 6 inb_S10x20x128_S1x20x128_6_0_0).view.set]{fullShare} View.write (Elt F) (slotM 6 inb_S10x20x128_S1x20x128_6_0_0).view f0 (gPay tab adr d L hadr ![10 * k.val + 6, 0] hh) Finset.univ)
        ∗ (∃ fy, ((sY).view.loc (V d (cV L) (jV L)) ↦{fullShare} fy) ∗ ⌜AccOK tab adr d L (10 * k.val + 6) fy⌝))
      ⊢ iprop((∀ r, (((slotM 6 inb_S10x20x128_S1x20x128_6_0_0).view.loc (V d (cV L) (jV L)) ↦[(slotM 6 inb_S10x20x128_S1x20x128_6_0_0).view.set]{fullShare} View.write (Elt F) (slotM 6 inb_S10x20x128_S1x20x128_6_0_0).view f0 (gPay tab adr d L hadr ![10 * k.val + 6, 0] hh) Finset.univ)
              ∗ (∃ fy, ((sY).view.loc (V d (cV L) (jV L)) ↦{fullShare} fy) ∗ ⌜AccOK tab adr d L (10 * k.val + 6 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t8_loop k2_t8_ok 0#32
              (k2_t8_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v271 c50_i32_231 v277 v279 v280 v296) >>= kk) Q) := by
  have hk : k.val < 25 := lt_of_lt_of_eq k.isLt trips_t1
  have lt0 : 0 < k2_t8_loop.trips := by rw [trips_t8]; decide
  have lt1 : 1 < k2_t8_loop.trips := by rw [trips_t8]; decide
  have lt2 : 2 < k2_t8_loop.trips := by rw [trips_t8]; decide
  have lt3 : 3 < k2_t8_loop.trips := by rw [trips_t8]; decide
  have lt4 : 4 < k2_t8_loop.trips := by rw [trips_t8]; decide
  have hg := gPay_apply tab adr d L hadr (10 * k.val + 6) (by omega) hh
  iintro ⟨Hs, ⟨%fy, Hy, %hacc⟩⟩ Hk
  sl_unroll trips_t8
  sl_exec
  iapply Hk
  isplitl [Hs]; · iexact Hs
  iexists _
  isplitl [Hy]; · iexact Hy
  ipureintro
  sl_unfold_run_names
  refine accOK_step tab adr d L (10 * k.val + 6) (by omega) fy hacc _ ?_ ?_ ?_
  · -- every store lies in the chunk's own five rows
    exact List.forall_mem_cons.2 ⟨fun y hy => row_of_mem hy _ _ ((10 * k.val + 6) % 50) 4 (by decide) (acc_off_6_4 k ⟨4, lt4⟩) rfl (fun _ => rfl) rfl,
      List.forall_mem_cons.2 ⟨fun y hy => row_of_mem hy _ _ ((10 * k.val + 6) % 50) 4 (by decide) (acc_off_6_3 k ⟨4, lt4⟩) rfl (fun _ => rfl) rfl,
      List.forall_mem_cons.2 ⟨fun y hy => row_of_mem hy _ _ ((10 * k.val + 6) % 50) 4 (by decide) (acc_off_6_2 k ⟨4, lt4⟩) rfl (fun _ => rfl) rfl,
      List.forall_mem_cons.2 ⟨fun y hy => row_of_mem hy _ _ ((10 * k.val + 6) % 50) 4 (by decide) (acc_off_6_1 k ⟨4, lt4⟩) rfl (fun _ => rfl) rfl,
      List.forall_mem_cons.2 ⟨fun y hy => row_of_mem hy _ _ ((10 * k.val + 6) % 50) 4 (by decide) (acc_off_6_0 k ⟨4, lt4⟩) rfl (fun _ => rfl) rfl,
      List.forall_mem_cons.2 ⟨fun y hy => row_of_mem hy _ _ ((10 * k.val + 6) % 50) 3 (by decide) (acc_off_6_4 k ⟨3, lt3⟩) rfl (fun _ => rfl) rfl,
      List.forall_mem_cons.2 ⟨fun y hy => row_of_mem hy _ _ ((10 * k.val + 6) % 50) 3 (by decide) (acc_off_6_3 k ⟨3, lt3⟩) rfl (fun _ => rfl) rfl,
      List.forall_mem_cons.2 ⟨fun y hy => row_of_mem hy _ _ ((10 * k.val + 6) % 50) 3 (by decide) (acc_off_6_2 k ⟨3, lt3⟩) rfl (fun _ => rfl) rfl,
      List.forall_mem_cons.2 ⟨fun y hy => row_of_mem hy _ _ ((10 * k.val + 6) % 50) 3 (by decide) (acc_off_6_1 k ⟨3, lt3⟩) rfl (fun _ => rfl) rfl,
      List.forall_mem_cons.2 ⟨fun y hy => row_of_mem hy _ _ ((10 * k.val + 6) % 50) 3 (by decide) (acc_off_6_0 k ⟨3, lt3⟩) rfl (fun _ => rfl) rfl,
      List.forall_mem_cons.2 ⟨fun y hy => row_of_mem hy _ _ ((10 * k.val + 6) % 50) 2 (by decide) (acc_off_6_4 k ⟨2, lt2⟩) rfl (fun _ => rfl) rfl,
      List.forall_mem_cons.2 ⟨fun y hy => row_of_mem hy _ _ ((10 * k.val + 6) % 50) 2 (by decide) (acc_off_6_3 k ⟨2, lt2⟩) rfl (fun _ => rfl) rfl,
      List.forall_mem_cons.2 ⟨fun y hy => row_of_mem hy _ _ ((10 * k.val + 6) % 50) 2 (by decide) (acc_off_6_2 k ⟨2, lt2⟩) rfl (fun _ => rfl) rfl,
      List.forall_mem_cons.2 ⟨fun y hy => row_of_mem hy _ _ ((10 * k.val + 6) % 50) 2 (by decide) (acc_off_6_1 k ⟨2, lt2⟩) rfl (fun _ => rfl) rfl,
      List.forall_mem_cons.2 ⟨fun y hy => row_of_mem hy _ _ ((10 * k.val + 6) % 50) 2 (by decide) (acc_off_6_0 k ⟨2, lt2⟩) rfl (fun _ => rfl) rfl,
      List.forall_mem_cons.2 ⟨fun y hy => row_of_mem hy _ _ ((10 * k.val + 6) % 50) 1 (by decide) (acc_off_6_4 k ⟨1, lt1⟩) rfl (fun _ => rfl) rfl,
      List.forall_mem_cons.2 ⟨fun y hy => row_of_mem hy _ _ ((10 * k.val + 6) % 50) 1 (by decide) (acc_off_6_3 k ⟨1, lt1⟩) rfl (fun _ => rfl) rfl,
      List.forall_mem_cons.2 ⟨fun y hy => row_of_mem hy _ _ ((10 * k.val + 6) % 50) 1 (by decide) (acc_off_6_2 k ⟨1, lt1⟩) rfl (fun _ => rfl) rfl,
      List.forall_mem_cons.2 ⟨fun y hy => row_of_mem hy _ _ ((10 * k.val + 6) % 50) 1 (by decide) (acc_off_6_1 k ⟨1, lt1⟩) rfl (fun _ => rfl) rfl,
      List.forall_mem_cons.2 ⟨fun y hy => row_of_mem hy _ _ ((10 * k.val + 6) % 50) 1 (by decide) (acc_off_6_0 k ⟨1, lt1⟩) rfl (fun _ => rfl) rfl,
      List.forall_mem_cons.2 ⟨fun y hy => row_of_mem hy _ _ ((10 * k.val + 6) % 50) 0 (by decide) (acc_off_6_4 k ⟨0, lt0⟩) rfl (fun _ => rfl) rfl,
      List.forall_mem_cons.2 ⟨fun y hy => row_of_mem hy _ _ ((10 * k.val + 6) % 50) 0 (by decide) (acc_off_6_3 k ⟨0, lt0⟩) rfl (fun _ => rfl) rfl,
      List.forall_mem_cons.2 ⟨fun y hy => row_of_mem hy _ _ ((10 * k.val + 6) % 50) 0 (by decide) (acc_off_6_2 k ⟨0, lt0⟩) rfl (fun _ => rfl) rfl,
      List.forall_mem_cons.2 ⟨fun y hy => row_of_mem hy _ _ ((10 * k.val + 6) % 50) 0 (by decide) (acc_off_6_1 k ⟨0, lt0⟩) rfl (fun _ => rfl) rfl,
      List.forall_mem_cons.2 ⟨fun y hy => row_of_mem hy _ _ ((10 * k.val + 6) % 50) 0 (by decide) (acc_off_6_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 6) % 50) 0 l 0 (acc_off_6_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 6) % 50) 0 l 1 (acc_off_6_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 6) % 50) 0 l 2 (acc_off_6_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 6) % 50) 0 l 3 (acc_off_6_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 6) % 50) 0 l 4 (acc_off_6_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 6) % 50) 1 l 0 (acc_off_6_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 6) % 50) 1 l 1 (acc_off_6_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 6) % 50) 1 l 2 (acc_off_6_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 6) % 50) 1 l 3 (acc_off_6_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 6) % 50) 1 l 4 (acc_off_6_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 6) % 50) 2 l 0 (acc_off_6_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 6) % 50) 2 l 1 (acc_off_6_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 6) % 50) 2 l 2 (acc_off_6_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 6) % 50) 2 l 3 (acc_off_6_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 6) % 50) 2 l 4 (acc_off_6_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 6) % 50) 3 l 0 (acc_off_6_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 6) % 50) 3 l 1 (acc_off_6_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 6) % 50) 3 l 2 (acc_off_6_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 6) % 50) 3 l 3 (acc_off_6_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 6) % 50) 3 l 4 (acc_off_6_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 6) % 50) 4 l 0 (acc_off_6_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 6) % 50) 4 l 1 (acc_off_6_1 k ⟨4, lt4⟩) rfl (fun _ => rfl) rfl rfl (by omega) hl hq⟩
    · exact ⟨_, List.mem_cons_of_mem _ (List.mem_cons_of_mem _ (List.mem_cons_self)), mem_of_lane _ _ _ ((10 * k.val + 6) % 50) 4 l 2 (acc_off_6_2 k ⟨4, lt4⟩) rfl (fun _ => rfl) rfl rfl (by omega) hl hq⟩
    · exact ⟨_, List.mem_cons_of_mem _ (List.mem_cons_self), mem_of_lane _ _ _ ((10 * k.val + 6) % 50) 4 l 3 (acc_off_6_3 k ⟨4, lt4⟩) rfl (fun _ => rfl) rfl rfl (by omega) hl hq⟩
    · exact ⟨_, List.mem_cons_self, mem_of_lane _ _ _ ((10 * k.val + 6) % 50) 4 l 4 (acc_off_6_4 k ⟨4, lt4⟩) rfl (fun _ => rfl) rfl rfl (by omega) hl hq⟩
  · -- each store's payload is the chunk's value at its row's group and its lane
    exact List.forall_mem_cons.2 ⟨fun x => piece_val tab adr d L hadr 6 inb_S10x20x128_S1x20x128_6_0_0 (10 * k.val + 6) hh hg f0 _ (k2_off119_inb k ⟨4, lt4⟩) 4 4 (by decide) (by decide) (acc_off_6_4 k ⟨4, lt4⟩) x,
      List.forall_mem_cons.2 ⟨fun x => piece_val tab adr d L hadr 6 inb_S10x20x128_S1x20x128_6_0_0 (10 * k.val + 6) hh hg f0 _ (k2_off116_inb k ⟨4, lt4⟩) 4 3 (by decide) (by decide) (acc_off_6_3 k ⟨4, lt4⟩) x,
      List.forall_mem_cons.2 ⟨fun x => piece_val tab adr d L hadr 6 inb_S10x20x128_S1x20x128_6_0_0 (10 * k.val + 6) hh hg f0 _ (k2_off113_inb k ⟨4, lt4⟩) 4 2 (by decide) (by decide) (acc_off_6_2 k ⟨4, lt4⟩) x,
      List.forall_mem_cons.2 ⟨fun x => piece_val tab adr d L hadr 6 inb_S10x20x128_S1x20x128_6_0_0 (10 * k.val + 6) hh hg f0 _ (k2_off110_inb k ⟨4, lt4⟩) 4 1 (by decide) (by decide) (acc_off_6_1 k ⟨4, lt4⟩) x,
      List.forall_mem_cons.2 ⟨fun x => piece_val tab adr d L hadr 6 inb_S10x20x128_S1x20x128_6_0_0 (10 * k.val + 6) hh hg f0 _ (k2_off107_inb k ⟨4, lt4⟩) 4 0 (by decide) (by decide) (acc_off_6_0 k ⟨4, lt4⟩) x,
      List.forall_mem_cons.2 ⟨fun x => piece_val tab adr d L hadr 6 inb_S10x20x128_S1x20x128_6_0_0 (10 * k.val + 6) hh hg f0 _ (k2_off119_inb k ⟨3, lt3⟩) 3 4 (by decide) (by decide) (acc_off_6_4 k ⟨3, lt3⟩) x,
      List.forall_mem_cons.2 ⟨fun x => piece_val tab adr d L hadr 6 inb_S10x20x128_S1x20x128_6_0_0 (10 * k.val + 6) hh hg f0 _ (k2_off116_inb k ⟨3, lt3⟩) 3 3 (by decide) (by decide) (acc_off_6_3 k ⟨3, lt3⟩) x,
      List.forall_mem_cons.2 ⟨fun x => piece_val tab adr d L hadr 6 inb_S10x20x128_S1x20x128_6_0_0 (10 * k.val + 6) hh hg f0 _ (k2_off113_inb k ⟨3, lt3⟩) 3 2 (by decide) (by decide) (acc_off_6_2 k ⟨3, lt3⟩) x,
      List.forall_mem_cons.2 ⟨fun x => piece_val tab adr d L hadr 6 inb_S10x20x128_S1x20x128_6_0_0 (10 * k.val + 6) hh hg f0 _ (k2_off110_inb k ⟨3, lt3⟩) 3 1 (by decide) (by decide) (acc_off_6_1 k ⟨3, lt3⟩) x,
      List.forall_mem_cons.2 ⟨fun x => piece_val tab adr d L hadr 6 inb_S10x20x128_S1x20x128_6_0_0 (10 * k.val + 6) hh hg f0 _ (k2_off107_inb k ⟨3, lt3⟩) 3 0 (by decide) (by decide) (acc_off_6_0 k ⟨3, lt3⟩) x,
      List.forall_mem_cons.2 ⟨fun x => piece_val tab adr d L hadr 6 inb_S10x20x128_S1x20x128_6_0_0 (10 * k.val + 6) hh hg f0 _ (k2_off119_inb k ⟨2, lt2⟩) 2 4 (by decide) (by decide) (acc_off_6_4 k ⟨2, lt2⟩) x,
      List.forall_mem_cons.2 ⟨fun x => piece_val tab adr d L hadr 6 inb_S10x20x128_S1x20x128_6_0_0 (10 * k.val + 6) hh hg f0 _ (k2_off116_inb k ⟨2, lt2⟩) 2 3 (by decide) (by decide) (acc_off_6_3 k ⟨2, lt2⟩) x,
      List.forall_mem_cons.2 ⟨fun x => piece_val tab adr d L hadr 6 inb_S10x20x128_S1x20x128_6_0_0 (10 * k.val + 6) hh hg f0 _ (k2_off113_inb k ⟨2, lt2⟩) 2 2 (by decide) (by decide) (acc_off_6_2 k ⟨2, lt2⟩) x,
      List.forall_mem_cons.2 ⟨fun x => piece_val tab adr d L hadr 6 inb_S10x20x128_S1x20x128_6_0_0 (10 * k.val + 6) hh hg f0 _ (k2_off110_inb k ⟨2, lt2⟩) 2 1 (by decide) (by decide) (acc_off_6_1 k ⟨2, lt2⟩) x,
      List.forall_mem_cons.2 ⟨fun x => piece_val tab adr d L hadr 6 inb_S10x20x128_S1x20x128_6_0_0 (10 * k.val + 6) hh hg f0 _ (k2_off107_inb k ⟨2, lt2⟩) 2 0 (by decide) (by decide) (acc_off_6_0 k ⟨2, lt2⟩) x,
      List.forall_mem_cons.2 ⟨fun x => piece_val tab adr d L hadr 6 inb_S10x20x128_S1x20x128_6_0_0 (10 * k.val + 6) hh hg f0 _ (k2_off119_inb k ⟨1, lt1⟩) 1 4 (by decide) (by decide) (acc_off_6_4 k ⟨1, lt1⟩) x,
      List.forall_mem_cons.2 ⟨fun x => piece_val tab adr d L hadr 6 inb_S10x20x128_S1x20x128_6_0_0 (10 * k.val + 6) hh hg f0 _ (k2_off116_inb k ⟨1, lt1⟩) 1 3 (by decide) (by decide) (acc_off_6_3 k ⟨1, lt1⟩) x,
      List.forall_mem_cons.2 ⟨fun x => piece_val tab adr d L hadr 6 inb_S10x20x128_S1x20x128_6_0_0 (10 * k.val + 6) hh hg f0 _ (k2_off113_inb k ⟨1, lt1⟩) 1 2 (by decide) (by decide) (acc_off_6_2 k ⟨1, lt1⟩) x,
      List.forall_mem_cons.2 ⟨fun x => piece_val tab adr d L hadr 6 inb_S10x20x128_S1x20x128_6_0_0 (10 * k.val + 6) hh hg f0 _ (k2_off110_inb k ⟨1, lt1⟩) 1 1 (by decide) (by decide) (acc_off_6_1 k ⟨1, lt1⟩) x,
      List.forall_mem_cons.2 ⟨fun x => piece_val tab adr d L hadr 6 inb_S10x20x128_S1x20x128_6_0_0 (10 * k.val + 6) hh hg f0 _ (k2_off107_inb k ⟨1, lt1⟩) 1 0 (by decide) (by decide) (acc_off_6_0 k ⟨1, lt1⟩) x,
      List.forall_mem_cons.2 ⟨fun x => piece_val tab adr d L hadr 6 inb_S10x20x128_S1x20x128_6_0_0 (10 * k.val + 6) hh hg f0 _ (k2_off119_inb k ⟨0, lt0⟩) 0 4 (by decide) (by decide) (acc_off_6_4 k ⟨0, lt0⟩) x,
      List.forall_mem_cons.2 ⟨fun x => piece_val tab adr d L hadr 6 inb_S10x20x128_S1x20x128_6_0_0 (10 * k.val + 6) hh hg f0 _ (k2_off116_inb k ⟨0, lt0⟩) 0 3 (by decide) (by decide) (acc_off_6_3 k ⟨0, lt0⟩) x,
      List.forall_mem_cons.2 ⟨fun x => piece_val tab adr d L hadr 6 inb_S10x20x128_S1x20x128_6_0_0 (10 * k.val + 6) hh hg f0 _ (k2_off113_inb k ⟨0, lt0⟩) 0 2 (by decide) (by decide) (acc_off_6_2 k ⟨0, lt0⟩) x,
      List.forall_mem_cons.2 ⟨fun x => piece_val tab adr d L hadr 6 inb_S10x20x128_S1x20x128_6_0_0 (10 * k.val + 6) hh hg f0 _ (k2_off110_inb k ⟨0, lt0⟩) 0 1 (by decide) (by decide) (acc_off_6_1 k ⟨0, lt0⟩) x,
      List.forall_mem_cons.2 ⟨fun x => piece_val tab adr d L hadr 6 inb_S10x20x128_S1x20x128_6_0_0 (10 * k.val + 6) hh hg f0 _ (k2_off107_inb k ⟨0, lt0⟩) 0 0 (by decide) (by decide) (acc_off_6_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KI.Sc

end
-- ==== Proof.ScSlot7.lean ====
/-
  The accumulation of one landed chunk, slot 7.
-/
import proofs.«207241_g55714315764006_cont_9to1c4b_410_29_alg».proof.Proof.ScDefs
import proofs.«207241_g55714315764006_cont_9to1c4b_410_29_alg».proof.Proof.ScAccStep
import proofs.«207241_g55714315764006_cont_9to1c4b_410_29_alg».proof.Proof.ScPiece
import proofs.«207241_g55714315764006_cont_9to1c4b_410_29_alg».proof.Proof.ScGPay

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 7's chunk `10 k + 7`, landed, is accumulated: the loop of five groups of four rows, five lane chunks each,
    reads the slot and stores the sums into the chunk's five rows of the accumulation scratch. -/
theorem accLoop7 (hadr : AdrOK adr) (k : Fin k2_t1_loop.trips) (arg18 v307 c50_i32_258 v332 : BitVec 32)
    (f0 : Buf (Elt F) ((sR).view.loc (V d (cV L) (jV L)))) (hh : ∀ a, (![10 * k.val + 7, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 7 inb_S10x20x128_S1x20x128_7_0_0).view.loc (V d (cV L) (jV L)) ↦[(slotM 7 inb_S10x20x128_S1x20x128_7_0_0).view.set]{fullShare} View.write (Elt F) (slotM 7 inb_S10x20x128_S1x20x128_7_0_0).view f0 (gPay tab adr d L hadr ![10 * k.val + 7, 0] hh) Finset.univ)
        ∗ (∃ fy, ((sY).view.loc (V d (cV L) (jV L)) ↦{fullShare} fy) ∗ ⌜AccOK tab adr d L (10 * k.val + 7) fy⌝))
      ⊢ iprop((∀ r, (((slotM 7 inb_S10x20x128_S1x20x128_7_0_0).view.loc (V d (cV L) (jV L)) ↦[(slotM 7 inb_S10x20x128_S1x20x128_7_0_0).view.set]{fullShare} View.write (Elt F) (slotM 7 inb_S10x20x128_S1x20x128_7_0_0).view f0 (gPay tab adr d L hadr ![10 * k.val + 7, 0] hh) Finset.univ)
              ∗ (∃ fy, ((sY).view.loc (V d (cV L) (jV L)) ↦{fullShare} fy) ∗ ⌜AccOK tab adr d L (10 * k.val + 7 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t9_loop k2_t9_ok 0#32
              (k2_t9_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v307 c50_i32_258 v332) >>= kk) Q) := by
  have hk : k.val < 25 := lt_of_lt_of_eq k.isLt trips_t1
  have lt0 : 0 < k2_t9_loop.trips := by rw [trips_t9]; decide
  have lt1 : 1 < k2_t9_loop.trips := by rw [trips_t9]; decide
  have lt2 : 2 < k2_t9_loop.trips := by rw [trips_t9]; decide
  have lt3 : 3 < k2_t9_loop.trips := by rw [trips_t9]; decide
  have lt4 : 4 < k2_t9_loop.trips := by rw [trips_t9]; decide
  have hg := gPay_apply tab adr d L hadr (10 * k.val + 7) (by omega) hh
  iintro ⟨Hs, ⟨%fy, Hy, %hacc⟩⟩ Hk
  sl_unroll trips_t9
  sl_exec
  iapply Hk
  isplitl [Hs]; · iexact Hs
  iexists _
  isplitl [Hy]; · iexact Hy
  ipureintro
  sl_unfold_run_names
  refine accOK_step tab adr d L (10 * k.val + 7) (by omega) fy hacc _ ?_ ?_ ?_
  · -- every store lies in the chunk's own five rows
    exact List.forall_mem_cons.2 ⟨fun y hy => row_of_mem hy _ _ ((10 * k.val + 7) % 50) 4 (by decide) (acc_off_7_4 k ⟨4, lt4⟩) rfl (fun _ => rfl) rfl,
      List.forall_mem_cons.2 ⟨fun y hy => row_of_mem hy _ _ ((10 * k.val + 7) % 50) 4 (by decide) (acc_off_7_3 k ⟨4, lt4⟩) rfl (fun _ => rfl) rfl,
      List.forall_mem_cons.2 ⟨fun y hy => row_of_mem hy _ _ ((10 * k.val + 7) % 50) 4 (by decide) (acc_off_7_2 k ⟨4, lt4⟩) rfl (fun _ => rfl) rfl,
      List.forall_mem_cons.2 ⟨fun y hy => row_of_mem hy _ _ ((10 * k.val + 7) % 50) 4 (by decide) (acc_off_7_1 k ⟨4, lt4⟩) rfl (fun _ => rfl) rfl,
      List.forall_mem_cons.2 ⟨fun y hy => row_of_mem hy _ _ ((10 * k.val + 7) % 50) 4 (by decide) (acc_off_7_0 k ⟨4, lt4⟩) rfl (fun _ => rfl) rfl,
      List.forall_mem_cons.2 ⟨fun y hy => row_of_mem hy _ _ ((10 * k.val + 7) % 50) 3 (by decide) (acc_off_7_4 k ⟨3, lt3⟩) rfl (fun _ => rfl) rfl,
      List.forall_mem_cons.2 ⟨fun y hy => row_of_mem hy _ _ ((10 * k.val + 7) % 50) 3 (by decide) (acc_off_7_3 k ⟨3, lt3⟩) rfl (fun _ => rfl) rfl,
      List.forall_mem_cons.2 ⟨fun y hy => row_of_mem hy _ _ ((10 * k.val + 7) % 50) 3 (by decide) (acc_off_7_2 k ⟨3, lt3⟩) rfl (fun _ => rfl) rfl,
      List.forall_mem_cons.2 ⟨fun y hy => row_of_mem hy _ _ ((10 * k.val + 7) % 50) 3 (by decide) (acc_off_7_1 k ⟨3, lt3⟩) rfl (fun _ => rfl) rfl,
      List.forall_mem_cons.2 ⟨fun y hy => row_of_mem hy _ _ ((10 * k.val + 7) % 50) 3 (by decide) (acc_off_7_0 k ⟨3, lt3⟩) rfl (fun _ => rfl) rfl,
      List.forall_mem_cons.2 ⟨fun y hy => row_of_mem hy _ _ ((10 * k.val + 7) % 50) 2 (by decide) (acc_off_7_4 k ⟨2, lt2⟩) rfl (fun _ => rfl) rfl,
      List.forall_mem_cons.2 ⟨fun y hy => row_of_mem hy _ _ ((10 * k.val + 7) % 50) 2 (by decide) (acc_off_7_3 k ⟨2, lt2⟩) rfl (fun _ => rfl) rfl,
      List.forall_mem_cons.2 ⟨fun y hy => row_of_mem hy _ _ ((10 * k.val + 7) % 50) 2 (by decide) (acc_off_7_2 k ⟨2, lt2⟩) rfl (fun _ => rfl) rfl,
      List.forall_mem_cons.2 ⟨fun y hy => row_of_mem hy _ _ ((10 * k.val + 7) % 50) 2 (by decide) (acc_off_7_1 k ⟨2, lt2⟩) rfl (fun _ => rfl) rfl,
      List.forall_mem_cons.2 ⟨fun y hy => row_of_mem hy _ _ ((10 * k.val + 7) % 50) 2 (by decide) (acc_off_7_0 k ⟨2, lt2⟩) rfl (fun _ => rfl) rfl,
      List.forall_mem_cons.2 ⟨fun y hy => row_of_mem hy _ _ ((10 * k.val + 7) % 50) 1 (by decide) (acc_off_7_4 k ⟨1, lt1⟩) rfl (fun _ => rfl) rfl,
      List.forall_mem_cons.2 ⟨fun y hy => row_of_mem hy _ _ ((10 * k.val + 7) % 50) 1 (by decide) (acc_off_7_3 k ⟨1, lt1⟩) rfl (fun _ => rfl) rfl,
      List.forall_mem_cons.2 ⟨fun y hy => row_of_mem hy _ _ ((10 * k.val + 7) % 50) 1 (by decide) (acc_off_7_2 k ⟨1, lt1⟩) rfl (fun _ => rfl) rfl,
      List.forall_mem_cons.2 ⟨fun y hy => row_of_mem hy _ _ ((10 * k.val + 7) % 50) 1 (by decide) (acc_off_7_1 k ⟨1, lt1⟩) rfl (fun _ => rfl) rfl,
      List.forall_mem_cons.2 ⟨fun y hy => row_of_mem hy _ _ ((10 * k.val + 7) % 50) 1 (by decide) (acc_off_7_0 k ⟨1, lt1⟩) rfl (fun _ => rfl) rfl,
      List.forall_mem_cons.2 ⟨fun y hy => row_of_mem hy _ _ ((10 * k.val + 7) % 50) 0 (by decide) (acc_off_7_4 k ⟨0, lt0⟩) rfl (fun _ => rfl) rfl,
      List.forall_mem_cons.2 ⟨fun y hy => row_of_mem hy _ _ ((10 * k.val + 7) % 50) 0 (by decide) (acc_off_7_3 k ⟨0, lt0⟩) rfl (fun _ => rfl) rfl,
      List.forall_mem_cons.2 ⟨fun y hy => row_of_mem hy _ _ ((10 * k.val + 7) % 50) 0 (by decide) (acc_off_7_2 k ⟨0, lt0⟩) rfl (fun _ => rfl) rfl,
      List.forall_mem_cons.2 ⟨fun y hy => row_of_mem hy _ _ ((10 * k.val + 7) % 50) 0 (by decide) (acc_off_7_1 k ⟨0, lt0⟩) rfl (fun _ => rfl) rfl,
      List.forall_mem_cons.2 ⟨fun y hy => row_of_mem hy _ _ ((10 * k.val + 7) % 50) 0 (by decide) (acc_off_7_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 7) % 50) 0 l 0 (acc_off_7_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 7) % 50) 0 l 1 (acc_off_7_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 7) % 50) 0 l 2 (acc_off_7_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 7) % 50) 0 l 3 (acc_off_7_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 7) % 50) 0 l 4 (acc_off_7_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 7) % 50) 1 l 0 (acc_off_7_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 7) % 50) 1 l 1 (acc_off_7_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 7) % 50) 1 l 2 (acc_off_7_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 7) % 50) 1 l 3 (acc_off_7_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 7) % 50) 1 l 4 (acc_off_7_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 7) % 50) 2 l 0 (acc_off_7_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 7) % 50) 2 l 1 (acc_off_7_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 7) % 50) 2 l 2 (acc_off_7_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 7) % 50) 2 l 3 (acc_off_7_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 7) % 50) 2 l 4 (acc_off_7_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 7) % 50) 3 l 0 (acc_off_7_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 7) % 50) 3 l 1 (acc_off_7_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 7) % 50) 3 l 2 (acc_off_7_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 7) % 50) 3 l 3 (acc_off_7_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 7) % 50) 3 l 4 (acc_off_7_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 7) % 50) 4 l 0 (acc_off_7_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 7) % 50) 4 l 1 (acc_off_7_1 k ⟨4, lt4⟩) rfl (fun _ => rfl) rfl rfl (by omega) hl hq⟩
    · exact ⟨_, List.mem_cons_of_mem _ (List.mem_cons_of_mem _ (List.mem_cons_self)), mem_of_lane _ _ _ ((10 * k.val + 7) % 50) 4 l 2 (acc_off_7_2 k ⟨4, lt4⟩) rfl (fun _ => rfl) rfl rfl (by omega) hl hq⟩
    · exact ⟨_, List.mem_cons_of_mem _ (List.mem_cons_self), mem_of_lane _ _ _ ((10 * k.val + 7) % 50) 4 l 3 (acc_off_7_3 k ⟨4, lt4⟩) rfl (fun _ => rfl) rfl rfl (by omega) hl hq⟩
    · exact ⟨_, List.mem_cons_self, mem_of_lane _ _ _ ((10 * k.val + 7) % 50) 4 l 4 (acc_off_7_4 k ⟨4, lt4⟩) rfl (fun _ => rfl) rfl rfl (by omega) hl hq⟩
  · -- each store's payload is the chunk's value at its row's group and its lane
    exact List.forall_mem_cons.2 ⟨fun x => piece_val tab adr d L hadr 7 inb_S10x20x128_S1x20x128_7_0_0 (10 * k.val + 7) hh hg f0 _ (k2_off136_inb k ⟨4, lt4⟩) 4 4 (by decide) (by decide) (acc_off_7_4 k ⟨4, lt4⟩) x,
      List.forall_mem_cons.2 ⟨fun x => piece_val tab adr d L hadr 7 inb_S10x20x128_S1x20x128_7_0_0 (10 * k.val + 7) hh hg f0 _ (k2_off133_inb k ⟨4, lt4⟩) 4 3 (by decide) (by decide) (acc_off_7_3 k ⟨4, lt4⟩) x,
      List.forall_mem_cons.2 ⟨fun x => piece_val tab adr d L hadr 7 inb_S10x20x128_S1x20x128_7_0_0 (10 * k.val + 7) hh hg f0 _ (k2_off130_inb k ⟨4, lt4⟩) 4 2 (by decide) (by decide) (acc_off_7_2 k ⟨4, lt4⟩) x,
      List.forall_mem_cons.2 ⟨fun x => piece_val tab adr d L hadr 7 inb_S10x20x128_S1x20x128_7_0_0 (10 * k.val + 7) hh hg f0 _ (k2_off127_inb k ⟨4, lt4⟩) 4 1 (by decide) (by decide) (acc_off_7_1 k ⟨4, lt4⟩) x,
      List.forall_mem_cons.2 ⟨fun x => piece_val tab adr d L hadr 7 inb_S10x20x128_S1x20x128_7_0_0 (10 * k.val + 7) hh hg f0 _ (k2_off124_inb k ⟨4, lt4⟩) 4 0 (by decide) (by decide) (acc_off_7_0 k ⟨4, lt4⟩) x,
      List.forall_mem_cons.2 ⟨fun x => piece_val tab adr d L hadr 7 inb_S10x20x128_S1x20x128_7_0_0 (10 * k.val + 7) hh hg f0 _ (k2_off136_inb k ⟨3, lt3⟩) 3 4 (by decide) (by decide) (acc_off_7_4 k ⟨3, lt3⟩) x,
      List.forall_mem_cons.2 ⟨fun x => piece_val tab adr d L hadr 7 inb_S10x20x128_S1x20x128_7_0_0 (10 * k.val + 7) hh hg f0 _ (k2_off133_inb k ⟨3, lt3⟩) 3 3 (by decide) (by decide) (acc_off_7_3 k ⟨3, lt3⟩) x,
      List.forall_mem_cons.2 ⟨fun x => piece_val tab adr d L hadr 7 inb_S10x20x128_S1x20x128_7_0_0 (10 * k.val + 7) hh hg f0 _ (k2_off130_inb k ⟨3, lt3⟩) 3 2 (by decide) (by decide) (acc_off_7_2 k ⟨3, lt3⟩) x,
      List.forall_mem_cons.2 ⟨fun x => piece_val tab adr d L hadr 7 inb_S10x20x128_S1x20x128_7_0_0 (10 * k.val + 7) hh hg f0 _ (k2_off127_inb k ⟨3, lt3⟩) 3 1 (by decide) (by decide) (acc_off_7_1 k ⟨3, lt3⟩) x,
      List.forall_mem_cons.2 ⟨fun x => piece_val tab adr d L hadr 7 inb_S10x20x128_S1x20x128_7_0_0 (10 * k.val + 7) hh hg f0 _ (k2_off124_inb k ⟨3, lt3⟩) 3 0 (by decide) (by decide) (acc_off_7_0 k ⟨3, lt3⟩) x,
      List.forall_mem_cons.2 ⟨fun x => piece_val tab adr d L hadr 7 inb_S10x20x128_S1x20x128_7_0_0 (10 * k.val + 7) hh hg f0 _ (k2_off136_inb k ⟨2, lt2⟩) 2 4 (by decide) (by decide) (acc_off_7_4 k ⟨2, lt2⟩) x,
      List.forall_mem_cons.2 ⟨fun x => piece_val tab adr d L hadr 7 inb_S10x20x128_S1x20x128_7_0_0 (10 * k.val + 7) hh hg f0 _ (k2_off133_inb k ⟨2, lt2⟩) 2 3 (by decide) (by decide) (acc_off_7_3 k ⟨2, lt2⟩) x,
      List.forall_mem_cons.2 ⟨fun x => piece_val tab adr d L hadr 7 inb_S10x20x128_S1x20x128_7_0_0 (10 * k.val + 7) hh hg f0 _ (k2_off130_inb k ⟨2, lt2⟩) 2 2 (by decide) (by decide) (acc_off_7_2 k ⟨2, lt2⟩) x,
      List.forall_mem_cons.2 ⟨fun x => piece_val tab adr d L hadr 7 inb_S10x20x128_S1x20x128_7_0_0 (10 * k.val + 7) hh hg f0 _ (k2_off127_inb k ⟨2, lt2⟩) 2 1 (by decide) (by decide) (acc_off_7_1 k ⟨2, lt2⟩) x,
      List.forall_mem_cons.2 ⟨fun x => piece_val tab adr d L hadr 7 inb_S10x20x128_S1x20x128_7_0_0 (10 * k.val + 7) hh hg f0 _ (k2_off124_inb k ⟨2, lt2⟩) 2 0 (by decide) (by decide) (acc_off_7_0 k ⟨2, lt2⟩) x,
      List.forall_mem_cons.2 ⟨fun x => piece_val tab adr d L hadr 7 inb_S10x20x128_S1x20x128_7_0_0 (10 * k.val + 7) hh hg f0 _ (k2_off136_inb k ⟨1, lt1⟩) 1 4 (by decide) (by decide) (acc_off_7_4 k ⟨1, lt1⟩) x,
      List.forall_mem_cons.2 ⟨fun x => piece_val tab adr d L hadr 7 inb_S10x20x128_S1x20x128_7_0_0 (10 * k.val + 7) hh hg f0 _ (k2_off133_inb k ⟨1, lt1⟩) 1 3 (by decide) (by decide) (acc_off_7_3 k ⟨1, lt1⟩) x,
      List.forall_mem_cons.2 ⟨fun x => piece_val tab adr d L hadr 7 inb_S10x20x128_S1x20x128_7_0_0 (10 * k.val + 7) hh hg f0 _ (k2_off130_inb k ⟨1, lt1⟩) 1 2 (by decide) (by decide) (acc_off_7_2 k ⟨1, lt1⟩) x,
      List.forall_mem_cons.2 ⟨fun x => piece_val tab adr d L hadr 7 inb_S10x20x128_S1x20x128_7_0_0 (10 * k.val + 7) hh hg f0 _ (k2_off127_inb k ⟨1, lt1⟩) 1 1 (by decide) (by decide) (acc_off_7_1 k ⟨1, lt1⟩) x,
      List.forall_mem_cons.2 ⟨fun x => piece_val tab adr d L hadr 7 inb_S10x20x128_S1x20x128_7_0_0 (10 * k.val + 7) hh hg f0 _ (k2_off124_inb k ⟨1, lt1⟩) 1 0 (by decide) (by decide) (acc_off_7_0 k ⟨1, lt1⟩) x,
      List.forall_mem_cons.2 ⟨fun x => piece_val tab adr d L hadr 7 inb_S10x20x128_S1x20x128_7_0_0 (10 * k.val + 7) hh hg f0 _ (k2_off136_inb k ⟨0, lt0⟩) 0 4 (by decide) (by decide) (acc_off_7_4 k ⟨0, lt0⟩) x,
      List.forall_mem_cons.2 ⟨fun x => piece_val tab adr d L hadr 7 inb_S10x20x128_S1x20x128_7_0_0 (10 * k.val + 7) hh hg f0 _ (k2_off133_inb k ⟨0, lt0⟩) 0 3 (by decide) (by decide) (acc_off_7_3 k ⟨0, lt0⟩) x,
      List.forall_mem_cons.2 ⟨fun x => piece_val tab adr d L hadr 7 inb_S10x20x128_S1x20x128_7_0_0 (10 * k.val + 7) hh hg f0 _ (k2_off130_inb k ⟨0, lt0⟩) 0 2 (by decide) (by decide) (acc_off_7_2 k ⟨0, lt0⟩) x,
      List.forall_mem_cons.2 ⟨fun x => piece_val tab adr d L hadr 7 inb_S10x20x128_S1x20x128_7_0_0 (10 * k.val + 7) hh hg f0 _ (k2_off127_inb k ⟨0, lt0⟩) 0 1 (by decide) (by decide) (acc_off_7_1 k ⟨0, lt0⟩) x,
      List.forall_mem_cons.2 ⟨fun x => piece_val tab adr d L hadr 7 inb_S10x20x128_S1x20x128_7_0_0 (10 * k.val + 7) hh hg f0 _ (k2_off124_inb k ⟨0, lt0⟩) 0 0 (by decide) (by decide) (acc_off_7_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KI.Sc

end
-- ==== Proof.ScSlot8.lean ====
/-
  The accumulation of one landed chunk, slot 8.
-/
import proofs.«207241_g55714315764006_cont_9to1c4b_410_29_alg».proof.Proof.ScDefs
import proofs.«207241_g55714315764006_cont_9to1c4b_410_29_alg».proof.Proof.ScAccStep
import proofs.«207241_g55714315764006_cont_9to1c4b_410_29_alg».proof.Proof.ScPiece
import proofs.«207241_g55714315764006_cont_9to1c4b_410_29_alg».proof.Proof.ScGPay

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

set_option maxHeartbeats 4000000 in
/-- Slot 8's chunk `10 k + 8`, landed, is accumulated: the loop of five groups of four rows, five lane chunks each,
    reads the slot and stores the sums into the chunk's five rows of the accumulation scratch. -/
theorem accLoop8 (hadr : AdrOK adr) (k : Fin k2_t1_loop.trips) (arg18 v343 v368 : BitVec 32)
    (f0 : Buf (Elt F) ((sR).view.loc (V d (cV L) (jV L)))) (hh : ∀ a, (![10 * k.val + 8, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 8 inb_S10x20x128_S1x20x128_8_0_0).view.loc (V d (cV L) (jV L)) ↦[(slotM 8 inb_S10x20x128_S1x20x128_8_0_0).view.set]{fullShare} View.write (Elt F) (slotM 8 inb_S10x20x128_S1x20x128_8_0_0).view f0 (gPay tab adr d L hadr ![10 * k.val + 8, 0] hh) Finset.univ)
        ∗ (∃ fy, ((sY).view.loc (V d (cV L) (jV L)) ↦{fullShare} fy) ∗ ⌜AccOK tab adr d L (10 * k.val + 8) fy⌝))
      ⊢ iprop((∀ r, (((slotM 8 inb_S10x20x128_S1x20x128_8_0_0).view.loc (V d (cV L) (jV L)) ↦[(slotM 8 inb_S10x20x128_S1x20x128_8_0_0).view.set]{fullShare} View.write (Elt F) (slotM 8 inb_S10x20x128_S1x20x128_8_0_0).view f0 (gPay tab adr d L hadr ![10 * k.val + 8, 0] hh) Finset.univ)
              ∗ (∃ fy, ((sY).view.loc (V d (cV L) (jV L)) ↦{fullShare} fy) ∗ ⌜AccOK tab adr d L (10 * k.val + 8 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t10_loop k2_t10_ok 0#32
              (k2_t10_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k arg18 v343 v368) >>= kk) Q) := by
  have hk : k.val < 25 := lt_of_lt_of_eq k.isLt trips_t1
  have lt0 : 0 < k2_t10_loop.trips := by rw [trips_t10]; decide
  have lt1 : 1 < k2_t10_loop.trips := by rw [trips_t10]; decide
  have lt2 : 2 < k2_t10_loop.trips := by rw [trips_t10]; decide
  have lt3 : 3 < k2_t10_loop.trips := by rw [trips_t10]; decide
  have lt4 : 4 < k2_t10_loop.trips := by rw [trips_t10]; decide
  have hg := gPay_apply tab adr d L hadr (10 * k.val + 8) (by omega) hh
  iintro ⟨Hs, ⟨%fy, Hy, %hacc⟩⟩ Hk
  sl_unroll trips_t10
  sl_exec
  iapply Hk
  isplitl [Hs]; · iexact Hs
  iexists _
  isplitl [Hy]; · iexact Hy
  ipureintro
  sl_unfold_run_names
  refine accOK_step tab adr d L (10 * k.val + 8) (by omega) fy hacc _ ?_ ?_ ?_
  · -- every store lies in the chunk's own five rows
    exact List.forall_mem_cons.2 ⟨fun y hy => row_of_mem hy _ _ ((10 * k.val + 8) % 50) 4 (by decide) (acc_off_8_4 k ⟨4, lt4⟩) rfl (fun _ => rfl) rfl,
      List.forall_mem_cons.2 ⟨fun y hy => row_of_mem hy _ _ ((10 * k.val + 8) % 50) 4 (by decide) (acc_off_8_3 k ⟨4, lt4⟩) rfl (fun _ => rfl) rfl,
      List.forall_mem_cons.2 ⟨fun y hy => row_of_mem hy _ _ ((10 * k.val + 8) % 50) 4 (by decide) (acc_off_8_2 k ⟨4, lt4⟩) rfl (fun _ => rfl) rfl,
      List.forall_mem_cons.2 ⟨fun y hy => row_of_mem hy _ _ ((10 * k.val + 8) % 50) 4 (by decide) (acc_off_8_1 k ⟨4, lt4⟩) rfl (fun _ => rfl) rfl,
      List.forall_mem_cons.2 ⟨fun y hy => row_of_mem hy _ _ ((10 * k.val + 8) % 50) 4 (by decide) (acc_off_8_0 k ⟨4, lt4⟩) rfl (fun _ => rfl) rfl,
      List.forall_mem_cons.2 ⟨fun y hy => row_of_mem hy _ _ ((10 * k.val + 8) % 50) 3 (by decide) (acc_off_8_4 k ⟨3, lt3⟩) rfl (fun _ => rfl) rfl,
      List.forall_mem_cons.2 ⟨fun y hy => row_of_mem hy _ _ ((10 * k.val + 8) % 50) 3 (by decide) (acc_off_8_3 k ⟨3, lt3⟩) rfl (fun _ => rfl) rfl,
      List.forall_mem_cons.2 ⟨fun y hy => row_of_mem hy _ _ ((10 * k.val + 8) % 50) 3 (by decide) (acc_off_8_2 k ⟨3, lt3⟩) rfl (fun _ => rfl) rfl,
      List.forall_mem_cons.2 ⟨fun y hy => row_of_mem hy _ _ ((10 * k.val + 8) % 50) 3 (by decide) (acc_off_8_1 k ⟨3, lt3⟩) rfl (fun _ => rfl) rfl,
      List.forall_mem_cons.2 ⟨fun y hy => row_of_mem hy _ _ ((10 * k.val + 8) % 50) 3 (by decide) (acc_off_8_0 k ⟨3, lt3⟩) rfl (fun _ => rfl) rfl,
      List.forall_mem_cons.2 ⟨fun y hy => row_of_mem hy _ _ ((10 * k.val + 8) % 50) 2 (by decide) (acc_off_8_4 k ⟨2, lt2⟩) rfl (fun _ => rfl) rfl,
      List.forall_mem_cons.2 ⟨fun y hy => row_of_mem hy _ _ ((10 * k.val + 8) % 50) 2 (by decide) (acc_off_8_3 k ⟨2, lt2⟩) rfl (fun _ => rfl) rfl,
      List.forall_mem_cons.2 ⟨fun y hy => row_of_mem hy _ _ ((10 * k.val + 8) % 50) 2 (by decide) (acc_off_8_2 k ⟨2, lt2⟩) rfl (fun _ => rfl) rfl,
      List.forall_mem_cons.2 ⟨fun y hy => row_of_mem hy _ _ ((10 * k.val + 8) % 50) 2 (by decide) (acc_off_8_1 k ⟨2, lt2⟩) rfl (fun _ => rfl) rfl,
      List.forall_mem_cons.2 ⟨fun y hy => row_of_mem hy _ _ ((10 * k.val + 8) % 50) 2 (by decide) (acc_off_8_0 k ⟨2, lt2⟩) rfl (fun _ => rfl) rfl,
      List.forall_mem_cons.2 ⟨fun y hy => row_of_mem hy _ _ ((10 * k.val + 8) % 50) 1 (by decide) (acc_off_8_4 k ⟨1, lt1⟩) rfl (fun _ => rfl) rfl,
      List.forall_mem_cons.2 ⟨fun y hy => row_of_mem hy _ _ ((10 * k.val + 8) % 50) 1 (by decide) (acc_off_8_3 k ⟨1, lt1⟩) rfl (fun _ => rfl) rfl,
      List.forall_mem_cons.2 ⟨fun y hy => row_of_mem hy _ _ ((10 * k.val + 8) % 50) 1 (by decide) (acc_off_8_2 k ⟨1, lt1⟩) rfl (fun _ => rfl) rfl,
      List.forall_mem_cons.2 ⟨fun y hy => row_of_mem hy _ _ ((10 * k.val + 8) % 50) 1 (by decide) (acc_off_8_1 k ⟨1, lt1⟩) rfl (fun _ => rfl) rfl,
      List.forall_mem_cons.2 ⟨fun y hy => row_of_mem hy _ _ ((10 * k.val + 8) % 50) 1 (by decide) (acc_off_8_0 k ⟨1, lt1⟩) rfl (fun _ => rfl) rfl,
      List.forall_mem_cons.2 ⟨fun y hy => row_of_mem hy _ _ ((10 * k.val + 8) % 50) 0 (by decide) (acc_off_8_4 k ⟨0, lt0⟩) rfl (fun _ => rfl) rfl,
      List.forall_mem_cons.2 ⟨fun y hy => row_of_mem hy _ _ ((10 * k.val + 8) % 50) 0 (by decide) (acc_off_8_3 k ⟨0, lt0⟩) rfl (fun _ => rfl) rfl,
      List.forall_mem_cons.2 ⟨fun y hy => row_of_mem hy _ _ ((10 * k.val + 8) % 50) 0 (by decide) (acc_off_8_2 k ⟨0, lt0⟩) rfl (fun _ => rfl) rfl,
      List.forall_mem_cons.2 ⟨fun y hy => row_of_mem hy _ _ ((10 * k.val + 8) % 50) 0 (by decide) (acc_off_8_1 k ⟨0, lt0⟩) rfl (fun _ => rfl) rfl,
      List.forall_mem_cons.2 ⟨fun y hy => row_of_mem hy _ _ ((10 * k.val + 8) % 50) 0 (by decide) (acc_off_8_0 k ⟨0, lt0⟩) rfl (fun _ => rfl) rfl,
      fun _ h => absurd h List.not_mem_nil⟩⟩⟩⟩⟩⟩⟩⟩⟩⟩⟩⟩⟩⟩⟩⟩⟩⟩⟩⟩⟩⟩⟩⟩⟩
  · -- the stores cover the five rows' eighty lanes: row t, lanes 16 q … 16 q + 15 by the store of group t, lane chunk q
    intro t ht l hl
    have hq5 : l / 16 < 5 := by omega
    rcases (show t = 0 ∨ t = 1 ∨ t = 2 ∨ t = 3 ∨ t = 4 by omega) with rfl | rfl | rfl | rfl | rfl <;>
      rcases (show l / 16 = 0 ∨ l / 16 = 1 ∨ l / 16 = 2 ∨ l / 16 = 3 ∨ l / 16 = 4 by omega) with hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), mem_of_lane _ _ _ ((10 * k.val + 8) % 50) 0 l 0 (acc_off_8_0 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), mem_of_lane _ _ _ ((10 * k.val + 8) % 50) 0 l 1 (acc_off_8_1 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), mem_of_lane _ _ _ ((10 * k.val + 8) % 50) 0 l 2 (acc_off_8_2 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), mem_of_lane _ _ _ ((10 * k.val + 8) % 50) 0 l 3 (acc_off_8_3 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), mem_of_lane _ _ _ ((10 * k.val + 8) % 50) 0 l 4 (acc_off_8_4 k ⟨0, lt0⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), mem_of_lane _ _ _ ((10 * k.val + 8) % 50) 1 l 0 (acc_off_8_0 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), mem_of_lane _ _ _ ((10 * k.val + 8) % 50) 1 l 1 (acc_off_8_1 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), mem_of_lane _ _ _ ((10 * k.val + 8) % 50) 1 l 2 (acc_off_8_2 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), mem_of_lane _ _ _ ((10 * k.val + 8) % 50) 1 l 3 (acc_off_8_3 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_of_lane _ _ _ ((10 * k.val + 8) % 50) 1 l 4 (acc_off_8_4 k ⟨1, lt1⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_of_lane _ _ _ ((10 * k.val + 8) % 50) 2 l 0 (acc_off_8_0 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_of_lane _ _ _ ((10 * k.val + 8) % 50) 2 l 1 (acc_off_8_1 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_of_lane _ _ _ ((10 * k.val + 8) % 50) 2 l 2 (acc_off_8_2 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_of_lane _ _ _ ((10 * k.val + 8) % 50) 2 l 3 (acc_off_8_3 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_of_lane _ _ _ ((10 * k.val + 8) % 50) 2 l 4 (acc_off_8_4 k ⟨2, lt2⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_of_lane _ _ _ ((10 * k.val + 8) % 50) 3 l 0 (acc_off_8_0 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_of_lane _ _ _ ((10 * k.val + 8) % 50) 3 l 1 (acc_off_8_1 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_of_lane _ _ _ ((10 * k.val + 8) % 50) 3 l 2 (acc_off_8_2 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_of_mem _ (List.mem_cons_self)))))), mem_of_lane _ _ _ ((10 * k.val + 8) % 50) 3 l 3 (acc_off_8_3 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_of_mem _ (List.mem_cons_self))))), mem_of_lane _ _ _ ((10 * k.val + 8) % 50) 3 l 4 (acc_off_8_4 k ⟨3, lt3⟩) rfl (fun _ => rfl) rfl rfl (by omega) hl hq⟩
    · exact ⟨_, List.mem_cons_of_mem _ (List.mem_cons_of_mem _ (List.mem_cons_of_mem _ (List.mem_cons_of_mem _ (List.mem_cons_self)))), mem_of_lane _ _ _ ((10 * k.val + 8) % 50) 4 l 0 (acc_off_8_0 k ⟨4, lt4⟩) rfl (fun _ => rfl) rfl rfl (by omega) hl hq⟩
    · exact ⟨_, List.mem_cons_of_mem _ (List.mem_cons_of_mem _ (List.mem_cons_of_mem _ (List.mem_cons_self))), mem_of_lane _ _ _ ((10 * k.val + 8) % 50) 4 l 1 (acc_off_8_1 k ⟨4, lt4⟩) rfl (fun _ => rfl) rfl rfl (by omega) hl hq⟩
    · exact ⟨_, List.mem_cons_of_mem _ (List.mem_cons_of_mem _ (List.mem_cons_self)), mem_of_lane _ _ _ ((10 * k.val + 8) % 50) 4 l 2 (acc_off_8_2 k ⟨4, lt4⟩) rfl (fun _ => rfl) rfl rfl (by omega) hl hq⟩
    · exact ⟨_, List.mem_cons_of_mem _ (List.mem_cons_self), mem_of_lane _ _ _ ((10 * k.val + 8) % 50) 4 l 3 (acc_off_8_3 k ⟨4, lt4⟩) rfl (fun _ => rfl) rfl rfl (by omega) hl hq⟩
    · exact ⟨_, List.mem_cons_self, mem_of_lane _ _ _ ((10 * k.val + 8) % 50) 4 l 4 (acc_off_8_4 k ⟨4, lt4⟩) rfl (fun _ => rfl) rfl rfl (by omega) hl hq⟩
  · -- each store's payload is the chunk's value at its row's group and its lane
    exact List.forall_mem_cons.2 ⟨fun x => piece_val tab adr d L hadr 8 inb_S10x20x128_S1x20x128_8_0_0 (10 * k.val + 8) hh hg f0 _ (k2_off153_inb k ⟨4, lt4⟩) 4 4 (by decide) (by decide) (acc_off_8_4 k ⟨4, lt4⟩) x,
      List.forall_mem_cons.2 ⟨fun x => piece_val tab adr d L hadr 8 inb_S10x20x128_S1x20x128_8_0_0 (10 * k.val + 8) hh hg f0 _ (k2_off150_inb k ⟨4, lt4⟩) 4 3 (by decide) (by decide) (acc_off_8_3 k ⟨4, lt4⟩) x,
      List.forall_mem_cons.2 ⟨fun x => piece_val tab adr d L hadr 8 inb_S10x20x128_S1x20x128_8_0_0 (10 * k.val + 8) hh hg f0 _ (k2_off147_inb k ⟨4, lt4⟩) 4 2 (by decide) (by decide) (acc_off_8_2 k ⟨4, lt4⟩) x,
      List.forall_mem_cons.2 ⟨fun x => piece_val tab adr d L hadr 8 inb_S10x20x128_S1x20x128_8_0_0 (10 * k.val + 8) hh hg f0 _ (k2_off144_inb k ⟨4, lt4⟩) 4 1 (by decide) (by decide) (acc_off_8_1 k ⟨4, lt4⟩) x,
      List.forall_mem_cons.2 ⟨fun x => piece_val tab adr d L hadr 8 inb_S10x20x128_S1x20x128_8_0_0 (10 * k.val + 8) hh hg f0 _ (k2_off141_inb k ⟨4, lt4⟩) 4 0 (by decide) (by decide) (acc_off_8_0 k ⟨4, lt4⟩) x,
      List.forall_mem_cons.2 ⟨fun x => piece_val tab adr d L hadr 8 inb_S10x20x128_S1x20x128_8_0_0 (10 * k.val + 8) hh hg f0 _ (k2_off153_inb k ⟨3, lt3⟩) 3 4 (by decide) (by decide) (acc_off_8_4 k ⟨3, lt3⟩) x,
      List.forall_mem_cons.2 ⟨fun x => piece_val tab adr d L hadr 8 inb_S10x20x128_S1x20x128_8_0_0 (10 * k.val + 8) hh hg f0 _ (k2_off150_inb k ⟨3, lt3⟩) 3 3 (by decide) (by decide) (acc_off_8_3 k ⟨3, lt3⟩) x,
      List.forall_mem_cons.2 ⟨fun x => piece_val tab adr d L hadr 8 inb_S10x20x128_S1x20x128_8_0_0 (10 * k.val + 8) hh hg f0 _ (k2_off147_inb k ⟨3, lt3⟩) 3 2 (by decide) (by decide) (acc_off_8_2 k ⟨3, lt3⟩) x,
      List.forall_mem_cons.2 ⟨fun x => piece_val tab adr d L hadr 8 inb_S10x20x128_S1x20x128_8_0_0 (10 * k.val + 8) hh hg f0 _ (k2_off144_inb k ⟨3, lt3⟩) 3 1 (by decide) (by decide) (acc_off_8_1 k ⟨3, lt3⟩) x,
      List.forall_mem_cons.2 ⟨fun x => piece_val tab adr d L hadr 8 inb_S10x20x128_S1x20x128_8_0_0 (10 * k.val + 8) hh hg f0 _ (k2_off141_inb k ⟨3, lt3⟩) 3 0 (by decide) (by decide) (acc_off_8_0 k ⟨3, lt3⟩) x,
      List.forall_mem_cons.2 ⟨fun x => piece_val tab adr d L hadr 8 inb_S10x20x128_S1x20x128_8_0_0 (10 * k.val + 8) hh hg f0 _ (k2_off153_inb k ⟨2, lt2⟩) 2 4 (by decide) (by decide) (acc_off_8_4 k ⟨2, lt2⟩) x,
      List.forall_mem_cons.2 ⟨fun x => piece_val tab adr d L hadr 8 inb_S10x20x128_S1x20x128_8_0_0 (10 * k.val + 8) hh hg f0 _ (k2_off150_inb k ⟨2, lt2⟩) 2 3 (by decide) (by decide) (acc_off_8_3 k ⟨2, lt2⟩) x,
      List.forall_mem_cons.2 ⟨fun x => piece_val tab adr d L hadr 8 inb_S10x20x128_S1x20x128_8_0_0 (10 * k.val + 8) hh hg f0 _ (k2_off147_inb k ⟨2, lt2⟩) 2 2 (by decide) (by decide) (acc_off_8_2 k ⟨2, lt2⟩) x,
      List.forall_mem_cons.2 ⟨fun x => piece_val tab adr d L hadr 8 inb_S10x20x128_S1x20x128_8_0_0 (10 * k.val + 8) hh hg f0 _ (k2_off144_inb k ⟨2, lt2⟩) 2 1 (by decide) (by decide) (acc_off_8_1 k ⟨2, lt2⟩) x,
      List.forall_mem_cons.2 ⟨fun x => piece_val tab adr d L hadr 8 inb_S10x20x128_S1x20x128_8_0_0 (10 * k.val + 8) hh hg f0 _ (k2_off141_inb k ⟨2, lt2⟩) 2 0 (by decide) (by decide) (acc_off_8_0 k ⟨2, lt2⟩) x,
      List.forall_mem_cons.2 ⟨fun x => piece_val tab adr d L hadr 8 inb_S10x20x128_S1x20x128_8_0_0 (10 * k.val + 8) hh hg f0 _ (k2_off153_inb k ⟨1, lt1⟩) 1 4 (by decide) (by decide) (acc_off_8_4 k ⟨1, lt1⟩) x,
      List.forall_mem_cons.2 ⟨fun x => piece_val tab adr d L hadr 8 inb_S10x20x128_S1x20x128_8_0_0 (10 * k.val + 8) hh hg f0 _ (k2_off150_inb k ⟨1, lt1⟩) 1 3 (by decide) (by decide) (acc_off_8_3 k ⟨1, lt1⟩) x,
      List.forall_mem_cons.2 ⟨fun x => piece_val tab adr d L hadr 8 inb_S10x20x128_S1x20x128_8_0_0 (10 * k.val + 8) hh hg f0 _ (k2_off147_inb k ⟨1, lt1⟩) 1 2 (by decide) (by decide) (acc_off_8_2 k ⟨1, lt1⟩) x,
      List.forall_mem_cons.2 ⟨fun x => piece_val tab adr d L hadr 8 inb_S10x20x128_S1x20x128_8_0_0 (10 * k.val + 8) hh hg f0 _ (k2_off144_inb k ⟨1, lt1⟩) 1 1 (by decide) (by decide) (acc_off_8_1 k ⟨1, lt1⟩) x,
      List.forall_mem_cons.2 ⟨fun x => piece_val tab adr d L hadr 8 inb_S10x20x128_S1x20x128_8_0_0 (10 * k.val + 8) hh hg f0 _ (k2_off141_inb k ⟨1, lt1⟩) 1 0 (by decide) (by decide) (acc_off_8_0 k ⟨1, lt1⟩) x,
      List.forall_mem_cons.2 ⟨fun x => piece_val tab adr d L hadr 8 inb_S10x20x128_S1x20x128_8_0_0 (10 * k.val + 8) hh hg f0 _ (k2_off153_inb k ⟨0, lt0⟩) 0 4 (by decide) (by decide) (acc_off_8_4 k ⟨0, lt0⟩) x,
      List.forall_mem_cons.2 ⟨fun x => piece_val tab adr d L hadr 8 inb_S10x20x128_S1x20x128_8_0_0 (10 * k.val + 8) hh hg f0 _ (k2_off150_inb k ⟨0, lt0⟩) 0 3 (by decide) (by decide) (acc_off_8_3 k ⟨0, lt0⟩) x,
      List.forall_mem_cons.2 ⟨fun x => piece_val tab adr d L hadr 8 inb_S10x20x128_S1x20x128_8_0_0 (10 * k.val + 8) hh hg f0 _ (k2_off147_inb k ⟨0, lt0⟩) 0 2 (by decide) (by decide) (acc_off_8_2 k ⟨0, lt0⟩) x,
      List.forall_mem_cons.2 ⟨fun x => piece_val tab adr d L hadr 8 inb_S10x20x128_S1x20x128_8_0_0 (10 * k.val + 8) hh hg f0 _ (k2_off144_inb k ⟨0, lt0⟩) 0 1 (by decide) (by decide) (acc_off_8_1 k ⟨0, lt0⟩) x,
      List.forall_mem_cons.2 ⟨fun x => piece_val tab adr d L hadr 8 inb_S10x20x128_S1x20x128_8_0_0 (10 * k.val + 8) hh hg f0 _ (k2_off141_inb k ⟨0, lt0⟩) 0 0 (by decide) (by decide) (acc_off_8_0 k ⟨0, lt0⟩) x,
      fun _ h => absurd h List.not_mem_nil⟩⟩⟩⟩⟩⟩⟩⟩⟩⟩⟩⟩⟩⟩⟩⟩⟩⟩⟩⟩⟩⟩⟩⟩⟩

end Cert.Proof.KI.Sc

end
-- ==== Proof.ScSlot9.lean ====
/-
  The accumulation of one landed chunk, slot 9.
-/
import proofs.«207241_g55714315764006_cont_9to1c4b_410_29_alg».proof.Proof.ScDefs
import proofs.«207241_g55714315764006_cont_9to1c4b_410_29_alg».proof.Proof.ScPieces
import proofs.«207241_g55714315764006_cont_9to1c4b_410_29_alg».proof.Proof.ScPiece
import proofs.«207241_g55714315764006_cont_9to1c4b_410_29_alg».proof.Proof.ScGPay

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]
variable (d : Dev nD) (L : grid2.Coords)

/-- A store at row (c mod 50) · 5 + t, lanes 16 q …, whose payload is the chunk's value there, is the piece the list of
    stores has at (t, q). -/
theorem pieceAt_mk9 (c : ℕ) (off : Fin 2 → ℕ) (h : ∀ a, off a + S1x16.size a ≤ S250x80.size a)
    (pay : (Rect.unit (s := S250x80) off S1x16.size h).shape.Idx → Elt F .f32) (t q : ℕ)
    (hoff : off = ![(c % 50) * 5 + t, 16 * q])
    (hval : ∀ x, pay x = gvalN tab adr d L c (((Rect.unit (s := S250x80) off S1x16.size h).emb x 0).val - (c % 50) * 5)
      (((Rect.unit (s := S250x80) off S1x16.size h).emb x 1).val)) :
    PieceAt tab adr d L c ⟨Rect.unit (s := S250x80) off S1x16.size h, pay⟩ (t, q) :=
  ⟨off, h, pay, hoff, rfl, hval⟩

set_option maxHeartbeats 4000000 in
/-- Slot 9's chunk `10 k + 9`, landed, is accumulated: the loop of five groups of four rows, five lane chunks each,
    reads the slot and stores the sums into the chunk's five rows of the accumulation scratch. -/
theorem accLoop9 (hadr : AdrOK adr) (k : Fin k2_t1_loop.trips) (v379 v404 : BitVec 32)
    (f0 : Buf (Elt F) ((sR).view.loc (V d (cV L) (jV L)))) (hh : ∀ a, (![10 * k.val + 9, 0] : Fin 2 → ℕ) a + S1x20.size a ≤ S250x20.size a)
    {α : Type} (kk : BitVec 32 → Prog (TpuEff nD τ sig (Elt F) Λ₀ (.scVector (cV L) (jV L))) α) (Q : α → sProp 𝕄) :
    iprop(((slotM 9 inb_S10x20x128_S1x20x128_9_0_0).view.loc (V d (cV L) (jV L)) ↦[(slotM 9 inb_S10x20x128_S1x20x128_9_0_0).view.set]{fullShare} View.write (Elt F) (slotM 9 inb_S10x20x128_S1x20x128_9_0_0).view f0 (gPay tab adr d L hadr ![10 * k.val + 9, 0] hh) Finset.univ)
        ∗ (∃ fy, ((sY).view.loc (V d (cV L) (jV L)) ↦{fullShare} fy) ∗ ⌜AccOK tab adr d L (10 * k.val + 9) fy⌝))
      ⊢ iprop((∀ r, (((slotM 9 inb_S10x20x128_S1x20x128_9_0_0).view.loc (V d (cV L) (jV L)) ↦[(slotM 9 inb_S10x20x128_S1x20x128_9_0_0).view.set]{fullShare} View.write (Elt F) (slotM 9 inb_S10x20x128_S1x20x128_9_0_0).view f0 (gPay tab adr d L hadr ![10 * k.val + 9, 0] hh) Finset.univ)
              ∗ (∃ fy, ((sY).view.loc (V d (cV L) (jV L)) ↦{fullShare} fy) ∗ ⌜AccOK tab adr d L (10 * k.val + 9 + 1) fy⌝))
            -∗ wp frame (wpE (defs₀ (F := F)) 𝒱₀ (V d (cV L) (jV L)) none) Set.univ (kk r) Q)
        -∗ wp frame (wpE (defs₀ (F := F)) 𝒱₀ (V d (cV L) (jV L)) none) Set.univ
          (Scf.Loop.for k2_t11_loop k2_t11_ok 0#32
              (k2_t11_body L tV (Memref.isWhole_whole _) aV (Memref.isWhole_whole _) oV (Memref.isWhole_whole _)
                sA (Memref.isWhole_whole _) sR (Memref.isWhole_whole _) sY (Memref.isWhole_whole _)
                cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10 k v379 v404) >>= kk) Q) := by
  have hk : k.val < 25 := lt_of_lt_of_eq k.isLt trips_t1
  have hg := fun (j : Fin 20) (l : Fin 128) => gPay_apply tab adr d L hadr (10 * k.val + 9) (by omega) hh j l
  iintro ⟨Hs, ⟨%fy, Hy, %hacc⟩⟩ Hk
  sl_unroll trips_t11
  sl_exec
  iapply Hk
  isplitl [Hs]; · iexact Hs
  iexists _; isplitl [Hy]; · iexact Hy
  ipureintro
  sl_unfold_run_names
  refine accOK_of_pieces tab adr d L (10 * k.val + 9) (by omega) fy hacc _ ?_
  refine List.Forall₂.cons (pieceAt_mk9 tab adr d L (10 * k.val + 9) _ _ _ 4 4 (acc_off_9_4 k _)
    (fun x => piece_val tab adr d L hadr 9 inb_S10x20x128_S1x20x128_9_0_0 (10 * k.val + 9) hh hg f0 _ _ 4 4 (by decide) (by decide) (acc_off_9_4 k _) x)) ?_
  refine List.Forall₂.cons (pieceAt_mk9 tab adr d L (10 * k.val + 9) _ _ _ 4 3 (acc_off_9_3 k _)
    (fun x => piece_val tab adr d L hadr 9 inb_S10x20x128_S1x20x128_9_0_0 (10 * k.val + 9) hh hg f0 _ _ 4 3 (by decide) (by decide) (acc_off_9_3 k _) x)) ?_
  refine List.Forall₂.cons (pieceAt_mk9 tab adr d L (10 * k.val + 9) _ _ _ 4 2 (acc_off_9_2 k _)
    (fun x => piece_val tab adr d L hadr 9 inb_S10x20x128_S1x20x128_9_0_0 (10 * k.val + 9) hh hg f0 _ _ 4 2 (by decide) (by decide) (acc_off_9_2 k _) x)) ?_
  refine List.Forall₂.cons (pieceAt_mk9 tab adr d L (10 * k.val + 9) _ _ _ 4 1 (acc_off_9_1 k _)
    (fun x => piece_val tab adr d L hadr 9 inb_S10x20x128_S1x20x128_9_0_0 (10 * k.val + 9) hh hg f0 _ _ 4 1 (by decide) (by decide) (acc_off_9_1 k _) x)) ?_
  refine List.Forall₂.cons (pieceAt_mk9 tab adr d L (10 * k.val + 9) _ _ _ 4 0 (acc_off_9_0 k _)
    (fun x => piece_val tab adr d L hadr 9 inb_S10x20x128_S1x20x128_9_0_0 (10 * k.val + 9) hh hg f0 _ _ 4 0 (by decide) (by decide) (acc_off_9_0 k _) x)) ?_
  refine List.Forall₂.cons (pieceAt_mk9 tab adr d L (10 * k.val + 9) _ _ _ 3 4 (acc_off_9_4 k _)
    (fun x => piece_val tab adr d L hadr 9 inb_S10x20x128_S1x20x128_9_0_0 (10 * k.val + 9) hh hg f0 _ _ 3 4 (by decide) (by decide) (acc_off_9_4 k _) x)) ?_
  refine List.Forall₂.cons (pieceAt_mk9 tab adr d L (10 * k.val + 9) _ _ _ 3 3 (acc_off_9_3 k _)
    (fun x => piece_val tab adr d L hadr 9 inb_S10x20x128_S1x20x128_9_0_0 (10 * k.val + 9) hh hg f0 _ _ 3 3 (by decide) (by decide) (acc_off_9_3 k _) x)) ?_
  refine List.Forall₂.cons (pieceAt_mk9 tab adr d L (10 * k.val + 9) _ _ _ 3 2 (acc_off_9_2 k _)
    (fun x => piece_val tab adr d L hadr 9 inb_S10x20x128_S1x20x128_9_0_0 (10 * k.val + 9) hh hg f0 _ _ 3 2 (by decide) (by decide) (acc_off_9_2 k _) x)) ?_
  refine List.Forall₂.cons (pieceAt_mk9 tab adr d L (10 * k.val + 9) _ _ _ 3 1 (acc_off_9_1 k _)
    (fun x => piece_val tab adr d L hadr 9 inb_S10x20x128_S1x20x128_9_0_0 (10 * k.val + 9) hh hg f0 _ _ 3 1 (by decide) (by decide) (acc_off_9_1 k _) x)) ?_
  refine List.Forall₂.cons (pieceAt_mk9 tab adr d L (10 * k.val + 9) _ _ _ 3 0 (acc_off_9_0 k _)
    (fun x => piece_val tab adr d L hadr 9 inb_S10x20x128_S1x20x128_9_0_0 (10 * k.val + 9) hh hg f0 _ _ 3 0 (by decide) (by decide) (acc_off_9_0 k _) x)) ?_
  refine List.Forall₂.cons (pieceAt_mk9 tab adr d L (10 * k.val + 9) _ _ _ 2 4 (acc_off_9_4 k _)
    (fun x => piece_val tab adr d L hadr 9 inb_S10x20x128_S1x20x128_9_0_0 (10 * k.val + 9) hh hg f0 _ _ 2 4 (by decide) (by decide) (acc_off_9_4 k _) x)) ?_
  refine List.Forall₂.cons (pieceAt_mk9 tab adr d L (10 * k.val + 9) _ _ _ 2 3 (acc_off_9_3 k _)
    (fun x => piece_val tab adr d L hadr 9 inb_S10x20x128_S1x20x128_9_0_0 (10 * k.val + 9) hh hg f0 _ _ 2 3 (by decide) (by decide) (acc_off_9_3 k _) x)) ?_
  refine List.Forall₂.cons (pieceAt_mk9 tab adr d L (10 * k.val + 9) _ _ _ 2 2 (acc_off_9_2 k _)
    (fun x => piece_val tab adr d L hadr 9 inb_S10x20x128_S1x20x128_9_0_0 (10 * k.val + 9) hh hg f0 _ _ 2 2 (by decide) (by decide) (acc_off_9_2 k _) x)) ?_
  refine List.Forall₂.cons (pieceAt_mk9 tab adr d L (10 * k.val + 9) _ _ _ 2 1 (acc_off_9_1 k _)
    (fun x => piece_val tab adr d L hadr 9 inb_S10x20x128_S1x20x128_9_0_0 (10 * k.val + 9) hh hg f0 _ _ 2 1 (by decide) (by decide) (acc_off_9_1 k _) x)) ?_
  refine List.Forall₂.cons (pieceAt_mk9 tab adr d L (10 * k.val + 9) _ _ _ 2 0 (acc_off_9_0 k _)
    (fun x => piece_val tab adr d L hadr 9 inb_S10x20x128_S1x20x128_9_0_0 (10 * k.val + 9) hh hg f0 _ _ 2 0 (by decide) (by decide) (acc_off_9_0 k _) x)) ?_
  refine List.Forall₂.cons (pieceAt_mk9 tab adr d L (10 * k.val + 9) _ _ _ 1 4 (acc_off_9_4 k _)
    (fun x => piece_val tab adr d L hadr 9 inb_S10x20x128_S1x20x128_9_0_0 (10 * k.val + 9) hh hg f0 _ _ 1 4 (by decide) (by decide) (acc_off_9_4 k _) x)) ?_
  refine List.Forall₂.cons (pieceAt_mk9 tab adr d L (10 * k.val + 9) _ _ _ 1 3 (acc_off_9_3 k _)
    (fun x => piece_val tab adr d L hadr 9 inb_S10x20x128_S1x20x128_9_0_0 (10 * k.val + 9) hh hg f0 _ _ 1 3 (by decide) (by decide) (acc_off_9_3 k _) x)) ?_
  refine List.Forall₂.cons (pieceAt_mk9 tab adr d L (10 * k.val + 9) _ _ _ 1 2 (acc_off_9_2 k _)
    (fun x => piece_val tab adr d L hadr 9 inb_S10x20x128_S1x20x128_9_0_0 (10 * k.val + 9) hh hg f0 _ _ 1 2 (by decide) (by decide) (acc_off_9_2 k _) x)) ?_
  refine List.Forall₂.cons (pieceAt_mk9 tab adr d L (10 * k.val + 9) _ _ _ 1 1 (acc_off_9_1 k _)
    (fun x => piece_val tab adr d L hadr 9 inb_S10x20x128_S1x20x128_9_0_0 (10 * k.val + 9) hh hg f0 _ _ 1 1 (by decide) (by decide) (acc_off_9_1 k _) x)) ?_
  refine List.Forall₂.cons (pieceAt_mk9 tab adr d L (10 * k.val + 9) _ _ _ 1 0 (acc_off_9_0 k _)
    (fun x => piece_val tab adr d L hadr 9 inb_S10x20x128_S1x20x128_9_0_0 (10 * k.val + 9) hh hg f0 _ _ 1 0 (by decide) (by decide) (acc_off_9_0 k _) x)) ?_
  refine List.Forall₂.cons (pieceAt_mk9 tab adr d L (10 * k.val + 9) _ _ _ 0 4 (acc_off_9_4 k _)
    (fun x => piece_val tab adr d L hadr 9 inb_S10x20x128_S1x20x128_9_0_0 (10 * k.val + 9) hh hg f0 _ _ 0 4 (by decide) (by decide) (acc_off_9_4 k _) x)) ?_
  refine List.Forall₂.cons (pieceAt_mk9 tab adr d L (10 * k.val + 9) _ _ _ 0 3 (acc_off_9_3 k _)
    (fun x => piece_val tab adr d L hadr 9 inb_S10x20x128_S1x20x128_9_0_0 (10 * k.val + 9) hh hg f0 _ _ 0 3 (by decide) (by decide) (acc_off_9_3 k _) x)) ?_
  refine List.Forall₂.cons (pieceAt_mk9 tab adr d L (10 * k.val + 9) _ _ _ 0 2 (acc_off_9_2 k _)
    (fun x => piece_val tab adr d L hadr 9 inb_S10x20x128_S1x20x128_9_0_0 (10 * k.val + 9) hh hg f0 _ _ 0 2 (by decide) (by decide) (acc_off_9_2 k _) x)) ?_
  refine List.Forall₂.cons (pieceAt_mk9 tab adr d L (10 * k.val + 9) _ _ _ 0 1 (acc_off_9_1 k _)
    (fun x => piece_val tab adr d L hadr 9 inb_S10x20x128_S1x20x128_9_0_0 (10 * k.val + 9) hh hg f0 _ _ 0 1 (by decide) (by decide) (acc_off_9_1 k _) x)) ?_
  refine List.Forall₂.cons (pieceAt_mk9 tab adr d L (10 * k.val + 9) _ _ _ 0 0 (acc_off_9_0 k _)
    (fun x => piece_val tab adr d L hadr 9 inb_S10x20x128_S1x20x128_9_0_0 (10 * k.val + 9) hh hg f0 _ _ 0 0 (by decide) (by decide) (acc_off_9_0 k _) x)) ?_
  exact List.Forall₂.nil

end Cert.Proof.KI.Sc

end
-- ==== Proof.ScAccPure.lean ====
/-
  One step of the accumulation. The tile writes chunk c's five rows of eighty lanes at rows
  (c mod 50) · 5 … (c mod 50) · 5 + 4 of its accumulation scratch and leaves the other rows as they
  were. If before the step every earlier chunk of the part the previous chunk lies in had its rows
  at the value, then after it every chunk up to c of the part c lies in has: an earlier chunk of
  c's part has a smaller residue modulo 50, so its rows lie below the rows written and were kept;
  and it lies in the previous chunk's part as well, so it had its rows at the value. When c opens a
  new part (c mod 50 = 0) there is no earlier chunk in it and only the new rows are asked for.
-/
import proofs.«207241_g55714315764006_cont_9to1c4b_410_29_alg».proof.Proof.ScDefs

noncomputable section

namespace Cert.Proof.KI.Sc

open Cert.KernelIdeal Cert.KernelIdeal.Gen Cert.Proof.KI
open Idealize.ShloMosaic
open Idealize.ShloMosaic.SparseCore (S V T)
open Idealize.SL.Sem

variable {F : FTy → Type} [FloatOps F]
variable (tab : (d : Dev nD) → Buf (Elt F) (tLoc d)) (adr : (d : Dev nD) → Buf (Elt F) (aLoc d))
variable (d : Dev nD) (L : grid2.Coords)

/-- Before the first chunk nothing is asked. -/
theorem AccOK_zero (fy : Buf (Elt F) ((sY).view.loc (V d (cV L) (jV L)))) : AccOK tab adr d L 0 fy :=
  fun c hc => absurd hc (Nat.not_lt_zero c)

/-- The step, from the least that is needed of the rows kept: the rows below the ones written, at
    the eighty lanes. -/
theorem AccOK_step_of_below (c : ℕ) (fy fy' : Buf (Elt F) ((sY).view.loc (V d (cV L) (jV L))))
    (hold : AccOK tab adr d L c fy)
    (hnew : ∀ t, t < 5 → ∀ l, l < 80 → fy' (yIx ((c % 50) * 5 + t) l) = gvalN tab adr d L c t l)
    (hkeep : ∀ r l, r < (c % 50) * 5 → l < 80 → fy' (yIx r l) = fy (yIx r l)) :
    AccOK tab adr d L (c + 1) fy' := by
  intro c' hc' hpart t ht l hl
  rcases Nat.lt_or_ge c' c with hlt | hge
  · rw [hkeep ((c' % 50) * 5 + t) l (by omega) hl]
    exact hold c' hlt (by omega) t ht l hl
  · obtain rfl : c' = c := by omega
    exact hnew t ht l hl

/-- The step: chunk c's rows written at the value, every other row kept. -/
theorem AccOK_step (c : ℕ) (hc : c < 250) (fy fy' : Buf (Elt F) ((sY).view.loc (V d (cV L) (jV L))))
    (hold : AccOK tab adr d L c fy)
    (hnew : ∀ t, t < 5 → ∀ l, l < 80 → fy' (yIx ((c % 50) * 5 + t) l) = gvalN tab adr d L c t l)
    (hkeep : ∀ r l, (r < (c % 50) * 5 ∨ (c % 50) * 5 + 5 ≤ r) → fy' (yIx r l) = fy (yIx r l)) :
    AccOK tab adr d L (c + 1) fy' :=
  AccOK_step_of_below tab adr d L c fy fy' hold hnew fun r l hr _ => hkeep r l (Or.inl hr)

/-- The same with the rows kept asked only inside the scratch: rows below 250, the eighty lanes. -/
theorem AccOK_step_inb (c : ℕ) (hc : c < 250) (fy fy' : Buf (Elt F) ((sY).view.loc (V d (cV L) (jV L))))
    (hold : AccOK tab adr d L c fy)
    (hnew : ∀ t, t < 5 → ∀ l, l < 80 → fy' (yIx ((c % 50) * 5 + t) l) = gvalN tab adr d L c t l)
    (hkeep : ∀ r, r < 250 → ∀ l, l < 80 → (r < (c % 50) * 5 ∨ (c % 50) * 5 + 5 ≤ r) → fy' (yIx r l) = fy (yIx r l)) :
    AccOK tab adr d L (c + 1) fy' :=
  AccOK_step_of_below tab adr d L c fy fy' hold hnew fun r l hr hl => hkeep r (by omega) l hl (Or.inl hr)

/-- After the fiftieth chunk of part p the whole scratch is at the value: row r holds group r mod 5
    of chunk 50 p + r div 5. -/
theorem AccOK_full (p : ℕ) (fy : Buf (Elt F) ((sY).view.loc (V d (cV L) (jV L))))
    (h : AccOK tab adr d L (50 * p + 50) fy) (r : ℕ) (hr : r < 250) (l : ℕ) (hl : l < 80) :
    fy (yIx r l) = gvalN tab adr d L (50 * p + r / 5) (r % 5) l := by
  have h1 := h (50 * p + r / 5) (by omega) (by omega) (r % 5) (by omega) l hl
  have h2 : ((50 * p + r / 5) % 50) * 5 + r % 5 = r := by omega
  rw [h2] at h1
  exact h1

end Cert.Proof.KI.Sc

end
-- ==== Proof.ScOutStep.lean ====
/-
  One copy-out of the accumulation scratch. After every fiftieth chunk the tile copies its 250
  accumulated rows of 80 lanes to one part of its slab of the output: part p after chunk 50 p + 49.
  The part's index (r, l) sits at (worker, p, r, l) of the output. If the scratch holds, at every row
  r and lane l, group r mod 5 of chunk 50 p + r div 5 at lane l, and the parts below p of the slab were
  at the output's value, then after the copy the parts below p + 1 are: the copy leaves the other
  parts alone, and at (worker, p, r, l) the output's value is by definition that group of that chunk.
-/
import proofs.«207241_g55714315764006_cont_9to1c4b_410_29_alg».proof.Proof.ScDefs
import proofs.«207241_g55714315764006_cont_9to1c4b_410_29_alg».proof.Proof.ScAccPure

noncomputable section

namespace Cert.Proof.KI.Sc

open Cert.KernelIdeal Cert.KernelIdeal.Gen Cert.Proof.KI
open Idealize.ShloMosaic
open Idealize.ShloMosaic.SparseCore (S V T)
open Idealize.SL.Sem

/-! ## The part of the output one copy-out writes -/

section Part
variable (L : grid2.Coords)

/-- The part of the output the copy-out after chunk 10 k + 9 writes, as the program slices it. -/
abbrev oPartK (k : Fin k2_t1_loop.trips) (h : k2_cond19 k = 1#1) : Memref sig .scVector .hbm S250x80 .f32 :=
  ((oV : Memref sig .scVector .hbm S32x5x250x80 .f32).slice (Rect.unit (s := S32x5x250x80) (k2_off171 L k) S1x1x250x80.size (k2_off171_inb L k h)) (fun _ => rfl)).squeeze S250x80 squeezes_S1x1x250x80_S250x80

/-- It lies in the tile's slab of the output: the same leading index, one of the slab's five parts, all of its rows and lanes. -/
theorem oPart_subset (k : Fin k2_t1_loop.trips) (h : k2_cond19 k = 1#1) : (oPartK L k h).view.set ⊆ oSet (wL L) := by
  show (((oV : Memref sig .scVector .hbm S32x5x250x80 .f32).view.slice (Rect.unit (s := S32x5x250x80) (k2_off171 L k) S1x1x250x80.size (k2_off171_inb L k h))).reshape S250x80 squeezes_S1x1x250x80_S250x80.numel_eq).set
    ⊆ ((oV : Memref sig .scVector .hbm S32x5x250x80 .f32).view.slice (oSlab (wL L))).set
  rw [View.set_reshape, View.set_slice, View.set_slice]
  refine Finset.map_subset_map.mpr (Rect.set_subset_of_span _ _ (fun _ => rfl) fun a => ?_)
  have hin := k2_off171_inb L k h a
  rw [k2_off171_eq] at hin
  simp only [Rect.off_unit, Rect.size_unit, Rect.stride_unit]
  rw [k2_off171_eq]
  have hw : (wL L).val = 2 * (L 1).val + (L 0).val := rfl
  match a with
  | ⟨0, _⟩ =>
    show (wL L).val * 1 ≤ 2 * (L 1).val + (L 0).val ∧ 2 * (L 1).val + (L 0).val + 1 * 1 ≤ (wL L).val * 1 + 1 + (1 - 1)
    omega
  | ⟨1, _⟩ =>
    have hin' : (10 * k.val + 9) / 50 + 1 ≤ 5 := hin
    show 0 * 5 ≤ (10 * k.val + 9) / 50 ∧ (10 * k.val + 9) / 50 + 1 * 1 ≤ 0 * 5 + 5 + (1 - 1)
    omega
  | ⟨2, _⟩ =>
    show 0 * 250 ≤ 0 ∧ 0 + 1 * 250 ≤ 0 * 250 + 250 + (1 - 1)
    omega
  | ⟨3, _⟩ =>
    show 0 * 80 ≤ 0 ∧ 0 + 1 * 80 ≤ 0 * 80 + 80 + (1 - 1)
    omega

/-- An element of worker w's slab has w for its leading coordinate. -/
theorem fst_of_mem_oSet (w : Fin 32) (x : S32x5x250x80.Idx) (hx : x ∈ oSet w) : (x 0).val = w.val := by
  have hx' : x ∈ ((oV : Memref sig .scVector .hbm S32x5x250x80 .f32).view.slice (oSlab w)).set := hx
  rw [View.set_slice, Finset.mem_map] at hx'
  obtain ⟨j, hj, rfl⟩ := hx'
  have h0 := (Rect.mem_set_unit.mp hj) 0
  have h0' : w.val * 1 ≤ (j 0).val ∧ (j 0).val < w.val * 1 + 1 := h0
  show (j 0).val = w.val
  omega

/-- An element of the part written after chunk 10 k + 9 has (10 k + 9) div 50 for its second coordinate. -/
theorem snd_of_mem_oPart (k : Fin k2_t1_loop.trips) (h : k2_cond19 k = 1#1) (x : S32x5x250x80.Idx)
    (hx : x ∈ (oPartK L k h).view.set) : (x 1).val = (10 * k.val + 9) / 50 := by
  have hx' : x ∈ (((oV : Memref sig .scVector .hbm S32x5x250x80 .f32).view.slice (Rect.unit (s := S32x5x250x80) (k2_off171 L k) S1x1x250x80.size (k2_off171_inb L k h))).reshape S250x80 squeezes_S1x1x250x80_S250x80.numel_eq).set := hx
  rw [View.set_reshape, View.set_slice, Finset.mem_map] at hx'
  obtain ⟨j, hj, rfl⟩ := hx'
  have h1 := (Rect.mem_set_unit.mp hj) 1
  rw [k2_off171_eq] at h1
  have h1' : (10 * k.val + 9) / 50 ≤ (j 1).val ∧ (j 1).val < (10 * k.val + 9) / 50 + 1 := h1
  show (j 1).val = (10 * k.val + 9) / 50
  omega

/-- The index (r, l) of the part behind two unit axes. -/
def y4 (y : S250x80.Idx) : S1x1x250x80.Idx :=
  fun | 0 => ⟨0, by decide⟩ | 1 => ⟨0, by decide⟩ | 2 => y 0 | 3 => y 1 | ⟨_ + 4, h⟩ => absurd h (Nat.not_lt.2 (Nat.le_add_left _ _))

/-- Dropping the two unit axes matches (r, l) with (0, 0, r, l): the same row-major position. -/
theorem reshape_y4 (y : S250x80.Idx) :
    Shape.reshapeEquiv squeezes_S1x1x250x80_S250x80.numel_eq y = y4 y :=
  Shape.reshapeEquiv_eq_of_rowMajor _ (by
    rw [Shape.rowMajor_val_four, Shape.rowMajor_val_two]
    show ((0 * 1 + 0) * 250 + (y 0).val) * 80 + (y 1).val = (y 0).val * 80 + (y 1).val
    omega)

/-- Where the part's index (r, l) sits in the output: at (worker, (10 k + 9) div 50, r, l). -/
theorem oPart_emb_val (k : Fin k2_t1_loop.trips) (h : k2_cond19 k = 1#1) (y : S250x80.Idx) (a : Fin 4) :
    (((oPartK L k h).view.emb y : S32x5x250x80.Idx) a).val
      = (![2 * (L 1).val + (L 0).val, (10 * k.val + 9) / 50, (y 0).val, (y 1).val] : Fin 4 → ℕ) a := by
  show (((Rect.unit (s := S32x5x250x80) (k2_off171 L k) S1x1x250x80.size (k2_off171_inb L k h)).emb
      (Shape.reshapeEquiv squeezes_S1x1x250x80_S250x80.numel_eq y) a : Fin _) : ℕ) = _
  rw [Rect.emb_apply, reshape_y4]
  simp only [Rect.off_unit, Rect.stride_unit]
  rw [congrFun (k2_off171_eq L k) a]
  match a with
  | ⟨0, _⟩ => show 2 * (L 1).val + (L 0).val + 1 * 0 = 2 * (L 1).val + (L 0).val; omega
  | ⟨1, _⟩ => show (10 * k.val + 9) / 50 + 1 * 0 = (10 * k.val + 9) / 50; omega
  | ⟨2, _⟩ => show 0 + 1 * (y 0).val = (y 0).val; omega
  | ⟨3, _⟩ => show 0 + 1 * (y 1).val = (y 1).val; omega

end Part

/-! ## The output's value at an element of the slab, and the step -/

variable {F : FTy → Type} [FloatOps F]
variable (tab : (d : Dev nD) → Buf (Elt F) (tLoc d)) (adr : (d : Dev nD) → Buf (Elt F) (aLoc d))
variable (d : Dev nD) (L : grid2.Coords)

/-- In range the reductions modulo the extents are identities: lane l of the row that word j of
    chunk c names. -/
theorem rowN_eq (c j l : ℕ) (hc : c < 250) (hj : j < 20) (hl : l < 128) :
    rowN tab adr d L c j l = rowAt tab adr d (wL L) ⟨c, hc⟩ ⟨j, hj⟩ ⟨l, hl⟩ := by
  have e1 : (⟨c % 250, Nat.mod_lt _ (by decide)⟩ : Fin 250) = ⟨c, hc⟩ := Fin.ext (Nat.mod_eq_of_lt hc)
  have e2 : (⟨j % 20, Nat.mod_lt _ (by decide)⟩ : Fin 20) = ⟨j, hj⟩ := Fin.ext (Nat.mod_eq_of_lt hj)
  have e3 : (⟨l % 128, Nat.mod_lt _ (by decide)⟩ : Fin 128) = ⟨l, hl⟩ := Fin.ext (Nat.mod_eq_of_lt hl)
  unfold rowN
  rw [e1, e2, e3]

/-- The output's value at an element (w, p, r, l) of the tile's slab is group r mod 5 of chunk
    50 p + r div 5 at lane l. -/
theorem gathered_eq (x : Idx (oLoc d)) (hx : x ∈ oSet (wL L)) :
    gathered tab adr d x
      = gvalN tab adr d L (50 * (x 1).val + (x 2).val / 5) ((x 2).val % 5) (x 3).val := by
  have hp : (x 1).val < 5 := (x 1).isLt
  have hr : (x 2).val < 250 := (x 2).isLt
  have hl : (x 3).val < 80 := (x 3).isLt
  have hw : x 0 = wL L := Fin.ext (fst_of_mem_oSet (wL L) x hx)
  unfold gvalN
  rw [rowN_eq tab adr d L _ (4 * ((x 2).val % 5)) _ (by omega) (by omega) (by omega),
    rowN_eq tab adr d L _ (4 * ((x 2).val % 5) + 1) _ (by omega) (by omega) (by omega),
    rowN_eq tab adr d L _ (4 * ((x 2).val % 5) + 2) _ (by omega) (by omega) (by omega),
    rowN_eq tab adr d L _ (4 * ((x 2).val % 5) + 3) _ (by omega) (by omega) (by omega), ← hw]
  rfl

/-- The tile's slab of the output has its parts below p at the value. -/
def OutOK (p : ℕ) (fo : Buf (Elt F) (oLoc d)) : Prop :=
  ∀ x : Idx (oLoc d), x ∈ oSet (wL L) → (x 1).val < p → fo x = gathered tab adr d x

/-- Before the first copy-out nothing is asked. -/
theorem OutOK_zero (fo : Buf (Elt F) (oLoc d)) : OutOK tab adr d L 0 fo :=
  fun x _ h => absurd h (Nat.not_lt_zero _)

/-- The copy-out after chunk 10 k + 9, k = 5 p + 4: the scratch, whole at part p's value, lands on
    part p of the slab; the parts below p + 1 are then at the value. -/
theorem out_step (k : Fin k2_t1_loop.trips) (h5 : k.val % 5 = 4) (h19 : k2_cond19 k = 1#1)
    (fy : Buf (Elt F) ((sY).view.loc (V d (cV L) (jV L)))) (hacc : AccOK tab adr d L (10 * k.val + 9 + 1) fy)
    (fo fo' : Buf (Elt F) (oLoc d)) (hout : OutOK tab adr d L (k.val / 5) fo)
    (hnew : (oPartK L k h19).view.read (Elt F) fo' = (sY).view.read (Elt F) fy)
    (hkeep : ∀ x, x ∉ (oPartK L k h19).view.set → fo' x = fo x) :
    OutOK tab adr d L ((k.val + 1) / 5) fo' := by
  intro x hx hp
  by_cases hlt : (x 1).val < k.val / 5
  · rw [hkeep x fun hm => by have := snd_of_mem_oPart L k h19 x hm; omega]
    exact hout x hx hlt
  · have h1 : (x 1).val = k.val / 5 := by omega
    have hr : (x 2).val < 250 := (x 2).isLt
    have hl : (x 3).val < 80 := (x 3).isLt
    have hxe : ((oPartK L k h19).view.emb (yIx (x 2).val (x 3).val) : S32x5x250x80.Idx) = x := by
      funext a
      apply Fin.ext
      rw [oPart_emb_val]
      have h0 := fst_of_mem_oSet (wL L) x hx
      have hw : (wL L).val = 2 * (L 1).val + (L 0).val := rfl
      match a with
      | ⟨0, _⟩ => show 2 * (L 1).val + (L 0).val = (x 0).val; omega
      | ⟨1, _⟩ => show (10 * k.val + 9) / 50 = (x 1).val; omega
      | ⟨2, _⟩ => show (x 2).val % 250 = (x 2).val; omega
      | ⟨3, _⟩ => show (x 3).val % 80 = (x 3).val; omega
    have hv := congrFun hnew (yIx (x 2).val (x 3).val)
    simp only [View.read_apply, cast_eq] at hv
    rw [hxe] at hv
    have e : 10 * k.val + 9 + 1 = 50 * (k.val / 5) + 50 := by omega
    rw [e] at hacc
    have hfy := AccOK_full tab adr d L (k.val / 5) fy hacc (x 2).val hr (x 3).val hl
    have hg := gathered_eq tab adr d L x hx
    rw [h1] at hg
    exact hv.trans (hfy.trans hg.symm)

end Cert.Proof.KI.Sc

end
-- ==== Proof.ScTile.lean ====
/-
  The gather kernel's obligations for the launch theorem.

  Thirty-two workers — vector subcore s of SparseCore c is worker 2 s + c — each own one slab of the address array
  (250 chunks of 20 addresses) and one slab of the output (5 parts of 250 rows of 80 lanes). A worker copies its
  address slab into its scratch, then for each chunk k gathers the twenty table rows the chunk names and stores, for
  each of the chunk's five groups of four consecutive rows, the sum ((r₀ + r₁) + (r₂ + r₃)) of the group's first 80
  lanes into row (k mod 50) · 5 + group of an accumulation scratch, which it copies out to part k div 50 of its output
  slab after every fiftieth chunk. The gathers run ten deep, chunk k in slot k mod 10, each slot on a semaphore of
  its own, so that on every semaphore one transfer is outstanding at a time.

  The table is read whole by every worker: it is dealt as read shares, one per SparseCore, cut again one per vector
  subcore, and inside a task once more into a token per slot. The address array and the output are dealt by slabs,
  which are disjoint and cover them. The group loop (25 groups of ten chunks) is opened at an invariant that holds,
  per slot, the chunk in flight with what it will land; a landed chunk's accumulation is the slot's own lemma.
-/
import proofs.«207241_g55714315764006_cont_9to1c4b_410_29_alg».proof.Proof.ScDefs
import proofs.«207241_g55714315764006_cont_9to1c4b_410_29_alg».proof.Proof.ScSlot0
import proofs.«207241_g55714315764006_cont_9to1c4b_410_29_alg».proof.Proof.ScSlot1
import proofs.«207241_g55714315764006_cont_9to1c4b_410_29_alg».proof.Proof.ScSlot2
import proofs.«207241_g55714315764006_cont_9to1c4b_410_29_alg».proof.Proof.ScSlot3
import proofs.«207241_g55714315764006_cont_9to1c4b_410_29_alg».proof.Proof.ScSlot4
import proofs.«207241_g55714315764006_cont_9to1c4b_410_29_alg».proof.Proof.ScSlot5
import proofs.«207241_g55714315764006_cont_9to1c4b_410_29_alg».proof.Proof.ScSlot6
import proofs.«207241_g55714315764006_cont_9to1c4b_410_29_alg».proof.Proof.ScSlot7
import proofs.«207241_g55714315764006_cont_9to1c4b_410_29_alg».proof.Proof.ScSlot8
import proofs.«207241_g55714315764006_cont_9to1c4b_410_29_alg».proof.Proof.ScSlot9
import proofs.«207241_g55714315764006_cont_9to1c4b_410_29_alg».proof.Proof.ScOutStep

noncomputable section

namespace Cert.Proof.KI.Sc

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tab : (d : Dev nD) → Buf (Elt F) (tLoc d)) (adr : (d : Dev nD) → Buf (Elt F) (aLoc d))
variable [FloatOps F]

/-! ## The launch equations -/

omit [FloatOps F] in
theorem aSet_eq (w : Fin 32) : aSet w = (aSlab w).set := by
  show ((View.whole (main_v23_scv : Ref sig .scVector)).slice (aSlab w)).set = _
  rw [View.set_slice]; exact Finset.map_refl
omit [FloatOps F] in
theorem oSet_eq (w : Fin 32) : oSet w = (oSlab w).set := by
  show ((View.whole (main_v24_scv : Ref sig .scVector)).slice (oSlab w)).set = _
  rw [View.set_slice]; exact Finset.map_refl
omit [FloatOps F] in
theorem aSet_disjoint : ∀ i ∈ (Finset.univ : Finset (Fin 32)), ∀ j ∈ (Finset.univ : Finset (Fin 32)), i ≠ j → Disjoint (aSet i) (aSet j) :=
  fun i _ j _ h => by rw [aSet_eq, aSet_eq]; exact Rect.part_disjoint hdivA h
omit [FloatOps F] in
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
omit [FloatOps F] in
theorem aSet_cover : (Finset.univ : Finset (Fin 32)).biUnion aSet = Finset.univ :=
  (Finset.biUnion_congr rfl fun i _ => aSet_eq i).trans (Rect.biUnion_part hdivA)
omit [FloatOps F] in
theorem oSet_cover : (Finset.univ : Finset (Fin 32)).biUnion oSet = Finset.univ :=
  (Finset.biUnion_congr rfl fun i _ => oSet_eq i).trans (Rect.biUnion_part hdivO)

omit [FloatOps F] in
/-- A family over the workers, by SparseCore and vector subcore. -/
theorem bigSep_workers (Φ : Fin 32 → sProp 𝕄) :
    (bigSep Finset.univ fun c : Fin 2 => bigSep Finset.univ fun s : Fin 16 => Φ (wk c s)) = bigSep Finset.univ Φ := by
  rw [bigSep_univ_equiv wkEquiv Φ, bigSep_univ_prod]; rfl

omit [FloatOps F] in
theorem aPts_workers (d : Dev nD) (f : Buf (Elt F) (aLoc d)) :
    (bigSep Finset.univ fun w : Fin 32 => (aLoc d ↦[aSet w]{fullShare} f : sProp 𝕄)) = aLoc d ↦{fullShare} f := by
  rw [← pointsTo_biUnion Finset.univ (ℓ := aLoc d) aSet aSet_disjoint, aSet_cover]; try rfl
omit [FloatOps F] in
theorem oPts_workers (d : Dev nD) (f : Buf (Elt F) (oLoc d)) :
    (bigSep Finset.univ fun w : Fin 32 => (oLoc d ↦[oSet w]{fullShare} f : sProp 𝕄)) = oLoc d ↦{fullShare} f := by
  rw [← pointsTo_biUnion Finset.univ (ℓ := oLoc d) oSet oSet_disjoint, oSet_cover]; try rfl

/-- The output's slabs at whatever they hold are the output at whatever it holds. -/
theorem oPts_workers_ex (d : Dev nD) :
    (bigSep Finset.univ fun w : Fin 32 => (iprop(∃ f, oLoc d ↦[oSet w]{fullShare} f) : sProp 𝕄)) = iprop(∃ f, oLoc d ↦{fullShare} f) := by
  have h1 : (bigSep Finset.univ fun w : Fin 32 => (iprop(∃ f, oLoc d ↦[oSet w]{fullShare} f) : sProp 𝕄)) ⊢ iprop(∃ f, oLoc d ↦{fullShare} f) := by
    refine (bigSep_exists_pi Finset.univ (fun w (f : Buf (Elt F) (oLoc d)) => (oLoc d ↦[oSet w]{fullShare} f : sProp 𝕄))).trans ?_
    iintro ⟨%fs, H⟩
    ihave H' := (pointsTo_biUnion_join Finset.univ oSet fs (fs 0) oSet_disjoint) $$ H
    icases H' with ⟨%g, -, Hg⟩
    rw [oSet_cover]
    iexists g; iexact Hg
  have h2 : (iprop(∃ f, oLoc d ↦{fullShare} f) : sProp 𝕄) ⊢ bigSep Finset.univ fun w : Fin 32 => (iprop(∃ f, oLoc d ↦[oSet w]{fullShare} f) : sProp 𝕄) :=
    exists_elim fun f => (Entails.of_eq (oPts_workers (F := F) d f).symm).trans
      (bigSep_mono fun w _ => exists_intro (Φ := fun f => (oLoc d ↦[oSet w]{fullShare} f : sProp 𝕄)) f)
  exact BI.equiv_iff.mp ⟨h1, h2⟩

omit [FloatOps F] in
theorem tPts_cores (d : Dev nD) (f : Buf (Elt F) (tLoc d)) :
    (bigSep Finset.univ fun c : Fin 2 => (tLoc d ↦{qC c} f : sProp 𝕄)) = tLoc d ↦{fullShare} f :=
  (pointsTo_pieces (ℓ := tLoc d) Finset.univ f 1 fullShare).symm
omit [FloatOps F] in
theorem tPts_tiles (d : Dev nD) (c : Fin 2) (f : Buf (Elt F) (tLoc d)) :
    (bigSep Finset.univ fun s : Fin 16 => (tLoc d ↦{qT c s} f : sProp 𝕄)) = tLoc d ↦{qC c} f :=
  (pointsTo_pieces (ℓ := tLoc d) Finset.univ f 15 (qC c)).symm

theorem st_eq (d : Dev nD) (c : Fin ((K (F := F)).nCore 0)) :
    (P (F := F) tab adr).st 0 d c = iprop(tPts tab d (qC (cC c)) ∗ (bigSep Finset.univ fun s : Fin 16 => aPts adr d (wk (cC c) s))
        ∗ bigSep Finset.univ fun s : Fin 16 => iprop(∃ f, oPts d (wk (cC c) s) f)) := rfl
theorem dn_eq (d : Dev nD) (c : Fin ((K (F := F)).nCore 0)) :
    (P (F := F) tab adr).dn 0 d c = iprop(tPts tab d (qC (cC c)) ∗ (bigSep Finset.univ fun s : Fin 16 => aPts adr d (wk (cC c) s))
        ∗ bigSep Finset.univ fun s : Fin 16 => oPts d (wk (cC c) s) (gathered tab adr d)) := rfl
theorem go_eq (d : Dev nD) (c : Fin ((K (F := F)).nCore 0)) (s : Fin ((K (F := F)).nSub 0)) :
    (P (F := F) tab adr).go 0 d c s = iprop(tPts tab d (qT (cC c) (sS s)) ∗ aPts adr d (wk (cC c) (sS s)) ∗ ∃ f, oPts d (wk (cC c) (sS s)) f) := rfl
theorem td_eq (d : Dev nD) (c : Fin ((K (F := F)).nCore 0)) (s : Fin ((K (F := F)).nSub 0)) :
    (P (F := F) tab adr).td 0 d c s = iprop(tPts tab d (qT (cC c) (sS s)) ∗ aPts adr d (wk (cC c) (sS s)) ∗ oPts d (wk (cC c) (sS s)) (gathered tab adr d)) := rfl

omit [FloatOps F] in
theorem bigSep_cores (Φ : Fin 2 → sProp 𝕄) :
    (bigSep Finset.univ fun c : Fin ((K (F := F)).nCore 0) => Φ (cC c)) = bigSep Finset.univ Φ :=
  bigSep_congr fun _ _ => congrArg Φ (Fin.ext rfl)
omit [FloatOps F] in
theorem bigSep_tiles (Φ : Fin 16 → sProp 𝕄) :
    (bigSep Finset.univ fun s : Fin ((K (F := F)).nSub 0) => Φ (sS s)) = bigSep Finset.univ Φ :=
  bigSep_congr fun _ _ => congrArg Φ (Fin.ext rfl)

/-- The SparseCores' shares together are the three arrays whole. -/
theorem st0_eq (d : Dev nD) :
    (bigSep Finset.univ fun c : Fin ((K (F := F)).nCore 0) => (P (F := F) tab adr).st 0 d c)
      = iprop((tLoc d ↦{fullShare} tab d) ∗ (aLoc d ↦{fullShare} adr d) ∗ ∃ f, oLoc d ↦{fullShare} f) := by
  simp only [st_eq]
  rw [bigSep_cores (F := F) (fun c => iprop(tPts tab d (qC c) ∗ (bigSep Finset.univ fun s : Fin 16 => aPts adr d (wk c s))
        ∗ bigSep Finset.univ fun s : Fin 16 => iprop(∃ f, oPts d (wk c s) f))),
    bigSep_sep', bigSep_sep', tPts_cores,
    bigSep_workers (F := F) (fun w => aPts adr d w), bigSep_workers (F := F) (fun w => iprop(∃ f, oPts d w f)),
    aPts_workers, oPts_workers_ex]

theorem dn0_eq (d : Dev nD) :
    (bigSep Finset.univ fun c : Fin ((K (F := F)).nCore 0) => (P (F := F) tab adr).dn 0 d c)
      = iprop((tLoc d ↦{fullShare} tab d) ∗ (aLoc d ↦{fullShare} adr d) ∗ (oLoc d ↦{fullShare} gathered tab adr d)) := by
  simp only [dn_eq]
  rw [bigSep_cores (F := F) (fun c => iprop(tPts tab d (qC c) ∗ (bigSep Finset.univ fun s : Fin 16 => aPts adr d (wk c s))
        ∗ bigSep Finset.univ fun s : Fin 16 => oPts d (wk c s) (gathered tab adr d))),
    bigSep_sep', bigSep_sep', tPts_cores,
    bigSep_workers (F := F) (fun w => aPts adr d w), bigSep_workers (F := F) (fun w => oPts d w (gathered tab adr d)),
    aPts_workers, oPts_workers]

/-- A SparseCore's operands split among its sixteen tiles and join back. -/
theorem vecSplit : (K (F := F)).VecSplit' (P (F := F) tab adr) 0 := by
  intro d c
  rw [st_eq, dn_eq]
  simp only [go_eq, td_eq]
  rw [bigSep_tiles (F := F) (fun s => iprop(tPts tab d (qT (cC c) s) ∗ aPts adr d (wk (cC c) s) ∗ ∃ f, oPts d (wk (cC c) s) f)),
    bigSep_tiles (F := F) (fun s => iprop(tPts tab d (qT (cC c) s) ∗ aPts adr d (wk (cC c) s) ∗ oPts d (wk (cC c) s) (gathered tab adr d))),
    bigSep_sep', bigSep_sep', bigSep_sep', bigSep_sep', tPts_tiles]
  iintro H; imodintro
  isplitl [H]; · iexact H
  iintro H; iexact H

/-! ## A tile's task -/

section Tile

variable (d : Dev nD) (L : grid2.Coords)

omit [FloatOps F] in
/-- A buffer that reads as `w` through a view is unchanged by writing `w` through it. -/
theorem write_of_read_eq {κ : Kind} {sp : Space} {s : Shape} {e : EltTy} (v : View sig κ sp s e) (c : v.ty.Contents (Elt F)) (w : s.Idx → Elt F e)
    (h : v.read (Elt F) c = w) : v.write (Elt F) c w Finset.univ = c := by
  subst h
  rw [View.write_read_eq_piecewise]
  funext i
  by_cases hi : i ∈ v.setOn Finset.univ
  · exact Finset.piecewise_eq_of_mem _ _ _ hi
  · exact Finset.piecewise_eq_of_notMem _ _ _ hi

omit [FloatOps F] in
/-- One write of the whole shape reads back as its payload. -/
theorem read_writes_whole {κ : Kind} {sp : Space} {s : Shape} {e : EltTy} (v : View sig κ sp s e) (f : v.ty.Contents (Elt F))
    (w : (Rect.whole s).shape.Idx → Elt F e) : v.read (Elt F) (v.writes (Elt F) f [⟨Rect.whole s, w⟩]) = w :=
  funext fun x => by
    have h := View.read_writes_cons_emb (v := v) (f := f) (Rect.whole s) w [] x
    rwa [Rect.emb_whole_apply] at h

omit [FloatOps F] in
/-- Reading through a view sees only the view's own elements. -/
theorem read_piecewise_set {κ : Kind} {sp : Space} {s : Shape} {e : EltTy} (v : View sig κ sp s e) (g f : v.ty.Contents (Elt F))
    [∀ j, Decidable (j ∈ v.set)] : v.read (Elt F) ((v.set).piecewise g f) = v.read (Elt F) g :=
  funext fun y => by
    rw [View.read_apply, View.read_apply, Finset.piecewise_eq_of_mem _ _ _ (v.emb_mem_set y)]

omit [FloatOps F] in
/-- A slot's elements are its unit-stride box of the ring scratch: one index on the leading axis. -/
theorem slot_set (b : ℕ) (hb : ∀ a, (![b, 0, 0] : Fin 3 → ℕ) a + S1x20x128.size a ≤ S10x20x128.size a) :
    (slotM b hb).view.set = (Rect.unit (s := S10x20x128) ![b, 0, 0] S1x20x128.size hb).set := by
  show (((sR : Memref sig .scVector .vmem S10x20x128 .f32).view.slice (Rect.unit (s := S10x20x128) ![b, 0, 0] S1x20x128.size hb)).reshape S20x128 squeezes_S1x20x128_S20x128.numel_eq).set = _
  rw [View.set_reshape]
  exact View.set_slice_whole _ _

omit [FloatOps F] in
/-- Two different slots share no element: they are apart on the leading axis. -/
theorem slot_disj (b b' : ℕ) (hb : ∀ a, (![b, 0, 0] : Fin 3 → ℕ) a + S1x20x128.size a ≤ S10x20x128.size a)
    (hb' : ∀ a, (![b', 0, 0] : Fin 3 → ℕ) a + S1x20x128.size a ≤ S10x20x128.size a) (hne : b ≠ b') :
    Disjoint (slotM b hb).view.set (slotM b' hb').view.set := by
  rw [slot_set, slot_set]
  refine Rect.unit_disjoint (0 : Fin 3) ?_
  show b + 1 ≤ b' ∨ b' + 1 ≤ b
  omega

omit [FloatOps F] in
/-- A part of an element set and the rest of it, each at some contents, are the set at some contents. -/
theorem join_step {ℓ : Loc nD τ sig} (S I : Finset (Idx ℓ)) (hI : I ⊆ S) :
    iprop((∃ f : Buf (Elt F) ℓ, ℓ ↦[I]{fullShare} f) ∗ (∃ f : Buf (Elt F) ℓ, ℓ ↦[S \ I]{fullShare} f))
      ⊢ (iprop(∃ f : Buf (Elt F) ℓ, ℓ ↦[S]{fullShare} f) : sProp 𝕄) := by
  iintro ⟨⟨%g, Hg⟩, ⟨%f, Hf⟩⟩
  iexists (I.piecewise g f)
  iapply (pointsTo_join_subset hI)
  isplitl [Hg]; · iexact Hg
  iexact Hf

omit [FloatOps F] in
/-- THE RING SCRATCH WHOLE AGAIN: the ten slots, each at some contents, and what of the scratch lies in none of them
    are the scratch at some contents. The slots are joined back last first, each inside what the earlier ones left. -/
theorem sR_join (g : Buf (Elt F) ((sR).view.loc (V d (cV L) (jV L)))) :
    iprop((∃ f, (slotM 0 inb_S10x20x128_S1x20x128_0_0_0).view.loc (V d (cV L) (jV L)) ↦[(slotM 0 inb_S10x20x128_S1x20x128_0_0_0).view.set]{fullShare} f)
      ∗ (∃ f, (slotM 1 inb_S10x20x128_S1x20x128_1_0_0).view.loc (V d (cV L) (jV L)) ↦[(slotM 1 inb_S10x20x128_S1x20x128_1_0_0).view.set]{fullShare} f)
      ∗ (∃ f, (slotM 2 inb_S10x20x128_S1x20x128_2_0_0).view.loc (V d (cV L) (jV L)) ↦[(slotM 2 inb_S10x20x128_S1x20x128_2_0_0).view.set]{fullShare} f)
      ∗ (∃ f, (slotM 3 inb_S10x20x128_S1x20x128_3_0_0).view.loc (V d (cV L) (jV L)) ↦[(slotM 3 inb_S10x20x128_S1x20x128_3_0_0).view.set]{fullShare} f)
      ∗ (∃ f, (slotM 4 inb_S10x20x128_S1x20x128_4_0_0).view.loc (V d (cV L) (jV L)) ↦[(slotM 4 inb_S10x20x128_S1x20x128_4_0_0).view.set]{fullShare} f)
      ∗ (∃ f, (slotM 5 inb_S10x20x128_S1x20x128_5_0_0).view.loc (V d (cV L) (jV L)) ↦[(slotM 5 inb_S10x20x128_S1x20x128_5_0_0).view.set]{fullShare} f)
      ∗ (∃ f, (slotM 6 inb_S10x20x128_S1x20x128_6_0_0).view.loc (V d (cV L) (jV L)) ↦[(slotM 6 inb_S10x20x128_S1x20x128_6_0_0).view.set]{fullShare} f)
      ∗ (∃ f, (slotM 7 inb_S10x20x128_S1x20x128_7_0_0).view.loc (V d (cV L) (jV L)) ↦[(slotM 7 inb_S10x20x128_S1x20x128_7_0_0).view.set]{fullShare} f)
      ∗ (∃ f, (slotM 8 inb_S10x20x128_S1x20x128_8_0_0).view.loc (V d (cV L) (jV L)) ↦[(slotM 8 inb_S10x20x128_S1x20x128_8_0_0).view.set]{fullShare} f)
      ∗ (∃ f, (slotM 9 inb_S10x20x128_S1x20x128_9_0_0).view.loc (V d (cV L) (jV L)) ↦[(slotM 9 inb_S10x20x128_S1x20x128_9_0_0).view.set]{fullShare} f)
      ∗ ((sR).view.loc (V d (cV L) (jV L)) ↦[((((((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) \ (slotM 6 inb_S10x20x128_S1x20x128_6_0_0).view.set) \ (slotM 7 inb_S10x20x128_S1x20x128_7_0_0).view.set) \ (slotM 8 inb_S10x20x128_S1x20x128_8_0_0).view.set) \ (slotM 9 inb_S10x20x128_S1x20x128_9_0_0).view.set)]{fullShare} g))
      ⊢ (iprop(∃ f, (V d (cV L) (jV L)).loc cc2_scratch1 ↦{fullShare} f) : sProp 𝕄) := by
  iintro ⟨H0, H1, H2, H3, H4, H5, H6, H7, H8, H9, Hg⟩
  ihave Hr : iprop(∃ f : Buf (Elt F) ((sR).view.loc (V d (cV L) (jV L))), (sR).view.loc (V d (cV L) (jV L)) ↦[((((((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) \ (slotM 6 inb_S10x20x128_S1x20x128_6_0_0).view.set) \ (slotM 7 inb_S10x20x128_S1x20x128_7_0_0).view.set) \ (slotM 8 inb_S10x20x128_S1x20x128_8_0_0).view.set) \ (slotM 9 inb_S10x20x128_S1x20x128_9_0_0).view.set)]{fullShare} f) $$ [Hg]
  · iexists g; iexact Hg
  ihave Hr := (join_step (F := F) (ℓ := (sR).view.loc (V d (cV L) (jV L))) (((((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) \ (slotM 6 inb_S10x20x128_S1x20x128_6_0_0).view.set) \ (slotM 7 inb_S10x20x128_S1x20x128_7_0_0).view.set) \ (slotM 8 inb_S10x20x128_S1x20x128_8_0_0).view.set) (slotM 9 inb_S10x20x128_S1x20x128_9_0_0).view.set (Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, slot_disj 9 0 _ _ (by decide)⟩, slot_disj 9 1 _ _ (by decide)⟩, slot_disj 9 2 _ _ (by decide)⟩, slot_disj 9 3 _ _ (by decide)⟩, slot_disj 9 4 _ _ (by decide)⟩, slot_disj 9 5 _ _ (by decide)⟩, slot_disj 9 6 _ _ (by decide)⟩, slot_disj 9 7 _ _ (by decide)⟩, slot_disj 9 8 _ _ (by decide)⟩)) $$ [H9 Hr]
  · isplitl [H9]; · iexact H9
    iexact Hr
  ihave Hr := (join_step (F := F) (ℓ := (sR).view.loc (V d (cV L) (jV L))) ((((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) \ (slotM 6 inb_S10x20x128_S1x20x128_6_0_0).view.set) \ (slotM 7 inb_S10x20x128_S1x20x128_7_0_0).view.set) (slotM 8 inb_S10x20x128_S1x20x128_8_0_0).view.set (Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, slot_disj 8 0 _ _ (by decide)⟩, slot_disj 8 1 _ _ (by decide)⟩, slot_disj 8 2 _ _ (by decide)⟩, slot_disj 8 3 _ _ (by decide)⟩, slot_disj 8 4 _ _ (by decide)⟩, slot_disj 8 5 _ _ (by decide)⟩, slot_disj 8 6 _ _ (by decide)⟩, slot_disj 8 7 _ _ (by decide)⟩)) $$ [H8 Hr]
  · isplitl [H8]; · iexact H8
    iexact Hr
  ihave Hr := (join_step (F := F) (ℓ := (sR).view.loc (V d (cV L) (jV L))) (((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) \ (slotM 6 inb_S10x20x128_S1x20x128_6_0_0).view.set) (slotM 7 inb_S10x20x128_S1x20x128_7_0_0).view.set (Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, slot_disj 7 0 _ _ (by decide)⟩, slot_disj 7 1 _ _ (by decide)⟩, slot_disj 7 2 _ _ (by decide)⟩, slot_disj 7 3 _ _ (by decide)⟩, slot_disj 7 4 _ _ (by decide)⟩, slot_disj 7 5 _ _ (by decide)⟩, slot_disj 7 6 _ _ (by decide)⟩)) $$ [H7 Hr]
  · isplitl [H7]; · iexact H7
    iexact Hr
  ihave Hr := (join_step (F := F) (ℓ := (sR).view.loc (V d (cV L) (jV L))) ((((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) \ (slotM 5 inb_S10x20x128_S1x20x128_5_0_0).view.set) (slotM 6 inb_S10x20x128_S1x20x128_6_0_0).view.set (Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, slot_disj 6 0 _ _ (by decide)⟩, slot_disj 6 1 _ _ (by decide)⟩, slot_disj 6 2 _ _ (by decide)⟩, slot_disj 6 3 _ _ (by decide)⟩, slot_disj 6 4 _ _ (by decide)⟩, slot_disj 6 5 _ _ (by decide)⟩)) $$ [H6 Hr]
  · isplitl [H6]; · iexact H6
    iexact Hr
  ihave Hr := (join_step (F := F) (ℓ := (sR).view.loc (V d (cV L) (jV L))) (((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) \ (slotM 4 inb_S10x20x128_S1x20x128_4_0_0).view.set) (slotM 5 inb_S10x20x128_S1x20x128_5_0_0).view.set (Finset.subset_sdiff.mpr ⟨Finset.subset_sdiff.mpr ⟨Finset.subset_sdiff.mpr ⟨Finset.subset_sdiff.mpr ⟨Finset.subset_sdiff.mpr ⟨Finset.subset_univ _, slot_disj 5 0 _ _ (by decide)⟩, slot_disj 5 1 _ _ (by decide)⟩, slot_disj 5 2 _ _ (by decide)⟩, slot_disj 5 3 _ _ (by decide)⟩, slot_disj 5 4 _ _ (by decide)⟩)) $$ [H5 Hr]
  · isplitl [H5]; · iexact H5
    iexact Hr
  ihave Hr := (join_step (F := F) (ℓ := (sR).view.loc (V d (cV L) (jV L))) ((((Finset.univ \ (slotM 0 inb_S10x20x128_S1x20x128_0_0_0).view.set) \ (slotM 1 inb_S10x20x128_S1x20x128_1_0_0).view.set) \ (slotM 2 inb_S10x20x128_S1x20x128_2_0_0).view.set) \ (slotM 3 inb_S10x20x128_S1x20x128_3_0_0).view.set) (slotM 4 inb_S10x20x128_S1x20x128_4_0_0).view.set (Finset.subset_sdiff.mpr ⟨Finset.subset_sdiff.mpr ⟨Finset.subset_sdiff.mpr ⟨Finset.subset_sdiff.mpr ⟨Finset.subset_univ _, slot_disj 4 0 _ _ (by decide)⟩, slot_disj 4 1 _ _ (by decide)⟩, slot_disj 4 2 _ _ (by decide)⟩, slot_disj 4 3 _ _ (by decide)⟩)) $$ [H4 Hr]
  · isplitl [H4]; · iexact H4
    iexact Hr
  ihave Hr := (join_step (F := F) (ℓ := (sR).view.loc (V d (cV L) (jV L))) (((Finset.univ \ (slotM 0 inb_S10x20x128_S1x20x128_0_0_0).view.set) \ (slotM 1 inb_S10x20x128_S1x20x128_1_0_0).view.set) \ (slotM 2 inb_S10x20x128_S1x20x128_2_0_0).view.set) (slotM 3 inb_S10x20x128_S1x20x128_3_0_0).view.set (Finset.subset_sdiff.mpr ⟨Finset.subset_sdiff.mpr ⟨Finset.subset_sdiff.mpr ⟨Finset.subset_univ _, slot_disj 3 0 _ _ (by decide)⟩, slot_disj 3 1 _ _ (by decide)⟩, slot_disj 3 2 _ _ (by decide)⟩)) $$ [H3 Hr]
  · isplitl [H3]; · iexact H3
    iexact Hr
  ihave Hr := (join_step (F := F) (ℓ := (sR).view.loc (V d (cV L) (jV L))) ((Finset.univ \ (slotM 0 inb_S10x20x128_S1x20x128_0_0_0).view.set) \ (slotM 1 inb_S10x20x128_S1x20x128_1_0_0).view.set) (slotM 2 inb_S10x20x128_S1x20x128_2_0_0).view.set (Finset.subset_sdiff.mpr ⟨Finset.subset_sdiff.mpr ⟨Finset.subset_univ _, slot_disj 2 0 _ _ (by decide)⟩, slot_disj 2 1 _ _ (by decide)⟩)) $$ [H2 Hr]
  · isplitl [H2]; · iexact H2
    iexact Hr
  ihave Hr := (join_step (F := F) (ℓ := (sR).view.loc (V d (cV L) (jV L))) (Finset.univ \ (slotM 0 inb_S10x20x128_S1x20x128_0_0_0).view.set) (slotM 1 inb_S10x20x128_S1x20x128_1_0_0).view.set (Finset.subset_sdiff.mpr ⟨Finset.subset_univ _, slot_disj 1 0 _ _ (by decide)⟩)) $$ [H1 Hr]
  · isplitl [H1]; · iexact H1
    iexact Hr
  ihave Hr := (join_step (F := F) (ℓ := (sR).view.loc (V d (cV L) (jV L))) Finset.univ (slotM 0 inb_S10x20x128_S1x20x128_0_0_0).view.set (Finset.subset_univ _)) $$ [H0 Hr]
  · isplitl [H0]; · iexact H0
    iexact Hr
  iexact Hr

/-! ## The group loop's invariant -/

/-- Slot `b` before group `g < 25`: its chunk `10 g + b` in flight on the slot's semaphore, holding the slot at
    contents that read as what the chunk's gather lands, the chunk's row of the address scratch and the table, the
    last two at the slot's read shares, whose rests the tile keeps. -/
abbrev slotFlV (hadr : AdrOK adr) (b : ℕ) (hb : ∀ a, (![b, 0, 0] : Fin 3 → ℕ) a + S1x20x128.size a ≤ S10x20x128.size a) (n : ℕ) (hn : n < 40)
    (qa qt : PosShare TreeShare) (g : ℕ) : sProp 𝕄 :=
  iprop(∃ (c : Buf (Elt F) ((sR).view.loc (V d (cV L) (jV L)))) (off : Fin 2 → ℕ) (h : ∀ a, off a + S1x20.size a ≤ S250x20.size a),
      Transfers.Flight countersEmb (V d (cV L) (jV L)) (SemLoc.dma (⟨n, hn⟩ : DmaSem sig)) default 81920
          iprop((((slotM b hb).view.loc (V d (cV L) (jV L)) ↦[(slotM b hb).view.set]{fullShare} c)
                ∗ ((sA).view.loc (V d (cV L) (jV L)) ↦[(rowM off h).view.set]{qa} fA adr d L))
              ∗ ((tV).view.loc (V d (cV L) (jV L)) ↦[(tVs).view.set]{qt} tab d))
      ∗ ((tV).view.loc (V d (cV L) (jV L)) ↦[Finset.univ \ (tVs).view.set]{qt} tab d)
      ∗ ((sA).view.loc (V d (cV L) (jV L)) ↦[Finset.univ \ (rowM off h).view.set]{qa} fA adr d L)
      ∗ ⌜off = ![10 * g + b, 0]⌝
      ∗ ⌜(slotM b hb).view.read (Elt F) c = gPay tab adr d L hadr off h⌝)

def slotInvV (hadr : AdrOK adr) (b : ℕ) (hb : ∀ a, (![b, 0, 0] : Fin 3 → ℕ) a + S1x20x128.size a ≤ S10x20x128.size a) (n : ℕ) (hn : n < 40)
    (qa qt : PosShare TreeShare) (g : ℕ) : sProp 𝕄 :=
  if g < 25 then slotFlV tab adr d L hadr b hb n hn qa qt g else slotHome tab adr d L b hb n hn qa qt

/-- Beside the slots, before group `g`: the accumulation scratch with the current part's chunks so far; the output slab
    with the parts finished so far; the last copy-out's semaphore at rest; what the tile owes, its waits at no index
    recorded. -/
abbrev invRestV (O : CellTallies nD τ sig (HIx 1)) (W : Waits sig (HIx 1)) (g : ℕ) : sProp 𝕄 :=
  iprop((∃ fy, ((sY).view.loc (V d (cV L) (jV L)) ↦{fullShare} fy) ∗ ⌜AccOK tab adr d L (10 * g) fy⌝)
    ∗ (∃ fo, oPts d (wL L) fo ∗ ⌜OutOK tab adr d L (g / 5) fo⌝)
    ∗ semVal (V d (cV L) (jV L), SemLoc.dma cc2_scoped10.sem) 0
    ∗ ∃ W', ⌜∀ p ∈ W', p ∈ W ∨ p.2 = none⌝ ∗ owes (V d (cV L) (jV L)) O W')

/-- Before group `g`. -/
def invV (hadr : AdrOK adr) (O : CellTallies nD τ sig (HIx 1)) (W : Waits sig (HIx 1)) (g : ℕ) (_ : BitVec 32) : sProp 𝕄 :=
  iprop(Transfers.MayWaits (V d (cV L) (jV L)) (none : HIx 1) O
    ∗ slotInvV tab adr d L hadr 0 inb_S10x20x128_S1x20x128_0_0_0 10 (by decide) (piece fullShare 9 0) (Transfers.shareTokN (qT (cL L) (sL L)) 10) g
    ∗ slotInvV tab adr d L hadr 1 inb_S10x20x128_S1x20x128_1_0_0 11 (by decide) (piece fullShare 9 1) (Transfers.shareTokN (qT (cL L) (sL L)) 11) g
    ∗ slotInvV tab adr d L hadr 2 inb_S10x20x128_S1x20x128_2_0_0 12 (by decide) (piece fullShare 9 2) (Transfers.shareTokN (qT (cL L) (sL L)) 12) g
    ∗ slotInvV tab adr d L hadr 3 inb_S10x20x128_S1x20x128_3_0_0 13 (by decide) (piece fullShare 9 3) (Transfers.shareTokN (qT (cL L) (sL L)) 13) g
    ∗ slotInvV tab adr d L hadr 4 inb_S10x20x128_S1x20x128_4_0_0 14 (by decide) (piece fullShare 9 4) (Transfers.shareTokN (qT (cL L) (sL L)) 14) g
    ∗ slotInvV tab adr d L hadr 5 inb_S10x20x128_S1x20x128_5_0_0 15 (by decide) (piece fullShare 9 5) (Transfers.shareTokN (qT (cL L) (sL L)) 15) g
    ∗ slotInvV tab adr d L hadr 6 inb_S10x20x128_S1x20x128_6_0_0 16 (by decide) (piece fullShare 9 6) (Transfers.shareTokN (qT (cL L) (sL L)) 16) g
    ∗ slotInvV tab adr d L hadr 7 inb_S10x20x128_S1x20x128_7_0_0 17 (by decide) (piece fullShare 9 7) (Transfers.shareTokN (qT (cL L) (sL L)) 17) g
    ∗ slotInvV tab adr d L hadr 8 inb_S10x20x128_S1x20x128_8_0_0 18 (by decide) (piece fullShare 9 8) (Transfers.shareTokN (qT (cL L) (sL L)) 18) g
    ∗ slotInvV tab adr d L hadr 9 inb_S10x20x128_S1x20x128_9_0_0 19 (by decide) (piece fullShare 9 9) (Transfers.shareTokN (qT (cL L) (sL L)) 19) g
    ∗ invRestV tab adr d L O W g)

theorem invV_lt (hadr : AdrOK adr) (O : CellTallies nD τ sig (HIx 1)) (W : Waits sig (HIx 1)) (g : ℕ) (hg : g < 25) (acc : BitVec 32) :
    invV tab adr d L hadr O W g acc = iprop(Transfers.MayWaits (V d (cV L) (jV L)) (none : HIx 1) O
    ∗ slotFlV tab adr d L hadr 0 inb_S10x20x128_S1x20x128_0_0_0 10 (by decide) (piece fullShare 9 0) (Transfers.shareTokN (qT (cL L) (sL L)) 10) g
    ∗ slotFlV tab adr d L hadr 1 inb_S10x20x128_S1x20x128_1_0_0 11 (by decide) (piece fullShare 9 1) (Transfers.shareTokN (qT (cL L) (sL L)) 11) g
    ∗ slotFlV tab adr d L hadr 2 inb_S10x20x128_S1x20x128_2_0_0 12 (by decide) (piece fullShare 9 2) (Transfers.shareTokN (qT (cL L) (sL L)) 12) g
    ∗ slotFlV tab adr d L hadr 3 inb_S10x20x128_S1x20x128_3_0_0 13 (by decide) (piece fullShare 9 3) (Transfers.shareTokN (qT (cL L) (sL L)) 13) g
    ∗ slotFlV tab adr d L hadr 4 inb_S10x20x128_S1x20x128_4_0_0 14 (by decide) (piece fullShare 9 4) (Transfers.shareTokN (qT (cL L) (sL L)) 14) g
    ∗ slotFlV tab adr d L hadr 5 inb_S10x20x128_S1x20x128_5_0_0 15 (by decide) (piece fullShare 9 5) (Transfers.shareTokN (qT (cL L) (sL L)) 15) g
    ∗ slotFlV tab adr d L hadr 6 inb_S10x20x128_S1x20x128_6_0_0 16 (by decide) (piece fullShare 9 6) (Transfers.shareTokN (qT (cL L) (sL L)) 16) g
    ∗ slotFlV tab adr d L hadr 7 inb_S10x20x128_S1x20x128_7_0_0 17 (by decide) (piece fullShare 9 7) (Transfers.shareTokN (qT (cL L) (sL L)) 17) g
    ∗ slotFlV tab adr d L hadr 8 inb_S10x20x128_S1x20x128_8_0_0 18 (by decide) (piece fullShare 9 8) (Transfers.shareTokN (qT (cL L) (sL L)) 18) g
    ∗ slotFlV tab adr d L hadr 9 inb_S10x20x128_S1x20x128_9_0_0 19 (by decide) (piece fullShare 9 9) (Transfers.shareTokN (qT (cL L) (sL L)) 19) g
    ∗ invRestV tab adr d L O W g) := by
  unfold invV slotInvV
  iterate 10 rw [if_pos hg]
theorem invV_ge (hadr : AdrOK adr) (O : CellTallies nD τ sig (HIx 1)) (W : Waits sig (HIx 1)) (g : ℕ) (hg : ¬ g < 25) (acc : BitVec 32) :
    invV tab adr d L hadr O W g acc = iprop(Transfers.MayWaits (V d (cV L) (jV L)) (none : HIx 1) O
    ∗ slotHome tab adr d L 0 inb_S10x20x128_S1x20x128_0_0_0 10 (by decide) (piece fullShare 9 0) (Transfers.shareTokN (qT (cL L) (sL L)) 10)
    ∗ slotHome tab adr d L 1 inb_S10x20x128_S1x20x128_1_0_0 11 (by decide) (piece fullShare 9 1) (Transfers.shareTokN (qT (cL L) (sL L)) 11)
    ∗ slotHome tab adr d L 2 inb_S10x20x128_S1x20x128_2_0_0 12 (by decide) (piece fullShare 9 2) (Transfers.shareTokN (qT (cL L) (sL L)) 12)
    ∗ slotHome tab adr d L 3 inb_S10x20x128_S1x20x128_3_0_0 13 (by decide) (piece fullShare 9 3) (Transfers.shareTokN (qT (cL L) (sL L)) 13)
    ∗ slotHome tab adr d L 4 inb_S10x20x128_S1x20x128_4_0_0 14 (by decide) (piece fullShare 9 4) (Transfers.shareTokN (qT (cL L) (sL L)) 14)
    ∗ slotHome tab adr d L 5 inb_S10x20x128_S1x20x128_5_0_0 15 (by decide) (piece fullShare 9 5) (Transfers.shareTokN (qT (cL L) (sL L)) 15)
    ∗ slotHome tab adr d L 6 inb_S10x20x128_S1x20x128_6_0_0 16 (by decide) (piece fullShare 9 6) (Transfers.shareTokN (qT (cL L) (sL L)) 16)
    ∗ slotHome tab adr d L 7 inb_S10x20x128_S1x20x128_7_0_0 17 (by decide) (piece fullShare 9 7) (Transfers.shareTokN (qT (cL L) (sL L)) 17)
    ∗ slotHome tab adr d L 8 inb_S10x20x128_S1x20x128_8_0_0 18 (by decide) (piece fullShare 9 8) (Transfers.shareTokN (qT (cL L) (sL L)) 18)
    ∗ slotHome tab adr d L 9 inb_S10x20x128_S1x20x128_9_0_0 19 (by decide) (piece fullShare 9 9) (Transfers.shareTokN (qT (cL L) (sL L)) 19)
    ∗ invRestV tab adr d L O W g) := by
  unfold invV slotInvV
  iterate 10 rw [if_neg hg]

omit [FloatOps F] in
/-- A wait recorded at no index keeps the record's shape. -/
theorem waits_step {W W' : Waits sig (HIx 1)} {sm : SemLoc sig} (h : ∀ p ∈ W', p ∈ W ∨ p.2 = none) :
    ∀ p ∈ insert (sm, (default : HIx 1)) W', p ∈ W ∨ p.2 = none :=
  fun p hp => (Finset.mem_insert.mp hp).elim (fun e => .inr (e ▸ rfl)) (h p)

set_option maxHeartbeats 8000000 in
/-- The task on vector subcore `(L 0, L 1)`. -/
theorem tile_body (hF : (K (F := F)).Facts) (hadr : AdrOK adr) (O : CellTallies nD τ sig (HIx 1)) (W : Waits sig (HIx 1)) (hO : ∀ g, O g none = 0) :
    iprop(levAts (K (F := F)).L (K (F := F)).lev ∗ emp
        ∗ (tPts tab d (qT (cL L) (sL L)) ∗ aPts adr d (wL L) ∗ ∃ f, oPts d (wL L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__sc_body L tV (Memref.isWhole_whole _) aV (Memref.isWhole_whole _) oV (Memref.isWhole_whole _)
            sA (Memref.isWhole_whole _) sR (Memref.isWhole_whole _) sY (Memref.isWhole_whole _)
            cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10)
          fun _ => iprop((tPts tab d (qT (cL L) (sL L)) ∗ aPts adr d (wL L) ∗ oPts d (wL L) (gathered tab adr d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2__sc_body_eq_skeleton]; unfold cc2__sc_body_skel
  rw [(K (F := F)).scopedBufs_V hF d (cV L) (jV L), SparseCore.Cfg.scopedSems0_V (Val := Elt F) d (cV L) (jV L), ownSems0_V, ownBufs_V]
  iintro ⟨#Hlv, -, ⟨Ht, Ha, %fo, Ho⟩, ⟨⟨%fa, HsA⟩, ⟨%fr, HsR⟩, ⟨%fy, HsY⟩, Hbufs⟩, ⟨⟨Hs0, Hs1, Hs2, Hs3, Hs4, Hs5, Hs6, Hs7, Hs8, Hs9, Hs10, Hs11, Hs12, Hs13, Hs14, Hs15, Hs16, Hs17, Hs18, Hs19, Hs20⟩, Hsems⟩, HO⟩
  ihave Hmw := ((K (F := F)).mayWaits_none (thr := V d (cV L) (jV L)) hO) $$ Hlv
  ihave Ha' := (Entails.of_eq (show (aPts adr d (wL L) : sProp 𝕄) = ((aRowK L).view.loc (V d (cV L) (jV L)) ↦[(aRowK L).view.set]{fullShare} adr d) from by rw [set_aRowK])) $$ Ha
  -- the table's read share, cut into a token per slot semaphore
  ihave Ht' := (Entails.of_eq (show (tPts tab d (qT (cL L) (sL L)) : sProp 𝕄) = ((tV).view.loc (V d (cV L) (jV L)) ↦{qT (cL L) (sL L)} tab d) from rfl)) $$ Ht
  ihave Ht2 := (pts_tokens (F := F) ((tV).view.loc (V d (cV L) (jV L))) (qT (cL L) (sL L)) (tab d)) $$ Ht'
  icases Ht2 with ⟨Htr, Ht9, Ht8, Ht7, Ht6, Ht5, Ht4, Ht3, Ht2, Ht1, Ht0, Htlow⟩
  ihave HsA' := (Entails.of_eq (show ((V d (cV L) (jV L)).loc cc2_scratch0 ↦{fullShare} fa : sProp 𝕄) = ((sA).view.loc (V d (cV L) (jV L)) ↦{fullShare} fa) from rfl)) $$ HsA
  ihave HsR' := (Entails.of_eq (show ((V d (cV L) (jV L)).loc cc2_scratch1 ↦{fullShare} fr : sProp 𝕄) = ((sR).view.loc (V d (cV L) (jV L)) ↦{fullShare} fr) from rfl)) $$ HsR
  ihave HsY' := (Entails.of_eq (show ((V d (cV L) (jV L)).loc cc2_scratch2 ↦{fullShare} fy : sProp 𝕄) = ((sY).view.loc (V d (cV L) (jV L)) ↦{fullShare} fy) from rfl)) $$ HsY
  -- the address slab is copied into the address scratch
  sl_exec
  -- the address scratch at the slab's contents, cut into a read share per slot
  ihave HsA2 := (Entails.of_eq (pointsTo_congr (g := fA adr d L) fun i _ => congrFun (View.write_whole_univ _ _ _) i)) $$ HsA'
  ihave HsA3 := (Entails.of_eq (pts_pieces10 (F := F) ((sA).view.loc (V d (cV L) (jV L))) (fA adr d L))) $$ HsA2
  icases HsA3 with ⟨HA0, HA1, HA2, HA3, HA4, HA5, HA6, HA7, HA8, HA9⟩
  have hin : ∀ (off : Fin 2 → ℕ) (h : ∀ a, off a + S1x20.size a ≤ S250x20.size a) (hs : ∀ a, (Rect.unit (s := S250x20) off S1x20.size h).stride a = 1) (x : S20.Idx),
      (View.read (Elt F) ((sA.slice (Rect.unit (s := S250x20) off S1x20.size h) hs).squeeze S20 squeezes_S1x20_S20).view (fA adr d L) x).toNat < 78848 :=
    fun off h _ x => hinAll adr d L hadr off h x
  -- every word of the scratch names a row of the table; the ten gathers of the first group are issued, one per slot
  sl_exec
  sl_for (invV tab adr d L hadr O W) $$ [Hmw Hs0 Ht0 HA0 Hs1 Ht1 HA1 Hs2 Ht2 HA2 Hs3 Ht3 HA3 Hs4 Ht4 HA4 Hs5 Ht5 HA5 Hs6 Ht6 HA6 Hs7 Ht7 HA7 Hs8 Ht8 HA8 Hs9 Ht9 HA9 HsY' Ho Hs20 HO]
  case region =>
    intro k acc
    have h25 : k.val < 25 := trips_t1 ▸ k.isLt
    refine (Entails.of_eq (invV_lt tab adr d L hadr O W k.val h25 acc)).trans ?_
    iintro ⟨Hmw, ⟨%c0, %off0, %hh0, Hf0, Ht0, HA0, %e0, %hrd0⟩, ⟨%c1, %off1, %hh1, Hf1, Ht1, HA1, %e1, %hrd1⟩, ⟨%c2, %off2, %hh2, Hf2, Ht2, HA2, %e2, %hrd2⟩, ⟨%c3, %off3, %hh3, Hf3, Ht3, HA3, %e3, %hrd3⟩, ⟨%c4, %off4, %hh4, Hf4, Ht4, HA4, %e4, %hrd4⟩, ⟨%c5, %off5, %hh5, Hf5, Ht5, HA5, %e5, %hrd5⟩, ⟨%c6, %off6, %hh6, Hf6, Ht6, HA6, %e6, %hrd6⟩, ⟨%c7, %off7, %hh7, Hf7, Ht7, HA7, %e7, %hrd7⟩, ⟨%c8, %off8, %hh8, Hf8, Ht8, HA8, %e8, %hrd8⟩, ⟨%c9, %off9, %hh9, Hf9, Ht9, HA9, %e9, %hrd9⟩, ⟨%fy0, HsY, %hacc0⟩, ⟨%fo, Ho, %hout⟩, Hs20, %W', %hW', HO⟩
    subst e0; subst e1; subst e2; subst e3; subst e4; subst e5; subst e6; subst e7; subst e8; subst e9
    have hc0 := cond_out0 k; have hc1 := cond_out1 k; have hc2 := cond_out2 k; have hc3 := cond_out3 k; have hc4 := cond_out4 k; have hc5 := cond_out5 k; have hc6 := cond_out6 k; have hc7 := cond_out7 k; have hc8 := cond_out8 k
    by_cases hk : k.val < 24
    · have hr0 := cond_re0_pos k hk; have hr1 := cond_re1_pos k hk; have hr2 := cond_re2_pos k hk; have hr3 := cond_re3_pos k hk; have hr4 := cond_re4_pos k hk; have hr5 := cond_re5_pos k hk; have hr6 := cond_re6_pos k hk; have hr7 := cond_re7_pos k hk; have hr8 := cond_re8_pos k hk; have hr9 := cond_re9_pos k hk
      by_cases h5 : k.val % 5 = 4
      ·
        have hc9 := cond_out9_pos k h5
        -- the part of the output slab this group's copy-out writes, held by its own elements as the program slices it
        ihave Ho2 := (pointsTo_split_subset (oPart_subset L k hc9)).1 $$ Ho
        icases Ho2 with ⟨Hop, Hor⟩
        ihave Hop := (Entails.of_eq (show (oLoc d ↦[(oPartK L k hc9).view.set]{fullShare} fo : sProp 𝕄)
            = ((oPartK L k hc9).view.loc (V d (cV L) (jV L)) ↦[(oPartK L k hc9).view.set]{fullShare} fo) from rfl)) $$ Hop
        sl_exec
        ihave Hf0_dst := (Entails.of_eq (congrArg (fun z => ((slotM 0 inb_S10x20x128_S1x20x128_0_0_0).view.loc (V d (cV L) (jV L)) ↦[(slotM 0 inb_S10x20x128_S1x20x128_0_0_0).view.set]{fullShare} z : sProp 𝕄))
          (write_of_read_eq (F := F) (slotM 0 inb_S10x20x128_S1x20x128_0_0_0).view c0 _ hrd0).symm)) $$ Hf0_dst
        iapply (accLoop0 tab adr d L hadr k _ _ _ c0 hh0 _ _) $$ [Hf0_dst HsY]
        · isplitl [Hf0_dst]; · iexact Hf0_dst
          iexists _; isplitl [HsY]; · iexact HsY
          ipureintro; exact hacc0
        iintro %r0 ⟨Hf0_dst, %fy1, HsY, %hacc1⟩
        sl_exec
        ihave Hf1_dst := (Entails.of_eq (congrArg (fun z => ((slotM 1 inb_S10x20x128_S1x20x128_1_0_0).view.loc (V d (cV L) (jV L)) ↦[(slotM 1 inb_S10x20x128_S1x20x128_1_0_0).view.set]{fullShare} z : sProp 𝕄))
          (write_of_read_eq (F := F) (slotM 1 inb_S10x20x128_S1x20x128_1_0_0).view c1 _ hrd1).symm)) $$ Hf1_dst
        iapply (accLoop1 tab adr d L hadr k _ _ _ _ c1 hh1 _ _) $$ [Hf1_dst HsY]
        · isplitl [Hf1_dst]; · iexact Hf1_dst
          iexists _; isplitl [HsY]; · iexact HsY
          ipureintro; exact hacc1
        iintro %r1 ⟨Hf1_dst, %fy2, HsY, %hacc2⟩
        sl_exec
        ihave Hf2_dst := (Entails.of_eq (congrArg (fun z => ((slotM 2 inb_S10x20x128_S1x20x128_2_0_0).view.loc (V d (cV L) (jV L)) ↦[(slotM 2 inb_S10x20x128_S1x20x128_2_0_0).view.set]{fullShare} z : sProp 𝕄))
          (write_of_read_eq (F := F) (slotM 2 inb_S10x20x128_S1x20x128_2_0_0).view c2 _ hrd2).symm)) $$ Hf2_dst
        iapply (accLoop2 tab adr d L hadr k _ _ _ _ _ _ c2 hh2 _ _) $$ [Hf2_dst HsY]
        · isplitl [Hf2_dst]; · iexact Hf2_dst
          iexists _; isplitl [HsY]; · iexact HsY
          ipureintro; exact hacc2
        iintro %r2 ⟨Hf2_dst, %fy3, HsY, %hacc3⟩
        sl_exec
        ihave Hf3_dst := (Entails.of_eq (congrArg (fun z => ((slotM 3 inb_S10x20x128_S1x20x128_3_0_0).view.loc (V d (cV L) (jV L)) ↦[(slotM 3 inb_S10x20x128_S1x20x128_3_0_0).view.set]{fullShare} z : sProp 𝕄))
          (write_of_read_eq (F := F) (slotM 3 inb_S10x20x128_S1x20x128_3_0_0).view c3 _ hrd3).symm)) $$ Hf3_dst
        iapply (accLoop3 tab adr d L hadr k _ _ _ _ _ c3 hh3 _ _) $$ [Hf3_dst HsY]
        · isplitl [Hf3_dst]; · iexact Hf3_dst
          iexists _; isplitl [HsY]; · iexact HsY
          ipureintro; exact hacc3
        iintro %r3 ⟨Hf3_dst, %fy4, HsY, %hacc4⟩
        sl_exec
        ihave Hf4_dst := (Entails.of_eq (congrArg (fun z => ((slotM 4 inb_S10x20x128_S1x20x128_4_0_0).view.loc (V d (cV L) (jV L)) ↦[(slotM 4 inb_S10x20x128_S1x20x128_4_0_0).view.set]{fullShare} z : sProp 𝕄))
          (write_of_read_eq (F := F) (slotM 4 inb_S10x20x128_S1x20x128_4_0_0).view c4 _ hrd4).symm)) $$ Hf4_dst
        iapply (accLoop4 tab adr d L hadr k _ _ _ _ _ _ _ c4 hh4 _ _) $$ [Hf4_dst HsY]
        · isplitl [Hf4_dst]; · iexact Hf4_dst
          iexists _; isplitl [HsY]; · iexact HsY
          ipureintro; exact hacc4
        iintro %r4 ⟨Hf4_dst, %fy5, HsY, %hacc5⟩
        sl_exec
        ihave Hf5_dst := (Entails.of_eq (congrArg (fun z => ((slotM 5 inb_S10x20x128_S1x20x128_5_0_0).view.loc (V d (cV L) (jV L)) ↦[(slotM 5 inb_S10x20x128_S1x20x128_5_0_0).view.set]{fullShare} z : sProp 𝕄))
          (write_of_read_eq (F := F) (slotM 5 inb_S10x20x128_S1x20x128_5_0_0).view c5 _ hrd5).symm)) $$ Hf5_dst
        iapply (accLoop5 tab adr d L hadr k _ _ _ _ _ _ _ _ c5 hh5 _ _) $$ [Hf5_dst HsY]
        · isplitl [Hf5_dst]; · iexact Hf5_dst
          iexists _; isplitl [HsY]; · iexact HsY
          ipureintro; exact hacc5
        iintro %r5 ⟨Hf5_dst, %fy6, HsY, %hacc6⟩
        sl_exec
        ihave Hf6_dst := (Entails.of_eq (congrArg (fun z => ((slotM 6 inb_S10x20x128_S1x20x128_6_0_0).view.loc (V d (cV L) (jV L)) ↦[(slotM 6 inb_S10x20x128_S1x20x128_6_0_0).view.set]{fullShare} z : sProp 𝕄))
          (write_of_read_eq (F := F) (slotM 6 inb_S10x20x128_S1x20x128_6_0_0).view c6 _ hrd6).symm)) $$ Hf6_dst
        iapply (accLoop6 tab adr d L hadr k _ _ _ _ _ _ _ c6 hh6 _ _) $$ [Hf6_dst HsY]
        · isplitl [Hf6_dst]; · iexact Hf6_dst
          iexists _; isplitl [HsY]; · iexact HsY
          ipureintro; exact hacc6
        iintro %r6 ⟨Hf6_dst, %fy7, HsY, %hacc7⟩
        sl_exec
        ihave Hf7_dst := (Entails.of_eq (congrArg (fun z => ((slotM 7 inb_S10x20x128_S1x20x128_7_0_0).view.loc (V d (cV L) (jV L)) ↦[(slotM 7 inb_S10x20x128_S1x20x128_7_0_0).view.set]{fullShare} z : sProp 𝕄))
          (write_of_read_eq (F := F) (slotM 7 inb_S10x20x128_S1x20x128_7_0_0).view c7 _ hrd7).symm)) $$ Hf7_dst
        iapply (accLoop7 tab adr d L hadr k _ _ _ _ c7 hh7 _ _) $$ [Hf7_dst HsY]
        · isplitl [Hf7_dst]; · iexact Hf7_dst
          iexists _; isplitl [HsY]; · iexact HsY
          ipureintro; exact hacc7
        iintro %r7 ⟨Hf7_dst, %fy8, HsY, %hacc8⟩
        sl_exec
        ihave Hf8_dst := (Entails.of_eq (congrArg (fun z => ((slotM 8 inb_S10x20x128_S1x20x128_8_0_0).view.loc (V d (cV L) (jV L)) ↦[(slotM 8 inb_S10x20x128_S1x20x128_8_0_0).view.set]{fullShare} z : sProp 𝕄))
          (write_of_read_eq (F := F) (slotM 8 inb_S10x20x128_S1x20x128_8_0_0).view c8 _ hrd8).symm)) $$ Hf8_dst
        iapply (accLoop8 tab adr d L hadr k _ _ _ c8 hh8 _ _) $$ [Hf8_dst HsY]
        · isplitl [Hf8_dst]; · iexact Hf8_dst
          iexists _; isplitl [HsY]; · iexact HsY
          ipureintro; exact hacc8
        iintro %r8 ⟨Hf8_dst, %fy9, HsY, %hacc9⟩
        sl_exec
        ihave Hf9_dst := (Entails.of_eq (congrArg (fun z => ((slotM 9 inb_S10x20x128_S1x20x128_9_0_0).view.loc (V d (cV L) (jV L)) ↦[(slotM 9 inb_S10x20x128_S1x20x128_9_0_0).view.set]{fullShare} z : sProp 𝕄))
          (write_of_read_eq (F := F) (slotM 9 inb_S10x20x128_S1x20x128_9_0_0).view c9 _ hrd9).symm)) $$ Hf9_dst
        iapply (accLoop9 tab adr d L hadr k _ _ c9 hh9 _ _) $$ [Hf9_dst HsY]
        · isplitl [Hf9_dst]; · iexact Hf9_dst
          iexists _; isplitl [HsY]; · iexact HsY
          ipureintro; exact hacc9
        iintro %r9 ⟨Hf9_dst, %fy10, HsY, %hacc10⟩
        sl_exec
        sl_step
        rw [invV_lt tab adr d L hadr O W (k.val + 1) (by omega)]
        isplitl [Hmw]; · iexact Hmw
        isplitl [Hf0 Ht0 HA0]
        · iexists _; iexists _; iexists _
          isplitl [Hf0]; · iexact Hf0
          isplitl [Ht0]; · iexact Ht0
          isplitl [HA0]; · iexact HA0
          isplitr
          · ipureintro; rw [k2_off19_eq]; exact congrArg (fun x => (![x, 0] : Fin 2 → ℕ)) (by omega)
          · ipureintro; exact read_writes_whole _ _ _
        isplitl [Hf1 Ht1 HA1]
        · iexists _; iexists _; iexists _
          isplitl [Hf1]; · iexact Hf1
          isplitl [Ht1]; · iexact Ht1
          isplitl [HA1]; · iexact HA1
          isplitr
          · ipureintro; rw [k2_off36_eq]; exact congrArg (fun x => (![x, 0] : Fin 2 → ℕ)) (by omega)
          · ipureintro; exact read_writes_whole _ _ _
        isplitl [Hf2 Ht2 HA2]
        · iexists _; iexists _; iexists _
          isplitl [Hf2]; · iexact Hf2
          isplitl [Ht2]; · iexact Ht2
          isplitl [HA2]; · iexact HA2
          isplitr
          · ipureintro; rw [k2_off53_eq]; exact congrArg (fun x => (![x, 0] : Fin 2 → ℕ)) (by omega)
          · ipureintro; exact read_writes_whole _ _ _
        isplitl [Hf3 Ht3 HA3]
        · iexists _; iexists _; iexists _
          isplitl [Hf3]; · iexact Hf3
          isplitl [Ht3]; · iexact Ht3
          isplitl [HA3]; · iexact HA3
          isplitr
          · ipureintro; rw [k2_off70_eq]; exact congrArg (fun x => (![x, 0] : Fin 2 → ℕ)) (by omega)
          · ipureintro; exact read_writes_whole _ _ _
        isplitl [Hf4 Ht4 HA4]
        · iexists _; iexists _; iexists _
          isplitl [Hf4]; · iexact Hf4
          isplitl [Ht4]; · iexact Ht4
          isplitl [HA4]; · iexact HA4
          isplitr
          · ipureintro; rw [k2_off87_eq]; exact congrArg (fun x => (![x, 0] : Fin 2 → ℕ)) (by omega)
          · ipureintro; exact read_writes_whole _ _ _
        isplitl [Hf5 Ht5 HA5]
        · iexists _; iexists _; iexists _
          isplitl [Hf5]; · iexact Hf5
          isplitl [Ht5]; · iexact Ht5
          isplitl [HA5]; · iexact HA5
          isplitr
          · ipureintro; rw [k2_off104_eq]; exact congrArg (fun x => (![x, 0] : Fin 2 → ℕ)) (by omega)
          · ipureintro; exact read_writes_whole _ _ _
        isplitl [Hf6 Ht6 HA6]
        · iexists _; iexists _; iexists _
          isplitl [Hf6]; · iexact Hf6
          isplitl [Ht6]; · iexact Ht6
          isplitl [HA6]; · iexact HA6
          isplitr
          · ipureintro; rw [k2_off121_eq]; exact congrArg (fun x => (![x, 0] : Fin 2 → ℕ)) (by omega)
          · ipureintro; exact read_writes_whole _ _ _
        isplitl [Hf7 Ht7 HA7]
        · iexists _; iexists _; iexists _
          isplitl [Hf7]; · iexact Hf7
          isplitl [Ht7]; · iexact Ht7
          isplitl [HA7]; · iexact HA7
          isplitr
          · ipureintro; rw [k2_off138_eq]; exact congrArg (fun x => (![x, 0] : Fin 2 → ℕ)) (by omega)
          · ipureintro; exact read_writes_whole _ _ _
        isplitl [Hf8 Ht8 HA8]
        · iexists _; iexists _; iexists _
          isplitl [Hf8]; · iexact Hf8
          isplitl [Ht8]; · iexact Ht8
          isplitl [HA8]; · iexact HA8
          isplitr
          · ipureintro; rw [k2_off155_eq]; exact congrArg (fun x => (![x, 0] : Fin 2 → ℕ)) (by omega)
          · ipureintro; exact read_writes_whole _ _ _
        isplitl [Hf9 Ht9 HA9]
        · iexists _; iexists _; iexists _
          isplitl [Hf9]; · iexact Hf9
          isplitl [Ht9]; · iexact Ht9
          isplitl [HA9]; · iexact HA9
          isplitr
          · ipureintro; rw [k2_off172_eq]; exact congrArg (fun x => (![x, 0] : Fin 2 → ℕ)) (by omega)
          · ipureintro; exact read_writes_whole _ _ _
        isplitl [HsY]
        · iexists _; isplitl [HsY]; · iexact HsY
          ipureintro; exact (show 10 * k.val + 9 + 1 = 10 * (k.val + 1) by omega) ▸ hacc10
        isplitl [Hop Hor]
        · ihave Hj := (pointsTo_join_subset (ℓ := oLoc d) (q := fullShare) (oPart_subset L k hc9)) $$ [Hop Hor]
          · isplitl [Hop]; · iexact Hop
            iexact Hor
          iexists _; isplitl [Hj]; · iexact Hj
          ipureintro
          refine out_step tab adr d L k h5 hc9 fy10 hacc10 fo _ hout ?_ (fun x hx => Finset.piecewise_eq_of_notMem _ _ _ hx)
          rw [read_piecewise_set]
          first | exact View.read_write_univ _ _ | exact read_writes_whole _ _ _
        isplitl [Hs20]; · iexact Hs20
        iexists _; isplitr
        rotate_left
        · iexact HO
        · ipureintro; exact waits_step (waits_step (waits_step (waits_step (waits_step (waits_step (waits_step (waits_step (waits_step (waits_step (waits_step (hW')))))))))))

      ·
        have hc9 := cond_out9_neg k h5
        sl_exec
        ihave Hf0_dst := (Entails.of_eq (congrArg (fun z => ((slotM 0 inb_S10x20x128_S1x20x128_0_0_0).view.loc (V d (cV L) (jV L)) ↦[(slotM 0 inb_S10x20x128_S1x20x128_0_0_0).view.set]{fullShare} z : sProp 𝕄))
          (write_of_read_eq (F := F) (slotM 0 inb_S10x20x128_S1x20x128_0_0_0).view c0 _ hrd0).symm)) $$ Hf0_dst
        iapply (accLoop0 tab adr d L hadr k _ _ _ c0 hh0 _ _) $$ [Hf0_dst HsY]
        · isplitl [Hf0_dst]; · iexact Hf0_dst
          iexists _; isplitl [HsY]; · iexact HsY
          ipureintro; exact hacc0
        iintro %r0 ⟨Hf0_dst, %fy1, HsY, %hacc1⟩
        sl_exec
        ihave Hf1_dst := (Entails.of_eq (congrArg (fun z => ((slotM 1 inb_S10x20x128_S1x20x128_1_0_0).view.loc (V d (cV L) (jV L)) ↦[(slotM 1 inb_S10x20x128_S1x20x128_1_0_0).view.set]{fullShare} z : sProp 𝕄))
          (write_of_read_eq (F := F) (slotM 1 inb_S10x20x128_S1x20x128_1_0_0).view c1 _ hrd1).symm)) $$ Hf1_dst
        iapply (accLoop1 tab adr d L hadr k _ _ _ _ c1 hh1 _ _) $$ [Hf1_dst HsY]
        · isplitl [Hf1_dst]; · iexact Hf1_dst
          iexists _; isplitl [HsY]; · iexact HsY
          ipureintro; exact hacc1
        iintro %r1 ⟨Hf1_dst, %fy2, HsY, %hacc2⟩
        sl_exec
        ihave Hf2_dst := (Entails.of_eq (congrArg (fun z => ((slotM 2 inb_S10x20x128_S1x20x128_2_0_0).view.loc (V d (cV L) (jV L)) ↦[(slotM 2 inb_S10x20x128_S1x20x128_2_0_0).view.set]{fullShare} z : sProp 𝕄))
          (write_of_read_eq (F := F) (slotM 2 inb_S10x20x128_S1x20x128_2_0_0).view c2 _ hrd2).symm)) $$ Hf2_dst
        iapply (accLoop2 tab adr d L hadr k _ _ _ _ _ _ c2 hh2 _ _) $$ [Hf2_dst HsY]
        · isplitl [Hf2_dst]; · iexact Hf2_dst
          iexists _; isplitl [HsY]; · iexact HsY
          ipureintro; exact hacc2
        iintro %r2 ⟨Hf2_dst, %fy3, HsY, %hacc3⟩
        sl_exec
        ihave Hf3_dst := (Entails.of_eq (congrArg (fun z => ((slotM 3 inb_S10x20x128_S1x20x128_3_0_0).view.loc (V d (cV L) (jV L)) ↦[(slotM 3 inb_S10x20x128_S1x20x128_3_0_0).view.set]{fullShare} z : sProp 𝕄))
          (write_of_read_eq (F := F) (slotM 3 inb_S10x20x128_S1x20x128_3_0_0).view c3 _ hrd3).symm)) $$ Hf3_dst
        iapply (accLoop3 tab adr d L hadr k _ _ _ _ _ c3 hh3 _ _) $$ [Hf3_dst HsY]
        · isplitl [Hf3_dst]; · iexact Hf3_dst
          iexists _; isplitl [HsY]; · iexact HsY
          ipureintro; exact hacc3
        iintro %r3 ⟨Hf3_dst, %fy4, HsY, %hacc4⟩
        sl_exec
        ihave Hf4_dst := (Entails.of_eq (congrArg (fun z => ((slotM 4 inb_S10x20x128_S1x20x128_4_0_0).view.loc (V d (cV L) (jV L)) ↦[(slotM 4 inb_S10x20x128_S1x20x128_4_0_0).view.set]{fullShare} z : sProp 𝕄))
          (write_of_read_eq (F := F) (slotM 4 inb_S10x20x128_S1x20x128_4_0_0).view c4 _ hrd4).symm)) $$ Hf4_dst
        iapply (accLoop4 tab adr d L hadr k _ _ _ _ _ _ _ c4 hh4 _ _) $$ [Hf4_dst HsY]
        · isplitl [Hf4_dst]; · iexact Hf4_dst
          iexists _; isplitl [HsY]; · iexact HsY
          ipureintro; exact hacc4
        iintro %r4 ⟨Hf4_dst, %fy5, HsY, %hacc5⟩
        sl_exec
        ihave Hf5_dst := (Entails.of_eq (congrArg (fun z => ((slotM 5 inb_S10x20x128_S1x20x128_5_0_0).view.loc (V d (cV L) (jV L)) ↦[(slotM 5 inb_S10x20x128_S1x20x128_5_0_0).view.set]{fullShare} z : sProp 𝕄))
          (write_of_read_eq (F := F) (slotM 5 inb_S10x20x128_S1x20x128_5_0_0).view c5 _ hrd5).symm)) $$ Hf5_dst
        iapply (accLoop5 tab adr d L hadr k _ _ _ _ _ _ _ _ c5 hh5 _ _) $$ [Hf5_dst HsY]
        · isplitl [Hf5_dst]; · iexact Hf5_dst
          iexists _; isplitl [HsY]; · iexact HsY
          ipureintro; exact hacc5
        iintro %r5 ⟨Hf5_dst, %fy6, HsY, %hacc6⟩
        sl_exec
        ihave Hf6_dst := (Entails.of_eq (congrArg (fun z => ((slotM 6 inb_S10x20x128_S1x20x128_6_0_0).view.loc (V d (cV L) (jV L)) ↦[(slotM 6 inb_S10x20x128_S1x20x128_6_0_0).view.set]{fullShare} z : sProp 𝕄))
          (write_of_read_eq (F := F) (slotM 6 inb_S10x20x128_S1x20x128_6_0_0).view c6 _ hrd6).symm)) $$ Hf6_dst
        iapply (accLoop6 tab adr d L hadr k _ _ _ _ _ _ _ c6 hh6 _ _) $$ [Hf6_dst HsY]
        · isplitl [Hf6_dst]; · iexact Hf6_dst
          iexists _; isplitl [HsY]; · iexact HsY
          ipureintro; exact hacc6
        iintro %r6 ⟨Hf6_dst, %fy7, HsY, %hacc7⟩
        sl_exec
        ihave Hf7_dst := (Entails.of_eq (congrArg (fun z => ((slotM 7 inb_S10x20x128_S1x20x128_7_0_0).view.loc (V d (cV L) (jV L)) ↦[(slotM 7 inb_S10x20x128_S1x20x128_7_0_0).view.set]{fullShare} z : sProp 𝕄))
          (write_of_read_eq (F := F) (slotM 7 inb_S10x20x128_S1x20x128_7_0_0).view c7 _ hrd7).symm)) $$ Hf7_dst
        iapply (accLoop7 tab adr d L hadr k _ _ _ _ c7 hh7 _ _) $$ [Hf7_dst HsY]
        · isplitl [Hf7_dst]; · iexact Hf7_dst
          iexists _; isplitl [HsY]; · iexact HsY
          ipureintro; exact hacc7
        iintro %r7 ⟨Hf7_dst, %fy8, HsY, %hacc8⟩
        sl_exec
        ihave Hf8_dst := (Entails.of_eq (congrArg (fun z => ((slotM 8 inb_S10x20x128_S1x20x128_8_0_0).view.loc (V d (cV L) (jV L)) ↦[(slotM 8 inb_S10x20x128_S1x20x128_8_0_0).view.set]{fullShare} z : sProp 𝕄))
          (write_of_read_eq (F := F) (slotM 8 inb_S10x20x128_S1x20x128_8_0_0).view c8 _ hrd8).symm)) $$ Hf8_dst
        iapply (accLoop8 tab adr d L hadr k _ _ _ c8 hh8 _ _) $$ [Hf8_dst HsY]
        · isplitl [Hf8_dst]; · iexact Hf8_dst
          iexists _; isplitl [HsY]; · iexact HsY
          ipureintro; exact hacc8
        iintro %r8 ⟨Hf8_dst, %fy9, HsY, %hacc9⟩
        sl_exec
        ihave Hf9_dst := (Entails.of_eq (congrArg (fun z => ((slotM 9 inb_S10x20x128_S1x20x128_9_0_0).view.loc (V d (cV L) (jV L)) ↦[(slotM 9 inb_S10x20x128_S1x20x128_9_0_0).view.set]{fullShare} z : sProp 𝕄))
          (write_of_read_eq (F := F) (slotM 9 inb_S10x20x128_S1x20x128_9_0_0).view c9 _ hrd9).symm)) $$ Hf9_dst
        iapply (accLoop9 tab adr d L hadr k _ _ c9 hh9 _ _) $$ [Hf9_dst HsY]
        · isplitl [Hf9_dst]; · iexact Hf9_dst
          iexists _; isplitl [HsY]; · iexact HsY
          ipureintro; exact hacc9
        iintro %r9 ⟨Hf9_dst, %fy10, HsY, %hacc10⟩
        sl_exec
        sl_step
        rw [invV_lt tab adr d L hadr O W (k.val + 1) (by omega)]
        isplitl [Hmw]; · iexact Hmw
        isplitl [Hf0 Ht0 HA0]
        · iexists _; iexists _; iexists _
          isplitl [Hf0]; · iexact Hf0
          isplitl [Ht0]; · iexact Ht0
          isplitl [HA0]; · iexact HA0
          isplitr
          · ipureintro; rw [k2_off19_eq]; exact congrArg (fun x => (![x, 0] : Fin 2 → ℕ)) (by omega)
          · ipureintro; exact read_writes_whole _ _ _
        isplitl [Hf1 Ht1 HA1]
        · iexists _; iexists _; iexists _
          isplitl [Hf1]; · iexact Hf1
          isplitl [Ht1]; · iexact Ht1
          isplitl [HA1]; · iexact HA1
          isplitr
          · ipureintro; rw [k2_off36_eq]; exact congrArg (fun x => (![x, 0] : Fin 2 → ℕ)) (by omega)
          · ipureintro; exact read_writes_whole _ _ _
        isplitl [Hf2 Ht2 HA2]
        · iexists _; iexists _; iexists _
          isplitl [Hf2]; · iexact Hf2
          isplitl [Ht2]; · iexact Ht2
          isplitl [HA2]; · iexact HA2
          isplitr
          · ipureintro; rw [k2_off53_eq]; exact congrArg (fun x => (![x, 0] : Fin 2 → ℕ)) (by omega)
          · ipureintro; exact read_writes_whole _ _ _
        isplitl [Hf3 Ht3 HA3]
        · iexists _; iexists _; iexists _
          isplitl [Hf3]; · iexact Hf3
          isplitl [Ht3]; · iexact Ht3
          isplitl [HA3]; · iexact HA3
          isplitr
          · ipureintro; rw [k2_off70_eq]; exact congrArg (fun x => (![x, 0] : Fin 2 → ℕ)) (by omega)
          · ipureintro; exact read_writes_whole _ _ _
        isplitl [Hf4 Ht4 HA4]
        · iexists _; iexists _; iexists _
          isplitl [Hf4]; · iexact Hf4
          isplitl [Ht4]; · iexact Ht4
          isplitl [HA4]; · iexact HA4
          isplitr
          · ipureintro; rw [k2_off87_eq]; exact congrArg (fun x => (![x, 0] : Fin 2 → ℕ)) (by omega)
          · ipureintro; exact read_writes_whole _ _ _
        isplitl [Hf5 Ht5 HA5]
        · iexists _; iexists _; iexists _
          isplitl [Hf5]; · iexact Hf5
          isplitl [Ht5]; · iexact Ht5
          isplitl [HA5]; · iexact HA5
          isplitr
          · ipureintro; rw [k2_off104_eq]; exact congrArg (fun x => (![x, 0] : Fin 2 → ℕ)) (by omega)
          · ipureintro; exact read_writes_whole _ _ _
        isplitl [Hf6 Ht6 HA6]
        · iexists _; iexists _; iexists _
          isplitl [Hf6]; · iexact Hf6
          isplitl [Ht6]; · iexact Ht6
          isplitl [HA6]; · iexact HA6
          isplitr
          · ipureintro; rw [k2_off121_eq]; exact congrArg (fun x => (![x, 0] : Fin 2 → ℕ)) (by omega)
          · ipureintro; exact read_writes_whole _ _ _
        isplitl [Hf7 Ht7 HA7]
        · iexists _; iexists _; iexists _
          isplitl [Hf7]; · iexact Hf7
          isplitl [Ht7]; · iexact Ht7
          isplitl [HA7]; · iexact HA7
          isplitr
          · ipureintro; rw [k2_off138_eq]; exact congrArg (fun x => (![x, 0] : Fin 2 → ℕ)) (by omega)
          · ipureintro; exact read_writes_whole _ _ _
        isplitl [Hf8 Ht8 HA8]
        · iexists _; iexists _; iexists _
          isplitl [Hf8]; · iexact Hf8
          isplitl [Ht8]; · iexact Ht8
          isplitl [HA8]; · iexact HA8
          isplitr
          · ipureintro; rw [k2_off155_eq]; exact congrArg (fun x => (![x, 0] : Fin 2 → ℕ)) (by omega)
          · ipureintro; exact read_writes_whole _ _ _
        isplitl [Hf9 Ht9 HA9]
        · iexists _; iexists _; iexists _
          isplitl [Hf9]; · iexact Hf9
          isplitl [Ht9]; · iexact Ht9
          isplitl [HA9]; · iexact HA9
          isplitr
          · ipureintro; rw [k2_off172_eq]; exact congrArg (fun x => (![x, 0] : Fin 2 → ℕ)) (by omega)
          · ipureintro; exact read_writes_whole _ _ _
        isplitl [HsY]
        · iexists _; isplitl [HsY]; · iexact HsY
          ipureintro; exact (show 10 * k.val + 9 + 1 = 10 * (k.val + 1) by omega) ▸ hacc10
        isplitl [Ho]
        · iexists _; isplitl [Ho]; · iexact Ho
          ipureintro; exact (show k.val / 5 = (k.val + 1) / 5 by omega) ▸ hout
        isplitl [Hs20]; · iexact Hs20
        iexists _; isplitr
        rotate_left
        · iexact HO
        · ipureintro; exact waits_step (waits_step (waits_step (waits_step (waits_step (waits_step (waits_step (waits_step (waits_step (waits_step (hW'))))))))))

    ·
      have hk24 : k.val = 24 := by omega
      have hr0 := cond_re0_neg k hk; have hr1 := cond_re1_neg k hk; have hr2 := cond_re2_neg k hk; have hr3 := cond_re3_neg k hk; have hr4 := cond_re4_neg k hk; have hr5 := cond_re5_neg k hk; have hr6 := cond_re6_neg k hk; have hr7 := cond_re7_neg k hk; have hr8 := cond_re8_neg k hk; have hr9 := cond_re9_neg k hk
      have h5 : k.val % 5 = 4 := by omega
      have hc9 := cond_out9_pos k h5
      -- the part of the output slab this group's copy-out writes, held by its own elements as the program slices it
      ihave Ho2 := (pointsTo_split_subset (oPart_subset L k hc9)).1 $$ Ho
      icases Ho2 with ⟨Hop, Hor⟩
      ihave Hop := (Entails.of_eq (show (oLoc d ↦[(oPartK L k hc9).view.set]{fullShare} fo : sProp 𝕄)
          = ((oPartK L k hc9).view.loc (V d (cV L) (jV L)) ↦[(oPartK L k hc9).view.set]{fullShare} fo) from rfl)) $$ Hop
      sl_exec
      ihave Hf0_dst := (Entails.of_eq (congrArg (fun z => ((slotM 0 inb_S10x20x128_S1x20x128_0_0_0).view.loc (V d (cV L) (jV L)) ↦[(slotM 0 inb_S10x20x128_S1x20x128_0_0_0).view.set]{fullShare} z : sProp 𝕄))
        (write_of_read_eq (F := F) (slotM 0 inb_S10x20x128_S1x20x128_0_0_0).view c0 _ hrd0).symm)) $$ Hf0_dst
      iapply (accLoop0 tab adr d L hadr k _ _ _ c0 hh0 _ _) $$ [Hf0_dst HsY]
      · isplitl [Hf0_dst]; · iexact Hf0_dst
        iexists _; isplitl [HsY]; · iexact HsY
        ipureintro; exact hacc0
      iintro %r0 ⟨Hf0_dst, %fy1, HsY, %hacc1⟩
      sl_exec
      ihave Hf1_dst := (Entails.of_eq (congrArg (fun z => ((slotM 1 inb_S10x20x128_S1x20x128_1_0_0).view.loc (V d (cV L) (jV L)) ↦[(slotM 1 inb_S10x20x128_S1x20x128_1_0_0).view.set]{fullShare} z : sProp 𝕄))
        (write_of_read_eq (F := F) (slotM 1 inb_S10x20x128_S1x20x128_1_0_0).view c1 _ hrd1).symm)) $$ Hf1_dst
      iapply (accLoop1 tab adr d L hadr k _ _ _ _ c1 hh1 _ _) $$ [Hf1_dst HsY]
      · isplitl [Hf1_dst]; · iexact Hf1_dst
        iexists _; isplitl [HsY]; · iexact HsY
        ipureintro; exact hacc1
      iintro %r1 ⟨Hf1_dst, %fy2, HsY, %hacc2⟩
      sl_exec
      ihave Hf2_dst := (Entails.of_eq (congrArg (fun z => ((slotM 2 inb_S10x20x128_S1x20x128_2_0_0).view.loc (V d (cV L) (jV L)) ↦[(slotM 2 inb_S10x20x128_S1x20x128_2_0_0).view.set]{fullShare} z : sProp 𝕄))
        (write_of_read_eq (F := F) (slotM 2 inb_S10x20x128_S1x20x128_2_0_0).view c2 _ hrd2).symm)) $$ Hf2_dst
      iapply (accLoop2 tab adr d L hadr k _ _ _ _ _ _ c2 hh2 _ _) $$ [Hf2_dst HsY]
      · isplitl [Hf2_dst]; · iexact Hf2_dst
        iexists _; isplitl [HsY]; · iexact HsY
        ipureintro; exact hacc2
      iintro %r2 ⟨Hf2_dst, %fy3, HsY, %hacc3⟩
      sl_exec
      ihave Hf3_dst := (Entails.of_eq (congrArg (fun z => ((slotM 3 inb_S10x20x128_S1x20x128_3_0_0).view.loc (V d (cV L) (jV L)) ↦[(slotM 3 inb_S10x20x128_S1x20x128_3_0_0).view.set]{fullShare} z : sProp 𝕄))
        (write_of_read_eq (F := F) (slotM 3 inb_S10x20x128_S1x20x128_3_0_0).view c3 _ hrd3).symm)) $$ Hf3_dst
      iapply (accLoop3 tab adr d L hadr k _ _ _ _ _ c3 hh3 _ _) $$ [Hf3_dst HsY]
      · isplitl [Hf3_dst]; · iexact Hf3_dst
        iexists _; isplitl [HsY]; · iexact HsY
        ipureintro; exact hacc3
      iintro %r3 ⟨Hf3_dst, %fy4, HsY, %hacc4⟩
      sl_exec
      ihave Hf4_dst := (Entails.of_eq (congrArg (fun z => ((slotM 4 inb_S10x20x128_S1x20x128_4_0_0).view.loc (V d (cV L) (jV L)) ↦[(slotM 4 inb_S10x20x128_S1x20x128_4_0_0).view.set]{fullShare} z : sProp 𝕄))
        (write_of_read_eq (F := F) (slotM 4 inb_S10x20x128_S1x20x128_4_0_0).view c4 _ hrd4).symm)) $$ Hf4_dst
      iapply (accLoop4 tab adr d L hadr k _ _ _ _ _ _ _ c4 hh4 _ _) $$ [Hf4_dst HsY]
      · isplitl [Hf4_dst]; · iexact Hf4_dst
        iexists _; isplitl [HsY]; · iexact HsY
        ipureintro; exact hacc4
      iintro %r4 ⟨Hf4_dst, %fy5, HsY, %hacc5⟩
      sl_exec
      ihave Hf5_dst := (Entails.of_eq (congrArg (fun z => ((slotM 5 inb_S10x20x128_S1x20x128_5_0_0).view.loc (V d (cV L) (jV L)) ↦[(slotM 5 inb_S10x20x128_S1x20x128_5_0_0).view.set]{fullShare} z : sProp 𝕄))
        (write_of_read_eq (F := F) (slotM 5 inb_S10x20x128_S1x20x128_5_0_0).view c5 _ hrd5).symm)) $$ Hf5_dst
      iapply (accLoop5 tab adr d L hadr k _ _ _ _ _ _ _ _ c5 hh5 _ _) $$ [Hf5_dst HsY]
      · isplitl [Hf5_dst]; · iexact Hf5_dst
        iexists _; isplitl [HsY]; · iexact HsY
        ipureintro; exact hacc5
      iintro %r5 ⟨Hf5_dst, %fy6, HsY, %hacc6⟩
      sl_exec
      ihave Hf6_dst := (Entails.of_eq (congrArg (fun z => ((slotM 6 inb_S10x20x128_S1x20x128_6_0_0).view.loc (V d (cV L) (jV L)) ↦[(slotM 6 inb_S10x20x128_S1x20x128_6_0_0).view.set]{fullShare} z : sProp 𝕄))
        (write_of_read_eq (F := F) (slotM 6 inb_S10x20x128_S1x20x128_6_0_0).view c6 _ hrd6).symm)) $$ Hf6_dst
      iapply (accLoop6 tab adr d L hadr k _ _ _ _ _ _ _ c6 hh6 _ _) $$ [Hf6_dst HsY]
      · isplitl [Hf6_dst]; · iexact Hf6_dst
        iexists _; isplitl [HsY]; · iexact HsY
        ipureintro; exact hacc6
      iintro %r6 ⟨Hf6_dst, %fy7, HsY, %hacc7⟩
      sl_exec
      ihave Hf7_dst := (Entails.of_eq (congrArg (fun z => ((slotM 7 inb_S10x20x128_S1x20x128_7_0_0).view.loc (V d (cV L) (jV L)) ↦[(slotM 7 inb_S10x20x128_S1x20x128_7_0_0).view.set]{fullShare} z : sProp 𝕄))
        (write_of_read_eq (F := F) (slotM 7 inb_S10x20x128_S1x20x128_7_0_0).view c7 _ hrd7).symm)) $$ Hf7_dst
      iapply (accLoop7 tab adr d L hadr k _ _ _ _ c7 hh7 _ _) $$ [Hf7_dst HsY]
      · isplitl [Hf7_dst]; · iexact Hf7_dst
        iexists _; isplitl [HsY]; · iexact HsY
        ipureintro; exact hacc7
      iintro %r7 ⟨Hf7_dst, %fy8, HsY, %hacc8⟩
      sl_exec
      ihave Hf8_dst := (Entails.of_eq (congrArg (fun z => ((slotM 8 inb_S10x20x128_S1x20x128_8_0_0).view.loc (V d (cV L) (jV L)) ↦[(slotM 8 inb_S10x20x128_S1x20x128_8_0_0).view.set]{fullShare} z : sProp 𝕄))
        (write_of_read_eq (F := F) (slotM 8 inb_S10x20x128_S1x20x128_8_0_0).view c8 _ hrd8).symm)) $$ Hf8_dst
      iapply (accLoop8 tab adr d L hadr k _ _ _ c8 hh8 _ _) $$ [Hf8_dst HsY]
      · isplitl [Hf8_dst]; · iexact Hf8_dst
        iexists _; isplitl [HsY]; · iexact HsY
        ipureintro; exact hacc8
      iintro %r8 ⟨Hf8_dst, %fy9, HsY, %hacc9⟩
      sl_exec
      ihave Hf9_dst := (Entails.of_eq (congrArg (fun z => ((slotM 9 inb_S10x20x128_S1x20x128_9_0_0).view.loc (V d (cV L) (jV L)) ↦[(slotM 9 inb_S10x20x128_S1x20x128_9_0_0).view.set]{fullShare} z : sProp 𝕄))
        (write_of_read_eq (F := F) (slotM 9 inb_S10x20x128_S1x20x128_9_0_0).view c9 _ hrd9).symm)) $$ Hf9_dst
      iapply (accLoop9 tab adr d L hadr k _ _ c9 hh9 _ _) $$ [Hf9_dst HsY]
      · isplitl [Hf9_dst]; · iexact Hf9_dst
        iexists _; isplitl [HsY]; · iexact HsY
        ipureintro; exact hacc9
      iintro %r9 ⟨Hf9_dst, %fy10, HsY, %hacc10⟩
      sl_exec
      sl_step
      rw [invV_ge tab adr d L hadr O W (k.val + 1) (by omega)]
      isplitl [Hmw]; · iexact Hmw
      isplitl [Hf0 Hf0_dst Ht0 HA0]
      · isplitl [Hf0]; · iexact Hf0
        isplitl [Hf0_dst]; · iexists _; iexact Hf0_dst
        isplitl [Ht0]; · iexact Ht0
        iexact HA0
      isplitl [Hf1 Hf1_dst Ht1 HA1]
      · isplitl [Hf1]; · iexact Hf1
        isplitl [Hf1_dst]; · iexists _; iexact Hf1_dst
        isplitl [Ht1]; · iexact Ht1
        iexact HA1
      isplitl [Hf2 Hf2_dst Ht2 HA2]
      · isplitl [Hf2]; · iexact Hf2
        isplitl [Hf2_dst]; · iexists _; iexact Hf2_dst
        isplitl [Ht2]; · iexact Ht2
        iexact HA2
      isplitl [Hf3 Hf3_dst Ht3 HA3]
      · isplitl [Hf3]; · iexact Hf3
        isplitl [Hf3_dst]; · iexists _; iexact Hf3_dst
        isplitl [Ht3]; · iexact Ht3
        iexact HA3
      isplitl [Hf4 Hf4_dst Ht4 HA4]
      · isplitl [Hf4]; · iexact Hf4
        isplitl [Hf4_dst]; · iexists _; iexact Hf4_dst
        isplitl [Ht4]; · iexact Ht4
        iexact HA4
      isplitl [Hf5 Hf5_dst Ht5 HA5]
      · isplitl [Hf5]; · iexact Hf5
        isplitl [Hf5_dst]; · iexists _; iexact Hf5_dst
        isplitl [Ht5]; · iexact Ht5
        iexact HA5
      isplitl [Hf6 Hf6_dst Ht6 HA6]
      · isplitl [Hf6]; · iexact Hf6
        isplitl [Hf6_dst]; · iexists _; iexact Hf6_dst
        isplitl [Ht6]; · iexact Ht6
        iexact HA6
      isplitl [Hf7 Hf7_dst Ht7 HA7]
      · isplitl [Hf7]; · iexact Hf7
        isplitl [Hf7_dst]; · iexists _; iexact Hf7_dst
        isplitl [Ht7]; · iexact Ht7
        iexact HA7
      isplitl [Hf8 Hf8_dst Ht8 HA8]
      · isplitl [Hf8]; · iexact Hf8
        isplitl [Hf8_dst]; · iexists _; iexact Hf8_dst
        isplitl [Ht8]; · iexact Ht8
        iexact HA8
      isplitl [Hf9 Hf9_dst Ht9 HA9]
      · isplitl [Hf9]; · iexact Hf9
        isplitl [Hf9_dst]; · iexists _; iexact Hf9_dst
        isplitl [Ht9]; · iexact Ht9
        iexact HA9
      isplitl [HsY]
      · iexists _; isplitl [HsY]; · iexact HsY
        ipureintro; exact (show 10 * k.val + 9 + 1 = 10 * (k.val + 1) by omega) ▸ hacc10
      isplitl [Hop Hor]
      · ihave Hj := (pointsTo_join_subset (ℓ := oLoc d) (q := fullShare) (oPart_subset L k hc9)) $$ [Hop Hor]
        · isplitl [Hop]; · iexact Hop
          iexact Hor
        iexists _; isplitl [Hj]; · iexact Hj
        ipureintro
        refine out_step tab adr d L k h5 hc9 fy10 hacc10 fo _ hout ?_ (fun x hx => Finset.piecewise_eq_of_notMem _ _ _ hx)
        rw [read_piecewise_set]
        first | exact View.read_write_univ _ _ | exact read_writes_whole _ _ _
      isplitl [Hs20]; · iexact Hs20
      iexists _; isplitr
      rotate_left
      · iexact HO
      · ipureintro; exact waits_step (waits_step (waits_step (waits_step (waits_step (waits_step (waits_step (waits_step (waits_step (waits_step (waits_step (hW')))))))))))

  · rw [invV_lt tab adr d L hadr O W 0 (by decide)]
    isplitl [Hmw]; · iexact Hmw
    isplitl [Hs0 Ht0 HA0]
    · iexists _; iexists _; iexists _
      isplitl [Hs0]; · iexact Hs0
      isplitl [Ht0]; · iexact Ht0
      isplitl [HA0]; · iexact HA0
      isplitr
      · ipureintro; rfl
      · ipureintro; exact View.read_write_univ _ _
    isplitl [Hs1 Ht1 HA1]
    · iexists _; iexists _; iexists _
      isplitl [Hs1]; · iexact Hs1
      isplitl [Ht1]; · iexact Ht1
      isplitl [HA1]; · iexact HA1
      isplitr
      · ipureintro; rfl
      · ipureintro; exact View.read_write_univ _ _
    isplitl [Hs2 Ht2 HA2]
    · iexists _; iexists _; iexists _
      isplitl [Hs2]; · iexact Hs2
      isplitl [Ht2]; · iexact Ht2
      isplitl [HA2]; · iexact HA2
      isplitr
      · ipureintro; rfl
      · ipureintro; exact View.read_write_univ _ _
    isplitl [Hs3 Ht3 HA3]
    · iexists _; iexists _; iexists _
      isplitl [Hs3]; · iexact Hs3
      isplitl [Ht3]; · iexact Ht3
      isplitl [HA3]; · iexact HA3
      isplitr
      · ipureintro; rfl
      · ipureintro; exact View.read_write_univ _ _
    isplitl [Hs4 Ht4 HA4]
    · iexists _; iexists _; iexists _
      isplitl [Hs4]; · iexact Hs4
      isplitl [Ht4]; · iexact Ht4
      isplitl [HA4]; · iexact HA4
      isplitr
      · ipureintro; rfl
      · ipureintro; exact View.read_write_univ _ _
    isplitl [Hs5 Ht5 HA5]
    · iexists _; iexists _; iexists _
      isplitl [Hs5]; · iexact Hs5
      isplitl [Ht5]; · iexact Ht5
      isplitl [HA5]; · iexact HA5
      isplitr
      · ipureintro; rfl
      · ipureintro; exact View.read_write_univ _ _
    isplitl [Hs6 Ht6 HA6]
    · iexists _; iexists _; iexists _
      isplitl [Hs6]; · iexact Hs6
      isplitl [Ht6]; · iexact Ht6
      isplitl [HA6]; · iexact HA6
      isplitr
      · ipureintro; rfl
      · ipureintro; exact View.read_write_univ _ _
    isplitl [Hs7 Ht7 HA7]
    · iexists _; iexists _; iexists _
      isplitl [Hs7]; · iexact Hs7
      isplitl [Ht7]; · iexact Ht7
      isplitl [HA7]; · iexact HA7
      isplitr
      · ipureintro; rfl
      · ipureintro; exact View.read_write_univ _ _
    isplitl [Hs8 Ht8 HA8]
    · iexists _; iexists _; iexists _
      isplitl [Hs8]; · iexact Hs8
      isplitl [Ht8]; · iexact Ht8
      isplitl [HA8]; · iexact HA8
      isplitr
      · ipureintro; rfl
      · ipureintro; exact View.read_write_univ _ _
    isplitl [Hs9 Ht9 HA9]
    · iexists _; iexists _; iexists _
      isplitl [Hs9]; · iexact Hs9
      isplitl [Ht9]; · iexact Ht9
      isplitl [HA9]; · iexact HA9
      isplitr
      · ipureintro; rfl
      · ipureintro; exact View.read_write_univ _ _
    isplitl [HsY']
    · iexists _; isplitl [HsY']; · iexact HsY'
      ipureintro; intro c hc; exact absurd hc (Nat.not_lt_zero _)
    isplitl [Ho]
    · iexists _; isplitl [Ho]; · iexact Ho
      ipureintro; intro x _ hx; exact absurd hx (Nat.not_lt_zero _)
    isplitl [Hs20]; · iexact Hs20
    iexists _; isplitr
    rotate_left
    · iexact HO
    · ipureintro; exact waits_step (fun p hp => Or.inl hp)

  iintro %acc HI
  have htr : Scf.trips k2_t1_loop.lb k2_t1_loop.ub k2_t1_loop.st = 25 := trips_t1
  ihave HI := (Entails.of_eq (invV_ge tab adr d L hadr O W _ (by rw [htr]; decide) acc)) $$ HI
  icases HI with ⟨-, ⟨Hs0, Hr0, Ht0, HA0⟩, ⟨Hs1, Hr1, Ht1, HA1⟩, ⟨Hs2, Hr2, Ht2, HA2⟩, ⟨Hs3, Hr3, Ht3, HA3⟩, ⟨Hs4, Hr4, Ht4, HA4⟩, ⟨Hs5, Hr5, Ht5, HA5⟩, ⟨Hs6, Hr6, Ht6, HA6⟩, ⟨Hs7, Hr7, Ht7, HA7⟩, ⟨Hs8, Hr8, Ht8, HA8⟩, ⟨Hs9, Hr9, Ht9, HA9⟩, ⟨%fyE, HsY, -⟩, ⟨%foE, Ho, %houtE⟩, Hs20, %WE, %hWE, HO⟩
  sl_step
  isplitl [Htr Ht0 Ht1 Ht2 Ht3 Ht4 Ht5 Ht6 Ht7 Ht8 Ht9 Htlow Ha' Ho]
  · isplitl [Htr Ht0 Ht1 Ht2 Ht3 Ht4 Ht5 Ht6 Ht7 Ht8 Ht9 Htlow]
    · iapply (pts_tokens_join (F := F) ((tV).view.loc (V d (cV L) (jV L))) (qT (cL L) (sL L)) (tab d))
      isplitl [Htr]; · iexact Htr
      isplitl [Ht9]; · iexact Ht9
      isplitl [Ht8]; · iexact Ht8
      isplitl [Ht7]; · iexact Ht7
      isplitl [Ht6]; · iexact Ht6
      isplitl [Ht5]; · iexact Ht5
      isplitl [Ht4]; · iexact Ht4
      isplitl [Ht3]; · iexact Ht3
      isplitl [Ht2]; · iexact Ht2
      isplitl [Ht1]; · iexact Ht1
      isplitl [Ht0]; · iexact Ht0
      iexact Htlow
    isplitl [Ha']
    · iapply (Entails.of_eq (show ((aRowK L).view.loc (V d (cV L) (jV L)) ↦[(aRowK L).view.set]{fullShare} adr d : sProp 𝕄) = aPts adr d (wL L) from by rw [set_aRowK]))
      iexact Ha'
    · rw [htr] at houtE
      iapply (Entails.of_eq (pointsTo_congr (ℓ := oLoc d) (q := fullShare) (I := oSet (wL L)) fun i hi => houtE i hi (i 1).isLt))
      iexact Ho
  isplitl [HA0 Hr0 HA1 Hr1 HA2 Hr2 HA3 Hr3 HA4 Hr4 HA5 Hr5 HA6 Hr6 HA7 Hr7 HA8 Hr8 HA9 Hr9 HsR' HsY Hbufs]
  · isplitl [HA0 HA1 HA2 HA3 HA4 HA5 HA6 HA7 HA8 HA9]
    · iexists (fA adr d L)
      iapply (Entails.of_eq (pts_pieces10 (F := F) ((sA).view.loc (V d (cV L) (jV L))) (fA adr d L)).symm)
      isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      isplitl [HA8]; · iexact HA8
      iexact HA9
    isplitl [Hr0 Hr1 Hr2 Hr3 Hr4 Hr5 Hr6 Hr7 Hr8 Hr9 HsR']
    · iapply (sR_join (F := F) d L _)
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      isplitl [Hr7]; · iexact Hr7
      isplitl [Hr8]; · iexact Hr8
      isplitl [Hr9]; · iexact Hr9
      iexact HsR'
    isplitl [HsY]; · iexists _; iexact HsY
    iexact Hbufs
  isplitl [Hs0 Hs1 Hs2 Hs3 Hs4 Hs5 Hs6 Hs7 Hs8 Hs9 Hs10 Hs11 Hs12 Hs13 Hs14 Hs15 Hs16 Hs17 Hs18 Hs19 Hs20 Hsems]
  · isplitl [Hs0 Hs1 Hs2 Hs3 Hs4 Hs5 Hs6 Hs7 Hs8 Hs9 Hs10 Hs11 Hs12 Hs13 Hs14 Hs15 Hs16 Hs17 Hs18 Hs19 Hs20]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      iexact Hs20
    iexact Hsems
  iexists WE; isplitr
  · ipureintro; exact hWE
  · iexact HO

/-! ## The launch theorem's obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__sc_body (coordsV c s)
          tV (Memref.isWhole_whole _) aV (Memref.isWhole_whole _) oV (Memref.isWhole_whole _)
          sA (Memref.isWhole_whole _) sR (Memref.isWhole_whole _) sY (Memref.isWhole_whole _)
          cc2_scratch3 cc2_scratch4 cc2_scratch5 cc2_scratch6 cc2_scratch7 cc2_scratch8 cc2_scratch9 cc2_scratch10 cc2_scratch11 cc2_scratch12 cc2_scoped0 cc2_scoped1 cc2_scoped2 cc2_scoped3 cc2_scoped4 cc2_scoped5 cc2_scoped6 cc2_scoped7 cc2_scoped8 cc2_scoped9 cc2_scoped10) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hadr : AdrOK adr) : (K (F := F)).TileObl (D (F := F)) 𝒱 (P (F := F) tab adr) v₀ 0 := by
  intro d c i O W hO _ _
  -- the kernel owes nothing for a protocol of its own
  simp only [show (P (F := F) tab adr).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_body tab adr d (coordsV ⟨_, hc.1⟩ ⟨_, hc.2⟩) facts hadr O W hO).trans (wp_mono frame _ _ fun _ => obl_post)

end Tile

end Cert.Proof.KI.Sc

end
-- ==== Proof.ScStepKI.lean ====
/-
  The TensorCore's step at the gather call.

  Between two segments of @main the TensorCore holds every unscoped buffer whole at a valuation. At the call of
  the SparseCores it gives up three of them — the feature table, the address array and the output array — to
  the two SparseCores' sequencers (the table and the addresses at their contents, the output at whatever it
  holds), signals the starts, waits for the two done signals, and takes the three arrays back: the table and the
  addresses as they were, the output at the gathered sums. Every other buffer is untouched, so the valuation
  after the call is the valuation before it with the output array replaced.
-/
import proofs.«207241_g55714315764006_cont_9to1c4b_410_29_alg».proof.Proof.LaunchKI
import proofs.«207241_g55714315764006_cont_9to1c4b_410_29_alg».proof.Proof.ScTile

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-! ## The three arrays of the call -/

/-- The table, the address array and the output array, as device buffers of the TensorCore. -/
abbrev tRef : DevRef τ sig := Proc.devRef .tc (main_v3 : Ref sig .tc)
abbrev aRef : DevRef τ sig := Proc.devRef .tc (main_v23 : Ref sig .tc)
abbrev oRef : DevRef τ sig := Proc.devRef .tc (main_v24 : Ref sig .tc)

/-- The three together. -/
abbrev S3 : Finset (DevRef τ sig) := {tRef, aRef, oRef}

/-- They are unscoped buffers of the TensorCore. -/
theorem S3_sub : S3 ⊆ Pipeline.ucRefs τ sig := by
  intro b hb
  simp only [S3, Finset.mem_insert, Finset.mem_singleton] at hb
  rcases hb with rfl | rfl | rfl <;> exact Finset.mem_filter.mpr ⟨StableHlo.devRef_mem_tcRefs _, by decide⟩

omit [FloatOps F] in
/-- Held at a valuation, one by one. -/
theorem held_S3 (d : Dev nD) (W : Valuation τ sig (Elt F)) :
    (held (T d) S3 W : sProp 𝕄)
      = iprop((Sc.tLoc d ↦{fullShare} W tRef) ∗ (Sc.aLoc d ↦{fullShare} W aRef) ∗ Sc.oLoc d ↦{fullShare} W oRef) := by
  unfold held S3
  rw [SparseCore.bigSep_insert' (by decide), SparseCore.bigSep_insert' (by decide), bigSep_singleton]

section Step

variable (Wc : Dev nD → Valuation τ sig (Elt F))

/-- The table and the address array as the call finds them. -/
def tabOf (d : Dev nD) : Buf (Elt F) (Sc.tLoc d) := Wc d tRef
def adrOf (d : Dev nD) : Buf (Elt F) (Sc.aLoc d) := Wc d aRef

/-- The valuation after the call: the output array at the gathered sums, every other buffer as before. -/
def Wsc (d : Dev nD) : Valuation τ sig (Elt F) :=
  Function.update (Wc d) oRef (Sc.gathered (tabOf Wc) (adrOf Wc) d)

theorem Wsc_t (d : Dev nD) : Wsc Wc d tRef = Wc d tRef := Function.update_of_ne (show tRef ≠ oRef by decide) _ _
theorem Wsc_a (d : Dev nD) : Wsc Wc d aRef = Wc d aRef := Function.update_of_ne (show aRef ≠ oRef by decide) _ _
theorem Wsc_o (d : Dev nD) : Wsc Wc d oRef = Sc.gathered (tabOf Wc) (adrOf Wc) d := Function.update_self _ _ _

/-- Off the three arrays the two valuations agree. -/
theorem held_rest (d : Dev nD) :
    (held (T d) (Pipeline.ucRefs τ sig \ S3) (Wsc Wc d) : sProp 𝕄) = held (T d) (Pipeline.ucRefs τ sig \ S3) (Wc d) :=
  StableHlo.held_congr (T d) fun b hb => Function.update_of_ne (fun e => (Finset.mem_sdiff.mp hb).2 (by
    rw [e]; simp only [S3, Finset.mem_insert, Finset.mem_singleton, or_true])) _ _

set_option backward.isDefEq.respectTransparency.types false in
/-- THE STEP: from before call 0, every unscoped buffer at `Wc d`, to before call 1, every unscoped buffer at
    `Wsc Wc d`. -/
theorem sc_step (κ : GSem nD τ sig → ℕ) (d : Dev nD) :
    ScStep (Sc.P (tabOf Wc) (adrOf Wc)) κ d (Wc d) (Wsc Wc d) := by
  intro Ps β k Φ
  unfold TS
  rw [StableHlo.held_sub_split (T d) S3_sub (Wc d), StableHlo.held_sub_split (T d) S3_sub (Wsc Wc d), held_S3, held_S3,
    held_rest, Wsc_t, Wsc_a, Wsc_o, wp_bind]
  iintro ⟨#Hctx, ⟨Hst, Hbd, ⟨⟨Ht, Ha, Ho⟩, Hrest⟩, Hsm, Hp, Hg⟩, Hk⟩
  iapply ((K (F := F)).wp_run (D (F := F)) 𝒱 (EH := EH) (P := Sc.P (tabOf Wc) (adrOf Wc)) κ d 0)
  isplitr; · iexact Hctx
  isplitl [Hst]; · iexact Hst
  isplitl [Ht Ha Ho]
  · rw [Sc.st0_eq]
    isplitl [Ht]; · iexact Ht
    isplitl [Ha]; · iexact Ha
    iexists _; iexact Ho
  iintro ⟨Hst, Hdn⟩
  ihave Hdn' := (Entails.of_eq (Sc.dn0_eq (tabOf Wc) (adrOf Wc) d)) $$ Hdn
  icases Hdn' with ⟨Ht, Ha, Ho⟩
  iapply Hk
  isplitl [Hst]; · iexact Hst
  isplitl [Hbd]; · iexact Hbd
  isplitl [Ht Ha Ho Hrest]
  · isplitl [Ht Ha Ho]
    · isplitl [Ht]; · iexact Ht
      isplitl [Ha]; · iexact Ha
      iexact Ho
    iexact Hrest
  isplitl [Hsm]; · iexact Hsm
  isplitl [Hp]; · iexact Hp
  iexact Hg

end Step

end Cert.Proof.KI

end
-- ==== Proof.ChainKI.lean ====
/-
  The valuations of @main's segments, tied together.

  Each region is entered at what the stretch of host operations before it left and leaves its pipeline's arrays
  at what the write-backs make of them; the SparseCore call is entered with the table and the addresses the
  first two regions computed and leaves the gathered sums in its result array.
-/
import proofs.«207241_g55714315764006_cont_9to1c4b_410_29_alg».proof.Proof.RegionsKI
import proofs.«207241_g55714315764006_cont_9to1c4b_410_29_alg».proof.Proof.ScStepKI

noncomputable section

namespace Cert.Proof.KI

open Cert.KernelIdeal Cert.KernelIdeal.Gen Cert.Proof.KI.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

section Final

variable (m : (ℓ : Loc nD τ sig) → Buf (Elt F) ℓ) (g : Dev nD → PrngReg)

/-- The valuation the table region is entered at, and the one it leaves; -/
def Ea (d : Dev nD) : Valuation τ sig (Elt F) := after (ops0 (F := F)) (W0 m d)
def X0 (d : Dev nD) : Valuation τ sig (Elt F) := Wx0 (Ea m) d
/-- the address region's; -/
def Eb (d : Dev nD) : Valuation τ sig (Elt F) := after (ops1 (F := F)) (X0 m d)
def X1 (d : Dev nD) : Valuation τ sig (Elt F) := Wx1 (Eb m) d
/-- the gather call's; -/
def Ec (d : Dev nD) : Valuation τ sig (Elt F) := after (ops2 (F := F)) (X1 m d)
def X2 (d : Dev nD) : Valuation τ sig (Elt F) := Wsc (Ec m) d
/-- the statistics region's; -/
def Ed (d : Dev nD) : Valuation τ sig (Elt F) := after (ops3 (F := F)) (X2 m d)
def X3 (d : Dev nD) : Valuation τ sig (Elt F) := Wx3 (Ed m) d
/-- the normalisation region's. -/
def Ee (d : Dev nD) : Valuation τ sig (Elt F) := after (ops4 (F := F)) (X3 m d)
def X4 (d : Dev nD) : Valuation τ sig (Elt F) := Wx4 (Ee m) d

/-- What each pipeline's region leaves, whatever it is asked at (the chain asks it at its entry valuation). -/
def Rf : Fin 4 → Dev nD → Valuation τ sig (Elt F) → Valuation τ sig (Elt F)
  | ⟨0, _⟩ => fun d _ => X0 m d
  | ⟨1, _⟩ => fun d _ => X1 m d
  | ⟨2, _⟩ => fun d _ => X3 m d
  | ⟨3, _⟩ => fun d _ => X4 m d
/-- What the gather call leaves. -/
def Gf : Dev nD → Valuation τ sig (Elt F) → Valuation τ sig (Elt F) := fun d _ => X2 m d

/-- The pay record of the gather call at the table and the addresses the first two regions computed. -/
abbrev Pf : (K (F := F)).Pay (nD := nD) (Val := Elt F) (Name := ℕ) (U := UU) := Sc.P (tabOf (Ec m)) (adrOf (Ec m))

end Final

end Cert.Proof.KI

end
-- ==== Proof.KeptKI.lean ====
/-
  Two facts the launch of the whole device needs of @main's chain of valuations.

  Every address the gather kernel reads names a row of the table: the address array is a reshape of the address
  region's result, an entry of a reshaped array is an entry of the original, and the region bounds every entry it
  writes.

  No argument of @main is ever written: every host operation writes a value or a constant of @main, never an
  argument; a region changes only its pipeline's arrays, and the one argument that is such an array is an input
  window, which the pipeline only reads; the gather call changes only its result array.
-/
import proofs.«207241_g55714315764006_cont_9to1c4b_410_29_alg».proof.Proof.ChainKI
import Idealize.ShloMosaic.Lib.Pipeline.Value
import Idealize.ShloMosaic.Lib.StableHlo.Run

noncomputable section

namespace Cert.Proof.KI

open Cert.KernelIdeal Cert.KernelIdeal.Gen Cert.Proof.KI.Ops

open Idealize.ShloMosaic Idealize.ShloMosaic.TcCoe
open Idealize.ShloMosaic.SparseCore (S V T)
open Idealize.ShloMosaic.SparseCore.Cfg (HIx Pay)
open Idealize.SL Idealize.SL.Sem
open Idealize.ShloMosaic.StableHlo (held seq after)

variable {F : FTy → Type} [FloatOps F]

/-! ## What the host stretches write -/

/-- A one-reference write set lies in the listed references' when the reference is listed. -/
theorem writes_sub_of_mem (y : Ref sig .tc) (W : List (Ref sig .tc)) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references each stretch writes: values and constants of @main, one per operation, in order. -/
abbrev wr0 : List (Ref sig .tc) := [main_v0, main_v1]
abbrev wr1 : List (Ref sig .tc) :=
  [main_v3, main_v4, main_v5, main_v6, main_v7, main_v8, main_v9, main_v10, main_c, main_v11, main_c_0, main_v12, main_v13,
    main_cst, main_v14, main_v15, main_v16, main_v17, main_v18, main_v19, main_v20, main_v21]
abbrev wr2 : List (Ref sig .tc) := [main_v23]
abbrev wr3 : List (Ref sig .tc) := [main_v25]
abbrev wr4 : List (Ref sig .tc) := [main_cst_1, main_v27, main_v28, main_v29, main_v30]
abbrev wr5 : List (Ref sig .tc) := [main_v32, main_v33]

theorem ops0_writes : (ops0 (F := F)).Forall fun op => op.writes ⊆ (wr0.map (Proc.devRef (τ := τ) .tc)).toFinset :=
  ⟨writes_sub_of_mem main_v0 wr0 (by decide), writes_sub_of_mem main_v1 wr0 (by decide)⟩
theorem ops1_writes : (ops1 (F := F)).Forall fun op => op.writes ⊆ (wr1.map (Proc.devRef (τ := τ) .tc)).toFinset :=
  ⟨writes_sub_of_mem main_v3 wr1 (by decide), writes_sub_of_mem main_v4 wr1 (by decide), writes_sub_of_mem main_v5 wr1 (by decide),
    writes_sub_of_mem main_v6 wr1 (by decide), writes_sub_of_mem main_v7 wr1 (by decide), writes_sub_of_mem main_v8 wr1 (by decide),
    writes_sub_of_mem main_v9 wr1 (by decide), writes_sub_of_mem main_v10 wr1 (by decide), writes_sub_of_mem main_c wr1 (by decide),
    writes_sub_of_mem main_v11 wr1 (by decide), writes_sub_of_mem main_c_0 wr1 (by decide), writes_sub_of_mem main_v12 wr1 (by decide),
    writes_sub_of_mem main_v13 wr1 (by decide), writes_sub_of_mem main_cst wr1 (by decide), writes_sub_of_mem main_v14 wr1 (by decide),
    writes_sub_of_mem main_v15 wr1 (by decide), writes_sub_of_mem main_v16 wr1 (by decide), writes_sub_of_mem main_v17 wr1 (by decide),
    writes_sub_of_mem main_v18 wr1 (by decide), writes_sub_of_mem main_v19 wr1 (by decide), writes_sub_of_mem main_v20 wr1 (by decide),
    writes_sub_of_mem main_v21 wr1 (by decide)⟩
theorem ops2_writes : (ops2 (F := F)).Forall fun op => op.writes ⊆ (wr2.map (Proc.devRef (τ := τ) .tc)).toFinset :=
  writes_sub_of_mem main_v23 wr2 (by decide)
theorem ops3_writes : (ops3 (F := F)).Forall fun op => op.writes ⊆ (wr3.map (Proc.devRef (τ := τ) .tc)).toFinset :=
  writes_sub_of_mem main_v25 wr3 (by decide)
theorem ops4_writes : (ops4 (F := F)).Forall fun op => op.writes ⊆ (wr4.map (Proc.devRef (τ := τ) .tc)).toFinset :=
  ⟨writes_sub_of_mem main_cst_1 wr4 (by decide), writes_sub_of_mem main_v27 wr4 (by decide), writes_sub_of_mem main_v28 wr4 (by decide),
    writes_sub_of_mem main_v29 wr4 (by decide), writes_sub_of_mem main_v30 wr4 (by decide)⟩
theorem ops5_writes : (ops5 (F := F)).Forall fun op => op.writes ⊆ (wr5.map (Proc.devRef (τ := τ) .tc)).toFinset :=
  ⟨writes_sub_of_mem main_v32 wr5 (by decide), writes_sub_of_mem main_v33 wr5 (by decide)⟩

/-- A reference no stretch writes. -/
def HostKept (r : Ref sig .tc) : Prop := r ∉ wr0 ∧ r ∉ wr1 ∧ r ∉ wr2 ∧ r ∉ wr3 ∧ r ∉ wr4 ∧ r ∉ wr5

/-! ## The addresses -/

/-- An entry of the address array the gather call reads is an entry of the address region's result. -/
theorem adr_of_result (W : Valuation τ sig (Elt F))
    (h : ∀ k : S8x1x20000.Idx, BitVec.toNat (w := 32) (W (Proc.devRef .tc main_v22) k) < 78848) (j : S32x250x20.Idx) :
    BitVec.toNat (w := 32) (after (ops2 (F := F)) W aRef j) < 78848 := by
  have e : after (ops2 (F := F)) W aRef
      = fun i => shapeCast S32x250x20 (W (Proc.devRef .tc main_v22)) shapeCasts_S8x1x20000_S32x250x20 i := by
    show after (ops2 (F := F)) W (Proc.devRef .tc main_v23) = _
    simp only [StableHlo.after_cons, StableHlo.after_nil]
    rw [StableHlo.reshape_result]
    rfl
  rw [e]
  unfold shapeCast
  exact h _

/-! ## What the calls leave alone -/

/-- The gather call changes only its result array. -/
theorem Wsc_of_ne (Wc : Dev nD → Valuation τ sig (Elt F)) (d : Dev nD) (r : Ref sig .tc) (h : r ≠ main_v24) :
    Wsc Wc d (Proc.devRef .tc r) = Wc d (Proc.devRef .tc r) :=
  Function.update_of_ne (StableHlo.devRef_ne_of_ne h) _ _

/-- The table region only reads its second window's array: the pipeline leaves it as it found it. -/
theorem arr0_1_kept (V : (c : Dev nD) → (b : Ref sig .tc) → Buf (Elt F) ((c : Thread nD τ).loc b))
    (O : CellTallies nD τ sig (HIx 1)) (Rc : Set (SemLoc sig × HIx 1)) (c : Dev nD) :
    (R0.dat0 V O Rc c).arrAt 1 cfg0.N = V c main_arg7 :=
  ((R0.dat0 V O Rc c).arrAt_in 1 rfl _).trans (R0.A_eq0 V O Rc c 1)

/-- No argument is an array of the address, statistics or normalisation pipeline; of the table pipeline only
    `main_arg7` is. -/
theorem not_arr1 : ∀ r ∈ ([main_arg0, main_arg1, main_arg2, main_arg3, main_arg4, main_arg5, main_arg6, main_arg7, main_arg8, main_arg9, main_arg10] : List (Ref sig .tc)),
    (∀ w, Pipeline.arrRef spec1 w ≠ r) ∧ (∀ w, Pipeline.arrRef spec3 w ≠ r) ∧ (∀ w, Pipeline.arrRef spec4 w ≠ r) ∧ r ≠ main_v24 := by decide
theorem not_arr0 : ∀ r ∈ ([main_arg0, main_arg1, main_arg2, main_arg3, main_arg4, main_arg5, main_arg6, main_arg8, main_arg9, main_arg10] : List (Ref sig .tc)),
    ∀ w, Pipeline.arrRef spec0 w ≠ r := by decide
/-- No stretch writes an argument. -/
theorem hostKept_args : ∀ r ∈ ([main_arg0, main_arg1, main_arg2, main_arg3, main_arg4, main_arg5, main_arg6, main_arg7, main_arg8, main_arg9, main_arg10] : List (Ref sig .tc)),
    HostKept r := by
  intro r hr
  unfold HostKept
  revert r
  decide

/-- An unscoped reference of the TensorCore is one of the unscoped device buffers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs _, h⟩

/-! ## The chain -/

section Chain

variable (m : (ℓ : Loc nD τ sig) → Buf (Elt F) ℓ)

/-- (A) EVERY ADDRESS NAMES A ROW OF THE TABLE: the array the gather call reads is a reshape of the address region's
    result, every entry of which the region bounds. -/
theorem adr_ok : Sc.AdrOK (adrOf (Ec m)) := by
  intro d j
  have h22 : ∀ k : S8x1x20000.Idx, BitVec.toNat (w := 32) (X1 m d (Proc.devRef .tc main_v22) k) < 78848 := by
    intro k
    have e : X1 m d (Proc.devRef .tc main_v22)
        = (R1.dat1 (Vof (Eb m d)) ((K (F := F)).Otc d 0) (Rcn (F := F) d 0) d).arrAt 3 cfg1.N := Wx1_arr (Eb m) d 3
    rw [e]
    exact R1.addr_lt (Vof (Eb m d)) ((K (F := F)).Otc d 0) (Rcn (F := F) d 0) d k
  exact adr_of_result (X1 m d) h22 j

/-- A reference that no stretch writes, that is no array of the last three pipelines nor the gather call's result,
    and that the table region leaves as it found it, holds at the return what it held at launch. -/
theorem kept_of (d : Dev nD) (r : Ref sig .tc) (hh : HostKept r)
    (h1 : ∀ w, Pipeline.arrRef spec1 w ≠ r) (h3 : ∀ w, Pipeline.arrRef spec3 w ≠ r) (h4 : ∀ w, Pipeline.arrRef spec4 w ≠ r)
    (ho : r ≠ main_v24) (h0 : X0 m d (Proc.devRef .tc r) = Ea m d (Proc.devRef .tc r)) :
    Wf m (Rf m) (Gf m) d (Proc.devRef .tc r) = m (d, Proc.devRef .tc r) := by
  obtain ⟨k0, k1, k2, k3, k4, k5⟩ := hh
  exact (StableHlo.after_of_writes_sub (ops5 (F := F)) (X4 m d) ops5_writes k5).trans <|
    (Wx4_of_ne (Ee m) d r h4).trans <|
    (StableHlo.after_of_writes_sub (ops4 (F := F)) (X3 m d) ops4_writes k4).trans <|
    (Wx3_of_ne (Ed m) d r h3).trans <|
    (StableHlo.after_of_writes_sub (ops3 (F := F)) (X2 m d) ops3_writes k3).trans <|
    (Wsc_of_ne (Ec m) d r ho).trans <|
    (StableHlo.after_of_writes_sub (ops2 (F := F)) (X1 m d) ops2_writes k2).trans <|
    (Wx1_of_ne (Eb m) d r h1).trans <|
    (StableHlo.after_of_writes_sub (ops1 (F := F)) (X0 m d) ops1_writes k1).trans <|
    h0.trans <|
    (StableHlo.after_of_writes_sub (ops0 (F := F)) (W0 m d) ops0_writes k0)

/-- The same for a reference that is no array of the table pipeline either. -/
theorem kept_of' (d : Dev nD) (r : Ref sig .tc) (hh : HostKept r) (h0 : ∀ w, Pipeline.arrRef spec0 w ≠ r)
    (h1 : ∀ w, Pipeline.arrRef spec1 w ≠ r) (h3 : ∀ w, Pipeline.arrRef spec3 w ≠ r) (h4 : ∀ w, Pipeline.arrRef spec4 w ≠ r)
    (ho : r ≠ main_v24) : Wf m (Rf m) (Gf m) d (Proc.devRef .tc r) = m (d, Proc.devRef .tc r) :=
  kept_of m d r hh h1 h3 h4 ho (Wx0_of_ne (Ea m) d r h0)

/-- The table region leaves `main_arg7`, the array of its second window, as it found it. -/
theorem X0_arg7 (d : Dev nD) : X0 m d (Proc.devRef .tc main_arg7) = Ea m d (Proc.devRef .tc main_arg7) :=
  (Wx0_arr (Ea m) d 1).trans (arr0_1_kept (Vof (Ea m d)) ((K (F := F)).Otc d 0) (Rcn (F := F) d 0) d)

/-! (B) The arguments at the return are the arguments at launch. -/

theorem kept_arg0 (d : Dev nD) : Wf m (Rf m) (Gf m) d (Proc.devRef .tc main_arg0) = m ((d.tc : Thread nD τ).loc main_arg0) :=
  kept_of' m d main_arg0 (hostKept_args _ (by decide)) (not_arr0 _ (by decide)) (not_arr1 _ (by decide)).1 (not_arr1 _ (by decide)).2.1 (not_arr1 _ (by decide)).2.2.1 (not_arr1 _ (by decide)).2.2.2
theorem kept_arg1 (d : Dev nD) : Wf m (Rf m) (Gf m) d (Proc.devRef .tc main_arg1) = m ((d.tc : Thread nD τ).loc main_arg1) :=
  kept_of' m d main_arg1 (hostKept_args _ (by decide)) (not_arr0 _ (by decide)) (not_arr1 _ (by decide)).1 (not_arr1 _ (by decide)).2.1 (not_arr1 _ (by decide)).2.2.1 (not_arr1 _ (by decide)).2.2.2
theorem kept_arg2 (d : Dev nD) : Wf m (Rf m) (Gf m) d (Proc.devRef .tc main_arg2) = m ((d.tc : Thread nD τ).loc main_arg2) :=
  kept_of' m d main_arg2 (hostKept_args _ (by decide)) (not_arr0 _ (by decide)) (not_arr1 _ (by decide)).1 (not_arr1 _ (by decide)).2.1 (not_arr1 _ (by decide)).2.2.1 (not_arr1 _ (by decide)).2.2.2
theorem kept_arg3 (d : Dev nD) : Wf m (Rf m) (Gf m) d (Proc.devRef .tc main_arg3) = m ((d.tc : Thread nD τ).loc main_arg3) :=
  kept_of' m d main_arg3 (hostKept_args _ (by decide)) (not_arr0 _ (by decide)) (not_arr1 _ (by decide)).1 (not_arr1 _ (by decide)).2.1 (not_arr1 _ (by decide)).2.2.1 (not_arr1 _ (by decide)).2.2.2
theorem kept_arg4 (d : Dev nD) : Wf m (Rf m) (Gf m) d (Proc.devRef .tc main_arg4) = m ((d.tc : Thread nD τ).loc main_arg4) :=
  kept_of' m d main_arg4 (hostKept_args _ (by decide)) (not_arr0 _ (by decide)) (not_arr1 _ (by decide)).1 (not_arr1 _ (by decide)).2.1 (not_arr1 _ (by decide)).2.2.1 (not_arr1 _ (by decide)).2.2.2
theorem kept_arg5 (d : Dev nD) : Wf m (Rf m) (Gf m) d (Proc.devRef .tc main_arg5) = m ((d.tc : Thread nD τ).loc main_arg5) :=
  kept_of' m d main_arg5 (hostKept_args _ (by decide)) (not_arr0 _ (by decide)) (not_arr1 _ (by decide)).1 (not_arr1 _ (by decide)).2.1 (not_arr1 _ (by decide)).2.2.1 (not_arr1 _ (by decide)).2.2.2
theorem kept_arg6 (d : Dev nD) : Wf m (Rf m) (Gf m) d (Proc.devRef .tc main_arg6) = m ((d.tc : Thread nD τ).loc main_arg6) :=
  kept_of' m d main_arg6 (hostKept_args _ (by decide)) (not_arr0 _ (by decide)) (not_arr1 _ (by decide)).1 (not_arr1 _ (by decide)).2.1 (not_arr1 _ (by decide)).2.2.1 (not_arr1 _ (by decide)).2.2.2
theorem kept_arg7 (d : Dev nD) : Wf m (Rf m) (Gf m) d (Proc.devRef .tc main_arg7) = m ((d.tc : Thread nD τ).loc main_arg7) :=
  kept_of m d main_arg7 (hostKept_args _ (by decide)) (not_arr1 _ (by decide)).1 (not_arr1 _ (by decide)).2.1 (not_arr1 _ (by decide)).2.2.1 (not_arr1 _ (by decide)).2.2.2 (X0_arg7 m d)
theorem kept_arg8 (d : Dev nD) : Wf m (Rf m) (Gf m) d (Proc.devRef .tc main_arg8) = m ((d.tc : Thread nD τ).loc main_arg8) :=
  kept_of' m d main_arg8 (hostKept_args _ (by decide)) (not_arr0 _ (by decide)) (not_arr1 _ (by decide)).1 (not_arr1 _ (by decide)).2.1 (not_arr1 _ (by decide)).2.2.1 (not_arr1 _ (by decide)).2.2.2
theorem kept_arg9 (d : Dev nD) : Wf m (Rf m) (Gf m) d (Proc.devRef .tc main_arg9) = m ((d.tc : Thread nD τ).loc main_arg9) :=
  kept_of' m d main_arg9 (hostKept_args _ (by decide)) (not_arr0 _ (by decide)) (not_arr1 _ (by decide)).1 (not_arr1 _ (by decide)).2.1 (not_arr1 _ (by decide)).2.2.1 (not_arr1 _ (by decide)).2.2.2
theorem kept_arg10 (d : Dev nD) : Wf m (Rf m) (Gf m) d (Proc.devRef .tc main_arg10) = m ((d.tc : Thread nD τ).loc main_arg10) :=
  kept_of' m d main_arg10 (hostKept_args _ (by decide)) (not_arr0 _ (by decide)) (not_arr1 _ (by decide)).1 (not_arr1 _ (by decide)).2.1 (not_arr1 _ (by decide)).2.2.1 (not_arr1 _ (by decide)).2.2.2

end Chain

end Cert.Proof.KI

end
-- ==== Proof.FinalKI.lean ====
/-
  The device's run, and the frame of the idealized kernel.

  The valuations of @main's segments are tied here: each region is entered at what the stretch before it left
  and leaves its pipeline's arrays at what the write-backs make of them; the SparseCore call is entered with
  the table and the addresses the first two regions computed and leaves the gathered sums. Every address names
  a row of the table, which is what the gather's indexed copies need; so every weakly fair execution of the
  thirty-five threads terminates without a fault, and at the end every unscoped buffer of the TensorCore holds
  the last valuation's contents — in particular the eleven arguments, which nothing writes.
-/
import proofs.«207241_g55714315764006_cont_9to1c4b_410_29_alg».proof.Proof.AssembleKI
import proofs.«207241_g55714315764006_cont_9to1c4b_410_29_alg».proof.Proof.ChainKI
import proofs.«207241_g55714315764006_cont_9to1c4b_410_29_alg».proof.Proof.KeptKI

noncomputable section

namespace Cert.Proof.KI

open Cert.KernelIdeal Cert.KernelIdeal.Gen Cert.Proof.KI.Ops

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

section Final

variable (m : (ℓ : Loc nD τ sig) → Buf (Elt F) ℓ) (g : Dev nD → PrngReg)

set_option backward.isDefEq.respectTransparency.types false in
/-- The device's run: it terminates without a fault, every unscoped buffer of every TensorCore at the last valuation. -/
theorem run [∀ e, Nonempty (Elt F e)] :
    θ_run (Cert.KernelIdeal.defs (F := F)) (Cert.KernelIdeal.threads (F := F)) ⟨m, fun _ => 0, g⟩
      (fun r => ∀ c : Dev nD, ∀ b ∈ Pipeline.ucRefs τ sig, r.2.mem ((c, b) : Loc nD τ sig) = Wf m (Rf m) (Gf m) c b) :=
  SparseCore.Cfg.θ_run_sc (K := K (F := F)) (D := D (F := F)) (𝒱 := 𝒱) (EH := EH) (P := Pf m) facts v₀
    (fun q hq => match q with | 0 => nomatch hq)
    (fun q _ => match q with | 0 => Sc.tileObl (tabOf (Ec m)) (adrOf (Ec m)) (adr_ok m))
    (fun q _ => match q with | 0 => SparseCore.Cfg.VecSplit.of_plain (Sc.vecSplit (tabOf (Ec m)) (adrOf (Ec m))))
    m g main (fun d => G₀ (F := F) d) (FIN m (Rf m) (Gf m)) (u₀ (F := F))
    (sep_elim_left.trans (hu₀ (Pf m) (fun _ _ => rfl)))
    (fun κ d => hmain (Pf m) m g (Rf m) (Gf m) κ d
      (step0 (Pf m) κ (Ea m) (Eb m) (Ed m) (Ee m) d) (step1 (Pf m) κ (Ea m) (Eb m) (Ed m) (Ee m) d)
      (sc_step (Ec m) κ d)
      (step2 (Pf m) κ (Ea m) (Eb m) (Ed m) (Ee m) d) (step3 (Pf m) κ (Ea m) (Eb m) (Ed m) (Ee m) d))
    (fq m (Rf m) (Gf m)) (hfin m (Rf m) (Gf m)) _ (fun _ h => h)

/-- The frame at any float instance: the run, read at the eleven argument arrays, which nothing writes. -/
theorem frame_gen [∀ e, Nonempty (Elt F e)] :
    θ_run (Cert.KernelIdeal.defs (F := F)) (Cert.KernelIdeal.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (Cert.KernelIdeal.defs (F := F)) _ _).mono (fun r h c =>
    ⟨(h c _ (mem_uc main_arg0 (by decide))).trans (kept_arg0 m c), (h c _ (mem_uc main_arg1 (by decide))).trans (kept_arg1 m c),
     (h c _ (mem_uc main_arg2 (by decide))).trans (kept_arg2 m c), (h c _ (mem_uc main_arg3 (by decide))).trans (kept_arg3 m c),
     (h c _ (mem_uc main_arg4 (by decide))).trans (kept_arg4 m c), (h c _ (mem_uc main_arg5 (by decide))).trans (kept_arg5 m c),
     (h c _ (mem_uc main_arg6 (by decide))).trans (kept_arg6 m c), (h c _ (mem_uc main_arg7 (by decide))).trans (kept_arg7 m c),
     (h c _ (mem_uc main_arg8 (by decide))).trans (kept_arg8 m c), (h c _ (mem_uc main_arg9 (by decide))).trans (kept_arg9 m c),
     (h c _ (mem_uc main_arg10 (by decide))).trans (kept_arg10 m c)⟩) (run m g)

/-- The run with the result named beside the kept arguments: what the value claim starts from. -/
theorem run_result [∀ e, Nonempty (Elt F e)] :
    θ_run (Cert.KernelIdeal.defs (F := F)) (Cert.KernelIdeal.threads (F := F)) ⟨m, fun _ => 0, g⟩ (fun r => ∀ c : Dev nD,
      r.2.mem ((c.tc : Thread nD τ).loc main_v33) = Wf m (Rf m) (Gf m) c (Proc.devRef .tc main_v33)) :=
  (θ_run (Cert.KernelIdeal.defs (F := F)) _ _).mono (fun r h c => h c _ (mem_uc main_v33 (by decide))) (run m g)

/-- The run with the result named AND the arguments kept: the kernel's half of the value claim. -/
theorem run_full [∀ e, Nonempty (Elt F e)] :
    θ_run (Cert.KernelIdeal.defs (F := F)) (Cert.KernelIdeal.threads (F := F)) ⟨m, fun _ => 0, g⟩ (fun r => ∀ c : Dev nD,
      r.2.mem ((c.tc : Thread nD τ).loc main_v33) = Wf m (Rf m) (Gf m) c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (Cert.KernelIdeal.defs (F := F)) _ _).mono (fun r h c =>
    ⟨h c _ (mem_uc main_v33 (by decide)),
     (h c _ (mem_uc main_arg0 (by decide))).trans (kept_arg0 m c), (h c _ (mem_uc main_arg1 (by decide))).trans (kept_arg1 m c),
     (h c _ (mem_uc main_arg2 (by decide))).trans (kept_arg2 m c), (h c _ (mem_uc main_arg3 (by decide))).trans (kept_arg3 m c),
     (h c _ (mem_uc main_arg4 (by decide))).trans (kept_arg4 m c), (h c _ (mem_uc main_arg5 (by decide))).trans (kept_arg5 m c),
     (h c _ (mem_uc main_arg6 (by decide))).trans (kept_arg6 m c), (h c _ (mem_uc main_arg7 (by decide))).trans (kept_arg7 m c),
     (h c _ (mem_uc main_arg8 (by decide))).trans (kept_arg8 m c), (h c _ (mem_uc main_arg9 (by decide))).trans (kept_arg9 m c),
     (h c _ (mem_uc main_arg10 (by decide))).trans (kept_arg10 m c)⟩) (run m g)

end Final

end Cert.Proof.KI

end
-- ==== Proof.RefRunOps.lean ====
/- The reference program's @main as literal lists of its host operations, one list per printed window, each call of an
   outlined function replaced by the function's operations over that call's buffers; with each list, that every operation
   in it touches TensorCore references only and determines its results, and writes one buffer, none of them an argument's. -/
import proofs.«207241_g55714315764006_cont_9to1c4b_410_29_alg».proof.Proof.Gen.ReferenceIdeal
import Idealize.ShloMosaic.Lib.StableHlo.Run

set_option maxRecDepth 8192

noncomputable section

namespace Cert.ReferenceIdeal.RefRun

open Cert.ReferenceIdeal Cert.ReferenceIdeal.Facts₀ Cert.ReferenceIdeal.Facts Idealize.ShloMosaic Idealize.SL.Sem Idealize.ShloMosaic.StableHlo

variable {F : FTy → Type} [FloatOps F] [Cert.ReferenceIdeal.Facts]

/-- The operation writes exactly one buffer, a TensorCore reference whose index is past @main's eleven arguments'. -/
def WritesPastArgs (op : HloOp τ sig (Elt F)) : Prop := ∃ y : Ref sig .tc, op.writes = {Proc.devRef .tc y} ∧ 11 ≤ y.idx.val

/-- The operations of @main's window 0 (60), calls replaced by their functions' operations. -/
abbrev ops0 : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_cst_1 (fun i => FloatOps.ofBits .f32 (lit2 (S3.rowMajor i))),
    StableHlo.nullary main_v0 (iotaInDim S200 32 0),
    StableHlo.nullary main_v1 (iotaInDim S200 32 0),
    StableHlo.nullary main_v2 (iotaInDim S4 32 0),
    StableHlo.unary main_v0 main_v3 (broadcastInDim S200x200x4 ![0] bcast_S200_S200x200x4_0 : (⟨S200, .i32⟩ : BufTy).Contents (Elt F) → (⟨S200x200x4, .i32⟩ : BufTy).Contents (Elt F)),
    StableHlo.unary main_v1 main_v4 (broadcastInDim S200x200x4 ![1] bcast_S200_S200x200x4_1 : (⟨S200, .i32⟩ : BufTy).Contents (Elt F) → (⟨S200x200x4, .i32⟩ : BufTy).Contents (Elt F)),
    StableHlo.unary main_v2 main_v5 (broadcastInDim S200x200x4 ![2] bcast_S4_S200x200x4_2 : (⟨S4, .i32⟩ : BufTy).Contents (Elt F) → (⟨S200x200x4, .i32⟩ : BufTy).Contents (Elt F)),
    StableHlo.unary main_v3 main_v6 (broadcastInDim S1x200x200x4 ![1, 2, 3] bcast_S200x200x4_S1x200x200x4_1_2_3 : (⟨S200x200x4, .i32⟩ : BufTy).Contents (Elt F) → (⟨S1x200x200x4, .i32⟩ : BufTy).Contents (Elt F)),
    StableHlo.unary main_v4 main_v7 (broadcastInDim S1x200x200x4 ![1, 2, 3] bcast_S200x200x4_S1x200x200x4_1_2_3 : (⟨S200x200x4, .i32⟩ : BufTy).Contents (Elt F) → (⟨S1x200x200x4, .i32⟩ : BufTy).Contents (Elt F)),
    StableHlo.unary main_v5 main_v8 (broadcastInDim S1x200x200x4 ![1, 2, 3] bcast_S200x200x4_S1x200x200x4_1_2_3 : (⟨S200x200x4, .i32⟩ : BufTy).Contents (Elt F) → (⟨S1x200x200x4, .i32⟩ : BufTy).Contents (Elt F)),
    StableHlo.nary ![main_v6, main_v7, main_v8] main_v9 (fun u => concatenate S3x200x200x4 0 [⟨S1x200x200x4, u 0⟩, ⟨S1x200x200x4, u 1⟩, ⟨S1x200x200x4, u 2⟩] concatenates_S1x200x200x4_S1x200x200x4_S1x200x200x4_S3x200x200x4_d0),
    StableHlo.unary main_v9 main_v10 (sitofp .f32 : (⟨S3x200x200x4, .i32⟩ : BufTy).Contents (Elt F) → (⟨S3x200x200x4, .f32⟩ : BufTy).Contents (Elt F)),
    StableHlo.nullary main_cst_2 (constant S_ .f32 0x40000000#32),
    StableHlo.unary main_cst_2 main_v11 (broadcastInDim S3 ![] bcast_S_S3 : (⟨S_, .f32⟩ : BufTy).Contents (Elt F) → (⟨S3, .f32⟩ : BufTy).Contents (Elt F)),
    StableHlo.binary main_cst main_v11 main_v12 (Host.divf : (⟨S3, .f32⟩ : BufTy).Contents (Elt F) → (⟨S3, .f32⟩ : BufTy).Contents (Elt F) → (⟨S3, .f32⟩ : BufTy).Contents (Elt F)),
    StableHlo.binary main_v12 main_cst_0 main_v13 (mulf : (⟨S3, .f32⟩ : BufTy).Contents (Elt F) → (⟨S3, .f32⟩ : BufTy).Contents (Elt F) → (⟨S3, .f32⟩ : BufTy).Contents (Elt F)),
    StableHlo.binary main_cst_1 main_v13 main_v14 (subf : (⟨S3, .f32⟩ : BufTy).Contents (Elt F) → (⟨S3, .f32⟩ : BufTy).Contents (Elt F) → (⟨S3, .f32⟩ : BufTy).Contents (Elt F)),
    StableHlo.reshape main_cst_0 main_v15 rfl shapeCasts_S3_S3x1x1x1,
    StableHlo.unary main_v15 main_v16 (broadcastInDim S3x200x200x4 ![0, 1, 2, 3] bcast_S3x1x1x1_S3x200x200x4_0_1_2_3 : (⟨S3x1x1x1, .f32⟩ : BufTy).Contents (Elt F) → (⟨S3x200x200x4, .f32⟩ : BufTy).Contents (Elt F)),
    StableHlo.binary main_v10 main_v16 main_v17 (mulf : (⟨S3x200x200x4, .f32⟩ : BufTy).Contents (Elt F) → (⟨S3x200x200x4, .f32⟩ : BufTy).Contents (Elt F) → (⟨S3x200x200x4, .f32⟩ : BufTy).Contents (Elt F)),
    StableHlo.reshape main_v14 main_v18 rfl shapeCasts_S3_S3x1x1x1,
    StableHlo.unary main_v18 main_v19 (broadcastInDim S3x200x200x4 ![0, 1, 2, 3] bcast_S3x1x1x1_S3x200x200x4_0_1_2_3 : (⟨S3x1x1x1, .f32⟩ : BufTy).Contents (Elt F) → (⟨S3x200x200x4, .f32⟩ : BufTy).Contents (Elt F)),
    StableHlo.binary main_v17 main_v19 main_v20 (addf : (⟨S3x200x200x4, .f32⟩ : BufTy).Contents (Elt F) → (⟨S3x200x200x4, .f32⟩ : BufTy).Contents (Elt F) → (⟨S3x200x200x4, .f32⟩ : BufTy).Contents (Elt F)),
    StableHlo.reshape main_arg0 main_v21 rfl shapeCasts_S1x6x256x64x176_S6x256x64x176,
    StableHlo.reshape main_arg5 main_v22 rfl shapeCasts_S1x4x4_S4x4,
    StableHlo.unary main_v22 main_v23 ((extractStridedSlice S3x1 ![0, 3] · slices_S4x4_S3x1_0_3) : (⟨S4x4, .f32⟩ : BufTy).Contents (Elt F) → (⟨S3x1, .f32⟩ : BufTy).Contents (Elt F)),
    StableHlo.reshape main_v23 main_v24 rfl shapeCasts_S3x1_S3,
    StableHlo.unary main_v22 main_v25 ((extractStridedSlice S3x3 ![0, 0] · slices_S4x4_S3x3_0_0) : (⟨S4x4, .f32⟩ : BufTy).Contents (Elt F) → (⟨S3x3, .f32⟩ : BufTy).Contents (Elt F)),
    StableHlo.reshape main_arg4 main_v26 rfl shapeCasts_S1x6x4x4_S6x4x4,
    StableHlo.unary main_v26 main_v27 ((extractStridedSlice S6x4x1 ![0, 0, 3] · slices_S6x4x4_S6x4x1_0_0_3) : (⟨S6x4x4, .f32⟩ : BufTy).Contents (Elt F) → (⟨S6x4x1, .f32⟩ : BufTy).Contents (Elt F)),
    StableHlo.reshape main_v27 main_v28 rfl shapeCasts_S6x4x1_S6x4,
    StableHlo.nullary main_c (constantI S_ 32 0#32),
    StableHlo.unary main_c main_v29 (broadcastInDim S1 ![] bcast_S_S1 : (⟨S_, .i32⟩ : BufTy).Contents (Elt F) → (⟨S1, .i32⟩ : BufTy).Contents (Elt F)),
    StableHlo.nullary main_c_3 (constantI S_ 32 3#32),
    StableHlo.unary main_c_3 main_v30 (broadcastInDim S1 ![] bcast_S_S1 : (⟨S_, .i32⟩ : BufTy).Contents (Elt F) → (⟨S1, .i32⟩ : BufTy).Contents (Elt F)),
    StableHlo.binary main_v29 main_v30 main_v31 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_4 (constant S_ .f32 0x00000000#32),
    StableHlo.unary main_cst_4 main_v32 (broadcastInDim S6x3 ![] bcast_S_S6x3 : (⟨S_, .f32⟩ : BufTy).Contents (Elt F) → (⟨S6x3, .f32⟩ : BufTy).Contents (Elt F)),
    StableHlo.ternary main_v26 main_v31 main_v32 main_v33 ((fun x i u => Host.scatter scatter_S6x4x4_S2_S6x3_01_2_12_0 (fun _ b => b) x i u) : (⟨S6x4x4, .f32⟩ : BufTy).Contents (Elt F) → (⟨S2, .i32⟩ : BufTy).Contents (Elt F) → (⟨S6x3, .f32⟩ : BufTy).Contents (Elt F) → (⟨S6x4x4, .f32⟩ : BufTy).Contents (Elt F)),
    StableHlo.reshape main_arg3 main_v34 rfl shapeCasts_S1x6x4x4_S6x4x4,
    StableHlo.binary main_v33 main_v34 main_v35 ((fun l r => Host.dotGeneral dot_S6x4x4_S6x4x4_S6x4x4_2_1_1_2_0_0 none l r) : (⟨S6x4x4, .f32⟩ : BufTy).Contents (Elt F) → (⟨S6x4x4, .f32⟩ : BufTy).Contents (Elt F) → (⟨S6x4x4, .f32⟩ : BufTy).Contents (Elt F)),
    StableHlo.unary main_v35 main_v36 ((extractStridedSlice S6x3x4 ![0, 0, 0] · slices_S6x4x4_S6x3x4_0_0_0) : (⟨S6x4x4, .f32⟩ : BufTy).Contents (Elt F) → (⟨S6x3x4, .f32⟩ : BufTy).Contents (Elt F)),
    StableHlo.reshape main_v20 main_v37 rfl shapeCasts_S3x200x200x4_S1x3x160000,
    StableHlo.reshape main_v24 main_v38 rfl shapeCasts_S3_S1x3x1,
    StableHlo.unary main_v38 main_v39 (broadcastInDim S1x3x160000 ![0, 1, 2] bcast_S1x3x1_S1x3x160000_0_1_2 : (⟨S1x3x1, .f32⟩ : BufTy).Contents (Elt F) → (⟨S1x3x160000, .f32⟩ : BufTy).Contents (Elt F)),
    StableHlo.binary main_v37 main_v39 main_v40 (subf : (⟨S1x3x160000, .f32⟩ : BufTy).Contents (Elt F) → (⟨S1x3x160000, .f32⟩ : BufTy).Contents (Elt F) → (⟨S1x3x160000, .f32⟩ : BufTy).Contents (Elt F)),
    StableHlo.unary main_v25 main_v41 ((transpose S3x3 [1, 0] · transposes_S3x3_S3x3_1_0) : (⟨S3x3, .f32⟩ : BufTy).Contents (Elt F) → (⟨S3x3, .f32⟩ : BufTy).Contents (Elt F)),
    StableHlo.unary main_v41 main_v42 (broadcastInDim S1x3x3 ![1, 2] bcast_S3x3_S1x3x3_1_2 : (⟨S3x3, .f32⟩ : BufTy).Contents (Elt F) → (⟨S1x3x3, .f32⟩ : BufTy).Contents (Elt F)),
    StableHlo.reshape main_v42 main_v43 rfl shapeCasts_S1x3x3_S3x3,
    StableHlo.reshape main_v40 main_v44 rfl shapeCasts_S1x3x160000_S3x160000,
    StableHlo.binary main_v43 main_v44 main_v45 ((fun l r => Host.dotGeneral dot_S3x3_S3x160000_S3x160000_1_0_0_1_n_n none l r) : (⟨S3x3, .f32⟩ : BufTy).Contents (Elt F) → (⟨S3x160000, .f32⟩ : BufTy).Contents (Elt F) → (⟨S3x160000, .f32⟩ : BufTy).Contents (Elt F)),
    StableHlo.unary main_v45 main_v46 (broadcastInDim S1x3x160000 ![1, 2] bcast_S3x160000_S1x3x160000_1_2 : (⟨S3x160000, .f32⟩ : BufTy).Contents (Elt F) → (⟨S1x3x160000, .f32⟩ : BufTy).Contents (Elt F)),
    StableHlo.unary main_v46 main_v47 ((extractStridedSlice S1x1x160000 ![0, 0, 0] · slices_S1x3x160000_S1x1x160000_0_0_0) : (⟨S1x3x160000, .f32⟩ : BufTy).Contents (Elt F) → (⟨S1x1x160000, .f32⟩ : BufTy).Contents (Elt F)),
    StableHlo.nullary main_cst_5 (constant S_ .f32 0x3F800000#32),
    StableHlo.unary main_cst_5 main_v48 (broadcastInDim S1x1x160000 ![] bcast_S_S1x1x160000 : (⟨S_, .f32⟩ : BufTy).Contents (Elt F) → (⟨S1x1x160000, .f32⟩ : BufTy).Contents (Elt F)),
    StableHlo.binary main_v46 main_v48 main_v49 ((fun a b => concatenate S1x4x160000 1 [⟨S1x3x160000, a⟩, ⟨S1x1x160000, b⟩] concatenates_S1x3x160000_S1x1x160000_S1x4x160000_d1) : (⟨S1x3x160000, .f32⟩ : BufTy).Contents (Elt F) → (⟨S1x1x160000, .f32⟩ : BufTy).Contents (Elt F) → (⟨S1x4x160000, .f32⟩ : BufTy).Contents (Elt F)),
    StableHlo.unary main_v49 main_v50 (broadcastInDim S6x4x160000 ![0, 1, 2] bcast_S1x4x160000_S6x4x160000_0_1_2 : (⟨S1x4x160000, .f32⟩ : BufTy).Contents (Elt F) → (⟨S6x4x160000, .f32⟩ : BufTy).Contents (Elt F)),
    StableHlo.binary main_v36 main_v50 main_v51 ((fun l r => Host.dotGeneral dot_S6x3x4_S6x4x160000_S6x3x160000_2_1_1_2_0_0 none l r) : (⟨S6x3x4, .f32⟩ : BufTy).Contents (Elt F) → (⟨S6x4x160000, .f32⟩ : BufTy).Contents (Elt F) → (⟨S6x3x160000, .f32⟩ : BufTy).Contents (Elt F)) ]

theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., unary_bufs_sub .., unary_bufs_sub .., unary_bufs_sub .., unary_bufs_sub .., unary_bufs_sub .., unary_bufs_sub .., nary_bufs_sub .., unary_bufs_sub .., nullary_bufs_sub .., unary_bufs_sub .., binary_bufs_sub .., binary_bufs_sub .., binary_bufs_sub .., reshape_bufs_sub .., unary_bufs_sub .., binary_bufs_sub .., reshape_bufs_sub .., unary_bufs_sub .., binary_bufs_sub .., reshape_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., ternary_bufs_sub .., reshape_bufs_sub .., binary_bufs_sub .., unary_bufs_sub .., reshape_bufs_sub .., reshape_bufs_sub .., unary_bufs_sub .., binary_bufs_sub .., unary_bufs_sub .., unary_bufs_sub .., reshape_bufs_sub .., reshape_bufs_sub .., binary_bufs_sub .., unary_bufs_sub .., unary_bufs_sub .., nullary_bufs_sub .., unary_bufs_sub .., binary_bufs_sub .., unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops0_past : (ops0 : List (HloOp τ sig (Elt F))).Forall WritesPastArgs :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- The operations of @main's window 1 (70), calls replaced by their functions' operations. -/
abbrev ops1 : List (HloOp τ sig (Elt F)) :=
  [ StableHlo.unary main_v51 main_v52 ((extractStridedSlice S6x1x160000 ![0, 2, 0] · slices_S6x3x160000_S6x1x160000_0_2_0) : (⟨S6x3x160000, .f32⟩ : BufTy).Contents (Elt F) → (⟨S6x1x160000, .f32⟩ : BufTy).Contents (Elt F)),
    StableHlo.reshape main_v52 main_v53 rfl shapeCasts_S6x1x160000_S6x160000,
    StableHlo.unary main_v51 main_v54 ((extractStridedSlice S6x1x160000 ![0, 0, 0] · slices_S6x3x160000_S6x1x160000_0_0_0) : (⟨S6x3x160000, .f32⟩ : BufTy).Contents (Elt F) → (⟨S6x1x160000, .f32⟩ : BufTy).Contents (Elt F)),
    StableHlo.reshape main_v54 main_v55 rfl shapeCasts_S6x1x160000_S6x160000,
    StableHlo.binary main_v55 main_v53 main_v56 (Host.divf : (⟨S6x160000, .f32⟩ : BufTy).Contents (Elt F) → (⟨S6x160000, .f32⟩ : BufTy).Contents (Elt F) → (⟨S6x160000, .f32⟩ : BufTy).Contents (Elt F)),
    StableHlo.unary main_v28 main_v57 ((extractStridedSlice S6x1 ![0, 0] · slices_S6x4_S6x1_0_0) : (⟨S6x4, .f32⟩ : BufTy).Contents (Elt F) → (⟨S6x1, .f32⟩ : BufTy).Contents (Elt F)),
    StableHlo.reshape main_v57 main_v58 rfl shapeCasts_S6x1_S6,
    StableHlo.unary main_v58 main_v59 (broadcastInDim S6x1 ![0] bcast_S6_S6x1_0 : (⟨S6, .f32⟩ : BufTy).Contents (Elt F) → (⟨S6x1, .f32⟩ : BufTy).Contents (Elt F)),
    StableHlo.unary main_v59 main_v60 (broadcastInDim S6x160000 ![0, 1] bcast_S6x1_S6x160000_0_1 : (⟨S6x1, .f32⟩ : BufTy).Contents (Elt F) → (⟨S6x160000, .f32⟩ : BufTy).Contents (Elt F)),
    StableHlo.binary main_v56 main_v60 main_v61 (addf : (⟨S6x160000, .f32⟩ : BufTy).Contents (Elt F) → (⟨S6x160000, .f32⟩ : BufTy).Contents (Elt F) → (⟨S6x160000, .f32⟩ : BufTy).Contents (Elt F)),
    StableHlo.unary main_v51 main_v62 ((extractStridedSlice S6x1x160000 ![0, 1, 0] · slices_S6x3x160000_S6x1x160000_0_1_0) : (⟨S6x3x160000, .f32⟩ : BufTy).Contents (Elt F) → (⟨S6x1x160000, .f32⟩ : BufTy).Contents (Elt F)),
    StableHlo.reshape main_v62 main_v63 rfl shapeCasts_S6x1x160000_S6x160000,
    StableHlo.binary main_v63 main_v53 main_v64 (Host.divf : (⟨S6x160000, .f32⟩ : BufTy).Contents (Elt F) → (⟨S6x160000, .f32⟩ : BufTy).Contents (Elt F) → (⟨S6x160000, .f32⟩ : BufTy).Contents (Elt F)),
    StableHlo.unary main_v28 main_v65 ((extractStridedSlice S6x1 ![0, 1] · slices_S6x4_S6x1_0_1) : (⟨S6x4, .f32⟩ : BufTy).Contents (Elt F) → (⟨S6x1, .f32⟩ : BufTy).Contents (Elt F)),
    StableHlo.reshape main_v65 main_v66 rfl shapeCasts_S6x1_S6,
    StableHlo.unary main_v66 main_v67 (broadcastInDim S6x1 ![0] bcast_S6_S6x1_0 : (⟨S6, .f32⟩ : BufTy).Contents (Elt F) → (⟨S6x1, .f32⟩ : BufTy).Contents (Elt F)),
    StableHlo.unary main_v67 main_v68 (broadcastInDim S6x160000 ![0, 1] bcast_S6x1_S6x160000_0_1 : (⟨S6x1, .f32⟩ : BufTy).Contents (Elt F) → (⟨S6x160000, .f32⟩ : BufTy).Contents (Elt F)),
    StableHlo.binary main_v64 main_v68 main_v69 (addf : (⟨S6x160000, .f32⟩ : BufTy).Contents (Elt F) → (⟨S6x160000, .f32⟩ : BufTy).Contents (Elt F) → (⟨S6x160000, .f32⟩ : BufTy).Contents (Elt F)),
    StableHlo.nullary main_cst_6 (constant S_ .f32 0x40800000#32),
    StableHlo.unary main_cst_6 main_v70 (broadcastInDim S6x160000 ![] bcast_S_S6x160000 : (⟨S_, .f32⟩ : BufTy).Contents (Elt F) → (⟨S6x160000, .f32⟩ : BufTy).Contents (Elt F)),
    StableHlo.binary main_v61 main_v70 main_v71 (Host.divf : (⟨S6x160000, .f32⟩ : BufTy).Contents (Elt F) → (⟨S6x160000, .f32⟩ : BufTy).Contents (Elt F) → (⟨S6x160000, .f32⟩ : BufTy).Contents (Elt F)),
    StableHlo.TRef.unary (.of main_v71 : StableHlo.TRef sig ⟨S6x160000, .f32⟩) main_call0.v0 Host.roundeven,
    StableHlo.unary main_v72 main_v73 (fptosi 32 : (⟨S6x160000, .f32⟩ : BufTy).Contents (Elt F) → (⟨S6x160000, .i32⟩ : BufTy).Contents (Elt F)),
    StableHlo.nullary main_cst_7 (constant S_ .f32 0x40800000#32),
    StableHlo.unary main_cst_7 main_v74 (broadcastInDim S6x160000 ![] bcast_S_S6x160000 : (⟨S_, .f32⟩ : BufTy).Contents (Elt F) → (⟨S6x160000, .f32⟩ : BufTy).Contents (Elt F)),
    StableHlo.binary main_v69 main_v74 main_v75 (Host.divf : (⟨S6x160000, .f32⟩ : BufTy).Contents (Elt F) → (⟨S6x160000, .f32⟩ : BufTy).Contents (Elt F) → (⟨S6x160000, .f32⟩ : BufTy).Contents (Elt F)),
    StableHlo.TRef.unary (.of main_v75 : StableHlo.TRef sig ⟨S6x160000, .f32⟩) main_call1.v0 Host.roundeven,
    StableHlo.unary main_v76 main_v77 (fptosi 32 : (⟨S6x160000, .f32⟩ : BufTy).Contents (Elt F) → (⟨S6x160000, .i32⟩ : BufTy).Contents (Elt F)),
    StableHlo.nullary main_c_8 (constantI S_ 32 0#32),
    StableHlo.unary main_c_8 main_v78 (broadcastInDim S6x160000 ![] bcast_S_S6x160000 : (⟨S_, .i32⟩ : BufTy).Contents (Elt F) → (⟨S6x160000, .i32⟩ : BufTy).Contents (Elt F)),
    StableHlo.binary main_v73 main_v78 main_v79 (cmpi .sge : (⟨S6x160000, .i32⟩ : BufTy).Contents (Elt F) → (⟨S6x160000, .i32⟩ : BufTy).Contents (Elt F) → (⟨S6x160000, .i1⟩ : BufTy).Contents (Elt F)),
    StableHlo.nullary main_c_9 (constantI S_ 32 0#32),
    StableHlo.unary main_c_9 main_v80 (broadcastInDim S6x160000 ![] bcast_S_S6x160000 : (⟨S_, .i32⟩ : BufTy).Contents (Elt F) → (⟨S6x160000, .i32⟩ : BufTy).Contents (Elt F)),
    StableHlo.binary main_v77 main_v80 main_v81 (cmpi .sge : (⟨S6x160000, .i32⟩ : BufTy).Contents (Elt F) → (⟨S6x160000, .i32⟩ : BufTy).Contents (Elt F) → (⟨S6x160000, .i1⟩ : BufTy).Contents (Elt F)),
    StableHlo.binary main_v79 main_v81 main_v82 (andi : (⟨S6x160000, .i1⟩ : BufTy).Contents (Elt F) → (⟨S6x160000, .i1⟩ : BufTy).Contents (Elt F) → (⟨S6x160000, .i1⟩ : BufTy).Contents (Elt F)),
    StableHlo.nullary main_c_10 (constantI S_ 32 176#32),
    StableHlo.unary main_c_10 main_v83 (broadcastInDim S6x160000 ![] bcast_S_S6x160000 : (⟨S_, .i32⟩ : BufTy).Contents (Elt F) → (⟨S6x160000, .i32⟩ : BufTy).Contents (Elt F)),
    StableHlo.binary main_v73 main_v83 main_v84 (cmpi .slt : (⟨S6x160000, .i32⟩ : BufTy).Contents (Elt F) → (⟨S6x160000, .i32⟩ : BufTy).Contents (Elt F) → (⟨S6x160000, .i1⟩ : BufTy).Contents (Elt F)),
    StableHlo.binary main_v82 main_v84 main_v85 (andi : (⟨S6x160000, .i1⟩ : BufTy).Contents (Elt F) → (⟨S6x160000, .i1⟩ : BufTy).Contents (Elt F) → (⟨S6x160000, .i1⟩ : BufTy).Contents (Elt F)),
    StableHlo.nullary main_c_11 (constantI S_ 32 64#32),
    StableHlo.unary main_c_11 main_v86 (broadcastInDim S6x160000 ![] bcast_S_S6x160000 : (⟨S_, .i32⟩ : BufTy).Contents (Elt F) → (⟨S6x160000, .i32⟩ : BufTy).Contents (Elt F)),
    StableHlo.binary main_v77 main_v86 main_v87 (cmpi .slt : (⟨S6x160000, .i32⟩ : BufTy).Contents (Elt F) → (⟨S6x160000, .i32⟩ : BufTy).Contents (Elt F) → (⟨S6x160000, .i1⟩ : BufTy).Contents (Elt F)),
    StableHlo.binary main_v85 main_v87 main_v88 (andi : (⟨S6x160000, .i1⟩ : BufTy).Contents (Elt F) → (⟨S6x160000, .i1⟩ : BufTy).Contents (Elt F) → (⟨S6x160000, .i1⟩ : BufTy).Contents (Elt F)),
    StableHlo.nullary main_cst_12 (constant S_ .f32 0x00000000#32),
    StableHlo.unary main_cst_12 main_v89 (broadcastInDim S6x160000 ![] bcast_S_S6x160000 : (⟨S_, .f32⟩ : BufTy).Contents (Elt F) → (⟨S6x160000, .f32⟩ : BufTy).Contents (Elt F)),
    StableHlo.binary main_v53 main_v89 main_v90 (cmpf .ogt : (⟨S6x160000, .f32⟩ : BufTy).Contents (Elt F) → (⟨S6x160000, .f32⟩ : BufTy).Contents (Elt F) → (⟨S6x160000, .i1⟩ : BufTy).Contents (Elt F)),
    StableHlo.binary main_v88 main_v90 main_v91 (andi : (⟨S6x160000, .i1⟩ : BufTy).Contents (Elt F) → (⟨S6x160000, .i1⟩ : BufTy).Contents (Elt F) → (⟨S6x160000, .i1⟩ : BufTy).Contents (Elt F)),
    StableHlo.nullary main_cst_13 (constant S_ .f32 0x00000000#32),
    StableHlo.unary main_cst_13 main_v92 (broadcastInDim S256x160000 ![] bcast_S_S256x160000 : (⟨S_, .f32⟩ : BufTy).Contents (Elt F) → (⟨S256x160000, .f32⟩ : BufTy).Contents (Elt F)),
    StableHlo.unary main_v73 main_v93 ((extractStridedSlice S1x160000 ![0, 0] · slices_S6x160000_S1x160000_0_0) : (⟨S6x160000, .i32⟩ : BufTy).Contents (Elt F) → (⟨S1x160000, .i32⟩ : BufTy).Contents (Elt F)),
    StableHlo.reshape main_v93 main_v94 rfl shapeCasts_S1x160000_S160000,
    StableHlo.nullary main_c_14 (constantI S_ 32 0#32),
    StableHlo.nullary main_c_15 (constantI S_ 32 175#32),
    StableHlo.TRef.unary (.of main_c_14 : StableHlo.TRef sig ⟨S_, .i32⟩) main_call2.v0 id,
    StableHlo.TRef.unary main_call2.v0 main_call2.v1 (broadcastInDim S160000 ![] bcast_S_S160000),
    StableHlo.TRef.binary main_call2.v1 (.of main_v94 : StableHlo.TRef sig ⟨S160000, .i32⟩) main_call2.v2 maxsi,
    StableHlo.TRef.unary (.of main_c_15 : StableHlo.TRef sig ⟨S_, .i32⟩) main_call2.v3 id,
    StableHlo.TRef.unary main_call2.v3 main_call2.v4 (broadcastInDim S160000 ![] bcast_S_S160000),
    StableHlo.TRef.binary main_call2.v4 main_call2.v2 main_call2.v5 minsi,
    StableHlo.unary main_v77 main_v96 ((extractStridedSlice S1x160000 ![0, 0] · slices_S6x160000_S1x160000_0_0) : (⟨S6x160000, .i32⟩ : BufTy).Contents (Elt F) → (⟨S1x160000, .i32⟩ : BufTy).Contents (Elt F)),
    StableHlo.reshape main_v96 main_v97 rfl shapeCasts_S1x160000_S160000,
    StableHlo.nullary main_c_16 (constantI S_ 32 0#32),
    StableHlo.nullary main_c_17 (constantI S_ 32 63#32),
    StableHlo.TRef.unary (.of main_c_16 : StableHlo.TRef sig ⟨S_, .i32⟩) main_call3.v0 id,
    StableHlo.TRef.unary main_call3.v0 main_call3.v1 (broadcastInDim S160000 ![] bcast_S_S160000),
    StableHlo.TRef.binary main_call3.v1 (.of main_v97 : StableHlo.TRef sig ⟨S160000, .i32⟩) main_call3.v2 maxsi,
    StableHlo.TRef.unary (.of main_c_17 : StableHlo.TRef sig ⟨S_, .i32⟩) main_call3.v3 id,
    StableHlo.TRef.unary main_call3.v3 main_call3.v4 (broadcastInDim S160000 ![] bcast_S_S160000),
    StableHlo.TRef.binary main_call3.v4 main_call3.v2 main_call3.v5 minsi,
    StableHlo.unary main_v21 main_v99 ((extractStridedSlice S1x256x64x176 ![0, 0, 0, 0] · slices_S6x256x64x176_S1x256x64x176_0_0_0_0) : (⟨S6x256x64x176, .f32⟩ : BufTy).Contents (Elt F) → (⟨S1x256x64x176, .f32⟩ : BufTy).Contents (Elt F)) ]

theorem ops1_sub : (ops1 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_past : (ops1 : List (HloOp τ sig (Elt F))).Forall WritesPastArgs :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- The operations of @main's window 2 (72), calls replaced by their functions' operations. -/
abbrev ops2 : List (HloOp τ sig (Elt F)) :=
  [ StableHlo.reshape main_v99 main_v100 rfl shapeCasts_S1x256x64x176_S256x64x176,
    StableHlo.nullary main_c_18 (constantI S_ 32 0#32),
    StableHlo.unary main_c_18 main_v101 (broadcastInDim S160000 ![] bcast_S_S160000 : (⟨S_, .i32⟩ : BufTy).Contents (Elt F) → (⟨S160000, .i32⟩ : BufTy).Contents (Elt F)),
    StableHlo.binary main_v98 main_v101 main_v102 (cmpi .slt : (⟨S160000, .i32⟩ : BufTy).Contents (Elt F) → (⟨S160000, .i32⟩ : BufTy).Contents (Elt F) → (⟨S160000, .i1⟩ : BufTy).Contents (Elt F)),
    StableHlo.nullary main_c_19 (constantI S_ 32 64#32),
    StableHlo.unary main_c_19 main_v103 (broadcastInDim S160000 ![] bcast_S_S160000 : (⟨S_, .i32⟩ : BufTy).Contents (Elt F) → (⟨S160000, .i32⟩ : BufTy).Contents (Elt F)),
    StableHlo.binary main_v98 main_v103 main_v104 (addi : (⟨S160000, .i32⟩ : BufTy).Contents (Elt F) → (⟨S160000, .i32⟩ : BufTy).Contents (Elt F) → (⟨S160000, .i32⟩ : BufTy).Contents (Elt F)),
    StableHlo.ternary main_v102 main_v104 main_v98 main_v105 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.nullary main_c_20 (constantI S_ 32 0#32),
    StableHlo.unary main_c_20 main_v106 (broadcastInDim S160000 ![] bcast_S_S160000 : (⟨S_, .i32⟩ : BufTy).Contents (Elt F) → (⟨S160000, .i32⟩ : BufTy).Contents (Elt F)),
    StableHlo.binary main_v95 main_v106 main_v107 (cmpi .slt : (⟨S160000, .i32⟩ : BufTy).Contents (Elt F) → (⟨S160000, .i32⟩ : BufTy).Contents (Elt F) → (⟨S160000, .i1⟩ : BufTy).Contents (Elt F)),
    StableHlo.nullary main_c_21 (constantI S_ 32 176#32),
    StableHlo.unary main_c_21 main_v108 (broadcastInDim S160000 ![] bcast_S_S160000 : (⟨S_, .i32⟩ : BufTy).Contents (Elt F) → (⟨S160000, .i32⟩ : BufTy).Contents (Elt F)),
    StableHlo.binary main_v95 main_v108 main_v109 (addi : (⟨S160000, .i32⟩ : BufTy).Contents (Elt F) → (⟨S160000, .i32⟩ : BufTy).Contents (Elt F) → (⟨S160000, .i32⟩ : BufTy).Contents (Elt F)),
    StableHlo.ternary main_v107 main_v109 main_v95 main_v110 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v105 main_v111 (broadcastInDim S160000x1 ![0] bcast_S160000_S160000x1_0 : (⟨S160000, .i32⟩ : BufTy).Contents (Elt F) → (⟨S160000x1, .i32⟩ : BufTy).Contents (Elt F)),
    StableHlo.unary main_v110 main_v112 (broadcastInDim S160000x1 ![0] bcast_S160000_S160000x1_0 : (⟨S160000, .i32⟩ : BufTy).Contents (Elt F) → (⟨S160000x1, .i32⟩ : BufTy).Contents (Elt F)),
    StableHlo.binary main_v111 main_v112 main_v113 ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)),
    StableHlo.binary main_v100 main_v113 main_v114 ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)),
    StableHlo.unary main_v91 main_v115 ((extractStridedSlice S1x160000 ![0, 0] · slices_S6x160000_S1x160000_0_0) : (⟨S6x160000, .i1⟩ : BufTy).Contents (Elt F) → (⟨S1x160000, .i1⟩ : BufTy).Contents (Elt F)),
    StableHlo.reshape main_v115 main_v116 rfl shapeCasts_S1x160000_S160000,
    StableHlo.unary main_v116 main_v117 (broadcastInDim S1x160000 ![1] bcast_S160000_S1x160000_1 : (⟨S160000, .i1⟩ : BufTy).Contents (Elt F) → (⟨S1x160000, .i1⟩ : BufTy).Contents (Elt F)),
    StableHlo.TRef.unary (.of main_v117 : StableHlo.TRef sig ⟨S1x160000, .i1⟩) main_call4.v0 (broadcastInDim S256x160000 ![0, 1] bcast_S1x160000_S256x160000_0_1),
    StableHlo.TRef.ternary main_call4.v0 (.of main_v114 : StableHlo.TRef sig ⟨S256x160000, .f32⟩) (.of main_v92 : StableHlo.TRef sig ⟨S256x160000, .f32⟩) main_call4.v1 select,
    StableHlo.unary main_v73 main_v119 ((extractStridedSlice S1x160000 ![1, 0] · slices_S6x160000_S1x160000_1_0) : (⟨S6x160000, .i32⟩ : BufTy).Contents (Elt F) → (⟨S1x160000, .i32⟩ : BufTy).Contents (Elt F)),
    StableHlo.reshape main_v119 main_v120 rfl shapeCasts_S1x160000_S160000,
    StableHlo.nullary main_c_22 (constantI S_ 32 0#32),
    StableHlo.nullary main_c_23 (constantI S_ 32 175#32),
    StableHlo.TRef.unary (.of main_c_22 : StableHlo.TRef sig ⟨S_, .i32⟩) main_call5.v0 id,
    StableHlo.TRef.unary main_call5.v0 main_call5.v1 (broadcastInDim S160000 ![] bcast_S_S160000),
    StableHlo.TRef.binary main_call5.v1 (.of main_v120 : StableHlo.TRef sig ⟨S160000, .i32⟩) main_call5.v2 maxsi,
    StableHlo.TRef.unary (.of main_c_23 : StableHlo.TRef sig ⟨S_, .i32⟩) main_call5.v3 id,
    StableHlo.TRef.unary main_call5.v3 main_call5.v4 (broadcastInDim S160000 ![] bcast_S_S160000),
    StableHlo.TRef.binary main_call5.v4 main_call5.v2 main_call5.v5 minsi,
    StableHlo.unary main_v77 main_v122 ((extractStridedSlice S1x160000 ![1, 0] · slices_S6x160000_S1x160000_1_0) : (⟨S6x160000, .i32⟩ : BufTy).Contents (Elt F) → (⟨S1x160000, .i32⟩ : BufTy).Contents (Elt F)),
    StableHlo.reshape main_v122 main_v123 rfl shapeCasts_S1x160000_S160000,
    StableHlo.nullary main_c_24 (constantI S_ 32 0#32),
    StableHlo.nullary main_c_25 (constantI S_ 32 63#32),
    StableHlo.TRef.unary (.of main_c_24 : StableHlo.TRef sig ⟨S_, .i32⟩) main_call6.v0 id,
    StableHlo.TRef.unary main_call6.v0 main_call6.v1 (broadcastInDim S160000 ![] bcast_S_S160000),
    StableHlo.TRef.binary main_call6.v1 (.of main_v123 : StableHlo.TRef sig ⟨S160000, .i32⟩) main_call6.v2 maxsi,
    StableHlo.TRef.unary (.of main_c_25 : StableHlo.TRef sig ⟨S_, .i32⟩) main_call6.v3 id,
    StableHlo.TRef.unary main_call6.v3 main_call6.v4 (broadcastInDim S160000 ![] bcast_S_S160000),
    StableHlo.TRef.binary main_call6.v4 main_call6.v2 main_call6.v5 minsi,
    StableHlo.unary main_v21 main_v125 ((extractStridedSlice S1x256x64x176 ![1, 0, 0, 0] · slices_S6x256x64x176_S1x256x64x176_1_0_0_0) : (⟨S6x256x64x176, .f32⟩ : BufTy).Contents (Elt F) → (⟨S1x256x64x176, .f32⟩ : BufTy).Contents (Elt F)),
    StableHlo.reshape main_v125 main_v126 rfl shapeCasts_S1x256x64x176_S256x64x176,
    StableHlo.nullary main_c_26 (constantI S_ 32 0#32),
    StableHlo.unary main_c_26 main_v127 (broadcastInDim S160000 ![] bcast_S_S160000 : (⟨S_, .i32⟩ : BufTy).Contents (Elt F) → (⟨S160000, .i32⟩ : BufTy).Contents (Elt F)),
    StableHlo.binary main_v124 main_v127 main_v128 (cmpi .slt : (⟨S160000, .i32⟩ : BufTy).Contents (Elt F) → (⟨S160000, .i32⟩ : BufTy).Contents (Elt F) → (⟨S160000, .i1⟩ : BufTy).Contents (Elt F)),
    StableHlo.nullary main_c_27 (constantI S_ 32 64#32),
    StableHlo.unary main_c_27 main_v129 (broadcastInDim S160000 ![] bcast_S_S160000 : (⟨S_, .i32⟩ : BufTy).Contents (Elt F) → (⟨S160000, .i32⟩ : BufTy).Contents (Elt F)),
    StableHlo.binary main_v124 main_v129 main_v130 (addi : (⟨S160000, .i32⟩ : BufTy).Contents (Elt F) → (⟨S160000, .i32⟩ : BufTy).Contents (Elt F) → (⟨S160000, .i32⟩ : BufTy).Contents (Elt F)),
    StableHlo.ternary main_v128 main_v130 main_v124 main_v131 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.nullary main_c_28 (constantI S_ 32 0#32),
    StableHlo.unary main_c_28 main_v132 (broadcastInDim S160000 ![] bcast_S_S160000 : (⟨S_, .i32⟩ : BufTy).Contents (Elt F) → (⟨S160000, .i32⟩ : BufTy).Contents (Elt F)),
    StableHlo.binary main_v121 main_v132 main_v133 (cmpi .slt : (⟨S160000, .i32⟩ : BufTy).Contents (Elt F) → (⟨S160000, .i32⟩ : BufTy).Contents (Elt F) → (⟨S160000, .i1⟩ : BufTy).Contents (Elt F)),
    StableHlo.nullary main_c_29 (constantI S_ 32 176#32),
    StableHlo.unary main_c_29 main_v134 (broadcastInDim S160000 ![] bcast_S_S160000 : (⟨S_, .i32⟩ : BufTy).Contents (Elt F) → (⟨S160000, .i32⟩ : BufTy).Contents (Elt F)),
    StableHlo.binary main_v121 main_v134 main_v135 (addi : (⟨S160000, .i32⟩ : BufTy).Contents (Elt F) → (⟨S160000, .i32⟩ : BufTy).Contents (Elt F) → (⟨S160000, .i32⟩ : BufTy).Contents (Elt F)),
    StableHlo.ternary main_v133 main_v135 main_v121 main_v136 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v131 main_v137 (broadcastInDim S160000x1 ![0] bcast_S160000_S160000x1_0 : (⟨S160000, .i32⟩ : BufTy).Contents (Elt F) → (⟨S160000x1, .i32⟩ : BufTy).Contents (Elt F)),
    StableHlo.unary main_v136 main_v138 (broadcastInDim S160000x1 ![0] bcast_S160000_S160000x1_0 : (⟨S160000, .i32⟩ : BufTy).Contents (Elt F) → (⟨S160000x1, .i32⟩ : BufTy).Contents (Elt F)),
    StableHlo.binary main_v137 main_v138 main_v139 ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)),
    StableHlo.binary main_v126 main_v139 main_v140 ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)),
    StableHlo.unary main_v91 main_v141 ((extractStridedSlice S1x160000 ![1, 0] · slices_S6x160000_S1x160000_1_0) : (⟨S6x160000, .i1⟩ : BufTy).Contents (Elt F) → (⟨S1x160000, .i1⟩ : BufTy).Contents (Elt F)),
    StableHlo.reshape main_v141 main_v142 rfl shapeCasts_S1x160000_S160000,
    StableHlo.unary main_v142 main_v143 (broadcastInDim S1x160000 ![1] bcast_S160000_S1x160000_1 : (⟨S160000, .i1⟩ : BufTy).Contents (Elt F) → (⟨S1x160000, .i1⟩ : BufTy).Contents (Elt F)),
    StableHlo.TRef.unary (.of main_v143 : StableHlo.TRef sig ⟨S1x160000, .i1⟩) main_call7.v0 (broadcastInDim S256x160000 ![0, 1] bcast_S1x160000_S256x160000_0_1),
    StableHlo.TRef.ternary main_call7.v0 (.of main_v140 : StableHlo.TRef sig ⟨S256x160000, .f32⟩) (.of main_v118 : StableHlo.TRef sig ⟨S256x160000, .f32⟩) main_call7.v1 select,
    StableHlo.unary main_v73 main_v145 ((extractStridedSlice S1x160000 ![2, 0] · slices_S6x160000_S1x160000_2_0) : (⟨S6x160000, .i32⟩ : BufTy).Contents (Elt F) → (⟨S1x160000, .i32⟩ : BufTy).Contents (Elt F)),
    StableHlo.reshape main_v145 main_v146 rfl shapeCasts_S1x160000_S160000,
    StableHlo.nullary main_c_30 (constantI S_ 32 0#32) ]

theorem ops2_sub : (ops2 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., reshape_bufs_sub .., unary_bufs_sub .., unary_bufs_sub .., ternary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., reshape_bufs_sub .., unary_bufs_sub .., unary_bufs_sub .., ternary_bufs_sub .., unary_bufs_sub .., reshape_bufs_sub .., nullary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2_past : (ops2 : List (HloOp τ sig (Elt F))).Forall WritesPastArgs :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- The operations of @main's window 3 (81), calls replaced by their functions' operations. -/
abbrev ops3 : List (HloOp τ sig (Elt F)) :=
  [ StableHlo.nullary main_c_31 (constantI S_ 32 175#32),
    StableHlo.TRef.unary (.of main_c_30 : StableHlo.TRef sig ⟨S_, .i32⟩) main_call8.v0 id,
    StableHlo.TRef.unary main_call8.v0 main_call8.v1 (broadcastInDim S160000 ![] bcast_S_S160000),
    StableHlo.TRef.binary main_call8.v1 (.of main_v146 : StableHlo.TRef sig ⟨S160000, .i32⟩) main_call8.v2 maxsi,
    StableHlo.TRef.unary (.of main_c_31 : StableHlo.TRef sig ⟨S_, .i32⟩) main_call8.v3 id,
    StableHlo.TRef.unary main_call8.v3 main_call8.v4 (broadcastInDim S160000 ![] bcast_S_S160000),
    StableHlo.TRef.binary main_call8.v4 main_call8.v2 main_call8.v5 minsi,
    StableHlo.unary main_v77 main_v148 ((extractStridedSlice S1x160000 ![2, 0] · slices_S6x160000_S1x160000_2_0) : (⟨S6x160000, .i32⟩ : BufTy).Contents (Elt F) → (⟨S1x160000, .i32⟩ : BufTy).Contents (Elt F)),
    StableHlo.reshape main_v148 main_v149 rfl shapeCasts_S1x160000_S160000,
    StableHlo.nullary main_c_32 (constantI S_ 32 0#32),
    StableHlo.nullary main_c_33 (constantI S_ 32 63#32),
    StableHlo.TRef.unary (.of main_c_32 : StableHlo.TRef sig ⟨S_, .i32⟩) main_call9.v0 id,
    StableHlo.TRef.unary main_call9.v0 main_call9.v1 (broadcastInDim S160000 ![] bcast_S_S160000),
    StableHlo.TRef.binary main_call9.v1 (.of main_v149 : StableHlo.TRef sig ⟨S160000, .i32⟩) main_call9.v2 maxsi,
    StableHlo.TRef.unary (.of main_c_33 : StableHlo.TRef sig ⟨S_, .i32⟩) main_call9.v3 id,
    StableHlo.TRef.unary main_call9.v3 main_call9.v4 (broadcastInDim S160000 ![] bcast_S_S160000),
    StableHlo.TRef.binary main_call9.v4 main_call9.v2 main_call9.v5 minsi,
    StableHlo.unary main_v21 main_v151 ((extractStridedSlice S1x256x64x176 ![2, 0, 0, 0] · slices_S6x256x64x176_S1x256x64x176_2_0_0_0) : (⟨S6x256x64x176, .f32⟩ : BufTy).Contents (Elt F) → (⟨S1x256x64x176, .f32⟩ : BufTy).Contents (Elt F)),
    StableHlo.reshape main_v151 main_v152 rfl shapeCasts_S1x256x64x176_S256x64x176,
    StableHlo.nullary main_c_34 (constantI S_ 32 0#32),
    StableHlo.unary main_c_34 main_v153 (broadcastInDim S160000 ![] bcast_S_S160000 : (⟨S_, .i32⟩ : BufTy).Contents (Elt F) → (⟨S160000, .i32⟩ : BufTy).Contents (Elt F)),
    StableHlo.binary main_v150 main_v153 main_v154 (cmpi .slt : (⟨S160000, .i32⟩ : BufTy).Contents (Elt F) → (⟨S160000, .i32⟩ : BufTy).Contents (Elt F) → (⟨S160000, .i1⟩ : BufTy).Contents (Elt F)),
    StableHlo.nullary main_c_35 (constantI S_ 32 64#32),
    StableHlo.unary main_c_35 main_v155 (broadcastInDim S160000 ![] bcast_S_S160000 : (⟨S_, .i32⟩ : BufTy).Contents (Elt F) → (⟨S160000, .i32⟩ : BufTy).Contents (Elt F)),
    StableHlo.binary main_v150 main_v155 main_v156 (addi : (⟨S160000, .i32⟩ : BufTy).Contents (Elt F) → (⟨S160000, .i32⟩ : BufTy).Contents (Elt F) → (⟨S160000, .i32⟩ : BufTy).Contents (Elt F)),
    StableHlo.ternary main_v154 main_v156 main_v150 main_v157 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.nullary main_c_36 (constantI S_ 32 0#32),
    StableHlo.unary main_c_36 main_v158 (broadcastInDim S160000 ![] bcast_S_S160000 : (⟨S_, .i32⟩ : BufTy).Contents (Elt F) → (⟨S160000, .i32⟩ : BufTy).Contents (Elt F)),
    StableHlo.binary main_v147 main_v158 main_v159 (cmpi .slt : (⟨S160000, .i32⟩ : BufTy).Contents (Elt F) → (⟨S160000, .i32⟩ : BufTy).Contents (Elt F) → (⟨S160000, .i1⟩ : BufTy).Contents (Elt F)),
    StableHlo.nullary main_c_37 (constantI S_ 32 176#32),
    StableHlo.unary main_c_37 main_v160 (broadcastInDim S160000 ![] bcast_S_S160000 : (⟨S_, .i32⟩ : BufTy).Contents (Elt F) → (⟨S160000, .i32⟩ : BufTy).Contents (Elt F)),
    StableHlo.binary main_v147 main_v160 main_v161 (addi : (⟨S160000, .i32⟩ : BufTy).Contents (Elt F) → (⟨S160000, .i32⟩ : BufTy).Contents (Elt F) → (⟨S160000, .i32⟩ : BufTy).Contents (Elt F)),
    StableHlo.ternary main_v159 main_v161 main_v147 main_v162 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v157 main_v163 (broadcastInDim S160000x1 ![0] bcast_S160000_S160000x1_0 : (⟨S160000, .i32⟩ : BufTy).Contents (Elt F) → (⟨S160000x1, .i32⟩ : BufTy).Contents (Elt F)),
    StableHlo.unary main_v162 main_v164 (broadcastInDim S160000x1 ![0] bcast_S160000_S160000x1_0 : (⟨S160000, .i32⟩ : BufTy).Contents (Elt F) → (⟨S160000x1, .i32⟩ : BufTy).Contents (Elt F)),
    StableHlo.binary main_v163 main_v164 main_v165 ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)),
    StableHlo.binary main_v152 main_v165 main_v166 ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)),
    StableHlo.unary main_v91 main_v167 ((extractStridedSlice S1x160000 ![2, 0] · slices_S6x160000_S1x160000_2_0) : (⟨S6x160000, .i1⟩ : BufTy).Contents (Elt F) → (⟨S1x160000, .i1⟩ : BufTy).Contents (Elt F)),
    StableHlo.reshape main_v167 main_v168 rfl shapeCasts_S1x160000_S160000,
    StableHlo.unary main_v168 main_v169 (broadcastInDim S1x160000 ![1] bcast_S160000_S1x160000_1 : (⟨S160000, .i1⟩ : BufTy).Contents (Elt F) → (⟨S1x160000, .i1⟩ : BufTy).Contents (Elt F)),
    StableHlo.TRef.unary (.of main_v169 : StableHlo.TRef sig ⟨S1x160000, .i1⟩) main_call10.v0 (broadcastInDim S256x160000 ![0, 1] bcast_S1x160000_S256x160000_0_1),
    StableHlo.TRef.ternary main_call10.v0 (.of main_v166 : StableHlo.TRef sig ⟨S256x160000, .f32⟩) (.of main_v144 : StableHlo.TRef sig ⟨S256x160000, .f32⟩) main_call10.v1 select,
    StableHlo.unary main_v73 main_v171 ((extractStridedSlice S1x160000 ![3, 0] · slices_S6x160000_S1x160000_3_0) : (⟨S6x160000, .i32⟩ : BufTy).Contents (Elt F) → (⟨S1x160000, .i32⟩ : BufTy).Contents (Elt F)),
    StableHlo.reshape main_v171 main_v172 rfl shapeCasts_S1x160000_S160000,
    StableHlo.nullary main_c_38 (constantI S_ 32 0#32),
    StableHlo.nullary main_c_39 (constantI S_ 32 175#32),
    StableHlo.TRef.unary (.of main_c_38 : StableHlo.TRef sig ⟨S_, .i32⟩) main_call11.v0 id,
    StableHlo.TRef.unary main_call11.v0 main_call11.v1 (broadcastInDim S160000 ![] bcast_S_S160000),
    StableHlo.TRef.binary main_call11.v1 (.of main_v172 : StableHlo.TRef sig ⟨S160000, .i32⟩) main_call11.v2 maxsi,
    StableHlo.TRef.unary (.of main_c_39 : StableHlo.TRef sig ⟨S_, .i32⟩) main_call11.v3 id,
    StableHlo.TRef.unary main_call11.v3 main_call11.v4 (broadcastInDim S160000 ![] bcast_S_S160000),
    StableHlo.TRef.binary main_call11.v4 main_call11.v2 main_call11.v5 minsi,
    StableHlo.unary main_v77 main_v174 ((extractStridedSlice S1x160000 ![3, 0] · slices_S6x160000_S1x160000_3_0) : (⟨S6x160000, .i32⟩ : BufTy).Contents (Elt F) → (⟨S1x160000, .i32⟩ : BufTy).Contents (Elt F)),
    StableHlo.reshape main_v174 main_v175 rfl shapeCasts_S1x160000_S160000,
    StableHlo.nullary main_c_40 (constantI S_ 32 0#32),
    StableHlo.nullary main_c_41 (constantI S_ 32 63#32),
    StableHlo.TRef.unary (.of main_c_40 : StableHlo.TRef sig ⟨S_, .i32⟩) main_call12.v0 id,
    StableHlo.TRef.unary main_call12.v0 main_call12.v1 (broadcastInDim S160000 ![] bcast_S_S160000),
    StableHlo.TRef.binary main_call12.v1 (.of main_v175 : StableHlo.TRef sig ⟨S160000, .i32⟩) main_call12.v2 maxsi,
    StableHlo.TRef.unary (.of main_c_41 : StableHlo.TRef sig ⟨S_, .i32⟩) main_call12.v3 id,
    StableHlo.TRef.unary main_call12.v3 main_call12.v4 (broadcastInDim S160000 ![] bcast_S_S160000),
    StableHlo.TRef.binary main_call12.v4 main_call12.v2 main_call12.v5 minsi,
    StableHlo.unary main_v21 main_v177 ((extractStridedSlice S1x256x64x176 ![3, 0, 0, 0] · slices_S6x256x64x176_S1x256x64x176_3_0_0_0) : (⟨S6x256x64x176, .f32⟩ : BufTy).Contents (Elt F) → (⟨S1x256x64x176, .f32⟩ : BufTy).Contents (Elt F)),
    StableHlo.reshape main_v177 main_v178 rfl shapeCasts_S1x256x64x176_S256x64x176,
    StableHlo.nullary main_c_42 (constantI S_ 32 0#32),
    StableHlo.unary main_c_42 main_v179 (broadcastInDim S160000 ![] bcast_S_S160000 : (⟨S_, .i32⟩ : BufTy).Contents (Elt F) → (⟨S160000, .i32⟩ : BufTy).Contents (Elt F)),
    StableHlo.binary main_v176 main_v179 main_v180 (cmpi .slt : (⟨S160000, .i32⟩ : BufTy).Contents (Elt F) → (⟨S160000, .i32⟩ : BufTy).Contents (Elt F) → (⟨S160000, .i1⟩ : BufTy).Contents (Elt F)),
    StableHlo.nullary main_c_43 (constantI S_ 32 64#32),
    StableHlo.unary main_c_43 main_v181 (broadcastInDim S160000 ![] bcast_S_S160000 : (⟨S_, .i32⟩ : BufTy).Contents (Elt F) → (⟨S160000, .i32⟩ : BufTy).Contents (Elt F)),
    StableHlo.binary main_v176 main_v181 main_v182 (addi : (⟨S160000, .i32⟩ : BufTy).Contents (Elt F) → (⟨S160000, .i32⟩ : BufTy).Contents (Elt F) → (⟨S160000, .i32⟩ : BufTy).Contents (Elt F)),
    StableHlo.ternary main_v180 main_v182 main_v176 main_v183 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.nullary main_c_44 (constantI S_ 32 0#32),
    StableHlo.unary main_c_44 main_v184 (broadcastInDim S160000 ![] bcast_S_S160000 : (⟨S_, .i32⟩ : BufTy).Contents (Elt F) → (⟨S160000, .i32⟩ : BufTy).Contents (Elt F)),
    StableHlo.binary main_v173 main_v184 main_v185 (cmpi .slt : (⟨S160000, .i32⟩ : BufTy).Contents (Elt F) → (⟨S160000, .i32⟩ : BufTy).Contents (Elt F) → (⟨S160000, .i1⟩ : BufTy).Contents (Elt F)),
    StableHlo.nullary main_c_45 (constantI S_ 32 176#32),
    StableHlo.unary main_c_45 main_v186 (broadcastInDim S160000 ![] bcast_S_S160000 : (⟨S_, .i32⟩ : BufTy).Contents (Elt F) → (⟨S160000, .i32⟩ : BufTy).Contents (Elt F)),
    StableHlo.binary main_v173 main_v186 main_v187 (addi : (⟨S160000, .i32⟩ : BufTy).Contents (Elt F) → (⟨S160000, .i32⟩ : BufTy).Contents (Elt F) → (⟨S160000, .i32⟩ : BufTy).Contents (Elt F)),
    StableHlo.ternary main_v185 main_v187 main_v173 main_v188 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v183 main_v189 (broadcastInDim S160000x1 ![0] bcast_S160000_S160000x1_0 : (⟨S160000, .i32⟩ : BufTy).Contents (Elt F) → (⟨S160000x1, .i32⟩ : BufTy).Contents (Elt F)),
    StableHlo.unary main_v188 main_v190 (broadcastInDim S160000x1 ![0] bcast_S160000_S160000x1_0 : (⟨S160000, .i32⟩ : BufTy).Contents (Elt F) → (⟨S160000x1, .i32⟩ : BufTy).Contents (Elt F)),
    StableHlo.binary main_v189 main_v190 main_v191 ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)) ]

theorem ops3_sub : (ops3 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., reshape_bufs_sub .., unary_bufs_sub .., unary_bufs_sub .., ternary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops3_past : (ops3 : List (HloOp τ sig (Elt F))).Forall WritesPastArgs :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- The operations of @main's window 4 (82), calls replaced by their functions' operations. -/
abbrev ops4 : List (HloOp τ sig (Elt F)) :=
  [ StableHlo.binary main_v178 main_v191 main_v192 ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)),
    StableHlo.unary main_v91 main_v193 ((extractStridedSlice S1x160000 ![3, 0] · slices_S6x160000_S1x160000_3_0) : (⟨S6x160000, .i1⟩ : BufTy).Contents (Elt F) → (⟨S1x160000, .i1⟩ : BufTy).Contents (Elt F)),
    StableHlo.reshape main_v193 main_v194 rfl shapeCasts_S1x160000_S160000,
    StableHlo.unary main_v194 main_v195 (broadcastInDim S1x160000 ![1] bcast_S160000_S1x160000_1 : (⟨S160000, .i1⟩ : BufTy).Contents (Elt F) → (⟨S1x160000, .i1⟩ : BufTy).Contents (Elt F)),
    StableHlo.TRef.unary (.of main_v195 : StableHlo.TRef sig ⟨S1x160000, .i1⟩) main_call13.v0 (broadcastInDim S256x160000 ![0, 1] bcast_S1x160000_S256x160000_0_1),
    StableHlo.TRef.ternary main_call13.v0 (.of main_v192 : StableHlo.TRef sig ⟨S256x160000, .f32⟩) (.of main_v170 : StableHlo.TRef sig ⟨S256x160000, .f32⟩) main_call13.v1 select,
    StableHlo.unary main_v73 main_v197 ((extractStridedSlice S1x160000 ![4, 0] · slices_S6x160000_S1x160000_4_0) : (⟨S6x160000, .i32⟩ : BufTy).Contents (Elt F) → (⟨S1x160000, .i32⟩ : BufTy).Contents (Elt F)),
    StableHlo.reshape main_v197 main_v198 rfl shapeCasts_S1x160000_S160000,
    StableHlo.nullary main_c_46 (constantI S_ 32 0#32),
    StableHlo.nullary main_c_47 (constantI S_ 32 175#32),
    StableHlo.TRef.unary (.of main_c_46 : StableHlo.TRef sig ⟨S_, .i32⟩) main_call14.v0 id,
    StableHlo.TRef.unary main_call14.v0 main_call14.v1 (broadcastInDim S160000 ![] bcast_S_S160000),
    StableHlo.TRef.binary main_call14.v1 (.of main_v198 : StableHlo.TRef sig ⟨S160000, .i32⟩) main_call14.v2 maxsi,
    StableHlo.TRef.unary (.of main_c_47 : StableHlo.TRef sig ⟨S_, .i32⟩) main_call14.v3 id,
    StableHlo.TRef.unary main_call14.v3 main_call14.v4 (broadcastInDim S160000 ![] bcast_S_S160000),
    StableHlo.TRef.binary main_call14.v4 main_call14.v2 main_call14.v5 minsi,
    StableHlo.unary main_v77 main_v200 ((extractStridedSlice S1x160000 ![4, 0] · slices_S6x160000_S1x160000_4_0) : (⟨S6x160000, .i32⟩ : BufTy).Contents (Elt F) → (⟨S1x160000, .i32⟩ : BufTy).Contents (Elt F)),
    StableHlo.reshape main_v200 main_v201 rfl shapeCasts_S1x160000_S160000,
    StableHlo.nullary main_c_48 (constantI S_ 32 0#32),
    StableHlo.nullary main_c_49 (constantI S_ 32 63#32),
    StableHlo.TRef.unary (.of main_c_48 : StableHlo.TRef sig ⟨S_, .i32⟩) main_call15.v0 id,
    StableHlo.TRef.unary main_call15.v0 main_call15.v1 (broadcastInDim S160000 ![] bcast_S_S160000),
    StableHlo.TRef.binary main_call15.v1 (.of main_v201 : StableHlo.TRef sig ⟨S160000, .i32⟩) main_call15.v2 maxsi,
    StableHlo.TRef.unary (.of main_c_49 : StableHlo.TRef sig ⟨S_, .i32⟩) main_call15.v3 id,
    StableHlo.TRef.unary main_call15.v3 main_call15.v4 (broadcastInDim S160000 ![] bcast_S_S160000),
    StableHlo.TRef.binary main_call15.v4 main_call15.v2 main_call15.v5 minsi,
    StableHlo.unary main_v21 main_v203 ((extractStridedSlice S1x256x64x176 ![4, 0, 0, 0] · slices_S6x256x64x176_S1x256x64x176_4_0_0_0) : (⟨S6x256x64x176, .f32⟩ : BufTy).Contents (Elt F) → (⟨S1x256x64x176, .f32⟩ : BufTy).Contents (Elt F)),
    StableHlo.reshape main_v203 main_v204 rfl shapeCasts_S1x256x64x176_S256x64x176,
    StableHlo.nullary main_c_50 (constantI S_ 32 0#32),
    StableHlo.unary main_c_50 main_v205 (broadcastInDim S160000 ![] bcast_S_S160000 : (⟨S_, .i32⟩ : BufTy).Contents (Elt F) → (⟨S160000, .i32⟩ : BufTy).Contents (Elt F)),
    StableHlo.binary main_v202 main_v205 main_v206 (cmpi .slt : (⟨S160000, .i32⟩ : BufTy).Contents (Elt F) → (⟨S160000, .i32⟩ : BufTy).Contents (Elt F) → (⟨S160000, .i1⟩ : BufTy).Contents (Elt F)),
    StableHlo.nullary main_c_51 (constantI S_ 32 64#32),
    StableHlo.unary main_c_51 main_v207 (broadcastInDim S160000 ![] bcast_S_S160000 : (⟨S_, .i32⟩ : BufTy).Contents (Elt F) → (⟨S160000, .i32⟩ : BufTy).Contents (Elt F)),
    StableHlo.binary main_v202 main_v207 main_v208 (addi : (⟨S160000, .i32⟩ : BufTy).Contents (Elt F) → (⟨S160000, .i32⟩ : BufTy).Contents (Elt F) → (⟨S160000, .i32⟩ : BufTy).Contents (Elt F)),
    StableHlo.ternary main_v206 main_v208 main_v202 main_v209 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.nullary main_c_52 (constantI S_ 32 0#32),
    StableHlo.unary main_c_52 main_v210 (broadcastInDim S160000 ![] bcast_S_S160000 : (⟨S_, .i32⟩ : BufTy).Contents (Elt F) → (⟨S160000, .i32⟩ : BufTy).Contents (Elt F)),
    StableHlo.binary main_v199 main_v210 main_v211 (cmpi .slt : (⟨S160000, .i32⟩ : BufTy).Contents (Elt F) → (⟨S160000, .i32⟩ : BufTy).Contents (Elt F) → (⟨S160000, .i1⟩ : BufTy).Contents (Elt F)),
    StableHlo.nullary main_c_53 (constantI S_ 32 176#32),
    StableHlo.unary main_c_53 main_v212 (broadcastInDim S160000 ![] bcast_S_S160000 : (⟨S_, .i32⟩ : BufTy).Contents (Elt F) → (⟨S160000, .i32⟩ : BufTy).Contents (Elt F)),
    StableHlo.binary main_v199 main_v212 main_v213 (addi : (⟨S160000, .i32⟩ : BufTy).Contents (Elt F) → (⟨S160000, .i32⟩ : BufTy).Contents (Elt F) → (⟨S160000, .i32⟩ : BufTy).Contents (Elt F)),
    StableHlo.ternary main_v211 main_v213 main_v199 main_v214 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v209 main_v215 (broadcastInDim S160000x1 ![0] bcast_S160000_S160000x1_0 : (⟨S160000, .i32⟩ : BufTy).Contents (Elt F) → (⟨S160000x1, .i32⟩ : BufTy).Contents (Elt F)),
    StableHlo.unary main_v214 main_v216 (broadcastInDim S160000x1 ![0] bcast_S160000_S160000x1_0 : (⟨S160000, .i32⟩ : BufTy).Contents (Elt F) → (⟨S160000x1, .i32⟩ : BufTy).Contents (Elt F)),
    StableHlo.binary main_v215 main_v216 main_v217 ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)),
    StableHlo.binary main_v204 main_v217 main_v218 ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)),
    StableHlo.unary main_v91 main_v219 ((extractStridedSlice S1x160000 ![4, 0] · slices_S6x160000_S1x160000_4_0) : (⟨S6x160000, .i1⟩ : BufTy).Contents (Elt F) → (⟨S1x160000, .i1⟩ : BufTy).Contents (Elt F)),
    StableHlo.reshape main_v219 main_v220 rfl shapeCasts_S1x160000_S160000,
    StableHlo.unary main_v220 main_v221 (broadcastInDim S1x160000 ![1] bcast_S160000_S1x160000_1 : (⟨S160000, .i1⟩ : BufTy).Contents (Elt F) → (⟨S1x160000, .i1⟩ : BufTy).Contents (Elt F)),
    StableHlo.TRef.unary (.of main_v221 : StableHlo.TRef sig ⟨S1x160000, .i1⟩) main_call16.v0 (broadcastInDim S256x160000 ![0, 1] bcast_S1x160000_S256x160000_0_1),
    StableHlo.TRef.ternary main_call16.v0 (.of main_v218 : StableHlo.TRef sig ⟨S256x160000, .f32⟩) (.of main_v196 : StableHlo.TRef sig ⟨S256x160000, .f32⟩) main_call16.v1 select,
    StableHlo.unary main_v73 main_v223 ((extractStridedSlice S1x160000 ![5, 0] · slices_S6x160000_S1x160000_5_0) : (⟨S6x160000, .i32⟩ : BufTy).Contents (Elt F) → (⟨S1x160000, .i32⟩ : BufTy).Contents (Elt F)),
    StableHlo.reshape main_v223 main_v224 rfl shapeCasts_S1x160000_S160000,
    StableHlo.nullary main_c_54 (constantI S_ 32 0#32),
    StableHlo.nullary main_c_55 (constantI S_ 32 175#32),
    StableHlo.TRef.unary (.of main_c_54 : StableHlo.TRef sig ⟨S_, .i32⟩) main_call17.v0 id,
    StableHlo.TRef.unary main_call17.v0 main_call17.v1 (broadcastInDim S160000 ![] bcast_S_S160000),
    StableHlo.TRef.binary main_call17.v1 (.of main_v224 : StableHlo.TRef sig ⟨S160000, .i32⟩) main_call17.v2 maxsi,
    StableHlo.TRef.unary (.of main_c_55 : StableHlo.TRef sig ⟨S_, .i32⟩) main_call17.v3 id,
    StableHlo.TRef.unary main_call17.v3 main_call17.v4 (broadcastInDim S160000 ![] bcast_S_S160000),
    StableHlo.TRef.binary main_call17.v4 main_call17.v2 main_call17.v5 minsi,
    StableHlo.unary main_v77 main_v226 ((extractStridedSlice S1x160000 ![5, 0] · slices_S6x160000_S1x160000_5_0) : (⟨S6x160000, .i32⟩ : BufTy).Contents (Elt F) → (⟨S1x160000, .i32⟩ : BufTy).Contents (Elt F)),
    StableHlo.reshape main_v226 main_v227 rfl shapeCasts_S1x160000_S160000,
    StableHlo.nullary main_c_56 (constantI S_ 32 0#32),
    StableHlo.nullary main_c_57 (constantI S_ 32 63#32),
    StableHlo.TRef.unary (.of main_c_56 : StableHlo.TRef sig ⟨S_, .i32⟩) main_call18.v0 id,
    StableHlo.TRef.unary main_call18.v0 main_call18.v1 (broadcastInDim S160000 ![] bcast_S_S160000),
    StableHlo.TRef.binary main_call18.v1 (.of main_v227 : StableHlo.TRef sig ⟨S160000, .i32⟩) main_call18.v2 maxsi,
    StableHlo.TRef.unary (.of main_c_57 : StableHlo.TRef sig ⟨S_, .i32⟩) main_call18.v3 id,
    StableHlo.TRef.unary main_call18.v3 main_call18.v4 (broadcastInDim S160000 ![] bcast_S_S160000),
    StableHlo.TRef.binary main_call18.v4 main_call18.v2 main_call18.v5 minsi,
    StableHlo.unary main_v21 main_v229 ((extractStridedSlice S1x256x64x176 ![5, 0, 0, 0] · slices_S6x256x64x176_S1x256x64x176_5_0_0_0) : (⟨S6x256x64x176, .f32⟩ : BufTy).Contents (Elt F) → (⟨S1x256x64x176, .f32⟩ : BufTy).Contents (Elt F)),
    StableHlo.reshape main_v229 main_v230 rfl shapeCasts_S1x256x64x176_S256x64x176,
    StableHlo.nullary main_c_58 (constantI S_ 32 0#32),
    StableHlo.unary main_c_58 main_v231 (broadcastInDim S160000 ![] bcast_S_S160000 : (⟨S_, .i32⟩ : BufTy).Contents (Elt F) → (⟨S160000, .i32⟩ : BufTy).Contents (Elt F)),
    StableHlo.binary main_v228 main_v231 main_v232 (cmpi .slt : (⟨S160000, .i32⟩ : BufTy).Contents (Elt F) → (⟨S160000, .i32⟩ : BufTy).Contents (Elt F) → (⟨S160000, .i1⟩ : BufTy).Contents (Elt F)),
    StableHlo.nullary main_c_59 (constantI S_ 32 64#32),
    StableHlo.unary main_c_59 main_v233 (broadcastInDim S160000 ![] bcast_S_S160000 : (⟨S_, .i32⟩ : BufTy).Contents (Elt F) → (⟨S160000, .i32⟩ : BufTy).Contents (Elt F)),
    StableHlo.binary main_v228 main_v233 main_v234 (addi : (⟨S160000, .i32⟩ : BufTy).Contents (Elt F) → (⟨S160000, .i32⟩ : BufTy).Contents (Elt F) → (⟨S160000, .i32⟩ : BufTy).Contents (Elt F)),
    StableHlo.ternary main_v232 main_v234 main_v228 main_v235 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.nullary main_c_60 (constantI S_ 32 0#32),
    StableHlo.unary main_c_60 main_v236 (broadcastInDim S160000 ![] bcast_S_S160000 : (⟨S_, .i32⟩ : BufTy).Contents (Elt F) → (⟨S160000, .i32⟩ : BufTy).Contents (Elt F)) ]

theorem ops4_sub : (ops4 : List (HloOp τ sig (Elt F))).Forall fun op => op.bufs ⊆ tcRefs τ sig :=
  ⟨binary_bufs_sub .., unary_bufs_sub .., reshape_bufs_sub .., unary_bufs_sub .., unary_bufs_sub .., ternary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., reshape_bufs_sub .., unary_bufs_sub .., unary_bufs_sub .., ternary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops4_past : (ops4 : List (HloOp τ sig (Elt F))).Forall WritesPastArgs :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- The operations of @main's window 5 (72), calls replaced by their functions' operations. -/
abbrev ops5 : List (HloOp τ sig (Elt F)) :=
  [ StableHlo.binary main_v225 main_v236 main_v237 (cmpi .slt : (⟨S160000, .i32⟩ : BufTy).Contents (Elt F) → (⟨S160000, .i32⟩ : BufTy).Contents (Elt F) → (⟨S160000, .i1⟩ : BufTy).Contents (Elt F)),
    StableHlo.nullary main_c_61 (constantI S_ 32 176#32),
    StableHlo.unary main_c_61 main_v238 (broadcastInDim S160000 ![] bcast_S_S160000 : (⟨S_, .i32⟩ : BufTy).Contents (Elt F) → (⟨S160000, .i32⟩ : BufTy).Contents (Elt F)),
    StableHlo.binary main_v225 main_v238 main_v239 (addi : (⟨S160000, .i32⟩ : BufTy).Contents (Elt F) → (⟨S160000, .i32⟩ : BufTy).Contents (Elt F) → (⟨S160000, .i32⟩ : BufTy).Contents (Elt F)),
    StableHlo.ternary main_v237 main_v239 main_v225 main_v240 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v235 main_v241 (broadcastInDim S160000x1 ![0] bcast_S160000_S160000x1_0 : (⟨S160000, .i32⟩ : BufTy).Contents (Elt F) → (⟨S160000x1, .i32⟩ : BufTy).Contents (Elt F)),
    StableHlo.unary main_v240 main_v242 (broadcastInDim S160000x1 ![0] bcast_S160000_S160000x1_0 : (⟨S160000, .i32⟩ : BufTy).Contents (Elt F) → (⟨S160000x1, .i32⟩ : BufTy).Contents (Elt F)),
    StableHlo.binary main_v241 main_v242 main_v243 ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)),
    StableHlo.binary main_v230 main_v243 main_v244 ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)),
    StableHlo.unary main_v91 main_v245 ((extractStridedSlice S1x160000 ![5, 0] · slices_S6x160000_S1x160000_5_0) : (⟨S6x160000, .i1⟩ : BufTy).Contents (Elt F) → (⟨S1x160000, .i1⟩ : BufTy).Contents (Elt F)),
    StableHlo.reshape main_v245 main_v246 rfl shapeCasts_S1x160000_S160000,
    StableHlo.unary main_v246 main_v247 (broadcastInDim S1x160000 ![1] bcast_S160000_S1x160000_1 : (⟨S160000, .i1⟩ : BufTy).Contents (Elt F) → (⟨S1x160000, .i1⟩ : BufTy).Contents (Elt F)),
    StableHlo.TRef.unary (.of main_v247 : StableHlo.TRef sig ⟨S1x160000, .i1⟩) main_call19.v0 (broadcastInDim S256x160000 ![0, 1] bcast_S1x160000_S256x160000_0_1),
    StableHlo.TRef.ternary main_call19.v0 (.of main_v244 : StableHlo.TRef sig ⟨S256x160000, .f32⟩) (.of main_v222 : StableHlo.TRef sig ⟨S256x160000, .f32⟩) main_call19.v1 select,
    StableHlo.reshape main_v248 main_v249 rfl shapeCasts_S256x160000_S256x200x200x4,
    StableHlo.unary main_v249 main_v250 (broadcastInDim S1x256x200x200x4 ![1, 2, 3, 4] bcast_S256x200x200x4_S1x256x200x200x4_1_2_3_4 : (⟨S256x200x200x4, .f32⟩ : BufTy).Contents (Elt F) → (⟨S1x256x200x200x4, .f32⟩ : BufTy).Contents (Elt F)),
    StableHlo.nullary main_cst_62 (constant S_ .f32 0x00000000#32),
    StableHlo.binary main_v250 main_cst_62 main_v251 ((fun x v => Host.reduceAdd x v reducesTo_S1x256x200x200x4_S1x256x200x200_d4 h_S_) : (⟨S1x256x200x200x4, .f32⟩ : BufTy).Contents (Elt F) → (⟨S_, .f32⟩ : BufTy).Contents (Elt F) → (⟨S1x256x200x200, .f32⟩ : BufTy).Contents (Elt F)),
    StableHlo.unary main_v251 main_v252 (broadcastInDim S1x256x200x200x1 ![0, 1, 2, 3] bcast_S1x256x200x200_S1x256x200x200x1_0_1_2_3 : (⟨S1x256x200x200, .f32⟩ : BufTy).Contents (Elt F) → (⟨S1x256x200x200x1, .f32⟩ : BufTy).Contents (Elt F)),
    StableHlo.reshape main_v252 main_v253 rfl shapeCasts_S1x256x200x200x1_S1x256x200x200,
    StableHlo.binary main_arg7 main_v253 main_v254 ((fun l r => Host.dotGeneral dot_S80x256_S1x256x200x200_S80x1x200x200_1_1_0_023_n_n none l r) : (⟨S80x256, .f32⟩ : BufTy).Contents (Elt F) → (⟨S1x256x200x200, .f32⟩ : BufTy).Contents (Elt F) → (⟨S80x1x200x200, .f32⟩ : BufTy).Contents (Elt F)),
    StableHlo.unary main_v254 main_v255 ((transpose S1x80x200x200 [1, 0, 2, 3] · transposes_S80x1x200x200_S1x80x200x200_1_0_2_3) : (⟨S80x1x200x200, .f32⟩ : BufTy).Contents (Elt F) → (⟨S1x80x200x200, .f32⟩ : BufTy).Contents (Elt F)),
    StableHlo.unary main_arg8 main_v256 (broadcastInDim S1x80x1x1 ![1] bcast_S80_S1x80x1x1_1 : (⟨S80, .f32⟩ : BufTy).Contents (Elt F) → (⟨S1x80x1x1, .f32⟩ : BufTy).Contents (Elt F)),
    StableHlo.unary main_v256 main_v257 (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F)),
    StableHlo.binary main_v255 main_v257 main_v258 (addf : (⟨S1x80x200x200, .f32⟩ : BufTy).Contents (Elt F) → (⟨S1x80x200x200, .f32⟩ : BufTy).Contents (Elt F) → (⟨S1x80x200x200, .f32⟩ : BufTy).Contents (Elt F)),
    StableHlo.nullary main_cst_63 (constant S_ .f32 0x00000000#32),
    StableHlo.binary main_v258 main_cst_63 main_v259 ((fun x v => Host.reduceAdd x v reducesTo_S1x80x200x200_S80_d0_2_3 h_S_) : (⟨S1x80x200x200, .f32⟩ : BufTy).Contents (Elt F) → (⟨S_, .f32⟩ : BufTy).Contents (Elt F) → (⟨S80, .f32⟩ : BufTy).Contents (Elt F)),
    StableHlo.unary main_v259 main_v260 (broadcastInDim S1x80x1x1 ![1] bcast_S80_S1x80x1x1_1 : (⟨S80, .f32⟩ : BufTy).Contents (Elt F) → (⟨S1x80x1x1, .f32⟩ : BufTy).Contents (Elt F)),
    StableHlo.nullary main_cst_64 (constant S_ .f32 0x471C4000#32),
    StableHlo.unary main_cst_64 main_v261 (broadcastInDim S1x80x1x1 ![] bcast_S_S1x80x1x1 : (⟨S_, .f32⟩ : BufTy).Contents (Elt F) → (⟨S1x80x1x1, .f32⟩ : BufTy).Contents (Elt F)),
    StableHlo.binary main_v260 main_v261 main_v262 (Host.divf : (⟨S1x80x1x1, .f32⟩ : BufTy).Contents (Elt F) → (⟨S1x80x1x1, .f32⟩ : BufTy).Contents (Elt F) → (⟨S1x80x1x1, .f32⟩ : BufTy).Contents (Elt F)),
    StableHlo.nullary main_c_65 (constantI S_ 32 0#32),
    StableHlo.TRef.nullary main_call20.cst (constant S_ .f32 0x00000000#32),
    StableHlo.TRef.binary (.of main_v258 : StableHlo.TRef sig ⟨S1x80x200x200, .f32⟩) main_call20.cst main_call20.v0 (fun x v => Host.reduceAdd x v reducesTo_S1x80x200x200_S80_d0_2_3 h_S_),
    StableHlo.TRef.unary main_call20.v0 main_call20.v1 (broadcastInDim S1x80x1x1 ![1] bcast_S80_S1x80x1x1_1),
    StableHlo.TRef.nullary main_call20.cst_0 (constant S_ .f32 0x471C4000#32),
    StableHlo.TRef.unary main_call20.cst_0 main_call20.v2 (broadcastInDim S1x80x1x1 ![] bcast_S_S1x80x1x1),
    StableHlo.TRef.binary main_call20.v1 main_call20.v2 main_call20.v3 Host.divf,
    StableHlo.TRef.unary main_call20.v3 main_call20.v4 (broadcastInDim S1x80x200x200 ![0, 1, 2, 3] bcast_S1x80x1x1_S1x80x200x200_0_1_2_3),
    StableHlo.TRef.binary (.of main_v258 : StableHlo.TRef sig ⟨S1x80x200x200, .f32⟩) main_call20.v4 main_call20.v5 subf,
    StableHlo.TRef.binary main_call20.v5 main_call20.v5 main_call20.v6 mulf,
    StableHlo.TRef.unary (.of main_c_65 : StableHlo.TRef sig ⟨S_, .i32⟩) main_call20.v7 (sitofp .f32),
    StableHlo.TRef.nullary main_call20.cst_1 (constant S_ .f32 0x471C4000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S1x80x200x200_S80_d0_2_3 h_S_),
    StableHlo.TRef.unary main_call20.v9 main_call20.v10 (broadcastInDim S1x80x1x1 ![1] bcast_S80_S1x80x1x1_1),
    StableHlo.TRef.unary main_call20.v8 main_call20.v11 (broadcastInDim S1x80x1x1 ![] bcast_S_S1x80x1x1),
    StableHlo.TRef.binary main_call20.v10 main_call20.v11 main_call20.v12 Host.divf,
    StableHlo.TRef.nullary main_call20.cst_3 (constant S_ .f32 0x00000000#32),
    StableHlo.TRef.binary main_call20.v8 main_call20.cst_3 main_call20.v13 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S1x80x1x1 ![] bcast_S_S1x80x1x1),
    StableHlo.TRef.ternary main_call20.v13 main_call20.v12 main_call20.call0.v1 main_call20.call0.v2 (fun p a b => select (broadcastInDim S1x80x1x1 ![] bcast_S_S1x80x1x1 p) a b),
    StableHlo.unary main_v262 main_v264 (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F)),
    StableHlo.binary main_v258 main_v264 main_v265 (subf : (⟨S1x80x200x200, .f32⟩ : BufTy).Contents (Elt F) → (⟨S1x80x200x200, .f32⟩ : BufTy).Contents (Elt F) → (⟨S1x80x200x200, .f32⟩ : BufTy).Contents (Elt F)),
    StableHlo.nullary main_cst_66 (constant S_ .f32 0x3727C5AC#32),
    StableHlo.unary main_cst_66 main_v266 (broadcastInDim S1x80x1x1 ![] bcast_S_S1x80x1x1 : (⟨S_, .f32⟩ : BufTy).Contents (Elt F) → (⟨S1x80x1x1, .f32⟩ : BufTy).Contents (Elt F)),
    StableHlo.binary main_v263 main_v266 main_v267 (addf : (⟨S1x80x1x1, .f32⟩ : BufTy).Contents (Elt F) → (⟨S1x80x1x1, .f32⟩ : BufTy).Contents (Elt F) → (⟨S1x80x1x1, .f32⟩ : BufTy).Contents (Elt F)),
    StableHlo.unary main_v267 main_v268 (Host.sqrt : (⟨S1x80x1x1, .f32⟩ : BufTy).Contents (Elt F) → (⟨S1x80x1x1, .f32⟩ : BufTy).Contents (Elt F)),
    StableHlo.unary main_v268 main_v269 (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F)),
    StableHlo.binary main_v265 main_v269 main_v270 (Host.divf : (⟨S1x80x200x200, .f32⟩ : BufTy).Contents (Elt F) → (⟨S1x80x200x200, .f32⟩ : BufTy).Contents (Elt F) → (⟨S1x80x200x200, .f32⟩ : BufTy).Contents (Elt F)),
    StableHlo.unary main_arg9 main_v271 (broadcastInDim S1x80x1x1 ![1] bcast_S80_S1x80x1x1_1 : (⟨S80, .f32⟩ : BufTy).Contents (Elt F) → (⟨S1x80x1x1, .f32⟩ : BufTy).Contents (Elt F)),
    StableHlo.unary main_v271 main_v272 (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F)),
    StableHlo.binary main_v270 main_v272 main_v273 (mulf : (⟨S1x80x200x200, .f32⟩ : BufTy).Contents (Elt F) → (⟨S1x80x200x200, .f32⟩ : BufTy).Contents (Elt F) → (⟨S1x80x200x200, .f32⟩ : BufTy).Contents (Elt F)),
    StableHlo.unary main_arg10 main_v274 (broadcastInDim S1x80x1x1 ![1] bcast_S80_S1x80x1x1_1 : (⟨S80, .f32⟩ : BufTy).Contents (Elt F) → (⟨S1x80x1x1, .f32⟩ : BufTy).Contents (Elt F)),
    StableHlo.unary main_v274 main_v275 (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F)),
    StableHlo.binary main_v273 main_v275 main_v276 (addf : (⟨S1x80x200x200, .f32⟩ : BufTy).Contents (Elt F) → (⟨S1x80x200x200, .f32⟩ : BufTy).Contents (Elt F) → (⟨S1x80x200x200, .f32⟩ : BufTy).Contents (Elt F)),
    StableHlo.TRef.nullary main_call21.cst (constant S_ .f32 0x00000000#32),
    StableHlo.TRef.unary main_call21.cst main_call21.v0 (broadcastInDim S1x80x200x200 ![] bcast_S_S1x80x200x200),
    StableHlo.TRef.binary (.of main_v276 : StableHlo.TRef sig ⟨S1x80x200x200, .f32⟩) main_call21.v0 main_call21.v1 maximumf ]

theorem ops5_sub : (ops5 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., binary_bufs_sub .., binary_bufs_sub .., unary_bufs_sub .., reshape_bufs_sub .., unary_bufs_sub .., unary_bufs_sub .., ternary_bufs_sub .., reshape_bufs_sub .., unary_bufs_sub .., nullary_bufs_sub .., binary_bufs_sub .., unary_bufs_sub .., reshape_bufs_sub .., binary_bufs_sub .., unary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops5_past : (ops5 : List (HloOp τ sig (Elt F))).Forall WritesPastArgs :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

end Cert.ReferenceIdeal.RefRun

end
-- ==== Proof.RefRun.lean ====
/-
  The run of the reference program's @main, and what it leaves in memory.

  @main is printed as six windows run in order, and calls six outlined functions (one of which calls another). A call
  executes the callee's body on the call's operands, each value of the body in a buffer of that call's own record; with
  every call replaced by the callee's operations over that record, each window is a straight line of host operations
  (main_partK_eq), and @main is the straight line of the six lists appended (main_eq). A straight line over a signature
  that scopes nothing runs to its end from any memory with zero counters and leaves every TensorCore buffer at the fold
  of the operations' results over the launch contents (run_raw; the fold is kept folded, and after_ops cuts it window by
  window). Every operation writes one buffer whose index is past the eleven arguments', so the arguments end as they
  began (kept_argK), which is the reference's frame (frame); the returned value's buffer ends at the fold read there
  (result_eq).
-/
import proofs.«207241_g55714315764006_cont_9to1c4b_410_29_alg».proof.Proof.RefRunOps
import proofs.«207241_g55714315764006_cont_9to1c4b_410_29_alg».proof.Defs

set_option maxRecDepth 8192

noncomputable section

namespace Cert.ReferenceIdeal.RefRun

open Cert.ReferenceIdeal Cert.ReferenceIdeal.Facts₀ Cert.ReferenceIdeal.Facts Idealize.ShloMosaic Idealize.SL.Sem Idealize.ShloMosaic.StableHlo

variable {F : FTy → Type} [FloatOps F] [Cert.ReferenceIdeal.Facts]

/-- @main's operations in order, every call replaced by its function's operations: the six windows' lists, appended. -/
abbrev ops : List (HloOp τ sig (Elt F)) := ops0 ++ (ops1 ++ (ops2 ++ (ops3 ++ (ops4 ++ ops5))))

/-! ## Each window is the straight line of its list

A window is one chain of binds whose links are single operations and calls; a call's body is again such a chain ending in
the return, with the callee's parameters read as the call's operands and its buffer record as the call's. Both sides
therefore reduce, by the monad laws alone (a bind of a bind reassociates, the return is a unit), to the same chain of
single operations; the operations agree word for word. -/

theorem main_part0_eq (c : Dev nD) : main_part0 (F := F) c = seq ops0 := rfl
theorem main_part1_eq (c : Dev nD) : main_part1 (F := F) c = seq ops1 := rfl
theorem main_part2_eq (c : Dev nD) : main_part2 (F := F) c = seq ops2 := rfl
theorem main_part3_eq (c : Dev nD) : main_part3 (F := F) c = seq ops3 := rfl
theorem main_part4_eq (c : Dev nD) : main_part4 (F := F) c = seq ops4 := rfl
theorem main_part5_eq (c : Dev nD) : main_part5 (F := F) c = seq ops5 := rfl

/-- @main runs its six windows in order, so it is the straight line of the six lists appended: a line over an appended
    list is the first line followed by the second. -/
theorem main_eq (c : Dev nD) : main (F := F) c = seq ops := by
  unfold main
  rw [main_part0_eq, main_part1_eq, main_part2_eq, main_part3_eq, main_part4_eq, main_part5_eq]
  show _ = seq (ops0 ++ (ops1 ++ (ops2 ++ (ops3 ++ (ops4 ++ ops5)))))
  rw [seq_append ops0, seq_append ops1, seq_append ops2, seq_append ops3, seq_append ops4]

/-! ## The fold over an appended list -/

/-- The contents after an appended list are the contents after its second part, from the contents after its first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- The contents after @main's operations, window by window. -/
theorem after_ops (V : Valuation τ sig (Elt F)) :
    after ops V = after ops5 (after ops4 (after ops3 (after ops2 (after ops1 (after ops0 V))))) := by
  show after (ops0 ++ (ops1 ++ (ops2 ++ (ops3 ++ (ops4 ++ ops5))))) V = _
  rw [after_append, after_append, after_append, after_append, after_append]

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation of @main touches TensorCore references only: window by window. -/
theorem ops_sub : (ops : List (HloOp τ sig (Elt F))).Forall fun op => op.bufs ⊆ tcRefs τ sig :=
  List.forall_append.2 ⟨ops0_sub, List.forall_append.2 ⟨ops1_sub, List.forall_append.2 ⟨ops2_sub,
    List.forall_append.2 ⟨ops3_sub, List.forall_append.2 ⟨ops4_sub, ops5_sub⟩⟩⟩⟩⟩

/-- Every operation of @main determines its results. -/
theorem ops_fresh : (ops : List (HloOp τ sig (Elt F))).Forall fun op => op.fresh = ∅ :=
  List.forall_append.2 ⟨ops0_fresh, List.forall_append.2 ⟨ops1_fresh, List.forall_append.2 ⟨ops2_fresh,
    List.forall_append.2 ⟨ops3_fresh, List.forall_append.2 ⟨ops4_fresh, ops5_fresh⟩⟩⟩⟩⟩

/-- Every operation of @main writes one buffer, past the arguments'. -/
theorem ops_past : (ops : List (HloOp τ sig (Elt F))).Forall WritesPastArgs :=
  List.forall_append.2 ⟨ops0_past, List.forall_append.2 ⟨ops1_past, List.forall_append.2 ⟨ops2_past,
    List.forall_append.2 ⟨ops3_past, List.forall_append.2 ⟨ops4_past, ops5_past⟩⟩⟩⟩⟩

/-- On every device, for any float values, from any memory with zero counters: every weakly fair execution of @main
    terminates, and every TensorCore buffer ends at the fold of @main's operations over the launch contents — the fold
    kept folded. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

/-! ## The arguments are kept

Every operation writes one buffer, a reference of index at least eleven; the eleven arguments are the references of index
below eleven. Distinct references are distinct device buffers, so no operation writes an argument's buffer, and a buffer no
operation of a line writes holds after the line what it held before. -/

/-- A line of operations that each write one buffer past the arguments keeps every reference of index below eleven. -/
theorem after_kept {l : List (HloOp τ sig (Elt F))} (hl : l.Forall WritesPastArgs) {r : Ref sig .tc} (hr : r.idx.val < 11)
    (V : Valuation τ sig (Elt F)) : after l V (Proc.devRef .tc r) = V (Proc.devRef .tc r) :=
  after_of_forall_not_mem l V fun op hop hb => by
    obtain ⟨y, hy, h11⟩ := List.forall_iff_forall_mem.1 hl op hop
    rw [hy, Finset.mem_singleton] at hb
    have e : r = y := Proc.devRef_injective _ hb
    subst e
    omega

theorem kept_arg0 (V : Valuation τ sig (Elt F)) : after ops V (Proc.devRef .tc main_arg0) = V (Proc.devRef .tc main_arg0) := after_kept ops_past (by decide) V
theorem kept_arg1 (V : Valuation τ sig (Elt F)) : after ops V (Proc.devRef .tc main_arg1) = V (Proc.devRef .tc main_arg1) := after_kept ops_past (by decide) V
theorem kept_arg2 (V : Valuation τ sig (Elt F)) : after ops V (Proc.devRef .tc main_arg2) = V (Proc.devRef .tc main_arg2) := after_kept ops_past (by decide) V
theorem kept_arg3 (V : Valuation τ sig (Elt F)) : after ops V (Proc.devRef .tc main_arg3) = V (Proc.devRef .tc main_arg3) := after_kept ops_past (by decide) V
theorem kept_arg4 (V : Valuation τ sig (Elt F)) : after ops V (Proc.devRef .tc main_arg4) = V (Proc.devRef .tc main_arg4) := after_kept ops_past (by decide) V
theorem kept_arg5 (V : Valuation τ sig (Elt F)) : after ops V (Proc.devRef .tc main_arg5) = V (Proc.devRef .tc main_arg5) := after_kept ops_past (by decide) V
theorem kept_arg6 (V : Valuation τ sig (Elt F)) : after ops V (Proc.devRef .tc main_arg6) = V (Proc.devRef .tc main_arg6) := after_kept ops_past (by decide) V
theorem kept_arg7 (V : Valuation τ sig (Elt F)) : after ops V (Proc.devRef .tc main_arg7) = V (Proc.devRef .tc main_arg7) := after_kept ops_past (by decide) V
theorem kept_arg8 (V : Valuation τ sig (Elt F)) : after ops V (Proc.devRef .tc main_arg8) = V (Proc.devRef .tc main_arg8) := after_kept ops_past (by decide) V
theorem kept_arg9 (V : Valuation τ sig (Elt F)) : after ops V (Proc.devRef .tc main_arg9) = V (Proc.devRef .tc main_arg9) := after_kept ops_past (by decide) V
theorem kept_arg10 (V : Valuation τ sig (Elt F)) : after ops V (Proc.devRef .tc main_arg10) = V (Proc.devRef .tc main_arg10) := after_kept ops_past (by decide) V

/-- The run's value at the result buffer, folded: the fold of @main's operations over device c's launch contents, read at
    the buffer of the returned value. -/
abbrev refOut (m : (ℓ : Loc nD τ sig) → Buf (Elt F) ℓ) (c : Dev nD) : (Proc.devRef (τ := τ) .tc main_v277).ty.Contents (Elt F) :=
  after ops (launchContents m c) (Proc.devRef .tc main_v277)

/-- The run with the arguments read back: every weakly fair execution terminates, the result buffer holds refOut and
    the eleven arguments hold what they held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v277) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v277,
      (h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _),
      (h c main_arg6).trans (kept_arg6 _), (h c main_arg7).trans (kept_arg7 _), (h c main_arg8).trans (kept_arg8 _),
      (h c main_arg9).trans (kept_arg9 _), (h c main_arg10).trans (kept_arg10 _)⟩)
    (run_raw m ρ)

/-- The result buffer's final contents are refOut: the one conjunct of the run about the result. -/
theorem result_eq (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v277) = refOut m c :=
  (θ_run defs _ _).mono (fun _ h c => h c main_v277) (run_raw m ρ)

/-! ## The frame -/

/-- The reference's frame: from any memory with zero counters (the precondition is not used) every weakly fair execution of
    @main at the ideal instance terminates, and the eleven argument arrays end unchanged. -/
theorem frame [Cert.Pre_finite_inputs.Facts] : Cert.frame_ReferenceIdeal := by
  intro m g _
  exact (θ_run _ _ _).mono (fun _ h c => (h c).2) (run (F := Idealize.ShloMosaic.Ideal) m g)

end Cert.ReferenceIdeal.RefRun

end
-- ==== Proof.BridgeMath.lean ====
/-
  The pure mathematics that joins the two arrangements of this computation, at the extended reals
  (every float operation exact, every quantity a finite real carried inside EReal).

  1. A 1×1 convolution commutes with a sum over depth cells: summing the products over the cells and
     the channels is summing, over the channels, the cell-sum times the weight.
  2. The two float literals that enter: 40000 and the positive dyadic nearest 1e-5.
  3. Batch normalisation is blind to a constant shift of its input, and the centred second moment is
     the mean square minus the squared mean: normalising y = x + b by the mean and the centred
     variance of y is normalising x by the mean of x and mean (x²) - (mean x)².
  4. The small facts about the quotient and the root of the extended reals at finite arguments that
     carry (3) from ℝ to EReal.
-/
import Idealize.ShloMosaic.PureOps.Ideal
import Mathlib.Data.EReal.Operations
import Mathlib.Algebra.BigOperators.Ring.Finset
import Mathlib.Algebra.BigOperators.Fin
import Mathlib.Algebra.Order.BigOperators.Ring.Finset
import Mathlib.Analysis.SpecialFunctions.Sqrt
import Mathlib.Tactic.Ring
import Mathlib.Tactic.FieldSimp
import Mathlib.Tactic.Positivity
import Mathlib.Tactic.Linarith
import Mathlib.Tactic.NormNum

noncomputable section

namespace Cert.Proof.Bridge

open Idealize.ShloMosaic
open scoped BigOperators

/-! ## Coercions of finite sums and products -/

/-- The coercion of the reals into the extended reals commutes with a finite sum. -/
theorem coe_finset_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of products of coerced reals is the coercion of the real sum of products. -/
theorem sum_coe_mul_coe {ι : Type*} (s : Finset ι) (f w : ι → ℝ) :
    ∑ i ∈ s, ((f i : ℝ) : EReal) * ((w i : ℝ) : EReal) = ((∑ i ∈ s, f i * w i : ℝ) : EReal) := by
  rw [coe_finset_sum]
  exact Finset.sum_congr rfl fun i _ => (EReal.coe_mul _ _).symm

/-- A family of extended reals none of which is infinite is a family of reals. -/
theorem exists_real_fun {ι : Type*} (g : ι → EReal) (h : ∀ i, g i ≠ ⊥ ∧ g i ≠ ⊤) :
    ∃ x : ι → ℝ, ∀ i, g i = ((x i : ℝ) : EReal) :=
  ⟨fun i => (g i).toReal, fun i => (EReal.coe_toReal (h i).2 (h i).1).symm⟩

/-! ## (1) The convolution commutes with the sum over depth cells -/

/-- Over the reals: the sum over cells and channels of f z ch · w ch is the sum over channels of
    (the sum over cells of f z ch) · w ch. -/
theorem real_conv_sum_comm {Z C : Type} [Fintype Z] [Fintype C] (f : Z → C → ℝ) (w : C → ℝ) :
    (∑ z, ∑ ch, f z ch * w ch) = ∑ ch, (∑ z, f z ch) * w ch := by
  rw [Finset.sum_comm]
  exact Finset.sum_congr rfl fun ch _ => (Finset.sum_mul _ _ _).symm

/-- The double sum of products of coerced reals, as the coercion of one real. -/
theorem conv_coe {Z C : Type} [Fintype Z] [Fintype C] (f : Z → C → ℝ) (w : C → ℝ) :
    (∑ z, ∑ ch, ((f z ch : ℝ) : EReal) * ((w ch : ℝ) : EReal))
      = ((∑ z, ∑ ch, f z ch * w ch : ℝ) : EReal) := by
  rw [coe_finset_sum]
  exact Finset.sum_congr rfl fun z _ => sum_coe_mul_coe _ _ _

/-- On the extended reals, at finite arguments: convolving each depth cell and summing the results is
    convolving the sum of the cells. -/
theorem conv_sum_comm {Z C : Type} [Fintype Z] [Fintype C] (f : Z → C → ℝ) (w : C → ℝ) :
    (∑ z, ∑ ch, ((f z ch : ℝ) : EReal) * ((w ch : ℝ) : EReal))
      = ∑ ch, (∑ z, ((f z ch : ℝ) : EReal)) * ((w ch : ℝ) : EReal) := by
  rw [conv_coe, real_conv_sum_comm, coe_finset_sum]
  refine Finset.sum_congr rfl fun ch _ => ?_
  rw [EReal.coe_mul, coe_finset_sum]

/-- Four terms added pairwise, (a₀ + a₁) + (a₂ + a₃), are the sum over the four indices. -/
theorem sum_four (a : Fin 4 → EReal) : (a 0 + a 1) + (a 2 + a 3) = ∑ z, a z := by
  rw [Fin.sum_univ_four, add_assoc, add_assoc, add_assoc]

/-- A row of the identity matrix picks one term of a sum: the sum over k of [o = k] · a k is a o. -/
theorem sum_eye_mul {ι : Type*} [Fintype ι] [DecidableEq ι] (a : ι → EReal) (o : ι) :
    ∑ k, (if o = k then (1 : EReal) else 0) * a k = a o := by
  rw [Finset.sum_eq_single o]
  · rw [if_pos rfl, one_mul]
  · intro k _ hk
    rw [if_neg (Ne.symm hk), zero_mul]
  · intro h
    exact absurd (Finset.mem_univ o) h

/-! ## (2) The two literals -/

/-- The pattern 0x471C4000 denotes the real 40000. -/
theorem ofBits_N : Ideal.ofBits .f32 0x471C4000#32 = ((40000 : ℝ) : EReal) := by
  simp [Ideal.ofBits, Ideal.ieee, -EReal.coe_mul]; norm_num

/-- The value of the pattern 0x3727C5AC, the single-precision float nearest 1e-5:
    10995116 · 2⁻⁴⁰. -/
def eps0 : ℝ := 10995116 / 2 ^ 40

theorem eps0_pos : 0 < eps0 := by unfold eps0; positivity

/-- The pattern 0x3727C5AC denotes the positive real eps0. -/
theorem ofBits_eps : Ideal.ofBits .f32 0x3727C5AC#32 = ((eps0 : ℝ) : EReal) := by
  unfold eps0
  simp [Ideal.ofBits, Ideal.ieee, -EReal.coe_mul]; norm_num

/-- The divisor the centred variance is taken over, 40000 minus zero degrees of freedom, is 40000. -/
theorem N_sub_zero : Ideal.ofBits .f32 0x471C4000#32 - (((0 : ℤ) : ℝ) : EReal) = ((40000 : ℝ) : EReal) := by
  rw [ofBits_N, Int.cast_zero, EReal.coe_zero, sub_zero]

theorem N_pos : (0 : EReal) < ((40000 : ℝ) : EReal) := by
  exact_mod_cast (by norm_num : (0 : ℝ) < 40000)

/-! ## (4) Quotient, root and maximum of the extended reals at finite arguments -/

/-- The quotient of two coerced reals, the divisor not zero, is the coerced real quotient. -/
theorem div_coe_coe (a : ℝ) {d : ℝ} (hd : d ≠ 0) :
    Ideal.div ((a : ℝ) : EReal) ((d : ℝ) : EReal) = ((a / d : ℝ) : EReal) := by
  rw [Ideal.div_coe hd, ← EReal.coe_mul, mul_one_div]

/-- The root of a coerced nonnegative real is the coerced real root. -/
theorem sqrt_coe_nonneg {a : ℝ} (ha : 0 ≤ a) :
    Ideal.sqrt ((a : ℝ) : EReal) = ((Real.sqrt a : ℝ) : EReal) := by
  rw [Ideal.sqrt_coe, if_neg (not_lt.mpr ha)]

/-- The maximum of a coerced real and zero is the coerced real maximum. -/
theorem max_coe_zero (a : ℝ) : max ((a : ℝ) : EReal) 0 = ((max a 0 : ℝ) : EReal) := by
  rw [← EReal.coe_zero]
  exact (EReal.coe_strictMono.monotone.map_max).symm

/-- The last steps of a normalisation at finite arguments, the divisor not zero:
    max (((a - m) / d) · γ + β, 0) is a coerced real. -/
theorem norm_coe (a m γ β : ℝ) {d : ℝ} (hd : d ≠ 0) :
    max (Ideal.div (((a : ℝ) : EReal) - ((m : ℝ) : EReal)) ((d : ℝ) : EReal) * ((γ : ℝ) : EReal) + ((β : ℝ) : EReal)) 0
      = ((max ((a - m) / d * γ + β) 0 : ℝ) : EReal) := by
  rw [← EReal.coe_sub, div_coe_coe _ hd, ← EReal.coe_mul, ← EReal.coe_add, max_coe_zero]

/-- The root of a coerced real plus a coerced real, the sum nonnegative. -/
theorem sqrt_add_coe {v ε : ℝ} (h : 0 ≤ v + ε) :
    Ideal.sqrt (((v : ℝ) : EReal) + ((ε : ℝ) : EReal)) = ((Real.sqrt (v + ε) : ℝ) : EReal) := by
  rw [← EReal.coe_add, sqrt_coe_nonneg h]

/-! ## (3) Batch normalisation over the reals -/

section Real
variable {ι : Type*} [Fintype ι]

/-- The mean of a family shifted by a constant is the mean shifted by that constant. -/
theorem real_mean_shift (x : ι → ℝ) (b n : ℝ) (hcard : (Fintype.card ι : ℝ) = n) (hn : n ≠ 0) :
    (∑ i, (x i + b)) / n = (∑ i, x i) / n + b := by
  rw [Finset.sum_add_distrib, Finset.sum_const, Finset.card_univ, nsmul_eq_mul, hcard, add_div,
    mul_div_cancel_left₀ _ hn]

/-- The centred second moment is the mean square minus the squared mean. -/
theorem real_var_eq (x : ι → ℝ) (n : ℝ) (hcard : (Fintype.card ι : ℝ) = n) (hn : n ≠ 0) :
    (∑ i, (x i - (∑ j, x j) / n) * (x i - (∑ j, x j) / n)) / n
      = (∑ i, x i * x i) / n - (∑ j, x j) / n * ((∑ j, x j) / n) := by
  have h1 : ∀ m : ℝ, ∑ i, (x i - m) * (x i - m)
      = (∑ i, x i * x i) - 2 * m * (∑ i, x i) + n * (m * m) := by
    intro m
    have h2 : ∀ i, (x i - m) * (x i - m) = x i * x i - 2 * m * x i + m * m := fun i => by ring
    rw [Finset.sum_congr rfl fun i _ => h2 i, Finset.sum_add_distrib, Finset.sum_sub_distrib,
      ← Finset.mul_sum, Finset.sum_const, Finset.card_univ, nsmul_eq_mul, hcard]
  rw [h1]
  field_simp
  ring

/-- The centred second moment is not negative. -/
theorem real_var_nonneg (x : ι → ℝ) (m n : ℝ) (hn : 0 < n) :
    0 ≤ (∑ i, (x i - m) * (x i - m)) / n :=
  div_nonneg (Finset.sum_nonneg fun i _ => mul_self_nonneg _) hn.le

/-- So the mean square minus the squared mean is not negative. -/
theorem real_msq_sub_nonneg (x : ι → ℝ) (n : ℝ) (hcard : (Fintype.card ι : ℝ) = n) (hn : 0 < n) :
    0 ≤ (∑ i, x i * x i) / n - (∑ j, x j) / n * ((∑ j, x j) / n) := by
  rw [← real_var_eq x n hcard hn.ne']
  exact real_var_nonneg x _ n hn

/-- Normalising y = x + b by its mean and centred variance is normalising x by its mean and by its
    mean square minus its squared mean. -/
theorem real_bn_eq (x : ι → ℝ) (n : ℝ) (hcard : (Fintype.card ι : ℝ) = n) (hn : n ≠ 0) (b γ β ε : ℝ) (r : ι) :
    ((x r + b) - (∑ i, (x i + b)) / n)
        / Real.sqrt ((∑ i, ((x i + b) - (∑ j, (x j + b)) / n) * ((x i + b) - (∑ j, (x j + b)) / n)) / n + ε) * γ + β
      = (x r - (∑ i, x i) / n)
        / Real.sqrt ((∑ i, x i * x i) / n - (∑ i, x i) / n * ((∑ i, x i) / n) + ε) * γ + β := by
  have hc : ∀ i, (x i + b) - (∑ j, (x j + b)) / n = x i - (∑ j, x j) / n := fun i => by
    rw [real_mean_shift x b n hcard hn]; ring
  have hs : ∑ i, ((x i + b) - (∑ j, (x j + b)) / n) * ((x i + b) - (∑ j, (x j + b)) / n)
      = ∑ i, (x i - (∑ j, x j) / n) * (x i - (∑ j, x j) / n) :=
    Finset.sum_congr rfl fun i _ => by rw [hc i]
  rw [hs, hc r, real_var_eq x n hcard hn]

end Real

/-! ## (3) Batch normalisation on the extended reals

The two arrangements, each written once over an arbitrary finite index type, in the operations of the
extended reals: the quotient Ideal.div for the means and the variance, Ideal.sqrt for the root, and
EReal's own -, +, *, max. -/

section Ext
variable {ι : Type*} [Fintype ι]

/-- The reference's arrangement at the position r: the mean of y, the mean of the squared deviations
    from it, then max (((y r - mean) / sqrt (variance + ε)) · γ + β, 0). -/
def refOut (y : ι → EReal) (N ε γ β : EReal) (r : ι) : EReal :=
  max (Ideal.div (y r - Ideal.div (∑ i, y i) N)
        (Ideal.sqrt (Ideal.div (∑ i, (y i - Ideal.div (∑ j, y j) N) * (y i - Ideal.div (∑ j, y j) N)) N + ε))
      * γ + β) 0

/-- The kernel's arrangement at the position r: the mean m of x, the mean of the squares, then
    max (((x r - m) / sqrt (mean square - m · m + ε)) · γ + β, 0). -/
def kerOut (x : ι → EReal) (N ε γ β : EReal) (r : ι) : EReal :=
  max (Ideal.div (x r - Ideal.div (∑ i, x i) N)
        (Ideal.sqrt (Ideal.div (∑ i, x i * x i) N - Ideal.div (∑ i, x i) N * Ideal.div (∑ i, x i) N + ε))
      * γ + β) 0

theorem refOut_def (y : ι → EReal) (N ε γ β : EReal) (r : ι) :
    refOut y N ε γ β r
      = max (Ideal.div (y r - Ideal.div (∑ i, y i) N)
          (Ideal.sqrt (Ideal.div (∑ i, (y i - Ideal.div (∑ j, y j) N) * (y i - Ideal.div (∑ j, y j) N)) N + ε))
        * γ + β) 0 := rfl

theorem kerOut_def (x : ι → EReal) (N ε γ β : EReal) (r : ι) :
    kerOut x N ε γ β r
      = max (Ideal.div (x r - Ideal.div (∑ i, x i) N)
          (Ideal.sqrt (Ideal.div (∑ i, x i * x i) N - Ideal.div (∑ i, x i) N * Ideal.div (∑ i, x i) N + ε))
        * γ + β) 0 := rfl

/-- The reference's arrangement at finite arguments is a coerced real. -/
theorem refOut_coe (y : ι → ℝ) (n : ℝ) (hn : 0 < n) (γ β ε : ℝ) (hε : 0 < ε) (r : ι) :
    refOut (fun i => ((y i : ℝ) : EReal)) ((n : ℝ) : EReal) ((ε : ℝ) : EReal) ((γ : ℝ) : EReal) ((β : ℝ) : EReal) r
      = ((max ((y r - (∑ i, y i) / n)
            / Real.sqrt ((∑ i, (y i - (∑ j, y j) / n) * (y i - (∑ j, y j) / n)) / n + ε) * γ + β) 0 : ℝ) : EReal) := by
  have hS : ∑ i, ((y i : ℝ) : EReal) = ((∑ i, y i : ℝ) : EReal) := (coe_finset_sum _ _).symm
  have hm : Ideal.div (∑ i, ((y i : ℝ) : EReal)) ((n : ℝ) : EReal) = (((∑ i, y i) / n : ℝ) : EReal) := by
    rw [hS, div_coe_coe _ hn.ne']
  have hD : ∑ i, (((y i : ℝ) : EReal) - (((∑ j, y j) / n : ℝ) : EReal)) * (((y i : ℝ) : EReal) - (((∑ j, y j) / n : ℝ) : EReal))
      = ((∑ i, (y i - (∑ j, y j) / n) * (y i - (∑ j, y j) / n) : ℝ) : EReal) := by
    rw [coe_finset_sum]
    exact Finset.sum_congr rfl fun i _ => by rw [← EReal.coe_sub, ← EReal.coe_mul]
  have harg : 0 < (∑ i, (y i - (∑ j, y j) / n) * (y i - (∑ j, y j) / n)) / n + ε :=
    add_pos_of_nonneg_of_pos (real_var_nonneg y _ n hn) hε
  rw [refOut_def, hm, hD, div_coe_coe _ hn.ne', sqrt_add_coe harg.le,
    norm_coe _ _ _ _ (Real.sqrt_pos.mpr harg).ne']

/-- The kernel's arrangement at finite arguments is a coerced real. -/
theorem kerOut_coe (x : ι → ℝ) (n : ℝ) (hcard : (Fintype.card ι : ℝ) = n) (hn : 0 < n) (γ β ε : ℝ) (hε : 0 < ε)
    (r : ι) :
    kerOut (fun i => ((x i : ℝ) : EReal)) ((n : ℝ) : EReal) ((ε : ℝ) : EReal) ((γ : ℝ) : EReal) ((β : ℝ) : EReal) r
      = ((max ((x r - (∑ i, x i) / n)
            / Real.sqrt ((∑ i, x i * x i) / n - (∑ i, x i) / n * ((∑ i, x i) / n) + ε) * γ + β) 0 : ℝ) : EReal) := by
  have hS : ∑ i, ((x i : ℝ) : EReal) = ((∑ i, x i : ℝ) : EReal) := (coe_finset_sum _ _).symm
  have hm : Ideal.div (∑ i, ((x i : ℝ) : EReal)) ((n : ℝ) : EReal) = (((∑ i, x i) / n : ℝ) : EReal) := by
    rw [hS, div_coe_coe _ hn.ne']
  have hq : Ideal.div (∑ i, ((x i : ℝ) : EReal) * ((x i : ℝ) : EReal)) ((n : ℝ) : EReal)
      = (((∑ i, x i * x i) / n : ℝ) : EReal) := by
    rw [sum_coe_mul_coe, div_coe_coe _ hn.ne']
  have harg : 0 < (∑ i, x i * x i) / n - (∑ i, x i) / n * ((∑ i, x i) / n) + ε :=
    add_pos_of_nonneg_of_pos (real_msq_sub_nonneg x n hcard hn) hε
  have hv : (((∑ i, x i * x i) / n : ℝ) : EReal) - (((∑ i, x i) / n : ℝ) : EReal) * (((∑ i, x i) / n : ℝ) : EReal)
      = (((∑ i, x i * x i) / n - (∑ i, x i) / n * ((∑ i, x i) / n) : ℝ) : EReal) := by
    rw [← EReal.coe_mul, ← EReal.coe_sub]
  rw [kerOut_def, hm, hq, hv, sqrt_add_coe harg.le, norm_coe _ _ _ _ (Real.sqrt_pos.mpr harg).ne']

/-- Batch normalisation with ReLU, the two arrangements, over any finite index type of n > 0 elements:
    the reference's over y = x + b is the kernel's over x. -/
theorem bn_eq_card (n : ℝ) (hcard : (Fintype.card ι : ℝ) = n) (hn : 0 < n)
    (x : ι → ℝ) (b γ β ε : ℝ) (hε : 0 < ε) (r : ι) :
    refOut (fun i => ((x i : ℝ) : EReal) + ((b : ℝ) : EReal)) ((n : ℝ) : EReal) ((ε : ℝ) : EReal)
        ((γ : ℝ) : EReal) ((β : ℝ) : EReal) r
      = kerOut (fun i => ((x i : ℝ) : EReal)) ((n : ℝ) : EReal) ((ε : ℝ) : EReal)
        ((γ : ℝ) : EReal) ((β : ℝ) : EReal) r := by
  have hy : (fun i => ((x i : ℝ) : EReal) + ((b : ℝ) : EReal)) = fun i => (((x i + b : ℝ)) : EReal) :=
    funext fun i => (EReal.coe_add _ _).symm
  rw [hy, refOut_coe (fun i => x i + b) n hn γ β ε hε r, kerOut_coe x n hcard hn γ β ε hε r,
    real_bn_eq x n hcard hn.ne' b γ β ε r]

/-- The same with the two float literals in place: 40000 positions, ε the float nearest 1e-5. -/
theorem bn_eq (hcard : Fintype.card ι = 40000) (x : ι → ℝ) (b γ β : ℝ) (r : ι) :
    refOut (fun i => ((x i : ℝ) : EReal) + ((b : ℝ) : EReal)) (Ideal.ofBits .f32 0x471C4000#32)
        (Ideal.ofBits .f32 0x3727C5AC#32) ((γ : ℝ) : EReal) ((β : ℝ) : EReal) r
      = kerOut (fun i => ((x i : ℝ) : EReal)) (Ideal.ofBits .f32 0x471C4000#32)
        (Ideal.ofBits .f32 0x3727C5AC#32) ((γ : ℝ) : EReal) ((β : ℝ) : EReal) r := by
  rw [ofBits_N, ofBits_eps]
  exact bn_eq_card 40000 (by rw [hcard]; norm_num) (by norm_num) x b γ β eps0 eps0_pos r

end Ext

/-- At the index type Fin 40000. -/
theorem bn_eq_fin (x : Fin 40000 → ℝ) (b γ β : ℝ) (r : Fin 40000) :
    refOut (fun i => ((x i : ℝ) : EReal) + ((b : ℝ) : EReal)) (Ideal.ofBits .f32 0x471C4000#32)
        (Ideal.ofBits .f32 0x3727C5AC#32) ((γ : ℝ) : EReal) ((β : ℝ) : EReal) r
      = kerOut (fun i => ((x i : ℝ) : EReal)) (Ideal.ofBits .f32 0x471C4000#32)
        (Ideal.ofBits .f32 0x3727C5AC#32) ((γ : ℝ) : EReal) ((β : ℝ) : EReal) r :=
  bn_eq (Fintype.card_fin 40000) x b γ β r

/-- The convolution law with the weight written first on the summed side, as a contraction whose left
    operand is the weight spells it. -/
theorem conv_sum_comm' {Z C : Type} [Fintype Z] [Fintype C] (f : Z → C → ℝ) (w : C → ℝ) :
    (∑ z, ∑ ch, ((f z ch : ℝ) : EReal) * ((w ch : ℝ) : EReal))
      = ∑ ch, ((w ch : ℝ) : EReal) * (∑ z, ((f z ch : ℝ) : EReal)) := by
  rw [conv_sum_comm]
  exact Finset.sum_congr rfl fun ch _ => mul_comm _ _

/-- The law of batch normalisation with every operation written out: over 40000 positions, with the
    float literals 40000 and ε, the reference's arrangement over y = x + b is the kernel's over x. -/
theorem bn_eq_unfolded {ι : Type*} [Fintype ι] (hcard : Fintype.card ι = 40000) (x : ι → ℝ) (b γ β : ℝ) (r : ι) :
    max (Ideal.div
          ((((x r : ℝ) : EReal) + ((b : ℝ) : EReal))
            - Ideal.div (∑ i, (((x i : ℝ) : EReal) + ((b : ℝ) : EReal))) (Ideal.ofBits .f32 0x471C4000#32))
          (Ideal.sqrt
            (Ideal.div
                (∑ i, ((((x i : ℝ) : EReal) + ((b : ℝ) : EReal))
                        - Ideal.div (∑ j, (((x j : ℝ) : EReal) + ((b : ℝ) : EReal))) (Ideal.ofBits .f32 0x471C4000#32))
                    * ((((x i : ℝ) : EReal) + ((b : ℝ) : EReal))
                        - Ideal.div (∑ j, (((x j : ℝ) : EReal) + ((b : ℝ) : EReal))) (Ideal.ofBits .f32 0x471C4000#32)))
                (Ideal.ofBits .f32 0x471C4000#32)
              + Ideal.ofBits .f32 0x3727C5AC#32))
        * ((γ : ℝ) : EReal) + ((β : ℝ) : EReal)) 0
      = max (Ideal.div
          (((x r : ℝ) : EReal) - Ideal.div (∑ i, ((x i : ℝ) : EReal)) (Ideal.ofBits .f32 0x471C4000#32))
          (Ideal.sqrt
            (Ideal.div (∑ i, ((x i : ℝ) : EReal) * ((x i : ℝ) : EReal)) (Ideal.ofBits .f32 0x471C4000#32)
              - Ideal.div (∑ i, ((x i : ℝ) : EReal)) (Ideal.ofBits .f32 0x471C4000#32)
                * Ideal.div (∑ i, ((x i : ℝ) : EReal)) (Ideal.ofBits .f32 0x471C4000#32)
              + Ideal.ofBits .f32 0x3727C5AC#32))
        * ((γ : ℝ) : EReal) + ((β : ℝ) : EReal)) 0 :=
  bn_eq hcard x b γ β r

/-- Taking zero degrees of freedom off the count leaves the count, the literal kept as it is written;
    the zero as the signed reading of the zero word. -/
theorem N_sub_sitofp_zero :
    Ideal.ofBits .f32 0x471C4000#32 - ((((0#32 : BitVec 32).toInt : ℤ) : ℝ) : EReal)
      = Ideal.ofBits .f32 0x471C4000#32 := by
  have h : ((0#32 : BitVec 32).toInt : ℤ) = 0 := by decide
  rw [h, Int.cast_zero, EReal.coe_zero, sub_zero]

/-- The count is above zero, the literal kept as it is written. -/
theorem ofBits_N_pos : (0 : EReal) < Ideal.ofBits .f32 0x471C4000#32 := by
  rw [ofBits_N]; exact N_pos

end Cert.Proof.Bridge

end
-- ==== Proof.BridgeJoin.lean ====
/-
  The join of the two results over abstract data. Both programs read one gathered volume
  vol r z ch (position r, depth cell z, channel ch) and the weights w ch of one output channel.
  The reference's value at a position is the weights against the cell-sum, plus a bias; the kernel's
  is the pairwise sum of the four cells' convolutions, with no bias. Each is the coercion of the one
  real ∑_z ∑_ch vol r z ch · w ch (plus the bias on the reference's side), so batch normalisation over
  the 40000 positions gives the two arrangements the same result.
-/
import proofs.«207241_g55714315764006_cont_9to1c4b_410_29_alg».proof.Proof.BridgeMath

noncomputable section

namespace Cert.Proof.Bridge

open Idealize.ShloMosaic
open scoped BigOperators

section Join
variable {ι : Type*} [Fintype ι] {C : Type} [Fintype C]

/-- The kernel's value at one position, the four cells' convolutions added pairwise, is the
    coercion of the real double sum. -/
theorem ker_pos_coe (vol : Fin 4 → C → ℝ) (w : C → ℝ) :
    ((∑ ch, ((vol 0 ch : ℝ) : EReal) * ((w ch : ℝ) : EReal)) + (∑ ch, ((vol 1 ch : ℝ) : EReal) * ((w ch : ℝ) : EReal)))
        + ((∑ ch, ((vol 2 ch : ℝ) : EReal) * ((w ch : ℝ) : EReal)) + (∑ ch, ((vol 3 ch : ℝ) : EReal) * ((w ch : ℝ) : EReal)))
      = ((∑ z, ∑ ch, vol z ch * w ch : ℝ) : EReal) := by
  rw [← conv_coe]
  exact sum_four fun z => ∑ ch, ((vol z ch : ℝ) : EReal) * ((w ch : ℝ) : EReal)

/-- The reference's value at one position before the bias, the weights against the cell-sum, is the
    coercion of the same real double sum. -/
theorem ref_pos_coe (vol : Fin 4 → C → ℝ) (w : C → ℝ) :
    ∑ ch, ((w ch : ℝ) : EReal) * (∑ z, ((vol z ch : ℝ) : EReal))
      = ((∑ z, ∑ ch, vol z ch * w ch : ℝ) : EReal) := by
  rw [← conv_coe, conv_sum_comm']

/-- The join at real data: over 40000 positions, the reference's arrangement of the weights against
    the cell-sums plus the bias is the kernel's arrangement of the pairwise sums of the cells'
    convolutions. -/
theorem result_join (hcard : Fintype.card ι = 40000) (vol : ι → Fin 4 → C → ℝ) (w : C → ℝ) (b γ β : ℝ) (r : ι) :
    refOut (fun r' => (∑ ch, ((w ch : ℝ) : EReal) * (∑ z, ((vol r' z ch : ℝ) : EReal))) + ((b : ℝ) : EReal))
        (Ideal.ofBits .f32 0x471C4000#32) (Ideal.ofBits .f32 0x3727C5AC#32) ((γ : ℝ) : EReal) ((β : ℝ) : EReal) r
      = kerOut (fun r' =>
          ((∑ ch, ((vol r' 0 ch : ℝ) : EReal) * ((w ch : ℝ) : EReal)) + (∑ ch, ((vol r' 1 ch : ℝ) : EReal) * ((w ch : ℝ) : EReal)))
            + ((∑ ch, ((vol r' 2 ch : ℝ) : EReal) * ((w ch : ℝ) : EReal)) + (∑ ch, ((vol r' 3 ch : ℝ) : EReal) * ((w ch : ℝ) : EReal))))
        (Ideal.ofBits .f32 0x471C4000#32) (Ideal.ofBits .f32 0x3727C5AC#32) ((γ : ℝ) : EReal) ((β : ℝ) : EReal) r := by
  have hk : (fun r' =>
      ((∑ ch, ((vol r' 0 ch : ℝ) : EReal) * ((w ch : ℝ) : EReal)) + (∑ ch, ((vol r' 1 ch : ℝ) : EReal) * ((w ch : ℝ) : EReal)))
        + ((∑ ch, ((vol r' 2 ch : ℝ) : EReal) * ((w ch : ℝ) : EReal)) + (∑ ch, ((vol r' 3 ch : ℝ) : EReal) * ((w ch : ℝ) : EReal))))
      = fun r' => ((∑ z, ∑ ch, vol r' z ch * w ch : ℝ) : EReal) :=
    funext fun r' => ker_pos_coe (vol r') w
  have hr : (fun r' => (∑ ch, ((w ch : ℝ) : EReal) * (∑ z, ((vol r' z ch : ℝ) : EReal))) + ((b : ℝ) : EReal))
      = fun r' => ((∑ z, ∑ ch, vol r' z ch * w ch : ℝ) : EReal) + ((b : ℝ) : EReal) :=
    funext fun r' => by rw [ref_pos_coe (vol r') w]
  rw [hk, hr]
  exact bn_eq hcard (fun r' => ∑ z, ∑ ch, vol r' z ch * w ch) b γ β r

/-- The join at data on the extended reals none of which is infinite: the form a caller has, whose
    arrays are extended reals known finite. -/
theorem result_join_ext (hcard : Fintype.card ι = 40000) (vol : ι → Fin 4 → C → EReal) (w : C → EReal)
    (b γ β : EReal) (hvol : ∀ r z ch, vol r z ch ≠ ⊥ ∧ vol r z ch ≠ ⊤) (hw : ∀ ch, w ch ≠ ⊥ ∧ w ch ≠ ⊤)
    (hb : b ≠ ⊥ ∧ b ≠ ⊤) (hγ : γ ≠ ⊥ ∧ γ ≠ ⊤) (hβ : β ≠ ⊥ ∧ β ≠ ⊤) (r : ι) :
    refOut (fun r' => (∑ ch, w ch * (∑ z, vol r' z ch)) + b)
        (Ideal.ofBits .f32 0x471C4000#32) (Ideal.ofBits .f32 0x3727C5AC#32) γ β r
      = kerOut (fun r' =>
          ((∑ ch, vol r' 0 ch * w ch) + (∑ ch, vol r' 1 ch * w ch))
            + ((∑ ch, vol r' 2 ch * w ch) + (∑ ch, vol r' 3 ch * w ch)))
        (Ideal.ofBits .f32 0x471C4000#32) (Ideal.ofBits .f32 0x3727C5AC#32) γ β r := by
  obtain ⟨volr, hvolr⟩ := exists_real_fun (fun p : ι × Fin 4 × C => vol p.1 p.2.1 p.2.2) fun p => hvol _ _ _
  obtain rfl : vol = fun r z ch => ((volr (r, z, ch) : ℝ) : EReal) :=
    funext fun r => funext fun z => funext fun ch => hvolr (r, z, ch)
  obtain ⟨wr, hwr⟩ := exists_real_fun w hw
  obtain rfl : w = fun ch => ((wr ch : ℝ) : EReal) := funext hwr
  obtain ⟨b', rfl⟩ : ∃ b' : ℝ, b = ((b' : ℝ) : EReal) := ⟨b.toReal, (EReal.coe_toReal hb.2 hb.1).symm⟩
  obtain ⟨γ', rfl⟩ : ∃ γ' : ℝ, γ = ((γ' : ℝ) : EReal) := ⟨γ.toReal, (EReal.coe_toReal hγ.2 hγ.1).symm⟩
  obtain ⟨β', rfl⟩ : ∃ β' : ℝ, β = ((β' : ℝ) : EReal) := ⟨β.toReal, (EReal.coe_toReal hβ.2 hβ.1).symm⟩
  exact result_join hcard (fun r z ch => volr (r, z, ch)) wr b' γ' β' r

end Join

end Cert.Proof.Bridge

end
-- ==== Proof.Region3Value.lean ====
/-
  The batch statistics' VALUE: what the third pipelined region leaves in its result array.

  The output's staging buffer after the last point, as a function of the input array alone (`statsOf`): the eight
  row blocks' column sums (row 0) and column sums of squares (row 1), the first block's stored and each later block's
  added on the right of the running rows, in the kernel's own order; then the finish — row 0 divided by the number of
  rows, row 1 divided by it, less the square of row 0's quotient, plus the epsilon, under the square root. Each control
  case's stores are read back as one step of that recursion (`out_A`, `out_B`, `out_C`), so the contents the frame half
  defines point by point are the recursion (`outsAt3_eq`), the one write-back after the last point writes the
  statistics, and its block is the whole array (`stats_eq`).

  At the ideal floats addition is associative, so the ordered sum of the eight block sums of a column is the sum of the
  column: row 0 is the column's mean and row 1 its deviation (`statsOf_apply`).
-/
import proofs.«207241_g55714315764006_cont_9to1c4b_410_29_alg».proof.Proof.Region3
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Tactic
import Mathlib.Algebra.BigOperators.Group.Finset.Basic
import Mathlib.Algebra.BigOperators.Fin

set_option maxRecDepth 16384

noncomputable section

namespace Cert.Proof.KI.R3

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Idealize.ShloMosaic.SparseCore.Cfg (HIx)
open scoped BigOperators

variable {F : FTy → Type} [FloatOps F]

/-! ## The statistics as a function of the array -/

/-- The two rows of the [2, 80] block, as the body addresses them. -/
abbrev r3_0 : Rect S2x80 := Rect.unit (s := S2x80) ![0, 0] S1x80.size inb_S2x80_S1x80_0_0
abbrev r3_1 : Rect S2x80 := Rect.unit (s := S2x80) ![1, 0] S1x80.size inb_S2x80_S1x80_1_0

/-- Rows 5000 t … 5000 t + 4999 of the array: what the input window reads at point `t`. -/
def xblk (x : Vec F S40000x80 .f32) (t : Fin cfg3.N) : Vec F S5000x80 .f32 :=
  ((cfg3.win 0).blk t).view.read (Elt F) x

/-- The reset: row 0 the block's column sums, row 1 its column sums of squares. -/
def stepA (x0 : Vec F S5000x80 .f32) : Vec F S2x80 .f32 :=
  View.canon [⟨r3_1, k3_pay5 x0⟩, ⟨r3_0, k3_pay4 x0⟩]

/-- The update: each row of the running block plus the block's reduction. -/
def stepB (x0 : Vec F S5000x80 .f32) (xo : Vec F S2x80 .f32) : Vec F S2x80 .f32 :=
  View.canon [⟨r3_1, k3_pay7 x0 (View.ld xo r3_1)⟩, ⟨r3_0, k3_pay6 x0 (View.ld xo r3_0)⟩]

/-- The finish: row 0 the means, row 1 the deviations, of the two totals. -/
def finish (y : Vec F S2x80 .f32) : Vec F S2x80 .f32 :=
  View.canon [⟨r3_1, k3_pay10 (View.ld y r3_0) (View.ld y r3_1)⟩, ⟨r3_0, k3_pay9 (View.ld y r3_0)⟩]

/-- The running block after point `n`, in the kernel's own order: the first block's reductions, then one block
    after the other added on the right. -/
def sumsAt (x : Vec F S40000x80 .f32) : (n : ℕ) → n < cfg3.N → Vec F S2x80 .f32
  | 0, h => stepA (xblk x ⟨0, h⟩)
  | n + 1, h => stepB (xblk x ⟨n + 1, h⟩) (sumsAt x n (Nat.lt_of_succ_lt h))

theorem seven_lt : 7 < cfg3.N := by rw [show cfg3.N = 8 from N_3]; decide

/-- THE STATISTICS of `x`: the eight blocks' reductions added left to right, then the finish. -/
def statsOf (x : Vec F S40000x80 .f32) : Vec F S2x80 .f32 :=
  finish (sumsAt x 7 seven_lt)

/-! ## Two rows stored last hide whatever was stored before -/

/-- Index (1, q) of the block is index (0, q) of row 1, -/
theorem emb_row1 (q : Fin 80) : r3_1.emb (ix2 (0 : Fin 1) q) = (ix2 (1 : Fin 2) q : S2x80.Idx) := by
  funext a; apply Fin.ext
  match a with
  | ⟨0, _⟩ => rfl
  | ⟨1, _⟩ => show 0 + 1 * q.val = q.val; omega
/-- index (0, q) is index (0, q) of row 0, -/
theorem emb_row0 (q : Fin 80) : r3_0.emb (ix2 (0 : Fin 1) q) = (ix2 (0 : Fin 2) q : S2x80.Idx) := by
  funext a; apply Fin.ext
  match a with
  | ⟨0, _⟩ => rfl
  | ⟨1, _⟩ => show 0 + 1 * q.val = q.val; omega
/-- and is not in row 1. -/
theorem row0_not_mem_row1 (q : Fin 80) : (ix2 (0 : Fin 2) q : S2x80.Idx) ∉ r3_1.set := by
  rw [Rect.mem_set_unit]
  intro h
  have h0 : (1 : ℕ) ≤ 0 := (h 0).1
  exact absurd h0 (by decide)

/-- After a store of row 1 and, before it, one of row 0, the block reads row 1's payload on row 1 -/
theorem canon_row1 (a b : Vec F S1x80 .f32) (L : List (View.Piece (Elt F) S2x80 .f32)) (q : Fin 80) :
    View.canon (⟨r3_1, b⟩ :: ⟨r3_0, a⟩ :: L) (ix2 (1 : Fin 2) q) = b (ix2 (0 : Fin 1) q) := by
  rw [← emb_row1 q]; exact View.canon_cons_emb r3_1 b _ _
/-- and row 0's on row 0, whatever was stored earlier. -/
theorem canon_row0 (a b : Vec F S1x80 .f32) (L : List (View.Piece (Elt F) S2x80 .f32)) (q : Fin 80) :
    View.canon (⟨r3_1, b⟩ :: ⟨r3_0, a⟩ :: L) (ix2 (0 : Fin 2) q) = a (ix2 (0 : Fin 1) q) := by
  rw [View.canon_cons_of_not_mem (⟨r3_1, b⟩ : View.Piece (Elt F) S2x80 .f32) (⟨r3_0, a⟩ :: L) (row0_not_mem_row1 q), ← emb_row0 q]
  exact View.canon_cons_emb r3_0 a _ _

/-- So the earlier stores can be dropped. -/
theorem canon_rows (a b : Vec F S1x80 .f32) (L : List (View.Piece (Elt F) S2x80 .f32)) :
    View.canon (⟨r3_1, b⟩ :: ⟨r3_0, a⟩ :: L) = View.canon [⟨r3_1, b⟩, ⟨r3_0, a⟩] := by
  funext y
  obtain ⟨p, q, rfl⟩ : ∃ (p : Fin 2) (q : Fin 80), y = ix2 p q := ⟨y 0, y 1, eq_ix2 y⟩
  have hp : p = 0 ∨ p = 1 := by omega
  rcases hp with rfl | rfl
  · rw [canon_row0, canon_row0]
  · rw [canon_row1, canon_row1]

/-- A load of row 0 reads the block at (0, q), -/
theorem ld_row0 (y : Vec F S2x80 .f32) (q : Fin 80) : View.ld y r3_0 (ix2 (0 : Fin 1) q) = y (ix2 (0 : Fin 2) q) :=
  congrArg y (emb_row0 q)
/-- a load of row 1 at (1, q). -/
theorem ld_row1 (y : Vec F S2x80 .f32) (q : Fin 80) : View.ld y r3_1 (ix2 (0 : Fin 1) q) = y (ix2 (1 : Fin 2) q) :=
  congrArg y (emb_row1 q)

/-! ## The payloads at an index, at the ideal floats -/

section AtIdeal

/-- Adding the unit axis: a vector's (q) is its row's (0, q); -/
theorem addUnit_apply {α : Type} (v : S80.Idx → α) (h : S80.ShapeCasts S1x80) (q : Fin 80) :
    shapeCast S1x80 v h (ix2 (0 : Fin 1) q) = v (ix1 q) := by
  refine (shapeCast_addUnit_apply ![80] v h (ix2 (0 : Fin 1) q)).trans (congrArg v ?_)
  funext a
  match a with
  | ⟨0, _⟩ => rfl
/-- dropping it, the other way round. -/
theorem dropUnit_apply {α : Type} (v : S1x80.Idx → α) (h : S1x80.ShapeCasts S80) (q : Fin 80) :
    shapeCast S80 v h (ix1 q) = v (ix2 (0 : Fin 1) q) := by
  refine (shapeCast_dropUnit_apply ![80] v h (ix1 q)).trans (congrArg v ?_)
  funext a
  match a with
  | ⟨0, _⟩ => rfl
  | ⟨1, _⟩ => rfl

/-- The block's column sum, -/
theorem pay2_apply (x0 : S5000x80.Idx → Ideal .f32) (q : Fin 80) :
    k3_pay2 (F := Ideal) x0 (ix1 q) = ∑ k : Fin 5000, x0 (ix2 k q) := by
  unfold k3_pay2 k3_pay1
  refine (Ideal.multiReduction_add_single _ 0x00000000#32 reduces_S5000x80_S80 (.inl rfl) rfl (ix1 q)).trans ?_
  refine Finset.sum_congr rfl fun k _ => ?_
  rw [shapeCast_self]
  congr 1
  funext a
  match a with
  | ⟨0, _⟩ => rfl
  | ⟨1, _⟩ => rfl
/-- and its column sum of squares. -/
theorem pay3_apply (x0 : S5000x80.Idx → Ideal .f32) (q : Fin 80) :
    k3_pay3 (F := Ideal) x0 (ix1 q) = ∑ k : Fin 5000, x0 (ix2 k q) * x0 (ix2 k q) := by
  unfold k3_pay3 k3_pay1
  refine (Ideal.multiReduction_add_single _ 0x00000000#32 reduces_S5000x80_S80 (.inl rfl) rfl (ix1 q)).trans ?_
  refine Finset.sum_congr rfl fun k _ => ?_
  rw [shapeCast_self, mulf_apply]
  congr 2 <;>
  · funext a
    match a with
    | ⟨0, _⟩ => rfl
    | ⟨1, _⟩ => rfl

theorem pay4_apply (x0 : S5000x80.Idx → Ideal .f32) (q : Fin 80) :
    k3_pay4 (F := Ideal) x0 (ix2 (0 : Fin 1) q) = k3_pay2 (F := Ideal) x0 (ix1 q) := by
  unfold k3_pay4; exact addUnit_apply _ _ q
theorem pay5_apply (x0 : S5000x80.Idx → Ideal .f32) (q : Fin 80) :
    k3_pay5 (F := Ideal) x0 (ix2 (0 : Fin 1) q) = k3_pay3 (F := Ideal) x0 (ix1 q) := by
  unfold k3_pay5; exact addUnit_apply _ _ q
theorem pay6_apply (x0 : S5000x80.Idx → Ideal .f32) (v : S1x80.Idx → Ideal .f32) (q : Fin 80) :
    k3_pay6 (F := Ideal) x0 v (ix2 (0 : Fin 1) q) = v (ix2 (0 : Fin 1) q) + k3_pay2 (F := Ideal) x0 (ix1 q) := by
  unfold k3_pay6
  refine (addUnit_apply _ _ q).trans ?_
  rw [addf_apply, dropUnit_apply]
theorem pay7_apply (x0 : S5000x80.Idx → Ideal .f32) (v : S1x80.Idx → Ideal .f32) (q : Fin 80) :
    k3_pay7 (F := Ideal) x0 v (ix2 (0 : Fin 1) q) = v (ix2 (0 : Fin 1) q) + k3_pay3 (F := Ideal) x0 (ix1 q) := by
  unfold k3_pay7
  refine (addUnit_apply _ _ q).trans ?_
  rw [addf_apply, dropUnit_apply]
/-- The mean: the total over the number of rows. -/
theorem pay8_apply (v : S1x80.Idx → Ideal .f32) (q : Fin 80) :
    k3_pay8 (F := Ideal) v (ix1 q) = Ideal.div (v (ix2 (0 : Fin 1) q)) (Ideal.ofBits .f32 0x471C4000#32) := by
  unfold k3_pay8
  rw [divf_apply, dropUnit_apply]
  rfl
theorem pay9_apply (v : S1x80.Idx → Ideal .f32) (q : Fin 80) :
    k3_pay9 (F := Ideal) v (ix2 (0 : Fin 1) q) = Ideal.div (v (ix2 (0 : Fin 1) q)) (Ideal.ofBits .f32 0x471C4000#32) := by
  unfold k3_pay9; exact (addUnit_apply _ _ q).trans (pay8_apply v q)
/-- The deviation. -/
theorem pay10_apply (v w : S1x80.Idx → Ideal .f32) (q : Fin 80) :
    k3_pay10 (F := Ideal) v w (ix2 (0 : Fin 1) q)
      = Ideal.sqrt (Ideal.div (w (ix2 (0 : Fin 1) q)) (Ideal.ofBits .f32 0x471C4000#32)
          - Ideal.div (v (ix2 (0 : Fin 1) q)) (Ideal.ofBits .f32 0x471C4000#32) * Ideal.div (v (ix2 (0 : Fin 1) q)) (Ideal.ofBits .f32 0x471C4000#32)
          + Ideal.ofBits .f32 0x3727C5AC#32) := by
  unfold k3_pay10
  refine (addUnit_apply _ _ q).trans ?_
  show Ideal.sqrt (Ideal.div (shapeCast S80 w shapeCasts_S1x80_S80 (ix1 q)) (Ideal.ofBits .f32 0x471C4000#32)
      - k3_pay8 (F := Ideal) v (ix1 q) * k3_pay8 (F := Ideal) v (ix1 q) + Ideal.ofBits .f32 0x3727C5AC#32) = _
  rw [dropUnit_apply, pay8_apply]

/-! ## The blocks of a column, and the ordered sum -/

/-- The window's index at point `t` is (t, 0). -/
theorem idx_facts3 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)

/-- Row `k` of block `t` is row 5000 t + k of the array. -/
theorem xblk_apply {G : FTy → Type} (x : Vec G S40000x80 .f32) (t : Fin cfg3.N) (k : Fin 5000) (q : Fin 80)
    (hr : 5000 * t.val + k.val < 40000) : xblk x t (ix2 k q) = x (ix2 ⟨5000 * t.val + k.val, hr⟩ q) := by
  unfold xblk
  rw [View.read_apply]
  show x _ = x _
  congr 1
  funext a
  apply Fin.ext
  match a with
  | ⟨0, _⟩ => show win3_0.index t 0 * 5000 + 1 * k.val = 5000 * t.val + k.val; rw [(idx_facts3 t).1]; omega
  | ⟨1, _⟩ => show win3_0.index t 1 * 80 + 1 * q.val = q.val; rw [(idx_facts3 t).2]; omega

/-- Column `q` of the array as a sequence of extended reals (zero past its end), and its squares. -/
def colAt (x : S40000x80.Idx → Ideal .f32) (q : Fin 80) (r : ℕ) : EReal := if h : r < 40000 then x (ix2 ⟨r, h⟩ q) else 0
def colSqAt (x : S40000x80.Idx → Ideal .f32) (q : Fin 80) (r : ℕ) : EReal := if h : r < 40000 then x (ix2 ⟨r, h⟩ q) * x (ix2 ⟨r, h⟩ q) else 0

theorem blockSum (x : S40000x80.Idx → Ideal .f32) (q : Fin 80) (t : Fin cfg3.N) :
    ∑ k : Fin 5000, xblk (F := Ideal) x t (ix2 k q) = ∑ k ∈ Finset.range 5000, colAt x q (5000 * t.val + k) := by
  rw [← Fin.sum_univ_eq_sum_range (fun k => colAt x q (5000 * t.val + k)) 5000]
  refine Finset.sum_congr rfl fun k _ => ?_
  have hN : t.val < 8 := lt_of_lt_of_eq t.isLt N_3
  have hr : 5000 * t.val + k.val < 40000 := by have := k.isLt; omega
  rw [xblk_apply (G := Ideal) x t k q hr]; unfold colAt; rw [dif_pos hr]

theorem blockSqSum (x : S40000x80.Idx → Ideal .f32) (q : Fin 80) (t : Fin cfg3.N) :
    ∑ k : Fin 5000, xblk (F := Ideal) x t (ix2 k q) * xblk (F := Ideal) x t (ix2 k q)
      = ∑ k ∈ Finset.range 5000, colSqAt x q (5000 * t.val + k) := by
  rw [← Fin.sum_univ_eq_sum_range (fun k => colSqAt x q (5000 * t.val + k)) 5000]
  refine Finset.sum_congr rfl fun k _ => ?_
  have hN : t.val < 8 := lt_of_lt_of_eq t.isLt N_3
  have hr : 5000 * t.val + k.val < 40000 := by have := k.isLt; omega
  rw [xblk_apply (G := Ideal) x t k q hr]; unfold colSqAt; rw [dif_pos hr]

/-- THE ORDERED SUM IS THE SUM. After point `n` row 0 of the running block holds the sum of the column's first
    5000 (n + 1) entries and row 1 the sum of their squares: addition of extended reals is associative. -/
theorem sumsAt_apply (x : S40000x80.Idx → Ideal .f32) (q : Fin 80) : ∀ (n : ℕ) (h : n < cfg3.N),
    sumsAt (F := Ideal) x n h (ix2 (0 : Fin 2) q) = ∑ r ∈ Finset.range (5000 * (n + 1)), colAt x q r
    ∧ sumsAt (F := Ideal) x n h (ix2 (1 : Fin 2) q) = ∑ r ∈ Finset.range (5000 * (n + 1)), colSqAt x q r
  | 0, h => by
    constructor
    · show stepA (F := Ideal) (xblk (F := Ideal) x ⟨0, h⟩) (ix2 (0 : Fin 2) q) = _
      unfold stepA
      refine (canon_row0 (F := Ideal) _ _ _ q).trans ?_
      refine (pay4_apply _ q).trans ?_
      refine (pay2_apply _ q).trans ?_
      refine (blockSum x q ⟨0, h⟩).trans ?_
      show ∑ k ∈ Finset.range 5000, colAt x q (5000 * 0 + k) = _
      simp only [Nat.mul_zero, Nat.zero_add, Nat.mul_one]
    · show stepA (F := Ideal) (xblk (F := Ideal) x ⟨0, h⟩) (ix2 (1 : Fin 2) q) = _
      unfold stepA
      refine (canon_row1 (F := Ideal) _ _ _ q).trans ?_
      refine (pay5_apply _ q).trans ?_
      refine (pay3_apply _ q).trans ?_
      refine (blockSqSum x q ⟨0, h⟩).trans ?_
      show ∑ k ∈ Finset.range 5000, colSqAt x q (5000 * 0 + k) = _
      simp only [Nat.mul_zero, Nat.zero_add, Nat.mul_one]
  | n + 1, h => by
    obtain ⟨ih0, ih1⟩ := sumsAt_apply x q n (Nat.lt_of_succ_lt h)
    constructor
    · show stepB (F := Ideal) (xblk (F := Ideal) x ⟨n + 1, h⟩) (sumsAt (F := Ideal) x n _) (ix2 (0 : Fin 2) q) = _
      unfold stepB
      refine (canon_row0 (F := Ideal) _ _ _ q).trans ?_
      refine (pay6_apply _ _ q).trans ?_
      rw [show 5000 * (n + 1 + 1) = 5000 * (n + 1) + 5000 by ring, Finset.sum_range_add]
      exact congrArg₂ (· + ·) ((ld_row0 (F := Ideal) _ q).trans ih0) ((pay2_apply _ q).trans (blockSum x q ⟨n + 1, h⟩))
    · show stepB (F := Ideal) (xblk (F := Ideal) x ⟨n + 1, h⟩) (sumsAt (F := Ideal) x n _) (ix2 (1 : Fin 2) q) = _
      unfold stepB
      refine (canon_row1 (F := Ideal) _ _ _ q).trans ?_
      refine (pay7_apply _ _ q).trans ?_
      rw [show 5000 * (n + 1 + 1) = 5000 * (n + 1) + 5000 by ring, Finset.sum_range_add]
      exact congrArg₂ (· + ·) ((ld_row1 (F := Ideal) _ q).trans ih1) ((pay3_apply _ q).trans (blockSqSum x q ⟨n + 1, h⟩))

theorem col_total (x : S40000x80.Idx → Ideal .f32) (q : Fin 80) :
    ∑ r ∈ Finset.range 40000, colAt x q r = ∑ r : Fin 40000, x (ix2 r q) := by
  rw [← Fin.sum_univ_eq_sum_range (fun r => colAt x q r) 40000]
  refine Finset.sum_congr rfl fun r _ => ?_
  unfold colAt; rw [dif_pos r.isLt]
theorem colSq_total (x : S40000x80.Idx → Ideal .f32) (q : Fin 80) :
    ∑ r ∈ Finset.range 40000, colSqAt x q r = ∑ r : Fin 40000, x (ix2 r q) * x (ix2 r q) := by
  rw [← Fin.sum_univ_eq_sum_range (fun r => colSqAt x q r) 40000]
  refine Finset.sum_congr rfl fun r _ => ?_
  unfold colSqAt; rw [dif_pos r.isLt]

/-- THE STATISTICS, at the ideal floats: row 0 is the column's mean — its sum over the 40000 rows divided by 40000 —,
    row 1 the square root of the mean of its squares less the square of its mean plus the epsilon. -/
theorem statsOf_apply (x : S40000x80.Idx → Ideal .f32) (o : Fin 80) :
    statsOf (F := Ideal) x (ix2 (0 : Fin 2) o)
      = Ideal.div (∑ r : Fin 40000, x (ix2 r o)) (Ideal.ofBits .f32 0x471C4000#32)
    ∧ statsOf (F := Ideal) x (ix2 (1 : Fin 2) o)
      = Ideal.sqrt (Ideal.div (∑ r : Fin 40000, x (ix2 r o) * x (ix2 r o)) (Ideal.ofBits .f32 0x471C4000#32)
          - Ideal.div (∑ r : Fin 40000, x (ix2 r o)) (Ideal.ofBits .f32 0x471C4000#32)
            * Ideal.div (∑ r : Fin 40000, x (ix2 r o)) (Ideal.ofBits .f32 0x471C4000#32)
          + Ideal.ofBits .f32 0x3727C5AC#32) := by
  obtain ⟨h0, h1⟩ := sumsAt_apply x o 7 seven_lt
  rw [show 5000 * (7 + 1) = 40000 by norm_num, col_total] at h0
  rw [show 5000 * (7 + 1) = 40000 by norm_num, colSq_total] at h1
  have e0 := (ld_row0 (F := Ideal) (sumsAt (F := Ideal) x 7 seven_lt) o).trans h0
  have e1 := (ld_row1 (F := Ideal) (sumsAt (F := Ideal) x 7 seven_lt) o).trans h1
  constructor
  · unfold statsOf finish
    refine (canon_row0 (F := Ideal) _ _ _ o).trans ?_
    refine (pay9_apply _ o).trans ?_
    rw [e0]
  · unfold statsOf finish
    refine (canon_row1 (F := Ideal) _ _ _ o).trans ?_
    refine (pay10_apply _ _ o).trans ?_
    rw [e0, e1]

end AtIdeal

/-! ## The frame half's contents are this recursion -/

section Bridge

theorem hz2 : (![0, 0] : Fin 2 → Nat) = fun _ => 0 := funext fun a => by fin_cases a <;> rfl

/-- THE RESET's value: the two rows stored are the block's two reductions. -/
theorem out_A (c : Dev nD) (i : grid3.Coords) (a1 : Memref sig .tc .vmem S5000x80 .f32) (h1 : a1.IsWhole)
    (a2 : Memref sig .tc .vmem S2x80 .f32) (h2 : a2.IsWhole)
    (hc1 : k3_cond1 i = 1#1) (hc2 : ¬k3_cond2 i = 1#1) (hc3 : ¬k3_cond3 i = 1#1) (x0 : Vec F S5000x80 .f32) :
    out3_A_1 c i a1 h1 a2 h2 hc1 hc2 hc3 x0 = stepA x0 := by
  unfold out3_A_1
  rw [View.read_writes_junk_eq_canon]
  unfold kernelRun3_A
  dsimp only
  sl_unfold_words
  unfold stepA
  simp only [View.readAt_eq_ld, h1.read_unread, View.ld_unit_zero (S := S5000x80) hz2] <;> rfl

/-- THE UPDATE's value: each row loaded (the first store leaves row 1 alone), the block's reduction added, stored back. -/
theorem out_B (c : Dev nD) (i : grid3.Coords) (a1 : Memref sig .tc .vmem S5000x80 .f32) (h1 : a1.IsWhole)
    (a2 : Memref sig .tc .vmem S2x80 .f32) (h2 : a2.IsWhole)
    (hc1 : ¬k3_cond1 i = 1#1) (hc2 : k3_cond2 i = 1#1) (hc3 : ¬k3_cond3 i = 1#1) (x0 : Vec F S5000x80 .f32) (xo : Vec F S2x80 .f32) :
    out3_B_1 c i a1 h1 a2 h2 hc1 hc2 hc3 x0 xo = stepB x0 xo := by
  unfold out3_B_1
  rw [View.read_writes_junk_eq_canon]
  unfold kernelRun3_B
  dsimp only
  sl_unfold_words
  unfold stepB
  simp only [View.readAt_eq_ld, h1.read_unread, h2.read_unread, View.ld_unit_zero (S := S5000x80) hz2] <;> rfl

/-- THE LAST POINT's value: the update, then the finish of what the update left — its loads read the update's two
    stores back, and its two stores hide them. -/
theorem out_C (c : Dev nD) (i : grid3.Coords) (a1 : Memref sig .tc .vmem S5000x80 .f32) (h1 : a1.IsWhole)
    (a2 : Memref sig .tc .vmem S2x80 .f32) (h2 : a2.IsWhole)
    (hc1 : ¬k3_cond1 i = 1#1) (hc2 : k3_cond2 i = 1#1) (hc3 : k3_cond3 i = 1#1) (x0 : Vec F S5000x80 .f32) (xo : Vec F S2x80 .f32) :
    out3_C_1 c i a1 h1 a2 h2 hc1 hc2 hc3 x0 xo = finish (stepB x0 xo) := by
  unfold out3_C_1
  rw [View.read_writes_junk_eq_canon]
  unfold kernelRun3_C
  dsimp only
  sl_unfold_words
  refine (canon_rows _ _ _).trans ?_
  unfold finish stepB
  simp only [View.readCov_eq_canon', View.readAt_eq_ld, h1.read_unread, h2.read_unread, View.ld_unit_zero (S := S5000x80) hz2] <;> rfl

variable (V : (c : Dev nD) → (b : Ref sig .tc) → Buf (Elt F) ((c : Thread nD τ).loc b))
variable (O : CellTallies nD τ sig (HIx 1))
variable (Rc : Set (SemLoc sig × HIx 1))

/-- The input array as the region finds it, at its literal type. -/
abbrev xarr (c : Dev nD) : Vec F S40000x80 .f32 := V c main_v25

/-- The window's block read off the region-entry contents is the block of that array. -/
theorem iblk3_eq (c : Dev nD) (t : Fin cfg3.N) : iblk3 V c 0 t = xblk (xarr V c) t := rfl

/-- What the output's staging buffer holds after point `n` IS the recursion: the running block before the last
    point, the statistics' block after it — by induction on the point. -/
theorem outsAt3_eq (c : Dev nD) : ∀ (n : ℕ) (h : n < cfg3.N),
    outsAt3 V c n h = if n = 7 then finish (sumsAt (xarr V c) n h) else sumsAt (xarr V c) n h
  | 0, h => by
    rw [if_neg (by decide)]
    exact (outsAt3_A V c ⟨0, h⟩ rfl).trans (out_A ..)
  | n + 1, h => by
    have hN : cfg3.N = 8 := N_3
    have ih := outsAt3_eq c n (Nat.lt_of_succ_lt h)
    rw [if_neg (by omega)] at ih
    by_cases h7 : n + 1 = 7
    · rw [if_pos h7, outsAt3_C V c ⟨n + 1, h⟩ h7, out_C]
      show finish (stepB (iblk3 V c 0 ⟨n + 1, h⟩) (outsAt3 V c n _)) = finish (stepB (xblk (xarr V c) ⟨n + 1, h⟩) (sumsAt (xarr V c) n _))
      rw [ih, iblk3_eq]
    · rw [if_neg h7, outsAt3_B V c ⟨n + 1, h⟩ (Nat.succ_ne_zero n) h7, out_B]
      show stepB (iblk3 V c 0 ⟨n + 1, h⟩) (outsAt3 V c n _) = stepB (xblk (xarr V c) ⟨n + 1, h⟩) (sumsAt (xarr V c) n _)
      rw [ih, iblk3_eq]

/-- The one write-back, after the last point, writes the statistics: block (0, 0) of the [2, 80] array is the array. -/
theorem flushed3_eq (c : Dev nD) (t : Fin cfg3.N) (hf : (cfg3.win 1).flush t = true) :
    (dat3 V O Rc c).flushed 1 t = ((cfg3.win 1).blk t).view.read (Elt F) (statsOf (xarr V c)) := by
  have hN : cfg3.N = 8 := N_3
  have h7 : t.val = 7 := by have := (flush3_1 t).mp hf; have := t.isLt; omega
  obtain rfl : t = t3_7 := Fin.ext h7
  show (cfg3.win 1).cut (grid3.coords t3_7) ((dat3 V O Rc c).after 1 t3_7) = _
  rw [after3_1, outsAt3_eq]
  have hz' : (fun a => win3_1.index t3_7 a * main_v26.ty.shape.size a) = fun _ => 0 := funext fun a => by fin_cases a <;> decide
  exact (Memref.read_access_unit_zero (Elt F) main_v26 hz' (fun a => by rw [congrFun hz' a]; simp) (statsOf (xarr V c))).symm

/-- THE RESULT ARRAY after the region: the statistics of the input array as the region found it. -/
theorem stats_eq (c : Dev nD) : (dat3 V O Rc c).arrAt 1 cfg3.N = statsOf (V c main_v25) :=
  (dat3 V O Rc c).arrAt_eq_of_cover 1 (statsOf (xarr V c)) (flushed3_eq V O Rc c) fun i =>
    ⟨t3_7, (flush3_1 t3_7).mpr rfl, by
      show i ∈ ((View.whole main_v26).slice (win3_1.rect t3_7)).set
      rw [View.set_slice_whole, Rect.mem_set_unit]
      intro a
      have h0 : (i 0 : Nat) < 2 := (i 0).isLt
      have h1 : (i 1 : Nat) < 80 := (i 1).isLt
      match a with
      | ⟨0, _⟩ => show win3_1.index t3_7 0 * win3_1.size 0 ≤ (i 0 : Nat) ∧ (i 0 : Nat) < win3_1.index t3_7 0 * win3_1.size 0 + win3_1.xsize (grid3.coords t3_7) 0
                  rw [show win3_1.index t3_7 0 * win3_1.size 0 = 0 from by decide +kernel, show win3_1.xsize (grid3.coords t3_7) 0 = 2 from by decide +kernel]; omega
      | ⟨1, _⟩ => show win3_1.index t3_7 1 * win3_1.size 1 ≤ (i 1 : Nat) ∧ (i 1 : Nat) < win3_1.index t3_7 1 * win3_1.size 1 + win3_1.xsize (grid3.coords t3_7) 1
                  rw [show win3_1.index t3_7 1 * win3_1.size 1 = 0 from by decide +kernel, show win3_1.xsize (grid3.coords t3_7) 1 = 80 from by decide +kernel]; omega⟩

end Bridge

end Cert.Proof.KI.R3

end
-- ==== Proof.KernelValueKI.lean ====
/-
  The kernel's result read at an index.

  @main is six stretches of host operations around five calls. Each stretch only moves data (reshapes, a slice,
  a concatenation with zero rows), so read at an index it is the stretch's input at an index with the same
  row-major position; each call replaces its result array by a named function of its input arrays. Chaining the
  two, index by index: the result at (0, o, x, y) is the normalised array at (o, 200 x + y); the normalisation's
  inputs are the feature rows, their statistics, the scale and the shift; feature row r is the sum of the four
  table rows at the addresses of voxels 4 r … 4 r + 3; the table is the channel contraction of the camera
  features with the weights, zero off the six camera planes; the address of a voxel is the address region's word
  at its grid point and lane (that last step, and the statistics, are read in a sibling module).
-/
import proofs.«207241_g55714315764006_cont_9to1c4b_410_29_alg».proof.Proof.ChainKI
import proofs.«207241_g55714315764006_cont_9to1c4b_410_29_alg».proof.Proof.KeptKI
import proofs.«207241_g55714315764006_cont_9to1c4b_410_29_alg».proof.Proof.Region3Value
import Idealize.ShloMosaic.Lib.Pipeline.Value
import Idealize.ShloMosaic.Lib.Pipeline.Cells
import Idealize.ShloMosaic.Lib.ValueIdx
import Idealize.ShloMosaic.Lib.StableHlo.Run

noncomputable section

namespace Cert.Proof.KI

open Cert.KernelIdeal Cert.KernelIdeal.Gen Cert.Proof.KI.Ops
open Idealize.ShloMosaic Idealize.ShloMosaic.TcCoe
open Idealize.ShloMosaic.ValueIdx
open Idealize.ShloMosaic.StableHlo (after)

variable {F : FTy → Type} [FloatOps F]

/-! # The host stretches read at an index, from any valuation -/

/-- The last stretch read at an index: the result array at (0, o, x, y) is the normalised array at (o, 200 x + y)
    (a slice of the first 40000 columns, then the columns laid out as a 200 by 200 grid). -/
theorem ops5_out (X : Valuation τ sig (Elt F)) (o : Fin 80) (ix iy : Fin 200) :
    after (ops5 (F := F)) X (Proc.devRef .tc main_v33) (ix4 (0 : Fin 1) o ix iy)
      = X (Proc.devRef .tc main_v31) (ix2 o ⟨200 * ix.val + iy.val, by have := ix.isLt; have := iy.isLt; omega⟩) := by
  have hx := ix.isLt
  have hy := iy.isLt
  after_results
  show shapeCast S1x80x200x200 (extractStridedSlice S80x40000 ![0, 0] (X (Proc.devRef .tc main_v31)) slices_S80x40960_S80x40000_0_0)
      shapeCasts_S80x40000_S1x80x200x200 (ix4 (0 : Fin 1) o ix iy) = _
  refine (shapeCast_apply _ _ (ix4 (0 : Fin 1) o ix iy) (ix2 o ⟨200 * ix.val + iy.val, by omega⟩)
    (by rw [Shape.rowMajor_val_two, Shape.rowMajor_val_four]
        show o.val * 40000 + (200 * ix.val + iy.val) = (((0 : ℕ) * 80 + o.val) * 200 + ix.val) * 200 + iy.val
        omega)).trans ?_
  exact extractStridedSlice_apply _ _ _ _ (ix2 o ⟨200 * ix.val + iy.val, by omega⟩)
    (fun a => match a with
      | ⟨0, _⟩ => by show o.val = 0 + o.val; omega
      | ⟨1, _⟩ => by show 200 * ix.val + iy.val = 0 + (200 * ix.val + iy.val); omega)

/-- The stretch before the statistics region read at an index: row 1250 w + 250 p + r of the feature array is row
    (w, p, r) of the gathered array (the same row-major position). -/
theorem ops3_bev (X : Valuation τ sig (Elt F)) (w : Fin 32) (p : Fin 5) (r : Fin 250) (o : Fin 80) :
    after (ops3 (F := F)) X (Proc.devRef .tc main_v25)
        (ix2 ⟨1250 * w.val + 250 * p.val + r.val, by have := w.isLt; have := p.isLt; have := r.isLt; omega⟩ o)
      = X (Proc.devRef .tc main_v24) (ix4 w p r o) := by
  have hw := w.isLt
  have hp := p.isLt
  have hr := r.isLt
  after_results
  show shapeCast S40000x80 (X (Proc.devRef .tc main_v24)) shapeCasts_S32x5x250x80_S40000x80
      (ix2 ⟨1250 * w.val + 250 * p.val + r.val, by omega⟩ o) = _
  exact shapeCast_apply _ _ _ (ix4 w p r o)
    (by rw [Shape.rowMajor_val_two, Shape.rowMajor_val_four]
        show ((w.val * 5 + p.val) * 250 + r.val) * 80 + o.val = (1250 * w.val + 250 * p.val + r.val) * 80 + o.val
        omega)

/-! ## Stretch 4: the normalisation region's inputs -/

/-- Below row 40000 the padded feature array is the feature array. -/
theorem ops4_x (X : Valuation τ sig (Elt F)) (r : Fin 40000) (o : Fin 80) :
    after (ops4 (F := F)) X (Proc.devRef .tc main_v28) (ix2 ⟨r.val, by have := r.isLt; omega⟩ o)
      = X (Proc.devRef .tc main_v25) (ix2 r o) := by
  have hr := r.isLt
  after_results
  exact concatenate_pair_apply_left (t := S40960x80) (s₁ := S40000x80) (s₂ := S960x80) 0 _ _
    concatenates_S40000x80_S960x80_S40960x80_d0 (ix2 ⟨r.val, by omega⟩ o) rfl (ix2 r o)
    (fun b => match b with | ⟨0, _⟩ => rfl | ⟨1, _⟩ => rfl)

/-- The scale and the shift enter as one-row arrays. -/
theorem ops4_g (X : Valuation τ sig (Elt F)) (o : Fin 80) :
    after (ops4 (F := F)) X (Proc.devRef .tc main_v29) (ix2 (0 : Fin 1) o) = X (Proc.devRef .tc main_arg9) (ix1 o) := by
  after_results
  show shapeCast S1x80 (X (Proc.devRef .tc main_arg9)) shapeCasts_S80_S1x80 (ix2 (0 : Fin 1) o) = _
  exact shapeCast_apply _ _ _ (ix1 o)
    (by rw [Shape.rowMajor_val_one, Shape.rowMajor_val_two]; show o.val = (0 : ℕ) * 80 + o.val; omega)

theorem ops4_b (X : Valuation τ sig (Elt F)) (o : Fin 80) :
    after (ops4 (F := F)) X (Proc.devRef .tc main_v30) (ix2 (0 : Fin 1) o) = X (Proc.devRef .tc main_arg10) (ix1 o) := by
  after_results
  show shapeCast S1x80 (X (Proc.devRef .tc main_arg10)) shapeCasts_S80_S1x80 (ix2 (0 : Fin 1) o) = _
  exact shapeCast_apply _ _ _ (ix1 o)
    (by rw [Shape.rowMajor_val_one, Shape.rowMajor_val_two]; show o.val = (0 : ℕ) * 80 + o.val; omega)

/-! ## Stretch 0: the camera features as the table region reads them -/

/-- Plane j, channel ch, position pos of the features is the argument at (0, j, ch, pos / 176, pos % 176). -/
theorem ops0_feat (X : Valuation τ sig (Elt F)) (j : Fin 6) (ch : Fin 256) (pos : Fin 11264) :
    after (ops0 (F := F)) X (Proc.devRef .tc main_v1) (ix3 j ch pos)
      = X (Proc.devRef .tc main_arg0) (ix5 (0 : Fin 1) j ch ⟨pos.val / 176, by have := pos.isLt; omega⟩ ⟨pos.val % 176, Nat.mod_lt _ (by decide)⟩) := by
  have hj := j.isLt
  have hc := ch.isLt
  have hp := pos.isLt
  after_results
  show shapeCast S6x256x11264 (shapeCast S6x256x64x176 (X (Proc.devRef .tc main_arg0)) shapeCasts_S1x6x256x64x176_S6x256x64x176)
      shapeCasts_S6x256x64x176_S6x256x11264 (ix3 j ch pos) = _
  refine (shapeCast_apply _ _ _ (ix4 j ch ⟨pos.val / 176, by omega⟩ ⟨pos.val % 176, Nat.mod_lt _ (by decide)⟩)
    (by rw [Shape.rowMajor_val_three, Shape.rowMajor_val_four]
        show ((j.val * 256 + ch.val) * 64 + pos.val / 176) * 176 + pos.val % 176 = (j.val * 256 + ch.val) * 11264 + pos.val
        omega)).trans ?_
  exact shapeCast_apply _ _ _ (ix5 (0 : Fin 1) j ch ⟨pos.val / 176, by omega⟩ ⟨pos.val % 176, Nat.mod_lt _ (by decide)⟩)
    (by rw [Shape.rowMajor_val_four, Shape.rowMajor_val_five]
        show (((((0 : ℕ) * 6 + j.val) * 256 + ch.val) * 64 + pos.val / 176) * 176 + pos.val % 176)
          = ((j.val * 256 + ch.val) * 64 + pos.val / 176) * 176 + pos.val % 176
        omega)

/-! ## Stretch 1: the table as the gather call reads it -/

/-- Row 11264 j + pos of the table is plane j, position pos of the table region's result. -/
theorem ops1_tab (X : Valuation τ sig (Elt F)) (j : Fin 7) (pos : Fin 11264) (l : Fin 128) :
    after (ops1 (F := F)) X (Proc.devRef .tc main_v3)
        (ix2 ⟨11264 * j.val + pos.val, by have := j.isLt; have := pos.isLt; omega⟩ l)
      = X (Proc.devRef .tc main_v2) (ix3 j pos l) := by
  have hj := j.isLt
  have hp := pos.isLt
  after_results
  show shapeCast S78848x128 (X (Proc.devRef .tc main_v2)) shapeCasts_S7x11264x128_S78848x128
      (ix2 ⟨11264 * j.val + pos.val, by omega⟩ l) = _
  exact shapeCast_apply _ _ _ (ix3 j pos l)
    (by rw [Shape.rowMajor_val_two, Shape.rowMajor_val_three]
        show (j.val * 11264 + pos.val) * 128 + l.val = (11264 * j.val + pos.val) * 128 + l.val
        omega)

/-! # Along the chain: the result, the normalisation's inputs, the feature rows -/

section Chain

variable [∀ e, Nonempty (Elt F e)]
variable (m : (ℓ : Loc nD τ sig) → Buf (Elt F) ℓ) (d : Dev nD)

/-- THE RESULT AT AN INDEX: entry (0, o, x, y) is the normalised array of the normalisation region's four inputs
    at (o, 200 x + y). -/
theorem out_apply (o : Fin 80) (ix iy : Fin 200) :
    Wf m (Rf m) (Gf m) d (Proc.devRef .tc main_v33) (ix4 (0 : Fin 1) o ix iy)
      = R4.normOf (Ee m d (Proc.devRef .tc main_v28)) (Ee m d (Proc.devRef .tc main_v26))
          (Ee m d (Proc.devRef .tc main_v29)) (Ee m d (Proc.devRef .tc main_v30))
          (ix2 o ⟨200 * ix.val + iy.val, by have := ix.isLt; have := iy.isLt; omega⟩) := by
  have e : Wf m (Rf m) (Gf m) d = after (ops5 (F := F)) (X4 m d) := rfl
  rw [e, ops5_out]
  have h : X4 m d (Proc.devRef .tc main_v31) = A4 (Ee m) d 4 := Wx4_arr (Ee m) d 4
  rw [h]
  rfl

/-- The statistics region leaves its input, the feature array, as entered. -/
theorem X3_x : X3 m d (Proc.devRef .tc main_v25) = Ed m d (Proc.devRef .tc main_v25) :=
  (Wx3_arr (Ed m) d 0).trans
    ((R3.dat3 (Vof (Ed m d)) ((K (F := F)).Otc d 1) (Rcn (F := F) d 1) d).arrAt_in 0 rfl cfg3.N)

/-- The normalisation's first input below row 40000 is the feature array; -/
theorem Ee_x (r : Fin 40000) (o : Fin 80) :
    Ee m d (Proc.devRef .tc main_v28) (ix2 ⟨r.val, by have := r.isLt; omega⟩ o) = Ed m d (Proc.devRef .tc main_v25) (ix2 r o) := by
  have e : Ee m d = after (ops4 (F := F)) (X3 m d) := rfl
  rw [e, ops4_x, X3_x]

/-- its third and fourth the scale and the shift as the statistics region left them (its second, the statistics of
    the feature array, is read in a sibling module), -/
theorem Ee_g (o : Fin 80) :
    Ee m d (Proc.devRef .tc main_v29) (ix2 (0 : Fin 1) o) = X3 m d (Proc.devRef .tc main_arg9) (ix1 o) := by
  have e : Ee m d = after (ops4 (F := F)) (X3 m d) := rfl
  rw [e, ops4_g]

theorem Ee_b (o : Fin 80) :
    Ee m d (Proc.devRef .tc main_v30) (ix2 (0 : Fin 1) o) = X3 m d (Proc.devRef .tc main_arg10) (ix1 o) := by
  have e : Ee m d = after (ops4 (F := F)) (X3 m d) := rfl
  rw [e, ops4_b]

/-- which, the two arguments being kept along the chain, are the launch memory's. -/
theorem Ee_g_arg (h9 : X3 m d (Proc.devRef .tc main_arg9) = m (d, Proc.devRef .tc main_arg9)) (o : Fin 80) :
    Ee m d (Proc.devRef .tc main_v29) (ix2 (0 : Fin 1) o) = m (d, Proc.devRef .tc main_arg9) (ix1 o) := by
  rw [Ee_g, h9]

theorem Ee_b_arg (h10 : X3 m d (Proc.devRef .tc main_arg10) = m (d, Proc.devRef .tc main_arg10)) (o : Fin 80) :
    Ee m d (Proc.devRef .tc main_v30) (ix2 (0 : Fin 1) o) = m (d, Proc.devRef .tc main_arg10) (ix1 o) := by
  rw [Ee_b, h10]

/-- FEATURE ROW 1250 w + 250 p + r is row (w, p, r) of the gathered array. -/
theorem bev_coords (w : Fin 32) (p : Fin 5) (r : Fin 250) (o : Fin 80) :
    Ed m d (Proc.devRef .tc main_v25)
        (ix2 ⟨1250 * w.val + 250 * p.val + r.val, by have := w.isLt; have := p.isLt; have := r.isLt; omega⟩ o)
      = Sc.gathered (tabOf (Ec m)) (adrOf (Ec m)) d (ix4 w p r o) := by
  have e : Ed m d = after (ops3 (F := F)) (X2 m d) := rfl
  rw [e, ops3_bev]
  have h : X2 m d (Proc.devRef .tc main_v24) = Sc.gathered (tabOf (Ec m)) (adrOf (Ec m)) d := Wsc_o (Ec m) d
  rw [h]

/-- FEATURE ROW r, by its own number: slab r / 1250, plane (r % 1250) / 250, row r % 250. -/
theorem bev_apply (r : Fin 40000) (o : Fin 80) :
    Ed m d (Proc.devRef .tc main_v25) (ix2 r o)
      = Sc.gathered (tabOf (Ec m)) (adrOf (Ec m)) d
          (ix4 (⟨r.val / 1250, by have := r.isLt; omega⟩ : Fin 32) (⟨r.val % 1250 / 250, by have := r.isLt; omega⟩ : Fin 5)
            (⟨r.val % 250, Nat.mod_lt _ (by decide)⟩ : Fin 250) o) := by
  have hr := r.isLt
  rw [← bev_coords]
  congr 2
  exact Fin.ext (by show r.val = 1250 * (r.val / 1250) + 250 * (r.val % 1250 / 250) + r.val % 250; omega)

end Chain

/-! # Along the chain: the table the gather call reads -/

section Table

variable [∀ e, Nonempty (Elt F e)]
variable (m : (ℓ : Loc nD τ sig) → Buf (Elt F) ℓ) (d : Dev nD)

/-- The gather call reads the table as the address region was entered with it: neither that region nor the
    stretch before the call writes it. -/
theorem tabOf_eq : tabOf (Ec m) d = Eb m d (Proc.devRef .tc main_v3) := by
  unfold tabOf
  have e : Ec m d = after (ops2 (F := F)) (X1 m d) := rfl
  rw [e]
  have h1 : after (ops2 (F := F)) (X1 m d) (Proc.devRef .tc main_v3) = X1 m d (Proc.devRef .tc main_v3) := by after_results
  refine h1.trans ?_
  exact Wx1_of_ne (Eb m) d main_v3 (by decide)

/-- Row 11264 j + pos of that table is plane j, position pos of the table region's result, the table of the
    features and the weights the region was entered with. -/
theorem Eb_tab (j : Fin 7) (pos : Fin 11264) (l : Fin 128) :
    Eb m d (Proc.devRef .tc main_v3) (ix2 ⟨11264 * j.val + pos.val, by have := j.isLt; have := pos.isLt; omega⟩ l)
      = R0.tableOf (Ea m d (Proc.devRef .tc main_v1)) (Ea m d (Proc.devRef .tc main_arg7)) (ix3 j pos l) := by
  have e : Eb m d = after (ops1 (F := F)) (X0 m d) := rfl
  rw [e, ops1_tab]
  have h : X0 m d (Proc.devRef .tc main_v2)
      = R0.tableOf (Ea m d (Proc.devRef .tc main_v1)) (Ea m d (Proc.devRef .tc main_arg7)) :=
    (Wx0_arr (Ea m) d 2).trans (R0.table_eq (Vof (Ea m d)) ((K (F := F)).Otc d 0) (Rcn (F := F) d 0) d)
  rw [h]

/-- The features the table region is entered with are the first argument, its two image axes flattened; -/
theorem Ea_feat (j : Fin 6) (ch : Fin 256) (pos : Fin 11264) :
    Ea m d (Proc.devRef .tc main_v1) (ix3 j ch pos)
      = m (d, Proc.devRef .tc main_arg0)
          (ix5 (0 : Fin 1) j ch ⟨pos.val / 176, by have := pos.isLt; omega⟩ ⟨pos.val % 176, Nat.mod_lt _ (by decide)⟩) := by
  have e : Ea m d = after (ops0 (F := F)) (W0 m d) := rfl
  rw [e, ops0_feat]
  rfl

/-- the weights are the argument untouched. -/
theorem Ea_w : Ea m d (Proc.devRef .tc main_arg7) = m (d, Proc.devRef .tc main_arg7) := by
  have e : Ea m d = after (ops0 (F := F)) (W0 m d) := rfl
  rw [e]
  have h : after (ops0 (F := F)) (W0 m d) (Proc.devRef .tc main_arg7) = W0 m d (Proc.devRef .tc main_arg7) := by after_results
  exact h

/-- Off the six camera planes and the 80 columns the table the gather call reads is the zero word. -/
theorem tab_of_not (j : Fin 7) (pos : Fin 11264) (l : Fin 128) (h : ¬(j.val < 6 ∧ l.val < 80)) :
    tabOf (Ec m) d (ix2 ⟨11264 * j.val + pos.val, by have := j.isLt; have := pos.isLt; omega⟩ l) = Scalar.ofBits .f32 0x00000000#32 := by
  rw [tabOf_eq, Eb_tab]
  exact R0.tableOf_of_not _ _ _ h

end Table

/-- AT THE IDEAL VALUES, row 11264 j + pos, column o of the table the gather call reads is the channels' sum of
    products of the first argument at (0, j, ch, pos / 176, pos % 176) with the weight argument at (o, ch). -/
theorem tab_apply [∀ e, Nonempty (Elt Ideal e)] (m : (ℓ : Loc nD τ sig) → Buf (Elt Ideal) ℓ) (d : Dev nD)
    (j : Fin 6) (pos : Fin 11264) (o : Fin 80) :
    @Eq EReal
      (tabOf (Ec m) d (ix2 ⟨11264 * j.val + pos.val, by have := j.isLt; have := pos.isLt; omega⟩ ⟨o.val, by have := o.isLt; omega⟩))
      (∑ ch : Fin 256, @HMul.hMul EReal EReal EReal instHMul
        (m (d, Proc.devRef .tc main_arg0)
          (ix5 (0 : Fin 1) j ch ⟨pos.val / 176, by have := pos.isLt; omega⟩ ⟨pos.val % 176, Nat.mod_lt _ (by decide)⟩))
        (m (d, Proc.devRef .tc main_arg7) (ix2 o ch))) := by
  have hj := j.isLt
  rw [tabOf_eq, Eb_tab m d ⟨j.val, by omega⟩ pos ⟨o.val, by have := o.isLt; omega⟩]
  refine (R0.tableOf_apply _ _ j pos o).trans ?_
  refine Finset.sum_congr rfl fun ch _ => ?_
  rw [Ea_feat, Ea_w]

/-! # The scale and the shift are the launch memory's -/

section Kept

variable [∀ e, Nonempty (Elt F e)]
variable (m : (ℓ : Loc nD τ sig) → Buf (Elt F) ℓ) (d : Dev nD)

/-- A reference that no stretch writes, that is no array of the first three pipelines nor the gather call's result,
    holds when the normalisation's stretch begins what it held at launch. -/
theorem X3_kept (r : Ref sig .tc) (hh : HostKept r) (h0 : ∀ w, Pipeline.arrRef spec0 w ≠ r)
    (h1 : ∀ w, Pipeline.arrRef spec1 w ≠ r) (h3 : ∀ w, Pipeline.arrRef spec3 w ≠ r) (ho : r ≠ main_v24) :
    X3 m d (Proc.devRef .tc r) = m (d, Proc.devRef .tc r) := by
  obtain ⟨k0, k1, k2, k3, _, _⟩ := hh
  exact (Wx3_of_ne (Ed m) d r h3).trans <|
    (StableHlo.after_of_writes_sub (ops3 (F := F)) (X2 m d) ops3_writes k3).trans <|
    (Wsc_of_ne (Ec m) d r ho).trans <|
    (StableHlo.after_of_writes_sub (ops2 (F := F)) (X1 m d) ops2_writes k2).trans <|
    (Wx1_of_ne (Eb m) d r h1).trans <|
    (StableHlo.after_of_writes_sub (ops1 (F := F)) (X0 m d) ops1_writes k1).trans <|
    (Wx0_of_ne (Ea m) d r h0).trans <|
    (StableHlo.after_of_writes_sub (ops0 (F := F)) (W0 m d) ops0_writes k0)

theorem X3_arg9 : X3 m d (Proc.devRef .tc main_arg9) = m (d, Proc.devRef .tc main_arg9) :=
  X3_kept m d main_arg9 (hostKept_args _ (by decide)) (not_arr0 _ (by decide)) (not_arr1 _ (by decide)).1
    (not_arr1 _ (by decide)).2.1 (not_arr1 _ (by decide)).2.2.2

theorem X3_arg10 : X3 m d (Proc.devRef .tc main_arg10) = m (d, Proc.devRef .tc main_arg10) :=
  X3_kept m d main_arg10 (hostKept_args _ (by decide)) (not_arr0 _ (by decide)) (not_arr1 _ (by decide)).1
    (not_arr1 _ (by decide)).2.1 (not_arr1 _ (by decide)).2.2.2

/-- So the normalisation's scale and shift are the two arguments as launched. -/
theorem Ee_g_launch (o : Fin 80) :
    Ee m d (Proc.devRef .tc main_v29) (ix2 (0 : Fin 1) o) = m (d, Proc.devRef .tc main_arg9) (ix1 o) :=
  Ee_g_arg m d (X3_arg9 m d) o

theorem Ee_b_launch (o : Fin 80) :
    Ee m d (Proc.devRef .tc main_v30) (ix2 (0 : Fin 1) o) = m (d, Proc.devRef .tc main_arg10) (ix1 o) :=
  Ee_b_arg m d (X3_arg10 m d) o

end Kept

/-! # The gathered entry, spelled out -/

section Gathered

/-- The table's and the address array's indices by coordinates. -/
theorem tIx_eq (r : Fin 78848) (l : Fin 128) : Sc.tIx r l = ix2 r l := by
  funext a; match a with | ⟨0, _⟩ => rfl | ⟨1, _⟩ => rfl
theorem aIx_eq (w : Fin 32) (k : Fin 250) (j : Fin 20) : Sc.aIx w k j = ix3 w k j := by
  funext a; match a with | ⟨0, _⟩ => rfl | ⟨1, _⟩ => rfl | ⟨2, _⟩ => rfl

variable (tab : (d : Dev nD) → Buf (Elt F) (Sc.tLoc d)) (adr : (d : Dev nD) → Buf (Elt F) (Sc.aLoc d)) (d : Dev nD)

/-- The row an address names, at a lane: the table at (address mod 78848, lane). -/
theorem rowAt_apply (w : Fin 32) (k : Fin 250) (j : Fin 20) (l : Fin 128) :
    Sc.rowAt tab adr d w k j l = tab d (ix2 ⟨(adr d (ix3 w k j)).toNat % 78848, Nat.mod_lt _ (by decide)⟩ l) := by
  unfold Sc.rowAt
  rw [tIx_eq]
  simp only [aIx_eq]

/-- Entry (w, p, r, o) of the gathered array: ((t₀ + t₁) + (t₂ + t₃)), tⱼ lane o of the row that address
    4 (r % 5) + j of chunk 50 p + r / 5 of slab w names. -/
theorem gathered_apply (w : Fin 32) (p : Fin 5) (r : Fin 250) (o : Fin 80) :
    Sc.gathered tab adr d (ix4 w p r o)
      = FloatOps.addf (φ := .f32)
          (FloatOps.addf (φ := .f32)
            (Sc.rowAt tab adr d w ⟨50 * p.val + r.val / 5, by have := p.isLt; have := r.isLt; omega⟩
              ⟨4 * (r.val % 5) + 0, by omega⟩ ⟨o.val, by have := o.isLt; omega⟩)
            (Sc.rowAt tab adr d w ⟨50 * p.val + r.val / 5, by have := p.isLt; have := r.isLt; omega⟩
              ⟨4 * (r.val % 5) + 1, by omega⟩ ⟨o.val, by have := o.isLt; omega⟩))
          (FloatOps.addf (φ := .f32)
            (Sc.rowAt tab adr d w ⟨50 * p.val + r.val / 5, by have := p.isLt; have := r.isLt; omega⟩
              ⟨4 * (r.val % 5) + 2, by omega⟩ ⟨o.val, by have := o.isLt; omega⟩)
            (Sc.rowAt tab adr d w ⟨50 * p.val + r.val / 5, by have := p.isLt; have := r.isLt; omega⟩
              ⟨4 * (r.val % 5) + 3, by omega⟩ ⟨o.val, by have := o.isLt; omega⟩)) := rfl

/-- The four addresses of feature row r sit at positions 4 r … 4 r + 3 of the address array: slab r / 1250, chunk
    50 ((r % 1250) / 250) + (r % 250) / 5, address 4 ((r % 250) % 5) + j. -/
theorem voxel_pos (r : Fin 40000) (j : Fin 4) :
    (250 * (r.val / 1250) + (50 * (r.val % 1250 / 250) + r.val % 250 / 5)) * 20 + (4 * (r.val % 250 % 5) + j.val)
      = 4 * r.val + j.val := by
  have := r.isLt
  omega

end Gathered

/-! # A feature row as four table rows -/

section Rows

variable [∀ e, Nonempty (Elt F e)]
variable (m : (ℓ : Loc nD τ sig) → Buf (Elt F) ℓ) (d : Dev nD)

/-- Lane o of the table row that the address of voxel 4 r + j names (position 4 r + j of the address array:
    `voxel_pos`). -/
def vrow (r : Fin 40000) (o : Fin 80) (j : Fin 4) : Elt F .f32 :=
  tabOf (Ec m) d
    (ix2 ⟨(adrOf (Ec m) d
            (ix3 (⟨r.val / 1250, by have := r.isLt; omega⟩ : Fin 32)
              (⟨50 * (r.val % 1250 / 250) + r.val % 250 / 5, by have := r.isLt; omega⟩ : Fin 250)
              (⟨4 * (r.val % 250 % 5) + j.val, by have := j.isLt; omega⟩ : Fin 20))).toNat % 78848,
          Nat.mod_lt _ (by decide)⟩
      (⟨o.val, by have := o.isLt; omega⟩ : Fin 128))

/-- FEATURE ROW r, lane o, is ((t₀ + t₁) + (t₂ + t₃)), tⱼ the table row at the address of voxel 4 r + j. -/
theorem bev_rows (r : Fin 40000) (o : Fin 80) :
    Ed m d (Proc.devRef .tc main_v25) (ix2 r o)
      = FloatOps.addf (φ := .f32)
          (FloatOps.addf (φ := .f32) (vrow m d r o 0) (vrow m d r o 1))
          (FloatOps.addf (φ := .f32) (vrow m d r o 2) (vrow m d r o 3)) := by
  rw [bev_apply, gathered_apply]
  simp only [rowAt_apply]
  rfl

end Rows

end Cert.Proof.KI

end
-- ==== Proof.KernelValue2KI.lean ====
/-
  Two readings of @main's chain of valuations, for the kernel's value.

  The statistics the normalisation region reads are the statistics of the array the gather call's result is
  reshaped to: the statistics region leaves them in its result array, and the stretch between the two regions
  writes neither.

  An address the gather kernel reads is an address the address region computed: the array the kernel reads is a
  reshape of the region's result, so its entry (w, k, j) is the result's entry at the same row-major position.
-/
import proofs.«207241_g55714315764006_cont_9to1c4b_410_29_alg».proof.Proof.ChainKI
import proofs.«207241_g55714315764006_cont_9to1c4b_410_29_alg».proof.Proof.KeptKI
import proofs.«207241_g55714315764006_cont_9to1c4b_410_29_alg».proof.Proof.Region3Value
import proofs.«207241_g55714315764006_cont_9to1c4b_410_29_alg».proof.Proof.Region1
import Idealize.ShloMosaic.Lib.Pipeline.Value
import Idealize.ShloMosaic.Lib.ValueIdx
import Idealize.ShloMosaic.Lib.StableHlo.Run

noncomputable section

namespace Cert.Proof.KI

open Cert.KernelIdeal Cert.KernelIdeal.Gen Cert.Proof.KI.Ops

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.Sem
open Idealize.ShloMosaic.StableHlo (held seq after)

variable {F : FTy → Type} [FloatOps F]

section Chain

variable (m : (ℓ : Loc nD τ sig) → Buf (Elt F) ℓ)

/-! ## The statistics the normalisation reads -/

/-- What the statistics region leaves in its result array: the statistics of the array it was entered with. -/
theorem X3_stats (d : Dev nD) : X3 m d (Proc.devRef .tc main_v26) = R3.statsOf (Ed m d (Proc.devRef .tc main_v25)) :=
  (Wx3_arr (Ed m) d 1).trans (R3.stats_eq (Vof (Ed m d)) ((K (F := F)).Otc d 1) (Rcn (F := F) d 1) d)

/-- THE STATISTICS INPUT of the normalisation region: the stretch before it writes neither array. -/
theorem stats_input (d : Dev nD) : Ee m d (Proc.devRef .tc main_v26) = R3.statsOf (Ed m d (Proc.devRef .tc main_v25)) :=
  (StableHlo.after_of_writes_sub (ops4 (F := F)) (X3 m d) ops4_writes (by decide)).trans (X3_stats m d)

/-- (The same, under the name of the region's entry valuation.) -/
theorem Ee_st (d : Dev nD) : Ee m d (Proc.devRef .tc main_v26) = R3.statsOf (Ed m d (Proc.devRef .tc main_v25)) :=
  stats_input m d

/-! ## The addresses the gather kernel reads -/

/-- The array the gather call reads is the reshape of the address region's result array. -/
theorem adr_reshape (W : Valuation τ sig (Elt F)) :
    after (ops2 (F := F)) W aRef
      = fun i => shapeCast S32x250x20 (W (Proc.devRef .tc main_v22)) shapeCasts_S8x1x20000_S32x250x20 i := by
  show after (ops2 (F := F)) W (Proc.devRef .tc main_v23) = _
  simp only [StableHlo.after_cons, StableHlo.after_nil]
  rw [StableHlo.reshape_result]
  rfl

/-- What the address region leaves in its result array: the address array of the three arrays it read. -/
theorem X1_addr (d : Dev nD) :
    X1 m d (Proc.devRef .tc main_v22)
      = R1.addrOf (Eb m d (Proc.devRef .tc main_v7)) (Eb m d (Proc.devRef .tc main_v18)) (Eb m d (Proc.devRef .tc main_v21)) :=
  (Wx1_arr (Eb m) d 3).trans (R1.addr_eq (Vof (Eb m d)) ((K (F := F)).Otc d 0) (Rcn (F := F) d 0) d)

/-- THE ADDRESS at index i = (worker, chunk, lane): the address region's entry (a, 0, b) at the same row-major position,
    20000 a + b = 5000 i₀ + 20 i₁ + i₂. -/
theorem adr_apply (d : Dev nD) (i : S32x250x20.Idx) (a : Fin 8) (b : Fin 20000)
    (hab : a.val * 20000 + b.val = (i 0).val * 5000 + (i 1).val * 20 + (i 2).val) :
    adrOf (Ec m) d i
      = R1.addrOf (Eb m d (Proc.devRef .tc main_v7)) (Eb m d (Proc.devRef .tc main_v18)) (Eb m d (Proc.devRef .tc main_v21))
          (ix3 a (0 : Fin 1) b) := by
  show after (ops2 (F := F)) (X1 m d) aRef i = _
  rw [adr_reshape, X1_addr]
  refine shapeCast_apply _ shapeCasts_S8x1x20000_S32x250x20 i (ix3 a (0 : Fin 1) b) ?_
  rw [Shape.rowMajor_val_three, Shape.rowMajor_val_three]
  have e1 : (a.val * 1 + 0) * 20000 = a.val * 20000 := by ring
  have e2 : ((i 0).val * 250 + (i 1).val) * 20 = (i 0).val * 5000 + (i 1).val * 20 := by ring
  exact (congrArg (· + b.val) e1).trans (hab.trans (congrArg (· + (i 2).val) e2).symm)

/-- The same with the position divided out: address j of chunk k of worker w is the region's entry at voxel
    n = (250 w + k) 20 + j, row n / 20000, lane n % 20000. -/
theorem adr_apply_divmod (d : Dev nD) (w : Fin 32) (k : Fin 250) (j : Fin 20) :
    adrOf (Ec m) d (ix3 w k j)
      = R1.addrOf (Eb m d (Proc.devRef .tc main_v7)) (Eb m d (Proc.devRef .tc main_v18)) (Eb m d (Proc.devRef .tc main_v21))
          (ix3 ⟨((250 * w.val + k.val) * 20 + j.val) / 20000, by have := w.isLt; have := k.isLt; have := j.isLt; omega⟩ (0 : Fin 1)
            ⟨((250 * w.val + k.val) * 20 + j.val) % 20000, Nat.mod_lt _ (by decide)⟩) :=
  adr_apply m d (ix3 w k j) _ _ ((Nat.div_add_mod' _ 20000).trans
    (show (250 * w.val + k.val) * 20 + j.val = w.val * 5000 + k.val * 20 + j.val by ring))

end Chain

end Cert.Proof.KI

end
-- ==== Proof.Region1Lane.lean ====
/-
  THE VOXEL ADDRESSES, READ AT A LANE.

  Each of the six cameras' steps is a select, per lane, of the camera's row number over the address so far, under the camera's
  test. Here the step's ingredients are named — the camera's projection of the voxels' points, the depth row, the pixel's
  column `u` and row `v` as signed words, the test (`0 ≤ u < 176`, `0 ≤ v < 64`, depth positive), the row number
  `base + v·176 + u` — each step is shown to be that select, and the address at a lane is read as the chain of the six selects
  from the zero row 67584: a voxel no camera sees reads the zero row, and a voxel some camera sees reads the row of the LAST
  camera that sees it — the order in which a sequence of per-camera overwrites leaves its result. All of it at any float
  instance.
-/
import proofs.«207241_g55714315764006_cont_9to1c4b_410_29_alg».proof.Proof.Region1

set_option maxRecDepth 16384

noncomputable section

namespace Cert.Proof.KI.R1

open Cert.KernelIdeal Cert.KernelIdeal.Gen
open Idealize.ShloMosaic Idealize.ShloMosaic.TcCoe
open Idealize.SL.Sem

variable {F : FTy → Type} [FloatOps F]

/-! ## One camera's step, named: the pixel words, the test, the row number -/

/-- A camera's projection of the voxels' points, [3, 20000]: the pixel's two numerators and the depth, per lane. -/
def camProj (v87 : FVec F S4x20000 .f32) (p : Vec F S1x3x4 .f32) : FVec F S3x20000 .f32 :=
  matmul dot_S3x4_S4x20000_S3x20000_1_0_0_1_n_n none (shapeCast S3x4 p shapeCasts_S1x3x4_S3x4 : FVec F S3x4 .f32) v87
    (constant S3x20000 .f32 0x00000000#32 : FVec F S3x20000 .f32)

/-- The depth row. -/
def camDepth (v87 : FVec F S4x20000 .f32) (p : Vec F S1x3x4 .f32) : FVec F S1x20000 .f32 :=
  extractStridedSlice S1x20000 ![2, 0] (camProj v87 p) slices_S3x20000_o2_0_S1x20000

/-- The pixel's column `u` as a signed word: numerator over depth, plus the camera's offset `a`, over the stride 4, rounded to
    even, converted. -/
def camU (v87 : FVec F S4x20000 .f32) (p : Vec F S1x3x4 .f32) (a : Elt F .f32) : IVec S1x20000 32 :=
  fptosi 32 (roundeven (divf (addf (divf (extractStridedSlice S1x20000 ![0, 0] (camProj v87 p) slices_S3x20000_o0_0_S1x20000 : FVec F S1x20000 .f32) (camDepth v87 p))
    (broadcast S1x20000 a : FVec F S1x20000 .f32)) (broadcast S1x20000 (Scalar.ofBits .f32 0x40800000#32 : F .f32))))

/-- The pixel's row `v`, likewise from the second numerator and the offset `b`. -/
def camV (v87 : FVec F S4x20000 .f32) (p : Vec F S1x3x4 .f32) (b : Elt F .f32) : IVec S1x20000 32 :=
  fptosi 32 (roundeven (divf (addf (divf (extractStridedSlice S1x20000 ![1, 0] (camProj v87 p) slices_S3x20000_o1_0_S1x20000 : FVec F S1x20000 .f32) (camDepth v87 p))
    (broadcast S1x20000 b : FVec F S1x20000 .f32)) (broadcast S1x20000 (Scalar.ofBits .f32 0x40800000#32 : F .f32))))

/-- The camera's test, per lane: `0 ≤ u`, `0 ≤ v`, `u < 176`, `v < 64` as signed words, and the depth positive. -/
def camOk (v87 : FVec F S4x20000 .f32) (p : Vec F S1x3x4 .f32) (a b : Elt F .f32) : IVec S1x20000 1 :=
  andi (andi (andi (andi (cmpi .sge (camU v87 p a) (broadcast S1x20000 0#32)) (cmpi .sge (camV v87 p b) (broadcast S1x20000 0#32)))
    (cmpi .slt (camU v87 p a) (broadcast S1x20000 176#32))) (cmpi .slt (camV v87 p b) (broadcast S1x20000 64#32)))
    (cmpf .ogt (camDepth v87 p) (broadcast S1x20000 (Scalar.ofBits .f32 0x00000000#32 : F .f32)))

/-- The camera's row number, per lane: `base + v·176 + u`. -/
def camRow (base : BitVec 32) (v87 : FVec F S4x20000 .f32) (p : Vec F S1x3x4 .f32) (a b : Elt F .f32) : IVec S1x20000 32 :=
  addi (addi (broadcast S1x20000 base) (muli (camV v87 p b) (broadcast S1x20000 176#32))) (camU v87 p a)

/-- Each camera's step IS the select of its row number, where its test holds, over the address so far. -/
theorem pay8_eq (v87 : FVec F S4x20000 .f32) (z : BitVec 32) (p : Vec F S1x3x4 .f32) (a b : Elt F .f32) :
    k1_pay8 v87 z p a b = select (camOk v87 p a b) (camRow 0#32 v87 p a b) (broadcast S1x20000 z) := rfl
theorem pay9_eq (v87 : FVec F S4x20000 .f32) (prev : IVec S1x20000 32) (p : Vec F S1x3x4 .f32) (a b : Elt F .f32) :
    k1_pay9 v87 prev p a b = select (camOk v87 p a b) (camRow 11264#32 v87 p a b) prev := rfl
theorem pay10_eq (v87 : FVec F S4x20000 .f32) (prev : IVec S1x20000 32) (p : Vec F S1x3x4 .f32) (a b : Elt F .f32) :
    k1_pay10 v87 prev p a b = select (camOk v87 p a b) (camRow 22528#32 v87 p a b) prev := rfl
theorem pay11_eq (v87 : FVec F S4x20000 .f32) (prev : IVec S1x20000 32) (p : Vec F S1x3x4 .f32) (a b : Elt F .f32) :
    k1_pay11 v87 prev p a b = select (camOk v87 p a b) (camRow 33792#32 v87 p a b) prev := rfl
theorem pay12_eq (v87 : FVec F S4x20000 .f32) (prev : IVec S1x20000 32) (p : Vec F S1x3x4 .f32) (a b : Elt F .f32) :
    k1_pay12 v87 prev p a b = select (camOk v87 p a b) (camRow 45056#32 v87 p a b) prev := rfl
theorem pay13_eq (v87 : FVec F S4x20000 .f32) (prev : IVec S1x20000 32) (p : Vec F S1x3x4 .f32) (a b : Elt F .f32) :
    k1_pay13 v87 prev p a b = select (camOk v87 p a b) (camRow 56320#32 v87 p a b) prev := rfl

/-! ## The six cameras at a grid point, and the chain of their selects at a lane -/

/-- Camera `J`'s test at grid point `i`, from the blocks the body reads: its projection is slice `J`, its offsets the words
    `3 + 2J` and `4 + 2J`. -/
def okAt (i : grid1.Coords) (x0 : Vec F S3x3 .f32) (x1 : Vec F S6x3x4 .f32) (x2 : Vec F S15 .f32) : Fin 6 → IVec S1x20000 1
  | ⟨0, _⟩ => camOk (ptVec i x0 x2) (View.ld x1 rCam0) (wordAt x2 ![3] inb_S15_S1_3) (wordAt x2 ![4] inb_S15_S1_4)
  | ⟨1, _⟩ => camOk (ptVec i x0 x2) (View.ld x1 rCam1) (wordAt x2 ![5] inb_S15_S1_5) (wordAt x2 ![6] inb_S15_S1_6)
  | ⟨2, _⟩ => camOk (ptVec i x0 x2) (View.ld x1 rCam2) (wordAt x2 ![7] inb_S15_S1_7) (wordAt x2 ![8] inb_S15_S1_8)
  | ⟨3, _⟩ => camOk (ptVec i x0 x2) (View.ld x1 rCam3) (wordAt x2 ![9] inb_S15_S1_9) (wordAt x2 ![10] inb_S15_S1_10)
  | ⟨4, _⟩ => camOk (ptVec i x0 x2) (View.ld x1 rCam4) (wordAt x2 ![11] inb_S15_S1_11) (wordAt x2 ![12] inb_S15_S1_12)
  | ⟨5, _⟩ => camOk (ptVec i x0 x2) (View.ld x1 rCam5) (wordAt x2 ![13] inb_S15_S1_13) (wordAt x2 ![14] inb_S15_S1_14)

/-- Camera `J`'s row number at grid point `i`: `J·11264 + v·176 + u`. -/
def rowAt (i : grid1.Coords) (x0 : Vec F S3x3 .f32) (x1 : Vec F S6x3x4 .f32) (x2 : Vec F S15 .f32) : Fin 6 → IVec S1x20000 32
  | ⟨0, _⟩ => camRow 0#32 (ptVec i x0 x2) (View.ld x1 rCam0) (wordAt x2 ![3] inb_S15_S1_3) (wordAt x2 ![4] inb_S15_S1_4)
  | ⟨1, _⟩ => camRow 11264#32 (ptVec i x0 x2) (View.ld x1 rCam1) (wordAt x2 ![5] inb_S15_S1_5) (wordAt x2 ![6] inb_S15_S1_6)
  | ⟨2, _⟩ => camRow 22528#32 (ptVec i x0 x2) (View.ld x1 rCam2) (wordAt x2 ![7] inb_S15_S1_7) (wordAt x2 ![8] inb_S15_S1_8)
  | ⟨3, _⟩ => camRow 33792#32 (ptVec i x0 x2) (View.ld x1 rCam3) (wordAt x2 ![9] inb_S15_S1_9) (wordAt x2 ![10] inb_S15_S1_10)
  | ⟨4, _⟩ => camRow 45056#32 (ptVec i x0 x2) (View.ld x1 rCam4) (wordAt x2 ![11] inb_S15_S1_11) (wordAt x2 ![12] inb_S15_S1_12)
  | ⟨5, _⟩ => camRow 56320#32 (ptVec i x0 x2) (View.ld x1 rCam5) (wordAt x2 ![13] inb_S15_S1_13) (wordAt x2 ![14] inb_S15_S1_14)

/-- Six selects in the cameras' order, the later over the earlier, from `z`. -/
def chain6 (g : Fin 6 → BitVec 1) (r : Fin 6 → BitVec 32) (z : BitVec 32) : BitVec 32 :=
  Scalar.select (g 5) (r 5) (Scalar.select (g 4) (r 4) (Scalar.select (g 3) (r 3) (Scalar.select (g 2) (r 2)
    (Scalar.select (g 1) (r 1) (Scalar.select (g 0) (r 0) z)))))

/-- The chain where no test holds is its start; -/
theorem chain6_none (g : Fin 6 → BitVec 1) (r : Fin 6 → BitVec 32) (z : BitVec 32) (h : ∀ J, g J ≠ 1) : chain6 g r z = z := by
  unfold chain6 Scalar.select
  rw [if_neg (h 5), if_neg (h 4), if_neg (h 3), if_neg (h 2), if_neg (h 1), if_neg (h 0)]

/-- where test `J` holds and no later one does, it is row `J`: the last camera whose test holds wins. -/
theorem chain6_last (g : Fin 6 → BitVec 1) (r : Fin 6 → BitVec 32) (z : BitVec 32) (J : Fin 6) (hJ : g J = 1)
    (hl : ∀ J', J < J' → g J' ≠ 1) : chain6 g r z = r J := by
  unfold chain6 Scalar.select
  match J, hJ, hl with
  | ⟨0, _⟩, hJ, hl =>
    have h0 : g 0 = 1 := hJ
    rw [if_neg (hl 5 (by show (0 : ℕ) < 5; decide)), if_neg (hl 4 (by show (0 : ℕ) < 4; decide)), if_neg (hl 3 (by show (0 : ℕ) < 3; decide)), if_neg (hl 2 (by show (0 : ℕ) < 2; decide)), if_neg (hl 1 (by show (0 : ℕ) < 1; decide)), if_pos h0]; rfl
  | ⟨1, _⟩, hJ, hl =>
    have h0 : g 1 = 1 := hJ
    rw [if_neg (hl 5 (by show (1 : ℕ) < 5; decide)), if_neg (hl 4 (by show (1 : ℕ) < 4; decide)), if_neg (hl 3 (by show (1 : ℕ) < 3; decide)), if_neg (hl 2 (by show (1 : ℕ) < 2; decide)), if_pos h0]; rfl
  | ⟨2, _⟩, hJ, hl =>
    have h0 : g 2 = 1 := hJ
    rw [if_neg (hl 5 (by show (2 : ℕ) < 5; decide)), if_neg (hl 4 (by show (2 : ℕ) < 4; decide)), if_neg (hl 3 (by show (2 : ℕ) < 3; decide)), if_pos h0]; rfl
  | ⟨3, _⟩, hJ, hl =>
    have h0 : g 3 = 1 := hJ
    rw [if_neg (hl 5 (by show (3 : ℕ) < 5; decide)), if_neg (hl 4 (by show (3 : ℕ) < 4; decide)), if_pos h0]; rfl
  | ⟨4, _⟩, hJ, hl =>
    have h0 : g 4 = 1 := hJ
    rw [if_neg (hl 5 (by show (4 : ℕ) < 5; decide)), if_pos h0]; rfl
  | ⟨5, _⟩, hJ, hl =>
    have h0 : g 5 = 1 := hJ
    rw [if_pos h0]; rfl

/-- THE ADDRESS AT A LANE is the chain of the six cameras' selects from the zero row 67584. -/
theorem addrVec_chain (i : grid1.Coords) (x0 : Vec F S3x3 .f32) (x1 : Vec F S6x3x4 .f32) (x2 : Vec F S15 .f32) (k : S1x20000.Idx) :
    addrVec i x0 x1 x2 k = chain6 (fun J => okAt i x0 x1 x2 J k) (fun J => rowAt i x0 x1 x2 J k) 67584#32 := by
  unfold addrVec
  rw [pay13_eq, pay12_eq, pay11_eq, pay10_eq, pay9_eq, pay8_eq]
  rfl

/-- A voxel no camera sees reads the zero row; -/
theorem addrVec_none (i : grid1.Coords) (x0 : Vec F S3x3 .f32) (x1 : Vec F S6x3x4 .f32) (x2 : Vec F S15 .f32) (k : S1x20000.Idx)
    (h : ∀ J, okAt i x0 x1 x2 J k ≠ 1) : addrVec i x0 x1 x2 k = 67584#32 := by
  rw [addrVec_chain]; exact chain6_none _ _ _ h

/-- a voxel some camera sees reads the row of the LAST camera that sees it. -/
theorem addrVec_last (i : grid1.Coords) (x0 : Vec F S3x3 .f32) (x1 : Vec F S6x3x4 .f32) (x2 : Vec F S15 .f32) (k : S1x20000.Idx)
    (J : Fin 6) (hJ : okAt i x0 x1 x2 J k = 1) (hl : ∀ J', J < J' → okAt i x0 x1 x2 J' k ≠ 1) :
    addrVec i x0 x1 x2 k = rowAt i x0 x1 x2 J k := by
  rw [addrVec_chain]; exact chain6_last _ _ _ J hJ hl

end Cert.Proof.KI.R1

end
-- ==== Proof.Region1Voxel.lean ====
/-
  THE VOXEL ADDRESSES: THE LANE NUMBER, DECODED.

  At grid point `i` the body numbers its lanes `n = 20000·i + lane` (`n < 160000`) and splits the number into the voxel's
  integer coordinates: `x = ⌊n / 800⌋`, the rest `r = n − 800·x`, `y = ⌊r / 4⌋`, `z = r − 4·y` — the row-major coordinates of a
  [200, 200, 4] grid. The program computes each floor division as the signed quotient, minus one where the operands' signs differ
  and the remainder is not zero. For a nonnegative dividend and a positive literal divisor the signed quotient and remainder
  are the natural ones and the correction never fires; so as words `x = n / 800`, `r = n % 800`, `y = (n % 800) / 4`,
  `z = n % 4`, whatever the float instance. The rotated point is then restated over these three words: the three rows
  `x·½ − 50 − t₀`, `y·½ − 50 − t₁`, `z·1 − 3.7 − t₂` (`t` the first three offsets), multiplied by the rotation, over a row of ones.
-/
import proofs.«207241_g55714315764006_cont_9to1c4b_410_29_alg».proof.Proof.Region1

set_option maxRecDepth 16384

noncomputable section

namespace Cert.Proof.KI.R1

open Cert.KernelIdeal Cert.KernelIdeal.Gen
open Idealize.ShloMosaic Idealize.ShloMosaic.TcCoe
open Idealize.SL.Sem

variable {F : FTy → Type} [FloatOps F]

/-! ## Signed division of a nonnegative word by a positive literal -/
/-- A word below `2 ^ 31` is nonnegative as a signed number. -/
theorem msb_false_of_lt (x : BitVec 32) (h : x.toNat < 2 ^ 31) : x.msb = false :=
  BitVec.msb_eq_false_iff_two_mul_lt.mpr (by omega)

/-- A positive divisor below `2 ^ 31` is no corner of the signed division. -/
theorem not_corner (x y : BitVec 32) (hy0 : y.toNat ≠ 0) (hy : y.toNat < 2 ^ 31) : ¬ IntOp.SDivCorner x y := by
  unfold IntOp.SDivCorner
  rintro (h | ⟨-, h⟩)
  · subst h; exact hy0 rfl
  · subst h; revert hy; decide

/-- Nonnegative by positive: the signed quotient and remainder are the natural ones. -/
theorem divsi_nonneg (x y : BitVec 32) (hx : x.toNat < 2 ^ 31) (hy0 : y.toNat ≠ 0) (hy : y.toNat < 2 ^ 31) :
    (IntOp.divsi .vector x y).toNat = x.toNat / y.toNat := by
  unfold IntOp.divsi
  rw [if_neg (not_corner x y hy0 hy), BitVec.sdiv_eq, msb_false_of_lt x hx, msb_false_of_lt y hy]
  exact BitVec.toNat_udiv
theorem remsi_nonneg (x y : BitVec 32) (hx : x.toNat < 2 ^ 31) (hy0 : y.toNat ≠ 0) (hy : y.toNat < 2 ^ 31) :
    (IntOp.remsi .vector x y).toNat = x.toNat % y.toNat := by
  unfold IntOp.remsi
  rw [if_neg (not_corner x y hy0 hy), BitVec.srem_eq, msb_false_of_lt x hx, msb_false_of_lt y hy]
  exact BitVec.toNat_umod

/-- The test `a ≠ b` as a word. -/
theorem cmpi_ne (a b : BitVec 32) : IntOp.cmpi .ne a b = 1 ↔ a ≠ b := by
  unfold IntOp.cmpi
  show BitVec.ofBool (a != b) = 1 ↔ _
  cases h : (a != b) <;> simp_all

/-- The sign word of a positive number below `2 ^ 31` is one. -/
theorem sign_pos (x : BitVec 32) (hx : x.toNat < 2 ^ 31) (h0 : x.toNat ≠ 0) :
    IntOp.subi ((IntOp.cmpi .sgt x 0#32).setWidth 32) ((IntOp.cmpi .slt x 0#32).setWidth 32) = 1#32 := by
  have hi : x.toInt = x.toNat := BitVec.toInt_eq_toNat_of_lt (by omega)
  have h1 : (0#32).slt x = true := by rw [BitVec.slt_iff_toInt_lt, hi]; simp; omega
  have h2 : x.slt 0#32 = false := by
    rw [Bool.eq_false_iff]; intro h; rw [BitVec.slt_iff_toInt_lt, hi] at h; simp at h; omega
  unfold IntOp.cmpi IntOp.subi
  show (BitVec.ofBool ((0#32).slt x)).setWidth 32 - (BitVec.ofBool (x.slt 0#32)).setWidth 32 = 1#32
  rw [h1, h2]; decide

/-- FLOOR DIVISION of a nonnegative word by a positive literal: the correction for operands of opposite signs (quotient
    minus one where the signs differ and the remainder is not zero) never fires, and the result is the natural quotient. -/
theorem floordiv_nonneg (x d : BitVec 32) (hx : x.toNat < 2 ^ 31) (hd0 : d.toNat ≠ 0) (hd : d.toNat < 2 ^ 31) :
    Scalar.select (IntOp.andi (IntOp.cmpi .ne (IntOp.subi ((IntOp.cmpi .sgt x 0#32).setWidth 32) ((IntOp.cmpi .slt x 0#32).setWidth 32)) 1#32)
        (IntOp.cmpi .ne (IntOp.remsi .vector x d) 0#32))
      (IntOp.subi (IntOp.divsi .vector x d) 1#32) (IntOp.divsi .vector x d) = BitVec.ofNat 32 (x.toNat / d.toNat) := by
  have hg : ¬ IntOp.andi (IntOp.cmpi .ne (IntOp.subi ((IntOp.cmpi .sgt x 0#32).setWidth 32) ((IntOp.cmpi .slt x 0#32).setWidth 32)) 1#32)
        (IntOp.cmpi .ne (IntOp.remsi .vector x d) 0#32) = 1 := by
    rw [andi_eq_one, cmpi_ne, cmpi_ne]
    rintro ⟨hA, hB⟩
    by_cases h0 : x.toNat = 0
    · apply hB
      apply BitVec.eq_of_toNat_eq
      rw [remsi_nonneg x d hx hd0 hd, h0]; simp
    · exact hA (sign_pos x hx h0)
  unfold Scalar.select
  rw [if_neg hg]
  apply BitVec.eq_of_toNat_eq
  rw [divsi_nonneg x d hx hd0 hd, BitVec.toNat_ofNat]
  have : x.toNat / d.toNat ≤ x.toNat := Nat.div_le_self _ _
  exact (Nat.mod_eq_of_lt (by omega)).symm

/-- What is left after taking the quotient's multiple away is the natural remainder. -/
theorem sub_mul_div (x d : BitVec 32) (hx : x.toNat < 2 ^ 31) (hd0 : d.toNat ≠ 0) (hd : d.toNat < 2 ^ 31) :
    IntOp.subi x (IntOp.muli (BitVec.ofNat 32 (x.toNat / d.toNat)) d) = BitVec.ofNat 32 (x.toNat % d.toNat) := by
  apply BitVec.eq_of_toNat_eq
  unfold IntOp.subi IntOp.muli
  have hq : x.toNat / d.toNat ≤ x.toNat := Nat.div_le_self _ _
  have hqd : x.toNat / d.toNat * d.toNat ≤ x.toNat := Nat.div_mul_le_self _ _
  have hm : (BitVec.ofNat 32 (x.toNat / d.toNat) * d).toNat = x.toNat / d.toNat * d.toNat := by
    rw [BitVec.toNat_mul, BitVec.toNat_ofNat, Nat.mod_eq_of_lt (show x.toNat / d.toNat < 2 ^ 32 by omega)]
    exact Nat.mod_eq_of_lt (by omega)
  have hle : BitVec.ofNat 32 (x.toNat / d.toNat) * d ≤ x := by rw [BitVec.le_def, hm]; exact hqd
  rw [BitVec.toNat_sub_of_le hle, hm, BitVec.toNat_ofNat]
  have h1 : x.toNat / d.toNat * d.toNat + x.toNat % d.toNat = x.toNat := by rw [Nat.mul_comm]; exact Nat.div_add_mod _ _
  have h2 : x.toNat % d.toNat ≤ x.toNat := Nat.mod_le _ _
  rw [Nat.mod_eq_of_lt (show x.toNat % d.toNat < 2 ^ 32 by omega)]
  omega

/-! ## The lane number and the voxel's three coordinates -/

/-- The voxel's number at grid point `i` and lane `k`. -/
def laneNo (i : grid1.Coords) (k : S1x20000.Idx) : ℕ := (i 0).val * 20000 + (k 1).val

theorem laneNo_lt (i : grid1.Coords) (k : S1x20000.Idx) : laneNo i k < 160000 := by
  unfold laneNo
  have h0 : (i 0).val < 8 := (i 0).isLt
  have h1 : (k 1).val < 20000 := (k 1).isLt
  omega

/-- The lane's number as a word. -/
theorem pay2_apply (i : grid1.Coords) (k : S1x20000.Idx) : k1_pay2 i k = BitVec.ofNat 32 (laneNo i k) := by
  unfold laneNo
  show IntOp.addi (Scalar.muli (BitVec.ofNat 32 (i 0).val) 20000#32) (iota .tc S1x20000 32 [1] iota_S1x20000_d1_w32 k) = _
  rw [iota_single_apply, BitVec.ofNat_add, BitVec.ofNat_mul]
  rfl

theorem pay2_toNat (i : grid1.Coords) (k : S1x20000.Idx) : (k1_pay2 i k).toNat = laneNo i k := by
  rw [pay2_apply, BitVec.toNat_ofNat]; exact Nat.mod_eq_of_lt (by have := laneNo_lt i k; omega)

/-- The voxel's `x`: the number over 800. -/
theorem pay3_apply (i : grid1.Coords) (k : S1x20000.Idx) : k1_pay3 i k = BitVec.ofNat 32 (laneNo i k / 800) := by
  have hx := pay2_toNat i k
  have h := floordiv_nonneg (k1_pay2 i k) 800#32 (by rw [hx]; have := laneNo_lt i k; omega) (by decide) (by decide)
  rw [hx] at h
  exact h

/-- The rest after `x`: the number modulo 800. -/
theorem pay4_apply (i : grid1.Coords) (k : S1x20000.Idx) : k1_pay4 i k = BitVec.ofNat 32 (laneNo i k % 800) := by
  have hx := pay2_toNat i k
  have h := sub_mul_div (k1_pay2 i k) 800#32 (by rw [hx]; have := laneNo_lt i k; omega) (by decide) (by decide)
  rw [hx] at h
  show IntOp.subi (k1_pay2 i k) (IntOp.muli (k1_pay3 i k) 800#32) = _
  rw [pay3_apply]
  exact h

theorem pay4_toNat (i : grid1.Coords) (k : S1x20000.Idx) : (k1_pay4 i k).toNat = laneNo i k % 800 := by
  rw [pay4_apply, BitVec.toNat_ofNat]; exact Nat.mod_eq_of_lt (by omega)

/-- The voxel's `y` as the body forms it inside the point's computation: the floor of the rest over 4, -/
def voxY (i : grid1.Coords) : IVec S1x20000 32 :=
  select (andi (cmpi .ne (k1_pay6 i) (broadcast S1x20000 1#32)) (cmpi .ne (remsi (k1_pay4 i) (broadcast S1x20000 4#32)) (broadcast S1x20000 0#32)))
    (subi (k1_pay5 i) (broadcast S1x20000 1#32)) (k1_pay5 i)
/-- and its `z`: what is left of the rest. -/
def voxZ (i : grid1.Coords) : IVec S1x20000 32 := subi (k1_pay4 i) (muli (voxY i) (broadcast S1x20000 4#32))

theorem voxY_apply (i : grid1.Coords) (k : S1x20000.Idx) : voxY i k = BitVec.ofNat 32 (laneNo i k % 800 / 4) := by
  have hx := pay4_toNat i k
  have h := floordiv_nonneg (k1_pay4 i k) 4#32 (by rw [hx]; omega) (by decide) (by decide)
  rw [hx] at h
  exact h

theorem voxZ_apply (i : grid1.Coords) (k : S1x20000.Idx) : voxZ i k = BitVec.ofNat 32 (laneNo i k % 4) := by
  have hx := pay4_toNat i k
  have h := sub_mul_div (k1_pay4 i k) 4#32 (by rw [hx]; omega) (by decide) (by decide)
  rw [hx] at h
  show IntOp.subi (k1_pay4 i k) (IntOp.muli (voxY i k) 4#32) = _
  rw [voxY_apply]
  have e : laneNo i k % 800 % 4 = laneNo i k % 4 := by omega
  rw [← e]
  exact h

/-- The three coordinates are those of a [200, 200, 4] grid in row-major order. -/
theorem vox_bounds (i : grid1.Coords) (k : S1x20000.Idx) :
    laneNo i k / 800 < 200 ∧ laneNo i k % 800 / 4 < 200 ∧ laneNo i k % 4 < 4
      ∧ laneNo i k = (laneNo i k / 800) * 800 + (laneNo i k % 800 / 4) * 4 + laneNo i k % 4 := by
  have := laneNo_lt i k
  omega

/-! ## The rotated point over the three coordinates -/

/-- The voxel's centre less the translation, [3, 20000]: rows `x·½ − 50 − t₀`, `y·½ − 50 − t₁`, `z·1 − 3.7 − t₂`. -/
def voxPt (i : grid1.Coords) (x2 : Vec F S15 .f32) : FVec F S3x20000 .f32 :=
  concatenate S3x20000 0
    [⟨S1x20000, (subf (addf (mulf (sitofp .f32 (k1_pay3 i)) (broadcast S1x20000 (Scalar.ofBits .f32 0x3F000000#32 : F .f32)))
        (broadcast S1x20000 (Scalar.ofBits .f32 0xC2480000#32 : F .f32))) (broadcast S1x20000 (wordAt x2 ![0] inb_S15_S1_0)) : FVec F S1x20000 .f32)⟩,
     ⟨S1x20000, (subf (addf (mulf (sitofp .f32 (voxY i)) (broadcast S1x20000 (Scalar.ofBits .f32 0x3F000000#32 : F .f32)))
        (broadcast S1x20000 (Scalar.ofBits .f32 0xC2480000#32 : F .f32))) (broadcast S1x20000 (wordAt x2 ![1] inb_S15_S1_1)) : FVec F S1x20000 .f32)⟩,
     ⟨S1x20000, (subf (addf (mulf (sitofp .f32 (voxZ i)) (broadcast S1x20000 (Scalar.ofBits .f32 0x3F800000#32 : F .f32)))
        (broadcast S1x20000 (Scalar.ofBits .f32 0xC06CCCCD#32 : F .f32))) (broadcast S1x20000 (wordAt x2 ![2] inb_S15_S1_2)) : FVec F S1x20000 .f32)⟩]
    concatenates_S1x20000_S1x20000_S1x20000_S3x20000_d0

/-- The point the cameras project: the rotation (contracted over its FIRST axis) applied to `voxPt`, over a row of ones. -/
theorem ptVec_eq (i : grid1.Coords) (x0 : Vec F S3x3 .f32) (x2 : Vec F S15 .f32) :
    ptVec i x0 x2 = concatenate S4x20000 0
      [⟨S3x20000, (matmul dot_S3x3_S3x20000_S3x20000_0_0_1_1_n_n none (shapeCast S3x3 (View.ld x0 rRot) shapeCasts_S3x3_S3x3 : FVec F S3x3 .f32)
          (voxPt i x2) (constant S3x20000 .f32 0x00000000#32 : FVec F S3x20000 .f32) : FVec F S3x20000 .f32)⟩,
       ⟨S1x20000, (broadcast S1x20000 (Scalar.ofBits .f32 0x3F800000#32 : F .f32) : FVec F S1x20000 .f32)⟩]
      concatenates_S3x20000_S1x20000_S4x20000_d0 := rfl

end Cert.Proof.KI.R1

end
-- ==== Proof.Region1Ideal.lean ====
/-
  THE VOXEL ADDRESSES AT THE IDEAL INSTANCE: the matrix products read at a lane.

  At the ideal instance a product into the zero accumulator is the plain sum over the contracted axis. Here each of the
  region's two products is read at an explicit index: a camera's projection of the points, row `r` at lane `l`, is
  `Σₘ P[0, r, m] · pt[m, l]` over the four homogeneous coordinates; the rotated point's row `r` at lane `l` is
  `Σₘ R[m, r] · c[m, l]` over the three coordinates of the voxel's centre less the translation (the rotation contracted over
  its FIRST axis: the transpose applied), and its fourth row is one.
-/
import proofs.«207241_g55714315764006_cont_9to1c4b_410_29_alg».proof.Proof.Region1Lane
import proofs.«207241_g55714315764006_cont_9to1c4b_410_29_alg».proof.Proof.Region1Voxel
import Idealize.ShloMosaic.PureOps.Ideal.Laws
import Idealize.ShloMosaic.Lib.ValueIdx
import Idealize.ShloMosaic.Lib.Pipeline.Value

set_option maxRecDepth 16384

noncomputable section

namespace Cert.Proof.KI.R1

open Cert.KernelIdeal Cert.KernelIdeal.Gen
open Idealize.ShloMosaic Idealize.ShloMosaic.TcCoe
open Idealize.SL.Sem
open Idealize.ShloMosaic.ValueIdx (ix1 ix2 ix3 contrEquiv1 contrEquiv1_symm_val)
open scoped BigOperators

/-! ## The projection's product: [3, 4] by [4, 20000], contracting the left's axis 1 with the right's axis 0 -/

/-- Its operand indices, axis by axis: the left's row is the result's row, -/
theorem proj_lhs_0 (j : S3x20000.Idx) (k : dot_S3x4_S4x20000_S3x20000_1_0_0_1_n_n.contr.Idx) :
    ((dot_S3x4_S4x20000_S3x20000_1_0_0_1_n_n.lhsIdx j k) (0 : Fin S3x4.rank)).val = (j (0 : Fin S3x20000.rank)).val := by
  unfold DotDims.lhsIdx
  rw [dif_neg (show ¬ (0 : Fin S3x4.rank) ∈ dot_S3x4_S4x20000_S3x20000_1_0_0_1_n_n.lhsBatch by decide),
    dif_pos (show (0 : Fin S3x4.rank) ∈ dot_S3x4_S4x20000_S3x20000_1_0_0_1_n_n.lhsNonContracting by decide)]
  simp only [Fin.val_cast]
  have key : ∀ (p q : Nat) (hp : p < S3x20000.rank) (hq : q < S3x20000.rank), p = q → (j ⟨p, hp⟩).val = (j ⟨q, hq⟩).val :=
    fun p q hp hq h => by subst h; rfl
  exact key _ _ _ _ (by decide)
/-- the left's column is the contraction's coordinate, -/
theorem proj_lhs_1 (j : S3x20000.Idx) (k : dot_S3x4_S4x20000_S3x20000_1_0_0_1_n_n.contr.Idx) :
    ((dot_S3x4_S4x20000_S3x20000_1_0_0_1_n_n.lhsIdx j k) (1 : Fin S3x4.rank)).val = (k ⟨0, by decide⟩).val :=
  DotDims.lhsIdx_val_of_single (d := dot_S3x4_S4x20000_S3x20000_1_0_0_1_n_n) (cl := (1 : Fin S3x4.rank)) rfl j k
/-- the right's row is the contraction's coordinate, -/
theorem proj_rhs_0 (j : S3x20000.Idx) (k : dot_S3x4_S4x20000_S3x20000_1_0_0_1_n_n.contr.Idx) :
    ((dot_S3x4_S4x20000_S3x20000_1_0_0_1_n_n.rhsIdx j k) (0 : Fin S4x20000.rank)).val = (k ⟨0, by decide⟩).val :=
  DotDims.rhsIdx_val_of_single (d := dot_S3x4_S4x20000_S3x20000_1_0_0_1_n_n) (cr := (0 : Fin S4x20000.rank)) rfl j k
/-- the right's column is the result's column. -/
theorem proj_rhs_1 (j : S3x20000.Idx) (k : dot_S3x4_S4x20000_S3x20000_1_0_0_1_n_n.contr.Idx) :
    ((dot_S3x4_S4x20000_S3x20000_1_0_0_1_n_n.rhsIdx j k) (1 : Fin S4x20000.rank)).val = (j (1 : Fin S3x20000.rank)).val := by
  unfold DotDims.rhsIdx
  rw [dif_neg (show ¬ (1 : Fin S4x20000.rank) ∈ dot_S3x4_S4x20000_S3x20000_1_0_0_1_n_n.rhsBatch by decide),
    dif_pos (show (1 : Fin S4x20000.rank) ∈ dot_S3x4_S4x20000_S3x20000_1_0_0_1_n_n.rhsNonContracting by decide)]
  simp only [Fin.val_cast]
  have key : ∀ (p q : Nat) (hp : p < S3x20000.rank) (hq : q < S3x20000.rank), p = q → (j ⟨p, hp⟩).val = (j ⟨q, hq⟩).val :=
    fun p q hp hq h => by subst h; rfl
  exact key _ _ _ _ (by decide)

/-- A CAMERA'S PROJECTION at row `r` and lane `l`: the sum over the four homogeneous coordinates. -/
theorem camProj_apply (v87 : FVec Ideal S4x20000 .f32) (p : Vec Ideal S1x3x4 .f32) (r : Fin 3) (l : Fin 20000) :
    camProj (F := Ideal) v87 p (ix2 r l) = ∑ m : Fin 4, p (ix3 (0 : Fin 1) r m) * v87 (ix2 m l) := by
  unfold camProj
  refine (Ideal.matmul_constant_zero_apply dot_S3x4_S4x20000_S3x20000_1_0_0_1_n_n none _ _ (ix2 r l)).trans ?_
  refine (Equiv.sum_comp (contrEquiv1 dot_S3x4_S4x20000_S3x20000_1_0_0_1_n_n 4 rfl rfl).symm _).symm.trans ?_
  refine Finset.sum_congr rfl fun m _ => ?_
  have hk := contrEquiv1_symm_val dot_S3x4_S4x20000_S3x20000_1_0_0_1_n_n 4 rfl rfl m
  congr 1
  · refine (shapeCast_dropUnit_apply ![3, 4] p shapeCasts_S1x3x4_S3x4 _).trans ?_
    congr 1
    funext a
    match a with
    | ⟨0, _⟩ => rfl
    | ⟨1, _⟩ => exact Fin.ext (proj_lhs_0 (ix2 r l) ((contrEquiv1 dot_S3x4_S4x20000_S3x20000_1_0_0_1_n_n 4 rfl rfl).symm m))
    | ⟨2, _⟩ => exact Fin.ext ((proj_lhs_1 (ix2 r l) ((contrEquiv1 dot_S3x4_S4x20000_S3x20000_1_0_0_1_n_n 4 rfl rfl).symm m)).trans hk)
  · congr 1
    funext a
    match a with
    | ⟨0, _⟩ => exact Fin.ext ((proj_rhs_0 (ix2 r l) ((contrEquiv1 dot_S3x4_S4x20000_S3x20000_1_0_0_1_n_n 4 rfl rfl).symm m)).trans hk)
    | ⟨1, _⟩ => exact Fin.ext (proj_rhs_1 (ix2 r l) ((contrEquiv1 dot_S3x4_S4x20000_S3x20000_1_0_0_1_n_n 4 rfl rfl).symm m))

/-! ## The rotation's product: [3, 3] by [3, 20000], contracting the FIRST axis of each -/

/-- Its operand indices, axis by axis: the left's row is the contraction's coordinate, -/
theorem rot_lhs_0 (j : S3x20000.Idx) (k : dot_S3x3_S3x20000_S3x20000_0_0_1_1_n_n.contr.Idx) :
    ((dot_S3x3_S3x20000_S3x20000_0_0_1_1_n_n.lhsIdx j k) (0 : Fin S3x3.rank)).val = (k ⟨0, by decide⟩).val :=
  DotDims.lhsIdx_val_of_single (d := dot_S3x3_S3x20000_S3x20000_0_0_1_1_n_n) (cl := (0 : Fin S3x3.rank)) rfl j k
/-- the left's column is the result's row, -/
theorem rot_lhs_1 (j : S3x20000.Idx) (k : dot_S3x3_S3x20000_S3x20000_0_0_1_1_n_n.contr.Idx) :
    ((dot_S3x3_S3x20000_S3x20000_0_0_1_1_n_n.lhsIdx j k) (1 : Fin S3x3.rank)).val = (j (0 : Fin S3x20000.rank)).val := by
  unfold DotDims.lhsIdx
  rw [dif_neg (show ¬ (1 : Fin S3x3.rank) ∈ dot_S3x3_S3x20000_S3x20000_0_0_1_1_n_n.lhsBatch by decide),
    dif_pos (show (1 : Fin S3x3.rank) ∈ dot_S3x3_S3x20000_S3x20000_0_0_1_1_n_n.lhsNonContracting by decide)]
  simp only [Fin.val_cast]
  have key : ∀ (p q : Nat) (hp : p < S3x20000.rank) (hq : q < S3x20000.rank), p = q → (j ⟨p, hp⟩).val = (j ⟨q, hq⟩).val :=
    fun p q hp hq h => by subst h; rfl
  exact key _ _ _ _ (by decide)
/-- the right's row is the contraction's coordinate, -/
theorem rot_rhs_0 (j : S3x20000.Idx) (k : dot_S3x3_S3x20000_S3x20000_0_0_1_1_n_n.contr.Idx) :
    ((dot_S3x3_S3x20000_S3x20000_0_0_1_1_n_n.rhsIdx j k) (0 : Fin S3x20000.rank)).val = (k ⟨0, by decide⟩).val :=
  DotDims.rhsIdx_val_of_single (d := dot_S3x3_S3x20000_S3x20000_0_0_1_1_n_n) (cr := (0 : Fin S3x20000.rank)) rfl j k
/-- the right's column is the result's column. -/
theorem rot_rhs_1 (j : S3x20000.Idx) (k : dot_S3x3_S3x20000_S3x20000_0_0_1_1_n_n.contr.Idx) :
    ((dot_S3x3_S3x20000_S3x20000_0_0_1_1_n_n.rhsIdx j k) (1 : Fin S3x20000.rank)).val = (j (1 : Fin S3x20000.rank)).val := by
  unfold DotDims.rhsIdx
  rw [dif_neg (show ¬ (1 : Fin S3x20000.rank) ∈ dot_S3x3_S3x20000_S3x20000_0_0_1_1_n_n.rhsBatch by decide),
    dif_pos (show (1 : Fin S3x20000.rank) ∈ dot_S3x3_S3x20000_S3x20000_0_0_1_1_n_n.rhsNonContracting by decide)]
  simp only [Fin.val_cast]
  have key : ∀ (p q : Nat) (hp : p < S3x20000.rank) (hq : q < S3x20000.rank), p = q → (j ⟨p, hp⟩).val = (j ⟨q, hq⟩).val :=
    fun p q hp hq h => by subst h; rfl
  exact key _ _ _ _ (by decide)

theorem hzRot : (![0, 0] : Fin 2 → Nat) = fun _ => 0 := funext fun a => by fin_cases a <;> rfl

/-- The rotation's product contracts one axis, of extent 3. -/
theorem rot_contr_rank : dot_S3x3_S3x20000_S3x20000_0_0_1_1_n_n.contr.rank = 1 := by decide
theorem rot_contr_size : dot_S3x3_S3x20000_S3x20000_0_0_1_1_n_n.contr.size ⟨0, by rw [rot_contr_rank]; exact Nat.one_pos⟩ = 3 := by decide

/-- THE ROTATED POINT, rows 0 to 2, at lane `l`: row `r` is `Σₘ R[m, r] · c[m, l]`, `c` the voxel's centre less the translation —
    the rotation's transpose applied. -/
theorem ptVec_apply_lt (i : grid1.Coords) (x0 : Vec Ideal S3x3 .f32) (x2 : Vec Ideal S15 .f32) (r : Fin 3) (l : Fin 20000) :
    ptVec (F := Ideal) i x0 x2 (ix2 (Fin.castSucc r) l) = ∑ m : Fin 3, x0 (ix2 m r) * voxPt (F := Ideal) i x2 (ix2 m l) := by
  rw [ptVec_eq]
  refine (concatenate_pair_apply_left (0 : Fin S4x20000.rank) _ _ concatenates_S3x20000_S1x20000_S4x20000_d0
    (ix2 (Fin.castSucc r) l) rfl (ix2 r l) (fun b => by match b with | ⟨0, _⟩ => rfl | ⟨1, _⟩ => rfl)).trans ?_
  refine (Ideal.matmul_constant_zero_apply dot_S3x3_S3x20000_S3x20000_0_0_1_1_n_n none _ _ (ix2 r l)).trans ?_
  refine (Equiv.sum_comp (contrEquiv1 dot_S3x3_S3x20000_S3x20000_0_0_1_1_n_n 3 rot_contr_rank rot_contr_size).symm _).symm.trans ?_
  refine Finset.sum_congr rfl fun m _ => ?_
  have hk := contrEquiv1_symm_val dot_S3x3_S3x20000_S3x20000_0_0_1_1_n_n 3 rot_contr_rank rot_contr_size m
  congr 1
  · refine (congrFun (shapeCast_self (View.ld x0 rRot) shapeCasts_S3x3_S3x3) _).trans ?_
    refine (congrFun (View.ld_unit_zero (S := S3x3) hzRot inb_S3x3_S3x3_0_0 x0) _).trans ?_
    congr 1
    funext a
    match a with
    | ⟨0, _⟩ => exact Fin.ext ((rot_lhs_0 (ix2 r l) ((contrEquiv1 dot_S3x3_S3x20000_S3x20000_0_0_1_1_n_n 3 rot_contr_rank rot_contr_size).symm m)).trans hk)
    | ⟨1, _⟩ => exact Fin.ext (rot_lhs_1 (ix2 r l) ((contrEquiv1 dot_S3x3_S3x20000_S3x20000_0_0_1_1_n_n 3 rot_contr_rank rot_contr_size).symm m))
  · congr 1
    funext a
    match a with
    | ⟨0, _⟩ => exact Fin.ext ((rot_rhs_0 (ix2 r l) ((contrEquiv1 dot_S3x3_S3x20000_S3x20000_0_0_1_1_n_n 3 rot_contr_rank rot_contr_size).symm m)).trans hk)
    | ⟨1, _⟩ => exact Fin.ext (rot_rhs_1 (ix2 r l) ((contrEquiv1 dot_S3x3_S3x20000_S3x20000_0_0_1_1_n_n 3 rot_contr_rank rot_contr_size).symm m))

/-- Its fourth row is the constant one (kept as its word). -/
theorem ptVec_apply_last (i : grid1.Coords) (x0 : Vec Ideal S3x3 .f32) (x2 : Vec Ideal S15 .f32) (l : Fin 20000) :
    ptVec (F := Ideal) i x0 x2 (ix2 (3 : Fin 4) l) = Ideal.ofBits .f32 0x3F800000#32 := by
  rw [ptVec_eq]
  exact concatenate_pair_apply_right (0 : Fin S4x20000.rank) _ _ concatenates_S3x20000_S1x20000_S4x20000_d0
    (ix2 (3 : Fin 4) l) rfl rfl (ix2 (0 : Fin 1) l)
    (fun b hb => by match b, hb with | ⟨0, _⟩, hb => exact absurd rfl hb | ⟨1, _⟩, _ => rfl) rfl

/-! ## The voxel's centre less the translation, at a lane -/

/-- A natural number below `2 ^ 31` as a word, read signed, converted: the number. -/
theorem sitofp_ofNat (n : ℕ) (h : n < 2 ^ 31) : FloatOps.sitofp (F := Ideal) .f32 (BitVec.ofNat 32 n) = ((n : ℝ) : EReal) := by
  have e : (BitVec.ofNat 32 n).toInt = (n : ℤ) := by
    have hn : (BitVec.ofNat 32 n).toNat = n := by rw [BitVec.toNat_ofNat]; exact Nat.mod_eq_of_lt (by omega)
    rw [BitVec.toInt_eq_toNat_of_lt (by rw [hn]; omega), hn]
  show (((BitVec.ofNat 32 n).toInt : ℝ) : EReal) = _
  rw [e]; norm_cast

/-- Row 0: `x·½ − 50 − t₀`, `x` the lane's number over 800 (the constants kept as their words). -/
theorem voxPt_apply_0 (i : grid1.Coords) (x2 : Vec Ideal S15 .f32) (l : Fin 20000) :
    voxPt (F := Ideal) i x2 (ix2 (0 : Fin 3) l)
      = (((laneNo i (ix2 (0 : Fin 1) l) / 800 : ℕ) : ℝ) : EReal) * Ideal.ofBits .f32 0x3F000000#32 + Ideal.ofBits .f32 0xC2480000#32
          - wordAt x2 ![0] inb_S15_S1_0 := by
  unfold voxPt
  refine (concatenate_apply_piece (0 : Fin S3x20000.rank) _ _ (ix2 (0 : Fin 3) l)
    0 (by show (0 : ℕ) < 3; decide) S1x20000 _ rfl rfl 0 rfl (ix2 (0 : Fin 1) l)
    (fun b hb => by match b, hb with | ⟨0, _⟩, hb => exact absurd rfl hb | ⟨1, _⟩, _ => rfl) rfl).trans ?_
  show FloatOps.sitofp (F := Ideal) .f32 (k1_pay3 i (ix2 (0 : Fin 1) l)) * _ + _ - _ = _
  rw [pay3_apply, sitofp_ofNat _ (by have := laneNo_lt i (ix2 (0 : Fin 1) l); omega)]
  rfl
/-- Row 1: `y·½ − 50 − t₁`, `y` the rest modulo 800 over 4. -/
theorem voxPt_apply_1 (i : grid1.Coords) (x2 : Vec Ideal S15 .f32) (l : Fin 20000) :
    voxPt (F := Ideal) i x2 (ix2 (1 : Fin 3) l)
      = (((laneNo i (ix2 (0 : Fin 1) l) % 800 / 4 : ℕ) : ℝ) : EReal) * Ideal.ofBits .f32 0x3F000000#32 + Ideal.ofBits .f32 0xC2480000#32
          - wordAt x2 ![1] inb_S15_S1_1 := by
  unfold voxPt
  refine (concatenate_apply_piece (0 : Fin S3x20000.rank) _ _ (ix2 (1 : Fin 3) l)
    1 (by show (1 : ℕ) < 3; decide) S1x20000 _ rfl rfl 1 rfl (ix2 (0 : Fin 1) l)
    (fun b hb => by match b, hb with | ⟨0, _⟩, hb => exact absurd rfl hb | ⟨1, _⟩, _ => rfl) rfl).trans ?_
  show FloatOps.sitofp (F := Ideal) .f32 (voxY i (ix2 (0 : Fin 1) l)) * _ + _ - _ = _
  rw [voxY_apply, sitofp_ofNat _ (by omega)]
  rfl
/-- Row 2: `z·1 − 3.7 − t₂`, `z` the number modulo 4. -/
theorem voxPt_apply_2 (i : grid1.Coords) (x2 : Vec Ideal S15 .f32) (l : Fin 20000) :
    voxPt (F := Ideal) i x2 (ix2 (2 : Fin 3) l)
      = (((laneNo i (ix2 (0 : Fin 1) l) % 4 : ℕ) : ℝ) : EReal) * Ideal.ofBits .f32 0x3F800000#32 + Ideal.ofBits .f32 0xC06CCCCD#32
          - wordAt x2 ![2] inb_S15_S1_2 := by
  unfold voxPt
  refine (concatenate_apply_piece (0 : Fin S3x20000.rank) _ _ (ix2 (2 : Fin 3) l)
    2 (by show (2 : ℕ) < 3; decide) S1x20000 _ rfl rfl 2 rfl (ix2 (0 : Fin 1) l)
    (fun b hb => by match b, hb with | ⟨0, _⟩, hb => exact absurd rfl hb | ⟨1, _⟩, _ => rfl) rfl).trans ?_
  show FloatOps.sitofp (F := Ideal) .f32 (voxZ i (ix2 (0 : Fin 1) l)) * _ + _ - _ = _
  rw [voxZ_apply, sitofp_ofNat _ (by omega)]
  rfl

/-! ## A camera's pixel words and test at a lane -/

section AnyInstance
variable {F : FTy → Type} [FloatOps F]

/-- Row `r` of a [3, 20000] block, sliced out, at lane `l`: the block at `(r, l)`. -/
theorem sliceRow0_lane (X : FVec F S3x20000 .f32) (l : Fin 20000) :
    extractStridedSlice S1x20000 ![0, 0] X slices_S3x20000_o0_0_S1x20000 (ix2 (0 : Fin 1) l) = X (ix2 (0 : Fin 3) l) :=
  extractStridedSlice_apply ![0, 0] X slices_S3x20000_o0_0_S1x20000 (ix2 (0 : Fin 1) l) (ix2 (0 : Fin 3) l)
    (fun a => by match a with | ⟨0, _⟩ => rfl | ⟨1, _⟩ => exact (Nat.zero_add _).symm)
theorem sliceRow1_lane (X : FVec F S3x20000 .f32) (l : Fin 20000) :
    extractStridedSlice S1x20000 ![1, 0] X slices_S3x20000_o1_0_S1x20000 (ix2 (0 : Fin 1) l) = X (ix2 (1 : Fin 3) l) :=
  extractStridedSlice_apply ![1, 0] X slices_S3x20000_o1_0_S1x20000 (ix2 (0 : Fin 1) l) (ix2 (1 : Fin 3) l)
    (fun a => by match a with | ⟨0, _⟩ => rfl | ⟨1, _⟩ => exact (Nat.zero_add _).symm)
theorem sliceRow2_lane (X : FVec F S3x20000 .f32) (l : Fin 20000) :
    extractStridedSlice S1x20000 ![2, 0] X slices_S3x20000_o2_0_S1x20000 (ix2 (0 : Fin 1) l) = X (ix2 (2 : Fin 3) l) :=
  extractStridedSlice_apply ![2, 0] X slices_S3x20000_o2_0_S1x20000 (ix2 (0 : Fin 1) l) (ix2 (2 : Fin 3) l)
    (fun a => by match a with | ⟨0, _⟩ => rfl | ⟨1, _⟩ => exact (Nat.zero_add _).symm)

/-- The depth at a lane is the projection's third row there. -/
theorem camDepth_lane (v87 : FVec F S4x20000 .f32) (p : Vec F S1x3x4 .f32) (l : Fin 20000) :
    camDepth v87 p (ix2 (0 : Fin 1) l) = camProj v87 p (ix2 (2 : Fin 3) l) :=
  sliceRow2_lane (camProj v87 p) l

/-- The pixel's column at a lane: first row over depth, plus the offset, over the stride, rounded to even, converted. -/
theorem camU_lane (v87 : FVec F S4x20000 .f32) (p : Vec F S1x3x4 .f32) (a : Elt F .f32) (l : Fin 20000) :
    camU v87 p a (ix2 (0 : Fin 1) l)
      = FloatOps.fptosi 32 (FloatOps.roundeven (FloatOps.divf (FloatOps.addf
          (FloatOps.divf (camProj v87 p (ix2 (0 : Fin 3) l)) (camProj v87 p (ix2 (2 : Fin 3) l))) a) (Scalar.ofBits .f32 0x40800000#32 : F .f32))) := by
  rw [← sliceRow0_lane (camProj v87 p) l, ← camDepth_lane v87 p l]
  rfl
/-- The pixel's row at a lane, likewise from the second row. -/
theorem camV_lane (v87 : FVec F S4x20000 .f32) (p : Vec F S1x3x4 .f32) (b : Elt F .f32) (l : Fin 20000) :
    camV v87 p b (ix2 (0 : Fin 1) l)
      = FloatOps.fptosi 32 (FloatOps.roundeven (FloatOps.divf (FloatOps.addf
          (FloatOps.divf (camProj v87 p (ix2 (1 : Fin 3) l)) (camProj v87 p (ix2 (2 : Fin 3) l))) b) (Scalar.ofBits .f32 0x40800000#32 : F .f32))) := by
  rw [← sliceRow1_lane (camProj v87 p) l, ← camDepth_lane v87 p l]
  rfl

/-- The camera's test at a lane: the four signed comparisons of the pixel's words and the depth's sign. -/
theorem camOk_lane (v87 : FVec F S4x20000 .f32) (p : Vec F S1x3x4 .f32) (a b : Elt F .f32) (l : Fin 20000) :
    camOk v87 p a b (ix2 (0 : Fin 1) l)
      = IntOp.andi (IntOp.andi (IntOp.andi (IntOp.andi (IntOp.cmpi .sge (camU v87 p a (ix2 (0 : Fin 1) l)) 0#32)
            (IntOp.cmpi .sge (camV v87 p b (ix2 (0 : Fin 1) l)) 0#32)) (IntOp.cmpi .slt (camU v87 p a (ix2 (0 : Fin 1) l)) 176#32))
          (IntOp.cmpi .slt (camV v87 p b (ix2 (0 : Fin 1) l)) 64#32))
          (FloatOps.cmpf .ogt (camProj v87 p (ix2 (2 : Fin 3) l)) (Scalar.ofBits .f32 0x00000000#32 : F .f32)) := by
  rw [← camDepth_lane v87 p l]
  rfl

/-- The camera's row number at a lane. -/
theorem camRow_lane (base : BitVec 32) (v87 : FVec F S4x20000 .f32) (p : Vec F S1x3x4 .f32) (a b : Elt F .f32) (k : S1x20000.Idx) :
    camRow base v87 p a b k = base + camV v87 p b k * 176#32 + camU v87 p a k := rfl

/-- The test holds exactly where the pixel is on the feature map and the depth test holds. -/
theorem camOk_eq_one_iff (v87 : FVec F S4x20000 .f32) (p : Vec F S1x3x4 .f32) (a b : Elt F .f32) (k : S1x20000.Idx) :
    camOk v87 p a b k = 1 ↔ (0 ≤ (camU v87 p a k).toInt ∧ 0 ≤ (camV v87 p b k).toInt ∧ (camU v87 p a k).toInt < 176 ∧ (camV v87 p b k).toInt < 64)
      ∧ FloatOps.cmpf .ogt (camDepth v87 p k) (Scalar.ofBits .f32 0x00000000#32 : F .f32) = 1 := by
  show IntOp.andi (IntOp.andi (IntOp.andi (IntOp.andi (IntOp.cmpi .sge (camU v87 p a k) 0#32) (IntOp.cmpi .sge (camV v87 p b k) 0#32))
      (IntOp.cmpi .slt (camU v87 p a k) 176#32)) (IntOp.cmpi .slt (camV v87 p b k) 64#32))
      (FloatOps.cmpf .ogt (camDepth v87 p k) (Scalar.ofBits .f32 0x00000000#32 : F .f32)) = 1 ↔ _
  rw [andi_eq_one, andi_eq_one, andi_eq_one, andi_eq_one, cmpi_sge_zero, cmpi_sge_zero, cmpi_slt, cmpi_slt]
  have e176 : (176#32).toInt = 176 := by decide
  have e64 : (64#32).toInt = 64 := by decide
  rw [e176, e64]
  constructor
  · rintro ⟨⟨⟨⟨h1, h2⟩, h3⟩, h4⟩, h5⟩; exact ⟨⟨h1, h2, h3, h4⟩, h5⟩
  · rintro ⟨⟨h1, h2, h3, h4⟩, h5⟩; exact ⟨⟨⟨⟨h1, h2⟩, h3⟩, h4⟩, h5⟩

/-- Where it holds the row number does not wrap: as a natural number it is `base + v·176 + u`. -/
theorem camRow_toNat (base : BitVec 32) (v87 : FVec F S4x20000 .f32) (p : Vec F S1x3x4 .f32) (a b : Elt F .f32) (k : S1x20000.Idx)
    (hbase : base.toNat + 11264 ≤ 78848) (hok : camOk v87 p a b k = 1) :
    (camRow base v87 p a b k).toNat = base.toNat + (camV v87 p b k).toNat * 176 + (camU v87 p a k).toNat
      ∧ (camU v87 p a k).toNat < 176 ∧ (camV v87 p b k).toNat < 64 := by
  obtain ⟨⟨hu0, hv0, hu1, hv1⟩, -⟩ := (camOk_eq_one_iff v87 p a b k).mp hok
  have hu := toNat_lt_of_signed (camU v87 p a k) 176 (by decide) hu0 hu1
  have hv := toNat_lt_of_signed (camV v87 p b k) 64 (by decide) hv0 hv1
  refine ⟨?_, hu, hv⟩
  rw [camRow_lane]
  have e176n : (176#32).toNat = 176 := rfl
  have hmul : (camV v87 p b k * 176#32).toNat = (camV v87 p b k).toNat * 176 := by
    rw [BitVec.toNat_mul, e176n]; exact Nat.mod_eq_of_lt (by omega)
  have hadd1 : (base + camV v87 p b k * 176#32).toNat = base.toNat + (camV v87 p b k).toNat * 176 := by
    rw [BitVec.toNat_add, hmul]; exact Nat.mod_eq_of_lt (by omega)
  rw [BitVec.toNat_add, hadd1]; exact Nat.mod_eq_of_lt (by omega)

end AnyInstance

/-! ## At the ideal instance: the pixel's words explicit in the arrays' entries -/

/-- The pixel's column: `⌊((Σₘ P[0,0,m]·pt[m,l]) / (Σₘ P[0,2,m]·pt[m,l]) + a) / 4⌉` to even, as a signed word. -/
theorem camU_ideal (v87 : FVec Ideal S4x20000 .f32) (p : Vec Ideal S1x3x4 .f32) (a : Elt Ideal .f32) (l : Fin 20000) :
    camU (F := Ideal) v87 p a (ix2 (0 : Fin 1) l)
      = FloatOps.fptosi (F := Ideal) 32 (FloatOps.roundeven (F := Ideal) (FloatOps.divf (F := Ideal) (FloatOps.addf (F := Ideal)
          (FloatOps.divf (F := Ideal) (∑ m : Fin 4, p (ix3 (0 : Fin 1) (0 : Fin 3) m) * v87 (ix2 m l)) (∑ m : Fin 4, p (ix3 (0 : Fin 1) (2 : Fin 3) m) * v87 (ix2 m l))) a)
          (Scalar.ofBits .f32 0x40800000#32 : Ideal .f32))) := by
  rw [camU_lane, camProj_apply, camProj_apply]
/-- The pixel's row, from the second row of the projection. -/
theorem camV_ideal (v87 : FVec Ideal S4x20000 .f32) (p : Vec Ideal S1x3x4 .f32) (b : Elt Ideal .f32) (l : Fin 20000) :
    camV (F := Ideal) v87 p b (ix2 (0 : Fin 1) l)
      = FloatOps.fptosi (F := Ideal) 32 (FloatOps.roundeven (F := Ideal) (FloatOps.divf (F := Ideal) (FloatOps.addf (F := Ideal)
          (FloatOps.divf (F := Ideal) (∑ m : Fin 4, p (ix3 (0 : Fin 1) (1 : Fin 3) m) * v87 (ix2 m l)) (∑ m : Fin 4, p (ix3 (0 : Fin 1) (2 : Fin 3) m) * v87 (ix2 m l))) b)
          (Scalar.ofBits .f32 0x40800000#32 : Ideal .f32))) := by
  rw [camV_lane, camProj_apply, camProj_apply]
/-- The depth: the third row's sum. -/
theorem camDepth_ideal (v87 : FVec Ideal S4x20000 .f32) (p : Vec Ideal S1x3x4 .f32) (l : Fin 20000) :
    camDepth (F := Ideal) v87 p (ix2 (0 : Fin 1) l) = ∑ m : Fin 4, p (ix3 (0 : Fin 1) (2 : Fin 3) m) * v87 (ix2 m l) := by
  rw [camDepth_lane, camProj_apply]

/-! ## What the body's loads read of the arrays themselves -/

section Entries
variable {F : FTy → Type} [FloatOps F]

/-- The word at cell `k` of scalar memory is the offsets' entry `k`. -/
theorem wordAt_entry (x2 : Vec F S15 .f32) (off : Fin 1 → Nat) (inb : ∀ a, off a + S1.size a ≤ S15.size a) (k : Fin 15)
    (hk : off 0 = k.val) : wordAt x2 off inb = x2 (ix1 k) := by
  show x2 ((Rect.unit (s := S15) off S1.size inb).idx (Shape.Idx.first _)) = x2 (ix1 k)
  congr 1
  funext a
  match a with
  | ⟨0, _⟩ => exact Fin.ext (by show off 0 + 1 * 0 = k.val; omega)

/-- Camera `J`'s slice of the projections at `(0, r, m)` is the projections' entry `(J, r, m)`. -/
theorem ldCam_entry (x1 : Vec F S6x3x4 .f32) (off : Fin 3 → Nat) (inb : ∀ a, off a + S1x3x4.size a ≤ S6x3x4.size a) (J : Fin 6)
    (h0 : off 0 = J.val) (h1 : off 1 = 0) (h2 : off 2 = 0) (r : Fin 3) (m : Fin 4) :
    View.ld x1 (Rect.unit (s := S6x3x4) off S1x3x4.size inb) (ix3 (0 : Fin 1) r m) = x1 (ix3 J r m) := by
  show x1 ((Rect.unit (s := S6x3x4) off S1x3x4.size inb).idx (ix3 (0 : Fin 1) r m)) = x1 (ix3 J r m)
  congr 1
  funext a
  match a with
  | ⟨0, _⟩ => exact Fin.ext (by show off 0 + 1 * 0 = J.val; omega)
  | ⟨1, _⟩ => exact Fin.ext (by show off 1 + 1 * r.val = r.val; omega)
  | ⟨2, _⟩ => exact Fin.ext (by show off 2 + 1 * m.val = m.val; omega)

/-- The rotation is loaded whole. -/
theorem ldRot_eq (x0 : Vec F S3x3 .f32) : View.ld x0 rRot = x0 :=
  View.ld_unit_zero (S := S3x3) hzRot inb_S3x3_S3x3_0_0 x0

end Entries

end Cert.Proof.KI.R1

end
-- ==== Proof.GatherJoin.lean ====
/-
  THE ADDRESS MEETS THE TABLE.

  The gather reads, for each voxel, one row of the feature table: the table as the gather sees it is the seven planes of
  11264 rows laid one after another, 78848 rows of 128 lanes. A voxel's address is a chain of six selects (the last camera
  whose test holds names the row `J·11264 + v·176 + u`, else the row 67584 of the seventh, zero plane). Here the two meet, at the
  ideal values: the row a chain of selects names holds, at lane `o < 80`, the channels' sum of products of the weights' row `o`
  with the features the SAME chain of selects picks — camera `J`'s features at position `v·176 + u` where its test is the last
  to hold, zero where none holds. The selects, the tests and the pixel words are kept abstract, so that either side of the
  comparison may supply its own.
-/
import proofs.«207241_g55714315764006_cont_9to1c4b_410_29_alg».proof.Proof.Region1Ideal
import proofs.«207241_g55714315764006_cont_9to1c4b_410_29_alg».proof.Proof.Region0
import proofs.«207241_g55714315764006_cont_9to1c4b_410_29_alg».proof.Proof.ScTile
import Idealize.ShloMosaic.Lib.ValueIdx
import Idealize.ShloMosaic.Lib.Pipeline.Value

set_option maxRecDepth 16384

noncomputable section

namespace Cert.Proof.KI.R1

open Cert.KernelIdeal Cert.KernelIdeal.Gen
open Idealize.ShloMosaic Idealize.ShloMosaic.TcCoe
open Idealize.SL.Sem
open Idealize.ShloMosaic.ValueIdx (ix1 ix2 ix3)
open scoped BigOperators

/-! ## The table as the gather sees it -/

section AnyInstance
variable {F : FTy → Type} [FloatOps F]

/-- The feature table's seven planes laid one after another: [7, 11264, 128] recast [78848, 128]. -/
def tabRows (x : Vec F S6x256x11264 .f32) (w : Vec F S80x256 .f32) : Vec F S78848x128 .f32 :=
  shapeCast S78848x128 (R0.tableOf x w) shapeCasts_S7x11264x128_S78848x128

/-- Row `J·11264 + pos` at lane `l` is plane `J`, row `pos`, lane `l`. -/
theorem tabRows_apply (x : Vec F S6x256x11264 .f32) (w : Vec F S80x256 .f32) (J : Fin 7) (pos : Fin 11264) (l : Fin 128)
    (r : Fin 78848) (hr : r.val = J.val * 11264 + pos.val) :
    tabRows x w (Sc.tIx r l) = R0.tableOf x w (ix3 J pos l) := by
  unfold tabRows
  refine shapeCast_apply _ _ (Sc.tIx r l) (ix3 J pos l) ?_
  rw [Shape.rowMajor_val_three, Shape.rowMajor_val_two]
  show (J.val * 11264 + pos.val) * 128 + l.val = r.val * 128 + l.val
  rw [hr]

/-- (1) THE ZERO ROW: the row the start of the chain names, 67584 = 6·11264, is in the seventh plane: the zero word. -/
theorem tab_zero_row (x : Vec F S6x256x11264 .f32) (w : Vec F S80x256 .f32) (l : Fin 128) :
    tabRows x w (Sc.tIx ⟨(67584#32 : BitVec 32).toNat % 78848, Nat.mod_lt _ (by decide)⟩ l) = Scalar.ofBits .f32 0x00000000#32 := by
  rw [tabRows_apply x w (6 : Fin 7) (0 : Fin 11264) l _ (by decide)]
  exact R0.tableOf_of_not x w _ (fun h => absurd h.1 (Nat.lt_irrefl 6))

/-! ## A chain of six selects, at any type -/

/-- Six selects in the cameras' order, the later over the earlier, from `z`. -/
def chainSel {α : Type} (g : Fin 6 → BitVec 1) (r : Fin 6 → α) (z : α) : α :=
  Scalar.select (g 5) (r 5) (Scalar.select (g 4) (r 4) (Scalar.select (g 3) (r 3) (Scalar.select (g 2) (r 2)
    (Scalar.select (g 1) (r 1) (Scalar.select (g 0) (r 0) z)))))

/-- The chain of addresses is the chain at words. -/
theorem chain6_eq (g : Fin 6 → BitVec 1) (r : Fin 6 → BitVec 32) (z : BitVec 32) : chain6 g r z = chainSel g r z := rfl

/-- A function of the chain's value is the chain of the function's values: the tests do not see it. -/
theorem chainSel_map {α β : Type} (f : α → β) (g : Fin 6 → BitVec 1) (r : Fin 6 → α) (z : α) :
    f (chainSel g r z) = chainSel g (fun J => f (r J)) (f z) := by
  unfold chainSel Scalar.select
  split_ifs <;> rfl

/-- The LAST camera whose test holds, if any: the chain of the cameras' own numbers. -/
def lastOk (g : Fin 6 → BitVec 1) : Option (Fin 6) := chainSel g some none

/-- Every chain over the same tests reads its value off that camera. -/
theorem chainSel_eq_elim {α : Type} (g : Fin 6 → BitVec 1) (r : Fin 6 → α) (z : α) : chainSel g r z = (lastOk g).elim z r := by
  unfold lastOk
  rw [chainSel_map (fun o : Option (Fin 6) => o.elim z r)]
  rfl

/-- Its test does hold. -/
theorem lastOk_some (g : Fin 6 → BitVec 1) (J : Fin 6) (h : lastOk g = some J) : g J = 1 := by
  unfold lastOk chainSel Scalar.select at h
  split_ifs at h <;> first | (cases h; assumption) | cases h

end AnyInstance

/-! ## The join, at the ideal values -/

/-- (2) A CAMERA'S ROW: the row `J·11264 + v·176 + u` (`u < 176`, `v < 64`: it does not reach the next plane) holds at lane `o < 80`
    the channels' sum of products of camera `J`'s features at position `v·176 + u` with the weights' row `o`. -/
theorem tab_cam_row (x : S6x256x11264.Idx → EReal) (w : S80x256.Idx → EReal) (a : BitVec 32) (J : Fin 6) (u v : ℕ)
    (hu : u < 176) (hv : v < 64) (ha : a.toNat = J.val * 11264 + v * 176 + u) (o : Fin 80) :
    tabRows (F := Ideal) x w (Sc.tIx ⟨a.toNat % 78848, Nat.mod_lt _ (by decide)⟩ ⟨o.val, by omega⟩)
      = ∑ ch : Fin 256, x (ix3 J ch ⟨v * 176 + u, by omega⟩) * w (ix2 o ch) := by
  have hJ := J.isLt
  have hlt : a.toNat < 78848 := by omega
  rw [tabRows_apply (F := Ideal) x w ⟨J.val, by omega⟩ ⟨v * 176 + u, by omega⟩ ⟨o.val, by omega⟩ _
    (by show a.toNat % 78848 = J.val * 11264 + (v * 176 + u); rw [Nat.mod_eq_of_lt hlt, ha]; omega)]
  exact R0.tableOf_apply x w J ⟨v * 176 + u, by omega⟩ o

/-- A pixel's position on the 64 × 176 map from its two words (taken modulo the map's size, so that it is a position
    whatever the words; where the camera's test holds it is `v·176 + u` itself). -/
def posOf (u v : BitVec 32) : Fin 11264 := ⟨(v.toNat * 176 + u.toNat) % 11264, Nat.mod_lt _ (by decide)⟩

/-- THE VOLUME'S ENTRY for a voxel and a channel: the features the chain of selects picks — camera `J`'s at its pixel where its
    test is the last to hold, zero where none holds. -/
def volK (x : S6x256x11264.Idx → EReal) (ok : Fin 6 → BitVec 1) (u v : Fin 6 → BitVec 32) (ch : Fin 256) : EReal :=
  chainSel ok (fun J => x (ix3 J ch (posOf (u J) (v J)))) 0

/-- The join with the selecting camera named: none, or one whose test holds. -/
theorem tab_at_sel (x : S6x256x11264.Idx → EReal) (w : S80x256.Idx → EReal) (ok : Fin 6 → BitVec 1) (u v row : Fin 6 → BitVec 32) (o : Fin 80)
    (h : ∀ J, ok J = 1 → (u J).toNat < 176 ∧ (v J).toNat < 64 ∧ (row J).toNat = J.val * 11264 + (v J).toNat * 176 + (u J).toNat)
    (sel : Option (Fin 6)) (hsel : ∀ J, sel = some J → ok J = 1) :
    tabRows (F := Ideal) x w (Sc.tIx ⟨(sel.elim 67584#32 row).toNat % 78848, Nat.mod_lt _ (by decide)⟩ ⟨o.val, by omega⟩)
      = ∑ ch : Fin 256, sel.elim 0 (fun J => x (ix3 J ch (posOf (u J) (v J)))) * w (ix2 o ch) := by
  cases sel with
  | none =>
    show tabRows (F := Ideal) x w (Sc.tIx ⟨(67584#32 : BitVec 32).toNat % 78848, Nat.mod_lt _ (by decide)⟩ ⟨o.val, by omega⟩)
      = ∑ ch : Fin 256, (0 : EReal) * w (ix2 o ch)
    rw [tab_zero_row]
    show Ideal.ofBits .f32 0x00000000#32 = _
    rw [Ideal.ofBits_zero_f32]
    simp
  | some J =>
    obtain ⟨hu, hv, hrow⟩ := h J (hsel J rfl)
    show tabRows (F := Ideal) x w (Sc.tIx ⟨(row J).toNat % 78848, Nat.mod_lt _ (by decide)⟩ ⟨o.val, by omega⟩)
      = ∑ ch : Fin 256, x (ix3 J ch (posOf (u J) (v J))) * w (ix2 o ch)
    rw [tab_cam_row x w (row J) J (u J).toNat (v J).toNat hu hv hrow o]
    refine Finset.sum_congr rfl fun ch _ => ?_
    have e : (⟨(v J).toNat * 176 + (u J).toNat, by omega⟩ : Fin 11264) = posOf (u J) (v J) :=
      Fin.ext (by show (v J).toNat * 176 + (u J).toNat = ((v J).toNat * 176 + (u J).toNat) % 11264; omega)
    rw [e]

/-- (3) THE JOIN: the table's row that the chain of the cameras' selects names holds, at lane `o < 80`, the weights' row `o`
    against the volume's entries the same chain picks — provided each camera whose test holds has its pixel on the map and its
    row number `J·11264 + v·176 + u` as a natural number. -/
theorem tab_at_addr (x : S6x256x11264.Idx → EReal) (w : S80x256.Idx → EReal) (ok : Fin 6 → BitVec 1) (u v row : Fin 6 → BitVec 32) (o : Fin 80)
    (h : ∀ J, ok J = 1 → (u J).toNat < 176 ∧ (v J).toNat < 64 ∧ (row J).toNat = J.val * 11264 + (v J).toNat * 176 + (u J).toNat) :
    tabRows (F := Ideal) x w (Sc.tIx ⟨(chain6 ok row 67584#32).toNat % 78848, Nat.mod_lt _ (by decide)⟩ ⟨o.val, by omega⟩)
      = ∑ ch : Fin 256, volK x ok u v ch * w (ix2 o ch) := by
  have e2 : ∀ ch : Fin 256, volK x ok u v ch = (lastOk ok).elim 0 (fun J => x (ix3 J ch (posOf (u J) (v J)))) :=
    fun ch => chainSel_eq_elim ok _ _
  rw [chain6_eq, chainSel_eq_elim ok row 67584#32]
  simp only [e2]
  exact tab_at_sel x w ok u v row o h (lastOk ok) (lastOk_some ok)

end Cert.Proof.KI.R1

end
-- ==== Proof.Region1K.lean ====
/-
  THE VOXEL ADDRESSES AT THE IDEAL VALUES, IN THE ARRAYS' OWN ENTRIES.

  For a voxel numbered `n` (its coordinates `n / 800`, `n % 800 / 4`, `n % 4` on the [200, 200, 4] grid) and a camera `J`, everything
  the region computes is written out over the entries of the rotation `R` (3 × 3), the projections `P` (6 × 3 × 4) and the
  fifteen offsets `t`: the voxel's centre less the translation `c`, the rotated homogeneous point `pt = (Rᵀ c, 1)`, the camera's
  projection `P[J] · pt`, the pixel's words `u`, `v` (numerator over depth plus the camera's offset, over the stride, rounded to
  even, converted) and the camera's test. Then each of the kernel's lane words at grid point `i`, lane `l`, IS the corresponding
  expression at the lane's voxel number — so that another computation of the same pixel may be compared with these.
  The float constants stay their words.
-/
import proofs.«207241_g55714315764006_cont_9to1c4b_410_29_alg».proof.Proof.Region1Ideal

set_option maxRecDepth 16384

noncomputable section

namespace Cert.Proof.KI.R1

open Cert.KernelIdeal Cert.KernelIdeal.Gen
open Idealize.ShloMosaic Idealize.ShloMosaic.TcCoe
open Idealize.SL.Sem
open Idealize.ShloMosaic.ValueIdx (ix1 ix2 ix3)
open scoped BigOperators

/-! ## The kernel's per-camera pixel words -/

section AnyInstance
variable {F : FTy → Type} [FloatOps F]

/-- Camera `J`'s pixel column words at grid point `i`, from the blocks the body reads. -/
def uAt (i : grid1.Coords) (x0 : Vec F S3x3 .f32) (x1 : Vec F S6x3x4 .f32) (x2 : Vec F S15 .f32) : Fin 6 → IVec S1x20000 32
  | ⟨0, _⟩ => camU (ptVec i x0 x2) (View.ld x1 rCam0) (wordAt x2 ![3] inb_S15_S1_3)
  | ⟨1, _⟩ => camU (ptVec i x0 x2) (View.ld x1 rCam1) (wordAt x2 ![5] inb_S15_S1_5)
  | ⟨2, _⟩ => camU (ptVec i x0 x2) (View.ld x1 rCam2) (wordAt x2 ![7] inb_S15_S1_7)
  | ⟨3, _⟩ => camU (ptVec i x0 x2) (View.ld x1 rCam3) (wordAt x2 ![9] inb_S15_S1_9)
  | ⟨4, _⟩ => camU (ptVec i x0 x2) (View.ld x1 rCam4) (wordAt x2 ![11] inb_S15_S1_11)
  | ⟨5, _⟩ => camU (ptVec i x0 x2) (View.ld x1 rCam5) (wordAt x2 ![13] inb_S15_S1_13)
/-- Its pixel row words. -/
def vAt (i : grid1.Coords) (x0 : Vec F S3x3 .f32) (x1 : Vec F S6x3x4 .f32) (x2 : Vec F S15 .f32) : Fin 6 → IVec S1x20000 32
  | ⟨0, _⟩ => camV (ptVec i x0 x2) (View.ld x1 rCam0) (wordAt x2 ![4] inb_S15_S1_4)
  | ⟨1, _⟩ => camV (ptVec i x0 x2) (View.ld x1 rCam1) (wordAt x2 ![6] inb_S15_S1_6)
  | ⟨2, _⟩ => camV (ptVec i x0 x2) (View.ld x1 rCam2) (wordAt x2 ![8] inb_S15_S1_8)
  | ⟨3, _⟩ => camV (ptVec i x0 x2) (View.ld x1 rCam3) (wordAt x2 ![10] inb_S15_S1_10)
  | ⟨4, _⟩ => camV (ptVec i x0 x2) (View.ld x1 rCam4) (wordAt x2 ![12] inb_S15_S1_12)
  | ⟨5, _⟩ => camV (ptVec i x0 x2) (View.ld x1 rCam5) (wordAt x2 ![14] inb_S15_S1_14)

end AnyInstance

/-! ## The same, written out -/

/-- The voxel's centre less the translation: `x·½ − 50 − t₀`, `y·½ − 50 − t₁`, `z·1 − 3.7 − t₂`. -/
def cK (x2 : S15.Idx → EReal) (n : ℕ) : Fin 3 → EReal
  | ⟨0, _⟩ => (((n / 800 : ℕ) : ℝ) : EReal) * Ideal.ofBits .f32 0x3F000000#32 + Ideal.ofBits .f32 0xC2480000#32 - x2 (ix1 (0 : Fin 15))
  | ⟨1, _⟩ => (((n % 800 / 4 : ℕ) : ℝ) : EReal) * Ideal.ofBits .f32 0x3F000000#32 + Ideal.ofBits .f32 0xC2480000#32 - x2 (ix1 (1 : Fin 15))
  | ⟨2, _⟩ => (((n % 4 : ℕ) : ℝ) : EReal) * Ideal.ofBits .f32 0x3F800000#32 + Ideal.ofBits .f32 0xC06CCCCD#32 - x2 (ix1 (2 : Fin 15))

/-- The rotated point with its fourth coordinate: `(Rᵀ c, 1)`. -/
def ptK (x0 : S3x3.Idx → EReal) (x2 : S15.Idx → EReal) (n : ℕ) : Fin 4 → EReal
  | ⟨0, _⟩ => ∑ q : Fin 3, x0 (ix2 q (0 : Fin 3)) * cK x2 n q
  | ⟨1, _⟩ => ∑ q : Fin 3, x0 (ix2 q (1 : Fin 3)) * cK x2 n q
  | ⟨2, _⟩ => ∑ q : Fin 3, x0 (ix2 q (2 : Fin 3)) * cK x2 n q
  | ⟨3, _⟩ => Ideal.ofBits .f32 0x3F800000#32

/-- Camera `J`'s projection of the point, row `r` (0, 1: the pixel's numerators; 2: the depth). -/
def projK (x0 : S3x3.Idx → EReal) (x1 : S6x3x4.Idx → EReal) (x2 : S15.Idx → EReal) (n : ℕ) (J : Fin 6) (r : Fin 3) : EReal :=
  ∑ m : Fin 4, x1 (ix3 J r m) * ptK x0 x2 n m

/-- Camera `J`'s two offsets among the fifteen. -/
def offU (J : Fin 6) : Fin 15 := ⟨3 + 2 * J.val, by have := J.isLt; omega⟩
def offV (J : Fin 6) : Fin 15 := ⟨4 + 2 * J.val, by have := J.isLt; omega⟩

/-- The pixel's column word. -/
def uK (x0 : S3x3.Idx → EReal) (x1 : S6x3x4.Idx → EReal) (x2 : S15.Idx → EReal) (n : ℕ) (J : Fin 6) : BitVec 32 :=
  FloatOps.fptosi (F := Ideal) 32 (FloatOps.roundeven (F := Ideal) (FloatOps.divf (F := Ideal) (FloatOps.addf (F := Ideal)
    (FloatOps.divf (F := Ideal) (projK x0 x1 x2 n J (0 : Fin 3)) (projK x0 x1 x2 n J (2 : Fin 3))) (x2 (ix1 (offU J))))
    (Scalar.ofBits .f32 0x40800000#32 : Ideal .f32)))
/-- The pixel's row word. -/
def vK (x0 : S3x3.Idx → EReal) (x1 : S6x3x4.Idx → EReal) (x2 : S15.Idx → EReal) (n : ℕ) (J : Fin 6) : BitVec 32 :=
  FloatOps.fptosi (F := Ideal) 32 (FloatOps.roundeven (F := Ideal) (FloatOps.divf (F := Ideal) (FloatOps.addf (F := Ideal)
    (FloatOps.divf (F := Ideal) (projK x0 x1 x2 n J (1 : Fin 3)) (projK x0 x1 x2 n J (2 : Fin 3))) (x2 (ix1 (offV J))))
    (Scalar.ofBits .f32 0x40800000#32 : Ideal .f32)))
/-- The camera's test: the pixel on the 64 × 176 map and the depth positive. -/
def okK (x0 : S3x3.Idx → EReal) (x1 : S6x3x4.Idx → EReal) (x2 : S15.Idx → EReal) (n : ℕ) (J : Fin 6) : BitVec 1 :=
  IntOp.andi (IntOp.andi (IntOp.andi (IntOp.andi (IntOp.cmpi .sge (uK x0 x1 x2 n J) 0#32) (IntOp.cmpi .sge (vK x0 x1 x2 n J) 0#32))
    (IntOp.cmpi .slt (uK x0 x1 x2 n J) 176#32)) (IntOp.cmpi .slt (vK x0 x1 x2 n J) 64#32))
    (FloatOps.cmpf (F := Ideal) .ogt (projK x0 x1 x2 n J (2 : Fin 3)) (Scalar.ofBits .f32 0x00000000#32 : Ideal .f32))

/-! ## The kernel's lane words are these, at the lane's voxel number -/

/-- The centre less the translation. -/
theorem voxPt_K (i : grid1.Coords) (x2 : Vec Ideal S15 .f32) (l : Fin 20000) :
    ∀ q : Fin 3, voxPt (F := Ideal) i x2 (ix2 q l) = cK x2 (laneNo i (ix2 (0 : Fin 1) l)) q
  | ⟨0, _⟩ => by
    refine (voxPt_apply_0 i x2 l).trans ?_
    rw [wordAt_entry x2 ![0] inb_S15_S1_0 (0 : Fin 15) rfl]; rfl
  | ⟨1, _⟩ => by
    refine (voxPt_apply_1 i x2 l).trans ?_
    rw [wordAt_entry x2 ![1] inb_S15_S1_1 (1 : Fin 15) rfl]; rfl
  | ⟨2, _⟩ => by
    refine (voxPt_apply_2 i x2 l).trans ?_
    rw [wordAt_entry x2 ![2] inb_S15_S1_2 (2 : Fin 15) rfl]; rfl

/-- The rotated point. -/
theorem ptVec_K (i : grid1.Coords) (x0 : Vec Ideal S3x3 .f32) (x2 : Vec Ideal S15 .f32) (l : Fin 20000) :
    ∀ m : Fin 4, ptVec (F := Ideal) i x0 x2 (ix2 m l) = ptK x0 x2 (laneNo i (ix2 (0 : Fin 1) l)) m
  | ⟨0, _⟩ => (ptVec_apply_lt i x0 x2 (0 : Fin 3) l).trans (Finset.sum_congr rfl fun q _ => by rw [voxPt_K i x2 l q])
  | ⟨1, _⟩ => (ptVec_apply_lt i x0 x2 (1 : Fin 3) l).trans (Finset.sum_congr rfl fun q _ => by rw [voxPt_K i x2 l q])
  | ⟨2, _⟩ => (ptVec_apply_lt i x0 x2 (2 : Fin 3) l).trans (Finset.sum_congr rfl fun q _ => by rw [voxPt_K i x2 l q])
  | ⟨3, _⟩ => ptVec_apply_last i x0 x2 l

/-- A camera's projection, its slice of the projections any unit rectangle at `(J, 0, 0)`. -/
theorem camProj_K (i : grid1.Coords) (x0 : Vec Ideal S3x3 .f32) (x1 : Vec Ideal S6x3x4 .f32) (x2 : Vec Ideal S15 .f32) (l : Fin 20000)
    (off : Fin 3 → Nat) (inb : ∀ a, off a + S1x3x4.size a ≤ S6x3x4.size a) (J : Fin 6)
    (h0 : off 0 = J.val) (h1 : off 1 = 0) (h2 : off 2 = 0) (r : Fin 3) :
    camProj (F := Ideal) (ptVec (F := Ideal) i x0 x2) (View.ld x1 (Rect.unit (s := S6x3x4) off S1x3x4.size inb)) (ix2 r l)
      = projK x0 x1 x2 (laneNo i (ix2 (0 : Fin 1) l)) J r := by
  rw [camProj_apply]
  unfold projK
  refine Finset.sum_congr rfl fun m _ => ?_
  rw [ldCam_entry x1 off inb J h0 h1 h2 r m, ptVec_K i x0 x2 l m]

/-- A camera's pixel column word, its two offsets' cells any cells at `3 + 2J`, -/
theorem camU_K (i : grid1.Coords) (x0 : Vec Ideal S3x3 .f32) (x1 : Vec Ideal S6x3x4 .f32) (x2 : Vec Ideal S15 .f32) (l : Fin 20000)
    (off : Fin 3 → Nat) (inb : ∀ a, off a + S1x3x4.size a ≤ S6x3x4.size a) (J : Fin 6)
    (h0 : off 0 = J.val) (h1 : off 1 = 0) (h2 : off 2 = 0)
    (offa : Fin 1 → Nat) (inba : ∀ a, offa a + S1.size a ≤ S15.size a) (ha : offa 0 = (offU J).val) :
    camU (F := Ideal) (ptVec (F := Ideal) i x0 x2) (View.ld x1 (Rect.unit (s := S6x3x4) off S1x3x4.size inb)) (wordAt x2 offa inba) (ix2 (0 : Fin 1) l)
      = uK x0 x1 x2 (laneNo i (ix2 (0 : Fin 1) l)) J := by
  rw [camU_lane, camProj_K i x0 x1 x2 l off inb J h0 h1 h2 (0 : Fin 3), camProj_K i x0 x1 x2 l off inb J h0 h1 h2 (2 : Fin 3),
    wordAt_entry x2 offa inba (offU J) ha]
  rfl
/-- its row word, at `4 + 2J`, -/
theorem camV_K (i : grid1.Coords) (x0 : Vec Ideal S3x3 .f32) (x1 : Vec Ideal S6x3x4 .f32) (x2 : Vec Ideal S15 .f32) (l : Fin 20000)
    (off : Fin 3 → Nat) (inb : ∀ a, off a + S1x3x4.size a ≤ S6x3x4.size a) (J : Fin 6)
    (h0 : off 0 = J.val) (h1 : off 1 = 0) (h2 : off 2 = 0)
    (offb : Fin 1 → Nat) (inbb : ∀ a, offb a + S1.size a ≤ S15.size a) (hb : offb 0 = (offV J).val) :
    camV (F := Ideal) (ptVec (F := Ideal) i x0 x2) (View.ld x1 (Rect.unit (s := S6x3x4) off S1x3x4.size inb)) (wordAt x2 offb inbb) (ix2 (0 : Fin 1) l)
      = vK x0 x1 x2 (laneNo i (ix2 (0 : Fin 1) l)) J := by
  rw [camV_lane, camProj_K i x0 x1 x2 l off inb J h0 h1 h2 (1 : Fin 3), camProj_K i x0 x1 x2 l off inb J h0 h1 h2 (2 : Fin 3),
    wordAt_entry x2 offb inbb (offV J) hb]
  rfl
/-- and its test. -/
theorem camOk_K (i : grid1.Coords) (x0 : Vec Ideal S3x3 .f32) (x1 : Vec Ideal S6x3x4 .f32) (x2 : Vec Ideal S15 .f32) (l : Fin 20000)
    (off : Fin 3 → Nat) (inb : ∀ a, off a + S1x3x4.size a ≤ S6x3x4.size a) (J : Fin 6)
    (h0 : off 0 = J.val) (h1 : off 1 = 0) (h2 : off 2 = 0)
    (offa : Fin 1 → Nat) (inba : ∀ a, offa a + S1.size a ≤ S15.size a) (ha : offa 0 = (offU J).val)
    (offb : Fin 1 → Nat) (inbb : ∀ a, offb a + S1.size a ≤ S15.size a) (hb : offb 0 = (offV J).val) :
    camOk (F := Ideal) (ptVec (F := Ideal) i x0 x2) (View.ld x1 (Rect.unit (s := S6x3x4) off S1x3x4.size inb)) (wordAt x2 offa inba) (wordAt x2 offb inbb)
        (ix2 (0 : Fin 1) l)
      = okK x0 x1 x2 (laneNo i (ix2 (0 : Fin 1) l)) J := by
  rw [camOk_lane, camU_K i x0 x1 x2 l off inb J h0 h1 h2 offa inba ha, camV_K i x0 x1 x2 l off inb J h0 h1 h2 offb inbb hb,
    camProj_K i x0 x1 x2 l off inb J h0 h1 h2 (2 : Fin 3)]
  rfl

/-- THE KERNEL'S PIXEL WORDS AND TESTS at grid point `i`, lane `l`, camera by camera, are the written-out ones at the lane's voxel
    number. -/
theorem uAt_K (i : grid1.Coords) (x0 : Vec Ideal S3x3 .f32) (x1 : Vec Ideal S6x3x4 .f32) (x2 : Vec Ideal S15 .f32) (l : Fin 20000) :
    ∀ J : Fin 6, uAt (F := Ideal) i x0 x1 x2 J (ix2 (0 : Fin 1) l) = uK x0 x1 x2 (laneNo i (ix2 (0 : Fin 1) l)) J
  | ⟨0, _⟩ => camU_K i x0 x1 x2 l ![0, 0, 0] inb_S6x3x4_S1x3x4_0_0_0 (0 : Fin 6) rfl rfl rfl ![3] inb_S15_S1_3 rfl
  | ⟨1, _⟩ => camU_K i x0 x1 x2 l ![1, 0, 0] inb_S6x3x4_S1x3x4_1_0_0 (1 : Fin 6) rfl rfl rfl ![5] inb_S15_S1_5 rfl
  | ⟨2, _⟩ => camU_K i x0 x1 x2 l ![2, 0, 0] inb_S6x3x4_S1x3x4_2_0_0 (2 : Fin 6) rfl rfl rfl ![7] inb_S15_S1_7 rfl
  | ⟨3, _⟩ => camU_K i x0 x1 x2 l ![3, 0, 0] inb_S6x3x4_S1x3x4_3_0_0 (3 : Fin 6) rfl rfl rfl ![9] inb_S15_S1_9 rfl
  | ⟨4, _⟩ => camU_K i x0 x1 x2 l ![4, 0, 0] inb_S6x3x4_S1x3x4_4_0_0 (4 : Fin 6) rfl rfl rfl ![11] inb_S15_S1_11 rfl
  | ⟨5, _⟩ => camU_K i x0 x1 x2 l ![5, 0, 0] inb_S6x3x4_S1x3x4_5_0_0 (5 : Fin 6) rfl rfl rfl ![13] inb_S15_S1_13 rfl
theorem vAt_K (i : grid1.Coords) (x0 : Vec Ideal S3x3 .f32) (x1 : Vec Ideal S6x3x4 .f32) (x2 : Vec Ideal S15 .f32) (l : Fin 20000) :
    ∀ J : Fin 6, vAt (F := Ideal) i x0 x1 x2 J (ix2 (0 : Fin 1) l) = vK x0 x1 x2 (laneNo i (ix2 (0 : Fin 1) l)) J
  | ⟨0, _⟩ => camV_K i x0 x1 x2 l ![0, 0, 0] inb_S6x3x4_S1x3x4_0_0_0 (0 : Fin 6) rfl rfl rfl ![4] inb_S15_S1_4 rfl
  | ⟨1, _⟩ => camV_K i x0 x1 x2 l ![1, 0, 0] inb_S6x3x4_S1x3x4_1_0_0 (1 : Fin 6) rfl rfl rfl ![6] inb_S15_S1_6 rfl
  | ⟨2, _⟩ => camV_K i x0 x1 x2 l ![2, 0, 0] inb_S6x3x4_S1x3x4_2_0_0 (2 : Fin 6) rfl rfl rfl ![8] inb_S15_S1_8 rfl
  | ⟨3, _⟩ => camV_K i x0 x1 x2 l ![3, 0, 0] inb_S6x3x4_S1x3x4_3_0_0 (3 : Fin 6) rfl rfl rfl ![10] inb_S15_S1_10 rfl
  | ⟨4, _⟩ => camV_K i x0 x1 x2 l ![4, 0, 0] inb_S6x3x4_S1x3x4_4_0_0 (4 : Fin 6) rfl rfl rfl ![12] inb_S15_S1_12 rfl
  | ⟨5, _⟩ => camV_K i x0 x1 x2 l ![5, 0, 0] inb_S6x3x4_S1x3x4_5_0_0 (5 : Fin 6) rfl rfl rfl ![14] inb_S15_S1_14 rfl
theorem okAt_K (i : grid1.Coords) (x0 : Vec Ideal S3x3 .f32) (x1 : Vec Ideal S6x3x4 .f32) (x2 : Vec Ideal S15 .f32) (l : Fin 20000) :
    ∀ J : Fin 6, okAt (F := Ideal) i x0 x1 x2 J (ix2 (0 : Fin 1) l) = okK x0 x1 x2 (laneNo i (ix2 (0 : Fin 1) l)) J
  | ⟨0, _⟩ => camOk_K i x0 x1 x2 l ![0, 0, 0] inb_S6x3x4_S1x3x4_0_0_0 (0 : Fin 6) rfl rfl rfl ![3] inb_S15_S1_3 rfl ![4] inb_S15_S1_4 rfl
  | ⟨1, _⟩ => camOk_K i x0 x1 x2 l ![1, 0, 0] inb_S6x3x4_S1x3x4_1_0_0 (1 : Fin 6) rfl rfl rfl ![5] inb_S15_S1_5 rfl ![6] inb_S15_S1_6 rfl
  | ⟨2, _⟩ => camOk_K i x0 x1 x2 l ![2, 0, 0] inb_S6x3x4_S1x3x4_2_0_0 (2 : Fin 6) rfl rfl rfl ![7] inb_S15_S1_7 rfl ![8] inb_S15_S1_8 rfl
  | ⟨3, _⟩ => camOk_K i x0 x1 x2 l ![3, 0, 0] inb_S6x3x4_S1x3x4_3_0_0 (3 : Fin 6) rfl rfl rfl ![9] inb_S15_S1_9 rfl ![10] inb_S15_S1_10 rfl
  | ⟨4, _⟩ => camOk_K i x0 x1 x2 l ![4, 0, 0] inb_S6x3x4_S1x3x4_4_0_0 (4 : Fin 6) rfl rfl rfl ![11] inb_S15_S1_11 rfl ![12] inb_S15_S1_12 rfl
  | ⟨5, _⟩ => camOk_K i x0 x1 x2 l ![5, 0, 0] inb_S6x3x4_S1x3x4_5_0_0 (5 : Fin 6) rfl rfl rfl ![13] inb_S15_S1_13 rfl ![14] inb_S15_S1_14 rfl

end Cert.Proof.KI.R1

end
-- ==== Proof.KernelJoin.lean ====
/-
  THE KERNEL'S OWN ADDRESS MEETS THE TABLE.

  The join of the address chain with the table, at the kernel's own words: at grid point `i` and lane `k` the six tests are the
  cameras' tests on the pixel words the body computes, the six row numbers `J·11264 + v·176 + u` of those words; where a test
  holds its words are on the map and its row number does not wrap. So the table's row that the voxel's address names holds, at
  lane `o < 80`, the weights' row `o` against the features the last seeing camera shows at the voxel's pixel — zero if none sees it.
-/
import proofs.«207241_g55714315764006_cont_9to1c4b_410_29_alg».proof.Proof.GatherJoin
import proofs.«207241_g55714315764006_cont_9to1c4b_410_29_alg».proof.Proof.Region1K

set_option maxRecDepth 16384

noncomputable section

namespace Cert.Proof.KI.R1

open Cert.KernelIdeal Cert.KernelIdeal.Gen
open Idealize.ShloMosaic Idealize.ShloMosaic.TcCoe
open Idealize.SL.Sem
open Idealize.ShloMosaic.ValueIdx (ix1 ix2 ix3)
open scoped BigOperators

section AnyInstance
variable {F : FTy → Type} [FloatOps F]

/-- Where a camera's test holds at a lane, its pixel is on the map and its row number is `J·11264 + v·176 + u` as a natural
    number: camera by camera, -/
theorem okAt_facts_0 (i : grid1.Coords) (x0 : Vec F S3x3 .f32) (x1 : Vec F S6x3x4 .f32) (x2 : Vec F S15 .f32) (k : S1x20000.Idx)
    (hok : camOk (ptVec i x0 x2) (View.ld x1 rCam0) (wordAt x2 ![3] inb_S15_S1_3) (wordAt x2 ![4] inb_S15_S1_4) k = 1) :
    (camU (ptVec i x0 x2) (View.ld x1 rCam0) (wordAt x2 ![3] inb_S15_S1_3) k).toNat < 176
      ∧ (camV (ptVec i x0 x2) (View.ld x1 rCam0) (wordAt x2 ![4] inb_S15_S1_4) k).toNat < 64
      ∧ (camRow 0#32 (ptVec i x0 x2) (View.ld x1 rCam0) (wordAt x2 ![3] inb_S15_S1_3) (wordAt x2 ![4] inb_S15_S1_4) k).toNat
          = 0 * 11264 + (camV (ptVec i x0 x2) (View.ld x1 rCam0) (wordAt x2 ![4] inb_S15_S1_4) k).toNat * 176
            + (camU (ptVec i x0 x2) (View.ld x1 rCam0) (wordAt x2 ![3] inb_S15_S1_3) k).toNat := by
  have h := camRow_toNat 0#32 (ptVec i x0 x2) (View.ld x1 rCam0) (wordAt x2 ![3] inb_S15_S1_3) (wordAt x2 ![4] inb_S15_S1_4) k (by decide) hok
  have hb : (0#32 : BitVec 32).toNat = 0 * 11264 := by decide
  rw [hb] at h
  exact ⟨h.2.1, h.2.2, h.1⟩
theorem okAt_facts_1 (i : grid1.Coords) (x0 : Vec F S3x3 .f32) (x1 : Vec F S6x3x4 .f32) (x2 : Vec F S15 .f32) (k : S1x20000.Idx)
    (hok : camOk (ptVec i x0 x2) (View.ld x1 rCam1) (wordAt x2 ![5] inb_S15_S1_5) (wordAt x2 ![6] inb_S15_S1_6) k = 1) :
    (camU (ptVec i x0 x2) (View.ld x1 rCam1) (wordAt x2 ![5] inb_S15_S1_5) k).toNat < 176
      ∧ (camV (ptVec i x0 x2) (View.ld x1 rCam1) (wordAt x2 ![6] inb_S15_S1_6) k).toNat < 64
      ∧ (camRow 11264#32 (ptVec i x0 x2) (View.ld x1 rCam1) (wordAt x2 ![5] inb_S15_S1_5) (wordAt x2 ![6] inb_S15_S1_6) k).toNat
          = 1 * 11264 + (camV (ptVec i x0 x2) (View.ld x1 rCam1) (wordAt x2 ![6] inb_S15_S1_6) k).toNat * 176
            + (camU (ptVec i x0 x2) (View.ld x1 rCam1) (wordAt x2 ![5] inb_S15_S1_5) k).toNat := by
  have h := camRow_toNat 11264#32 (ptVec i x0 x2) (View.ld x1 rCam1) (wordAt x2 ![5] inb_S15_S1_5) (wordAt x2 ![6] inb_S15_S1_6) k (by decide) hok
  have hb : (11264#32 : BitVec 32).toNat = 1 * 11264 := by decide
  rw [hb] at h
  exact ⟨h.2.1, h.2.2, h.1⟩
theorem okAt_facts_2 (i : grid1.Coords) (x0 : Vec F S3x3 .f32) (x1 : Vec F S6x3x4 .f32) (x2 : Vec F S15 .f32) (k : S1x20000.Idx)
    (hok : camOk (ptVec i x0 x2) (View.ld x1 rCam2) (wordAt x2 ![7] inb_S15_S1_7) (wordAt x2 ![8] inb_S15_S1_8) k = 1) :
    (camU (ptVec i x0 x2) (View.ld x1 rCam2) (wordAt x2 ![7] inb_S15_S1_7) k).toNat < 176
      ∧ (camV (ptVec i x0 x2) (View.ld x1 rCam2) (wordAt x2 ![8] inb_S15_S1_8) k).toNat < 64
      ∧ (camRow 22528#32 (ptVec i x0 x2) (View.ld x1 rCam2) (wordAt x2 ![7] inb_S15_S1_7) (wordAt x2 ![8] inb_S15_S1_8) k).toNat
          = 2 * 11264 + (camV (ptVec i x0 x2) (View.ld x1 rCam2) (wordAt x2 ![8] inb_S15_S1_8) k).toNat * 176
            + (camU (ptVec i x0 x2) (View.ld x1 rCam2) (wordAt x2 ![7] inb_S15_S1_7) k).toNat := by
  have h := camRow_toNat 22528#32 (ptVec i x0 x2) (View.ld x1 rCam2) (wordAt x2 ![7] inb_S15_S1_7) (wordAt x2 ![8] inb_S15_S1_8) k (by decide) hok
  have hb : (22528#32 : BitVec 32).toNat = 2 * 11264 := by decide
  rw [hb] at h
  exact ⟨h.2.1, h.2.2, h.1⟩
theorem okAt_facts_3 (i : grid1.Coords) (x0 : Vec F S3x3 .f32) (x1 : Vec F S6x3x4 .f32) (x2 : Vec F S15 .f32) (k : S1x20000.Idx)
    (hok : camOk (ptVec i x0 x2) (View.ld x1 rCam3) (wordAt x2 ![9] inb_S15_S1_9) (wordAt x2 ![10] inb_S15_S1_10) k = 1) :
    (camU (ptVec i x0 x2) (View.ld x1 rCam3) (wordAt x2 ![9] inb_S15_S1_9) k).toNat < 176
      ∧ (camV (ptVec i x0 x2) (View.ld x1 rCam3) (wordAt x2 ![10] inb_S15_S1_10) k).toNat < 64
      ∧ (camRow 33792#32 (ptVec i x0 x2) (View.ld x1 rCam3) (wordAt x2 ![9] inb_S15_S1_9) (wordAt x2 ![10] inb_S15_S1_10) k).toNat
          = 3 * 11264 + (camV (ptVec i x0 x2) (View.ld x1 rCam3) (wordAt x2 ![10] inb_S15_S1_10) k).toNat * 176
            + (camU (ptVec i x0 x2) (View.ld x1 rCam3) (wordAt x2 ![9] inb_S15_S1_9) k).toNat := by
  have h := camRow_toNat 33792#32 (ptVec i x0 x2) (View.ld x1 rCam3) (wordAt x2 ![9] inb_S15_S1_9) (wordAt x2 ![10] inb_S15_S1_10) k (by decide) hok
  have hb : (33792#32 : BitVec 32).toNat = 3 * 11264 := by decide
  rw [hb] at h
  exact ⟨h.2.1, h.2.2, h.1⟩
theorem okAt_facts_4 (i : grid1.Coords) (x0 : Vec F S3x3 .f32) (x1 : Vec F S6x3x4 .f32) (x2 : Vec F S15 .f32) (k : S1x20000.Idx)
    (hok : camOk (ptVec i x0 x2) (View.ld x1 rCam4) (wordAt x2 ![11] inb_S15_S1_11) (wordAt x2 ![12] inb_S15_S1_12) k = 1) :
    (camU (ptVec i x0 x2) (View.ld x1 rCam4) (wordAt x2 ![11] inb_S15_S1_11) k).toNat < 176
      ∧ (camV (ptVec i x0 x2) (View.ld x1 rCam4) (wordAt x2 ![12] inb_S15_S1_12) k).toNat < 64
      ∧ (camRow 45056#32 (ptVec i x0 x2) (View.ld x1 rCam4) (wordAt x2 ![11] inb_S15_S1_11) (wordAt x2 ![12] inb_S15_S1_12) k).toNat
          = 4 * 11264 + (camV (ptVec i x0 x2) (View.ld x1 rCam4) (wordAt x2 ![12] inb_S15_S1_12) k).toNat * 176
            + (camU (ptVec i x0 x2) (View.ld x1 rCam4) (wordAt x2 ![11] inb_S15_S1_11) k).toNat := by
  have h := camRow_toNat 45056#32 (ptVec i x0 x2) (View.ld x1 rCam4) (wordAt x2 ![11] inb_S15_S1_11) (wordAt x2 ![12] inb_S15_S1_12) k (by decide) hok
  have hb : (45056#32 : BitVec 32).toNat = 4 * 11264 := by decide
  rw [hb] at h
  exact ⟨h.2.1, h.2.2, h.1⟩
theorem okAt_facts_5 (i : grid1.Coords) (x0 : Vec F S3x3 .f32) (x1 : Vec F S6x3x4 .f32) (x2 : Vec F S15 .f32) (k : S1x20000.Idx)
    (hok : camOk (ptVec i x0 x2) (View.ld x1 rCam5) (wordAt x2 ![13] inb_S15_S1_13) (wordAt x2 ![14] inb_S15_S1_14) k = 1) :
    (camU (ptVec i x0 x2) (View.ld x1 rCam5) (wordAt x2 ![13] inb_S15_S1_13) k).toNat < 176
      ∧ (camV (ptVec i x0 x2) (View.ld x1 rCam5) (wordAt x2 ![14] inb_S15_S1_14) k).toNat < 64
      ∧ (camRow 56320#32 (ptVec i x0 x2) (View.ld x1 rCam5) (wordAt x2 ![13] inb_S15_S1_13) (wordAt x2 ![14] inb_S15_S1_14) k).toNat
          = 5 * 11264 + (camV (ptVec i x0 x2) (View.ld x1 rCam5) (wordAt x2 ![14] inb_S15_S1_14) k).toNat * 176
            + (camU (ptVec i x0 x2) (View.ld x1 rCam5) (wordAt x2 ![13] inb_S15_S1_13) k).toNat := by
  have h := camRow_toNat 56320#32 (ptVec i x0 x2) (View.ld x1 rCam5) (wordAt x2 ![13] inb_S15_S1_13) (wordAt x2 ![14] inb_S15_S1_14) k (by decide) hok
  have hb : (56320#32 : BitVec 32).toNat = 5 * 11264 := by decide
  rw [hb] at h
  exact ⟨h.2.1, h.2.2, h.1⟩

/-- and for the camera as an index. -/
theorem okAt_facts (i : grid1.Coords) (x0 : Vec F S3x3 .f32) (x1 : Vec F S6x3x4 .f32) (x2 : Vec F S15 .f32) (k : S1x20000.Idx)
    (J : Fin 6) (hok : okAt i x0 x1 x2 J k = 1) :
    (uAt i x0 x1 x2 J k).toNat < 176 ∧ (vAt i x0 x1 x2 J k).toNat < 64
      ∧ (rowAt i x0 x1 x2 J k).toNat = J.val * 11264 + (vAt i x0 x1 x2 J k).toNat * 176 + (uAt i x0 x1 x2 J k).toNat := by
  match J, hok with
  | ⟨0, _⟩, hok => exact okAt_facts_0 i x0 x1 x2 k hok
  | ⟨1, _⟩, hok => exact okAt_facts_1 i x0 x1 x2 k hok
  | ⟨2, _⟩, hok => exact okAt_facts_2 i x0 x1 x2 k hok
  | ⟨3, _⟩, hok => exact okAt_facts_3 i x0 x1 x2 k hok
  | ⟨4, _⟩, hok => exact okAt_facts_4 i x0 x1 x2 k hok
  | ⟨5, _⟩, hok => exact okAt_facts_5 i x0 x1 x2 k hok

end AnyInstance

/-- THE KERNEL'S LANE, JOINED: the table's row that the voxel's address at grid point `i`, lane `k`, names, at lane `o < 80`. -/
theorem kernel_lane_join (x : S6x256x11264.Idx → EReal) (w : S80x256.Idx → EReal) (i : grid1.Coords)
    (x0 : Vec Ideal S3x3 .f32) (x1 : Vec Ideal S6x3x4 .f32) (x2 : Vec Ideal S15 .f32) (k : S1x20000.Idx) (o : Fin 80) :
    tabRows (F := Ideal) x w (Sc.tIx ⟨(addrVec (F := Ideal) i x0 x1 x2 k).toNat % 78848, Nat.mod_lt _ (by decide)⟩ ⟨o.val, by omega⟩)
      = ∑ ch : Fin 256, volK x (fun J => okAt (F := Ideal) i x0 x1 x2 J k) (fun J => uAt (F := Ideal) i x0 x1 x2 J k)
          (fun J => vAt (F := Ideal) i x0 x1 x2 J k) ch * w (ix2 o ch) := by
  rw [addrVec_chain]
  exact tab_at_addr x w _ _ _ _ o (fun J hok => okAt_facts (F := Ideal) i x0 x1 x2 k J hok)

/-- THE SAME OVER THE WRITTEN-OUT WORDS: at grid point `i` and lane `l` the tests, the pixel words and so the features picked are
    those of the lane's voxel number, explicit in the entries of the rotation, the projections and the offsets. -/
theorem kernel_lane_join_K (x : S6x256x11264.Idx → EReal) (w : S80x256.Idx → EReal) (i : grid1.Coords)
    (x0 : Vec Ideal S3x3 .f32) (x1 : Vec Ideal S6x3x4 .f32) (x2 : Vec Ideal S15 .f32) (l : Fin 20000) (o : Fin 80) :
    tabRows (F := Ideal) x w (Sc.tIx ⟨(addrVec (F := Ideal) i x0 x1 x2 (ix2 (0 : Fin 1) l)).toNat % 78848, Nat.mod_lt _ (by decide)⟩ ⟨o.val, by omega⟩)
      = ∑ ch : Fin 256, volK x (okK x0 x1 x2 (laneNo i (ix2 (0 : Fin 1) l))) (uK x0 x1 x2 (laneNo i (ix2 (0 : Fin 1) l)))
          (vK x0 x1 x2 (laneNo i (ix2 (0 : Fin 1) l))) ch * w (ix2 o ch) := by
  rw [kernel_lane_join]
  have e1 : (fun J => okAt (F := Ideal) i x0 x1 x2 J (ix2 (0 : Fin 1) l)) = okK x0 x1 x2 (laneNo i (ix2 (0 : Fin 1) l)) := funext (okAt_K i x0 x1 x2 l)
  have e2 : (fun J => uAt (F := Ideal) i x0 x1 x2 J (ix2 (0 : Fin 1) l)) = uK x0 x1 x2 (laneNo i (ix2 (0 : Fin 1) l)) := funext (uAt_K i x0 x1 x2 l)
  have e3 : (fun J => vAt (F := Ideal) i x0 x1 x2 J (ix2 (0 : Fin 1) l)) = vK x0 x1 x2 (laneNo i (ix2 (0 : Fin 1) l)) := funext (vAt_K i x0 x1 x2 l)
  rw [e1, e2, e3]

end Cert.Proof.KI.R1

end
-- ==== Proof.KernelResultKI.lean ====
/-
  The kernel's result, read at an index, in closed form at the ideal floats.

  The result at (0, o, x, y) is the normalised array at output o and position r = 200 x + y. The normalisation reads
  the feature rows, their statistics, the scale and the shift. Feature row r at output o is the sum
  ((t₀ + t₁) + (t₂ + t₃)) of the table's rows at the addresses of the four voxels 4 r … 4 r + 3 (worker r / 1250,
  part (r % 1250) / 250, row r % 250 of the gathered array; chunk and lane of the address array at flat position
  4 r + z); the address of voxel n is the address region's word at grid point n / 20000, lane n % 20000; and the
  table's row at that word, at lane o, is the weights' row o against the features the last seeing camera shows at
  the voxel's pixel. The statistics are the mean and the deviation of the forty thousand feature rows, re-indexed
  by the position (x, y). So the result is the normalisation, in the kernel's arrangement, of the position values.
-/
import proofs.«207241_g55714315764006_cont_9to1c4b_410_29_alg».proof.Proof.KernelValueKI
import proofs.«207241_g55714315764006_cont_9to1c4b_410_29_alg».proof.Proof.KernelValue2KI
import proofs.«207241_g55714315764006_cont_9to1c4b_410_29_alg».proof.Proof.KeptKI
import proofs.«207241_g55714315764006_cont_9to1c4b_410_29_alg».proof.Proof.Region4
import proofs.«207241_g55714315764006_cont_9to1c4b_410_29_alg».proof.Proof.Region3Value
import proofs.«207241_g55714315764006_cont_9to1c4b_410_29_alg».proof.Proof.ScTile
import proofs.«207241_g55714315764006_cont_9to1c4b_410_29_alg».proof.Proof.Region1
import proofs.«207241_g55714315764006_cont_9to1c4b_410_29_alg».proof.Proof.KernelJoin
import proofs.«207241_g55714315764006_cont_9to1c4b_410_29_alg».proof.Proof.BridgeMath
import Idealize.ShloMosaic.Lib.Pipeline.Value
import Idealize.ShloMosaic.Lib.ValueIdx
import Mathlib.Algebra.BigOperators.Fin
import Mathlib.Logic.Equiv.Fin.Basic

set_option maxRecDepth 16384

noncomputable section

namespace Cert.Proof.KI

open Cert.KernelIdeal Cert.KernelIdeal.Gen Cert.Proof.KI.Ops
open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.Sem
open Idealize.ShloMosaic.StableHlo (held seq after)
open scoped BigOperators

namespace KR

/-! ## The value at a voxel and at a position -/

/-- The table's row for voxel `n` at output `o`: the weights' row `o` against the features the last seeing camera shows at the
    voxel's pixel. -/
def voxTerm (feat : S6x256x11264.Idx → EReal) (wgt : S80x256.Idx → EReal)
    (x0 : S3x3.Idx → EReal) (x1 : S6x3x4.Idx → EReal) (x2 : S15.Idx → EReal) (o : Fin 80) (n : ℕ) : EReal :=
  ∑ ch : Fin 256, R1.volK feat (R1.okK x0 x1 x2 n) (R1.uK x0 x1 x2 n) (R1.vK x0 x1 x2 n) ch * wgt (ix2 o ch)

/-- The value at position (x, y): the four voxels 800 x + 4 y … + 3, added pairwise. -/
def posVal (feat : S6x256x11264.Idx → EReal) (wgt : S80x256.Idx → EReal)
    (x0 : S3x3.Idx → EReal) (x1 : S6x3x4.Idx → EReal) (x2 : S15.Idx → EReal) (o : Fin 80) (r : Fin 200 × Fin 200) : EReal :=
  (voxTerm feat wgt x0 x1 x2 o (800 * r.1.val + 4 * r.2.val + 0) + voxTerm feat wgt x0 x1 x2 o (800 * r.1.val + 4 * r.2.val + 1))
    + (voxTerm feat wgt x0 x1 x2 o (800 * r.1.val + 4 * r.2.val + 2) + voxTerm feat wgt x0 x1 x2 o (800 * r.1.val + 4 * r.2.val + 3))

/-- The address grid has one axis: a point's coordinate is its number. -/
theorem coords1_val : ∀ t : Fin grid1.N, ((grid1.coords t) 0).val = t.val := by decide +kernel

section Chain

variable (m : (ℓ : Loc nD τ sig) → Buf (Elt Ideal) ℓ) (d : Dev nD)

/-- The arrays the address region reads, as it is entered. -/
abbrev rotK : S3x3.Idx → EReal := Eb (F := Ideal) m d (Proc.devRef .tc main_v7)
abbrev projArr : S6x3x4.Idx → EReal := Eb (F := Ideal) m d (Proc.devRef .tc main_v18)
abbrev parArr : S15.Idx → EReal := Eb (F := Ideal) m d (Proc.devRef .tc main_v21)

variable (feat : S6x256x11264.Idx → EReal) (wgt : S80x256.Idx → EReal)
variable (htab : tabOf (Ec (F := Ideal) m) d = R1.tabRows (F := Ideal) feat wgt)
include htab

/-- THE TABLE'S ROW AT AN ADDRESS: the row that address j of chunk k of worker w names, at lane o, is the voxel term of
    the voxel at that flat position of the address array. -/
theorem row_term (w : Fin 32) (k : Fin 250) (j : Fin 20) (o : Fin 80) (n : ℕ) (hn : n = w.val * 5000 + k.val * 20 + j.val) :
    Sc.rowAt (tabOf (Ec (F := Ideal) m)) (adrOf (Ec (F := Ideal) m)) d w k j ⟨o.val, by have := o.isLt; omega⟩
      = voxTerm feat wgt (rotK m d) (projArr m d) (parArr m d) o n := by
  have hw := w.isLt
  have hk := k.isLt
  have hj := j.isLt
  have hlt : n / 20000 < 8 := by omega
  have e := adr_apply (F := Ideal) m d (Sc.aIx w k j) ⟨n / 20000, hlt⟩ ⟨n % 20000, Nat.mod_lt _ (by decide)⟩
    ((Nat.div_add_mod' n 20000).trans hn)
  unfold Sc.rowAt
  rw [htab]
  have hl : R1.laneNo (grid1.coords (R1.ptOf (ix3 (⟨n / 20000, hlt⟩ : Fin 8) (0 : Fin 1) (⟨n % 20000, Nat.mod_lt _ (by decide)⟩ : Fin 20000))))
      (ix2 (0 : Fin 1) (⟨n % 20000, Nat.mod_lt _ (by decide)⟩ : Fin 20000)) = n := by
    unfold R1.laneNo
    rw [coords1_val]
    show n / 20000 * 20000 + n % 20000 = n
    exact Nat.div_add_mod' n 20000
  have hj := R1.kernel_lane_join_K feat wgt
    (grid1.coords (R1.ptOf (ix3 (⟨n / 20000, hlt⟩ : Fin 8) (0 : Fin 1) (⟨n % 20000, Nat.mod_lt _ (by decide)⟩ : Fin 20000))))
    (rotK m d) (projArr m d) (parArr m d) ⟨n % 20000, Nat.mod_lt _ (by decide)⟩ o
  rw [hl] at hj
  have key : ∀ (a : BitVec 32), a = R1.addrVec (F := Ideal)
        (grid1.coords (R1.ptOf (ix3 (⟨n / 20000, hlt⟩ : Fin 8) (0 : Fin 1) (⟨n % 20000, Nat.mod_lt _ (by decide)⟩ : Fin 20000))))
        (rotK m d) (projArr m d) (parArr m d) (ix2 (0 : Fin 1) (⟨n % 20000, Nat.mod_lt _ (by decide)⟩ : Fin 20000)) →
      R1.tabRows (F := Ideal) feat wgt (Sc.tIx ⟨a.toNat % 78848, Nat.mod_lt _ (by decide)⟩ ⟨o.val, by have := o.isLt; omega⟩)
        = voxTerm feat wgt (rotK m d) (projArr m d) (parArr m d) o n := by
    intro a ha
    subst ha
    exact hj
  exact key _ (e.trans (R1.addrOf_apply _ _ _ _))

/-- FEATURE ROW r AT OUTPUT o is the position's value: the four table rows at the addresses of voxels 4 r … 4 r + 3. -/
theorem position_value (r : Fin 40000) (o : Fin 80) :
    Ed (F := Ideal) m d (Proc.devRef .tc main_v25) (ix2 r o)
      = (voxTerm feat wgt (rotK m d) (projArr m d) (parArr m d) o (4 * r.val + 0)
          + voxTerm feat wgt (rotK m d) (projArr m d) (parArr m d) o (4 * r.val + 1))
        + (voxTerm feat wgt (rotK m d) (projArr m d) (parArr m d) o (4 * r.val + 2)
          + voxTerm feat wgt (rotK m d) (projArr m d) (parArr m d) o (4 * r.val + 3)) := by
  have hr := r.isLt
  rw [bev_apply]
  show (Sc.rowAt (tabOf (Ec (F := Ideal) m)) (adrOf (Ec (F := Ideal) m)) d _ _ _ _ + Sc.rowAt (tabOf (Ec (F := Ideal) m)) (adrOf (Ec (F := Ideal) m)) d _ _ _ _)
      + (Sc.rowAt (tabOf (Ec (F := Ideal) m)) (adrOf (Ec (F := Ideal) m)) d _ _ _ _ + Sc.rowAt (tabOf (Ec (F := Ideal) m)) (adrOf (Ec (F := Ideal) m)) d _ _ _ _) = _
  refine congrArg₂ (· + ·) (congrArg₂ (· + ·) ?_ ?_) (congrArg₂ (· + ·) ?_ ?_)
  · exact row_term m d feat wgt htab _ _ _ o _ (by
      show 4 * r.val + 0 = r.val / 1250 * 5000 + (50 * (r.val % 1250 / 250) + r.val % 250 / 5) * 20 + (4 * (r.val % 250 % 5) + 0); omega)
  · exact row_term m d feat wgt htab _ _ _ o _ (by
      show 4 * r.val + 1 = r.val / 1250 * 5000 + (50 * (r.val % 1250 / 250) + r.val % 250 / 5) * 20 + (4 * (r.val % 250 % 5) + 1); omega)
  · exact row_term m d feat wgt htab _ _ _ o _ (by
      show 4 * r.val + 2 = r.val / 1250 * 5000 + (50 * (r.val % 1250 / 250) + r.val % 250 / 5) * 20 + (4 * (r.val % 250 % 5) + 2); omega)
  · exact row_term m d feat wgt htab _ _ _ o _ (by
      show 4 * r.val + 3 = r.val / 1250 * 5000 + (50 * (r.val % 1250 / 250) + r.val % 250 / 5) * 20 + (4 * (r.val % 250 % 5) + 3); omega)

/-- The same by the position (x, y): row 200 x + y. -/
theorem position_value' (q : Fin 200 × Fin 200) (o : Fin 80) :
    Ed (F := Ideal) m d (Proc.devRef .tc main_v25) (ix2 (finProdFinEquiv q) o)
      = posVal feat wgt (rotK m d) (projArr m d) (parArr m d) o q := by
  rw [position_value m d feat wgt htab]
  unfold posVal
  have e : (finProdFinEquiv q : Fin (200 * 200)).val = q.2.val + 200 * q.1.val := rfl
  have e4 : ∀ z : ℕ, 4 * (finProdFinEquiv q : Fin (200 * 200)).val + z = 800 * q.1.val + 4 * q.2.val + z := fun z => by rw [e]; ring
  rw [e4 0, e4 1, e4 2, e4 3]

omit htab in
/-- A sum over the forty thousand rows is the sum over the positions. -/
theorem sum_rows (f : Fin 40000 → EReal) : ∑ r : Fin 40000, f r = ∑ q : Fin 200 × Fin 200, f (finProdFinEquiv q) :=
  (Equiv.sum_comp (finProdFinEquiv : Fin 200 × Fin 200 ≃ Fin (200 * 200)) f).symm

end Chain

/-! ## The arrays the normalisation reads, at their literal types -/

section Result

variable (m : (ℓ : Loc nD τ sig) → Buf (Elt Ideal) ℓ) (d : Dev nD)

/-- The feature rows; the padded feature rows, their statistics, the scale and the shift as the normalisation region is entered. -/
abbrev bevArr : S40000x80.Idx → EReal := Ed (F := Ideal) m d (Proc.devRef .tc main_v25)
abbrev padArr : S40960x80.Idx → EReal := Ee (F := Ideal) m d (Proc.devRef .tc main_v28)
abbrev stArr : S2x80.Idx → EReal := Ee (F := Ideal) m d (Proc.devRef .tc main_v26)
abbrev gArr : S1x80.Idx → EReal := Ee (F := Ideal) m d (Proc.devRef .tc main_v29)
abbrev bArr : S1x80.Idx → EReal := Ee (F := Ideal) m d (Proc.devRef .tc main_v30)

variable (feat : S6x256x11264.Idx → EReal) (wgt : S80x256.Idx → EReal)
variable (htab : tabOf (Ec (F := Ideal) m) d = R1.tabRows (F := Ideal) feat wgt)
include htab

/-- The statistics the normalisation reads, over the positions: the mean of the position values and their deviation. -/
theorem stats_pos (o : Fin 80) :
    stArr m d (ix2 (0 : Fin 2) o)
      = Ideal.div (∑ q : Fin 200 × Fin 200, posVal feat wgt (rotK m d) (projArr m d) (parArr m d) o q) (Ideal.ofBits .f32 0x471C4000#32)
    ∧ stArr m d (ix2 (1 : Fin 2) o)
      = Ideal.sqrt (Ideal.div (∑ q : Fin 200 × Fin 200, posVal feat wgt (rotK m d) (projArr m d) (parArr m d) o q
              * posVal feat wgt (rotK m d) (projArr m d) (parArr m d) o q) (Ideal.ofBits .f32 0x471C4000#32)
          - Ideal.div (∑ q : Fin 200 × Fin 200, posVal feat wgt (rotK m d) (projArr m d) (parArr m d) o q) (Ideal.ofBits .f32 0x471C4000#32)
            * Ideal.div (∑ q : Fin 200 × Fin 200, posVal feat wgt (rotK m d) (projArr m d) (parArr m d) o q) (Ideal.ofBits .f32 0x471C4000#32)
          + Ideal.ofBits .f32 0x3727C5AC#32) := by
  obtain ⟨h0, h1⟩ := R3.statsOf_apply (bevArr m d) o
  have e1 : ∑ r : Fin 40000, bevArr m d (ix2 r o)
      = ∑ q : Fin 200 × Fin 200, posVal feat wgt (rotK m d) (projArr m d) (parArr m d) o q :=
    (sum_rows (fun r => bevArr m d (ix2 r o))).trans
      (Finset.sum_congr rfl fun q _ => position_value' m d feat wgt htab q o)
  have e2 : ∑ r : Fin 40000, bevArr m d (ix2 r o) * bevArr m d (ix2 r o)
      = ∑ q : Fin 200 × Fin 200, posVal feat wgt (rotK m d) (projArr m d) (parArr m d) o q * posVal feat wgt (rotK m d) (projArr m d) (parArr m d) o q :=
    (sum_rows (fun r => bevArr m d (ix2 r o) * bevArr m d (ix2 r o))).trans
      (Finset.sum_congr rfl fun q _ => congrArg₂ (· * ·) (position_value' m d feat wgt htab q o) (position_value' m d feat wgt htab q o))
  rw [e1] at h0
  rw [e1, e2] at h1
  have hs : stArr m d = R3.statsOf (F := Ideal) (bevArr m d) := stats_input (F := Ideal) m d
  exact ⟨(congrFun hs _).trans h0, (congrFun hs _).trans h1⟩

/-- THE KERNEL'S RESULT at (0, o, x, y): the normalisation, in the kernel's arrangement, of the position values at output
    o — the mean and the mean square over the 200 by 200 positions, the scale and the shift the launch memory's. -/
theorem result_at (o : Fin 80) (ix iy : Fin 200) :
    Wf (F := Ideal) m (Rf m) (Gf m) d (Proc.devRef .tc main_v33) (ix4 (0 : Fin 1) o ix iy)
      = Cert.Proof.Bridge.kerOut (posVal feat wgt (rotK m d) (projArr m d) (parArr m d) o)
          (Ideal.ofBits .f32 0x471C4000#32) (Ideal.ofBits .f32 0x3727C5AC#32)
          (m (d, Proc.devRef .tc main_arg9) (ix1 o)) (m (d, Proc.devRef .tc main_arg10) (ix1 o)) (ix, iy) := by
  have hx := ix.isLt
  have hy := iy.isLt
  have hr : 200 * ix.val + iy.val < 40000 := by omega
  obtain ⟨hs0, hs1⟩ := stats_pos m d feat wgt htab o
  have hA : padArr m d (ix2 (⟨200 * ix.val + iy.val, by omega⟩ : Fin 40960) o)
      = posVal feat wgt (rotK m d) (projArr m d) (parArr m d) o (ix, iy) := by
    refine (Ee_x (F := Ideal) m d ⟨200 * ix.val + iy.val, hr⟩ o).trans ?_
    have e : (⟨200 * ix.val + iy.val, hr⟩ : Fin 40000) = finProdFinEquiv (ix, iy) :=
      Fin.ext (by show 200 * ix.val + iy.val = iy.val + 200 * ix.val; omega)
    rw [e]
    exact position_value' m d feat wgt htab (ix, iy) o
  have hC : gArr m d (ix2 (0 : Fin 1) o) = m (d, Proc.devRef .tc main_arg9) (ix1 o) := Ee_g_launch (F := Ideal) m d o
  have hD : bArr m d (ix2 (0 : Fin 1) o) = m (d, Proc.devRef .tc main_arg10) (ix1 o) := Ee_b_launch (F := Ideal) m d o
  refine (out_apply (F := Ideal) m d o ix iy).trans ?_
  refine (R4.normOf_apply (padArr m d) (stArr m d) (gArr m d) (bArr m d) _).trans ?_
  show max (Ideal.div (padArr m d (ix2 (⟨200 * ix.val + iy.val, by omega⟩ : Fin 40960) o) - stArr m d (ix2 (0 : Fin 2) o))
      (stArr m d (ix2 (1 : Fin 2) o)) * gArr m d (ix2 (0 : Fin 1) o) + bArr m d (ix2 (0 : Fin 1) o)) 0 = _
  rw [hA, hs0, hs1, hC, hD]
  rfl

end Result

/-! ## The table, and the result in closed form -/

section Closed

variable (m : (ℓ : Loc nD τ sig) → Buf (Elt Ideal) ℓ) (d : Dev nD)

/-- The camera features as the table region is entered, and the weights as launched. -/
abbrev featArr : S6x256x11264.Idx → EReal := Ea (F := Ideal) m d (Proc.devRef .tc main_v1)
abbrev wArr : S80x256.Idx → EReal := m (d, Proc.devRef .tc main_arg7)

/-- THE TABLE the gather call reads is the feature table of those features and weights, its seven planes laid one after
    another: the table region leaves it in its result array, the next stretch recasts it, and nothing writes it after. -/
theorem tab_rows : tabOf (Ec (F := Ideal) m) d = R1.tabRows (F := Ideal) (featArr m d) (wArr m d) := by
  rw [tabOf_eq (F := Ideal) m d]
  have h : X0 (F := Ideal) m d (Proc.devRef .tc main_v2)
      = R0.tableOf (Ea (F := Ideal) m d (Proc.devRef .tc main_v1)) (Ea (F := Ideal) m d (Proc.devRef .tc main_arg7)) :=
    (Wx0_arr (Ea (F := Ideal) m) d 2).trans (R0.table_eq (Vof (Ea (F := Ideal) m d)) ((K (F := Ideal)).Otc d 0) (Rcn (F := Ideal) d 0) d)
  funext i
  show after (ops1 (F := Ideal)) (X0 (F := Ideal) m d) (Proc.devRef .tc main_v3) i = _
  after_results
  show shapeCast S78848x128 (X0 (F := Ideal) m d (Proc.devRef .tc main_v2)) shapeCasts_S7x11264x128_S78848x128 i = _
  rw [h, Ea_w (F := Ideal) m d]
  rfl

end Closed

end KR

/-- THE KERNEL'S RESULT at (0, o, x, y), in closed form: the normalisation, in the kernel's arrangement, of the position values
    — at position (x, y) the four voxels 800 x + 4 y … + 3, each the weights' row o against the features the last seeing
    camera shows at the voxel's pixel — with the scale and the shift of the launch memory. -/
theorem kernel_result (m : (ℓ : Loc nD τ sig) → Buf (Elt Ideal) ℓ) (d : Dev nD) (o : Fin 80) (ix iy : Fin 200) :
    Wf (F := Ideal) m (Rf m) (Gf m) d (Proc.devRef .tc main_v33) (ix4 (0 : Fin 1) o ix iy)
      = Cert.Proof.Bridge.kerOut (KR.posVal (KR.featArr m d) (KR.wArr m d) (KR.rotK m d) (KR.projArr m d) (KR.parArr m d) o)
          (Ideal.ofBits .f32 0x471C4000#32) (Ideal.ofBits .f32 0x3727C5AC#32)
          (m (d, Proc.devRef .tc main_arg9) (ix1 o)) (m (d, Proc.devRef .tc main_arg10) (ix1 o)) (ix, iy) :=
  KR.result_at m d (KR.featArr m d) (KR.wArr m d) (KR.tab_rows m d) o ix iy

end Cert.Proof.KI

end
-- ==== Proof.FiniteKI.lean ====
/-
  From the precondition to "every entry is a real". The precondition says, of the eleven argument
  arrays, that the conjunction over the arrays of "every element's absolute value is below +∞" is
  true. On the extended reals |x| = max x (-x) is below ⊤ exactly when x is neither ⊥ nor ⊤, that is,
  when x is a real. So every entry of every argument array is a real.
-/
import proofs.«207241_g55714315764006_cont_9to1c4b_410_29_alg».proof.Defs
import proofs.«207241_g55714315764006_cont_9to1c4b_410_29_alg».proof.Proof.Gen.Pre_finite_inputs
import Idealize.ShloMosaic.Lib.ReduceAll
import Idealize.ShloMosaic.Lib.ValueIdx

noncomputable section

namespace Cert.Proof.Bridge

open Idealize.ShloMosaic Idealize.SL.Sem

/-- The shape of rank zero has one index. -/
instance subsingleton_idx0 : Subsingleton (⟨0, ![]⟩ : Shape).Idx :=
  ⟨fun a b => funext fun d => d.elim0⟩

/-- The pattern 0x7F800000 denotes +∞. -/
theorem ofBits_inf : Ideal.ofBits .f32 0x7F800000#32 = ⊤ := by
  simp [Ideal.ofBits, Ideal.ieee]

/-- An extended real whose absolute value compares below +∞ is neither infinity. -/
theorem finite_of_abs_lt_inf {x : EReal}
    (h : FloatOps.cmpf (F := Ideal) (φ := .f32) .olt (FloatOps.hostAbsf x) (FloatOps.ofBits .f32 0x7F800000#32) = 1#1) :
    x ≠ ⊥ ∧ x ≠ ⊤ := by
  change BitVec.ofBool (decide (max x (-x) < Ideal.ofBits .f32 0x7F800000#32)) = 1#1 at h
  rw [ofBits_inf] at h
  induction x using EReal.rec with
  | bot => simp at h
  | top => simp at h
  | coe r => exact ⟨EReal.coe_ne_bot r, EReal.coe_ne_top r⟩

/-- One conjunct of the precondition, read back: if the conjunction over all elements of
    "|x i| < +∞" is true then every element of the array is a real. -/
theorem all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (⟨0, ![]⟩ : Shape) .f32 0x7F800000#32)))
          (constantI (⟨0, ![]⟩ : Shape) 1 1#1) hr hu ValueIdx.ix0 = 1#1) :
    ∀ i, x i ≠ ⊥ ∧ x i ≠ ⊤ :=
  fun i => finite_of_abs_lt_inf (Host.reduce_andi_all _ _ hr hu _ e i)

section Fn
variable [Cert.Pre_finite_inputs.Facts]
open Cert.Pre_finite_inputs

/-- The printed precondition, read back: where it is true, every entry of each of the eleven arrays
    is a real. -/
theorem fn_all_finite
    (a0 : FVec Ideal S1x6x256x64x176 .f32) (a1 : FVec Ideal S1x1024x4 .f32) (a2 : FVec Ideal S1x6x3x256x704 .f32)
    (a3 : FVec Ideal S1x6x4x4 .f32) (a4 : FVec Ideal S1x6x4x4 .f32) (a5 : FVec Ideal S1x4x4 .f32)
    (a6 : FVec Ideal S1 .f32) (a7 : FVec Ideal S80x256 .f32) (a8 : FVec Ideal S80 .f32) (a9 : FVec Ideal S80 .f32)
    (a10 : FVec Ideal S80 .f32)
    (h : Cert.Pre_finite_inputs.fn (F := Ideal) a0 a1 a2 a3 a4 a5 a6 a7 a8 a9 a10 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤)
      ∧ (∀ i, a3 i ≠ ⊥ ∧ a3 i ≠ ⊤) ∧ (∀ i, a4 i ≠ ⊥ ∧ a4 i ≠ ⊤) ∧ (∀ i, a5 i ≠ ⊥ ∧ a5 i ≠ ⊤)
      ∧ (∀ i, a6 i ≠ ⊥ ∧ a6 i ≠ ⊤) ∧ (∀ i, a7 i ≠ ⊥ ∧ a7 i ≠ ⊤) ∧ (∀ i, a8 i ≠ ⊥ ∧ a8 i ≠ ⊤)
      ∧ (∀ i, a9 i ≠ ⊥ ∧ a9 i ≠ ⊤) ∧ (∀ i, a10 i ≠ ⊥ ∧ a10 i ≠ ⊤) := by
  have h0 := congrFun h ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨r0, r1⟩, r2⟩, r3⟩, r4⟩, r5⟩, r6⟩, r7⟩, r8⟩, r9⟩, r10⟩ := h0
  exact ⟨all_finite a0 _ _ _ r0, all_finite a1 _ _ _ r1, all_finite a2 _ _ _ r2, all_finite a3 _ _ _ r3,
    all_finite a4 _ _ _ r4, all_finite a5 _ _ _ r5, all_finite a6 _ _ _ r6, all_finite a7 _ _ _ r7,
    all_finite a8 _ _ _ r8, all_finite a9 _ _ _ r9, all_finite a10 _ _ _ r10⟩

end Fn

section Pre
variable [Cert.Pre_finite_inputs.Facts]

/-- Under the precondition every entry of each of the eleven argument arrays of the kernel is a real,
    on every device. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, (m ((c.tc : Thread Cert.KernelIdeal.nD Cert.KernelIdeal.τ).loc Cert.KernelIdeal.main_arg0) : FVec Ideal Cert.Pre_finite_inputs.S1x6x256x64x176 .f32) i ≠ (⊥ : EReal) ∧ (m ((c.tc : Thread Cert.KernelIdeal.nD Cert.KernelIdeal.τ).loc Cert.KernelIdeal.main_arg0) : FVec Ideal Cert.Pre_finite_inputs.S1x6x256x64x176 .f32) i ≠ (⊤ : EReal))
      ∧ (∀ i, (m ((c.tc : Thread Cert.KernelIdeal.nD Cert.KernelIdeal.τ).loc Cert.KernelIdeal.main_arg1) : FVec Ideal Cert.Pre_finite_inputs.S1x1024x4 .f32) i ≠ (⊥ : EReal) ∧ (m ((c.tc : Thread Cert.KernelIdeal.nD Cert.KernelIdeal.τ).loc Cert.KernelIdeal.main_arg1) : FVec Ideal Cert.Pre_finite_inputs.S1x1024x4 .f32) i ≠ (⊤ : EReal))
      ∧ (∀ i, (m ((c.tc : Thread Cert.KernelIdeal.nD Cert.KernelIdeal.τ).loc Cert.KernelIdeal.main_arg2) : FVec Ideal Cert.Pre_finite_inputs.S1x6x3x256x704 .f32) i ≠ (⊥ : EReal) ∧ (m ((c.tc : Thread Cert.KernelIdeal.nD Cert.KernelIdeal.τ).loc Cert.KernelIdeal.main_arg2) : FVec Ideal Cert.Pre_finite_inputs.S1x6x3x256x704 .f32) i ≠ (⊤ : EReal))
      ∧ (∀ i, (m ((c.tc : Thread Cert.KernelIdeal.nD Cert.KernelIdeal.τ).loc Cert.KernelIdeal.main_arg3) : FVec Ideal Cert.Pre_finite_inputs.S1x6x4x4 .f32) i ≠ (⊥ : EReal) ∧ (m ((c.tc : Thread Cert.KernelIdeal.nD Cert.KernelIdeal.τ).loc Cert.KernelIdeal.main_arg3) : FVec Ideal Cert.Pre_finite_inputs.S1x6x4x4 .f32) i ≠ (⊤ : EReal))
      ∧ (∀ i, (m ((c.tc : Thread Cert.KernelIdeal.nD Cert.KernelIdeal.τ).loc Cert.KernelIdeal.main_arg4) : FVec Ideal Cert.Pre_finite_inputs.S1x6x4x4 .f32) i ≠ (⊥ : EReal) ∧ (m ((c.tc : Thread Cert.KernelIdeal.nD Cert.KernelIdeal.τ).loc Cert.KernelIdeal.main_arg4) : FVec Ideal Cert.Pre_finite_inputs.S1x6x4x4 .f32) i ≠ (⊤ : EReal))
      ∧ (∀ i, (m ((c.tc : Thread Cert.KernelIdeal.nD Cert.KernelIdeal.τ).loc Cert.KernelIdeal.main_arg5) : FVec Ideal Cert.Pre_finite_inputs.S1x4x4 .f32) i ≠ (⊥ : EReal) ∧ (m ((c.tc : Thread Cert.KernelIdeal.nD Cert.KernelIdeal.τ).loc Cert.KernelIdeal.main_arg5) : FVec Ideal Cert.Pre_finite_inputs.S1x4x4 .f32) i ≠ (⊤ : EReal))
      ∧ (∀ i, (m ((c.tc : Thread Cert.KernelIdeal.nD Cert.KernelIdeal.τ).loc Cert.KernelIdeal.main_arg6) : FVec Ideal Cert.Pre_finite_inputs.S1 .f32) i ≠ (⊥ : EReal) ∧ (m ((c.tc : Thread Cert.KernelIdeal.nD Cert.KernelIdeal.τ).loc Cert.KernelIdeal.main_arg6) : FVec Ideal Cert.Pre_finite_inputs.S1 .f32) i ≠ (⊤ : EReal))
      ∧ (∀ i, (m ((c.tc : Thread Cert.KernelIdeal.nD Cert.KernelIdeal.τ).loc Cert.KernelIdeal.main_arg7) : FVec Ideal Cert.Pre_finite_inputs.S80x256 .f32) i ≠ (⊥ : EReal) ∧ (m ((c.tc : Thread Cert.KernelIdeal.nD Cert.KernelIdeal.τ).loc Cert.KernelIdeal.main_arg7) : FVec Ideal Cert.Pre_finite_inputs.S80x256 .f32) i ≠ (⊤ : EReal))
      ∧ (∀ i, (m ((c.tc : Thread Cert.KernelIdeal.nD Cert.KernelIdeal.τ).loc Cert.KernelIdeal.main_arg8) : FVec Ideal Cert.Pre_finite_inputs.S80 .f32) i ≠ (⊥ : EReal) ∧ (m ((c.tc : Thread Cert.KernelIdeal.nD Cert.KernelIdeal.τ).loc Cert.KernelIdeal.main_arg8) : FVec Ideal Cert.Pre_finite_inputs.S80 .f32) i ≠ (⊤ : EReal))
      ∧ (∀ i, (m ((c.tc : Thread Cert.KernelIdeal.nD Cert.KernelIdeal.τ).loc Cert.KernelIdeal.main_arg9) : FVec Ideal Cert.Pre_finite_inputs.S80 .f32) i ≠ (⊥ : EReal) ∧ (m ((c.tc : Thread Cert.KernelIdeal.nD Cert.KernelIdeal.τ).loc Cert.KernelIdeal.main_arg9) : FVec Ideal Cert.Pre_finite_inputs.S80 .f32) i ≠ (⊤ : EReal))
      ∧ (∀ i, (m ((c.tc : Thread Cert.KernelIdeal.nD Cert.KernelIdeal.τ).loc Cert.KernelIdeal.main_arg10) : FVec Ideal Cert.Pre_finite_inputs.S80 .f32) i ≠ (⊥ : EReal) ∧ (m ((c.tc : Thread Cert.KernelIdeal.nD Cert.KernelIdeal.τ).loc Cert.KernelIdeal.main_arg10) : FVec Ideal Cert.Pre_finite_inputs.S80 .f32) i ≠ (⊤ : EReal)) :=
  fn_all_finite _ _ _ _ _ _ _ _ _ _ _ (h c)

/-- Every entry of the image features (argument 0 of the kernel) is a real. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, (m ((c.tc : Thread Cert.KernelIdeal.nD Cert.KernelIdeal.τ).loc Cert.KernelIdeal.main_arg0) : FVec Ideal Cert.Pre_finite_inputs.S1x6x256x64x176 .f32) i ≠ (⊥ : EReal) ∧ (m ((c.tc : Thread Cert.KernelIdeal.nD Cert.KernelIdeal.τ).loc Cert.KernelIdeal.main_arg0) : FVec Ideal Cert.Pre_finite_inputs.S1x6x256x64x176 .f32) i ≠ (⊤ : EReal) :=
  have h := real_of_pre m h c
  (h).1

/-- Every entry of the lidar-to-image matrices (argument 3 of the kernel) is a real. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, (m ((c.tc : Thread Cert.KernelIdeal.nD Cert.KernelIdeal.τ).loc Cert.KernelIdeal.main_arg3) : FVec Ideal Cert.Pre_finite_inputs.S1x6x4x4 .f32) i ≠ (⊥ : EReal) ∧ (m ((c.tc : Thread Cert.KernelIdeal.nD Cert.KernelIdeal.τ).loc Cert.KernelIdeal.main_arg3) : FVec Ideal Cert.Pre_finite_inputs.S1x6x4x4 .f32) i ≠ (⊤ : EReal) :=
  have h := real_of_pre m h c
  ((((h).2).2).2).1

/-- Every entry of the image augmentation matrices (argument 4 of the kernel) is a real. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, (m ((c.tc : Thread Cert.KernelIdeal.nD Cert.KernelIdeal.τ).loc Cert.KernelIdeal.main_arg4) : FVec Ideal Cert.Pre_finite_inputs.S1x6x4x4 .f32) i ≠ (⊥ : EReal) ∧ (m ((c.tc : Thread Cert.KernelIdeal.nD Cert.KernelIdeal.τ).loc Cert.KernelIdeal.main_arg4) : FVec Ideal Cert.Pre_finite_inputs.S1x6x4x4 .f32) i ≠ (⊤ : EReal) :=
  have h := real_of_pre m h c
  (((((h).2).2).2).2).1

/-- Every entry of the lidar augmentation matrix (argument 5 of the kernel) is a real. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, (m ((c.tc : Thread Cert.KernelIdeal.nD Cert.KernelIdeal.τ).loc Cert.KernelIdeal.main_arg5) : FVec Ideal Cert.Pre_finite_inputs.S1x4x4 .f32) i ≠ (⊥ : EReal) ∧ (m ((c.tc : Thread Cert.KernelIdeal.nD Cert.KernelIdeal.τ).loc Cert.KernelIdeal.main_arg5) : FVec Ideal Cert.Pre_finite_inputs.S1x4x4 .f32) i ≠ (⊤ : EReal) :=
  have h := real_of_pre m h c
  ((((((h).2).2).2).2).2).1

/-- Every entry of the convolution's weight (argument 7 of the kernel) is a real. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, (m ((c.tc : Thread Cert.KernelIdeal.nD Cert.KernelIdeal.τ).loc Cert.KernelIdeal.main_arg7) : FVec Ideal Cert.Pre_finite_inputs.S80x256 .f32) i ≠ (⊥ : EReal) ∧ (m ((c.tc : Thread Cert.KernelIdeal.nD Cert.KernelIdeal.τ).loc Cert.KernelIdeal.main_arg7) : FVec Ideal Cert.Pre_finite_inputs.S80x256 .f32) i ≠ (⊤ : EReal) :=
  have h := real_of_pre m h c
  ((((((((h).2).2).2).2).2).2).2).1

/-- Every entry of the convolution's bias (argument 8 of the kernel) is a real. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, (m ((c.tc : Thread Cert.KernelIdeal.nD Cert.KernelIdeal.τ).loc Cert.KernelIdeal.main_arg8) : FVec Ideal Cert.Pre_finite_inputs.S80 .f32) i ≠ (⊥ : EReal) ∧ (m ((c.tc : Thread Cert.KernelIdeal.nD Cert.KernelIdeal.τ).loc Cert.KernelIdeal.main_arg8) : FVec Ideal Cert.Pre_finite_inputs.S80 .f32) i ≠ (⊤ : EReal) :=
  have h := real_of_pre m h c
  (((((((((h).2).2).2).2).2).2).2).2).1

/-- Every entry of the normalisation's scale (argument 9 of the kernel) is a real. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, (m ((c.tc : Thread Cert.KernelIdeal.nD Cert.KernelIdeal.τ).loc Cert.KernelIdeal.main_arg9) : FVec Ideal Cert.Pre_finite_inputs.S80 .f32) i ≠ (⊥ : EReal) ∧ (m ((c.tc : Thread Cert.KernelIdeal.nD Cert.KernelIdeal.τ).loc Cert.KernelIdeal.main_arg9) : FVec Ideal Cert.Pre_finite_inputs.S80 .f32) i ≠ (⊤ : EReal) :=
  have h := real_of_pre m h c
  ((((((((((h).2).2).2).2).2).2).2).2).2).1

/-- Every entry of the normalisation's shift (argument 10 of the kernel) is a real. -/
theorem real_arg10 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, (m ((c.tc : Thread Cert.KernelIdeal.nD Cert.KernelIdeal.τ).loc Cert.KernelIdeal.main_arg10) : FVec Ideal Cert.Pre_finite_inputs.S80 .f32) i ≠ (⊥ : EReal) ∧ (m ((c.tc : Thread Cert.KernelIdeal.nD Cert.KernelIdeal.τ).loc Cert.KernelIdeal.main_arg10) : FVec Ideal Cert.Pre_finite_inputs.S80 .f32) i ≠ (⊤ : EReal) :=
  have h := real_of_pre m h c
  ((((((((((h).2).2).2).2).2).2).2).2).2).2

/-- Under the precondition every entry of each of the eleven argument arrays of the reference is a real,
    on every device. -/
theorem real_of_pre_ref (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, (m ((c.tc : Thread Cert.ReferenceIdeal.nD Cert.ReferenceIdeal.τ).loc Cert.ReferenceIdeal.main_arg0) : FVec Ideal Cert.Pre_finite_inputs.S1x6x256x64x176 .f32) i ≠ (⊥ : EReal) ∧ (m ((c.tc : Thread Cert.ReferenceIdeal.nD Cert.ReferenceIdeal.τ).loc Cert.ReferenceIdeal.main_arg0) : FVec Ideal Cert.Pre_finite_inputs.S1x6x256x64x176 .f32) i ≠ (⊤ : EReal))
      ∧ (∀ i, (m ((c.tc : Thread Cert.ReferenceIdeal.nD Cert.ReferenceIdeal.τ).loc Cert.ReferenceIdeal.main_arg1) : FVec Ideal Cert.Pre_finite_inputs.S1x1024x4 .f32) i ≠ (⊥ : EReal) ∧ (m ((c.tc : Thread Cert.ReferenceIdeal.nD Cert.ReferenceIdeal.τ).loc Cert.ReferenceIdeal.main_arg1) : FVec Ideal Cert.Pre_finite_inputs.S1x1024x4 .f32) i ≠ (⊤ : EReal))
      ∧ (∀ i, (m ((c.tc : Thread Cert.ReferenceIdeal.nD Cert.ReferenceIdeal.τ).loc Cert.ReferenceIdeal.main_arg2) : FVec Ideal Cert.Pre_finite_inputs.S1x6x3x256x704 .f32) i ≠ (⊥ : EReal) ∧ (m ((c.tc : Thread Cert.ReferenceIdeal.nD Cert.ReferenceIdeal.τ).loc Cert.ReferenceIdeal.main_arg2) : FVec Ideal Cert.Pre_finite_inputs.S1x6x3x256x704 .f32) i ≠ (⊤ : EReal))
      ∧ (∀ i, (m ((c.tc : Thread Cert.ReferenceIdeal.nD Cert.ReferenceIdeal.τ).loc Cert.ReferenceIdeal.main_arg3) : FVec Ideal Cert.Pre_finite_inputs.S1x6x4x4 .f32) i ≠ (⊥ : EReal) ∧ (m ((c.tc : Thread Cert.ReferenceIdeal.nD Cert.ReferenceIdeal.τ).loc Cert.ReferenceIdeal.main_arg3) : FVec Ideal Cert.Pre_finite_inputs.S1x6x4x4 .f32) i ≠ (⊤ : EReal))
      ∧ (∀ i, (m ((c.tc : Thread Cert.ReferenceIdeal.nD Cert.ReferenceIdeal.τ).loc Cert.ReferenceIdeal.main_arg4) : FVec Ideal Cert.Pre_finite_inputs.S1x6x4x4 .f32) i ≠ (⊥ : EReal) ∧ (m ((c.tc : Thread Cert.ReferenceIdeal.nD Cert.ReferenceIdeal.τ).loc Cert.ReferenceIdeal.main_arg4) : FVec Ideal Cert.Pre_finite_inputs.S1x6x4x4 .f32) i ≠ (⊤ : EReal))
      ∧ (∀ i, (m ((c.tc : Thread Cert.ReferenceIdeal.nD Cert.ReferenceIdeal.τ).loc Cert.ReferenceIdeal.main_arg5) : FVec Ideal Cert.Pre_finite_inputs.S1x4x4 .f32) i ≠ (⊥ : EReal) ∧ (m ((c.tc : Thread Cert.ReferenceIdeal.nD Cert.ReferenceIdeal.τ).loc Cert.ReferenceIdeal.main_arg5) : FVec Ideal Cert.Pre_finite_inputs.S1x4x4 .f32) i ≠ (⊤ : EReal))
      ∧ (∀ i, (m ((c.tc : Thread Cert.ReferenceIdeal.nD Cert.ReferenceIdeal.τ).loc Cert.ReferenceIdeal.main_arg6) : FVec Ideal Cert.Pre_finite_inputs.S1 .f32) i ≠ (⊥ : EReal) ∧ (m ((c.tc : Thread Cert.ReferenceIdeal.nD Cert.ReferenceIdeal.τ).loc Cert.ReferenceIdeal.main_arg6) : FVec Ideal Cert.Pre_finite_inputs.S1 .f32) i ≠ (⊤ : EReal))
      ∧ (∀ i, (m ((c.tc : Thread Cert.ReferenceIdeal.nD Cert.ReferenceIdeal.τ).loc Cert.ReferenceIdeal.main_arg7) : FVec Ideal Cert.Pre_finite_inputs.S80x256 .f32) i ≠ (⊥ : EReal) ∧ (m ((c.tc : Thread Cert.ReferenceIdeal.nD Cert.ReferenceIdeal.τ).loc Cert.ReferenceIdeal.main_arg7) : FVec Ideal Cert.Pre_finite_inputs.S80x256 .f32) i ≠ (⊤ : EReal))
      ∧ (∀ i, (m ((c.tc : Thread Cert.ReferenceIdeal.nD Cert.ReferenceIdeal.τ).loc Cert.ReferenceIdeal.main_arg8) : FVec Ideal Cert.Pre_finite_inputs.S80 .f32) i ≠ (⊥ : EReal) ∧ (m ((c.tc : Thread Cert.ReferenceIdeal.nD Cert.ReferenceIdeal.τ).loc Cert.ReferenceIdeal.main_arg8) : FVec Ideal Cert.Pre_finite_inputs.S80 .f32) i ≠ (⊤ : EReal))
      ∧ (∀ i, (m ((c.tc : Thread Cert.ReferenceIdeal.nD Cert.ReferenceIdeal.τ).loc Cert.ReferenceIdeal.main_arg9) : FVec Ideal Cert.Pre_finite_inputs.S80 .f32) i ≠ (⊥ : EReal) ∧ (m ((c.tc : Thread Cert.ReferenceIdeal.nD Cert.ReferenceIdeal.τ).loc Cert.ReferenceIdeal.main_arg9) : FVec Ideal Cert.Pre_finite_inputs.S80 .f32) i ≠ (⊤ : EReal))
      ∧ (∀ i, (m ((c.tc : Thread Cert.ReferenceIdeal.nD Cert.ReferenceIdeal.τ).loc Cert.ReferenceIdeal.main_arg10) : FVec Ideal Cert.Pre_finite_inputs.S80 .f32) i ≠ (⊥ : EReal) ∧ (m ((c.tc : Thread Cert.ReferenceIdeal.nD Cert.ReferenceIdeal.τ).loc Cert.ReferenceIdeal.main_arg10) : FVec Ideal Cert.Pre_finite_inputs.S80 .f32) i ≠ (⊤ : EReal)) :=
  fn_all_finite _ _ _ _ _ _ _ _ _ _ _ (h c)

/-- Every entry of the image features (argument 0 of the reference) is a real. -/
theorem real_ref_arg0 (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, (m ((c.tc : Thread Cert.ReferenceIdeal.nD Cert.ReferenceIdeal.τ).loc Cert.ReferenceIdeal.main_arg0) : FVec Ideal Cert.Pre_finite_inputs.S1x6x256x64x176 .f32) i ≠ (⊥ : EReal) ∧ (m ((c.tc : Thread Cert.ReferenceIdeal.nD Cert.ReferenceIdeal.τ).loc Cert.ReferenceIdeal.main_arg0) : FVec Ideal Cert.Pre_finite_inputs.S1x6x256x64x176 .f32) i ≠ (⊤ : EReal) :=
  have h := real_of_pre_ref m h c
  (h).1

/-- Every entry of the lidar-to-image matrices (argument 3 of the reference) is a real. -/
theorem real_ref_arg3 (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, (m ((c.tc : Thread Cert.ReferenceIdeal.nD Cert.ReferenceIdeal.τ).loc Cert.ReferenceIdeal.main_arg3) : FVec Ideal Cert.Pre_finite_inputs.S1x6x4x4 .f32) i ≠ (⊥ : EReal) ∧ (m ((c.tc : Thread Cert.ReferenceIdeal.nD Cert.ReferenceIdeal.τ).loc Cert.ReferenceIdeal.main_arg3) : FVec Ideal Cert.Pre_finite_inputs.S1x6x4x4 .f32) i ≠ (⊤ : EReal) :=
  have h := real_of_pre_ref m h c
  ((((h).2).2).2).1

/-- Every entry of the image augmentation matrices (argument 4 of the reference) is a real. -/
theorem real_ref_arg4 (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, (m ((c.tc : Thread Cert.ReferenceIdeal.nD Cert.ReferenceIdeal.τ).loc Cert.ReferenceIdeal.main_arg4) : FVec Ideal Cert.Pre_finite_inputs.S1x6x4x4 .f32) i ≠ (⊥ : EReal) ∧ (m ((c.tc : Thread Cert.ReferenceIdeal.nD Cert.ReferenceIdeal.τ).loc Cert.ReferenceIdeal.main_arg4) : FVec Ideal Cert.Pre_finite_inputs.S1x6x4x4 .f32) i ≠ (⊤ : EReal) :=
  have h := real_of_pre_ref m h c
  (((((h).2).2).2).2).1

/-- Every entry of the lidar augmentation matrix (argument 5 of the reference) is a real. -/
theorem real_ref_arg5 (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, (m ((c.tc : Thread Cert.ReferenceIdeal.nD Cert.ReferenceIdeal.τ).loc Cert.ReferenceIdeal.main_arg5) : FVec Ideal Cert.Pre_finite_inputs.S1x4x4 .f32) i ≠ (⊥ : EReal) ∧ (m ((c.tc : Thread Cert.ReferenceIdeal.nD Cert.ReferenceIdeal.τ).loc Cert.ReferenceIdeal.main_arg5) : FVec Ideal Cert.Pre_finite_inputs.S1x4x4 .f32) i ≠ (⊤ : EReal) :=
  have h := real_of_pre_ref m h c
  ((((((h).2).2).2).2).2).1

/-- Every entry of the convolution's weight (argument 7 of the reference) is a real. -/
theorem real_ref_arg7 (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, (m ((c.tc : Thread Cert.ReferenceIdeal.nD Cert.ReferenceIdeal.τ).loc Cert.ReferenceIdeal.main_arg7) : FVec Ideal Cert.Pre_finite_inputs.S80x256 .f32) i ≠ (⊥ : EReal) ∧ (m ((c.tc : Thread Cert.ReferenceIdeal.nD Cert.ReferenceIdeal.τ).loc Cert.ReferenceIdeal.main_arg7) : FVec Ideal Cert.Pre_finite_inputs.S80x256 .f32) i ≠ (⊤ : EReal) :=
  have h := real_of_pre_ref m h c
  ((((((((h).2).2).2).2).2).2).2).1

/-- Every entry of the convolution's bias (argument 8 of the reference) is a real. -/
theorem real_ref_arg8 (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, (m ((c.tc : Thread Cert.ReferenceIdeal.nD Cert.ReferenceIdeal.τ).loc Cert.ReferenceIdeal.main_arg8) : FVec Ideal Cert.Pre_finite_inputs.S80 .f32) i ≠ (⊥ : EReal) ∧ (m ((c.tc : Thread Cert.ReferenceIdeal.nD Cert.ReferenceIdeal.τ).loc Cert.ReferenceIdeal.main_arg8) : FVec Ideal Cert.Pre_finite_inputs.S80 .f32) i ≠ (⊤ : EReal) :=
  have h := real_of_pre_ref m h c
  (((((((((h).2).2).2).2).2).2).2).2).1

/-- Every entry of the normalisation's scale (argument 9 of the reference) is a real. -/
theorem real_ref_arg9 (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, (m ((c.tc : Thread Cert.ReferenceIdeal.nD Cert.ReferenceIdeal.τ).loc Cert.ReferenceIdeal.main_arg9) : FVec Ideal Cert.Pre_finite_inputs.S80 .f32) i ≠ (⊥ : EReal) ∧ (m ((c.tc : Thread Cert.ReferenceIdeal.nD Cert.ReferenceIdeal.τ).loc Cert.ReferenceIdeal.main_arg9) : FVec Ideal Cert.Pre_finite_inputs.S80 .f32) i ≠ (⊤ : EReal) :=
  have h := real_of_pre_ref m h c
  ((((((((((h).2).2).2).2).2).2).2).2).2).1

/-- Every entry of the normalisation's shift (argument 10 of the reference) is a real. -/
theorem real_ref_arg10 (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ i, (m ((c.tc : Thread Cert.ReferenceIdeal.nD Cert.ReferenceIdeal.τ).loc Cert.ReferenceIdeal.main_arg10) : FVec Ideal Cert.Pre_finite_inputs.S80 .f32) i ≠ (⊥ : EReal) ∧ (m ((c.tc : Thread Cert.ReferenceIdeal.nD Cert.ReferenceIdeal.τ).loc Cert.ReferenceIdeal.main_arg10) : FVec Ideal Cert.Pre_finite_inputs.S80 .f32) i ≠ (⊤ : EReal) :=
  have h := real_of_pre_ref m h c
  ((((((((((h).2).2).2).2).2).2).2).2).2).2

end Pre

end Cert.Proof.Bridge

end
-- ==== Proof.ConstsKI.lean ====
/-
  The float literals of the two programs as the reals they denote, and the one place where the two
  programs spell a constant differently: the origin of the voxel grid. One program writes the
  origin's three coordinates as literals; the other computes each as centre - n / 2 · size from
  literals. On the extended reals both are the same real: 0 - 200 / 2 · (1/2) = -50 on the two
  horizontal axes, and -14260634 / 2²³ - 4 / 2 · 1 = -15518925 / 2²² on the vertical one.
  Then the coordinate maps k ↦ k · size + origin, which send every real to a real.
-/
import Idealize.ShloMosaic.PureOps.Ideal
import Mathlib.Data.EReal.Operations
import Mathlib.Tactic.Ring
import Mathlib.Tactic.NormNum

noncomputable section

namespace Cert.Proof.Bridge

open Idealize.ShloMosaic

/-! ## (1) The literals -/

/-- The pattern 0x00000000 denotes 0. -/
theorem ofBits_zero : Ideal.ofBits .f32 0x00000000#32 = ((0 : ℝ) : EReal) := by
  simp [Ideal.ofBits, Ideal.ieee]

/-- The pattern 0x3F000000 denotes 1/2. -/
theorem ofBits_half : Ideal.ofBits .f32 0x3F000000#32 = ((1 / 2 : ℝ) : EReal) := by
  simp [Ideal.ofBits, Ideal.ieee, -EReal.coe_mul]; norm_num

/-- The pattern 0x3F800000 denotes 1. -/
theorem ofBits_one : Ideal.ofBits .f32 0x3F800000#32 = ((1 : ℝ) : EReal) := by
  simp [Ideal.ofBits, Ideal.ieee, -EReal.coe_mul]; norm_num

/-- The pattern 0x40000000 denotes 2. -/
theorem ofBits_two : Ideal.ofBits .f32 0x40000000#32 = ((2 : ℝ) : EReal) := by
  simp [Ideal.ofBits, Ideal.ieee, -EReal.coe_mul]; norm_num

/-- The pattern 0x40800000 denotes 4. -/
theorem ofBits_four : Ideal.ofBits .f32 0x40800000#32 = ((4 : ℝ) : EReal) := by
  simp [Ideal.ofBits, Ideal.ieee, -EReal.coe_mul]; norm_num

/-- The pattern 0x43480000 denotes 200. -/
theorem ofBits_200 : Ideal.ofBits .f32 0x43480000#32 = ((200 : ℝ) : EReal) := by
  simp [Ideal.ofBits, Ideal.ieee, -EReal.coe_mul]; norm_num

/-- The pattern 0xC2480000 denotes -50. -/
theorem ofBits_neg50 : Ideal.ofBits .f32 0xC2480000#32 = ((-50 : ℝ) : EReal) := by
  simp [Ideal.ofBits, Ideal.ieee, -EReal.coe_mul]; norm_num

/-- The pattern 0xBFD9999A, the single-precision float nearest -1.7, denotes -14260634 / 2²³. -/
theorem ofBits_centre_z : Ideal.ofBits .f32 0xBFD9999A#32 = ((-(14260634 / 2 ^ 23) : ℝ) : EReal) := by
  simp [Ideal.ofBits, Ideal.ieee, -EReal.coe_mul]; norm_num

/-- The pattern 0xC06CCCCD denotes -15518925 / 2²². -/
theorem ofBits_origin_z : Ideal.ofBits .f32 0xC06CCCCD#32 = ((-(15518925 / 2 ^ 22) : ℝ) : EReal) := by
  simp [Ideal.ofBits, Ideal.ieee, -EReal.coe_mul]; norm_num

/-! ## (2) The origin of the voxel grid -/

/-- centre - n / 2 · size at coerced reals, the divisor not zero, is the coerced real expression. -/
private theorem origin_coe (c n t s : ℝ) (ht : t ≠ 0) :
    ((c : ℝ) : EReal) - Ideal.div ((n : ℝ) : EReal) ((t : ℝ) : EReal) * ((s : ℝ) : EReal)
      = ((c - n / t * s : ℝ) : EReal) := by
  rw [Ideal.div_coe ht, ← EReal.coe_mul, ← EReal.coe_mul, ← EReal.coe_sub, mul_one_div]

/-- The first horizontal axis: 0 - 200 / 2 · (1/2) = -50. -/
theorem origin_x :
    Ideal.ofBits .f32 0x00000000#32
        - Ideal.div (Ideal.ofBits .f32 0x43480000#32) (Ideal.ofBits .f32 0x40000000#32) * Ideal.ofBits .f32 0x3F000000#32
      = Ideal.ofBits .f32 0xC2480000#32 := by
  rw [ofBits_zero, ofBits_200, ofBits_two, ofBits_half, ofBits_neg50, origin_coe _ _ _ _ (by norm_num)]
  norm_num

/-- The second horizontal axis has the same literals as the first. -/
theorem origin_y :
    Ideal.ofBits .f32 0x00000000#32
        - Ideal.div (Ideal.ofBits .f32 0x43480000#32) (Ideal.ofBits .f32 0x40000000#32) * Ideal.ofBits .f32 0x3F000000#32
      = Ideal.ofBits .f32 0xC2480000#32 := origin_x

/-- The vertical axis: -14260634 / 2²³ - 4 / 2 · 1 = -15518925 / 2²². -/
theorem origin_z :
    Ideal.ofBits .f32 0xBFD9999A#32
        - Ideal.div (Ideal.ofBits .f32 0x40800000#32) (Ideal.ofBits .f32 0x40000000#32) * Ideal.ofBits .f32 0x3F800000#32
      = Ideal.ofBits .f32 0xC06CCCCD#32 := by
  rw [ofBits_centre_z, ofBits_four, ofBits_two, ofBits_one, ofBits_origin_z, origin_coe _ _ _ _ (by norm_num)]
  norm_num

/-- The same three in the spelling of the float operations at the extended reals: the subtraction,
    the product and the host's quotient of the literals' values. -/
theorem origin_x_ops :
    FloatOps.subf (F := Ideal) (φ := .f32) (FloatOps.ofBits .f32 0x00000000#32)
        (FloatOps.mulf (FloatOps.hostDivf (FloatOps.ofBits .f32 0x43480000#32) (FloatOps.ofBits .f32 0x40000000#32))
          (FloatOps.ofBits .f32 0x3F000000#32))
      = FloatOps.ofBits .f32 0xC2480000#32 := origin_x

theorem origin_y_ops :
    FloatOps.subf (F := Ideal) (φ := .f32) (FloatOps.ofBits .f32 0x00000000#32)
        (FloatOps.mulf (FloatOps.hostDivf (FloatOps.ofBits .f32 0x43480000#32) (FloatOps.ofBits .f32 0x40000000#32))
          (FloatOps.ofBits .f32 0x3F000000#32))
      = FloatOps.ofBits .f32 0xC2480000#32 := origin_x

theorem origin_z_ops :
    FloatOps.subf (F := Ideal) (φ := .f32) (FloatOps.ofBits .f32 0xBFD9999A#32)
        (FloatOps.mulf (FloatOps.hostDivf (FloatOps.ofBits .f32 0x40800000#32) (FloatOps.ofBits .f32 0x40000000#32))
          (FloatOps.ofBits .f32 0x3F800000#32))
      = FloatOps.ofBits .f32 0xC06CCCCD#32 := origin_z

/-! ## (3) The coordinate maps -/

/-- A horizontal coordinate: t · (1/2) + (-50) is the real t / 2 - 50. -/
theorem coord_xy (t : ℝ) :
    ((t : ℝ) : EReal) * Ideal.ofBits .f32 0x3F000000#32 + Ideal.ofBits .f32 0xC2480000#32
      = ((t / 2 - 50 : ℝ) : EReal) := by
  rw [ofBits_half, ofBits_neg50, ← EReal.coe_mul, ← EReal.coe_add]
  congr 1; ring

/-- The vertical coordinate: t · 1 + (-15518925 / 2²²) is the real t - 15518925 / 2²². -/
theorem coord_z (t : ℝ) :
    ((t : ℝ) : EReal) * Ideal.ofBits .f32 0x3F800000#32 + Ideal.ofBits .f32 0xC06CCCCD#32
      = ((t - 15518925 / 2 ^ 22 : ℝ) : EReal) := by
  rw [ofBits_one, ofBits_origin_z, ← EReal.coe_mul, ← EReal.coe_add]
  congr 1; ring

/-- At a natural number k: k · (1/2) + (-50) is the real k / 2 - 50. -/
theorem coord_xy_nat (k : ℕ) :
    (((k : ℕ) : ℝ) : EReal) * Ideal.ofBits .f32 0x3F000000#32 + Ideal.ofBits .f32 0xC2480000#32
      = ((((k : ℕ) : ℝ) / 2 - 50 : ℝ) : EReal) := coord_xy _

theorem coord_z_nat (k : ℕ) :
    (((k : ℕ) : ℝ) : EReal) * Ideal.ofBits .f32 0x3F800000#32 + Ideal.ofBits .f32 0xC06CCCCD#32
      = ((((k : ℕ) : ℝ) - 15518925 / 2 ^ 22 : ℝ) : EReal) := coord_z _

/-- At an integer k, as a conversion of a signed word reads. -/
theorem coord_xy_int (k : ℤ) :
    (((k : ℤ) : ℝ) : EReal) * Ideal.ofBits .f32 0x3F000000#32 + Ideal.ofBits .f32 0xC2480000#32
      = ((((k : ℤ) : ℝ) / 2 - 50 : ℝ) : EReal) := coord_xy _

theorem coord_z_int (k : ℤ) :
    (((k : ℤ) : ℝ) : EReal) * Ideal.ofBits .f32 0x3F800000#32 + Ideal.ofBits .f32 0xC06CCCCD#32
      = ((((k : ℤ) : ℝ) - 15518925 / 2 ^ 22 : ℝ) : EReal) := coord_z _

/-- A coerced real is neither infinity. -/
theorem coe_finite (a : ℝ) : ((a : ℝ) : EReal) ≠ ⊥ ∧ ((a : ℝ) : EReal) ≠ ⊤ :=
  ⟨EReal.coe_ne_bot a, EReal.coe_ne_top a⟩

/-- Every horizontal coordinate is a real. -/
theorem coord_xy_finite (t : ℝ) :
    ((t : ℝ) : EReal) * Ideal.ofBits .f32 0x3F000000#32 + Ideal.ofBits .f32 0xC2480000#32 ≠ ⊥
      ∧ ((t : ℝ) : EReal) * Ideal.ofBits .f32 0x3F000000#32 + Ideal.ofBits .f32 0xC2480000#32 ≠ ⊤ := by
  rw [coord_xy]; exact coe_finite _

/-- Every vertical coordinate is a real. -/
theorem coord_z_finite (t : ℝ) :
    ((t : ℝ) : EReal) * Ideal.ofBits .f32 0x3F800000#32 + Ideal.ofBits .f32 0xC06CCCCD#32 ≠ ⊥
      ∧ ((t : ℝ) : EReal) * Ideal.ofBits .f32 0x3F800000#32 + Ideal.ofBits .f32 0xC06CCCCD#32 ≠ ⊤ := by
  rw [coord_z]; exact coe_finite _

/-- A horizontal coordinate less a real translation is the real t / 2 - 50 - d, neither infinity. -/
theorem coord_xy_sub (t d : ℝ) :
    (((t : ℝ) : EReal) * Ideal.ofBits .f32 0x3F000000#32 + Ideal.ofBits .f32 0xC2480000#32) - ((d : ℝ) : EReal)
      = ((t / 2 - 50 - d : ℝ) : EReal) := by
  rw [coord_xy, ← EReal.coe_sub]

/-- The vertical coordinate less a real translation is the real t - 15518925 / 2²² - d. -/
theorem coord_z_sub (t d : ℝ) :
    (((t : ℝ) : EReal) * Ideal.ofBits .f32 0x3F800000#32 + Ideal.ofBits .f32 0xC06CCCCD#32) - ((d : ℝ) : EReal)
      = ((t - 15518925 / 2 ^ 22 - d : ℝ) : EReal) := by
  rw [coord_z, ← EReal.coe_sub]

end Cert.Proof.Bridge

end
-- ==== Proof.FiniteJoin.lean ====
/-
  Finiteness through the selection and through a change of shape. A chain of selects returns one
  of its candidates or its default, so a property all of them have, its value has; in particular an
  entry of the gathered volume, picked by such a chain from an array of reals or else zero, is a
  real. A change of shape reads an entry of its argument, so it keeps every entry a real.
-/
import proofs.«207241_g55714315764006_cont_9to1c4b_410_29_alg».proof.Proof.GatherJoin
import proofs.«207241_g55714315764006_cont_9to1c4b_410_29_alg».proof.Proof.ConstsKI
import proofs.«207241_g55714315764006_cont_9to1c4b_410_29_alg».proof.Proof.FiniteKI

noncomputable section

namespace Cert.Proof.Bridge

open Cert.KernelIdeal
open Idealize.ShloMosaic
open Cert.Proof.KI.R1

/-- A property of every candidate and of the default is a property of the chain's value. -/
theorem chainSel_prop {α : Type} (p : α → Prop) (g : Fin 6 → BitVec 1) (r : Fin 6 → α) (z : α)
    (hr : ∀ J, p (r J)) (hz : p z) : p (chainSel g r z) := by
  rw [chainSel_eq_elim]
  cases lastOk g with
  | none => exact hz
  | some J => exact hr J

/-- An entry of the gathered volume over an array of reals is a real. -/
theorem volK_finite (x : S6x256x11264.Idx → EReal) (hx : ∀ i, x i ≠ ⊥ ∧ x i ≠ ⊤)
    (ok : Fin 6 → BitVec 1) (u v : Fin 6 → BitVec 32) (ch : Fin 256) :
    volK x ok u v ch ≠ ⊥ ∧ volK x ok u v ch ≠ ⊤ :=
  chainSel_prop (fun e : EReal => e ≠ ⊥ ∧ e ≠ ⊤) ok _ 0 (fun _ => hx _) ⟨EReal.zero_ne_bot, EReal.zero_ne_top⟩

/-- A change of shape reads an entry of its argument: a property of every entry of the argument is
    a property of every entry of the result. -/
theorem shapeCast_prop {α : Type} (p : α → Prop) {S S' : Shape} (h : S.ShapeCasts S') (x : S.Idx → α)
    (hx : ∀ i, p (x i)) : ∀ j, p (shapeCast S' x h j) :=
  fun _ => hx _

/-- A change of shape of an array of reals is an array of reals. -/
theorem shapeCast_finite {S S' : Shape} (h : S.ShapeCasts S') (x : S.Idx → EReal)
    (hx : ∀ i, x i ≠ ⊥ ∧ x i ≠ ⊤) : ∀ j, shapeCast S' x h j ≠ ⊥ ∧ shapeCast S' x h j ≠ ⊤ :=
  shapeCast_prop (fun e : EReal => e ≠ ⊥ ∧ e ≠ ⊤) h x hx

end Cert.Proof.Bridge

end
-- ==== Proof.FiniteFinalKI.lean ====
/-
  The finiteness facts the last step needs.

  Under the precondition every entry of every argument array is a real. The camera features the table region reads are
  a change of shape of the first argument, so every entry of them is a real; an entry of the gathered volume is one of
  those or zero, so it is a real; the weights, the bias, the scale and the shift are arguments. These are the
  hypotheses, in its own spelling, of the join of the two arrangements over the extended reals: the volume indexed by
  position, depth cell and channel, and the weights of one output channel.
-/
import proofs.«207241_g55714315764006_cont_9to1c4b_410_29_alg».proof.Proof.KernelResultKI
import proofs.«207241_g55714315764006_cont_9to1c4b_410_29_alg».proof.Proof.FiniteKI
import proofs.«207241_g55714315764006_cont_9to1c4b_410_29_alg».proof.Proof.FiniteJoin
import proofs.«207241_g55714315764006_cont_9to1c4b_410_29_alg».proof.Proof.KernelValueKI

noncomputable section

namespace Cert.Proof.KI.KR

open Cert.KernelIdeal Cert.KernelIdeal.Gen Cert.Proof.KI.Ops
open Idealize.ShloMosaic Idealize.ShloMosaic.TcCoe Idealize.ShloMosaic.ValueIdx
open Idealize.SL Idealize.SL.Sem
open scoped BigOperators

variable [Cert.Pre_finite_inputs.Facts]
variable (m : (ℓ : Loc nD τ sig) → Buf (Elt Ideal) ℓ) (c : Dev nD)

/-! ## The volume and the weights, as the join reads them -/

/-- The gathered volume's entry at position r, depth cell z, channel ch: the features the last seeing camera shows at the
    pixel of voxel 800 r.1 + 4 r.2 + z, zero if none sees it. -/
def volAt (r : Fin 200 × Fin 200) (z : Fin 4) (ch : Fin 256) : EReal :=
  R1.volK (featArr m c) (R1.okK (rotK m c) (projArr m c) (parArr m c) (800 * r.1.val + 4 * r.2.val + z.val))
    (R1.uK (rotK m c) (projArr m c) (parArr m c) (800 * r.1.val + 4 * r.2.val + z.val))
    (R1.vK (rotK m c) (projArr m c) (parArr m c) (800 * r.1.val + 4 * r.2.val + z.val)) ch

/-- The bias, the scale and the shift as launched, at their literal type. -/
abbrev biasArr : S80.Idx → EReal := m (c, Proc.devRef .tc main_arg8)
abbrev gammaArr : S80.Idx → EReal := m (c, Proc.devRef .tc main_arg9)
abbrev betaArr : S80.Idx → EReal := m (c, Proc.devRef .tc main_arg10)

/-- The weights of output channel o. -/
def wAt (o : Fin 80) (ch : Fin 256) : EReal := wArr m c (ix2 o ch)

/-- The position values are the four cells' convolutions of that volume with those weights, added pairwise. -/
theorem posVal_eq_vol (o : Fin 80) :
    posVal (featArr m c) (wArr m c) (rotK m c) (projArr m c) (parArr m c) o
      = fun r => ((∑ ch, volAt m c r 0 ch * wAt m c o ch) + (∑ ch, volAt m c r 1 ch * wAt m c o ch))
          + ((∑ ch, volAt m c r 2 ch * wAt m c o ch) + (∑ ch, volAt m c r 3 ch * wAt m c o ch)) := rfl

/-! ## Every entry is a real -/

variable (hpre : Cert.Pre_KernelIdeal m)
include hpre

/-- The camera features the table region reads: each is an entry of the first argument. -/
theorem featArr_finite (i : S6x256x11264.Idx) : featArr m c i ≠ ⊥ ∧ featArr m c i ≠ ⊤ := by
  obtain ⟨j, ch, pos, rfl⟩ : ∃ (j : Fin 6) (ch : Fin 256) (pos : Fin 11264), i = ix3 j ch pos := ⟨i 0, i 1, i 2, eq_ix3 i⟩
  have hp := pos.isLt
  have e : featArr m c (ix3 j ch pos)
      = m (c, Proc.devRef .tc main_arg0) (ix5 (0 : Fin 1) j ch ⟨pos.val / 176, by omega⟩ ⟨pos.val % 176, Nat.mod_lt _ (by decide)⟩) :=
    Ea_feat (F := Ideal) m c j ch pos
  have h := Cert.Proof.Bridge.real_arg0 m hpre c (ix5 (0 : Fin 1) j ch ⟨pos.val / 176, by omega⟩ ⟨pos.val % 176, Nat.mod_lt _ (by decide)⟩)
  exact ⟨fun hb => h.1 (e.symm.trans hb), fun ht => h.2 (e.symm.trans ht)⟩

/-- (a) The gathered volume. -/
theorem volAt_finite (r : Fin 200 × Fin 200) (z : Fin 4) (ch : Fin 256) : volAt m c r z ch ≠ ⊥ ∧ volAt m c r z ch ≠ ⊤ :=
  Cert.Proof.Bridge.volK_finite (featArr m c) (featArr_finite m c hpre) _ _ _ ch

/-- (b) The weights of an output channel, -/
theorem wAt_finite (o : Fin 80) (ch : Fin 256) : wAt m c o ch ≠ ⊥ ∧ wAt m c o ch ≠ ⊤ :=
  Cert.Proof.Bridge.real_arg7 m hpre c (ix2 o ch)

/-- its bias, -/
theorem bias_finite (o : Fin 80) :
    biasArr m c (ix1 o) ≠ ⊥ ∧ biasArr m c (ix1 o) ≠ ⊤ :=
  Cert.Proof.Bridge.real_arg8 m hpre c (ix1 o)

/-- its scale -/
theorem gamma_finite (o : Fin 80) :
    gammaArr m c (ix1 o) ≠ ⊥ ∧ gammaArr m c (ix1 o) ≠ ⊤ :=
  Cert.Proof.Bridge.real_arg9 m hpre c (ix1 o)

/-- and its shift. -/
theorem beta_finite (o : Fin 80) :
    betaArr m c (ix1 o) ≠ ⊥ ∧ betaArr m c (ix1 o) ≠ ⊤ :=
  Cert.Proof.Bridge.real_arg10 m hpre c (ix1 o)

end Cert.Proof.KI.KR

namespace Cert.Proof.KI

open Cert.KernelIdeal Cert.KernelIdeal.Gen
open Idealize.ShloMosaic Idealize.ShloMosaic.TcCoe Idealize.ShloMosaic.ValueIdx
open Idealize.SL Idealize.SL.Sem

variable [Cert.Pre_finite_inputs.Facts]

/-! ## The same, by the names the last step cites them under -/

theorem fin_feat (m : (ℓ : Loc nD τ sig) → Buf (Elt Ideal) ℓ) (hpre : Cert.Pre_KernelIdeal m) (c : Dev nD) :
    ∀ i, KR.featArr m c i ≠ ⊥ ∧ KR.featArr m c i ≠ ⊤ := KR.featArr_finite m c hpre

theorem fin_w (m : (ℓ : Loc nD τ sig) → Buf (Elt Ideal) ℓ) (hpre : Cert.Pre_KernelIdeal m) (c : Dev nD) :
    ∀ i, KR.wArr m c i ≠ ⊥ ∧ KR.wArr m c i ≠ ⊤ := fun i => Cert.Proof.Bridge.real_arg7 m hpre c i

theorem fin_b (m : (ℓ : Loc nD τ sig) → Buf (Elt Ideal) ℓ) (hpre : Cert.Pre_KernelIdeal m) (c : Dev nD) (o : Fin 80) :
    KR.biasArr m c (ix1 o) ≠ ⊥ ∧ KR.biasArr m c (ix1 o) ≠ ⊤ :=
  Cert.Proof.Bridge.real_arg8 m hpre c (ix1 o)

theorem fin_g (m : (ℓ : Loc nD τ sig) → Buf (Elt Ideal) ℓ) (hpre : Cert.Pre_KernelIdeal m) (c : Dev nD) (o : Fin 80) :
    KR.gammaArr m c (ix1 o) ≠ ⊥ ∧ KR.gammaArr m c (ix1 o) ≠ ⊤ :=
  Cert.Proof.Bridge.real_arg9 m hpre c (ix1 o)

theorem fin_s (m : (ℓ : Loc nD τ sig) → Buf (Elt Ideal) ℓ) (hpre : Cert.Pre_KernelIdeal m) (c : Dev nD) (o : Fin 80) :
    KR.betaArr m c (ix1 o) ≠ ⊥ ∧ KR.betaArr m c (ix1 o) ≠ ⊤ :=
  Cert.Proof.Bridge.real_arg10 m hpre c (ix1 o)

theorem fin_vol (m : (ℓ : Loc nD τ sig) → Buf (Elt Ideal) ℓ) (hpre : Cert.Pre_KernelIdeal m) (c : Dev nD) (n : ℕ) (ch : Fin 256) :
    R1.volK (KR.featArr m c) (R1.okK (KR.rotK m c) (KR.projArr m c) (KR.parArr m c) n) (R1.uK (KR.rotK m c) (KR.projArr m c) (KR.parArr m c) n)
        (R1.vK (KR.rotK m c) (KR.projArr m c) (KR.parArr m c) n) ch ≠ ⊥
      ∧ R1.volK (KR.featArr m c) (R1.okK (KR.rotK m c) (KR.projArr m c) (KR.parArr m c) n) (R1.uK (KR.rotK m c) (KR.projArr m c) (KR.parArr m c) n)
        (R1.vK (KR.rotK m c) (KR.projArr m c) (KR.parArr m c) n) ch ≠ ⊤ :=
  Cert.Proof.Bridge.volK_finite (KR.featArr m c) (fin_feat m hpre c) _ _ _ ch

end Cert.Proof.KI

end
-- ==== Proof.RefSsa.lean ====
/-
  A straight line of host operations in single-assignment order, and what it leaves.

  Every operation of such a line writes one buffer, whose index is larger than that of every buffer written before it and
  at least that of every buffer the operation touches, and an operation run twice leaves what it leaves run once (it does
  not read its own result). Then no later operation writes a buffer an earlier one touches, so the contents after the
  whole line agree, on the buffers of each operation, with the contents just after that operation; hence the final
  contents are a FIXED POINT of every operation of the line (fixed_of_staged): at the buffer an operation writes they are
  the operation's function of the final contents of its operands. One equation per operation follows (eq_unary and its kin), over the
  final contents alone, and the fold of the line is never unfolded.
-/
import Idealize.ShloMosaic.Lib.StableHlo.Run

noncomputable section

namespace Cert.ReferenceIdeal.RefSsa

open Idealize.ShloMosaic Idealize.SL.Sem Idealize.ShloMosaic.StableHlo

variable {τ : Topo} {sig : RefSig} {Val : EltTy → Type}

/-- The operation writes exactly the reference y, touches only references whose index is at most y's, and run twice leaves
    what it leaves run once. -/
structure Stage (op : HloOp τ sig Val) (y : Ref sig .tc) : Prop where
  writes : op.writes = {Proc.devRef .tc y}
  bufs : ∀ b ∈ op.bufs, ∃ x : Ref sig .tc, b = Proc.devRef .tc x ∧ x.idx.val ≤ y.idx.val
  idem : ∀ V : Valuation τ sig Val, op.result (op.result V) = op.result V

/-- The line's operations are stages whose written indices increase strictly, all of them at least k and below k'. -/
def Staged : List (HloOp τ sig Val) → ℕ → ℕ → Prop
  | [], k, k' => k ≤ k'
  | op :: l, k, k' => ∃ y : Ref sig .tc, k ≤ y.idx.val ∧ Stage op y ∧ Staged l (y.idx.val + 1) k'

theorem Staged.mono_left : ∀ {l : List (HloOp τ sig Val)} {j k k' : ℕ}, Staged l k k' → j ≤ k → Staged l j k'
  | [], _, _, _, h, hj => le_trans hj h
  | _ :: _, _, _, _, ⟨y, hk, st, rest⟩, hj => ⟨y, le_trans hj hk, st, rest⟩

theorem Staged.append : ∀ {l₁ l₂ : List (HloOp τ sig Val)} {k k' k'' : ℕ}, Staged l₁ k k' → Staged l₂ k' k'' → Staged (l₁ ++ l₂) k k''
  | [], _, _, _, _, h₁, h₂ => h₂.mono_left h₁
  | _ :: _, _, _, _, _, ⟨y, hk, st, rest⟩, h₂ => ⟨y, hk, st, rest.append h₂⟩

/-- Every operation of a staged line writes one reference, of index at least the line's lower bound. -/
theorem Staged.writes_ge : ∀ {l : List (HloOp τ sig Val)} {k k' : ℕ}, Staged l k k' →
    ∀ op ∈ l, ∃ y : Ref sig .tc, op.writes = {Proc.devRef .tc y} ∧ k ≤ y.idx.val
  | [], _, _, _, _, hop => absurd hop List.not_mem_nil
  | _ :: _, _, _, ⟨y, hk, st, rest⟩, op, hop => by
    rcases List.mem_cons.1 hop with rfl | h
    · exact ⟨y, st.writes, hk⟩
    · obtain ⟨z, hz, hkz⟩ := rest.writes_ge op h
      exact ⟨z, hz, by omega⟩

/-- A reference of index below a staged line's lower bound is written by none of its operations. -/
theorem Staged.not_written {l : List (HloOp τ sig Val)} {k k' : ℕ} (h : Staged l k k') {x : Ref sig .tc} (hx : x.idx.val < k) :
    ∀ op ∈ l, Proc.devRef (τ := τ) .tc x ∉ op.writes := fun op hop hm => by
  obtain ⟨y, hy, hk⟩ := h.writes_ge op hop
  rw [hy, Finset.mem_singleton] at hm
  have e : x = y := Proc.devRef_injective _ hm
  subst e
  omega

/-- THE FIXED POINT: the contents after a staged line are left as they are by every operation of the line. -/
theorem fixed_of_staged : ∀ {l : List (HloOp τ sig Val)} {k k' : ℕ}, Staged l k k' → ∀ (V : Valuation τ sig Val),
    ∀ op ∈ l, op.result (after l V) = after l V
  | [], _, _, _, _, _, hop => absurd hop List.not_mem_nil
  | op₀ :: l, _, _, ⟨y, _, st, rest⟩, V, op, hop => by
    rw [after_cons]
    rcases List.mem_cons.1 hop with rfl | h
    · -- the head: later operations write none of its buffers
      have hA : ∀ b ∈ op.bufs, after l (op.result V) b = op.result V b := fun b hb => by
        obtain ⟨x, rfl, hx⟩ := st.bufs b hb
        exact after_of_forall_not_mem l _ (rest.not_written (by omega))
      funext b
      by_cases hb : b ∈ op.writes
      · rw [op.result_congr hA b (op.writes_sub hb), st.idem V, hA b (op.writes_sub hb)]
      · rw [op.result_of_not_mem _ hb]
    · exact fixed_of_staged rest (op₀.result V) op h

/-! ## The builders are stages -/

section Builders

/-- An operation that writes one reference is idempotent as soon as it is at that reference. -/
theorem idem_of {op : HloOp τ sig Val} {y : Ref sig .tc} (hw : op.writes = {Proc.devRef .tc y})
    (h : ∀ F : Valuation τ sig Val, op.result (op.result F) (Proc.devRef .tc y) = op.result F (Proc.devRef .tc y)) :
    ∀ V : Valuation τ sig Val, op.result (op.result V) = op.result V := fun V => by
  funext b
  by_cases hb : b ∈ op.writes
  · rw [hw, Finset.mem_singleton] at hb
    subst hb
    exact h V
  · rw [op.result_of_not_mem _ hb]

theorem ne_of_idx_lt {x y : Ref sig .tc} (h : x.idx.val < y.idx.val) : x ≠ y := fun e => by subst e; omega

theorem stage_nullary (y : Ref sig .tc) (v : y.ty.Contents Val) (hy) : Stage (nullary (τ := τ) y v hy) y where
  writes := rfl
  bufs b hb := ⟨y, Finset.mem_singleton.1 hb, le_refl _⟩
  idem := idem_of rfl fun F => by rw [nullary_result, nullary_result]

theorem stage_unary {x y : Ref sig .tc} {f : x.ty.Contents Val → y.ty.Contents Val} {hx hy}
    (h : x.idx.val < y.idx.val) : Stage (unary (τ := τ) x y f hx hy) y where
  writes := rfl
  bufs b hb := by
    rcases Finset.mem_insert.1 hb with rfl | hb
    · exact ⟨x, rfl, by omega⟩
    · exact ⟨y, Finset.mem_singleton.1 hb, le_refl _⟩
  idem := idem_of rfl fun F => by
    rw [unary_result, unary_result, unary_result_ne _ _ _ _ _ _ (ne_of_idx_lt h)]

theorem stage_reshape {x y : Ref sig .tc} {he hn hx hy} (h : x.idx.val < y.idx.val) :
    Stage (reshape (τ := τ) (Val := Val) x y he hn hx hy) y where
  writes := rfl
  bufs b hb := by
    rcases Finset.mem_insert.1 hb with rfl | hb
    · exact ⟨x, rfl, by omega⟩
    · exact ⟨y, Finset.mem_singleton.1 hb, le_refl _⟩
  idem := idem_of rfl fun F => by
    rw [reshape_result, reshape_result, reshape_result_ne _ _ _ _ _ _ _ (ne_of_idx_lt h)]

theorem stage_binary {a b y : Ref sig .tc} {f : a.ty.Contents Val → b.ty.Contents Val → y.ty.Contents Val} {ha hb hy}
    (h₁ : a.idx.val < y.idx.val) (h₂ : b.idx.val < y.idx.val) : Stage (binary (τ := τ) a b y f ha hb hy) y where
  writes := rfl
  bufs c hc := by
    rcases Finset.mem_insert.1 hc with rfl | hc
    · exact ⟨a, rfl, by omega⟩
    rcases Finset.mem_insert.1 hc with rfl | hc
    · exact ⟨b, rfl, by omega⟩
    · exact ⟨y, Finset.mem_singleton.1 hc, le_refl _⟩
  idem := idem_of rfl fun F => by
    rw [binary_result, binary_result, binary_result_ne _ _ _ _ _ _ _ _ (ne_of_idx_lt h₁),
      binary_result_ne _ _ _ _ _ _ _ _ (ne_of_idx_lt h₂)]

theorem stage_ternary {c a b y : Ref sig .tc} {f : c.ty.Contents Val → a.ty.Contents Val → b.ty.Contents Val → y.ty.Contents Val}
    {hc ha hb hy} (h₀ : c.idx.val < y.idx.val) (h₁ : a.idx.val < y.idx.val) (h₂ : b.idx.val < y.idx.val) :
    Stage (ternary (τ := τ) c a b y f hc ha hb hy) y where
  writes := rfl
  bufs d hd := by
    rcases Finset.mem_insert.1 hd with rfl | hd
    · exact ⟨c, rfl, by omega⟩
    rcases Finset.mem_insert.1 hd with rfl | hd
    · exact ⟨a, rfl, by omega⟩
    rcases Finset.mem_insert.1 hd with rfl | hd
    · exact ⟨b, rfl, by omega⟩
    · exact ⟨y, Finset.mem_singleton.1 hd, le_refl _⟩
  idem := idem_of rfl fun F => by
    rw [ternary_result, ternary_result, ternary_result_ne _ _ _ _ _ _ _ _ _ _ (ne_of_idx_lt h₀),
      ternary_result_ne _ _ _ _ _ _ _ _ _ _ (ne_of_idx_lt h₁), ternary_result_ne _ _ _ _ _ _ _ _ _ _ (ne_of_idx_lt h₂)]

theorem stage_nary {n : ℕ} {xs : Fin n → Ref sig .tc} {y : Ref sig .tc}
    {f : ((k : Fin n) → (xs k).ty.Contents Val) → y.ty.Contents Val} {hxs hy}
    (h : ∀ k, (xs k).idx.val < y.idx.val) : Stage (nary (τ := τ) xs y f hxs hy) y where
  writes := rfl
  bufs d hd := by
    rcases Finset.mem_insert.1 hd with rfl | hd
    · exact ⟨y, rfl, le_refl _⟩
    · obtain ⟨k, -, rfl⟩ := Finset.mem_image.1 hd
      exact ⟨xs k, rfl, by have := h k; omega⟩
  idem := idem_of rfl fun F => by
    rw [nary_result, nary_result]
    congr 1
    funext k
    exact nary_result_ne _ _ _ _ _ _ (ne_of_idx_lt (h k))

end Builders

/-! ## One equation per stage

At the buffer an operation of a staged line writes, the contents after the line are the operation's function of the
contents after the line at its operands: the fixed point, read at that buffer. -/

section Equations

variable {l : List (HloOp τ sig Val)} {k k' : ℕ}

theorem eq_nullary (h : Staged l k k') (V : Valuation τ sig Val) {y : Ref sig .tc} {v : y.ty.Contents Val} {hy}
    (hm : nullary (τ := τ) y v hy ∈ l) : after l V (Proc.devRef .tc y) = v := by
  have e := congrFun (fixed_of_staged h V _ hm) (Proc.devRef .tc y)
  rw [nullary_result] at e
  exact e.symm

theorem eq_unary (h : Staged l k k') (V : Valuation τ sig Val) {x y : Ref sig .tc} {f : x.ty.Contents Val → y.ty.Contents Val} {hx hy}
    (hm : unary (τ := τ) x y f hx hy ∈ l) : after l V (Proc.devRef .tc y) = f (after l V (Proc.devRef .tc x)) := by
  have e := congrFun (fixed_of_staged h V _ hm) (Proc.devRef .tc y)
  rw [unary_result] at e
  exact e.symm

theorem eq_reshape (h : Staged l k k') (V : Valuation τ sig Val) {x y : Ref sig .tc} {he : x.ty.elt = y.ty.elt}
    {hn : x.ty.shape.ShapeCasts y.ty.shape} {hx hy} (hm : reshape (τ := τ) (Val := Val) x y he hn hx hy ∈ l) :
    after l V (Proc.devRef .tc y) = fun i => he ▸ shapeCast y.ty.shape (after l V (Proc.devRef .tc x)) hn i := by
  have e := congrFun (fixed_of_staged h V _ hm) (Proc.devRef .tc y)
  rw [reshape_result] at e
  exact e.symm

theorem eq_binary (h : Staged l k k') (V : Valuation τ sig Val) {a b y : Ref sig .tc}
    {f : a.ty.Contents Val → b.ty.Contents Val → y.ty.Contents Val} {ha hb hy} (hm : binary (τ := τ) a b y f ha hb hy ∈ l) :
    after l V (Proc.devRef .tc y) = f (after l V (Proc.devRef .tc a)) (after l V (Proc.devRef .tc b)) := by
  have e := congrFun (fixed_of_staged h V _ hm) (Proc.devRef .tc y)
  rw [binary_result] at e
  exact e.symm

theorem eq_ternary (h : Staged l k k') (V : Valuation τ sig Val) {c a b y : Ref sig .tc}
    {f : c.ty.Contents Val → a.ty.Contents Val → b.ty.Contents Val → y.ty.Contents Val} {hc ha hb hy}
    (hm : ternary (τ := τ) c a b y f hc ha hb hy ∈ l) :
    after l V (Proc.devRef .tc y)
      = f (after l V (Proc.devRef .tc c)) (after l V (Proc.devRef .tc a)) (after l V (Proc.devRef .tc b)) := by
  have e := congrFun (fixed_of_staged h V _ hm) (Proc.devRef .tc y)
  rw [ternary_result] at e
  exact e.symm

theorem eq_nary (h : Staged l k k') (V : Valuation τ sig Val) {n : ℕ} {xs : Fin n → Ref sig .tc} {y : Ref sig .tc}
    {f : ((j : Fin n) → (xs j).ty.Contents Val) → y.ty.Contents Val} {hxs hy} (hm : nary (τ := τ) xs y f hxs hy ∈ l) :
    after l V (Proc.devRef .tc y) = f (fun j => after l V (Proc.devRef .tc (xs j))) := by
  have e := congrFun (fixed_of_staged h V _ hm) (Proc.devRef .tc y)
  rw [nary_result] at e
  exact e.symm

end Equations

end Cert.ReferenceIdeal.RefSsa

end
-- ==== Proof.RefStaged.lean ====
/- For each window's operation list, that it is a staged line (every operation a stage of its builder's kind, the written
   references' numbers increasing); the six composed; and for each operation of @main its stage equation: the final
   contents at the reference it writes are its function of the final contents at its operands. -/
import proofs.«207241_g55714315764006_cont_9to1c4b_410_29_alg».proof.Proof.RefRun
import proofs.«207241_g55714315764006_cont_9to1c4b_410_29_alg».proof.Proof.RefSsa

set_option maxRecDepth 8192

noncomputable section

namespace Cert.ReferenceIdeal.RefRun

open Cert.ReferenceIdeal Cert.ReferenceIdeal.Facts₀ Cert.ReferenceIdeal.Facts Cert.ReferenceIdeal.RefSsa Idealize.ShloMosaic Idealize.SL.Sem Idealize.ShloMosaic.StableHlo

variable {F : FTy → Type} [FloatOps F] [Cert.ReferenceIdeal.Facts]

theorem ops0_staged : Staged (ops0 : List (HloOp τ sig (Elt F))) 11 71 :=
  ⟨_, by decide, stage_nullary _ _ _,
   _, by decide, stage_nullary _ _ _,
   _, by decide, stage_nullary _ _ _,
   _, by decide, stage_nullary _ _ _,
   _, by decide, stage_nullary _ _ _,
   _, by decide, stage_nullary _ _ _,
   _, by decide, stage_unary (by decide),
   _, by decide, stage_unary (by decide),
   _, by decide, stage_unary (by decide),
   _, by decide, stage_unary (by decide),
   _, by decide, stage_unary (by decide),
   _, by decide, stage_unary (by decide),
   _, by decide, stage_nary (by decide),
   _, by decide, stage_unary (by decide),
   _, by decide, stage_nullary _ _ _,
   _, by decide, stage_unary (by decide),
   _, by decide, stage_binary (by decide) (by decide),
   _, by decide, stage_binary (by decide) (by decide),
   _, by decide, stage_binary (by decide) (by decide),
   _, by decide, stage_reshape (by decide),
   _, by decide, stage_unary (by decide),
   _, by decide, stage_binary (by decide) (by decide),
   _, by decide, stage_reshape (by decide),
   _, by decide, stage_unary (by decide),
   _, by decide, stage_binary (by decide) (by decide),
   _, by decide, stage_reshape (by decide),
   _, by decide, stage_reshape (by decide),
   _, by decide, stage_unary (by decide),
   _, by decide, stage_reshape (by decide),
   _, by decide, stage_unary (by decide),
   _, by decide, stage_reshape (by decide),
   _, by decide, stage_unary (by decide),
   _, by decide, stage_reshape (by decide),
   _, by decide, stage_nullary _ _ _,
   _, by decide, stage_unary (by decide),
   _, by decide, stage_nullary _ _ _,
   _, by decide, stage_unary (by decide),
   _, by decide, stage_binary (by decide) (by decide),
   _, by decide, stage_nullary _ _ _,
   _, by decide, stage_unary (by decide),
   _, by decide, stage_ternary (by decide) (by decide) (by decide),
   _, by decide, stage_reshape (by decide),
   _, by decide, stage_binary (by decide) (by decide),
   _, by decide, stage_unary (by decide),
   _, by decide, stage_reshape (by decide),
   _, by decide, stage_reshape (by decide),
   _, by decide, stage_unary (by decide),
   _, by decide, stage_binary (by decide) (by decide),
   _, by decide, stage_unary (by decide),
   _, by decide, stage_unary (by decide),
   _, by decide, stage_reshape (by decide),
   _, by decide, stage_reshape (by decide),
   _, by decide, stage_binary (by decide) (by decide),
   _, by decide, stage_unary (by decide),
   _, by decide, stage_unary (by decide),
   _, by decide, stage_nullary _ _ _,
   _, by decide, stage_unary (by decide),
   _, by decide, stage_binary (by decide) (by decide),
   _, by decide, stage_unary (by decide),
   _, by decide, stage_binary (by decide) (by decide),
   by show (_ : ℕ) ≤ _; decide⟩

theorem ops1_staged : Staged (ops1 : List (HloOp τ sig (Elt F))) 71 141 :=
  ⟨_, by decide, stage_unary (by decide),
   _, by decide, stage_reshape (by decide),
   _, by decide, stage_unary (by decide),
   _, by decide, stage_reshape (by decide),
   _, by decide, stage_binary (by decide) (by decide),
   _, by decide, stage_unary (by decide),
   _, by decide, stage_reshape (by decide),
   _, by decide, stage_unary (by decide),
   _, by decide, stage_unary (by decide),
   _, by decide, stage_binary (by decide) (by decide),
   _, by decide, stage_unary (by decide),
   _, by decide, stage_reshape (by decide),
   _, by decide, stage_binary (by decide) (by decide),
   _, by decide, stage_unary (by decide),
   _, by decide, stage_reshape (by decide),
   _, by decide, stage_unary (by decide),
   _, by decide, stage_unary (by decide),
   _, by decide, stage_binary (by decide) (by decide),
   _, by decide, stage_nullary _ _ _,
   _, by decide, stage_unary (by decide),
   _, by decide, stage_binary (by decide) (by decide),
   _, by decide, stage_unary (by decide),
   _, by decide, stage_unary (by decide),
   _, by decide, stage_nullary _ _ _,
   _, by decide, stage_unary (by decide),
   _, by decide, stage_binary (by decide) (by decide),
   _, by decide, stage_unary (by decide),
   _, by decide, stage_unary (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_binary (by decide) (by decide),
   _, by decide, stage_nullary _ _ _,
   _, by decide, stage_unary (by decide),
   _, by decide, stage_binary (by decide) (by decide),
   _, by decide, stage_binary (by decide) (by decide),
   _, by decide, stage_nullary _ _ _,
   _, by decide, stage_unary (by decide),
   _, by decide, stage_binary (by decide) (by decide),
   _, by decide, stage_binary (by decide) (by decide),
   _, by decide, stage_nullary _ _ _,
   _, by decide, stage_unary (by decide),
   _, by decide, stage_binary (by decide) (by decide),
   _, by decide, stage_binary (by decide) (by decide),
   _, by decide, stage_nullary _ _ _,
   _, by decide, stage_unary (by decide),
   _, by decide, stage_unary (by decide),
   _, by decide, stage_reshape (by decide),
   _, by decide, stage_nullary _ _ _,
   _, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_reshape (by decide),
   _, by decide, stage_nullary _ _ _,
   _, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   by show (_ : ℕ) ≤ _; decide⟩

theorem ops2_staged : Staged (ops2 : List (HloOp τ sig (Elt F))) 141 213 :=
  ⟨_, by decide, stage_reshape (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_ternary (by decide) (by decide) (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_ternary (by decide) (by decide) (by decide),
   _, by decide, stage_unary (by decide),
   _, by decide, stage_unary (by decide),
   _, by decide, stage_binary (by decide) (by decide),
   _, by decide, stage_binary (by decide) (by decide),
   _, by decide, stage_unary (by decide),
   _, by decide, stage_reshape (by decide),
   _, by decide, stage_unary (by decide),
   _, by decide, stage_unary (by decide),
   _, by decide, stage_ternary (by decide) (by decide) (by decide),
   _, by decide, stage_unary (by decide),
   _, by decide, stage_reshape (by decide),
   _, by decide, stage_nullary _ _ _,
   _, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_reshape (by decide),
   _, by decide, stage_nullary _ _ _,
   _, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_reshape (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_ternary (by decide) (by decide) (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_ternary (by decide) (by decide) (by decide),
   _, by decide, stage_unary (by decide),
   _, by decide, stage_unary (by decide),
   _, by decide, stage_binary (by decide) (by decide),
   _, by decide, stage_binary (by decide) (by decide),
   _, by decide, stage_unary (by decide),
   _, by decide, stage_reshape (by decide),
   _, by decide, stage_unary (by decide),
   _, by decide, stage_unary (by decide),
   _, by decide, stage_ternary (by decide) (by decide) (by decide),
   _, by decide, stage_unary (by decide),
   _, by decide, stage_reshape (by decide),
   _, by decide, stage_nullary _ _ _,
   by show (_ : ℕ) ≤ _; decide⟩

theorem ops3_staged : Staged (ops3 : List (HloOp τ sig (Elt F))) 213 294 :=
  ⟨_, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_reshape (by decide),
   _, by decide, stage_nullary _ _ _,
   _, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_reshape (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_ternary (by decide) (by decide) (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_ternary (by decide) (by decide) (by decide),
   _, by decide, stage_unary (by decide),
   _, by decide, stage_unary (by decide),
   _, by decide, stage_binary (by decide) (by decide),
   _, by decide, stage_binary (by decide) (by decide),
   _, by decide, stage_unary (by decide),
   _, by decide, stage_reshape (by decide),
   _, by decide, stage_unary (by decide),
   _, by decide, stage_unary (by decide),
   _, by decide, stage_ternary (by decide) (by decide) (by decide),
   _, by decide, stage_unary (by decide),
   _, by decide, stage_reshape (by decide),
   _, by decide, stage_nullary _ _ _,
   _, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_reshape (by decide),
   _, by decide, stage_nullary _ _ _,
   _, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_reshape (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_ternary (by decide) (by decide) (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_ternary (by decide) (by decide) (by decide),
   _, by decide, stage_unary (by decide),
   _, by decide, stage_unary (by decide),
   _, by decide, stage_binary (by decide) (by decide),
   by show (_ : ℕ) ≤ _; decide⟩

theorem ops4_staged : Staged (ops4 : List (HloOp τ sig (Elt F))) 294 376 :=
  ⟨_, by decide, stage_binary (by decide) (by decide),
   _, by decide, stage_unary (by decide),
   _, by decide, stage_reshape (by decide),
   _, by decide, stage_unary (by decide),
   _, by decide, stage_unary (by decide),
   _, by decide, stage_ternary (by decide) (by decide) (by decide),
   _, by decide, stage_unary (by decide),
   _, by decide, stage_reshape (by decide),
   _, by decide, stage_nullary _ _ _,
   _, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_reshape (by decide),
   _, by decide, stage_nullary _ _ _,
   _, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_reshape (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_ternary (by decide) (by decide) (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_ternary (by decide) (by decide) (by decide),
   _, by decide, stage_unary (by decide),
   _, by decide, stage_unary (by decide),
   _, by decide, stage_binary (by decide) (by decide),
   _, by decide, stage_binary (by decide) (by decide),
   _, by decide, stage_unary (by decide),
   _, by decide, stage_reshape (by decide),
   _, by decide, stage_unary (by decide),
   _, by decide, stage_unary (by decide),
   _, by decide, stage_ternary (by decide) (by decide) (by decide),
   _, by decide, stage_unary (by decide),
   _, by decide, stage_reshape (by decide),
   _, by decide, stage_nullary _ _ _,
   _, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_reshape (by decide),
   _, by decide, stage_nullary _ _ _,
   _, by decide, stage_nullary _ _ _,
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_reshape (by decide),
   _, by decide, stage_nullary _ _ _,
   _, by decide, stage_unary (by decide),
   _, by decide, stage_binary (by decide) (by decide),
   _, by decide, stage_nullary _ _ _,
   _, by decide, stage_unary (by decide),
   _, by decide, stage_binary (by decide) (by decide),
   _, by decide, stage_ternary (by decide) (by decide) (by decide),
   _, by decide, stage_nullary _ _ _,
   _, by decide, stage_unary (by decide),
   by show (_ : ℕ) ≤ _; decide⟩

theorem ops5_staged : Staged (ops5 : List (HloOp τ sig (Elt F))) 376 448 :=
  ⟨_, by decide, stage_binary (by decide) (by decide),
   _, by decide, stage_nullary _ _ _,
   _, by decide, stage_unary (by decide),
   _, by decide, stage_binary (by decide) (by decide),
   _, by decide, stage_ternary (by decide) (by decide) (by decide),
   _, by decide, stage_unary (by decide),
   _, by decide, stage_unary (by decide),
   _, by decide, stage_binary (by decide) (by decide),
   _, by decide, stage_binary (by decide) (by decide),
   _, by decide, stage_unary (by decide),
   _, by decide, stage_reshape (by decide),
   _, by decide, stage_unary (by decide),
   _, by decide, stage_unary (by decide),
   _, by decide, stage_ternary (by decide) (by decide) (by decide),
   _, by decide, stage_reshape (by decide),
   _, by decide, stage_unary (by decide),
   _, by decide, stage_nullary _ _ _,
   _, by decide, stage_binary (by decide) (by decide),
   _, by decide, stage_unary (by decide),
   _, by decide, stage_reshape (by decide),
   _, by decide, stage_binary (by decide) (by decide),
   _, by decide, stage_unary (by decide),
   _, by decide, stage_unary (by decide),
   _, by decide, stage_unary (by decide),
   _, by decide, stage_binary (by decide) (by decide),
   _, by decide, stage_nullary _ _ _,
   _, by decide, stage_binary (by decide) (by decide),
   _, by decide, stage_unary (by decide),
   _, by decide, stage_nullary _ _ _,
   _, by decide, stage_unary (by decide),
   _, by decide, stage_binary (by decide) (by decide),
   _, by decide, stage_nullary _ _ _,
   _, by decide, stage_nullary _ _ _,
   _, by decide, stage_binary (by decide) (by decide),
   _, by decide, stage_unary (by decide),
   _, by decide, stage_nullary _ _ _,
   _, by decide, stage_unary (by decide),
   _, by decide, stage_binary (by decide) (by decide),
   _, by decide, stage_unary (by decide),
   _, by decide, stage_binary (by decide) (by decide),
   _, by decide, stage_binary (by decide) (by decide),
   _, by decide, stage_unary (by decide),
   _, by decide, stage_nullary _ _ _,
   _, by decide, stage_binary (by decide) (by decide),
   _, by decide, stage_nullary _ _ _,
   _, by decide, stage_binary (by decide) (by decide),
   _, by decide, stage_unary (by decide),
   _, by decide, stage_unary (by decide),
   _, by decide, stage_binary (by decide) (by decide),
   _, by decide, stage_nullary _ _ _,
   _, by decide, stage_binary (by decide) (by decide),
   _, by decide, stage_nullary _ _ _,
   _, by decide, stage_unary (by decide),
   _, by decide, stage_unary (by decide),
   _, by decide, stage_ternary (by decide) (by decide) (by decide),
   _, by decide, stage_unary (by decide),
   _, by decide, stage_binary (by decide) (by decide),
   _, by decide, stage_nullary _ _ _,
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_unary (by decide),
   _, by decide, stage_unary (by decide),
   _, by decide, stage_binary (by decide) (by decide),
   _, by decide, stage_nullary _ _ _,
   _, by decide, stage_unary (by decide),
   _, by decide, stage_binary (by decide) (by decide),
   by show (_ : ℕ) ≤ _; decide⟩

/-- @main's whole line is staged: the windows' certificates composed. -/
theorem ops_staged : Staged (ops : List (HloOp τ sig (Elt F))) 11 448 :=
  ops0_staged.append (ops1_staged.append (ops2_staged.append (ops3_staged.append (ops4_staged.append ops5_staged))))

theorem mem0 {op : HloOp τ sig (Elt F)} (h : op ∈ ops0) : op ∈ ops := List.mem_append_left _ h
theorem mem1 {op : HloOp τ sig (Elt F)} (h : op ∈ ops1) : op ∈ ops := List.mem_append_right _ (List.mem_append_left _ h)
theorem mem2 {op : HloOp τ sig (Elt F)} (h : op ∈ ops2) : op ∈ ops := List.mem_append_right _ (List.mem_append_right _ (List.mem_append_left _ h))
theorem mem3 {op : HloOp τ sig (Elt F)} (h : op ∈ ops3) : op ∈ ops := List.mem_append_right _ (List.mem_append_right _ (List.mem_append_right _ (List.mem_append_left _ h)))
theorem mem4 {op : HloOp τ sig (Elt F)} (h : op ∈ ops4) : op ∈ ops := List.mem_append_right _ (List.mem_append_right _ (List.mem_append_right _ (List.mem_append_right _ (List.mem_append_left _ h))))
theorem mem5 {op : HloOp τ sig (Elt F)} (h : op ∈ ops5) : op ∈ ops := List.mem_append_right _ (List.mem_append_right _ (List.mem_append_right _ (List.mem_append_right _ (List.mem_append_right _ (h)))))

theorem st_main_cst (V : Valuation τ sig (Elt F)) :
    after ops V (Proc.devRef .tc main_cst) = (fun i => FloatOps.ofBits .f32 (lit0 (S3.rowMajor i))) := by
  have e := eq_nullary ops_staged V  (y := main_cst) (v := (fun i => FloatOps.ofBits .f32 (lit0 (S3.rowMajor i))))  (hy := ⟨by decide, by rfl⟩) (mem0 (List.getElem_mem (l := ops0) (n := 0) (Nat.le_of_ble_eq_true rfl)))
  exact e
theorem st_main_cst_0 (V : Valuation τ sig (Elt F)) :
    after ops V (Proc.devRef .tc main_cst_0) = (fun i => FloatOps.ofBits .f32 (lit1 (S3.rowMajor i))) := by
  have e := eq_nullary ops_staged V  (y := main_cst_0) (v := (fun i => FloatOps.ofBits .f32 (lit1 (S3.rowMajor i))))  (hy := ⟨by decide, by rfl⟩) (mem0 (List.getElem_mem (l := ops0) (n := 1) (Nat.le_of_ble_eq_true rfl)))
  exact e
theorem st_main_cst_1 (V : Valuation τ sig (Elt F)) :
    after ops V (Proc.devRef .tc main_cst_1) = (fun i => FloatOps.ofBits .f32 (lit2 (S3.rowMajor i))) := by
  have e := eq_nullary ops_staged V  (y := main_cst_1) (v := (fun i => FloatOps.ofBits .f32 (lit2 (S3.rowMajor i))))  (hy := ⟨by decide, by rfl⟩) (mem0 (List.getElem_mem (l := ops0) (n := 2) (Nat.le_of_ble_eq_true rfl)))
  exact e
theorem st_main_v0 (V : Valuation τ sig (Elt F)) :
    after ops V (Proc.devRef .tc main_v0) = (iotaInDim S200 32 0) := by
  have e := eq_nullary ops_staged V  (y := main_v0) (v := (iotaInDim S200 32 0))  (hy := ⟨by decide, by rfl⟩) (mem0 (List.getElem_mem (l := ops0) (n := 3) (Nat.le_of_ble_eq_true rfl)))
  exact e
theorem st_main_v1 (V : Valuation τ sig (Elt F)) :
    after ops V (Proc.devRef .tc main_v1) = (iotaInDim S200 32 0) := by
  have e := eq_nullary ops_staged V  (y := main_v1) (v := (iotaInDim S200 32 0))  (hy := ⟨by decide, by rfl⟩) (mem0 (List.getElem_mem (l := ops0) (n := 4) (Nat.le_of_ble_eq_true rfl)))
  exact e
theorem st_main_v2 (V : Valuation τ sig (Elt F)) :
    after ops V (Proc.devRef .tc main_v2) = (iotaInDim S4 32 0) := by
  have e := eq_nullary ops_staged V  (y := main_v2) (v := (iotaInDim S4 32 0))  (hy := ⟨by decide, by rfl⟩) (mem0 (List.getElem_mem (l := ops0) (n := 5) (Nat.le_of_ble_eq_true rfl)))
  exact e
theorem st_main_v3 (V : Valuation τ sig (Elt F)) :
    after ops V (Proc.devRef .tc main_v3) = (broadcastInDim S200x200x4 ![0] bcast_S200_S200x200x4_0 : (⟨S200, .i32⟩ : BufTy).Contents (Elt F) → (⟨S200x200x4, .i32⟩ : BufTy).Contents (Elt F)) (after ops V (Proc.devRef .tc main_v0)) := by
  have e := eq_unary ops_staged V (x := main_v0) (y := main_v3) (f := (broadcastInDim S200x200x4 ![0] bcast_S200_S200x200x4_0 : (⟨S200, .i32⟩ : BufTy).Contents (Elt F) → (⟨S200x200x4, .i32⟩ : BufTy).Contents (Elt F))) (hx := ⟨by decide, by rfl⟩) (hy := ⟨by decide, by rfl⟩) (mem0 (List.getElem_mem (l := ops0) (n := 6) (Nat.le_of_ble_eq_true rfl)))
  exact e
theorem st_main_v4 (V : Valuation τ sig (Elt F)) :
    after ops V (Proc.devRef .tc main_v4) = (broadcastInDim S200x200x4 ![1] bcast_S200_S200x200x4_1 : (⟨S200, .i32⟩ : BufTy).Contents (Elt F) → (⟨S200x200x4, .i32⟩ : BufTy).Contents (Elt F)) (after ops V (Proc.devRef .tc main_v1)) := by
  have e := eq_unary ops_staged V (x := main_v1) (y := main_v4) (f := (broadcastInDim S200x200x4 ![1] bcast_S200_S200x200x4_1 : (⟨S200, .i32⟩ : BufTy).Contents (Elt F) → (⟨S200x200x4, .i32⟩ : BufTy).Contents (Elt F))) (hx := ⟨by decide, by rfl⟩) (hy := ⟨by decide, by rfl⟩) (mem0 (List.getElem_mem (l := ops0) (n := 7) (Nat.le_of_ble_eq_true rfl)))
  exact e
theorem st_main_v5 (V : Valuation τ sig (Elt F)) :
    after ops V (Proc.devRef .tc main_v5) = (broadcastInDim S200x200x4 ![2] bcast_S4_S200x200x4_2 : (⟨S4, .i32⟩ : BufTy).Contents (Elt F) → (⟨S200x200x4, .i32⟩ : BufTy).Contents (Elt F)) (after ops V (Proc.devRef .tc main_v2)) := by
  have e := eq_unary ops_staged V (x := main_v2) (y := main_v5) (f := (broadcastInDim S200x200x4 ![2] bcast_S4_S200x200x4_2 : (⟨S4, .i32⟩ : BufTy).Contents (Elt F) → (⟨S200x200x4, .i32⟩ : BufTy).Contents (Elt F))) (hx := ⟨by decide, by rfl⟩) (hy := ⟨by decide, by rfl⟩) (mem0 (List.getElem_mem (l := ops0) (n := 8) (Nat.le_of_ble_eq_true rfl)))
  exact e
theorem st_main_v6 (V : Valuation τ sig (Elt F)) :
    after ops V (Proc.devRef .tc main_v6) = (broadcastInDim S1x200x200x4 ![1, 2, 3] bcast_S200x200x4_S1x200x200x4_1_2_3 : (⟨S200x200x4, .i32⟩ : BufTy).Contents (Elt F) → (⟨S1x200x200x4, .i32⟩ : BufTy).Contents (Elt F)) (after ops V (Proc.devRef .tc main_v3)) := by
  have e := eq_unary ops_staged V (x := main_v3) (y := main_v6) (f := (broadcastInDim S1x200x200x4 ![1, 2, 3] bcast_S200x200x4_S1x200x200x4_1_2_3 : (⟨S200x200x4, .i32⟩ : BufTy).Contents (Elt F) → (⟨S1x200x200x4, .i32⟩ : BufTy).Contents (Elt F))) (hx := ⟨by decide, by rfl⟩) (hy := ⟨by decide, by rfl⟩) (mem0 (List.getElem_mem (l := ops0) (n := 9) (Nat.le_of_ble_eq_true rfl)))
  exact e
theorem st_main_v7 (V : Valuation τ sig (Elt F)) :
    after ops V (Proc.devRef .tc main_v7) = (broadcastInDim S1x200x200x4 ![1, 2, 3] bcast_S200x200x4_S1x200x200x4_1_2_3 : (⟨S200x200x4, .i32⟩ : BufTy).Contents (Elt F) → (⟨S1x200x200x4, .i32⟩ : BufTy).Contents (Elt F)) (after ops V (Proc.devRef .tc main_v4)) := by
  have e := eq_unary ops_staged V (x := main_v4) (y := main_v7) (f := (broadcastInDim S1x200x200x4 ![1, 2, 3] bcast_S200x200x4_S1x200x200x4_1_2_3 : (⟨S200x200x4, .i32⟩ : BufTy).Contents (Elt F) → (⟨S1x200x200x4, .i32⟩ : BufTy).Contents (Elt F))) (hx := ⟨by decide, by rfl⟩) (hy := ⟨by decide, by rfl⟩) (mem0 (List.getElem_mem (l := ops0) (n := 10) (Nat.le_of_ble_eq_true rfl)))
  exact e
theorem st_main_v8 (V : Valuation τ sig (Elt F)) :
    after ops V (Proc.devRef .tc main_v8) = (broadcastInDim S1x200x200x4 ![1, 2, 3] bcast_S200x200x4_S1x200x200x4_1_2_3 : (⟨S200x200x4, .i32⟩ : BufTy).Contents (Elt F) → (⟨S1x200x200x4, .i32⟩ : BufTy).Contents (Elt F)) (after ops V (Proc.devRef .tc main_v5)) := by
  have e := eq_unary ops_staged V (x := main_v5) (y := main_v8) (f := (broadcastInDim S1x200x200x4 ![1, 2, 3] bcast_S200x200x4_S1x200x200x4_1_2_3 : (⟨S200x200x4, .i32⟩ : BufTy).Contents (Elt F) → (⟨S1x200x200x4, .i32⟩ : BufTy).Contents (Elt F))) (hx := ⟨by decide, by rfl⟩) (hy := ⟨by decide, by rfl⟩) (mem0 (List.getElem_mem (l := ops0) (n := 11) (Nat.le_of_ble_eq_true rfl)))
  exact e
theorem st_main_v9 (V : Valuation τ sig (Elt F)) :
    after ops V (Proc.devRef .tc main_v9) = (fun u => concatenate S3x200x200x4 0 [⟨S1x200x200x4, u 0⟩, ⟨S1x200x200x4, u 1⟩, ⟨S1x200x200x4, u 2⟩] concatenates_S1x200x200x4_S1x200x200x4_S1x200x200x4_S3x200x200x4_d0) (fun j => after ops V (Proc.devRef .tc (![main_v6, main_v7, main_v8] j))) := by
  have e := eq_nary ops_staged V (xs := ![main_v6, main_v7, main_v8]) (y := main_v9) (f := (fun u => concatenate S3x200x200x4 0 [⟨S1x200x200x4, u 0⟩, ⟨S1x200x200x4, u 1⟩, ⟨S1x200x200x4, u 2⟩] concatenates_S1x200x200x4_S1x200x200x4_S1x200x200x4_S3x200x200x4_d0)) (hxs := by decide) (hy := ⟨by decide, by rfl⟩) (mem0 (List.getElem_mem (l := ops0) (n := 12) (Nat.le_of_ble_eq_true rfl)))
  exact e
theorem st_main_v10 (V : Valuation τ sig (Elt F)) :
    after ops V (Proc.devRef .tc main_v10) = (sitofp .f32 : (⟨S3x200x200x4, .i32⟩ : BufTy).Contents (Elt F) → (⟨S3x200x200x4, .f32⟩ : BufTy).Contents (Elt F)) (after ops V (Proc.devRef .tc main_v9)) := by
  have e := eq_unary ops_staged V (x := main_v9) (y := main_v10) (f := (sitofp .f32 : (⟨S3x200x200x4, .i32⟩ : BufTy).Contents (Elt F) → (⟨S3x200x200x4, .f32⟩ : BufTy).Contents (Elt F))) (hx := ⟨by decide, by rfl⟩) (hy := ⟨by decide, by rfl⟩) (mem0 (List.getElem_mem (l := ops0) (n := 13) (Nat.le_of_ble_eq_true rfl)))
  exact e
theorem st_main_cst_2 (V : Valuation τ sig (Elt F)) :
    after ops V (Proc.devRef .tc main_cst_2) = (constant S_ .f32 0x40000000#32) := by
  have e := eq_nullary ops_staged V  (y := main_cst_2) (v := (constant S_ .f32 0x40000000#32))  (hy := ⟨by decide, by rfl⟩) (mem0 (List.getElem_mem (l := ops0) (n := 14) (Nat.le_of_ble_eq_true rfl)))
  exact e
theorem st_main_v11 (V : Valuation τ sig (Elt F)) :
    after ops V (Proc.devRef .tc main_v11) = (broadcastInDim S3 ![] bcast_S_S3 : (⟨S_, .f32⟩ : BufTy).Contents (Elt F) → (⟨S3, .f32⟩ : BufTy).Contents (Elt F)) (after ops V (Proc.devRef .tc main_cst_2)) := by
  have e := eq_unary ops_staged V (x := main_cst_2) (y := main_v11) (f := (broadcastInDim S3 ![] bcast_S_S3 : (⟨S_, .f32⟩ : BufTy).Contents (Elt F) → (⟨S3, .f32⟩ : BufTy).Contents (Elt F))) (hx := ⟨by decide, by rfl⟩) (hy := ⟨by decide, by rfl⟩) (mem0 (List.getElem_mem (l := ops0) (n := 15) (Nat.le_of_ble_eq_true rfl)))
  exact e
theorem st_main_v12 (V : Valuation τ sig (Elt F)) :
    after ops V (Proc.devRef .tc main_v12) = (Host.divf : (⟨S3, .f32⟩ : BufTy).Contents (Elt F) → (⟨S3, .f32⟩ : BufTy).Contents (Elt F) → (⟨S3, .f32⟩ : BufTy).Contents (Elt F)) (after ops V (Proc.devRef .tc main_cst)) (after ops V (Proc.devRef .tc main_v11)) := by
  have e := eq_binary ops_staged V (a := main_cst) (b := main_v11) (y := main_v12) (f := (Host.divf : (⟨S3, .f32⟩ : BufTy).Contents (Elt F) → (⟨S3, .f32⟩ : BufTy).Contents (Elt F) → (⟨S3, .f32⟩ : BufTy).Contents (Elt F))) (ha := ⟨by decide, by rfl⟩) (hb := ⟨by decide, by rfl⟩) (hy := ⟨by decide, by rfl⟩) (mem0 (List.getElem_mem (l := ops0) (n := 16) (Nat.le_of_ble_eq_true rfl)))
  exact e
theorem st_main_v13 (V : Valuation τ sig (Elt F)) :
    after ops V (Proc.devRef .tc main_v13) = (mulf : (⟨S3, .f32⟩ : BufTy).Contents (Elt F) → (⟨S3, .f32⟩ : BufTy).Contents (Elt F) → (⟨S3, .f32⟩ : BufTy).Contents (Elt F)) (after ops V (Proc.devRef .tc main_v12)) (after ops V (Proc.devRef .tc main_cst_0)) := by
  have e := eq_binary ops_staged V (a := main_v12) (b := main_cst_0) (y := main_v13) (f := (mulf : (⟨S3, .f32⟩ : BufTy).Contents (Elt F) → (⟨S3, .f32⟩ : BufTy).Contents (Elt F) → (⟨S3, .f32⟩ : BufTy).Contents (Elt F))) (ha := ⟨by decide, by rfl⟩) (hb := ⟨by decide, by rfl⟩) (hy := ⟨by decide, by rfl⟩) (mem0 (List.getElem_mem (l := ops0) (n := 17) (Nat.le_of_ble_eq_true rfl)))
  exact e
theorem st_main_v14 (V : Valuation τ sig (Elt F)) :
    after ops V (Proc.devRef .tc main_v14) = (subf : (⟨S3, .f32⟩ : BufTy).Contents (Elt F) → (⟨S3, .f32⟩ : BufTy).Contents (Elt F) → (⟨S3, .f32⟩ : BufTy).Contents (Elt F)) (after ops V (Proc.devRef .tc main_cst_1)) (after ops V (Proc.devRef .tc main_v13)) := by
  have e := eq_binary ops_staged V (a := main_cst_1) (b := main_v13) (y := main_v14) (f := (subf : (⟨S3, .f32⟩ : BufTy).Contents (Elt F) → (⟨S3, .f32⟩ : BufTy).Contents (Elt F) → (⟨S3, .f32⟩ : BufTy).Contents (Elt F))) (ha := ⟨by decide, by rfl⟩) (hb := ⟨by decide, by rfl⟩) (hy := ⟨by decide, by rfl⟩) (mem0 (List.getElem_mem (l := ops0) (n := 18) (Nat.le_of_ble_eq_true rfl)))
  exact e
theorem st_main_v15 (V : Valuation τ sig (Elt F)) :
    after ops V (Proc.devRef .tc main_v15) = fun i => shapeCast main_v15.ty.shape (after ops V (Proc.devRef .tc main_cst_0)) shapeCasts_S3_S3x1x1x1 i := by
  have e := eq_reshape ops_staged V (x := main_cst_0) (y := main_v15) (he := rfl) (hn := shapeCasts_S3_S3x1x1x1) (hx := ⟨by decide, by rfl⟩) (hy := ⟨by decide, by rfl⟩) (mem0 (List.getElem_mem (l := ops0) (n := 19) (Nat.le_of_ble_eq_true rfl)))
  exact e
theorem st_main_v16 (V : Valuation τ sig (Elt F)) :
    after ops V (Proc.devRef .tc main_v16) = (broadcastInDim S3x200x200x4 ![0, 1, 2, 3] bcast_S3x1x1x1_S3x200x200x4_0_1_2_3 : (⟨S3x1x1x1, .f32⟩ : BufTy).Contents (Elt F) → (⟨S3x200x200x4, .f32⟩ : BufTy).Contents (Elt F)) (after ops V (Proc.devRef .tc main_v15)) := by
  have e := eq_unary ops_staged V (x := main_v15) (y := main_v16) (f := (broadcastInDim S3x200x200x4 ![0, 1, 2, 3] bcast_S3x1x1x1_S3x200x200x4_0_1_2_3 : (⟨S3x1x1x1, .f32⟩ : BufTy).Contents (Elt F) → (⟨S3x200x200x4, .f32⟩ : BufTy).Contents (Elt F))) (hx := ⟨by decide, by rfl⟩) (hy := ⟨by decide, by rfl⟩) (mem0 (List.getElem_mem (l := ops0) (n := 20) (Nat.le_of_ble_eq_true rfl)))
  exact e
theorem st_main_v17 (V : Valuation τ sig (Elt F)) :
    after ops V (Proc.devRef .tc main_v17) = (mulf : (⟨S3x200x200x4, .f32⟩ : BufTy).Contents (Elt F) → (⟨S3x200x200x4, .f32⟩ : BufTy).Contents (Elt F) → (⟨S3x200x200x4, .f32⟩ : BufTy).Contents (Elt F)) (after ops V (Proc.devRef .tc main_v10)) (after ops V (Proc.devRef .tc main_v16)) := by
  have e := eq_binary ops_staged V (a := main_v10) (b := main_v16) (y := main_v17) (f := (mulf : (⟨S3x200x200x4, .f32⟩ : BufTy).Contents (Elt F) → (⟨S3x200x200x4, .f32⟩ : BufTy).Contents (Elt F) → (⟨S3x200x200x4, .f32⟩ : BufTy).Contents (Elt F))) (ha := ⟨by decide, by rfl⟩) (hb := ⟨by decide, by rfl⟩) (hy := ⟨by decide, by rfl⟩) (mem0 (List.getElem_mem (l := ops0) (n := 21) (Nat.le_of_ble_eq_true rfl)))
  exact e
theorem st_main_v18 (V : Valuation τ sig (Elt F)) :
    after ops V (Proc.devRef .tc main_v18) = fun i => shapeCast main_v18.ty.shape (after ops V (Proc.devRef .tc main_v14)) shapeCasts_S3_S3x1x1x1 i := by
  have e := eq_reshape ops_staged V (x := main_v14) (y := main_v18) (he := rfl) (hn := shapeCasts_S3_S3x1x1x1) (hx := ⟨by decide, by rfl⟩) (hy := ⟨by decide, by rfl⟩) (mem0 (List.getElem_mem (l := ops0) (n := 22) (Nat.le_of_ble_eq_true rfl)))
  exact e
theorem st_main_v19 (V : Valuation τ sig (Elt F)) :
    after ops V (Proc.devRef .tc main_v19) = (broadcastInDim S3x200x200x4 ![0, 1, 2, 3] bcast_S3x1x1x1_S3x200x200x4_0_1_2_3 : (⟨S3x1x1x1, .f32⟩ : BufTy).Contents (Elt F) → (⟨S3x200x200x4, .f32⟩ : BufTy).Contents (Elt F)) (after ops V (Proc.devRef .tc main_v18)) := by
  have e := eq_unary ops_staged V (x := main_v18) (y := main_v19) (f := (broadcastInDim S3x200x200x4 ![0, 1, 2, 3] bcast_S3x1x1x1_S3x200x200x4_0_1_2_3 : (⟨S3x1x1x1, .f32⟩ : BufTy).Contents (Elt F) → (⟨S3x200x200x4, .f32⟩ : BufTy).Contents (Elt F))) (hx := ⟨by decide, by rfl⟩) (hy := ⟨by decide, by rfl⟩) (mem0 (List.getElem_mem (l := ops0) (n := 23) (Nat.le_of_ble_eq_true rfl)))
  exact e
theorem st_main_v20 (V : Valuation τ sig (Elt F)) :
    after ops V (Proc.devRef .tc main_v20) = (addf : (⟨S3x200x200x4, .f32⟩ : BufTy).Contents (Elt F) → (⟨S3x200x200x4, .f32⟩ : BufTy).Contents (Elt F) → (⟨S3x200x200x4, .f32⟩ : BufTy).Contents (Elt F)) (after ops V (Proc.devRef .tc main_v17)) (after ops V (Proc.devRef .tc main_v19)) := by
  have e := eq_binary ops_staged V (a := main_v17) (b := main_v19) (y := main_v20) (f := (addf : (⟨S3x200x200x4, .f32⟩ : BufTy).Contents (Elt F) → (⟨S3x200x200x4, .f32⟩ : BufTy).Contents (Elt F) → (⟨S3x200x200x4, .f32⟩ : BufTy).Contents (Elt F))) (ha := ⟨by decide, by rfl⟩) (hb := ⟨by decide, by rfl⟩) (hy := ⟨by decide, by rfl⟩) (mem0 (List.getElem_mem (l := ops0) (n := 24) (Nat.le_of_ble_eq_true rfl)))
  exact e
theorem st_main_v21 (V : Valuation τ sig (Elt F)) :
    after ops V (Proc.devRef .tc main_v21) = fun i => shapeCast main_v21.ty.shape (after ops V (Proc.devRef .tc main_arg0)) shapeCasts_S1x6x256x64x176_S6x256x64x176 i := by
  have e := eq_reshape ops_staged V (x := main_arg0) (y := main_v21) (he := rfl) (hn := shapeCasts_S1x6x256x64x176_S6x256x64x176) (hx := ⟨by decide, by rfl⟩) (hy := ⟨by decide, by rfl⟩) (mem0 (List.getElem_mem (l := ops0) (n := 25) (Nat.le_of_ble_eq_true rfl)))
  exact e
theorem st_main_v22 (V : Valuation τ sig (Elt F)) :
    after ops V (Proc.devRef .tc main_v22) = fun i => shapeCast main_v22.ty.shape (after ops V (Proc.devRef .tc main_arg5)) shapeCasts_S1x4x4_S4x4 i := by
  have e := eq_reshape ops_staged V (x := main_arg5) (y := main_v22) (he := rfl) (hn := shapeCasts_S1x4x4_S4x4) (hx := ⟨by decide, by rfl⟩) (hy := ⟨by decide, by rfl⟩) (mem0 (List.getElem_mem (l := ops0) (n := 26) (Nat.le_of_ble_eq_true rfl)))
  exact e
theorem st_main_v23 (V : Valuation τ sig (Elt F)) :
    after ops V (Proc.devRef .tc main_v23) = ((extractStridedSlice S3x1 ![0, 3] · slices_S4x4_S3x1_0_3) : (⟨S4x4, .f32⟩ : BufTy).Contents (Elt F) → (⟨S3x1, .f32⟩ : BufTy).Contents (Elt F)) (after ops V (Proc.devRef .tc main_v22)) := by
  have e := eq_unary ops_staged V (x := main_v22) (y := main_v23) (f := ((extractStridedSlice S3x1 ![0, 3] · slices_S4x4_S3x1_0_3) : (⟨S4x4, .f32⟩ : BufTy).Contents (Elt F) → (⟨S3x1, .f32⟩ : BufTy).Contents (Elt F))) (hx := ⟨by decide, by rfl⟩) (hy := ⟨by decide, by rfl⟩) (mem0 (List.getElem_mem (l := ops0) (n := 27) (Nat.le_of_ble_eq_true rfl)))
  exact e
theorem st_main_v24 (V : Valuation τ sig (Elt F)) :
    after ops V (Proc.devRef .tc main_v24) = fun i => shapeCast main_v24.ty.shape (after ops V (Proc.devRef .tc main_v23)) shapeCasts_S3x1_S3 i := by
  have e := eq_reshape ops_staged V (x := main_v23) (y := main_v24) (he := rfl) (hn := shapeCasts_S3x1_S3) (hx := ⟨by decide, by rfl⟩) (hy := ⟨by decide, by rfl⟩) (mem0 (List.getElem_mem (l := ops0) (n := 28) (Nat.le_of_ble_eq_true rfl)))
  exact e
theorem st_main_v25 (V : Valuation τ sig (Elt F)) :
    after ops V (Proc.devRef .tc main_v25) = ((extractStridedSlice S3x3 ![0, 0] · slices_S4x4_S3x3_0_0) : (⟨S4x4, .f32⟩ : BufTy).Contents (Elt F) → (⟨S3x3, .f32⟩ : BufTy).Contents (Elt F)) (after ops V (Proc.devRef .tc main_v22)) := by
  have e := eq_unary ops_staged V (x := main_v22) (y := main_v25) (f := ((extractStridedSlice S3x3 ![0, 0] · slices_S4x4_S3x3_0_0) : (⟨S4x4, .f32⟩ : BufTy).Contents (Elt F) → (⟨S3x3, .f32⟩ : BufTy).Contents (Elt F))) (hx := ⟨by decide, by rfl⟩) (hy := ⟨by decide, by rfl⟩) (mem0 (List.getElem_mem (l := ops0) (n := 29) (Nat.le_of_ble_eq_true rfl)))
  exact e
theorem st_main_v26 (V : Valuation τ sig (Elt F)) :
    after ops V (Proc.devRef .tc main_v26) = fun i => shapeCast main_v26.ty.shape (after ops V (Proc.devRef .tc main_arg4)) shapeCasts_S1x6x4x4_S6x4x4 i := by
  have e := eq_reshape ops_staged V (x := main_arg4) (y := main_v26) (he := rfl) (hn := shapeCasts_S1x6x4x4_S6x4x4) (hx := ⟨by decide, by rfl⟩) (hy := ⟨by decide, by rfl⟩) (mem0 (List.getElem_mem (l := ops0) (n := 30) (Nat.le_of_ble_eq_true rfl)))
  exact e
theorem st_main_v27 (V : Valuation τ sig (Elt F)) :
    after ops V (Proc.devRef .tc main_v27) = ((extractStridedSlice S6x4x1 ![0, 0, 3] · slices_S6x4x4_S6x4x1_0_0_3) : (⟨S6x4x4, .f32⟩ : BufTy).Contents (Elt F) → (⟨S6x4x1, .f32⟩ : BufTy).Contents (Elt F)) (after ops V (Proc.devRef .tc main_v26)) := by
  have e := eq_unary ops_staged V (x := main_v26) (y := main_v27) (f := ((extractStridedSlice S6x4x1 ![0, 0, 3] · slices_S6x4x4_S6x4x1_0_0_3) : (⟨S6x4x4, .f32⟩ : BufTy).Contents (Elt F) → (⟨S6x4x1, .f32⟩ : BufTy).Contents (Elt F))) (hx := ⟨by decide, by rfl⟩) (hy := ⟨by decide, by rfl⟩) (mem0 (List.getElem_mem (l := ops0) (n := 31) (Nat.le_of_ble_eq_true rfl)))
  exact e
theorem st_main_v28 (V : Valuation τ sig (Elt F)) :
    after ops V (Proc.devRef .tc main_v28) = fun i => shapeCast main_v28.ty.shape (after ops V (Proc.devRef .tc main_v27)) shapeCasts_S6x4x1_S6x4 i := by
  have e := eq_reshape ops_staged V (x := main_v27) (y := main_v28) (he := rfl) (hn := shapeCasts_S6x4x1_S6x4) (hx := ⟨by decide, by rfl⟩) (hy := ⟨by decide, by rfl⟩) (mem0 (List.getElem_mem (l := ops0) (n := 32) (Nat.le_of_ble_eq_true rfl)))
  exact e
theorem st_main_c (V : Valuation τ sig (Elt F)) :
    after ops V (Proc.devRef .tc main_c) = (constantI S_ 32 0#32) := by
  have e := eq_nullary ops_staged V  (y := main_c) (v := (constantI S_ 32 0#32))  (hy := ⟨by decide, by rfl⟩) (mem0 (List.getElem_mem (l := ops0) (n := 33) (Nat.le_of_ble_eq_true rfl)))
  exact e
theorem st_main_v29 (V : Valuation τ sig (Elt F)) :
    after ops V (Proc.devRef .tc main_v29) = (broadcastInDim S1 ![] bcast_S_S1 : (⟨S_, .i32⟩ : BufTy).Contents (Elt F) → (⟨S1, .i32⟩ : BufTy).Contents (Elt F)) (after ops V (Proc.devRef .tc main_c)) := by
  have e := eq_unary ops_staged V (x := main_c) (y := main_v29) (f := (broadcastInDim S1 ![] bcast_S_S1 : (⟨S_, .i32⟩ : BufTy).Contents (Elt F) → (⟨S1, .i32⟩ : BufTy).Contents (Elt F))) (hx := ⟨by decide, by rfl⟩) (hy := ⟨by decide, by rfl⟩) (mem0 (List.getElem_mem (l := ops0) (n := 34) (Nat.le_of_ble_eq_true rfl)))
  exact e
theorem st_main_c_3 (V : Valuation τ sig (Elt F)) :
    after ops V (Proc.devRef .tc main_c_3) = (constantI S_ 32 3#32) := by
  have e := eq_nullary ops_staged V  (y := main_c_3) (v := (constantI S_ 32 3#32))  (hy := ⟨by decide, by rfl⟩) (mem0 (List.getElem_mem (l := ops0) (n := 35) (Nat.le_of_ble_eq_true rfl)))
  exact e
theorem st_main_v30 (V : Valuation τ sig (Elt F)) :
    after ops V (Proc.devRef .tc main_v30) = (broadcastInDim S1 ![] bcast_S_S1 : (⟨S_, .i32⟩ : BufTy).Contents (Elt F) → (⟨S1, .i32⟩ : BufTy).Contents (Elt F)) (after ops V (Proc.devRef .tc main_c_3)) := by
  have e := eq_unary ops_staged V (x := main_c_3) (y := main_v30) (f := (broadcastInDim S1 ![] bcast_S_S1 : (⟨S_, .i32⟩ : BufTy).Contents (Elt F) → (⟨S1, .i32⟩ : BufTy).Contents (Elt F))) (hx := ⟨by decide, by rfl⟩) (hy := ⟨by decide, by rfl⟩) (mem0 (List.getElem_mem (l := ops0) (n := 36) (Nat.le_of_ble_eq_true rfl)))
  exact e
theorem st_main_v31 (V : Valuation τ sig (Elt F)) :
    after ops V (Proc.devRef .tc main_v31) = ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) (after ops V (Proc.devRef .tc main_v29)) (after ops V (Proc.devRef .tc main_v30)) := by
  have e := eq_binary ops_staged V (a := main_v29) (b := main_v30) (y := main_v31) (f := ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (ha := ⟨by decide, by rfl⟩) (hb := ⟨by decide, by rfl⟩) (hy := ⟨by decide, by rfl⟩) (mem0 (List.getElem_mem (l := ops0) (n := 37) (Nat.le_of_ble_eq_true rfl)))
  exact e
theorem st_main_cst_4 (V : Valuation τ sig (Elt F)) :
    after ops V (Proc.devRef .tc main_cst_4) = (constant S_ .f32 0x00000000#32) := by
  have e := eq_nullary ops_staged V  (y := main_cst_4) (v := (constant S_ .f32 0x00000000#32))  (hy := ⟨by decide, by rfl⟩) (mem0 (List.getElem_mem (l := ops0) (n := 38) (Nat.le_of_ble_eq_true rfl)))
  exact e
theorem st_main_v32 (V : Valuation τ sig (Elt F)) :
    after ops V (Proc.devRef .tc main_v32) = (broadcastInDim S6x3 ![] bcast_S_S6x3 : (⟨S_, .f32⟩ : BufTy).Contents (Elt F) → (⟨S6x3, .f32⟩ : BufTy).Contents (Elt F)) (after ops V (Proc.devRef .tc main_cst_4)) := by
  have e := eq_unary ops_staged V (x := main_cst_4) (y := main_v32) (f := (broadcastInDim S6x3 ![] bcast_S_S6x3 : (⟨S_, .f32⟩ : BufTy).Contents (Elt F) → (⟨S6x3, .f32⟩ : BufTy).Contents (Elt F))) (hx := ⟨by decide, by rfl⟩) (hy := ⟨by decide, by rfl⟩) (mem0 (List.getElem_mem (l := ops0) (n := 39) (Nat.le_of_ble_eq_true rfl)))
  exact e
theorem st_main_v33 (V : Valuation τ sig (Elt F)) :
    after ops V (Proc.devRef .tc main_v33) = ((fun x i u => Host.scatter scatter_S6x4x4_S2_S6x3_01_2_12_0 (fun _ b => b) x i u) : (⟨S6x4x4, .f32⟩ : BufTy).Contents (Elt F) → (⟨S2, .i32⟩ : BufTy).Contents (Elt F) → (⟨S6x3, .f32⟩ : BufTy).Contents (Elt F) → (⟨S6x4x4, .f32⟩ : BufTy).Contents (Elt F)) (after ops V (Proc.devRef .tc main_v26)) (after ops V (Proc.devRef .tc main_v31)) (after ops V (Proc.devRef .tc main_v32)) := by
  have e := eq_ternary ops_staged V (c := main_v26) (a := main_v31) (b := main_v32) (y := main_v33) (f := ((fun x i u => Host.scatter scatter_S6x4x4_S2_S6x3_01_2_12_0 (fun _ b => b) x i u) : (⟨S6x4x4, .f32⟩ : BufTy).Contents (Elt F) → (⟨S2, .i32⟩ : BufTy).Contents (Elt F) → (⟨S6x3, .f32⟩ : BufTy).Contents (Elt F) → (⟨S6x4x4, .f32⟩ : BufTy).Contents (Elt F))) (hc := ⟨by decide, by rfl⟩) (ha := ⟨by decide, by rfl⟩) (hb := ⟨by decide, by rfl⟩) (hy := ⟨by decide, by rfl⟩) (mem0 (List.getElem_mem (l := ops0) (n := 40) (Nat.le_of_ble_eq_true rfl)))
  exact e
theorem st_main_v34 (V : Valuation τ sig (Elt F)) :
    after ops V (Proc.devRef .tc main_v34) = fun i => shapeCast main_v34.ty.shape (after ops V (Proc.devRef .tc main_arg3)) shapeCasts_S1x6x4x4_S6x4x4 i := by
  have e := eq_reshape ops_staged V (x := main_arg3) (y := main_v34) (he := rfl) (hn := shapeCasts_S1x6x4x4_S6x4x4) (hx := ⟨by decide, by rfl⟩) (hy := ⟨by decide, by rfl⟩) (mem0 (List.getElem_mem (l := ops0) (n := 41) (Nat.le_of_ble_eq_true rfl)))
  exact e
theorem st_main_v35 (V : Valuation τ sig (Elt F)) :
    after ops V (Proc.devRef .tc main_v35) = ((fun l r => Host.dotGeneral dot_S6x4x4_S6x4x4_S6x4x4_2_1_1_2_0_0 none l r) : (⟨S6x4x4, .f32⟩ : BufTy).Contents (Elt F) → (⟨S6x4x4, .f32⟩ : BufTy).Contents (Elt F) → (⟨S6x4x4, .f32⟩ : BufTy).Contents (Elt F)) (after ops V (Proc.devRef .tc main_v33)) (after ops V (Proc.devRef .tc main_v34)) := by
  have e := eq_binary ops_staged V (a := main_v33) (b := main_v34) (y := main_v35) (f := ((fun l r => Host.dotGeneral dot_S6x4x4_S6x4x4_S6x4x4_2_1_1_2_0_0 none l r) : (⟨S6x4x4, .f32⟩ : BufTy).Contents (Elt F) → (⟨S6x4x4, .f32⟩ : BufTy).Contents (Elt F) → (⟨S6x4x4, .f32⟩ : BufTy).Contents (Elt F))) (ha := ⟨by decide, by rfl⟩) (hb := ⟨by decide, by rfl⟩) (hy := ⟨by decide, by rfl⟩) (mem0 (List.getElem_mem (l := ops0) (n := 42) (Nat.le_of_ble_eq_true rfl)))
  exact e
theorem st_main_v36 (V : Valuation τ sig (Elt F)) :
    after ops V (Proc.devRef .tc main_v36) = ((extractStridedSlice S6x3x4 ![0, 0, 0] · slices_S6x4x4_S6x3x4_0_0_0) : (⟨S6x4x4, .f32⟩ : BufTy).Contents (Elt F) → (⟨S6x3x4, .f32⟩ : BufTy).Contents (Elt F)) (after ops V (Proc.devRef .tc main_v35)) := by
  have e := eq_unary ops_staged V (x := main_v35) (y := main_v36) (f := ((extractStridedSlice S6x3x4 ![0, 0, 0] · slices_S6x4x4_S6x3x4_0_0_0) : (⟨S6x4x4, .f32⟩ : BufTy).Contents (Elt F) → (⟨S6x3x4, .f32⟩ : BufTy).Contents (Elt F))) (hx := ⟨by decide, by rfl⟩) (hy := ⟨by decide, by rfl⟩) (mem0 (List.getElem_mem (l := ops0) (n := 43) (Nat.le_of_ble_eq_true rfl)))
  exact e
theorem st_main_v37 (V : Valuation τ sig (Elt F)) :
    after ops V (Proc.devRef .tc main_v37) = fun i => shapeCast main_v37.ty.shape (after ops V (Proc.devRef .tc main_v20)) shapeCasts_S3x200x200x4_S1x3x160000 i := by
  have e := eq_reshape ops_staged V (x := main_v20) (y := main_v37) (he := rfl) (hn := shapeCasts_S3x200x200x4_S1x3x160000) (hx := ⟨by decide, by rfl⟩) (hy := ⟨by decide, by rfl⟩) (mem0 (List.getElem_mem (l := ops0) (n := 44) (Nat.le_of_ble_eq_true rfl)))
  exact e
theorem st_main_v38 (V : Valuation τ sig (Elt F)) :
    after ops V (Proc.devRef .tc main_v38) = fun i => shapeCast main_v38.ty.shape (after ops V (Proc.devRef .tc main_v24)) shapeCasts_S3_S1x3x1 i := by
  have e := eq_reshape ops_staged V (x := main_v24) (y := main_v38) (he := rfl) (hn := shapeCasts_S3_S1x3x1) (hx := ⟨by decide, by rfl⟩) (hy := ⟨by decide, by rfl⟩) (mem0 (List.getElem_mem (l := ops0) (n := 45) (Nat.le_of_ble_eq_true rfl)))
  exact e
theorem st_main_v39 (V : Valuation τ sig (Elt F)) :
    after ops V (Proc.devRef .tc main_v39) = (broadcastInDim S1x3x160000 ![0, 1, 2] bcast_S1x3x1_S1x3x160000_0_1_2 : (⟨S1x3x1, .f32⟩ : BufTy).Contents (Elt F) → (⟨S1x3x160000, .f32⟩ : BufTy).Contents (Elt F)) (after ops V (Proc.devRef .tc main_v38)) := by
  have e := eq_unary ops_staged V (x := main_v38) (y := main_v39) (f := (broadcastInDim S1x3x160000 ![0, 1, 2] bcast_S1x3x1_S1x3x160000_0_1_2 : (⟨S1x3x1, .f32⟩ : BufTy).Contents (Elt F) → (⟨S1x3x160000, .f32⟩ : BufTy).Contents (Elt F))) (hx := ⟨by decide, by rfl⟩) (hy := ⟨by decide, by rfl⟩) (mem0 (List.getElem_mem (l := ops0) (n := 46) (Nat.le_of_ble_eq_true rfl)))
  exact e
theorem st_main_v40 (V : Valuation τ sig (Elt F)) :
    after ops V (Proc.devRef .tc main_v40) = (subf : (⟨S1x3x160000, .f32⟩ : BufTy).Contents (Elt F) → (⟨S1x3x160000, .f32⟩ : BufTy).Contents (Elt F) → (⟨S1x3x160000, .f32⟩ : BufTy).Contents (Elt F)) (after ops V (Proc.devRef .tc main_v37)) (after ops V (Proc.devRef .tc main_v39)) := by
  have e := eq_binary ops_staged V (a := main_v37) (b := main_v39) (y := main_v40) (f := (subf : (⟨S1x3x160000, .f32⟩ : BufTy).Contents (Elt F) → (⟨S1x3x160000, .f32⟩ : BufTy).Contents (Elt F) → (⟨S1x3x160000, .f32⟩ : BufTy).Contents (Elt F))) (ha := ⟨by decide, by rfl⟩) (hb := ⟨by decide, by rfl⟩) (hy := ⟨by decide, by rfl⟩) (mem0 (List.getElem_mem (l := ops0) (n := 47) (Nat.le_of_ble_eq_true rfl)))
  exact e
theorem st_main_v41 (V : Valuation τ sig (Elt F)) :
    after ops V (Proc.devRef .tc main_v41) = ((transpose S3x3 [1, 0] · transposes_S3x3_S3x3_1_0) : (⟨S3x3, .f32⟩ : BufTy).Contents (Elt F) → (⟨S3x3, .f32⟩ : BufTy).Contents (Elt F)) (after ops V (Proc.devRef .tc main_v25)) := by
  have e := eq_unary ops_staged V (x := main_v25) (y := main_v41) (f := ((transpose S3x3 [1, 0] · transposes_S3x3_S3x3_1_0) : (⟨S3x3, .f32⟩ : BufTy).Contents (Elt F) → (⟨S3x3, .f32⟩ : BufTy).Contents (Elt F))) (hx := ⟨by decide, by rfl⟩) (hy := ⟨by decide, by rfl⟩) (mem0 (List.getElem_mem (l := ops0) (n := 48) (Nat.le_of_ble_eq_true rfl)))
  exact e
theorem st_main_v42 (V : Valuation τ sig (Elt F)) :
    after ops V (Proc.devRef .tc main_v42) = (broadcastInDim S1x3x3 ![1, 2] bcast_S3x3_S1x3x3_1_2 : (⟨S3x3, .f32⟩ : BufTy).Contents (Elt F) → (⟨S1x3x3, .f32⟩ : BufTy).Contents (Elt F)) (after ops V (Proc.devRef .tc main_v41)) := by
  have e := eq_unary ops_staged V (x := main_v41) (y := main_v42) (f := (broadcastInDim S1x3x3 ![1, 2] bcast_S3x3_S1x3x3_1_2 : (⟨S3x3, .f32⟩ : BufTy).Contents (Elt F) → (⟨S1x3x3, .f32⟩ : BufTy).Contents (Elt F))) (hx := ⟨by decide, by rfl⟩) (hy := ⟨by decide, by rfl⟩) (mem0 (List.getElem_mem (l := ops0) (n := 49) (Nat.le_of_ble_eq_true rfl)))
  exact e
theorem st_main_v43 (V : Valuation τ sig (Elt F)) :
    after ops V (Proc.devRef .tc main_v43) = fun i => shapeCast main_v43.ty.shape (after ops V (Proc.devRef .tc main_v42)) shapeCasts_S1x3x3_S3x3 i := by
  have e := eq_reshape ops_staged V (x := main_v42) (y := main_v43) (he := rfl) (hn := shapeCasts_S1x3x3_S3x3) (hx := ⟨by decide, by rfl⟩) (hy := ⟨by decide, by rfl⟩) (mem0 (List.getElem_mem (l := ops0) (n := 50) (Nat.le_of_ble_eq_true rfl)))
  exact e
theorem st_main_v44 (V : Valuation τ sig (Elt F)) :
    after ops V (Proc.devRef .tc main_v44) = fun i => shapeCast main_v44.ty.shape (after ops V (Proc.devRef .tc main_v40)) shapeCasts_S1x3x160000_S3x160000 i := by
  have e := eq_reshape ops_staged V (x := main_v40) (y := main_v44) (he := rfl) (hn := shapeCasts_S1x3x160000_S3x160000) (hx := ⟨by decide, by rfl⟩) (hy := ⟨by decide, by rfl⟩) (mem0 (List.getElem_mem (l := ops0) (n := 51) (Nat.le_of_ble_eq_true rfl)))
  exact e
theorem st_main_v45 (V : Valuation τ sig (Elt F)) :
    after ops V (Proc.devRef .tc main_v45) = ((fun l r => Host.dotGeneral dot_S3x3_S3x160000_S3x160000_1_0_0_1_n_n none l r) : (⟨S3x3, .f32⟩ : BufTy).Contents (Elt F) → (⟨S3x160000, .f32⟩ : BufTy).Contents (Elt F) → (⟨S3x160000, .f32⟩ : BufTy).Contents (Elt F)) (after ops V (Proc.devRef .tc main_v43)) (after ops V (Proc.devRef .tc main_v44)) := by
  have e := eq_binary ops_staged V (a := main_v43) (b := main_v44) (y := main_v45) (f := ((fun l r => Host.dotGeneral dot_S3x3_S3x160000_S3x160000_1_0_0_1_n_n none l r) : (⟨S3x3, .f32⟩ : BufTy).Contents (Elt F) → (⟨S3x160000, .f32⟩ : BufTy).Contents (Elt F) → (⟨S3x160000, .f32⟩ : BufTy).Contents (Elt F))) (ha := ⟨by decide, by rfl⟩) (hb := ⟨by decide, by rfl⟩) (hy := ⟨by decide, by rfl⟩) (mem0 (List.getElem_mem (l := ops0) (n := 52) (Nat.le_of_ble_eq_true rfl)))
  exact e
theorem st_main_v46 (V : Valuation τ sig (Elt F)) :
    after ops V (Proc.devRef .tc main_v46) = (broadcastInDim S1x3x160000 ![1, 2] bcast_S3x160000_S1x3x160000_1_2 : (⟨S3x160000, .f32⟩ : BufTy).Contents (Elt F) → (⟨S1x3x160000, .f32⟩ : BufTy).Contents (Elt F)) (after ops V (Proc.devRef .tc main_v45)) := by
  have e := eq_unary ops_staged V (x := main_v45) (y := main_v46) (f := (broadcastInDim S1x3x160000 ![1, 2] bcast_S3x160000_S1x3x160000_1_2 : (⟨S3x160000, .f32⟩ : BufTy).Contents (Elt F) → (⟨S1x3x160000, .f32⟩ : BufTy).Contents (Elt F))) (hx := ⟨by decide, by rfl⟩) (hy := ⟨by decide, by rfl⟩) (mem0 (List.getElem_mem (l := ops0) (n := 53) (Nat.le_of_ble_eq_true rfl)))
  exact e
theorem st_main_v47 (V : Valuation τ sig (Elt F)) :
    after ops V (Proc.devRef .tc main_v47) = ((extractStridedSlice S1x1x160000 ![0, 0, 0] · slices_S1x3x160000_S1x1x160000_0_0_0) : (⟨S1x3x160000, .f32⟩ : BufTy).Contents (Elt F) → (⟨S1x1x160000, .f32⟩ : BufTy).Contents (Elt F)) (after ops V (Proc.devRef .tc main_v46)) := by
  have e := eq_unary ops_staged V (x := main_v46) (y := main_v47) (f := ((extractStridedSlice S1x1x160000 ![0, 0, 0] · slices_S1x3x160000_S1x1x160000_0_0_0) : (⟨S1x3x160000, .f32⟩ : BufTy).Contents (Elt F) → (⟨S1x1x160000, .f32⟩ : BufTy).Contents (Elt F))) (hx := ⟨by decide, by rfl⟩) (hy := ⟨by decide, by rfl⟩) (mem0 (List.getElem_mem (l := ops0) (n := 54) (Nat.le_of_ble_eq_true rfl)))
  exact e
theorem st_main_cst_5 (V : Valuation τ sig (Elt F)) :
    after ops V (Proc.devRef .tc main_cst_5) = (constant S_ .f32 0x3F800000#32) := by
  have e := eq_nullary ops_staged V  (y := main_cst_5) (v := (constant S_ .f32 0x3F800000#32))  (hy := ⟨by decide, by rfl⟩) (mem0 (List.getElem_mem (l := ops0) (n := 55) (Nat.le_of_ble_eq_true rfl)))
  exact e
theorem st_main_v48 (V : Valuation τ sig (Elt F)) :
    after ops V (Proc.devRef .tc main_v48) = (broadcastInDim S1x1x160000 ![] bcast_S_S1x1x160000 : (⟨S_, .f32⟩ : BufTy).Contents (Elt F) → (⟨S1x1x160000, .f32⟩ : BufTy).Contents (Elt F)) (after ops V (Proc.devRef .tc main_cst_5)) := by
  have e := eq_unary ops_staged V (x := main_cst_5) (y := main_v48) (f := (broadcastInDim S1x1x160000 ![] bcast_S_S1x1x160000 : (⟨S_, .f32⟩ : BufTy).Contents (Elt F) → (⟨S1x1x160000, .f32⟩ : BufTy).Contents (Elt F))) (hx := ⟨by decide, by rfl⟩) (hy := ⟨by decide, by rfl⟩) (mem0 (List.getElem_mem (l := ops0) (n := 56) (Nat.le_of_ble_eq_true rfl)))
  exact e
theorem st_main_v49 (V : Valuation τ sig (Elt F)) :
    after ops V (Proc.devRef .tc main_v49) = ((fun a b => concatenate S1x4x160000 1 [⟨S1x3x160000, a⟩, ⟨S1x1x160000, b⟩] concatenates_S1x3x160000_S1x1x160000_S1x4x160000_d1) : (⟨S1x3x160000, .f32⟩ : BufTy).Contents (Elt F) → (⟨S1x1x160000, .f32⟩ : BufTy).Contents (Elt F) → (⟨S1x4x160000, .f32⟩ : BufTy).Contents (Elt F)) (after ops V (Proc.devRef .tc main_v46)) (after ops V (Proc.devRef .tc main_v48)) := by
  have e := eq_binary ops_staged V (a := main_v46) (b := main_v48) (y := main_v49) (f := ((fun a b => concatenate S1x4x160000 1 [⟨S1x3x160000, a⟩, ⟨S1x1x160000, b⟩] concatenates_S1x3x160000_S1x1x160000_S1x4x160000_d1) : (⟨S1x3x160000, .f32⟩ : BufTy).Contents (Elt F) → (⟨S1x1x160000, .f32⟩ : BufTy).Contents (Elt F) → (⟨S1x4x160000, .f32⟩ : BufTy).Contents (Elt F))) (ha := ⟨by decide, by rfl⟩) (hb := ⟨by decide, by rfl⟩) (hy := ⟨by decide, by rfl⟩) (mem0 (List.getElem_mem (l := ops0) (n := 57) (Nat.le_of_ble_eq_true rfl)))
  exact e
theorem st_main_v50 (V : Valuation τ sig (Elt F)) :
    after ops V (Proc.devRef .tc main_v50) = (broadcastInDim S6x4x160000 ![0, 1, 2] bcast_S1x4x160000_S6x4x160000_0_1_2 : (⟨S1x4x160000, .f32⟩ : BufTy).Contents (Elt F) → (⟨S6x4x160000, .f32⟩ : BufTy).Contents (Elt F)) (after ops V (Proc.devRef .tc main_v49)) := by
  have e := eq_unary ops_staged V (x := main_v49) (y := main_v50) (f := (broadcastInDim S6x4x160000 ![0, 1, 2] bcast_S1x4x160000_S6x4x160000_0_1_2 : (⟨S1x4x160000, .f32⟩ : BufTy).Contents (Elt F) → (⟨S6x4x160000, .f32⟩ : BufTy).Contents (Elt F))) (hx := ⟨by decide, by rfl⟩) (hy := ⟨by decide, by rfl⟩) (mem0 (List.getElem_mem (l := ops0) (n := 58) (Nat.le_of_ble_eq_true rfl)))
  exact e
theorem st_main_v51 (V : Valuation τ sig (Elt F)) :
    after ops V (Proc.devRef .tc main_v51) = ((fun l r => Host.dotGeneral dot_S6x3x4_S6x4x160000_S6x3x160000_2_1_1_2_0_0 none l r) : (⟨S6x3x4, .f32⟩ : BufTy).Contents (Elt F) → (⟨S6x4x160000, .f32⟩ : BufTy).Contents (Elt F) → (⟨S6x3x160000, .f32⟩ : BufTy).Contents (Elt F)) (after ops V (Proc.devRef .tc main_v36)) (after ops V (Proc.devRef .tc main_v50)) := by
  have e := eq_binary ops_staged V (a := main_v36) (b := main_v50) (y := main_v51) (f := ((fun l r => Host.dotGeneral dot_S6x3x4_S6x4x160000_S6x3x160000_2_1_1_2_0_0 none l r) : (⟨S6x3x4, .f32⟩ : BufTy).Contents (Elt F) → (⟨S6x4x160000, .f32⟩ : BufTy).Contents (Elt F) → (⟨S6x3x160000, .f32⟩ : BufTy).Contents (Elt F))) (ha := ⟨by decide, by rfl⟩) (hb := ⟨by decide, by rfl⟩) (hy := ⟨by decide, by rfl⟩) (mem0 (List.getElem_mem (l := ops0) (n := 59) (Nat.le_of_ble_eq_true rfl)))
  exact e
theorem st_main_v52 (V : Valuation τ sig (Elt F)) :
    after ops V (Proc.devRef .tc main_v52) = ((extractStridedSlice S6x1x160000 ![0, 2, 0] · slices_S6x3x160000_S6x1x160000_0_2_0) : (⟨S6x3x160000, .f32⟩ : BufTy).Contents (Elt F) → (⟨S6x1x160000, .f32⟩ : BufTy).Contents (Elt F)) (after ops V (Proc.devRef .tc main_v51)) := by
  have e := eq_unary ops_staged V (x := main_v51) (y := main_v52) (f := ((extractStridedSlice S6x1x160000 ![0, 2, 0] · slices_S6x3x160000_S6x1x160000_0_2_0) : (⟨S6x3x160000, .f32⟩ : BufTy).Contents (Elt F) → (⟨S6x1x160000, .f32⟩ : BufTy).Contents (Elt F))) (hx := ⟨by decide, by rfl⟩) (hy := ⟨by decide, by rfl⟩) (mem1 (List.getElem_mem (l := ops1) (n := 0) (Nat.le_of_ble_eq_true rfl)))
  exact e
theorem st_main_v53 (V : Valuation τ sig (Elt F)) :
    after ops V (Proc.devRef .tc main_v53) = fun i => shapeCast main_v53.ty.shape (after ops V (Proc.devRef .tc main_v52)) shapeCasts_S6x1x160000_S6x160000 i := by
  have e := eq_reshape ops_staged V (x := main_v52) (y := main_v53) (he := rfl) (hn := shapeCasts_S6x1x160000_S6x160000) (hx := ⟨by decide, by rfl⟩) (hy := ⟨by decide, by rfl⟩) (mem1 (List.getElem_mem (l := ops1) (n := 1) (Nat.le_of_ble_eq_true rfl)))
  exact e
theorem st_main_v54 (V : Valuation τ sig (Elt F)) :
    after ops V (Proc.devRef .tc main_v54) = ((extractStridedSlice S6x1x160000 ![0, 0, 0] · slices_S6x3x160000_S6x1x160000_0_0_0) : (⟨S6x3x160000, .f32⟩ : BufTy).Contents (Elt F) → (⟨S6x1x160000, .f32⟩ : BufTy).Contents (Elt F)) (after ops V (Proc.devRef .tc main_v51)) := by
  have e := eq_unary ops_staged V (x := main_v51) (y := main_v54) (f := ((extractStridedSlice S6x1x160000 ![0, 0, 0] · slices_S6x3x160000_S6x1x160000_0_0_0) : (⟨S6x3x160000, .f32⟩ : BufTy).Contents (Elt F) → (⟨S6x1x160000, .f32⟩ : BufTy).Contents (Elt F))) (hx := ⟨by decide, by rfl⟩) (hy := ⟨by decide, by rfl⟩) (mem1 (List.getElem_mem (l := ops1) (n := 2) (Nat.le_of_ble_eq_true rfl)))
  exact e
theorem st_main_v55 (V : Valuation τ sig (Elt F)) :
    after ops V (Proc.devRef .tc main_v55) = fun i => shapeCast main_v55.ty.shape (after ops V (Proc.devRef .tc main_v54)) shapeCasts_S6x1x160000_S6x160000 i := by
  have e := eq_reshape ops_staged V (x := main_v54) (y := main_v55) (he := rfl) (hn := shapeCasts_S6x1x160000_S6x160000) (hx := ⟨by decide, by rfl⟩) (hy := ⟨by decide, by rfl⟩) (mem1 (List.getElem_mem (l := ops1) (n := 3) (Nat.le_of_ble_eq_true rfl)))
  exact e
theorem st_main_v56 (V : Valuation τ sig (Elt F)) :
    after ops V (Proc.devRef .tc main_v56) = (Host.divf : (⟨S6x160000, .f32⟩ : BufTy).Contents (Elt F) → (⟨S6x160000, .f32⟩ : BufTy).Contents (Elt F) → (⟨S6x160000, .f32⟩ : BufTy).Contents (Elt F)) (after ops V (Proc.devRef .tc main_v55)) (after ops V (Proc.devRef .tc main_v53)) := by
  have e := eq_binary ops_staged V (a := main_v55) (b := main_v53) (y := main_v56) (f := (Host.divf : (⟨S6x160000, .f32⟩ : BufTy).Contents (Elt F) → (⟨S6x160000, .f32⟩ : BufTy).Contents (Elt F) → (⟨S6x160000, .f32⟩ : BufTy).Contents (Elt F))) (ha := ⟨by decide, by rfl⟩) (hb := ⟨by decide, by rfl⟩) (hy := ⟨by decide, by rfl⟩) (mem1 (List.getElem_mem (l := ops1) (n := 4) (Nat.le_of_ble_eq_true rfl)))
  exact e
theorem st_main_v57 (V : Valuation τ sig (Elt F)) :
    after ops V (Proc.devRef .tc main_v57) = ((extractStridedSlice S6x1 ![0, 0] · slices_S6x4_S6x1_0_0) : (⟨S6x4, .f32⟩ : BufTy).Contents (Elt F) → (⟨S6x1, .f32⟩ : BufTy).Contents (Elt F)) (after ops V (Proc.devRef .tc main_v28)) := by
  have e := eq_unary ops_staged V (x := main_v28) (y := main_v57) (f := ((extractStridedSlice S6x1 ![0, 0] · slices_S6x4_S6x1_0_0) : (⟨S6x4, .f32⟩ : BufTy).Contents (Elt F) → (⟨S6x1, .f32⟩ : BufTy).Contents (Elt F))) (hx := ⟨by decide, by rfl⟩) (hy := ⟨by decide, by rfl⟩) (mem1 (List.getElem_mem (l := ops1) (n := 5) (Nat.le_of_ble_eq_true rfl)))
  exact e
theorem st_main_v58 (V : Valuation τ sig (Elt F)) :
    after ops V (Proc.devRef .tc main_v58) = fun i => shapeCast main_v58.ty.shape (after ops V (Proc.devRef .tc main_v57)) shapeCasts_S6x1_S6 i := by
  have e := eq_reshape ops_staged V (x := main_v57) (y := main_v58) (he := rfl) (hn := shapeCasts_S6x1_S6) (hx := ⟨by decide, by rfl⟩) (hy := ⟨by decide, by rfl⟩) (mem1 (List.getElem_mem (l := ops1) (n := 6) (Nat.le_of_ble_eq_true rfl)))
  exact e
theorem st_main_v59 (V : Valuation τ sig (Elt F)) :
    after ops V (Proc.devRef .tc main_v59) = (broadcastInDim S6x1 ![0] bcast_S6_S6x1_0 : (⟨S6, .f32⟩ : BufTy).Contents (Elt F) → (⟨S6x1, .f32⟩ : BufTy).Contents (Elt F)) (after ops V (Proc.devRef .tc main_v58)) := by
  have e := eq_unary ops_staged V (x := main_v58) (y := main_v59) (f := (broadcastInDim S6x1 ![0] bcast_S6_S6x1_0 : (⟨S6, .f32⟩ : BufTy).Contents (Elt F) → (⟨S6x1, .f32⟩ : BufTy).Contents (Elt F))) (hx := ⟨by decide, by rfl⟩) (hy := ⟨by decide, by rfl⟩) (mem1 (List.getElem_mem (l := ops1) (n := 7) (Nat.le_of_ble_eq_true rfl)))
  exact e
theorem st_main_v60 (V : Valuation τ sig (Elt F)) :
    after ops V (Proc.devRef .tc main_v60) = (broadcastInDim S6x160000 ![0, 1] bcast_S6x1_S6x160000_0_1 : (⟨S6x1, .f32⟩ : BufTy).Contents (Elt F) → (⟨S6x160000, .f32⟩ : BufTy).Contents (Elt F)) (after ops V (Proc.devRef .tc main_v59)) := by
  have e := eq_unary ops_staged V (x := main_v59) (y := main_v60) (f := (broadcastInDim S6x160000 ![0, 1] bcast_S6x1_S6x160000_0_1 : (⟨S6x1, .f32⟩ : BufTy).Contents (Elt F) → (⟨S6x160000, .f32⟩ : BufTy).Contents (Elt F))) (hx := ⟨by decide, by rfl⟩) (hy := ⟨by decide, by rfl⟩) (mem1 (List.getElem_mem (l := ops1) (n := 8) (Nat.le_of_ble_eq_true rfl)))
  exact e
theorem st_main_v61 (V : Valuation τ sig (Elt F)) :
    after ops V (Proc.devRef .tc main_v61) = (addf : (⟨S6x160000, .f32⟩ : BufTy).Contents (Elt F) → (⟨S6x160000, .f32⟩ : BufTy).Contents (Elt F) → (⟨S6x160000, .f32⟩ : BufTy).Contents (Elt F)) (after ops V (Proc.devRef .tc main_v56)) (after ops V (Proc.devRef .tc main_v60)) := by
  have e := eq_binary ops_staged V (a := main_v56) (b := main_v60) (y := main_v61) (f := (addf : (⟨S6x160000, .f32⟩ : BufTy).Contents (Elt F) → (⟨S6x160000, .f32⟩ : BufTy).Contents (Elt F) → (⟨S6x160000, .f32⟩ : BufTy).Contents (Elt F))) (ha := ⟨by decide, by rfl⟩) (hb := ⟨by decide, by rfl⟩) (hy := ⟨by decide, by rfl⟩) (mem1 (List.getElem_mem (l := ops1) (n := 9) (Nat.le_of_ble_eq_true rfl)))
  exact e
theorem st_main_v62 (V : Valuation τ sig (Elt F)) :
    after ops V (Proc.devRef .tc main_v62) = ((extractStridedSlice S6x1x160000 ![0, 1, 0] · slices_S6x3x160000_S6x1x160000_0_1_0) : (⟨S6x3x160000, .f32⟩ : BufTy).Contents (Elt F) → (⟨S6x1x160000, .f32⟩ : BufTy).Contents (Elt F)) (after ops V (Proc.devRef .tc main_v51)) := by
  have e := eq_unary ops_staged V (x := main_v51) (y := main_v62) (f := ((extractStridedSlice S6x1x160000 ![0, 1, 0] · slices_S6x3x160000_S6x1x160000_0_1_0) : (⟨S6x3x160000, .f32⟩ : BufTy).Contents (Elt F) → (⟨S6x1x160000, .f32⟩ : BufTy).Contents (Elt F))) (hx := ⟨by decide, by rfl⟩) (hy := ⟨by decide, by rfl⟩) (mem1 (List.getElem_mem (l := ops1) (n := 10) (Nat.le_of_ble_eq_true rfl)))
  exact e
theorem st_main_v63 (V : Valuation τ sig (Elt F)) :
    after ops V (Proc.devRef .tc main_v63) = fun i => shapeCast main_v63.ty.shape (after ops V (Proc.devRef .tc main_v62)) shapeCasts_S6x1x160000_S6x160000 i := by
  have e := eq_reshape ops_staged V (x := main_v62) (y := main_v63) (he := rfl) (hn := shapeCasts_S6x1x160000_S6x160000) (hx := ⟨by decide, by rfl⟩) (hy := ⟨by decide, by rfl⟩) (mem1 (List.getElem_mem (l := ops1) (n := 11) (Nat.le_of_ble_eq_true rfl)))
  exact e
theorem st_main_v64 (V : Valuation τ sig (Elt F)) :
    after ops V (Proc.devRef .tc main_v64) = (Host.divf : (⟨S6x160000, .f32⟩ : BufTy).Contents (Elt F) → (⟨S6x160000, .f32⟩ : BufTy).Contents (Elt F) → (⟨S6x160000, .f32⟩ : BufTy).Contents (Elt F)) (after ops V (Proc.devRef .tc main_v63)) (after ops V (Proc.devRef .tc main_v53)) := by
  have e := eq_binary ops_staged V (a := main_v63) (b := main_v53) (y := main_v64) (f := (Host.divf : (⟨S6x160000, .f32⟩ : BufTy).Contents (Elt F) → (⟨S6x160000, .f32⟩ : BufTy).Contents (Elt F) → (⟨S6x160000, .f32⟩ : BufTy).Contents (Elt F))) (ha := ⟨by decide, by rfl⟩) (hb := ⟨by decide, by rfl⟩) (hy := ⟨by decide, by rfl⟩) (mem1 (List.getElem_mem (l := ops1) (n := 12) (Nat.le_of_ble_eq_true rfl)))
  exact e
theorem st_main_v65 (V : Valuation τ sig (Elt F)) :
    after ops V (Proc.devRef .tc main_v65) = ((extractStridedSlice S6x1 ![0, 1] · slices_S6x4_S6x1_0_1) : (⟨S6x4, .f32⟩ : BufTy).Contents (Elt F) → (⟨S6x1, .f32⟩ : BufTy).Contents (Elt F)) (after ops V (Proc.devRef .tc main_v28)) := by
  have e := eq_unary ops_staged V (x := main_v28) (y := main_v65) (f := ((extractStridedSlice S6x1 ![0, 1] · slices_S6x4_S6x1_0_1) : (⟨S6x4, .f32⟩ : BufTy).Contents (Elt F) → (⟨S6x1, .f32⟩ : BufTy).Contents (Elt F))) (hx := ⟨by decide, by rfl⟩) (hy := ⟨by decide, by rfl⟩) (mem1 (List.getElem_mem (l := ops1) (n := 13) (Nat.le_of_ble_eq_true rfl)))
  exact e
theorem st_main_v66 (V : Valuation τ sig (Elt F)) :
    after ops V (Proc.devRef .tc main_v66) = fun i => shapeCast main_v66.ty.shape (after ops V (Proc.devRef .tc main_v65)) shapeCasts_S6x1_S6 i := by
  have e := eq_reshape ops_staged V (x := main_v65) (y := main_v66) (he := rfl) (hn := shapeCasts_S6x1_S6) (hx := ⟨by decide, by rfl⟩) (hy := ⟨by decide, by rfl⟩) (mem1 (List.getElem_mem (l := ops1) (n := 14) (Nat.le_of_ble_eq_true rfl)))
  exact e
theorem st_main_v67 (V : Valuation τ sig (Elt F)) :
    after ops V (Proc.devRef .tc main_v67) = (broadcastInDim S6x1 ![0] bcast_S6_S6x1_0 : (⟨S6, .f32⟩ : BufTy).Contents (Elt F) → (⟨S6x1, .f32⟩ : BufTy).Contents (Elt F)) (after ops V (Proc.devRef .tc main_v66)) := by
  have e := eq_unary ops_staged V (x := main_v66) (y := main_v67) (f := (broadcastInDim S6x1 ![0] bcast_S6_S6x1_0 : (⟨S6, .f32⟩ : BufTy).Contents (Elt F) → (⟨S6x1, .f32⟩ : BufTy).Contents (Elt F))) (hx := ⟨by decide, by rfl⟩) (hy := ⟨by decide, by rfl⟩) (mem1 (List.getElem_mem (l := ops1) (n := 15) (Nat.le_of_ble_eq_true rfl)))
  exact e
theorem st_main_v68 (V : Valuation τ sig (Elt F)) :
    after ops V (Proc.devRef .tc main_v68) = (broadcastInDim S6x160000 ![0, 1] bcast_S6x1_S6x160000_0_1 : (⟨S6x1, .f32⟩ : BufTy).Contents (Elt F) → (⟨S6x160000, .f32⟩ : BufTy).Contents (Elt F)) (after ops V (Proc.devRef .tc main_v67)) := by
  have e := eq_unary ops_staged V (x := main_v67) (y := main_v68) (f := (broadcastInDim S6x160000 ![0, 1] bcast_S6x1_S6x160000_0_1 : (⟨S6x1, .f32⟩ : BufTy).Contents (Elt F) → (⟨S6x160000, .f32⟩ : BufTy).Contents (Elt F))) (hx := ⟨by decide, by rfl⟩) (hy := ⟨by decide, by rfl⟩) (mem1 (List.getElem_mem (l := ops1) (n := 16) (Nat.le_of_ble_eq_true rfl)))
  exact e
theorem st_main_v69 (V : Valuation τ sig (Elt F)) :
    after ops V (Proc.devRef .tc main_v69) = (addf : (⟨S6x160000, .f32⟩ : BufTy).Contents (Elt F) → (⟨S6x160000, .f32⟩ : BufTy).Contents (Elt F) → (⟨S6x160000, .f32⟩ : BufTy).Contents (Elt F)) (after ops V (Proc.devRef .tc main_v64)) (after ops V (Proc.devRef .tc main_v68)) := by
  have e := eq_binary ops_staged V (a := main_v64) (b := main_v68) (y := main_v69) (f := (addf : (⟨S6x160000, .f32⟩ : BufTy).Contents (Elt F) → (⟨S6x160000, .f32⟩ : BufTy).Contents (Elt F) → (⟨S6x160000, .f32⟩ : BufTy).Contents (Elt F))) (ha := ⟨by decide, by rfl⟩) (hb := ⟨by decide, by rfl⟩) (hy := ⟨by decide, by rfl⟩) (mem1 (List.getElem_mem (l := ops1) (n := 17) (Nat.le_of_ble_eq_true rfl)))
  exact e
theorem st_main_cst_6 (V : Valuation τ sig (Elt F)) :
    after ops V (Proc.devRef .tc main_cst_6) = (constant S_ .f32 0x40800000#32) := by
  have e := eq_nullary ops_staged V  (y := main_cst_6) (v := (constant S_ .f32 0x40800000#32))  (hy := ⟨by decide, by rfl⟩) (mem1 (List.getElem_mem (l := ops1) (n := 18) (Nat.le_of_ble_eq_true rfl)))
  exact e
theorem st_main_v70 (V : Valuation τ sig (Elt F)) :
    after ops V (Proc.devRef .tc main_v70) = (broadcastInDim S6x160000 ![] bcast_S_S6x160000 : (⟨S_, .f32⟩ : BufTy).Contents (Elt F) → (⟨S6x160000, .f32⟩ : BufTy).Contents (Elt F)) (after ops V (Proc.devRef .tc main_cst_6)) := by
  have e := eq_unary ops_staged V (x := main_cst_6) (y := main_v70) (f := (broadcastInDim S6x160000 ![] bcast_S_S6x160000 : (⟨S_, .f32⟩ : BufTy).Contents (Elt F) → (⟨S6x160000, .f32⟩ : BufTy).Contents (Elt F))) (hx := ⟨by decide, by rfl⟩) (hy := ⟨by decide, by rfl⟩) (mem1 (List.getElem_mem (l := ops1) (n := 19) (Nat.le_of_ble_eq_true rfl)))
  exact e
theorem st_main_v71 (V : Valuation τ sig (Elt F)) :
    after ops V (Proc.devRef .tc main_v71) = (Host.divf : (⟨S6x160000, .f32⟩ : BufTy).Contents (Elt F) → (⟨S6x160000, .f32⟩ : BufTy).Contents (Elt F) → (⟨S6x160000, .f32⟩ : BufTy).Contents (Elt F)) (after ops V (Proc.devRef .tc main_v61)) (after ops V (Proc.devRef .tc main_v70)) := by
  have e := eq_binary ops_staged V (a := main_v61) (b := main_v70) (y := main_v71) (f := (Host.divf : (⟨S6x160000, .f32⟩ : BufTy).Contents (Elt F) → (⟨S6x160000, .f32⟩ : BufTy).Contents (Elt F) → (⟨S6x160000, .f32⟩ : BufTy).Contents (Elt F))) (ha := ⟨by decide, by rfl⟩) (hb := ⟨by decide, by rfl⟩) (hy := ⟨by decide, by rfl⟩) (mem1 (List.getElem_mem (l := ops1) (n := 20) (Nat.le_of_ble_eq_true rfl)))
  exact e
theorem st_main_v72 (V : Valuation τ sig (Elt F)) :
    after ops V (Proc.devRef .tc main_v72) = (Host.roundeven (after ops V (Proc.devRef .tc main_v71) : (⟨S6x160000, .f32⟩ : BufTy).Contents (Elt F)) : (⟨S6x160000, .f32⟩ : BufTy).Contents (Elt F)) := by
  have e := eq_unary ops_staged V (x := main_v71) (y := main_v72) (f := Host.roundeven) (hx := ⟨by decide, by rfl⟩) (hy := ⟨by decide, by rfl⟩) (mem1 (List.getElem_mem (l := ops1) (n := 21) (Nat.le_of_ble_eq_true rfl)))
  exact e
theorem st_main_v73 (V : Valuation τ sig (Elt F)) :
    after ops V (Proc.devRef .tc main_v73) = (fptosi 32 : (⟨S6x160000, .f32⟩ : BufTy).Contents (Elt F) → (⟨S6x160000, .i32⟩ : BufTy).Contents (Elt F)) (after ops V (Proc.devRef .tc main_v72)) := by
  have e := eq_unary ops_staged V (x := main_v72) (y := main_v73) (f := (fptosi 32 : (⟨S6x160000, .f32⟩ : BufTy).Contents (Elt F) → (⟨S6x160000, .i32⟩ : BufTy).Contents (Elt F))) (hx := ⟨by decide, by rfl⟩) (hy := ⟨by decide, by rfl⟩) (mem1 (List.getElem_mem (l := ops1) (n := 22) (Nat.le_of_ble_eq_true rfl)))
  exact e
theorem st_main_cst_7 (V : Valuation τ sig (Elt F)) :
    after ops V (Proc.devRef .tc main_cst_7) = (constant S_ .f32 0x40800000#32) := by
  have e := eq_nullary ops_staged V  (y := main_cst_7) (v := (constant S_ .f32 0x40800000#32))  (hy := ⟨by decide, by rfl⟩) (mem1 (List.getElem_mem (l := ops1) (n := 23) (Nat.le_of_ble_eq_true rfl)))
  exact e
theorem st_main_v74 (V : Valuation τ sig (Elt F)) :
    after ops V (Proc.devRef .tc main_v74) = (broadcastInDim S6x160000 ![] bcast_S_S6x160000 : (⟨S_, .f32⟩ : BufTy).Contents (Elt F) → (⟨S6x160000, .f32⟩ : BufTy).Contents (Elt F)) (after ops V (Proc.devRef .tc main_cst_7)) := by
  have e := eq_unary ops_staged V (x := main_cst_7) (y := main_v74) (f := (broadcastInDim S6x160000 ![] bcast_S_S6x160000 : (⟨S_, .f32⟩ : BufTy).Contents (Elt F) → (⟨S6x160000, .f32⟩ : BufTy).Contents (Elt F))) (hx := ⟨by decide, by rfl⟩) (hy := ⟨by decide, by rfl⟩) (mem1 (List.getElem_mem (l := ops1) (n := 24) (Nat.le_of_ble_eq_true rfl)))
  exact e
theorem st_main_v75 (V : Valuation τ sig (Elt F)) :
    after ops V (Proc.devRef .tc main_v75) = (Host.divf : (⟨S6x160000, .f32⟩ : BufTy).Contents (Elt F) → (⟨S6x160000, .f32⟩ : BufTy).Contents (Elt F) → (⟨S6x160000, .f32⟩ : BufTy).Contents (Elt F)) (after ops V (Proc.devRef .tc main_v69)) (after ops V (Proc.devRef .tc main_v74)) := by
  have e := eq_binary ops_staged V (a := main_v69) (b := main_v74) (y := main_v75) (f := (Host.divf : (⟨S6x160000, .f32⟩ : BufTy).Contents (Elt F) → (⟨S6x160000, .f32⟩ : BufTy).Contents (Elt F) → (⟨S6x160000, .f32⟩ : BufTy).Contents (Elt F))) (ha := ⟨by decide, by rfl⟩) (hb := ⟨by decide, by rfl⟩) (hy := ⟨by decide, by rfl⟩) (mem1 (List.getElem_mem (l := ops1) (n := 25) (Nat.le_of_ble_eq_true rfl)))
  exact e
theorem st_main_v76 (V : Valuation τ sig (Elt F)) :
    after ops V (Proc.devRef .tc main_v76) = (Host.roundeven (after ops V (Proc.devRef .tc main_v75) : (⟨S6x160000, .f32⟩ : BufTy).Contents (Elt F)) : (⟨S6x160000, .f32⟩ : BufTy).Contents (Elt F)) := by
  have e := eq_unary ops_staged V (x := main_v75) (y := main_v76) (f := Host.roundeven) (hx := ⟨by decide, by rfl⟩) (hy := ⟨by decide, by rfl⟩) (mem1 (List.getElem_mem (l := ops1) (n := 26) (Nat.le_of_ble_eq_true rfl)))
  exact e
theorem st_main_v77 (V : Valuation τ sig (Elt F)) :
    after ops V (Proc.devRef .tc main_v77) = (fptosi 32 : (⟨S6x160000, .f32⟩ : BufTy).Contents (Elt F) → (⟨S6x160000, .i32⟩ : BufTy).Contents (Elt F)) (after ops V (Proc.devRef .tc main_v76)) := by
  have e := eq_unary ops_staged V (x := main_v76) (y := main_v77) (f := (fptosi 32 : (⟨S6x160000, .f32⟩ : BufTy).Contents (Elt F) → (⟨S6x160000, .i32⟩ : BufTy).Contents (Elt F))) (hx := ⟨by decide, by rfl⟩) (hy := ⟨by decide, by rfl⟩) (mem1 (List.getElem_mem (l := ops1) (n := 27) (Nat.le_of_ble_eq_true rfl)))
  exact e
theorem st_main_c_8 (V : Valuation τ sig (Elt F)) :
    after ops V (Proc.devRef .tc main_c_8) = (constantI S_ 32 0#32) := by
  have e := eq_nullary ops_staged V  (y := main_c_8) (v := (constantI S_ 32 0#32))  (hy := ⟨by decide, by rfl⟩) (mem1 (List.getElem_mem (l := ops1) (n := 28) (Nat.le_of_ble_eq_true rfl)))
  exact e
theorem st_main_v78 (V : Valuation τ sig (Elt F)) :
    after ops V (Proc.devRef .tc main_v78) = (broadcastInDim S6x160000 ![] bcast_S_S6x160000 : (⟨S_, .i32⟩ : BufTy).Contents (Elt F) → (⟨S6x160000, .i32⟩ : BufTy).Contents (Elt F)) (after ops V (Proc.devRef .tc main_c_8)) := by
  have e := eq_unary ops_staged V (x := main_c_8) (y := main_v78) (f := (broadcastInDim S6x160000 ![] bcast_S_S6x160000 : (⟨S_, .i32⟩ : BufTy).Contents (Elt F) → (⟨S6x160000, .i32⟩ : BufTy).Contents (Elt F))) (hx := ⟨by decide, by rfl⟩) (hy := ⟨by decide, by rfl⟩) (mem1 (List.getElem_mem (l := ops1) (n := 29) (Nat.le_of_ble_eq_true rfl)))
  exact e
theorem st_main_v79 (V : Valuation τ sig (Elt F)) :
    after ops V (Proc.devRef .tc main_v79) = (cmpi .sge : (⟨S6x160000, .i32⟩ : BufTy).Contents (Elt F) → (⟨S6x160000, .i32⟩ : BufTy).Contents (Elt F) → (⟨S6x160000, .i1⟩ : BufTy).Contents (Elt F)) (after ops V (Proc.devRef .tc main_v73)) (after ops V (Proc.devRef .tc main_v78)) := by
  have e := eq_binary ops_staged V (a := main_v73) (b := main_v78) (y := main_v79) (f := (cmpi .sge : (⟨S6x160000, .i32⟩ : BufTy).Contents (Elt F) → (⟨S6x160000, .i32⟩ : BufTy).Contents (Elt F) → (⟨S6x160000, .i1⟩ : BufTy).Contents (Elt F))) (ha := ⟨by decide, by rfl⟩) (hb := ⟨by decide, by rfl⟩) (hy := ⟨by decide, by rfl⟩) (mem1 (List.getElem_mem (l := ops1) (n := 30) (Nat.le_of_ble_eq_true rfl)))
  exact e
theorem st_main_c_9 (V : Valuation τ sig (Elt F)) :
    after ops V (Proc.devRef .tc main_c_9) = (constantI S_ 32 0#32) := by
  have e := eq_nullary ops_staged V  (y := main_c_9) (v := (constantI S_ 32 0#32))  (hy := ⟨by decide, by rfl⟩) (mem1 (List.getElem_mem (l := ops1) (n := 31) (Nat.le_of_ble_eq_true rfl)))
  exact e
theorem st_main_v80 (V : Valuation τ sig (Elt F)) :
    after ops V (Proc.devRef .tc main_v80) = (broadcastInDim S6x160000 ![] bcast_S_S6x160000 : (⟨S_, .i32⟩ : BufTy).Contents (Elt F) → (⟨S6x160000, .i32⟩ : BufTy).Contents (Elt F)) (after ops V (Proc.devRef .tc main_c_9)) := by
  have e := eq_unary ops_staged V (x := main_c_9) (y := main_v80) (f := (broadcastInDim S6x160000 ![] bcast_S_S6x160000 : (⟨S_, .i32⟩ : BufTy).Contents (Elt F) → (⟨S6x160000, .i32⟩ : BufTy).Contents (Elt F))) (hx := ⟨by decide, by rfl⟩) (hy := ⟨by decide, by rfl⟩) (mem1 (List.getElem_mem (l := ops1) (n := 32) (Nat.le_of_ble_eq_true rfl)))
  exact e
theorem st_main_v81 (V : Valuation τ sig (Elt F)) :
    after ops V (Proc.devRef .tc main_v81) = (cmpi .sge : (⟨S6x160000, .i32⟩ : BufTy).Contents (Elt F) → (⟨S6x160000, .i32⟩ : BufTy).Contents (Elt F) → (⟨S6x160000, .i1⟩ : BufTy).Contents (Elt F)) (after ops V (Proc.devRef .tc main_v77)) (after ops V (Proc.devRef .tc main_v80)) := by
  have e := eq_binary ops_staged V (a := main_v77) (b := main_v80) (y := main_v81) (f := (cmpi .sge : (⟨S6x160000, .i32⟩ : BufTy).Contents (Elt F) → (⟨S6x160000, .i32⟩ : BufTy).Contents (Elt F) → (⟨S6x160000, .i1⟩ : BufTy).Contents (Elt F))) (ha := ⟨by decide, by rfl⟩) (hb := ⟨by decide, by rfl⟩) (hy := ⟨by decide, by rfl⟩) (mem1 (List.getElem_mem (l := ops1) (n := 33) (Nat.le_of_ble_eq_true rfl)))
  exact e
theorem st_main_v82 (V : Valuation τ sig (Elt F)) :
    after ops V (Proc.devRef .tc main_v82) = (andi : (⟨S6x160000, .i1⟩ : BufTy).Contents (Elt F) → (⟨S6x160000, .i1⟩ : BufTy).Contents (Elt F) → (⟨S6x160000, .i1⟩ : BufTy).Contents (Elt F)) (after ops V (Proc.devRef .tc main_v79)) (after ops V (Proc.devRef .tc main_v81)) := by
  have e := eq_binary ops_staged V (a := main_v79) (b := main_v81) (y := main_v82) (f := (andi : (⟨S6x160000, .i1⟩ : BufTy).Contents (Elt F) → (⟨S6x160000, .i1⟩ : BufTy).Contents (Elt F) → (⟨S6x160000, .i1⟩ : BufTy).Contents (Elt F))) (ha := ⟨by decide, by rfl⟩) (hb := ⟨by decide, by rfl⟩) (hy := ⟨by decide, by rfl⟩) (mem1 (List.getElem_mem (l := ops1) (n := 34) (Nat.le_of_ble_eq_true rfl)))
  exact e
theorem st_main_c_10 (V : Valuation τ sig (Elt F)) :
    after ops V (Proc.devRef .tc main_c_10) = (constantI S_ 32 176#32) := by
  have e := eq_nullary ops_staged V  (y := main_c_10) (v := (constantI S_ 32 176#32))  (hy := ⟨by decide, by rfl⟩) (mem1 (List.getElem_mem (l := ops1) (n := 35) (Nat.le_of_ble_eq_true rfl)))
  exact e
theorem st_main_v83 (V : Valuation τ sig (Elt F)) :
    after ops V (Proc.devRef .tc main_v83) = (broadcastInDim S6x160000 ![] bcast_S_S6x160000 : (⟨S_, .i32⟩ : BufTy).Contents (Elt F) → (⟨S6x160000, .i32⟩ : BufTy).Contents (Elt F)) (after ops V (Proc.devRef .tc main_c_10)) := by
  have e := eq_unary ops_staged V (x := main_c_10) (y := main_v83) (f := (broadcastInDim S6x160000 ![] bcast_S_S6x160000 : (⟨S_, .i32⟩ : BufTy).Contents (Elt F) → (⟨S6x160000, .i32⟩ : BufTy).Contents (Elt F))) (hx := ⟨by decide, by rfl⟩) (hy := ⟨by decide, by rfl⟩) (mem1 (List.getElem_mem (l := ops1) (n := 36) (Nat.le_of_ble_eq_true rfl)))
  exact e
theorem st_main_v84 (V : Valuation τ sig (Elt F)) :
    after ops V (Proc.devRef .tc main_v84) = (cmpi .slt : (⟨S6x160000, .i32⟩ : BufTy).Contents (Elt F) → (⟨S6x160000, .i32⟩ : BufTy).Contents (Elt F) → (⟨S6x160000, .i1⟩ : BufTy).Contents (Elt F)) (after ops V (Proc.devRef .tc main_v73)) (after ops V (Proc.devRef .tc main_v83)) := by
  have e := eq_binary ops_staged V (a := main_v73) (b := main_v83) (y := main_v84) (f := (cmpi .slt : (⟨S6x160000, .i32⟩ : BufTy).Contents (Elt F) → (⟨S6x160000, .i32⟩ : BufTy).Contents (Elt F) → (⟨S6x160000, .i1⟩ : BufTy).Contents (Elt F))) (ha := ⟨by decide, by rfl⟩) (hb := ⟨by decide, by rfl⟩) (hy := ⟨by decide, by rfl⟩) (mem1 (List.getElem_mem (l := ops1) (n := 37) (Nat.le_of_ble_eq_true rfl)))
  exact e
theorem st_main_v85 (V : Valuation τ sig (Elt F)) :
    after ops V (Proc.devRef .tc main_v85) = (andi : (⟨S6x160000, .i1⟩ : BufTy).Contents (Elt F) → (⟨S6x160000, .i1⟩ : BufTy).Contents (Elt F) → (⟨S6x160000, .i1⟩ : BufTy).Contents (Elt F)) (after ops V (Proc.devRef .tc main_v82)) (after ops V (Proc.devRef .tc main_v84)) := by
  have e := eq_binary ops_staged V (a := main_v82) (b := main_v84) (y := main_v85) (f := (andi : (⟨S6x160000, .i1⟩ : BufTy).Contents (Elt F) → (⟨S6x160000, .i1⟩ : BufTy).Contents (Elt F) → (⟨S6x160000, .i1⟩ : BufTy).Contents (Elt F))) (ha := ⟨by decide, by rfl⟩) (hb := ⟨by decide, by rfl⟩) (hy := ⟨by decide, by rfl⟩) (mem1 (List.getElem_mem (l := ops1) (n := 38) (Nat.le_of_ble_eq_true rfl)))
  exact e
theorem st_main_c_11 (V : Valuation τ sig (Elt F)) :
    after ops V (Proc.devRef .tc main_c_11) = (constantI S_ 32 64#32) := by
  have e := eq_nullary ops_staged V  (y := main_c_11) (v := (constantI S_ 32 64#32))  (hy := ⟨by decide, by rfl⟩) (mem1 (List.getElem_mem (l := ops1) (n := 39) (Nat.le_of_ble_eq_true rfl)))
  exact e
theorem st_main_v86 (V : Valuation τ sig (Elt F)) :
    after ops V (Proc.devRef .tc main_v86) = (broadcastInDim S6x160000 ![] bcast_S_S6x160000 : (⟨S_, .i32⟩ : BufTy).Contents (Elt F) → (⟨S6x160000, .i32⟩ : BufTy).Contents (Elt F)) (after ops V (Proc.devRef .tc main_c_11)) := by
  have e := eq_unary ops_staged V (x := main_c_11) (y := main_v86) (f := (broadcastInDim S6x160000 ![] bcast_S_S6x160000 : (⟨S_, .i32⟩ : BufTy).Contents (Elt F) → (⟨S6x160000, .i32⟩ : BufTy).Contents (Elt F))) (hx := ⟨by decide, by rfl⟩) (hy := ⟨by decide, by rfl⟩) (mem1 (List.getElem_mem (l := ops1) (n := 40) (Nat.le_of_ble_eq_true rfl)))
  exact e
theorem st_main_v87 (V : Valuation τ sig (Elt F)) :
    after ops V (Proc.devRef .tc main_v87) = (cmpi .slt : (⟨S6x160000, .i32⟩ : BufTy).Contents (Elt F) → (⟨S6x160000, .i32⟩ : BufTy).Contents (Elt F) → (⟨S6x160000, .i1⟩ : BufTy).Contents (Elt F)) (after ops V (Proc.devRef .tc main_v77)) (after ops V (Proc.devRef .tc main_v86)) := by
  have e := eq_binary ops_staged V (a := main_v77) (b := main_v86) (y := main_v87) (f := (cmpi .slt : (⟨S6x160000, .i32⟩ : BufTy).Contents (Elt F) → (⟨S6x160000, .i32⟩ : BufTy).Contents (Elt F) → (⟨S6x160000, .i1⟩ : BufTy).Contents (Elt F))) (ha := ⟨by decide, by rfl⟩) (hb := ⟨by decide, by rfl⟩) (hy := ⟨by decide, by rfl⟩) (mem1 (List.getElem_mem (l := ops1) (n := 41) (Nat.le_of_ble_eq_true rfl)))
  exact e
theorem st_main_v88 (V : Valuation τ sig (Elt F)) :
    after ops V (Proc.devRef .tc main_v88) = (andi : (⟨S6x160000, .i1⟩ : BufTy).Contents (Elt F) → (⟨S6x160000, .i1⟩ : BufTy).Contents (Elt F) → (⟨S6x160000, .i1⟩ : BufTy).Contents (Elt F)) (after ops V (Proc.devRef .tc main_v85)) (after ops V (Proc.devRef .tc main_v87)) := by
  have e := eq_binary ops_staged V (a := main_v85) (b := main_v87) (y := main_v88) (f := (andi : (⟨S6x160000, .i1⟩ : BufTy).Contents (Elt F) → (⟨S6x160000, .i1⟩ : BufTy).Contents (Elt F) → (⟨S6x160000, .i1⟩ : BufTy).Contents (Elt F))) (ha := ⟨by decide, by rfl⟩) (hb := ⟨by decide, by rfl⟩) (hy := ⟨by decide, by rfl⟩) (mem1 (List.getElem_mem (l := ops1) (n := 42) (Nat.le_of_ble_eq_true rfl)))
  exact e
theorem st_main_cst_12 (V : Valuation τ sig (Elt F)) :
    after ops V (Proc.devRef .tc main_cst_12) = (constant S_ .f32 0x00000000#32) := by
  have e := eq_nullary ops_staged V  (y := main_cst_12) (v := (constant S_ .f32 0x00000000#32))  (hy := ⟨by decide, by rfl⟩) (mem1 (List.getElem_mem (l := ops1) (n := 43) (Nat.le_of_ble_eq_true rfl)))
  exact e
theorem st_main_v89 (V : Valuation τ sig (Elt F)) :
    after ops V (Proc.devRef .tc main_v89) = (broadcastInDim S6x160000 ![] bcast_S_S6x160000 : (⟨S_, .f32⟩ : BufTy).Contents (Elt F) → (⟨S6x160000, .f32⟩ : BufTy).Contents (Elt F)) (after ops V (Proc.devRef .tc main_cst_12)) := by
  have e := eq_unary ops_staged V (x := main_cst_12) (y := main_v89) (f := (broadcastInDim S6x160000 ![] bcast_S_S6x160000 : (⟨S_, .f32⟩ : BufTy).Contents (Elt F) → (⟨S6x160000, .f32⟩ : BufTy).Contents (Elt F))) (hx := ⟨by decide, by rfl⟩) (hy := ⟨by decide, by rfl⟩) (mem1 (List.getElem_mem (l := ops1) (n := 44) (Nat.le_of_ble_eq_true rfl)))
  exact e
theorem st_main_v90 (V : Valuation τ sig (Elt F)) :
    after ops V (Proc.devRef .tc main_v90) = (cmpf .ogt : (⟨S6x160000, .f32⟩ : BufTy).Contents (Elt F) → (⟨S6x160000, .f32⟩ : BufTy).Contents (Elt F) → (⟨S6x160000, .i1⟩ : BufTy).Contents (Elt F)) (after ops V (Proc.devRef .tc main_v53)) (after ops V (Proc.devRef .tc main_v89)) := by
  have e := eq_binary ops_staged V (a := main_v53) (b := main_v89) (y := main_v90) (f := (cmpf .ogt : (⟨S6x160000, .f32⟩ : BufTy).Contents (Elt F) → (⟨S6x160000, .f32⟩ : BufTy).Contents (Elt F) → (⟨S6x160000, .i1⟩ : BufTy).Contents (Elt F))) (ha := ⟨by decide, by rfl⟩) (hb := ⟨by decide, by rfl⟩) (hy := ⟨by decide, by rfl⟩) (mem1 (List.getElem_mem (l := ops1) (n := 45) (Nat.le_of_ble_eq_true rfl)))
  exact e
theorem st_main_v91 (V : Valuation τ sig (Elt F)) :
    after ops V (Proc.devRef .tc main_v91) = (andi : (⟨S6x160000, .i1⟩ : BufTy).Contents (Elt F) → (⟨S6x160000, .i1⟩ : BufTy).Contents (Elt F) → (⟨S6x160000, .i1⟩ : BufTy).Contents (Elt F)) (after ops V (Proc.devRef .tc main_v88)) (after ops V (Proc.devRef .tc main_v90)) := by
  have e := eq_binary ops_staged V (a := main_v88) (b := main_v90) (y := main_v91) (f := (andi : (⟨S6x160000, .i1⟩ : BufTy).Contents (Elt F) → (⟨S6x160000, .i1⟩ : BufTy).Contents (Elt F) → (⟨S6x160000, .i1⟩ : BufTy).Contents (Elt F))) (ha := ⟨by decide, by rfl⟩) (hb := ⟨by decide, by rfl⟩) (hy := ⟨by decide, by rfl⟩) (mem1 (List.getElem_mem (l := ops1) (n := 46) (Nat.le_of_ble_eq_true rfl)))
  exact e
theorem st_main_cst_13 (V : Valuation τ sig (Elt F)) :
    after ops V (Proc.devRef .tc main_cst_13) = (constant S_ .f32 0x00000000#32) := by
  have e := eq_nullary ops_staged V  (y := main_cst_13) (v := (constant S_ .f32 0x00000000#32))  (hy := ⟨by decide, by rfl⟩) (mem1 (List.getElem_mem (l := ops1) (n := 47) (Nat.le_of_ble_eq_true rfl)))
  exact e
theorem st_main_v92 (V : Valuation τ sig (Elt F)) :
    after ops V (Proc.devRef .tc main_v92) = (broadcastInDim S256x160000 ![] bcast_S_S256x160000 : (⟨S_, .f32⟩ : BufTy).Contents (Elt F) → (⟨S256x160000, .f32⟩ : BufTy).Contents (Elt F)) (after ops V (Proc.devRef .tc main_cst_13)) := by
  have e := eq_unary ops_staged V (x := main_cst_13) (y := main_v92) (f := (broadcastInDim S256x160000 ![] bcast_S_S256x160000 : (⟨S_, .f32⟩ : BufTy).Contents (Elt F) → (⟨S256x160000, .f32⟩ : BufTy).Contents (Elt F))) (hx := ⟨by decide, by rfl⟩) (hy := ⟨by decide, by rfl⟩) (mem1 (List.getElem_mem (l := ops1) (n := 48) (Nat.le_of_ble_eq_true rfl)))
  exact e
theorem st_main_v93 (V : Valuation τ sig (Elt F)) :
    after ops V (Proc.devRef .tc main_v93) = ((extractStridedSlice S1x160000 ![0, 0] · slices_S6x160000_S1x160000_0_0) : (⟨S6x160000, .i32⟩ : BufTy).Contents (Elt F) → (⟨S1x160000, .i32⟩ : BufTy).Contents (Elt F)) (after ops V (Proc.devRef .tc main_v73)) := by
  have e := eq_unary ops_staged V (x := main_v73) (y := main_v93) (f := ((extractStridedSlice S1x160000 ![0, 0] · slices_S6x160000_S1x160000_0_0) : (⟨S6x160000, .i32⟩ : BufTy).Contents (Elt F) → (⟨S1x160000, .i32⟩ : BufTy).Contents (Elt F))) (hx := ⟨by decide, by rfl⟩) (hy := ⟨by decide, by rfl⟩) (mem1 (List.getElem_mem (l := ops1) (n := 49) (Nat.le_of_ble_eq_true rfl)))
  exact e
theorem st_main_v94 (V : Valuation τ sig (Elt F)) :
    after ops V (Proc.devRef .tc main_v94) = fun i => shapeCast main_v94.ty.shape (after ops V (Proc.devRef .tc main_v93)) shapeCasts_S1x160000_S160000 i := by
  have e := eq_reshape ops_staged V (x := main_v93) (y := main_v94) (he := rfl) (hn := shapeCasts_S1x160000_S160000) (hx := ⟨by decide, by rfl⟩) (hy := ⟨by decide, by rfl⟩) (mem1 (List.getElem_mem (l := ops1) (n := 50) (Nat.le_of_ble_eq_true rfl)))
  exact e
theorem st_main_c_14 (V : Valuation τ sig (Elt F)) :
    after ops V (Proc.devRef .tc main_c_14) = (constantI S_ 32 0#32) := by
  have e := eq_nullary ops_staged V  (y := main_c_14) (v := (constantI S_ 32 0#32))  (hy := ⟨by decide, by rfl⟩) (mem1 (List.getElem_mem (l := ops1) (n := 51) (Nat.le_of_ble_eq_true rfl)))
  exact e
theorem st_main_c_15 (V : Valuation τ sig (Elt F)) :
    after ops V (Proc.devRef .tc main_c_15) = (constantI S_ 32 175#32) := by
  have e := eq_nullary ops_staged V  (y := main_c_15) (v := (constantI S_ 32 175#32))  (hy := ⟨by decide, by rfl⟩) (mem1 (List.getElem_mem (l := ops1) (n := 52) (Nat.le_of_ble_eq_true rfl)))
  exact e
theorem st_main_call2_v0 (V : Valuation τ sig (Elt F)) :
    after ops V (Proc.devRef .tc main_call2_v0) = (id (after ops V (Proc.devRef .tc main_c_14) : (⟨S_, .i32⟩ : BufTy).Contents (Elt F)) : (⟨S_, .i32⟩ : BufTy).Contents (Elt F)) := by
  have e := eq_unary ops_staged V (x := main_c_14) (y := main_call2_v0) (f := id) (hx := ⟨by decide, by rfl⟩) (hy := ⟨by decide, by rfl⟩) (mem1 (List.getElem_mem (l := ops1) (n := 53) (Nat.le_of_ble_eq_true rfl)))
  exact e
theorem st_main_call2_v1 (V : Valuation τ sig (Elt F)) :
    after ops V (Proc.devRef .tc main_call2_v1) = ((broadcastInDim S160000 ![] bcast_S_S160000) (after ops V (Proc.devRef .tc main_call2_v0) : (⟨S_, .i32⟩ : BufTy).Contents (Elt F)) : (⟨S160000, .i32⟩ : BufTy).Contents (Elt F)) := by
  have e := eq_unary ops_staged V (x := main_call2_v0) (y := main_call2_v1) (f := (broadcastInDim S160000 ![] bcast_S_S160000)) (hx := ⟨by decide, by rfl⟩) (hy := ⟨by decide, by rfl⟩) (mem1 (List.getElem_mem (l := ops1) (n := 54) (Nat.le_of_ble_eq_true rfl)))
  exact e
theorem st_main_call2_v2 (V : Valuation τ sig (Elt F)) :
    after ops V (Proc.devRef .tc main_call2_v2) = (maxsi (after ops V (Proc.devRef .tc main_call2_v1) : (⟨S160000, .i32⟩ : BufTy).Contents (Elt F)) (after ops V (Proc.devRef .tc main_v94) : (⟨S160000, .i32⟩ : BufTy).Contents (Elt F)) : (⟨S160000, .i32⟩ : BufTy).Contents (Elt F)) := by
  have e := eq_binary ops_staged V (a := main_call2_v1) (b := main_v94) (y := main_call2_v2) (f := maxsi) (ha := ⟨by decide, by rfl⟩) (hb := ⟨by decide, by rfl⟩) (hy := ⟨by decide, by rfl⟩) (mem1 (List.getElem_mem (l := ops1) (n := 55) (Nat.le_of_ble_eq_true rfl)))
  exact e
theorem st_main_call2_v3 (V : Valuation τ sig (Elt F)) :
    after ops V (Proc.devRef .tc main_call2_v3) = (id (after ops V (Proc.devRef .tc main_c_15) : (⟨S_, .i32⟩ : BufTy).Contents (Elt F)) : (⟨S_, .i32⟩ : BufTy).Contents (Elt F)) := by
  have e := eq_unary ops_staged V (x := main_c_15) (y := main_call2_v3) (f := id) (hx := ⟨by decide, by rfl⟩) (hy := ⟨by decide, by rfl⟩) (mem1 (List.getElem_mem (l := ops1) (n := 56) (Nat.le_of_ble_eq_true rfl)))
  exact e
theorem st_main_call2_v4 (V : Valuation τ sig (Elt F)) :
    after ops V (Proc.devRef .tc main_call2_v4) = ((broadcastInDim S160000 ![] bcast_S_S160000) (after ops V (Proc.devRef .tc main_call2_v3) : (⟨S_, .i32⟩ : BufTy).Contents (Elt F)) : (⟨S160000, .i32⟩ : BufTy).Contents (Elt F)) := by
  have e := eq_unary ops_staged V (x := main_call2_v3) (y := main_call2_v4) (f := (broadcastInDim S160000 ![] bcast_S_S160000)) (hx := ⟨by decide, by rfl⟩) (hy := ⟨by decide, by rfl⟩) (mem1 (List.getElem_mem (l := ops1) (n := 57) (Nat.le_of_ble_eq_true rfl)))
  exact e
theorem st_main_v95 (V : Valuation τ sig (Elt F)) :
    after ops V (Proc.devRef .tc main_v95) = (minsi (after ops V (Proc.devRef .tc main_call2_v4) : (⟨S160000, .i32⟩ : BufTy).Contents (Elt F)) (after ops V (Proc.devRef .tc main_call2_v2) : (⟨S160000, .i32⟩ : BufTy).Contents (Elt F)) : (⟨S160000, .i32⟩ : BufTy).Contents (Elt F)) := by
  have e := eq_binary ops_staged V (a := main_call2_v4) (b := main_call2_v2) (y := main_v95) (f := minsi) (ha := ⟨by decide, by rfl⟩) (hb := ⟨by decide, by rfl⟩) (hy := ⟨by decide, by rfl⟩) (mem1 (List.getElem_mem (l := ops1) (n := 58) (Nat.le_of_ble_eq_true rfl)))
  exact e
theorem st_main_v96 (V : Valuation τ sig (Elt F)) :
    after ops V (Proc.devRef .tc main_v96) = ((extractStridedSlice S1x160000 ![0, 0] · slices_S6x160000_S1x160000_0_0) : (⟨S6x160000, .i32⟩ : BufTy).Contents (Elt F) → (⟨S1x160000, .i32⟩ : BufTy).Contents (Elt F)) (after ops V (Proc.devRef .tc main_v77)) := by
  have e := eq_unary ops_staged V (x := main_v77) (y := main_v96) (f := ((extractStridedSlice S1x160000 ![0, 0] · slices_S6x160000_S1x160000_0_0) : (⟨S6x160000, .i32⟩ : BufTy).Contents (Elt F) → (⟨S1x160000, .i32⟩ : BufTy).Contents (Elt F))) (hx := ⟨by decide, by rfl⟩) (hy := ⟨by decide, by rfl⟩) (mem1 (List.getElem_mem (l := ops1) (n := 59) (Nat.le_of_ble_eq_true rfl)))
  exact e
theorem st_main_v97 (V : Valuation τ sig (Elt F)) :
    after ops V (Proc.devRef .tc main_v97) = fun i => shapeCast main_v97.ty.shape (after ops V (Proc.devRef .tc main_v96)) shapeCasts_S1x160000_S160000 i := by
  have e := eq_reshape ops_staged V (x := main_v96) (y := main_v97) (he := rfl) (hn := shapeCasts_S1x160000_S160000) (hx := ⟨by decide, by rfl⟩) (hy := ⟨by decide, by rfl⟩) (mem1 (List.getElem_mem (l := ops1) (n := 60) (Nat.le_of_ble_eq_true rfl)))
  exact e
theorem st_main_c_16 (V : Valuation τ sig (Elt F)) :
    after ops V (Proc.devRef .tc main_c_16) = (constantI S_ 32 0#32) := by
  have e := eq_nullary ops_staged V  (y := main_c_16) (v := (constantI S_ 32 0#32))  (hy := ⟨by decide, by rfl⟩) (mem1 (List.getElem_mem (l := ops1) (n := 61) (Nat.le_of_ble_eq_true rfl)))
  exact e
theorem st_main_c_17 (V : Valuation τ sig (Elt F)) :
    after ops V (Proc.devRef .tc main_c_17) = (constantI S_ 32 63#32) := by
  have e := eq_nullary ops_staged V  (y := main_c_17) (v := (constantI S_ 32 63#32))  (hy := ⟨by decide, by rfl⟩) (mem1 (List.getElem_mem (l := ops1) (n := 62) (Nat.le_of_ble_eq_true rfl)))
  exact e
theorem st_main_call3_v0 (V : Valuation τ sig (Elt F)) :
    after ops V (Proc.devRef .tc main_call3_v0) = (id (after ops V (Proc.devRef .tc main_c_16) : (⟨S_, .i32⟩ : BufTy).Contents (Elt F)) : (⟨S_, .i32⟩ : BufTy).Contents (Elt F)) := by
  have e := eq_unary ops_staged V (x := main_c_16) (y := main_call3_v0) (f := id) (hx := ⟨by decide, by rfl⟩) (hy := ⟨by decide, by rfl⟩) (mem1 (List.getElem_mem (l := ops1) (n := 63) (Nat.le_of_ble_eq_true rfl)))
  exact e
theorem st_main_call3_v1 (V : Valuation τ sig (Elt F)) :
    after ops V (Proc.devRef .tc main_call3_v1) = ((broadcastInDim S160000 ![] bcast_S_S160000) (after ops V (Proc.devRef .tc main_call3_v0) : (⟨S_, .i32⟩ : BufTy).Contents (Elt F)) : (⟨S160000, .i32⟩ : BufTy).Contents (Elt F)) := by
  have e := eq_unary ops_staged V (x := main_call3_v0) (y := main_call3_v1) (f := (broadcastInDim S160000 ![] bcast_S_S160000)) (hx := ⟨by decide, by rfl⟩) (hy := ⟨by decide, by rfl⟩) (mem1 (List.getElem_mem (l := ops1) (n := 64) (Nat.le_of_ble_eq_true rfl)))
  exact e
theorem st_main_call3_v2 (V : Valuation τ sig (Elt F)) :
    after ops V (Proc.devRef .tc main_call3_v2) = (maxsi (after ops V (Proc.devRef .tc main_call3_v1) : (⟨S160000, .i32⟩ : BufTy).Contents (Elt F)) (after ops V (Proc.devRef .tc main_v97) : (⟨S160000, .i32⟩ : BufTy).Contents (Elt F)) : (⟨S160000, .i32⟩ : BufTy).Contents (Elt F)) := by
  have e := eq_binary ops_staged V (a := main_call3_v1) (b := main_v97) (y := main_call3_v2) (f := maxsi) (ha := ⟨by decide, by rfl⟩) (hb := ⟨by decide, by rfl⟩) (hy := ⟨by decide, by rfl⟩) (mem1 (List.getElem_mem (l := ops1) (n := 65) (Nat.le_of_ble_eq_true rfl)))
  exact e
theorem st_main_call3_v3 (V : Valuation τ sig (Elt F)) :
    after ops V (Proc.devRef .tc main_call3_v3) = (id (after ops V (Proc.devRef .tc main_c_17) : (⟨S_, .i32⟩ : BufTy).Contents (Elt F)) : (⟨S_, .i32⟩ : BufTy).Contents (Elt F)) := by
  have e := eq_unary ops_staged V (x := main_c_17) (y := main_call3_v3) (f := id) (hx := ⟨by decide, by rfl⟩) (hy := ⟨by decide, by rfl⟩) (mem1 (List.getElem_mem (l := ops1) (n := 66) (Nat.le_of_ble_eq_true rfl)))
  exact e
theorem st_main_call3_v4 (V : Valuation τ sig (Elt F)) :
    after ops V (Proc.devRef .tc main_call3_v4) = ((broadcastInDim S160000 ![] bcast_S_S160000) (after ops V (Proc.devRef .tc main_call3_v3) : (⟨S_, .i32⟩ : BufTy).Contents (Elt F)) : (⟨S160000, .i32⟩ : BufTy).Contents (Elt F)) := by
  have e := eq_unary ops_staged V (x := main_call3_v3) (y := main_call3_v4) (f := (broadcastInDim S160000 ![] bcast_S_S160000)) (hx := ⟨by decide, by rfl⟩) (hy := ⟨by decide, by rfl⟩) (mem1 (List.getElem_mem (l := ops1) (n := 67) (Nat.le_of_ble_eq_true rfl)))
  exact e
theorem st_main_v98 (V : Valuation τ sig (Elt F)) :
    after ops V (Proc.devRef .tc main_v98) = (minsi (after ops V (Proc.devRef .tc main_call3_v4) : (⟨S160000, .i32⟩ : BufTy).Contents (Elt F)) (after ops V (Proc.devRef .tc main_call3_v2) : (⟨S160000, .i32⟩ : BufTy).Contents (Elt F)) : (⟨S160000, .i32⟩ : BufTy).Contents (Elt F)) := by
  have e := eq_binary ops_staged V (a := main_call3_v4) (b := main_call3_v2) (y := main_v98) (f := minsi) (ha := ⟨by decide, by rfl⟩) (hb := ⟨by decide, by rfl⟩) (hy := ⟨by decide, by rfl⟩) (mem1 (List.getElem_mem (l := ops1) (n := 68) (Nat.le_of_ble_eq_true rfl)))
  exact e
theorem st_main_v99 (V : Valuation τ sig (Elt F)) :
    after ops V (Proc.devRef .tc main_v99) = ((extractStridedSlice S1x256x64x176 ![0, 0, 0, 0] · slices_S6x256x64x176_S1x256x64x176_0_0_0_0) : (⟨S6x256x64x176, .f32⟩ : BufTy).Contents (Elt F) → (⟨S1x256x64x176, .f32⟩ : BufTy).Contents (Elt F)) (after ops V (Proc.devRef .tc main_v21)) := by
  have e := eq_unary ops_staged V (x := main_v21) (y := main_v99) (f := ((extractStridedSlice S1x256x64x176 ![0, 0, 0, 0] · slices_S6x256x64x176_S1x256x64x176_0_0_0_0) : (⟨S6x256x64x176, .f32⟩ : BufTy).Contents (Elt F) → (⟨S1x256x64x176, .f32⟩ : BufTy).Contents (Elt F))) (hx := ⟨by decide, by rfl⟩) (hy := ⟨by decide, by rfl⟩) (mem1 (List.getElem_mem (l := ops1) (n := 69) (Nat.le_of_ble_eq_true rfl)))
  exact e
theorem st_main_v100 (V : Valuation τ sig (Elt F)) :
    after ops V (Proc.devRef .tc main_v100) = fun i => shapeCast main_v100.ty.shape (after ops V (Proc.devRef .tc main_v99)) shapeCasts_S1x256x64x176_S256x64x176 i := by
  have e := eq_reshape ops_staged V (x := main_v99) (y := main_v100) (he := rfl) (hn := shapeCasts_S1x256x64x176_S256x64x176) (hx := ⟨by decide, by rfl⟩) (hy := ⟨by decide, by rfl⟩) (mem2 (List.getElem_mem (l := ops2) (n := 0) (Nat.le_of_ble_eq_true rfl)))
  exact e
theorem st_main_c_18 (V : Valuation τ sig (Elt F)) :
    after ops V (Proc.devRef .tc main_c_18) = (constantI S_ 32 0#32) := by
  have e := eq_nullary ops_staged V  (y := main_c_18) (v := (constantI S_ 32 0#32))  (hy := ⟨by decide, by rfl⟩) (mem2 (List.getElem_mem (l := ops2) (n := 1) (Nat.le_of_ble_eq_true rfl)))
  exact e
theorem st_main_v101 (V : Valuation τ sig (Elt F)) :
    after ops V (Proc.devRef .tc main_v101) = (broadcastInDim S160000 ![] bcast_S_S160000 : (⟨S_, .i32⟩ : BufTy).Contents (Elt F) → (⟨S160000, .i32⟩ : BufTy).Contents (Elt F)) (after ops V (Proc.devRef .tc main_c_18)) := by
  have e := eq_unary ops_staged V (x := main_c_18) (y := main_v101) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem2 (List.getElem_mem (l := ops2) (n := 2) (Nat.le_of_ble_eq_true rfl)))
  exact e
theorem st_main_v102 (V : Valuation τ sig (Elt F)) :
    after ops V (Proc.devRef .tc main_v102) = (cmpi .slt : (⟨S160000, .i32⟩ : BufTy).Contents (Elt F) → (⟨S160000, .i32⟩ : BufTy).Contents (Elt F) → (⟨S160000, .i1⟩ : BufTy).Contents (Elt F)) (after ops V (Proc.devRef .tc main_v98)) (after ops V (Proc.devRef .tc main_v101)) := by
  have e := eq_binary ops_staged V (a := main_v98) (b := main_v101) (y := main_v102) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem2 (List.getElem_mem (l := ops2) (n := 3) (Nat.le_of_ble_eq_true rfl)))
  exact e
theorem st_main_c_19 (V : Valuation τ sig (Elt F)) :
    after ops V (Proc.devRef .tc main_c_19) = (constantI S_ 32 64#32) := by
  have e := eq_nullary ops_staged V  (y := main_c_19) (v := (constantI S_ 32 64#32))  (hy := ⟨by decide, by rfl⟩) (mem2 (List.getElem_mem (l := ops2) (n := 4) (Nat.le_of_ble_eq_true rfl)))
  exact e
theorem st_main_v103 (V : Valuation τ sig (Elt F)) :
    after ops V (Proc.devRef .tc main_v103) = (broadcastInDim S160000 ![] bcast_S_S160000 : (⟨S_, .i32⟩ : BufTy).Contents (Elt F) → (⟨S160000, .i32⟩ : BufTy).Contents (Elt F)) (after ops V (Proc.devRef .tc main_c_19)) := by
  have e := eq_unary ops_staged V (x := main_c_19) (y := main_v103) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem2 (List.getElem_mem (l := ops2) (n := 5) (Nat.le_of_ble_eq_true rfl)))
  exact e
theorem st_main_v104 (V : Valuation τ sig (Elt F)) :
    after ops V (Proc.devRef .tc main_v104) = (addi : (⟨S160000, .i32⟩ : BufTy).Contents (Elt F) → (⟨S160000, .i32⟩ : BufTy).Contents (Elt F) → (⟨S160000, .i32⟩ : BufTy).Contents (Elt F)) (after ops V (Proc.devRef .tc main_v98)) (after ops V (Proc.devRef .tc main_v103)) := by
  have e := eq_binary ops_staged V (a := main_v98) (b := main_v103) (y := main_v104) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem2 (List.getElem_mem (l := ops2) (n := 6) (Nat.le_of_ble_eq_true rfl)))
  exact e
theorem st_main_v105 (V : Valuation τ sig (Elt F)) :
    after ops V (Proc.devRef .tc main_v105) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v102)) (after ops V (Proc.devRef .tc main_v104)) (after ops V (Proc.devRef .tc main_v98)) := by
  have e := eq_ternary ops_staged V (c := main_v102) (a := main_v104) (b := main_v98) (y := main_v105) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem2 (List.getElem_mem (l := ops2) (n := 7) (Nat.le_of_ble_eq_true rfl)))
  exact e
theorem st_main_c_20 (V : Valuation τ sig (Elt F)) :
    after ops V (Proc.devRef .tc main_c_20) = (constantI S_ 32 0#32) := by
  have e := eq_nullary ops_staged V  (y := main_c_20) (v := (constantI S_ 32 0#32))  (hy := ⟨by decide, by rfl⟩) (mem2 (List.getElem_mem (l := ops2) (n := 8) (Nat.le_of_ble_eq_true rfl)))
  exact e
theorem st_main_v106 (V : Valuation τ sig (Elt F)) :
    after ops V (Proc.devRef .tc main_v106) = (broadcastInDim S160000 ![] bcast_S_S160000 : (⟨S_, .i32⟩ : BufTy).Contents (Elt F) → (⟨S160000, .i32⟩ : BufTy).Contents (Elt F)) (after ops V (Proc.devRef .tc main_c_20)) := by
  have e := eq_unary ops_staged V (x := main_c_20) (y := main_v106) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem2 (List.getElem_mem (l := ops2) (n := 9) (Nat.le_of_ble_eq_true rfl)))
  exact e
theorem st_main_v107 (V : Valuation τ sig (Elt F)) :
    after ops V (Proc.devRef .tc main_v107) = (cmpi .slt : (⟨S160000, .i32⟩ : BufTy).Contents (Elt F) → (⟨S160000, .i32⟩ : BufTy).Contents (Elt F) → (⟨S160000, .i1⟩ : BufTy).Contents (Elt F)) (after ops V (Proc.devRef .tc main_v95)) (after ops V (Proc.devRef .tc main_v106)) := by
  have e := eq_binary ops_staged V (a := main_v95) (b := main_v106) (y := main_v107) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem2 (List.getElem_mem (l := ops2) (n := 10) (Nat.le_of_ble_eq_true rfl)))
  exact e
theorem st_main_c_21 (V : Valuation τ sig (Elt F)) :
    after ops V (Proc.devRef .tc main_c_21) = (constantI S_ 32 176#32) := by
  have e := eq_nullary ops_staged V  (y := main_c_21) (v := (constantI S_ 32 176#32))  (hy := ⟨by decide, by rfl⟩) (mem2 (List.getElem_mem (l := ops2) (n := 11) (Nat.le_of_ble_eq_true rfl)))
  exact e
theorem st_main_v108 (V : Valuation τ sig (Elt F)) :
    after ops V (Proc.devRef .tc main_v108) = (broadcastInDim S160000 ![] bcast_S_S160000 : (⟨S_, .i32⟩ : BufTy).Contents (Elt F) → (⟨S160000, .i32⟩ : BufTy).Contents (Elt F)) (after ops V (Proc.devRef .tc main_c_21)) := by
  have e := eq_unary ops_staged V (x := main_c_21) (y := main_v108) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem2 (List.getElem_mem (l := ops2) (n := 12) (Nat.le_of_ble_eq_true rfl)))
  exact e
theorem st_main_v109 (V : Valuation τ sig (Elt F)) :
    after ops V (Proc.devRef .tc main_v109) = (addi : (⟨S160000, .i32⟩ : BufTy).Contents (Elt F) → (⟨S160000, .i32⟩ : BufTy).Contents (Elt F) → (⟨S160000, .i32⟩ : BufTy).Contents (Elt F)) (after ops V (Proc.devRef .tc main_v95)) (after ops V (Proc.devRef .tc main_v108)) := by
  have e := eq_binary ops_staged V (a := main_v95) (b := main_v108) (y := main_v109) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem2 (List.getElem_mem (l := ops2) (n := 13) (Nat.le_of_ble_eq_true rfl)))
  exact e
theorem st_main_v110 (V : Valuation τ sig (Elt F)) :
    after ops V (Proc.devRef .tc main_v110) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v107)) (after ops V (Proc.devRef .tc main_v109)) (after ops V (Proc.devRef .tc main_v95)) := by
  have e := eq_ternary ops_staged V (c := main_v107) (a := main_v109) (b := main_v95) (y := main_v110) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem2 (List.getElem_mem (l := ops2) (n := 14) (Nat.le_of_ble_eq_true rfl)))
  exact e
theorem st_main_v111 (V : Valuation τ sig (Elt F)) :
    after ops V (Proc.devRef .tc main_v111) = (broadcastInDim S160000x1 ![0] bcast_S160000_S160000x1_0 : (⟨S160000, .i32⟩ : BufTy).Contents (Elt F) → (⟨S160000x1, .i32⟩ : BufTy).Contents (Elt F)) (after ops V (Proc.devRef .tc main_v105)) := by
  have e := eq_unary ops_staged V (x := main_v105) (y := main_v111) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem2 (List.getElem_mem (l := ops2) (n := 15) (Nat.le_of_ble_eq_true rfl)))
  exact e
theorem st_main_v112 (V : Valuation τ sig (Elt F)) :
    after ops V (Proc.devRef .tc main_v112) = (broadcastInDim S160000x1 ![0] bcast_S160000_S160000x1_0 : (⟨S160000, .i32⟩ : BufTy).Contents (Elt F) → (⟨S160000x1, .i32⟩ : BufTy).Contents (Elt F)) (after ops V (Proc.devRef .tc main_v110)) := by
  have e := eq_unary ops_staged V (x := main_v110) (y := main_v112) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem2 (List.getElem_mem (l := ops2) (n := 16) (Nat.le_of_ble_eq_true rfl)))
  exact e
theorem st_main_v113 (V : Valuation τ sig (Elt F)) :
    after ops V (Proc.devRef .tc main_v113) = ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)) (after ops V (Proc.devRef .tc main_v111)) (after ops V (Proc.devRef .tc main_v112)) := by
  have e := eq_binary ops_staged V (a := main_v111) (b := main_v112) (y := main_v113) (f := ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F))) (ha := ⟨by decide, by rfl⟩) (hb := ⟨by decide, by rfl⟩) (hy := ⟨by decide, by rfl⟩) (mem2 (List.getElem_mem (l := ops2) (n := 17) (Nat.le_of_ble_eq_true rfl)))
  exact e
theorem st_main_v114 (V : Valuation τ sig (Elt F)) :
    after ops V (Proc.devRef .tc main_v114) = ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)) (after ops V (Proc.devRef .tc main_v100)) (after ops V (Proc.devRef .tc main_v113)) := by
  have e := eq_binary ops_staged V (a := main_v100) (b := main_v113) (y := main_v114) (f := ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F))) (ha := ⟨by decide, by rfl⟩) (hb := ⟨by decide, by rfl⟩) (hy := ⟨by decide, by rfl⟩) (mem2 (List.getElem_mem (l := ops2) (n := 18) (Nat.le_of_ble_eq_true rfl)))
  exact e
theorem st_main_v115 (V : Valuation τ sig (Elt F)) :
    after ops V (Proc.devRef .tc main_v115) = ((extractStridedSlice S1x160000 ![0, 0] · slices_S6x160000_S1x160000_0_0) : (⟨S6x160000, .i1⟩ : BufTy).Contents (Elt F) → (⟨S1x160000, .i1⟩ : BufTy).Contents (Elt F)) (after ops V (Proc.devRef .tc main_v91)) := by
  have e := eq_unary ops_staged V (x := main_v91) (y := main_v115) (f := ((extractStridedSlice S1x160000 ![0, 0] · slices_S6x160000_S1x160000_0_0) : (⟨S6x160000, .i1⟩ : BufTy).Contents (Elt F) → (⟨S1x160000, .i1⟩ : BufTy).Contents (Elt F))) (hx := ⟨by decide, by rfl⟩) (hy := ⟨by decide, by rfl⟩) (mem2 (List.getElem_mem (l := ops2) (n := 19) (Nat.le_of_ble_eq_true rfl)))
  exact e
theorem st_main_v116 (V : Valuation τ sig (Elt F)) :
    after ops V (Proc.devRef .tc main_v116) = fun i => shapeCast main_v116.ty.shape (after ops V (Proc.devRef .tc main_v115)) shapeCasts_S1x160000_S160000 i := by
  have e := eq_reshape ops_staged V (x := main_v115) (y := main_v116) (he := rfl) (hn := shapeCasts_S1x160000_S160000) (hx := ⟨by decide, by rfl⟩) (hy := ⟨by decide, by rfl⟩) (mem2 (List.getElem_mem (l := ops2) (n := 20) (Nat.le_of_ble_eq_true rfl)))
  exact e
theorem st_main_v117 (V : Valuation τ sig (Elt F)) :
    after ops V (Proc.devRef .tc main_v117) = (broadcastInDim S1x160000 ![1] bcast_S160000_S1x160000_1 : (⟨S160000, .i1⟩ : BufTy).Contents (Elt F) → (⟨S1x160000, .i1⟩ : BufTy).Contents (Elt F)) (after ops V (Proc.devRef .tc main_v116)) := by
  have e := eq_unary ops_staged V (x := main_v116) (y := main_v117) (f := (broadcastInDim S1x160000 ![1] bcast_S160000_S1x160000_1 : (⟨S160000, .i1⟩ : BufTy).Contents (Elt F) → (⟨S1x160000, .i1⟩ : BufTy).Contents (Elt F))) (hx := ⟨by decide, by rfl⟩) (hy := ⟨by decide, by rfl⟩) (mem2 (List.getElem_mem (l := ops2) (n := 21) (Nat.le_of_ble_eq_true rfl)))
  exact e
theorem st_main_call4_v0 (V : Valuation τ sig (Elt F)) :
    after ops V (Proc.devRef .tc main_call4_v0) = ((broadcastInDim S256x160000 ![0, 1] bcast_S1x160000_S256x160000_0_1) (after ops V (Proc.devRef .tc main_v117) : (⟨S1x160000, .i1⟩ : BufTy).Contents (Elt F)) : (⟨S256x160000, .i1⟩ : BufTy).Contents (Elt F)) := by
  have e := eq_unary ops_staged V (x := main_v117) (y := main_call4_v0) (f := (broadcastInDim S256x160000 ![0, 1] bcast_S1x160000_S256x160000_0_1)) (hx := ⟨by decide, by rfl⟩) (hy := ⟨by decide, by rfl⟩) (mem2 (List.getElem_mem (l := ops2) (n := 22) (Nat.le_of_ble_eq_true rfl)))
  exact e
theorem st_main_v118 (V : Valuation τ sig (Elt F)) :
    after ops V (Proc.devRef .tc main_v118) = (select (after ops V (Proc.devRef .tc main_call4_v0) : (⟨S256x160000, .i1⟩ : BufTy).Contents (Elt F)) (after ops V (Proc.devRef .tc main_v114) : (⟨S256x160000, .f32⟩ : BufTy).Contents (Elt F)) (after ops V (Proc.devRef .tc main_v92) : (⟨S256x160000, .f32⟩ : BufTy).Contents (Elt F)) : (⟨S256x160000, .f32⟩ : BufTy).Contents (Elt F)) := by
  have e := eq_ternary ops_staged V (c := main_call4_v0) (a := main_v114) (b := main_v92) (y := main_v118) (f := select) (hc := ⟨by decide, by rfl⟩) (ha := ⟨by decide, by rfl⟩) (hb := ⟨by decide, by rfl⟩) (hy := ⟨by decide, by rfl⟩) (mem2 (List.getElem_mem (l := ops2) (n := 23) (Nat.le_of_ble_eq_true rfl)))
  exact e
theorem st_main_v119 (V : Valuation τ sig (Elt F)) :
    after ops V (Proc.devRef .tc main_v119) = ((extractStridedSlice S1x160000 ![1, 0] · slices_S6x160000_S1x160000_1_0) : (⟨S6x160000, .i32⟩ : BufTy).Contents (Elt F) → (⟨S1x160000, .i32⟩ : BufTy).Contents (Elt F)) (after ops V (Proc.devRef .tc main_v73)) := by
  have e := eq_unary ops_staged V (x := main_v73) (y := main_v119) (f := ((extractStridedSlice S1x160000 ![1, 0] · slices_S6x160000_S1x160000_1_0) : (⟨S6x160000, .i32⟩ : BufTy).Contents (Elt F) → (⟨S1x160000, .i32⟩ : BufTy).Contents (Elt F))) (hx := ⟨by decide, by rfl⟩) (hy := ⟨by decide, by rfl⟩) (mem2 (List.getElem_mem (l := ops2) (n := 24) (Nat.le_of_ble_eq_true rfl)))
  exact e
theorem st_main_v120 (V : Valuation τ sig (Elt F)) :
    after ops V (Proc.devRef .tc main_v120) = fun i => shapeCast main_v120.ty.shape (after ops V (Proc.devRef .tc main_v119)) shapeCasts_S1x160000_S160000 i := by
  have e := eq_reshape ops_staged V (x := main_v119) (y := main_v120) (he := rfl) (hn := shapeCasts_S1x160000_S160000) (hx := ⟨by decide, by rfl⟩) (hy := ⟨by decide, by rfl⟩) (mem2 (List.getElem_mem (l := ops2) (n := 25) (Nat.le_of_ble_eq_true rfl)))
  exact e
theorem st_main_c_22 (V : Valuation τ sig (Elt F)) :
    after ops V (Proc.devRef .tc main_c_22) = (constantI S_ 32 0#32) := by
  have e := eq_nullary ops_staged V  (y := main_c_22) (v := (constantI S_ 32 0#32))  (hy := ⟨by decide, by rfl⟩) (mem2 (List.getElem_mem (l := ops2) (n := 26) (Nat.le_of_ble_eq_true rfl)))
  exact e
theorem st_main_c_23 (V : Valuation τ sig (Elt F)) :
    after ops V (Proc.devRef .tc main_c_23) = (constantI S_ 32 175#32) := by
  have e := eq_nullary ops_staged V  (y := main_c_23) (v := (constantI S_ 32 175#32))  (hy := ⟨by decide, by rfl⟩) (mem2 (List.getElem_mem (l := ops2) (n := 27) (Nat.le_of_ble_eq_true rfl)))
  exact e
theorem st_main_call5_v0 (V : Valuation τ sig (Elt F)) :
    after ops V (Proc.devRef .tc main_call5_v0) = (id (after ops V (Proc.devRef .tc main_c_22) : (⟨S_, .i32⟩ : BufTy).Contents (Elt F)) : (⟨S_, .i32⟩ : BufTy).Contents (Elt F)) := by
  have e := eq_unary ops_staged V (x := main_c_22) (y := main_call5_v0) (f := id) (hx := ⟨by decide, by rfl⟩) (hy := ⟨by decide, by rfl⟩) (mem2 (List.getElem_mem (l := ops2) (n := 28) (Nat.le_of_ble_eq_true rfl)))
  exact e
theorem st_main_call5_v1 (V : Valuation τ sig (Elt F)) :
    after ops V (Proc.devRef .tc main_call5_v1) = ((broadcastInDim S160000 ![] bcast_S_S160000) (after ops V (Proc.devRef .tc main_call5_v0) : (⟨S_, .i32⟩ : BufTy).Contents (Elt F)) : (⟨S160000, .i32⟩ : BufTy).Contents (Elt F)) := by
  have e := eq_unary ops_staged V (x := main_call5_v0) (y := main_call5_v1) (f := (broadcastInDim S160000 ![] bcast_S_S160000)) (hx := ⟨by decide, by rfl⟩) (hy := ⟨by decide, by rfl⟩) (mem2 (List.getElem_mem (l := ops2) (n := 29) (Nat.le_of_ble_eq_true rfl)))
  exact e
theorem st_main_call5_v2 (V : Valuation τ sig (Elt F)) :
    after ops V (Proc.devRef .tc main_call5_v2) = (maxsi (after ops V (Proc.devRef .tc main_call5_v1) : (⟨S160000, .i32⟩ : BufTy).Contents (Elt F)) (after ops V (Proc.devRef .tc main_v120) : (⟨S160000, .i32⟩ : BufTy).Contents (Elt F)) : (⟨S160000, .i32⟩ : BufTy).Contents (Elt F)) := by
  have e := eq_binary ops_staged V (a := main_call5_v1) (b := main_v120) (y := main_call5_v2) (f := maxsi) (ha := ⟨by decide, by rfl⟩) (hb := ⟨by decide, by rfl⟩) (hy := ⟨by decide, by rfl⟩) (mem2 (List.getElem_mem (l := ops2) (n := 30) (Nat.le_of_ble_eq_true rfl)))
  exact e
theorem st_main_call5_v3 (V : Valuation τ sig (Elt F)) :
    after ops V (Proc.devRef .tc main_call5_v3) = (id (after ops V (Proc.devRef .tc main_c_23) : (⟨S_, .i32⟩ : BufTy).Contents (Elt F)) : (⟨S_, .i32⟩ : BufTy).Contents (Elt F)) := by
  have e := eq_unary ops_staged V (x := main_c_23) (y := main_call5_v3) (f := id) (hx := ⟨by decide, by rfl⟩) (hy := ⟨by decide, by rfl⟩) (mem2 (List.getElem_mem (l := ops2) (n := 31) (Nat.le_of_ble_eq_true rfl)))
  exact e
theorem st_main_call5_v4 (V : Valuation τ sig (Elt F)) :
    after ops V (Proc.devRef .tc main_call5_v4) = ((broadcastInDim S160000 ![] bcast_S_S160000) (after ops V (Proc.devRef .tc main_call5_v3) : (⟨S_, .i32⟩ : BufTy).Contents (Elt F)) : (⟨S160000, .i32⟩ : BufTy).Contents (Elt F)) := by
  have e := eq_unary ops_staged V (x := main_call5_v3) (y := main_call5_v4) (f := (broadcastInDim S160000 ![] bcast_S_S160000)) (hx := ⟨by decide, by rfl⟩) (hy := ⟨by decide, by rfl⟩) (mem2 (List.getElem_mem (l := ops2) (n := 32) (Nat.le_of_ble_eq_true rfl)))
  exact e
theorem st_main_v121 (V : Valuation τ sig (Elt F)) :
    after ops V (Proc.devRef .tc main_v121) = (minsi (after ops V (Proc.devRef .tc main_call5_v4) : (⟨S160000, .i32⟩ : BufTy).Contents (Elt F)) (after ops V (Proc.devRef .tc main_call5_v2) : (⟨S160000, .i32⟩ : BufTy).Contents (Elt F)) : (⟨S160000, .i32⟩ : BufTy).Contents (Elt F)) := by
  have e := eq_binary ops_staged V (a := main_call5_v4) (b := main_call5_v2) (y := main_v121) (f := minsi) (ha := ⟨by decide, by rfl⟩) (hb := ⟨by decide, by rfl⟩) (hy := ⟨by decide, by rfl⟩) (mem2 (List.getElem_mem (l := ops2) (n := 33) (Nat.le_of_ble_eq_true rfl)))
  exact e
theorem st_main_v122 (V : Valuation τ sig (Elt F)) :
    after ops V (Proc.devRef .tc main_v122) = ((extractStridedSlice S1x160000 ![1, 0] · slices_S6x160000_S1x160000_1_0) : (⟨S6x160000, .i32⟩ : BufTy).Contents (Elt F) → (⟨S1x160000, .i32⟩ : BufTy).Contents (Elt F)) (after ops V (Proc.devRef .tc main_v77)) := by
  have e := eq_unary ops_staged V (x := main_v77) (y := main_v122) (f := ((extractStridedSlice S1x160000 ![1, 0] · slices_S6x160000_S1x160000_1_0) : (⟨S6x160000, .i32⟩ : BufTy).Contents (Elt F) → (⟨S1x160000, .i32⟩ : BufTy).Contents (Elt F))) (hx := ⟨by decide, by rfl⟩) (hy := ⟨by decide, by rfl⟩) (mem2 (List.getElem_mem (l := ops2) (n := 34) (Nat.le_of_ble_eq_true rfl)))
  exact e
theorem st_main_v123 (V : Valuation τ sig (Elt F)) :
    after ops V (Proc.devRef .tc main_v123) = fun i => shapeCast main_v123.ty.shape (after ops V (Proc.devRef .tc main_v122)) shapeCasts_S1x160000_S160000 i := by
  have e := eq_reshape ops_staged V (x := main_v122) (y := main_v123) (he := rfl) (hn := shapeCasts_S1x160000_S160000) (hx := ⟨by decide, by rfl⟩) (hy := ⟨by decide, by rfl⟩) (mem2 (List.getElem_mem (l := ops2) (n := 35) (Nat.le_of_ble_eq_true rfl)))
  exact e
theorem st_main_c_24 (V : Valuation τ sig (Elt F)) :
    after ops V (Proc.devRef .tc main_c_24) = (constantI S_ 32 0#32) := by
  have e := eq_nullary ops_staged V  (y := main_c_24) (v := (constantI S_ 32 0#32))  (hy := ⟨by decide, by rfl⟩) (mem2 (List.getElem_mem (l := ops2) (n := 36) (Nat.le_of_ble_eq_true rfl)))
  exact e
theorem st_main_c_25 (V : Valuation τ sig (Elt F)) :
    after ops V (Proc.devRef .tc main_c_25) = (constantI S_ 32 63#32) := by
  have e := eq_nullary ops_staged V  (y := main_c_25) (v := (constantI S_ 32 63#32))  (hy := ⟨by decide, by rfl⟩) (mem2 (List.getElem_mem (l := ops2) (n := 37) (Nat.le_of_ble_eq_true rfl)))
  exact e
theorem st_main_call6_v0 (V : Valuation τ sig (Elt F)) :
    after ops V (Proc.devRef .tc main_call6_v0) = (id (after ops V (Proc.devRef .tc main_c_24) : (⟨S_, .i32⟩ : BufTy).Contents (Elt F)) : (⟨S_, .i32⟩ : BufTy).Contents (Elt F)) := by
  have e := eq_unary ops_staged V (x := main_c_24) (y := main_call6_v0) (f := id) (hx := ⟨by decide, by rfl⟩) (hy := ⟨by decide, by rfl⟩) (mem2 (List.getElem_mem (l := ops2) (n := 38) (Nat.le_of_ble_eq_true rfl)))
  exact e
theorem st_main_call6_v1 (V : Valuation τ sig (Elt F)) :
    after ops V (Proc.devRef .tc main_call6_v1) = ((broadcastInDim S160000 ![] bcast_S_S160000) (after ops V (Proc.devRef .tc main_call6_v0) : (⟨S_, .i32⟩ : BufTy).Contents (Elt F)) : (⟨S160000, .i32⟩ : BufTy).Contents (Elt F)) := by
  have e := eq_unary ops_staged V (x := main_call6_v0) (y := main_call6_v1) (f := (broadcastInDim S160000 ![] bcast_S_S160000)) (hx := ⟨by decide, by rfl⟩) (hy := ⟨by decide, by rfl⟩) (mem2 (List.getElem_mem (l := ops2) (n := 39) (Nat.le_of_ble_eq_true rfl)))
  exact e
theorem st_main_call6_v2 (V : Valuation τ sig (Elt F)) :
    after ops V (Proc.devRef .tc main_call6_v2) = (maxsi (after ops V (Proc.devRef .tc main_call6_v1) : (⟨S160000, .i32⟩ : BufTy).Contents (Elt F)) (after ops V (Proc.devRef .tc main_v123) : (⟨S160000, .i32⟩ : BufTy).Contents (Elt F)) : (⟨S160000, .i32⟩ : BufTy).Contents (Elt F)) := by
  have e := eq_binary ops_staged V (a := main_call6_v1) (b := main_v123) (y := main_call6_v2) (f := maxsi) (ha := ⟨by decide, by rfl⟩) (hb := ⟨by decide, by rfl⟩) (hy := ⟨by decide, by rfl⟩) (mem2 (List.getElem_mem (l := ops2) (n := 40) (Nat.le_of_ble_eq_true rfl)))
  exact e
theorem st_main_call6_v3 (V : Valuation τ sig (Elt F)) :
    after ops V (Proc.devRef .tc main_call6_v3) = (id (after ops V (Proc.devRef .tc main_c_25) : (⟨S_, .i32⟩ : BufTy).Contents (Elt F)) : (⟨S_, .i32⟩ : BufTy).Contents (Elt F)) := by
  have e := eq_unary ops_staged V (x := main_c_25) (y := main_call6_v3) (f := id) (hx := ⟨by decide, by rfl⟩) (hy := ⟨by decide, by rfl⟩) (mem2 (List.getElem_mem (l := ops2) (n := 41) (Nat.le_of_ble_eq_true rfl)))
  exact e
theorem st_main_call6_v4 (V : Valuation τ sig (Elt F)) :
    after ops V (Proc.devRef .tc main_call6_v4) = ((broadcastInDim S160000 ![] bcast_S_S160000) (after ops V (Proc.devRef .tc main_call6_v3) : (⟨S_, .i32⟩ : BufTy).Contents (Elt F)) : (⟨S160000, .i32⟩ : BufTy).Contents (Elt F)) := by
  have e := eq_unary ops_staged V (x := main_call6_v3) (y := main_call6_v4) (f := (broadcastInDim S160000 ![] bcast_S_S160000)) (hx := ⟨by decide, by rfl⟩) (hy := ⟨by decide, by rfl⟩) (mem2 (List.getElem_mem (l := ops2) (n := 42) (Nat.le_of_ble_eq_true rfl)))
  exact e
theorem st_main_v124 (V : Valuation τ sig (Elt F)) :
    after ops V (Proc.devRef .tc main_v124) = (minsi (after ops V (Proc.devRef .tc main_call6_v4) : (⟨S160000, .i32⟩ : BufTy).Contents (Elt F)) (after ops V (Proc.devRef .tc main_call6_v2) : (⟨S160000, .i32⟩ : BufTy).Contents (Elt F)) : (⟨S160000, .i32⟩ : BufTy).Contents (Elt F)) := by
  have e := eq_binary ops_staged V (a := main_call6_v4) (b := main_call6_v2) (y := main_v124) (f := minsi) (ha := ⟨by decide, by rfl⟩) (hb := ⟨by decide, by rfl⟩) (hy := ⟨by decide, by rfl⟩) (mem2 (List.getElem_mem (l := ops2) (n := 43) (Nat.le_of_ble_eq_true rfl)))
  exact e
theorem st_main_v125 (V : Valuation τ sig (Elt F)) :
    after ops V (Proc.devRef .tc main_v125) = ((extractStridedSlice S1x256x64x176 ![1, 0, 0, 0] · slices_S6x256x64x176_S1x256x64x176_1_0_0_0) : (⟨S6x256x64x176, .f32⟩ : BufTy).Contents (Elt F) → (⟨S1x256x64x176, .f32⟩ : BufTy).Contents (Elt F)) (after ops V (Proc.devRef .tc main_v21)) := by
  have e := eq_unary ops_staged V (x := main_v21) (y := main_v125) (f := ((extractStridedSlice S1x256x64x176 ![1, 0, 0, 0] · slices_S6x256x64x176_S1x256x64x176_1_0_0_0) : (⟨S6x256x64x176, .f32⟩ : BufTy).Contents (Elt F) → (⟨S1x256x64x176, .f32⟩ : BufTy).Contents (Elt F))) (hx := ⟨by decide, by rfl⟩) (hy := ⟨by decide, by rfl⟩) (mem2 (List.getElem_mem (l := ops2) (n := 44) (Nat.le_of_ble_eq_true rfl)))
  exact e
theorem st_main_v126 (V : Valuation τ sig (Elt F)) :
    after ops V (Proc.devRef .tc main_v126) = fun i => shapeCast main_v126.ty.shape (after ops V (Proc.devRef .tc main_v125)) shapeCasts_S1x256x64x176_S256x64x176 i := by
  have e := eq_reshape ops_staged V (x := main_v125) (y := main_v126) (he := rfl) (hn := shapeCasts_S1x256x64x176_S256x64x176) (hx := ⟨by decide, by rfl⟩) (hy := ⟨by decide, by rfl⟩) (mem2 (List.getElem_mem (l := ops2) (n := 45) (Nat.le_of_ble_eq_true rfl)))
  exact e
theorem st_main_c_26 (V : Valuation τ sig (Elt F)) :
    after ops V (Proc.devRef .tc main_c_26) = (constantI S_ 32 0#32) := by
  have e := eq_nullary ops_staged V  (y := main_c_26) (v := (constantI S_ 32 0#32))  (hy := ⟨by decide, by rfl⟩) (mem2 (List.getElem_mem (l := ops2) (n := 46) (Nat.le_of_ble_eq_true rfl)))
  exact e
theorem st_main_v127 (V : Valuation τ sig (Elt F)) :
    after ops V (Proc.devRef .tc main_v127) = (broadcastInDim S160000 ![] bcast_S_S160000 : (⟨S_, .i32⟩ : BufTy).Contents (Elt F) → (⟨S160000, .i32⟩ : BufTy).Contents (Elt F)) (after ops V (Proc.devRef .tc main_c_26)) := by
  have e := eq_unary ops_staged V (x := main_c_26) (y := main_v127) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem2 (List.getElem_mem (l := ops2) (n := 47) (Nat.le_of_ble_eq_true rfl)))
  exact e
theorem st_main_v128 (V : Valuation τ sig (Elt F)) :
    after ops V (Proc.devRef .tc main_v128) = (cmpi .slt : (⟨S160000, .i32⟩ : BufTy).Contents (Elt F) → (⟨S160000, .i32⟩ : BufTy).Contents (Elt F) → (⟨S160000, .i1⟩ : BufTy).Contents (Elt F)) (after ops V (Proc.devRef .tc main_v124)) (after ops V (Proc.devRef .tc main_v127)) := by
  have e := eq_binary ops_staged V (a := main_v124) (b := main_v127) (y := main_v128) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem2 (List.getElem_mem (l := ops2) (n := 48) (Nat.le_of_ble_eq_true rfl)))
  exact e
theorem st_main_c_27 (V : Valuation τ sig (Elt F)) :
    after ops V (Proc.devRef .tc main_c_27) = (constantI S_ 32 64#32) := by
  have e := eq_nullary ops_staged V  (y := main_c_27) (v := (constantI S_ 32 64#32))  (hy := ⟨by decide, by rfl⟩) (mem2 (List.getElem_mem (l := ops2) (n := 49) (Nat.le_of_ble_eq_true rfl)))
  exact e
theorem st_main_v129 (V : Valuation τ sig (Elt F)) :
    after ops V (Proc.devRef .tc main_v129) = (broadcastInDim S160000 ![] bcast_S_S160000 : (⟨S_, .i32⟩ : BufTy).Contents (Elt F) → (⟨S160000, .i32⟩ : BufTy).Contents (Elt F)) (after ops V (Proc.devRef .tc main_c_27)) := by
  have e := eq_unary ops_staged V (x := main_c_27) (y := main_v129) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem2 (List.getElem_mem (l := ops2) (n := 50) (Nat.le_of_ble_eq_true rfl)))
  exact e
theorem st_main_v130 (V : Valuation τ sig (Elt F)) :
    after ops V (Proc.devRef .tc main_v130) = (addi : (⟨S160000, .i32⟩ : BufTy).Contents (Elt F) → (⟨S160000, .i32⟩ : BufTy).Contents (Elt F) → (⟨S160000, .i32⟩ : BufTy).Contents (Elt F)) (after ops V (Proc.devRef .tc main_v124)) (after ops V (Proc.devRef .tc main_v129)) := by
  have e := eq_binary ops_staged V (a := main_v124) (b := main_v129) (y := main_v130) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem2 (List.getElem_mem (l := ops2) (n := 51) (Nat.le_of_ble_eq_true rfl)))
  exact e
theorem st_main_v131 (V : Valuation τ sig (Elt F)) :
    after ops V (Proc.devRef .tc main_v131) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v128)) (after ops V (Proc.devRef .tc main_v130)) (after ops V (Proc.devRef .tc main_v124)) := by
  have e := eq_ternary ops_staged V (c := main_v128) (a := main_v130) (b := main_v124) (y := main_v131) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem2 (List.getElem_mem (l := ops2) (n := 52) (Nat.le_of_ble_eq_true rfl)))
  exact e
theorem st_main_c_28 (V : Valuation τ sig (Elt F)) :
    after ops V (Proc.devRef .tc main_c_28) = (constantI S_ 32 0#32) := by
  have e := eq_nullary ops_staged V  (y := main_c_28) (v := (constantI S_ 32 0#32))  (hy := ⟨by decide, by rfl⟩) (mem2 (List.getElem_mem (l := ops2) (n := 53) (Nat.le_of_ble_eq_true rfl)))
  exact e
theorem st_main_v132 (V : Valuation τ sig (Elt F)) :
    after ops V (Proc.devRef .tc main_v132) = (broadcastInDim S160000 ![] bcast_S_S160000 : (⟨S_, .i32⟩ : BufTy).Contents (Elt F) → (⟨S160000, .i32⟩ : BufTy).Contents (Elt F)) (after ops V (Proc.devRef .tc main_c_28)) := by
  have e := eq_unary ops_staged V (x := main_c_28) (y := main_v132) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem2 (List.getElem_mem (l := ops2) (n := 54) (Nat.le_of_ble_eq_true rfl)))
  exact e
theorem st_main_v133 (V : Valuation τ sig (Elt F)) :
    after ops V (Proc.devRef .tc main_v133) = (cmpi .slt : (⟨S160000, .i32⟩ : BufTy).Contents (Elt F) → (⟨S160000, .i32⟩ : BufTy).Contents (Elt F) → (⟨S160000, .i1⟩ : BufTy).Contents (Elt F)) (after ops V (Proc.devRef .tc main_v121)) (after ops V (Proc.devRef .tc main_v132)) := by
  have e := eq_binary ops_staged V (a := main_v121) (b := main_v132) (y := main_v133) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem2 (List.getElem_mem (l := ops2) (n := 55) (Nat.le_of_ble_eq_true rfl)))
  exact e
theorem st_main_c_29 (V : Valuation τ sig (Elt F)) :
    after ops V (Proc.devRef .tc main_c_29) = (constantI S_ 32 176#32) := by
  have e := eq_nullary ops_staged V  (y := main_c_29) (v := (constantI S_ 32 176#32))  (hy := ⟨by decide, by rfl⟩) (mem2 (List.getElem_mem (l := ops2) (n := 56) (Nat.le_of_ble_eq_true rfl)))
  exact e
theorem st_main_v134 (V : Valuation τ sig (Elt F)) :
    after ops V (Proc.devRef .tc main_v134) = (broadcastInDim S160000 ![] bcast_S_S160000 : (⟨S_, .i32⟩ : BufTy).Contents (Elt F) → (⟨S160000, .i32⟩ : BufTy).Contents (Elt F)) (after ops V (Proc.devRef .tc main_c_29)) := by
  have e := eq_unary ops_staged V (x := main_c_29) (y := main_v134) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem2 (List.getElem_mem (l := ops2) (n := 57) (Nat.le_of_ble_eq_true rfl)))
  exact e
theorem st_main_v135 (V : Valuation τ sig (Elt F)) :
    after ops V (Proc.devRef .tc main_v135) = (addi : (⟨S160000, .i32⟩ : BufTy).Contents (Elt F) → (⟨S160000, .i32⟩ : BufTy).Contents (Elt F) → (⟨S160000, .i32⟩ : BufTy).Contents (Elt F)) (after ops V (Proc.devRef .tc main_v121)) (after ops V (Proc.devRef .tc main_v134)) := by
  have e := eq_binary ops_staged V (a := main_v121) (b := main_v134) (y := main_v135) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem2 (List.getElem_mem (l := ops2) (n := 58) (Nat.le_of_ble_eq_true rfl)))
  exact e
theorem st_main_v136 (V : Valuation τ sig (Elt F)) :
    after ops V (Proc.devRef .tc main_v136) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v133)) (after ops V (Proc.devRef .tc main_v135)) (after ops V (Proc.devRef .tc main_v121)) := by
  have e := eq_ternary ops_staged V (c := main_v133) (a := main_v135) (b := main_v121) (y := main_v136) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem2 (List.getElem_mem (l := ops2) (n := 59) (Nat.le_of_ble_eq_true rfl)))
  exact e
theorem st_main_v137 (V : Valuation τ sig (Elt F)) :
    after ops V (Proc.devRef .tc main_v137) = (broadcastInDim S160000x1 ![0] bcast_S160000_S160000x1_0 : (⟨S160000, .i32⟩ : BufTy).Contents (Elt F) → (⟨S160000x1, .i32⟩ : BufTy).Contents (Elt F)) (after ops V (Proc.devRef .tc main_v131)) := by
  have e := eq_unary ops_staged V (x := main_v131) (y := main_v137) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem2 (List.getElem_mem (l := ops2) (n := 60) (Nat.le_of_ble_eq_true rfl)))
  exact e
theorem st_main_v138 (V : Valuation τ sig (Elt F)) :
    after ops V (Proc.devRef .tc main_v138) = (broadcastInDim S160000x1 ![0] bcast_S160000_S160000x1_0 : (⟨S160000, .i32⟩ : BufTy).Contents (Elt F) → (⟨S160000x1, .i32⟩ : BufTy).Contents (Elt F)) (after ops V (Proc.devRef .tc main_v136)) := by
  have e := eq_unary ops_staged V (x := main_v136) (y := main_v138) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem2 (List.getElem_mem (l := ops2) (n := 61) (Nat.le_of_ble_eq_true rfl)))
  exact e
theorem st_main_v139 (V : Valuation τ sig (Elt F)) :
    after ops V (Proc.devRef .tc main_v139) = ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)) (after ops V (Proc.devRef .tc main_v137)) (after ops V (Proc.devRef .tc main_v138)) := by
  have e := eq_binary ops_staged V (a := main_v137) (b := main_v138) (y := main_v139) (f := ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F))) (ha := ⟨by decide, by rfl⟩) (hb := ⟨by decide, by rfl⟩) (hy := ⟨by decide, by rfl⟩) (mem2 (List.getElem_mem (l := ops2) (n := 62) (Nat.le_of_ble_eq_true rfl)))
  exact e
theorem st_main_v140 (V : Valuation τ sig (Elt F)) :
    after ops V (Proc.devRef .tc main_v140) = ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)) (after ops V (Proc.devRef .tc main_v126)) (after ops V (Proc.devRef .tc main_v139)) := by
  have e := eq_binary ops_staged V (a := main_v126) (b := main_v139) (y := main_v140) (f := ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F))) (ha := ⟨by decide, by rfl⟩) (hb := ⟨by decide, by rfl⟩) (hy := ⟨by decide, by rfl⟩) (mem2 (List.getElem_mem (l := ops2) (n := 63) (Nat.le_of_ble_eq_true rfl)))
  exact e
theorem st_main_v141 (V : Valuation τ sig (Elt F)) :
    after ops V (Proc.devRef .tc main_v141) = ((extractStridedSlice S1x160000 ![1, 0] · slices_S6x160000_S1x160000_1_0) : (⟨S6x160000, .i1⟩ : BufTy).Contents (Elt F) → (⟨S1x160000, .i1⟩ : BufTy).Contents (Elt F)) (after ops V (Proc.devRef .tc main_v91)) := by
  have e := eq_unary ops_staged V (x := main_v91) (y := main_v141) (f := ((extractStridedSlice S1x160000 ![1, 0] · slices_S6x160000_S1x160000_1_0) : (⟨S6x160000, .i1⟩ : BufTy).Contents (Elt F) → (⟨S1x160000, .i1⟩ : BufTy).Contents (Elt F))) (hx := ⟨by decide, by rfl⟩) (hy := ⟨by decide, by rfl⟩) (mem2 (List.getElem_mem (l := ops2) (n := 64) (Nat.le_of_ble_eq_true rfl)))
  exact e
theorem st_main_v142 (V : Valuation τ sig (Elt F)) :
    after ops V (Proc.devRef .tc main_v142) = fun i => shapeCast main_v142.ty.shape (after ops V (Proc.devRef .tc main_v141)) shapeCasts_S1x160000_S160000 i := by
  have e := eq_reshape ops_staged V (x := main_v141) (y := main_v142) (he := rfl) (hn := shapeCasts_S1x160000_S160000) (hx := ⟨by decide, by rfl⟩) (hy := ⟨by decide, by rfl⟩) (mem2 (List.getElem_mem (l := ops2) (n := 65) (Nat.le_of_ble_eq_true rfl)))
  exact e
theorem st_main_v143 (V : Valuation τ sig (Elt F)) :
    after ops V (Proc.devRef .tc main_v143) = (broadcastInDim S1x160000 ![1] bcast_S160000_S1x160000_1 : (⟨S160000, .i1⟩ : BufTy).Contents (Elt F) → (⟨S1x160000, .i1⟩ : BufTy).Contents (Elt F)) (after ops V (Proc.devRef .tc main_v142)) := by
  have e := eq_unary ops_staged V (x := main_v142) (y := main_v143) (f := (broadcastInDim S1x160000 ![1] bcast_S160000_S1x160000_1 : (⟨S160000, .i1⟩ : BufTy).Contents (Elt F) → (⟨S1x160000, .i1⟩ : BufTy).Contents (Elt F))) (hx := ⟨by decide, by rfl⟩) (hy := ⟨by decide, by rfl⟩) (mem2 (List.getElem_mem (l := ops2) (n := 66) (Nat.le_of_ble_eq_true rfl)))
  exact e
theorem st_main_call7_v0 (V : Valuation τ sig (Elt F)) :
    after ops V (Proc.devRef .tc main_call7_v0) = ((broadcastInDim S256x160000 ![0, 1] bcast_S1x160000_S256x160000_0_1) (after ops V (Proc.devRef .tc main_v143) : (⟨S1x160000, .i1⟩ : BufTy).Contents (Elt F)) : (⟨S256x160000, .i1⟩ : BufTy).Contents (Elt F)) := by
  have e := eq_unary ops_staged V (x := main_v143) (y := main_call7_v0) (f := (broadcastInDim S256x160000 ![0, 1] bcast_S1x160000_S256x160000_0_1)) (hx := ⟨by decide, by rfl⟩) (hy := ⟨by decide, by rfl⟩) (mem2 (List.getElem_mem (l := ops2) (n := 67) (Nat.le_of_ble_eq_true rfl)))
  exact e
theorem st_main_v144 (V : Valuation τ sig (Elt F)) :
    after ops V (Proc.devRef .tc main_v144) = (select (after ops V (Proc.devRef .tc main_call7_v0) : (⟨S256x160000, .i1⟩ : BufTy).Contents (Elt F)) (after ops V (Proc.devRef .tc main_v140) : (⟨S256x160000, .f32⟩ : BufTy).Contents (Elt F)) (after ops V (Proc.devRef .tc main_v118) : (⟨S256x160000, .f32⟩ : BufTy).Contents (Elt F)) : (⟨S256x160000, .f32⟩ : BufTy).Contents (Elt F)) := by
  have e := eq_ternary ops_staged V (c := main_call7_v0) (a := main_v140) (b := main_v118) (y := main_v144) (f := select) (hc := ⟨by decide, by rfl⟩) (ha := ⟨by decide, by rfl⟩) (hb := ⟨by decide, by rfl⟩) (hy := ⟨by decide, by rfl⟩) (mem2 (List.getElem_mem (l := ops2) (n := 68) (Nat.le_of_ble_eq_true rfl)))
  exact e
theorem st_main_v145 (V : Valuation τ sig (Elt F)) :
    after ops V (Proc.devRef .tc main_v145) = ((extractStridedSlice S1x160000 ![2, 0] · slices_S6x160000_S1x160000_2_0) : (⟨S6x160000, .i32⟩ : BufTy).Contents (Elt F) → (⟨S1x160000, .i32⟩ : BufTy).Contents (Elt F)) (after ops V (Proc.devRef .tc main_v73)) := by
  have e := eq_unary ops_staged V (x := main_v73) (y := main_v145) (f := ((extractStridedSlice S1x160000 ![2, 0] · slices_S6x160000_S1x160000_2_0) : (⟨S6x160000, .i32⟩ : BufTy).Contents (Elt F) → (⟨S1x160000, .i32⟩ : BufTy).Contents (Elt F))) (hx := ⟨by decide, by rfl⟩) (hy := ⟨by decide, by rfl⟩) (mem2 (List.getElem_mem (l := ops2) (n := 69) (Nat.le_of_ble_eq_true rfl)))
  exact e
theorem st_main_v146 (V : Valuation τ sig (Elt F)) :
    after ops V (Proc.devRef .tc main_v146) = fun i => shapeCast main_v146.ty.shape (after ops V (Proc.devRef .tc main_v145)) shapeCasts_S1x160000_S160000 i := by
  have e := eq_reshape ops_staged V (x := main_v145) (y := main_v146) (he := rfl) (hn := shapeCasts_S1x160000_S160000) (hx := ⟨by decide, by rfl⟩) (hy := ⟨by decide, by rfl⟩) (mem2 (List.getElem_mem (l := ops2) (n := 70) (Nat.le_of_ble_eq_true rfl)))
  exact e
theorem st_main_c_30 (V : Valuation τ sig (Elt F)) :
    after ops V (Proc.devRef .tc main_c_30) = (constantI S_ 32 0#32) := by
  have e := eq_nullary ops_staged V  (y := main_c_30) (v := (constantI S_ 32 0#32))  (hy := ⟨by decide, by rfl⟩) (mem2 (List.getElem_mem (l := ops2) (n := 71) (Nat.le_of_ble_eq_true rfl)))
  exact e
theorem st_main_c_31 (V : Valuation τ sig (Elt F)) :
    after ops V (Proc.devRef .tc main_c_31) = (constantI S_ 32 175#32) := by
  have e := eq_nullary ops_staged V  (y := main_c_31) (v := (constantI S_ 32 175#32))  (hy := ⟨by decide, by rfl⟩) (mem3 (List.getElem_mem (l := ops3) (n := 0) (Nat.le_of_ble_eq_true rfl)))
  exact e
theorem st_main_call8_v0 (V : Valuation τ sig (Elt F)) :
    after ops V (Proc.devRef .tc main_call8_v0) = (id (after ops V (Proc.devRef .tc main_c_30) : (⟨S_, .i32⟩ : BufTy).Contents (Elt F)) : (⟨S_, .i32⟩ : BufTy).Contents (Elt F)) := by
  have e := eq_unary ops_staged V (x := main_c_30) (y := main_call8_v0) (f := id) (hx := ⟨by decide, by rfl⟩) (hy := ⟨by decide, by rfl⟩) (mem3 (List.getElem_mem (l := ops3) (n := 1) (Nat.le_of_ble_eq_true rfl)))
  exact e
theorem st_main_call8_v1 (V : Valuation τ sig (Elt F)) :
    after ops V (Proc.devRef .tc main_call8_v1) = ((broadcastInDim S160000 ![] bcast_S_S160000) (after ops V (Proc.devRef .tc main_call8_v0) : (⟨S_, .i32⟩ : BufTy).Contents (Elt F)) : (⟨S160000, .i32⟩ : BufTy).Contents (Elt F)) := by
  have e := eq_unary ops_staged V (x := main_call8_v0) (y := main_call8_v1) (f := (broadcastInDim S160000 ![] bcast_S_S160000)) (hx := ⟨by decide, by rfl⟩) (hy := ⟨by decide, by rfl⟩) (mem3 (List.getElem_mem (l := ops3) (n := 2) (Nat.le_of_ble_eq_true rfl)))
  exact e
theorem st_main_call8_v2 (V : Valuation τ sig (Elt F)) :
    after ops V (Proc.devRef .tc main_call8_v2) = (maxsi (after ops V (Proc.devRef .tc main_call8_v1) : (⟨S160000, .i32⟩ : BufTy).Contents (Elt F)) (after ops V (Proc.devRef .tc main_v146) : (⟨S160000, .i32⟩ : BufTy).Contents (Elt F)) : (⟨S160000, .i32⟩ : BufTy).Contents (Elt F)) := by
  have e := eq_binary ops_staged V (a := main_call8_v1) (b := main_v146) (y := main_call8_v2) (f := maxsi) (ha := ⟨by decide, by rfl⟩) (hb := ⟨by decide, by rfl⟩) (hy := ⟨by decide, by rfl⟩) (mem3 (List.getElem_mem (l := ops3) (n := 3) (Nat.le_of_ble_eq_true rfl)))
  exact e
theorem st_main_call8_v3 (V : Valuation τ sig (Elt F)) :
    after ops V (Proc.devRef .tc main_call8_v3) = (id (after ops V (Proc.devRef .tc main_c_31) : (⟨S_, .i32⟩ : BufTy).Contents (Elt F)) : (⟨S_, .i32⟩ : BufTy).Contents (Elt F)) := by
  have e := eq_unary ops_staged V (x := main_c_31) (y := main_call8_v3) (f := id) (hx := ⟨by decide, by rfl⟩) (hy := ⟨by decide, by rfl⟩) (mem3 (List.getElem_mem (l := ops3) (n := 4) (Nat.le_of_ble_eq_true rfl)))
  exact e
theorem st_main_call8_v4 (V : Valuation τ sig (Elt F)) :
    after ops V (Proc.devRef .tc main_call8_v4) = ((broadcastInDim S160000 ![] bcast_S_S160000) (after ops V (Proc.devRef .tc main_call8_v3) : (⟨S_, .i32⟩ : BufTy).Contents (Elt F)) : (⟨S160000, .i32⟩ : BufTy).Contents (Elt F)) := by
  have e := eq_unary ops_staged V (x := main_call8_v3) (y := main_call8_v4) (f := (broadcastInDim S160000 ![] bcast_S_S160000)) (hx := ⟨by decide, by rfl⟩) (hy := ⟨by decide, by rfl⟩) (mem3 (List.getElem_mem (l := ops3) (n := 5) (Nat.le_of_ble_eq_true rfl)))
  exact e
theorem st_main_v147 (V : Valuation τ sig (Elt F)) :
    after ops V (Proc.devRef .tc main_v147) = (minsi (after ops V (Proc.devRef .tc main_call8_v4) : (⟨S160000, .i32⟩ : BufTy).Contents (Elt F)) (after ops V (Proc.devRef .tc main_call8_v2) : (⟨S160000, .i32⟩ : BufTy).Contents (Elt F)) : (⟨S160000, .i32⟩ : BufTy).Contents (Elt F)) := by
  have e := eq_binary ops_staged V (a := main_call8_v4) (b := main_call8_v2) (y := main_v147) (f := minsi) (ha := ⟨by decide, by rfl⟩) (hb := ⟨by decide, by rfl⟩) (hy := ⟨by decide, by rfl⟩) (mem3 (List.getElem_mem (l := ops3) (n := 6) (Nat.le_of_ble_eq_true rfl)))
  exact e
theorem st_main_v148 (V : Valuation τ sig (Elt F)) :
    after ops V (Proc.devRef .tc main_v148) = ((extractStridedSlice S1x160000 ![2, 0] · slices_S6x160000_S1x160000_2_0) : (⟨S6x160000, .i32⟩ : BufTy).Contents (Elt F) → (⟨S1x160000, .i32⟩ : BufTy).Contents (Elt F)) (after ops V (Proc.devRef .tc main_v77)) := by
  have e := eq_unary ops_staged V (x := main_v77) (y := main_v148) (f := ((extractStridedSlice S1x160000 ![2, 0] · slices_S6x160000_S1x160000_2_0) : (⟨S6x160000, .i32⟩ : BufTy).Contents (Elt F) → (⟨S1x160000, .i32⟩ : BufTy).Contents (Elt F))) (hx := ⟨by decide, by rfl⟩) (hy := ⟨by decide, by rfl⟩) (mem3 (List.getElem_mem (l := ops3) (n := 7) (Nat.le_of_ble_eq_true rfl)))
  exact e
theorem st_main_v149 (V : Valuation τ sig (Elt F)) :
    after ops V (Proc.devRef .tc main_v149) = fun i => shapeCast main_v149.ty.shape (after ops V (Proc.devRef .tc main_v148)) shapeCasts_S1x160000_S160000 i := by
  have e := eq_reshape ops_staged V (x := main_v148) (y := main_v149) (he := rfl) (hn := shapeCasts_S1x160000_S160000) (hx := ⟨by decide, by rfl⟩) (hy := ⟨by decide, by rfl⟩) (mem3 (List.getElem_mem (l := ops3) (n := 8) (Nat.le_of_ble_eq_true rfl)))
  exact e
theorem st_main_c_32 (V : Valuation τ sig (Elt F)) :
    after ops V (Proc.devRef .tc main_c_32) = (constantI S_ 32 0#32) := by
  have e := eq_nullary ops_staged V  (y := main_c_32) (v := (constantI S_ 32 0#32))  (hy := ⟨by decide, by rfl⟩) (mem3 (List.getElem_mem (l := ops3) (n := 9) (Nat.le_of_ble_eq_true rfl)))
  exact e
theorem st_main_c_33 (V : Valuation τ sig (Elt F)) :
    after ops V (Proc.devRef .tc main_c_33) = (constantI S_ 32 63#32) := by
  have e := eq_nullary ops_staged V  (y := main_c_33) (v := (constantI S_ 32 63#32))  (hy := ⟨by decide, by rfl⟩) (mem3 (List.getElem_mem (l := ops3) (n := 10) (Nat.le_of_ble_eq_true rfl)))
  exact e
theorem st_main_call9_v0 (V : Valuation τ sig (Elt F)) :
    after ops V (Proc.devRef .tc main_call9_v0) = (id (after ops V (Proc.devRef .tc main_c_32) : (⟨S_, .i32⟩ : BufTy).Contents (Elt F)) : (⟨S_, .i32⟩ : BufTy).Contents (Elt F)) := by
  have e := eq_unary ops_staged V (x := main_c_32) (y := main_call9_v0) (f := id) (hx := ⟨by decide, by rfl⟩) (hy := ⟨by decide, by rfl⟩) (mem3 (List.getElem_mem (l := ops3) (n := 11) (Nat.le_of_ble_eq_true rfl)))
  exact e
theorem st_main_call9_v1 (V : Valuation τ sig (Elt F)) :
    after ops V (Proc.devRef .tc main_call9_v1) = ((broadcastInDim S160000 ![] bcast_S_S160000) (after ops V (Proc.devRef .tc main_call9_v0) : (⟨S_, .i32⟩ : BufTy).Contents (Elt F)) : (⟨S160000, .i32⟩ : BufTy).Contents (Elt F)) := by
  have e := eq_unary ops_staged V (x := main_call9_v0) (y := main_call9_v1) (f := (broadcastInDim S160000 ![] bcast_S_S160000)) (hx := ⟨by decide, by rfl⟩) (hy := ⟨by decide, by rfl⟩) (mem3 (List.getElem_mem (l := ops3) (n := 12) (Nat.le_of_ble_eq_true rfl)))
  exact e
theorem st_main_call9_v2 (V : Valuation τ sig (Elt F)) :
    after ops V (Proc.devRef .tc main_call9_v2) = (maxsi (after ops V (Proc.devRef .tc main_call9_v1) : (⟨S160000, .i32⟩ : BufTy).Contents (Elt F)) (after ops V (Proc.devRef .tc main_v149) : (⟨S160000, .i32⟩ : BufTy).Contents (Elt F)) : (⟨S160000, .i32⟩ : BufTy).Contents (Elt F)) := by
  have e := eq_binary ops_staged V (a := main_call9_v1) (b := main_v149) (y := main_call9_v2) (f := maxsi) (ha := ⟨by decide, by rfl⟩) (hb := ⟨by decide, by rfl⟩) (hy := ⟨by decide, by rfl⟩) (mem3 (List.getElem_mem (l := ops3) (n := 13) (Nat.le_of_ble_eq_true rfl)))
  exact e
theorem st_main_call9_v3 (V : Valuation τ sig (Elt F)) :
    after ops V (Proc.devRef .tc main_call9_v3) = (id (after ops V (Proc.devRef .tc main_c_33) : (⟨S_, .i32⟩ : BufTy).Contents (Elt F)) : (⟨S_, .i32⟩ : BufTy).Contents (Elt F)) := by
  have e := eq_unary ops_staged V (x := main_c_33) (y := main_call9_v3) (f := id) (hx := ⟨by decide, by rfl⟩) (hy := ⟨by decide, by rfl⟩) (mem3 (List.getElem_mem (l := ops3) (n := 14) (Nat.le_of_ble_eq_true rfl)))
  exact e
theorem st_main_call9_v4 (V : Valuation τ sig (Elt F)) :
    after ops V (Proc.devRef .tc main_call9_v4) = ((broadcastInDim S160000 ![] bcast_S_S160000) (after ops V (Proc.devRef .tc main_call9_v3) : (⟨S_, .i32⟩ : BufTy).Contents (Elt F)) : (⟨S160000, .i32⟩ : BufTy).Contents (Elt F)) := by
  have e := eq_unary ops_staged V (x := main_call9_v3) (y := main_call9_v4) (f := (broadcastInDim S160000 ![] bcast_S_S160000)) (hx := ⟨by decide, by rfl⟩) (hy := ⟨by decide, by rfl⟩) (mem3 (List.getElem_mem (l := ops3) (n := 15) (Nat.le_of_ble_eq_true rfl)))
  exact e
theorem st_main_v150 (V : Valuation τ sig (Elt F)) :
    after ops V (Proc.devRef .tc main_v150) = (minsi (after ops V (Proc.devRef .tc main_call9_v4) : (⟨S160000, .i32⟩ : BufTy).Contents (Elt F)) (after ops V (Proc.devRef .tc main_call9_v2) : (⟨S160000, .i32⟩ : BufTy).Contents (Elt F)) : (⟨S160000, .i32⟩ : BufTy).Contents (Elt F)) := by
  have e := eq_binary ops_staged V (a := main_call9_v4) (b := main_call9_v2) (y := main_v150) (f := minsi) (ha := ⟨by decide, by rfl⟩) (hb := ⟨by decide, by rfl⟩) (hy := ⟨by decide, by rfl⟩) (mem3 (List.getElem_mem (l := ops3) (n := 16) (Nat.le_of_ble_eq_true rfl)))
  exact e
theorem st_main_v151 (V : Valuation τ sig (Elt F)) :
    after ops V (Proc.devRef .tc main_v151) = ((extractStridedSlice S1x256x64x176 ![2, 0, 0, 0] · slices_S6x256x64x176_S1x256x64x176_2_0_0_0) : (⟨S6x256x64x176, .f32⟩ : BufTy).Contents (Elt F) → (⟨S1x256x64x176, .f32⟩ : BufTy).Contents (Elt F)) (after ops V (Proc.devRef .tc main_v21)) := by
  have e := eq_unary ops_staged V (x := main_v21) (y := main_v151) (f := ((extractStridedSlice S1x256x64x176 ![2, 0, 0, 0] · slices_S6x256x64x176_S1x256x64x176_2_0_0_0) : (⟨S6x256x64x176, .f32⟩ : BufTy).Contents (Elt F) → (⟨S1x256x64x176, .f32⟩ : BufTy).Contents (Elt F))) (hx := ⟨by decide, by rfl⟩) (hy := ⟨by decide, by rfl⟩) (mem3 (List.getElem_mem (l := ops3) (n := 17) (Nat.le_of_ble_eq_true rfl)))
  exact e
theorem st_main_v152 (V : Valuation τ sig (Elt F)) :
    after ops V (Proc.devRef .tc main_v152) = fun i => shapeCast main_v152.ty.shape (after ops V (Proc.devRef .tc main_v151)) shapeCasts_S1x256x64x176_S256x64x176 i := by
  have e := eq_reshape ops_staged V (x := main_v151) (y := main_v152) (he := rfl) (hn := shapeCasts_S1x256x64x176_S256x64x176) (hx := ⟨by decide, by rfl⟩) (hy := ⟨by decide, by rfl⟩) (mem3 (List.getElem_mem (l := ops3) (n := 18) (Nat.le_of_ble_eq_true rfl)))
  exact e
theorem st_main_c_34 (V : Valuation τ sig (Elt F)) :
    after ops V (Proc.devRef .tc main_c_34) = (constantI S_ 32 0#32) := by
  have e := eq_nullary ops_staged V  (y := main_c_34) (v := (constantI S_ 32 0#32))  (hy := ⟨by decide, by rfl⟩) (mem3 (List.getElem_mem (l := ops3) (n := 19) (Nat.le_of_ble_eq_true rfl)))
  exact e
theorem st_main_v153 (V : Valuation τ sig (Elt F)) :
    after ops V (Proc.devRef .tc main_v153) = (broadcastInDim S160000 ![] bcast_S_S160000 : (⟨S_, .i32⟩ : BufTy).Contents (Elt F) → (⟨S160000, .i32⟩ : BufTy).Contents (Elt F)) (after ops V (Proc.devRef .tc main_c_34)) := by
  have e := eq_unary ops_staged V (x := main_c_34) (y := main_v153) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem3 (List.getElem_mem (l := ops3) (n := 20) (Nat.le_of_ble_eq_true rfl)))
  exact e
theorem st_main_v154 (V : Valuation τ sig (Elt F)) :
    after ops V (Proc.devRef .tc main_v154) = (cmpi .slt : (⟨S160000, .i32⟩ : BufTy).Contents (Elt F) → (⟨S160000, .i32⟩ : BufTy).Contents (Elt F) → (⟨S160000, .i1⟩ : BufTy).Contents (Elt F)) (after ops V (Proc.devRef .tc main_v150)) (after ops V (Proc.devRef .tc main_v153)) := by
  have e := eq_binary ops_staged V (a := main_v150) (b := main_v153) (y := main_v154) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem3 (List.getElem_mem (l := ops3) (n := 21) (Nat.le_of_ble_eq_true rfl)))
  exact e
theorem st_main_c_35 (V : Valuation τ sig (Elt F)) :
    after ops V (Proc.devRef .tc main_c_35) = (constantI S_ 32 64#32) := by
  have e := eq_nullary ops_staged V  (y := main_c_35) (v := (constantI S_ 32 64#32))  (hy := ⟨by decide, by rfl⟩) (mem3 (List.getElem_mem (l := ops3) (n := 22) (Nat.le_of_ble_eq_true rfl)))
  exact e
theorem st_main_v155 (V : Valuation τ sig (Elt F)) :
    after ops V (Proc.devRef .tc main_v155) = (broadcastInDim S160000 ![] bcast_S_S160000 : (⟨S_, .i32⟩ : BufTy).Contents (Elt F) → (⟨S160000, .i32⟩ : BufTy).Contents (Elt F)) (after ops V (Proc.devRef .tc main_c_35)) := by
  have e := eq_unary ops_staged V (x := main_c_35) (y := main_v155) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem3 (List.getElem_mem (l := ops3) (n := 23) (Nat.le_of_ble_eq_true rfl)))
  exact e
theorem st_main_v156 (V : Valuation τ sig (Elt F)) :
    after ops V (Proc.devRef .tc main_v156) = (addi : (⟨S160000, .i32⟩ : BufTy).Contents (Elt F) → (⟨S160000, .i32⟩ : BufTy).Contents (Elt F) → (⟨S160000, .i32⟩ : BufTy).Contents (Elt F)) (after ops V (Proc.devRef .tc main_v150)) (after ops V (Proc.devRef .tc main_v155)) := by
  have e := eq_binary ops_staged V (a := main_v150) (b := main_v155) (y := main_v156) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem3 (List.getElem_mem (l := ops3) (n := 24) (Nat.le_of_ble_eq_true rfl)))
  exact e
theorem st_main_v157 (V : Valuation τ sig (Elt F)) :
    after ops V (Proc.devRef .tc main_v157) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v154)) (after ops V (Proc.devRef .tc main_v156)) (after ops V (Proc.devRef .tc main_v150)) := by
  have e := eq_ternary ops_staged V (c := main_v154) (a := main_v156) (b := main_v150) (y := main_v157) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem3 (List.getElem_mem (l := ops3) (n := 25) (Nat.le_of_ble_eq_true rfl)))
  exact e
theorem st_main_c_36 (V : Valuation τ sig (Elt F)) :
    after ops V (Proc.devRef .tc main_c_36) = (constantI S_ 32 0#32) := by
  have e := eq_nullary ops_staged V  (y := main_c_36) (v := (constantI S_ 32 0#32))  (hy := ⟨by decide, by rfl⟩) (mem3 (List.getElem_mem (l := ops3) (n := 26) (Nat.le_of_ble_eq_true rfl)))
  exact e
theorem st_main_v158 (V : Valuation τ sig (Elt F)) :
    after ops V (Proc.devRef .tc main_v158) = (broadcastInDim S160000 ![] bcast_S_S160000 : (⟨S_, .i32⟩ : BufTy).Contents (Elt F) → (⟨S160000, .i32⟩ : BufTy).Contents (Elt F)) (after ops V (Proc.devRef .tc main_c_36)) := by
  have e := eq_unary ops_staged V (x := main_c_36) (y := main_v158) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem3 (List.getElem_mem (l := ops3) (n := 27) (Nat.le_of_ble_eq_true rfl)))
  exact e
theorem st_main_v159 (V : Valuation τ sig (Elt F)) :
    after ops V (Proc.devRef .tc main_v159) = (cmpi .slt : (⟨S160000, .i32⟩ : BufTy).Contents (Elt F) → (⟨S160000, .i32⟩ : BufTy).Contents (Elt F) → (⟨S160000, .i1⟩ : BufTy).Contents (Elt F)) (after ops V (Proc.devRef .tc main_v147)) (after ops V (Proc.devRef .tc main_v158)) := by
  have e := eq_binary ops_staged V (a := main_v147) (b := main_v158) (y := main_v159) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem3 (List.getElem_mem (l := ops3) (n := 28) (Nat.le_of_ble_eq_true rfl)))
  exact e
theorem st_main_c_37 (V : Valuation τ sig (Elt F)) :
    after ops V (Proc.devRef .tc main_c_37) = (constantI S_ 32 176#32) := by
  have e := eq_nullary ops_staged V  (y := main_c_37) (v := (constantI S_ 32 176#32))  (hy := ⟨by decide, by rfl⟩) (mem3 (List.getElem_mem (l := ops3) (n := 29) (Nat.le_of_ble_eq_true rfl)))
  exact e
theorem st_main_v160 (V : Valuation τ sig (Elt F)) :
    after ops V (Proc.devRef .tc main_v160) = (broadcastInDim S160000 ![] bcast_S_S160000 : (⟨S_, .i32⟩ : BufTy).Contents (Elt F) → (⟨S160000, .i32⟩ : BufTy).Contents (Elt F)) (after ops V (Proc.devRef .tc main_c_37)) := by
  have e := eq_unary ops_staged V (x := main_c_37) (y := main_v160) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem3 (List.getElem_mem (l := ops3) (n := 30) (Nat.le_of_ble_eq_true rfl)))
  exact e
theorem st_main_v161 (V : Valuation τ sig (Elt F)) :
    after ops V (Proc.devRef .tc main_v161) = (addi : (⟨S160000, .i32⟩ : BufTy).Contents (Elt F) → (⟨S160000, .i32⟩ : BufTy).Contents (Elt F) → (⟨S160000, .i32⟩ : BufTy).Contents (Elt F)) (after ops V (Proc.devRef .tc main_v147)) (after ops V (Proc.devRef .tc main_v160)) := by
  have e := eq_binary ops_staged V (a := main_v147) (b := main_v160) (y := main_v161) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem3 (List.getElem_mem (l := ops3) (n := 31) (Nat.le_of_ble_eq_true rfl)))
  exact e
theorem st_main_v162 (V : Valuation τ sig (Elt F)) :
    after ops V (Proc.devRef .tc main_v162) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v159)) (after ops V (Proc.devRef .tc main_v161)) (after ops V (Proc.devRef .tc main_v147)) := by
  have e := eq_ternary ops_staged V (c := main_v159) (a := main_v161) (b := main_v147) (y := main_v162) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem3 (List.getElem_mem (l := ops3) (n := 32) (Nat.le_of_ble_eq_true rfl)))
  exact e
theorem st_main_v163 (V : Valuation τ sig (Elt F)) :
    after ops V (Proc.devRef .tc main_v163) = (broadcastInDim S160000x1 ![0] bcast_S160000_S160000x1_0 : (⟨S160000, .i32⟩ : BufTy).Contents (Elt F) → (⟨S160000x1, .i32⟩ : BufTy).Contents (Elt F)) (after ops V (Proc.devRef .tc main_v157)) := by
  have e := eq_unary ops_staged V (x := main_v157) (y := main_v163) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem3 (List.getElem_mem (l := ops3) (n := 33) (Nat.le_of_ble_eq_true rfl)))
  exact e
theorem st_main_v164 (V : Valuation τ sig (Elt F)) :
    after ops V (Proc.devRef .tc main_v164) = (broadcastInDim S160000x1 ![0] bcast_S160000_S160000x1_0 : (⟨S160000, .i32⟩ : BufTy).Contents (Elt F) → (⟨S160000x1, .i32⟩ : BufTy).Contents (Elt F)) (after ops V (Proc.devRef .tc main_v162)) := by
  have e := eq_unary ops_staged V (x := main_v162) (y := main_v164) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem3 (List.getElem_mem (l := ops3) (n := 34) (Nat.le_of_ble_eq_true rfl)))
  exact e
theorem st_main_v165 (V : Valuation τ sig (Elt F)) :
    after ops V (Proc.devRef .tc main_v165) = ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)) (after ops V (Proc.devRef .tc main_v163)) (after ops V (Proc.devRef .tc main_v164)) := by
  have e := eq_binary ops_staged V (a := main_v163) (b := main_v164) (y := main_v165) (f := ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F))) (ha := ⟨by decide, by rfl⟩) (hb := ⟨by decide, by rfl⟩) (hy := ⟨by decide, by rfl⟩) (mem3 (List.getElem_mem (l := ops3) (n := 35) (Nat.le_of_ble_eq_true rfl)))
  exact e
theorem st_main_v166 (V : Valuation τ sig (Elt F)) :
    after ops V (Proc.devRef .tc main_v166) = ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)) (after ops V (Proc.devRef .tc main_v152)) (after ops V (Proc.devRef .tc main_v165)) := by
  have e := eq_binary ops_staged V (a := main_v152) (b := main_v165) (y := main_v166) (f := ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F))) (ha := ⟨by decide, by rfl⟩) (hb := ⟨by decide, by rfl⟩) (hy := ⟨by decide, by rfl⟩) (mem3 (List.getElem_mem (l := ops3) (n := 36) (Nat.le_of_ble_eq_true rfl)))
  exact e
theorem st_main_v167 (V : Valuation τ sig (Elt F)) :
    after ops V (Proc.devRef .tc main_v167) = ((extractStridedSlice S1x160000 ![2, 0] · slices_S6x160000_S1x160000_2_0) : (⟨S6x160000, .i1⟩ : BufTy).Contents (Elt F) → (⟨S1x160000, .i1⟩ : BufTy).Contents (Elt F)) (after ops V (Proc.devRef .tc main_v91)) := by
  have e := eq_unary ops_staged V (x := main_v91) (y := main_v167) (f := ((extractStridedSlice S1x160000 ![2, 0] · slices_S6x160000_S1x160000_2_0) : (⟨S6x160000, .i1⟩ : BufTy).Contents (Elt F) → (⟨S1x160000, .i1⟩ : BufTy).Contents (Elt F))) (hx := ⟨by decide, by rfl⟩) (hy := ⟨by decide, by rfl⟩) (mem3 (List.getElem_mem (l := ops3) (n := 37) (Nat.le_of_ble_eq_true rfl)))
  exact e
theorem st_main_v168 (V : Valuation τ sig (Elt F)) :
    after ops V (Proc.devRef .tc main_v168) = fun i => shapeCast main_v168.ty.shape (after ops V (Proc.devRef .tc main_v167)) shapeCasts_S1x160000_S160000 i := by
  have e := eq_reshape ops_staged V (x := main_v167) (y := main_v168) (he := rfl) (hn := shapeCasts_S1x160000_S160000) (hx := ⟨by decide, by rfl⟩) (hy := ⟨by decide, by rfl⟩) (mem3 (List.getElem_mem (l := ops3) (n := 38) (Nat.le_of_ble_eq_true rfl)))
  exact e
theorem st_main_v169 (V : Valuation τ sig (Elt F)) :
    after ops V (Proc.devRef .tc main_v169) = (broadcastInDim S1x160000 ![1] bcast_S160000_S1x160000_1 : (⟨S160000, .i1⟩ : BufTy).Contents (Elt F) → (⟨S1x160000, .i1⟩ : BufTy).Contents (Elt F)) (after ops V (Proc.devRef .tc main_v168)) := by
  have e := eq_unary ops_staged V (x := main_v168) (y := main_v169) (f := (broadcastInDim S1x160000 ![1] bcast_S160000_S1x160000_1 : (⟨S160000, .i1⟩ : BufTy).Contents (Elt F) → (⟨S1x160000, .i1⟩ : BufTy).Contents (Elt F))) (hx := ⟨by decide, by rfl⟩) (hy := ⟨by decide, by rfl⟩) (mem3 (List.getElem_mem (l := ops3) (n := 39) (Nat.le_of_ble_eq_true rfl)))
  exact e
theorem st_main_call10_v0 (V : Valuation τ sig (Elt F)) :
    after ops V (Proc.devRef .tc main_call10_v0) = ((broadcastInDim S256x160000 ![0, 1] bcast_S1x160000_S256x160000_0_1) (after ops V (Proc.devRef .tc main_v169) : (⟨S1x160000, .i1⟩ : BufTy).Contents (Elt F)) : (⟨S256x160000, .i1⟩ : BufTy).Contents (Elt F)) := by
  have e := eq_unary ops_staged V (x := main_v169) (y := main_call10_v0) (f := (broadcastInDim S256x160000 ![0, 1] bcast_S1x160000_S256x160000_0_1)) (hx := ⟨by decide, by rfl⟩) (hy := ⟨by decide, by rfl⟩) (mem3 (List.getElem_mem (l := ops3) (n := 40) (Nat.le_of_ble_eq_true rfl)))
  exact e
theorem st_main_v170 (V : Valuation τ sig (Elt F)) :
    after ops V (Proc.devRef .tc main_v170) = (select (after ops V (Proc.devRef .tc main_call10_v0) : (⟨S256x160000, .i1⟩ : BufTy).Contents (Elt F)) (after ops V (Proc.devRef .tc main_v166) : (⟨S256x160000, .f32⟩ : BufTy).Contents (Elt F)) (after ops V (Proc.devRef .tc main_v144) : (⟨S256x160000, .f32⟩ : BufTy).Contents (Elt F)) : (⟨S256x160000, .f32⟩ : BufTy).Contents (Elt F)) := by
  have e := eq_ternary ops_staged V (c := main_call10_v0) (a := main_v166) (b := main_v144) (y := main_v170) (f := select) (hc := ⟨by decide, by rfl⟩) (ha := ⟨by decide, by rfl⟩) (hb := ⟨by decide, by rfl⟩) (hy := ⟨by decide, by rfl⟩) (mem3 (List.getElem_mem (l := ops3) (n := 41) (Nat.le_of_ble_eq_true rfl)))
  exact e
theorem st_main_v171 (V : Valuation τ sig (Elt F)) :
    after ops V (Proc.devRef .tc main_v171) = ((extractStridedSlice S1x160000 ![3, 0] · slices_S6x160000_S1x160000_3_0) : (⟨S6x160000, .i32⟩ : BufTy).Contents (Elt F) → (⟨S1x160000, .i32⟩ : BufTy).Contents (Elt F)) (after ops V (Proc.devRef .tc main_v73)) := by
  have e := eq_unary ops_staged V (x := main_v73) (y := main_v171) (f := ((extractStridedSlice S1x160000 ![3, 0] · slices_S6x160000_S1x160000_3_0) : (⟨S6x160000, .i32⟩ : BufTy).Contents (Elt F) → (⟨S1x160000, .i32⟩ : BufTy).Contents (Elt F))) (hx := ⟨by decide, by rfl⟩) (hy := ⟨by decide, by rfl⟩) (mem3 (List.getElem_mem (l := ops3) (n := 42) (Nat.le_of_ble_eq_true rfl)))
  exact e
theorem st_main_v172 (V : Valuation τ sig (Elt F)) :
    after ops V (Proc.devRef .tc main_v172) = fun i => shapeCast main_v172.ty.shape (after ops V (Proc.devRef .tc main_v171)) shapeCasts_S1x160000_S160000 i := by
  have e := eq_reshape ops_staged V (x := main_v171) (y := main_v172) (he := rfl) (hn := shapeCasts_S1x160000_S160000) (hx := ⟨by decide, by rfl⟩) (hy := ⟨by decide, by rfl⟩) (mem3 (List.getElem_mem (l := ops3) (n := 43) (Nat.le_of_ble_eq_true rfl)))
  exact e
theorem st_main_c_38 (V : Valuation τ sig (Elt F)) :
    after ops V (Proc.devRef .tc main_c_38) = (constantI S_ 32 0#32) := by
  have e := eq_nullary ops_staged V  (y := main_c_38) (v := (constantI S_ 32 0#32))  (hy := ⟨by decide, by rfl⟩) (mem3 (List.getElem_mem (l := ops3) (n := 44) (Nat.le_of_ble_eq_true rfl)))
  exact e
theorem st_main_c_39 (V : Valuation τ sig (Elt F)) :
    after ops V (Proc.devRef .tc main_c_39) = (constantI S_ 32 175#32) := by
  have e := eq_nullary ops_staged V  (y := main_c_39) (v := (constantI S_ 32 175#32))  (hy := ⟨by decide, by rfl⟩) (mem3 (List.getElem_mem (l := ops3) (n := 45) (Nat.le_of_ble_eq_true rfl)))
  exact e
theorem st_main_call11_v0 (V : Valuation τ sig (Elt F)) :
    after ops V (Proc.devRef .tc main_call11_v0) = (id (after ops V (Proc.devRef .tc main_c_38) : (⟨S_, .i32⟩ : BufTy).Contents (Elt F)) : (⟨S_, .i32⟩ : BufTy).Contents (Elt F)) := by
  have e := eq_unary ops_staged V (x := main_c_38) (y := main_call11_v0) (f := id) (hx := ⟨by decide, by rfl⟩) (hy := ⟨by decide, by rfl⟩) (mem3 (List.getElem_mem (l := ops3) (n := 46) (Nat.le_of_ble_eq_true rfl)))
  exact e
theorem st_main_call11_v1 (V : Valuation τ sig (Elt F)) :
    after ops V (Proc.devRef .tc main_call11_v1) = ((broadcastInDim S160000 ![] bcast_S_S160000) (after ops V (Proc.devRef .tc main_call11_v0) : (⟨S_, .i32⟩ : BufTy).Contents (Elt F)) : (⟨S160000, .i32⟩ : BufTy).Contents (Elt F)) := by
  have e := eq_unary ops_staged V (x := main_call11_v0) (y := main_call11_v1) (f := (broadcastInDim S160000 ![] bcast_S_S160000)) (hx := ⟨by decide, by rfl⟩) (hy := ⟨by decide, by rfl⟩) (mem3 (List.getElem_mem (l := ops3) (n := 47) (Nat.le_of_ble_eq_true rfl)))
  exact e
theorem st_main_call11_v2 (V : Valuation τ sig (Elt F)) :
    after ops V (Proc.devRef .tc main_call11_v2) = (maxsi (after ops V (Proc.devRef .tc main_call11_v1) : (⟨S160000, .i32⟩ : BufTy).Contents (Elt F)) (after ops V (Proc.devRef .tc main_v172) : (⟨S160000, .i32⟩ : BufTy).Contents (Elt F)) : (⟨S160000, .i32⟩ : BufTy).Contents (Elt F)) := by
  have e := eq_binary ops_staged V (a := main_call11_v1) (b := main_v172) (y := main_call11_v2) (f := maxsi) (ha := ⟨by decide, by rfl⟩) (hb := ⟨by decide, by rfl⟩) (hy := ⟨by decide, by rfl⟩) (mem3 (List.getElem_mem (l := ops3) (n := 48) (Nat.le_of_ble_eq_true rfl)))
  exact e
theorem st_main_call11_v3 (V : Valuation τ sig (Elt F)) :
    after ops V (Proc.devRef .tc main_call11_v3) = (id (after ops V (Proc.devRef .tc main_c_39) : (⟨S_, .i32⟩ : BufTy).Contents (Elt F)) : (⟨S_, .i32⟩ : BufTy).Contents (Elt F)) := by
  have e := eq_unary ops_staged V (x := main_c_39) (y := main_call11_v3) (f := id) (hx := ⟨by decide, by rfl⟩) (hy := ⟨by decide, by rfl⟩) (mem3 (List.getElem_mem (l := ops3) (n := 49) (Nat.le_of_ble_eq_true rfl)))
  exact e
theorem st_main_call11_v4 (V : Valuation τ sig (Elt F)) :
    after ops V (Proc.devRef .tc main_call11_v4) = ((broadcastInDim S160000 ![] bcast_S_S160000) (after ops V (Proc.devRef .tc main_call11_v3) : (⟨S_, .i32⟩ : BufTy).Contents (Elt F)) : (⟨S160000, .i32⟩ : BufTy).Contents (Elt F)) := by
  have e := eq_unary ops_staged V (x := main_call11_v3) (y := main_call11_v4) (f := (broadcastInDim S160000 ![] bcast_S_S160000)) (hx := ⟨by decide, by rfl⟩) (hy := ⟨by decide, by rfl⟩) (mem3 (List.getElem_mem (l := ops3) (n := 50) (Nat.le_of_ble_eq_true rfl)))
  exact e
theorem st_main_v173 (V : Valuation τ sig (Elt F)) :
    after ops V (Proc.devRef .tc main_v173) = (minsi (after ops V (Proc.devRef .tc main_call11_v4) : (⟨S160000, .i32⟩ : BufTy).Contents (Elt F)) (after ops V (Proc.devRef .tc main_call11_v2) : (⟨S160000, .i32⟩ : BufTy).Contents (Elt F)) : (⟨S160000, .i32⟩ : BufTy).Contents (Elt F)) := by
  have e := eq_binary ops_staged V (a := main_call11_v4) (b := main_call11_v2) (y := main_v173) (f := minsi) (ha := ⟨by decide, by rfl⟩) (hb := ⟨by decide, by rfl⟩) (hy := ⟨by decide, by rfl⟩) (mem3 (List.getElem_mem (l := ops3) (n := 51) (Nat.le_of_ble_eq_true rfl)))
  exact e
theorem st_main_v174 (V : Valuation τ sig (Elt F)) :
    after ops V (Proc.devRef .tc main_v174) = ((extractStridedSlice S1x160000 ![3, 0] · slices_S6x160000_S1x160000_3_0) : (⟨S6x160000, .i32⟩ : BufTy).Contents (Elt F) → (⟨S1x160000, .i32⟩ : BufTy).Contents (Elt F)) (after ops V (Proc.devRef .tc main_v77)) := by
  have e := eq_unary ops_staged V (x := main_v77) (y := main_v174) (f := ((extractStridedSlice S1x160000 ![3, 0] · slices_S6x160000_S1x160000_3_0) : (⟨S6x160000, .i32⟩ : BufTy).Contents (Elt F) → (⟨S1x160000, .i32⟩ : BufTy).Contents (Elt F))) (hx := ⟨by decide, by rfl⟩) (hy := ⟨by decide, by rfl⟩) (mem3 (List.getElem_mem (l := ops3) (n := 52) (Nat.le_of_ble_eq_true rfl)))
  exact e
theorem st_main_v175 (V : Valuation τ sig (Elt F)) :
    after ops V (Proc.devRef .tc main_v175) = fun i => shapeCast main_v175.ty.shape (after ops V (Proc.devRef .tc main_v174)) shapeCasts_S1x160000_S160000 i := by
  have e := eq_reshape ops_staged V (x := main_v174) (y := main_v175) (he := rfl) (hn := shapeCasts_S1x160000_S160000) (hx := ⟨by decide, by rfl⟩) (hy := ⟨by decide, by rfl⟩) (mem3 (List.getElem_mem (l := ops3) (n := 53) (Nat.le_of_ble_eq_true rfl)))
  exact e
theorem st_main_c_40 (V : Valuation τ sig (Elt F)) :
    after ops V (Proc.devRef .tc main_c_40) = (constantI S_ 32 0#32) := by
  have e := eq_nullary ops_staged V  (y := main_c_40) (v := (constantI S_ 32 0#32))  (hy := ⟨by decide, by rfl⟩) (mem3 (List.getElem_mem (l := ops3) (n := 54) (Nat.le_of_ble_eq_true rfl)))
  exact e
theorem st_main_c_41 (V : Valuation τ sig (Elt F)) :
    after ops V (Proc.devRef .tc main_c_41) = (constantI S_ 32 63#32) := by
  have e := eq_nullary ops_staged V  (y := main_c_41) (v := (constantI S_ 32 63#32))  (hy := ⟨by decide, by rfl⟩) (mem3 (List.getElem_mem (l := ops3) (n := 55) (Nat.le_of_ble_eq_true rfl)))
  exact e
theorem st_main_call12_v0 (V : Valuation τ sig (Elt F)) :
    after ops V (Proc.devRef .tc main_call12_v0) = (id (after ops V (Proc.devRef .tc main_c_40) : (⟨S_, .i32⟩ : BufTy).Contents (Elt F)) : (⟨S_, .i32⟩ : BufTy).Contents (Elt F)) := by
  have e := eq_unary ops_staged V (x := main_c_40) (y := main_call12_v0) (f := id) (hx := ⟨by decide, by rfl⟩) (hy := ⟨by decide, by rfl⟩) (mem3 (List.getElem_mem (l := ops3) (n := 56) (Nat.le_of_ble_eq_true rfl)))
  exact e
theorem st_main_call12_v1 (V : Valuation τ sig (Elt F)) :
    after ops V (Proc.devRef .tc main_call12_v1) = ((broadcastInDim S160000 ![] bcast_S_S160000) (after ops V (Proc.devRef .tc main_call12_v0) : (⟨S_, .i32⟩ : BufTy).Contents (Elt F)) : (⟨S160000, .i32⟩ : BufTy).Contents (Elt F)) := by
  have e := eq_unary ops_staged V (x := main_call12_v0) (y := main_call12_v1) (f := (broadcastInDim S160000 ![] bcast_S_S160000)) (hx := ⟨by decide, by rfl⟩) (hy := ⟨by decide, by rfl⟩) (mem3 (List.getElem_mem (l := ops3) (n := 57) (Nat.le_of_ble_eq_true rfl)))
  exact e
theorem st_main_call12_v2 (V : Valuation τ sig (Elt F)) :
    after ops V (Proc.devRef .tc main_call12_v2) = (maxsi (after ops V (Proc.devRef .tc main_call12_v1) : (⟨S160000, .i32⟩ : BufTy).Contents (Elt F)) (after ops V (Proc.devRef .tc main_v175) : (⟨S160000, .i32⟩ : BufTy).Contents (Elt F)) : (⟨S160000, .i32⟩ : BufTy).Contents (Elt F)) := by
  have e := eq_binary ops_staged V (a := main_call12_v1) (b := main_v175) (y := main_call12_v2) (f := maxsi) (ha := ⟨by decide, by rfl⟩) (hb := ⟨by decide, by rfl⟩) (hy := ⟨by decide, by rfl⟩) (mem3 (List.getElem_mem (l := ops3) (n := 58) (Nat.le_of_ble_eq_true rfl)))
  exact e
theorem st_main_call12_v3 (V : Valuation τ sig (Elt F)) :
    after ops V (Proc.devRef .tc main_call12_v3) = (id (after ops V (Proc.devRef .tc main_c_41) : (⟨S_, .i32⟩ : BufTy).Contents (Elt F)) : (⟨S_, .i32⟩ : BufTy).Contents (Elt F)) := by
  have e := eq_unary ops_staged V (x := main_c_41) (y := main_call12_v3) (f := id) (hx := ⟨by decide, by rfl⟩) (hy := ⟨by decide, by rfl⟩) (mem3 (List.getElem_mem (l := ops3) (n := 59) (Nat.le_of_ble_eq_true rfl)))
  exact e
theorem st_main_call12_v4 (V : Valuation τ sig (Elt F)) :
    after ops V (Proc.devRef .tc main_call12_v4) = ((broadcastInDim S160000 ![] bcast_S_S160000) (after ops V (Proc.devRef .tc main_call12_v3) : (⟨S_, .i32⟩ : BufTy).Contents (Elt F)) : (⟨S160000, .i32⟩ : BufTy).Contents (Elt F)) := by
  have e := eq_unary ops_staged V (x := main_call12_v3) (y := main_call12_v4) (f := (broadcastInDim S160000 ![] bcast_S_S160000)) (hx := ⟨by decide, by rfl⟩) (hy := ⟨by decide, by rfl⟩) (mem3 (List.getElem_mem (l := ops3) (n := 60) (Nat.le_of_ble_eq_true rfl)))
  exact e
theorem st_main_v176 (V : Valuation τ sig (Elt F)) :
    after ops V (Proc.devRef .tc main_v176) = (minsi (after ops V (Proc.devRef .tc main_call12_v4) : (⟨S160000, .i32⟩ : BufTy).Contents (Elt F)) (after ops V (Proc.devRef .tc main_call12_v2) : (⟨S160000, .i32⟩ : BufTy).Contents (Elt F)) : (⟨S160000, .i32⟩ : BufTy).Contents (Elt F)) := by
  have e := eq_binary ops_staged V (a := main_call12_v4) (b := main_call12_v2) (y := main_v176) (f := minsi) (ha := ⟨by decide, by rfl⟩) (hb := ⟨by decide, by rfl⟩) (hy := ⟨by decide, by rfl⟩) (mem3 (List.getElem_mem (l := ops3) (n := 61) (Nat.le_of_ble_eq_true rfl)))
  exact e
theorem st_main_v177 (V : Valuation τ sig (Elt F)) :
    after ops V (Proc.devRef .tc main_v177) = ((extractStridedSlice S1x256x64x176 ![3, 0, 0, 0] · slices_S6x256x64x176_S1x256x64x176_3_0_0_0) : (⟨S6x256x64x176, .f32⟩ : BufTy).Contents (Elt F) → (⟨S1x256x64x176, .f32⟩ : BufTy).Contents (Elt F)) (after ops V (Proc.devRef .tc main_v21)) := by
  have e := eq_unary ops_staged V (x := main_v21) (y := main_v177) (f := ((extractStridedSlice S1x256x64x176 ![3, 0, 0, 0] · slices_S6x256x64x176_S1x256x64x176_3_0_0_0) : (⟨S6x256x64x176, .f32⟩ : BufTy).Contents (Elt F) → (⟨S1x256x64x176, .f32⟩ : BufTy).Contents (Elt F))) (hx := ⟨by decide, by rfl⟩) (hy := ⟨by decide, by rfl⟩) (mem3 (List.getElem_mem (l := ops3) (n := 62) (Nat.le_of_ble_eq_true rfl)))
  exact e
theorem st_main_v178 (V : Valuation τ sig (Elt F)) :
    after ops V (Proc.devRef .tc main_v178) = fun i => shapeCast main_v178.ty.shape (after ops V (Proc.devRef .tc main_v177)) shapeCasts_S1x256x64x176_S256x64x176 i := by
  have e := eq_reshape ops_staged V (x := main_v177) (y := main_v178) (he := rfl) (hn := shapeCasts_S1x256x64x176_S256x64x176) (hx := ⟨by decide, by rfl⟩) (hy := ⟨by decide, by rfl⟩) (mem3 (List.getElem_mem (l := ops3) (n := 63) (Nat.le_of_ble_eq_true rfl)))
  exact e
theorem st_main_c_42 (V : Valuation τ sig (Elt F)) :
    after ops V (Proc.devRef .tc main_c_42) = (constantI S_ 32 0#32) := by
  have e := eq_nullary ops_staged V  (y := main_c_42) (v := (constantI S_ 32 0#32))  (hy := ⟨by decide, by rfl⟩) (mem3 (List.getElem_mem (l := ops3) (n := 64) (Nat.le_of_ble_eq_true rfl)))
  exact e
theorem st_main_v179 (V : Valuation τ sig (Elt F)) :
    after ops V (Proc.devRef .tc main_v179) = (broadcastInDim S160000 ![] bcast_S_S160000 : (⟨S_, .i32⟩ : BufTy).Contents (Elt F) → (⟨S160000, .i32⟩ : BufTy).Contents (Elt F)) (after ops V (Proc.devRef .tc main_c_42)) := by
  have e := eq_unary ops_staged V (x := main_c_42) (y := main_v179) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem3 (List.getElem_mem (l := ops3) (n := 65) (Nat.le_of_ble_eq_true rfl)))
  exact e
theorem st_main_v180 (V : Valuation τ sig (Elt F)) :
    after ops V (Proc.devRef .tc main_v180) = (cmpi .slt : (⟨S160000, .i32⟩ : BufTy).Contents (Elt F) → (⟨S160000, .i32⟩ : BufTy).Contents (Elt F) → (⟨S160000, .i1⟩ : BufTy).Contents (Elt F)) (after ops V (Proc.devRef .tc main_v176)) (after ops V (Proc.devRef .tc main_v179)) := by
  have e := eq_binary ops_staged V (a := main_v176) (b := main_v179) (y := main_v180) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem3 (List.getElem_mem (l := ops3) (n := 66) (Nat.le_of_ble_eq_true rfl)))
  exact e
theorem st_main_c_43 (V : Valuation τ sig (Elt F)) :
    after ops V (Proc.devRef .tc main_c_43) = (constantI S_ 32 64#32) := by
  have e := eq_nullary ops_staged V  (y := main_c_43) (v := (constantI S_ 32 64#32))  (hy := ⟨by decide, by rfl⟩) (mem3 (List.getElem_mem (l := ops3) (n := 67) (Nat.le_of_ble_eq_true rfl)))
  exact e
theorem st_main_v181 (V : Valuation τ sig (Elt F)) :
    after ops V (Proc.devRef .tc main_v181) = (broadcastInDim S160000 ![] bcast_S_S160000 : (⟨S_, .i32⟩ : BufTy).Contents (Elt F) → (⟨S160000, .i32⟩ : BufTy).Contents (Elt F)) (after ops V (Proc.devRef .tc main_c_43)) := by
  have e := eq_unary ops_staged V (x := main_c_43) (y := main_v181) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem3 (List.getElem_mem (l := ops3) (n := 68) (Nat.le_of_ble_eq_true rfl)))
  exact e
theorem st_main_v182 (V : Valuation τ sig (Elt F)) :
    after ops V (Proc.devRef .tc main_v182) = (addi : (⟨S160000, .i32⟩ : BufTy).Contents (Elt F) → (⟨S160000, .i32⟩ : BufTy).Contents (Elt F) → (⟨S160000, .i32⟩ : BufTy).Contents (Elt F)) (after ops V (Proc.devRef .tc main_v176)) (after ops V (Proc.devRef .tc main_v181)) := by
  have e := eq_binary ops_staged V (a := main_v176) (b := main_v181) (y := main_v182) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem3 (List.getElem_mem (l := ops3) (n := 69) (Nat.le_of_ble_eq_true rfl)))
  exact e
theorem st_main_v183 (V : Valuation τ sig (Elt F)) :
    after ops V (Proc.devRef .tc main_v183) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v180)) (after ops V (Proc.devRef .tc main_v182)) (after ops V (Proc.devRef .tc main_v176)) := by
  have e := eq_ternary ops_staged V (c := main_v180) (a := main_v182) (b := main_v176) (y := main_v183) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem3 (List.getElem_mem (l := ops3) (n := 70) (Nat.le_of_ble_eq_true rfl)))
  exact e
theorem st_main_c_44 (V : Valuation τ sig (Elt F)) :
    after ops V (Proc.devRef .tc main_c_44) = (constantI S_ 32 0#32) := by
  have e := eq_nullary ops_staged V  (y := main_c_44) (v := (constantI S_ 32 0#32))  (hy := ⟨by decide, by rfl⟩) (mem3 (List.getElem_mem (l := ops3) (n := 71) (Nat.le_of_ble_eq_true rfl)))
  exact e
theorem st_main_v184 (V : Valuation τ sig (Elt F)) :
    after ops V (Proc.devRef .tc main_v184) = (broadcastInDim S160000 ![] bcast_S_S160000 : (⟨S_, .i32⟩ : BufTy).Contents (Elt F) → (⟨S160000, .i32⟩ : BufTy).Contents (Elt F)) (after ops V (Proc.devRef .tc main_c_44)) := by
  have e := eq_unary ops_staged V (x := main_c_44) (y := main_v184) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem3 (List.getElem_mem (l := ops3) (n := 72) (Nat.le_of_ble_eq_true rfl)))
  exact e
theorem st_main_v185 (V : Valuation τ sig (Elt F)) :
    after ops V (Proc.devRef .tc main_v185) = (cmpi .slt : (⟨S160000, .i32⟩ : BufTy).Contents (Elt F) → (⟨S160000, .i32⟩ : BufTy).Contents (Elt F) → (⟨S160000, .i1⟩ : BufTy).Contents (Elt F)) (after ops V (Proc.devRef .tc main_v173)) (after ops V (Proc.devRef .tc main_v184)) := by
  have e := eq_binary ops_staged V (a := main_v173) (b := main_v184) (y := main_v185) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem3 (List.getElem_mem (l := ops3) (n := 73) (Nat.le_of_ble_eq_true rfl)))
  exact e
theorem st_main_c_45 (V : Valuation τ sig (Elt F)) :
    after ops V (Proc.devRef .tc main_c_45) = (constantI S_ 32 176#32) := by
  have e := eq_nullary ops_staged V  (y := main_c_45) (v := (constantI S_ 32 176#32))  (hy := ⟨by decide, by rfl⟩) (mem3 (List.getElem_mem (l := ops3) (n := 74) (Nat.le_of_ble_eq_true rfl)))
  exact e
theorem st_main_v186 (V : Valuation τ sig (Elt F)) :
    after ops V (Proc.devRef .tc main_v186) = (broadcastInDim S160000 ![] bcast_S_S160000 : (⟨S_, .i32⟩ : BufTy).Contents (Elt F) → (⟨S160000, .i32⟩ : BufTy).Contents (Elt F)) (after ops V (Proc.devRef .tc main_c_45)) := by
  have e := eq_unary ops_staged V (x := main_c_45) (y := main_v186) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem3 (List.getElem_mem (l := ops3) (n := 75) (Nat.le_of_ble_eq_true rfl)))
  exact e
theorem st_main_v187 (V : Valuation τ sig (Elt F)) :
    after ops V (Proc.devRef .tc main_v187) = (addi : (⟨S160000, .i32⟩ : BufTy).Contents (Elt F) → (⟨S160000, .i32⟩ : BufTy).Contents (Elt F) → (⟨S160000, .i32⟩ : BufTy).Contents (Elt F)) (after ops V (Proc.devRef .tc main_v173)) (after ops V (Proc.devRef .tc main_v186)) := by
  have e := eq_binary ops_staged V (a := main_v173) (b := main_v186) (y := main_v187) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem3 (List.getElem_mem (l := ops3) (n := 76) (Nat.le_of_ble_eq_true rfl)))
  exact e
theorem st_main_v188 (V : Valuation τ sig (Elt F)) :
    after ops V (Proc.devRef .tc main_v188) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v185)) (after ops V (Proc.devRef .tc main_v187)) (after ops V (Proc.devRef .tc main_v173)) := by
  have e := eq_ternary ops_staged V (c := main_v185) (a := main_v187) (b := main_v173) (y := main_v188) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem3 (List.getElem_mem (l := ops3) (n := 77) (Nat.le_of_ble_eq_true rfl)))
  exact e
theorem st_main_v189 (V : Valuation τ sig (Elt F)) :
    after ops V (Proc.devRef .tc main_v189) = (broadcastInDim S160000x1 ![0] bcast_S160000_S160000x1_0 : (⟨S160000, .i32⟩ : BufTy).Contents (Elt F) → (⟨S160000x1, .i32⟩ : BufTy).Contents (Elt F)) (after ops V (Proc.devRef .tc main_v183)) := by
  have e := eq_unary ops_staged V (x := main_v183) (y := main_v189) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem3 (List.getElem_mem (l := ops3) (n := 78) (Nat.le_of_ble_eq_true rfl)))
  exact e
theorem st_main_v190 (V : Valuation τ sig (Elt F)) :
    after ops V (Proc.devRef .tc main_v190) = (broadcastInDim S160000x1 ![0] bcast_S160000_S160000x1_0 : (⟨S160000, .i32⟩ : BufTy).Contents (Elt F) → (⟨S160000x1, .i32⟩ : BufTy).Contents (Elt F)) (after ops V (Proc.devRef .tc main_v188)) := by
  have e := eq_unary ops_staged V (x := main_v188) (y := main_v190) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem3 (List.getElem_mem (l := ops3) (n := 79) (Nat.le_of_ble_eq_true rfl)))
  exact e
theorem st_main_v191 (V : Valuation τ sig (Elt F)) :
    after ops V (Proc.devRef .tc main_v191) = ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)) (after ops V (Proc.devRef .tc main_v189)) (after ops V (Proc.devRef .tc main_v190)) := by
  have e := eq_binary ops_staged V (a := main_v189) (b := main_v190) (y := main_v191) (f := ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F))) (ha := ⟨by decide, by rfl⟩) (hb := ⟨by decide, by rfl⟩) (hy := ⟨by decide, by rfl⟩) (mem3 (List.getElem_mem (l := ops3) (n := 80) (Nat.le_of_ble_eq_true rfl)))
  exact e
theorem st_main_v192 (V : Valuation τ sig (Elt F)) :
    after ops V (Proc.devRef .tc main_v192) = ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)) (after ops V (Proc.devRef .tc main_v178)) (after ops V (Proc.devRef .tc main_v191)) := by
  have e := eq_binary ops_staged V (a := main_v178) (b := main_v191) (y := main_v192) (f := ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F))) (ha := ⟨by decide, by rfl⟩) (hb := ⟨by decide, by rfl⟩) (hy := ⟨by decide, by rfl⟩) (mem4 (List.getElem_mem (l := ops4) (n := 0) (Nat.le_of_ble_eq_true rfl)))
  exact e
theorem st_main_v193 (V : Valuation τ sig (Elt F)) :
    after ops V (Proc.devRef .tc main_v193) = ((extractStridedSlice S1x160000 ![3, 0] · slices_S6x160000_S1x160000_3_0) : (⟨S6x160000, .i1⟩ : BufTy).Contents (Elt F) → (⟨S1x160000, .i1⟩ : BufTy).Contents (Elt F)) (after ops V (Proc.devRef .tc main_v91)) := by
  have e := eq_unary ops_staged V (x := main_v91) (y := main_v193) (f := ((extractStridedSlice S1x160000 ![3, 0] · slices_S6x160000_S1x160000_3_0) : (⟨S6x160000, .i1⟩ : BufTy).Contents (Elt F) → (⟨S1x160000, .i1⟩ : BufTy).Contents (Elt F))) (hx := ⟨by decide, by rfl⟩) (hy := ⟨by decide, by rfl⟩) (mem4 (List.getElem_mem (l := ops4) (n := 1) (Nat.le_of_ble_eq_true rfl)))
  exact e
theorem st_main_v194 (V : Valuation τ sig (Elt F)) :
    after ops V (Proc.devRef .tc main_v194) = fun i => shapeCast main_v194.ty.shape (after ops V (Proc.devRef .tc main_v193)) shapeCasts_S1x160000_S160000 i := by
  have e := eq_reshape ops_staged V (x := main_v193) (y := main_v194) (he := rfl) (hn := shapeCasts_S1x160000_S160000) (hx := ⟨by decide, by rfl⟩) (hy := ⟨by decide, by rfl⟩) (mem4 (List.getElem_mem (l := ops4) (n := 2) (Nat.le_of_ble_eq_true rfl)))
  exact e
theorem st_main_v195 (V : Valuation τ sig (Elt F)) :
    after ops V (Proc.devRef .tc main_v195) = (broadcastInDim S1x160000 ![1] bcast_S160000_S1x160000_1 : (⟨S160000, .i1⟩ : BufTy).Contents (Elt F) → (⟨S1x160000, .i1⟩ : BufTy).Contents (Elt F)) (after ops V (Proc.devRef .tc main_v194)) := by
  have e := eq_unary ops_staged V (x := main_v194) (y := main_v195) (f := (broadcastInDim S1x160000 ![1] bcast_S160000_S1x160000_1 : (⟨S160000, .i1⟩ : BufTy).Contents (Elt F) → (⟨S1x160000, .i1⟩ : BufTy).Contents (Elt F))) (hx := ⟨by decide, by rfl⟩) (hy := ⟨by decide, by rfl⟩) (mem4 (List.getElem_mem (l := ops4) (n := 3) (Nat.le_of_ble_eq_true rfl)))
  exact e
theorem st_main_call13_v0 (V : Valuation τ sig (Elt F)) :
    after ops V (Proc.devRef .tc main_call13_v0) = ((broadcastInDim S256x160000 ![0, 1] bcast_S1x160000_S256x160000_0_1) (after ops V (Proc.devRef .tc main_v195) : (⟨S1x160000, .i1⟩ : BufTy).Contents (Elt F)) : (⟨S256x160000, .i1⟩ : BufTy).Contents (Elt F)) := by
  have e := eq_unary ops_staged V (x := main_v195) (y := main_call13_v0) (f := (broadcastInDim S256x160000 ![0, 1] bcast_S1x160000_S256x160000_0_1)) (hx := ⟨by decide, by rfl⟩) (hy := ⟨by decide, by rfl⟩) (mem4 (List.getElem_mem (l := ops4) (n := 4) (Nat.le_of_ble_eq_true rfl)))
  exact e
theorem st_main_v196 (V : Valuation τ sig (Elt F)) :
    after ops V (Proc.devRef .tc main_v196) = (select (after ops V (Proc.devRef .tc main_call13_v0) : (⟨S256x160000, .i1⟩ : BufTy).Contents (Elt F)) (after ops V (Proc.devRef .tc main_v192) : (⟨S256x160000, .f32⟩ : BufTy).Contents (Elt F)) (after ops V (Proc.devRef .tc main_v170) : (⟨S256x160000, .f32⟩ : BufTy).Contents (Elt F)) : (⟨S256x160000, .f32⟩ : BufTy).Contents (Elt F)) := by
  have e := eq_ternary ops_staged V (c := main_call13_v0) (a := main_v192) (b := main_v170) (y := main_v196) (f := select) (hc := ⟨by decide, by rfl⟩) (ha := ⟨by decide, by rfl⟩) (hb := ⟨by decide, by rfl⟩) (hy := ⟨by decide, by rfl⟩) (mem4 (List.getElem_mem (l := ops4) (n := 5) (Nat.le_of_ble_eq_true rfl)))
  exact e
theorem st_main_v197 (V : Valuation τ sig (Elt F)) :
    after ops V (Proc.devRef .tc main_v197) = ((extractStridedSlice S1x160000 ![4, 0] · slices_S6x160000_S1x160000_4_0) : (⟨S6x160000, .i32⟩ : BufTy).Contents (Elt F) → (⟨S1x160000, .i32⟩ : BufTy).Contents (Elt F)) (after ops V (Proc.devRef .tc main_v73)) := by
  have e := eq_unary ops_staged V (x := main_v73) (y := main_v197) (f := ((extractStridedSlice S1x160000 ![4, 0] · slices_S6x160000_S1x160000_4_0) : (⟨S6x160000, .i32⟩ : BufTy).Contents (Elt F) → (⟨S1x160000, .i32⟩ : BufTy).Contents (Elt F))) (hx := ⟨by decide, by rfl⟩) (hy := ⟨by decide, by rfl⟩) (mem4 (List.getElem_mem (l := ops4) (n := 6) (Nat.le_of_ble_eq_true rfl)))
  exact e
theorem st_main_v198 (V : Valuation τ sig (Elt F)) :
    after ops V (Proc.devRef .tc main_v198) = fun i => shapeCast main_v198.ty.shape (after ops V (Proc.devRef .tc main_v197)) shapeCasts_S1x160000_S160000 i := by
  have e := eq_reshape ops_staged V (x := main_v197) (y := main_v198) (he := rfl) (hn := shapeCasts_S1x160000_S160000) (hx := ⟨by decide, by rfl⟩) (hy := ⟨by decide, by rfl⟩) (mem4 (List.getElem_mem (l := ops4) (n := 7) (Nat.le_of_ble_eq_true rfl)))
  exact e
theorem st_main_c_46 (V : Valuation τ sig (Elt F)) :
    after ops V (Proc.devRef .tc main_c_46) = (constantI S_ 32 0#32) := by
  have e := eq_nullary ops_staged V  (y := main_c_46) (v := (constantI S_ 32 0#32))  (hy := ⟨by decide, by rfl⟩) (mem4 (List.getElem_mem (l := ops4) (n := 8) (Nat.le_of_ble_eq_true rfl)))
  exact e
theorem st_main_c_47 (V : Valuation τ sig (Elt F)) :
    after ops V (Proc.devRef .tc main_c_47) = (constantI S_ 32 175#32) := by
  have e := eq_nullary ops_staged V  (y := main_c_47) (v := (constantI S_ 32 175#32))  (hy := ⟨by decide, by rfl⟩) (mem4 (List.getElem_mem (l := ops4) (n := 9) (Nat.le_of_ble_eq_true rfl)))
  exact e
theorem st_main_call14_v0 (V : Valuation τ sig (Elt F)) :
    after ops V (Proc.devRef .tc main_call14_v0) = (id (after ops V (Proc.devRef .tc main_c_46) : (⟨S_, .i32⟩ : BufTy).Contents (Elt F)) : (⟨S_, .i32⟩ : BufTy).Contents (Elt F)) := by
  have e := eq_unary ops_staged V (x := main_c_46) (y := main_call14_v0) (f := id) (hx := ⟨by decide, by rfl⟩) (hy := ⟨by decide, by rfl⟩) (mem4 (List.getElem_mem (l := ops4) (n := 10) (Nat.le_of_ble_eq_true rfl)))
  exact e
theorem st_main_call14_v1 (V : Valuation τ sig (Elt F)) :
    after ops V (Proc.devRef .tc main_call14_v1) = ((broadcastInDim S160000 ![] bcast_S_S160000) (after ops V (Proc.devRef .tc main_call14_v0) : (⟨S_, .i32⟩ : BufTy).Contents (Elt F)) : (⟨S160000, .i32⟩ : BufTy).Contents (Elt F)) := by
  have e := eq_unary ops_staged V (x := main_call14_v0) (y := main_call14_v1) (f := (broadcastInDim S160000 ![] bcast_S_S160000)) (hx := ⟨by decide, by rfl⟩) (hy := ⟨by decide, by rfl⟩) (mem4 (List.getElem_mem (l := ops4) (n := 11) (Nat.le_of_ble_eq_true rfl)))
  exact e
theorem st_main_call14_v2 (V : Valuation τ sig (Elt F)) :
    after ops V (Proc.devRef .tc main_call14_v2) = (maxsi (after ops V (Proc.devRef .tc main_call14_v1) : (⟨S160000, .i32⟩ : BufTy).Contents (Elt F)) (after ops V (Proc.devRef .tc main_v198) : (⟨S160000, .i32⟩ : BufTy).Contents (Elt F)) : (⟨S160000, .i32⟩ : BufTy).Contents (Elt F)) := by
  have e := eq_binary ops_staged V (a := main_call14_v1) (b := main_v198) (y := main_call14_v2) (f := maxsi) (ha := ⟨by decide, by rfl⟩) (hb := ⟨by decide, by rfl⟩) (hy := ⟨by decide, by rfl⟩) (mem4 (List.getElem_mem (l := ops4) (n := 12) (Nat.le_of_ble_eq_true rfl)))
  exact e
theorem st_main_call14_v3 (V : Valuation τ sig (Elt F)) :
    after ops V (Proc.devRef .tc main_call14_v3) = (id (after ops V (Proc.devRef .tc main_c_47) : (⟨S_, .i32⟩ : BufTy).Contents (Elt F)) : (⟨S_, .i32⟩ : BufTy).Contents (Elt F)) := by
  have e := eq_unary ops_staged V (x := main_c_47) (y := main_call14_v3) (f := id) (hx := ⟨by decide, by rfl⟩) (hy := ⟨by decide, by rfl⟩) (mem4 (List.getElem_mem (l := ops4) (n := 13) (Nat.le_of_ble_eq_true rfl)))
  exact e
theorem st_main_call14_v4 (V : Valuation τ sig (Elt F)) :
    after ops V (Proc.devRef .tc main_call14_v4) = ((broadcastInDim S160000 ![] bcast_S_S160000) (after ops V (Proc.devRef .tc main_call14_v3) : (⟨S_, .i32⟩ : BufTy).Contents (Elt F)) : (⟨S160000, .i32⟩ : BufTy).Contents (Elt F)) := by
  have e := eq_unary ops_staged V (x := main_call14_v3) (y := main_call14_v4) (f := (broadcastInDim S160000 ![] bcast_S_S160000)) (hx := ⟨by decide, by rfl⟩) (hy := ⟨by decide, by rfl⟩) (mem4 (List.getElem_mem (l := ops4) (n := 14) (Nat.le_of_ble_eq_true rfl)))
  exact e
theorem st_main_v199 (V : Valuation τ sig (Elt F)) :
    after ops V (Proc.devRef .tc main_v199) = (minsi (after ops V (Proc.devRef .tc main_call14_v4) : (⟨S160000, .i32⟩ : BufTy).Contents (Elt F)) (after ops V (Proc.devRef .tc main_call14_v2) : (⟨S160000, .i32⟩ : BufTy).Contents (Elt F)) : (⟨S160000, .i32⟩ : BufTy).Contents (Elt F)) := by
  have e := eq_binary ops_staged V (a := main_call14_v4) (b := main_call14_v2) (y := main_v199) (f := minsi) (ha := ⟨by decide, by rfl⟩) (hb := ⟨by decide, by rfl⟩) (hy := ⟨by decide, by rfl⟩) (mem4 (List.getElem_mem (l := ops4) (n := 15) (Nat.le_of_ble_eq_true rfl)))
  exact e
theorem st_main_v200 (V : Valuation τ sig (Elt F)) :
    after ops V (Proc.devRef .tc main_v200) = ((extractStridedSlice S1x160000 ![4, 0] · slices_S6x160000_S1x160000_4_0) : (⟨S6x160000, .i32⟩ : BufTy).Contents (Elt F) → (⟨S1x160000, .i32⟩ : BufTy).Contents (Elt F)) (after ops V (Proc.devRef .tc main_v77)) := by
  have e := eq_unary ops_staged V (x := main_v77) (y := main_v200) (f := ((extractStridedSlice S1x160000 ![4, 0] · slices_S6x160000_S1x160000_4_0) : (⟨S6x160000, .i32⟩ : BufTy).Contents (Elt F) → (⟨S1x160000, .i32⟩ : BufTy).Contents (Elt F))) (hx := ⟨by decide, by rfl⟩) (hy := ⟨by decide, by rfl⟩) (mem4 (List.getElem_mem (l := ops4) (n := 16) (Nat.le_of_ble_eq_true rfl)))
  exact e
theorem st_main_v201 (V : Valuation τ sig (Elt F)) :
    after ops V (Proc.devRef .tc main_v201) = fun i => shapeCast main_v201.ty.shape (after ops V (Proc.devRef .tc main_v200)) shapeCasts_S1x160000_S160000 i := by
  have e := eq_reshape ops_staged V (x := main_v200) (y := main_v201) (he := rfl) (hn := shapeCasts_S1x160000_S160000) (hx := ⟨by decide, by rfl⟩) (hy := ⟨by decide, by rfl⟩) (mem4 (List.getElem_mem (l := ops4) (n := 17) (Nat.le_of_ble_eq_true rfl)))
  exact e
theorem st_main_c_48 (V : Valuation τ sig (Elt F)) :
    after ops V (Proc.devRef .tc main_c_48) = (constantI S_ 32 0#32) := by
  have e := eq_nullary ops_staged V  (y := main_c_48) (v := (constantI S_ 32 0#32))  (hy := ⟨by decide, by rfl⟩) (mem4 (List.getElem_mem (l := ops4) (n := 18) (Nat.le_of_ble_eq_true rfl)))
  exact e
theorem st_main_c_49 (V : Valuation τ sig (Elt F)) :
    after ops V (Proc.devRef .tc main_c_49) = (constantI S_ 32 63#32) := by
  have e := eq_nullary ops_staged V  (y := main_c_49) (v := (constantI S_ 32 63#32))  (hy := ⟨by decide, by rfl⟩) (mem4 (List.getElem_mem (l := ops4) (n := 19) (Nat.le_of_ble_eq_true rfl)))
  exact e
theorem st_main_call15_v0 (V : Valuation τ sig (Elt F)) :
    after ops V (Proc.devRef .tc main_call15_v0) = (id (after ops V (Proc.devRef .tc main_c_48) : (⟨S_, .i32⟩ : BufTy).Contents (Elt F)) : (⟨S_, .i32⟩ : BufTy).Contents (Elt F)) := by
  have e := eq_unary ops_staged V (x := main_c_48) (y := main_call15_v0) (f := id) (hx := ⟨by decide, by rfl⟩) (hy := ⟨by decide, by rfl⟩) (mem4 (List.getElem_mem (l := ops4) (n := 20) (Nat.le_of_ble_eq_true rfl)))
  exact e
theorem st_main_call15_v1 (V : Valuation τ sig (Elt F)) :
    after ops V (Proc.devRef .tc main_call15_v1) = ((broadcastInDim S160000 ![] bcast_S_S160000) (after ops V (Proc.devRef .tc main_call15_v0) : (⟨S_, .i32⟩ : BufTy).Contents (Elt F)) : (⟨S160000, .i32⟩ : BufTy).Contents (Elt F)) := by
  have e := eq_unary ops_staged V (x := main_call15_v0) (y := main_call15_v1) (f := (broadcastInDim S160000 ![] bcast_S_S160000)) (hx := ⟨by decide, by rfl⟩) (hy := ⟨by decide, by rfl⟩) (mem4 (List.getElem_mem (l := ops4) (n := 21) (Nat.le_of_ble_eq_true rfl)))
  exact e
theorem st_main_call15_v2 (V : Valuation τ sig (Elt F)) :
    after ops V (Proc.devRef .tc main_call15_v2) = (maxsi (after ops V (Proc.devRef .tc main_call15_v1) : (⟨S160000, .i32⟩ : BufTy).Contents (Elt F)) (after ops V (Proc.devRef .tc main_v201) : (⟨S160000, .i32⟩ : BufTy).Contents (Elt F)) : (⟨S160000, .i32⟩ : BufTy).Contents (Elt F)) := by
  have e := eq_binary ops_staged V (a := main_call15_v1) (b := main_v201) (y := main_call15_v2) (f := maxsi) (ha := ⟨by decide, by rfl⟩) (hb := ⟨by decide, by rfl⟩) (hy := ⟨by decide, by rfl⟩) (mem4 (List.getElem_mem (l := ops4) (n := 22) (Nat.le_of_ble_eq_true rfl)))
  exact e
theorem st_main_call15_v3 (V : Valuation τ sig (Elt F)) :
    after ops V (Proc.devRef .tc main_call15_v3) = (id (after ops V (Proc.devRef .tc main_c_49) : (⟨S_, .i32⟩ : BufTy).Contents (Elt F)) : (⟨S_, .i32⟩ : BufTy).Contents (Elt F)) := by
  have e := eq_unary ops_staged V (x := main_c_49) (y := main_call15_v3) (f := id) (hx := ⟨by decide, by rfl⟩) (hy := ⟨by decide, by rfl⟩) (mem4 (List.getElem_mem (l := ops4) (n := 23) (Nat.le_of_ble_eq_true rfl)))
  exact e
theorem st_main_call15_v4 (V : Valuation τ sig (Elt F)) :
    after ops V (Proc.devRef .tc main_call15_v4) = ((broadcastInDim S160000 ![] bcast_S_S160000) (after ops V (Proc.devRef .tc main_call15_v3) : (⟨S_, .i32⟩ : BufTy).Contents (Elt F)) : (⟨S160000, .i32⟩ : BufTy).Contents (Elt F)) := by
  have e := eq_unary ops_staged V (x := main_call15_v3) (y := main_call15_v4) (f := (broadcastInDim S160000 ![] bcast_S_S160000)) (hx := ⟨by decide, by rfl⟩) (hy := ⟨by decide, by rfl⟩) (mem4 (List.getElem_mem (l := ops4) (n := 24) (Nat.le_of_ble_eq_true rfl)))
  exact e
theorem st_main_v202 (V : Valuation τ sig (Elt F)) :
    after ops V (Proc.devRef .tc main_v202) = (minsi (after ops V (Proc.devRef .tc main_call15_v4) : (⟨S160000, .i32⟩ : BufTy).Contents (Elt F)) (after ops V (Proc.devRef .tc main_call15_v2) : (⟨S160000, .i32⟩ : BufTy).Contents (Elt F)) : (⟨S160000, .i32⟩ : BufTy).Contents (Elt F)) := by
  have e := eq_binary ops_staged V (a := main_call15_v4) (b := main_call15_v2) (y := main_v202) (f := minsi) (ha := ⟨by decide, by rfl⟩) (hb := ⟨by decide, by rfl⟩) (hy := ⟨by decide, by rfl⟩) (mem4 (List.getElem_mem (l := ops4) (n := 25) (Nat.le_of_ble_eq_true rfl)))
  exact e
theorem st_main_v203 (V : Valuation τ sig (Elt F)) :
    after ops V (Proc.devRef .tc main_v203) = ((extractStridedSlice S1x256x64x176 ![4, 0, 0, 0] · slices_S6x256x64x176_S1x256x64x176_4_0_0_0) : (⟨S6x256x64x176, .f32⟩ : BufTy).Contents (Elt F) → (⟨S1x256x64x176, .f32⟩ : BufTy).Contents (Elt F)) (after ops V (Proc.devRef .tc main_v21)) := by
  have e := eq_unary ops_staged V (x := main_v21) (y := main_v203) (f := ((extractStridedSlice S1x256x64x176 ![4, 0, 0, 0] · slices_S6x256x64x176_S1x256x64x176_4_0_0_0) : (⟨S6x256x64x176, .f32⟩ : BufTy).Contents (Elt F) → (⟨S1x256x64x176, .f32⟩ : BufTy).Contents (Elt F))) (hx := ⟨by decide, by rfl⟩) (hy := ⟨by decide, by rfl⟩) (mem4 (List.getElem_mem (l := ops4) (n := 26) (Nat.le_of_ble_eq_true rfl)))
  exact e
theorem st_main_v204 (V : Valuation τ sig (Elt F)) :
    after ops V (Proc.devRef .tc main_v204) = fun i => shapeCast main_v204.ty.shape (after ops V (Proc.devRef .tc main_v203)) shapeCasts_S1x256x64x176_S256x64x176 i := by
  have e := eq_reshape ops_staged V (x := main_v203) (y := main_v204) (he := rfl) (hn := shapeCasts_S1x256x64x176_S256x64x176) (hx := ⟨by decide, by rfl⟩) (hy := ⟨by decide, by rfl⟩) (mem4 (List.getElem_mem (l := ops4) (n := 27) (Nat.le_of_ble_eq_true rfl)))
  exact e
theorem st_main_c_50 (V : Valuation τ sig (Elt F)) :
    after ops V (Proc.devRef .tc main_c_50) = (constantI S_ 32 0#32) := by
  have e := eq_nullary ops_staged V  (y := main_c_50) (v := (constantI S_ 32 0#32))  (hy := ⟨by decide, by rfl⟩) (mem4 (List.getElem_mem (l := ops4) (n := 28) (Nat.le_of_ble_eq_true rfl)))
  exact e
theorem st_main_v205 (V : Valuation τ sig (Elt F)) :
    after ops V (Proc.devRef .tc main_v205) = (broadcastInDim S160000 ![] bcast_S_S160000 : (⟨S_, .i32⟩ : BufTy).Contents (Elt F) → (⟨S160000, .i32⟩ : BufTy).Contents (Elt F)) (after ops V (Proc.devRef .tc main_c_50)) := by
  have e := eq_unary ops_staged V (x := main_c_50) (y := main_v205) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem4 (List.getElem_mem (l := ops4) (n := 29) (Nat.le_of_ble_eq_true rfl)))
  exact e
theorem st_main_v206 (V : Valuation τ sig (Elt F)) :
    after ops V (Proc.devRef .tc main_v206) = (cmpi .slt : (⟨S160000, .i32⟩ : BufTy).Contents (Elt F) → (⟨S160000, .i32⟩ : BufTy).Contents (Elt F) → (⟨S160000, .i1⟩ : BufTy).Contents (Elt F)) (after ops V (Proc.devRef .tc main_v202)) (after ops V (Proc.devRef .tc main_v205)) := by
  have e := eq_binary ops_staged V (a := main_v202) (b := main_v205) (y := main_v206) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem4 (List.getElem_mem (l := ops4) (n := 30) (Nat.le_of_ble_eq_true rfl)))
  exact e
theorem st_main_c_51 (V : Valuation τ sig (Elt F)) :
    after ops V (Proc.devRef .tc main_c_51) = (constantI S_ 32 64#32) := by
  have e := eq_nullary ops_staged V  (y := main_c_51) (v := (constantI S_ 32 64#32))  (hy := ⟨by decide, by rfl⟩) (mem4 (List.getElem_mem (l := ops4) (n := 31) (Nat.le_of_ble_eq_true rfl)))
  exact e
theorem st_main_v207 (V : Valuation τ sig (Elt F)) :
    after ops V (Proc.devRef .tc main_v207) = (broadcastInDim S160000 ![] bcast_S_S160000 : (⟨S_, .i32⟩ : BufTy).Contents (Elt F) → (⟨S160000, .i32⟩ : BufTy).Contents (Elt F)) (after ops V (Proc.devRef .tc main_c_51)) := by
  have e := eq_unary ops_staged V (x := main_c_51) (y := main_v207) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem4 (List.getElem_mem (l := ops4) (n := 32) (Nat.le_of_ble_eq_true rfl)))
  exact e
theorem st_main_v208 (V : Valuation τ sig (Elt F)) :
    after ops V (Proc.devRef .tc main_v208) = (addi : (⟨S160000, .i32⟩ : BufTy).Contents (Elt F) → (⟨S160000, .i32⟩ : BufTy).Contents (Elt F) → (⟨S160000, .i32⟩ : BufTy).Contents (Elt F)) (after ops V (Proc.devRef .tc main_v202)) (after ops V (Proc.devRef .tc main_v207)) := by
  have e := eq_binary ops_staged V (a := main_v202) (b := main_v207) (y := main_v208) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem4 (List.getElem_mem (l := ops4) (n := 33) (Nat.le_of_ble_eq_true rfl)))
  exact e
theorem st_main_v209 (V : Valuation τ sig (Elt F)) :
    after ops V (Proc.devRef .tc main_v209) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v206)) (after ops V (Proc.devRef .tc main_v208)) (after ops V (Proc.devRef .tc main_v202)) := by
  have e := eq_ternary ops_staged V (c := main_v206) (a := main_v208) (b := main_v202) (y := main_v209) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem4 (List.getElem_mem (l := ops4) (n := 34) (Nat.le_of_ble_eq_true rfl)))
  exact e
theorem st_main_c_52 (V : Valuation τ sig (Elt F)) :
    after ops V (Proc.devRef .tc main_c_52) = (constantI S_ 32 0#32) := by
  have e := eq_nullary ops_staged V  (y := main_c_52) (v := (constantI S_ 32 0#32))  (hy := ⟨by decide, by rfl⟩) (mem4 (List.getElem_mem (l := ops4) (n := 35) (Nat.le_of_ble_eq_true rfl)))
  exact e
theorem st_main_v210 (V : Valuation τ sig (Elt F)) :
    after ops V (Proc.devRef .tc main_v210) = (broadcastInDim S160000 ![] bcast_S_S160000 : (⟨S_, .i32⟩ : BufTy).Contents (Elt F) → (⟨S160000, .i32⟩ : BufTy).Contents (Elt F)) (after ops V (Proc.devRef .tc main_c_52)) := by
  have e := eq_unary ops_staged V (x := main_c_52) (y := main_v210) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem4 (List.getElem_mem (l := ops4) (n := 36) (Nat.le_of_ble_eq_true rfl)))
  exact e
theorem st_main_v211 (V : Valuation τ sig (Elt F)) :
    after ops V (Proc.devRef .tc main_v211) = (cmpi .slt : (⟨S160000, .i32⟩ : BufTy).Contents (Elt F) → (⟨S160000, .i32⟩ : BufTy).Contents (Elt F) → (⟨S160000, .i1⟩ : BufTy).Contents (Elt F)) (after ops V (Proc.devRef .tc main_v199)) (after ops V (Proc.devRef .tc main_v210)) := by
  have e := eq_binary ops_staged V (a := main_v199) (b := main_v210) (y := main_v211) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem4 (List.getElem_mem (l := ops4) (n := 37) (Nat.le_of_ble_eq_true rfl)))
  exact e
theorem st_main_c_53 (V : Valuation τ sig (Elt F)) :
    after ops V (Proc.devRef .tc main_c_53) = (constantI S_ 32 176#32) := by
  have e := eq_nullary ops_staged V  (y := main_c_53) (v := (constantI S_ 32 176#32))  (hy := ⟨by decide, by rfl⟩) (mem4 (List.getElem_mem (l := ops4) (n := 38) (Nat.le_of_ble_eq_true rfl)))
  exact e
theorem st_main_v212 (V : Valuation τ sig (Elt F)) :
    after ops V (Proc.devRef .tc main_v212) = (broadcastInDim S160000 ![] bcast_S_S160000 : (⟨S_, .i32⟩ : BufTy).Contents (Elt F) → (⟨S160000, .i32⟩ : BufTy).Contents (Elt F)) (after ops V (Proc.devRef .tc main_c_53)) := by
  have e := eq_unary ops_staged V (x := main_c_53) (y := main_v212) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem4 (List.getElem_mem (l := ops4) (n := 39) (Nat.le_of_ble_eq_true rfl)))
  exact e
theorem st_main_v213 (V : Valuation τ sig (Elt F)) :
    after ops V (Proc.devRef .tc main_v213) = (addi : (⟨S160000, .i32⟩ : BufTy).Contents (Elt F) → (⟨S160000, .i32⟩ : BufTy).Contents (Elt F) → (⟨S160000, .i32⟩ : BufTy).Contents (Elt F)) (after ops V (Proc.devRef .tc main_v199)) (after ops V (Proc.devRef .tc main_v212)) := by
  have e := eq_binary ops_staged V (a := main_v199) (b := main_v212) (y := main_v213) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem4 (List.getElem_mem (l := ops4) (n := 40) (Nat.le_of_ble_eq_true rfl)))
  exact e
theorem st_main_v214 (V : Valuation τ sig (Elt F)) :
    after ops V (Proc.devRef .tc main_v214) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v211)) (after ops V (Proc.devRef .tc main_v213)) (after ops V (Proc.devRef .tc main_v199)) := by
  have e := eq_ternary ops_staged V (c := main_v211) (a := main_v213) (b := main_v199) (y := main_v214) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem4 (List.getElem_mem (l := ops4) (n := 41) (Nat.le_of_ble_eq_true rfl)))
  exact e
theorem st_main_v215 (V : Valuation τ sig (Elt F)) :
    after ops V (Proc.devRef .tc main_v215) = (broadcastInDim S160000x1 ![0] bcast_S160000_S160000x1_0 : (⟨S160000, .i32⟩ : BufTy).Contents (Elt F) → (⟨S160000x1, .i32⟩ : BufTy).Contents (Elt F)) (after ops V (Proc.devRef .tc main_v209)) := by
  have e := eq_unary ops_staged V (x := main_v209) (y := main_v215) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem4 (List.getElem_mem (l := ops4) (n := 42) (Nat.le_of_ble_eq_true rfl)))
  exact e
theorem st_main_v216 (V : Valuation τ sig (Elt F)) :
    after ops V (Proc.devRef .tc main_v216) = (broadcastInDim S160000x1 ![0] bcast_S160000_S160000x1_0 : (⟨S160000, .i32⟩ : BufTy).Contents (Elt F) → (⟨S160000x1, .i32⟩ : BufTy).Contents (Elt F)) (after ops V (Proc.devRef .tc main_v214)) := by
  have e := eq_unary ops_staged V (x := main_v214) (y := main_v216) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem4 (List.getElem_mem (l := ops4) (n := 43) (Nat.le_of_ble_eq_true rfl)))
  exact e
theorem st_main_v217 (V : Valuation τ sig (Elt F)) :
    after ops V (Proc.devRef .tc main_v217) = ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)) (after ops V (Proc.devRef .tc main_v215)) (after ops V (Proc.devRef .tc main_v216)) := by
  have e := eq_binary ops_staged V (a := main_v215) (b := main_v216) (y := main_v217) (f := ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F))) (ha := ⟨by decide, by rfl⟩) (hb := ⟨by decide, by rfl⟩) (hy := ⟨by decide, by rfl⟩) (mem4 (List.getElem_mem (l := ops4) (n := 44) (Nat.le_of_ble_eq_true rfl)))
  exact e
theorem st_main_v218 (V : Valuation τ sig (Elt F)) :
    after ops V (Proc.devRef .tc main_v218) = ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)) (after ops V (Proc.devRef .tc main_v204)) (after ops V (Proc.devRef .tc main_v217)) := by
  have e := eq_binary ops_staged V (a := main_v204) (b := main_v217) (y := main_v218) (f := ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F))) (ha := ⟨by decide, by rfl⟩) (hb := ⟨by decide, by rfl⟩) (hy := ⟨by decide, by rfl⟩) (mem4 (List.getElem_mem (l := ops4) (n := 45) (Nat.le_of_ble_eq_true rfl)))
  exact e
theorem st_main_v219 (V : Valuation τ sig (Elt F)) :
    after ops V (Proc.devRef .tc main_v219) = ((extractStridedSlice S1x160000 ![4, 0] · slices_S6x160000_S1x160000_4_0) : (⟨S6x160000, .i1⟩ : BufTy).Contents (Elt F) → (⟨S1x160000, .i1⟩ : BufTy).Contents (Elt F)) (after ops V (Proc.devRef .tc main_v91)) := by
  have e := eq_unary ops_staged V (x := main_v91) (y := main_v219) (f := ((extractStridedSlice S1x160000 ![4, 0] · slices_S6x160000_S1x160000_4_0) : (⟨S6x160000, .i1⟩ : BufTy).Contents (Elt F) → (⟨S1x160000, .i1⟩ : BufTy).Contents (Elt F))) (hx := ⟨by decide, by rfl⟩) (hy := ⟨by decide, by rfl⟩) (mem4 (List.getElem_mem (l := ops4) (n := 46) (Nat.le_of_ble_eq_true rfl)))
  exact e
theorem st_main_v220 (V : Valuation τ sig (Elt F)) :
    after ops V (Proc.devRef .tc main_v220) = fun i => shapeCast main_v220.ty.shape (after ops V (Proc.devRef .tc main_v219)) shapeCasts_S1x160000_S160000 i := by
  have e := eq_reshape ops_staged V (x := main_v219) (y := main_v220) (he := rfl) (hn := shapeCasts_S1x160000_S160000) (hx := ⟨by decide, by rfl⟩) (hy := ⟨by decide, by rfl⟩) (mem4 (List.getElem_mem (l := ops4) (n := 47) (Nat.le_of_ble_eq_true rfl)))
  exact e
theorem st_main_v221 (V : Valuation τ sig (Elt F)) :
    after ops V (Proc.devRef .tc main_v221) = (broadcastInDim S1x160000 ![1] bcast_S160000_S1x160000_1 : (⟨S160000, .i1⟩ : BufTy).Contents (Elt F) → (⟨S1x160000, .i1⟩ : BufTy).Contents (Elt F)) (after ops V (Proc.devRef .tc main_v220)) := by
  have e := eq_unary ops_staged V (x := main_v220) (y := main_v221) (f := (broadcastInDim S1x160000 ![1] bcast_S160000_S1x160000_1 : (⟨S160000, .i1⟩ : BufTy).Contents (Elt F) → (⟨S1x160000, .i1⟩ : BufTy).Contents (Elt F))) (hx := ⟨by decide, by rfl⟩) (hy := ⟨by decide, by rfl⟩) (mem4 (List.getElem_mem (l := ops4) (n := 48) (Nat.le_of_ble_eq_true rfl)))
  exact e
theorem st_main_call16_v0 (V : Valuation τ sig (Elt F)) :
    after ops V (Proc.devRef .tc main_call16_v0) = ((broadcastInDim S256x160000 ![0, 1] bcast_S1x160000_S256x160000_0_1) (after ops V (Proc.devRef .tc main_v221) : (⟨S1x160000, .i1⟩ : BufTy).Contents (Elt F)) : (⟨S256x160000, .i1⟩ : BufTy).Contents (Elt F)) := by
  have e := eq_unary ops_staged V (x := main_v221) (y := main_call16_v0) (f := (broadcastInDim S256x160000 ![0, 1] bcast_S1x160000_S256x160000_0_1)) (hx := ⟨by decide, by rfl⟩) (hy := ⟨by decide, by rfl⟩) (mem4 (List.getElem_mem (l := ops4) (n := 49) (Nat.le_of_ble_eq_true rfl)))
  exact e
theorem st_main_v222 (V : Valuation τ sig (Elt F)) :
    after ops V (Proc.devRef .tc main_v222) = (select (after ops V (Proc.devRef .tc main_call16_v0) : (⟨S256x160000, .i1⟩ : BufTy).Contents (Elt F)) (after ops V (Proc.devRef .tc main_v218) : (⟨S256x160000, .f32⟩ : BufTy).Contents (Elt F)) (after ops V (Proc.devRef .tc main_v196) : (⟨S256x160000, .f32⟩ : BufTy).Contents (Elt F)) : (⟨S256x160000, .f32⟩ : BufTy).Contents (Elt F)) := by
  have e := eq_ternary ops_staged V (c := main_call16_v0) (a := main_v218) (b := main_v196) (y := main_v222) (f := select) (hc := ⟨by decide, by rfl⟩) (ha := ⟨by decide, by rfl⟩) (hb := ⟨by decide, by rfl⟩) (hy := ⟨by decide, by rfl⟩) (mem4 (List.getElem_mem (l := ops4) (n := 50) (Nat.le_of_ble_eq_true rfl)))
  exact e
theorem st_main_v223 (V : Valuation τ sig (Elt F)) :
    after ops V (Proc.devRef .tc main_v223) = ((extractStridedSlice S1x160000 ![5, 0] · slices_S6x160000_S1x160000_5_0) : (⟨S6x160000, .i32⟩ : BufTy).Contents (Elt F) → (⟨S1x160000, .i32⟩ : BufTy).Contents (Elt F)) (after ops V (Proc.devRef .tc main_v73)) := by
  have e := eq_unary ops_staged V (x := main_v73) (y := main_v223) (f := ((extractStridedSlice S1x160000 ![5, 0] · slices_S6x160000_S1x160000_5_0) : (⟨S6x160000, .i32⟩ : BufTy).Contents (Elt F) → (⟨S1x160000, .i32⟩ : BufTy).Contents (Elt F))) (hx := ⟨by decide, by rfl⟩) (hy := ⟨by decide, by rfl⟩) (mem4 (List.getElem_mem (l := ops4) (n := 51) (Nat.le_of_ble_eq_true rfl)))
  exact e
theorem st_main_v224 (V : Valuation τ sig (Elt F)) :
    after ops V (Proc.devRef .tc main_v224) = fun i => shapeCast main_v224.ty.shape (after ops V (Proc.devRef .tc main_v223)) shapeCasts_S1x160000_S160000 i := by
  have e := eq_reshape ops_staged V (x := main_v223) (y := main_v224) (he := rfl) (hn := shapeCasts_S1x160000_S160000) (hx := ⟨by decide, by rfl⟩) (hy := ⟨by decide, by rfl⟩) (mem4 (List.getElem_mem (l := ops4) (n := 52) (Nat.le_of_ble_eq_true rfl)))
  exact e
theorem st_main_c_54 (V : Valuation τ sig (Elt F)) :
    after ops V (Proc.devRef .tc main_c_54) = (constantI S_ 32 0#32) := by
  have e := eq_nullary ops_staged V  (y := main_c_54) (v := (constantI S_ 32 0#32))  (hy := ⟨by decide, by rfl⟩) (mem4 (List.getElem_mem (l := ops4) (n := 53) (Nat.le_of_ble_eq_true rfl)))
  exact e
theorem st_main_c_55 (V : Valuation τ sig (Elt F)) :
    after ops V (Proc.devRef .tc main_c_55) = (constantI S_ 32 175#32) := by
  have e := eq_nullary ops_staged V  (y := main_c_55) (v := (constantI S_ 32 175#32))  (hy := ⟨by decide, by rfl⟩) (mem4 (List.getElem_mem (l := ops4) (n := 54) (Nat.le_of_ble_eq_true rfl)))
  exact e
theorem st_main_call17_v0 (V : Valuation τ sig (Elt F)) :
    after ops V (Proc.devRef .tc main_call17_v0) = (id (after ops V (Proc.devRef .tc main_c_54) : (⟨S_, .i32⟩ : BufTy).Contents (Elt F)) : (⟨S_, .i32⟩ : BufTy).Contents (Elt F)) := by
  have e := eq_unary ops_staged V (x := main_c_54) (y := main_call17_v0) (f := id) (hx := ⟨by decide, by rfl⟩) (hy := ⟨by decide, by rfl⟩) (mem4 (List.getElem_mem (l := ops4) (n := 55) (Nat.le_of_ble_eq_true rfl)))
  exact e
theorem st_main_call17_v1 (V : Valuation τ sig (Elt F)) :
    after ops V (Proc.devRef .tc main_call17_v1) = ((broadcastInDim S160000 ![] bcast_S_S160000) (after ops V (Proc.devRef .tc main_call17_v0) : (⟨S_, .i32⟩ : BufTy).Contents (Elt F)) : (⟨S160000, .i32⟩ : BufTy).Contents (Elt F)) := by
  have e := eq_unary ops_staged V (x := main_call17_v0) (y := main_call17_v1) (f := (broadcastInDim S160000 ![] bcast_S_S160000)) (hx := ⟨by decide, by rfl⟩) (hy := ⟨by decide, by rfl⟩) (mem4 (List.getElem_mem (l := ops4) (n := 56) (Nat.le_of_ble_eq_true rfl)))
  exact e
theorem st_main_call17_v2 (V : Valuation τ sig (Elt F)) :
    after ops V (Proc.devRef .tc main_call17_v2) = (maxsi (after ops V (Proc.devRef .tc main_call17_v1) : (⟨S160000, .i32⟩ : BufTy).Contents (Elt F)) (after ops V (Proc.devRef .tc main_v224) : (⟨S160000, .i32⟩ : BufTy).Contents (Elt F)) : (⟨S160000, .i32⟩ : BufTy).Contents (Elt F)) := by
  have e := eq_binary ops_staged V (a := main_call17_v1) (b := main_v224) (y := main_call17_v2) (f := maxsi) (ha := ⟨by decide, by rfl⟩) (hb := ⟨by decide, by rfl⟩) (hy := ⟨by decide, by rfl⟩) (mem4 (List.getElem_mem (l := ops4) (n := 57) (Nat.le_of_ble_eq_true rfl)))
  exact e
theorem st_main_call17_v3 (V : Valuation τ sig (Elt F)) :
    after ops V (Proc.devRef .tc main_call17_v3) = (id (after ops V (Proc.devRef .tc main_c_55) : (⟨S_, .i32⟩ : BufTy).Contents (Elt F)) : (⟨S_, .i32⟩ : BufTy).Contents (Elt F)) := by
  have e := eq_unary ops_staged V (x := main_c_55) (y := main_call17_v3) (f := id) (hx := ⟨by decide, by rfl⟩) (hy := ⟨by decide, by rfl⟩) (mem4 (List.getElem_mem (l := ops4) (n := 58) (Nat.le_of_ble_eq_true rfl)))
  exact e
theorem st_main_call17_v4 (V : Valuation τ sig (Elt F)) :
    after ops V (Proc.devRef .tc main_call17_v4) = ((broadcastInDim S160000 ![] bcast_S_S160000) (after ops V (Proc.devRef .tc main_call17_v3) : (⟨S_, .i32⟩ : BufTy).Contents (Elt F)) : (⟨S160000, .i32⟩ : BufTy).Contents (Elt F)) := by
  have e := eq_unary ops_staged V (x := main_call17_v3) (y := main_call17_v4) (f := (broadcastInDim S160000 ![] bcast_S_S160000)) (hx := ⟨by decide, by rfl⟩) (hy := ⟨by decide, by rfl⟩) (mem4 (List.getElem_mem (l := ops4) (n := 59) (Nat.le_of_ble_eq_true rfl)))
  exact e
theorem st_main_v225 (V : Valuation τ sig (Elt F)) :
    after ops V (Proc.devRef .tc main_v225) = (minsi (after ops V (Proc.devRef .tc main_call17_v4) : (⟨S160000, .i32⟩ : BufTy).Contents (Elt F)) (after ops V (Proc.devRef .tc main_call17_v2) : (⟨S160000, .i32⟩ : BufTy).Contents (Elt F)) : (⟨S160000, .i32⟩ : BufTy).Contents (Elt F)) := by
  have e := eq_binary ops_staged V (a := main_call17_v4) (b := main_call17_v2) (y := main_v225) (f := minsi) (ha := ⟨by decide, by rfl⟩) (hb := ⟨by decide, by rfl⟩) (hy := ⟨by decide, by rfl⟩) (mem4 (List.getElem_mem (l := ops4) (n := 60) (Nat.le_of_ble_eq_true rfl)))
  exact e
theorem st_main_v226 (V : Valuation τ sig (Elt F)) :
    after ops V (Proc.devRef .tc main_v226) = ((extractStridedSlice S1x160000 ![5, 0] · slices_S6x160000_S1x160000_5_0) : (⟨S6x160000, .i32⟩ : BufTy).Contents (Elt F) → (⟨S1x160000, .i32⟩ : BufTy).Contents (Elt F)) (after ops V (Proc.devRef .tc main_v77)) := by
  have e := eq_unary ops_staged V (x := main_v77) (y := main_v226) (f := ((extractStridedSlice S1x160000 ![5, 0] · slices_S6x160000_S1x160000_5_0) : (⟨S6x160000, .i32⟩ : BufTy).Contents (Elt F) → (⟨S1x160000, .i32⟩ : BufTy).Contents (Elt F))) (hx := ⟨by decide, by rfl⟩) (hy := ⟨by decide, by rfl⟩) (mem4 (List.getElem_mem (l := ops4) (n := 61) (Nat.le_of_ble_eq_true rfl)))
  exact e
theorem st_main_v227 (V : Valuation τ sig (Elt F)) :
    after ops V (Proc.devRef .tc main_v227) = fun i => shapeCast main_v227.ty.shape (after ops V (Proc.devRef .tc main_v226)) shapeCasts_S1x160000_S160000 i := by
  have e := eq_reshape ops_staged V (x := main_v226) (y := main_v227) (he := rfl) (hn := shapeCasts_S1x160000_S160000) (hx := ⟨by decide, by rfl⟩) (hy := ⟨by decide, by rfl⟩) (mem4 (List.getElem_mem (l := ops4) (n := 62) (Nat.le_of_ble_eq_true rfl)))
  exact e
theorem st_main_c_56 (V : Valuation τ sig (Elt F)) :
    after ops V (Proc.devRef .tc main_c_56) = (constantI S_ 32 0#32) := by
  have e := eq_nullary ops_staged V  (y := main_c_56) (v := (constantI S_ 32 0#32))  (hy := ⟨by decide, by rfl⟩) (mem4 (List.getElem_mem (l := ops4) (n := 63) (Nat.le_of_ble_eq_true rfl)))
  exact e
theorem st_main_c_57 (V : Valuation τ sig (Elt F)) :
    after ops V (Proc.devRef .tc main_c_57) = (constantI S_ 32 63#32) := by
  have e := eq_nullary ops_staged V  (y := main_c_57) (v := (constantI S_ 32 63#32))  (hy := ⟨by decide, by rfl⟩) (mem4 (List.getElem_mem (l := ops4) (n := 64) (Nat.le_of_ble_eq_true rfl)))
  exact e
theorem st_main_call18_v0 (V : Valuation τ sig (Elt F)) :
    after ops V (Proc.devRef .tc main_call18_v0) = (id (after ops V (Proc.devRef .tc main_c_56) : (⟨S_, .i32⟩ : BufTy).Contents (Elt F)) : (⟨S_, .i32⟩ : BufTy).Contents (Elt F)) := by
  have e := eq_unary ops_staged V (x := main_c_56) (y := main_call18_v0) (f := id) (hx := ⟨by decide, by rfl⟩) (hy := ⟨by decide, by rfl⟩) (mem4 (List.getElem_mem (l := ops4) (n := 65) (Nat.le_of_ble_eq_true rfl)))
  exact e
theorem st_main_call18_v1 (V : Valuation τ sig (Elt F)) :
    after ops V (Proc.devRef .tc main_call18_v1) = ((broadcastInDim S160000 ![] bcast_S_S160000) (after ops V (Proc.devRef .tc main_call18_v0) : (⟨S_, .i32⟩ : BufTy).Contents (Elt F)) : (⟨S160000, .i32⟩ : BufTy).Contents (Elt F)) := by
  have e := eq_unary ops_staged V (x := main_call18_v0) (y := main_call18_v1) (f := (broadcastInDim S160000 ![] bcast_S_S160000)) (hx := ⟨by decide, by rfl⟩) (hy := ⟨by decide, by rfl⟩) (mem4 (List.getElem_mem (l := ops4) (n := 66) (Nat.le_of_ble_eq_true rfl)))
  exact e
theorem st_main_call18_v2 (V : Valuation τ sig (Elt F)) :
    after ops V (Proc.devRef .tc main_call18_v2) = (maxsi (after ops V (Proc.devRef .tc main_call18_v1) : (⟨S160000, .i32⟩ : BufTy).Contents (Elt F)) (after ops V (Proc.devRef .tc main_v227) : (⟨S160000, .i32⟩ : BufTy).Contents (Elt F)) : (⟨S160000, .i32⟩ : BufTy).Contents (Elt F)) := by
  have e := eq_binary ops_staged V (a := main_call18_v1) (b := main_v227) (y := main_call18_v2) (f := maxsi) (ha := ⟨by decide, by rfl⟩) (hb := ⟨by decide, by rfl⟩) (hy := ⟨by decide, by rfl⟩) (mem4 (List.getElem_mem (l := ops4) (n := 67) (Nat.le_of_ble_eq_true rfl)))
  exact e
theorem st_main_call18_v3 (V : Valuation τ sig (Elt F)) :
    after ops V (Proc.devRef .tc main_call18_v3) = (id (after ops V (Proc.devRef .tc main_c_57) : (⟨S_, .i32⟩ : BufTy).Contents (Elt F)) : (⟨S_, .i32⟩ : BufTy).Contents (Elt F)) := by
  have e := eq_unary ops_staged V (x := main_c_57) (y := main_call18_v3) (f := id) (hx := ⟨by decide, by rfl⟩) (hy := ⟨by decide, by rfl⟩) (mem4 (List.getElem_mem (l := ops4) (n := 68) (Nat.le_of_ble_eq_true rfl)))
  exact e
theorem st_main_call18_v4 (V : Valuation τ sig (Elt F)) :
    after ops V (Proc.devRef .tc main_call18_v4) = ((broadcastInDim S160000 ![] bcast_S_S160000) (after ops V (Proc.devRef .tc main_call18_v3) : (⟨S_, .i32⟩ : BufTy).Contents (Elt F)) : (⟨S160000, .i32⟩ : BufTy).Contents (Elt F)) := by
  have e := eq_unary ops_staged V (x := main_call18_v3) (y := main_call18_v4) (f := (broadcastInDim S160000 ![] bcast_S_S160000)) (hx := ⟨by decide, by rfl⟩) (hy := ⟨by decide, by rfl⟩) (mem4 (List.getElem_mem (l := ops4) (n := 69) (Nat.le_of_ble_eq_true rfl)))
  exact e
theorem st_main_v228 (V : Valuation τ sig (Elt F)) :
    after ops V (Proc.devRef .tc main_v228) = (minsi (after ops V (Proc.devRef .tc main_call18_v4) : (⟨S160000, .i32⟩ : BufTy).Contents (Elt F)) (after ops V (Proc.devRef .tc main_call18_v2) : (⟨S160000, .i32⟩ : BufTy).Contents (Elt F)) : (⟨S160000, .i32⟩ : BufTy).Contents (Elt F)) := by
  have e := eq_binary ops_staged V (a := main_call18_v4) (b := main_call18_v2) (y := main_v228) (f := minsi) (ha := ⟨by decide, by rfl⟩) (hb := ⟨by decide, by rfl⟩) (hy := ⟨by decide, by rfl⟩) (mem4 (List.getElem_mem (l := ops4) (n := 70) (Nat.le_of_ble_eq_true rfl)))
  exact e
theorem st_main_v229 (V : Valuation τ sig (Elt F)) :
    after ops V (Proc.devRef .tc main_v229) = ((extractStridedSlice S1x256x64x176 ![5, 0, 0, 0] · slices_S6x256x64x176_S1x256x64x176_5_0_0_0) : (⟨S6x256x64x176, .f32⟩ : BufTy).Contents (Elt F) → (⟨S1x256x64x176, .f32⟩ : BufTy).Contents (Elt F)) (after ops V (Proc.devRef .tc main_v21)) := by
  have e := eq_unary ops_staged V (x := main_v21) (y := main_v229) (f := ((extractStridedSlice S1x256x64x176 ![5, 0, 0, 0] · slices_S6x256x64x176_S1x256x64x176_5_0_0_0) : (⟨S6x256x64x176, .f32⟩ : BufTy).Contents (Elt F) → (⟨S1x256x64x176, .f32⟩ : BufTy).Contents (Elt F))) (hx := ⟨by decide, by rfl⟩) (hy := ⟨by decide, by rfl⟩) (mem4 (List.getElem_mem (l := ops4) (n := 71) (Nat.le_of_ble_eq_true rfl)))
  exact e
theorem st_main_v230 (V : Valuation τ sig (Elt F)) :
    after ops V (Proc.devRef .tc main_v230) = fun i => shapeCast main_v230.ty.shape (after ops V (Proc.devRef .tc main_v229)) shapeCasts_S1x256x64x176_S256x64x176 i := by
  have e := eq_reshape ops_staged V (x := main_v229) (y := main_v230) (he := rfl) (hn := shapeCasts_S1x256x64x176_S256x64x176) (hx := ⟨by decide, by rfl⟩) (hy := ⟨by decide, by rfl⟩) (mem4 (List.getElem_mem (l := ops4) (n := 72) (Nat.le_of_ble_eq_true rfl)))
  exact e
theorem st_main_c_58 (V : Valuation τ sig (Elt F)) :
    after ops V (Proc.devRef .tc main_c_58) = (constantI S_ 32 0#32) := by
  have e := eq_nullary ops_staged V  (y := main_c_58) (v := (constantI S_ 32 0#32))  (hy := ⟨by decide, by rfl⟩) (mem4 (List.getElem_mem (l := ops4) (n := 73) (Nat.le_of_ble_eq_true rfl)))
  exact e
theorem st_main_v231 (V : Valuation τ sig (Elt F)) :
    after ops V (Proc.devRef .tc main_v231) = (broadcastInDim S160000 ![] bcast_S_S160000 : (⟨S_, .i32⟩ : BufTy).Contents (Elt F) → (⟨S160000, .i32⟩ : BufTy).Contents (Elt F)) (after ops V (Proc.devRef .tc main_c_58)) := by
  have e := eq_unary ops_staged V (x := main_c_58) (y := main_v231) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem4 (List.getElem_mem (l := ops4) (n := 74) (Nat.le_of_ble_eq_true rfl)))
  exact e
theorem st_main_v232 (V : Valuation τ sig (Elt F)) :
    after ops V (Proc.devRef .tc main_v232) = (cmpi .slt : (⟨S160000, .i32⟩ : BufTy).Contents (Elt F) → (⟨S160000, .i32⟩ : BufTy).Contents (Elt F) → (⟨S160000, .i1⟩ : BufTy).Contents (Elt F)) (after ops V (Proc.devRef .tc main_v228)) (after ops V (Proc.devRef .tc main_v231)) := by
  have e := eq_binary ops_staged V (a := main_v228) (b := main_v231) (y := main_v232) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem4 (List.getElem_mem (l := ops4) (n := 75) (Nat.le_of_ble_eq_true rfl)))
  exact e
theorem st_main_c_59 (V : Valuation τ sig (Elt F)) :
    after ops V (Proc.devRef .tc main_c_59) = (constantI S_ 32 64#32) := by
  have e := eq_nullary ops_staged V  (y := main_c_59) (v := (constantI S_ 32 64#32))  (hy := ⟨by decide, by rfl⟩) (mem4 (List.getElem_mem (l := ops4) (n := 76) (Nat.le_of_ble_eq_true rfl)))
  exact e
theorem st_main_v233 (V : Valuation τ sig (Elt F)) :
    after ops V (Proc.devRef .tc main_v233) = (broadcastInDim S160000 ![] bcast_S_S160000 : (⟨S_, .i32⟩ : BufTy).Contents (Elt F) → (⟨S160000, .i32⟩ : BufTy).Contents (Elt F)) (after ops V (Proc.devRef .tc main_c_59)) := by
  have e := eq_unary ops_staged V (x := main_c_59) (y := main_v233) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem4 (List.getElem_mem (l := ops4) (n := 77) (Nat.le_of_ble_eq_true rfl)))
  exact e
theorem st_main_v234 (V : Valuation τ sig (Elt F)) :
    after ops V (Proc.devRef .tc main_v234) = (addi : (⟨S160000, .i32⟩ : BufTy).Contents (Elt F) → (⟨S160000, .i32⟩ : BufTy).Contents (Elt F) → (⟨S160000, .i32⟩ : BufTy).Contents (Elt F)) (after ops V (Proc.devRef .tc main_v228)) (after ops V (Proc.devRef .tc main_v233)) := by
  have e := eq_binary ops_staged V (a := main_v228) (b := main_v233) (y := main_v234) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem4 (List.getElem_mem (l := ops4) (n := 78) (Nat.le_of_ble_eq_true rfl)))
  exact e
theorem st_main_v235 (V : Valuation τ sig (Elt F)) :
    after ops V (Proc.devRef .tc main_v235) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v232)) (after ops V (Proc.devRef .tc main_v234)) (after ops V (Proc.devRef .tc main_v228)) := by
  have e := eq_ternary ops_staged V (c := main_v232) (a := main_v234) (b := main_v228) (y := main_v235) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem4 (List.getElem_mem (l := ops4) (n := 79) (Nat.le_of_ble_eq_true rfl)))
  exact e
theorem st_main_c_60 (V : Valuation τ sig (Elt F)) :
    after ops V (Proc.devRef .tc main_c_60) = (constantI S_ 32 0#32) := by
  have e := eq_nullary ops_staged V  (y := main_c_60) (v := (constantI S_ 32 0#32))  (hy := ⟨by decide, by rfl⟩) (mem4 (List.getElem_mem (l := ops4) (n := 80) (Nat.le_of_ble_eq_true rfl)))
  exact e
theorem st_main_v236 (V : Valuation τ sig (Elt F)) :
    after ops V (Proc.devRef .tc main_v236) = (broadcastInDim S160000 ![] bcast_S_S160000 : (⟨S_, .i32⟩ : BufTy).Contents (Elt F) → (⟨S160000, .i32⟩ : BufTy).Contents (Elt F)) (after ops V (Proc.devRef .tc main_c_60)) := by
  have e := eq_unary ops_staged V (x := main_c_60) (y := main_v236) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem4 (List.getElem_mem (l := ops4) (n := 81) (Nat.le_of_ble_eq_true rfl)))
  exact e
theorem st_main_v237 (V : Valuation τ sig (Elt F)) :
    after ops V (Proc.devRef .tc main_v237) = (cmpi .slt : (⟨S160000, .i32⟩ : BufTy).Contents (Elt F) → (⟨S160000, .i32⟩ : BufTy).Contents (Elt F) → (⟨S160000, .i1⟩ : BufTy).Contents (Elt F)) (after ops V (Proc.devRef .tc main_v225)) (after ops V (Proc.devRef .tc main_v236)) := by
  have e := eq_binary ops_staged V (a := main_v225) (b := main_v236) (y := main_v237) (f := (cmpi .slt : (⟨S160000, .i32⟩ : BufTy).Contents (Elt F) → (⟨S160000, .i32⟩ : BufTy).Contents (Elt F) → (⟨S160000, .i1⟩ : BufTy).Contents (Elt F))) (ha := ⟨by decide, by rfl⟩) (hb := ⟨by decide, by rfl⟩) (hy := ⟨by decide, by rfl⟩) (mem5 (List.getElem_mem (l := ops5) (n := 0) (Nat.le_of_ble_eq_true rfl)))
  exact e
theorem st_main_c_61 (V : Valuation τ sig (Elt F)) :
    after ops V (Proc.devRef .tc main_c_61) = (constantI S_ 32 176#32) := by
  have e := eq_nullary ops_staged V  (y := main_c_61) (v := (constantI S_ 32 176#32))  (hy := ⟨by decide, by rfl⟩) (mem5 (List.getElem_mem (l := ops5) (n := 1) (Nat.le_of_ble_eq_true rfl)))
  exact e
theorem st_main_v238 (V : Valuation τ sig (Elt F)) :
    after ops V (Proc.devRef .tc main_v238) = (broadcastInDim S160000 ![] bcast_S_S160000 : (⟨S_, .i32⟩ : BufTy).Contents (Elt F) → (⟨S160000, .i32⟩ : BufTy).Contents (Elt F)) (after ops V (Proc.devRef .tc main_c_61)) := by
  have e := eq_unary ops_staged V (x := main_c_61) (y := main_v238) (f := (broadcastInDim S160000 ![] bcast_S_S160000 : (⟨S_, .i32⟩ : BufTy).Contents (Elt F) → (⟨S160000, .i32⟩ : BufTy).Contents (Elt F))) (hx := ⟨by decide, by rfl⟩) (hy := ⟨by decide, by rfl⟩) (mem5 (List.getElem_mem (l := ops5) (n := 2) (Nat.le_of_ble_eq_true rfl)))
  exact e
theorem st_main_v239 (V : Valuation τ sig (Elt F)) :
    after ops V (Proc.devRef .tc main_v239) = (addi : (⟨S160000, .i32⟩ : BufTy).Contents (Elt F) → (⟨S160000, .i32⟩ : BufTy).Contents (Elt F) → (⟨S160000, .i32⟩ : BufTy).Contents (Elt F)) (after ops V (Proc.devRef .tc main_v225)) (after ops V (Proc.devRef .tc main_v238)) := by
  have e := eq_binary ops_staged V (a := main_v225) (b := main_v238) (y := main_v239) (f := (addi : (⟨S160000, .i32⟩ : BufTy).Contents (Elt F) → (⟨S160000, .i32⟩ : BufTy).Contents (Elt F) → (⟨S160000, .i32⟩ : BufTy).Contents (Elt F))) (ha := ⟨by decide, by rfl⟩) (hb := ⟨by decide, by rfl⟩) (hy := ⟨by decide, by rfl⟩) (mem5 (List.getElem_mem (l := ops5) (n := 3) (Nat.le_of_ble_eq_true rfl)))
  exact e
theorem st_main_v240 (V : Valuation τ sig (Elt F)) :
    after ops V (Proc.devRef .tc main_v240) = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (after ops V (Proc.devRef .tc main_v237)) (after ops V (Proc.devRef .tc main_v239)) (after ops V (Proc.devRef .tc main_v225)) := by
  have e := eq_ternary ops_staged V (c := main_v237) (a := main_v239) (b := main_v225) (y := main_v240) (f := (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))) (hc := ⟨by decide, by rfl⟩) (ha := ⟨by decide, by rfl⟩) (hb := ⟨by decide, by rfl⟩) (hy := ⟨by decide, by rfl⟩) (mem5 (List.getElem_mem (l := ops5) (n := 4) (Nat.le_of_ble_eq_true rfl)))
  exact e
theorem st_main_v241 (V : Valuation τ sig (Elt F)) :
    after ops V (Proc.devRef .tc main_v241) = (broadcastInDim S160000x1 ![0] bcast_S160000_S160000x1_0 : (⟨S160000, .i32⟩ : BufTy).Contents (Elt F) → (⟨S160000x1, .i32⟩ : BufTy).Contents (Elt F)) (after ops V (Proc.devRef .tc main_v235)) := by
  have e := eq_unary ops_staged V (x := main_v235) (y := main_v241) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem5 (List.getElem_mem (l := ops5) (n := 5) (Nat.le_of_ble_eq_true rfl)))
  exact e
theorem st_main_v242 (V : Valuation τ sig (Elt F)) :
    after ops V (Proc.devRef .tc main_v242) = (broadcastInDim S160000x1 ![0] bcast_S160000_S160000x1_0 : (⟨S160000, .i32⟩ : BufTy).Contents (Elt F) → (⟨S160000x1, .i32⟩ : BufTy).Contents (Elt F)) (after ops V (Proc.devRef .tc main_v240)) := by
  have e := eq_unary ops_staged V (x := main_v240) (y := main_v242) (f := (broadcastInDim S160000x1 ![0] bcast_S160000_S160000x1_0 : (⟨S160000, .i32⟩ : BufTy).Contents (Elt F) → (⟨S160000x1, .i32⟩ : BufTy).Contents (Elt F))) (hx := ⟨by decide, by rfl⟩) (hy := ⟨by decide, by rfl⟩) (mem5 (List.getElem_mem (l := ops5) (n := 6) (Nat.le_of_ble_eq_true rfl)))
  exact e
theorem st_main_v243 (V : Valuation τ sig (Elt F)) :
    after ops V (Proc.devRef .tc main_v243) = ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F)) (after ops V (Proc.devRef .tc main_v241)) (after ops V (Proc.devRef .tc main_v242)) := by
  have e := eq_binary ops_staged V (a := main_v241) (b := main_v242) (y := main_v243) (f := ((fun a b => concatenate S160000x2 1 [⟨S160000x1, a⟩, ⟨S160000x1, b⟩] concatenates_S160000x1_S160000x1_S160000x2_d1) : (⟨S160000x1, .i32⟩ : BufTy).Contents (Elt F) → (⟨S160000x1, .i32⟩ : BufTy).Contents (Elt F) → (⟨S160000x2, .i32⟩ : BufTy).Contents (Elt F))) (ha := ⟨by decide, by rfl⟩) (hb := ⟨by decide, by rfl⟩) (hy := ⟨by decide, by rfl⟩) (mem5 (List.getElem_mem (l := ops5) (n := 7) (Nat.le_of_ble_eq_true rfl)))
  exact e
theorem st_main_v244 (V : Valuation τ sig (Elt F)) :
    after ops V (Proc.devRef .tc main_v244) = ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F)) (after ops V (Proc.devRef .tc main_v230)) (after ops V (Proc.devRef .tc main_v243)) := by
  have e := eq_binary ops_staged V (a := main_v230) (b := main_v243) (y := main_v244) (f := ((fun x i => Host.gather gather_S256x64x176_S160000x2_S256x160000_0_12_n_n_12_1_25611 x i) : (⟨S256x64x176, .f32⟩ : BufTy).Contents (Elt F) → (⟨S160000x2, .i32⟩ : BufTy).Contents (Elt F) → (⟨S256x160000, .f32⟩ : BufTy).Contents (Elt F))) (ha := ⟨by decide, by rfl⟩) (hb := ⟨by decide, by rfl⟩) (hy := ⟨by decide, by rfl⟩) (mem5 (List.getElem_mem (l := ops5) (n := 8) (Nat.le_of_ble_eq_true rfl)))
  exact e
theorem st_main_v245 (V : Valuation τ sig (Elt F)) :
    after ops V (Proc.devRef .tc main_v245) = ((extractStridedSlice S1x160000 ![5, 0] · slices_S6x160000_S1x160000_5_0) : (⟨S6x160000, .i1⟩ : BufTy).Contents (Elt F) → (⟨S1x160000, .i1⟩ : BufTy).Contents (Elt F)) (after ops V (Proc.devRef .tc main_v91)) := by
  have e := eq_unary ops_staged V (x := main_v91) (y := main_v245) (f := ((extractStridedSlice S1x160000 ![5, 0] · slices_S6x160000_S1x160000_5_0) : (⟨S6x160000, .i1⟩ : BufTy).Contents (Elt F) → (⟨S1x160000, .i1⟩ : BufTy).Contents (Elt F))) (hx := ⟨by decide, by rfl⟩) (hy := ⟨by decide, by rfl⟩) (mem5 (List.getElem_mem (l := ops5) (n := 9) (Nat.le_of_ble_eq_true rfl)))
  exact e
theorem st_main_v246 (V : Valuation τ sig (Elt F)) :
    after ops V (Proc.devRef .tc main_v246) = fun i => shapeCast main_v246.ty.shape (after ops V (Proc.devRef .tc main_v245)) shapeCasts_S1x160000_S160000 i := by
  have e := eq_reshape ops_staged V (x := main_v245) (y := main_v246) (he := rfl) (hn := shapeCasts_S1x160000_S160000) (hx := ⟨by decide, by rfl⟩) (hy := ⟨by decide, by rfl⟩) (mem5 (List.getElem_mem (l := ops5) (n := 10) (Nat.le_of_ble_eq_true rfl)))
  exact e
theorem st_main_v247 (V : Valuation τ sig (Elt F)) :
    after ops V (Proc.devRef .tc main_v247) = (broadcastInDim S1x160000 ![1] bcast_S160000_S1x160000_1 : (⟨S160000, .i1⟩ : BufTy).Contents (Elt F) → (⟨S1x160000, .i1⟩ : BufTy).Contents (Elt F)) (after ops V (Proc.devRef .tc main_v246)) := by
  have e := eq_unary ops_staged V (x := main_v246) (y := main_v247) (f := (broadcastInDim S1x160000 ![1] bcast_S160000_S1x160000_1 : (⟨S160000, .i1⟩ : BufTy).Contents (Elt F) → (⟨S1x160000, .i1⟩ : BufTy).Contents (Elt F))) (hx := ⟨by decide, by rfl⟩) (hy := ⟨by decide, by rfl⟩) (mem5 (List.getElem_mem (l := ops5) (n := 11) (Nat.le_of_ble_eq_true rfl)))
  exact e
theorem st_main_call19_v0 (V : Valuation τ sig (Elt F)) :
    after ops V (Proc.devRef .tc main_call19_v0) = ((broadcastInDim S256x160000 ![0, 1] bcast_S1x160000_S256x160000_0_1) (after ops V (Proc.devRef .tc main_v247) : (⟨S1x160000, .i1⟩ : BufTy).Contents (Elt F)) : (⟨S256x160000, .i1⟩ : BufTy).Contents (Elt F)) := by
  have e := eq_unary ops_staged V (x := main_v247) (y := main_call19_v0) (f := (broadcastInDim S256x160000 ![0, 1] bcast_S1x160000_S256x160000_0_1)) (hx := ⟨by decide, by rfl⟩) (hy := ⟨by decide, by rfl⟩) (mem5 (List.getElem_mem (l := ops5) (n := 12) (Nat.le_of_ble_eq_true rfl)))
  exact e
theorem st_main_v248 (V : Valuation τ sig (Elt F)) :
    after ops V (Proc.devRef .tc main_v248) = (select (after ops V (Proc.devRef .tc main_call19_v0) : (⟨S256x160000, .i1⟩ : BufTy).Contents (Elt F)) (after ops V (Proc.devRef .tc main_v244) : (⟨S256x160000, .f32⟩ : BufTy).Contents (Elt F)) (after ops V (Proc.devRef .tc main_v222) : (⟨S256x160000, .f32⟩ : BufTy).Contents (Elt F)) : (⟨S256x160000, .f32⟩ : BufTy).Contents (Elt F)) := by
  have e := eq_ternary ops_staged V (c := main_call19_v0) (a := main_v244) (b := main_v222) (y := main_v248) (f := select) (hc := ⟨by decide, by rfl⟩) (ha := ⟨by decide, by rfl⟩) (hb := ⟨by decide, by rfl⟩) (hy := ⟨by decide, by rfl⟩) (mem5 (List.getElem_mem (l := ops5) (n := 13) (Nat.le_of_ble_eq_true rfl)))
  exact e
theorem st_main_v249 (V : Valuation τ sig (Elt F)) :
    after ops V (Proc.devRef .tc main_v249) = fun i => shapeCast main_v249.ty.shape (after ops V (Proc.devRef .tc main_v248)) shapeCasts_S256x160000_S256x200x200x4 i := by
  have e := eq_reshape ops_staged V (x := main_v248) (y := main_v249) (he := rfl) (hn := shapeCasts_S256x160000_S256x200x200x4) (hx := ⟨by decide, by rfl⟩) (hy := ⟨by decide, by rfl⟩) (mem5 (List.getElem_mem (l := ops5) (n := 14) (Nat.le_of_ble_eq_true rfl)))
  exact e
theorem st_main_v250 (V : Valuation τ sig (Elt F)) :
    after ops V (Proc.devRef .tc main_v250) = (broadcastInDim S1x256x200x200x4 ![1, 2, 3, 4] bcast_S256x200x200x4_S1x256x200x200x4_1_2_3_4 : (⟨S256x200x200x4, .f32⟩ : BufTy).Contents (Elt F) → (⟨S1x256x200x200x4, .f32⟩ : BufTy).Contents (Elt F)) (after ops V (Proc.devRef .tc main_v249)) := by
  have e := eq_unary ops_staged V (x := main_v249) (y := main_v250) (f := (broadcastInDim S1x256x200x200x4 ![1, 2, 3, 4] bcast_S256x200x200x4_S1x256x200x200x4_1_2_3_4 : (⟨S256x200x200x4, .f32⟩ : BufTy).Contents (Elt F) → (⟨S1x256x200x200x4, .f32⟩ : BufTy).Contents (Elt F))) (hx := ⟨by decide, by rfl⟩) (hy := ⟨by decide, by rfl⟩) (mem5 (List.getElem_mem (l := ops5) (n := 15) (Nat.le_of_ble_eq_true rfl)))
  exact e
theorem st_main_cst_62 (V : Valuation τ sig (Elt F)) :
    after ops V (Proc.devRef .tc main_cst_62) = (constant S_ .f32 0x00000000#32) := by
  have e := eq_nullary ops_staged V  (y := main_cst_62) (v := (constant S_ .f32 0x00000000#32))  (hy := ⟨by decide, by rfl⟩) (mem5 (List.getElem_mem (l := ops5) (n := 16) (Nat.le_of_ble_eq_true rfl)))
  exact e
theorem st_main_v251 (V : Valuation τ sig (Elt F)) :
    after ops V (Proc.devRef .tc main_v251) = ((fun x v => Host.reduceAdd x v reducesTo_S1x256x200x200x4_S1x256x200x200_d4 h_S_) : (⟨S1x256x200x200x4, .f32⟩ : BufTy).Contents (Elt F) → (⟨S_, .f32⟩ : BufTy).Contents (Elt F) → (⟨S1x256x200x200, .f32⟩ : BufTy).Contents (Elt F)) (after ops V (Proc.devRef .tc main_v250)) (after ops V (Proc.devRef .tc main_cst_62)) := by
  have e := eq_binary ops_staged V (a := main_v250) (b := main_cst_62) (y := main_v251) (f := ((fun x v => Host.reduceAdd x v reducesTo_S1x256x200x200x4_S1x256x200x200_d4 h_S_) : (⟨S1x256x200x200x4, .f32⟩ : BufTy).Contents (Elt F) → (⟨S_, .f32⟩ : BufTy).Contents (Elt F) → (⟨S1x256x200x200, .f32⟩ : BufTy).Contents (Elt F))) (ha := ⟨by decide, by rfl⟩) (hb := ⟨by decide, by rfl⟩) (hy := ⟨by decide, by rfl⟩) (mem5 (List.getElem_mem (l := ops5) (n := 17) (Nat.le_of_ble_eq_true rfl)))
  exact e
theorem st_main_v252 (V : Valuation τ sig (Elt F)) :
    after ops V (Proc.devRef .tc main_v252) = (broadcastInDim S1x256x200x200x1 ![0, 1, 2, 3] bcast_S1x256x200x200_S1x256x200x200x1_0_1_2_3 : (⟨S1x256x200x200, .f32⟩ : BufTy).Contents (Elt F) → (⟨S1x256x200x200x1, .f32⟩ : BufTy).Contents (Elt F)) (after ops V (Proc.devRef .tc main_v251)) := by
  have e := eq_unary ops_staged V (x := main_v251) (y := main_v252) (f := (broadcastInDim S1x256x200x200x1 ![0, 1, 2, 3] bcast_S1x256x200x200_S1x256x200x200x1_0_1_2_3 : (⟨S1x256x200x200, .f32⟩ : BufTy).Contents (Elt F) → (⟨S1x256x200x200x1, .f32⟩ : BufTy).Contents (Elt F))) (hx := ⟨by decide, by rfl⟩) (hy := ⟨by decide, by rfl⟩) (mem5 (List.getElem_mem (l := ops5) (n := 18) (Nat.le_of_ble_eq_true rfl)))
  exact e
theorem st_main_v253 (V : Valuation τ sig (Elt F)) :
    after ops V (Proc.devRef .tc main_v253) = fun i => shapeCast main_v253.ty.shape (after ops V (Proc.devRef .tc main_v252)) shapeCasts_S1x256x200x200x1_S1x256x200x200 i := by
  have e := eq_reshape ops_staged V (x := main_v252) (y := main_v253) (he := rfl) (hn := shapeCasts_S1x256x200x200x1_S1x256x200x200) (hx := ⟨by decide, by rfl⟩) (hy := ⟨by decide, by rfl⟩) (mem5 (List.getElem_mem (l := ops5) (n := 19) (Nat.le_of_ble_eq_true rfl)))
  exact e
theorem st_main_v254 (V : Valuation τ sig (Elt F)) :
    after ops V (Proc.devRef .tc main_v254) = ((fun l r => Host.dotGeneral dot_S80x256_S1x256x200x200_S80x1x200x200_1_1_0_023_n_n none l r) : (⟨S80x256, .f32⟩ : BufTy).Contents (Elt F) → (⟨S1x256x200x200, .f32⟩ : BufTy).Contents (Elt F) → (⟨S80x1x200x200, .f32⟩ : BufTy).Contents (Elt F)) (after ops V (Proc.devRef .tc main_arg7)) (after ops V (Proc.devRef .tc main_v253)) := by
  have e := eq_binary ops_staged V (a := main_arg7) (b := main_v253) (y := main_v254) (f := ((fun l r => Host.dotGeneral dot_S80x256_S1x256x200x200_S80x1x200x200_1_1_0_023_n_n none l r) : (⟨S80x256, .f32⟩ : BufTy).Contents (Elt F) → (⟨S1x256x200x200, .f32⟩ : BufTy).Contents (Elt F) → (⟨S80x1x200x200, .f32⟩ : BufTy).Contents (Elt F))) (ha := ⟨by decide, by rfl⟩) (hb := ⟨by decide, by rfl⟩) (hy := ⟨by decide, by rfl⟩) (mem5 (List.getElem_mem (l := ops5) (n := 20) (Nat.le_of_ble_eq_true rfl)))
  exact e
theorem st_main_v255 (V : Valuation τ sig (Elt F)) :
    after ops V (Proc.devRef .tc main_v255) = ((transpose S1x80x200x200 [1, 0, 2, 3] · transposes_S80x1x200x200_S1x80x200x200_1_0_2_3) : (⟨S80x1x200x200, .f32⟩ : BufTy).Contents (Elt F) → (⟨S1x80x200x200, .f32⟩ : BufTy).Contents (Elt F)) (after ops V (Proc.devRef .tc main_v254)) := by
  have e := eq_unary ops_staged V (x := main_v254) (y := main_v255) (f := ((transpose S1x80x200x200 [1, 0, 2, 3] · transposes_S80x1x200x200_S1x80x200x200_1_0_2_3) : (⟨S80x1x200x200, .f32⟩ : BufTy).Contents (Elt F) → (⟨S1x80x200x200, .f32⟩ : BufTy).Contents (Elt F))) (hx := ⟨by decide, by rfl⟩) (hy := ⟨by decide, by rfl⟩) (mem5 (List.getElem_mem (l := ops5) (n := 21) (Nat.le_of_ble_eq_true rfl)))
  exact e
theorem st_main_v256 (V : Valuation τ sig (Elt F)) :
    after ops V (Proc.devRef .tc main_v256) = (broadcastInDim S1x80x1x1 ![1] bcast_S80_S1x80x1x1_1 : (⟨S80, .f32⟩ : BufTy).Contents (Elt F) → (⟨S1x80x1x1, .f32⟩ : BufTy).Contents (Elt F)) (after ops V (Proc.devRef .tc main_arg8)) := by
  have e := eq_unary ops_staged V (x := main_arg8) (y := main_v256) (f := (broadcastInDim S1x80x1x1 ![1] bcast_S80_S1x80x1x1_1 : (⟨S80, .f32⟩ : BufTy).Contents (Elt F) → (⟨S1x80x1x1, .f32⟩ : BufTy).Contents (Elt F))) (hx := ⟨by decide, by rfl⟩) (hy := ⟨by decide, by rfl⟩) (mem5 (List.getElem_mem (l := ops5) (n := 22) (Nat.le_of_ble_eq_true rfl)))
  exact e
theorem st_main_v257 (V : Valuation τ sig (Elt F)) :
    after ops V (Proc.devRef .tc main_v257) = (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F)) (after ops V (Proc.devRef .tc main_v256)) := by
  have e := eq_unary ops_staged V (x := main_v256) (y := main_v257) (f := (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F))) (hx := ⟨by decide, by rfl⟩) (hy := ⟨by decide, by rfl⟩) (mem5 (List.getElem_mem (l := ops5) (n := 23) (Nat.le_of_ble_eq_true rfl)))
  exact e
theorem st_main_v258 (V : Valuation τ sig (Elt F)) :
    after ops V (Proc.devRef .tc main_v258) = (addf : (⟨S1x80x200x200, .f32⟩ : BufTy).Contents (Elt F) → (⟨S1x80x200x200, .f32⟩ : BufTy).Contents (Elt F) → (⟨S1x80x200x200, .f32⟩ : BufTy).Contents (Elt F)) (after ops V (Proc.devRef .tc main_v255)) (after ops V (Proc.devRef .tc main_v257)) := by
  have e := eq_binary ops_staged V (a := main_v255) (b := main_v257) (y := main_v258) (f := (addf : (⟨S1x80x200x200, .f32⟩ : BufTy).Contents (Elt F) → (⟨S1x80x200x200, .f32⟩ : BufTy).Contents (Elt F) → (⟨S1x80x200x200, .f32⟩ : BufTy).Contents (Elt F))) (ha := ⟨by decide, by rfl⟩) (hb := ⟨by decide, by rfl⟩) (hy := ⟨by decide, by rfl⟩) (mem5 (List.getElem_mem (l := ops5) (n := 24) (Nat.le_of_ble_eq_true rfl)))
  exact e
theorem st_main_cst_63 (V : Valuation τ sig (Elt F)) :
    after ops V (Proc.devRef .tc main_cst_63) = (constant S_ .f32 0x00000000#32) := by
  have e := eq_nullary ops_staged V  (y := main_cst_63) (v := (constant S_ .f32 0x00000000#32))  (hy := ⟨by decide, by rfl⟩) (mem5 (List.getElem_mem (l := ops5) (n := 25) (Nat.le_of_ble_eq_true rfl)))
  exact e
theorem st_main_v259 (V : Valuation τ sig (Elt F)) :
    after ops V (Proc.devRef .tc main_v259) = ((fun x v => Host.reduceAdd x v reducesTo_S1x80x200x200_S80_d0_2_3 h_S_) : (⟨S1x80x200x200, .f32⟩ : BufTy).Contents (Elt F) → (⟨S_, .f32⟩ : BufTy).Contents (Elt F) → (⟨S80, .f32⟩ : BufTy).Contents (Elt F)) (after ops V (Proc.devRef .tc main_v258)) (after ops V (Proc.devRef .tc main_cst_63)) := by
  have e := eq_binary ops_staged V (a := main_v258) (b := main_cst_63) (y := main_v259) (f := ((fun x v => Host.reduceAdd x v reducesTo_S1x80x200x200_S80_d0_2_3 h_S_) : (⟨S1x80x200x200, .f32⟩ : BufTy).Contents (Elt F) → (⟨S_, .f32⟩ : BufTy).Contents (Elt F) → (⟨S80, .f32⟩ : BufTy).Contents (Elt F))) (ha := ⟨by decide, by rfl⟩) (hb := ⟨by decide, by rfl⟩) (hy := ⟨by decide, by rfl⟩) (mem5 (List.getElem_mem (l := ops5) (n := 26) (Nat.le_of_ble_eq_true rfl)))
  exact e
theorem st_main_v260 (V : Valuation τ sig (Elt F)) :
    after ops V (Proc.devRef .tc main_v260) = (broadcastInDim S1x80x1x1 ![1] bcast_S80_S1x80x1x1_1 : (⟨S80, .f32⟩ : BufTy).Contents (Elt F) → (⟨S1x80x1x1, .f32⟩ : BufTy).Contents (Elt F)) (after ops V (Proc.devRef .tc main_v259)) := by
  have e := eq_unary ops_staged V (x := main_v259) (y := main_v260) (f := (broadcastInDim S1x80x1x1 ![1] bcast_S80_S1x80x1x1_1 : (⟨S80, .f32⟩ : BufTy).Contents (Elt F) → (⟨S1x80x1x1, .f32⟩ : BufTy).Contents (Elt F))) (hx := ⟨by decide, by rfl⟩) (hy := ⟨by decide, by rfl⟩) (mem5 (List.getElem_mem (l := ops5) (n := 27) (Nat.le_of_ble_eq_true rfl)))
  exact e
theorem st_main_cst_64 (V : Valuation τ sig (Elt F)) :
    after ops V (Proc.devRef .tc main_cst_64) = (constant S_ .f32 0x471C4000#32) := by
  have e := eq_nullary ops_staged V  (y := main_cst_64) (v := (constant S_ .f32 0x471C4000#32))  (hy := ⟨by decide, by rfl⟩) (mem5 (List.getElem_mem (l := ops5) (n := 28) (Nat.le_of_ble_eq_true rfl)))
  exact e
theorem st_main_v261 (V : Valuation τ sig (Elt F)) :
    after ops V (Proc.devRef .tc main_v261) = (broadcastInDim S1x80x1x1 ![] bcast_S_S1x80x1x1 : (⟨S_, .f32⟩ : BufTy).Contents (Elt F) → (⟨S1x80x1x1, .f32⟩ : BufTy).Contents (Elt F)) (after ops V (Proc.devRef .tc main_cst_64)) := by
  have e := eq_unary ops_staged V (x := main_cst_64) (y := main_v261) (f := (broadcastInDim S1x80x1x1 ![] bcast_S_S1x80x1x1 : (⟨S_, .f32⟩ : BufTy).Contents (Elt F) → (⟨S1x80x1x1, .f32⟩ : BufTy).Contents (Elt F))) (hx := ⟨by decide, by rfl⟩) (hy := ⟨by decide, by rfl⟩) (mem5 (List.getElem_mem (l := ops5) (n := 29) (Nat.le_of_ble_eq_true rfl)))
  exact e
theorem st_main_v262 (V : Valuation τ sig (Elt F)) :
    after ops V (Proc.devRef .tc main_v262) = (Host.divf : (⟨S1x80x1x1, .f32⟩ : BufTy).Contents (Elt F) → (⟨S1x80x1x1, .f32⟩ : BufTy).Contents (Elt F) → (⟨S1x80x1x1, .f32⟩ : BufTy).Contents (Elt F)) (after ops V (Proc.devRef .tc main_v260)) (after ops V (Proc.devRef .tc main_v261)) := by
  have e := eq_binary ops_staged V (a := main_v260) (b := main_v261) (y := main_v262) (f := (Host.divf : (⟨S1x80x1x1, .f32⟩ : BufTy).Contents (Elt F) → (⟨S1x80x1x1, .f32⟩ : BufTy).Contents (Elt F) → (⟨S1x80x1x1, .f32⟩ : BufTy).Contents (Elt F))) (ha := ⟨by decide, by rfl⟩) (hb := ⟨by decide, by rfl⟩) (hy := ⟨by decide, by rfl⟩) (mem5 (List.getElem_mem (l := ops5) (n := 30) (Nat.le_of_ble_eq_true rfl)))
  exact e
theorem st_main_c_65 (V : Valuation τ sig (Elt F)) :
    after ops V (Proc.devRef .tc main_c_65) = (constantI S_ 32 0#32) := by
  have e := eq_nullary ops_staged V  (y := main_c_65) (v := (constantI S_ 32 0#32))  (hy := ⟨by decide, by rfl⟩) (mem5 (List.getElem_mem (l := ops5) (n := 31) (Nat.le_of_ble_eq_true rfl)))
  exact e
theorem st_main_call20_cst (V : Valuation τ sig (Elt F)) :
    after ops V (Proc.devRef .tc main_call20_cst) = ((constant S_ .f32 0x00000000#32) : (⟨S_, .f32⟩ : BufTy).Contents (Elt F)) := by
  have e := eq_nullary ops_staged V  (y := main_call20_cst) (v := (constant S_ .f32 0x00000000#32))  (hy := ⟨by decide, by rfl⟩) (mem5 (List.getElem_mem (l := ops5) (n := 32) (Nat.le_of_ble_eq_true rfl)))
  exact e
theorem st_main_call20_v0 (V : Valuation τ sig (Elt F)) :
    after ops V (Proc.devRef .tc main_call20_v0) = ((fun x v => Host.reduceAdd x v reducesTo_S1x80x200x200_S80_d0_2_3 h_S_) (after ops V (Proc.devRef .tc main_v258) : (⟨S1x80x200x200, .f32⟩ : BufTy).Contents (Elt F)) (after ops V (Proc.devRef .tc main_call20_cst) : (⟨S_, .f32⟩ : BufTy).Contents (Elt F)) : (⟨S80, .f32⟩ : BufTy).Contents (Elt F)) := by
  have e := eq_binary ops_staged V (a := main_v258) (b := main_call20_cst) (y := main_call20_v0) (f := (fun x v => Host.reduceAdd x v reducesTo_S1x80x200x200_S80_d0_2_3 h_S_)) (ha := ⟨by decide, by rfl⟩) (hb := ⟨by decide, by rfl⟩) (hy := ⟨by decide, by rfl⟩) (mem5 (List.getElem_mem (l := ops5) (n := 33) (Nat.le_of_ble_eq_true rfl)))
  exact e
theorem st_main_call20_v1 (V : Valuation τ sig (Elt F)) :
    after ops V (Proc.devRef .tc main_call20_v1) = ((broadcastInDim S1x80x1x1 ![1] bcast_S80_S1x80x1x1_1) (after ops V (Proc.devRef .tc main_call20_v0) : (⟨S80, .f32⟩ : BufTy).Contents (Elt F)) : (⟨S1x80x1x1, .f32⟩ : BufTy).Contents (Elt F)) := by
  have e := eq_unary ops_staged V (x := main_call20_v0) (y := main_call20_v1) (f := (broadcastInDim S1x80x1x1 ![1] bcast_S80_S1x80x1x1_1)) (hx := ⟨by decide, by rfl⟩) (hy := ⟨by decide, by rfl⟩) (mem5 (List.getElem_mem (l := ops5) (n := 34) (Nat.le_of_ble_eq_true rfl)))
  exact e
theorem st_main_call20_cst_0 (V : Valuation τ sig (Elt F)) :
    after ops V (Proc.devRef .tc main_call20_cst_0) = ((constant S_ .f32 0x471C4000#32) : (⟨S_, .f32⟩ : BufTy).Contents (Elt F)) := by
  have e := eq_nullary ops_staged V  (y := main_call20_cst_0) (v := (constant S_ .f32 0x471C4000#32))  (hy := ⟨by decide, by rfl⟩) (mem5 (List.getElem_mem (l := ops5) (n := 35) (Nat.le_of_ble_eq_true rfl)))
  exact e
theorem st_main_call20_v2 (V : Valuation τ sig (Elt F)) :
    after ops V (Proc.devRef .tc main_call20_v2) = ((broadcastInDim S1x80x1x1 ![] bcast_S_S1x80x1x1) (after ops V (Proc.devRef .tc main_call20_cst_0) : (⟨S_, .f32⟩ : BufTy).Contents (Elt F)) : (⟨S1x80x1x1, .f32⟩ : BufTy).Contents (Elt F)) := by
  have e := eq_unary ops_staged V (x := main_call20_cst_0) (y := main_call20_v2) (f := (broadcastInDim S1x80x1x1 ![] bcast_S_S1x80x1x1)) (hx := ⟨by decide, by rfl⟩) (hy := ⟨by decide, by rfl⟩) (mem5 (List.getElem_mem (l := ops5) (n := 36) (Nat.le_of_ble_eq_true rfl)))
  exact e
theorem st_main_call20_v3 (V : Valuation τ sig (Elt F)) :
    after ops V (Proc.devRef .tc main_call20_v3) = (Host.divf (after ops V (Proc.devRef .tc main_call20_v1) : (⟨S1x80x1x1, .f32⟩ : BufTy).Contents (Elt F)) (after ops V (Proc.devRef .tc main_call20_v2) : (⟨S1x80x1x1, .f32⟩ : BufTy).Contents (Elt F)) : (⟨S1x80x1x1, .f32⟩ : BufTy).Contents (Elt F)) := by
  have e := eq_binary ops_staged V (a := main_call20_v1) (b := main_call20_v2) (y := main_call20_v3) (f := Host.divf) (ha := ⟨by decide, by rfl⟩) (hb := ⟨by decide, by rfl⟩) (hy := ⟨by decide, by rfl⟩) (mem5 (List.getElem_mem (l := ops5) (n := 37) (Nat.le_of_ble_eq_true rfl)))
  exact e
theorem st_main_call20_v4 (V : Valuation τ sig (Elt F)) :
    after ops V (Proc.devRef .tc main_call20_v4) = ((broadcastInDim S1x80x200x200 ![0, 1, 2, 3] bcast_S1x80x1x1_S1x80x200x200_0_1_2_3) (after ops V (Proc.devRef .tc main_call20_v3) : (⟨S1x80x1x1, .f32⟩ : BufTy).Contents (Elt F)) : (⟨S1x80x200x200, .f32⟩ : BufTy).Contents (Elt F)) := by
  have e := eq_unary ops_staged V (x := main_call20_v3) (y := main_call20_v4) (f := (broadcastInDim S1x80x200x200 ![0, 1, 2, 3] bcast_S1x80x1x1_S1x80x200x200_0_1_2_3)) (hx := ⟨by decide, by rfl⟩) (hy := ⟨by decide, by rfl⟩) (mem5 (List.getElem_mem (l := ops5) (n := 38) (Nat.le_of_ble_eq_true rfl)))
  exact e
theorem st_main_call20_v5 (V : Valuation τ sig (Elt F)) :
    after ops V (Proc.devRef .tc main_call20_v5) = (subf (after ops V (Proc.devRef .tc main_v258) : (⟨S1x80x200x200, .f32⟩ : BufTy).Contents (Elt F)) (after ops V (Proc.devRef .tc main_call20_v4) : (⟨S1x80x200x200, .f32⟩ : BufTy).Contents (Elt F)) : (⟨S1x80x200x200, .f32⟩ : BufTy).Contents (Elt F)) := by
  have e := eq_binary ops_staged V (a := main_v258) (b := main_call20_v4) (y := main_call20_v5) (f := subf) (ha := ⟨by decide, by rfl⟩) (hb := ⟨by decide, by rfl⟩) (hy := ⟨by decide, by rfl⟩) (mem5 (List.getElem_mem (l := ops5) (n := 39) (Nat.le_of_ble_eq_true rfl)))
  exact e
theorem st_main_call20_v6 (V : Valuation τ sig (Elt F)) :
    after ops V (Proc.devRef .tc main_call20_v6) = (mulf (after ops V (Proc.devRef .tc main_call20_v5) : (⟨S1x80x200x200, .f32⟩ : BufTy).Contents (Elt F)) (after ops V (Proc.devRef .tc main_call20_v5) : (⟨S1x80x200x200, .f32⟩ : BufTy).Contents (Elt F)) : (⟨S1x80x200x200, .f32⟩ : BufTy).Contents (Elt F)) := by
  have e := eq_binary ops_staged V (a := main_call20_v5) (b := main_call20_v5) (y := main_call20_v6) (f := mulf) (ha := ⟨by decide, by rfl⟩) (hb := ⟨by decide, by rfl⟩) (hy := ⟨by decide, by rfl⟩) (mem5 (List.getElem_mem (l := ops5) (n := 40) (Nat.le_of_ble_eq_true rfl)))
  exact e
theorem st_main_call20_v7 (V : Valuation τ sig (Elt F)) :
    after ops V (Proc.devRef .tc main_call20_v7) = ((sitofp .f32) (after ops V (Proc.devRef .tc main_c_65) : (⟨S_, .i32⟩ : BufTy).Contents (Elt F)) : (⟨S_, .f32⟩ : BufTy).Contents (Elt F)) := by
  have e := eq_unary ops_staged V (x := main_c_65) (y := main_call20_v7) (f := (sitofp .f32)) (hx := ⟨by decide, by rfl⟩) (hy := ⟨by decide, by rfl⟩) (mem5 (List.getElem_mem (l := ops5) (n := 41) (Nat.le_of_ble_eq_true rfl)))
  exact e
theorem st_main_call20_cst_1 (V : Valuation τ sig (Elt F)) :
    after ops V (Proc.devRef .tc main_call20_cst_1) = ((constant S_ .f32 0x471C4000#32) : (⟨S_, .f32⟩ : BufTy).Contents (Elt F)) := by
  have e := eq_nullary ops_staged V  (y := main_call20_cst_1) (v := (constant S_ .f32 0x471C4000#32))  (hy := ⟨by decide, by rfl⟩) (mem5 (List.getElem_mem (l := ops5) (n := 42) (Nat.le_of_ble_eq_true rfl)))
  exact e
theorem st_main_call20_v8 (V : Valuation τ sig (Elt F)) :
    after ops V (Proc.devRef .tc main_call20_v8) = (subf (after ops V (Proc.devRef .tc main_call20_cst_1) : (⟨S_, .f32⟩ : BufTy).Contents (Elt F)) (after ops V (Proc.devRef .tc main_call20_v7) : (⟨S_, .f32⟩ : BufTy).Contents (Elt F)) : (⟨S_, .f32⟩ : BufTy).Contents (Elt F)) := by
  have e := eq_binary ops_staged V (a := main_call20_cst_1) (b := main_call20_v7) (y := main_call20_v8) (f := subf) (ha := ⟨by decide, by rfl⟩) (hb := ⟨by decide, by rfl⟩) (hy := ⟨by decide, by rfl⟩) (mem5 (List.getElem_mem (l := ops5) (n := 43) (Nat.le_of_ble_eq_true rfl)))
  exact e
theorem st_main_call20_cst_2 (V : Valuation τ sig (Elt F)) :
    after ops V (Proc.devRef .tc main_call20_cst_2) = ((constant S_ .f32 0x00000000#32) : (⟨S_, .f32⟩ : BufTy).Contents (Elt F)) := by
  have e := eq_nullary ops_staged V  (y := main_call20_cst_2) (v := (constant S_ .f32 0x00000000#32))  (hy := ⟨by decide, by rfl⟩) (mem5 (List.getElem_mem (l := ops5) (n := 44) (Nat.le_of_ble_eq_true rfl)))
  exact e
theorem st_main_call20_v9 (V : Valuation τ sig (Elt F)) :
    after ops V (Proc.devRef .tc main_call20_v9) = ((fun x v => Host.reduceAdd x v reducesTo_S1x80x200x200_S80_d0_2_3 h_S_) (after ops V (Proc.devRef .tc main_call20_v6) : (⟨S1x80x200x200, .f32⟩ : BufTy).Contents (Elt F)) (after ops V (Proc.devRef .tc main_call20_cst_2) : (⟨S_, .f32⟩ : BufTy).Contents (Elt F)) : (⟨S80, .f32⟩ : BufTy).Contents (Elt F)) := by
  have e := eq_binary ops_staged V (a := main_call20_v6) (b := main_call20_cst_2) (y := main_call20_v9) (f := (fun x v => Host.reduceAdd x v reducesTo_S1x80x200x200_S80_d0_2_3 h_S_)) (ha := ⟨by decide, by rfl⟩) (hb := ⟨by decide, by rfl⟩) (hy := ⟨by decide, by rfl⟩) (mem5 (List.getElem_mem (l := ops5) (n := 45) (Nat.le_of_ble_eq_true rfl)))
  exact e
theorem st_main_call20_v10 (V : Valuation τ sig (Elt F)) :
    after ops V (Proc.devRef .tc main_call20_v10) = ((broadcastInDim S1x80x1x1 ![1] bcast_S80_S1x80x1x1_1) (after ops V (Proc.devRef .tc main_call20_v9) : (⟨S80, .f32⟩ : BufTy).Contents (Elt F)) : (⟨S1x80x1x1, .f32⟩ : BufTy).Contents (Elt F)) := by
  have e := eq_unary ops_staged V (x := main_call20_v9) (y := main_call20_v10) (f := (broadcastInDim S1x80x1x1 ![1] bcast_S80_S1x80x1x1_1)) (hx := ⟨by decide, by rfl⟩) (hy := ⟨by decide, by rfl⟩) (mem5 (List.getElem_mem (l := ops5) (n := 46) (Nat.le_of_ble_eq_true rfl)))
  exact e
theorem st_main_call20_v11 (V : Valuation τ sig (Elt F)) :
    after ops V (Proc.devRef .tc main_call20_v11) = ((broadcastInDim S1x80x1x1 ![] bcast_S_S1x80x1x1) (after ops V (Proc.devRef .tc main_call20_v8) : (⟨S_, .f32⟩ : BufTy).Contents (Elt F)) : (⟨S1x80x1x1, .f32⟩ : BufTy).Contents (Elt F)) := by
  have e := eq_unary ops_staged V (x := main_call20_v8) (y := main_call20_v11) (f := (broadcastInDim S1x80x1x1 ![] bcast_S_S1x80x1x1)) (hx := ⟨by decide, by rfl⟩) (hy := ⟨by decide, by rfl⟩) (mem5 (List.getElem_mem (l := ops5) (n := 47) (Nat.le_of_ble_eq_true rfl)))
  exact e
theorem st_main_call20_v12 (V : Valuation τ sig (Elt F)) :
    after ops V (Proc.devRef .tc main_call20_v12) = (Host.divf (after ops V (Proc.devRef .tc main_call20_v10) : (⟨S1x80x1x1, .f32⟩ : BufTy).Contents (Elt F)) (after ops V (Proc.devRef .tc main_call20_v11) : (⟨S1x80x1x1, .f32⟩ : BufTy).Contents (Elt F)) : (⟨S1x80x1x1, .f32⟩ : BufTy).Contents (Elt F)) := by
  have e := eq_binary ops_staged V (a := main_call20_v10) (b := main_call20_v11) (y := main_call20_v12) (f := Host.divf) (ha := ⟨by decide, by rfl⟩) (hb := ⟨by decide, by rfl⟩) (hy := ⟨by decide, by rfl⟩) (mem5 (List.getElem_mem (l := ops5) (n := 48) (Nat.le_of_ble_eq_true rfl)))
  exact e
theorem st_main_call20_cst_3 (V : Valuation τ sig (Elt F)) :
    after ops V (Proc.devRef .tc main_call20_cst_3) = ((constant S_ .f32 0x00000000#32) : (⟨S_, .f32⟩ : BufTy).Contents (Elt F)) := by
  have e := eq_nullary ops_staged V  (y := main_call20_cst_3) (v := (constant S_ .f32 0x00000000#32))  (hy := ⟨by decide, by rfl⟩) (mem5 (List.getElem_mem (l := ops5) (n := 49) (Nat.le_of_ble_eq_true rfl)))
  exact e
theorem st_main_call20_v13 (V : Valuation τ sig (Elt F)) :
    after ops V (Proc.devRef .tc main_call20_v13) = ((cmpf .ogt) (after ops V (Proc.devRef .tc main_call20_v8) : (⟨S_, .f32⟩ : BufTy).Contents (Elt F)) (after ops V (Proc.devRef .tc main_call20_cst_3) : (⟨S_, .f32⟩ : BufTy).Contents (Elt F)) : (⟨S_, .i1⟩ : BufTy).Contents (Elt F)) := by
  have e := eq_binary ops_staged V (a := main_call20_v8) (b := main_call20_cst_3) (y := main_call20_v13) (f := (cmpf .ogt)) (ha := ⟨by decide, by rfl⟩) (hb := ⟨by decide, by rfl⟩) (hy := ⟨by decide, by rfl⟩) (mem5 (List.getElem_mem (l := ops5) (n := 50) (Nat.le_of_ble_eq_true rfl)))
  exact e
theorem st_main_call20_cst_4 (V : Valuation τ sig (Elt F)) :
    after ops V (Proc.devRef .tc main_call20_cst_4) = ((constant S_ .f32 0x7FC00000#32) : (⟨S_, .f32⟩ : BufTy).Contents (Elt F)) := by
  have e := eq_nullary ops_staged V  (y := main_call20_cst_4) (v := (constant S_ .f32 0x7FC00000#32))  (hy := ⟨by decide, by rfl⟩) (mem5 (List.getElem_mem (l := ops5) (n := 51) (Nat.le_of_ble_eq_true rfl)))
  exact e
theorem st_main_call20_call0_v0 (V : Valuation τ sig (Elt F)) :
    after ops V (Proc.devRef .tc main_call20_call0_v0) = (id (after ops V (Proc.devRef .tc main_call20_cst_4) : (⟨S_, .f32⟩ : BufTy).Contents (Elt F)) : (⟨S_, .f32⟩ : BufTy).Contents (Elt F)) := by
  have e := eq_unary ops_staged V (x := main_call20_cst_4) (y := main_call20_call0_v0) (f := id) (hx := ⟨by decide, by rfl⟩) (hy := ⟨by decide, by rfl⟩) (mem5 (List.getElem_mem (l := ops5) (n := 52) (Nat.le_of_ble_eq_true rfl)))
  exact e
theorem st_main_call20_call0_v1 (V : Valuation τ sig (Elt F)) :
    after ops V (Proc.devRef .tc main_call20_call0_v1) = ((broadcastInDim S1x80x1x1 ![] bcast_S_S1x80x1x1) (after ops V (Proc.devRef .tc main_call20_call0_v0) : (⟨S_, .f32⟩ : BufTy).Contents (Elt F)) : (⟨S1x80x1x1, .f32⟩ : BufTy).Contents (Elt F)) := by
  have e := eq_unary ops_staged V (x := main_call20_call0_v0) (y := main_call20_call0_v1) (f := (broadcastInDim S1x80x1x1 ![] bcast_S_S1x80x1x1)) (hx := ⟨by decide, by rfl⟩) (hy := ⟨by decide, by rfl⟩) (mem5 (List.getElem_mem (l := ops5) (n := 53) (Nat.le_of_ble_eq_true rfl)))
  exact e
theorem st_main_v263 (V : Valuation τ sig (Elt F)) :
    after ops V (Proc.devRef .tc main_v263) = ((fun p a b => select (broadcastInDim S1x80x1x1 ![] bcast_S_S1x80x1x1 p) a b) (after ops V (Proc.devRef .tc main_call20_v13) : (⟨S_, .i1⟩ : BufTy).Contents (Elt F)) (after ops V (Proc.devRef .tc main_call20_v12) : (⟨S1x80x1x1, .f32⟩ : BufTy).Contents (Elt F)) (after ops V (Proc.devRef .tc main_call20_call0_v1) : (⟨S1x80x1x1, .f32⟩ : BufTy).Contents (Elt F)) : (⟨S1x80x1x1, .f32⟩ : BufTy).Contents (Elt F)) := by
  have e := eq_ternary ops_staged V (c := main_call20_v13) (a := main_call20_v12) (b := main_call20_call0_v1) (y := main_v263) (f := (fun p a b => select (broadcastInDim S1x80x1x1 ![] bcast_S_S1x80x1x1 p) a b)) (hc := ⟨by decide, by rfl⟩) (ha := ⟨by decide, by rfl⟩) (hb := ⟨by decide, by rfl⟩) (hy := ⟨by decide, by rfl⟩) (mem5 (List.getElem_mem (l := ops5) (n := 54) (Nat.le_of_ble_eq_true rfl)))
  exact e
theorem st_main_v264 (V : Valuation τ sig (Elt F)) :
    after ops V (Proc.devRef .tc main_v264) = (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F)) (after ops V (Proc.devRef .tc main_v262)) := by
  have e := eq_unary ops_staged V (x := main_v262) (y := main_v264) (f := (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F))) (hx := ⟨by decide, by rfl⟩) (hy := ⟨by decide, by rfl⟩) (mem5 (List.getElem_mem (l := ops5) (n := 55) (Nat.le_of_ble_eq_true rfl)))
  exact e
theorem st_main_v265 (V : Valuation τ sig (Elt F)) :
    after ops V (Proc.devRef .tc main_v265) = (subf : (⟨S1x80x200x200, .f32⟩ : BufTy).Contents (Elt F) → (⟨S1x80x200x200, .f32⟩ : BufTy).Contents (Elt F) → (⟨S1x80x200x200, .f32⟩ : BufTy).Contents (Elt F)) (after ops V (Proc.devRef .tc main_v258)) (after ops V (Proc.devRef .tc main_v264)) := by
  have e := eq_binary ops_staged V (a := main_v258) (b := main_v264) (y := main_v265) (f := (subf : (⟨S1x80x200x200, .f32⟩ : BufTy).Contents (Elt F) → (⟨S1x80x200x200, .f32⟩ : BufTy).Contents (Elt F) → (⟨S1x80x200x200, .f32⟩ : BufTy).Contents (Elt F))) (ha := ⟨by decide, by rfl⟩) (hb := ⟨by decide, by rfl⟩) (hy := ⟨by decide, by rfl⟩) (mem5 (List.getElem_mem (l := ops5) (n := 56) (Nat.le_of_ble_eq_true rfl)))
  exact e
theorem st_main_cst_66 (V : Valuation τ sig (Elt F)) :
    after ops V (Proc.devRef .tc main_cst_66) = (constant S_ .f32 0x3727C5AC#32) := by
  have e := eq_nullary ops_staged V  (y := main_cst_66) (v := (constant S_ .f32 0x3727C5AC#32))  (hy := ⟨by decide, by rfl⟩) (mem5 (List.getElem_mem (l := ops5) (n := 57) (Nat.le_of_ble_eq_true rfl)))
  exact e
theorem st_main_v266 (V : Valuation τ sig (Elt F)) :
    after ops V (Proc.devRef .tc main_v266) = (broadcastInDim S1x80x1x1 ![] bcast_S_S1x80x1x1 : (⟨S_, .f32⟩ : BufTy).Contents (Elt F) → (⟨S1x80x1x1, .f32⟩ : BufTy).Contents (Elt F)) (after ops V (Proc.devRef .tc main_cst_66)) := by
  have e := eq_unary ops_staged V (x := main_cst_66) (y := main_v266) (f := (broadcastInDim S1x80x1x1 ![] bcast_S_S1x80x1x1 : (⟨S_, .f32⟩ : BufTy).Contents (Elt F) → (⟨S1x80x1x1, .f32⟩ : BufTy).Contents (Elt F))) (hx := ⟨by decide, by rfl⟩) (hy := ⟨by decide, by rfl⟩) (mem5 (List.getElem_mem (l := ops5) (n := 58) (Nat.le_of_ble_eq_true rfl)))
  exact e
theorem st_main_v267 (V : Valuation τ sig (Elt F)) :
    after ops V (Proc.devRef .tc main_v267) = (addf : (⟨S1x80x1x1, .f32⟩ : BufTy).Contents (Elt F) → (⟨S1x80x1x1, .f32⟩ : BufTy).Contents (Elt F) → (⟨S1x80x1x1, .f32⟩ : BufTy).Contents (Elt F)) (after ops V (Proc.devRef .tc main_v263)) (after ops V (Proc.devRef .tc main_v266)) := by
  have e := eq_binary ops_staged V (a := main_v263) (b := main_v266) (y := main_v267) (f := (addf : (⟨S1x80x1x1, .f32⟩ : BufTy).Contents (Elt F) → (⟨S1x80x1x1, .f32⟩ : BufTy).Contents (Elt F) → (⟨S1x80x1x1, .f32⟩ : BufTy).Contents (Elt F))) (ha := ⟨by decide, by rfl⟩) (hb := ⟨by decide, by rfl⟩) (hy := ⟨by decide, by rfl⟩) (mem5 (List.getElem_mem (l := ops5) (n := 59) (Nat.le_of_ble_eq_true rfl)))
  exact e
theorem st_main_v268 (V : Valuation τ sig (Elt F)) :
    after ops V (Proc.devRef .tc main_v268) = (Host.sqrt : (⟨S1x80x1x1, .f32⟩ : BufTy).Contents (Elt F) → (⟨S1x80x1x1, .f32⟩ : BufTy).Contents (Elt F)) (after ops V (Proc.devRef .tc main_v267)) := by
  have e := eq_unary ops_staged V (x := main_v267) (y := main_v268) (f := (Host.sqrt : (⟨S1x80x1x1, .f32⟩ : BufTy).Contents (Elt F) → (⟨S1x80x1x1, .f32⟩ : BufTy).Contents (Elt F))) (hx := ⟨by decide, by rfl⟩) (hy := ⟨by decide, by rfl⟩) (mem5 (List.getElem_mem (l := ops5) (n := 60) (Nat.le_of_ble_eq_true rfl)))
  exact e
theorem st_main_v269 (V : Valuation τ sig (Elt F)) :
    after ops V (Proc.devRef .tc main_v269) = (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F)) (after ops V (Proc.devRef .tc main_v268)) := by
  have e := eq_unary ops_staged V (x := main_v268) (y := main_v269) (f := (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F))) (hx := ⟨by decide, by rfl⟩) (hy := ⟨by decide, by rfl⟩) (mem5 (List.getElem_mem (l := ops5) (n := 61) (Nat.le_of_ble_eq_true rfl)))
  exact e
theorem st_main_v270 (V : Valuation τ sig (Elt F)) :
    after ops V (Proc.devRef .tc main_v270) = (Host.divf : (⟨S1x80x200x200, .f32⟩ : BufTy).Contents (Elt F) → (⟨S1x80x200x200, .f32⟩ : BufTy).Contents (Elt F) → (⟨S1x80x200x200, .f32⟩ : BufTy).Contents (Elt F)) (after ops V (Proc.devRef .tc main_v265)) (after ops V (Proc.devRef .tc main_v269)) := by
  have e := eq_binary ops_staged V (a := main_v265) (b := main_v269) (y := main_v270) (f := (Host.divf : (⟨S1x80x200x200, .f32⟩ : BufTy).Contents (Elt F) → (⟨S1x80x200x200, .f32⟩ : BufTy).Contents (Elt F) → (⟨S1x80x200x200, .f32⟩ : BufTy).Contents (Elt F))) (ha := ⟨by decide, by rfl⟩) (hb := ⟨by decide, by rfl⟩) (hy := ⟨by decide, by rfl⟩) (mem5 (List.getElem_mem (l := ops5) (n := 62) (Nat.le_of_ble_eq_true rfl)))
  exact e
theorem st_main_v271 (V : Valuation τ sig (Elt F)) :
    after ops V (Proc.devRef .tc main_v271) = (broadcastInDim S1x80x1x1 ![1] bcast_S80_S1x80x1x1_1 : (⟨S80, .f32⟩ : BufTy).Contents (Elt F) → (⟨S1x80x1x1, .f32⟩ : BufTy).Contents (Elt F)) (after ops V (Proc.devRef .tc main_arg9)) := by
  have e := eq_unary ops_staged V (x := main_arg9) (y := main_v271) (f := (broadcastInDim S1x80x1x1 ![1] bcast_S80_S1x80x1x1_1 : (⟨S80, .f32⟩ : BufTy).Contents (Elt F) → (⟨S1x80x1x1, .f32⟩ : BufTy).Contents (Elt F))) (hx := ⟨by decide, by rfl⟩) (hy := ⟨by decide, by rfl⟩) (mem5 (List.getElem_mem (l := ops5) (n := 63) (Nat.le_of_ble_eq_true rfl)))
  exact e
theorem st_main_v272 (V : Valuation τ sig (Elt F)) :
    after ops V (Proc.devRef .tc main_v272) = (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F)) (after ops V (Proc.devRef .tc main_v271)) := by
  have e := eq_unary ops_staged V (x := main_v271) (y := main_v272) (f := (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F))) (hx := ⟨by decide, by rfl⟩) (hy := ⟨by decide, by rfl⟩) (mem5 (List.getElem_mem (l := ops5) (n := 64) (Nat.le_of_ble_eq_true rfl)))
  exact e
theorem st_main_v273 (V : Valuation τ sig (Elt F)) :
    after ops V (Proc.devRef .tc main_v273) = (mulf : (⟨S1x80x200x200, .f32⟩ : BufTy).Contents (Elt F) → (⟨S1x80x200x200, .f32⟩ : BufTy).Contents (Elt F) → (⟨S1x80x200x200, .f32⟩ : BufTy).Contents (Elt F)) (after ops V (Proc.devRef .tc main_v270)) (after ops V (Proc.devRef .tc main_v272)) := by
  have e := eq_binary ops_staged V (a := main_v270) (b := main_v272) (y := main_v273) (f := (mulf : (⟨S1x80x200x200, .f32⟩ : BufTy).Contents (Elt F) → (⟨S1x80x200x200, .f32⟩ : BufTy).Contents (Elt F) → (⟨S1x80x200x200, .f32⟩ : BufTy).Contents (Elt F))) (ha := ⟨by decide, by rfl⟩) (hb := ⟨by decide, by rfl⟩) (hy := ⟨by decide, by rfl⟩) (mem5 (List.getElem_mem (l := ops5) (n := 65) (Nat.le_of_ble_eq_true rfl)))
  exact e
theorem st_main_v274 (V : Valuation τ sig (Elt F)) :
    after ops V (Proc.devRef .tc main_v274) = (broadcastInDim S1x80x1x1 ![1] bcast_S80_S1x80x1x1_1 : (⟨S80, .f32⟩ : BufTy).Contents (Elt F) → (⟨S1x80x1x1, .f32⟩ : BufTy).Contents (Elt F)) (after ops V (Proc.devRef .tc main_arg10)) := by
  have e := eq_unary ops_staged V (x := main_arg10) (y := main_v274) (f := (broadcastInDim S1x80x1x1 ![1] bcast_S80_S1x80x1x1_1 : (⟨S80, .f32⟩ : BufTy).Contents (Elt F) → (⟨S1x80x1x1, .f32⟩ : BufTy).Contents (Elt F))) (hx := ⟨by decide, by rfl⟩) (hy := ⟨by decide, by rfl⟩) (mem5 (List.getElem_mem (l := ops5) (n := 66) (Nat.le_of_ble_eq_true rfl)))
  exact e
theorem st_main_v275 (V : Valuation τ sig (Elt F)) :
    after ops V (Proc.devRef .tc main_v275) = (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F)) (after ops V (Proc.devRef .tc main_v274)) := by
  have e := eq_unary ops_staged V (x := main_v274) (y := main_v275) (f := (broadcastInDim S1x80x200x200 ![0, 1, 2, 3] bcast_S1x80x1x1_S1x80x200x200_0_1_2_3 : (⟨S1x80x1x1, .f32⟩ : BufTy).Contents (Elt F) → (⟨S1x80x200x200, .f32⟩ : BufTy).Contents (Elt F))) (hx := ⟨by decide, by rfl⟩) (hy := ⟨by decide, by rfl⟩) (mem5 (List.getElem_mem (l := ops5) (n := 67) (Nat.le_of_ble_eq_true rfl)))
  exact e
theorem st_main_v276 (V : Valuation τ sig (Elt F)) :
    after ops V (Proc.devRef .tc main_v276) = (addf : (⟨S1x80x200x200, .f32⟩ : BufTy).Contents (Elt F) → (⟨S1x80x200x200, .f32⟩ : BufTy).Contents (Elt F) → (⟨S1x80x200x200, .f32⟩ : BufTy).Contents (Elt F)) (after ops V (Proc.devRef .tc main_v273)) (after ops V (Proc.devRef .tc main_v275)) := by
  have e := eq_binary ops_staged V (a := main_v273) (b := main_v275) (y := main_v276) (f := (addf : (⟨S1x80x200x200, .f32⟩ : BufTy).Contents (Elt F) → (⟨S1x80x200x200, .f32⟩ : BufTy).Contents (Elt F) → (⟨S1x80x200x200, .f32⟩ : BufTy).Contents (Elt F))) (ha := ⟨by decide, by rfl⟩) (hb := ⟨by decide, by rfl⟩) (hy := ⟨by decide, by rfl⟩) (mem5 (List.getElem_mem (l := ops5) (n := 68) (Nat.le_of_ble_eq_true rfl)))
  exact e
theorem st_main_call21_cst (V : Valuation τ sig (Elt F)) :
    after ops V (Proc.devRef .tc main_call21_cst) = ((constant S_ .f32 0x00000000#32) : (⟨S_, .f32⟩ : BufTy).Contents (Elt F)) := by
  have e := eq_nullary ops_staged V  (y := main_call21_cst) (v := (constant S_ .f32 0x00000000#32))  (hy := ⟨by decide, by rfl⟩) (mem5 (List.getElem_mem (l := ops5) (n := 69) (Nat.le_of_ble_eq_true rfl)))
  exact e
theorem st_main_call21_v0 (V : Valuation τ sig (Elt F)) :
    after ops V (Proc.devRef .tc main_call21_v0) = ((broadcastInDim S1x80x200x200 ![] bcast_S_S1x80x200x200) (after ops V (Proc.devRef .tc main_call21_cst) : (⟨S_, .f32⟩ : BufTy).Contents (Elt F)) : (⟨S1x80x200x200, .f32⟩ : BufTy).Contents (Elt F)) := by
  have e := eq_unary ops_staged V (x := main_call21_cst) (y := main_call21_v0) (f := (broadcastInDim S1x80x200x200 ![] bcast_S_S1x80x200x200)) (hx := ⟨by decide, by rfl⟩) (hy := ⟨by decide, by rfl⟩) (mem5 (List.getElem_mem (l := ops5) (n := 70) (Nat.le_of_ble_eq_true rfl)))
  exact e
theorem st_main_v277 (V : Valuation τ sig (Elt F)) :
    after ops V (Proc.devRef .tc main_v277) = (maximumf (after ops V (Proc.devRef .tc main_v276) : (⟨S1x80x200x200, .f32⟩ : BufTy).Contents (Elt F)) (after ops V (Proc.devRef .tc main_call21_v0) : (⟨S1x80x200x200, .f32⟩ : BufTy).Contents (Elt F)) : (⟨S1x80x200x200, .f32⟩ : BufTy).Contents (Elt F)) := by
  have e := eq_binary ops_staged V (a := main_v276) (b := main_call21_v0) (y := main_v277) (f := maximumf) (ha := ⟨by decide, by rfl⟩) (hb := ⟨by decide, by rfl⟩) (hy := ⟨by decide, by rfl⟩) (mem5 (List.getElem_mem (l := ops5) (n := 71) (Nat.le_of_ble_eq_true rfl)))
  exact e

end Cert.ReferenceIdeal.RefRun

end
-- ==== Proof.RefValue.lean ====
/-
  The reference's result read at an index, stage by stage.

  The final contents of @main's line are a fixed point of each of its operations, so each buffer's final contents are its
  operation's function of its operands' final contents (the stage equations). Reading these at an index, operation by
  operation — an elementwise operation at the same index, a slice, reshape or broadcast at the index its layout names, a
  contraction as a sum over the contracted coordinate — gives each stage as ONE function of earlier stages, index by
  index; each stage is kept folded behind its definition.
-/
import proofs.«207241_g55714315764006_cont_9to1c4b_410_29_alg».proof.Proof.RefStaged
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

namespace Cert.ReferenceIdeal.RefValue

open Cert.ReferenceIdeal Cert.ReferenceIdeal.Facts₀ Cert.ReferenceIdeal.Facts Cert.ReferenceIdeal.RefRun Idealize.ShloMosaic
  Idealize.SL.Sem Idealize.ShloMosaic.StableHlo Idealize.ShloMosaic.ValueIdx
open scoped BigOperators

variable [Cert.ReferenceIdeal.Facts]

set_option hygiene false in
/-- The final contents of a reference, from the contents V the line starts at. -/
local macro "A%" b:ident : term => `(after (ops (F := Idealize.ShloMosaic.Ideal)) V (Proc.devRef .tc $b))

/-! ## Layout patterns the reference repeats -/

section Patterns
variable {α : Type}

/-- A scalar broadcast to any shape reads the scalar everywhere. -/
theorem bcast_scalar {t : Shape} (h : S_.BroadcastsInDim t (![] : Fin 0 → Fin t.rank)) (x : S_.Idx → α) (i : t.Idx) :
    broadcastInDim t (![] : Fin 0 → Fin t.rank) h x i = x ix0 :=
  broadcastInDim_apply _ h x i ix0 (fun a => a.elim0)

/-- Row r of a [6, 3, N] array, taken as the slice [0:6, r:r+1, 0:N] and reshaped to [6, N], reads the array at (j, r, n). -/
theorem row_apply {N : ℕ} (o : ℕ) (X : (⟨3, ![6, 3, N]⟩ : Shape).Idx → α)
    (h₁ : (⟨3, ![6, 3, N]⟩ : Shape).Slices ![0, o, 0] ⟨3, ![6, 1, N]⟩)
    (h₂ : (⟨3, ![6, 1, N]⟩ : Shape).ShapeCasts ⟨2, ![6, N]⟩) (j : Fin 6) (n : Fin N) (r : Fin 3) (hr : r.val = o) :
    shapeCast ⟨2, ![6, N]⟩ (extractStridedSlice ⟨3, ![6, 1, N]⟩ ![0, o, 0] X h₁) h₂ (ix2 j n) = X (ix3 j r n) := by
  refine (shapeCast_apply _ h₂ (ix2 j n) (ix3 j (0 : Fin 1) n) (by
    rw [Shape.rowMajor_val_three, Shape.rowMajor_val_two]
    show (j.val * 1 + 0) * N + n.val = j.val * N + n.val
    rw [Nat.mul_one, Nat.add_zero])).trans ?_
  exact extractStridedSlice_apply _ _ h₁ _ (ix3 j r n) (fun a => match a with
    | ⟨0, _⟩ => by show j.val = 0 + j.val; omega
    | ⟨1, _⟩ => by show r.val = o + 0; omega
    | ⟨2, _⟩ => by show n.val = 0 + n.val; omega)

/-- Column c of a [6, 4] array — the slice [0:6, c:c+1], reshaped to [6], broadcast back to [6, 1] and then along the second
    axis to [6, N] — reads the array at (j, c) at every (j, n). -/
theorem col_apply {N : ℕ} (o : ℕ) (X : (⟨2, ![6, 4]⟩ : Shape).Idx → α)
    (h₁ : (⟨2, ![6, 4]⟩ : Shape).Slices ![0, o] ⟨2, ![6, 1]⟩) (h₂ : (⟨2, ![6, 1]⟩ : Shape).ShapeCasts ⟨1, ![6]⟩)
    (h₃ : (⟨1, ![6]⟩ : Shape).BroadcastsInDim ⟨2, ![6, 1]⟩ (![0] : Fin 1 → Fin 2))
    (h₄ : (⟨2, ![6, 1]⟩ : Shape).BroadcastsInDim ⟨2, ![6, N]⟩ (![0, 1] : Fin 2 → Fin 2)) (j : Fin 6) (n : Fin N) (c : Fin 4)
    (hc : c.val = o) :
    broadcastInDim ⟨2, ![6, N]⟩ ![0, 1] h₄ (broadcastInDim ⟨2, ![6, 1]⟩ ![0] h₃
      (shapeCast ⟨1, ![6]⟩ (extractStridedSlice ⟨2, ![6, 1]⟩ ![0, o] X h₁) h₂)) (ix2 j n) = X (ix2 j c) := by
  refine (broadcastInDim_apply _ h₄ _ (ix2 j n) (ix2 j (0 : Fin 1)) (fun a => match a with
    | ⟨0, _⟩ => rfl
    | ⟨1, _⟩ => rfl)).trans ?_
  refine (broadcastInDim_apply _ h₃ _ (ix2 j (0 : Fin 1)) (ix1 j) (fun a => match a with
    | ⟨0, _⟩ => rfl)).trans ?_
  refine (shapeCast_apply _ h₂ (ix1 j) (ix2 j (0 : Fin 1)) (by
    rw [Shape.rowMajor_val_two, Shape.rowMajor_val_one]
    show j.val * 1 + 0 = j.val
    rw [Nat.mul_one, Nat.add_zero])).trans ?_
  exact extractStridedSlice_apply _ _ h₁ _ (ix2 j c) (fun a => match a with
    | ⟨0, _⟩ => by show j.val = 0 + j.val; omega
    | ⟨1, _⟩ => by show c.val = o + 0; omega)

end Patterns

/-! ## The per-camera integer stage

For camera j and voxel n: the projected homogeneous coordinates p2iR (the buffer of the batched contraction, kept folded
here), the image-augmentation translation ttR (the last column of img_aug_matrix), the pixel coordinates uR and vR, their
feature-map cells uiR and viR (divided by the stride 4, rounded to even, converted to a 32-bit integer), and the validity bit
validR, as the printed word operations compute it. -/

section IntegerStage

variable (V : Valuation τ sig (Elt Ideal))

/-- The projected homogeneous coordinate r of voxel n for camera j: the batched contraction's buffer, read at (j, r, n). -/
def p2iR (j : Fin 6) (r : Fin 3) (n : Fin 160000) : EReal :=
  (A% main_v51 : (⟨S6x3x160000, .f32⟩ : BufTy).Contents (Elt Ideal)) (ix3 j r n)

/-- The image augmentation's translation: img_aug_matrix[0, j, r, 3]. -/
def ttR (j : Fin 6) (r : Fin 4) : EReal :=
  (V (Proc.devRef .tc main_arg4) : (⟨S1x6x4x4, .f32⟩ : BufTy).Contents (Elt Ideal)) (ix4 (0 : Fin 1) j r (3 : Fin 4))

/-- The stride 4.0, as the printed constant reads. -/
def strideR : EReal := Ideal.ofBits .f32 0x40800000#32

/-- The pixel column: the first homogeneous coordinate over the third, plus the translation's first entry. -/
def uR (j : Fin 6) (n : Fin 160000) : EReal := FloatOps.hostDivf (F := Ideal) (φ := .f32) (p2iR V j 0 n) (p2iR V j 2 n) + ttR V j 0
/-- The pixel row: the second homogeneous coordinate over the third, plus the translation's second entry. -/
def vR (j : Fin 6) (n : Fin 160000) : EReal := FloatOps.hostDivf (F := Ideal) (φ := .f32) (p2iR V j 1 n) (p2iR V j 2 n) + ttR V j 1

/-- The feature-map column: the pixel column over the stride, rounded to even, as a signed 32-bit word. -/
def uiR (j : Fin 6) (n : Fin 160000) : BitVec 32 :=
  FloatOps.fptosi (F := Ideal) (φ := .f32) 32 (FloatOps.hostUnary (F := Ideal) (φ := .f32) .roundeven (FloatOps.hostDivf (F := Ideal) (φ := .f32) (uR V j n) strideR))
/-- The feature-map row. -/
def viR (j : Fin 6) (n : Fin 160000) : BitVec 32 :=
  FloatOps.fptosi (F := Ideal) (φ := .f32) 32 (FloatOps.hostUnary (F := Ideal) (φ := .f32) .roundeven (FloatOps.hostDivf (F := Ideal) (φ := .f32) (vR V j n) strideR))

/-- The validity bit: 0 ≤ column, 0 ≤ row, column < 176, row < 64 (signed), and a positive third coordinate — the printed
    comparisons and conjunctions, in the printed order. -/
def validR (j : Fin 6) (n : Fin 160000) : BitVec 1 :=
  IntOp.andi (IntOp.andi (IntOp.andi (IntOp.andi (IntOp.cmpi .sge (uiR V j n) 0#32) (IntOp.cmpi .sge (viR V j n) 0#32))
    (IntOp.cmpi .slt (uiR V j n) 176#32)) (IntOp.cmpi .slt (viR V j n) 64#32))
    (FloatOps.cmpf (F := Ideal) (φ := .f32) .ogt (p2iR V j 2 n) (Ideal.ofBits .f32 0x00000000#32))

/-- %28, the translation column as a [6, 4] array, at (j, r). -/
theorem read_v28 (j : Fin 6) (r : Fin 4) :
    (A% main_v28 : (⟨S6x4, .f32⟩ : BufTy).Contents (Elt Ideal)) (ix2 j r) = ttR V j r := by
  unfold ttR
  rw [st_main_v28]
  refine (shapeCast_apply _ _ (ix2 j r) (ix3 j r (0 : Fin 1)) (by
    rw [Shape.rowMajor_val_three, Shape.rowMajor_val_two]
    show (j.val * 4 + r.val) * 1 + 0 = j.val * 4 + r.val
    omega)).trans ?_
  rw [st_main_v27]
  refine (extractStridedSlice_apply _ _ _ (ix3 j r (0 : Fin 1)) (ix3 j r (3 : Fin 4)) (fun a => match a with
    | ⟨0, _⟩ => by show j.val = 0 + j.val; omega
    | ⟨1, _⟩ => by show r.val = 0 + r.val; omega
    | ⟨2, _⟩ => by show 3 = 3 + 0; omega)).trans ?_
  rw [st_main_v26]
  refine (shapeCast_apply _ _ (ix3 j r (3 : Fin 4)) (ix4 (0 : Fin 1) j r (3 : Fin 4)) (by
    rw [Shape.rowMajor_val_four, Shape.rowMajor_val_three]
    show ((0 * 6 + j.val) * 4 + r.val) * 4 + 3 = (j.val * 4 + r.val) * 4 + 3
    omega)).trans ?_
  rw [kept_arg4]

/-- %53: the third homogeneous coordinate as a [6, N] array. -/
theorem read_v53 (j : Fin 6) (n : Fin 160000) :
    (A% main_v53 : (⟨S6x160000, .f32⟩ : BufTy).Contents (Elt Ideal)) (ix2 j n) = p2iR V j 2 n := by
  unfold p2iR
  rw [st_main_v53, st_main_v52]
  exact row_apply 2 _ _ _ j n 2 rfl
/-- %55: the first. -/
theorem read_v55 (j : Fin 6) (n : Fin 160000) :
    (A% main_v55 : (⟨S6x160000, .f32⟩ : BufTy).Contents (Elt Ideal)) (ix2 j n) = p2iR V j 0 n := by
  unfold p2iR
  rw [st_main_v55, st_main_v54]
  exact row_apply 0 _ _ _ j n 0 rfl
/-- %63: the second. -/
theorem read_v63 (j : Fin 6) (n : Fin 160000) :
    (A% main_v63 : (⟨S6x160000, .f32⟩ : BufTy).Contents (Elt Ideal)) (ix2 j n) = p2iR V j 1 n := by
  unfold p2iR
  rw [st_main_v63, st_main_v62]
  exact row_apply 1 _ _ _ j n 1 rfl

/-- %60: the translation's first entry, broadcast over the voxels. -/
theorem read_v60 (j : Fin 6) (n : Fin 160000) :
    (A% main_v60 : (⟨S6x160000, .f32⟩ : BufTy).Contents (Elt Ideal)) (ix2 j n) = ttR V j 0 := by
  rw [st_main_v60, st_main_v59, st_main_v58, st_main_v57]
  exact (col_apply 0 _ _ _ _ _ j n 0 rfl).trans (read_v28 V j 0)
/-- %68: its second entry. -/
theorem read_v68 (j : Fin 6) (n : Fin 160000) :
    (A% main_v68 : (⟨S6x160000, .f32⟩ : BufTy).Contents (Elt Ideal)) (ix2 j n) = ttR V j 1 := by
  rw [st_main_v68, st_main_v67, st_main_v66, st_main_v65]
  exact (col_apply 1 _ _ _ _ _ j n 1 rfl).trans (read_v28 V j 1)

/-- %61 is the pixel column. -/
theorem read_v61 (j : Fin 6) (n : Fin 160000) :
    (A% main_v61 : (⟨S6x160000, .f32⟩ : BufTy).Contents (Elt Ideal)) (ix2 j n) = uR V j n := by
  unfold uR
  rw [st_main_v61, st_main_v56]
  show FloatOps.hostDivf _ _ + _ = _
  rw [read_v55, read_v53, read_v60]
/-- %69 is the pixel row. -/
theorem read_v69 (j : Fin 6) (n : Fin 160000) :
    (A% main_v69 : (⟨S6x160000, .f32⟩ : BufTy).Contents (Elt Ideal)) (ix2 j n) = vR V j n := by
  unfold vR
  rw [st_main_v69, st_main_v64]
  show FloatOps.hostDivf _ _ + _ = _
  rw [read_v63, read_v53, read_v68]

/-- %73, the feature-map columns, at (j, n). -/
theorem read_v73 (j : Fin 6) (n : Fin 160000) :
    (A% main_v73 : (⟨S6x160000, .i32⟩ : BufTy).Contents (Elt Ideal)) (ix2 j n) = uiR V j n := by
  unfold uiR strideR
  rw [st_main_v73, st_main_v72, st_main_v71, st_main_v70, st_main_cst_6]
  show FloatOps.fptosi 32 (FloatOps.hostUnary .roundeven (FloatOps.hostDivf _ (broadcastInDim _ _ _ _ _))) = _
  rw [bcast_scalar, read_v61]
  rfl
/-- %77, the feature-map rows, at (j, n). -/
theorem read_v77 (j : Fin 6) (n : Fin 160000) :
    (A% main_v77 : (⟨S6x160000, .i32⟩ : BufTy).Contents (Elt Ideal)) (ix2 j n) = viR V j n := by
  unfold viR strideR
  rw [st_main_v77, st_main_v76, st_main_v75, st_main_v74, st_main_cst_7]
  show FloatOps.fptosi 32 (FloatOps.hostUnary .roundeven (FloatOps.hostDivf _ (broadcastInDim _ _ _ _ _))) = _
  rw [bcast_scalar, read_v69]
  rfl

/-- %91, the validity mask, at (j, n). -/
theorem read_v91 (j : Fin 6) (n : Fin 160000) :
    (A% main_v91 : (⟨S6x160000, .i1⟩ : BufTy).Contents (Elt Ideal)) (ix2 j n) = validR V j n := by
  unfold validR
  rw [st_main_v91, st_main_v90, st_main_v89, st_main_cst_12, st_main_v88, st_main_v87, st_main_v86, st_main_c_11, st_main_v85,
    st_main_v84, st_main_v83, st_main_c_10, st_main_v82, st_main_v81, st_main_v80, st_main_c_9, st_main_v79, st_main_v78,
    st_main_c_8]
  show IntOp.andi (IntOp.andi (IntOp.andi (IntOp.andi (IntOp.cmpi .sge _ (broadcastInDim _ _ _ _ _)) (IntOp.cmpi .sge _ (broadcastInDim _ _ _ _ _)))
    (IntOp.cmpi .slt _ (broadcastInDim _ _ _ _ _))) (IntOp.cmpi .slt _ (broadcastInDim _ _ _ _ _)))
    (FloatOps.cmpf .ogt _ (broadcastInDim _ _ _ _ _)) = _
  rw [bcast_scalar, bcast_scalar, bcast_scalar, bcast_scalar, read_v73, read_v77, read_v53]
  rfl

end IntegerStage

/-! ## The feature gather read at an index -/

section Gather
variable {α : Type}

local notation "gd" => gather_S256x64x176_S160000x2_S256x160000_0_12_n_n_12_1_25611

/-- The gather of a [256, 64, 176] operand at a [N, 2] array of (row, column) start indices, offset axis the channel, the two
    spatial axes collapsed: result element (ch, n) is the operand at channel ch, at the row idx[n, 0] and the column idx[n, 1],
    each read signed and clamped into its axis. -/
theorem gather_feat_apply (x : S256x64x176.Idx → α) (idx : IVec S160000x2 32) (ch : Fin 256) (n : Fin 160000) :
    Host.gather gd x idx (ix2 ch n)
      = x (ix3 ch ⟨min (idx (ix2 n (0 : Fin 2))).toInt.toNat 63, by omega⟩ ⟨min (idx (ix2 n (1 : Fin 2))).toInt.toNat 175, by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    have hs : GatherDims.start gd (ix2 ch n) idx ⟨0, by decide⟩ = 0 := by
      unfold GatherDims.start
      rw [dif_neg (by decide)]
    rw [hs, Nat.zero_add]
    rfl
  | ⟨1, h1⟩ =>
    have hm : (⟨1, h1⟩ : Fin S256x64x176.rank) ∈ (gd).startIndexMap := List.Mem.head _
    have hsi : (gd).siIdx (ix2 ch n) ⟨List.idxOf (⟨1, h1⟩ : Fin S256x64x176.rank) (gd).startIndexMap,
        List.idxOf_lt_length_iff.2 hm⟩ = ix2 n (0 : Fin 2) := by
      funext b; refine Fin.ext ?_
      match b with
      | ⟨0, _⟩ => rfl
      | ⟨1, _⟩ => rfl
    rw [GatherDims.offCoord_eq_zero _ _ _ (fun h => ((GatherDims.mem_sKept _ _).mp h).1 hm), Nat.add_zero]
    unfold GatherDims.start
    rw [dif_pos hm, hsi]
    rfl
  | ⟨2, h2⟩ =>
    have hm : (⟨2, h2⟩ : Fin S256x64x176.rank) ∈ (gd).startIndexMap := List.Mem.tail _ (List.Mem.head _)
    have hsi : (gd).siIdx (ix2 ch n) ⟨List.idxOf (⟨2, h2⟩ : Fin S256x64x176.rank) (gd).startIndexMap,
        List.idxOf_lt_length_iff.2 hm⟩ = ix2 n (1 : Fin 2) := by
      funext b; refine Fin.ext ?_
      match b with
      | ⟨0, _⟩ => rfl
      | ⟨1, _⟩ => rfl
    rw [GatherDims.offCoord_eq_zero _ _ _ (fun h => ((GatherDims.mem_sKept _ _).mp h).1 hm), Nat.add_zero]
    unfold GatherDims.start
    rw [dif_pos hm, hsi]
    rfl

end Gather

section Gather2
variable {α : Type}
local notation "gd" => gather_S256x64x176_S160000x2_S256x160000_0_12_n_n_12_1_25611

/-- The same with the two start indices named. -/
theorem gather_feat_eq (x : S256x64x176.Idx → α) (idx : IVec S160000x2 32) (ch : Fin 256) (n : Fin 160000) (r c : BitVec 32)
    (h₀ : idx (ix2 n (0 : Fin 2)) = r) (h₁ : idx (ix2 n (1 : Fin 2)) = c) :
    Host.gather gd x idx (ix2 ch n) = x (ix3 ch ⟨min r.toInt.toNat 63, by omega⟩ ⟨min c.toInt.toNat 175, by omega⟩) := by
  subst h₀ h₁
  exact gather_feat_apply x idx ch n
end Gather2

/-! ## The per-camera layout patterns -/

section CameraPatterns
variable {α : Type}

/-- Row c of a [6, N] array — the slice [c:c+1, 0:N] reshaped to [N] — reads the array at (c, n). -/
theorem rowN_apply (o : ℕ) (X : S6x160000.Idx → α) (h₁ : S6x160000.Slices ![o, 0] S1x160000)
    (h₂ : S1x160000.ShapeCasts S160000) (n : Fin 160000) (c : Fin 6) (hc : c.val = o) :
    shapeCast S160000 (extractStridedSlice S1x160000 ![o, 0] X h₁) h₂ (ix1 n) = X (ix2 c n) := by
  refine (shapeCast_apply _ h₂ (ix1 n) (ix2 (0 : Fin 1) n) (by
    rw [Shape.rowMajor_val_two, Shape.rowMajor_val_one]
    show 0 * 160000 + n.val = n.val
    omega)).trans ?_
  exact extractStridedSlice_apply _ _ h₁ _ (ix2 c n) (fun a => match a with
    | ⟨0, _⟩ => by show c.val = o + 0; omega
    | ⟨1, _⟩ => by show n.val = 0 + n.val; omega)

/-- Row c of the validity mask, broadcast over the 256 channels, reads the mask at (c, n) at every (ch, n). -/
theorem mask_apply (o : ℕ) (X : S6x160000.Idx → α) (h₁ : S6x160000.Slices ![o, 0] S1x160000)
    (h₂ : S1x160000.ShapeCasts S160000) (h₃ : S160000.BroadcastsInDim S1x160000 (![1] : Fin 1 → Fin 2))
    (h₄ : S1x160000.BroadcastsInDim S256x160000 (![0, 1] : Fin 2 → Fin 2)) (ch : Fin 256) (n : Fin 160000) (c : Fin 6)
    (hc : c.val = o) :
    broadcastInDim S256x160000 ![0, 1] h₄ (broadcastInDim S1x160000 ![1] h₃
      (shapeCast S160000 (extractStridedSlice S1x160000 ![o, 0] X h₁) h₂)) (ix2 ch n) = X (ix2 c n) := by
  refine (broadcastInDim_apply _ h₄ _ (ix2 ch n) (ix2 (0 : Fin 1) n) (fun a => match a with
    | ⟨0, _⟩ => rfl
    | ⟨1, _⟩ => rfl)).trans ?_
  refine (broadcastInDim_apply _ h₃ _ (ix2 (0 : Fin 1) n) (ix1 n) (fun a => match a with
    | ⟨0, _⟩ => rfl)).trans ?_
  exact rowN_apply o X h₁ h₂ n c hc

/-- Camera c's feature map — the argument reshaped to [6, 256, 64, 176], the slice [c:c+1, …], reshaped to [256, 64, 176] —
    reads the argument at (0, c, ch, y, x). -/
theorem feat_apply (o : ℕ) (X : S1x6x256x64x176.Idx → α) (h₀ : S1x6x256x64x176.ShapeCasts S6x256x64x176)
    (h₁ : S6x256x64x176.Slices ![o, 0, 0, 0] S1x256x64x176) (h₂ : S1x256x64x176.ShapeCasts S256x64x176)
    (c : Fin 6) (hc : c.val = o) (ch : Fin 256) (y : Fin 64) (x : Fin 176) :
    shapeCast S256x64x176 (extractStridedSlice S1x256x64x176 ![o, 0, 0, 0] (shapeCast S6x256x64x176 X h₀) h₁) h₂ (ix3 ch y x)
      = X (ix5 (0 : Fin 1) c ch y x) := by
  refine (shapeCast_apply _ h₂ (ix3 ch y x) (ix4 (0 : Fin 1) ch y x) (by
    rw [Shape.rowMajor_val_four, Shape.rowMajor_val_three]
    show ((0 * 256 + ch.val) * 64 + y.val) * 176 + x.val = (ch.val * 64 + y.val) * 176 + x.val
    omega)).trans ?_
  refine (extractStridedSlice_apply _ _ h₁ _ (ix4 c ch y x) (fun a => match a with
    | ⟨0, _⟩ => by show c.val = o + 0; omega
    | ⟨1, _⟩ => by show ch.val = 0 + ch.val; omega
    | ⟨2, _⟩ => by show y.val = 0 + y.val; omega
    | ⟨3, _⟩ => by show x.val = 0 + x.val; omega)).trans ?_
  exact shapeCast_apply _ h₀ (ix4 c ch y x) (ix5 (0 : Fin 1) c ch y x) (by
    rw [Shape.rowMajor_val_five, Shape.rowMajor_val_four]
    show (((0 * 6 + c.val) * 256 + ch.val) * 64 + y.val) * 176 + x.val = ((c.val * 256 + ch.val) * 64 + y.val) * 176 + x.val
    omega)

/-- The (row, column) start indices — two [N] vectors broadcast to [N, 1] and concatenated along the second axis — read the
    first vector in column 0 … -/
theorem pair_apply_fst (a b : S160000.Idx → α) (hb : S160000.BroadcastsInDim S160000x1 (![0] : Fin 1 → Fin 2))
    (hc : Shape.Concatenates [S160000x1, S160000x1] S160000x2 1) (n : Fin 160000) :
    concatenate S160000x2 1 [⟨S160000x1, broadcastInDim S160000x1 ![0] hb a⟩, ⟨S160000x1, broadcastInDim S160000x1 ![0] hb b⟩] hc
      (ix2 n (0 : Fin 2)) = a (ix1 n) := by
  refine (concatenate_pair_apply_left 1 _ _ hc (ix2 n (0 : Fin 2)) rfl (ix2 n (0 : Fin 1)) (fun d => match d with
    | ⟨0, _⟩ => rfl
    | ⟨1, _⟩ => rfl)).trans ?_
  exact broadcastInDim_apply _ hb _ _ (ix1 n) (fun d => match d with | ⟨0, _⟩ => rfl)

/-- … and the second in column 1. -/
theorem pair_apply_snd (a b : S160000.Idx → α) (hb : S160000.BroadcastsInDim S160000x1 (![0] : Fin 1 → Fin 2))
    (hc : Shape.Concatenates [S160000x1, S160000x1] S160000x2 1) (n : Fin 160000) :
    concatenate S160000x2 1 [⟨S160000x1, broadcastInDim S160000x1 ![0] hb a⟩, ⟨S160000x1, broadcastInDim S160000x1 ![0] hb b⟩] hc
      (ix2 n (1 : Fin 2)) = b (ix1 n) := by
  refine (concatenate_pair_apply_right 1 _ _ hc (ix2 n (1 : Fin 2)) rfl rfl (ix2 n (0 : Fin 1)) (fun d hd => match d, hd with
    | ⟨0, _⟩, _ => rfl
    | ⟨1, _⟩, hd => absurd rfl hd) rfl).trans ?_
  exact broadcastInDim_apply _ hb _ _ (ix1 n) (fun d => match d with | ⟨0, _⟩ => rfl)

end CameraPatterns

/-! ## The volume

For each camera in turn the reference clips the cell coordinates into the feature map, gathers the feature there for every
channel, and keeps it where the camera sees the voxel, the previous cameras' value elsewhere. -/

section Volume

variable (V : Valuation τ sig (Elt Ideal))

/-- jnp.clip(x, 0, hi) on signed words, as printed: the minimum of hi and the maximum of 0 and x. -/
def clipR (hi x : BitVec 32) : BitVec 32 := IntOp.minsi hi (IntOp.maxsi 0#32 x)
/-- The index normalisation of an integer gather: a negative index has the axis length m added. -/
def wrapR (m x : BitVec 32) : BitVec 32 := Scalar.select (IntOp.cmpi .slt x 0#32) (IntOp.addi x m) x

/-- The feature-map row camera j reads for voxel n: the clipped, normalised row, as the gather clamps it. -/
def rowR (j : Fin 6) (n : Fin 160000) : Fin 64 := ⟨min (wrapR 64#32 (clipR 63#32 (viR V j n))).toInt.toNat 63, by omega⟩
/-- The feature-map column. -/
def colR (j : Fin 6) (n : Fin 160000) : Fin 176 := ⟨min (wrapR 176#32 (clipR 175#32 (uiR V j n))).toInt.toNat 175, by omega⟩

/-- The feature maps: mlvl_feats[0, j, ch, y, x]. -/
def featR (j : Fin 6) (ch : Fin 256) (y : Fin 64) (x : Fin 176) : EReal :=
  (V (Proc.devRef .tc main_arg0) : (⟨S1x6x256x64x176, .f32⟩ : BufTy).Contents (Elt Ideal)) (ix5 (0 : Fin 1) j ch y x)

/-- What camera j gathers for channel ch at voxel n. -/
def gathR (j : Fin 6) (ch : Fin 256) (n : Fin 160000) : EReal := featR V j ch (rowR V j n) (colR V j n)

/-- One camera's update of the volume: its gathered feature where it sees the voxel, the previous value elsewhere. -/
def volStep (j : Fin 6) (prev : EReal) (ch : Fin 256) (n : Fin 160000) : EReal :=
  Scalar.select (validR V j n) (gathR V j ch n) prev

/-- The volume: from zero, the six cameras' updates in order. -/
def volumeR (ch : Fin 256) (n : Fin 160000) : EReal :=
  volStep V 5 (volStep V 4 (volStep V 3 (volStep V 2 (volStep V 1 (volStep V 0 (Ideal.ofBits .f32 0x00000000#32) ch n) ch n) ch n) ch n)
    ch n) ch n

/-- %21: the feature maps with the batch axis dropped — read below through feat_apply. %92: the zero volume. -/
theorem read_v92 (ch : Fin 256) (n : Fin 160000) :
    (A% main_v92 : (⟨S256x160000, .f32⟩ : BufTy).Contents (Elt Ideal)) (ix2 ch n) = Ideal.ofBits .f32 0x00000000#32 := by
  rw [st_main_v92, st_main_cst_13]
  exact bcast_scalar _ _ _

/-! ### Camera 0 -/

theorem read_rowu_0 (n : Fin 160000) :
    (A% main_v94 : (⟨S160000, .i32⟩ : BufTy).Contents (Elt Ideal)) (ix1 n) = uiR V 0 n := by
  rw [st_main_v94, st_main_v93]
  exact (rowN_apply 0 _ _ _ n 0 rfl).trans (read_v73 V 0 n)
theorem read_rowv_0 (n : Fin 160000) :
    (A% main_v97 : (⟨S160000, .i32⟩ : BufTy).Contents (Elt Ideal)) (ix1 n) = viR V 0 n := by
  rw [st_main_v97, st_main_v96]
  exact (rowN_apply 0 _ _ _ n 0 rfl).trans (read_v77 V 0 n)
theorem read_clipu_0 (n : Fin 160000) :
    (A% main_v95 : (⟨S160000, .i32⟩ : BufTy).Contents (Elt Ideal)) (ix1 n) = clipR 175#32 (uiR V 0 n) := by
  unfold clipR
  rw [st_main_v95, st_main_call2_v4, st_main_call2_v3, st_main_c_15, st_main_call2_v2, st_main_call2_v1, st_main_call2_v0, st_main_c_14]
  show IntOp.minsi (broadcastInDim _ _ _ _ _) (IntOp.maxsi (broadcastInDim _ _ _ _ _) _) = _
  rw [bcast_scalar, bcast_scalar, read_rowu_0]
  rfl
theorem read_clipv_0 (n : Fin 160000) :
    (A% main_v98 : (⟨S160000, .i32⟩ : BufTy).Contents (Elt Ideal)) (ix1 n) = clipR 63#32 (viR V 0 n) := by
  unfold clipR
  rw [st_main_v98, st_main_call3_v4, st_main_call3_v3, st_main_c_17, st_main_call3_v2, st_main_call3_v1, st_main_call3_v0, st_main_c_16]
  show IntOp.minsi (broadcastInDim _ _ _ _ _) (IntOp.maxsi (broadcastInDim _ _ _ _ _) _) = _
  rw [bcast_scalar, bcast_scalar, read_rowv_0]
  rfl
theorem read_wrapv_0 (n : Fin 160000) :
    (A% main_v105 : (⟨S160000, .i32⟩ : BufTy).Contents (Elt Ideal)) (ix1 n) = wrapR 64#32 (clipR 63#32 (viR V 0 n)) := by
  unfold wrapR
  rw [st_main_v105, st_main_v104, st_main_v103, st_main_c_19, st_main_v102, st_main_v101, st_main_c_18]
  show Scalar.select (IntOp.cmpi .slt _ (broadcastInDim _ _ _ _ _)) (IntOp.addi _ (broadcastInDim _ _ _ _ _)) _ = _
  rw [bcast_scalar, bcast_scalar, read_clipv_0]
  rfl
theorem read_wrapu_0 (n : Fin 160000) :
    (A% main_v110 : (⟨S160000, .i32⟩ : BufTy).Contents (Elt Ideal)) (ix1 n) = wrapR 176#32 (clipR 175#32 (uiR V 0 n)) := by
  unfold wrapR
  rw [st_main_v110, st_main_v109, st_main_v108, st_main_c_21, st_main_v107, st_main_v106, st_main_c_20]
  show Scalar.select (IntOp.cmpi .slt _ (broadcastInDim _ _ _ _ _)) (IntOp.addi _ (broadcastInDim _ _ _ _ _)) _ = _
  rw [bcast_scalar, bcast_scalar, read_clipu_0]
  rfl
theorem read_idx0_0 (n : Fin 160000) :
    (A% main_v113 : (⟨S160000x2, .i32⟩ : BufTy).Contents (Elt Ideal)) (ix2 n (0 : Fin 2)) = wrapR 64#32 (clipR 63#32 (viR V 0 n)) := by
  rw [st_main_v113, st_main_v112, st_main_v111]
  exact (pair_apply_fst _ _ _ _ n).trans (read_wrapv_0 V n)
theorem read_idx1_0 (n : Fin 160000) :
    (A% main_v113 : (⟨S160000x2, .i32⟩ : BufTy).Contents (Elt Ideal)) (ix2 n (1 : Fin 2)) = wrapR 176#32 (clipR 175#32 (uiR V 0 n)) := by
  rw [st_main_v113, st_main_v112, st_main_v111]
  exact (pair_apply_snd _ _ _ _ n).trans (read_wrapu_0 V n)
theorem read_feat_0 (ch : Fin 256) (y : Fin 64) (x : Fin 176) :
    (A% main_v100 : (⟨S256x64x176, .f32⟩ : BufTy).Contents (Elt Ideal)) (ix3 ch y x) = featR V 0 ch y x := by
  unfold featR
  rw [st_main_v100, st_main_v99, st_main_v21]
  refine (feat_apply 0 _ _ _ _ 0 rfl ch y x).trans ?_
  rw [kept_arg0]
theorem read_gath_0 (ch : Fin 256) (n : Fin 160000) :
    (A% main_v114 : (⟨S256x160000, .f32⟩ : BufTy).Contents (Elt Ideal)) (ix2 ch n) = gathR V 0 ch n := by
  unfold gathR rowR colR
  rw [st_main_v114]
  exact (gather_feat_eq _ _ ch n _ _ (read_idx0_0 V n) (read_idx1_0 V n)).trans (read_feat_0 V ch _ _)
theorem read_mask_0 (ch : Fin 256) (n : Fin 160000) :
    (A% main_call4_v0 : (⟨S256x160000, .i1⟩ : BufTy).Contents (Elt Ideal)) (ix2 ch n) = validR V 0 n := by
  rw [st_main_call4_v0, st_main_v117, st_main_v116, st_main_v115]
  exact (mask_apply 0 _ _ _ _ _ ch n 0 rfl).trans (read_v91 V 0 n)
/-- The volume after camera 0. -/
def vol0 (ch : Fin 256) (n : Fin 160000) : EReal := volStep V 0 (Ideal.ofBits .f32 0x00000000#32) ch n
theorem read_vol_0 (ch : Fin 256) (n : Fin 160000) :
    (A% main_v118 : (⟨S256x160000, .f32⟩ : BufTy).Contents (Elt Ideal)) (ix2 ch n) = vol0 V ch n := by
  unfold vol0 volStep
  rw [st_main_v118]
  show Scalar.select (_ : BitVec 1) _ _ = _
  rw [read_mask_0, read_gath_0, read_v92 V ch n]

/-! ### Camera 1 -/

theorem read_rowu_1 (n : Fin 160000) :
    (A% main_v120 : (⟨S160000, .i32⟩ : BufTy).Contents (Elt Ideal)) (ix1 n) = uiR V 1 n := by
  rw [st_main_v120, st_main_v119]
  exact (rowN_apply 1 _ _ _ n 1 rfl).trans (read_v73 V 1 n)
theorem read_rowv_1 (n : Fin 160000) :
    (A% main_v123 : (⟨S160000, .i32⟩ : BufTy).Contents (Elt Ideal)) (ix1 n) = viR V 1 n := by
  rw [st_main_v123, st_main_v122]
  exact (rowN_apply 1 _ _ _ n 1 rfl).trans (read_v77 V 1 n)
theorem read_clipu_1 (n : Fin 160000) :
    (A% main_v121 : (⟨S160000, .i32⟩ : BufTy).Contents (Elt Ideal)) (ix1 n) = clipR 175#32 (uiR V 1 n) := by
  unfold clipR
  rw [st_main_v121, st_main_call5_v4, st_main_call5_v3, st_main_c_23, st_main_call5_v2, st_main_call5_v1, st_main_call5_v0, st_main_c_22]
  show IntOp.minsi (broadcastInDim _ _ _ _ _) (IntOp.maxsi (broadcastInDim _ _ _ _ _) _) = _
  rw [bcast_scalar, bcast_scalar, read_rowu_1]
  rfl
theorem read_clipv_1 (n : Fin 160000) :
    (A% main_v124 : (⟨S160000, .i32⟩ : BufTy).Contents (Elt Ideal)) (ix1 n) = clipR 63#32 (viR V 1 n) := by
  unfold clipR
  rw [st_main_v124, st_main_call6_v4, st_main_call6_v3, st_main_c_25, st_main_call6_v2, st_main_call6_v1, st_main_call6_v0, st_main_c_24]
  show IntOp.minsi (broadcastInDim _ _ _ _ _) (IntOp.maxsi (broadcastInDim _ _ _ _ _) _) = _
  rw [bcast_scalar, bcast_scalar, read_rowv_1]
  rfl
theorem read_wrapv_1 (n : Fin 160000) :
    (A% main_v131 : (⟨S160000, .i32⟩ : BufTy).Contents (Elt Ideal)) (ix1 n) = wrapR 64#32 (clipR 63#32 (viR V 1 n)) := by
  unfold wrapR
  rw [st_main_v131, st_main_v130, st_main_v129, st_main_c_27, st_main_v128, st_main_v127, st_main_c_26]
  show Scalar.select (IntOp.cmpi .slt _ (broadcastInDim _ _ _ _ _)) (IntOp.addi _ (broadcastInDim _ _ _ _ _)) _ = _
  rw [bcast_scalar, bcast_scalar, read_clipv_1]
  rfl
theorem read_wrapu_1 (n : Fin 160000) :
    (A% main_v136 : (⟨S160000, .i32⟩ : BufTy).Contents (Elt Ideal)) (ix1 n) = wrapR 176#32 (clipR 175#32 (uiR V 1 n)) := by
  unfold wrapR
  rw [st_main_v136, st_main_v135, st_main_v134, st_main_c_29, st_main_v133, st_main_v132, st_main_c_28]
  show Scalar.select (IntOp.cmpi .slt _ (broadcastInDim _ _ _ _ _)) (IntOp.addi _ (broadcastInDim _ _ _ _ _)) _ = _
  rw [bcast_scalar, bcast_scalar, read_clipu_1]
  rfl
theorem read_idx0_1 (n : Fin 160000) :
    (A% main_v139 : (⟨S160000x2, .i32⟩ : BufTy).Contents (Elt Ideal)) (ix2 n (0 : Fin 2)) = wrapR 64#32 (clipR 63#32 (viR V 1 n)) := by
  rw [st_main_v139, st_main_v138, st_main_v137]
  exact (pair_apply_fst _ _ _ _ n).trans (read_wrapv_1 V n)
theorem read_idx1_1 (n : Fin 160000) :
    (A% main_v139 : (⟨S160000x2, .i32⟩ : BufTy).Contents (Elt Ideal)) (ix2 n (1 : Fin 2)) = wrapR 176#32 (clipR 175#32 (uiR V 1 n)) := by
  rw [st_main_v139, st_main_v138, st_main_v137]
  exact (pair_apply_snd _ _ _ _ n).trans (read_wrapu_1 V n)
theorem read_feat_1 (ch : Fin 256) (y : Fin 64) (x : Fin 176) :
    (A% main_v126 : (⟨S256x64x176, .f32⟩ : BufTy).Contents (Elt Ideal)) (ix3 ch y x) = featR V 1 ch y x := by
  unfold featR
  rw [st_main_v126, st_main_v125, st_main_v21]
  refine (feat_apply 1 _ _ _ _ 1 rfl ch y x).trans ?_
  rw [kept_arg0]
theorem read_gath_1 (ch : Fin 256) (n : Fin 160000) :
    (A% main_v140 : (⟨S256x160000, .f32⟩ : BufTy).Contents (Elt Ideal)) (ix2 ch n) = gathR V 1 ch n := by
  unfold gathR rowR colR
  rw [st_main_v140]
  exact (gather_feat_eq _ _ ch n _ _ (read_idx0_1 V n) (read_idx1_1 V n)).trans (read_feat_1 V ch _ _)
theorem read_mask_1 (ch : Fin 256) (n : Fin 160000) :
    (A% main_call7_v0 : (⟨S256x160000, .i1⟩ : BufTy).Contents (Elt Ideal)) (ix2 ch n) = validR V 1 n := by
  rw [st_main_call7_v0, st_main_v143, st_main_v142, st_main_v141]
  exact (mask_apply 1 _ _ _ _ _ ch n 1 rfl).trans (read_v91 V 1 n)
/-- The volume after camera 1. -/
def vol1 (ch : Fin 256) (n : Fin 160000) : EReal := volStep V 1 (vol0 V ch n) ch n
theorem read_vol_1 (ch : Fin 256) (n : Fin 160000) :
    (A% main_v144 : (⟨S256x160000, .f32⟩ : BufTy).Contents (Elt Ideal)) (ix2 ch n) = vol1 V ch n := by
  unfold vol1 volStep
  rw [st_main_v144]
  show Scalar.select (_ : BitVec 1) _ _ = _
  rw [read_mask_1, read_gath_1, read_vol_0 V ch n]

/-! ### Camera 2 -/

theorem read_rowu_2 (n : Fin 160000) :
    (A% main_v146 : (⟨S160000, .i32⟩ : BufTy).Contents (Elt Ideal)) (ix1 n) = uiR V 2 n := by
  rw [st_main_v146, st_main_v145]
  exact (rowN_apply 2 _ _ _ n 2 rfl).trans (read_v73 V 2 n)
theorem read_rowv_2 (n : Fin 160000) :
    (A% main_v149 : (⟨S160000, .i32⟩ : BufTy).Contents (Elt Ideal)) (ix1 n) = viR V 2 n := by
  rw [st_main_v149, st_main_v148]
  exact (rowN_apply 2 _ _ _ n 2 rfl).trans (read_v77 V 2 n)
theorem read_clipu_2 (n : Fin 160000) :
    (A% main_v147 : (⟨S160000, .i32⟩ : BufTy).Contents (Elt Ideal)) (ix1 n) = clipR 175#32 (uiR V 2 n) := by
  unfold clipR
  rw [st_main_v147, st_main_call8_v4, st_main_call8_v3, st_main_c_31, st_main_call8_v2, st_main_call8_v1, st_main_call8_v0, st_main_c_30]
  show IntOp.minsi (broadcastInDim _ _ _ _ _) (IntOp.maxsi (broadcastInDim _ _ _ _ _) _) = _
  rw [bcast_scalar, bcast_scalar, read_rowu_2]
  rfl
theorem read_clipv_2 (n : Fin 160000) :
    (A% main_v150 : (⟨S160000, .i32⟩ : BufTy).Contents (Elt Ideal)) (ix1 n) = clipR 63#32 (viR V 2 n) := by
  unfold clipR
  rw [st_main_v150, st_main_call9_v4, st_main_call9_v3, st_main_c_33, st_main_call9_v2, st_main_call9_v1, st_main_call9_v0, st_main_c_32]
  show IntOp.minsi (broadcastInDim _ _ _ _ _) (IntOp.maxsi (broadcastInDim _ _ _ _ _) _) = _
  rw [bcast_scalar, bcast_scalar, read_rowv_2]
  rfl
theorem read_wrapv_2 (n : Fin 160000) :
    (A% main_v157 : (⟨S160000, .i32⟩ : BufTy).Contents (Elt Ideal)) (ix1 n) = wrapR 64#32 (clipR 63#32 (viR V 2 n)) := by
  unfold wrapR
  rw [st_main_v157, st_main_v156, st_main_v155, st_main_c_35, st_main_v154, st_main_v153, st_main_c_34]
  show Scalar.select (IntOp.cmpi .slt _ (broadcastInDim _ _ _ _ _)) (IntOp.addi _ (broadcastInDim _ _ _ _ _)) _ = _
  rw [bcast_scalar, bcast_scalar, read_clipv_2]
  rfl
theorem read_wrapu_2 (n : Fin 160000) :
    (A% main_v162 : (⟨S160000, .i32⟩ : BufTy).Contents (Elt Ideal)) (ix1 n) = wrapR 176#32 (clipR 175#32 (uiR V 2 n)) := by
  unfold wrapR
  rw [st_main_v162, st_main_v161, st_main_v160, st_main_c_37, st_main_v159, st_main_v158, st_main_c_36]
  show Scalar.select (IntOp.cmpi .slt _ (broadcastInDim _ _ _ _ _)) (IntOp.addi _ (broadcastInDim _ _ _ _ _)) _ = _
  rw [bcast_scalar, bcast_scalar, read_clipu_2]
  rfl
theorem read_idx0_2 (n : Fin 160000) :
    (A% main_v165 : (⟨S160000x2, .i32⟩ : BufTy).Contents (Elt Ideal)) (ix2 n (0 : Fin 2)) = wrapR 64#32 (clipR 63#32 (viR V 2 n)) := by
  rw [st_main_v165, st_main_v164, st_main_v163]
  exact (pair_apply_fst _ _ _ _ n).trans (read_wrapv_2 V n)
theorem read_idx1_2 (n : Fin 160000) :
    (A% main_v165 : (⟨S160000x2, .i32⟩ : BufTy).Contents (Elt Ideal)) (ix2 n (1 : Fin 2)) = wrapR 176#32 (clipR 175#32 (uiR V 2 n)) := by
  rw [st_main_v165, st_main_v164, st_main_v163]
  exact (pair_apply_snd _ _ _ _ n).trans (read_wrapu_2 V n)
theorem read_feat_2 (ch : Fin 256) (y : Fin 64) (x : Fin 176) :
    (A% main_v152 : (⟨S256x64x176, .f32⟩ : BufTy).Contents (Elt Ideal)) (ix3 ch y x) = featR V 2 ch y x := by
  unfold featR
  rw [st_main_v152, st_main_v151, st_main_v21]
  refine (feat_apply 2 _ _ _ _ 2 rfl ch y x).trans ?_
  rw [kept_arg0]
theorem read_gath_2 (ch : Fin 256) (n : Fin 160000) :
    (A% main_v166 : (⟨S256x160000, .f32⟩ : BufTy).Contents (Elt Ideal)) (ix2 ch n) = gathR V 2 ch n := by
  unfold gathR rowR colR
  rw [st_main_v166]
  exact (gather_feat_eq _ _ ch n _ _ (read_idx0_2 V n) (read_idx1_2 V n)).trans (read_feat_2 V ch _ _)
theorem read_mask_2 (ch : Fin 256) (n : Fin 160000) :
    (A% main_call10_v0 : (⟨S256x160000, .i1⟩ : BufTy).Contents (Elt Ideal)) (ix2 ch n) = validR V 2 n := by
  rw [st_main_call10_v0, st_main_v169, st_main_v168, st_main_v167]
  exact (mask_apply 2 _ _ _ _ _ ch n 2 rfl).trans (read_v91 V 2 n)
/-- The volume after camera 2. -/
def vol2 (ch : Fin 256) (n : Fin 160000) : EReal := volStep V 2 (vol1 V ch n) ch n
theorem read_vol_2 (ch : Fin 256) (n : Fin 160000) :
    (A% main_v170 : (⟨S256x160000, .f32⟩ : BufTy).Contents (Elt Ideal)) (ix2 ch n) = vol2 V ch n := by
  unfold vol2 volStep
  rw [st_main_v170]
  show Scalar.select (_ : BitVec 1) _ _ = _
  rw [read_mask_2, read_gath_2, read_vol_1 V ch n]

/-! ### Camera 3 -/

theorem read_rowu_3 (n : Fin 160000) :
    (A% main_v172 : (⟨S160000, .i32⟩ : BufTy).Contents (Elt Ideal)) (ix1 n) = uiR V 3 n := by
  rw [st_main_v172, st_main_v171]
  exact (rowN_apply 3 _ _ _ n 3 rfl).trans (read_v73 V 3 n)
theorem read_rowv_3 (n : Fin 160000) :
    (A% main_v175 : (⟨S160000, .i32⟩ : BufTy).Contents (Elt Ideal)) (ix1 n) = viR V 3 n := by
  rw [st_main_v175, st_main_v174]
  exact (rowN_apply 3 _ _ _ n 3 rfl).trans (read_v77 V 3 n)
theorem read_clipu_3 (n : Fin 160000) :
    (A% main_v173 : (⟨S160000, .i32⟩ : BufTy).Contents (Elt Ideal)) (ix1 n) = clipR 175#32 (uiR V 3 n) := by
  unfold clipR
  rw [st_main_v173, st_main_call11_v4, st_main_call11_v3, st_main_c_39, st_main_call11_v2, st_main_call11_v1, st_main_call11_v0, st_main_c_38]
  show IntOp.minsi (broadcastInDim _ _ _ _ _) (IntOp.maxsi (broadcastInDim _ _ _ _ _) _) = _
  rw [bcast_scalar, bcast_scalar, read_rowu_3]
  rfl
theorem read_clipv_3 (n : Fin 160000) :
    (A% main_v176 : (⟨S160000, .i32⟩ : BufTy).Contents (Elt Ideal)) (ix1 n) = clipR 63#32 (viR V 3 n) := by
  unfold clipR
  rw [st_main_v176, st_main_call12_v4, st_main_call12_v3, st_main_c_41, st_main_call12_v2, st_main_call12_v1, st_main_call12_v0, st_main_c_40]
  show IntOp.minsi (broadcastInDim _ _ _ _ _) (IntOp.maxsi (broadcastInDim _ _ _ _ _) _) = _
  rw [bcast_scalar, bcast_scalar, read_rowv_3]
  rfl
theorem read_wrapv_3 (n : Fin 160000) :
    (A% main_v183 : (⟨S160000, .i32⟩ : BufTy).Contents (Elt Ideal)) (ix1 n) = wrapR 64#32 (clipR 63#32 (viR V 3 n)) := by
  unfold wrapR
  rw [st_main_v183, st_main_v182, st_main_v181, st_main_c_43, st_main_v180, st_main_v179, st_main_c_42]
  show Scalar.select (IntOp.cmpi .slt _ (broadcastInDim _ _ _ _ _)) (IntOp.addi _ (broadcastInDim _ _ _ _ _)) _ = _
  rw [bcast_scalar, bcast_scalar, read_clipv_3]
  rfl
theorem read_wrapu_3 (n : Fin 160000) :
    (A% main_v188 : (⟨S160000, .i32⟩ : BufTy).Contents (Elt Ideal)) (ix1 n) = wrapR 176#32 (clipR 175#32 (uiR V 3 n)) := by
  unfold wrapR
  rw [st_main_v188, st_main_v187, st_main_v186, st_main_c_45, st_main_v185, st_main_v184, st_main_c_44]
  show Scalar.select (IntOp.cmpi .slt _ (broadcastInDim _ _ _ _ _)) (IntOp.addi _ (broadcastInDim _ _ _ _ _)) _ = _
  rw [bcast_scalar, bcast_scalar, read_clipu_3]
  rfl
theorem read_idx0_3 (n : Fin 160000) :
    (A% main_v191 : (⟨S160000x2, .i32⟩ : BufTy).Contents (Elt Ideal)) (ix2 n (0 : Fin 2)) = wrapR 64#32 (clipR 63#32 (viR V 3 n)) := by
  rw [st_main_v191, st_main_v190, st_main_v189]
  exact (pair_apply_fst _ _ _ _ n).trans (read_wrapv_3 V n)
theorem read_idx1_3 (n : Fin 160000) :
    (A% main_v191 : (⟨S160000x2, .i32⟩ : BufTy).Contents (Elt Ideal)) (ix2 n (1 : Fin 2)) = wrapR 176#32 (clipR 175#32 (uiR V 3 n)) := by
  rw [st_main_v191, st_main_v190, st_main_v189]
  exact (pair_apply_snd _ _ _ _ n).trans (read_wrapu_3 V n)
theorem read_feat_3 (ch : Fin 256) (y : Fin 64) (x : Fin 176) :
    (A% main_v178 : (⟨S256x64x176, .f32⟩ : BufTy).Contents (Elt Ideal)) (ix3 ch y x) = featR V 3 ch y x := by
  unfold featR
  rw [st_main_v178, st_main_v177, st_main_v21]
  refine (feat_apply 3 _ _ _ _ 3 rfl ch y x).trans ?_
  rw [kept_arg0]
theorem read_gath_3 (ch : Fin 256) (n : Fin 160000) :
    (A% main_v192 : (⟨S256x160000, .f32⟩ : BufTy).Contents (Elt Ideal)) (ix2 ch n) = gathR V 3 ch n := by
  unfold gathR rowR colR
  rw [st_main_v192]
  exact (gather_feat_eq _ _ ch n _ _ (read_idx0_3 V n) (read_idx1_3 V n)).trans (read_feat_3 V ch _ _)
theorem read_mask_3 (ch : Fin 256) (n : Fin 160000) :
    (A% main_call13_v0 : (⟨S256x160000, .i1⟩ : BufTy).Contents (Elt Ideal)) (ix2 ch n) = validR V 3 n := by
  rw [st_main_call13_v0, st_main_v195, st_main_v194, st_main_v193]
  exact (mask_apply 3 _ _ _ _ _ ch n 3 rfl).trans (read_v91 V 3 n)
/-- The volume after camera 3. -/
def vol3 (ch : Fin 256) (n : Fin 160000) : EReal := volStep V 3 (vol2 V ch n) ch n
theorem read_vol_3 (ch : Fin 256) (n : Fin 160000) :
    (A% main_v196 : (⟨S256x160000, .f32⟩ : BufTy).Contents (Elt Ideal)) (ix2 ch n) = vol3 V ch n := by
  unfold vol3 volStep
  rw [st_main_v196]
  show Scalar.select (_ : BitVec 1) _ _ = _
  rw [read_mask_3, read_gath_3, read_vol_2 V ch n]

/-! ### Camera 4 -/

theorem read_rowu_4 (n : Fin 160000) :
    (A% main_v198 : (⟨S160000, .i32⟩ : BufTy).Contents (Elt Ideal)) (ix1 n) = uiR V 4 n := by
  rw [st_main_v198, st_main_v197]
  exact (rowN_apply 4 _ _ _ n 4 rfl).trans (read_v73 V 4 n)
theorem read_rowv_4 (n : Fin 160000) :
    (A% main_v201 : (⟨S160000, .i32⟩ : BufTy).Contents (Elt Ideal)) (ix1 n) = viR V 4 n := by
  rw [st_main_v201, st_main_v200]
  exact (rowN_apply 4 _ _ _ n 4 rfl).trans (read_v77 V 4 n)
theorem read_clipu_4 (n : Fin 160000) :
    (A% main_v199 : (⟨S160000, .i32⟩ : BufTy).Contents (Elt Ideal)) (ix1 n) = clipR 175#32 (uiR V 4 n) := by
  unfold clipR
  rw [st_main_v199, st_main_call14_v4, st_main_call14_v3, st_main_c_47, st_main_call14_v2, st_main_call14_v1, st_main_call14_v0, st_main_c_46]
  show IntOp.minsi (broadcastInDim _ _ _ _ _) (IntOp.maxsi (broadcastInDim _ _ _ _ _) _) = _
  rw [bcast_scalar, bcast_scalar, read_rowu_4]
  rfl
theorem read_clipv_4 (n : Fin 160000) :
    (A% main_v202 : (⟨S160000, .i32⟩ : BufTy).Contents (Elt Ideal)) (ix1 n) = clipR 63#32 (viR V 4 n) := by
  unfold clipR
  rw [st_main_v202, st_main_call15_v4, st_main_call15_v3, st_main_c_49, st_main_call15_v2, st_main_call15_v1, st_main_call15_v0, st_main_c_48]
  show IntOp.minsi (broadcastInDim _ _ _ _ _) (IntOp.maxsi (broadcastInDim _ _ _ _ _) _) = _
  rw [bcast_scalar, bcast_scalar, read_rowv_4]
  rfl
theorem read_wrapv_4 (n : Fin 160000) :
    (A% main_v209 : (⟨S160000, .i32⟩ : BufTy).Contents (Elt Ideal)) (ix1 n) = wrapR 64#32 (clipR 63#32 (viR V 4 n)) := by
  unfold wrapR
  rw [st_main_v209, st_main_v208, st_main_v207, st_main_c_51, st_main_v206, st_main_v205, st_main_c_50]
  show Scalar.select (IntOp.cmpi .slt _ (broadcastInDim _ _ _ _ _)) (IntOp.addi _ (broadcastInDim _ _ _ _ _)) _ = _
  rw [bcast_scalar, bcast_scalar, read_clipv_4]
  rfl
theorem read_wrapu_4 (n : Fin 160000) :
    (A% main_v214 : (⟨S160000, .i32⟩ : BufTy).Contents (Elt Ideal)) (ix1 n) = wrapR 176#32 (clipR 175#32 (uiR V 4 n)) := by
  unfold wrapR
  rw [st_main_v214, st_main_v213, st_main_v212, st_main_c_53, st_main_v211, st_main_v210, st_main_c_52]
  show Scalar.select (IntOp.cmpi .slt _ (broadcastInDim _ _ _ _ _)) (IntOp.addi _ (broadcastInDim _ _ _ _ _)) _ = _
  rw [bcast_scalar, bcast_scalar, read_clipu_4]
  rfl
theorem read_idx0_4 (n : Fin 160000) :
    (A% main_v217 : (⟨S160000x2, .i32⟩ : BufTy).Contents (Elt Ideal)) (ix2 n (0 : Fin 2)) = wrapR 64#32 (clipR 63#32 (viR V 4 n)) := by
  rw [st_main_v217, st_main_v216, st_main_v215]
  exact (pair_apply_fst _ _ _ _ n).trans (read_wrapv_4 V n)
theorem read_idx1_4 (n : Fin 160000) :
    (A% main_v217 : (⟨S160000x2, .i32⟩ : BufTy).Contents (Elt Ideal)) (ix2 n (1 : Fin 2)) = wrapR 176#32 (clipR 175#32 (uiR V 4 n)) := by
  rw [st_main_v217, st_main_v216, st_main_v215]
  exact (pair_apply_snd _ _ _ _ n).trans (read_wrapu_4 V n)
theorem read_feat_4 (ch : Fin 256) (y : Fin 64) (x : Fin 176) :
    (A% main_v204 : (⟨S256x64x176, .f32⟩ : BufTy).Contents (Elt Ideal)) (ix3 ch y x) = featR V 4 ch y x := by
  unfold featR
  rw [st_main_v204, st_main_v203, st_main_v21]
  refine (feat_apply 4 _ _ _ _ 4 rfl ch y x).trans ?_
  rw [kept_arg0]
theorem read_gath_4 (ch : Fin 256) (n : Fin 160000) :
    (A% main_v218 : (⟨S256x160000, .f32⟩ : BufTy).Contents (Elt Ideal)) (ix2 ch n) = gathR V 4 ch n := by
  unfold gathR rowR colR
  rw [st_main_v218]
  exact (gather_feat_eq _ _ ch n _ _ (read_idx0_4 V n) (read_idx1_4 V n)).trans (read_feat_4 V ch _ _)
theorem read_mask_4 (ch : Fin 256) (n : Fin 160000) :
    (A% main_call16_v0 : (⟨S256x160000, .i1⟩ : BufTy).Contents (Elt Ideal)) (ix2 ch n) = validR V 4 n := by
  rw [st_main_call16_v0, st_main_v221, st_main_v220, st_main_v219]
  exact (mask_apply 4 _ _ _ _ _ ch n 4 rfl).trans (read_v91 V 4 n)
/-- The volume after camera 4. -/
def vol4 (ch : Fin 256) (n : Fin 160000) : EReal := volStep V 4 (vol3 V ch n) ch n
theorem read_vol_4 (ch : Fin 256) (n : Fin 160000) :
    (A% main_v222 : (⟨S256x160000, .f32⟩ : BufTy).Contents (Elt Ideal)) (ix2 ch n) = vol4 V ch n := by
  unfold vol4 volStep
  rw [st_main_v222]
  show Scalar.select (_ : BitVec 1) _ _ = _
  rw [read_mask_4, read_gath_4, read_vol_3 V ch n]

/-! ### Camera 5 -/

theorem read_rowu_5 (n : Fin 160000) :
    (A% main_v224 : (⟨S160000, .i32⟩ : BufTy).Contents (Elt Ideal)) (ix1 n) = uiR V 5 n := by
  rw [st_main_v224, st_main_v223]
  exact (rowN_apply 5 _ _ _ n 5 rfl).trans (read_v73 V 5 n)
theorem read_rowv_5 (n : Fin 160000) :
    (A% main_v227 : (⟨S160000, .i32⟩ : BufTy).Contents (Elt Ideal)) (ix1 n) = viR V 5 n := by
  rw [st_main_v227, st_main_v226]
  exact (rowN_apply 5 _ _ _ n 5 rfl).trans (read_v77 V 5 n)
theorem read_clipu_5 (n : Fin 160000) :
    (A% main_v225 : (⟨S160000, .i32⟩ : BufTy).Contents (Elt Ideal)) (ix1 n) = clipR 175#32 (uiR V 5 n) := by
  unfold clipR
  rw [st_main_v225, st_main_call17_v4, st_main_call17_v3, st_main_c_55, st_main_call17_v2, st_main_call17_v1, st_main_call17_v0, st_main_c_54]
  show IntOp.minsi (broadcastInDim _ _ _ _ _) (IntOp.maxsi (broadcastInDim _ _ _ _ _) _) = _
  rw [bcast_scalar, bcast_scalar, read_rowu_5]
  rfl
theorem read_clipv_5 (n : Fin 160000) :
    (A% main_v228 : (⟨S160000, .i32⟩ : BufTy).Contents (Elt Ideal)) (ix1 n) = clipR 63#32 (viR V 5 n) := by
  unfold clipR
  rw [st_main_v228, st_main_call18_v4, st_main_call18_v3, st_main_c_57, st_main_call18_v2, st_main_call18_v1, st_main_call18_v0, st_main_c_56]
  show IntOp.minsi (broadcastInDim _ _ _ _ _) (IntOp.maxsi (broadcastInDim _ _ _ _ _) _) = _
  rw [bcast_scalar, bcast_scalar, read_rowv_5]
  rfl
theorem read_wrapv_5 (n : Fin 160000) :
    (A% main_v235 : (⟨S160000, .i32⟩ : BufTy).Contents (Elt Ideal)) (ix1 n) = wrapR 64#32 (clipR 63#32 (viR V 5 n)) := by
  unfold wrapR
  rw [st_main_v235, st_main_v234, st_main_v233, st_main_c_59, st_main_v232, st_main_v231, st_main_c_58]
  show Scalar.select (IntOp.cmpi .slt _ (broadcastInDim _ _ _ _ _)) (IntOp.addi _ (broadcastInDim _ _ _ _ _)) _ = _
  rw [bcast_scalar, bcast_scalar, read_clipv_5]
  rfl
theorem read_wrapu_5 (n : Fin 160000) :
    (A% main_v240 : (⟨S160000, .i32⟩ : BufTy).Contents (Elt Ideal)) (ix1 n) = wrapR 176#32 (clipR 175#32 (uiR V 5 n)) := by
  unfold wrapR
  rw [st_main_v240, st_main_v239, st_main_v238, st_main_c_61, st_main_v237, st_main_v236, st_main_c_60]
  show Scalar.select (IntOp.cmpi .slt _ (broadcastInDim _ _ _ _ _)) (IntOp.addi _ (broadcastInDim _ _ _ _ _)) _ = _
  rw [bcast_scalar, bcast_scalar, read_clipu_5]
  rfl
theorem read_idx0_5 (n : Fin 160000) :
    (A% main_v243 : (⟨S160000x2, .i32⟩ : BufTy).Contents (Elt Ideal)) (ix2 n (0 : Fin 2)) = wrapR 64#32 (clipR 63#32 (viR V 5 n)) := by
  rw [st_main_v243, st_main_v242, st_main_v241]
  exact (pair_apply_fst _ _ _ _ n).trans (read_wrapv_5 V n)
theorem read_idx1_5 (n : Fin 160000) :
    (A% main_v243 : (⟨S160000x2, .i32⟩ : BufTy).Contents (Elt Ideal)) (ix2 n (1 : Fin 2)) = wrapR 176#32 (clipR 175#32 (uiR V 5 n)) := by
  rw [st_main_v243, st_main_v242, st_main_v241]
  exact (pair_apply_snd _ _ _ _ n).trans (read_wrapu_5 V n)
theorem read_feat_5 (ch : Fin 256) (y : Fin 64) (x : Fin 176) :
    (A% main_v230 : (⟨S256x64x176, .f32⟩ : BufTy).Contents (Elt Ideal)) (ix3 ch y x) = featR V 5 ch y x := by
  unfold featR
  rw [st_main_v230, st_main_v229, st_main_v21]
  refine (feat_apply 5 _ _ _ _ 5 rfl ch y x).trans ?_
  rw [kept_arg0]
theorem read_gath_5 (ch : Fin 256) (n : Fin 160000) :
    (A% main_v244 : (⟨S256x160000, .f32⟩ : BufTy).Contents (Elt Ideal)) (ix2 ch n) = gathR V 5 ch n := by
  unfold gathR rowR colR
  rw [st_main_v244]
  exact (gather_feat_eq _ _ ch n _ _ (read_idx0_5 V n) (read_idx1_5 V n)).trans (read_feat_5 V ch _ _)
theorem read_mask_5 (ch : Fin 256) (n : Fin 160000) :
    (A% main_call19_v0 : (⟨S256x160000, .i1⟩ : BufTy).Contents (Elt Ideal)) (ix2 ch n) = validR V 5 n := by
  rw [st_main_call19_v0, st_main_v247, st_main_v246, st_main_v245]
  exact (mask_apply 5 _ _ _ _ _ ch n 5 rfl).trans (read_v91 V 5 n)
/-- The volume after camera 5. -/
def vol5 (ch : Fin 256) (n : Fin 160000) : EReal := volStep V 5 (vol4 V ch n) ch n
theorem read_vol_5 (ch : Fin 256) (n : Fin 160000) :
    (A% main_v248 : (⟨S256x160000, .f32⟩ : BufTy).Contents (Elt Ideal)) (ix2 ch n) = vol5 V ch n := by
  unfold vol5 volStep
  rw [st_main_v248]
  show Scalar.select (_ : BitVec 1) _ _ = _
  rw [read_mask_5, read_gath_5, read_vol_4 V ch n]

/-- The buffer the six selects end in holds the volume. -/
theorem read_v248 (ch : Fin 256) (n : Fin 160000) :
    (A% main_v248 : (⟨S256x160000, .f32⟩ : BufTy).Contents (Elt Ideal)) (ix2 ch n) = volumeR V ch n :=
  (read_vol_5 V ch n).trans rfl

end Volume

end Cert.ReferenceIdeal.RefValue

end
-- ==== Proof.RefGeom.lean ====
/-
  The reference's geometry read at an index: what the projected coordinates are, down to the argument arrays.

  The voxel (ix, iy, iz) has the point p = grid index · voxel size + origin (ptR_eq); the lidar augmentation's translation
  is subtracted and the transpose of its rotation block applied (qR, read_v45); the point is made homogeneous (read_v49_lt,
  read_v49_3) and camera j's projection matrix — the first three rows of the image augmentation matrix, its last column's
  first three entries zeroed, times lidar2image (read_v36) — is applied to it (read_v51, p2iR_eq). Each contraction is read
  as a sum over its one contracted coordinate; each slice, reshape, transpose, broadcast and concatenation at the index its
  layout names.
-/
import proofs.«207241_g55714315764006_cont_9to1c4b_410_29_alg».proof.Proof.RefValue

set_option maxRecDepth 8192

noncomputable section

namespace Cert.ReferenceIdeal.RefValue

open Cert.ReferenceIdeal Cert.ReferenceIdeal.Facts₀ Cert.ReferenceIdeal.Facts Cert.ReferenceIdeal.RefRun Idealize.ShloMosaic
  Idealize.SL.Sem Idealize.ShloMosaic.StableHlo Idealize.ShloMosaic.ValueIdx
open scoped BigOperators

variable [Cert.ReferenceIdeal.Facts]

set_option hygiene false in
/-- The final contents of a reference, from the contents V the line starts at. -/
local macro "A%" b:ident : term => `(after (ops (F := Idealize.ShloMosaic.Ideal)) V (Proc.devRef .tc $b))

/-! ## The contractions read at an index -/

section Contractions

local notation "dP" => dot_S6x3x4_S6x4x160000_S6x3x160000_2_1_1_2_0_0

/-- The batched contraction of a [6, 3, 4] array with a [6, 4, N] array over the last axis of the first and the middle axis of
    the second, per camera: at (j, q, n) the sum over k of the products at (j, q, k) and (j, k, n). -/
theorem dotP_apply (l : FVec Ideal S6x3x4 .f32) (r : FVec Ideal S6x4x160000 .f32) (j : Fin 6) (q : Fin 3) (n : Fin 160000) :
    Host.dotGeneral dP none l r (ix3 j q n) = ∑ k : Fin 4, l (ix3 j q k) * r (ix3 j k n) := by
  show FloatOps.dotGeneral dP none .single l r (ix3 j q n) = _
  rw [Ideal.dotGeneral_apply]
  rw [← Equiv.sum_comp (contrEquiv1 dP 4 rfl rfl).symm]
  refine Finset.sum_congr rfl fun k _ => ?_
  have hl : (dP).lhsIdx (ix3 j q n) ((contrEquiv1 dP 4 rfl rfl).symm k) = ix3 j q k := by
    funext a; refine Fin.ext ?_
    match a with
    | ⟨0, _⟩ => rfl
    | ⟨1, _⟩ => rfl
    | ⟨2, _⟩ => rfl
  have hr : (dP).rhsIdx (ix3 j q n) ((contrEquiv1 dP 4 rfl rfl).symm k) = ix3 j k n := by
    funext a; refine Fin.ext ?_
    match a with
    | ⟨0, _⟩ => rfl
    | ⟨1, _⟩ => rfl
    | ⟨2, _⟩ => rfl
  rw [hl, hr]

end Contractions

section Contractions2

local notation "dR" => dot_S3x3_S3x160000_S3x160000_1_0_0_1_n_n

/-- The plain contraction of a [3, 3] matrix with a [3, N] array: at (k, n) the sum over l of the products at (k, l), (l, n). -/
theorem dotR_apply (l : FVec Ideal S3x3 .f32) (r : FVec Ideal S3x160000 .f32) (k : Fin 3) (n : Fin 160000) :
    Host.dotGeneral dR none l r (ix2 k n) = ∑ t : Fin 3, l (ix2 k t) * r (ix2 t n) := by
  show FloatOps.dotGeneral dR none .single l r (ix2 k n) = _
  rw [Ideal.dotGeneral_apply]
  rw [← Equiv.sum_comp (contrEquiv1 dR 3 rfl rfl).symm]
  refine Finset.sum_congr rfl fun t _ => ?_
  have hl : (dR).lhsIdx (ix2 k n) ((contrEquiv1 dR 3 rfl rfl).symm t) = ix2 k t := by
    funext a; refine Fin.ext ?_
    match a with
    | ⟨0, _⟩ => rfl
    | ⟨1, _⟩ => rfl
  have hr : (dR).rhsIdx (ix2 k n) ((contrEquiv1 dR 3 rfl rfl).symm t) = ix2 t n := by
    funext a; refine Fin.ext ?_
    match a with
    | ⟨0, _⟩ => rfl
    | ⟨1, _⟩ => rfl
  rw [hl, hr]

end Contractions2

/-! ## The geometry: from the voxel's point to the projected coordinates -/

section Geometry

variable (V : Valuation τ sig (Elt Ideal))

/-- lidar_aug_matrix[0, a, b]. -/
def lidarR (a b : Fin 4) : EReal :=
  (V (Proc.devRef .tc main_arg5) : (⟨S1x4x4, .f32⟩ : BufTy).Contents (Elt Ideal)) (ix3 (0 : Fin 1) a b)

/-- %22, the lidar augmentation matrix with its batch axis dropped. -/
theorem read_v22 (a b : Fin 4) :
    (A% main_v22 : (⟨S4x4, .f32⟩ : BufTy).Contents (Elt Ideal)) (ix2 a b) = lidarR V a b := by
  unfold lidarR
  rw [st_main_v22]
  refine (shapeCast_apply _ _ (ix2 a b) (ix3 (0 : Fin 1) a b) (by
    rw [Shape.rowMajor_val_three, Shape.rowMajor_val_two]
    show (0 * 4 + a.val) * 4 + b.val = a.val * 4 + b.val
    omega)).trans ?_
  rw [kept_arg5]

/-- %43, the transposed rotation block: at (k, t) it is lidar_aug_matrix[0, t, k]. -/
theorem read_v43 (k t : Fin 3) :
    (A% main_v43 : (⟨S3x3, .f32⟩ : BufTy).Contents (Elt Ideal)) (ix2 k t)
      = lidarR V ⟨t.val, by omega⟩ ⟨k.val, by omega⟩ := by
  rw [st_main_v43]
  refine (shapeCast_apply _ _ (ix2 k t) (ix3 (0 : Fin 1) k t) (by
    rw [Shape.rowMajor_val_three, Shape.rowMajor_val_two]
    show (0 * 3 + k.val) * 3 + t.val = k.val * 3 + t.val
    omega)).trans ?_
  rw [st_main_v42]
  refine (broadcastInDim_apply _ _ _ (ix3 (0 : Fin 1) k t) (ix2 k t) (fun a => match a with
    | ⟨0, _⟩ => rfl
    | ⟨1, _⟩ => rfl)).trans ?_
  rw [st_main_v41]
  refine (transpose_apply _ _ _ (ix2 k t) (ix2 t k) (fun b => match b with
    | ⟨0, _⟩ => rfl
    | ⟨1, _⟩ => rfl)).trans ?_
  rw [st_main_v25]
  refine (extractStridedSlice_apply _ _ _ (ix2 t k) (ix2 (⟨t.val, by omega⟩ : Fin 4) (⟨k.val, by omega⟩ : Fin 4)) (fun a => match a with
    | ⟨0, _⟩ => by show t.val = 0 + t.val; omega
    | ⟨1, _⟩ => by show k.val = 0 + k.val; omega)).trans ?_
  exact read_v22 V _ _

/-- %39, the lidar augmentation's translation broadcast over the voxels: at (0, t, n) it is lidar_aug_matrix[0, t, 3]. -/
theorem read_v39 (t : Fin 3) (n : Fin 160000) :
    (A% main_v39 : (⟨S1x3x160000, .f32⟩ : BufTy).Contents (Elt Ideal)) (ix3 (0 : Fin 1) t n)
      = lidarR V ⟨t.val, by omega⟩ 3 := by
  rw [st_main_v39]
  refine (broadcastInDim_apply _ _ _ (ix3 (0 : Fin 1) t n) (ix3 (0 : Fin 1) t (0 : Fin 1)) (fun a => match a with
    | ⟨0, _⟩ => rfl
    | ⟨1, _⟩ => rfl
    | ⟨2, _⟩ => rfl)).trans ?_
  rw [st_main_v38]
  refine (shapeCast_apply _ _ (ix3 (0 : Fin 1) t (0 : Fin 1)) (ix1 t) (by
    rw [Shape.rowMajor_val_one, Shape.rowMajor_val_three]
    show t.val = (0 * 3 + t.val) * 1 + 0
    omega)).trans ?_
  rw [st_main_v24]
  refine (shapeCast_apply _ _ (ix1 t) (ix2 t (0 : Fin 1)) (by
    rw [Shape.rowMajor_val_two, Shape.rowMajor_val_one]
    show t.val * 1 + 0 = t.val
    omega)).trans ?_
  rw [st_main_v23]
  refine (extractStridedSlice_apply _ _ _ (ix2 t (0 : Fin 1)) (ix2 (⟨t.val, by omega⟩ : Fin 4) (3 : Fin 4)) (fun a => match a with
    | ⟨0, _⟩ => by show t.val = 0 + t.val; omega
    | ⟨1, _⟩ => by show 3 = 3 + 0; omega)).trans ?_
  exact read_v22 V _ _

/-- The voxel grid's points, coordinate t of voxel n: the buffer of %37 at (0, t, n), opened below. -/
def ptR (t : Fin 3) (n : Fin 160000) : EReal :=
  (A% main_v37 : (⟨S1x3x160000, .f32⟩ : BufTy).Contents (Elt Ideal)) (ix3 (0 : Fin 1) t n)

/-- The point moved by the lidar augmentation's translation and rotated by the transpose of its rotation block. -/
def qR (k : Fin 3) (n : Fin 160000) : EReal :=
  ∑ t : Fin 3, lidarR V ⟨t.val, by omega⟩ ⟨k.val, by omega⟩ * (ptR V t n - lidarR V ⟨t.val, by omega⟩ 3)

/-- %44, the translated points as a [3, N] array. -/
theorem read_v44 (t : Fin 3) (n : Fin 160000) :
    (A% main_v44 : (⟨S3x160000, .f32⟩ : BufTy).Contents (Elt Ideal)) (ix2 t n) = ptR V t n - lidarR V ⟨t.val, by omega⟩ 3 := by
  unfold ptR
  rw [st_main_v44]
  refine (shapeCast_apply _ _ (ix2 t n) (ix3 (0 : Fin 1) t n) (by
    rw [Shape.rowMajor_val_three, Shape.rowMajor_val_two]
    show (0 * 3 + t.val) * 160000 + n.val = t.val * 160000 + n.val
    omega)).trans ?_
  rw [st_main_v40]
  show _ - _ = _
  rw [read_v39]

/-- %45, the rotated points. -/
theorem read_v45 (k : Fin 3) (n : Fin 160000) :
    (A% main_v45 : (⟨S3x160000, .f32⟩ : BufTy).Contents (Elt Ideal)) (ix2 k n) = qR V k n := by
  unfold qR
  rw [st_main_v45]
  refine (dotR_apply _ _ k n).trans ?_
  refine Finset.sum_congr rfl fun t _ => ?_
  rw [read_v43, read_v44]

/-- The float one, as the printed constant reads. -/
def oneR : EReal := Ideal.ofBits .f32 0x3F800000#32

/-- %49, the homogeneous points: rows 0…2 the rotated point … -/
theorem read_v49_lt (k : Fin 3) (n : Fin 160000) :
    (A% main_v49 : (⟨S1x4x160000, .f32⟩ : BufTy).Contents (Elt Ideal)) (ix3 (0 : Fin 1) (⟨k.val, by omega⟩ : Fin 4) n) = qR V k n := by
  rw [st_main_v49]
  refine (concatenate_pair_apply_left (t := S1x4x160000) (s₁ := S1x3x160000) (s₂ := S1x1x160000) 1 _ _ _ (ix3 (0 : Fin 1) (⟨k.val, by omega⟩ : Fin 4) n) rfl (ix3 (0 : Fin 1) k n) (fun d => match d with
    | ⟨0, _⟩ => rfl
    | ⟨1, _⟩ => rfl
    | ⟨2, _⟩ => rfl)).trans ?_
  rw [st_main_v46]
  refine (broadcastInDim_apply _ _ _ (ix3 (0 : Fin 1) k n) (ix2 k n) (fun a => match a with
    | ⟨0, _⟩ => rfl
    | ⟨1, _⟩ => rfl)).trans ?_
  exact read_v45 V k n
/-- … and row 3 the constant one. -/
theorem read_v49_3 (n : Fin 160000) :
    (A% main_v49 : (⟨S1x4x160000, .f32⟩ : BufTy).Contents (Elt Ideal)) (ix3 (0 : Fin 1) (3 : Fin 4) n) = oneR := by
  unfold oneR
  rw [st_main_v49]
  refine (concatenate_pair_apply_right (t := S1x4x160000) (s₁ := S1x3x160000) (s₂ := S1x1x160000) 1 _ _ _ (ix3 (0 : Fin 1) (3 : Fin 4) n) rfl rfl (ix3 (0 : Fin 1) (0 : Fin 1) n) (fun d hd => match d, hd with
    | ⟨0, _⟩, _ => rfl
    | ⟨1, _⟩, hd => absurd rfl hd
    | ⟨2, _⟩, _ => rfl) rfl).trans ?_
  rw [st_main_v48, st_main_cst_5]
  exact bcast_scalar _ _ _

/-- %50: the homogeneous points, the same for every camera. -/
theorem read_v50 (j : Fin 6) (k : Fin 4) (n : Fin 160000) :
    (A% main_v50 : (⟨S6x4x160000, .f32⟩ : BufTy).Contents (Elt Ideal)) (ix3 j k n)
      = (A% main_v49 : (⟨S1x4x160000, .f32⟩ : BufTy).Contents (Elt Ideal)) (ix3 (0 : Fin 1) k n) := by
  rw [st_main_v50]
  exact broadcastInDim_apply _ _ _ (ix3 j k n) (ix3 (0 : Fin 1) k n) (fun a => match a with
    | ⟨0, _⟩ => rfl
    | ⟨1, _⟩ => rfl
    | ⟨2, _⟩ => rfl)

/-- The projection matrix of camera j, row r, column k: the buffer of %36, opened below. -/
def projR (j : Fin 6) (r : Fin 3) (k : Fin 4) : EReal :=
  (A% main_v36 : (⟨S6x3x4, .f32⟩ : BufTy).Contents (Elt Ideal)) (ix3 j r k)

/-- THE PROJECTED COORDINATES: row r of camera j's projection matrix applied to the rotated point made homogeneous. -/
theorem read_v51 (j : Fin 6) (r : Fin 3) (n : Fin 160000) :
    (A% main_v51 : (⟨S6x3x160000, .f32⟩ : BufTy).Contents (Elt Ideal)) (ix3 j r n)
      = projR V j r 0 * qR V 0 n + projR V j r 1 * qR V 1 n + projR V j r 2 * qR V 2 n + projR V j r 3 * oneR := by
  unfold projR
  rw [st_main_v51]
  refine (dotP_apply _ _ j r n).trans ?_
  rw [Fin.sum_univ_four, read_v50, read_v50, read_v50, read_v50]
  rw [read_v49_3, ← read_v49_lt V 0 n, ← read_v49_lt V 1 n, ← read_v49_lt V 2 n]
  rfl

end Geometry

/-! ## The voxel grid's points -/

section Points

variable (V : Valuation τ sig (Elt Ideal))

/-- Voxel (ix, iy, iz) in the flattened order: 800·ix + 4·iy + iz. -/
def voxel (ix iy : Fin 200) (iz : Fin 4) : Fin 160000 := ⟨800 * ix.val + 4 * iy.val + iz.val, by omega⟩

/-- Coordinate t of voxel (ix, iy, iz)'s grid index, as the 32-bit word the iota holds. -/
def gridR (t : Fin 3) (ix iy : Fin 200) (iz : Fin 4) : BitVec 32 :=
  match t with
  | ⟨0, _⟩ => BitVec.ofNat 32 ix.val
  | ⟨1, _⟩ => BitVec.ofNat 32 iy.val
  | ⟨2, _⟩ => BitVec.ofNat 32 iz.val

/-- The voxel size along t, as the printed table reads: 0.5, 0.5, 1.0. -/
def sizeR (t : Fin 3) : EReal := Ideal.ofBits .f32 (lit1 (S3.rowMajor (ix1 t)))
/-- The grid's origin along t, as the printed operations compute it: the centre [0, 0, −1.7] less half the extent [200, 200, 4]
    times the voxel size. -/
def originR (t : Fin 3) : EReal :=
  Ideal.ofBits .f32 (lit2 (S3.rowMajor (ix1 t)))
    - FloatOps.hostDivf (F := Ideal) (φ := .f32) (Ideal.ofBits .f32 (lit0 (S3.rowMajor (ix1 t)))) (Ideal.ofBits .f32 0x40000000#32) * sizeR t

/-- %14, the origin. -/
theorem read_v14 (t : Fin 3) : (A% main_v14 : (⟨S3, .f32⟩ : BufTy).Contents (Elt Ideal)) (ix1 t) = originR t := by
  unfold originR sizeR
  rw [st_main_v14, st_main_cst_1, st_main_v13, st_main_cst_0, st_main_v12, st_main_cst, st_main_v11, st_main_cst_2]
  show _ - FloatOps.hostDivf _ (broadcastInDim _ _ _ _ _) * _ = _
  rw [bcast_scalar]
  rfl

/-- A [3] vector reshaped to [3, 1, 1, 1] and broadcast over the grid reads the vector at the leading coordinate. -/
theorem bcast_axis0 {α : Type} (x : S3.Idx → α) (h₁ : S3.ShapeCasts S3x1x1x1)
    (h₂ : S3x1x1x1.BroadcastsInDim S3x200x200x4 (![0, 1, 2, 3] : Fin 4 → Fin 4)) (t : Fin 3) (ix iy : Fin 200) (iz : Fin 4) :
    broadcastInDim S3x200x200x4 ![0, 1, 2, 3] h₂ (shapeCast S3x1x1x1 x h₁) (ix4 t ix iy iz) = x (ix1 t) := by
  refine (broadcastInDim_apply _ h₂ _ (ix4 t ix iy iz) (ix4 t (0 : Fin 1) (0 : Fin 1) (0 : Fin 1)) (fun a => match a with
    | ⟨0, _⟩ => rfl
    | ⟨1, _⟩ => rfl
    | ⟨2, _⟩ => rfl
    | ⟨3, _⟩ => rfl)).trans ?_
  exact shapeCast_apply _ h₁ _ (ix1 t) (by
    rw [Shape.rowMajor_val_one, Shape.rowMajor_val_four]
    show t.val = ((t.val * 1 + 0) * 1 + 0) * 1 + 0
    omega)

/-- %9, the grid indices stacked: at (t, ix, iy, iz) the t-th of ix, iy, iz. -/
theorem read_v9 (t : Fin 3) (ix iy : Fin 200) (iz : Fin 4) :
    (A% main_v9 : (⟨S3x200x200x4, .i32⟩ : BufTy).Contents (Elt Ideal)) (ix4 t ix iy iz) = gridR t ix iy iz := by
  rw [st_main_v9]
  match t with
  | ⟨0, _⟩ =>
    refine (concatenate_apply_piece 0 _ _ (ix4 (0 : Fin 3) ix iy iz) 0 (by show (0 : ℕ) < 3; decide) S1x200x200x4 _ rfl rfl 0 rfl
      (ix4 (0 : Fin 1) ix iy iz) (fun b hb => match b, hb with
        | ⟨0, _⟩, hb => absurd rfl hb
        | ⟨1, _⟩, _ => rfl
        | ⟨2, _⟩, _ => rfl
        | ⟨3, _⟩, _ => rfl) rfl).trans ?_
    show (after (ops (F := Ideal)) V (Proc.devRef .tc main_v6)) (ix4 (0 : Fin 1) ix iy iz) = _
    rw [st_main_v6, st_main_v3, st_main_v0]
    refine (broadcastInDim_apply _ _ _ (ix4 (0 : Fin 1) ix iy iz) (ix3 ix iy iz) (fun a => match a with
      | ⟨0, _⟩ => rfl
      | ⟨1, _⟩ => rfl
      | ⟨2, _⟩ => rfl)).trans ?_
    refine (broadcastInDim_apply _ _ _ (ix3 ix iy iz) (ix1 ix) (fun a => match a with
      | ⟨0, _⟩ => rfl)).trans ?_
    rfl
  | ⟨1, _⟩ =>
    refine (concatenate_apply_piece 0 _ _ (ix4 (1 : Fin 3) ix iy iz) 1 (by show (1 : ℕ) < 3; decide) S1x200x200x4 _ rfl rfl 1 rfl
      (ix4 (0 : Fin 1) ix iy iz) (fun b hb => match b, hb with
        | ⟨0, _⟩, hb => absurd rfl hb
        | ⟨1, _⟩, _ => rfl
        | ⟨2, _⟩, _ => rfl
        | ⟨3, _⟩, _ => rfl) rfl).trans ?_
    show (after (ops (F := Ideal)) V (Proc.devRef .tc main_v7)) (ix4 (0 : Fin 1) ix iy iz) = _
    rw [st_main_v7, st_main_v4, st_main_v1]
    refine (broadcastInDim_apply _ _ _ (ix4 (0 : Fin 1) ix iy iz) (ix3 ix iy iz) (fun a => match a with
      | ⟨0, _⟩ => rfl
      | ⟨1, _⟩ => rfl
      | ⟨2, _⟩ => rfl)).trans ?_
    refine (broadcastInDim_apply _ _ _ (ix3 ix iy iz) (ix1 iy) (fun a => match a with
      | ⟨0, _⟩ => rfl)).trans ?_
    rfl
  | ⟨2, _⟩ =>
    refine (concatenate_apply_piece 0 _ _ (ix4 (2 : Fin 3) ix iy iz) 2 (by show (2 : ℕ) < 3; decide) S1x200x200x4 _ rfl rfl 2 rfl
      (ix4 (0 : Fin 1) ix iy iz) (fun b hb => match b, hb with
        | ⟨0, _⟩, hb => absurd rfl hb
        | ⟨1, _⟩, _ => rfl
        | ⟨2, _⟩, _ => rfl
        | ⟨3, _⟩, _ => rfl) rfl).trans ?_
    show (after (ops (F := Ideal)) V (Proc.devRef .tc main_v8)) (ix4 (0 : Fin 1) ix iy iz) = _
    rw [st_main_v8, st_main_v5, st_main_v2]
    refine (broadcastInDim_apply _ _ _ (ix4 (0 : Fin 1) ix iy iz) (ix3 ix iy iz) (fun a => match a with
      | ⟨0, _⟩ => rfl
      | ⟨1, _⟩ => rfl
      | ⟨2, _⟩ => rfl)).trans ?_
    refine (broadcastInDim_apply _ _ _ (ix3 ix iy iz) (ix1 iz) (fun a => match a with
      | ⟨0, _⟩ => rfl)).trans ?_
    rfl

/-- THE POINT of voxel (ix, iy, iz), coordinate t: the grid index as a float times the voxel size plus the origin. -/
theorem ptR_eq (t : Fin 3) (ix iy : Fin 200) (iz : Fin 4) :
    ptR V t (voxel ix iy iz) = FloatOps.sitofp (F := Ideal) .f32 (gridR t ix iy iz) * sizeR t + originR t := by
  unfold ptR sizeR
  rw [st_main_v37]
  refine (shapeCast_apply _ _ (ix3 (0 : Fin 1) t (voxel ix iy iz)) (ix4 t ix iy iz) (by
    rw [Shape.rowMajor_val_four, Shape.rowMajor_val_three]
    show ((t.val * 200 + ix.val) * 200 + iy.val) * 4 + iz.val = (0 * 3 + t.val) * 160000 + (800 * ix.val + 4 * iy.val + iz.val)
    omega)).trans ?_
  rw [st_main_v20, st_main_v17, st_main_v10, st_main_v16, st_main_v15, st_main_v19, st_main_v18, st_main_cst_0]
  show FloatOps.sitofp .f32 _ * broadcastInDim _ _ _ (shapeCast _ _ _) _ + broadcastInDim _ _ _ (shapeCast _ _ _) _ = _
  rw [bcast_axis0, bcast_axis0, read_v9, read_v14]
  rfl

end Points

/-! ## The projection matrix -/

section Projection

local notation "dA" => dot_S6x4x4_S6x4x4_S6x4x4_2_1_1_2_0_0

/-- The batched product of two [6, 4, 4] arrays, per camera: at (j, r, k) the sum over c of the products at (j, r, c), (j, c, k). -/
theorem dotA_apply (l r : FVec Ideal S6x4x4 .f32) (j : Fin 6) (q k : Fin 4) :
    Host.dotGeneral dA none l r (ix3 j q k) = ∑ c : Fin 4, l (ix3 j q c) * r (ix3 j c k) := by
  show FloatOps.dotGeneral dA none .single l r (ix3 j q k) = _
  rw [Ideal.dotGeneral_apply]
  rw [← Equiv.sum_comp (contrEquiv1 dA 4 rfl rfl).symm]
  refine Finset.sum_congr rfl fun c _ => ?_
  have hl : (dA).lhsIdx (ix3 j q k) ((contrEquiv1 dA 4 rfl rfl).symm c) = ix3 j q c := by
    funext a; refine Fin.ext ?_
    match a with
    | ⟨0, _⟩ => rfl
    | ⟨1, _⟩ => rfl
    | ⟨2, _⟩ => rfl
  have hr : (dA).rhsIdx (ix3 j q k) ((contrEquiv1 dA 4 rfl rfl).symm c) = ix3 j c k := by
    funext a; refine Fin.ext ?_
    match a with
    | ⟨0, _⟩ => rfl
    | ⟨1, _⟩ => rfl
    | ⟨2, _⟩ => rfl
  rw [hl, hr]

variable (V : Valuation τ sig (Elt Ideal))

/-- lidar2image[0, j, c, k]. -/
def l2iR (j : Fin 6) (c k : Fin 4) : EReal :=
  (V (Proc.devRef .tc main_arg3) : (⟨S1x6x4x4, .f32⟩ : BufTy).Contents (Elt Ideal)) (ix4 (0 : Fin 1) j c k)

/-- The image augmentation matrix with the first three entries of its last column set to zero: the buffer the printed scatter
    writes (%33), at (j, r, c). KEPT FOLDED: the scatter (one index vector (0, 3), a [6, 3] window of zeros set into
    img_aug_matrix[0] at rows 0…2 of column 3) is not read here. -/
def augZR (j : Fin 6) (r c : Fin 4) : EReal :=
  (A% main_v33 : (⟨S6x4x4, .f32⟩ : BufTy).Contents (Elt Ideal)) (ix3 j r c)

/-- %34, lidar2image with its batch axis dropped. -/
theorem read_v34 (j : Fin 6) (c k : Fin 4) :
    (A% main_v34 : (⟨S6x4x4, .f32⟩ : BufTy).Contents (Elt Ideal)) (ix3 j c k) = l2iR V j c k := by
  unfold l2iR
  rw [st_main_v34]
  refine (shapeCast_apply _ _ (ix3 j c k) (ix4 (0 : Fin 1) j c k) (by
    rw [Shape.rowMajor_val_four, Shape.rowMajor_val_three]
    show ((0 * 6 + j.val) * 4 + c.val) * 4 + k.val = (j.val * 4 + c.val) * 4 + k.val
    omega)).trans ?_
  rw [kept_arg3]

/-- %36, the projection matrix: the first three rows of the zeroed augmentation times lidar2image. -/
theorem read_v36 (j : Fin 6) (r : Fin 3) (k : Fin 4) :
    (A% main_v36 : (⟨S6x3x4, .f32⟩ : BufTy).Contents (Elt Ideal)) (ix3 j r k)
      = ∑ c : Fin 4, augZR V j ⟨r.val, by omega⟩ c * l2iR V j c k := by
  unfold augZR
  rw [st_main_v36]
  refine (extractStridedSlice_apply _ _ _ (ix3 j r k) (ix3 j (⟨r.val, by omega⟩ : Fin 4) k) (fun a => match a with
    | ⟨0, _⟩ => by show j.val = 0 + j.val; omega
    | ⟨1, _⟩ => by show r.val = 0 + r.val; omega
    | ⟨2, _⟩ => by show k.val = 0 + k.val; omega)).trans ?_
  rw [st_main_v35]
  refine (dotA_apply _ _ j _ k).trans ?_
  refine Finset.sum_congr rfl fun c _ => ?_
  rw [read_v34]

end Projection

/-! ## The integer stage's projected coordinates, opened -/

section Joined

variable (V : Valuation τ sig (Elt Ideal))

/-- The projected homogeneous coordinate r of voxel n for camera j is row r of the projection matrix applied to the rotated
    point made homogeneous. -/
theorem p2iR_eq (j : Fin 6) (r : Fin 3) (n : Fin 160000) :
    p2iR V j r n = projR V j r 0 * qR V 0 n + projR V j r 1 * qR V 1 n + projR V j r 2 * qR V 2 n + projR V j r 3 * oneR :=
  read_v51 V j r n

/-- The projection matrix's entries. -/
theorem projR_eq (j : Fin 6) (r : Fin 3) (k : Fin 4) :
    projR V j r k = ∑ c : Fin 4, augZR V j ⟨r.val, by omega⟩ c * l2iR V j c k :=
  read_v36 V j r k

end Joined

/-! ## The same in the forms a kernel-side statement meets -/

section Forms

variable (V : Valuation τ sig (Elt Ideal))

/-- The homogeneous point's coordinate m: the rotated point for m < 3, one for m = 3. -/
def hptR (m : Fin 4) (n : Fin 160000) : EReal := if h : m.val < 3 then qR V ⟨m.val, h⟩ n else oneR

/-- The projected coordinates as ONE sum over the four homogeneous coordinates, matrix entry times point coordinate. -/
theorem p2iR_sum (j : Fin 6) (r : Fin 3) (n : Fin 160000) :
    p2iR V j r n = ∑ m : Fin 4, projR V j r m * hptR V m n := by
  rw [Fin.sum_univ_four, p2iR_eq]
  rfl

/-- A flat voxel index is the voxel of its three digits. -/
theorem voxel_digits (n : Fin 160000) :
    voxel ⟨n.val / 800, by omega⟩ ⟨n.val % 800 / 4, by omega⟩ ⟨n.val % 4, by omega⟩ = n :=
  Fin.ext (by show 800 * (n.val / 800) + 4 * (n.val % 800 / 4) + n.val % 4 = n.val; omega)

/-- The point of the voxel with flat index n, through the digits n / 800, n % 800 / 4, n % 4. -/
theorem ptR_digits (t : Fin 3) (n : Fin 160000) :
    ptR V t n = FloatOps.sitofp (F := Ideal) .f32 (gridR t ⟨n.val / 800, by omega⟩ ⟨n.val % 800 / 4, by omega⟩ ⟨n.val % 4, by omega⟩)
      * sizeR t + originR t := by
  have h := ptR_eq V t ⟨n.val / 800, by omega⟩ ⟨n.val % 800 / 4, by omega⟩ ⟨n.val % 4, by omega⟩
  rw [voxel_digits] at h
  exact h

/-- The zeroed image augmentation matrix is the printed scatter itself — set, at the one index vector (0, 3), a [6, 3] window of
    zeros — applied to img_aug_matrix with its batch axis dropped: the scatter is NOT read; its three operands are spelled out. -/
theorem augZR_eq (j : Fin 6) (r c : Fin 4) :
    augZR V j r c
      = Host.scatter scatter_S6x4x4_S2_S6x3_01_2_12_0 (fun _ b => b)
          (shapeCast S6x4x4 (V (Proc.devRef .tc main_arg4) : (⟨S1x6x4x4, .f32⟩ : BufTy).Contents (Elt Ideal)) shapeCasts_S1x6x4x4_S6x4x4)
          (concatenate S2 0 [⟨S1, broadcastInDim S1 ![] bcast_S_S1 (constantI S_ 32 0#32)⟩,
            ⟨S1, broadcastInDim S1 ![] bcast_S_S1 (constantI S_ 32 3#32)⟩] concatenates_S1_S1_S2_d0)
          (broadcastInDim S6x3 ![] bcast_S_S6x3 (constant (F := Ideal) S_ .f32 0x00000000#32)) (ix3 j r c) := by
  unfold augZR
  rw [st_main_v33, st_main_v26, st_main_v31, st_main_v29, st_main_v30, st_main_c, st_main_c_3, st_main_v32, st_main_cst_4, kept_arg4]
  rfl

end Forms

end Cert.ReferenceIdeal.RefValue

end
-- ==== Proof.CameraJoin.lean ====
/-
  The reference's and the kernel's per-camera pixel words are the same words.

  Both sides compute, for voxel n and camera j: the voxel's point (grid digit times voxel size plus origin), less the lidar
  augmentation's translation, rotated by the transpose of its rotation block, made homogeneous, and projected by the camera's
  matrix; then the pixel column and row (numerator over depth plus the camera's offset, over the stride, rounded to even,
  converted) and the validity test. The kernel side states this over its three parameter arrays — the rotation, the six
  projection matrices, the fifteen offsets. Here the reference's stages are shown equal to those expressions for ANY three arrays
  that agree with the reference's own: the rotation block, the translation and the image offsets entry by entry, and the
  projection matrices entry by entry. The grid digit as a float is the natural number itself; the reference's computed origin is
  the kernel's literal (the three constant identities); the sums correspond term by term.
-/
import proofs.«207241_g55714315764006_cont_9to1c4b_410_29_alg».proof.Proof.RefGeom
import proofs.«207241_g55714315764006_cont_9to1c4b_410_29_alg».proof.Proof.Region1K
import proofs.«207241_g55714315764006_cont_9to1c4b_410_29_alg».proof.Proof.ConstsKI

set_option maxRecDepth 8192

noncomputable section

namespace Cert.Proof.CameraJoin

open Cert.ReferenceIdeal Cert.ReferenceIdeal.RefValue Idealize.ShloMosaic Idealize.SL.Sem Idealize.ShloMosaic.ValueIdx Cert.Proof.KI
open scoped BigOperators

variable [Cert.ReferenceIdeal.Facts]

/-! ## The constants -/

/-- The flat position of a [3] table's entry t is t. -/
theorem rowMajor_S3 (t : Fin 3) : Cert.ReferenceIdeal.S3.rowMajor (ix1 t) = t :=
  Fin.ext (by rw [Shape.rowMajor_val_one])

theorem size_0 : sizeR 0 = Ideal.ofBits .f32 0x3F000000#32 := by unfold sizeR; rw [rowMajor_S3]; rfl
theorem size_1 : sizeR 1 = Ideal.ofBits .f32 0x3F000000#32 := by unfold sizeR; rw [rowMajor_S3]; rfl
theorem size_2 : sizeR 2 = Ideal.ofBits .f32 0x3F800000#32 := by unfold sizeR; rw [rowMajor_S3]; rfl

/-- The computed origin along the first axis is the literal −50 … -/
theorem origin_0 : originR 0 = Ideal.ofBits .f32 0xC2480000#32 := by
  unfold originR; rw [size_0, rowMajor_S3]; exact Cert.Proof.Bridge.origin_x
/-- … along the second the same … -/
theorem origin_1 : originR 1 = Ideal.ofBits .f32 0xC2480000#32 := by
  unfold originR; rw [size_1, rowMajor_S3]; exact Cert.Proof.Bridge.origin_y
/-- … and along the third the literal the kernel carries. -/
theorem origin_2 : originR 2 = Ideal.ofBits .f32 0xC06CCCCD#32 := by
  unfold originR; rw [size_2, rowMajor_S3]; exact Cert.Proof.Bridge.origin_z

/-! ## The join -/

section Join

variable (V : Valuation Cert.ReferenceIdeal.τ Cert.ReferenceIdeal.sig (Elt Ideal))
variable (x0 : Cert.KernelIdeal.S3x3.Idx → EReal) (x1 : Cert.KernelIdeal.S6x3x4.Idx → EReal) (x2 : Cert.KernelIdeal.S15.Idx → EReal)
variable (h0 : ∀ q r : Fin 3, x0 (ix2 q r) = lidarR V ⟨q.val, by omega⟩ ⟨r.val, by omega⟩)
variable (h2lo : ∀ k : Fin 3, x2 (ix1 (⟨k.val, by omega⟩ : Fin 15)) = lidarR V ⟨k.val, by omega⟩ 3)
variable (h2u : ∀ J : Fin 6, x2 (ix1 (R1.offU J)) = ttR V J 0)
variable (h2v : ∀ J : Fin 6, x2 (ix1 (R1.offV J)) = ttR V J 1)
variable (h1 : ∀ (J : Fin 6) (r : Fin 3) (k : Fin 4), x1 (ix3 J r k) = projR V J r k)

include h2lo in
/-- The point less the translation, coordinate by coordinate. -/
theorem c_join (n : Fin 160000) : ∀ q : Fin 3, ptR V q n - lidarR V ⟨q.val, by omega⟩ 3 = R1.cK x2 n.val q
  | ⟨0, h⟩ => by
    rw [ptR_digits, ← h2lo ⟨0, h⟩]
    show FloatOps.sitofp (F := Ideal) .f32 (BitVec.ofNat 32 (n.val / 800)) * sizeR 0 + originR 0 - _ = _
    rw [R1.sitofp_ofNat _ (by omega), size_0, origin_0]
    rfl
  | ⟨1, h⟩ => by
    rw [ptR_digits, ← h2lo ⟨1, h⟩]
    show FloatOps.sitofp (F := Ideal) .f32 (BitVec.ofNat 32 (n.val % 800 / 4)) * sizeR 1 + originR 1 - _ = _
    rw [R1.sitofp_ofNat _ (by omega), size_1, origin_1]
    rfl
  | ⟨2, h⟩ => by
    rw [ptR_digits, ← h2lo ⟨2, h⟩]
    show FloatOps.sitofp (F := Ideal) .f32 (BitVec.ofNat 32 (n.val % 4)) * sizeR 2 + originR 2 - _ = _
    rw [R1.sitofp_ofNat _ (by omega), size_2, origin_2]
    rfl

include h0 h2lo in
/-- The rotated point made homogeneous, coordinate by coordinate. -/
theorem pt_join (n : Fin 160000) : ∀ m : Fin 4, hptR V m n = R1.ptK x0 x2 n.val m
  | ⟨0, _⟩ => by
    show qR V 0 n = ∑ q : Fin 3, x0 (ix2 q (0 : Fin 3)) * R1.cK x2 n.val q
    unfold qR
    exact Finset.sum_congr rfl fun q _ => by rw [h0 q 0, c_join V x2 h2lo n q]
  | ⟨1, _⟩ => by
    show qR V 1 n = ∑ q : Fin 3, x0 (ix2 q (1 : Fin 3)) * R1.cK x2 n.val q
    unfold qR
    exact Finset.sum_congr rfl fun q _ => by rw [h0 q 1, c_join V x2 h2lo n q]
  | ⟨2, _⟩ => by
    show qR V 2 n = ∑ q : Fin 3, x0 (ix2 q (2 : Fin 3)) * R1.cK x2 n.val q
    unfold qR
    exact Finset.sum_congr rfl fun q _ => by rw [h0 q 2, c_join V x2 h2lo n q]
  | ⟨3, _⟩ => rfl

include h0 h2lo h1 in
/-- THE PROJECTED COORDINATES: the reference's are the kernel's expression. -/
theorem proj_join (n : Fin 160000) (j : Fin 6) (r : Fin 3) : p2iR V j r n = R1.projK x0 x1 x2 n.val j r := by
  rw [p2iR_sum]
  unfold R1.projK
  exact Finset.sum_congr rfl fun m _ => by rw [h1 j r m, pt_join V x0 x2 h0 h2lo n m]

include h0 h2lo h2u h1 in
/-- The pixel column words agree. -/
theorem ui_join (n : Fin 160000) (j : Fin 6) : uiR V j n = R1.uK x0 x1 x2 n.val j := by
  unfold uiR uR R1.uK
  rw [proj_join V x0 x1 x2 h0 h2lo h1 n j 0, proj_join V x0 x1 x2 h0 h2lo h1 n j 2, ← h2u j]
  rfl

include h0 h2lo h2v h1 in
/-- The pixel row words agree. -/
theorem vi_join (n : Fin 160000) (j : Fin 6) : viR V j n = R1.vK x0 x1 x2 n.val j := by
  unfold viR vR R1.vK
  rw [proj_join V x0 x1 x2 h0 h2lo h1 n j 1, proj_join V x0 x1 x2 h0 h2lo h1 n j 2, ← h2v j]
  rfl

include h0 h2lo h2u h2v h1 in
/-- The validity tests agree. -/
theorem valid_join (n : Fin 160000) (j : Fin 6) : validR V j n = R1.okK x0 x1 x2 n.val j := by
  unfold validR R1.okK
  rw [ui_join V x0 x1 x2 h0 h2lo h2u h1 n j, vi_join V x0 x1 x2 h0 h2lo h2v h1 n j, proj_join V x0 x1 x2 h0 h2lo h1 n j 2]
  rfl

end Join

end Cert.Proof.CameraJoin

end
-- ==== Proof.RefTail.lean ====
/-
  The tail of the reference program, read at an index.

  From the stacked volume vol : f32[1, 256, 200, 200, 4] the reference sums the four depth cells of every
  channel and position, applies the 1 × 1 convolution (the 80 × 256 weight, contracted over the channels) and
  adds the bias; the result y : f32[1, 80, 200, 200] is normalised per channel over its 40000 positions by its mean
  and its centred second moment (the divisor 40000 less zero degrees of freedom), scaled, shifted and
  rectified. Here each of those operations is read at an index, in the order the program applies them, and
  the result's entry (0, o, ix, iy) comes out as the normalisation law's reference arrangement over the positions
  Fin 200 × Fin 200 of the function r ↦ (∑ ch, w (o, ch) · ∑ z, vol (0, ch, r, z)) + b o.
-/
import proofs.«207241_g55714315764006_cont_9to1c4b_410_29_alg».proof.Proof.RefStaged
import proofs.«207241_g55714315764006_cont_9to1c4b_410_29_alg».proof.Proof.BridgeMath
import Idealize.ShloMosaic.PureOps.Ideal.Laws
import Idealize.ShloMosaic.Lib.ValueIdx
import Idealize.ShloMosaic.Lib.ValueIdxCoords
import Idealize.ShloMosaic.Lib.Pipeline.Value

set_option maxRecDepth 8192

noncomputable section

namespace Cert.ReferenceIdeal.RefTail

open Cert.ReferenceIdeal Cert.ReferenceIdeal.Facts₀ Cert.ReferenceIdeal.Facts Cert.ReferenceIdeal.RefRun
open Idealize.ShloMosaic Idealize.SL.Sem Idealize.ShloMosaic.StableHlo Idealize.ShloMosaic.ValueIdx
open scoped BigOperators

variable [Cert.ReferenceIdeal.Facts]

/-! ## Index facts used throughout -/

/-- The scalar shape has one index. -/
theorem idx0_eq (j k : S_.Idx) : j = k := funext fun a => a.elim0

/-- A per-channel vector spread over [1, 80, 1, 1] reads its channel. -/
theorem bc_chan {α : Type} (v : S80.Idx → α) (a : Fin 1) (o : Fin 80) (b c : Fin 1) :
    broadcastInDim S1x80x1x1 ![1] bcast_S80_S1x80x1x1_1 v (ix4 a o b c) = v (ix1 o) :=
  broadcastInDim_apply _ _ _ (ix4 a o b c) (ix1 o) fun e => by
    match e with
    | ⟨0, _⟩ => rfl

/-- A [1, 80, 1, 1] array spread over the positions reads its channel's entry. -/
theorem bc_pos {α : Type} (v : S1x80x1x1.Idx → α) (o : Fin 80) (x y : Fin 200) :
    broadcastInDim S1x80x200x200 ![0, 1, 2, 3] bcast_S1x80x1x1_S1x80x200x200_0_1_2_3 v (ix4 0 o x y) = v (ix4 0 o 0 0) :=
  broadcastInDim_apply _ _ _ (ix4 0 o x y) (ix4 0 o 0 0) fun e => by
    match e with
    | ⟨0, _⟩ => rfl
    | ⟨1, _⟩ => rfl
    | ⟨2, _⟩ => rfl
    | ⟨3, _⟩ => rfl

/-- A scalar spread over [1, 80, 1, 1] reads the scalar. -/
theorem bc_scal {α : Type} (v : S_.Idx → α) (j : S1x80x1x1.Idx) (k : S_.Idx) :
    broadcastInDim S1x80x1x1 ![] bcast_S_S1x80x1x1 v j = v k :=
  broadcastInDim_apply _ _ _ j k fun e => e.elim0

/-! ## The volume, summed over the depth cells -/

variable (V : Valuation τ sig (Elt Ideal))

/-- The stacked volume as the program leaves it. -/
def volR : (⟨S1x256x200x200x4, .f32⟩ : BufTy).Contents (Elt Ideal) := after (ops (F := Ideal)) V (Proc.devRef .tc main_v250)

/-- The sum over the last axis: at (0, ch, x, y), the four depth cells added. -/
theorem read_v251 (ch : Fin 256) (x y : Fin 200) :
    after (ops (F := Ideal)) V (Proc.devRef .tc main_v251) (ix4 0 ch x y) = ∑ z : Fin 4, volR V (ix5 0 ch x y z) := by
  rw [st_main_v251, st_main_cst_62]
  show Ideal.hostReduceAdd reducesTo_S1x256x200x200x4_S1x256x200x200_d4 (volR V) (Ideal.ofBits .f32 0x00000000#32) (ix4 0 ch x y) = _
  rw [Ideal.hostReduceAdd_single _ (by decide : S1x256x200x200x4.Reduces [4] S1x256x200x200), Ideal.ofBits_zero_f32, zero_add]
  refine Finset.sum_congr rfl fun z _ => congrArg (volR V) ?_
  funext c; apply Fin.ext; rw [Shape.Reduces.lift_val]
  match c with
  | ⟨0, _⟩ => rfl
  | ⟨1, _⟩ => rfl
  | ⟨2, _⟩ => rfl
  | ⟨3, _⟩ => rfl
  | ⟨4, _⟩ => rfl

/-- Kept with a trailing unit axis, then without it: the same entries. -/
theorem read_v253 (ch : Fin 256) (x y : Fin 200) :
    after (ops (F := Ideal)) V (Proc.devRef .tc main_v253) (ix4 0 ch x y)
      = after (ops (F := Ideal)) V (Proc.devRef .tc main_v251) (ix4 0 ch x y) := by
  rw [st_main_v253, st_main_v252]
  refine (shapeCast_apply _ _ (ix4 0 ch x y) (ix5 0 ch x y 0) ?_).trans ?_
  · rw [Shape.rowMajor_val_five, Shape.rowMajor_val_four]
    show ((((0 * 256 + ch.val) * 200 + x.val) * 200 + y.val) * 1 + 0) = (((0 * 256 + ch.val) * 200 + x.val) * 200 + y.val)
    omega
  · exact broadcastInDim_apply _ _ _ (ix5 0 ch x y 0) (ix4 0 ch x y) fun e => by
      match e with
      | ⟨0, _⟩ => rfl
      | ⟨1, _⟩ => rfl
      | ⟨2, _⟩ => rfl
      | ⟨3, _⟩ => rfl

/-! ## The convolution and the bias -/

/-- The weight, the bias, the scale and the shift: arguments of the program, which it never writes. -/
abbrev wR : FVec Ideal S80x256 .f32 := V (Proc.devRef .tc main_arg7)
abbrev bR : FVec Ideal S80 .f32 := V (Proc.devRef .tc main_arg8)
abbrev gR : FVec Ideal S80 .f32 := V (Proc.devRef .tc main_arg9)
abbrev sR : FVec Ideal S80 .f32 := V (Proc.devRef .tc main_arg10)

/-- The convolution's dot: the 80 × 256 weight by the [1, 256, 200, 200] sums, the channels contracted. -/
abbrev DW : DotDims S80x256 S1x256x200x200 S80x1x200x200 := dot_S80x256_S1x256x200x200_S80x1x200x200_1_1_0_023_n_n
/-- Its contraction index is the channel. -/
abbrev EW : DW.contr.Idx ≃ Fin 256 := contrEquiv1 DW 256 rfl rfl

omit [Cert.ReferenceIdeal.Facts] in
/-- At output index (o, 0, x, y) and channel q the dot reads the weight at (o, q) -/
theorem lhsIdxW (o : Fin 80) (x y : Fin 200) (q : Fin 256) : DW.lhsIdx (ix4 o 0 x y) (EW.symm q) = ix2 o q := by
  funext a
  match a with
  | ⟨0, _⟩ => apply Fin.ext; simp [DotDims.lhsIdx, DW, dot_S80x256_S1x256x200x200_S80x1x200x200_1_1_0_023_n_n] <;> rfl
  | ⟨1, _⟩ =>
    apply Fin.ext
    show (DW.lhsIdx (ix4 o 0 x y) (EW.symm q) 1).val = q.val
    rw [DW.lhsIdx_val_of_single (cl := 1) rfl]; exact contrEquiv1_symm_val DW 256 rfl rfl q

omit [Cert.ReferenceIdeal.Facts] in
/-- and the sums at (0, q, x, y). -/
theorem rhsIdxW (o : Fin 80) (x y : Fin 200) (q : Fin 256) : DW.rhsIdx (ix4 o 0 x y) (EW.symm q) = ix4 0 q x y := by
  funext a
  match a with
  | ⟨0, _⟩ => apply Fin.ext; simp [DotDims.rhsIdx, DW, dot_S80x256_S1x256x200x200_S80x1x200x200_1_1_0_023_n_n] <;> rfl
  | ⟨1, _⟩ =>
    apply Fin.ext
    show (DW.rhsIdx (ix4 o 0 x y) (EW.symm q) 1).val = q.val
    rw [DW.rhsIdx_val_of_single (cr := 1) rfl]; exact contrEquiv1_symm_val DW 256 rfl rfl q
  | ⟨2, _⟩ => apply Fin.ext; simp [DotDims.rhsIdx, DW, dot_S80x256_S1x256x200x200_S80x1x200x200_1_1_0_023_n_n] <;> rfl
  | ⟨3, _⟩ => apply Fin.ext; simp [DotDims.rhsIdx, DW, dot_S80x256_S1x256x200x200_S80x1x200x200_1_1_0_023_n_n] <;> rfl

/-- The contraction at (o, 0, x, y): the sum over the channels of weight times depth-sum. -/
theorem read_v254 (o : Fin 80) (x y : Fin 200) :
    after (ops (F := Ideal)) V (Proc.devRef .tc main_v254) (ix4 o 0 x y)
      = (∑ ch : Fin 256, wR V (ix2 o ch) * (∑ z : Fin 4, volR V (ix5 0 ch x y z)) : EReal) := by
  show @Eq EReal _ _
  rw [st_main_v254, kept_arg7]
  simp only [Host.dotGeneral]
  rw [Ideal.dotGeneral_apply, ← Equiv.sum_comp (EW).symm]
  refine Finset.sum_congr rfl fun q _ => ?_
  rw [lhsIdxW, rhsIdxW, read_v253, read_v251]

/-- The convolution's result with the bias added, at (0, o, x, y). -/
def yR (o : Fin 80) (r : Fin 200 × Fin 200) : EReal :=
  (∑ ch : Fin 256, wR V (ix2 o ch) * (∑ z : Fin 4, volR V (ix5 0 ch r.1 r.2 z))) + bR V (ix1 o)

theorem read_v258 (o : Fin 80) (x y : Fin 200) :
    after (ops (F := Ideal)) V (Proc.devRef .tc main_v258) (ix4 0 o x y) = yR V o (x, y) := by
  rw [st_main_v258, addf_apply, st_main_v255, st_main_v257, st_main_v256, kept_arg8]
  rw [bc_pos, bc_chan]
  beta_reduce
  rw [transpose_apply _ _ _ (ix4 0 o x y) (ix4 o 0 x y) (fun e => by
    match e with
    | ⟨0, _⟩ => rfl
    | ⟨1, _⟩ => rfl
    | ⟨2, _⟩ => rfl
    | ⟨3, _⟩ => rfl), read_v254]
  rfl

/-! ## Elementwise host operations at an index, at the ideal values -/

omit [Cert.ReferenceIdeal.Facts] in
/-- The host's quotient at an index is the ideal instance's quotient of the elements; -/
theorem hdivf_apply {s : Shape} {φ : FTy} (a b : FVec Ideal s φ) (i : s.Idx) : Host.divf a b i = Ideal.div (a i) (b i) := rfl
omit [Cert.ReferenceIdeal.Facts] in
/-- its root the ideal instance's root of the element. -/
theorem hsqrt_apply {s : Shape} {φ : FTy} (a : FVec Ideal s φ) (i : s.Idx) : Host.sqrt a i = Ideal.sqrt (a i) := rfl

/-- A scalar spread over every entry of [1, 80, 200, 200] reads the scalar. -/
theorem bc_scal_full {α : Type} (v : S_.Idx → α) (j : S1x80x200x200.Idx) (k : S_.Idx) :
    broadcastInDim S1x80x200x200 ![] bcast_S_S1x80x200x200 v j = v k :=
  broadcastInDim_apply _ _ _ j k fun e => e.elim0

/-! ## A sum over the batch axis and the two position axes -/

/-- The entries of a [1, 80, 200, 200] array that reduce to channel `o` over the axes 0, 2 and 3 are its entries
    (0, o, x, y): their sum is the sum over the positions. -/
theorem sum_drop023 (f : S1x80x200x200.Idx → EReal) (o : Fin 80) :
    ∑ i ∈ Finset.univ.filter (fun i : S1x80x200x200.Idx => reducesTo_S1x80x200x200_S80_d0_2_3.drop i = ix1 o), f i
      = ∑ r : Fin 200 × Fin 200, f (ix4 0 o r.1 r.2) := by
  have hd : ∀ i : S1x80x200x200.Idx, (reducesTo_S1x80x200x200_S80_d0_2_3.drop i 0).val = (i 1).val :=
    fun i => Shape.ReducesTo.drop_apply_val_of_eq _ i 0 1
  have hleft : ∀ i ∈ Finset.univ.filter (fun i : S1x80x200x200.Idx => reducesTo_S1x80x200x200_S80_d0_2_3.drop i = ix1 o),
      ix4 0 o (i 2) (i 3) = i := by
    intro i hi
    have h1 : (reducesTo_S1x80x200x200_S80_d0_2_3.drop i 0).val = o.val :=
      congrArg Fin.val (congrFun (Finset.mem_filter.mp hi).2 0)
    funext a
    match a with
    | ⟨0, _⟩ => exact Fin.ext (by have h0 : (i 0).val < 1 := (i 0).isLt; show (0 : ℕ) = (i 0).val; omega)
    | ⟨1, _⟩ => exact Fin.ext (by show o.val = (i 1).val; rw [← hd i]; exact h1.symm)
    | ⟨2, _⟩ => rfl
    | ⟨3, _⟩ => rfl
  refine Finset.sum_nbij' (fun i => (i 2, i 3)) (fun r => ix4 0 o r.1 r.2) ?_ ?_ ?_ ?_ ?_
  · intro i _; exact Finset.mem_univ _
  · intro r _
    rw [Finset.mem_filter]
    refine ⟨Finset.mem_univ _, funext fun b => ?_⟩
    match b with
    | ⟨0, _⟩ => exact Fin.ext (hd _)
  · exact hleft
  · intro r _; rfl
  · intro i hi; exact congrArg f (hleft i hi).symm

/-- The host's sum over the axes 0, 2 and 3 from a zero, at channel `o`: the sum over the positions. -/
theorem hostRed023 (f : FVec Ideal S1x80x200x200 .f32) (o : Fin 80) :
    Host.reduceAdd f (constant S_ .f32 0x00000000#32 : FVec Ideal S_ .f32) reducesTo_S1x80x200x200_S80_d0_2_3 h_S_ (ix1 o)
      = ∑ r : Fin 200 × Fin 200, f (ix4 0 o r.1 r.2) := by
  show Ideal.hostReduceAdd reducesTo_S1x80x200x200_S80_d0_2_3 f (Ideal.ofBits .f32 0x00000000#32) (ix1 o) = _
  unfold Ideal.hostReduceAdd
  rw [Ideal.ofBits_zero_f32, zero_add, sum_drop023]

/-- The same with the entries named by a function of the position. -/
theorem hostRed023' (f : FVec Ideal S1x80x200x200 .f32) (g : Fin 200 × Fin 200 → EReal) (o : Fin 80)
    (hfg : ∀ x y, f (ix4 0 o x y) = g (x, y)) :
    Host.reduceAdd f (constant S_ .f32 0x00000000#32 : FVec Ideal S_ .f32) reducesTo_S1x80x200x200_S80_d0_2_3 h_S_ (ix1 o)
      = ∑ r : Fin 200 × Fin 200, g r := by
  rw [hostRed023]
  exact Finset.sum_congr rfl fun r _ => hfg r.1 r.2

/-! ## The mean -/

/-- The count of positions, 40000, and the float nearest 1e-5, as the program writes them. -/
abbrev Nf : EReal := Ideal.ofBits .f32 0x471C4000#32
abbrev epsf : EReal := Ideal.ofBits .f32 0x3727C5AC#32

/-- The mean of channel `o` over the positions. -/
def meanR (o : Fin 80) : EReal := Ideal.div (∑ r : Fin 200 × Fin 200, yR V o r) Nf

theorem read_v262 (o : Fin 80) (a b c : Fin 1) :
    after (ops (F := Ideal)) V (Proc.devRef .tc main_v262) (ix4 a o b c) = meanR V o := by
  rw [st_main_v262, hdivf_apply, st_main_v260, st_main_v261, st_main_v259, st_main_cst_63, st_main_cst_64, bc_chan,
    bc_scal _ _ ix0]
  beta_reduce
  rw [hostRed023' _ (yR V o) o (read_v258 V o)]
  rfl

/-! ## The centred second moment -/

/-- The mean again, inside the variance. -/
theorem read_c20_v3 (o : Fin 80) (a b c : Fin 1) :
    after (ops (F := Ideal)) V (Proc.devRef .tc main_call20_v3) (ix4 a o b c) = meanR V o := by
  rw [st_main_call20_v3, hdivf_apply, st_main_call20_v1, st_main_call20_v2, st_main_call20_v0, st_main_call20_cst,
    st_main_call20_cst_0, bc_chan, bc_scal _ _ ix0]
  beta_reduce
  rw [hostRed023' _ (yR V o) o (read_v258 V o)]
  rfl

/-- The deviation from the mean, -/
theorem read_c20_v5 (o : Fin 80) (x y : Fin 200) :
    after (ops (F := Ideal)) V (Proc.devRef .tc main_call20_v5) (ix4 0 o x y) = yR V o (x, y) - meanR V o := by
  rw [st_main_call20_v5, subf_apply, read_v258, st_main_call20_v4, bc_pos, read_c20_v3]

/-- and its square. -/
theorem read_c20_v6 (o : Fin 80) (x y : Fin 200) :
    after (ops (F := Ideal)) V (Proc.devRef .tc main_call20_v6) (ix4 0 o x y)
      = (yR V o (x, y) - meanR V o) * (yR V o (x, y) - meanR V o) := by
  rw [st_main_call20_v6, mulf_apply, read_c20_v5]

/-- The divisor: the count less zero degrees of freedom, which is the count. -/
theorem read_c20_v8 (j : S_.Idx) : after (ops (F := Ideal)) V (Proc.devRef .tc main_call20_v8) j = Nf := by
  rw [st_main_call20_v8, subf_apply, st_main_call20_cst_1, st_main_call20_v7, st_main_c_65]
  exact Cert.Proof.Bridge.N_sub_sitofp_zero

/-- The centred second moment of channel `o`. -/
def varR (o : Fin 80) : EReal :=
  Ideal.div (∑ r : Fin 200 × Fin 200, (yR V o r - meanR V o) * (yR V o r - meanR V o)) Nf

theorem read_c20_v12 (o : Fin 80) (a b c : Fin 1) :
    after (ops (F := Ideal)) V (Proc.devRef .tc main_call20_v12) (ix4 a o b c) = varR V o := by
  rw [st_main_call20_v12, hdivf_apply, st_main_call20_v10, st_main_call20_v11, bc_chan, bc_scal _ _ ix0, read_c20_v8,
    st_main_call20_v9, st_main_call20_cst_2]
  beta_reduce
  rw [hostRed023' _ (fun r => (yR V o r - meanR V o) * (yR V o r - meanR V o)) o (fun x y => read_c20_v6 V o x y)]
  rfl

/-- The divisor is above zero, so the guarded quotient is the quotient. -/
theorem read_v263 (o : Fin 80) (a b c : Fin 1) :
    after (ops (F := Ideal)) V (Proc.devRef .tc main_v263) (ix4 a o b c) = varR V o := by
  rw [st_main_v263]
  beta_reduce
  rw [select_apply, bc_scal _ _ ix0, st_main_call20_v13, cmpf_apply, read_c20_v8, st_main_call20_cst_3, read_c20_v12]
  have hc : FloatOps.cmpf (F := Ideal) (φ := .f32) .ogt Nf ((constant S_ .f32 0x00000000#32 : FVec Ideal S_ .f32) ix0) = 1#1 := by
    show Ideal.cmp .ogt Nf (Ideal.ofBits .f32 0x00000000#32) = 1#1
    unfold Ideal.cmp
    rw [Ideal.ofBits_zero_f32]
    simp [Cert.Proof.Bridge.ofBits_N_pos]
  rw [hc, select_one]

/-! ## The normalisation -/

theorem read_v268 (o : Fin 80) (a b c : Fin 1) :
    after (ops (F := Ideal)) V (Proc.devRef .tc main_v268) (ix4 a o b c) = Ideal.sqrt (varR V o + epsf) := by
  rw [st_main_v268, hsqrt_apply, st_main_v267, addf_apply, read_v263, st_main_v266, st_main_cst_66, bc_scal _ _ ix0]
  rfl

/-- THE TAIL: the result's entry (0, o, ix, iy) is the reference arrangement of batch normalisation with the
    rectifier — the mean over the 40000 positions, the mean of the squared deviations from it, then
    max (((y − mean) / sqrt (variance + ε)) · γ + β, 0) — of the convolved, biased depth-sums. -/
theorem refOut_tail (o : Fin 80) (ix iy : Fin 200) :
    after (ops (F := Ideal)) V (Proc.devRef .tc main_v277) (ix4 0 o ix iy)
      = Cert.Proof.Bridge.refOut
          (fun r : Fin 200 × Fin 200 =>
            (∑ ch : Fin 256, wR V (ix2 o ch) * (∑ z : Fin 4, volR V (ix5 0 ch r.1 r.2 z))) + bR V (ix1 o))
          Nf epsf (gR V (ix1 o)) (sR V (ix1 o)) (ix, iy) := by
  show _ = Cert.Proof.Bridge.refOut (yR V o) Nf epsf (gR V (ix1 o)) (sR V (ix1 o)) (ix, iy)
  rw [st_main_v277, maximumf_apply, st_main_v276, addf_apply, st_main_v273, mulf_apply, st_main_v270, hdivf_apply,
    st_main_v265, subf_apply, read_v258, st_main_v264, bc_pos, read_v262, st_main_v269, bc_pos, read_v268,
    st_main_v272, bc_pos, st_main_v271, bc_chan, kept_arg9, st_main_v275, bc_pos, st_main_v274, bc_chan, kept_arg10,
    st_main_call21_v0, bc_scal_full _ _ ix0, st_main_call21_cst, Cert.Proof.Bridge.refOut_def]
  show max _ (Ideal.ofBits .f32 0x00000000#32) = _
  rw [Ideal.ofBits_zero_f32]
  rfl

/-! ## Where the volume comes from -/

/-- The stacked volume's entry (0, ch, x, y, z) is the flat volume's entry (ch, 800 x + 4 y + z): the program
    reshapes [256, 160000] to [256, 200, 200, 4] in row-major order and adds a leading unit axis. -/
theorem volR_apply (ch : Fin 256) (x y : Fin 200) (z : Fin 4) :
    volR V (ix5 0 ch x y z)
      = after (ops (F := Ideal)) V (Proc.devRef .tc main_v248)
          (ix2 ch ⟨800 * x.val + 4 * y.val + z.val, by have := x.isLt; have := y.isLt; have := z.isLt; omega⟩) := by
  unfold volR
  rw [st_main_v250, broadcastInDim_apply _ _ _ (ix5 0 ch x y z) (ix4 ch x y z) (fun e => by
    match e with
    | ⟨0, _⟩ => rfl
    | ⟨1, _⟩ => rfl
    | ⟨2, _⟩ => rfl
    | ⟨3, _⟩ => rfl), st_main_v249]
  refine shapeCast_apply _ _ (ix4 ch x y z) (ix2 ch ⟨800 * x.val + 4 * y.val + z.val, _⟩) ?_
  rw [Shape.rowMajor_val_two, Shape.rowMajor_val_four]
  show ch.val * 160000 + (800 * x.val + 4 * y.val + z.val) = ((ch.val * 200 + x.val) * 200 + y.val) * 4 + z.val
  omega

end Cert.ReferenceIdeal.RefTail

end
-- ==== Proof.VolJoin.lean ====
/-
  The reference's volume is the kernel-shaped fold over the reference's own words.

  For a voxel n and a channel ch the reference builds its volume entry by six selects from zero, camera by
  camera: where camera J's test holds — its pixel words u, v satisfy 0 ≤ u < 176 and 0 ≤ v < 64 as signed
  numbers, and its depth is positive — the entry becomes the feature the camera gathers at (row, column) =
  (clip and wrap of v, clip and wrap of u); elsewhere it keeps the earlier cameras' value. Where the test holds the
  clip and the wrap change nothing, so the gathered feature is the feature map's entry at row v, column u,
  which is position v · 176 + u of the map laid out as 11264 consecutive entries. So the entry is the same
  chain of selects, over the same tests, of the flattened features at the positions the words name.
-/
import proofs.«207241_g55714315764006_cont_9to1c4b_410_29_alg».proof.Proof.RefValue
import proofs.«207241_g55714315764006_cont_9to1c4b_410_29_alg».proof.Proof.GatherJoin
import Idealize.ShloMosaic.Lib.ValueIdx
import Idealize.ShloMosaic.Lib.Pipeline.Value

set_option maxRecDepth 8192

noncomputable section

namespace Cert.Proof.Join

open Cert.ReferenceIdeal (τ sig main_arg0)
open Cert.ReferenceIdeal.RefValue
open Cert.Proof.KI
open Idealize.ShloMosaic Idealize.SL.Sem
open Idealize.ShloMosaic.ValueIdx (ix2 ix3 ix4 ix5)

/-! ## A chain of selects depends on its values only where the tests hold -/

/-- Two chains over the same tests and the same start agree if their values agree at every camera whose test holds. -/
theorem chainSel_congr {α : Type} (g : Fin 6 → BitVec 1) (r r' : Fin 6 → α) (z : α) (h : ∀ J, g J = 1 → r J = r' J) :
    R1.chainSel g r z = R1.chainSel g r' z := by
  rw [R1.chainSel_eq_elim, R1.chainSel_eq_elim]
  cases hl : R1.lastOk g with
  | none => rfl
  | some J => exact h J (R1.lastOk_some g J hl)

/-! ## Clip and wrap are the identity on a word already in range -/

/-- A signed word between 0 and the upper bound is left alone by the clip to [0, hi] and by the wrap of
    negative indices. -/
theorem wrap_clip_id (m hi x : BitVec 32) (h0 : 0 ≤ x.toInt) (h1 : x.toInt ≤ hi.toInt) : wrapR m (clipR hi x) = x := by
  have e0 : (0#32 : BitVec 32).toInt = 0 := by decide
  have hmax : IntOp.maxsi 0#32 x = x := by
    unfold IntOp.maxsi
    rw [if_neg]
    simp only [BitVec.slt, e0, decide_eq_true_eq]; omega
  have hmin : IntOp.minsi hi x = x := by
    unfold IntOp.minsi
    rw [if_neg]
    simp only [BitVec.slt, decide_eq_true_eq]; omega
  have hc : ¬ IntOp.cmpi .slt x 0#32 = 1 := by
    rw [R1.cmpi_slt, e0]; omega
  unfold wrapR clipR
  rw [hmax, hmin]
  unfold Scalar.select
  rw [if_neg hc]

/-! ## The features as a table of flattened maps -/

variable [Cert.ReferenceIdeal.Facts] (V : Valuation τ sig (Elt Ideal))

/-- The feature maps with the batch axis dropped and each 64 × 176 map laid out as 11264 consecutive entries:
    entry (J, ch, pos) is the argument's entry (0, J, ch, pos / 176, pos % 176). -/
def featK : (⟨3, ![6, 256, 11264]⟩ : Shape).Idx → EReal := fun j =>
  featR V ⟨(j 0).val, (j 0).isLt⟩ ⟨(j 1).val, (j 1).isLt⟩
    ⟨(j 2).val / 176, by have h : (j 2).val < 11264 := (j 2).isLt; omega⟩
    ⟨(j 2).val % 176, Nat.mod_lt _ (by decide)⟩

theorem featK_apply (J : Fin 6) (ch : Fin 256) (pos : Fin 11264) :
    featK V (ix3 J ch pos) = featR V J ch ⟨pos.val / 176, by have := pos.isLt; omega⟩ ⟨pos.val % 176, Nat.mod_lt _ (by decide)⟩ := rfl

/-- It IS the double reshape [1, 6, 256, 64, 176] → [6, 256, 64, 176] → [6, 256, 11264] of the argument. -/
theorem featK_eq_reshape
    (h1 : (⟨5, ![1, 6, 256, 64, 176]⟩ : Shape).ShapeCasts ⟨4, ![6, 256, 64, 176]⟩)
    (h2 : (⟨4, ![6, 256, 64, 176]⟩ : Shape).ShapeCasts ⟨3, ![6, 256, 11264]⟩) :
    featK V = shapeCast ⟨3, ![6, 256, 11264]⟩ (shapeCast ⟨4, ![6, 256, 64, 176]⟩
      (V (Proc.devRef .tc main_arg0) : (⟨5, ![1, 6, 256, 64, 176]⟩ : Shape).Idx → EReal) h1) h2 := by
  funext j
  have hj0 : (j 0).val < 6 := (j 0).isLt
  have hj1 : (j 1).val < 256 := (j 1).isLt
  have hj2 : (j 2).val < 11264 := (j 2).isLt
  refine Eq.symm ((shapeCast_apply _ h2 j
    (ix4 (⟨(j 0).val, hj0⟩ : Fin 6) (⟨(j 1).val, hj1⟩ : Fin 256) (⟨(j 2).val / 176, by omega⟩ : Fin 64) (⟨(j 2).val % 176, Nat.mod_lt _ (by decide)⟩ : Fin 176)) ?_).trans
    (shapeCast_apply _ h1 _
      (ix5 (0 : Fin 1) (⟨(j 0).val, hj0⟩ : Fin 6) (⟨(j 1).val, hj1⟩ : Fin 256) (⟨(j 2).val / 176, by omega⟩ : Fin 64) (⟨(j 2).val % 176, Nat.mod_lt _ (by decide)⟩ : Fin 176)) ?_))
  · rw [Shape.rowMajor_val_four, Shape.rowMajor_val_three]
    show (((j 0).val * 256 + (j 1).val) * 64 + (j 2).val / 176) * 176 + (j 2).val % 176 = ((j 0).val * 256 + (j 1).val) * 11264 + (j 2).val
    omega
  · rw [Shape.rowMajor_val_five, Shape.rowMajor_val_four]
    show ((((0 * 6 + (j 0).val) * 256 + (j 1).val) * 64 + (j 2).val / 176) * 176 + (j 2).val % 176)
      = (((j 0).val * 256 + (j 1).val) * 64 + (j 2).val / 176) * 176 + (j 2).val % 176
    omega

/-! ## The join -/

/-- Where camera J's test holds, what it gathers is the flattened features' entry at the position its words name. -/
theorem gath_eq (J : Fin 6) (ch : Fin 256) (n : Fin 160000) (h : validR V J n = 1) :
    gathR V J ch n = featK V (ix3 J ch (R1.posOf (uiR V J n) (viR V J n))) := by
  unfold validR at h
  rw [R1.andi_eq_one, R1.andi_eq_one, R1.andi_eq_one, R1.andi_eq_one, R1.cmpi_sge_zero, R1.cmpi_sge_zero, R1.cmpi_slt, R1.cmpi_slt] at h
  obtain ⟨⟨⟨⟨hu0, hv0⟩, hu1⟩, hv1⟩, -⟩ := h
  have e176 : (176#32 : BitVec 32).toInt = 176 := by decide
  have e64 : (64#32 : BitVec 32).toInt = 64 := by decide
  have e175 : (175#32 : BitVec 32).toInt = 175 := by decide
  have e63 : (63#32 : BitVec 32).toInt = 63 := by decide
  rw [e176] at hu1; rw [e64] at hv1
  have hu : (uiR V J n).toNat < 176 := R1.toNat_lt_of_signed _ 176 (by decide) hu0 hu1
  have hv : (viR V J n).toNat < 64 := R1.toNat_lt_of_signed _ 64 (by decide) hv0 hv1
  have hun : (uiR V J n).toInt.toNat = (uiR V J n).toNat := by
    rw [BitVec.toInt_eq_toNat_of_lt (by omega)]; rfl
  have hvn : (viR V J n).toInt.toNat = (viR V J n).toNat := by
    rw [BitVec.toInt_eq_toNat_of_lt (by omega)]; rfl
  have hrow : (rowR V J n).val = (viR V J n).toNat := by
    show min (wrapR 64#32 (clipR 63#32 (viR V J n))).toInt.toNat 63 = _
    rw [wrap_clip_id _ _ _ hv0 (by rw [e63]; omega), hvn]; omega
  have hcol : (colR V J n).val = (uiR V J n).toNat := by
    show min (wrapR 176#32 (clipR 175#32 (uiR V J n))).toInt.toNat 175 = _
    rw [wrap_clip_id _ _ _ hu0 (by rw [e175]; omega), hun]; omega
  have hpos : (R1.posOf (uiR V J n) (viR V J n)).val = (viR V J n).toNat * 176 + (uiR V J n).toNat := by
    show ((viR V J n).toNat * 176 + (uiR V J n).toNat) % 11264 = _
    omega
  have er : rowR V J n
      = (⟨(R1.posOf (uiR V J n) (viR V J n)).val / 176, by have := (R1.posOf (uiR V J n) (viR V J n)).isLt; omega⟩ : Fin 64) :=
    Fin.ext (by show (rowR V J n).val = (R1.posOf (uiR V J n) (viR V J n)).val / 176; rw [hrow, hpos]; omega)
  have ec : colR V J n
      = (⟨(R1.posOf (uiR V J n) (viR V J n)).val % 176, Nat.mod_lt _ (by decide)⟩ : Fin 176) :=
    Fin.ext (by show (colR V J n).val = (R1.posOf (uiR V J n) (viR V J n)).val % 176; rw [hcol, hpos]; omega)
  rw [featK_apply]
  unfold gathR
  rw [er, ec]

/-- THE VOLUME JOIN: the reference's volume entry is the chain of selects, over its own tests, of the flattened
    features at the positions its own words name. -/
theorem volumeR_eq_volK (ch : Fin 256) (n : Fin 160000) :
    volumeR V ch n = R1.volK (featK V) (fun J => validR V J n) (fun J => uiR V J n) (fun J => viR V J n) ch := by
  show R1.chainSel (fun J => validR V J n) (fun J => gathR V J ch n) (Ideal.ofBits .f32 0x00000000#32)
    = R1.chainSel (fun J => validR V J n) (fun J => featK V (ix3 J ch (R1.posOf (uiR V J n) (viR V J n)))) 0
  rw [Ideal.ofBits_zero_f32]
  exact chainSel_congr _ _ _ _ fun J hJ => gath_eq V J ch n hJ

end Cert.Proof.Join

end
-- ==== Proof.RefSide.lean ====
/-
  The reference's result, entry by entry, in the kernel's own per-camera words.

  The result's entry (0, o, ix, iy) is the normalised, rectified convolution of the depth-sums of the volume (the tail). The
  volume's entry for a channel and a voxel is the chain of selects, over the six cameras' tests, of the flattened features at
  the positions the cameras' words name (the volume join); and for any three arrays that agree entry by entry with the
  reference's rotation block, translation, image offsets and projection matrices, those tests and words are the kernel side's
  expressions at the voxel's number 800·ix + 4·iy + z (the camera join). Substituting under the sums gives the statement.
-/
import proofs.«207241_g55714315764006_cont_9to1c4b_410_29_alg».proof.Proof.CameraJoin
import proofs.«207241_g55714315764006_cont_9to1c4b_410_29_alg».proof.Proof.RefTail
import proofs.«207241_g55714315764006_cont_9to1c4b_410_29_alg».proof.Proof.VolJoin

set_option maxRecDepth 8192

noncomputable section

namespace Cert.Proof.RefSide

open Cert.ReferenceIdeal Cert.ReferenceIdeal.RefRun Cert.ReferenceIdeal.RefValue Cert.ReferenceIdeal.RefTail Cert.Proof.CameraJoin Cert.Proof.Join
  Idealize.ShloMosaic Idealize.SL.Sem Idealize.ShloMosaic.StableHlo Idealize.ShloMosaic.ValueIdx Cert.Proof.KI
open scoped BigOperators

variable [Cert.ReferenceIdeal.Facts]
variable (V : Valuation Cert.ReferenceIdeal.τ Cert.ReferenceIdeal.sig (Elt Ideal))
variable (x0 : Cert.KernelIdeal.S3x3.Idx → EReal) (x1 : Cert.KernelIdeal.S6x3x4.Idx → EReal) (x2 : Cert.KernelIdeal.S15.Idx → EReal)
variable (h0 : ∀ q r : Fin 3, x0 (ix2 q r) = lidarR V ⟨q.val, by omega⟩ ⟨r.val, by omega⟩)
variable (h2lo : ∀ k : Fin 3, x2 (ix1 (⟨k.val, by omega⟩ : Fin 15)) = lidarR V ⟨k.val, by omega⟩ 3)
variable (h2u : ∀ J : Fin 6, x2 (ix1 (R1.offU J)) = ttR V J 0)
variable (h2v : ∀ J : Fin 6, x2 (ix1 (R1.offV J)) = ttR V J 1)
variable (h1 : ∀ (J : Fin 6) (r : Fin 3) (k : Fin 4), x1 (ix3 J r k) = projR V J r k)

include h0 h2lo h2u h2v h1 in
/-- The stacked volume's entry at (0, ch, x, y, z) is the chain of selects of the flattened features over the kernel side's tests
    and words at the voxel's number. -/
theorem vol_side (ch : Fin 256) (x y : Fin 200) (z : Fin 4) :
    volR V (ix5 0 ch x y z)
      = R1.volK (featK V) (R1.okK x0 x1 x2 (800 * x.val + 4 * y.val + z.val)) (R1.uK x0 x1 x2 (800 * x.val + 4 * y.val + z.val))
          (R1.vK x0 x1 x2 (800 * x.val + 4 * y.val + z.val)) ch := by
  rw [volR_apply, read_v248, volumeR_eq_volK]
  have e1 : (fun J => validR V J ⟨800 * x.val + 4 * y.val + z.val, by omega⟩) = R1.okK x0 x1 x2 (800 * x.val + 4 * y.val + z.val) :=
    funext fun J => valid_join V x0 x1 x2 h0 h2lo h2u h2v h1 _ J
  have e2 : (fun J => uiR V J ⟨800 * x.val + 4 * y.val + z.val, by omega⟩) = R1.uK x0 x1 x2 (800 * x.val + 4 * y.val + z.val) :=
    funext fun J => ui_join V x0 x1 x2 h0 h2lo h2u h1 _ J
  have e3 : (fun J => viR V J ⟨800 * x.val + 4 * y.val + z.val, by omega⟩) = R1.vK x0 x1 x2 (800 * x.val + 4 * y.val + z.val) :=
    funext fun J => vi_join V x0 x1 x2 h0 h2lo h2v h1 _ J
  rw [e1, e2, e3]

include h0 h2lo h2u h2v h1 in
/-- THE REFERENCE'S SIDE: the result's entry (0, o, ix, iy) over the kernel side's per-camera words. -/
theorem ref_side (o : Fin 80) (ix iy : Fin 200) :
    after (ops (F := Ideal)) V (Proc.devRef .tc main_v277) (ix4 0 o ix iy)
      = Cert.Proof.Bridge.refOut
          (fun r : Fin 200 × Fin 200 =>
            (∑ ch : Fin 256, wR V (ix2 o ch) * (∑ z : Fin 4,
              R1.volK (featK V) (R1.okK x0 x1 x2 (800 * r.1.val + 4 * r.2.val + z.val))
                (R1.uK x0 x1 x2 (800 * r.1.val + 4 * r.2.val + z.val)) (R1.vK x0 x1 x2 (800 * r.1.val + 4 * r.2.val + z.val)) ch))
              + bR V (ix1 o))
          Nf epsf (gR V (ix1 o)) (sR V (ix1 o)) (ix, iy) := by
  have key : (fun r : Fin 200 × Fin 200 =>
        (∑ ch : Fin 256, wR V (ix2 o ch) * (∑ z : Fin 4, volR V (ix5 0 ch r.1 r.2 z))) + bR V (ix1 o))
      = (fun r : Fin 200 × Fin 200 =>
        (∑ ch : Fin 256, wR V (ix2 o ch) * (∑ z : Fin 4,
          R1.volK (featK V) (R1.okK x0 x1 x2 (800 * r.1.val + 4 * r.2.val + z.val))
            (R1.uK x0 x1 x2 (800 * r.1.val + 4 * r.2.val + z.val)) (R1.vK x0 x1 x2 (800 * r.1.val + 4 * r.2.val + z.val)) ch))
          + bR V (ix1 o)) := by
    funext r
    simp only [vol_side V x0 x1 x2 h0 h2lo h2u h2v h1]
  exact (refOut_tail V o ix iy).trans
    (congrArg (fun f => Cert.Proof.Bridge.refOut f Nf epsf (gR V (ix1 o)) (sR V (ix1 o)) (ix, iy)) key)

end Cert.Proof.RefSide

end
-- ==== Proof.HostGlueKI.lean ====
/-
  THE ADDRESS REGION'S INPUTS, READ OFF THE ARGUMENTS.

  Before the address region @main makes its three inputs from three arguments by host operations: the rotation is the upper-left
  3 × 3 of the augmentation matrix `A` (1 × 4 × 4); the fifteen offsets are its translation column `A[0, 0..2, 3]` followed by
  the twelve words `T[0, J, 0, 3], T[0, J, 1, 3]` of the six image augmentations `T` (1 × 6 × 4 × 4), camera by camera; the six
  projections are rows 0 to 2 of the batched product of `T`, its entries `(J, 0..2, 3)` overwritten by zero, with the six
  camera matrices `L` (1 × 6 × 4 × 4). Here each input is read at an index as an entry, or a sum of products of entries, of the
  arguments; the overwrite stays one named function of `T`, as the program states it. None of the three arguments is written
  before the region, so the entries are the launch's.
-/
import proofs.«207241_g55714315764006_cont_9to1c4b_410_29_alg».proof.Proof.ChainKI
import proofs.«207241_g55714315764006_cont_9to1c4b_410_29_alg».proof.Proof.KeptKI
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.Proof.KI

open Cert.KernelIdeal Cert.KernelIdeal.Gen Cert.Proof.KI.Ops
open Idealize.ShloMosaic Idealize.ShloMosaic.TcCoe
open Idealize.SL.Sem
open Idealize.ShloMosaic.StableHlo (after)
open Idealize.ShloMosaic.ValueIdx (ix1 ix2 ix3 ix4 contrEquiv1 contrEquiv1_symm_val)
open scoped BigOperators

/-! ## The three buffers as terms over the arguments' buffers -/

section AnyInstance
variable {F : FTy → Type} [FloatOps F]

/-- The overwrite's start `(0, 3)` and its update, six rows of three zeros, as the program builds them. -/
def scatIdx : IVec S2 32 :=
  concatenate S2 0 [⟨S1, broadcastInDim S1 ![] bcast_S_S1 (constantI S_ 32 0#32)⟩, ⟨S1, broadcastInDim S1 ![] bcast_S_S1 (constantI S_ 32 3#32)⟩]
    concatenates_S1_S1_S2_d0
def scatZeros : Vec F S6x3 .f32 := broadcastInDim S6x3 ![] bcast_S_S6x3 (constant S_ .f32 0x00000000#32 : FVec F S_ .f32)
/-- The image augmentations with their entries `(J, 0..2, 3)` overwritten by zero: the program's own scatter, kept whole. -/
def scatAug (a : Vec F S6x4x4 .f32) : Vec F S6x4x4 .f32 :=
  Host.scatter scatter_S6x4x4_S2_S6x3_01_2_12_0 (fun _ b => b) a scatIdx (scatZeros (F := F))

variable (X : Valuation τ sig (Elt F))

/-- The three arguments' buffers at their literal shapes. -/
abbrev augOf : Vec F S1x4x4 .f32 := X (Proc.devRef .tc main_arg5)
abbrev imgOf : Vec F S1x6x4x4 .f32 := X (Proc.devRef .tc main_arg4)
abbrev camOf : Vec F S1x6x4x4 .f32 := X (Proc.devRef .tc main_arg3)

/-- The rotation's buffer after the stretch. -/
theorem v7_eq : after (ops1 (F := F)) X (Proc.devRef .tc main_v7)
    = extractStridedSlice S3x3 ![0, 0] (shapeCast S4x4 (augOf X) shapeCasts_S1x4x4_S4x4) slices_S4x4_S3x3_0_0 := by
  after_results
  all_goals rfl

/-- The offsets' buffer after the stretch. -/
theorem v21_eq : after (ops1 (F := F)) X (Proc.devRef .tc main_v21)
    = concatenate S15 0
        [⟨Cert.KernelIdeal.S3, shapeCast Cert.KernelIdeal.S3 (extractStridedSlice S3x1 ![0, 3] (shapeCast S4x4 (augOf X) shapeCasts_S1x4x4_S4x4) slices_S4x4_S3x1_0_3) shapeCasts_S3x1_S3⟩,
         ⟨S12, shapeCast S12 (extractStridedSlice S6x2 ![0, 0] (shapeCast S6x4 (extractStridedSlice S6x4x1 ![0, 0, 3]
            (shapeCast S6x4x4 (imgOf X) shapeCasts_S1x6x4x4_S6x4x4) slices_S6x4x4_S6x4x1_0_0_3) shapeCasts_S6x4x1_S6x4) slices_S6x4_S6x2_0_0) shapeCasts_S6x2_S12⟩]
        concatenates_S3_S12_S15_d0 := by
  after_results
  all_goals rfl

/-- The projections' buffer after the stretch. -/
theorem v18_eq : after (ops1 (F := F)) X (Proc.devRef .tc main_v18)
    = extractStridedSlice S6x3x4 ![0, 0, 0]
        (Host.dotGeneral dot_S6x4x4_S6x4x4_S6x4x4_2_1_1_2_0_0 none (scatAug (shapeCast S6x4x4 (imgOf X) shapeCasts_S1x6x4x4_S6x4x4))
          (shapeCast S6x4x4 (camOf X) shapeCasts_S1x6x4x4_S6x4x4)) slices_S6x4x4_S6x3x4_0_0_0 := by
  after_results
  all_goals rfl

/-! ## Their entries -/

/-- A leading unit axis dropped: [1, 4, 4] read as [4, 4], -/
theorem aug_cast_apply (a : Vec F S1x4x4 .f32) (q r : Fin 4) :
    shapeCast S4x4 a shapeCasts_S1x4x4_S4x4 (ix2 q r) = a (ix3 (0 : Fin 1) q r) := by
  refine (shapeCast_dropUnit_apply ![4, 4] a shapeCasts_S1x4x4_S4x4 (ix2 q r)).trans ?_
  congr 1
  funext x
  match x with
  | ⟨0, _⟩ => rfl
  | ⟨1, _⟩ => rfl
  | ⟨2, _⟩ => rfl
/-- and [1, 6, 4, 4] read as [6, 4, 4]. -/
theorem img_cast_apply (a : Vec F S1x6x4x4 .f32) (J : Fin 6) (q r : Fin 4) :
    shapeCast S6x4x4 a shapeCasts_S1x6x4x4_S6x4x4 (ix3 J q r) = a (ix4 (0 : Fin 1) J q r) := by
  refine (shapeCast_dropUnit_apply ![6, 4, 4] a shapeCasts_S1x6x4x4_S6x4x4 (ix3 J q r)).trans ?_
  congr 1
  funext x
  match x with
  | ⟨0, _⟩ => rfl
  | ⟨1, _⟩ => rfl
  | ⟨2, _⟩ => rfl
  | ⟨3, _⟩ => rfl

/-- (1) THE ROTATION: entry `(q, r)` is the augmentation matrix's `(0, q, r)`. -/
theorem rot_apply (q r : Fin 3) :
    after (ops1 (F := F)) X (Proc.devRef .tc main_v7) (ix2 q r) = augOf X (ix3 (0 : Fin 1) (⟨q.val, by omega⟩ : Fin 4) (⟨r.val, by omega⟩ : Fin 4)) := by
  rw [v7_eq]
  refine (extractStridedSlice_apply ![0, 0] _ slices_S4x4_S3x3_0_0 (ix2 q r) (ix2 (⟨q.val, by omega⟩ : Fin 4) (⟨r.val, by omega⟩ : Fin 4))
    (fun a => by match a with | ⟨0, _⟩ => exact (Nat.zero_add _).symm | ⟨1, _⟩ => exact (Nat.zero_add _).symm)).trans ?_
  exact aug_cast_apply (augOf X) _ _

/-- (2) THE OFFSETS: words 0 to 2 are the augmentation matrix's translation column, -/
theorem par_apply_lo (k : Fin 3) :
    after (ops1 (F := F)) X (Proc.devRef .tc main_v21) (ix1 (⟨k.val, by omega⟩ : Fin 15))
      = augOf X (ix3 (0 : Fin 1) (⟨k.val, by omega⟩ : Fin 4) (3 : Fin 4)) := by
  rw [v21_eq]
  refine (concatenate_pair_apply_left (0 : Fin S15.rank) _ _ concatenates_S3_S12_S15_d0 (ix1 (⟨k.val, by omega⟩ : Fin 15)) rfl (ix1 k)
    (fun b => by match b with | ⟨0, _⟩ => rfl)).trans ?_
  refine (shapeCast_apply _ shapeCasts_S3x1_S3 (ix1 k) (ix2 k (0 : Fin 1))
    (by rw [Shape.rowMajor_val_two, Shape.rowMajor_val_one]; show k.val * 1 + 0 = k.val; omega)).trans ?_
  refine (extractStridedSlice_apply ![0, 3] _ slices_S4x4_S3x1_0_3 (ix2 k (0 : Fin 1)) (ix2 (⟨k.val, by omega⟩ : Fin 4) (3 : Fin 4))
    (fun a => by match a with | ⟨0, _⟩ => exact (Nat.zero_add _).symm | ⟨1, _⟩ => rfl)).trans ?_
  exact aug_cast_apply (augOf X) _ _
/-- and word `3 + 2J + e` (`e` = 0: the column's offset, 1: the row's) is the image augmentations' `(0, J, e, 3)`. -/
theorem par_apply_hi (J : Fin 6) (e : Fin 2) :
    after (ops1 (F := F)) X (Proc.devRef .tc main_v21) (ix1 (⟨3 + 2 * J.val + e.val, by omega⟩ : Fin 15))
      = imgOf X (ix4 (0 : Fin 1) J (⟨e.val, by omega⟩ : Fin 4) (3 : Fin 4)) := by
  rw [v21_eq]
  refine (concatenate_pair_apply_right (0 : Fin S15.rank) _ _ concatenates_S3_S12_S15_d0 (ix1 (⟨3 + 2 * J.val + e.val, by omega⟩ : Fin 15)) rfl rfl
    (ix1 (⟨2 * J.val + e.val, by omega⟩ : Fin 12)) (fun b hb => by match b, hb with | ⟨0, _⟩, hb => exact absurd rfl hb)
    (by show 2 * J.val + e.val + 3 = 3 + 2 * J.val + e.val; omega)).trans ?_
  refine (shapeCast_apply _ shapeCasts_S6x2_S12 (ix1 (⟨2 * J.val + e.val, by omega⟩ : Fin 12)) (ix2 J e)
    (by rw [Shape.rowMajor_val_two, Shape.rowMajor_val_one]; show J.val * 2 + e.val = 2 * J.val + e.val; omega)).trans ?_
  refine (extractStridedSlice_apply ![0, 0] _ slices_S6x4_S6x2_0_0 (ix2 J e) (ix2 J (⟨e.val, by omega⟩ : Fin 4))
    (fun a => by match a with | ⟨0, _⟩ => exact (Nat.zero_add _).symm | ⟨1, _⟩ => exact (Nat.zero_add _).symm)).trans ?_
  refine (shapeCast_apply _ shapeCasts_S6x4x1_S6x4 (ix2 J (⟨e.val, by omega⟩ : Fin 4)) (ix3 J (⟨e.val, by omega⟩ : Fin 4) (0 : Fin 1))
    (by rw [Shape.rowMajor_val_three, Shape.rowMajor_val_two]; show (J.val * 4 + e.val) * 1 + 0 = J.val * 4 + e.val; omega)).trans ?_
  refine (extractStridedSlice_apply ![0, 0, 3] _ slices_S6x4x4_S6x4x1_0_0_3 (ix3 J (⟨e.val, by omega⟩ : Fin 4) (0 : Fin 1)) (ix3 J (⟨e.val, by omega⟩ : Fin 4) (3 : Fin 4))
    (fun a => by match a with | ⟨0, _⟩ => exact (Nat.zero_add _).symm | ⟨1, _⟩ => exact (Nat.zero_add _).symm | ⟨2, _⟩ => rfl)).trans ?_
  exact img_cast_apply (imgOf X) J _ _

end AnyInstance

/-! ## The projections: the batched product at an index, at the ideal values -/

/-- The product contracts one axis, of extent 4. -/
theorem bat_contr_rank : dot_S6x4x4_S6x4x4_S6x4x4_2_1_1_2_0_0.contr.rank = 1 := by decide
theorem bat_contr_size : dot_S6x4x4_S6x4x4_S6x4x4_2_1_1_2_0_0.contr.size ⟨0, by rw [bat_contr_rank]; exact Nat.one_pos⟩ = 4 := by decide

/-- Its operand indices, axis by axis: both operands' camera is the result's; the left's row the result's row and its column
    the contraction's coordinate; the right's row the contraction's coordinate and its column the result's column. -/
theorem bat_lhs_0 (j : S6x4x4.Idx) (k : dot_S6x4x4_S6x4x4_S6x4x4_2_1_1_2_0_0.contr.Idx) : ((dot_S6x4x4_S6x4x4_S6x4x4_2_1_1_2_0_0.lhsIdx j k) (0 : Fin S6x4x4.rank)).val = (j (0 : Fin S6x4x4.rank)).val := by
  unfold DotDims.lhsIdx
  rw [dif_pos (show (0 : Fin S6x4x4.rank) ∈ dot_S6x4x4_S6x4x4_S6x4x4_2_1_1_2_0_0.lhsBatch by decide)]
  simp only [Fin.val_cast]
  have key : ∀ (p q : Nat) (hp : p < S6x4x4.rank) (hq : q < S6x4x4.rank), p = q → (j ⟨p, hp⟩).val = (j ⟨q, hq⟩).val :=
    fun p q hp hq h => by subst h; rfl
  exact key _ _ _ _ (by decide)
theorem bat_lhs_1 (j : S6x4x4.Idx) (k : dot_S6x4x4_S6x4x4_S6x4x4_2_1_1_2_0_0.contr.Idx) : ((dot_S6x4x4_S6x4x4_S6x4x4_2_1_1_2_0_0.lhsIdx j k) (1 : Fin S6x4x4.rank)).val = (j (1 : Fin S6x4x4.rank)).val := by
  unfold DotDims.lhsIdx
  rw [dif_neg (show ¬ (1 : Fin S6x4x4.rank) ∈ dot_S6x4x4_S6x4x4_S6x4x4_2_1_1_2_0_0.lhsBatch by decide), dif_pos (show (1 : Fin S6x4x4.rank) ∈ dot_S6x4x4_S6x4x4_S6x4x4_2_1_1_2_0_0.lhsNonContracting by decide)]
  simp only [Fin.val_cast]
  have key : ∀ (p q : Nat) (hp : p < S6x4x4.rank) (hq : q < S6x4x4.rank), p = q → (j ⟨p, hp⟩).val = (j ⟨q, hq⟩).val :=
    fun p q hp hq h => by subst h; rfl
  exact key _ _ _ _ (by decide)
theorem bat_lhs_2 (j : S6x4x4.Idx) (k : dot_S6x4x4_S6x4x4_S6x4x4_2_1_1_2_0_0.contr.Idx) : ((dot_S6x4x4_S6x4x4_S6x4x4_2_1_1_2_0_0.lhsIdx j k) (2 : Fin S6x4x4.rank)).val = (k ⟨0, by decide⟩).val :=
  DotDims.lhsIdx_val_of_single (d := dot_S6x4x4_S6x4x4_S6x4x4_2_1_1_2_0_0) (cl := (2 : Fin S6x4x4.rank)) rfl j k
theorem bat_rhs_0 (j : S6x4x4.Idx) (k : dot_S6x4x4_S6x4x4_S6x4x4_2_1_1_2_0_0.contr.Idx) : ((dot_S6x4x4_S6x4x4_S6x4x4_2_1_1_2_0_0.rhsIdx j k) (0 : Fin S6x4x4.rank)).val = (j (0 : Fin S6x4x4.rank)).val := by
  unfold DotDims.rhsIdx
  rw [dif_pos (show (0 : Fin S6x4x4.rank) ∈ dot_S6x4x4_S6x4x4_S6x4x4_2_1_1_2_0_0.rhsBatch by decide)]
  simp only [Fin.val_cast]
  have key : ∀ (p q : Nat) (hp : p < S6x4x4.rank) (hq : q < S6x4x4.rank), p = q → (j ⟨p, hp⟩).val = (j ⟨q, hq⟩).val :=
    fun p q hp hq h => by subst h; rfl
  exact key _ _ _ _ (by decide)
theorem bat_rhs_1 (j : S6x4x4.Idx) (k : dot_S6x4x4_S6x4x4_S6x4x4_2_1_1_2_0_0.contr.Idx) : ((dot_S6x4x4_S6x4x4_S6x4x4_2_1_1_2_0_0.rhsIdx j k) (1 : Fin S6x4x4.rank)).val = (k ⟨0, by decide⟩).val :=
  DotDims.rhsIdx_val_of_single (d := dot_S6x4x4_S6x4x4_S6x4x4_2_1_1_2_0_0) (cr := (1 : Fin S6x4x4.rank)) rfl j k
theorem bat_rhs_2 (j : S6x4x4.Idx) (k : dot_S6x4x4_S6x4x4_S6x4x4_2_1_1_2_0_0.contr.Idx) : ((dot_S6x4x4_S6x4x4_S6x4x4_2_1_1_2_0_0.rhsIdx j k) (2 : Fin S6x4x4.rank)).val = (j (2 : Fin S6x4x4.rank)).val := by
  unfold DotDims.rhsIdx
  rw [dif_neg (show ¬ (2 : Fin S6x4x4.rank) ∈ dot_S6x4x4_S6x4x4_S6x4x4_2_1_1_2_0_0.rhsBatch by decide), dif_pos (show (2 : Fin S6x4x4.rank) ∈ dot_S6x4x4_S6x4x4_S6x4x4_2_1_1_2_0_0.rhsNonContracting by decide)]
  simp only [Fin.val_cast]
  have key : ∀ (p q : Nat) (hp : p < S6x4x4.rank) (hq : q < S6x4x4.rank), p = q → (j ⟨p, hp⟩).val = (j ⟨q, hq⟩).val :=
    fun p q hp hq h => by subst h; rfl
  exact key _ _ _ _ (by decide)

/-- (3) THE PROJECTIONS: entry `(J, r, k)` is `Σ_q T'[J, r, q] · L[0, J, q, k]`, `T'` the image augmentations after the overwrite. -/
theorem proj_apply (X : Valuation τ sig (Elt Ideal)) (J : Fin 6) (r : Fin 3) (k : Fin 4) :
    after (ops1 (F := Ideal)) X (Proc.devRef .tc main_v18) (ix3 J r k)
      = ∑ q : Fin 4, scatAug (F := Ideal) (shapeCast S6x4x4 (imgOf X) shapeCasts_S1x6x4x4_S6x4x4) (ix3 J (⟨r.val, by omega⟩ : Fin 4) q)
          * camOf X (ix4 (0 : Fin 1) J q k) := by
  rw [v18_eq]
  refine (extractStridedSlice_apply ![0, 0, 0] _ slices_S6x4x4_S6x3x4_0_0_0 (ix3 J r k) (ix3 J (⟨r.val, by omega⟩ : Fin 4) k)
    (fun a => by match a with | ⟨0, _⟩ => exact (Nat.zero_add _).symm | ⟨1, _⟩ => exact (Nat.zero_add _).symm | ⟨2, _⟩ => exact (Nat.zero_add _).symm)).trans ?_
  refine (Ideal.dotGeneral_apply dot_S6x4x4_S6x4x4_S6x4x4_2_1_1_2_0_0 none .single _ _ (ix3 J (⟨r.val, by omega⟩ : Fin 4) k)).trans ?_
  refine (Equiv.sum_comp (contrEquiv1 dot_S6x4x4_S6x4x4_S6x4x4_2_1_1_2_0_0 4 bat_contr_rank bat_contr_size).symm _).symm.trans ?_
  refine Finset.sum_congr rfl fun q _ => ?_
  have hk := contrEquiv1_symm_val dot_S6x4x4_S6x4x4_S6x4x4_2_1_1_2_0_0 4 bat_contr_rank bat_contr_size q
  congr 1
  · congr 1
    funext a
    match a with
    | ⟨0, _⟩ => exact Fin.ext (bat_lhs_0 (ix3 J (⟨r.val, by omega⟩ : Fin 4) k) ((contrEquiv1 dot_S6x4x4_S6x4x4_S6x4x4_2_1_1_2_0_0 4 bat_contr_rank bat_contr_size).symm q))
    | ⟨1, _⟩ => exact Fin.ext (bat_lhs_1 (ix3 J (⟨r.val, by omega⟩ : Fin 4) k) ((contrEquiv1 dot_S6x4x4_S6x4x4_S6x4x4_2_1_1_2_0_0 4 bat_contr_rank bat_contr_size).symm q))
    | ⟨2, _⟩ => exact Fin.ext ((bat_lhs_2 (ix3 J (⟨r.val, by omega⟩ : Fin 4) k) ((contrEquiv1 dot_S6x4x4_S6x4x4_S6x4x4_2_1_1_2_0_0 4 bat_contr_rank bat_contr_size).symm q)).trans hk)
  · have e : dot_S6x4x4_S6x4x4_S6x4x4_2_1_1_2_0_0.rhsIdx (ix3 J (⟨r.val, by omega⟩ : Fin 4) k) ((contrEquiv1 dot_S6x4x4_S6x4x4_S6x4x4_2_1_1_2_0_0 4 bat_contr_rank bat_contr_size).symm q) = ix3 J q k :=
      funext fun a => by
        match a with
        | ⟨0, _⟩ => exact Fin.ext (bat_rhs_0 (ix3 J (⟨r.val, by omega⟩ : Fin 4) k) ((contrEquiv1 dot_S6x4x4_S6x4x4_S6x4x4_2_1_1_2_0_0 4 bat_contr_rank bat_contr_size).symm q))
        | ⟨1, _⟩ => exact Fin.ext ((bat_rhs_1 (ix3 J (⟨r.val, by omega⟩ : Fin 4) k) ((contrEquiv1 dot_S6x4x4_S6x4x4_S6x4x4_2_1_1_2_0_0 4 bat_contr_rank bat_contr_size).symm q)).trans hk)
        | ⟨2, _⟩ => exact Fin.ext (bat_rhs_2 (ix3 J (⟨r.val, by omega⟩ : Fin 4) k) ((contrEquiv1 dot_S6x4x4_S6x4x4_S6x4x4_2_1_1_2_0_0 4 bat_contr_rank bat_contr_size).symm q))
    rw [e]
    exact img_cast_apply (camOf X) J q k

/-! ## The arguments are the launch's -/

section Kept
variable {F : FTy → Type} [FloatOps F]
variable (m : (ℓ : Loc nD τ sig) → Buf (Elt F) ℓ)

/-- An argument that is no array of the table pipeline reaches the address region's stretch as launched. -/
theorem X0_arg (d : Dev nD) (r : Ref sig .tc) (h0 : ∀ w, Pipeline.arrRef spec0 w ≠ r) (h1 : r ∉ wr0) :
    X0 m d (Proc.devRef .tc r) = m (d, Proc.devRef .tc r) := by
  unfold X0
  rw [Wx0_of_ne (Ea m) d r h0]
  unfold Ea
  exact StableHlo.after_of_writes_sub (ops0 (F := F)) (W0 m d) ops0_writes h1

theorem X0_arg3 (d : Dev nD) : X0 m d (Proc.devRef .tc main_arg3) = m (d, Proc.devRef .tc main_arg3) :=
  X0_arg m d main_arg3 (by decide) (by decide)
theorem X0_arg4 (d : Dev nD) : X0 m d (Proc.devRef .tc main_arg4) = m (d, Proc.devRef .tc main_arg4) :=
  X0_arg m d main_arg4 (by decide) (by decide)
theorem X0_arg5 (d : Dev nD) : X0 m d (Proc.devRef .tc main_arg5) = m (d, Proc.devRef .tc main_arg5) :=
  X0_arg m d main_arg5 (by decide) (by decide)

end Kept

/-! ## The same at the address region's entry, over the launch's contents -/

section AtEntry
variable {F : FTy → Type} [FloatOps F]
variable (m : (ℓ : Loc nD τ sig) → Buf (Elt F) ℓ)

/-- The three arguments as launched, at their literal shapes. -/
abbrev augArg (d : Dev nD) : Vec F S1x4x4 .f32 := m (d, Proc.devRef .tc main_arg5)
abbrev imgArg (d : Dev nD) : Vec F S1x6x4x4 .f32 := m (d, Proc.devRef .tc main_arg4)
abbrev camArg (d : Dev nD) : Vec F S1x6x4x4 .f32 := m (d, Proc.devRef .tc main_arg3)

theorem augOf_X0 (d : Dev nD) : augOf (X0 m d) = augArg m d := X0_arg5 m d
theorem imgOf_X0 (d : Dev nD) : imgOf (X0 m d) = imgArg m d := X0_arg4 m d
theorem camOf_X0 (d : Dev nD) : camOf (X0 m d) = camArg m d := X0_arg3 m d

/-- The rotation the region is entered with. -/
theorem Eb_rot (d : Dev nD) (q r : Fin 3) :
    Eb m d (Proc.devRef .tc main_v7) (ix2 q r) = augArg m d (ix3 (0 : Fin 1) (⟨q.val, by omega⟩ : Fin 4) (⟨r.val, by omega⟩ : Fin 4)) := by
  unfold Eb
  rw [rot_apply (X0 m d) q r, augOf_X0]
/-- The offsets it is entered with. -/
theorem Eb_par_lo (d : Dev nD) (k : Fin 3) :
    Eb m d (Proc.devRef .tc main_v21) (ix1 (⟨k.val, by omega⟩ : Fin 15)) = augArg m d (ix3 (0 : Fin 1) (⟨k.val, by omega⟩ : Fin 4) (3 : Fin 4)) := by
  unfold Eb
  rw [par_apply_lo (X0 m d) k, augOf_X0]
theorem Eb_par_hi (d : Dev nD) (J : Fin 6) (e : Fin 2) :
    Eb m d (Proc.devRef .tc main_v21) (ix1 (⟨3 + 2 * J.val + e.val, by omega⟩ : Fin 15))
      = imgArg m d (ix4 (0 : Fin 1) J (⟨e.val, by omega⟩ : Fin 4) (3 : Fin 4)) := by
  unfold Eb
  rw [par_apply_hi (X0 m d) J e, imgOf_X0]

end AtEntry

/-- The projections it is entered with, at the ideal values. -/
theorem Eb_proj (m : (ℓ : Loc nD τ sig) → Buf (Elt Ideal) ℓ) (d : Dev nD) (J : Fin 6) (r : Fin 3) (k : Fin 4) :
    Eb m d (Proc.devRef .tc main_v18) (ix3 J r k)
      = ∑ q : Fin 4, scatAug (F := Ideal) (shapeCast S6x4x4 (imgArg m d) shapeCasts_S1x6x4x4_S6x4x4) (ix3 J (⟨r.val, by omega⟩ : Fin 4) q)
          * camArg m d (ix4 (0 : Fin 1) J q k) := by
  unfold Eb
  rw [proj_apply (X0 m d) J r k, imgOf_X0, camOf_X0]

end Cert.Proof.KI

end
-- ==== Proof.HypsKI.lean ====
/-
  The camera join's hypotheses hold of the kernel's own arrays, and the reference's result stated in the kernel's memory.

  The two programs start from memories that agree on the eleven arguments. The arrays the kernel's address region is entered
  with — the rotation, the projections, the fifteen offsets — are entries of the kernel's arguments (read on the kernel's side);
  the reference's rotation block, translation, image offsets and projection matrices are the same entries of its own arguments
  (read on the reference's side); the agreement carries one to the other. The projection matrices on both sides are the same
  printed scatter of the reshaped image augmentation, contracted with lidar2image over the same coordinate. Likewise the
  flattened features and the convolution's weights, bias, scale and shift. So the reference's result, entry by entry, is the
  normalised convolution of the depth-sums of the chain of selects — with every array on the right the kernel's.
-/
import proofs.«207241_g55714315764006_cont_9to1c4b_410_29_alg».proof.Proof.RefSide
import proofs.«207241_g55714315764006_cont_9to1c4b_410_29_alg».proof.Proof.HostGlueKI
import proofs.«207241_g55714315764006_cont_9to1c4b_410_29_alg».proof.Proof.KernelResultKI
import proofs.«207241_g55714315764006_cont_9to1c4b_410_29_alg».proof.Proof.KernelValueKI

set_option maxRecDepth 8192

noncomputable section

namespace Cert.Proof.HypsKI

open Cert.ReferenceIdeal.RefRun Cert.ReferenceIdeal.RefValue Cert.ReferenceIdeal.RefTail Cert.Proof.CameraJoin Cert.Proof.Join Cert.Proof.RefSide
  Idealize.ShloMosaic Idealize.SL.Sem Idealize.ShloMosaic.StableHlo Idealize.ShloMosaic.ValueIdx Cert.Proof.KI
open scoped BigOperators

/-- The two launch memories agree on the eleven arguments, on every device: the claim's own hypothesis. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

section Hyps

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (hag : Agree m m') (c : Dev Cert.KernelIdeal.nD)

/-- The reference's launch contents on device c. -/
abbrev VR : Valuation Cert.ReferenceIdeal.τ Cert.ReferenceIdeal.sig (Elt Ideal) := launchContents m' c

include hag in
theorem arg0_eq : (VR m' c) (Proc.devRef .tc Cert.ReferenceIdeal.main_arg0) = m (c, Proc.devRef .tc Cert.KernelIdeal.main_arg0) := (hag c).1
include hag in
theorem arg3_eq : (VR m' c) (Proc.devRef .tc Cert.ReferenceIdeal.main_arg3) = m (c, Proc.devRef .tc Cert.KernelIdeal.main_arg3) := (hag c).2.2.2.1
include hag in
theorem arg4_eq : (VR m' c) (Proc.devRef .tc Cert.ReferenceIdeal.main_arg4) = m (c, Proc.devRef .tc Cert.KernelIdeal.main_arg4) := (hag c).2.2.2.2.1
include hag in
theorem arg5_eq : (VR m' c) (Proc.devRef .tc Cert.ReferenceIdeal.main_arg5) = m (c, Proc.devRef .tc Cert.KernelIdeal.main_arg5) := (hag c).2.2.2.2.2.1
include hag in
theorem arg7_eq : (VR m' c) (Proc.devRef .tc Cert.ReferenceIdeal.main_arg7) = m (c, Proc.devRef .tc Cert.KernelIdeal.main_arg7) := (hag c).2.2.2.2.2.2.2.1
include hag in
theorem arg8_eq : (VR m' c) (Proc.devRef .tc Cert.ReferenceIdeal.main_arg8) = m (c, Proc.devRef .tc Cert.KernelIdeal.main_arg8) := (hag c).2.2.2.2.2.2.2.2.1
include hag in
theorem arg9_eq : (VR m' c) (Proc.devRef .tc Cert.ReferenceIdeal.main_arg9) = m (c, Proc.devRef .tc Cert.KernelIdeal.main_arg9) := (hag c).2.2.2.2.2.2.2.2.2.1
include hag in
theorem arg10_eq : (VR m' c) (Proc.devRef .tc Cert.ReferenceIdeal.main_arg10) = m (c, Proc.devRef .tc Cert.KernelIdeal.main_arg10) := (hag c).2.2.2.2.2.2.2.2.2.2

include hag in
/-- The rotation the kernel's address region is entered with is the reference's rotation block. -/
theorem hyp_h0 (q r : Fin 3) : KR.rotK m c (ix2 q r) = lidarR (VR m' c) ⟨q.val, by omega⟩ ⟨r.val, by omega⟩ := by
  unfold lidarR
  rw [arg5_eq m m' hag c]
  exact Eb_rot m c q r

include hag in
/-- Its first three offsets are the reference's translation. -/
theorem hyp_h2lo (k : Fin 3) : KR.parArr m c (ix1 (⟨k.val, by omega⟩ : Fin 15)) = lidarR (VR m' c) ⟨k.val, by omega⟩ 3 := by
  unfold lidarR
  rw [arg5_eq m m' hag c]
  exact Eb_par_lo m c k

include hag in
/-- Camera J's column offset is the image augmentation's translation's first entry. -/
theorem hyp_h2u (J : Fin 6) : KR.parArr m c (ix1 (R1.offU J)) = ttR (VR m' c) J 0 := by
  unfold ttR
  rw [arg4_eq m m' hag c]
  exact Eb_par_hi m c J 0

include hag in
/-- Its row offset the second. -/
theorem hyp_h2v (J : Fin 6) : KR.parArr m c (ix1 (R1.offV J)) = ttR (VR m' c) J 1 := by
  unfold ttR
  rw [arg4_eq m m' hag c]
  have e : R1.offV J = (⟨3 + 2 * J.val + (1 : Fin 2).val, by have := J.isLt; omega⟩ : Fin 15) :=
    Fin.ext (by show 4 + 2 * J.val = 3 + 2 * J.val + 1; omega)
  rw [e]
  exact Eb_par_hi m c J 1

include hag in
/-- The projections it is entered with are the reference's projection matrices: the same printed scatter of the reshaped image
    augmentation, contracted with lidar2image over the same coordinate. -/
theorem hyp_h1 (J : Fin 6) (r : Fin 3) (k : Fin 4) : KR.projArr m c (ix3 J r k) = projR (VR m' c) J r k := by
  rw [projR_eq]
  refine (Eb_proj m c J r k).trans ?_
  show (_ : EReal) = _
  refine Finset.sum_congr rfl fun q _ => ?_
  rw [augZR_eq]
  unfold l2iR
  rw [arg4_eq m m' hag c, arg3_eq m m' hag c]
  rfl

include hag in
/-- The flattened features are the kernel's. -/
theorem feat_eq : featK (VR m' c) = KR.featArr m c := by
  funext j
  obtain ⟨a, b, p, rfl⟩ : ∃ a b p, j = ix3 a b p := ⟨j 0, j 1, j 2, eq_ix3 j⟩
  rw [featK_apply]
  unfold featR
  rw [arg0_eq m m' hag c]
  exact (Ea_feat (F := Ideal) m c a b p).symm

include hag in
theorem w_eq : wR (VR m' c) = KR.wArr m c := arg7_eq m m' hag c
include hag in
theorem b_eq : bR (VR m' c) = m (c, Proc.devRef .tc Cert.KernelIdeal.main_arg8) := arg8_eq m m' hag c
include hag in
theorem g_eq : gR (VR m' c) = m (c, Proc.devRef .tc Cert.KernelIdeal.main_arg9) := arg9_eq m m' hag c
include hag in
theorem s_eq : sR (VR m' c) = m (c, Proc.devRef .tc Cert.KernelIdeal.main_arg10) := arg10_eq m m' hag c

include hag in
/-- THE REFERENCE'S RESULT IN THE KERNEL'S MEMORY: entry (0, o, ix, iy). -/
theorem ref_side_at (o : Fin 80) (ix iy : Fin 200) :
    refOut (F := Ideal) m' c (ix4 0 o ix iy)
      = Cert.Proof.Bridge.refOut
          (fun r : Fin 200 × Fin 200 =>
            (∑ ch : Fin 256, KR.wArr m c (ix2 o ch) * (∑ z : Fin 4,
              R1.volK (KR.featArr m c) (R1.okK (KR.rotK m c) (KR.projArr m c) (KR.parArr m c) (800 * r.1.val + 4 * r.2.val + z.val))
                (R1.uK (KR.rotK m c) (KR.projArr m c) (KR.parArr m c) (800 * r.1.val + 4 * r.2.val + z.val))
                (R1.vK (KR.rotK m c) (KR.projArr m c) (KR.parArr m c) (800 * r.1.val + 4 * r.2.val + z.val)) ch))
              + (m (c, Proc.devRef .tc Cert.KernelIdeal.main_arg8) : Cert.KernelIdeal.S80.Idx → EReal) (ix1 o))
          Nf epsf ((m (c, Proc.devRef .tc Cert.KernelIdeal.main_arg9) : Cert.KernelIdeal.S80.Idx → EReal) (ix1 o))
          ((m (c, Proc.devRef .tc Cert.KernelIdeal.main_arg10) : Cert.KernelIdeal.S80.Idx → EReal) (ix1 o)) (ix, iy) := by
  have h := ref_side (VR m' c) (KR.rotK m c) (KR.projArr m c) (KR.parArr m c) (hyp_h0 m m' hag c) (hyp_h2lo m m' hag c)
    (hyp_h2u m m' hag c) (hyp_h2v m m' hag c) (hyp_h1 m m' hag c) o ix iy
  rw [feat_eq m m' hag c, w_eq m m' hag c, b_eq m m' hag c, g_eq m m' hag c, s_eq m m' hag c] at h
  exact h

end Hyps

end Cert.Proof.HypsKI

end
-- ==== Proof.BridgeKI.lean ====
/-
  The bridge between the two programs' results, and the value claim.

  The reference's result at (0, o, ix, iy) is the normalisation law's reference arrangement, over the 40000
  positions, of the convolved and biased depth-sums of its volume; the kernel's is the law's kernel arrangement of
  the pairwise-added convolutions of the four depth cells. The volume's entries are, on both sides, the same chain
  of six selects over the same tests of the same flattened features at the positions the same pixel words name:
  on the reference's side by reading its program, on the kernel's side by reading the address region, the table
  region and the gather. With every entry a real (the precondition), the two arrangements are equal: batch
  normalisation does not see the bias, the centred second moment is the mean square less the squared mean, and a
  1 × 1 convolution commutes with the sum over the depth cells.
-/
import proofs.«207241_g55714315764006_cont_9to1c4b_410_29_alg».proof.Proof.BridgeJoin
import proofs.«207241_g55714315764006_cont_9to1c4b_410_29_alg».proof.Proof.KernelResultKI
import proofs.«207241_g55714315764006_cont_9to1c4b_410_29_alg».proof.Proof.FinalKI
import proofs.«207241_g55714315764006_cont_9to1c4b_410_29_alg».proof.Proof.FiniteFinalKI
import proofs.«207241_g55714315764006_cont_9to1c4b_410_29_alg».proof.Proof.HypsKI

set_option maxRecDepth 8192

noncomputable section

namespace Cert.Proof.KI

open Cert.Proof.Bridge
open Idealize.ShloMosaic Idealize.SL.Sem Idealize.ShloMosaic.StableHlo
open Idealize.ShloMosaic.ValueIdx (ix1 ix2 ix3 ix4 ix5)
open scoped BigOperators

/-- Every index of a [1, 80, 200, 200] array is (0, o, ix, iy). -/
theorem exists_ix4 (j : (⟨4, ![1, 80, 200, 200]⟩ : Shape).Idx) : ∃ (o : Fin 80) (ix iy : Fin 200), j = ix4 (0 : Fin 1) o ix iy :=
  ⟨j 1, j 2, j 3, by
    funext a
    match a with
    | ⟨0, _⟩ => exact Fin.ext (by have h : (j 0).val < 1 := (j 0).isLt; show (j 0).val = 0; omega)
    | ⟨1, _⟩ => rfl
    | ⟨2, _⟩ => rfl
    | ⟨3, _⟩ => rfl⟩

/-! ## The bridge, from the two sides' readings -/

/-- THE BRIDGE, given the reference's side read in the kernel's memory: the reference's result is the kernel's.
    The reference's arrangement over the volume's entries is the kernel's arrangement over the position values (every
    entry a real, by the precondition), which is what the kernel's result is. -/
theorem bridge_from [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hL : ∀ (o : Fin 80) (ix iy : Fin 200), Cert.ReferenceIdeal.RefRun.refOut m' c (ix4 (0 : Fin 1) o ix iy)
      = Cert.Proof.Bridge.refOut (fun r : Fin 200 × Fin 200 =>
          (∑ ch : Fin 256, KR.wAt m c o ch * (∑ z : Fin 4, KR.volAt m c r z ch)) + KR.biasArr m c (ix1 o))
          (Ideal.ofBits .f32 0x471C4000#32) (Ideal.ofBits .f32 0x3727C5AC#32)
          (KR.gammaArr m c (ix1 o)) (KR.betaArr m c (ix1 o)) (ix, iy)) :
    Cert.ReferenceIdeal.RefRun.refOut m' c
      = Wf (F := Ideal) m (Rf m) (Gf m) c (Proc.devRef .tc Cert.KernelIdeal.main_v33) := by
  show @Eq ((⟨4, ![1, 80, 200, 200]⟩ : Shape).Idx → EReal) _ _
  funext j
  obtain ⟨o, ix, iy, rfl⟩ := exists_ix4 j
  refine (hL o ix iy).trans ((result_join_ext (ι := Fin 200 × Fin 200) (by simp) (KR.volAt m c) (KR.wAt m c o)
    (KR.biasArr m c (ix1 o)) (KR.gammaArr m c (ix1 o)) (KR.betaArr m c (ix1 o))
    (KR.volAt_finite m c hpre) (KR.wAt_finite m c hpre o) (KR.bias_finite m c hpre o) (KR.gamma_finite m c hpre o)
    (KR.beta_finite m c hpre o) (ix, iy)).trans (kernel_result m c o ix iy).symm)

/-! ## The value claim, from the bridge -/

/-- The two launch memories agree on the eleven arguments, paired by position (the value claim's hypothesis, as the
    claim spells it). -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

/-- The value claim, given the bridge: the kernel's run names its result, the reference's run names its own, and the two
    are equal; both keep their arguments. -/
theorem algebraic_of [Cert.KernelIdeal.Facts] [Cert.ReferenceIdeal.Facts] [Cert.Pre_finite_inputs.Facts]
    (hbridge : ∀ (m : (ℓ : Loc Cert.KernelIdeal.nD Cert.KernelIdeal.τ Cert.KernelIdeal.sig) → Buf (Elt Ideal) ℓ)
      (m' : (ℓ : Loc Cert.ReferenceIdeal.nD Cert.ReferenceIdeal.τ Cert.ReferenceIdeal.sig) → Buf (Elt Ideal) ℓ),
      Cert.Pre_KernelIdeal m → Agree m m' → ∀ c : Dev Cert.KernelIdeal.nD,
        Cert.ReferenceIdeal.RefRun.refOut m' c
          = Wf (F := Ideal) m (Rf m) (Gf m) c (Proc.devRef .tc Cert.KernelIdeal.main_v33)) :
    Cert.algebraic_KernelIdeal_ReferenceIdeal := by
  intro m g m' g' hpre hag
  refine ⟨fun c => Wf (F := Ideal) m (Rf m) (Gf m) c (Proc.devRef .tc Cert.KernelIdeal.main_v33), run_full m g, ?_⟩
  refine (θ_run _ _ _).mono (fun r h c => ?_) (Cert.ReferenceIdeal.RefRun.run m' g')
  obtain ⟨h0, hrest⟩ := h c
  exact ⟨h0.trans (hbridge m m' hpre hag c), hrest⟩

/-- THE BRIDGE: from memories that agree on the arguments, under the precondition, the reference's result is the
    kernel's, on every device. -/
theorem bridge [Cert.KernelIdeal.Facts] [Cert.ReferenceIdeal.Facts] [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (hag : Agree m m') (c : Dev Cert.KernelIdeal.nD) :
    Cert.ReferenceIdeal.RefRun.refOut m' c
      = Wf (F := Ideal) m (Rf m) (Gf m) c (Proc.devRef .tc Cert.KernelIdeal.main_v33) :=
  bridge_from m m' hpre c fun o ix iy => Cert.Proof.HypsKI.ref_side_at m m' hag c o ix iy

/-- THE VALUE CLAIM: at the ideal values, from memories agreeing on the arguments, both programs run, end with equal
    results and leave their arguments unchanged. -/
theorem algebraic [Cert.KernelIdeal.Facts] [Cert.ReferenceIdeal.Facts] [Cert.Pre_finite_inputs.Facts] :
    Cert.algebraic_KernelIdeal_ReferenceIdeal :=
  algebraic_of bridge

end Cert.Proof.KI

end
-- ==== Proof.lean ====
/-
  The proof of `Cert.Claim`: the gather-and-normalise kernel terminates without a fault at both float
  instances, so does the reference, and at the idealized instance — where floats are extended reals and every
  operation is exact — the two return the same array, the kernel leaving its eleven arguments unchanged.

  The kernel is five launches under one @main: the 1×1 convolution of every camera's feature map into a table
  of rows (the seventh block all zeros), the voxels' gather addresses (the last camera whose projection falls
  inside the feature map, else the zero row), the SparseCore gather that sums four depth cells' table rows per
  ground position, the batch statistics, and the normalisation with the clamp at zero. The reference gathers
  first, sums the depth cells, convolves and adds the bias, and normalises by the mean and the centred variance.
  Convolution commutes with the depth sum; the bias cancels in the normalisation; the mean square less the
  squared mean is the centred variance; all over finite reals, which the precondition gives.

  The frames go through the SparseCore launch theorem (the tiles' obligation, the four TensorCore regions each
  entered inside @main's obligation) — once at each instance, the word-level modules being the idealized
  ones with the names substituted —; the reference's by the host run; the first translation records no edit.
-/
import proofs.«207241_g55714315764006_cont_9to1c4b_410_29_alg».proof.Defs
import proofs.«207241_g55714315764006_cont_9to1c4b_410_29_alg».proof.Proof.Gen.Kernel
import proofs.«207241_g55714315764006_cont_9to1c4b_410_29_alg».proof.Proof.Gen.KernelIdeal
import proofs.«207241_g55714315764006_cont_9to1c4b_410_29_alg».proof.Proof.Gen.ReferenceIdeal
import proofs.«207241_g55714315764006_cont_9to1c4b_410_29_alg».proof.Proof.Gen.Pre_finite_inputs
import proofs.«207241_g55714315764006_cont_9to1c4b_410_29_alg».proof.Proof.FinalKB
import proofs.«207241_g55714315764006_cont_9to1c4b_410_29_alg».proof.Proof.FinalKI
import proofs.«207241_g55714315764006_cont_9to1c4b_410_29_alg».proof.Proof.RefRun
import proofs.«207241_g55714315764006_cont_9to1c4b_410_29_alg».proof.Proof.BridgeKI

noncomputable section

namespace Cert.Proof

open Idealize.ShloMosaic Idealize.SL.Sem

/-- The word-level kernel's frame. -/
theorem frame_kernel : Cert.frame_Kernel := fun m g _ => Cert.Proof.KB.frame_gen (F := Bits) m g

/-- The idealized kernel's frame. -/
theorem frame_kernel_ideal : Cert.frame_KernelIdeal := fun m g _ => Cert.Proof.KI.frame_gen (F := Ideal) m g

theorem claim : Cert.Claim := ⟨Cert.Kernel.Gen.facts, Cert.KernelIdeal.Gen.facts, Cert.ReferenceIdeal.Gen.facts, Cert.Pre_finite_inputs.Gen.facts,
  frame_kernel, frame_kernel_ideal, Cert.ReferenceIdeal.RefRun.frame, trivial, Cert.Proof.KI.algebraic⟩

end Cert.Proof

end
